-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v299)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v299) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v438) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x9 : Shape := ⟨2, ![20000, 9]⟩
abbrev S20000x3 : Shape := ⟨2, ![20000, 3]⟩
abbrev S160000x10 : Shape := ⟨2, ![160000, 10]⟩
abbrev S20000x1 : Shape := ⟨2, ![20000, 1]⟩
abbrev S2x160000 : Shape := ⟨2, ![2, 160000]⟩
abbrev S6x128 : Shape := ⟨2, ![6, 128]⟩
abbrev S128 : Shape := ⟨1, ![128]⟩
abbrev S128x128 : Shape := ⟨2, ![128, 128]⟩
abbrev S10x128 : Shape := ⟨2, ![10, 128]⟩
abbrev S6x128x128 : Shape := ⟨3, ![6, 128, 128]⟩
abbrev S130x128 : Shape := ⟨2, ![130, 128]⟩
abbrev S128x64 : Shape := ⟨2, ![128, 64]⟩
abbrev S64 : Shape := ⟨1, ![64]⟩
abbrev S64x3 : Shape := ⟨2, ![64, 3]⟩
abbrev S3 : Shape := ⟨1, ![3]⟩
abbrev S_ : Shape := ⟨0, ![]⟩

class Facts : Prop where
  bcast_S_S20000x9 : S_.BroadcastsInDim S20000x9 (![] : Fin 0 → Fin S20000x9.rank)
  reducesTo_S20000x9_S_d0_1 : S20000x9.ReducesTo [0, 1] S_
  h_S_ : 0 < S_.numel
  bcast_S_S20000x3 : S_.BroadcastsInDim S20000x3 (![] : Fin 0 → Fin S20000x3.rank)
  reducesTo_S20000x3_S_d0_1 : S20000x3.ReducesTo [0, 1] S_
  bcast_S_S160000x10 : S_.BroadcastsInDim S160000x10 (![] : Fin 0 → Fin S160000x10.rank)
  reducesTo_S160000x10_S_d0_1 : S160000x10.ReducesTo [0, 1] S_
  bcast_S_S20000x1 : S_.BroadcastsInDim S20000x1 (![] : Fin 0 → Fin S20000x1.rank)
  reducesTo_S20000x1_S_d0_1 : S20000x1.ReducesTo [0, 1] S_
  bcast_S_S6x128 : S_.BroadcastsInDim S6x128 (![] : Fin 0 → Fin S6x128.rank)
  reducesTo_S6x128_S_d0_1 : S6x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S10x128 : S_.BroadcastsInDim S10x128 (![] : Fin 0 → Fin S10x128.rank)
  reducesTo_S10x128_S_d0_1 : S10x128.ReducesTo [0, 1] S_
  bcast_S_S6x128x128 : S_.BroadcastsInDim S6x128x128 (![] : Fin 0 → Fin S6x128x128.rank)
  reducesTo_S6x128x128_S_d0_1_2 : S6x128x128.ReducesTo [0, 1, 2] S_
  bcast_S_S130x128 : S_.BroadcastsInDim S130x128 (![] : Fin 0 → Fin S130x128.rank)
  reducesTo_S130x128_S_d0_1 : S130x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part8 {F : FTy → Type} [FloatOps F] (main_arg29 : FVec F S64x3 .f32) (main_arg30 : FVec F S3 .f32) (main_v133 : IVec S_ 1) (main_v136 : IVec S64 1) : IVec S_ 1 :=
  let main_c_53 : IVec S_ 1 := constantI S_ 1 1#1
  let main_v137 : IVec S_ 1 := (fun x v => Host.reduce IntOp.andi x v reducesTo_S64_S_d0 h_S_) main_v136 main_c_53
  let main_v138 : IVec S_ 1 := andi main_v133 main_v137
  let main_v139 : FVec F S64x3 .f32 := Host.absf main_arg29
  let main_cst_54 : FVec F S_ .f32 := constant S_ .f32 0x7F800000#32
  let main_v140 : FVec F S64x3 .f32 := broadcastInDim S64x3 ![] bcast_S_S64x3 main_cst_54
  let main_v141 : IVec S64x3 1 := cmpf .olt main_v139 main_v140
  let main_c_55 : IVec S_ 1 := constantI S_ 1 1#1
  let main_v142 : IVec S_ 1 := (fun x v => Host.reduce IntOp.andi x v reducesTo_S64x3_S_d0_1 h_S_) main_v141 main_c_55
  let main_v143 : IVec S_ 1 := andi main_v138 main_v142
  let main_v144 : FVec F S3 .f32 := Host.absf main_arg30
  let main_cst_56 : FVec F S_ .f32 := constant S_ .f32 0x7F800000#32
  let main_v145 : FVec F S3 .f32 := broadcastInDim S3 ![] bcast_S_S3 main_cst_56
  let main_v146 : IVec S3 1 := cmpf .olt main_v144 main_v145
  let main_c_57 : IVec S_ 1 := constantI S_ 1 1#1
  let main_v147 : IVec S_ 1 := (fun x v => Host.reduce IntOp.andi x v reducesTo_S3_S_d0 h_S_) main_v146 main_c_57
  let main_v148 : IVec S_ 1 := andi main_v143 main_v147
  main_v148

def fn_part7 {F : FTy → Type} [FloatOps F] (main_arg26 : FVec F S128 .f32) (main_arg27 : FVec F S128x64 .f32) (main_arg28 : FVec F S64 .f32) (main_arg29 : FVec F S64x3 .f32) (main_arg30 : FVec F S3 .f32) (main_v118 : IVec S_ 1) (main_v119 : FVec F S130x128 .f32) : IVec S_ 1 :=
  let main_cst_46 : FVec F S_ .f32 := constant S_ .f32 0x7F800000#32
  let main_v120 : FVec F S130x128 .f32 := broadcastInDim S130x128 ![] bcast_S_S130x128 main_cst_46
  let main_v121 : IVec S130x128 1 := cmpf .olt main_v119 main_v120
  let main_c_47 : IVec S_ 1 := constantI S_ 1 1#1
  let main_v122 : IVec S_ 1 := (fun x v => Host.reduce IntOp.andi x v reducesTo_S130x128_S_d0_1 h_S_) main_v121 main_c_47
  let main_v123 : IVec S_ 1 := andi main_v118 main_v122
  let main_v124 : FVec F S128 .f32 := Host.absf main_arg26
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  let main_v129 : FVec F S128x64 .f32 := Host.absf main_arg27
  let main_cst_50 : FVec F S_ .f32 := constant S_ .f32 0x7F800000#32
  let main_v130 : FVec F S128x64 .f32 := broadcastInDim S128x64 ![] bcast_S_S128x64 main_cst_50
  let main_v131 : IVec S128x64 1 := cmpf .olt main_v129 main_v130
  let main_c_51 : IVec S_ 1 := constantI S_ 1 1#1
  let main_v132 : IVec S_ 1 := (fun x v => Host.reduce IntOp.andi x v reducesTo_S128x64_S_d0_1 h_S_) main_v131 main_c_51
  let main_v133 : IVec S_ 1 := andi main_v128 main_v132
  let main_v134 : FVec F S64 .f32 := Host.absf main_arg28
  let main_cst_52 : FVec F S_ .f32 := constant S_ .f32 0x7F800000#32
  let main_v135 : FVec F S64 .f32 := broadcastInDim S64 ![] bcast_S_S64 main_cst_52
  let main_v136 : IVec S64 1 := cmpf .olt main_v134 main_v135
  fn_part8 (F := F) main_arg29 main_arg30 main_v133 main_v136

def fn_part6 {F : FTy → Type} [FloatOps F] (main_arg22 : FVec F S6x128 .f32) (main_arg23 : FVec F S6x128x128 .f32) (main_arg24 : FVec F S6x128 .f32) (main_arg25 : FVec F S130x128 .f32) (main_arg26 : FVec F S128 .f32) (main_arg27 : FVec F S128x64 .f32) (main_arg28 : FVec F S64 .f32) (main_arg29 : FVec F S64x3 .f32) (main_arg30 : FVec F S3 .f32) (main_v98 : IVec S_ 1) (main_v101 : IVec S6x128x128 1) (main_c_39 : IVec S_ 1) : IVec S_ 1 :=
  let main_v102 : IVec S_ 1 := (fun x v => Host.reduce IntOp.andi x v reducesTo_S6x128x128_S_d0_1_2 h_S_) main_v101 main_c_39
  let main_v103 : IVec S_ 1 := andi main_v98 main_v102
  let main_v104 : FVec F S6x128 .f32 := Host.absf main_arg22
  let main_cst_40 : FVec F S_ .f32 := constant S_ .f32 0x7F800000#32
  let main_v105 : FVec F S6x128 .f32 := broadcastInDim S6x128 ![] bcast_S_S6x128 main_cst_40
  let main_v106 : IVec S6x128 1 := cmpf .olt main_v104 main_v105
  let main_c_41 : IVec S_ 1 := constantI S_ 1 1#1
  let main_v107 : IVec S_ 1 := (fun x v => Host.reduce IntOp.andi x v reducesTo_S6x128_S_d0_1 h_S_) main_v106 main_c_41
  let main_v108 : IVec S_ 1 := andi main_v103 main_v107
  let main_v109 : FVec F S6x128x128 .f32 := Host.absf main_arg23
  let main_cst_42 : FVec F S_ .f32 := constant S_ .f32 0x7F800000#32
  let main_v110 : FVec F S6x128x128 .f32 := broadcastInDim S6x128x128 ![] bcast_S_S6x128x128 main_cst_42
  let main_v111 : IVec S6x128x128 1 := cmpf .olt main_v109 main_v110
  let main_c_43 : IVec S_ 1 := constantI S_ 1 1#1
  let main_v112 : IVec S_ 1 := (fun x v => Host.reduce IntOp.andi x v reducesTo_S6x128x128_S_d0_1_2 h_S_) main_v111 main_c_43
  let main_v113 : IVec S_ 1 := andi main_v108 main_v112
  let main_v114 : FVec F S6x128 .f32 := Host.absf main_arg24
  let main_cst_44 : FVec F S_ .f32 := constant S_ .f32 0x7F800000#32
  let main_v115 : FVec F S6x128 .f32 := broadcastInDim S6x128 ![] bcast_S_S6x128 main_cst_44
  let main_v116 : IVec S6x128 1 := cmpf .olt main_v114 main_v115
  let main_c_45 : IVec S_ 1 := constantI S_ 1 1#1
  let main_v117 : IVec S_ 1 := (fun x v => Host.reduce IntOp.andi x v reducesTo_S6x128_S_d0_1 h_S_) main_v116 main_c_45
  let main_v118 : IVec S_ 1 := andi main_v113 main_v117
  let main_v119 : FVec F S130x128 .f32 := Host.absf main_arg25
  fn_part7 (F := F) main_arg26 main_arg27 main_arg28 main_arg29 main_arg30 main_v118 main_v119

def fn_part5 {F : FTy → Type} [FloatOps F] (main_arg19 : FVec F S6x128 .f32) (main_arg20 : FVec F S6x128x128 .f32) (main_arg21 : FVec F S6x128x128 .f32) (main_arg22 : FVec F S6x128 .f32) (main_arg23 : FVec F S6x128x128 .f32) (main_arg24 : FVec F S6x128 .f32) (main_arg25 : FVec F S130x128 .f32) (main_arg26 : FVec F S128 .f32) (main_arg27 : FVec F S128x64 .f32) (main_arg28 : FVec F S64 .f32) (main_arg29 : FVec F S64x3 .f32) (main_arg30 : FVec F S3 .f32) (main_v83 : IVec S_ 1) (main_v84 : FVec F S6x128x128 .f32) (main_cst_32 : FVec F S_ .f32) : IVec S_ 1 :=
  let main_v85 : FVec F S6x128x128 .f32 := broadcastInDim S6x128x128 ![] bcast_S_S6x128x128 main_cst_32
  let main_v86 : IVec S6x128x128 1 := cmpf .olt main_v84 main_v85
  let main_c_33 : IVec S_ 1 := constantI S_ 1 1#1
  let main_v87 : IVec S_ 1 := (fun x v => Host.reduce IntOp.andi x v reducesTo_S6x128x128_S_d0_1_2 h_S_) main_v86 main_c_33
  let main_v88 : IVec S_ 1 := andi main_v83 main_v87
  let main_v89 : FVec F S6x128 .f32 := Host.absf main_arg19
  let main_cst_34 : FVec F S_ .f32 := constant S_ .f32 0x7F800000#32
  let main_v90 : FVec F S6x128 .f32 := broadcastInDim S6x128 ![] bcast_S_S6x128 main_cst_34
  let main_v91 : IVec S6x128 1 := cmpf .olt main_v89 main_v90
  let main_c_35 : IVec S_ 1 := constantI S_ 1 1#1
  let main_v92 : IVec S_ 1 := (fun x v => Host.reduce IntOp.andi x v reducesTo_S6x128_S_d0_1 h_S_) main_v91 main_c_35
  let main_v93 : IVec S_ 1 := andi main_v88 main_v92
  let main_v94 : FVec F S6x128x128 .f32 := Host.absf main_arg20
  let main_cst_36 : FVec F S_ .f32 := constant S_ .f32 0x7F800000#32
  let main_v95 : FVec F S6x128x128 .f32 := broadcastInDim S6x128x128 ![] bcast_S_S6x128x128 main_cst_36
  let main_v96 : IVec S6x128x128 1 := cmpf .olt main_v94 main_v95
  let main_c_37 : IVec S_ 1 := constantI S_ 1 1#1
  let main_v97 : IVec S_ 1 := (fun x v => Host.reduce IntOp.andi x v reducesTo_S6x128x128_S_d0_1_2 h_S_) main_v96 main_c_37
  let main_v98 : IVec S_ 1 := andi main_v93 main_v97
  let main_v99 : FVec F S6x128x128 .f32 := Host.absf main_arg21
  let main_cst_38 : FVec F S_ .f32 := constant S_ .f32 0x7F800000#32
  let main_v100 : FVec F S6x128x128 .f32 := broadcastInDim S6x128x128 ![] bcast_S_S6x128x128 main_cst_38
  let main_v101 : IVec S6x128x128 1 := cmpf .olt main_v99 main_v100
  let main_c_39 : IVec S_ 1 := constantI S_ 1 1#1
  fn_part6 (F := F) main_arg22 main_arg23 main_arg24 main_arg25 main_arg26 main_arg27 main_arg28 main_arg29 main_arg30 main_v98 main_v101 main_c_39

def fn_part4 {F : FTy → Type} [FloatOps F] (main_arg15 : FVec F S6x128x128 .f32) (main_arg16 : FVec F S6x128x128 .f32) (main_arg17 : FVec F S6x128 .f32) (main_arg18 : FVec F S6x128x128 .f32) (main_arg19 : FVec F S6x128 .f32) (main_arg20 : FVec F S6x128x128 .f32) (main_arg21 : FVec F S6x128x128 .f32) (main_arg22 : FVec F S6x128 .f32) (main_arg23 : FVec F S6x128x128 .f32) (main_arg24 : FVec F S6x128 .f32) (main_arg25 : FVec F S130x128 .f32) (main_arg26 : FVec F S128 .f32) (main_arg27 : FVec F S128x64 .f32) (main_arg28 : FVec F S64 .f32) (main_arg29 : FVec F S64x3 .f32) (main_arg30 : FVec F S3 .f32) (main_v63 : IVec S_ 1) (main_v67 : IVec S_ 1) : IVec S_ 1 :=
  let main_v68 : IVec S_ 1 := andi main_v63 main_v67
  let main_v69 : FVec F S6x128x128 .f32 := Host.absf main_arg15
  let main_cst_26 : FVec F S_ .f32 := constant S_ .f32 0x7F800000#32
  let main_v70 : FVec F S6x128x128 .f32 := broadcastInDim S6x128x128 ![] bcast_S_S6x128x128 main_cst_26
  let main_v71 : IVec S6x128x128 1 := cmpf .olt main_v69 main_v70
  let main_c_27 : IVec S_ 1 := constantI S_ 1 1#1
  let main_v72 : IVec S_ 1 := (fun x v => Host.reduce IntOp.andi x v reducesTo_S6x128x128_S_d0_1_2 h_S_) main_v71 main_c_27
  let main_v73 : IVec S_ 1 := andi main_v68 main_v72
  let main_v74 : FVec F S6x128x128 .f32 := Host.absf main_arg16
  let main_cst_28 : FVec F S_ .f32 := constant S_ .f32 0x7F800000#32
  let main_v75 : FVec F S6x128x128 .f32 := broadcastInDim S6x128x128 ![] bcast_S_S6x128x128 main_cst_28
  let main_v76 : IVec S6x128x128 1 := cmpf .olt main_v74 main_v75
  let main_c_29 : IVec S_ 1 := constantI S_ 1 1#1
  let main_v77 : IVec S_ 1 := (fun x v => Host.reduce IntOp.andi x v reducesTo_S6x128x128_S_d0_1_2 h_S_) main_v76 main_c_29
  let main_v78 : IVec S_ 1 := andi main_v73 main_v77
  let main_v79 : FVec F S6x128 .f32 := Host.absf main_arg17
  let main_cst_30 : FVec F S_ .f32 := constant S_ .f32 0x7F800000#32
  let main_v80 : FVec F S6x128 .f32 := broadcastInDim S6x128 ![] bcast_S_S6x128 main_cst_30
  let main_v81 : IVec S6x128 1 := cmpf .olt main_v79 main_v80
  let main_c_31 : IVec S_ 1 := constantI S_ 1 1#1
  let main_v82 : IVec S_ 1 := (fun x v => Host.reduce IntOp.andi x v reducesTo_S6x128_S_d0_1 h_S_) main_v81 main_c_31
  let main_v83 : IVec S_ 1 := andi main_v78 main_v82
  let main_v84 : FVec F S6x128x128 .f32 := Host.absf main_arg18
  let main_cst_32 : FVec F S_ .f32 := constant S_ .f32 0x7F800000#32
  fn_part5 (F := F) main_arg19 main_arg20 main_arg21 main_arg22 main_arg23 main_arg24 main_arg25 main_arg26 main_arg27 main_arg28 main_arg29 main_arg30 main_v83 main_v84 main_cst_32

def fn_part3 {F : FTy → Type} [FloatOps F] (main_arg12 : FVec F S128x128 .f32) (main_arg13 : FVec F S128 .f32) (main_arg14 : FVec F S6x128x128 .f32) (main_arg15 : FVec F S6x128x128 .f32) (main_arg16 : FVec F S6x128x128 .f32) (main_arg17 : FVec F S6x128 .f32) (main_arg18 : FVec F S6x128x128 .f32) (main_arg19 : FVec F S6x128 .f32) (main_arg20 : FVec F S6x128x128 .f32) (main_arg21 : FVec F S6x128x128 .f32) (main_arg22 : FVec F S6x128 .f32) (main_arg23 : FVec F S6x128x128 .f32) (main_arg24 : FVec F S6x128 .f32) (main_arg25 : FVec F S130x128 .f32) (main_arg26 : FVec F S128 .f32) (main_arg27 : FVec F S128x64 .f32) (main_arg28 : FVec F S64 .f32) (main_arg29 : FVec F S64x3 .f32) (main_arg30 : FVec F S3 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S6x128x128 .f32 := Host.absf main_arg14
  let main_cst_24 : FVec F S_ .f32 := constant S_ .f32 0x7F800000#32
  let main_v65 : FVec F S6x128x128 .f32 := broadcastInDim S6x128x128 ![] bcast_S_S6x128x128 main_cst_24
  let main_v66 : IVec S6x128x128 1 := cmpf .olt main_v64 main_v65
  let main_c_25 : IVec S_ 1 := constantI S_ 1 1#1
  let main_v67 : IVec S_ 1 := (fun x v => Host.reduce IntOp.andi x v reducesTo_S6x128x128_S_d0_1_2 h_S_) main_v66 main_c_25
  fn_part4 (F := F) main_arg15 main_arg16 main_arg17 main_arg18 main_arg19 main_arg20 main_arg21 main_arg22 main_arg23 main_arg24 main_arg25 main_arg26 main_arg27 main_arg28 main_arg29 main_arg30 main_v63 main_v67

def fn_part2 {F : FTy → Type} [FloatOps F] (main_arg8 : FVec F S128x128 .f32) (main_arg9 : FVec F S128 .f32) (main_arg10 : FVec F S10x128 .f32) (main_arg11 : FVec F S128 .f32) (main_arg12 : FVec F S128x128 .f32) (main_arg13 : FVec F S128 .f32) (main_arg14 : FVec F S6x128x128 .f32) (main_arg15 : FVec F S6x128x128 .f32) (main_arg16 : FVec F S6x128x128 .f32) (main_arg17 : FVec F S6x128 .f32) (main_arg18 : FVec F S6x128x128 .f32) (main_arg19 : FVec F S6x128 .f32) (main_arg20 : FVec F S6x128x128 .f32) (main_arg21 : FVec F S6x128x128 .f32) (main_arg22 : FVec F S6x128 .f32) (main_arg23 : FVec F S6x128x128 .f32) (main_arg24 : FVec F S6x128 .f32) (main_arg25 : FVec F S130x128 .f32) (main_arg26 : FVec F S128 .f32) (main_arg27 : FVec F S128x64 .f32) (main_arg28 : FVec F S64 .f32) (main_arg29 : FVec F S64x3 .f32) (main_arg30 : FVec F S3 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S10x128 .f32 := Host.absf main_arg10
  let main_cst_16 : FVec F S_ .f32 := constant S_ .f32 0x7F800000#32
  let main_v45 : FVec F S10x128 .f32 := broadcastInDim S10x128 ![] bcast_S_S10x128 main_cst_16
  let main_v46 : IVec S10x128 1 := cmpf .olt main_v44 main_v45
  let main_c_17 : IVec S_ 1 := constantI S_ 1 1#1
  let main_v47 : IVec S_ 1 := (fun x v => Host.reduce IntOp.andi x v reducesTo_S10x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_arg20 main_arg21 main_arg22 main_arg23 main_arg24 main_arg25 main_arg26 main_arg27 main_arg28 main_arg29 main_arg30 main_v48 main_v49 main_v50

def fn_part1 {F : FTy → Type} [FloatOps F] (main_arg4 : FVec F S20000x1 .f32) (main_arg6 : FVec F S6x128 .f32) (main_arg7 : FVec F S128 .f32) (main_arg8 : FVec F S128x128 .f32) (main_arg9 : FVec F S128 .f32) (main_arg10 : FVec F S10x128 .f32) (main_arg11 : FVec F S128 .f32) (main_arg12 : FVec F S128x128 .f32) (main_arg13 : FVec F S128 .f32) (main_arg14 : FVec F S6x128x128 .f32) (main_arg15 : FVec F S6x128x128 .f32) (main_arg16 : FVec F S6x128x128 .f32) (main_arg17 : FVec F S6x128 .f32) (main_arg18 : FVec F S6x128x128 .f32) (main_arg19 : FVec F S6x128 .f32) (main_arg20 : FVec F S6x128x128 .f32) (main_arg21 : FVec F S6x128x128 .f32) (main_arg22 : FVec F S6x128 .f32) (main_arg23 : FVec F S6x128x128 .f32) (main_arg24 : FVec F S6x128 .f32) (main_arg25 : FVec F S130x128 .f32) (main_arg26 : FVec F S128 .f32) (main_arg27 : FVec F S128x64 .f32) (main_arg28 : FVec F S64 .f32) (main_arg29 : FVec F S64x3 .f32) (main_arg30 : FVec F S3 .f32) (main_v13 : IVec S_ 1) (main_v16 : IVec S20000x1 1) : IVec S_ 1 :=
  let main_c_5 : IVec S_ 1 := constantI S_ 1 1#1
  let main_v17 : IVec S_ 1 := (fun x v => Host.reduce IntOp.andi x v reducesTo_S20000x1_S_d0_1 h_S_) main_v16 main_c_5
  let main_v18 : IVec S_ 1 := andi main_v13 main_v17
  let main_v19 : FVec F S20000x1 .f32 := Host.absf main_arg4
  let main_cst_6 : FVec F S_ .f32 := constant S_ .f32 0x7F800000#32
  let main_v20 : FVec F S20000x1 .f32 := broadcastInDim S20000x1 ![] bcast_S_S20000x1 main_cst_6
  let main_v21 : IVec S20000x1 1 := cmpf .olt main_v19 main_v20
  let main_c_7 : IVec S_ 1 := constantI S_ 1 1#1
  let main_v22 : IVec S_ 1 := (fun x v => Host.reduce IntOp.andi x v reducesTo_S20000x1_S_d0_1 h_S_) main_v21 main_c_7
  let main_v23 : IVec S_ 1 := andi main_v18 main_v22
  let main_v24 : FVec F S6x128 .f32 := Host.absf main_arg6
  let main_cst_8 : FVec F S_ .f32 := constant S_ .f32 0x7F800000#32
  let main_v25 : FVec F S6x128 .f32 := broadcastInDim S6x128 ![] bcast_S_S6x128 main_cst_8
  let main_v26 : IVec S6x128 1 := cmpf .olt main_v24 main_v25
  let main_c_9 : IVec S_ 1 := constantI S_ 1 1#1
  let main_v27 : IVec S_ 1 := (fun x v => Host.reduce IntOp.andi x v reducesTo_S6x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v33

def fn {F : FTy → Type} [FloatOps F] (main_arg0 : FVec F S20000x9 .f32) (main_arg1 : FVec F S20000x3 .f32) (main_arg2 : FVec F S160000x10 .f32) (main_arg3 : FVec F S20000x1 .f32) (main_arg4 : FVec F S20000x1 .f32) (main_arg5 : IVec S2x160000 32) (main_arg6 : FVec F S6x128 .f32) (main_arg7 : FVec F S128 .f32) (main_arg8 : FVec F S128x128 .f32) (main_arg9 : FVec F S128 .f32) (main_arg10 : FVec F S10x128 .f32) (main_arg11 : FVec F S128 .f32) (main_arg12 : FVec F S128x128 .f32) (main_arg13 : FVec F S128 .f32) (main_arg14 : FVec F S6x128x128 .f32) (main_arg15 : FVec F S6x128x128 .f32) (main_arg16 : FVec F S6x128x128 .f32) (main_arg17 : FVec F S6x128 .f32) (main_arg18 : FVec F S6x128x128 .f32) (main_arg19 : FVec F S6x128 .f32) (main_arg20 : FVec F S6x128x128 .f32) (main_arg21 : FVec F S6x128x128 .f32) (main_arg22 : FVec F S6x128 .f32) (main_arg23 : FVec F S6x128x128 .f32) (main_arg24 : FVec F S6x128 .f32) (main_arg25 : FVec F S130x128 .f32) (main_arg26 : FVec F S128 .f32) (main_arg27 : FVec F S128x64 .f32) (main_arg28 : FVec F S64 .f32) (main_arg29 : FVec F S64x3 .f32) (main_arg30 : FVec F S3 .f32) : IVec S_ 1 :=
  let main_v0 : FVec F S20000x9 .f32 := Host.absf main_arg0
  let main_cst : FVec F S_ .f32 := constant S_ .f32 0x7F800000#32
  let main_v1 : FVec F S20000x9 .f32 := broadcastInDim S20000x9 ![] bcast_S_S20000x9 main_cst
  let main_v2 : IVec S20000x9 1 := cmpf .olt main_v0 main_v1
  let main_c : IVec S_ 1 := constantI S_ 1 1#1
  let main_v3 : IVec S_ 1 := (fun x v => Host.reduce IntOp.andi x v reducesTo_S20000x9_S_d0_1 h_S_) main_v2 main_c
  let main_v4 : FVec F S20000x3 .f32 := Host.absf main_arg1
  let main_cst_0 : FVec F S_ .f32 := constant S_ .f32 0x7F800000#32
  let main_v5 : FVec F S20000x3 .f32 := broadcastInDim S20000x3 ![] bcast_S_S20000x3 main_cst_0
  let main_v6 : IVec S20000x3 1 := cmpf .olt main_v4 main_v5
  let main_c_1 : IVec S_ 1 := constantI S_ 1 1#1
  let main_v7 : IVec S_ 1 := (fun x v => Host.reduce IntOp.andi x v reducesTo_S20000x3_S_d0_1 h_S_) main_v6 main_c_1
  let main_v8 : IVec S_ 1 := andi main_v3 main_v7
  let main_v9 : FVec F S160000x10 .f32 := Host.absf main_arg2
  let main_cst_2 : FVec F S_ .f32 := constant S_ .f32 0x7F800000#32
  let main_v10 : FVec F S160000x10 .f32 := broadcastInDim S160000x10 ![] bcast_S_S160000x10 main_cst_2
  let main_v11 : IVec S160000x10 1 := cmpf .olt main_v9 main_v10
  let main_c_3 : IVec S_ 1 := constantI S_ 1 1#1
  let main_v12 : IVec S_ 1 := (fun x v => Host.reduce IntOp.andi x v reducesTo_S160000x10_S_d0_1 h_S_) main_v11 main_c_3
  let main_v13 : IVec S_ 1 := andi main_v8 main_v12
  let main_v14 : FVec F S20000x1 .f32 := Host.absf main_arg3
  let main_cst_4 : FVec F S_ .f32 := constant S_ .f32 0x7F800000#32
  let main_v15 : FVec F S20000x1 .f32 := broadcastInDim S20000x1 ![] bcast_S_S20000x1 main_cst_4
  let main_v16 : IVec S20000x1 1 := cmpf .olt main_v14 main_v15
  fn_part1 (F := F) main_arg4 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v13 main_v16
-- ==== Kernel.lean ====
abbrev S20000x9 : Shape := ⟨2, ![20000, 9]⟩
abbrev S20000x3 : Shape := ⟨2, ![20000, 3]⟩
abbrev S160000x10 : Shape := ⟨2, ![160000, 10]⟩
abbrev S20000x1 : Shape := ⟨2, ![20000, 1]⟩
abbrev S2x160000 : Shape := ⟨2, ![2, 160000]⟩
abbrev S6x128 : Shape := ⟨2, ![6, 128]⟩
abbrev S128 : Shape := ⟨1, ![128]⟩
abbrev S128x128 : Shape := ⟨2, ![128, 128]⟩
abbrev S10x128 : Shape := ⟨2, ![10, 128]⟩
abbrev S6x128x128 : Shape := ⟨3, ![6, 128, 128]⟩
abbrev S130x128 : Shape := ⟨2, ![130, 128]⟩
abbrev S128x64 : Shape := ⟨2, ![128, 64]⟩
abbrev S64 : Shape := ⟨1, ![64]⟩
abbrev S64x3 : Shape := ⟨2, ![64, 3]⟩
abbrev S3 : Shape := ⟨1, ![3]⟩
abbrev S2 : Shape := ⟨1, ![2]⟩
abbrev S1x160000 : Shape := ⟨2, ![1, 160000]⟩
abbrev S160000 : Shape := ⟨1, ![160000]⟩
abbrev S_ : Shape := ⟨0, ![]⟩
abbrev S2x1 : Shape := ⟨2, ![2, 1]⟩
abbrev S20000x2 : Shape := ⟨2, ![20000, 2]⟩
abbrev S20000x6 : Shape := ⟨2, ![20000, 6]⟩
abbrev S1x128 : Shape := ⟨2, ![1, 128]⟩
abbrev S20000x128 : Shape := ⟨2, ![20000, 128]⟩
abbrev S4000x6 : Shape := ⟨2, ![4000, 6]⟩
abbrev S4000x128 : Shape := ⟨2, ![4000, 128]⟩
abbrev S160000x128 : Shape := ⟨2, ![160000, 128]⟩
abbrev S8000x10 : Shape := ⟨2, ![8000, 10]⟩
abbrev S8000x128 : Shape := ⟨2, ![8000, 128]⟩
abbrev S1x128x128 : Shape := ⟨3, ![1, 128, 128]⟩
abbrev S160000x1 : Shape := ⟨2, ![160000, 1]⟩
abbrev S20000x4 : Shape := ⟨2, ![20000, 4]⟩
abbrev S2x128 : Shape := ⟨2, ![2, 128]⟩
abbrev S1x64 : Shape := ⟨2, ![1, 64]⟩
abbrev S1x3 : Shape := ⟨2, ![1, 3]⟩
abbrev S4000x4 : Shape := ⟨2, ![4000, 4]⟩
abbrev S4000x3 : Shape := ⟨2, ![4000, 3]⟩
abbrev S4000x2 : Shape := ⟨2, ![4000, 2]⟩
abbrev S4000x1 : Shape := ⟨2, ![4000, 1]⟩
abbrev S4000x64 : Shape := ⟨2, ![4000, 64]⟩

abbrev nBuf : Space → Nat
  | .hbm => 377
  | .vmem => 211
  | .smem => 0
  | _ => 0

abbrev hbmTy0_0 (i : Nat) : BufTy := match i % 128 with
  | 0 => ⟨S20000x9, .f32⟩
  | 1 => ⟨S20000x3, .f32⟩
  | 2 => ⟨S160000x10, .f32⟩
  | 3 => ⟨S20000x1, .f32⟩
  | 4 => ⟨S20000x1, .f32⟩
  | 5 => ⟨S2x160000, .i32⟩
  | 6 => ⟨S6x128, .f32⟩
  | 7 => ⟨S128, .f32⟩
  | 8 => ⟨S128x128, .f32⟩
  | 9 => ⟨S128, .f32⟩
  | 10 => ⟨S10x128, .f32⟩
  | 11 => ⟨S128, .f32⟩
  | 12 => ⟨S128x128, .f32⟩
  | 13 => ⟨S128, .f32⟩
  | 14 => ⟨S6x128x128, .f32⟩
  | 15 => ⟨S6x128x128, .f32⟩
  | 16 => ⟨S6x128x128, .f32⟩
  | 17 => ⟨S6x128, .f32⟩
  | 18 => ⟨S6x128x128, .f32⟩
  | 19 => ⟨S6x128, .f32⟩
  | 20 => ⟨S6x128x128, .f32⟩
  | 21 => ⟨S6x128x128, .f32⟩
  | 22 => ⟨S6x128, .f32⟩
  | 23 => ⟨S6x128x128, .f32⟩
  | 24 => ⟨S6x128, .f32⟩
  | 25 => ⟨S130x128, .f32⟩
  | 26 => ⟨S128, .f32⟩
  | 27 => ⟨S128x64, .f32⟩
  | 28 => ⟨S64, .f32⟩
  | 29 => ⟨S64x3, .f32⟩
  | 30 => ⟨S3, .f32⟩
  | 31 => ⟨S2, .i32⟩
  | 32 => ⟨S1x160000, .i32⟩
  | 33 => ⟨S160000, .i32⟩
  | 34 => ⟨S1x160000, .i32⟩
  | 35 => ⟨S160000, .i32⟩
  | 36 => ⟨S_, .i32⟩
  | 37 => ⟨S2, .i32⟩
  | 38 => ⟨S2, .i1⟩
  | 39 => ⟨S_, .i32⟩
  | 40 => ⟨S2, .i32⟩
  | 41 => ⟨S2, .i32⟩
  | 42 => ⟨S2, .i32⟩
  | 43 => ⟨S2x1, .i32⟩
  | 44 => ⟨S20000x2, .f32⟩
  | 45 => ⟨S20000x6, .f32⟩
  | 46 => ⟨S1x128, .f32⟩
  | 47 => ⟨S1x128, .f32⟩
  | 48 => ⟨S20000x128, .f32⟩
  | 49 => ⟨S1x128, .f32⟩
  | 50 => ⟨S1x128, .f32⟩
  | 51 => ⟨S160000x128, .bf16⟩
  | 52 => ⟨S1x128x128, .f32⟩
  | 53 => ⟨S128x128, .f32⟩
  | 54 => ⟨S1x128x128, .f32⟩
  | 55 => ⟨S128x128, .f32⟩
  | 56 => ⟨S20000x128, .bf16⟩
  | 57 => ⟨S20000x128, .bf16⟩
  | 58 => ⟨S_, .i32⟩
  | 59 => ⟨S160000, .i32⟩
  | 60 => ⟨S160000, .i1⟩
  | 61 => ⟨S_, .i32⟩
  | 62 => ⟨S160000, .i32⟩
  | 63 => ⟨S160000, .i32⟩
  | 64 => ⟨S160000, .i32⟩
  | 65 => ⟨S160000x1, .i32⟩
  | 66 => ⟨S160000x128, .bf16⟩
  | 67 => ⟨S_, .i32⟩
  | 68 => ⟨S160000, .i32⟩
  | 69 => ⟨S160000, .i1⟩
  | 70 => ⟨S_, .i32⟩
  | 71 => ⟨S160000, .i32⟩
  | 72 => ⟨S160000, .i32⟩
  | 73 => ⟨S160000, .i32⟩
  | 74 => ⟨S160000x1, .i32⟩
  | 75 => ⟨S160000x128, .bf16⟩
  | 76 => ⟨S1x128x128, .f32⟩
  | 77 => ⟨S128x128, .f32⟩
  | 78 => ⟨S1x128, .f32⟩
  | 79 => ⟨S128, .f32⟩
  | 80 => ⟨S1x128x128, .f32⟩
  | 81 => ⟨S128x128, .f32⟩
  | 82 => ⟨S1x128, .f32⟩
  | 83 => ⟨S128, .f32⟩
  | 84 => ⟨S1x128, .f32⟩
  | 85 => ⟨S1x128, .f32⟩
  | 86 => ⟨S160000x128, .f32⟩
  | 87 => ⟨S_, .f32⟩
  | 88 => ⟨S20000x128, .f32⟩
  | 89 => ⟨S160000x1, .i32⟩
  | 90 => ⟨S20000x128, .f32⟩
  | 91 => ⟨S1x128x128, .f32⟩
  | 92 => ⟨S128x128, .f32⟩
  | 93 => ⟨S1x128x128, .f32⟩
  | 94 => ⟨S128x128, .f32⟩
  | 95 => ⟨S1x128, .f32⟩
  | 96 => ⟨S128, .f32⟩
  | 97 => ⟨S1x128x128, .f32⟩
  | 98 => ⟨S128x128, .f32⟩
  | 99 => ⟨S1x128, .f32⟩
  | 100 => ⟨S128, .f32⟩
  | 101 => ⟨S1x128x128, .f32⟩
  | 102 => ⟨S128x128, .f32⟩
  | 103 => ⟨S1x128x128, .f32⟩
  | 104 => ⟨S128x128, .f32⟩
  | 105 => ⟨S1x128, .f32⟩
  | 106 => ⟨S1x128, .f32⟩
  | 107 => ⟨S20000x128, .f32⟩
  | 108 => ⟨S20000x128, .bf16⟩
  | 109 => ⟨S20000x128, .bf16⟩
  | 110 => ⟨S_, .i32⟩
  | 111 => ⟨S160000, .i32⟩
  | 112 => ⟨S160000, .i1⟩
  | 113 => ⟨S_, .i32⟩
  | 114 => ⟨S160000, .i32⟩
  | 115 => ⟨S160000, .i32⟩
  | 116 => ⟨S160000, .i32⟩
  | 117 => ⟨S160000x1, .i32⟩
  | 118 => ⟨S160000x128, .bf16⟩
  | 119 => ⟨S_, .i32⟩
  | 120 => ⟨S160000, .i32⟩
  | 121 => ⟨S160000, .i1⟩
  | 122 => ⟨S_, .i32⟩
  | 123 => ⟨S160000, .i32⟩
  | 124 => ⟨S160000, .i32⟩
  | 125 => ⟨S160000, .i32⟩
  | 126 => ⟨S160000x1, .i32⟩
  | 127 => ⟨S160000x128, .bf16⟩
  | _ => ⟨S20000x9, .f32⟩

abbrev hbmTy0_1 (i : Nat) : BufTy := match i % 128 with
  | 0 => ⟨S1x128x128, .f32⟩
  | 1 => ⟨S128x128, .f32⟩
  | 2 => ⟨S1x128, .f32⟩
  | 3 => ⟨S128, .f32⟩
  | 4 => ⟨S1x128x128, .f32⟩
  | 5 => ⟨S128x128, .f32⟩
  | 6 => ⟨S1x128, .f32⟩
  | 7 => ⟨S128, .f32⟩
  | 8 => ⟨S1x128, .f32⟩
  | 9 => ⟨S1x128, .f32⟩
  | 10 => ⟨S160000x128, .f32⟩
  | 11 => ⟨S_, .f32⟩
  | 12 => ⟨S20000x128, .f32⟩
  | 13 => ⟨S160000x1, .i32⟩
  | 14 => ⟨S20000x128, .f32⟩
  | 15 => ⟨S1x128x128, .f32⟩
  | 16 => ⟨S128x128, .f32⟩
  | 17 => ⟨S1x128x128, .f32⟩
  | 18 => ⟨S128x128, .f32⟩
  | 19 => ⟨S1x128, .f32⟩
  | 20 => ⟨S128, .f32⟩
  | 21 => ⟨S1x128x128, .f32⟩
  | 22 => ⟨S128x128, .f32⟩
  | 23 => ⟨S1x128, .f32⟩
  | 24 => ⟨S128, .f32⟩
  | 25 => ⟨S1x128x128, .f32⟩
  | 26 => ⟨S128x128, .f32⟩
  | 27 => ⟨S1x128x128, .f32⟩
  | 28 => ⟨S128x128, .f32⟩
  | 29 => ⟨S1x128, .f32⟩
  | 30 => ⟨S1x128, .f32⟩
  | 31 => ⟨S20000x128, .f32⟩
  | 32 => ⟨S20000x128, .bf16⟩
  | 33 => ⟨S20000x128, .bf16⟩
  | 34 => ⟨S_, .i32⟩
  | 35 => ⟨S160000, .i32⟩
  | 36 => ⟨S160000, .i1⟩
  | 37 => ⟨S_, .i32⟩
  | 38 => ⟨S160000, .i32⟩
  | 39 => ⟨S160000, .i32⟩
  | 40 => ⟨S160000, .i32⟩
  | 41 => ⟨S160000x1, .i32⟩
  | 42 => ⟨S160000x128, .bf16⟩
  | 43 => ⟨S_, .i32⟩
  | 44 => ⟨S160000, .i32⟩
  | 45 => ⟨S160000, .i1⟩
  | 46 => ⟨S_, .i32⟩
  | 47 => ⟨S160000, .i32⟩
  | 48 => ⟨S160000, .i32⟩
  | 49 => ⟨S160000, .i32⟩
  | 50 => ⟨S160000x1, .i32⟩
  | 51 => ⟨S160000x128, .bf16⟩
  | 52 => ⟨S1x128x128, .f32⟩
  | 53 => ⟨S128x128, .f32⟩
  | 54 => ⟨S1x128, .f32⟩
  | 55 => ⟨S128, .f32⟩
  | 56 => ⟨S1x128x128, .f32⟩
  | 57 => ⟨S128x128, .f32⟩
  | 58 => ⟨S1x128, .f32⟩
  | 59 => ⟨S128, .f32⟩
  | 60 => ⟨S1x128, .f32⟩
  | 61 => ⟨S1x128, .f32⟩
  | 62 => ⟨S160000x128, .f32⟩
  | 63 => ⟨S_, .f32⟩
  | 64 => ⟨S20000x128, .f32⟩
  | 65 => ⟨S160000x1, .i32⟩
  | 66 => ⟨S20000x128, .f32⟩
  | 67 => ⟨S1x128x128, .f32⟩
  | 68 => ⟨S128x128, .f32⟩
  | 69 => ⟨S1x128x128, .f32⟩
  | 70 => ⟨S128x128, .f32⟩
  | 71 => ⟨S1x128, .f32⟩
  | 72 => ⟨S128, .f32⟩
  | 73 => ⟨S1x128x128, .f32⟩
  | 74 => ⟨S128x128, .f32⟩
  | 75 => ⟨S1x128, .f32⟩
  | 76 => ⟨S128, .f32⟩
  | 77 => ⟨S1x128x128, .f32⟩
  | 78 => ⟨S128x128, .f32⟩
  | 79 => ⟨S1x128x128, .f32⟩
  | 80 => ⟨S128x128, .f32⟩
  | 81 => ⟨S1x128, .f32⟩
  | 82 => ⟨S1x128, .f32⟩
  | 83 => ⟨S20000x128, .f32⟩
  | 84 => ⟨S20000x128, .bf16⟩
  | 85 => ⟨S20000x128, .bf16⟩
  | 86 => ⟨S_, .i32⟩
  | 87 => ⟨S160000, .i32⟩
  | 88 => ⟨S160000, .i1⟩
  | 89 => ⟨S_, .i32⟩
  | 90 => ⟨S160000, .i32⟩
  | 91 => ⟨S160000, .i32⟩
  | 92 => ⟨S160000, .i32⟩
  | 93 => ⟨S160000x1, .i32⟩
  | 94 => ⟨S160000x128, .bf16⟩
  | 95 => ⟨S_, .i32⟩
  | 96 => ⟨S160000, .i32⟩
  | 97 => ⟨S160000, .i1⟩
  | 98 => ⟨S_, .i32⟩
  | 99 => ⟨S160000, .i32⟩
  | 100 => ⟨S160000, .i32⟩
  | 101 => ⟨S160000, .i32⟩
  | 102 => ⟨S160000x1, .i32⟩
  | 103 => ⟨S160000x128, .bf16⟩
  | 104 => ⟨S1x128x128, .f32⟩
  | 105 => ⟨S128x128, .f32⟩
  | 106 => ⟨S1x128, .f32⟩
  | 107 => ⟨S128, .f32⟩
  | 108 => ⟨S1x128x128, .f32⟩
  | 109 => ⟨S128x128, .f32⟩
  | 110 => ⟨S1x128, .f32⟩
  | 111 => ⟨S128, .f32⟩
  | 112 => ⟨S1x128, .f32⟩
  | 113 => ⟨S1x128, .f32⟩
  | 114 => ⟨S160000x128, .f32⟩
  | 115 => ⟨S_, .f32⟩
  | 116 => ⟨S20000x128, .f32⟩
  | 117 => ⟨S160000x1, .i32⟩
  | 118 => ⟨S20000x128, .f32⟩
  | 119 => ⟨S1x128x128, .f32⟩
  | 120 => ⟨S128x128, .f32⟩
  | 121 => ⟨S1x128x128, .f32⟩
  | 122 => ⟨S128x128, .f32⟩
  | 123 => ⟨S1x128, .f32⟩
  | 124 => ⟨S128, .f32⟩
  | 125 => ⟨S1x128x128, .f32⟩
  | 126 => ⟨S128x128, .f32⟩
  | 127 => ⟨S1x128, .f32⟩
  | _ => ⟨S20000x9, .f32⟩

abbrev hbmTy0_2 (i : Nat) : BufTy := match i % 128 with
  | 0 => ⟨S128, .f32⟩
  | 1 => ⟨S1x128x128, .f32⟩
  | 2 => ⟨S128x128, .f32⟩
  | 3 => ⟨S1x128x128, .f32⟩
  | 4 => ⟨S128x128, .f32⟩
  | 5 => ⟨S1x128, .f32⟩
  | 6 => ⟨S1x128, .f32⟩
  | 7 => ⟨S20000x128, .f32⟩
  | 8 => ⟨S20000x128, .bf16⟩
  | 9 => ⟨S20000x128, .bf16⟩
  | 10 => ⟨S_, .i32⟩
  | 11 => ⟨S160000, .i32⟩
  | 12 => ⟨S160000, .i1⟩
  | 13 => ⟨S_, .i32⟩
  | 14 => ⟨S160000, .i32⟩
  | 15 => ⟨S160000, .i32⟩
  | 16 => ⟨S160000, .i32⟩
  | 17 => ⟨S160000x1, .i32⟩
  | 18 => ⟨S160000x128, .bf16⟩
  | 19 => ⟨S_, .i32⟩
  | 20 => ⟨S160000, .i32⟩
  | 21 => ⟨S160000, .i1⟩
  | 22 => ⟨S_, .i32⟩
  | 23 => ⟨S160000, .i32⟩
  | 24 => ⟨S160000, .i32⟩
  | 25 => ⟨S160000, .i32⟩
  | 26 => ⟨S160000x1, .i32⟩
  | 27 => ⟨S160000x128, .bf16⟩
  | 28 => ⟨S1x128x128, .f32⟩
  | 29 => ⟨S128x128, .f32⟩
  | 30 => ⟨S1x128, .f32⟩
  | 31 => ⟨S128, .f32⟩
  | 32 => ⟨S1x128x128, .f32⟩
  | 33 => ⟨S128x128, .f32⟩
  | 34 => ⟨S1x128, .f32⟩
  | 35 => ⟨S128, .f32⟩
  | 36 => ⟨S1x128, .f32⟩
  | 37 => ⟨S1x128, .f32⟩
  | 38 => ⟨S160000x128, .f32⟩
  | 39 => ⟨S_, .f32⟩
  | 40 => ⟨S20000x128, .f32⟩
  | 41 => ⟨S160000x1, .i32⟩
  | 42 => ⟨S20000x128, .f32⟩
  | 43 => ⟨S1x128x128, .f32⟩
  | 44 => ⟨S128x128, .f32⟩
  | 45 => ⟨S1x128x128, .f32⟩
  | 46 => ⟨S128x128, .f32⟩
  | 47 => ⟨S1x128, .f32⟩
  | 48 => ⟨S128, .f32⟩
  | 49 => ⟨S1x128x128, .f32⟩
  | 50 => ⟨S128x128, .f32⟩
  | 51 => ⟨S1x128, .f32⟩
  | 52 => ⟨S128, .f32⟩
  | 53 => ⟨S1x128x128, .f32⟩
  | 54 => ⟨S128x128, .f32⟩
  | 55 => ⟨S1x128x128, .f32⟩
  | 56 => ⟨S128x128, .f32⟩
  | 57 => ⟨S1x128, .f32⟩
  | 58 => ⟨S1x128, .f32⟩
  | 59 => ⟨S20000x128, .f32⟩
  | 60 => ⟨S20000x128, .bf16⟩
  | 61 => ⟨S20000x128, .bf16⟩
  | 62 => ⟨S_, .i32⟩
  | 63 => ⟨S160000, .i32⟩
  | 64 => ⟨S160000, .i1⟩
  | 65 => ⟨S_, .i32⟩
  | 66 => ⟨S160000, .i32⟩
  | 67 => ⟨S160000, .i32⟩
  | 68 => ⟨S160000, .i32⟩
  | 69 => ⟨S160000x1, .i32⟩
  | 70 => ⟨S160000x128, .bf16⟩
  | 71 => ⟨S_, .i32⟩
  | 72 => ⟨S160000, .i32⟩
  | 73 => ⟨S160000, .i1⟩
  | 74 => ⟨S_, .i32⟩
  | 75 => ⟨S160000, .i32⟩
  | 76 => ⟨S160000, .i32⟩
  | 77 => ⟨S160000, .i32⟩
  | 78 => ⟨S160000x1, .i32⟩
  | 79 => ⟨S160000x128, .bf16⟩
  | 80 => ⟨S1x128x128, .f32⟩
  | 81 => ⟨S128x128, .f32⟩
  | 82 => ⟨S1x128, .f32⟩
  | 83 => ⟨S128, .f32⟩
  | 84 => ⟨S1x128x128, .f32⟩
  | 85 => ⟨S128x128, .f32⟩
  | 86 => ⟨S1x128, .f32⟩
  | 87 => ⟨S128, .f32⟩
  | 88 => ⟨S1x128, .f32⟩
  | 89 => ⟨S1x128, .f32⟩
  | 90 => ⟨S160000x128, .f32⟩
  | 91 => ⟨S_, .f32⟩
  | 92 => ⟨S20000x128, .f32⟩
  | 93 => ⟨S160000x1, .i32⟩
  | 94 => ⟨S20000x128, .f32⟩
  | 95 => ⟨S1x128x128, .f32⟩
  | 96 => ⟨S128x128, .f32⟩
  | 97 => ⟨S1x128x128, .f32⟩
  | 98 => ⟨S128x128, .f32⟩
  | 99 => ⟨S1x128, .f32⟩
  | 100 => ⟨S128, .f32⟩
  | 101 => ⟨S1x128x128, .f32⟩
  | 102 => ⟨S128x128, .f32⟩
  | 103 => ⟨S1x128, .f32⟩
  | 104 => ⟨S128, .f32⟩
  | 105 => ⟨S1x128x128, .f32⟩
  | 106 => ⟨S128x128, .f32⟩
  | 107 => ⟨S1x128x128, .f32⟩
  | 108 => ⟨S128x128, .f32⟩
  | 109 => ⟨S1x128, .f32⟩
  | 110 => ⟨S1x128, .f32⟩
  | 111 => ⟨S20000x128, .f32⟩
  | 112 => ⟨S20000x128, .bf16⟩
  | 113 => ⟨S20000x128, .bf16⟩
  | 114 => ⟨S20000x4, .f32⟩
  | 115 => ⟨S128x128, .f32⟩
  | 116 => ⟨S2x128, .f32⟩
  | 117 => ⟨S1x128, .f32⟩
  | 118 => ⟨S1x64, .f32⟩
  | 119 => ⟨S1x3, .f32⟩
  | 120 => ⟨S20000x3, .f32⟩
  | _ => ⟨S20000x9, .f32⟩

abbrev hbmTy (i : Nat) : BufTy := match i / 128 with
  | 0 => hbmTy0_0 i
  | 1 => hbmTy0_1 i
  | 2 => hbmTy0_2 i
  | _ => ⟨S20000x9, .f32⟩

abbrev vmemTy0_0 (i : Nat) : BufTy := match i % 128 with
  | 0 => ⟨S4000x6, .f32⟩
  | 1 => ⟨S4000x6, .f32⟩
  | 2 => ⟨S6x128, .f32⟩
  | 3 => ⟨S1x128, .f32⟩
  | 4 => ⟨S128x128, .f32⟩
  | 5 => ⟨S1x128, .f32⟩
  | 6 => ⟨S4000x128, .f32⟩
  | 7 => ⟨S4000x128, .f32⟩
  | 8 => ⟨S8000x10, .f32⟩
  | 9 => ⟨S8000x10, .f32⟩
  | 10 => ⟨S10x128, .f32⟩
  | 11 => ⟨S1x128, .f32⟩
  | 12 => ⟨S128x128, .f32⟩
  | 13 => ⟨S1x128, .f32⟩
  | 14 => ⟨S8000x128, .bf16⟩
  | 15 => ⟨S8000x128, .bf16⟩
  | 16 => ⟨S4000x128, .f32⟩
  | 17 => ⟨S4000x128, .f32⟩
  | 18 => ⟨S128x128, .f32⟩
  | 19 => ⟨S128x128, .f32⟩
  | 20 => ⟨S4000x128, .bf16⟩
  | 21 => ⟨S4000x128, .bf16⟩
  | 22 => ⟨S4000x128, .bf16⟩
  | 23 => ⟨S4000x128, .bf16⟩
  | 24 => ⟨S8000x128, .bf16⟩
  | 25 => ⟨S8000x128, .bf16⟩
  | 26 => ⟨S8000x128, .bf16⟩
  | 27 => ⟨S8000x128, .bf16⟩
  | 28 => ⟨S8000x128, .bf16⟩
  | 29 => ⟨S8000x128, .bf16⟩
  | 30 => ⟨S128x128, .f32⟩
  | 31 => ⟨S1x128, .f32⟩
  | 32 => ⟨S128x128, .f32⟩
  | 33 => ⟨S1x128, .f32⟩
  | 34 => ⟨S8000x128, .f32⟩
  | 35 => ⟨S8000x128, .f32⟩
  | 36 => ⟨S4000x128, .f32⟩
  | 37 => ⟨S4000x128, .f32⟩
  | 38 => ⟨S4000x128, .f32⟩
  | 39 => ⟨S4000x128, .f32⟩
  | 40 => ⟨S128x128, .f32⟩
  | 41 => ⟨S128x128, .f32⟩
  | 42 => ⟨S1x128, .f32⟩
  | 43 => ⟨S128x128, .f32⟩
  | 44 => ⟨S1x128, .f32⟩
  | 45 => ⟨S128x128, .f32⟩
  | 46 => ⟨S128x128, .f32⟩
  | 47 => ⟨S4000x128, .f32⟩
  | 48 => ⟨S4000x128, .f32⟩
  | 49 => ⟨S4000x128, .bf16⟩
  | 50 => ⟨S4000x128, .bf16⟩
  | 51 => ⟨S4000x128, .bf16⟩
  | 52 => ⟨S4000x128, .bf16⟩
  | 53 => ⟨S8000x128, .bf16⟩
  | 54 => ⟨S8000x128, .bf16⟩
  | 55 => ⟨S8000x128, .bf16⟩
  | 56 => ⟨S8000x128, .bf16⟩
  | 57 => ⟨S8000x128, .bf16⟩
  | 58 => ⟨S8000x128, .bf16⟩
  | 59 => ⟨S128x128, .f32⟩
  | 60 => ⟨S1x128, .f32⟩
  | 61 => ⟨S128x128, .f32⟩
  | 62 => ⟨S1x128, .f32⟩
  | 63 => ⟨S8000x128, .f32⟩
  | 64 => ⟨S8000x128, .f32⟩
  | 65 => ⟨S4000x128, .f32⟩
  | 66 => ⟨S4000x128, .f32⟩
  | 67 => ⟨S4000x128, .f32⟩
  | 68 => ⟨S4000x128, .f32⟩
  | 69 => ⟨S128x128, .f32⟩
  | 70 => ⟨S128x128, .f32⟩
  | 71 => ⟨S1x128, .f32⟩
  | 72 => ⟨S128x128, .f32⟩
  | 73 => ⟨S1x128, .f32⟩
  | 74 => ⟨S128x128, .f32⟩
  | 75 => ⟨S128x128, .f32⟩
  | 76 => ⟨S4000x128, .f32⟩
  | 77 => ⟨S4000x128, .f32⟩
  | 78 => ⟨S4000x128, .bf16⟩
  | 79 => ⟨S4000x128, .bf16⟩
  | 80 => ⟨S4000x128, .bf16⟩
  | 81 => ⟨S4000x128, .bf16⟩
  | 82 => ⟨S8000x128, .bf16⟩
  | 83 => ⟨S8000x128, .bf16⟩
  | 84 => ⟨S8000x128, .bf16⟩
  | 85 => ⟨S8000x128, .bf16⟩
  | 86 => ⟨S8000x128, .bf16⟩
  | 87 => ⟨S8000x128, .bf16⟩
  | 88 => ⟨S128x128, .f32⟩
  | 89 => ⟨S1x128, .f32⟩
  | 90 => ⟨S128x128, .f32⟩
  | 91 => ⟨S1x128, .f32⟩
  | 92 => ⟨S8000x128, .f32⟩
  | 93 => ⟨S8000x128, .f32⟩
  | 94 => ⟨S4000x128, .f32⟩
  | 95 => ⟨S4000x128, .f32⟩
  | 96 => ⟨S4000x128, .f32⟩
  | 97 => ⟨S4000x128, .f32⟩
  | 98 => ⟨S128x128, .f32⟩
  | 99 => ⟨S128x128, .f32⟩
  | 100 => ⟨S1x128, .f32⟩
  | 101 => ⟨S128x128, .f32⟩
  | 102 => ⟨S1x128, .f32⟩
  | 103 => ⟨S128x128, .f32⟩
  | 104 => ⟨S128x128, .f32⟩
  | 105 => ⟨S4000x128, .f32⟩
  | 106 => ⟨S4000x128, .f32⟩
  | 107 => ⟨S4000x128, .bf16⟩
  | 108 => ⟨S4000x128, .bf16⟩
  | 109 => ⟨S4000x128, .bf16⟩
  | 110 => ⟨S4000x128, .bf16⟩
  | 111 => ⟨S8000x128, .bf16⟩
  | 112 => ⟨S8000x128, .bf16⟩
  | 113 => ⟨S8000x128, .bf16⟩
  | 114 => ⟨S8000x128, .bf16⟩
  | 115 => ⟨S8000x128, .bf16⟩
  | 116 => ⟨S8000x128, .bf16⟩
  | 117 => ⟨S128x128, .f32⟩
  | 118 => ⟨S1x128, .f32⟩
  | 119 => ⟨S128x128, .f32⟩
  | 120 => ⟨S1x128, .f32⟩
  | 121 => ⟨S8000x128, .f32⟩
  | 122 => ⟨S8000x128, .f32⟩
  | 123 => ⟨S4000x128, .f32⟩
  | 124 => ⟨S4000x128, .f32⟩
  | 125 => ⟨S4000x128, .f32⟩
  | 126 => ⟨S4000x128, .f32⟩
  | 127 => ⟨S128x128, .f32⟩
  | _ => ⟨S20000x9, .f32⟩

abbrev vmemTy0_1 (i : Nat) : BufTy := match i % 128 with
  | 0 => ⟨S128x128, .f32⟩
  | 1 => ⟨S1x128, .f32⟩
  | 2 => ⟨S128x128, .f32⟩
  | 3 => ⟨S1x128, .f32⟩
  | 4 => ⟨S128x128, .f32⟩
  | 5 => ⟨S128x128, .f32⟩
  | 6 => ⟨S4000x128, .f32⟩
  | 7 => ⟨S4000x128, .f32⟩
  | 8 => ⟨S4000x128, .bf16⟩
  | 9 => ⟨S4000x128, .bf16⟩
  | 10 => ⟨S4000x128, .bf16⟩
  | 11 => ⟨S4000x128, .bf16⟩
  | 12 => ⟨S8000x128, .bf16⟩
  | 13 => ⟨S8000x128, .bf16⟩
  | 14 => ⟨S8000x128, .bf16⟩
  | 15 => ⟨S8000x128, .bf16⟩
  | 16 => ⟨S8000x128, .bf16⟩
  | 17 => ⟨S8000x128, .bf16⟩
  | 18 => ⟨S128x128, .f32⟩
  | 19 => ⟨S1x128, .f32⟩
  | 20 => ⟨S128x128, .f32⟩
  | 21 => ⟨S1x128, .f32⟩
  | 22 => ⟨S8000x128, .f32⟩
  | 23 => ⟨S8000x128, .f32⟩
  | 24 => ⟨S4000x128, .f32⟩
  | 25 => ⟨S4000x128, .f32⟩
  | 26 => ⟨S4000x128, .f32⟩
  | 27 => ⟨S4000x128, .f32⟩
  | 28 => ⟨S128x128, .f32⟩
  | 29 => ⟨S128x128, .f32⟩
  | 30 => ⟨S1x128, .f32⟩
  | 31 => ⟨S128x128, .f32⟩
  | 32 => ⟨S1x128, .f32⟩
  | 33 => ⟨S128x128, .f32⟩
  | 34 => ⟨S128x128, .f32⟩
  | 35 => ⟨S4000x128, .f32⟩
  | 36 => ⟨S4000x128, .f32⟩
  | 37 => ⟨S4000x128, .bf16⟩
  | 38 => ⟨S4000x128, .bf16⟩
  | 39 => ⟨S4000x128, .bf16⟩
  | 40 => ⟨S4000x128, .bf16⟩
  | 41 => ⟨S8000x128, .bf16⟩
  | 42 => ⟨S8000x128, .bf16⟩
  | 43 => ⟨S8000x128, .bf16⟩
  | 44 => ⟨S8000x128, .bf16⟩
  | 45 => ⟨S8000x128, .bf16⟩
  | 46 => ⟨S8000x128, .bf16⟩
  | 47 => ⟨S128x128, .f32⟩
  | 48 => ⟨S1x128, .f32⟩
  | 49 => ⟨S128x128, .f32⟩
  | 50 => ⟨S1x128, .f32⟩
  | 51 => ⟨S8000x128, .f32⟩
  | 52 => ⟨S8000x128, .f32⟩
  | 53 => ⟨S4000x128, .f32⟩
  | 54 => ⟨S4000x128, .f32⟩
  | 55 => ⟨S4000x128, .f32⟩
  | 56 => ⟨S4000x128, .f32⟩
  | 57 => ⟨S128x128, .f32⟩
  | 58 => ⟨S128x128, .f32⟩
  | 59 => ⟨S1x128, .f32⟩
  | 60 => ⟨S128x128, .f32⟩
  | 61 => ⟨S1x128, .f32⟩
  | 62 => ⟨S128x128, .f32⟩
  | 63 => ⟨S128x128, .f32⟩
  | 64 => ⟨S4000x128, .f32⟩
  | 65 => ⟨S4000x128, .f32⟩
  | 66 => ⟨S4000x128, .bf16⟩
  | 67 => ⟨S4000x128, .bf16⟩
  | 68 => ⟨S4000x128, .bf16⟩
  | 69 => ⟨S4000x128, .bf16⟩
  | 70 => ⟨S4000x128, .f32⟩
  | 71 => ⟨S4000x128, .f32⟩
  | 72 => ⟨S4000x4, .f32⟩
  | 73 => ⟨S4000x4, .f32⟩
  | 74 => ⟨S128x128, .f32⟩
  | 75 => ⟨S2x128, .f32⟩
  | 76 => ⟨S1x128, .f32⟩
  | 77 => ⟨S128x64, .f32⟩
  | 78 => ⟨S1x64, .f32⟩
  | 79 => ⟨S64x3, .f32⟩
  | 80 => ⟨S1x3, .f32⟩
  | 81 => ⟨S4000x3, .f32⟩
  | 82 => ⟨S4000x3, .f32⟩
  | _ => ⟨S20000x9, .f32⟩

abbrev vmemTy (i : Nat) : BufTy := match i / 128 with
  | 0 => vmemTy0_0 i
  | 1 => vmemTy0_1 i
  | _ => ⟨S20000x9, .f32⟩

abbrev bufTy : (tb : Table) → Fin (tcTables nBuf tb) → BufTy
  | .hbm, ⟨i, _⟩ => hbmTy i
  | .local _ .vmem, ⟨i, _⟩ => vmemTy i
  | _, _ => ⟨S20000x9, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 211 → Bool
  | ⟨i, _⟩ => dmaSemScopedAt i

abbrev sig : RefSig :=
  ofTc nBuf bufTy 0 211 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_c : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_c_0 : Ref sig .tc := ⟨.hbm, 36, rfl⟩
abbrev main_v4 : Ref sig .tc := ⟨.hbm, 37, rfl⟩
abbrev main_v5 : Ref sig .tc := ⟨.hbm, 38, rfl⟩
abbrev main_c_1 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22_0 : Ref sig .tc := ⟨.hbm, 56, rfl⟩
abbrev main_v22_1 : Ref sig .tc := ⟨.hbm, 57, rfl⟩
abbrev main_c_2 : Ref sig .tc := ⟨.hbm, 58, rfl⟩
abbrev main_v23 : Ref sig .tc := ⟨.hbm, 59, rfl⟩
abbrev main_v24 : Ref sig .tc := ⟨.hbm, 60, rfl⟩
abbrev main_c_3 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_c_4 : Ref sig .tc := ⟨.hbm, 67, rfl⟩
abbrev main_v30 : Ref sig .tc := ⟨.hbm, 68, rfl⟩
abbrev main_v31 : Ref sig .tc := ⟨.hbm, 69, rfl⟩
abbrev main_c_5 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67_0 : Ref sig .tc := ⟨.hbm, 107, rfl⟩
abbrev main_v67_1 : Ref sig .tc := ⟨.hbm, 108, rfl⟩
abbrev main_v67_2 : Ref sig .tc := ⟨.hbm, 109, rfl⟩
abbrev main_c_6 : Ref sig .tc := ⟨.hbm, 110, rfl⟩
abbrev main_v68 : Ref sig .tc := ⟨.hbm, 111, rfl⟩
abbrev main_v69 : Ref sig .tc := ⟨.hbm, 112, rfl⟩
abbrev main_c_7 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_c_8 : Ref sig .tc := ⟨.hbm, 119, rfl⟩
abbrev main_v75 : Ref sig .tc := ⟨.hbm, 120, rfl⟩
abbrev main_v76 : Ref sig .tc := ⟨.hbm, 121, rfl⟩
abbrev main_c_9 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_cst_10 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112_0 : Ref sig .tc := ⟨.hbm, 159, rfl⟩
abbrev main_v112_1 : Ref sig .tc := ⟨.hbm, 160, rfl⟩
abbrev main_v112_2 : Ref sig .tc := ⟨.hbm, 161, rfl⟩
abbrev main_c_11 : Ref sig .tc := ⟨.hbm, 162, rfl⟩
abbrev main_v113 : Ref sig .tc := ⟨.hbm, 163, rfl⟩
abbrev main_v114 : Ref sig .tc := ⟨.hbm, 164, rfl⟩
abbrev main_c_12 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_c_13 : Ref sig .tc := ⟨.hbm, 171, rfl⟩
abbrev main_v120 : Ref sig .tc := ⟨.hbm, 172, rfl⟩
abbrev main_v121 : Ref sig .tc := ⟨.hbm, 173, rfl⟩
abbrev main_c_14 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_cst_15 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157_0 : Ref sig .tc := ⟨.hbm, 211, rfl⟩
abbrev main_v157_1 : Ref sig .tc := ⟨.hbm, 212, rfl⟩
abbrev main_v157_2 : Ref sig .tc := ⟨.hbm, 213, rfl⟩
abbrev main_c_16 : Ref sig .tc := ⟨.hbm, 214, rfl⟩
abbrev main_v158 : Ref sig .tc := ⟨.hbm, 215, rfl⟩
abbrev main_v159 : Ref sig .tc := ⟨.hbm, 216, rfl⟩
abbrev main_c_17 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_c_18 : Ref sig .tc := ⟨.hbm, 223, rfl⟩
abbrev main_v165 : Ref sig .tc := ⟨.hbm, 224, rfl⟩
abbrev main_v166 : Ref sig .tc := ⟨.hbm, 225, rfl⟩
abbrev main_c_19 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_cst_20 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202_0 : Ref sig .tc := ⟨.hbm, 263, rfl⟩
abbrev main_v202_1 : Ref sig .tc := ⟨.hbm, 264, rfl⟩
abbrev main_v202_2 : Ref sig .tc := ⟨.hbm, 265, rfl⟩
abbrev main_c_21 : Ref sig .tc := ⟨.hbm, 266, rfl⟩
abbrev main_v203 : Ref sig .tc := ⟨.hbm, 267, rfl⟩
abbrev main_v204 : Ref sig .tc := ⟨.hbm, 268, rfl⟩
abbrev main_c_22 : Ref sig .tc := ⟨.hbm, 269, rfl⟩
abbrev main_v205 : Ref sig .tc := ⟨.hbm, 270, rfl⟩
abbrev main_v206 : Ref sig .tc := ⟨.hbm, 271, rfl⟩
abbrev main_v207 : Ref sig .tc := ⟨.hbm, 272, rfl⟩
abbrev main_v208 : Ref sig .tc := ⟨.hbm, 273, rfl⟩
abbrev main_v209 : Ref sig .tc := ⟨.hbm, 274, rfl⟩
abbrev main_c_23 : Ref sig .tc := ⟨.hbm, 275, rfl⟩
abbrev main_v210 : Ref sig .tc := ⟨.hbm, 276, rfl⟩
abbrev main_v211 : Ref sig .tc := ⟨.hbm, 277, rfl⟩
abbrev main_c_24 : Ref sig .tc := ⟨.hbm, 278, rfl⟩
abbrev main_v212 : Ref sig .tc := ⟨.hbm, 279, rfl⟩
abbrev main_v213 : Ref sig .tc := ⟨.hbm, 280, rfl⟩
abbrev main_v214 : Ref sig .tc := ⟨.hbm, 281, rfl⟩
abbrev main_v215 : Ref sig .tc := ⟨.hbm, 282, rfl⟩
abbrev main_v216 : Ref sig .tc := ⟨.hbm, 283, rfl⟩
abbrev main_v217 : Ref sig .tc := ⟨.hbm, 284, rfl⟩
abbrev main_v218 : Ref sig .tc := ⟨.hbm, 285, rfl⟩
abbrev main_v219 : Ref sig .tc := ⟨.hbm, 286, rfl⟩
abbrev main_v220 : Ref sig .tc := ⟨.hbm, 287, rfl⟩
abbrev main_v221 : Ref sig .tc := ⟨.hbm, 288, rfl⟩
abbrev main_v222 : Ref sig .tc := ⟨.hbm, 289, rfl⟩
abbrev main_v223 : Ref sig .tc := ⟨.hbm, 290, rfl⟩
abbrev main_v224 : Ref sig .tc := ⟨.hbm, 291, rfl⟩
abbrev main_v225 : Ref sig .tc := ⟨.hbm, 292, rfl⟩
abbrev main_v226 : Ref sig .tc := ⟨.hbm, 293, rfl⟩
abbrev main_v227 : Ref sig .tc := ⟨.hbm, 294, rfl⟩
abbrev main_cst_25 : Ref sig .tc := ⟨.hbm, 295, rfl⟩
abbrev main_v228 : Ref sig .tc := ⟨.hbm, 296, rfl⟩
abbrev main_v229 : Ref sig .tc := ⟨.hbm, 297, rfl⟩
abbrev main_v230 : Ref sig .tc := ⟨.hbm, 298, rfl⟩
abbrev main_v231 : Ref sig .tc := ⟨.hbm, 299, rfl⟩
abbrev main_v232 : Ref sig .tc := ⟨.hbm, 300, rfl⟩
abbrev main_v233 : Ref sig .tc := ⟨.hbm, 301, rfl⟩
abbrev main_v234 : Ref sig .tc := ⟨.hbm, 302, rfl⟩
abbrev main_v235 : Ref sig .tc := ⟨.hbm, 303, rfl⟩
abbrev main_v236 : Ref sig .tc := ⟨.hbm, 304, rfl⟩
abbrev main_v237 : Ref sig .tc := ⟨.hbm, 305, rfl⟩
abbrev main_v238 : Ref sig .tc := ⟨.hbm, 306, rfl⟩
abbrev main_v239 : Ref sig .tc := ⟨.hbm, 307, rfl⟩
abbrev main_v240 : Ref sig .tc := ⟨.hbm, 308, rfl⟩
abbrev main_v241 : Ref sig .tc := ⟨.hbm, 309, rfl⟩
abbrev main_v242 : Ref sig .tc := ⟨.hbm, 310, rfl⟩
abbrev main_v243 : Ref sig .tc := ⟨.hbm, 311, rfl⟩
abbrev main_v244 : Ref sig .tc := ⟨.hbm, 312, rfl⟩
abbrev main_v245 : Ref sig .tc := ⟨.hbm, 313, rfl⟩
abbrev main_v246 : Ref sig .tc := ⟨.hbm, 314, rfl⟩
abbrev main_v247_0 : Ref sig .tc := ⟨.hbm, 315, rfl⟩
abbrev main_v247_1 : Ref sig .tc := ⟨.hbm, 316, rfl⟩
abbrev main_v247_2 : Ref sig .tc := ⟨.hbm, 317, rfl⟩
abbrev main_c_26 : Ref sig .tc := ⟨.hbm, 318, rfl⟩
abbrev main_v248 : Ref sig .tc := ⟨.hbm, 319, rfl⟩
abbrev main_v249 : Ref sig .tc := ⟨.hbm, 320, rfl⟩
abbrev main_c_27 : Ref sig .tc := ⟨.hbm, 321, rfl⟩
abbrev main_v250 : Ref sig .tc := ⟨.hbm, 322, rfl⟩
abbrev main_v251 : Ref sig .tc := ⟨.hbm, 323, rfl⟩
abbrev main_v252 : Ref sig .tc := ⟨.hbm, 324, rfl⟩
abbrev main_v253 : Ref sig .tc := ⟨.hbm, 325, rfl⟩
abbrev main_v254 : Ref sig .tc := ⟨.hbm, 326, rfl⟩
abbrev main_c_28 : Ref sig .tc := ⟨.hbm, 327, rfl⟩
abbrev main_v255 : Ref sig .tc := ⟨.hbm, 328, rfl⟩
abbrev main_v256 : Ref sig .tc := ⟨.hbm, 329, rfl⟩
abbrev main_c_29 : Ref sig .tc := ⟨.hbm, 330, rfl⟩
abbrev main_v257 : Ref sig .tc := ⟨.hbm, 331, rfl⟩
abbrev main_v258 : Ref sig .tc := ⟨.hbm, 332, rfl⟩
abbrev main_v259 : Ref sig .tc := ⟨.hbm, 333, rfl⟩
abbrev main_v260 : Ref sig .tc := ⟨.hbm, 334, rfl⟩
abbrev main_v261 : Ref sig .tc := ⟨.hbm, 335, rfl⟩
abbrev main_v262 : Ref sig .tc := ⟨.hbm, 336, rfl⟩
abbrev main_v263 : Ref sig .tc := ⟨.hbm, 337, rfl⟩
abbrev main_v264 : Ref sig .tc := ⟨.hbm, 338, rfl⟩
abbrev main_v265 : Ref sig .tc := ⟨.hbm, 339, rfl⟩
abbrev main_v266 : Ref sig .tc := ⟨.hbm, 340, rfl⟩
abbrev main_v267 : Ref sig .tc := ⟨.hbm, 341, rfl⟩
abbrev main_v268 : Ref sig .tc := ⟨.hbm, 342, rfl⟩
abbrev main_v269 : Ref sig .tc := ⟨.hbm, 343, rfl⟩
abbrev main_v270 : Ref sig .tc := ⟨.hbm, 344, rfl⟩
abbrev main_v271 : Ref sig .tc := ⟨.hbm, 345, rfl⟩
abbrev main_v272 : Ref sig .tc := ⟨.hbm, 346, rfl⟩
abbrev main_cst_30 : Ref sig .tc := ⟨.hbm, 347, rfl⟩
abbrev main_v273 : Ref sig .tc := ⟨.hbm, 348, rfl⟩
abbrev main_v274 : Ref sig .tc := ⟨.hbm, 349, rfl⟩
abbrev main_v275 : Ref sig .tc := ⟨.hbm, 350, rfl⟩
abbrev main_v276 : Ref sig .tc := ⟨.hbm, 351, rfl⟩
abbrev main_v277 : Ref sig .tc := ⟨.hbm, 352, rfl⟩
abbrev main_v278 : Ref sig .tc := ⟨.hbm, 353, rfl⟩
abbrev main_v279 : Ref sig .tc := ⟨.hbm, 354, rfl⟩
abbrev main_v280 : Ref sig .tc := ⟨.hbm, 355, rfl⟩
abbrev main_v281 : Ref sig .tc := ⟨.hbm, 356, rfl⟩
abbrev main_v282 : Ref sig .tc := ⟨.hbm, 357, rfl⟩
abbrev main_v283 : Ref sig .tc := ⟨.hbm, 358, rfl⟩
abbrev main_v284 : Ref sig .tc := ⟨.hbm, 359, rfl⟩
abbrev main_v285 : Ref sig .tc := ⟨.hbm, 360, rfl⟩
abbrev main_v286 : Ref sig .tc := ⟨.hbm, 361, rfl⟩
abbrev main_v287 : Ref sig .tc := ⟨.hbm, 362, rfl⟩
abbrev main_v288 : Ref sig .tc := ⟨.hbm, 363, rfl⟩
abbrev main_v289 : Ref sig .tc := ⟨.hbm, 364, rfl⟩
abbrev main_v290 : Ref sig .tc := ⟨.hbm, 365, rfl⟩
abbrev main_v291 : Ref sig .tc := ⟨.hbm, 366, rfl⟩
abbrev main_v292_0 : Ref sig .tc := ⟨.hbm, 367, rfl⟩
abbrev main_v292_1 : Ref sig .tc := ⟨.hbm, 368, rfl⟩
abbrev main_v292_2 : Ref sig .tc := ⟨.hbm, 369, rfl⟩
abbrev main_v293 : Ref sig .tc := ⟨.hbm, 370, rfl⟩
abbrev main_v294 : Ref sig .tc := ⟨.hbm, 371, rfl⟩
abbrev main_v295 : Ref sig .tc := ⟨.hbm, 372, rfl⟩
abbrev main_v296 : Ref sig .tc := ⟨.hbm, 373, rfl⟩
abbrev main_v297 : Ref sig .tc := ⟨.hbm, 374, rfl⟩
abbrev main_v298 : Ref sig .tc := ⟨.hbm, 375, rfl⟩
abbrev main_v299 : Ref sig .tc := ⟨.hbm, 376, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg7_0 : Ref sig .tc := ⟨.vmem, 34, rfl⟩
abbrev cc3_stg7_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc4_stg7_0 : Ref sig .tc := ⟨.vmem, 45, rfl⟩
abbrev cc4_stg8_0 : Ref sig .tc := ⟨.vmem, 46, rfl⟩
abbrev cc4_stg9_0 : Ref sig .tc := ⟨.vmem, 47, rfl⟩
abbrev cc4_stg9_1 : Ref sig .tc := ⟨.vmem, 48, rfl⟩
abbrev cc4_stg10_0 : Ref sig .tc := ⟨.vmem, 49, rfl⟩
abbrev cc4_stg10_1 : Ref sig .tc := ⟨.vmem, 50, rfl⟩
abbrev cc4_stg11_0 : Ref sig .tc := ⟨.vmem, 51, rfl⟩
abbrev cc4_stg11_1 : Ref sig .tc := ⟨.vmem, 52, rfl⟩
abbrev cc5_stg0_0 : Ref sig .tc := ⟨.vmem, 53, rfl⟩
abbrev cc5_stg0_1 : Ref sig .tc := ⟨.vmem, 54, rfl⟩
abbrev cc5_stg1_0 : Ref sig .tc := ⟨.vmem, 55, rfl⟩
abbrev cc5_stg1_1 : Ref sig .tc := ⟨.vmem, 56, rfl⟩
abbrev cc5_stg2_0 : Ref sig .tc := ⟨.vmem, 57, rfl⟩
abbrev cc5_stg2_1 : Ref sig .tc := ⟨.vmem, 58, rfl⟩
abbrev cc5_stg3_0 : Ref sig .tc := ⟨.vmem, 59, rfl⟩
abbrev cc5_stg4_0 : Ref sig .tc := ⟨.vmem, 60, rfl⟩
abbrev cc5_stg5_0 : Ref sig .tc := ⟨.vmem, 61, rfl⟩
abbrev cc5_stg6_0 : Ref sig .tc := ⟨.vmem, 62, rfl⟩
abbrev cc5_stg7_0 : Ref sig .tc := ⟨.vmem, 63, rfl⟩
abbrev cc5_stg7_1 : Ref sig .tc := ⟨.vmem, 64, rfl⟩
abbrev cc6_stg0_0 : Ref sig .tc := ⟨.vmem, 65, rfl⟩
abbrev cc6_stg0_1 : Ref sig .tc := ⟨.vmem, 66, rfl⟩
abbrev cc6_stg1_0 : Ref sig .tc := ⟨.vmem, 67, rfl⟩
abbrev cc6_stg1_1 : Ref sig .tc := ⟨.vmem, 68, rfl⟩
abbrev cc6_stg2_0 : Ref sig .tc := ⟨.vmem, 69, rfl⟩
abbrev cc6_stg3_0 : Ref sig .tc := ⟨.vmem, 70, rfl⟩
abbrev cc6_stg4_0 : Ref sig .tc := ⟨.vmem, 71, rfl⟩
abbrev cc6_stg5_0 : Ref sig .tc := ⟨.vmem, 72, rfl⟩
abbrev cc6_stg6_0 : Ref sig .tc := ⟨.vmem, 73, rfl⟩
abbrev cc6_stg7_0 : Ref sig .tc := ⟨.vmem, 74, rfl⟩
abbrev cc6_stg8_0 : Ref sig .tc := ⟨.vmem, 75, rfl⟩
abbrev cc6_stg9_0 : Ref sig .tc := ⟨.vmem, 76, rfl⟩
abbrev cc6_stg9_1 : Ref sig .tc := ⟨.vmem, 77, rfl⟩
abbrev cc6_stg10_0 : Ref sig .tc := ⟨.vmem, 78, rfl⟩
abbrev cc6_stg10_1 : Ref sig .tc := ⟨.vmem, 79, rfl⟩
abbrev cc6_stg11_0 : Ref sig .tc := ⟨.vmem, 80, rfl⟩
abbrev cc6_stg11_1 : Ref sig .tc := ⟨.vmem, 81, rfl⟩
abbrev cc7_stg0_0 : Ref sig .tc := ⟨.vmem, 82, rfl⟩
abbrev cc7_stg0_1 : Ref sig .tc := ⟨.vmem, 83, rfl⟩
abbrev cc7_stg1_0 : Ref sig .tc := ⟨.vmem, 84, rfl⟩
abbrev cc7_stg1_1 : Ref sig .tc := ⟨.vmem, 85, rfl⟩
abbrev cc7_stg2_0 : Ref sig .tc := ⟨.vmem, 86, rfl⟩
abbrev cc7_stg2_1 : Ref sig .tc := ⟨.vmem, 87, rfl⟩
abbrev cc7_stg3_0 : Ref sig .tc := ⟨.vmem, 88, rfl⟩
abbrev cc7_stg4_0 : Ref sig .tc := ⟨.vmem, 89, rfl⟩
abbrev cc7_stg5_0 : Ref sig .tc := ⟨.vmem, 90, rfl⟩
abbrev cc7_stg6_0 : Ref sig .tc := ⟨.vmem, 91, rfl⟩
abbrev cc7_stg7_0 : Ref sig .tc := ⟨.vmem, 92, rfl⟩
abbrev cc7_stg7_1 : Ref sig .tc := ⟨.vmem, 93, rfl⟩
abbrev cc8_stg0_0 : Ref sig .tc := ⟨.vmem, 94, rfl⟩
abbrev cc8_stg0_1 : Ref sig .tc := ⟨.vmem, 95, rfl⟩
abbrev cc8_stg1_0 : Ref sig .tc := ⟨.vmem, 96, rfl⟩
abbrev cc8_stg1_1 : Ref sig .tc := ⟨.vmem, 97, rfl⟩
abbrev cc8_stg2_0 : Ref sig .tc := ⟨.vmem, 98, rfl⟩
abbrev cc8_stg3_0 : Ref sig .tc := ⟨.vmem, 99, rfl⟩
abbrev cc8_stg4_0 : Ref sig .tc := ⟨.vmem, 100, rfl⟩
abbrev cc8_stg5_0 : Ref sig .tc := ⟨.vmem, 101, rfl⟩
abbrev cc8_stg6_0 : Ref sig .tc := ⟨.vmem, 102, rfl⟩
abbrev cc8_stg7_0 : Ref sig .tc := ⟨.vmem, 103, rfl⟩
abbrev cc8_stg8_0 : Ref sig .tc := ⟨.vmem, 104, rfl⟩
abbrev cc8_stg9_0 : Ref sig .tc := ⟨.vmem, 105, rfl⟩
abbrev cc8_stg9_1 : Ref sig .tc := ⟨.vmem, 106, rfl⟩
abbrev cc8_stg10_0 : Ref sig .tc := ⟨.vmem, 107, rfl⟩
abbrev cc8_stg10_1 : Ref sig .tc := ⟨.vmem, 108, rfl⟩
abbrev cc8_stg11_0 : Ref sig .tc := ⟨.vmem, 109, rfl⟩
abbrev cc8_stg11_1 : Ref sig .tc := ⟨.vmem, 110, rfl⟩
abbrev cc9_stg0_0 : Ref sig .tc := ⟨.vmem, 111, rfl⟩
abbrev cc9_stg0_1 : Ref sig .tc := ⟨.vmem, 112, rfl⟩
abbrev cc9_stg1_0 : Ref sig .tc := ⟨.vmem, 113, rfl⟩
abbrev cc9_stg1_1 : Ref sig .tc := ⟨.vmem, 114, rfl⟩
abbrev cc9_stg2_0 : Ref sig .tc := ⟨.vmem, 115, rfl⟩
abbrev cc9_stg2_1 : Ref sig .tc := ⟨.vmem, 116, rfl⟩
abbrev cc9_stg3_0 : Ref sig .tc := ⟨.vmem, 117, rfl⟩
abbrev cc9_stg4_0 : Ref sig .tc := ⟨.vmem, 118, rfl⟩
abbrev cc9_stg5_0 : Ref sig .tc := ⟨.vmem, 119, rfl⟩
abbrev cc9_stg6_0 : Ref sig .tc := ⟨.vmem, 120, rfl⟩
abbrev cc9_stg7_0 : Ref sig .tc := ⟨.vmem, 121, rfl⟩
abbrev cc9_stg7_1 : Ref sig .tc := ⟨.vmem, 122, rfl⟩
abbrev cc10_stg0_0 : Ref sig .tc := ⟨.vmem, 123, rfl⟩
abbrev cc10_stg0_1 : Ref sig .tc := ⟨.vmem, 124, rfl⟩
abbrev cc10_stg1_0 : Ref sig .tc := ⟨.vmem, 125, rfl⟩
abbrev cc10_stg1_1 : Ref sig .tc := ⟨.vmem, 126, rfl⟩
abbrev cc10_stg2_0 : Ref sig .tc := ⟨.vmem, 127, rfl⟩
abbrev cc10_stg3_0 : Ref sig .tc := ⟨.vmem, 128, rfl⟩
abbrev cc10_stg4_0 : Ref sig .tc := ⟨.vmem, 129, rfl⟩
abbrev cc10_stg5_0 : Ref sig .tc := ⟨.vmem, 130, rfl⟩
abbrev cc10_stg6_0 : Ref sig .tc := ⟨.vmem, 131, rfl⟩
abbrev cc10_stg7_0 : Ref sig .tc := ⟨.vmem, 132, rfl⟩
abbrev cc10_stg8_0 : Ref sig .tc := ⟨.vmem, 133, rfl⟩
abbrev cc10_stg9_0 : Ref sig .tc := ⟨.vmem, 134, rfl⟩
abbrev cc10_stg9_1 : Ref sig .tc := ⟨.vmem, 135, rfl⟩
abbrev cc10_stg10_0 : Ref sig .tc := ⟨.vmem, 136, rfl⟩
abbrev cc10_stg10_1 : Ref sig .tc := ⟨.vmem, 137, rfl⟩
abbrev cc10_stg11_0 : Ref sig .tc := ⟨.vmem, 138, rfl⟩
abbrev cc10_stg11_1 : Ref sig .tc := ⟨.vmem, 139, rfl⟩
abbrev cc11_stg0_0 : Ref sig .tc := ⟨.vmem, 140, rfl⟩
abbrev cc11_stg0_1 : Ref sig .tc := ⟨.vmem, 141, rfl⟩
abbrev cc11_stg1_0 : Ref sig .tc := ⟨.vmem, 142, rfl⟩
abbrev cc11_stg1_1 : Ref sig .tc := ⟨.vmem, 143, rfl⟩
abbrev cc11_stg2_0 : Ref sig .tc := ⟨.vmem, 144, rfl⟩
abbrev cc11_stg2_1 : Ref sig .tc := ⟨.vmem, 145, rfl⟩
abbrev cc11_stg3_0 : Ref sig .tc := ⟨.vmem, 146, rfl⟩
abbrev cc11_stg4_0 : Ref sig .tc := ⟨.vmem, 147, rfl⟩
abbrev cc11_stg5_0 : Ref sig .tc := ⟨.vmem, 148, rfl⟩
abbrev cc11_stg6_0 : Ref sig .tc := ⟨.vmem, 149, rfl⟩
abbrev cc11_stg7_0 : Ref sig .tc := ⟨.vmem, 150, rfl⟩
abbrev cc11_stg7_1 : Ref sig .tc := ⟨.vmem, 151, rfl⟩
abbrev cc12_stg0_0 : Ref sig .tc := ⟨.vmem, 152, rfl⟩
abbrev cc12_stg0_1 : Ref sig .tc := ⟨.vmem, 153, rfl⟩
abbrev cc12_stg1_0 : Ref sig .tc := ⟨.vmem, 154, rfl⟩
abbrev cc12_stg1_1 : Ref sig .tc := ⟨.vmem, 155, rfl⟩
abbrev cc12_stg2_0 : Ref sig .tc := ⟨.vmem, 156, rfl⟩
abbrev cc12_stg3_0 : Ref sig .tc := ⟨.vmem, 157, rfl⟩
abbrev cc12_stg4_0 : Ref sig .tc := ⟨.vmem, 158, rfl⟩
abbrev cc12_stg5_0 : Ref sig .tc := ⟨.vmem, 159, rfl⟩
abbrev cc12_stg6_0 : Ref sig .tc := ⟨.vmem, 160, rfl⟩
abbrev cc12_stg7_0 : Ref sig .tc := ⟨.vmem, 161, rfl⟩
abbrev cc12_stg8_0 : Ref sig .tc := ⟨.vmem, 162, rfl⟩
abbrev cc12_stg9_0 : Ref sig .tc := ⟨.vmem, 163, rfl⟩
abbrev cc12_stg9_1 : Ref sig .tc := ⟨.vmem, 164, rfl⟩
abbrev cc12_stg10_0 : Ref sig .tc := ⟨.vmem, 165, rfl⟩
abbrev cc12_stg10_1 : Ref sig .tc := ⟨.vmem, 166, rfl⟩
abbrev cc12_stg11_0 : Ref sig .tc := ⟨.vmem, 167, rfl⟩
abbrev cc12_stg11_1 : Ref sig .tc := ⟨.vmem, 168, rfl⟩
abbrev cc13_stg0_0 : Ref sig .tc := ⟨.vmem, 169, rfl⟩
abbrev cc13_stg0_1 : Ref sig .tc := ⟨.vmem, 170, rfl⟩
abbrev cc13_stg1_0 : Ref sig .tc := ⟨.vmem, 171, rfl⟩
abbrev cc13_stg1_1 : Ref sig .tc := ⟨.vmem, 172, rfl⟩
abbrev cc13_stg2_0 : Ref sig .tc := ⟨.vmem, 173, rfl⟩
abbrev cc13_stg2_1 : Ref sig .tc := ⟨.vmem, 174, rfl⟩
abbrev cc13_stg3_0 : Ref sig .tc := ⟨.vmem, 175, rfl⟩
abbrev cc13_stg4_0 : Ref sig .tc := ⟨.vmem, 176, rfl⟩
abbrev cc13_stg5_0 : Ref sig .tc := ⟨.vmem, 177, rfl⟩
abbrev cc13_stg6_0 : Ref sig .tc := ⟨.vmem, 178, rfl⟩
abbrev cc13_stg7_0 : Ref sig .tc := ⟨.vmem, 179, rfl⟩
abbrev cc13_stg7_1 : Ref sig .tc := ⟨.vmem, 180, rfl⟩
abbrev cc14_stg0_0 : Ref sig .tc := ⟨.vmem, 181, rfl⟩
abbrev cc14_stg0_1 : Ref sig .tc := ⟨.vmem, 182, rfl⟩
abbrev cc14_stg1_0 : Ref sig .tc := ⟨.vmem, 183, rfl⟩
abbrev cc14_stg1_1 : Ref sig .tc := ⟨.vmem, 184, rfl⟩
abbrev cc14_stg2_0 : Ref sig .tc := ⟨.vmem, 185, rfl⟩
abbrev cc14_stg3_0 : Ref sig .tc := ⟨.vmem, 186, rfl⟩
abbrev cc14_stg4_0 : Ref sig .tc := ⟨.vmem, 187, rfl⟩
abbrev cc14_stg5_0 : Ref sig .tc := ⟨.vmem, 188, rfl⟩
abbrev cc14_stg6_0 : Ref sig .tc := ⟨.vmem, 189, rfl⟩
abbrev cc14_stg7_0 : Ref sig .tc := ⟨.vmem, 190, rfl⟩
abbrev cc14_stg8_0 : Ref sig .tc := ⟨.vmem, 191, rfl⟩
abbrev cc14_stg9_0 : Ref sig .tc := ⟨.vmem, 192, rfl⟩
abbrev cc14_stg9_1 : Ref sig .tc := ⟨.vmem, 193, rfl⟩
abbrev cc14_stg10_0 : Ref sig .tc := ⟨.vmem, 194, rfl⟩
abbrev cc14_stg10_1 : Ref sig .tc := ⟨.vmem, 195, rfl⟩
abbrev cc14_stg11_0 : Ref sig .tc := ⟨.vmem, 196, rfl⟩
abbrev cc14_stg11_1 : Ref sig .tc := ⟨.vmem, 197, rfl⟩
abbrev cc15_stg0_0 : Ref sig .tc := ⟨.vmem, 198, rfl⟩
abbrev cc15_stg0_1 : Ref sig .tc := ⟨.vmem, 199, rfl⟩
abbrev cc15_stg1_0 : Ref sig .tc := ⟨.vmem, 200, rfl⟩
abbrev cc15_stg1_1 : Ref sig .tc := ⟨.vmem, 201, rfl⟩
abbrev cc15_stg2_0 : Ref sig .tc := ⟨.vmem, 202, rfl⟩
abbrev cc15_stg3_0 : Ref sig .tc := ⟨.vmem, 203, rfl⟩
abbrev cc15_stg4_0 : Ref sig .tc := ⟨.vmem, 204, rfl⟩
abbrev cc15_stg5_0 : Ref sig .tc := ⟨.vmem, 205, rfl⟩
abbrev cc15_stg6_0 : Ref sig .tc := ⟨.vmem, 206, rfl⟩
abbrev cc15_stg7_0 : Ref sig .tc := ⟨.vmem, 207, rfl⟩
abbrev cc15_stg8_0 : Ref sig .tc := ⟨.vmem, 208, rfl⟩
abbrev cc15_stg9_0 : Ref sig .tc := ⟨.vmem, 209, rfl⟩
abbrev cc15_stg9_1 : Ref sig .tc := ⟨.vmem, 210, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem7_0 : DmaSem sig := 34
abbrev cc3_sem7_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem7_0 : DmaSem sig := 45
abbrev cc4_sem8_0 : DmaSem sig := 46
abbrev cc4_sem9_0 : DmaSem sig := 47
abbrev cc4_sem9_1 : DmaSem sig := 48
abbrev cc4_sem10_0 : DmaSem sig := 49
abbrev cc4_sem10_1 : DmaSem sig := 50
abbrev cc4_sem11_0 : DmaSem sig := 51
abbrev cc4_sem11_1 : DmaSem sig := 52
abbrev cc5_sem0_0 : DmaSem sig := 53
abbrev cc5_sem0_1 : DmaSem sig := 54
abbrev cc5_sem1_0 : DmaSem sig := 55
abbrev cc5_sem1_1 : DmaSem sig := 56
abbrev cc5_sem2_0 : DmaSem sig := 57
abbrev cc5_sem2_1 : DmaSem sig := 58
abbrev cc5_sem3_0 : DmaSem sig := 59
abbrev cc5_sem4_0 : DmaSem sig := 60
abbrev cc5_sem5_0 : DmaSem sig := 61
abbrev cc5_sem6_0 : DmaSem sig := 62
abbrev cc5_sem7_0 : DmaSem sig := 63
abbrev cc5_sem7_1 : DmaSem sig := 64
abbrev cc6_sem0_0 : DmaSem sig := 65
abbrev cc6_sem0_1 : DmaSem sig := 66
abbrev cc6_sem1_0 : DmaSem sig := 67
abbrev cc6_sem1_1 : DmaSem sig := 68
abbrev cc6_sem2_0 : DmaSem sig := 69
abbrev cc6_sem3_0 : DmaSem sig := 70
abbrev cc6_sem4_0 : DmaSem sig := 71
abbrev cc6_sem5_0 : DmaSem sig := 72
abbrev cc6_sem6_0 : DmaSem sig := 73
abbrev cc6_sem7_0 : DmaSem sig := 74
abbrev cc6_sem8_0 : DmaSem sig := 75
abbrev cc6_sem9_0 : DmaSem sig := 76
abbrev cc6_sem9_1 : DmaSem sig := 77
abbrev cc6_sem10_0 : DmaSem sig := 78
abbrev cc6_sem10_1 : DmaSem sig := 79
abbrev cc6_sem11_0 : DmaSem sig := 80
abbrev cc6_sem11_1 : DmaSem sig := 81
abbrev cc7_sem0_0 : DmaSem sig := 82
abbrev cc7_sem0_1 : DmaSem sig := 83
abbrev cc7_sem1_0 : DmaSem sig := 84
abbrev cc7_sem1_1 : DmaSem sig := 85
abbrev cc7_sem2_0 : DmaSem sig := 86
abbrev cc7_sem2_1 : DmaSem sig := 87
abbrev cc7_sem3_0 : DmaSem sig := 88
abbrev cc7_sem4_0 : DmaSem sig := 89
abbrev cc7_sem5_0 : DmaSem sig := 90
abbrev cc7_sem6_0 : DmaSem sig := 91
abbrev cc7_sem7_0 : DmaSem sig := 92
abbrev cc7_sem7_1 : DmaSem sig := 93
abbrev cc8_sem0_0 : DmaSem sig := 94
abbrev cc8_sem0_1 : DmaSem sig := 95
abbrev cc8_sem1_0 : DmaSem sig := 96
abbrev cc8_sem1_1 : DmaSem sig := 97
abbrev cc8_sem2_0 : DmaSem sig := 98
abbrev cc8_sem3_0 : DmaSem sig := 99
abbrev cc8_sem4_0 : DmaSem sig := 100
abbrev cc8_sem5_0 : DmaSem sig := 101
abbrev cc8_sem6_0 : DmaSem sig := 102
abbrev cc8_sem7_0 : DmaSem sig := 103
abbrev cc8_sem8_0 : DmaSem sig := 104
abbrev cc8_sem9_0 : DmaSem sig := 105
abbrev cc8_sem9_1 : DmaSem sig := 106
abbrev cc8_sem10_0 : DmaSem sig := 107
abbrev cc8_sem10_1 : DmaSem sig := 108
abbrev cc8_sem11_0 : DmaSem sig := 109
abbrev cc8_sem11_1 : DmaSem sig := 110
abbrev cc9_sem0_0 : DmaSem sig := 111
abbrev cc9_sem0_1 : DmaSem sig := 112
abbrev cc9_sem1_0 : DmaSem sig := 113
abbrev cc9_sem1_1 : DmaSem sig := 114
abbrev cc9_sem2_0 : DmaSem sig := 115
abbrev cc9_sem2_1 : DmaSem sig := 116
abbrev cc9_sem3_0 : DmaSem sig := 117
abbrev cc9_sem4_0 : DmaSem sig := 118
abbrev cc9_sem5_0 : DmaSem sig := 119
abbrev cc9_sem6_0 : DmaSem sig := 120
abbrev cc9_sem7_0 : DmaSem sig := 121
abbrev cc9_sem7_1 : DmaSem sig := 122
abbrev cc10_sem0_0 : DmaSem sig := 123
abbrev cc10_sem0_1 : DmaSem sig := 124
abbrev cc10_sem1_0 : DmaSem sig := 125
abbrev cc10_sem1_1 : DmaSem sig := 126
abbrev cc10_sem2_0 : DmaSem sig := 127
abbrev cc10_sem3_0 : DmaSem sig := 128
abbrev cc10_sem4_0 : DmaSem sig := 129
abbrev cc10_sem5_0 : DmaSem sig := 130
abbrev cc10_sem6_0 : DmaSem sig := 131
abbrev cc10_sem7_0 : DmaSem sig := 132
abbrev cc10_sem8_0 : DmaSem sig := 133
abbrev cc10_sem9_0 : DmaSem sig := 134
abbrev cc10_sem9_1 : DmaSem sig := 135
abbrev cc10_sem10_0 : DmaSem sig := 136
abbrev cc10_sem10_1 : DmaSem sig := 137
abbrev cc10_sem11_0 : DmaSem sig := 138
abbrev cc10_sem11_1 : DmaSem sig := 139
abbrev cc11_sem0_0 : DmaSem sig := 140
abbrev cc11_sem0_1 : DmaSem sig := 141
abbrev cc11_sem1_0 : DmaSem sig := 142
abbrev cc11_sem1_1 : DmaSem sig := 143
abbrev cc11_sem2_0 : DmaSem sig := 144
abbrev cc11_sem2_1 : DmaSem sig := 145
abbrev cc11_sem3_0 : DmaSem sig := 146
abbrev cc11_sem4_0 : DmaSem sig := 147
abbrev cc11_sem5_0 : DmaSem sig := 148
abbrev cc11_sem6_0 : DmaSem sig := 149
abbrev cc11_sem7_0 : DmaSem sig := 150
abbrev cc11_sem7_1 : DmaSem sig := 151
abbrev cc12_sem0_0 : DmaSem sig := 152
abbrev cc12_sem0_1 : DmaSem sig := 153
abbrev cc12_sem1_0 : DmaSem sig := 154
abbrev cc12_sem1_1 : DmaSem sig := 155
abbrev cc12_sem2_0 : DmaSem sig := 156
abbrev cc12_sem3_0 : DmaSem sig := 157
abbrev cc12_sem4_0 : DmaSem sig := 158
abbrev cc12_sem5_0 : DmaSem sig := 159
abbrev cc12_sem6_0 : DmaSem sig := 160
abbrev cc12_sem7_0 : DmaSem sig := 161
abbrev cc12_sem8_0 : DmaSem sig := 162
abbrev cc12_sem9_0 : DmaSem sig := 163
abbrev cc12_sem9_1 : DmaSem sig := 164
abbrev cc12_sem10_0 : DmaSem sig := 165
abbrev cc12_sem10_1 : DmaSem sig := 166
abbrev cc12_sem11_0 : DmaSem sig := 167
abbrev cc12_sem11_1 : DmaSem sig := 168
abbrev cc13_sem0_0 : DmaSem sig := 169
abbrev cc13_sem0_1 : DmaSem sig := 170
abbrev cc13_sem1_0 : DmaSem sig := 171
abbrev cc13_sem1_1 : DmaSem sig := 172
abbrev cc13_sem2_0 : DmaSem sig := 173
abbrev cc13_sem2_1 : DmaSem sig := 174
abbrev cc13_sem3_0 : DmaSem sig := 175
abbrev cc13_sem4_0 : DmaSem sig := 176
abbrev cc13_sem5_0 : DmaSem sig := 177
abbrev cc13_sem6_0 : DmaSem sig := 178
abbrev cc13_sem7_0 : DmaSem sig := 179
abbrev cc13_sem7_1 : DmaSem sig := 180
abbrev cc14_sem0_0 : DmaSem sig := 181
abbrev cc14_sem0_1 : DmaSem sig := 182
abbrev cc14_sem1_0 : DmaSem sig := 183
abbrev cc14_sem1_1 : DmaSem sig := 184
abbrev cc14_sem2_0 : DmaSem sig := 185
abbrev cc14_sem3_0 : DmaSem sig := 186
abbrev cc14_sem4_0 : DmaSem sig := 187
abbrev cc14_sem5_0 : DmaSem sig := 188
abbrev cc14_sem6_0 : DmaSem sig := 189
abbrev cc14_sem7_0 : DmaSem sig := 190
abbrev cc14_sem8_0 : DmaSem sig := 191
abbrev cc14_sem9_0 : DmaSem sig := 192
abbrev cc14_sem9_1 : DmaSem sig := 193
abbrev cc14_sem10_0 : DmaSem sig := 194
abbrev cc14_sem10_1 : DmaSem sig := 195
abbrev cc14_sem11_0 : DmaSem sig := 196
abbrev cc14_sem11_1 : DmaSem sig := 197
abbrev cc15_sem0_0 : DmaSem sig := 198
abbrev cc15_sem0_1 : DmaSem sig := 199
abbrev cc15_sem1_0 : DmaSem sig := 200
abbrev cc15_sem1_1 : DmaSem sig := 201
abbrev cc15_sem2_0 : DmaSem sig := 202
abbrev cc15_sem3_0 : DmaSem sig := 203
abbrev cc15_sem4_0 : DmaSem sig := 204
abbrev cc15_sem5_0 : DmaSem sig := 205
abbrev cc15_sem6_0 : DmaSem sig := 206
abbrev cc15_sem7_0 : DmaSem sig := 207
abbrev cc15_sem8_0 : DmaSem sig := 208
abbrev cc15_sem9_0 : DmaSem sig := 209
abbrev cc15_sem9_1 : DmaSem sig := 210

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x10 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S4000x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8000x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S8000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_11 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S128x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S128x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S4000x128 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev stage4_10 : Fin 2 → Memref sig .tc .vmem S4000x128 .bf16 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

abbrev stage4_11 : Fin 2 → Memref sig .tc .vmem S4000x128 .bf16 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8000x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S8000x128 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S8000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_10 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_11 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S128x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S128x128 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 2 → Memref sig .tc .vmem S4000x128 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

abbrev stage6_10 : Fin 2 → Memref sig .tc .vmem S4000x128 .bf16 := fun | 0 => Memref.whole cc6_stg10_0 | 1 => Memref.whole cc6_stg10_1 | ⟨_ + 2, h⟩ => absurd h (Nat.not_lt.2 (Nat.le_add_left _ _))
abbrev sem6_10 : Fin 2 → DmaSem sig := fun | 0 => cc6_sem10_0 | 1 => cc6_sem10_1 | ⟨_ + 2, h⟩ => absurd h (Nat.not_lt.2 (Nat.le_add_left _ _))
abbrev reads6_10 : Fin grid6.rank → Bool := ![true]

abbrev stage6_11 : Fin 2 → Memref sig .tc .vmem S4000x128 .bf16 := fun | 0 => Memref.whole cc6_stg11_0 | 1 => Memref.whole cc6_stg11_1 | ⟨_ + 2, h⟩ => absurd h (Nat.not_lt.2 (Nat.le_add_left _ _))
abbrev sem6_11 : Fin 2 → DmaSem sig := fun | 0 => cc6_sem11_0 | 1 => cc6_sem11_1 | ⟨_ + 2, h⟩ => absurd h (Nat.not_lt.2 (Nat.le_add_left _ _))
abbrev reads6_11 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8000x128 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S8000x128 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S8000x128 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S128x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S128x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S8000x128 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev grid8 : Pipeline.Grid := ⟨1, ![5], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_10 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_11 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S4000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S4000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S128x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S128x128 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S128x128 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 2 → Memref sig .tc .vmem S4000x128 .f32 := fun | 0 => Memref.whole cc8_stg9_0 | 1 => Memref.whole cc8_stg9_1 | ⟨_ + 2, h⟩ => absurd h (Nat.not_lt.2 (Nat.le_add_left _ _))
abbrev sem8_9 : Fin 2 → DmaSem sig := fun | 0 => cc8_sem9_0 | 1 => cc8_sem9_1 | ⟨_ + 2, h⟩ => absurd h (Nat.not_lt.2 (Nat.le_add_left _ _))
abbrev reads8_9 : Fin grid8.rank → Bool := ![true]

abbrev stage8_10 : Fin 2 → Memref sig .tc .vmem S4000x128 .bf16 := fun | 0 => Memref.whole cc8_stg10_0 | 1 => Memref.whole cc8_stg10_1 | ⟨_ + 2, h⟩ => absurd h (Nat.not_lt.2 (Nat.le_add_left _ _))
abbrev sem8_10 : Fin 2 → DmaSem sig := fun | 0 => cc8_sem10_0 | 1 => cc8_sem10_1 | ⟨_ + 2, h⟩ => absurd h (Nat.not_lt.2 (Nat.le_add_left _ _))
abbrev reads8_10 : Fin grid8.rank → Bool := ![true]

abbrev stage8_11 : Fin 2 → Memref sig .tc .vmem S4000x128 .bf16 := fun | 0 => Memref.whole cc8_stg11_0 | 1 => Memref.whole cc8_stg11_1 | ⟨_ + 2, h⟩ => absurd h (Nat.not_lt.2 (Nat.le_add_left _ _))
abbrev sem8_11 : Fin 2 → DmaSem sig := fun | 0 => cc8_sem11_0 | 1 => cc8_sem11_1 | ⟨_ + 2, h⟩ => absurd h (Nat.not_lt.2 (Nat.le_add_left _ _))
abbrev reads8_11 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S8000x128 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S8000x128 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S8000x128 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S128x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S128x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x128 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 2 → Memref sig .tc .vmem S8000x128 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

abbrev grid10 : Pipeline.Grid := ⟨1, ![5], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_8 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_9 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_10 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_11 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S4000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S4000x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S128x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S128x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S128x128 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x128 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 1 → Memref sig .tc .vmem S128x128 .f32 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))
abbrev reads10_7 : Fin grid10.rank → Bool := ![false]

abbrev stage10_8 : Fin 1 → Memref sig .tc .vmem S128x128 .f32 := fun | 0 => Memref.whole cc10_stg8_0 | ⟨_ + 1, h⟩ => absurd h (Nat.not_lt.2 (Nat.le_add_left _ _))
abbrev sem10_8 : Fin 1 → DmaSem sig := fun | 0 => cc10_sem8_0 | ⟨_ + 1, h⟩ => absurd h (Nat.not_lt.2 (Nat.le_add_left _ _))
abbrev reads10_8 : Fin grid10.rank → Bool := ![false]

abbrev stage10_9 : Fin 2 → Memref sig .tc .vmem S4000x128 .f32 := fun | 0 => Memref.whole cc10_stg9_0 | 1 => Memref.whole cc10_stg9_1 | ⟨_ + 2, h⟩ => absurd h (Nat.not_lt.2 (Nat.le_add_left _ _))
abbrev sem10_9 : Fin 2 → DmaSem sig := fun | 0 => cc10_sem9_0 | 1 => cc10_sem9_1 | ⟨_ + 2, h⟩ => absurd h (Nat.not_lt.2 (Nat.le_add_left _ _))
abbrev reads10_9 : Fin grid10.rank → Bool := ![true]

abbrev stage10_10 : Fin 2 → Memref sig .tc .vmem S4000x128 .bf16 := fun | 0 => Memref.whole cc10_stg10_0 | 1 => Memref.whole cc10_stg10_1 | ⟨_ + 2, h⟩ => absurd h (Nat.not_lt.2 (Nat.le_add_left _ _))
abbrev sem10_10 : Fin 2 → DmaSem sig := fun | 0 => cc10_sem10_0 | 1 => cc10_sem10_1 | ⟨_ + 2, h⟩ => absurd h (Nat.not_lt.2 (Nat.le_add_left _ _))
abbrev reads10_10 : Fin grid10.rank → Bool := ![true]

abbrev stage10_11 : Fin 2 → Memref sig .tc .vmem S4000x128 .bf16 := fun | 0 => Memref.whole cc10_stg11_0 | 1 => Memref.whole cc10_stg11_1 | ⟨_ + 2, h⟩ => absurd h (Nat.not_lt.2 (Nat.le_add_left _ _))
abbrev sem10_11 : Fin 2 → DmaSem sig := fun | 0 => cc10_sem11_0 | 1 => cc10_sem11_1 | ⟨_ + 2, h⟩ => absurd h (Nat.not_lt.2 (Nat.le_add_left _ _))
abbrev reads10_11 : Fin grid10.rank → Bool := ![true]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_7 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S8000x128 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S8000x128 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S8000x128 .bf16 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 1 → Memref sig .tc .vmem S128x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S128x128 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 1 → Memref sig .tc .vmem S1x128 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev stage11_7 : Fin 2 → Memref sig .tc .vmem S8000x128 .f32 := fun | 0 => Memref.whole cc11_stg7_0 | 1 => Memref.whole cc11_stg7_1 | ⟨_ + 2, h⟩ => absurd h (Nat.not_lt.2 (Nat.le_add_left _ _))
abbrev sem11_7 : Fin 2 → DmaSem sig := fun | 0 => cc11_sem7_0 | 1 => cc11_sem7_1 | ⟨_ + 2, h⟩ => absurd h (Nat.not_lt.2 (Nat.le_add_left _ _))
abbrev reads11_7 : Fin grid11.rank → Bool := ![true]

abbrev grid12 : Pipeline.Grid := ⟨1, ![5], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_7 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_8 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_9 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_10 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_11 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S4000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S4000x128 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S128x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S128x128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x128 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S128x128 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 1 → Memref sig .tc .vmem S1x128 .f32 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![false]

abbrev stage12_7 : Fin 1 → Memref sig .tc .vmem S128x128 .f32 := fun | 0 => Memref.whole cc12_stg7_0 | ⟨_ + 1, h⟩ => absurd h (Nat.not_lt.2 (Nat.le_add_left _ _))
abbrev sem12_7 : Fin 1 → DmaSem sig := fun | 0 => cc12_sem7_0 | ⟨_ + 1, h⟩ => absurd h (Nat.not_lt.2 (Nat.le_add_left _ _))
abbrev reads12_7 : Fin grid12.rank → Bool := ![false]

abbrev stage12_8 : Fin 1 → Memref sig .tc .vmem S128x128 .f32 := fun | 0 => Memref.whole cc12_stg8_0 | ⟨_ + 1, h⟩ => absurd h (Nat.not_lt.2 (Nat.le_add_left _ _))
abbrev sem12_8 : Fin 1 → DmaSem sig := fun | 0 => cc12_sem8_0 | ⟨_ + 1, h⟩ => absurd h (Nat.not_lt.2 (Nat.le_add_left _ _))
abbrev reads12_8 : Fin grid12.rank → Bool := ![false]

abbrev stage12_9 : Fin 2 → Memref sig .tc .vmem S4000x128 .f32 := fun | 0 => Memref.whole cc12_stg9_0 | 1 => Memref.whole cc12_stg9_1 | ⟨_ + 2, h⟩ => absurd h (Nat.not_lt.2 (Nat.le_add_left _ _))
abbrev sem12_9 : Fin 2 → DmaSem sig := fun | 0 => cc12_sem9_0 | 1 => cc12_sem9_1 | ⟨_ + 2, h⟩ => absurd h (Nat.not_lt.2 (Nat.le_add_left _ _))
abbrev reads12_9 : Fin grid12.rank → Bool := ![true]

abbrev stage12_10 : Fin 2 → Memref sig .tc .vmem S4000x128 .bf16 := fun | 0 => Memref.whole cc12_stg10_0 | 1 => Memref.whole cc12_stg10_1 | ⟨_ + 2, h⟩ => absurd h (Nat.not_lt.2 (Nat.le_add_left _ _))
abbrev sem12_10 : Fin 2 → DmaSem sig := fun | 0 => cc12_sem10_0 | 1 => cc12_sem10_1 | ⟨_ + 2, h⟩ => absurd h (Nat.not_lt.2 (Nat.le_add_left _ _))
abbrev reads12_10 : Fin grid12.rank → Bool := ![true]

abbrev stage12_11 : Fin 2 → Memref sig .tc .vmem S4000x128 .bf16 := fun | 0 => Memref.whole cc12_stg11_0 | 1 => Memref.whole cc12_stg11_1 | ⟨_ + 2, h⟩ => absurd h (Nat.not_lt.2 (Nat.le_add_left _ _))
abbrev sem12_11 : Fin 2 → DmaSem sig := fun | 0 => cc12_sem11_0 | 1 => cc12_sem11_1 | ⟨_ + 2, h⟩ => absurd h (Nat.not_lt.2 (Nat.le_add_left _ _))
abbrev reads12_11 : Fin grid12.rank → Bool := ![true]

abbrev grid13 : Pipeline.Grid := ⟨1, ![20], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_6 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_7 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S8000x128 .bf16 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S8000x128 .bf16 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S8000x128 .bf16 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev stage13_3 : Fin 1 → Memref sig .tc .vmem S128x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x128 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S128x128 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev stage13_6 : Fin 1 → Memref sig .tc .vmem S1x128 .f32 := fun | 0 => Memref.whole cc13_stg6_0 | ⟨_ + 1, h⟩ => absurd h (Nat.not_lt.2 (Nat.le_add_left _ _))
abbrev sem13_6 : Fin 1 → DmaSem sig := fun | 0 => cc13_sem6_0 | ⟨_ + 1, h⟩ => absurd h (Nat.not_lt.2 (Nat.le_add_left _ _))
abbrev reads13_6 : Fin grid13.rank → Bool := ![false]

abbrev stage13_7 : Fin 2 → Memref sig .tc .vmem S8000x128 .f32 := fun | 0 => Memref.whole cc13_stg7_0 | 1 => Memref.whole cc13_stg7_1 | ⟨_ + 2, h⟩ => absurd h (Nat.not_lt.2 (Nat.le_add_left _ _))
abbrev sem13_7 : Fin 2 → DmaSem sig := fun | 0 => cc13_sem7_0 | 1 => cc13_sem7_1 | ⟨_ + 2, h⟩ => absurd h (Nat.not_lt.2 (Nat.le_add_left _ _))
abbrev reads13_7 : Fin grid13.rank → Bool := ![true]

abbrev grid14 : Pipeline.Grid := ⟨1, ![5], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_6 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_7 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_8 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_9 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_10 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_11 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S4000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S4000x128 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 1 → Memref sig .tc .vmem S128x128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S128x128 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x128 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 1 → Memref sig .tc .vmem S128x128 .f32 := fun | 0 => Memref.whole cc14_stg5_0 | ⟨_ + 1, h⟩ => absurd h (Nat.not_lt.2 (Nat.le_add_left _ _))
abbrev sem14_5 : Fin 1 → DmaSem sig := fun | 0 => cc14_sem5_0 | ⟨_ + 1, h⟩ => absurd h (Nat.not_lt.2 (Nat.le_add_left _ _))
abbrev reads14_5 : Fin grid14.rank → Bool := ![false]

abbrev stage14_6 : Fin 1 → Memref sig .tc .vmem S1x128 .f32 := fun | 0 => Memref.whole cc14_stg6_0 | ⟨_ + 1, h⟩ => absurd h (Nat.not_lt.2 (Nat.le_add_left _ _))
abbrev sem14_6 : Fin 1 → DmaSem sig := fun | 0 => cc14_sem6_0 | ⟨_ + 1, h⟩ => absurd h (Nat.not_lt.2 (Nat.le_add_left _ _))
abbrev reads14_6 : Fin grid14.rank → Bool := ![false]

abbrev stage14_7 : Fin 1 → Memref sig .tc .vmem S128x128 .f32 := fun | 0 => Memref.whole cc14_stg7_0 | ⟨_ + 1, h⟩ => absurd h (Nat.not_lt.2 (Nat.le_add_left _ _))
abbrev sem14_7 : Fin 1 → DmaSem sig := fun | 0 => cc14_sem7_0 | ⟨_ + 1, h⟩ => absurd h (Nat.not_lt.2 (Nat.le_add_left _ _))
abbrev reads14_7 : Fin grid14.rank → Bool := ![false]

abbrev stage14_8 : Fin 1 → Memref sig .tc .vmem S128x128 .f32 := fun | 0 => Memref.whole cc14_stg8_0 | ⟨_ + 1, h⟩ => absurd h (Nat.not_lt.2 (Nat.le_add_left _ _))
abbrev sem14_8 : Fin 1 → DmaSem sig := fun | 0 => cc14_sem8_0 | ⟨_ + 1, h⟩ => absurd h (Nat.not_lt.2 (Nat.le_add_left _ _))
abbrev reads14_8 : Fin grid14.rank → Bool := ![false]

abbrev stage14_9 : Fin 2 → Memref sig .tc .vmem S4000x128 .f32 := fun | 0 => Memref.whole cc14_stg9_0 | 1 => Memref.whole cc14_stg9_1 | ⟨_ + 2, h⟩ => absurd h (Nat.not_lt.2 (Nat.le_add_left _ _))
abbrev sem14_9 : Fin 2 → DmaSem sig := fun | 0 => cc14_sem9_0 | 1 => cc14_sem9_1 | ⟨_ + 2, h⟩ => absurd h (Nat.not_lt.2 (Nat.le_add_left _ _))
abbrev reads14_9 : Fin grid14.rank → Bool := ![true]

abbrev stage14_10 : Fin 2 → Memref sig .tc .vmem S4000x128 .bf16 := fun | 0 => Memref.whole cc14_stg10_0 | 1 => Memref.whole cc14_stg10_1 | ⟨_ + 2, h⟩ => absurd h (Nat.not_lt.2 (Nat.le_add_left _ _))
abbrev sem14_10 : Fin 2 → DmaSem sig := fun | 0 => cc14_sem10_0 | 1 => cc14_sem10_1 | ⟨_ + 2, h⟩ => absurd h (Nat.not_lt.2 (Nat.le_add_left _ _))
abbrev reads14_10 : Fin grid14.rank → Bool := ![true]

abbrev stage14_11 : Fin 2 → Memref sig .tc .vmem S4000x128 .bf16 := fun | 0 => Memref.whole cc14_stg11_0 | 1 => Memref.whole cc14_stg11_1 | ⟨_ + 2, h⟩ => absurd h (Nat.not_lt.2 (Nat.le_add_left _ _))
abbrev sem14_11 : Fin 2 → DmaSem sig := fun | 0 => cc14_sem11_0 | 1 => cc14_sem11_1 | ⟨_ + 2, h⟩ => absurd h (Nat.not_lt.2 (Nat.le_add_left _ _))
abbrev reads14_11 : Fin grid14.rank → Bool := ![true]

abbrev grid15 : Pipeline.Grid := ⟨1, ![5], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_5 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_6 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_7 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_8 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_9 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S4000x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S4000x4 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 1 → Memref sig .tc .vmem S128x128 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S2x128 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 1 → Memref sig .tc .vmem S1x128 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev stage15_5 : Fin 1 → Memref sig .tc .vmem S128x64 .f32 := fun | 0 => Memref.whole cc15_stg5_0 | ⟨_ + 1, h⟩ => absurd h (Nat.not_lt.2 (Nat.le_add_left _ _))
abbrev sem15_5 : Fin 1 → DmaSem sig := fun | 0 => cc15_sem5_0 | ⟨_ + 1, h⟩ => absurd h (Nat.not_lt.2 (Nat.le_add_left _ _))
abbrev reads15_5 : Fin grid15.rank → Bool := ![false]

abbrev stage15_6 : Fin 1 → Memref sig .tc .vmem S1x64 .f32 := fun | 0 => Memref.whole cc15_stg6_0 | ⟨_ + 1, h⟩ => absurd h (Nat.not_lt.2 (Nat.le_add_left _ _))
abbrev sem15_6 : Fin 1 → DmaSem sig := fun | 0 => cc15_sem6_0 | ⟨_ + 1, h⟩ => absurd h (Nat.not_lt.2 (Nat.le_add_left _ _))
abbrev reads15_6 : Fin grid15.rank → Bool := ![false]

abbrev stage15_7 : Fin 1 → Memref sig .tc .vmem S64x3 .f32 := fun | 0 => Memref.whole cc15_stg7_0 | ⟨_ + 1, h⟩ => absurd h (Nat.not_lt.2 (Nat.le_add_left _ _))
abbrev sem15_7 : Fin 1 → DmaSem sig := fun | 0 => cc15_sem7_0 | ⟨_ + 1, h⟩ => absurd h (Nat.not_lt.2 (Nat.le_add_left _ _))
abbrev reads15_7 : Fin grid15.rank → Bool := ![false]

abbrev stage15_8 : Fin 1 → Memref sig .tc .vmem S1x3 .f32 := fun | 0 => Memref.whole cc15_stg8_0 | ⟨_ + 1, h⟩ => absurd h (Nat.not_lt.2 (Nat.le_add_left _ _))
abbrev sem15_8 : Fin 1 → DmaSem sig := fun | 0 => cc15_sem8_0 | ⟨_ + 1, h⟩ => absurd h (Nat.not_lt.2 (Nat.le_add_left _ _))
abbrev reads15_8 : Fin grid15.rank → Bool := ![false]

abbrev stage15_9 : Fin 2 → Memref sig .tc .vmem S4000x3 .f32 := fun | 0 => Memref.whole cc15_stg9_0 | 1 => Memref.whole cc15_stg9_1 | ⟨_ + 2, h⟩ => absurd h (Nat.not_lt.2 (Nat.le_add_left _ _))
abbrev sem15_9 : Fin 2 → DmaSem sig := fun | 0 => cc15_sem9_0 | 1 => cc15_sem9_1 | ⟨_ + 2, h⟩ => absurd h (Nat.not_lt.2 (Nat.le_add_left _ _))
abbrev reads15_9 : Fin grid15.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S2 : S_.BroadcastsInDim S2 (![] : Fin 0 → Fin S2.rank)
  bcast_S2_S2x1_0 : S2.BroadcastsInDim S2x1 (![0] : Fin 1 → Fin S2x1.rank)
  slices_S20000x9_S20000x6_0_3 : S20000x9.Slices ![0, 3] S20000x6
  shapeCasts_S128_S1x128 : S128.ShapeCasts S1x128
  inb_S4000x6_S4000x6_0_0 : ∀ a, (![0, 0] : Fin 2 → Nat) a + S4000x6.size a ≤ S4000x6.size a
  h_S4000x6 : 0 < S4000x6.numel
  shapeCasts_S4000x6_S4000x6 : S4000x6.ShapeCasts S4000x6
  bitsLt_bf16_f32 : FTy.bits .bf16 < FTy.bits .f32
  inb_S6x128_S6x128_0_0 : ∀ a, (![0, 0] : Fin 2 → Nat) a + S6x128.size a ≤ S6x128.size a
  h_S6x128 : 0 < S6x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  inb_S4000x128_S4000x128_0_0 : ∀ a, (![0, 0] : Fin 2 → Nat) a + S4000x128.size a ≤ S4000x128.size a
  h_S4000x128 : 0 < S4000x128.numel
  inb_S8000x10_S8000x10_0_0 : ∀ a, (![0, 0] : Fin 2 → Nat) a + S8000x10.size a ≤ S8000x10.size a
  h_S8000x10 : 0 < S8000x10.numel
  inb_S10x128_S10x128_0_0 : ∀ a, (![0, 0] : Fin 2 → Nat) a + S10x128.size a ≤ S10x128.size a
  h_S10x128 : 0 < S10x128.numel
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  packedbf16_S8000x128_S8000x128_0_0 : (Rect.unit (s := S8000x128) ![0, 0] S8000x128.size inb_S8000x128_S8000x128_0_0).PackedRows (EltTy.packing .bf16)
  slices_S6x128x128_S1x128x128_0_0_0 : S6x128x128.Slices ![0, 0, 0] S1x128x128
  shapeCasts_S1x128x128_S128x128 : S1x128x128.ShapeCasts S128x128
  shapeCasts_S4000x128_S4000x128 : S4000x128.ShapeCasts S4000x128
  shapeCasts_S128x128_S128x128 : S128x128.ShapeCasts S128x128
  packedbf16_S4000x128_S4000x128_0_0 : (Rect.unit (s := S4000x128) ![0, 0] S4000x128.size inb_S4000x128_S4000x128_0_0).PackedRows (EltTy.packing .bf16)
  bcast_S_S160000 : S_.BroadcastsInDim S160000 (![] : Fin 0 → Fin S160000.rank)
  bcast_S160000_S160000x1_0 : S160000.BroadcastsInDim S160000x1 (![0] : Fin 1 → Fin S160000x1.rank)
  slices_S6x128_S1x128_0_0 : S6x128.Slices ![0, 0] S1x128
  shapeCasts_S1x128_S128 : S1x128.ShapeCasts S128
  shapeCasts_S8000x128_S8000x128 : S8000x128.ShapeCasts S8000x128
  bcast_S_S20000x128 : S_.BroadcastsInDim S20000x128 (![] : Fin 0 → Fin S20000x128.rank)
  slices_S6x128x128_S1x128x128_1_0_0 : S6x128x128.Slices ![1, 0, 0] S1x128x128
  slices_S6x128_S1x128_1_0 : S6x128.Slices ![1, 0] S1x128
  slices_S6x128x128_S1x128x128_2_0_0 : S6x128x128.Slices ![2, 0, 0] S1x128x128
  slices_S6x128_S1x128_2_0 : S6x128.Slices ![2, 0] S1x128
  slices_S6x128x128_S1x128x128_3_0_0 : S6x128x128.Slices ![3, 0, 0] S1x128x128
  slices_S6x128_S1x128_3_0 : S6x128.Slices ![3, 0] S1x128
  slices_S6x128x128_S1x128x128_4_0_0 : S6x128x128.Slices ![4, 0, 0] S1x128x128
  slices_S6x128_S1x128_4_0 : S6x128.Slices ![4, 0] S1x128
  slices_S6x128x128_S1x128x128_5_0_0 : S6x128x128.Slices ![5, 0, 0] S1x128x128
  slices_S6x128_S1x128_5_0 : S6x128.Slices ![5, 0] S1x128
  concatenates_S20000x2_S20000x1_S20000x1_S20000x4_d1 : Shape.Concatenates [S20000x2, S20000x1, S20000x1] S20000x4 1
  slices_S130x128_S128x128_0_0 : S130x128.Slices ![0, 0] S128x128
  slices_S130x128_S2x128_128_0 : S130x128.Slices ![128, 0] S2x128
  shapeCasts_S64_S1x64 : S64.ShapeCasts S1x64
  shapeCasts_S3_S1x3 : S3.ShapeCasts S1x3
  inb_S4000x4_S4000x4_0_0 : ∀ a, (![0, 0] : Fin 2 → Nat) a + S4000x4.size a ≤ S4000x4.size a
  h_S4000x4 : 0 < S4000x4.numel
  shapeCasts_S4000x4_S4000x4 : S4000x4.ShapeCasts S4000x4
  slices_S4000x4_o0_0_S4000x2 : S4000x4.Slices ![0, 0] S4000x2
  slices_S4000x4_o0_2_S4000x1 : S4000x4.Slices ![0, 2] S4000x1
  slices_S4000x4_o0_3_S4000x1 : S4000x4.Slices ![0, 3] S4000x1
  inb_S2x128_S2x128_0_0 : ∀ a, (![0, 0] : Fin 2 → Nat) a + S2x128.size a ≤ S2x128.size a
  h_S2x128 : 0 < S2x128.numel
  shapeCasts_S2x128_S2x128 : S2x128.ShapeCasts S2x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x3_S64x3_0_0 : ∀ a, (![0, 0] : Fin 2 → Nat) a + S64x3.size a ≤ S64x3.size a
  h_S64x3 : 0 < S64x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S4000x3 : S1x3.Broadcasts S4000x3
  iota_S4000x3_d1_w32 : S4000x3.Iotas .tc 32 [1]
  shapeCasts_S4000x1_S4000x1 : S4000x1.ShapeCasts S4000x1
  broadcasts_S4000x1_S4000x3 : S4000x1.Broadcasts S4000x3
  inb_S4000x3_S4000x3_0_0 : ∀ a, (![0, 0] : Fin 2 → Nat) a + S4000x3.size a ≤ S4000x3.size a
  h_S4000x3 : 0 < S4000x3.numel
  gather_S20000x3_S2x1_S20000x2_0_1_n_n_1_1_200001_wf : GatherDims.WF S20000x3 S2x1 S20000x2 [0] [1] [] [1] [] 1 ![20000, 1]
  dot_S4000x6_S6x128_S4000x128_1_0_0_1_n_n_wf : DotDims.WF S4000x6 S6x128 S4000x128 [1] [0] [0] [1] [] []
  dot_S4000x128_S128x128_S4000x128_1_0_0_1_n_n_wf : DotDims.WF S4000x128 S128x128 S4000x128 [1] [0] [0] [1] [] []
  dot_S8000x10_S10x128_S8000x128_1_0_0_1_n_n_wf : DotDims.WF S8000x10 S10x128 S8000x128 [1] [0] [0] [1] [] []
  dot_S8000x128_S128x128_S8000x128_1_0_0_1_n_n_wf : DotDims.WF S8000x128 S128x128 S8000x128 [1] [0] [0] [1] [] []
  gather_S20000x128_S160000x1_S160000x128_1_0_n_n_0_1_1128_wf : GatherDims.WF S20000x128 S160000x1 S160000x128 [1] [0] [] [0] [] 1 ![1, 128]
  scatter_S20000x128_S160000x1_S160000x128_1_0_0_1_wf : ScatterDims.WF S20000x128 S160000x1 S160000x128 [1] [0] [0] 1
  dot_S4000x2_S2x128_S4000x128_1_0_0_1_n_n_wf : DotDims.WF S4000x2 S2x128 S4000x128 [1] [0] [0] [1] [] []
  dot_S4000x128_S128x64_S4000x64_1_0_0_1_n_n_wf : DotDims.WF S4000x128 S128x64 S4000x64 [1] [0] [0] [1] [] []
  dot_S4000x64_S64x3_S4000x3_1_0_0_1_n_n_wf : DotDims.WF S4000x64 S64x3 S4000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x6.size a ≤ S20000x6.size a
  hwx0_0 : ∀ i : grid0.Coords, EltTy.bits .f32 = 32 ∨ (Rect.block (s := S20000x6) S4000x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x128.size a ≤ S6x128.size a
  hwx0_1 : ∀ i : grid0.Coords, EltTy.bits .f32 = 32 ∨ (Rect.block (s := S6x128) S6x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S20000x128.size a
  hwx0_5 : ∀ i : grid0.Coords, EltTy.bits .f32 = 32 ∨ (Rect.block (s := S20000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x10.size a ≤ S160000x10.size a
  hwx1_0 : ∀ i : grid1.Coords, EltTy.bits .f32 = 32 ∨ (Rect.block (s := S160000x10) S8000x10.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10x128.size a ≤ S10x128.size a
  hwx1_1 : ∀ i : grid1.Coords, EltTy.bits .f32 = 32 ∨ (Rect.block (s := S10x128) S10x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8000x128.size a ≤ S160000x128.size a
  hwx1_5 : ∀ i : grid1.Coords, EltTy.bits .bf16 = 32 ∨ (Rect.block (s := S160000x128) S8000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S20000x128.size a
  hwx2_0 : ∀ i : grid2.Coords, EltTy.bits .f32 = 32 ∨ (Rect.block (s := S20000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x128.size a ≤ S20000x128.size a
  hwx2_3 : ∀ i : grid2.Coords, EltTy.bits .bf16 = 32 ∨ (Rect.block (s := S20000x128) S4000x128.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x128.size a ≤ S20000x128.size a
  hwx2_4 : ∀ i : grid2.Coords, EltTy.bits .bf16 = 32 ∨ (Rect.block (s := S20000x128) S4000x128.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x128.size a ≤ S160000x128.size a
  hwx3_0 : ∀ i : grid3.Coords, EltTy.bits .bf16 = 32 ∨ (Rect.block (s := S160000x128) S8000x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x128.size a ≤ S160000x128.size a
  hwx3_1 : ∀ i : grid3.Coords, EltTy.bits .bf16 = 32 ∨ (Rect.block (s := S160000x128) S8000x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x128.size a ≤ S160000x128.size a
  hwx3_2 : ∀ i : grid3.Coords, EltTy.bits .bf16 = 32 ∨ (Rect.block (s := S160000x128) S8000x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S8000x128.size a ≤ S160000x128.size a
  hwx3_7 : ∀ i : grid3.Coords, EltTy.bits .f32 = 32 ∨ (Rect.block (s := S160000x128) S8000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S20000x128.size a
  hwx4_0 : ∀ i : grid4.Coords, EltTy.bits .f32 = 32 ∨ (Rect.block (s := S20000x128) S4000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x128.size a ≤ S20000x128.size a
  hwx4_1 : ∀ i : grid4.Coords, EltTy.bits .f32 = 32 ∨ (Rect.block (s := S20000x128) S4000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128x128.size a ≤ S128x128.size a
  hwx4_7 : ∀ i : grid4.Coords, EltTy.bits .f32 = 32 ∨ (Rect.block (s := S128x128) S128x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S128x128.size a ≤ S128x128.size a
  hwx4_8 : ∀ i : grid4.Coords, EltTy.bits .f32 = 32 ∨ (Rect.block (s := S128x128) S128x128.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S4000x128.size a ≤ S20000x128.size a
  hwx4_9 : ∀ i : grid4.Coords, EltTy.bits .f32 = 32 ∨ (Rect.block (s := S20000x128) S4000x128.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S4000x128.size a ≤ S20000x128.size a
  hwx4_10 : ∀ i : grid4.Coords, EltTy.bits .bf16 = 32 ∨ (Rect.block (s := S20000x128) S4000x128.size (cc4_transform_10 i) (hinb4_10 i)).WholeWords (EltTy.packing .bf16)
  hstage4_11 : ∀ j, (stage4_11 j).IsWhole
  nbuf4_11 : grid4.bufCount reads4_11 false = 2
  hreads4_11 : ∀ i i' : grid4.Coords, (∀ a, reads4_11 a = true → i a = i' a) → cc4_transform_11 i = cc4_transform_11 i'
  hinb4_11 : ∀ (i : grid4.Coords) a, (cc4_transform_11 i a + 1) * S4000x128.size a ≤ S20000x128.size a
  hwx4_11 : ∀ i : grid4.Coords, EltTy.bits .bf16 = 32 ∨ (Rect.block (s := S20000x128) S4000x128.size (cc4_transform_11 i) (hinb4_11 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x128.size a ≤ S160000x128.size a
  hwx5_0 : ∀ i : grid5.Coords, EltTy.bits .bf16 = 32 ∨ (Rect.block (s := S160000x128) S8000x128.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8000x128.size a ≤ S160000x128.size a
  hwx5_1 : ∀ i : grid5.Coords, EltTy.bits .bf16 = 32 ∨ (Rect.block (s := S160000x128) S8000x128.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8000x128.size a ≤ S160000x128.size a
  hwx5_2 : ∀ i : grid5.Coords, EltTy.bits .bf16 = 32 ∨ (Rect.block (s := S160000x128) S8000x128.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .f32 = 32 ∨ (Rect.block (s := S128x128) S128x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S8000x128.size a ≤ S160000x128.size a
  hwx5_7 : ∀ i : grid5.Coords, EltTy.bits .f32 = 32 ∨ (Rect.block (s := S160000x128) S8000x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x128.size a ≤ S20000x128.size a
  hwx6_0 : ∀ i : grid6.Coords, EltTy.bits .f32 = 32 ∨ (Rect.block (s := S20000x128) S4000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4000x128.size a ≤ S20000x128.size a
  hwx6_1 : ∀ i : grid6.Coords, EltTy.bits .f32 = 32 ∨ (Rect.block (s := S20000x128) S4000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x128.size a ≤ S128x128.size a
  hwx6_5 : ∀ i : grid6.Coords, EltTy.bits .f32 = 32 ∨ (Rect.block (s := S128x128) S128x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S128x128.size a ≤ S128x128.size a
  hwx6_7 : ∀ i : grid6.Coords, EltTy.bits .f32 = 32 ∨ (Rect.block (s := S128x128) S128x128.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S128x128.size a ≤ S128x128.size a
  hwx6_8 : ∀ i : grid6.Coords, EltTy.bits .f32 = 32 ∨ (Rect.block (s := S128x128) S128x128.size (cc6_transform_8 i) (hinb6_8 i)).WholeWords (EltTy.packing .f32)
  hstage6_9 : ∀ j, (stage6_9 j).IsWhole
  nbuf6_9 : grid6.bufCount reads6_9 false = 2
  hreads6_9 : ∀ i i' : grid6.Coords, (∀ a, reads6_9 a = true → i a = i' a) → cc6_transform_9 i = cc6_transform_9 i'
  hinb6_9 : ∀ (i : grid6.Coords) a, (cc6_transform_9 i a + 1) * S4000x128.size a ≤ S20000x128.size a
  hwx6_9 : ∀ i : grid6.Coords, EltTy.bits .f32 = 32 ∨ (Rect.block (s := S20000x128) S4000x128.size (cc6_transform_9 i) (hinb6_9 i)).WholeWords (EltTy.packing .f32)
  hstage6_10 : ∀ j, (stage6_10 j).IsWhole
  nbuf6_10 : grid6.bufCount reads6_10 false = 2
  hreads6_10 : ∀ i i' : grid6.Coords, (∀ a, reads6_10 a = true → i a = i' a) → cc6_transform_10 i = cc6_transform_10 i'
  hinb6_10 : ∀ (i : grid6.Coords) a, (cc6_transform_10 i a + 1) * S4000x128.size a ≤ S20000x128.size a
  hwx6_10 : ∀ i : grid6.Coords, EltTy.bits .bf16 = 32 ∨ (Rect.block (s := S20000x128) S4000x128.size (cc6_transform_10 i) (hinb6_10 i)).WholeWords (EltTy.packing .bf16)
  hstage6_11 : ∀ j, (stage6_11 j).IsWhole
  nbuf6_11 : grid6.bufCount reads6_11 false = 2
  hreads6_11 : ∀ i i' : grid6.Coords, (∀ a, reads6_11 a = true → i a = i' a) → cc6_transform_11 i = cc6_transform_11 i'
  hinb6_11 : ∀ (i : grid6.Coords) a, (cc6_transform_11 i a + 1) * S4000x128.size a ≤ S20000x128.size a
  hwx6_11 : ∀ i : grid6.Coords, EltTy.bits .bf16 = 32 ∨ (Rect.block (s := S20000x128) S4000x128.size (cc6_transform_11 i) (hinb6_11 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8000x128.size a ≤ S160000x128.size a
  hwx7_0 : ∀ i : grid7.Coords, EltTy.bits .bf16 = 32 ∨ (Rect.block (s := S160000x128) S8000x128.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S8000x128.size a ≤ S160000x128.size a
  hwx7_1 : ∀ i : grid7.Coords, EltTy.bits .bf16 = 32 ∨ (Rect.block (s := S160000x128) S8000x128.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S8000x128.size a ≤ S160000x128.size a
  hwx7_2 : ∀ i : grid7.Coords, EltTy.bits .bf16 = 32 ∨ (Rect.block (s := S160000x128) S8000x128.size (cc7_transform_2 i) (hinb7_2 i)).WholeWords (EltTy.packing .bf16)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .f32 = 32 ∨ (Rect.block (s := S128x128) S128x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S128x128.size a ≤ S128x128.size a
  hwx7_5 : ∀ i : grid7.Coords, EltTy.bits .f32 = 32 ∨ (Rect.block (s := S128x128) S128x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S8000x128.size a ≤ S160000x128.size a
  hwx7_7 : ∀ i : grid7.Coords, EltTy.bits .f32 = 32 ∨ (Rect.block (s := S160000x128) S8000x128.size (cc7_transform_7 i) (hinb7_7 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4000x128.size a ≤ S20000x128.size a
  hwx8_0 : ∀ i : grid8.Coords, EltTy.bits .f32 = 32 ∨ (Rect.block (s := S20000x128) S4000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S4000x128.size a ≤ S20000x128.size a
  hwx8_1 : ∀ i : grid8.Coords, EltTy.bits .f32 = 32 ∨ (Rect.block (s := S20000x128) S4000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x128.size a ≤ S128x128.size a
  hwx8_2 : ∀ i : grid8.Coords, EltTy.bits .f32 = 32 ∨ (Rect.block (s := S128x128) S128x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x128.size a ≤ S128x128.size a
  hwx8_3 : ∀ i : grid8.Coords, EltTy.bits .f32 = 32 ∨ (Rect.block (s := S128x128) S128x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S128x128.size a ≤ S128x128.size a
  hwx8_5 : ∀ i : grid8.Coords, EltTy.bits .f32 = 32 ∨ (Rect.block (s := S128x128) S128x128.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x128.size a ≤ S1x128.size a
  hwx8_6 : ∀ i : grid8.Coords, EltTy.bits .f32 = 32 ∨ (Rect.block (s := S1x128) S1x128.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S128x128.size a ≤ S128x128.size a
  hwx8_7 : ∀ i : grid8.Coords, EltTy.bits .f32 = 32 ∨ (Rect.block (s := S128x128) S128x128.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S128x128.size a ≤ S128x128.size a
  hwx8_8 : ∀ i : grid8.Coords, EltTy.bits .f32 = 32 ∨ (Rect.block (s := S128x128) S128x128.size (cc8_transform_8 i) (hinb8_8 i)).WholeWords (EltTy.packing .f32)
  hstage8_9 : ∀ j, (stage8_9 j).IsWhole
  nbuf8_9 : grid8.bufCount reads8_9 false = 2
  hreads8_9 : ∀ i i' : grid8.Coords, (∀ a, reads8_9 a = true → i a = i' a) → cc8_transform_9 i = cc8_transform_9 i'
  hinb8_9 : ∀ (i : grid8.Coords) a, (cc8_transform_9 i a + 1) * S4000x128.size a ≤ S20000x128.size a
  hwx8_9 : ∀ i : grid8.Coords, EltTy.bits .f32 = 32 ∨ (Rect.block (s := S20000x128) S4000x128.size (cc8_transform_9 i) (hinb8_9 i)).WholeWords (EltTy.packing .f32)
  hstage8_10 : ∀ j, (stage8_10 j).IsWhole
  nbuf8_10 : grid8.bufCount reads8_10 false = 2
  hreads8_10 : ∀ i i' : grid8.Coords, (∀ a, reads8_10 a = true → i a = i' a) → cc8_transform_10 i = cc8_transform_10 i'
  hinb8_10 : ∀ (i : grid8.Coords) a, (cc8_transform_10 i a + 1) * S4000x128.size a ≤ S20000x128.size a
  hwx8_10 : ∀ i : grid8.Coords, EltTy.bits .bf16 = 32 ∨ (Rect.block (s := S20000x128) S4000x128.size (cc8_transform_10 i) (hinb8_10 i)).WholeWords (EltTy.packing .bf16)
  hstage8_11 : ∀ j, (stage8_11 j).IsWhole
  nbuf8_11 : grid8.bufCount reads8_11 false = 2
  hreads8_11 : ∀ i i' : grid8.Coords, (∀ a, reads8_11 a = true → i a = i' a) → cc8_transform_11 i = cc8_transform_11 i'
  hinb8_11 : ∀ (i : grid8.Coords) a, (cc8_transform_11 i a + 1) * S4000x128.size a ≤ S20000x128.size a
  hwx8_11 : ∀ i : grid8.Coords, EltTy.bits .bf16 = 32 ∨ (Rect.block (s := S20000x128) S4000x128.size (cc8_transform_11 i) (hinb8_11 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S8000x128.size a ≤ S160000x128.size a
  hwx9_0 : ∀ i : grid9.Coords, EltTy.bits .bf16 = 32 ∨ (Rect.block (s := S160000x128) S8000x128.size (cc9_transform_0 i) (hinb9_0 i)).WholeWords (EltTy.packing .bf16)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S8000x128.size a ≤ S160000x128.size a
  hwx9_1 : ∀ i : grid9.Coords, EltTy.bits .bf16 = 32 ∨ (Rect.block (s := S160000x128) S8000x128.size (cc9_transform_1 i) (hinb9_1 i)).WholeWords (EltTy.packing .bf16)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S8000x128.size a ≤ S160000x128.size a
  hwx9_2 : ∀ i : grid9.Coords, EltTy.bits .bf16 = 32 ∨ (Rect.block (s := S160000x128) S8000x128.size (cc9_transform_2 i) (hinb9_2 i)).WholeWords (EltTy.packing .bf16)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128x128.size a ≤ S128x128.size a
  hwx9_3 : ∀ i : grid9.Coords, EltTy.bits .f32 = 32 ∨ (Rect.block (s := S128x128) S128x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S128x128.size a ≤ S128x128.size a
  hwx9_5 : ∀ i : grid9.Coords, EltTy.bits .f32 = 32 ∨ (Rect.block (s := S128x128) S128x128.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x128.size a ≤ S1x128.size a
  hwx9_6 : ∀ i : grid9.Coords, EltTy.bits .f32 = 32 ∨ (Rect.block (s := S1x128) S1x128.size (cc9_transform_6 i) (hinb9_6 i)).WholeWords (EltTy.packing .f32)
  hstage9_7 : ∀ j, (stage9_7 j).IsWhole
  nbuf9_7 : grid9.bufCount reads9_7 false = 2
  hreads9_7 : ∀ i i' : grid9.Coords, (∀ a, reads9_7 a = true → i a = i' a) → cc9_transform_7 i = cc9_transform_7 i'
  hinb9_7 : ∀ (i : grid9.Coords) a, (cc9_transform_7 i a + 1) * S8000x128.size a ≤ S160000x128.size a
  hwx9_7 : ∀ i : grid9.Coords, EltTy.bits .f32 = 32 ∨ (Rect.block (s := S160000x128) S8000x128.size (cc9_transform_7 i) (hinb9_7 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S4000x128.size a ≤ S20000x128.size a
  hwx10_0 : ∀ i : grid10.Coords, EltTy.bits .f32 = 32 ∨ (Rect.block (s := S20000x128) S4000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S4000x128.size a ≤ S20000x128.size a
  hwx10_1 : ∀ i : grid10.Coords, EltTy.bits .f32 = 32 ∨ (Rect.block (s := S20000x128) S4000x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S128x128.size a ≤ S128x128.size a
  hwx10_2 : ∀ i : grid10.Coords, EltTy.bits .f32 = 32 ∨ (Rect.block (s := S128x128) S128x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S128x128.size a ≤ S128x128.size a
  hwx10_3 : ∀ i : grid10.Coords, EltTy.bits .f32 = 32 ∨ (Rect.block (s := S128x128) S128x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S128x128.size a ≤ S128x128.size a
  hwx10_5 : ∀ i : grid10.Coords, EltTy.bits .f32 = 32 ∨ (Rect.block (s := S128x128) S128x128.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x128.size a ≤ S1x128.size a
  hwx10_6 : ∀ i : grid10.Coords, EltTy.bits .f32 = 32 ∨ (Rect.block (s := S1x128) S1x128.size (cc10_transform_6 i) (hinb10_6 i)).WholeWords (EltTy.packing .f32)
  hstage10_7 : ∀ j, (stage10_7 j).IsWhole
  nbuf10_7 : grid10.bufCount reads10_7 true = 1
  hreads10_7 : ∀ i i' : grid10.Coords, (∀ a, reads10_7 a = true → i a = i' a) → cc10_transform_7 i = cc10_transform_7 i'
  hinb10_7 : ∀ (i : grid10.Coords) a, (cc10_transform_7 i a + 1) * S128x128.size a ≤ S128x128.size a
  hwx10_7 : ∀ i : grid10.Coords, EltTy.bits .f32 = 32 ∨ (Rect.block (s := S128x128) S128x128.size (cc10_transform_7 i) (hinb10_7 i)).WholeWords (EltTy.packing .f32)
  hstage10_8 : ∀ j, (stage10_8 j).IsWhole
  nbuf10_8 : grid10.bufCount reads10_8 true = 1
  hreads10_8 : ∀ i i' : grid10.Coords, (∀ a, reads10_8 a = true → i a = i' a) → cc10_transform_8 i = cc10_transform_8 i'
  hinb10_8 : ∀ (i : grid10.Coords) a, (cc10_transform_8 i a + 1) * S128x128.size a ≤ S128x128.size a
  hwx10_8 : ∀ i : grid10.Coords, EltTy.bits .f32 = 32 ∨ (Rect.block (s := S128x128) S128x128.size (cc10_transform_8 i) (hinb10_8 i)).WholeWords (EltTy.packing .f32)
  hstage10_9 : ∀ j, (stage10_9 j).IsWhole
  nbuf10_9 : grid10.bufCount reads10_9 false = 2
  hreads10_9 : ∀ i i' : grid10.Coords, (∀ a, reads10_9 a = true → i a = i' a) → cc10_transform_9 i = cc10_transform_9 i'
  hinb10_9 : ∀ (i : grid10.Coords) a, (cc10_transform_9 i a + 1) * S4000x128.size a ≤ S20000x128.size a
  hwx10_9 : ∀ i : grid10.Coords, EltTy.bits .f32 = 32 ∨ (Rect.block (s := S20000x128) S4000x128.size (cc10_transform_9 i) (hinb10_9 i)).WholeWords (EltTy.packing .f32)
  hstage10_10 : ∀ j, (stage10_10 j).IsWhole
  nbuf10_10 : grid10.bufCount reads10_10 false = 2
  hreads10_10 : ∀ i i' : grid10.Coords, (∀ a, reads10_10 a = true → i a = i' a) → cc10_transform_10 i = cc10_transform_10 i'
  hinb10_10 : ∀ (i : grid10.Coords) a, (cc10_transform_10 i a + 1) * S4000x128.size a ≤ S20000x128.size a
  hwx10_10 : ∀ i : grid10.Coords, EltTy.bits .bf16 = 32 ∨ (Rect.block (s := S20000x128) S4000x128.size (cc10_transform_10 i) (hinb10_10 i)).WholeWords (EltTy.packing .bf16)
  hstage10_11 : ∀ j, (stage10_11 j).IsWhole
  nbuf10_11 : grid10.bufCount reads10_11 false = 2
  hreads10_11 : ∀ i i' : grid10.Coords, (∀ a, reads10_11 a = true → i a = i' a) → cc10_transform_11 i = cc10_transform_11 i'
  hinb10_11 : ∀ (i : grid10.Coords) a, (cc10_transform_11 i a + 1) * S4000x128.size a ≤ S20000x128.size a
  hwx10_11 : ∀ i : grid10.Coords, EltTy.bits .bf16 = 32 ∨ (Rect.block (s := S20000x128) S4000x128.size (cc10_transform_11 i) (hinb10_11 i)).WholeWords (EltTy.packing .bf16)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S8000x128.size a ≤ S160000x128.size a
  hwx11_0 : ∀ i : grid11.Coords, EltTy.bits .bf16 = 32 ∨ (Rect.block (s := S160000x128) S8000x128.size (cc11_transform_0 i) (hinb11_0 i)).WholeWords (EltTy.packing .bf16)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S8000x128.size a ≤ S160000x128.size a
  hwx11_1 : ∀ i : grid11.Coords, EltTy.bits .bf16 = 32 ∨ (Rect.block (s := S160000x128) S8000x128.size (cc11_transform_1 i) (hinb11_1 i)).WholeWords (EltTy.packing .bf16)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S8000x128.size a ≤ S160000x128.size a
  hwx11_2 : ∀ i : grid11.Coords, EltTy.bits .bf16 = 32 ∨ (Rect.block (s := S160000x128) S8000x128.size (cc11_transform_2 i) (hinb11_2 i)).WholeWords (EltTy.packing .bf16)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S128x128.size a ≤ S128x128.size a
  hwx11_3 : ∀ i : grid11.Coords, EltTy.bits .f32 = 32 ∨ (Rect.block (s := S128x128) S128x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S128x128.size a ≤ S128x128.size a
  hwx11_5 : ∀ i : grid11.Coords, EltTy.bits .f32 = 32 ∨ (Rect.block (s := S128x128) S128x128.size (cc11_transform_5 i) (hinb11_5 i)).WholeWords (EltTy.packing .f32)
  hstage11_6 : ∀ j, (stage11_6 j).IsWhole
  nbuf11_6 : grid11.bufCount reads11_6 true = 1
  hreads11_6 : ∀ i i' : grid11.Coords, (∀ a, reads11_6 a = true → i a = i' a) → cc11_transform_6 i = cc11_transform_6 i'
  hinb11_6 : ∀ (i : grid11.Coords) a, (cc11_transform_6 i a + 1) * S1x128.size a ≤ S1x128.size a
  hwx11_6 : ∀ i : grid11.Coords, EltTy.bits .f32 = 32 ∨ (Rect.block (s := S1x128) S1x128.size (cc11_transform_6 i) (hinb11_6 i)).WholeWords (EltTy.packing .f32)
  hstage11_7 : ∀ j, (stage11_7 j).IsWhole
  nbuf11_7 : grid11.bufCount reads11_7 false = 2
  hreads11_7 : ∀ i i' : grid11.Coords, (∀ a, reads11_7 a = true → i a = i' a) → cc11_transform_7 i = cc11_transform_7 i'
  hinb11_7 : ∀ (i : grid11.Coords) a, (cc11_transform_7 i a + 1) * S8000x128.size a ≤ S160000x128.size a
  hwx11_7 : ∀ i : grid11.Coords, EltTy.bits .f32 = 32 ∨ (Rect.block (s := S160000x128) S8000x128.size (cc11_transform_7 i) (hinb11_7 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S4000x128.size a ≤ S20000x128.size a
  hwx12_0 : ∀ i : grid12.Coords, EltTy.bits .f32 = 32 ∨ (Rect.block (s := S20000x128) S4000x128.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S4000x128.size a ≤ S20000x128.size a
  hwx12_1 : ∀ i : grid12.Coords, EltTy.bits .f32 = 32 ∨ (Rect.block (s := S20000x128) S4000x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S128x128.size a ≤ S128x128.size a
  hwx12_2 : ∀ i : grid12.Coords, EltTy.bits .f32 = 32 ∨ (Rect.block (s := S128x128) S128x128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S128x128.size a ≤ S128x128.size a
  hwx12_3 : ∀ i : grid12.Coords, EltTy.bits .f32 = 32 ∨ (Rect.block (s := S128x128) S128x128.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x128.size a ≤ S1x128.size a
  hwx12_4 : ∀ i : grid12.Coords, EltTy.bits .f32 = 32 ∨ (Rect.block (s := S1x128) S1x128.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S128x128.size a ≤ S128x128.size a
  hwx12_5 : ∀ i : grid12.Coords, EltTy.bits .f32 = 32 ∨ (Rect.block (s := S128x128) S128x128.size (cc12_transform_5 i) (hinb12_5 i)).WholeWords (EltTy.packing .f32)
  hstage12_6 : ∀ j, (stage12_6 j).IsWhole
  nbuf12_6 : grid12.bufCount reads12_6 true = 1
  hreads12_6 : ∀ i i' : grid12.Coords, (∀ a, reads12_6 a = true → i a = i' a) → cc12_transform_6 i = cc12_transform_6 i'
  hinb12_6 : ∀ (i : grid12.Coords) a, (cc12_transform_6 i a + 1) * S1x128.size a ≤ S1x128.size a
  hwx12_6 : ∀ i : grid12.Coords, EltTy.bits .f32 = 32 ∨ (Rect.block (s := S1x128) S1x128.size (cc12_transform_6 i) (hinb12_6 i)).WholeWords (EltTy.packing .f32)
  hstage12_7 : ∀ j, (stage12_7 j).IsWhole
  nbuf12_7 : grid12.bufCount reads12_7 true = 1
  hreads12_7 : ∀ i i' : grid12.Coords, (∀ a, reads12_7 a = true → i a = i' a) → cc12_transform_7 i = cc12_transform_7 i'
  hinb12_7 : ∀ (i : grid12.Coords) a, (cc12_transform_7 i a + 1) * S128x128.size a ≤ S128x128.size a
  hwx12_7 : ∀ i : grid12.Coords, EltTy.bits .f32 = 32 ∨ (Rect.block (s := S128x128) S128x128.size (cc12_transform_7 i) (hinb12_7 i)).WholeWords (EltTy.packing .f32)
  hstage12_8 : ∀ j, (stage12_8 j).IsWhole
  nbuf12_8 : grid12.bufCount reads12_8 true = 1
  hreads12_8 : ∀ i i' : grid12.Coords, (∀ a, reads12_8 a = true → i a = i' a) → cc12_transform_8 i = cc12_transform_8 i'
  hinb12_8 : ∀ (i : grid12.Coords) a, (cc12_transform_8 i a + 1) * S128x128.size a ≤ S128x128.size a
  hwx12_8 : ∀ i : grid12.Coords, EltTy.bits .f32 = 32 ∨ (Rect.block (s := S128x128) S128x128.size (cc12_transform_8 i) (hinb12_8 i)).WholeWords (EltTy.packing .f32)
  hstage12_9 : ∀ j, (stage12_9 j).IsWhole
  nbuf12_9 : grid12.bufCount reads12_9 false = 2
  hreads12_9 : ∀ i i' : grid12.Coords, (∀ a, reads12_9 a = true → i a = i' a) → cc12_transform_9 i = cc12_transform_9 i'
  hinb12_9 : ∀ (i : grid12.Coords) a, (cc12_transform_9 i a + 1) * S4000x128.size a ≤ S20000x128.size a
  hwx12_9 : ∀ i : grid12.Coords, EltTy.bits .f32 = 32 ∨ (Rect.block (s := S20000x128) S4000x128.size (cc12_transform_9 i) (hinb12_9 i)).WholeWords (EltTy.packing .f32)
  hstage12_10 : ∀ j, (stage12_10 j).IsWhole
  nbuf12_10 : grid12.bufCount reads12_10 false = 2
  hreads12_10 : ∀ i i' : grid12.Coords, (∀ a, reads12_10 a = true → i a = i' a) → cc12_transform_10 i = cc12_transform_10 i'
  hinb12_10 : ∀ (i : grid12.Coords) a, (cc12_transform_10 i a + 1) * S4000x128.size a ≤ S20000x128.size a
  hwx12_10 : ∀ i : grid12.Coords, EltTy.bits .bf16 = 32 ∨ (Rect.block (s := S20000x128) S4000x128.size (cc12_transform_10 i) (hinb12_10 i)).WholeWords (EltTy.packing .bf16)
  hstage12_11 : ∀ j, (stage12_11 j).IsWhole
  nbuf12_11 : grid12.bufCount reads12_11 false = 2
  hreads12_11 : ∀ i i' : grid12.Coords, (∀ a, reads12_11 a = true → i a = i' a) → cc12_transform_11 i = cc12_transform_11 i'
  hinb12_11 : ∀ (i : grid12.Coords) a, (cc12_transform_11 i a + 1) * S4000x128.size a ≤ S20000x128.size a
  hwx12_11 : ∀ i : grid12.Coords, EltTy.bits .bf16 = 32 ∨ (Rect.block (s := S20000x128) S4000x128.size (cc12_transform_11 i) (hinb12_11 i)).WholeWords (EltTy.packing .bf16)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S8000x128.size a ≤ S160000x128.size a
  hwx13_0 : ∀ i : grid13.Coords, EltTy.bits .bf16 = 32 ∨ (Rect.block (s := S160000x128) S8000x128.size (cc13_transform_0 i) (hinb13_0 i)).WholeWords (EltTy.packing .bf16)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S8000x128.size a ≤ S160000x128.size a
  hwx13_1 : ∀ i : grid13.Coords, EltTy.bits .bf16 = 32 ∨ (Rect.block (s := S160000x128) S8000x128.size (cc13_transform_1 i) (hinb13_1 i)).WholeWords (EltTy.packing .bf16)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S8000x128.size a ≤ S160000x128.size a
  hwx13_2 : ∀ i : grid13.Coords, EltTy.bits .bf16 = 32 ∨ (Rect.block (s := S160000x128) S8000x128.size (cc13_transform_2 i) (hinb13_2 i)).WholeWords (EltTy.packing .bf16)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S128x128.size a ≤ S128x128.size a
  hwx13_3 : ∀ i : grid13.Coords, EltTy.bits .f32 = 32 ∨ (Rect.block (s := S128x128) S128x128.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x128.size a ≤ S1x128.size a
  hwx13_4 : ∀ i : grid13.Coords, EltTy.bits .f32 = 32 ∨ (Rect.block (s := S1x128) S1x128.size (cc13_transform_4 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S128x128.size a ≤ S128x128.size a
  hwx13_5 : ∀ i : grid13.Coords, EltTy.bits .f32 = 32 ∨ (Rect.block (s := S128x128) S128x128.size (cc13_transform_5 i) (hinb13_5 i)).WholeWords (EltTy.packing .f32)
  hstage13_6 : ∀ j, (stage13_6 j).IsWhole
  nbuf13_6 : grid13.bufCount reads13_6 true = 1
  hreads13_6 : ∀ i i' : grid13.Coords, (∀ a, reads13_6 a = true → i a = i' a) → cc13_transform_6 i = cc13_transform_6 i'
  hinb13_6 : ∀ (i : grid13.Coords) a, (cc13_transform_6 i a + 1) * S1x128.size a ≤ S1x128.size a
  hwx13_6 : ∀ i : grid13.Coords, EltTy.bits .f32 = 32 ∨ (Rect.block (s := S1x128) S1x128.size (cc13_transform_6 i) (hinb13_6 i)).WholeWords (EltTy.packing .f32)
  hstage13_7 : ∀ j, (stage13_7 j).IsWhole
  nbuf13_7 : grid13.bufCount reads13_7 false = 2
  hreads13_7 : ∀ i i' : grid13.Coords, (∀ a, reads13_7 a = true → i a = i' a) → cc13_transform_7 i = cc13_transform_7 i'
  hinb13_7 : ∀ (i : grid13.Coords) a, (cc13_transform_7 i a + 1) * S8000x128.size a ≤ S160000x128.size a
  hwx13_7 : ∀ i : grid13.Coords, EltTy.bits .f32 = 32 ∨ (Rect.block (s := S160000x128) S8000x128.size (cc13_transform_7 i) (hinb13_7 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S4000x128.size a ≤ S20000x128.size a
  hwx14_0 : ∀ i : grid14.Coords, EltTy.bits .f32 = 32 ∨ (Rect.block (s := S20000x128) S4000x128.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S4000x128.size a ≤ S20000x128.size a
  hwx14_1 : ∀ i : grid14.Coords, EltTy.bits .f32 = 32 ∨ (Rect.block (s := S20000x128) S4000x128.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S128x128.size a ≤ S128x128.size a
  hwx14_2 : ∀ i : grid14.Coords, EltTy.bits .f32 = 32 ∨ (Rect.block (s := S128x128) S128x128.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S128x128.size a ≤ S128x128.size a
  hwx14_3 : ∀ i : grid14.Coords, EltTy.bits .f32 = 32 ∨ (Rect.block (s := S128x128) S128x128.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x128.size a ≤ S1x128.size a
  hwx14_4 : ∀ i : grid14.Coords, EltTy.bits .f32 = 32 ∨ (Rect.block (s := S1x128) S1x128.size (cc14_transform_4 i) (hinb14_4 i)).WholeWords (EltTy.packing .f32)
  hstage14_5 : ∀ j, (stage14_5 j).IsWhole
  nbuf14_5 : grid14.bufCount reads14_5 true = 1
  hreads14_5 : ∀ i i' : grid14.Coords, (∀ a, reads14_5 a = true → i a = i' a) → cc14_transform_5 i = cc14_transform_5 i'
  hinb14_5 : ∀ (i : grid14.Coords) a, (cc14_transform_5 i a + 1) * S128x128.size a ≤ S128x128.size a
  hwx14_5 : ∀ i : grid14.Coords, EltTy.bits .f32 = 32 ∨ (Rect.block (s := S128x128) S128x128.size (cc14_transform_5 i) (hinb14_5 i)).WholeWords (EltTy.packing .f32)
  hstage14_6 : ∀ j, (stage14_6 j).IsWhole
  nbuf14_6 : grid14.bufCount reads14_6 true = 1
  hreads14_6 : ∀ i i' : grid14.Coords, (∀ a, reads14_6 a = true → i a = i' a) → cc14_transform_6 i = cc14_transform_6 i'
  hinb14_6 : ∀ (i : grid14.Coords) a, (cc14_transform_6 i a + 1) * S1x128.size a ≤ S1x128.size a
  hwx14_6 : ∀ i : grid14.Coords, EltTy.bits .f32 = 32 ∨ (Rect.block (s := S1x128) S1x128.size (cc14_transform_6 i) (hinb14_6 i)).WholeWords (EltTy.packing .f32)
  hstage14_7 : ∀ j, (stage14_7 j).IsWhole
  nbuf14_7 : grid14.bufCount reads14_7 true = 1
  hreads14_7 : ∀ i i' : grid14.Coords, (∀ a, reads14_7 a = true → i a = i' a) → cc14_transform_7 i = cc14_transform_7 i'
  hinb14_7 : ∀ (i : grid14.Coords) a, (cc14_transform_7 i a + 1) * S128x128.size a ≤ S128x128.size a
  hwx14_7 : ∀ i : grid14.Coords, EltTy.bits .f32 = 32 ∨ (Rect.block (s := S128x128) S128x128.size (cc14_transform_7 i) (hinb14_7 i)).WholeWords (EltTy.packing .f32)
  hstage14_8 : ∀ j, (stage14_8 j).IsWhole
  nbuf14_8 : grid14.bufCount reads14_8 true = 1
  hreads14_8 : ∀ i i' : grid14.Coords, (∀ a, reads14_8 a = true → i a = i' a) → cc14_transform_8 i = cc14_transform_8 i'
  hinb14_8 : ∀ (i : grid14.Coords) a, (cc14_transform_8 i a + 1) * S128x128.size a ≤ S128x128.size a
  hwx14_8 : ∀ i : grid14.Coords, EltTy.bits .f32 = 32 ∨ (Rect.block (s := S128x128) S128x128.size (cc14_transform_8 i) (hinb14_8 i)).WholeWords (EltTy.packing .f32)
  hstage14_9 : ∀ j, (stage14_9 j).IsWhole
  nbuf14_9 : grid14.bufCount reads14_9 false = 2
  hreads14_9 : ∀ i i' : grid14.Coords, (∀ a, reads14_9 a = true → i a = i' a) → cc14_transform_9 i = cc14_transform_9 i'
  hinb14_9 : ∀ (i : grid14.Coords) a, (cc14_transform_9 i a + 1) * S4000x128.size a ≤ S20000x128.size a
  hwx14_9 : ∀ i : grid14.Coords, EltTy.bits .f32 = 32 ∨ (Rect.block (s := S20000x128) S4000x128.size (cc14_transform_9 i) (hinb14_9 i)).WholeWords (EltTy.packing .f32)
  hstage14_10 : ∀ j, (stage14_10 j).IsWhole
  nbuf14_10 : grid14.bufCount reads14_10 false = 2
  hreads14_10 : ∀ i i' : grid14.Coords, (∀ a, reads14_10 a = true → i a = i' a) → cc14_transform_10 i = cc14_transform_10 i'
  hinb14_10 : ∀ (i : grid14.Coords) a, (cc14_transform_10 i a + 1) * S4000x128.size a ≤ S20000x128.size a
  hwx14_10 : ∀ i : grid14.Coords, EltTy.bits .bf16 = 32 ∨ (Rect.block (s := S20000x128) S4000x128.size (cc14_transform_10 i) (hinb14_10 i)).WholeWords (EltTy.packing .bf16)
  hstage14_11 : ∀ j, (stage14_11 j).IsWhole
  nbuf14_11 : grid14.bufCount reads14_11 false = 2
  hreads14_11 : ∀ i i' : grid14.Coords, (∀ a, reads14_11 a = true → i a = i' a) → cc14_transform_11 i = cc14_transform_11 i'
  hinb14_11 : ∀ (i : grid14.Coords) a, (cc14_transform_11 i a + 1) * S4000x128.size a ≤ S20000x128.size a
  hwx14_11 : ∀ i : grid14.Coords, EltTy.bits .bf16 = 32 ∨ (Rect.block (s := S20000x128) S4000x128.size (cc14_transform_11 i) (hinb14_11 i)).WholeWords (EltTy.packing .bf16)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S4000x128.size a ≤ S20000x128.size a
  hwx15_0 : ∀ i : grid15.Coords, EltTy.bits .f32 = 32 ∨ (Rect.block (s := S20000x128) S4000x128.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S4000x4.size a ≤ S20000x4.size a
  hwx15_1 : ∀ i : grid15.Coords, EltTy.bits .f32 = 32 ∨ (Rect.block (s := S20000x4) S4000x4.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S128x128.size a ≤ S128x128.size a
  hwx15_2 : ∀ i : grid15.Coords, EltTy.bits .f32 = 32 ∨ (Rect.block (s := S128x128) S128x128.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S2x128.size a ≤ S2x128.size a
  hwx15_3 : ∀ i : grid15.Coords, EltTy.bits .f32 = 32 ∨ (Rect.block (s := S2x128) S2x128.size (cc15_transform_3 i) (hinb15_3 i)).WholeWords (EltTy.packing .f32)
  hstage15_4 : ∀ j, (stage15_4 j).IsWhole
  nbuf15_4 : grid15.bufCount reads15_4 true = 1
  hreads15_4 : ∀ i i' : grid15.Coords, (∀ a, reads15_4 a = true → i a = i' a) → cc15_transform_4 i = cc15_transform_4 i'
  hinb15_4 : ∀ (i : grid15.Coords) a, (cc15_transform_4 i a + 1) * S1x128.size a ≤ S1x128.size a
  hwx15_4 : ∀ i : grid15.Coords, EltTy.bits .f32 = 32 ∨ (Rect.block (s := S1x128) S1x128.size (cc15_transform_4 i) (hinb15_4 i)).WholeWords (EltTy.packing .f32)
  hstage15_5 : ∀ j, (stage15_5 j).IsWhole
  nbuf15_5 : grid15.bufCount reads15_5 true = 1
  hreads15_5 : ∀ i i' : grid15.Coords, (∀ a, reads15_5 a = true → i a = i' a) → cc15_transform_5 i = cc15_transform_5 i'
  hinb15_5 : ∀ (i : grid15.Coords) a, (cc15_transform_5 i a + 1) * S128x64.size a ≤ S128x64.size a
  hwx15_5 : ∀ i : grid15.Coords, EltTy.bits .f32 = 32 ∨ (Rect.block (s := S128x64) S128x64.size (cc15_transform_5 i) (hinb15_5 i)).WholeWords (EltTy.packing .f32)
  hstage15_6 : ∀ j, (stage15_6 j).IsWhole
  nbuf15_6 : grid15.bufCount reads15_6 true = 1
  hreads15_6 : ∀ i i' : grid15.Coords, (∀ a, reads15_6 a = true → i a = i' a) → cc15_transform_6 i = cc15_transform_6 i'
  hinb15_6 : ∀ (i : grid15.Coords) a, (cc15_transform_6 i a + 1) * S1x64.size a ≤ S1x64.size a
  hwx15_6 : ∀ i : grid15.Coords, EltTy.bits .f32 = 32 ∨ (Rect.block (s := S1x64) S1x64.size (cc15_transform_6 i) (hinb15_6 i)).WholeWords (EltTy.packing .f32)
  hstage15_7 : ∀ j, (stage15_7 j).IsWhole
  nbuf15_7 : grid15.bufCount reads15_7 true = 1
  hreads15_7 : ∀ i i' : grid15.Coords, (∀ a, reads15_7 a = true → i a = i' a) → cc15_transform_7 i = cc15_transform_7 i'
  hinb15_7 : ∀ (i : grid15.Coords) a, (cc15_transform_7 i a + 1) * S64x3.size a ≤ S64x3.size a
  hwx15_7 : ∀ i : grid15.Coords, EltTy.bits .f32 = 32 ∨ (Rect.block (s := S64x3) S64x3.size (cc15_transform_7 i) (hinb15_7 i)).WholeWords (EltTy.packing .f32)
  hstage15_8 : ∀ j, (stage15_8 j).IsWhole
  nbuf15_8 : grid15.bufCount reads15_8 true = 1
  hreads15_8 : ∀ i i' : grid15.Coords, (∀ a, reads15_8 a = true → i a = i' a) → cc15_transform_8 i = cc15_transform_8 i'
  hinb15_8 : ∀ (i : grid15.Coords) a, (cc15_transform_8 i a + 1) * S1x3.size a ≤ S1x3.size a
  hwx15_8 : ∀ i : grid15.Coords, EltTy.bits .f32 = 32 ∨ (Rect.block (s := S1x3) S1x3.size (cc15_transform_8 i) (hinb15_8 i)).WholeWords (EltTy.packing .f32)
  hstage15_9 : ∀ j, (stage15_9 j).IsWhole
  nbuf15_9 : grid15.bufCount reads15_9 false = 2
  hreads15_9 : ∀ i i' : grid15.Coords, (∀ a, reads15_9 a = true → i a = i' a) → cc15_transform_9 i = cc15_transform_9 i'
  hinb15_9 : ∀ (i : grid15.Coords) a, (cc15_transform_9 i a + 1) * S4000x3.size a ≤ S20000x3.size a
  hwx15_9 : ∀ i : grid15.Coords, EltTy.bits .f32 = 32 ∨ (Rect.block (s := S20000x3) S4000x3.size (cc15_transform_9 i) (hinb15_9 i)).WholeWords (EltTy.packing .f32)

variable [Facts₀]

def gather_S20000x3_S2x1_S20000x2_0_1_n_n_1_1_200001 : GatherDims S20000x3 S2x1 S20000x2 where
  offsetDims := [0]
  collapsedSliceDims := [1]
  operandBatchingDims := []
  startIndicesBatchingDims := []
  startIndexMap := [1]
  indexVectorDim := 1
  sliceSizes := ![20000, 1]
  wf := gather_S20000x3_S2x1_S20000x2_0_1_n_n_1_1_200001_wf
def dot_S4000x6_S6x128_S4000x128_1_0_0_1_n_n : DotDims S4000x6 S6x128 S4000x128 where
  lhsContracting := [1]
  rhsContracting := [0]
  lhsNonContracting := [0]
  rhsNonContracting := [1]
  lhsBatch := []
  rhsBatch := []
  wf := dot_S4000x6_S6x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S8000x10_S10x128_S8000x128_1_0_0_1_n_n : DotDims S8000x10 S10x128 S8000x128 where
  lhsContracting := [1]
  rhsContracting := [0]
  lhsNonContracting := [0]
  rhsNonContracting := [1]
  lhsBatch := []
  rhsBatch := []
  wf := dot_S8000x10_S10x128_S8000x128_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def gather_S20000x128_S160000x1_S160000x128_1_0_n_n_0_1_1128 : GatherDims S20000x128 S160000x1 S160000x128 where
  offsetDims := [1]
  collapsedSliceDims := [0]
  operandBatchingDims := []
  startIndicesBatchingDims := []
  startIndexMap := [0]
  indexVectorDim := 1
  sliceSizes := ![1, 128]
  wf := gather_S20000x128_S160000x1_S160000x128_1_0_n_n_0_1_1128_wf
def scatter_S20000x128_S160000x1_S160000x128_1_0_0_1 : ScatterDims S20000x128 S160000x1 S160000x128 where
  updateWindowDims := [1]
  insertedWindowDims := [0]
  scatterDimsToOperandDims := [0]
  indexVectorDim := 1
  wf := scatter_S20000x128_S160000x1_S160000x128_1_0_0_1_wf
def dot_S4000x2_S2x128_S4000x128_1_0_0_1_n_n : DotDims S4000x2 S2x128 S4000x128 where
  lhsContracting := [1]
  rhsContracting := [0]
  lhsNonContracting := [0]
  rhsNonContracting := [1]
  lhsBatch := []
  rhsBatch := []
  wf := dot_S4000x2_S2x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S4000x64_S64x3_S4000x3_1_0_0_1_n_n : DotDims S4000x64 S64x3 S4000x3 where
  lhsContracting := [1]
  rhsContracting := [0]
  lhsNonContracting := [0]
  rhsNonContracting := [1]
  lhsBatch := []
  rhsBatch := []
  wf := dot_S4000x64_S64x3_S4000x3_1_0_0_1_n_n_wf

abbrev win0_0 : Pipeline.Window sig grid0 :=
  Pipeline.Window.ofSpec (Memref.whole main_v11) S4000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S6x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg2) S8000x10.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S10x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S8000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v14) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v21) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v22_0) S4000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v22_1) S4000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v17) S8000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29) S8000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v36) S8000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v38) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v45) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v42) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v46) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v47) S8000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v14) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v50) S4000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v52) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v54) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v65) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v58) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v66) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v62) S128x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v64) S128x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v67_0) S4000x128.size cc4_transform_9 reads4_9 true false 2 stage4_9 sem4_9
    hrank4 hreads4_9 hinb4_9 nbuf4_9 (Memref.isWhole_whole _) hwx4_9 hstage4_9

abbrev win4_10 : Pipeline.Window sig grid4 :=
  Pipeline.Window.ofSpec (Memref.whole main_v67_1) S4000x128.size cc4_transform_10 reads4_10 true false 2 stage4_10 sem4_10
    hrank4 hreads4_10 hinb4_10 nbuf4_10 (Memref.isWhole_whole _) hwx4_10 hstage4_10

abbrev win4_11 : Pipeline.Window sig grid4 :=
  Pipeline.Window.ofSpec (Memref.whole main_v67_2) S4000x128.size cc4_transform_11 reads4_11 true false 2 stage4_11 sem4_11
    hrank4 hreads4_11 hinb4_11 nbuf4_11 (Memref.isWhole_whole _) hwx4_11 hstage4_11

abbrev win4 : Fin 12 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | ⟨_ + 12, h⟩ => absurd h (Nat.not_lt.2 (Nat.le_add_left _ _))
abbrev spec4 : Fin 12 → Pipeline.WinSpec sig grid4.rank := fun w => (win4 w).toWinSpec

abbrev win5_0 : Pipeline.Window sig grid5 :=
  Pipeline.Window.ofSpec (Memref.whole main_v17) S8000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v74) S8000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v81) S8000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v83) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v90) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v87) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v91) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v92) S8000x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v67_0) S4000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v95) S4000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v97) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v99) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v110) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v103) S128x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v111) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v107) S128x128.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v109) S128x128.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v112_0) S4000x128.size cc6_transform_9 reads6_9 true false 2 stage6_9 sem6_9
    hrank6 hreads6_9 hinb6_9 nbuf6_9 (Memref.isWhole_whole _) hwx6_9 hstage6_9

abbrev win6_10 : Pipeline.Window sig grid6 :=
  Pipeline.Window.ofSpec (Memref.whole main_v112_1) S4000x128.size cc6_transform_10 reads6_10 true false 2 stage6_10 sem6_10
    hrank6 hreads6_10 hinb6_10 nbuf6_10 (Memref.isWhole_whole _) hwx6_10 hstage6_10

abbrev win6_11 : Pipeline.Window sig grid6 :=
  Pipeline.Window.ofSpec (Memref.whole main_v112_2) S4000x128.size cc6_transform_11 reads6_11 true false 2 stage6_11 sem6_11
    hrank6 hreads6_11 hinb6_11 nbuf6_11 (Memref.isWhole_whole _) hwx6_11 hstage6_11

abbrev win6 : Fin 12 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | 11 => win6_11 | ⟨_ + 12, h⟩ => absurd h (Nat.not_lt.2 (Nat.le_add_left _ _))
abbrev spec6 : Fin 12 → Pipeline.WinSpec sig grid6.rank := fun w => (win6 w).toWinSpec

abbrev win7_0 : Pipeline.Window sig grid7 :=
  Pipeline.Window.ofSpec (Memref.whole main_v17) S8000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v119) S8000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v126) S8000x128.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v128) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v135) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v132) S128x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v136) S1x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v137) S8000x128.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

abbrev win8_0 : Pipeline.Window sig grid8 :=
  Pipeline.Window.ofSpec (Memref.whole main_v112_0) S4000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v140) S4000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v142) S128x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v144) S128x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v155) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v148) S128x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v156) S1x128.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v152) S128x128.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_v154) S128x128.size cc8_transform_8 reads8_8 false true 1 stage8_8 sem8_8
    hrank8 hreads8_8 hinb8_8 nbuf8_8 (Memref.isWhole_whole _) hwx8_8 hstage8_8

abbrev win8_9 : Pipeline.Window sig grid8 :=
  Pipeline.Window.ofSpec (Memref.whole main_v157_0) S4000x128.size cc8_transform_9 reads8_9 true false 2 stage8_9 sem8_9
    hrank8 hreads8_9 hinb8_9 nbuf8_9 (Memref.isWhole_whole _) hwx8_9 hstage8_9

abbrev win8_10 : Pipeline.Window sig grid8 :=
  Pipeline.Window.ofSpec (Memref.whole main_v157_1) S4000x128.size cc8_transform_10 reads8_10 true false 2 stage8_10 sem8_10
    hrank8 hreads8_10 hinb8_10 nbuf8_10 (Memref.isWhole_whole _) hwx8_10 hstage8_10

abbrev win8_11 : Pipeline.Window sig grid8 :=
  Pipeline.Window.ofSpec (Memref.whole main_v157_2) S4000x128.size cc8_transform_11 reads8_11 true false 2 stage8_11 sem8_11
    hrank8 hreads8_11 hinb8_11 nbuf8_11 (Memref.isWhole_whole _) hwx8_11 hstage8_11

abbrev win8 : Fin 12 → Pipeline.Window sig grid8 := fun | 0 => win8_0 | 1 => win8_1 | 2 => win8_2 | 3 => win8_3 | 4 => win8_4 | 5 => win8_5 | 6 => win8_6 | 7 => win8_7 | 8 => win8_8 | 9 => win8_9 | 10 => win8_10 | 11 => win8_11 | ⟨_ + 12, h⟩ => absurd h (Nat.not_lt.2 (Nat.le_add_left _ _))
abbrev spec8 : Fin 12 → Pipeline.WinSpec sig grid8.rank := fun w => (win8 w).toWinSpec

abbrev win9_0 : Pipeline.Window sig grid9 :=
  Pipeline.Window.ofSpec (Memref.whole main_v17) S8000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v164) S8000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v171) S8000x128.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v173) S128x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v180) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v177) S128x128.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v181) S1x128.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v182) S8000x128.size cc9_transform_7 reads9_7 true false 2 stage9_7 sem9_7
    hrank9 hreads9_7 hinb9_7 nbuf9_7 (Memref.isWhole_whole _) hwx9_7 hstage9_7

abbrev win9 : Fin 8 → Pipeline.Window sig grid9 := fun | 0 => win9_0 | 1 => win9_1 | 2 => win9_2 | 3 => win9_3 | 4 => win9_4 | 5 => win9_5 | 6 => win9_6 | 7 => win9_7 | ⟨_ + 8, h⟩ => absurd h (Nat.not_lt.2 (Nat.le_add_left _ _))
abbrev spec9 : Fin 8 → Pipeline.WinSpec sig grid9.rank := fun w => (win9 w).toWinSpec

abbrev win10_0 : Pipeline.Window sig grid10 :=
  Pipeline.Window.ofSpec (Memref.whole main_v157_0) S4000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v185) S4000x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v187) S128x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v189) S128x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v200) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v193) S128x128.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v201) S1x128.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v197) S128x128.size cc10_transform_7 reads10_7 false true 1 stage10_7 sem10_7
    hrank10 hreads10_7 hinb10_7 nbuf10_7 (Memref.isWhole_whole _) hwx10_7 hstage10_7

abbrev win10_8 : Pipeline.Window sig grid10 :=
  Pipeline.Window.ofSpec (Memref.whole main_v199) S128x128.size cc10_transform_8 reads10_8 false true 1 stage10_8 sem10_8
    hrank10 hreads10_8 hinb10_8 nbuf10_8 (Memref.isWhole_whole _) hwx10_8 hstage10_8

abbrev win10_9 : Pipeline.Window sig grid10 :=
  Pipeline.Window.ofSpec (Memref.whole main_v202_0) S4000x128.size cc10_transform_9 reads10_9 true false 2 stage10_9 sem10_9
    hrank10 hreads10_9 hinb10_9 nbuf10_9 (Memref.isWhole_whole _) hwx10_9 hstage10_9

abbrev win10_10 : Pipeline.Window sig grid10 :=
  Pipeline.Window.ofSpec (Memref.whole main_v202_1) S4000x128.size cc10_transform_10 reads10_10 true false 2 stage10_10 sem10_10
    hrank10 hreads10_10 hinb10_10 nbuf10_10 (Memref.isWhole_whole _) hwx10_10 hstage10_10

abbrev win10_11 : Pipeline.Window sig grid10 :=
  Pipeline.Window.ofSpec (Memref.whole main_v202_2) S4000x128.size cc10_transform_11 reads10_11 true false 2 stage10_11 sem10_11
    hrank10 hreads10_11 hinb10_11 nbuf10_11 (Memref.isWhole_whole _) hwx10_11 hstage10_11

abbrev win10 : Fin 12 → Pipeline.Window sig grid10 := fun | 0 => win10_0 | 1 => win10_1 | 2 => win10_2 | 3 => win10_3 | 4 => win10_4 | 5 => win10_5 | 6 => win10_6 | 7 => win10_7 | 8 => win10_8 | 9 => win10_9 | 10 => win10_10 | 11 => win10_11 | ⟨_ + 12, h⟩ => absurd h (Nat.not_lt.2 (Nat.le_add_left _ _))
abbrev spec10 : Fin 12 → Pipeline.WinSpec sig grid10.rank := fun w => (win10 w).toWinSpec

abbrev win11_0 : Pipeline.Window sig grid11 :=
  Pipeline.Window.ofSpec (Memref.whole main_v17) S8000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v209) S8000x128.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v216) S8000x128.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v218) S128x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v225) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v222) S128x128.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v226) S1x128.size cc11_transform_6 reads11_6 false true 1 stage11_6 sem11_6
    hrank11 hreads11_6 hinb11_6 nbuf11_6 (Memref.isWhole_whole _) hwx11_6 hstage11_6

abbrev win11_7 : Pipeline.Window sig grid11 :=
  Pipeline.Window.ofSpec (Memref.whole main_v227) S8000x128.size cc11_transform_7 reads11_7 true false 2 stage11_7 sem11_7
    hrank11 hreads11_7 hinb11_7 nbuf11_7 (Memref.isWhole_whole _) hwx11_7 hstage11_7

abbrev win11 : Fin 8 → Pipeline.Window sig grid11 := fun | 0 => win11_0 | 1 => win11_1 | 2 => win11_2 | 3 => win11_3 | 4 => win11_4 | 5 => win11_5 | 6 => win11_6 | 7 => win11_7 | ⟨_ + 8, h⟩ => absurd h (Nat.not_lt.2 (Nat.le_add_left _ _))
abbrev spec11 : Fin 8 → Pipeline.WinSpec sig grid11.rank := fun w => (win11 w).toWinSpec

abbrev win12_0 : Pipeline.Window sig grid12 :=
  Pipeline.Window.ofSpec (Memref.whole main_v202_0) S4000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v230) S4000x128.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v232) S128x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v234) S128x128.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v245) S1x128.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v238) S128x128.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_v246) S1x128.size cc12_transform_6 reads12_6 false true 1 stage12_6 sem12_6
    hrank12 hreads12_6 hinb12_6 nbuf12_6 (Memref.isWhole_whole _) hwx12_6 hstage12_6

abbrev win12_7 : Pipeline.Window sig grid12 :=
  Pipeline.Window.ofSpec (Memref.whole main_v242) S128x128.size cc12_transform_7 reads12_7 false true 1 stage12_7 sem12_7
    hrank12 hreads12_7 hinb12_7 nbuf12_7 (Memref.isWhole_whole _) hwx12_7 hstage12_7

abbrev win12_8 : Pipeline.Window sig grid12 :=
  Pipeline.Window.ofSpec (Memref.whole main_v244) S128x128.size cc12_transform_8 reads12_8 false true 1 stage12_8 sem12_8
    hrank12 hreads12_8 hinb12_8 nbuf12_8 (Memref.isWhole_whole _) hwx12_8 hstage12_8

abbrev win12_9 : Pipeline.Window sig grid12 :=
  Pipeline.Window.ofSpec (Memref.whole main_v247_0) S4000x128.size cc12_transform_9 reads12_9 true false 2 stage12_9 sem12_9
    hrank12 hreads12_9 hinb12_9 nbuf12_9 (Memref.isWhole_whole _) hwx12_9 hstage12_9

abbrev win12_10 : Pipeline.Window sig grid12 :=
  Pipeline.Window.ofSpec (Memref.whole main_v247_1) S4000x128.size cc12_transform_10 reads12_10 true false 2 stage12_10 sem12_10
    hrank12 hreads12_10 hinb12_10 nbuf12_10 (Memref.isWhole_whole _) hwx12_10 hstage12_10

abbrev win12_11 : Pipeline.Window sig grid12 :=
  Pipeline.Window.ofSpec (Memref.whole main_v247_2) S4000x128.size cc12_transform_11 reads12_11 true false 2 stage12_11 sem12_11
    hrank12 hreads12_11 hinb12_11 nbuf12_11 (Memref.isWhole_whole _) hwx12_11 hstage12_11

abbrev win12 : Fin 12 → Pipeline.Window sig grid12 := fun | 0 => win12_0 | 1 => win12_1 | 2 => win12_2 | 3 => win12_3 | 4 => win12_4 | 5 => win12_5 | 6 => win12_6 | 7 => win12_7 | 8 => win12_8 | 9 => win12_9 | 10 => win12_10 | 11 => win12_11 | ⟨_ + 12, h⟩ => absurd h (Nat.not_lt.2 (Nat.le_add_left _ _))
abbrev spec12 : Fin 12 → Pipeline.WinSpec sig grid12.rank := fun w => (win12 w).toWinSpec

abbrev win13_0 : Pipeline.Window sig grid13 :=
  Pipeline.Window.ofSpec (Memref.whole main_v17) S8000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v254) S8000x128.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v261) S8000x128.size cc13_transform_2 reads13_2 false false 2 stage13_2 sem13_2
    hrank13 hreads13_2 hinb13_2 nbuf13_2 (Memref.isWhole_whole _) hwx13_2 hstage13_2

abbrev win13_3 : Pipeline.Window sig grid13 :=
  Pipeline.Window.ofSpec (Memref.whole main_v263) S128x128.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v270) S1x128.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v267) S128x128.size cc13_transform_5 reads13_5 false true 1 stage13_5 sem13_5
    hrank13 hreads13_5 hinb13_5 nbuf13_5 (Memref.isWhole_whole _) hwx13_5 hstage13_5

abbrev win13_6 : Pipeline.Window sig grid13 :=
  Pipeline.Window.ofSpec (Memref.whole main_v271) S1x128.size cc13_transform_6 reads13_6 false true 1 stage13_6 sem13_6
    hrank13 hreads13_6 hinb13_6 nbuf13_6 (Memref.isWhole_whole _) hwx13_6 hstage13_6

abbrev win13_7 : Pipeline.Window sig grid13 :=
  Pipeline.Window.ofSpec (Memref.whole main_v272) S8000x128.size cc13_transform_7 reads13_7 true false 2 stage13_7 sem13_7
    hrank13 hreads13_7 hinb13_7 nbuf13_7 (Memref.isWhole_whole _) hwx13_7 hstage13_7

abbrev win13 : Fin 8 → Pipeline.Window sig grid13 := fun | 0 => win13_0 | 1 => win13_1 | 2 => win13_2 | 3 => win13_3 | 4 => win13_4 | 5 => win13_5 | 6 => win13_6 | 7 => win13_7 | ⟨_ + 8, h⟩ => absurd h (Nat.not_lt.2 (Nat.le_add_left _ _))
abbrev spec13 : Fin 8 → Pipeline.WinSpec sig grid13.rank := fun w => (win13 w).toWinSpec

abbrev win14_0 : Pipeline.Window sig grid14 :=
  Pipeline.Window.ofSpec (Memref.whole main_v247_0) S4000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v275) S4000x128.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v277) S128x128.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v279) S128x128.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v290) S1x128.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v283) S128x128.size cc14_transform_5 reads14_5 false true 1 stage14_5 sem14_5
    hrank14 hreads14_5 hinb14_5 nbuf14_5 (Memref.isWhole_whole _) hwx14_5 hstage14_5

abbrev win14_6 : Pipeline.Window sig grid14 :=
  Pipeline.Window.ofSpec (Memref.whole main_v291) S1x128.size cc14_transform_6 reads14_6 false true 1 stage14_6 sem14_6
    hrank14 hreads14_6 hinb14_6 nbuf14_6 (Memref.isWhole_whole _) hwx14_6 hstage14_6

abbrev win14_7 : Pipeline.Window sig grid14 :=
  Pipeline.Window.ofSpec (Memref.whole main_v287) S128x128.size cc14_transform_7 reads14_7 false true 1 stage14_7 sem14_7
    hrank14 hreads14_7 hinb14_7 nbuf14_7 (Memref.isWhole_whole _) hwx14_7 hstage14_7

abbrev win14_8 : Pipeline.Window sig grid14 :=
  Pipeline.Window.ofSpec (Memref.whole main_v289) S128x128.size cc14_transform_8 reads14_8 false true 1 stage14_8 sem14_8
    hrank14 hreads14_8 hinb14_8 nbuf14_8 (Memref.isWhole_whole _) hwx14_8 hstage14_8

abbrev win14_9 : Pipeline.Window sig grid14 :=
  Pipeline.Window.ofSpec (Memref.whole main_v292_0) S4000x128.size cc14_transform_9 reads14_9 true false 2 stage14_9 sem14_9
    hrank14 hreads14_9 hinb14_9 nbuf14_9 (Memref.isWhole_whole _) hwx14_9 hstage14_9

abbrev win14_10 : Pipeline.Window sig grid14 :=
  Pipeline.Window.ofSpec (Memref.whole main_v292_1) S4000x128.size cc14_transform_10 reads14_10 true false 2 stage14_10 sem14_10
    hrank14 hreads14_10 hinb14_10 nbuf14_10 (Memref.isWhole_whole _) hwx14_10 hstage14_10

abbrev win14_11 : Pipeline.Window sig grid14 :=
  Pipeline.Window.ofSpec (Memref.whole main_v292_2) S4000x128.size cc14_transform_11 reads14_11 true false 2 stage14_11 sem14_11
    hrank14 hreads14_11 hinb14_11 nbuf14_11 (Memref.isWhole_whole _) hwx14_11 hstage14_11

abbrev win14 : Fin 12 → Pipeline.Window sig grid14 := fun | 0 => win14_0 | 1 => win14_1 | 2 => win14_2 | 3 => win14_3 | 4 => win14_4 | 5 => win14_5 | 6 => win14_6 | 7 => win14_7 | 8 => win14_8 | 9 => win14_9 | 10 => win14_10 | 11 => win14_11 | ⟨_ + 12, h⟩ => absurd h (Nat.not_lt.2 (Nat.le_add_left _ _))
abbrev spec14 : Fin 12 → Pipeline.WinSpec sig grid14.rank := fun w => (win14 w).toWinSpec

abbrev win15_0 : Pipeline.Window sig grid15 :=
  Pipeline.Window.ofSpec (Memref.whole main_v292_0) S4000x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v293) S4000x4.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v294) S128x128.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v295) S2x128.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v296) S1x128.size cc15_transform_4 reads15_4 false true 1 stage15_4 sem15_4
    hrank15 hreads15_4 hinb15_4 nbuf15_4 (Memref.isWhole_whole _) hwx15_4 hstage15_4

abbrev win15_5 : Pipeline.Window sig grid15 :=
  Pipeline.Window.ofSpec (Memref.whole main_arg27) S128x64.size cc15_transform_5 reads15_5 false true 1 stage15_5 sem15_5
    hrank15 hreads15_5 hinb15_5 nbuf15_5 (Memref.isWhole_whole _) hwx15_5 hstage15_5

abbrev win15_6 : Pipeline.Window sig grid15 :=
  Pipeline.Window.ofSpec (Memref.whole main_v297) S1x64.size cc15_transform_6 reads15_6 false true 1 stage15_6 sem15_6
    hrank15 hreads15_6 hinb15_6 nbuf15_6 (Memref.isWhole_whole _) hwx15_6 hstage15_6

abbrev win15_7 : Pipeline.Window sig grid15 :=
  Pipeline.Window.ofSpec (Memref.whole main_arg29) S64x3.size cc15_transform_7 reads15_7 false true 1 stage15_7 sem15_7
    hrank15 hreads15_7 hinb15_7 nbuf15_7 (Memref.isWhole_whole _) hwx15_7 hstage15_7

abbrev win15_8 : Pipeline.Window sig grid15 :=
  Pipeline.Window.ofSpec (Memref.whole main_v298) S1x3.size cc15_transform_8 reads15_8 false true 1 stage15_8 sem15_8
    hrank15 hreads15_8 hinb15_8 nbuf15_8 (Memref.isWhole_whole _) hwx15_8 hstage15_8

abbrev win15_9 : Pipeline.Window sig grid15 :=
  Pipeline.Window.ofSpec (Memref.whole main_v299) S4000x3.size cc15_transform_9 reads15_9 true false 2 stage15_9 sem15_9
    hrank15 hreads15_9 hinb15_9 nbuf15_9 (Memref.isWhole_whole _) hwx15_9 hstage15_9

abbrev win15 : Fin 10 → Pipeline.Window sig grid15 := fun | 0 => win15_0 | 1 => win15_1 | 2 => win15_2 | 3 => win15_3 | 4 => win15_4 | 5 => win15_5 | 6 => win15_6 | 7 => win15_7 | 8 => win15_8 | 9 => win15_9 | ⟨_ + 10, h⟩ => absurd h (Nat.not_lt.2 (Nat.le_add_left _ _))
abbrev spec15 : Fin 10 → Pipeline.WinSpec sig grid15.rank := fun w => (win15 w).toWinSpec

class Facts : Prop extends Facts₀ where

variable [Facts]
-- ==== ReferenceIdeal.lean ====
abbrev S20000x9 : Shape := ⟨2, ![20000, 9]⟩
abbrev S20000x3 : Shape := ⟨2, ![20000, 3]⟩
abbrev S160000x10 : Shape := ⟨2, ![160000, 10]⟩
abbrev S20000x1 : Shape := ⟨2, ![20000, 1]⟩
abbrev S2x160000 : Shape := ⟨2, ![2, 160000]⟩
abbrev S6x128 : Shape := ⟨2, ![6, 128]⟩
abbrev S128 : Shape := ⟨1, ![128]⟩
abbrev S128x128 : Shape := ⟨2, ![128, 128]⟩
abbrev S10x128 : Shape := ⟨2, ![10, 128]⟩
abbrev S6x128x128 : Shape := ⟨3, ![6, 128, 128]⟩
abbrev S130x128 : Shape := ⟨2, ![130, 128]⟩
abbrev S128x64 : Shape := ⟨2, ![128, 64]⟩
abbrev S64 : Shape := ⟨1, ![64]⟩
abbrev S64x3 : Shape := ⟨2, ![64, 3]⟩
abbrev S3 : Shape := ⟨1, ![3]⟩
abbrev S2 : Shape := ⟨1, ![2]⟩
abbrev S1x160000 : Shape := ⟨2, ![1, 160000]⟩
abbrev S160000 : Shape := ⟨1, ![160000]⟩
abbrev S_ : Shape := ⟨0, ![]⟩
abbrev S2x1 : Shape := ⟨2, ![2, 1]⟩
abbrev S20000x2 : Shape := ⟨2, ![20000, 2]⟩
abbrev S20000x6 : Shape := ⟨2, ![20000, 6]⟩
abbrev S20000x128 : Shape := ⟨2, ![20000, 128]⟩
abbrev S1x128 : Shape := ⟨2, ![1, 128]⟩
abbrev S160000x128 : Shape := ⟨2, ![160000, 128]⟩
abbrev S1x128x128 : Shape := ⟨3, ![1, 128, 128]⟩
abbrev S160000x1 : Shape := ⟨2, ![160000, 1]⟩
abbrev S20000x130 : Shape := ⟨2, ![20000, 130]⟩
abbrev S20000x64 : Shape := ⟨2, ![20000, 64]⟩
abbrev S1x64 : Shape := ⟨2, ![1, 64]⟩
abbrev S1x3 : Shape := ⟨2, ![1, 3]⟩

abbrev nBuf : Space → Nat
  | .hbm => 537
  | .vmem => 0
  | .smem => 0
  | _ => 0

abbrev hbmTy0_0 (i : Nat) : BufTy := match i % 128 with
  | 0 => ⟨S20000x9, .f32⟩
  | 1 => ⟨S20000x3, .f32⟩
  | 2 => ⟨S160000x10, .f32⟩
  | 3 => ⟨S20000x1, .f32⟩
  | 4 => ⟨S20000x1, .f32⟩
  | 5 => ⟨S2x160000, .i32⟩
  | 6 => ⟨S6x128, .f32⟩
  | 7 => ⟨S128, .f32⟩
  | 8 => ⟨S128x128, .f32⟩
  | 9 => ⟨S128, .f32⟩
  | 10 => ⟨S10x128, .f32⟩
  | 11 => ⟨S128, .f32⟩
  | 12 => ⟨S128x128, .f32⟩
  | 13 => ⟨S128, .f32⟩
  | 14 => ⟨S6x128x128, .f32⟩
  | 15 => ⟨S6x128x128, .f32⟩
  | 16 => ⟨S6x128x128, .f32⟩
  | 17 => ⟨S6x128, .f32⟩
  | 18 => ⟨S6x128x128, .f32⟩
  | 19 => ⟨S6x128, .f32⟩
  | 20 => ⟨S6x128x128, .f32⟩
  | 21 => ⟨S6x128x128, .f32⟩
  | 22 => ⟨S6x128, .f32⟩
  | 23 => ⟨S6x128x128, .f32⟩
  | 24 => ⟨S6x128, .f32⟩
  | 25 => ⟨S130x128, .f32⟩
  | 26 => ⟨S128, .f32⟩
  | 27 => ⟨S128x64, .f32⟩
  | 28 => ⟨S64, .f32⟩
  | 29 => ⟨S64x3, .f32⟩
  | 30 => ⟨S3, .f32⟩
  | 31 => ⟨S2, .i32⟩
  | 32 => ⟨S1x160000, .i32⟩
  | 33 => ⟨S160000, .i32⟩
  | 34 => ⟨S1x160000, .i32⟩
  | 35 => ⟨S160000, .i32⟩
  | 36 => ⟨S_, .i32⟩
  | 37 => ⟨S2, .i32⟩
  | 38 => ⟨S2, .i1⟩
  | 39 => ⟨S_, .i32⟩
  | 40 => ⟨S2, .i32⟩
  | 41 => ⟨S2, .i32⟩
  | 42 => ⟨S2, .i32⟩
  | 43 => ⟨S2x1, .i32⟩
  | 44 => ⟨S20000x2, .f32⟩
  | 45 => ⟨S20000x6, .f32⟩
  | 46 => ⟨S20000x128, .f32⟩
  | 47 => ⟨S1x128, .f32⟩
  | 48 => ⟨S20000x128, .f32⟩
  | 49 => ⟨S20000x128, .f32⟩
  | 50 => ⟨S_, .f32⟩
  | 51 => ⟨S20000x128, .f32⟩
  | 52 => ⟨S20000x128, .f32⟩
  | 53 => ⟨S20000x128, .f32⟩
  | 54 => ⟨S1x128, .f32⟩
  | 55 => ⟨S20000x128, .f32⟩
  | 56 => ⟨S20000x128, .f32⟩
  | 57 => ⟨S160000x128, .f32⟩
  | 58 => ⟨S1x128, .f32⟩
  | 59 => ⟨S160000x128, .f32⟩
  | 60 => ⟨S160000x128, .f32⟩
  | 61 => ⟨S_, .f32⟩
  | 62 => ⟨S160000x128, .f32⟩
  | 63 => ⟨S160000x128, .f32⟩
  | 64 => ⟨S160000x128, .f32⟩
  | 65 => ⟨S1x128, .f32⟩
  | 66 => ⟨S160000x128, .f32⟩
  | 67 => ⟨S160000x128, .f32⟩
  | 68 => ⟨S1x128x128, .f32⟩
  | 69 => ⟨S128x128, .f32⟩
  | 70 => ⟨S20000x128, .f32⟩
  | 71 => ⟨S1x128x128, .f32⟩
  | 72 => ⟨S128x128, .f32⟩
  | 73 => ⟨S20000x128, .f32⟩
  | 74 => ⟨S_, .i32⟩
  | 75 => ⟨S160000, .i32⟩
  | 76 => ⟨S160000, .i1⟩
  | 77 => ⟨S_, .i32⟩
  | 78 => ⟨S160000, .i32⟩
  | 79 => ⟨S160000, .i32⟩
  | 80 => ⟨S160000, .i32⟩
  | 81 => ⟨S160000x1, .i32⟩
  | 82 => ⟨S160000x128, .f32⟩
  | 83 => ⟨S_, .i32⟩
  | 84 => ⟨S160000, .i32⟩
  | 85 => ⟨S160000, .i1⟩
  | 86 => ⟨S_, .i32⟩
  | 87 => ⟨S160000, .i32⟩
  | 88 => ⟨S160000, .i32⟩
  | 89 => ⟨S160000, .i32⟩
  | 90 => ⟨S160000x1, .i32⟩
  | 91 => ⟨S160000x128, .f32⟩
  | 92 => ⟨S160000x128, .f32⟩
  | 93 => ⟨S1x128x128, .f32⟩
  | 94 => ⟨S128x128, .f32⟩
  | 95 => ⟨S160000x128, .f32⟩
  | 96 => ⟨S160000x128, .f32⟩
  | 97 => ⟨S1x128, .f32⟩
  | 98 => ⟨S128, .f32⟩
  | 99 => ⟨S1x128, .f32⟩
  | 100 => ⟨S160000x128, .f32⟩
  | 101 => ⟨S160000x128, .f32⟩
  | 102 => ⟨S_, .f32⟩
  | 103 => ⟨S160000x128, .f32⟩
  | 104 => ⟨S160000x128, .f32⟩
  | 105 => ⟨S1x128x128, .f32⟩
  | 106 => ⟨S128x128, .f32⟩
  | 107 => ⟨S160000x128, .f32⟩
  | 108 => ⟨S1x128, .f32⟩
  | 109 => ⟨S128, .f32⟩
  | 110 => ⟨S1x128, .f32⟩
  | 111 => ⟨S160000x128, .f32⟩
  | 112 => ⟨S160000x128, .f32⟩
  | 113 => ⟨S_, .f32⟩
  | 114 => ⟨S20000x128, .f32⟩
  | 115 => ⟨S160000x1, .i32⟩
  | 116 => ⟨S20000x128, .f32⟩
  | 117 => ⟨S1x128x128, .f32⟩
  | 118 => ⟨S128x128, .f32⟩
  | 119 => ⟨S20000x128, .f32⟩
  | 120 => ⟨S1x128x128, .f32⟩
  | 121 => ⟨S128x128, .f32⟩
  | 122 => ⟨S20000x128, .f32⟩
  | 123 => ⟨S20000x128, .f32⟩
  | 124 => ⟨S1x128, .f32⟩
  | 125 => ⟨S128, .f32⟩
  | 126 => ⟨S1x128, .f32⟩
  | 127 => ⟨S20000x128, .f32⟩
  | _ => ⟨S20000x9, .f32⟩

abbrev hbmTy0_1 (i : Nat) : BufTy := match i % 128 with
  | 0 => ⟨S20000x128, .f32⟩
  | 1 => ⟨S_, .f32⟩
  | 2 => ⟨S20000x128, .f32⟩
  | 3 => ⟨S20000x128, .f32⟩
  | 4 => ⟨S1x128x128, .f32⟩
  | 5 => ⟨S128x128, .f32⟩
  | 6 => ⟨S20000x128, .f32⟩
  | 7 => ⟨S1x128, .f32⟩
  | 8 => ⟨S128, .f32⟩
  | 9 => ⟨S1x128, .f32⟩
  | 10 => ⟨S20000x128, .f32⟩
  | 11 => ⟨S20000x128, .f32⟩
  | 12 => ⟨S20000x128, .f32⟩
  | 13 => ⟨S1x128x128, .f32⟩
  | 14 => ⟨S128x128, .f32⟩
  | 15 => ⟨S20000x128, .f32⟩
  | 16 => ⟨S1x128x128, .f32⟩
  | 17 => ⟨S128x128, .f32⟩
  | 18 => ⟨S20000x128, .f32⟩
  | 19 => ⟨S_, .i32⟩
  | 20 => ⟨S160000, .i32⟩
  | 21 => ⟨S160000, .i1⟩
  | 22 => ⟨S_, .i32⟩
  | 23 => ⟨S160000, .i32⟩
  | 24 => ⟨S160000, .i32⟩
  | 25 => ⟨S160000, .i32⟩
  | 26 => ⟨S160000x1, .i32⟩
  | 27 => ⟨S160000x128, .f32⟩
  | 28 => ⟨S_, .i32⟩
  | 29 => ⟨S160000, .i32⟩
  | 30 => ⟨S160000, .i1⟩
  | 31 => ⟨S_, .i32⟩
  | 32 => ⟨S160000, .i32⟩
  | 33 => ⟨S160000, .i32⟩
  | 34 => ⟨S160000, .i32⟩
  | 35 => ⟨S160000x1, .i32⟩
  | 36 => ⟨S160000x128, .f32⟩
  | 37 => ⟨S160000x128, .f32⟩
  | 38 => ⟨S1x128x128, .f32⟩
  | 39 => ⟨S128x128, .f32⟩
  | 40 => ⟨S160000x128, .f32⟩
  | 41 => ⟨S160000x128, .f32⟩
  | 42 => ⟨S1x128, .f32⟩
  | 43 => ⟨S128, .f32⟩
  | 44 => ⟨S1x128, .f32⟩
  | 45 => ⟨S160000x128, .f32⟩
  | 46 => ⟨S160000x128, .f32⟩
  | 47 => ⟨S_, .f32⟩
  | 48 => ⟨S160000x128, .f32⟩
  | 49 => ⟨S160000x128, .f32⟩
  | 50 => ⟨S1x128x128, .f32⟩
  | 51 => ⟨S128x128, .f32⟩
  | 52 => ⟨S160000x128, .f32⟩
  | 53 => ⟨S1x128, .f32⟩
  | 54 => ⟨S128, .f32⟩
  | 55 => ⟨S1x128, .f32⟩
  | 56 => ⟨S160000x128, .f32⟩
  | 57 => ⟨S160000x128, .f32⟩
  | 58 => ⟨S_, .f32⟩
  | 59 => ⟨S20000x128, .f32⟩
  | 60 => ⟨S160000x1, .i32⟩
  | 61 => ⟨S20000x128, .f32⟩
  | 62 => ⟨S1x128x128, .f32⟩
  | 63 => ⟨S128x128, .f32⟩
  | 64 => ⟨S20000x128, .f32⟩
  | 65 => ⟨S1x128x128, .f32⟩
  | 66 => ⟨S128x128, .f32⟩
  | 67 => ⟨S20000x128, .f32⟩
  | 68 => ⟨S20000x128, .f32⟩
  | 69 => ⟨S1x128, .f32⟩
  | 70 => ⟨S128, .f32⟩
  | 71 => ⟨S1x128, .f32⟩
  | 72 => ⟨S20000x128, .f32⟩
  | 73 => ⟨S20000x128, .f32⟩
  | 74 => ⟨S_, .f32⟩
  | 75 => ⟨S20000x128, .f32⟩
  | 76 => ⟨S20000x128, .f32⟩
  | 77 => ⟨S1x128x128, .f32⟩
  | 78 => ⟨S128x128, .f32⟩
  | 79 => ⟨S20000x128, .f32⟩
  | 80 => ⟨S1x128, .f32⟩
  | 81 => ⟨S128, .f32⟩
  | 82 => ⟨S1x128, .f32⟩
  | 83 => ⟨S20000x128, .f32⟩
  | 84 => ⟨S20000x128, .f32⟩
  | 85 => ⟨S20000x128, .f32⟩
  | 86 => ⟨S1x128x128, .f32⟩
  | 87 => ⟨S128x128, .f32⟩
  | 88 => ⟨S20000x128, .f32⟩
  | 89 => ⟨S1x128x128, .f32⟩
  | 90 => ⟨S128x128, .f32⟩
  | 91 => ⟨S20000x128, .f32⟩
  | 92 => ⟨S_, .i32⟩
  | 93 => ⟨S160000, .i32⟩
  | 94 => ⟨S160000, .i1⟩
  | 95 => ⟨S_, .i32⟩
  | 96 => ⟨S160000, .i32⟩
  | 97 => ⟨S160000, .i32⟩
  | 98 => ⟨S160000, .i32⟩
  | 99 => ⟨S160000x1, .i32⟩
  | 100 => ⟨S160000x128, .f32⟩
  | 101 => ⟨S_, .i32⟩
  | 102 => ⟨S160000, .i32⟩
  | 103 => ⟨S160000, .i1⟩
  | 104 => ⟨S_, .i32⟩
  | 105 => ⟨S160000, .i32⟩
  | 106 => ⟨S160000, .i32⟩
  | 107 => ⟨S160000, .i32⟩
  | 108 => ⟨S160000x1, .i32⟩
  | 109 => ⟨S160000x128, .f32⟩
  | 110 => ⟨S160000x128, .f32⟩
  | 111 => ⟨S1x128x128, .f32⟩
  | 112 => ⟨S128x128, .f32⟩
  | 113 => ⟨S160000x128, .f32⟩
  | 114 => ⟨S160000x128, .f32⟩
  | 115 => ⟨S1x128, .f32⟩
  | 116 => ⟨S128, .f32⟩
  | 117 => ⟨S1x128, .f32⟩
  | 118 => ⟨S160000x128, .f32⟩
  | 119 => ⟨S160000x128, .f32⟩
  | 120 => ⟨S_, .f32⟩
  | 121 => ⟨S160000x128, .f32⟩
  | 122 => ⟨S160000x128, .f32⟩
  | 123 => ⟨S1x128x128, .f32⟩
  | 124 => ⟨S128x128, .f32⟩
  | 125 => ⟨S160000x128, .f32⟩
  | 126 => ⟨S1x128, .f32⟩
  | 127 => ⟨S128, .f32⟩
  | _ => ⟨S20000x9, .f32⟩

abbrev hbmTy0_2 (i : Nat) : BufTy := match i % 128 with
  | 0 => ⟨S1x128, .f32⟩
  | 1 => ⟨S160000x128, .f32⟩
  | 2 => ⟨S160000x128, .f32⟩
  | 3 => ⟨S_, .f32⟩
  | 4 => ⟨S20000x128, .f32⟩
  | 5 => ⟨S160000x1, .i32⟩
  | 6 => ⟨S20000x128, .f32⟩
  | 7 => ⟨S1x128x128, .f32⟩
  | 8 => ⟨S128x128, .f32⟩
  | 9 => ⟨S20000x128, .f32⟩
  | 10 => ⟨S1x128x128, .f32⟩
  | 11 => ⟨S128x128, .f32⟩
  | 12 => ⟨S20000x128, .f32⟩
  | 13 => ⟨S20000x128, .f32⟩
  | 14 => ⟨S1x128, .f32⟩
  | 15 => ⟨S128, .f32⟩
  | 16 => ⟨S1x128, .f32⟩
  | 17 => ⟨S20000x128, .f32⟩
  | 18 => ⟨S20000x128, .f32⟩
  | 19 => ⟨S_, .f32⟩
  | 20 => ⟨S20000x128, .f32⟩
  | 21 => ⟨S20000x128, .f32⟩
  | 22 => ⟨S1x128x128, .f32⟩
  | 23 => ⟨S128x128, .f32⟩
  | 24 => ⟨S20000x128, .f32⟩
  | 25 => ⟨S1x128, .f32⟩
  | 26 => ⟨S128, .f32⟩
  | 27 => ⟨S1x128, .f32⟩
  | 28 => ⟨S20000x128, .f32⟩
  | 29 => ⟨S20000x128, .f32⟩
  | 30 => ⟨S20000x128, .f32⟩
  | 31 => ⟨S1x128x128, .f32⟩
  | 32 => ⟨S128x128, .f32⟩
  | 33 => ⟨S20000x128, .f32⟩
  | 34 => ⟨S1x128x128, .f32⟩
  | 35 => ⟨S128x128, .f32⟩
  | 36 => ⟨S20000x128, .f32⟩
  | 37 => ⟨S_, .i32⟩
  | 38 => ⟨S160000, .i32⟩
  | 39 => ⟨S160000, .i1⟩
  | 40 => ⟨S_, .i32⟩
  | 41 => ⟨S160000, .i32⟩
  | 42 => ⟨S160000, .i32⟩
  | 43 => ⟨S160000, .i32⟩
  | 44 => ⟨S160000x1, .i32⟩
  | 45 => ⟨S160000x128, .f32⟩
  | 46 => ⟨S_, .i32⟩
  | 47 => ⟨S160000, .i32⟩
  | 48 => ⟨S160000, .i1⟩
  | 49 => ⟨S_, .i32⟩
  | 50 => ⟨S160000, .i32⟩
  | 51 => ⟨S160000, .i32⟩
  | 52 => ⟨S160000, .i32⟩
  | 53 => ⟨S160000x1, .i32⟩
  | 54 => ⟨S160000x128, .f32⟩
  | 55 => ⟨S160000x128, .f32⟩
  | 56 => ⟨S1x128x128, .f32⟩
  | 57 => ⟨S128x128, .f32⟩
  | 58 => ⟨S160000x128, .f32⟩
  | 59 => ⟨S160000x128, .f32⟩
  | 60 => ⟨S1x128, .f32⟩
  | 61 => ⟨S128, .f32⟩
  | 62 => ⟨S1x128, .f32⟩
  | 63 => ⟨S160000x128, .f32⟩
  | 64 => ⟨S160000x128, .f32⟩
  | 65 => ⟨S_, .f32⟩
  | 66 => ⟨S160000x128, .f32⟩
  | 67 => ⟨S160000x128, .f32⟩
  | 68 => ⟨S1x128x128, .f32⟩
  | 69 => ⟨S128x128, .f32⟩
  | 70 => ⟨S160000x128, .f32⟩
  | 71 => ⟨S1x128, .f32⟩
  | 72 => ⟨S128, .f32⟩
  | 73 => ⟨S1x128, .f32⟩
  | 74 => ⟨S160000x128, .f32⟩
  | 75 => ⟨S160000x128, .f32⟩
  | 76 => ⟨S_, .f32⟩
  | 77 => ⟨S20000x128, .f32⟩
  | 78 => ⟨S160000x1, .i32⟩
  | 79 => ⟨S20000x128, .f32⟩
  | 80 => ⟨S1x128x128, .f32⟩
  | 81 => ⟨S128x128, .f32⟩
  | 82 => ⟨S20000x128, .f32⟩
  | 83 => ⟨S1x128x128, .f32⟩
  | 84 => ⟨S128x128, .f32⟩
  | 85 => ⟨S20000x128, .f32⟩
  | 86 => ⟨S20000x128, .f32⟩
  | 87 => ⟨S1x128, .f32⟩
  | 88 => ⟨S128, .f32⟩
  | 89 => ⟨S1x128, .f32⟩
  | 90 => ⟨S20000x128, .f32⟩
  | 91 => ⟨S20000x128, .f32⟩
  | 92 => ⟨S_, .f32⟩
  | 93 => ⟨S20000x128, .f32⟩
  | 94 => ⟨S20000x128, .f32⟩
  | 95 => ⟨S1x128x128, .f32⟩
  | 96 => ⟨S128x128, .f32⟩
  | 97 => ⟨S20000x128, .f32⟩
  | 98 => ⟨S1x128, .f32⟩
  | 99 => ⟨S128, .f32⟩
  | 100 => ⟨S1x128, .f32⟩
  | 101 => ⟨S20000x128, .f32⟩
  | 102 => ⟨S20000x128, .f32⟩
  | 103 => ⟨S20000x128, .f32⟩
  | 104 => ⟨S1x128x128, .f32⟩
  | 105 => ⟨S128x128, .f32⟩
  | 106 => ⟨S20000x128, .f32⟩
  | 107 => ⟨S1x128x128, .f32⟩
  | 108 => ⟨S128x128, .f32⟩
  | 109 => ⟨S20000x128, .f32⟩
  | 110 => ⟨S_, .i32⟩
  | 111 => ⟨S160000, .i32⟩
  | 112 => ⟨S160000, .i1⟩
  | 113 => ⟨S_, .i32⟩
  | 114 => ⟨S160000, .i32⟩
  | 115 => ⟨S160000, .i32⟩
  | 116 => ⟨S160000, .i32⟩
  | 117 => ⟨S160000x1, .i32⟩
  | 118 => ⟨S160000x128, .f32⟩
  | 119 => ⟨S_, .i32⟩
  | 120 => ⟨S160000, .i32⟩
  | 121 => ⟨S160000, .i1⟩
  | 122 => ⟨S_, .i32⟩
  | 123 => ⟨S160000, .i32⟩
  | 124 => ⟨S160000, .i32⟩
  | 125 => ⟨S160000, .i32⟩
  | 126 => ⟨S160000x1, .i32⟩
  | 127 => ⟨S160000x128, .f32⟩
  | _ => ⟨S20000x9, .f32⟩

abbrev hbmTy0_3 (i : Nat) : BufTy := match i % 128 with
  | 0 => ⟨S160000x128, .f32⟩
  | 1 => ⟨S1x128x128, .f32⟩
  | 2 => ⟨S128x128, .f32⟩
  | 3 => ⟨S160000x128, .f32⟩
  | 4 => ⟨S160000x128, .f32⟩
  | 5 => ⟨S1x128, .f32⟩
  | 6 => ⟨S128, .f32⟩
  | 7 => ⟨S1x128, .f32⟩
  | 8 => ⟨S160000x128, .f32⟩
  | 9 => ⟨S160000x128, .f32⟩
  | 10 => ⟨S_, .f32⟩
  | 11 => ⟨S160000x128, .f32⟩
  | 12 => ⟨S160000x128, .f32⟩
  | 13 => ⟨S1x128x128, .f32⟩
  | 14 => ⟨S128x128, .f32⟩
  | 15 => ⟨S160000x128, .f32⟩
  | 16 => ⟨S1x128, .f32⟩
  | 17 => ⟨S128, .f32⟩
  | 18 => ⟨S1x128, .f32⟩
  | 19 => ⟨S160000x128, .f32⟩
  | 20 => ⟨S160000x128, .f32⟩
  | 21 => ⟨S_, .f32⟩
  | 22 => ⟨S20000x128, .f32⟩
  | 23 => ⟨S160000x1, .i32⟩
  | 24 => ⟨S20000x128, .f32⟩
  | 25 => ⟨S1x128x128, .f32⟩
  | 26 => ⟨S128x128, .f32⟩
  | 27 => ⟨S20000x128, .f32⟩
  | 28 => ⟨S1x128x128, .f32⟩
  | 29 => ⟨S128x128, .f32⟩
  | 30 => ⟨S20000x128, .f32⟩
  | 31 => ⟨S20000x128, .f32⟩
  | 32 => ⟨S1x128, .f32⟩
  | 33 => ⟨S128, .f32⟩
  | 34 => ⟨S1x128, .f32⟩
  | 35 => ⟨S20000x128, .f32⟩
  | 36 => ⟨S20000x128, .f32⟩
  | 37 => ⟨S_, .f32⟩
  | 38 => ⟨S20000x128, .f32⟩
  | 39 => ⟨S20000x128, .f32⟩
  | 40 => ⟨S1x128x128, .f32⟩
  | 41 => ⟨S128x128, .f32⟩
  | 42 => ⟨S20000x128, .f32⟩
  | 43 => ⟨S1x128, .f32⟩
  | 44 => ⟨S128, .f32⟩
  | 45 => ⟨S1x128, .f32⟩
  | 46 => ⟨S20000x128, .f32⟩
  | 47 => ⟨S20000x128, .f32⟩
  | 48 => ⟨S20000x128, .f32⟩
  | 49 => ⟨S1x128x128, .f32⟩
  | 50 => ⟨S128x128, .f32⟩
  | 51 => ⟨S20000x128, .f32⟩
  | 52 => ⟨S1x128x128, .f32⟩
  | 53 => ⟨S128x128, .f32⟩
  | 54 => ⟨S20000x128, .f32⟩
  | 55 => ⟨S_, .i32⟩
  | 56 => ⟨S160000, .i32⟩
  | 57 => ⟨S160000, .i1⟩
  | 58 => ⟨S_, .i32⟩
  | 59 => ⟨S160000, .i32⟩
  | 60 => ⟨S160000, .i32⟩
  | 61 => ⟨S160000, .i32⟩
  | 62 => ⟨S160000x1, .i32⟩
  | 63 => ⟨S160000x128, .f32⟩
  | 64 => ⟨S_, .i32⟩
  | 65 => ⟨S160000, .i32⟩
  | 66 => ⟨S160000, .i1⟩
  | 67 => ⟨S_, .i32⟩
  | 68 => ⟨S160000, .i32⟩
  | 69 => ⟨S160000, .i32⟩
  | 70 => ⟨S160000, .i32⟩
  | 71 => ⟨S160000x1, .i32⟩
  | 72 => ⟨S160000x128, .f32⟩
  | 73 => ⟨S160000x128, .f32⟩
  | 74 => ⟨S1x128x128, .f32⟩
  | 75 => ⟨S128x128, .f32⟩
  | 76 => ⟨S160000x128, .f32⟩
  | 77 => ⟨S160000x128, .f32⟩
  | 78 => ⟨S1x128, .f32⟩
  | 79 => ⟨S128, .f32⟩
  | 80 => ⟨S1x128, .f32⟩
  | 81 => ⟨S160000x128, .f32⟩
  | 82 => ⟨S160000x128, .f32⟩
  | 83 => ⟨S_, .f32⟩
  | 84 => ⟨S160000x128, .f32⟩
  | 85 => ⟨S160000x128, .f32⟩
  | 86 => ⟨S1x128x128, .f32⟩
  | 87 => ⟨S128x128, .f32⟩
  | 88 => ⟨S160000x128, .f32⟩
  | 89 => ⟨S1x128, .f32⟩
  | 90 => ⟨S128, .f32⟩
  | 91 => ⟨S1x128, .f32⟩
  | 92 => ⟨S160000x128, .f32⟩
  | 93 => ⟨S160000x128, .f32⟩
  | 94 => ⟨S_, .f32⟩
  | 95 => ⟨S20000x128, .f32⟩
  | 96 => ⟨S160000x1, .i32⟩
  | 97 => ⟨S20000x128, .f32⟩
  | 98 => ⟨S1x128x128, .f32⟩
  | 99 => ⟨S128x128, .f32⟩
  | 100 => ⟨S20000x128, .f32⟩
  | 101 => ⟨S1x128x128, .f32⟩
  | 102 => ⟨S128x128, .f32⟩
  | 103 => ⟨S20000x128, .f32⟩
  | 104 => ⟨S20000x128, .f32⟩
  | 105 => ⟨S1x128, .f32⟩
  | 106 => ⟨S128, .f32⟩
  | 107 => ⟨S1x128, .f32⟩
  | 108 => ⟨S20000x128, .f32⟩
  | 109 => ⟨S20000x128, .f32⟩
  | 110 => ⟨S_, .f32⟩
  | 111 => ⟨S20000x128, .f32⟩
  | 112 => ⟨S20000x128, .f32⟩
  | 113 => ⟨S1x128x128, .f32⟩
  | 114 => ⟨S128x128, .f32⟩
  | 115 => ⟨S20000x128, .f32⟩
  | 116 => ⟨S1x128, .f32⟩
  | 117 => ⟨S128, .f32⟩
  | 118 => ⟨S1x128, .f32⟩
  | 119 => ⟨S20000x128, .f32⟩
  | 120 => ⟨S20000x128, .f32⟩
  | 121 => ⟨S20000x128, .f32⟩
  | 122 => ⟨S20000x130, .f32⟩
  | 123 => ⟨S20000x128, .f32⟩
  | 124 => ⟨S1x128, .f32⟩
  | 125 => ⟨S20000x128, .f32⟩
  | 126 => ⟨S20000x128, .f32⟩
  | 127 => ⟨S_, .f32⟩
  | _ => ⟨S20000x9, .f32⟩

abbrev hbmTy0_4 (i : Nat) : BufTy := match i % 128 with
  | 0 => ⟨S20000x128, .f32⟩
  | 1 => ⟨S20000x128, .f32⟩
  | 2 => ⟨S20000x64, .f32⟩
  | 3 => ⟨S1x64, .f32⟩
  | 4 => ⟨S20000x64, .f32⟩
  | 5 => ⟨S20000x64, .f32⟩
  | 6 => ⟨S_, .f32⟩
  | 7 => ⟨S20000x64, .f32⟩
  | 8 => ⟨S20000x64, .f32⟩
  | 9 => ⟨S20000x3, .f32⟩
  | 10 => ⟨S1x3, .f32⟩
  | 11 => ⟨S20000x3, .f32⟩
  | 12 => ⟨S20000x3, .f32⟩
  | 13 => ⟨S_, .f32⟩
  | 14 => ⟨S20000x1, .f32⟩
  | 15 => ⟨S20000x1, .f32⟩
  | 16 => ⟨S_, .f32⟩
  | 17 => ⟨S20000x1, .f32⟩
  | 18 => ⟨S20000x1, .f32⟩
  | 19 => ⟨S20000x2, .f32⟩
  | 20 => ⟨S20000x2, .f32⟩
  | 21 => ⟨S20000x2, .f32⟩
  | 22 => ⟨S20000x1, .f32⟩
  | 23 => ⟨S20000x1, .f32⟩
  | 24 => ⟨S20000x3, .f32⟩
  | _ => ⟨S20000x9, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S20000x9, .f32⟩

abbrev bufTy : (tb : Table) → Fin (tcTables nBuf tb) → BufTy
  | .hbm, ⟨i, _⟩ => hbmTy i
  | _, _ => ⟨S20000x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_c : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_c_0 : Ref sig .tc := ⟨.hbm, 36, rfl⟩
abbrev main_v4 : Ref sig .tc := ⟨.hbm, 37, rfl⟩
abbrev main_v5 : Ref sig .tc := ⟨.hbm, 38, rfl⟩
abbrev main_c_1 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_call0_cst : Ref sig .tc := ⟨.hbm, 50, rfl⟩
abbrev main_call0_v0 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_call1_cst : Ref sig .tc := ⟨.hbm, 61, rfl⟩
abbrev main_call1_v0 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_c_2 : Ref sig .tc := ⟨.hbm, 74, rfl⟩
abbrev main_v36 : Ref sig .tc := ⟨.hbm, 75, rfl⟩
abbrev main_v37 : Ref sig .tc := ⟨.hbm, 76, rfl⟩
abbrev main_c_3 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_c_4 : Ref sig .tc := ⟨.hbm, 83, rfl⟩
abbrev main_v43 : Ref sig .tc := ⟨.hbm, 84, rfl⟩
abbrev main_v44 : Ref sig .tc := ⟨.hbm, 85, rfl⟩
abbrev main_c_5 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_call2_cst : Ref sig .tc := ⟨.hbm, 102, rfl⟩
abbrev main_call2_v0 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_cst : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_call3_cst : Ref sig .tc := ⟨.hbm, 129, rfl⟩
abbrev main_call3_v0 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_c_6 : Ref sig .tc := ⟨.hbm, 147, rfl⟩
abbrev main_v100 : Ref sig .tc := ⟨.hbm, 148, rfl⟩
abbrev main_v101 : Ref sig .tc := ⟨.hbm, 149, rfl⟩
abbrev main_c_7 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_c_8 : Ref sig .tc := ⟨.hbm, 156, rfl⟩
abbrev main_v107 : Ref sig .tc := ⟨.hbm, 157, rfl⟩
abbrev main_v108 : Ref sig .tc := ⟨.hbm, 158, rfl⟩
abbrev main_c_9 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_call4_cst : Ref sig .tc := ⟨.hbm, 175, rfl⟩
abbrev main_call4_v0 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_cst_10 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_call5_cst : Ref sig .tc := ⟨.hbm, 202, rfl⟩
abbrev main_call5_v0 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_c_11 : Ref sig .tc := ⟨.hbm, 220, rfl⟩
abbrev main_v164 : Ref sig .tc := ⟨.hbm, 221, rfl⟩
abbrev main_v165 : Ref sig .tc := ⟨.hbm, 222, rfl⟩
abbrev main_c_12 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_c_13 : Ref sig .tc := ⟨.hbm, 229, rfl⟩
abbrev main_v171 : Ref sig .tc := ⟨.hbm, 230, rfl⟩
abbrev main_v172 : Ref sig .tc := ⟨.hbm, 231, rfl⟩
abbrev main_c_14 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_call6_cst : Ref sig .tc := ⟨.hbm, 248, rfl⟩
abbrev main_call6_v0 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_cst_15 : Ref sig .tc := ⟨.hbm, 259, rfl⟩
abbrev main_v197 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_v207 : Ref sig .tc := ⟨.hbm, 270, rfl⟩
abbrev main_v208 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_call7_cst : Ref sig .tc := ⟨.hbm, 275, rfl⟩
abbrev main_call7_v0 : Ref sig .tc := ⟨.hbm, 276, rfl⟩
abbrev main_v212 : Ref sig .tc := ⟨.hbm, 277, rfl⟩
abbrev main_v213 : Ref sig .tc := ⟨.hbm, 278, rfl⟩
abbrev main_v214 : Ref sig .tc := ⟨.hbm, 279, rfl⟩
abbrev main_v215 : Ref sig .tc := ⟨.hbm, 280, rfl⟩
abbrev main_v216 : Ref sig .tc := ⟨.hbm, 281, rfl⟩
abbrev main_v217 : Ref sig .tc := ⟨.hbm, 282, rfl⟩
abbrev main_v218 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_v222 : Ref sig .tc := ⟨.hbm, 287, rfl⟩
abbrev main_v223 : Ref sig .tc := ⟨.hbm, 288, rfl⟩
abbrev main_v224 : Ref sig .tc := ⟨.hbm, 289, rfl⟩
abbrev main_v225 : Ref sig .tc := ⟨.hbm, 290, rfl⟩
abbrev main_v226 : Ref sig .tc := ⟨.hbm, 291, rfl⟩
abbrev main_v227 : Ref sig .tc := ⟨.hbm, 292, rfl⟩
abbrev main_c_16 : Ref sig .tc := ⟨.hbm, 293, rfl⟩
abbrev main_v228 : Ref sig .tc := ⟨.hbm, 294, rfl⟩
abbrev main_v229 : Ref sig .tc := ⟨.hbm, 295, rfl⟩
abbrev main_c_17 : Ref sig .tc := ⟨.hbm, 296, rfl⟩
abbrev main_v230 : Ref sig .tc := ⟨.hbm, 297, rfl⟩
abbrev main_v231 : Ref sig .tc := ⟨.hbm, 298, rfl⟩
abbrev main_v232 : Ref sig .tc := ⟨.hbm, 299, rfl⟩
abbrev main_v233 : Ref sig .tc := ⟨.hbm, 300, rfl⟩
abbrev main_v234 : Ref sig .tc := ⟨.hbm, 301, rfl⟩
abbrev main_c_18 : Ref sig .tc := ⟨.hbm, 302, rfl⟩
abbrev main_v235 : Ref sig .tc := ⟨.hbm, 303, rfl⟩
abbrev main_v236 : Ref sig .tc := ⟨.hbm, 304, rfl⟩
abbrev main_c_19 : Ref sig .tc := ⟨.hbm, 305, rfl⟩
abbrev main_v237 : Ref sig .tc := ⟨.hbm, 306, rfl⟩
abbrev main_v238 : Ref sig .tc := ⟨.hbm, 307, rfl⟩
abbrev main_v239 : Ref sig .tc := ⟨.hbm, 308, rfl⟩
abbrev main_v240 : Ref sig .tc := ⟨.hbm, 309, rfl⟩
abbrev main_v241 : Ref sig .tc := ⟨.hbm, 310, rfl⟩
abbrev main_v242 : Ref sig .tc := ⟨.hbm, 311, rfl⟩
abbrev main_v243 : Ref sig .tc := ⟨.hbm, 312, rfl⟩
abbrev main_v244 : Ref sig .tc := ⟨.hbm, 313, rfl⟩
abbrev main_v245 : Ref sig .tc := ⟨.hbm, 314, rfl⟩
abbrev main_v246 : Ref sig .tc := ⟨.hbm, 315, rfl⟩
abbrev main_v247 : Ref sig .tc := ⟨.hbm, 316, rfl⟩
abbrev main_v248 : Ref sig .tc := ⟨.hbm, 317, rfl⟩
abbrev main_v249 : Ref sig .tc := ⟨.hbm, 318, rfl⟩
abbrev main_v250 : Ref sig .tc := ⟨.hbm, 319, rfl⟩
abbrev main_v251 : Ref sig .tc := ⟨.hbm, 320, rfl⟩
abbrev main_call8_cst : Ref sig .tc := ⟨.hbm, 321, rfl⟩
abbrev main_call8_v0 : Ref sig .tc := ⟨.hbm, 322, rfl⟩
abbrev main_v252 : Ref sig .tc := ⟨.hbm, 323, rfl⟩
abbrev main_v253 : Ref sig .tc := ⟨.hbm, 324, rfl⟩
abbrev main_v254 : Ref sig .tc := ⟨.hbm, 325, rfl⟩
abbrev main_v255 : Ref sig .tc := ⟨.hbm, 326, rfl⟩
abbrev main_v256 : Ref sig .tc := ⟨.hbm, 327, rfl⟩
abbrev main_v257 : Ref sig .tc := ⟨.hbm, 328, rfl⟩
abbrev main_v258 : Ref sig .tc := ⟨.hbm, 329, rfl⟩
abbrev main_v259 : Ref sig .tc := ⟨.hbm, 330, rfl⟩
abbrev main_v260 : Ref sig .tc := ⟨.hbm, 331, rfl⟩
abbrev main_cst_20 : Ref sig .tc := ⟨.hbm, 332, rfl⟩
abbrev main_v261 : Ref sig .tc := ⟨.hbm, 333, rfl⟩
abbrev main_v262 : Ref sig .tc := ⟨.hbm, 334, rfl⟩
abbrev main_v263 : Ref sig .tc := ⟨.hbm, 335, rfl⟩
abbrev main_v264 : Ref sig .tc := ⟨.hbm, 336, rfl⟩
abbrev main_v265 : Ref sig .tc := ⟨.hbm, 337, rfl⟩
abbrev main_v266 : Ref sig .tc := ⟨.hbm, 338, rfl⟩
abbrev main_v267 : Ref sig .tc := ⟨.hbm, 339, rfl⟩
abbrev main_v268 : Ref sig .tc := ⟨.hbm, 340, rfl⟩
abbrev main_v269 : Ref sig .tc := ⟨.hbm, 341, rfl⟩
abbrev main_v270 : Ref sig .tc := ⟨.hbm, 342, rfl⟩
abbrev main_v271 : Ref sig .tc := ⟨.hbm, 343, rfl⟩
abbrev main_v272 : Ref sig .tc := ⟨.hbm, 344, rfl⟩
abbrev main_v273 : Ref sig .tc := ⟨.hbm, 345, rfl⟩
abbrev main_v274 : Ref sig .tc := ⟨.hbm, 346, rfl⟩
abbrev main_v275 : Ref sig .tc := ⟨.hbm, 347, rfl⟩
abbrev main_call9_cst : Ref sig .tc := ⟨.hbm, 348, rfl⟩
abbrev main_call9_v0 : Ref sig .tc := ⟨.hbm, 349, rfl⟩
abbrev main_v276 : Ref sig .tc := ⟨.hbm, 350, rfl⟩
abbrev main_v277 : Ref sig .tc := ⟨.hbm, 351, rfl⟩
abbrev main_v278 : Ref sig .tc := ⟨.hbm, 352, rfl⟩
abbrev main_v279 : Ref sig .tc := ⟨.hbm, 353, rfl⟩
abbrev main_v280 : Ref sig .tc := ⟨.hbm, 354, rfl⟩
abbrev main_v281 : Ref sig .tc := ⟨.hbm, 355, rfl⟩
abbrev main_v282 : Ref sig .tc := ⟨.hbm, 356, rfl⟩
abbrev main_v283 : Ref sig .tc := ⟨.hbm, 357, rfl⟩
abbrev main_v284 : Ref sig .tc := ⟨.hbm, 358, rfl⟩
abbrev main_v285 : Ref sig .tc := ⟨.hbm, 359, rfl⟩
abbrev main_v286 : Ref sig .tc := ⟨.hbm, 360, rfl⟩
abbrev main_v287 : Ref sig .tc := ⟨.hbm, 361, rfl⟩
abbrev main_v288 : Ref sig .tc := ⟨.hbm, 362, rfl⟩
abbrev main_v289 : Ref sig .tc := ⟨.hbm, 363, rfl⟩
abbrev main_v290 : Ref sig .tc := ⟨.hbm, 364, rfl⟩
abbrev main_v291 : Ref sig .tc := ⟨.hbm, 365, rfl⟩
abbrev main_c_21 : Ref sig .tc := ⟨.hbm, 366, rfl⟩
abbrev main_v292 : Ref sig .tc := ⟨.hbm, 367, rfl⟩
abbrev main_v293 : Ref sig .tc := ⟨.hbm, 368, rfl⟩
abbrev main_c_22 : Ref sig .tc := ⟨.hbm, 369, rfl⟩
abbrev main_v294 : Ref sig .tc := ⟨.hbm, 370, rfl⟩
abbrev main_v295 : Ref sig .tc := ⟨.hbm, 371, rfl⟩
abbrev main_v296 : Ref sig .tc := ⟨.hbm, 372, rfl⟩
abbrev main_v297 : Ref sig .tc := ⟨.hbm, 373, rfl⟩
abbrev main_v298 : Ref sig .tc := ⟨.hbm, 374, rfl⟩
abbrev main_c_23 : Ref sig .tc := ⟨.hbm, 375, rfl⟩
abbrev main_v299 : Ref sig .tc := ⟨.hbm, 376, rfl⟩
abbrev main_v300 : Ref sig .tc := ⟨.hbm, 377, rfl⟩
abbrev main_c_24 : Ref sig .tc := ⟨.hbm, 378, rfl⟩
abbrev main_v301 : Ref sig .tc := ⟨.hbm, 379, rfl⟩
abbrev main_v302 : Ref sig .tc := ⟨.hbm, 380, rfl⟩
abbrev main_v303 : Ref sig .tc := ⟨.hbm, 381, rfl⟩
abbrev main_v304 : Ref sig .tc := ⟨.hbm, 382, rfl⟩
abbrev main_v305 : Ref sig .tc := ⟨.hbm, 383, rfl⟩
abbrev main_v306 : Ref sig .tc := ⟨.hbm, 384, rfl⟩
abbrev main_v307 : Ref sig .tc := ⟨.hbm, 385, rfl⟩
abbrev main_v308 : Ref sig .tc := ⟨.hbm, 386, rfl⟩
abbrev main_v309 : Ref sig .tc := ⟨.hbm, 387, rfl⟩
abbrev main_v310 : Ref sig .tc := ⟨.hbm, 388, rfl⟩
abbrev main_v311 : Ref sig .tc := ⟨.hbm, 389, rfl⟩
abbrev main_v312 : Ref sig .tc := ⟨.hbm, 390, rfl⟩
abbrev main_v313 : Ref sig .tc := ⟨.hbm, 391, rfl⟩
abbrev main_v314 : Ref sig .tc := ⟨.hbm, 392, rfl⟩
abbrev main_v315 : Ref sig .tc := ⟨.hbm, 393, rfl⟩
abbrev main_call10_cst : Ref sig .tc := ⟨.hbm, 394, rfl⟩
abbrev main_call10_v0 : Ref sig .tc := ⟨.hbm, 395, rfl⟩
abbrev main_v316 : Ref sig .tc := ⟨.hbm, 396, rfl⟩
abbrev main_v317 : Ref sig .tc := ⟨.hbm, 397, rfl⟩
abbrev main_v318 : Ref sig .tc := ⟨.hbm, 398, rfl⟩
abbrev main_v319 : Ref sig .tc := ⟨.hbm, 399, rfl⟩
abbrev main_v320 : Ref sig .tc := ⟨.hbm, 400, rfl⟩
abbrev main_v321 : Ref sig .tc := ⟨.hbm, 401, rfl⟩
abbrev main_v322 : Ref sig .tc := ⟨.hbm, 402, rfl⟩
abbrev main_v323 : Ref sig .tc := ⟨.hbm, 403, rfl⟩
abbrev main_v324 : Ref sig .tc := ⟨.hbm, 404, rfl⟩
abbrev main_cst_25 : Ref sig .tc := ⟨.hbm, 405, rfl⟩
abbrev main_v325 : Ref sig .tc := ⟨.hbm, 406, rfl⟩
abbrev main_v326 : Ref sig .tc := ⟨.hbm, 407, rfl⟩
abbrev main_v327 : Ref sig .tc := ⟨.hbm, 408, rfl⟩
abbrev main_v328 : Ref sig .tc := ⟨.hbm, 409, rfl⟩
abbrev main_v329 : Ref sig .tc := ⟨.hbm, 410, rfl⟩
abbrev main_v330 : Ref sig .tc := ⟨.hbm, 411, rfl⟩
abbrev main_v331 : Ref sig .tc := ⟨.hbm, 412, rfl⟩
abbrev main_v332 : Ref sig .tc := ⟨.hbm, 413, rfl⟩
abbrev main_v333 : Ref sig .tc := ⟨.hbm, 414, rfl⟩
abbrev main_v334 : Ref sig .tc := ⟨.hbm, 415, rfl⟩
abbrev main_v335 : Ref sig .tc := ⟨.hbm, 416, rfl⟩
abbrev main_v336 : Ref sig .tc := ⟨.hbm, 417, rfl⟩
abbrev main_v337 : Ref sig .tc := ⟨.hbm, 418, rfl⟩
abbrev main_v338 : Ref sig .tc := ⟨.hbm, 419, rfl⟩
abbrev main_v339 : Ref sig .tc := ⟨.hbm, 420, rfl⟩
abbrev main_call11_cst : Ref sig .tc := ⟨.hbm, 421, rfl⟩
abbrev main_call11_v0 : Ref sig .tc := ⟨.hbm, 422, rfl⟩
abbrev main_v340 : Ref sig .tc := ⟨.hbm, 423, rfl⟩
abbrev main_v341 : Ref sig .tc := ⟨.hbm, 424, rfl⟩
abbrev main_v342 : Ref sig .tc := ⟨.hbm, 425, rfl⟩
abbrev main_v343 : Ref sig .tc := ⟨.hbm, 426, rfl⟩
abbrev main_v344 : Ref sig .tc := ⟨.hbm, 427, rfl⟩
abbrev main_v345 : Ref sig .tc := ⟨.hbm, 428, rfl⟩
abbrev main_v346 : Ref sig .tc := ⟨.hbm, 429, rfl⟩
abbrev main_v347 : Ref sig .tc := ⟨.hbm, 430, rfl⟩
abbrev main_v348 : Ref sig .tc := ⟨.hbm, 431, rfl⟩
abbrev main_v349 : Ref sig .tc := ⟨.hbm, 432, rfl⟩
abbrev main_v350 : Ref sig .tc := ⟨.hbm, 433, rfl⟩
abbrev main_v351 : Ref sig .tc := ⟨.hbm, 434, rfl⟩
abbrev main_v352 : Ref sig .tc := ⟨.hbm, 435, rfl⟩
abbrev main_v353 : Ref sig .tc := ⟨.hbm, 436, rfl⟩
abbrev main_v354 : Ref sig .tc := ⟨.hbm, 437, rfl⟩
abbrev main_v355 : Ref sig .tc := ⟨.hbm, 438, rfl⟩
abbrev main_c_26 : Ref sig .tc := ⟨.hbm, 439, rfl⟩
abbrev main_v356 : Ref sig .tc := ⟨.hbm, 440, rfl⟩
abbrev main_v357 : Ref sig .tc := ⟨.hbm, 441, rfl⟩
abbrev main_c_27 : Ref sig .tc := ⟨.hbm, 442, rfl⟩
abbrev main_v358 : Ref sig .tc := ⟨.hbm, 443, rfl⟩
abbrev main_v359 : Ref sig .tc := ⟨.hbm, 444, rfl⟩
abbrev main_v360 : Ref sig .tc := ⟨.hbm, 445, rfl⟩
abbrev main_v361 : Ref sig .tc := ⟨.hbm, 446, rfl⟩
abbrev main_v362 : Ref sig .tc := ⟨.hbm, 447, rfl⟩
abbrev main_c_28 : Ref sig .tc := ⟨.hbm, 448, rfl⟩
abbrev main_v363 : Ref sig .tc := ⟨.hbm, 449, rfl⟩
abbrev main_v364 : Ref sig .tc := ⟨.hbm, 450, rfl⟩
abbrev main_c_29 : Ref sig .tc := ⟨.hbm, 451, rfl⟩
abbrev main_v365 : Ref sig .tc := ⟨.hbm, 452, rfl⟩
abbrev main_v366 : Ref sig .tc := ⟨.hbm, 453, rfl⟩
abbrev main_v367 : Ref sig .tc := ⟨.hbm, 454, rfl⟩
abbrev main_v368 : Ref sig .tc := ⟨.hbm, 455, rfl⟩
abbrev main_v369 : Ref sig .tc := ⟨.hbm, 456, rfl⟩
abbrev main_v370 : Ref sig .tc := ⟨.hbm, 457, rfl⟩
abbrev main_v371 : Ref sig .tc := ⟨.hbm, 458, rfl⟩
abbrev main_v372 : Ref sig .tc := ⟨.hbm, 459, rfl⟩
abbrev main_v373 : Ref sig .tc := ⟨.hbm, 460, rfl⟩
abbrev main_v374 : Ref sig .tc := ⟨.hbm, 461, rfl⟩
abbrev main_v375 : Ref sig .tc := ⟨.hbm, 462, rfl⟩
abbrev main_v376 : Ref sig .tc := ⟨.hbm, 463, rfl⟩
abbrev main_v377 : Ref sig .tc := ⟨.hbm, 464, rfl⟩
abbrev main_v378 : Ref sig .tc := ⟨.hbm, 465, rfl⟩
abbrev main_v379 : Ref sig .tc := ⟨.hbm, 466, rfl⟩
abbrev main_call12_cst : Ref sig .tc := ⟨.hbm, 467, rfl⟩
abbrev main_call12_v0 : Ref sig .tc := ⟨.hbm, 468, rfl⟩
abbrev main_v380 : Ref sig .tc := ⟨.hbm, 469, rfl⟩
abbrev main_v381 : Ref sig .tc := ⟨.hbm, 470, rfl⟩
abbrev main_v382 : Ref sig .tc := ⟨.hbm, 471, rfl⟩
abbrev main_v383 : Ref sig .tc := ⟨.hbm, 472, rfl⟩
abbrev main_v384 : Ref sig .tc := ⟨.hbm, 473, rfl⟩
abbrev main_v385 : Ref sig .tc := ⟨.hbm, 474, rfl⟩
abbrev main_v386 : Ref sig .tc := ⟨.hbm, 475, rfl⟩
abbrev main_v387 : Ref sig .tc := ⟨.hbm, 476, rfl⟩
abbrev main_v388 : Ref sig .tc := ⟨.hbm, 477, rfl⟩
abbrev main_cst_30 : Ref sig .tc := ⟨.hbm, 478, rfl⟩
abbrev main_v389 : Ref sig .tc := ⟨.hbm, 479, rfl⟩
abbrev main_v390 : Ref sig .tc := ⟨.hbm, 480, rfl⟩
abbrev main_v391 : Ref sig .tc := ⟨.hbm, 481, rfl⟩
abbrev main_v392 : Ref sig .tc := ⟨.hbm, 482, rfl⟩
abbrev main_v393 : Ref sig .tc := ⟨.hbm, 483, rfl⟩
abbrev main_v394 : Ref sig .tc := ⟨.hbm, 484, rfl⟩
abbrev main_v395 : Ref sig .tc := ⟨.hbm, 485, rfl⟩
abbrev main_v396 : Ref sig .tc := ⟨.hbm, 486, rfl⟩
abbrev main_v397 : Ref sig .tc := ⟨.hbm, 487, rfl⟩
abbrev main_v398 : Ref sig .tc := ⟨.hbm, 488, rfl⟩
abbrev main_v399 : Ref sig .tc := ⟨.hbm, 489, rfl⟩
abbrev main_v400 : Ref sig .tc := ⟨.hbm, 490, rfl⟩
abbrev main_v401 : Ref sig .tc := ⟨.hbm, 491, rfl⟩
abbrev main_v402 : Ref sig .tc := ⟨.hbm, 492, rfl⟩
abbrev main_v403 : Ref sig .tc := ⟨.hbm, 493, rfl⟩
abbrev main_call13_cst : Ref sig .tc := ⟨.hbm, 494, rfl⟩
abbrev main_call13_v0 : Ref sig .tc := ⟨.hbm, 495, rfl⟩
abbrev main_v404 : Ref sig .tc := ⟨.hbm, 496, rfl⟩
abbrev main_v405 : Ref sig .tc := ⟨.hbm, 497, rfl⟩
abbrev main_v406 : Ref sig .tc := ⟨.hbm, 498, rfl⟩
abbrev main_v407 : Ref sig .tc := ⟨.hbm, 499, rfl⟩
abbrev main_v408 : Ref sig .tc := ⟨.hbm, 500, rfl⟩
abbrev main_v409 : Ref sig .tc := ⟨.hbm, 501, rfl⟩
abbrev main_v410 : Ref sig .tc := ⟨.hbm, 502, rfl⟩
abbrev main_v411 : Ref sig .tc := ⟨.hbm, 503, rfl⟩
abbrev main_v412 : Ref sig .tc := ⟨.hbm, 504, rfl⟩
abbrev main_v413 : Ref sig .tc := ⟨.hbm, 505, rfl⟩
abbrev main_v414 : Ref sig .tc := ⟨.hbm, 506, rfl⟩
abbrev main_v415 : Ref sig .tc := ⟨.hbm, 507, rfl⟩
abbrev main_v416 : Ref sig .tc := ⟨.hbm, 508, rfl⟩
abbrev main_v417 : Ref sig .tc := ⟨.hbm, 509, rfl⟩
abbrev main_v418 : Ref sig .tc := ⟨.hbm, 510, rfl⟩
abbrev main_call14_cst : Ref sig .tc := ⟨.hbm, 511, rfl⟩
abbrev main_call14_v0 : Ref sig .tc := ⟨.hbm, 512, rfl⟩
abbrev main_v419 : Ref sig .tc := ⟨.hbm, 513, rfl⟩
abbrev main_v420 : Ref sig .tc := ⟨.hbm, 514, rfl⟩
abbrev main_v421 : Ref sig .tc := ⟨.hbm, 515, rfl⟩
abbrev main_v422 : Ref sig .tc := ⟨.hbm, 516, rfl⟩
abbrev main_v423 : Ref sig .tc := ⟨.hbm, 517, rfl⟩
abbrev main_call15_cst : Ref sig .tc := ⟨.hbm, 518, rfl⟩
abbrev main_call15_v0 : Ref sig .tc := ⟨.hbm, 519, rfl⟩
abbrev main_v424 : Ref sig .tc := ⟨.hbm, 520, rfl⟩
abbrev main_v425 : Ref sig .tc := ⟨.hbm, 521, rfl⟩
abbrev main_v426 : Ref sig .tc := ⟨.hbm, 522, rfl⟩
abbrev main_v427 : Ref sig .tc := ⟨.hbm, 523, rfl⟩
abbrev main_v428 : Ref sig .tc := ⟨.hbm, 524, rfl⟩
abbrev main_cst_31 : Ref sig .tc := ⟨.hbm, 525, rfl⟩
abbrev main_v429 : Ref sig .tc := ⟨.hbm, 526, rfl⟩
abbrev main_v430 : Ref sig .tc := ⟨.hbm, 527, rfl⟩
abbrev main_cst_32 : Ref sig .tc := ⟨.hbm, 528, rfl⟩
abbrev main_v431 : Ref sig .tc := ⟨.hbm, 529, rfl⟩
abbrev main_v432 : Ref sig .tc := ⟨.hbm, 530, rfl⟩
abbrev main_v433 : Ref sig .tc := ⟨.hbm, 531, rfl⟩
abbrev main_v434 : Ref sig .tc := ⟨.hbm, 532, rfl⟩
abbrev main_v435 : Ref sig .tc := ⟨.hbm, 533, rfl⟩
abbrev main_v436 : Ref sig .tc := ⟨.hbm, 534, rfl⟩
abbrev main_v437 : Ref sig .tc := ⟨.hbm, 535, rfl⟩
abbrev main_v438 : Ref sig .tc := ⟨.hbm, 536, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S2 : S_.BroadcastsInDim S2 (![] : Fin 0 → Fin S2.rank)
  bcast_S2_S2x1_0 : S2.BroadcastsInDim S2x1 (![0] : Fin 1 → Fin S2x1.rank)
  slices_S20000x9_S20000x6_0_3 : S20000x9.Slices ![0, 3] S20000x6
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S20000x128 : S_.BroadcastsInDim S20000x128 (![] : Fin 0 → Fin S20000x128.rank)
  bcast_S1x128_S160000x128_0_1 : S1x128.BroadcastsInDim S160000x128 (![0, 1] : Fin 2 → Fin S160000x128.rank)
  bcast_S_S160000x128 : S_.BroadcastsInDim S160000x128 (![] : Fin 0 → Fin S160000x128.rank)
  slices_S6x128x128_S1x128x128_0_0_0 : S6x128x128.Slices ![0, 0, 0] S1x128x128
  shapeCasts_S1x128x128_S128x128 : S1x128x128.ShapeCasts S128x128
  bcast_S_S160000 : S_.BroadcastsInDim S160000 (![] : Fin 0 → Fin S160000.rank)
  bcast_S160000_S160000x1_0 : S160000.BroadcastsInDim S160000x1 (![0] : Fin 1 → Fin S160000x1.rank)
  slices_S6x128_S1x128_0_0 : S6x128.Slices ![0, 0] S1x128
  shapeCasts_S1x128_S128 : S1x128.ShapeCasts S128
  slices_S6x128x128_S1x128x128_1_0_0 : S6x128x128.Slices ![1, 0, 0] S1x128x128
  slices_S6x128_S1x128_1_0 : S6x128.Slices ![1, 0] S1x128
  slices_S6x128x128_S1x128x128_2_0_0 : S6x128x128.Slices ![2, 0, 0] S1x128x128
  slices_S6x128_S1x128_2_0 : S6x128.Slices ![2, 0] S1x128
  slices_S6x128x128_S1x128x128_3_0_0 : S6x128x128.Slices ![3, 0, 0] S1x128x128
  slices_S6x128_S1x128_3_0 : S6x128.Slices ![3, 0] S1x128
  slices_S6x128x128_S1x128x128_4_0_0 : S6x128x128.Slices ![4, 0, 0] S1x128x128
  slices_S6x128_S1x128_4_0 : S6x128.Slices ![4, 0] S1x128
  slices_S6x128x128_S1x128x128_5_0_0 : S6x128x128.Slices ![5, 0, 0] S1x128x128
  slices_S6x128_S1x128_5_0 : S6x128.Slices ![5, 0] S1x128
  concatenates_S20000x128_S20000x2_S20000x130_d1 : Shape.Concatenates [S20000x128, S20000x2] S20000x130 1
  bcast_S64_S1x64_1 : S64.BroadcastsInDim S1x64 (![1] : Fin 1 → Fin S1x64.rank)
  bcast_S1x64_S20000x64_0_1 : S1x64.BroadcastsInDim S20000x64 (![0, 1] : Fin 2 → Fin S20000x64.rank)
  bcast_S_S20000x64 : S_.BroadcastsInDim S20000x64 (![] : Fin 0 → Fin S20000x64.rank)
  bcast_S3_S1x3_1 : S3.BroadcastsInDim S1x3 (![1] : Fin 1 → Fin S1x3.rank)
  bcast_S1x3_S20000x3_0_1 : S1x3.BroadcastsInDim S20000x3 (![0, 1] : Fin 2 → Fin S20000x3.rank)
  bcast_S_S20000x1 : S_.BroadcastsInDim S20000x1 (![] : Fin 0 → Fin S20000x1.rank)
  slices_S20000x3_S20000x2_0_0 : S20000x3.Slices ![0, 0] S20000x2
  bcast_S20000x1_S20000x2_0_1 : S20000x1.BroadcastsInDim S20000x2 (![0, 1] : Fin 2 → Fin S20000x2.rank)
  slices_S20000x3_S20000x1_0_2 : S20000x3.Slices ![0, 2] S20000x1
  concatenates_S20000x2_S20000x1_S20000x3_d1 : Shape.Concatenates [S20000x2, S20000x1] S20000x3 1
  gather_S20000x3_S2x1_S20000x2_0_1_n_n_1_1_200001_wf : GatherDims.WF S20000x3 S2x1 S20000x2 [0] [1] [] [1] [] 1 ![20000, 1]
  dot_S20000x6_S6x128_S20000x128_1_0_0_1_n_n_wf : DotDims.WF S20000x6 S6x128 S20000x128 [1] [0] [0] [1] [] []
  dot_S20000x128_S128x128_S20000x128_1_0_0_1_n_n_wf : DotDims.WF S20000x128 S128x128 S20000x128 [1] [0] [0] [1] [] []
  dot_S160000x10_S10x128_S160000x128_1_0_0_1_n_n_wf : DotDims.WF S160000x10 S10x128 S160000x128 [1] [0] [0] [1] [] []
  dot_S160000x128_S128x128_S160000x128_1_0_0_1_n_n_wf : DotDims.WF S160000x128 S128x128 S160000x128 [1] [0] [0] [1] [] []
  gather_S20000x128_S160000x1_S160000x128_1_0_n_n_0_1_1128_wf : GatherDims.WF S20000x128 S160000x1 S160000x128 [1] [0] [] [0] [] 1 ![1, 128]
  scatter_S20000x128_S160000x1_S160000x128_1_0_0_1_wf : ScatterDims.WF S20000x128 S160000x1 S160000x128 [1] [0] [0] 1
  dot_S20000x130_S130x128_S20000x128_1_0_0_1_n_n_wf : DotDims.WF S20000x130 S130x128 S20000x128 [1] [0] [0] [1] [] []
  dot_S20000x128_S128x64_S20000x64_1_0_0_1_n_n_wf : DotDims.WF S20000x128 S128x64 S20000x64 [1] [0] [0] [1] [] []
  dot_S20000x64_S64x3_S20000x3_1_0_0_1_n_n_wf : DotDims.WF S20000x64 S64x3 S20000x3 [1] [0] [0] [1] [] []

variable [Facts₀]

def gather_S20000x3_S2x1_S20000x2_0_1_n_n_1_1_200001 : GatherDims S20000x3 S2x1 S20000x2 where
  offsetDims := [0]
  collapsedSliceDims := [1]
  operandBatchingDims := []
  startIndicesBatchingDims := []
  startIndexMap := [1]
  indexVectorDim := 1
  sliceSizes := ![20000, 1]
  wf := gather_S20000x3_S2x1_S20000x2_0_1_n_n_1_1_200001_wf
def dot_S20000x6_S6x128_S20000x128_1_0_0_1_n_n : DotDims S20000x6 S6x128 S20000x128 where
  lhsContracting := [1]
  rhsContracting := [0]
  lhsNonContracting := [0]
  rhsNonContracting := [1]
  lhsBatch := []
  rhsBatch := []
  wf := dot_S20000x6_S6x128_S20000x128_1_0_0_1_n_n_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def dot_S160000x10_S10x128_S160000x128_1_0_0_1_n_n : DotDims S160000x10 S10x128 S160000x128 where
  lhsContracting := [1]
  rhsContracting := [0]
  lhsNonContracting := [0]
  rhsNonContracting := [1]
  lhsBatch := []
  rhsBatch := []
  wf := dot_S160000x10_S10x128_S160000x128_1_0_0_1_n_n_wf
def dot_S160000x128_S128x128_S160000x128_1_0_0_1_n_n : DotDims S160000x128 S128x128 S160000x128 where
  lhsContracting := [1]
  rhsContracting := [0]
  lhsNonContracting := [0]
  rhsNonContracting := [1]
  lhsBatch := []
  rhsBatch := []
  wf := dot_S160000x128_S128x128_S160000x128_1_0_0_1_n_n_wf
def gather_S20000x128_S160000x1_S160000x128_1_0_n_n_0_1_1128 : GatherDims S20000x128 S160000x1 S160000x128 where
  offsetDims := [1]
  collapsedSliceDims := [0]
  operandBatchingDims := []
  startIndicesBatchingDims := []
  startIndexMap := [0]
  indexVectorDim := 1
  sliceSizes := ![1, 128]
  wf := gather_S20000x128_S160000x1_S160000x128_1_0_n_n_0_1_1128_wf
def scatter_S20000x128_S160000x1_S160000x128_1_0_0_1 : ScatterDims S20000x128 S160000x1 S160000x128 where
  updateWindowDims := [1]
  insertedWindowDims := [0]
  scatterDimsToOperandDims := [0]
  indexVectorDim := 1
  wf := scatter_S20000x128_S160000x1_S160000x128_1_0_0_1_wf
def dot_S20000x130_S130x128_S20000x128_1_0_0_1_n_n : DotDims S20000x130 S130x128 S20000x128 where
  lhsContracting := [1]
  rhsContracting := [0]
  lhsNonContracting := [0]
  rhsNonContracting := [1]
  lhsBatch := []
  rhsBatch := []
  wf := dot_S20000x130_S130x128_S20000x128_1_0_0_1_n_n_wf
def dot_S20000x128_S128x64_S20000x64_1_0_0_1_n_n : DotDims S20000x128 S128x64 S20000x64 where
  lhsContracting := [1]
  rhsContracting := [0]
  lhsNonContracting := [0]
  rhsNonContracting := [1]
  lhsBatch := []
  rhsBatch := []
  wf := dot_S20000x128_S128x64_S20000x64_1_0_0_1_n_n_wf
def dot_S20000x64_S64x3_S20000x3_1_0_0_1_n_n : DotDims S20000x64 S64x3 S20000x3 where
  lhsContracting := [1]
  rhsContracting := [0]
  lhsNonContracting := [0]
  rhsNonContracting := [1]
  lhsBatch := []
  rhsBatch := []
  wf := dot_S20000x64_S64x3_S20000x3_1_0_0_1_n_n_wf

class Facts : Prop extends Facts₀ where

variable [Facts]
-- ==== Proof.KI.Reg0.lean ====
/-
  Region 0 of the kernel program: the node encoder on a grid of 5 points, each handling a block of 4000 nodes.
  At a point the body reads its block of the six node features and the two layers' weights and biases whole, and stores
  the block's 4000 x 128 encoded rows through one rectangle that is the whole staging buffer. Stated here at the
  contents `V` the region is entered with: each window's block as the region finds it, what the body leaves in the
  result's staging buffer as a function of the input blocks, the body's triple, and the pipeline's proof data with its
  body obligation at every point.
-/
import proofs.«152161_j29669634081217_2_alg».proof.Proof.Gen.KernelIdeal.Launch
import proofs.«152161_j29669634081217_2_alg».proof.Proof.Gen.KernelIdeal.Skeleton
import proofs.«152161_j29669634081217_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, fetched there or not: where it is not fetched
    its block index has not moved, and the body leaves the block in place. One statement per input window. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its staging buffer -/

noncomputable abbrev r0_0 : Rect S4000x6 := Rect.unit (s := S4000x6) ![0, 0] S4000x6.size inb_S4000x6_S4000x6_0_0
noncomputable abbrev r0_1 : Rect S6x128 := Rect.unit (s := S6x128) ![0, 0] S6x128.size inb_S6x128_S6x128_0_0
noncomputable abbrev r0_2 : Rect S1x128 := Rect.unit (s := S1x128) ![0, 0] S1x128.size inb_S1x128_S1x128_0_0
noncomputable abbrev r0_3 : Rect S128x128 := Rect.unit (s := S128x128) ![0, 0] S128x128.size inb_S128x128_S128x128_0_0
noncomputable abbrev r0_5 : Rect S4000x128 := Rect.unit (s := S4000x128) ![0, 0] S4000x128.size inb_S4000x128_S4000x128_0_0

/-- The result's staging buffer after the body: its one store, the encoded rows of the block's features. -/
noncomputable def out0_5 (x0 : Vec F S4000x6 .f32) (x1 : Vec F S6x128 .f32) (x2 : Vec F S1x128 .f32) (x3 : Vec F S128x128 .f32) (x4 : Vec F S1x128 .f32) :
    Vec F S4000x128 .f32 :=
  View.canon [⟨r0_5, k0_pay1 (View.ld x0 r0_0) (View.ld x1 r0_1) (View.ld x2 r0_2) (View.ld x3 r0_3) (View.ld x4 r0_2)⟩]

/-- The one store covers the buffer. -/
theorem cover0_5 (p0 : Vec F S4000x128 .f32) (y : S4000x128.Idx) :
    ∃ pc ∈ ([⟨r0_5, p0⟩] : List (View.Piece (Elt F) S4000x128 .f32)), y ∈ pc.1.set :=
  View.cover_of_tiled [⟨r0_5, p0⟩] S4000x128.size (by rfl) y

set_option maxHeartbeats 1000000 in
/-- The body on whole staging memrefs — the inputs' at read contents, the result's at anything — runs to the continuation
    with the inputs' as they were and the result's at `out0_5` of the inputs'. -/
theorem sound_kernel0 (c : Dev nD) (E : Set ℕ) (i : grid0.Coords)
    (arg1 : Memref sig .tc .vmem S4000x6 .f32) (harg1 : arg1.IsWhole) (arg2 : Memref sig .tc .vmem S6x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S4000x128 .f32) (harg6 : arg6.IsWhole)
    (x0 : Vec F S4000x6 .f32) (x1 : Vec F S6x128 .f32) (x2 : Vec F S1x128 .f32) (x3 : Vec F S128x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__node_encoder_kernel i arg1 harg1 arg2 harg2 arg3 harg3 arg4 harg4 arg5 harg5 arg6 harg6) K := by
  simp only [cc0__node_encoder_kernel_eq_skeleton]; unfold cc0__node_encoder_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The arrays as the region finds them; after the body at point `t` each input's buffer at its block and the
    result's at `out0_5` of the input blocks; the invariant passes the scoped rest and the generator register through
    untouched; nothing owed; full shares. -/
noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t =
    out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

noncomputable def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

noncomputable def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  Region 1 of the network's main function: the edge encoder, a two-layer perceptron applied to every edge's
  attribute row. Its pipeline runs over 20 points; at each point it holds one block of 8000 attribute rows, the two
  weight matrices and the two bias rows, and writes back one block of 8000 result rows.

  This file is the frame half, for any float instance: what each window's buffer holds at a point, what the body
  leaves in the result window's buffer as a function of the input blocks, and the body's triple at every point.
-/
import proofs.«152161_j29669634081217_2_alg».proof.Proof.Gen.KernelIdeal.Launch
import proofs.«152161_j29669634081217_2_alg».proof.Proof.Gen.KernelIdeal.Skeleton
import proofs.«152161_j29669634081217_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window w's block at point t, read off its array as the region finds it. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's buffer holds the window's block at every point, whether the block was fetched at that point or
    at an earlier one: the body never writes an input's buffer, and between two fetches the block index stands still.
    This holds for the attribute rows (a new block at every point) and for the weights and biases (one block, fetched
    once) alike. Stated for any proof data whose array is the entry contents and whose body leaves the block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take the whole of their buffer -/

noncomputable abbrev rX1 : Rect S8000x10 := Rect.unit (s := S8000x10) ![0, 0] S8000x10.size inb_S8000x10_S8000x10_0_0
noncomputable abbrev rWa1 : Rect S10x128 := Rect.unit (s := S10x128) ![0, 0] S10x128.size inb_S10x128_S10x128_0_0
noncomputable abbrev rB1 : Rect S1x128 := Rect.unit (s := S1x128) ![0, 0] S1x128.size inb_S1x128_S1x128_0_0
noncomputable abbrev rWb1 : Rect S128x128 := Rect.unit (s := S128x128) ![0, 0] S128x128.size inb_S128x128_S128x128_0_0
noncomputable abbrev rY1 : Rect S8000x128 := Rect.unit (s := S8000x128) ![0, 0] S8000x128.size inb_S8000x128_S8000x128_0_0

/-! ## What the body leaves in the result window's buffer -/

/-- The result buffer after the body, from the five input blocks: the one store's payload laid over the whole buffer. -/
noncomputable def out1_5 (x0 : Vec F S8000x10 .f32) (x1 : Vec F S10x128 .f32) (x2 : Vec F S1x128 .f32) (x3 : Vec F S128x128 .f32)
    (x4 : Vec F S1x128 .f32) : Vec F S8000x128 .bf16 :=
  View.canon [⟨rY1, k1_pay1 (View.ld x0 rX1) (View.ld x1 rWa1) (View.ld x2 rB1) (View.ld x3 rWb1) (View.ld x4 rB1)⟩]

/-- The one store's rectangle is the whole buffer, so it covers every index. -/
theorem cover1_5 (p0 : Vec F S8000x128 .bf16) (y : S8000x128.Idx) :
    ∃ pc ∈ ([⟨rY1, p0⟩] : List (View.Piece (Elt F) S8000x128 .bf16)), y ∈ pc.1.set :=
  View.cover_of_tiled [⟨rY1, p0⟩] S8000x128.size (by rfl) y

/-! ## The body's triple -/

set_option maxHeartbeats 1000000 in
/-- The body on whole staging buffers, the inputs' at contents x0 … x4 and the result's at anything, runs to a state
    that holds the inputs' as they were and the result's at out1_5 of the inputs. The read of the result buffer that
    precedes the store is dead: the store overwrites every index. -/
theorem sound_kernel1 (c : Dev nD) (E : Set ℕ) (i : grid1.Coords)
    (arg1 : Memref sig .tc .vmem S8000x10 .f32) (harg1 : arg1.IsWhole) (arg2 : Memref sig .tc .vmem S10x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S8000x128 .bf16) (harg6 : arg6.IsWhole)
    (x0 : Vec F S8000x10 .f32) (x1 : Vec F S10x128 .f32) (x2 : Vec F S1x128 .f32) (x3 : Vec F S128x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__edge_encoder_kernel i arg1 harg1 arg2 harg2 arg3 harg3 arg4 harg4 arg5 harg5 arg6 harg6) K := by
  simp only [cc1__edge_encoder_kernel_eq_skeleton]; unfold cc1__edge_encoder_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the region's pipeline on core c: the arrays as the region finds them; after the body at point
    t each input's buffer at its block and the result's at out1_5 of the input blocks; the scoped rest and the
    generator register untouched; nothing owed; full shares. -/
noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point t, the windows one by one, -/
noncomputable def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
noncomputable def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  Region 2 of the kernel program: the pipeline that computes, from the node features h, the two projections
  a = h Ws and b = h Wd, in blocks of 4000 rows over a grid of 5 points. The frame half, at any float instance:
  what each window's staging buffer holds when the body is entered, what the body leaves in the two result
  buffers as a function of the three input blocks, and the body obligation of the pipeline's proof data.
-/
import proofs.«152161_j29669634081217_2_alg».proof.Proof.Gen.KernelIdeal.Launch
import proofs.«152161_j29669634081217_2_alg».proof.Proof.Gen.KernelIdeal.Skeleton
import proofs.«152161_j29669634081217_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered
variable (V : (c : Dev nD) → (b : Ref sig .tc) → Buf (Elt F) ((c : Thread nD τ).loc b))

/-! ## The blocks of the five windows -/

/-- The block of window `w` at grid point `t`, read off the window's array as the region finds it. -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The feature window (fetched at every point) holds its block of 4000 rows when the body is entered, for any
    proof data over the entry arrays whose body leaves that block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The first weight window is fetched at the first point only; its block index never moves, so at every point the
    buffer still holds the whole matrix. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The second weight window likewise. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each buffer whole -/

noncomputable abbrev rRows2 : Rect S4000x128 := Rect.unit (s := S4000x128) ![0, 0] S4000x128.size inb_S4000x128_S4000x128_0_0
noncomputable abbrev rMat2 : Rect S128x128 := Rect.unit (s := S128x128) ![0, 0] S128x128.size inb_S128x128_S128x128_0_0

/-! ## What the body leaves in the two result buffers -/

/-- The buffer of the projection a after the body: one store of the whole block, the product of the feature
    block with the first weight matrix. -/
noncomputable def out2_3 (x0 : Vec F S4000x128 .f32) (x1 : Vec F S128x128 .f32) : Vec F S4000x128 .bf16 :=
  View.canon [⟨rRows2, k2_pay2 (View.ld x0 rRows2) (View.ld x1 rMat2)⟩]

/-- The buffer of the projection b after the body: the product with the second weight matrix. -/
noncomputable def out2_4 (x0 : Vec F S4000x128 .f32) (x2 : Vec F S128x128 .f32) : Vec F S4000x128 .bf16 :=
  View.canon [⟨rRows2, k2_pay3 (View.ld x0 rRows2) (View.ld x2 rMat2)⟩]

/-- One whole-block store covers the buffer. -/
theorem cover2 (p0 : Vec F S4000x128 .bf16) (y : S4000x128.Idx) :
    ∃ pc ∈ ([⟨rRows2, p0⟩] : List (View.Piece (Elt F) S4000x128 .bf16)), y ∈ pc.1.set :=
  View.cover_of_tiled [⟨rRows2, p0⟩] S4000x128.size (by rfl) y

/-! ## The body's triple -/

set_option maxHeartbeats 1000000 in
/-- The body on whole staging buffers: the three inputs at contents `x0 x1 x2`, the two results at anything (each is
    read once before its store, a value nothing uses). It returns with the inputs as they were and the results at
    `out2_3 x0 x1` and `out2_4 x0 x2`. -/
theorem sound_kernel2 (c : Dev nD) (E : Set ℕ) (i : grid2.Coords)
    (arg1 : Memref sig .tc .vmem S4000x128 .f32) (harg1 : arg1.IsWhole)
    (arg2 : Memref sig .tc .vmem S128x128 .f32) (harg2 : arg2.IsWhole)
    (arg3 : Memref sig .tc .vmem S128x128 .f32) (harg3 : arg3.IsWhole)
    (arg4 : Memref sig .tc .vmem S4000x128 .bf16) (harg4 : arg4.IsWhole)
    (arg5 : Memref sig .tc .vmem S4000x128 .bf16) (harg5 : arg5.IsWhole)
    (x0 : Vec F S4000x128 .f32) (x1 : Vec F S128x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1) ∗ owns (c : Thread nD τ) arg5 fullShare (out2_4 x0 x2)) -∗ K ⟨⟩))
      ⊢ wp frame (wpE (defs₀ (F := F)) Variants.none c none) E (cc2__ab_kernel i arg1 harg1 arg2 harg2 arg3 harg3 arg4 harg4 arg5 harg5) K := by
  simp only [cc2__ab_kernel_eq_skeleton]; unfold cc2__ab_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover2 _)
  iexists _; isplitr
  swap; · iexact H4
  ipureintro
  exact View.read_writes_eq_canon _ _ _ (cover2 _)

/-! ## The proof data of the pipeline -/

/-- The proof data of region 2 on core `c`: the arrays as the region finds them; after the body at point `t` each input
    buffer at its block and each result buffer at the product of the feature block with its weight matrix; the
    invariant that leaves the rest of the core untouched; full shares, nothing owed. -/
noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t)
    | ⟨4, _⟩ => out2_4 (iblk2 V c 0 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) := by dsimp only [dat2]
theorem after2_4 (c : Dev nD) (t : Fin cfg2.N) : (dat2 V c).after 4 t = out2_4 (iblk2 V c 0 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation at a generic point -/

/-- What the body is entered with at point `t`, window by window, -/
noncomputable def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
noncomputable def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the three input buffers hold their blocks, so the body's triple applies; the invariant
    and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
/-
  Region 3 of @main, the frame half: the edge-message kernel of a message-passing layer on its grid of 20 points.
  At a parameter V (the TensorCore's buffer contents when the region is entered) this file gives each window's block
  at a point, the contents of the result's staging buffer after the body (its one whole-block store of the payload of
  the seven loaded blocks), the body's triple on whole staging buffers, the pipeline's proof data and the body
  obligation at every point. Generic in the float instance.
-/
import proofs.«152161_j29669634081217_2_alg».proof.Proof.Gen.KernelIdeal.Launch
import proofs.«152161_j29669634081217_2_alg».proof.Proof.Gen.KernelIdeal.Skeleton
import proofs.«152161_j29669634081217_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 8000 rows: the structural look recurses once per coordinate of the long axis
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's current staging buffer holds its block at every point, fetched there or not (the three edge
    arrays are fetched at every point, the four weight arrays at the first only: where a window is not fetched its
    block index has not moved), for any proof data whose array is V's and whose body leaves the block in place. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store take a whole staging buffer -/

noncomputable abbrev r3_0 : Rect S8000x128 := Rect.unit (s := S8000x128) ![0, 0] S8000x128.size inb_S8000x128_S8000x128_0_0
noncomputable abbrev r3_1 : Rect S128x128 := Rect.unit (s := S128x128) ![0, 0] S128x128.size inb_S128x128_S128x128_0_0
noncomputable abbrev r3_2 : Rect S1x128 := Rect.unit (s := S1x128) ![0, 0] S1x128.size inb_S1x128_S1x128_0_0

/-! ## What the body leaves in the result window's buffer -/

/-- Window 7's staging buffer after the body, from the seven input windows' blocks (in window order: the edge
    features, the two gathered node terms, the first weight and bias, the second weight and bias): its one store. -/
noncomputable def out3_7 (x0 x1 x2 : Vec F S8000x128 .bf16) (x3 : Vec F S128x128 .f32) (x4 : Vec F S1x128 .f32)
    (x5 : Vec F S128x128 .f32) (x6 : Vec F S1x128 .f32) : Vec F S8000x128 .f32 :=
  View.canon [⟨r3_0, k3_pay1 (View.ld x0 r3_0) (View.ld x3 r3_1) (View.ld x1 r3_0) (View.ld x2 r3_0) (View.ld x4 r3_2)
    (View.ld x5 r3_1) (View.ld x6 r3_2)⟩]

/-- The store takes the whole buffer, so it covers it. -/
theorem cover3_7 (p0 : Vec F S8000x128 .f32) (y : S8000x128.Idx) :
    ∃ pc ∈ ([⟨r3_0, p0⟩] : List (View.Piece (Elt F) S8000x128 .f32)), y ∈ pc.1.set :=
  View.cover_of_tiled [⟨r3_0, p0⟩] S8000x128.size (by rfl) y

/-! ## The body's triple -/

set_option maxHeartbeats 4000000 in
/-- The kernel body on whole staging memrefs, the inputs' at read contents and the result's at anything, runs to the
    continuation holding the inputs' as they were and the result's at out3_7 of the inputs': the printed function is
    its skeleton, eight loads (the last one, of the result buffer, is never used) and one store. -/
theorem sound_kernel3 (c : Dev nD) (E : Set ℕ) (i : grid3.Coords)
    (arg1 : Memref sig .tc .vmem S8000x128 .bf16) (harg1 : arg1.IsWhole) (arg2 : Memref sig .tc .vmem S8000x128 .bf16) (harg2 : arg2.IsWhole)
    (arg3 : Memref sig .tc .vmem S8000x128 .bf16) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S8000x128 .f32) (harg8 : arg8.IsWhole)
    (x0 x1 x2 : Vec F S8000x128 .bf16) (x3 : Vec F S128x128 .f32) (x4 : Vec F S1x128 .f32)
    (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out3_7 x0 x1 x2 x3 x4 x5 x6)) -∗ K ⟨⟩))
      ⊢ wp frame (wpE (defs₀ (F := F)) Variants.none c none) E
          (cc3__edge_message_kernel i arg1 harg1 arg2 harg2 arg3 harg3 arg4 harg4 arg5 harg5 arg6 harg6 arg7 harg7 arg8 harg8) K := by
  simp only [cc3__edge_message_kernel_eq_skeleton]; unfold cc3__edge_message_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-! ## The pipeline's proof data -/

/-- The proof data of pipeline 3 on core c: the arrays as the region finds them; after the body at point t each
    input's buffer at its block and the result's at out3_7 of the input blocks; the invariant is the scoped rest and
    the generator register, untouched; nothing owed; full shares. -/
noncomputable def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t =
    out3_7 (iblk3 V c 0 t) (iblk3 V c 1 t) (iblk3 V c 2 t) (iblk3 V c 3 t) (iblk3 V c 4 t) (iblk3 V c 5 t) (iblk3 V c 6 t) := by
  dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point t, the windows one by one, -/
noncomputable def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
noncomputable def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

set_option maxHeartbeats 1000000 in
/-- The body at any point: the inputs' memrefs hold their blocks, so the triple applies; the invariant and the core's
    debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t)
    (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
/-
  Region 4 of @main, the node-update kernel of the first message-passing layer, at an arbitrary content V of the
  TensorCore's buffers when the region is entered, for any float instance.

  The kernel reads nine windows (the node features and the aggregated messages in blocks of 4000 rows, then seven
  weight arrays each fetched whole once) and writes three (the new features, and their two projections for the next
  layer), each result block through one store that fills it.  This file states what each staging buffer holds after
  the body ran at a grid point, proves the body's separation-logic triple by running its memory operations, and
  packages both as the pipeline's body obligation.
-/
import proofs.«152161_j29669634081217_2_alg».proof.Proof.Gen.KernelIdeal.Launch
import proofs.«152161_j29669634081217_2_alg».proof.Proof.Gen.KernelIdeal.Skeleton
import proofs.«152161_j29669634081217_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows show -/

/-- The block of window w at grid point t, cut out of the window's array as the region finds it. -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The three rectangles the body touches: every access is of a whole staging buffer -/

/-- All of a 4000 × 128 buffer (a block of rows, and each result block). -/
noncomputable abbrev rowsAll4 : Rect S4000x128 := Rect.unit (s := S4000x128) ![0, 0] S4000x128.size inb_S4000x128_S4000x128_0_0
/-- All of a 128 × 128 buffer (a weight matrix). -/
noncomputable abbrev matAll4 : Rect S128x128 := Rect.unit (s := S128x128) ![0, 0] S128x128.size inb_S128x128_S128x128_0_0
/-- All of a 1 × 128 buffer (a bias). -/
noncomputable abbrev biasAll4 : Rect S1x128 := Rect.unit (s := S1x128) ![0, 0] S1x128.size inb_S1x128_S1x128_0_0

/-! ## What the body leaves in the three result buffers -/

/-- The new features, in single precision: the residual update of the features block \`h\` by the messages block
    \`g\`, through the five weight arrays of the update. -/
noncomputable def out4_9 (h g : Vec F S4000x128 .f32) (wh wa : Vec F S128x128 .f32) (b1 : Vec F S1x128 .f32)
    (w2 : Vec F S128x128 .f32) (b2 : Vec F S1x128 .f32) : Vec F S4000x128 .f32 :=
  View.canon [⟨rowsAll4, k4_pay3 (View.ld h rowsAll4) (View.ld wh matAll4) (View.ld g rowsAll4) (View.ld wa matAll4)
    (View.ld b1 biasAll4) (View.ld w2 matAll4) (View.ld b2 biasAll4)⟩]

/-- The new features' projection by the next layer's source-side matrix \`ws\`, in half precision. -/
noncomputable def out4_10 (h g : Vec F S4000x128 .f32) (wh wa : Vec F S128x128 .f32) (b1 : Vec F S1x128 .f32)
    (w2 : Vec F S128x128 .f32) (b2 : Vec F S1x128 .f32) (ws : Vec F S128x128 .f32) : Vec F S4000x128 .bf16 :=
  View.canon [⟨rowsAll4, k4_pay1 (k4_pay4 (View.ld h rowsAll4) (View.ld wh matAll4) (View.ld g rowsAll4) (View.ld wa matAll4)
    (View.ld b1 biasAll4) (View.ld w2 matAll4) (View.ld b2 biasAll4)) (k4_pay5 (View.ld ws matAll4))⟩]

/-- The new features' projection by the next layer's destination-side matrix \`wd\`, in half precision. -/
noncomputable def out4_11 (h g : Vec F S4000x128 .f32) (wh wa : Vec F S128x128 .f32) (b1 : Vec F S1x128 .f32)
    (w2 : Vec F S128x128 .f32) (b2 : Vec F S1x128 .f32) (wd : Vec F S128x128 .f32) : Vec F S4000x128 .bf16 :=
  View.canon [⟨rowsAll4, k4_pay2 (k4_pay4 (View.ld h rowsAll4) (View.ld wh matAll4) (View.ld g rowsAll4) (View.ld wa matAll4)
    (View.ld b1 biasAll4) (View.ld w2 matAll4) (View.ld b2 biasAll4)) (View.ld wd matAll4)⟩]

/-- One store through the whole-buffer rectangle covers the buffer: single precision. -/
theorem fills4_f32 (p : Vec F S4000x128 .f32) (y : S4000x128.Idx) :
    ∃ pc ∈ ([⟨rowsAll4, p⟩] : List (View.Piece (Elt F) S4000x128 .f32)), y ∈ pc.1.set :=
  View.cover_of_tiled [⟨rowsAll4, p⟩] S4000x128.size (by rfl) y

/-- One store through the whole-buffer rectangle covers the buffer: half precision. -/
theorem fills4_bf16 (p : Vec F S4000x128 .bf16) (y : S4000x128.Idx) :
    ∃ pc ∈ ([⟨rowsAll4, p⟩] : List (View.Piece (Elt F) S4000x128 .bf16)), y ∈ pc.1.set :=
  View.cover_of_tiled [⟨rowsAll4, p⟩] S4000x128.size (by rfl) y

/-! ## The body's triple -/

set_option maxHeartbeats 4000000 in
/-- The body on whole staging buffers, the nine inputs' reading \`x0 … x8\` and the three results' holding anything, runs
    to a state where the inputs' are as they were and each result's holds its \`out4_w\` of the inputs: the printed body
    and its printed part are their skeletons of memory operations, which are run one after the other; each result
    buffer ends as one write over its earlier content, and that write fills it. -/
theorem runs4 (c : Dev nD) (E : Set ℕ) (i : grid4.Coords) (a0 : Memref sig .tc .vmem S4000x128 .f32) (ha0 : a0.IsWhole) (a1 : Memref sig .tc .vmem S4000x128 .f32) (ha1 : a1.IsWhole) (a2 : Memref sig .tc .vmem S128x128 .f32) (ha2 : a2.IsWhole) (a3 : Memref sig .tc .vmem S128x128 .f32) (ha3 : a3.IsWhole) (a4 : Memref sig .tc .vmem S1x128 .f32) (ha4 : a4.IsWhole) (a5 : Memref sig .tc .vmem S128x128 .f32) (ha5 : a5.IsWhole) (a6 : Memref sig .tc .vmem S1x128 .f32) (ha6 : a6.IsWhole) (a7 : Memref sig .tc .vmem S128x128 .f32) (ha7 : a7.IsWhole) (a8 : Memref sig .tc .vmem S128x128 .f32) (ha8 : a8.IsWhole) (a9 : Memref sig .tc .vmem S4000x128 .f32) (ha9 : a9.IsWhole) (a10 : Memref sig .tc .vmem S4000x128 .bf16) (ha10 : a10.IsWhole) (a11 : Memref sig .tc .vmem S4000x128 .bf16) (ha11 : a11.IsWhole)
    (x0 : Vec F S4000x128 .f32) (x1 : Vec F S4000x128 .f32) (x2 : Vec F S128x128 .f32) (x3 : Vec F S128x128 .f32) (x4 : Vec F S1x128 .f32) (x5 : Vec F S128x128 .f32) (x6 : Vec F S1x128 .f32) (x7 : Vec F S128x128 .f32) (x8 : Vec F S128x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d) ∗ (∃ d, owns (c : Thread nD τ) a10 fullShare d) ∗ (∃ d, owns (c : Thread nD τ) a11 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare (out4_9 x0 x1 x2 x3 x4 x5 x6) ∗ owns (c : Thread nD τ) a10 fullShare (out4_10 x0 x1 x2 x3 x4 x5 x6 x7) ∗ owns (c : Thread nD τ) a11 fullShare (out4_11 x0 x1 x2 x3 x4 x5 x6 x8)) -∗ K ⟨⟩))
      ⊢ wp frame (wpE (defs₀ (F := F)) Variants.none c none) E (cc4__node_update_ab_kernel i a0 ha0 a1 ha1 a2 ha2 a3 ha3 a4 ha4 a5 ha5 a6 ha6 a7 ha7 a8 ha8 a9 ha9 a10 ha10 a11 ha11) K := by
  simp only [cc4__node_update_ab_kernel_eq_skeleton]; unfold cc4__node_update_ab_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (fills4_f32 _)
  isplitl [H10]
  · iexists _; isplitr
    swap; · iexact H10
    ipureintro
    try dsimp only
    exact View.read_writes_eq_canon _ _ _ (fills4_bf16 _)
  iexists _; isplitr
  swap; · iexact H11
  ipureintro
  try dsimp only
  exact View.read_writes_eq_canon _ _ _ (fills4_bf16 _)

/-! ## The pipeline's proof data -/

/-- The proof data of this region's pipeline on core \`c\`: the arrays as the region finds them; after the body at
    point \`t\` each input's staging buffer still at its block and each result's at its \`out4_w\` of the input blocks;
    the invariant that nothing else is touched; full shares; nothing owed. -/
noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => out4_9 (iblk4 V c 0 t) (iblk4 V c 1 t) (iblk4 V c 2 t) (iblk4 V c 3 t) (iblk4 V c 4 t) (iblk4 V c 5 t) (iblk4 V c 6 t)
    | ⟨10, _⟩ => out4_10 (iblk4 V c 0 t) (iblk4 V c 1 t) (iblk4 V c 2 t) (iblk4 V c 3 t) (iblk4 V c 4 t) (iblk4 V c 5 t) (iblk4 V c 6 t) (iblk4 V c 7 t)
    | ⟨11, _⟩ => out4_11 (iblk4 V c 0 t) (iblk4 V c 1 t) (iblk4 V c 2 t) (iblk4 V c 3 t) (iblk4 V c 4 t) (iblk4 V c 5 t) (iblk4 V c 6 t) (iblk4 V c 8 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-! What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = out4_9 (iblk4 V c 0 t) (iblk4 V c 1 t) (iblk4 V c 2 t) (iblk4 V c 3 t) (iblk4 V c 4 t) (iblk4 V c 5 t) (iblk4 V c 6 t) := by dsimp only [dat4]
theorem after4_10 (c : Dev nD) (t : Fin cfg4.N) : (dat4 V c).after 10 t = out4_10 (iblk4 V c 0 t) (iblk4 V c 1 t) (iblk4 V c 2 t) (iblk4 V c 3 t) (iblk4 V c 4 t) (iblk4 V c 5 t) (iblk4 V c 6 t) (iblk4 V c 7 t) := by dsimp only [dat4]
theorem after4_11 (c : Dev nD) (t : Fin cfg4.N) : (dat4 V c).after 11 t = out4_11 (iblk4 V c 0 t) (iblk4 V c 1 t) (iblk4 V c 2 t) (iblk4 V c 3 t) (iblk4 V c 4 t) (iblk4 V c 5 t) (iblk4 V c 6 t) (iblk4 V c 8 t) := by dsimp only [dat4]

/-! Each input's current staging buffer holds the window's block at every point, whether the block was fetched at
    that point or is still there from the first point (the seven weight windows' block index never moves, so the
    block of the first point is the block of every point). -/
theorem found4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)
theorem found4_1 (c : Dev nD) (t : Fin cfg4.N) (d) : (dat4 V c).before 1 t d = iblk4 V c 1 t :=
  ((dat4 V c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)
theorem found4_2 (c : Dev nD) (t : Fin cfg4.N) (d) : (dat4 V c).before 2 t d = iblk4 V c 2 t :=
  ((dat4 V c).before_in_eq_fetched 2 rfl (fun _ => rfl) (fun _ _ _ => rfl)
    (fun t => by rw [after4_2]; unfold Dat.blockOf iblk4; rw [A_eq4]; try rfl) t d).trans
    (by unfold Dat.fetched Dat.blockOf iblk4; rw [A_eq4]; try rfl)
theorem found4_3 (c : Dev nD) (t : Fin cfg4.N) (d) : (dat4 V c).before 3 t d = iblk4 V c 3 t :=
  ((dat4 V c).before_in_eq_fetched 3 rfl (fun _ => rfl) (fun _ _ _ => rfl)
    (fun t => by rw [after4_3]; unfold Dat.blockOf iblk4; rw [A_eq4]; try rfl) t d).trans
    (by unfold Dat.fetched Dat.blockOf iblk4; rw [A_eq4]; try rfl)
theorem found4_4 (c : Dev nD) (t : Fin cfg4.N) (d) : (dat4 V c).before 4 t d = iblk4 V c 4 t :=
  ((dat4 V c).before_in_eq_fetched 4 rfl (fun _ => rfl) (fun _ _ _ => rfl)
    (fun t => by rw [after4_4]; unfold Dat.blockOf iblk4; rw [A_eq4]; try rfl) t d).trans
    (by unfold Dat.fetched Dat.blockOf iblk4; rw [A_eq4]; try rfl)
theorem found4_5 (c : Dev nD) (t : Fin cfg4.N) (d) : (dat4 V c).before 5 t d = iblk4 V c 5 t :=
  ((dat4 V c).before_in_eq_fetched 5 rfl (fun _ => rfl) (fun _ _ _ => rfl)
    (fun t => by rw [after4_5]; unfold Dat.blockOf iblk4; rw [A_eq4]; try rfl) t d).trans
    (by unfold Dat.fetched Dat.blockOf iblk4; rw [A_eq4]; try rfl)
theorem found4_6 (c : Dev nD) (t : Fin cfg4.N) (d) : (dat4 V c).before 6 t d = iblk4 V c 6 t :=
  ((dat4 V c).before_in_eq_fetched 6 rfl (fun _ => rfl) (fun _ _ _ => rfl)
    (fun t => by rw [after4_6]; unfold Dat.blockOf iblk4; rw [A_eq4]; try rfl) t d).trans
    (by unfold Dat.fetched Dat.blockOf iblk4; rw [A_eq4]; try rfl)
theorem found4_7 (c : Dev nD) (t : Fin cfg4.N) (d) : (dat4 V c).before 7 t d = iblk4 V c 7 t :=
  ((dat4 V c).before_in_eq_fetched 7 rfl (fun _ => rfl) (fun _ _ _ => rfl)
    (fun t => by rw [after4_7]; unfold Dat.blockOf iblk4; rw [A_eq4]; try rfl) t d).trans
    (by unfold Dat.fetched Dat.blockOf iblk4; rw [A_eq4]; try rfl)
theorem found4_8 (c : Dev nD) (t : Fin cfg4.N) (d) : (dat4 V c).before 8 t d = iblk4 V c 8 t :=
  ((dat4 V c).before_in_eq_fetched 8 rfl (fun _ => rfl) (fun _ _ _ => rfl)
    (fun t => by rw [after4_8]; unfold Dat.blockOf iblk4; rw [A_eq4]; try rfl) t d).trans
    (by unfold Dat.fetched Dat.blockOf iblk4; rw [A_eq4]; try rfl)

/-! ## The body obligation -/

/-- What the body is called with at point \`t\`: the invariant, the debts, and the twelve staging buffers. -/
noncomputable def pre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d))
    ∗ (∃ d, owns (c : Thread nD τ) (st4_11 t) fullShare ((dat4 V c).before 11 t d)))

/-- What it returns. -/
noncomputable def post4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t)
    ∗ owns (c : Thread nD τ) (st4_11 t) fullShare ((dat4 V c).after 11 t))

/-- The body at any point: the input buffers hold their blocks, so the body's triple applies; the invariant and the
    debts pass through untouched. -/
theorem steps4 (c : Dev nD) (t : Fin cfg4.N) :
    pre4 V c t ⊢ wp frame (wpE (defs₀ (F := F)) Variants.none c none) Set.univ (bodyAt4 t) (fun _ => post4 V c t) := by
  unfold pre4 post4 bodyAt4
  simp only [found4_0, found4_1, found4_2, found4_3, found4_4, found4_5, found4_6, found4_7, found4_8]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10, after4_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (runs4 c Set.univ _ _ _ _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation4 (c : Dev nD) : BodyObligation (dat4 (F := F) V c) (defs₀ (F := F)) Variants.none () Set.univ := fun t => by
  rw [bigSep_W4, bigSep_W4]
  exact steps4 V c t

end Cert.KernelIdeal.Hand

end
-- ==== Proof.KI.Reg5.lean ====
/-
  Region 5 of @main, the frame half: the edge-message kernel of a message-passing layer on its grid of 20 points.
  At a parameter V (the TensorCore's buffer contents when the region is entered) this file gives each window's block
  at a point, the contents of the result's staging buffer after the body (its one whole-block store of the payload of
  the seven loaded blocks), the body's triple on whole staging buffers, the pipeline's proof data and the body
  obligation at every point. Generic in the float instance.
-/
import proofs.«152161_j29669634081217_2_alg».proof.Proof.Gen.KernelIdeal.Launch
import proofs.«152161_j29669634081217_2_alg».proof.Proof.Gen.KernelIdeal.Skeleton
import proofs.«152161_j29669634081217_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 8000 rows: the structural look recurses once per coordinate of the long axis
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! An input window's current staging buffer holds its block at every point, fetched there or not (the three edge
    arrays are fetched at every point, the four weight arrays at the first only: where a window is not fetched its
    block index has not moved), for any proof data whose array is V's and whose body leaves the block in place. -/

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and the one store take a whole staging buffer -/

noncomputable abbrev r5_0 : Rect S8000x128 := Rect.unit (s := S8000x128) ![0, 0] S8000x128.size inb_S8000x128_S8000x128_0_0
noncomputable abbrev r5_1 : Rect S128x128 := Rect.unit (s := S128x128) ![0, 0] S128x128.size inb_S128x128_S128x128_0_0
noncomputable abbrev r5_2 : Rect S1x128 := Rect.unit (s := S1x128) ![0, 0] S1x128.size inb_S1x128_S1x128_0_0

/-! ## What the body leaves in the result window's buffer -/

/-- Window 7's staging buffer after the body, from the seven input windows' blocks (in window order: the edge
    features, the two gathered node terms, the first weight and bias, the second weight and bias): its one store. -/
noncomputable def out5_7 (x0 x1 x2 : Vec F S8000x128 .bf16) (x3 : Vec F S128x128 .f32) (x4 : Vec F S1x128 .f32)
    (x5 : Vec F S128x128 .f32) (x6 : Vec F S1x128 .f32) : Vec F S8000x128 .f32 :=
  View.canon [⟨r5_0, k5_pay1 (View.ld x0 r5_0) (View.ld x3 r5_1) (View.ld x1 r5_0) (View.ld x2 r5_0) (View.ld x4 r5_2)
    (View.ld x5 r5_1) (View.ld x6 r5_2)⟩]

/-- The store takes the whole buffer, so it covers it. -/
theorem cover5_7 (p0 : Vec F S8000x128 .f32) (y : S8000x128.Idx) :
    ∃ pc ∈ ([⟨r5_0, p0⟩] : List (View.Piece (Elt F) S8000x128 .f32)), y ∈ pc.1.set :=
  View.cover_of_tiled [⟨r5_0, p0⟩] S8000x128.size (by rfl) y

/-! ## The body's triple -/

set_option maxHeartbeats 4000000 in
/-- The kernel body on whole staging memrefs, the inputs' at read contents and the result's at anything, runs to the
    continuation holding the inputs' as they were and the result's at out5_7 of the inputs': the printed function is
    its skeleton, eight loads (the last one, of the result buffer, is never used) and one store. -/
theorem sound_kernel5 (c : Dev nD) (E : Set ℕ) (i : grid5.Coords)
    (arg1 : Memref sig .tc .vmem S8000x128 .bf16) (harg1 : arg1.IsWhole) (arg2 : Memref sig .tc .vmem S8000x128 .bf16) (harg2 : arg2.IsWhole)
    (arg3 : Memref sig .tc .vmem S8000x128 .bf16) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S8000x128 .f32) (harg8 : arg8.IsWhole)
    (x0 x1 x2 : Vec F S8000x128 .bf16) (x3 : Vec F S128x128 .f32) (x4 : Vec F S1x128 .f32)
    (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out5_7 x0 x1 x2 x3 x4 x5 x6)) -∗ K ⟨⟩))
      ⊢ wp frame (wpE (defs₀ (F := F)) Variants.none c none) E
          (cc5__edge_message_kernel i arg1 harg1 arg2 harg2 arg3 harg3 arg4 harg4 arg5 harg5 arg6 harg6 arg7 harg7 arg8 harg8) K := by
  simp only [cc5__edge_message_kernel_eq_skeleton]; unfold cc5__edge_message_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover5_7 _)

/-! ## The pipeline's proof data -/

/-- The proof data of pipeline 5 on core c: the arrays as the region finds them; after the body at point t each
    input's buffer at its block and the result's at out5_7 of the input blocks; the invariant is the scoped rest and
    the generator register, untouched; nothing owed; full shares. -/
noncomputable def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t =
    out5_7 (iblk5 V c 0 t) (iblk5 V c 1 t) (iblk5 V c 2 t) (iblk5 V c 3 t) (iblk5 V c 4 t) (iblk5 V c 5 t) (iblk5 V c 6 t) := by
  dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

/-! ## The body obligation, at a generic point -/

/-- What the body is called with at point t, the windows one by one, -/
noncomputable def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

/-- and what it returns. -/
noncomputable def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

set_option maxHeartbeats 1000000 in
/-- The body at any point: the inputs' memrefs hold their blocks, so the triple applies; the invariant and the core's
    debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ _ _ _ _ _ _ _ _ _ _ _ _ _ _ _ _ _ (iblk5 V c 0 t) (iblk5 V c 1 t) (iblk5 V c 2 t) (iblk5 V c 3 t)
    (iblk5 V c 4 t) (iblk5 V c 5 t) (iblk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Reg6.lean ====
/-
  Region 6 of @main, the node-update kernel of the second message-passing layer, at an arbitrary content V of the
  TensorCore's buffers when the region is entered, for any float instance.

  The kernel reads nine windows (the node features and the aggregated messages in blocks of 4000 rows, then seven
  weight arrays each fetched whole once) and writes three (the new features, and their two projections for the next
  layer), each result block through one store that fills it.  This file states what each staging buffer holds after
  the body ran at a grid point, proves the body's separation-logic triple by running its memory operations, and
  packages both as the pipeline's body obligation.
-/
import proofs.«152161_j29669634081217_2_alg».proof.Proof.Gen.KernelIdeal.Launch
import proofs.«152161_j29669634081217_2_alg».proof.Proof.Gen.KernelIdeal.Skeleton
import proofs.«152161_j29669634081217_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows show -/

/-- The block of window w at grid point t, cut out of the window's array as the region finds it. -/
noncomputable def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## The three rectangles the body touches: every access is of a whole staging buffer -/

/-- All of a 4000 × 128 buffer (a block of rows, and each result block). -/
noncomputable abbrev rowsAll6 : Rect S4000x128 := Rect.unit (s := S4000x128) ![0, 0] S4000x128.size inb_S4000x128_S4000x128_0_0
/-- All of a 128 × 128 buffer (a weight matrix). -/
noncomputable abbrev matAll6 : Rect S128x128 := Rect.unit (s := S128x128) ![0, 0] S128x128.size inb_S128x128_S128x128_0_0
/-- All of a 1 × 128 buffer (a bias). -/
noncomputable abbrev biasAll6 : Rect S1x128 := Rect.unit (s := S1x128) ![0, 0] S1x128.size inb_S1x128_S1x128_0_0

/-! ## What the body leaves in the three result buffers -/

/-- The new features, in single precision: the residual update of the features block `h` by the messages block
    `g`, through the five weight arrays of the update. -/
noncomputable def out6_9 (h g : Vec F S4000x128 .f32) (wh wa : Vec F S128x128 .f32) (b1 : Vec F S1x128 .f32)
    (w2 : Vec F S128x128 .f32) (b2 : Vec F S1x128 .f32) : Vec F S4000x128 .f32 :=
  View.canon [⟨rowsAll6, k6_pay3 (View.ld h rowsAll6) (View.ld wh matAll6) (View.ld g rowsAll6) (View.ld wa matAll6)
    (View.ld b1 biasAll6) (View.ld w2 matAll6) (View.ld b2 biasAll6)⟩]

/-- The new features' projection by the next layer's source-side matrix `ws`, in half precision. -/
noncomputable def out6_10 (h g : Vec F S4000x128 .f32) (wh wa : Vec F S128x128 .f32) (b1 : Vec F S1x128 .f32)
    (w2 : Vec F S128x128 .f32) (b2 : Vec F S1x128 .f32) (ws : Vec F S128x128 .f32) : Vec F S4000x128 .bf16 :=
  View.canon [⟨rowsAll6, k6_pay1 (k6_pay4 (View.ld h rowsAll6) (View.ld wh matAll6) (View.ld g rowsAll6) (View.ld wa matAll6)
    (View.ld b1 biasAll6) (View.ld w2 matAll6) (View.ld b2 biasAll6)) (k6_pay5 (View.ld ws matAll6))⟩]

/-- The new features' projection by the next layer's destination-side matrix `wd`, in half precision. -/
noncomputable def out6_11 (h g : Vec F S4000x128 .f32) (wh wa : Vec F S128x128 .f32) (b1 : Vec F S1x128 .f32)
    (w2 : Vec F S128x128 .f32) (b2 : Vec F S1x128 .f32) (wd : Vec F S128x128 .f32) : Vec F S4000x128 .bf16 :=
  View.canon [⟨rowsAll6, k6_pay2 (k6_pay4 (View.ld h rowsAll6) (View.ld wh matAll6) (View.ld g rowsAll6) (View.ld wa matAll6)
    (View.ld b1 biasAll6) (View.ld w2 matAll6) (View.ld b2 biasAll6)) (View.ld wd matAll6)⟩]

/-- One store through the whole-buffer rectangle covers the buffer: single precision. -/
theorem fills6_f32 (p : Vec F S4000x128 .f32) (y : S4000x128.Idx) :
    ∃ pc ∈ ([⟨rowsAll6, p⟩] : List (View.Piece (Elt F) S4000x128 .f32)), y ∈ pc.1.set :=
  View.cover_of_tiled [⟨rowsAll6, p⟩] S4000x128.size (by rfl) y

/-- One store through the whole-buffer rectangle covers the buffer: half precision. -/
theorem fills6_bf16 (p : Vec F S4000x128 .bf16) (y : S4000x128.Idx) :
    ∃ pc ∈ ([⟨rowsAll6, p⟩] : List (View.Piece (Elt F) S4000x128 .bf16)), y ∈ pc.1.set :=
  View.cover_of_tiled [⟨rowsAll6, p⟩] S4000x128.size (by rfl) y

/-! ## The body's triple -/

set_option maxHeartbeats 4000000 in
/-- The body on whole staging buffers, the nine inputs' reading `x0 … x8` and the three results' holding anything, runs
    to a state where the inputs' are as they were and each result's holds its `out6_w` of the inputs: the printed body
    and its printed part are their skeletons of memory operations, which are run one after the other; each result
    buffer ends as one write over its earlier content, and that write fills it. -/
theorem runs6 (c : Dev nD) (E : Set ℕ) (i : grid6.Coords) (a0 : Memref sig .tc .vmem S4000x128 .f32) (ha0 : a0.IsWhole) (a1 : Memref sig .tc .vmem S4000x128 .f32) (ha1 : a1.IsWhole) (a2 : Memref sig .tc .vmem S128x128 .f32) (ha2 : a2.IsWhole) (a3 : Memref sig .tc .vmem S128x128 .f32) (ha3 : a3.IsWhole) (a4 : Memref sig .tc .vmem S1x128 .f32) (ha4 : a4.IsWhole) (a5 : Memref sig .tc .vmem S128x128 .f32) (ha5 : a5.IsWhole) (a6 : Memref sig .tc .vmem S1x128 .f32) (ha6 : a6.IsWhole) (a7 : Memref sig .tc .vmem S128x128 .f32) (ha7 : a7.IsWhole) (a8 : Memref sig .tc .vmem S128x128 .f32) (ha8 : a8.IsWhole) (a9 : Memref sig .tc .vmem S4000x128 .f32) (ha9 : a9.IsWhole) (a10 : Memref sig .tc .vmem S4000x128 .bf16) (ha10 : a10.IsWhole) (a11 : Memref sig .tc .vmem S4000x128 .bf16) (ha11 : a11.IsWhole)
    (x0 : Vec F S4000x128 .f32) (x1 : Vec F S4000x128 .f32) (x2 : Vec F S128x128 .f32) (x3 : Vec F S128x128 .f32) (x4 : Vec F S1x128 .f32) (x5 : Vec F S128x128 .f32) (x6 : Vec F S1x128 .f32) (x7 : Vec F S128x128 .f32) (x8 : Vec F S128x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d) ∗ (∃ d, owns (c : Thread nD τ) a10 fullShare d) ∗ (∃ d, owns (c : Thread nD τ) a11 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare (out6_9 x0 x1 x2 x3 x4 x5 x6) ∗ owns (c : Thread nD τ) a10 fullShare (out6_10 x0 x1 x2 x3 x4 x5 x6 x7) ∗ owns (c : Thread nD τ) a11 fullShare (out6_11 x0 x1 x2 x3 x4 x5 x6 x8)) -∗ K ⟨⟩))
      ⊢ wp frame (wpE (defs₀ (F := F)) Variants.none c none) E (cc6__node_update_ab_kernel i a0 ha0 a1 ha1 a2 ha2 a3 ha3 a4 ha4 a5 ha5 a6 ha6 a7 ha7 a8 ha8 a9 ha9 a10 ha10 a11 ha11) K := by
  simp only [cc6__node_update_ab_kernel_eq_skeleton]; unfold cc6__node_update_ab_kernel_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (fills6_f32 _)
  isplitl [H10]
  · iexists _; isplitr
    swap; · iexact H10
    ipureintro
    try dsimp only
    exact View.read_writes_eq_canon _ _ _ (fills6_bf16 _)
  iexists _; isplitr
  swap; · iexact H11
  ipureintro
  try dsimp only
  exact View.read_writes_eq_canon _ _ _ (fills6_bf16 _)

/-! ## The pipeline's proof data -/

/-- The proof data of this region's pipeline on core `c`: the arrays as the region finds them; after the body at
    point `t` each input's staging buffer still at its block and each result's at its `out6_w` of the input blocks;
    the invariant that nothing else is touched; full shares; nothing owed. -/
noncomputable def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => out6_9 (iblk6 V c 0 t) (iblk6 V c 1 t) (iblk6 V c 2 t) (iblk6 V c 3 t) (iblk6 V c 4 t) (iblk6 V c 5 t) (iblk6 V c 6 t)
    | ⟨10, _⟩ => out6_10 (iblk6 V c 0 t) (iblk6 V c 1 t) (iblk6 V c 2 t) (iblk6 V c 3 t) (iblk6 V c 4 t) (iblk6 V c 5 t) (iblk6 V c 6 t) (iblk6 V c 7 t)
    | ⟨11, _⟩ => out6_11 (iblk6 V c 0 t) (iblk6 V c 1 t) (iblk6 V c 2 t) (iblk6 V c 3 t) (iblk6 V c 4 t) (iblk6 V c 5 t) (iblk6 V c 6 t) (iblk6 V c 8 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-! What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = iblk6 V c 8 t := by dsimp only [dat6]
theorem after6_9 (c : Dev nD) (t : Fin cfg6.N) : (dat6 V c).after 9 t = out6_9 (iblk6 V c 0 t) (iblk6 V c 1 t) (iblk6 V c 2 t) (iblk6 V c 3 t) (iblk6 V c 4 t) (iblk6 V c 5 t) (iblk6 V c 6 t) := by dsimp only [dat6]
theorem after6_10 (c : Dev nD) (t : Fin cfg6.N) : (dat6 V c).after 10 t = out6_10 (iblk6 V c 0 t) (iblk6 V c 1 t) (iblk6 V c 2 t) (iblk6 V c 3 t) (iblk6 V c 4 t) (iblk6 V c 5 t) (iblk6 V c 6 t) (iblk6 V c 7 t) := by dsimp only [dat6]
theorem after6_11 (c : Dev nD) (t : Fin cfg6.N) : (dat6 V c).after 11 t = out6_11 (iblk6 V c 0 t) (iblk6 V c 1 t) (iblk6 V c 2 t) (iblk6 V c 3 t) (iblk6 V c 4 t) (iblk6 V c 5 t) (iblk6 V c 6 t) (iblk6 V c 8 t) := by dsimp only [dat6]

/-! Each input's current staging buffer holds the window's block at every point, whether the block was fetched at
    that point or is still there from the first point (the seven weight windows' block index never moves, so the
    block of the first point is the block of every point). -/
theorem found6_0 (c : Dev nD) (t : Fin cfg6.N) (d) : (dat6 V c).before 0 t d = iblk6 V c 0 t :=
  ((dat6 V c).before_in_eq_fetched 0 rfl (fun _ => rfl) (fun _ _ _ => rfl)
    (fun t => by rw [after6_0]; unfold Dat.blockOf iblk6; rw [A_eq6]; try rfl) t d).trans
    (by unfold Dat.fetched Dat.blockOf iblk6; rw [A_eq6]; try rfl)
theorem found6_1 (c : Dev nD) (t : Fin cfg6.N) (d) : (dat6 V c).before 1 t d = iblk6 V c 1 t :=
  ((dat6 V c).before_in_eq_fetched 1 rfl (fun _ => rfl) (fun _ _ _ => rfl)
    (fun t => by rw [after6_1]; unfold Dat.blockOf iblk6; rw [A_eq6]; try rfl) t d).trans
    (by unfold Dat.fetched Dat.blockOf iblk6; rw [A_eq6]; try rfl)
theorem found6_2 (c : Dev nD) (t : Fin cfg6.N) (d) : (dat6 V c).before 2 t d = iblk6 V c 2 t :=
  ((dat6 V c).before_in_eq_fetched 2 rfl (fun _ => rfl) (fun _ _ _ => rfl)
    (fun t => by rw [after6_2]; unfold Dat.blockOf iblk6; rw [A_eq6]; try rfl) t d).trans
    (by unfold Dat.fetched Dat.blockOf iblk6; rw [A_eq6]; try rfl)
theorem found6_3 (c : Dev nD) (t : Fin cfg6.N) (d) : (dat6 V c).before 3 t d = iblk6 V c 3 t :=
  ((dat6 V c).before_in_eq_fetched 3 rfl (fun _ => rfl) (fun _ _ _ => rfl)
    (fun t => by rw [after6_3]; unfold Dat.blockOf iblk6; rw [A_eq6]; try rfl) t d).trans
    (by unfold Dat.fetched Dat.blockOf iblk6; rw [A_eq6]; try rfl)
theorem found6_4 (c : Dev nD) (t : Fin cfg6.N) (d) : (dat6 V c).before 4 t d = iblk6 V c 4 t :=
  ((dat6 V c).before_in_eq_fetched 4 rfl (fun _ => rfl) (fun _ _ _ => rfl)
    (fun t => by rw [after6_4]; unfold Dat.blockOf iblk6; rw [A_eq6]; try rfl) t d).trans
    (by unfold Dat.fetched Dat.blockOf iblk6; rw [A_eq6]; try rfl)
theorem found6_5 (c : Dev nD) (t : Fin cfg6.N) (d) : (dat6 V c).before 5 t d = iblk6 V c 5 t :=
  ((dat6 V c).before_in_eq_fetched 5 rfl (fun _ => rfl) (fun _ _ _ => rfl)
    (fun t => by rw [after6_5]; unfold Dat.blockOf iblk6; rw [A_eq6]; try rfl) t d).trans
    (by unfold Dat.fetched Dat.blockOf iblk6; rw [A_eq6]; try rfl)
theorem found6_6 (c : Dev nD) (t : Fin cfg6.N) (d) : (dat6 V c).before 6 t d = iblk6 V c 6 t :=
  ((dat6 V c).before_in_eq_fetched 6 rfl (fun _ => rfl) (fun _ _ _ => rfl)
    (fun t => by rw [after6_6]; unfold Dat.blockOf iblk6; rw [A_eq6]; try rfl) t d).trans
    (by unfold Dat.fetched Dat.blockOf iblk6; rw [A_eq6]; try rfl)
theorem found6_7 (c : Dev nD) (t : Fin cfg6.N) (d) : (dat6 V c).before 7 t d = iblk6 V c 7 t :=
  ((dat6 V c).before_in_eq_fetched 7 rfl (fun _ => rfl) (fun _ _ _ => rfl)
    (fun t => by rw [after6_7]; unfold Dat.blockOf iblk6; rw [A_eq6]; try rfl) t d).trans
    (by unfold Dat.fetched Dat.blockOf iblk6; rw [A_eq6]; try rfl)
theorem found6_8 (c : Dev nD) (t : Fin cfg6.N) (d) : (dat6 V c).before 8 t d = iblk6 V c 8 t :=
  ((dat6 V c).before_in_eq_fetched 8 rfl (fun _ => rfl) (fun _ _ _ => rfl)
    (fun t => by rw [after6_8]; unfold Dat.blockOf iblk6; rw [A_eq6]; try rfl) t d).trans
    (by unfold Dat.fetched Dat.blockOf iblk6; rw [A_eq6]; try rfl)

/-! ## The body obligation -/

/-- What the body is called with at point `t`: the invariant, the debts, and the twelve staging buffers. -/
noncomputable def pre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d))
    ∗ (∃ d, owns (c : Thread nD τ) (st6_9 t) fullShare ((dat6 V c).before 9 t d))
    ∗ (∃ d, owns (c : Thread nD τ) (st6_10 t) fullShare ((dat6 V c).before 10 t d))
    ∗ (∃ d, owns (c : Thread nD τ) (st6_11 t) fullShare ((dat6 V c).before 11 t d)))

/-- What it returns. -/
noncomputable def post6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ owns (c : Thread nD τ) (st6_8 t) fullShare ((dat6 V c).after 8 t)
    ∗ owns (c : Thread nD τ) (st6_9 t) fullShare ((dat6 V c).after 9 t)
    ∗ owns (c : Thread nD τ) (st6_10 t) fullShare ((dat6 V c).after 10 t)
    ∗ owns (c : Thread nD τ) (st6_11 t) fullShare ((dat6 V c).after 11 t))

/-- The body at any point: the input buffers hold their blocks, so the body's triple applies; the invariant and the
    debts pass through untouched. -/
theorem steps6 (c : Dev nD) (t : Fin cfg6.N) :
    pre6 V c t ⊢ wp frame (wpE (defs₀ (F := F)) Variants.none c none) Set.univ (bodyAt6 t) (fun _ => post6 V c t) := by
  unfold pre6 post6 bodyAt6
  simp only [found6_0, found6_1, found6_2, found6_3, found6_4, found6_5, found6_6, found6_7, found6_8]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8, after6_9, after6_10, after6_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (runs6 c Set.univ _ _ _ _ _ _ _ _ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) (iblk6 V c 7 t) (iblk6 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation6 (c : Dev nD) : BodyObligation (dat6 (F := F) V c) (defs₀ (F := F)) Variants.none () Set.univ := fun t => by
  rw [bigSep_W6, bigSep_W6]
  exact steps6 V c t

end Cert.KernelIdeal.Hand

end
-- ==== Proof.KI.Reg7.lean ====
/-
  Region 7 of @main, the frame half: the edge-message kernel of a message-passing layer on its grid of 20 points.
  At a parameter V (the TensorCore's buffer contents when the region is entered) this file gives each window's block
  at a point, the contents of the result's staging buffer after the body (its one whole-block store of the payload of
  the seven loaded blocks), the body's triple on whole staging buffers, the pipeline's proof data and the body
  obligation at every point. Generic in the float instance.
-/
import proofs.«152161_j29669634081217_2_alg».proof.Proof.Gen.KernelIdeal.Launch
import proofs.«152161_j29669634081217_2_alg».proof.Proof.Gen.KernelIdeal.Skeleton
import proofs.«152161_j29669634081217_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 8000 rows: the structural look recurses once per coordinate of the long axis
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
noncomputable def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! An input window's current staging buffer holds its block at every point, fetched there or not (the three edge
    arrays are fetched at every point, the four weight arrays at the first only: where a window is not fetched its
    block index has not moved), for any proof data whose array is V's and whose body leaves the block in place. -/

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: every load and the one store take a whole staging buffer -/

noncomputable abbrev r7_0 : Rect S8000x128 := Rect.unit (s := S8000x128) ![0, 0] S8000x128.size inb_S8000x128_S8000x128_0_0
noncomputable abbrev r7_1 : Rect S128x128 := Rect.unit (s := S128x128) ![0, 0] S128x128.size inb_S128x128_S128x128_0_0
noncomputable abbrev r7_2 : Rect S1x128 := Rect.unit (s := S1x128) ![0, 0] S1x128.size inb_S1x128_S1x128_0_0

/-! ## What the body leaves in the result window's buffer -/

/-- Window 7's staging buffer after the body, from the seven input windows' blocks (in window order: the edge
    features, the two gathered node terms, the first weight and bias, the second weight and bias): its one store. -/
noncomputable def out7_7 (x0 x1 x2 : Vec F S8000x128 .bf16) (x3 : Vec F S128x128 .f32) (x4 : Vec F S1x128 .f32)
    (x5 : Vec F S128x128 .f32) (x6 : Vec F S1x128 .f32) : Vec F S8000x128 .f32 :=
  View.canon [⟨r7_0, k7_pay1 (View.ld x0 r7_0) (View.ld x3 r7_1) (View.ld x1 r7_0) (View.ld x2 r7_0) (View.ld x4 r7_2)
    (View.ld x5 r7_1) (View.ld x6 r7_2)⟩]

/-- The store takes the whole buffer, so it covers it. -/
theorem cover7_7 (p0 : Vec F S8000x128 .f32) (y : S8000x128.Idx) :
    ∃ pc ∈ ([⟨r7_0, p0⟩] : List (View.Piece (Elt F) S8000x128 .f32)), y ∈ pc.1.set :=
  View.cover_of_tiled [⟨r7_0, p0⟩] S8000x128.size (by rfl) y

/-! ## The body's triple -/

set_option maxHeartbeats 4000000 in
/-- The kernel body on whole staging memrefs, the inputs' at read contents and the result's at anything, runs to the
    continuation holding the inputs' as they were and the result's at out7_7 of the inputs': the printed function is
    its skeleton, eight loads (the last one, of the result buffer, is never used) and one store. -/
theorem sound_kernel7 (c : Dev nD) (E : Set ℕ) (i : grid7.Coords)
    (arg1 : Memref sig .tc .vmem S8000x128 .bf16) (harg1 : arg1.IsWhole) (arg2 : Memref sig .tc .vmem S8000x128 .bf16) (harg2 : arg2.IsWhole)
    (arg3 : Memref sig .tc .vmem S8000x128 .bf16) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S8000x128 .f32) (harg8 : arg8.IsWhole)
    (x0 x1 x2 : Vec F S8000x128 .bf16) (x3 : Vec F S128x128 .f32) (x4 : Vec F S1x128 .f32)
    (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out7_7 x0 x1 x2 x3 x4 x5 x6)) -∗ K ⟨⟩))
      ⊢ wp frame (wpE (defs₀ (F := F)) Variants.none c none) E
          (cc7__edge_message_kernel i arg1 harg1 arg2 harg2 arg3 harg3 arg4 harg4 arg5 harg5 arg6 harg6 arg7 harg7 arg8 harg8) K := by
  simp only [cc7__edge_message_kernel_eq_skeleton]; unfold cc7__edge_message_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7_7 _)

/-! ## The pipeline's proof data -/

/-- The proof data of pipeline 7 on core c: the arrays as the region finds them; after the body at point t each
    input's buffer at its block and the result's at out7_7 of the input blocks; the invariant is the scoped rest and
    the generator register, untouched; nothing owed; full shares. -/
noncomputable def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => out7_7 (iblk7 V c 0 t) (iblk7 V c 1 t) (iblk7 V c 2 t) (iblk7 V c 3 t) (iblk7 V c 4 t) (iblk7 V c 5 t) (iblk7 V c 6 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t =
    out7_7 (iblk7 V c 0 t) (iblk7 V c 1 t) (iblk7 V c 2 t) (iblk7 V c 3 t) (iblk7 V c 4 t) (iblk7 V c 5 t) (iblk7 V c 6 t) := by
  dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d

/-! ## The body obligation, at a generic point -/

/-- What the body is called with at point t, the windows one by one, -/
noncomputable def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d)))

/-- and what it returns. -/
noncomputable def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t))

set_option maxHeartbeats 1000000 in
/-- The body at any point: the inputs' memrefs hold their blocks, so the triple applies; the invariant and the core's
    debts pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel7 c Set.univ _ _ _ _ _ _ _ _ _ _ _ _ _ _ _ _ _ (iblk7 V c 0 t) (iblk7 V c 1 t) (iblk7 V c 2 t) (iblk7 V c 3 t)
    (iblk7 V c 4 t) (iblk7 V c 5 t) (iblk7 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.Reg8.lean ====
/-
  Region 8 of @main, the node-update kernel of the third message-passing layer, at an arbitrary content V of the
  TensorCore's buffers when the region is entered, for any float instance.

  The kernel reads nine windows (the node features and the aggregated messages in blocks of 4000 rows, then seven
  weight arrays each fetched whole once) and writes three (the new features, and their two projections for the next
  layer), each result block through one store that fills it.  This file states what each staging buffer holds after
  the body ran at a grid point, proves the body's separation-logic triple by running its memory operations, and
  packages both as the pipeline's body obligation.
-/
import proofs.«152161_j29669634081217_2_alg».proof.Proof.Gen.KernelIdeal.Launch
import proofs.«152161_j29669634081217_2_alg».proof.Proof.Gen.KernelIdeal.Skeleton
import proofs.«152161_j29669634081217_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows show -/

/-- The block of window w at grid point t, cut out of the window's array as the region finds it. -/
noncomputable def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! ## The three rectangles the body touches: every access is of a whole staging buffer -/

/-- All of a 4000 × 128 buffer (a block of rows, and each result block). -/
noncomputable abbrev rowsAll8 : Rect S4000x128 := Rect.unit (s := S4000x128) ![0, 0] S4000x128.size inb_S4000x128_S4000x128_0_0
/-- All of a 128 × 128 buffer (a weight matrix). -/
noncomputable abbrev matAll8 : Rect S128x128 := Rect.unit (s := S128x128) ![0, 0] S128x128.size inb_S128x128_S128x128_0_0
/-- All of a 1 × 128 buffer (a bias). -/
noncomputable abbrev biasAll8 : Rect S1x128 := Rect.unit (s := S1x128) ![0, 0] S1x128.size inb_S1x128_S1x128_0_0

/-! ## What the body leaves in the three result buffers -/

/-- The new features, in single precision: the residual update of the features block `h` by the messages block
    `g`, through the five weight arrays of the update. -/
noncomputable def out8_9 (h g : Vec F S4000x128 .f32) (wh wa : Vec F S128x128 .f32) (b1 : Vec F S1x128 .f32)
    (w2 : Vec F S128x128 .f32) (b2 : Vec F S1x128 .f32) : Vec F S4000x128 .f32 :=
  View.canon [⟨rowsAll8, k8_pay3 (View.ld h rowsAll8) (View.ld wh matAll8) (View.ld g rowsAll8) (View.ld wa matAll8)
    (View.ld b1 biasAll8) (View.ld w2 matAll8) (View.ld b2 biasAll8)⟩]

/-- The new features' projection by the next layer's source-side matrix `ws`, in half precision. -/
noncomputable def out8_10 (h g : Vec F S4000x128 .f32) (wh wa : Vec F S128x128 .f32) (b1 : Vec F S1x128 .f32)
    (w2 : Vec F S128x128 .f32) (b2 : Vec F S1x128 .f32) (ws : Vec F S128x128 .f32) : Vec F S4000x128 .bf16 :=
  View.canon [⟨rowsAll8, k8_pay1 (k8_pay4 (View.ld h rowsAll8) (View.ld wh matAll8) (View.ld g rowsAll8) (View.ld wa matAll8)
    (View.ld b1 biasAll8) (View.ld w2 matAll8) (View.ld b2 biasAll8)) (k8_pay5 (View.ld ws matAll8))⟩]

/-- The new features' projection by the next layer's destination-side matrix `wd`, in half precision. -/
noncomputable def out8_11 (h g : Vec F S4000x128 .f32) (wh wa : Vec F S128x128 .f32) (b1 : Vec F S1x128 .f32)
    (w2 : Vec F S128x128 .f32) (b2 : Vec F S1x128 .f32) (wd : Vec F S128x128 .f32) : Vec F S4000x128 .bf16 :=
  View.canon [⟨rowsAll8, k8_pay2 (k8_pay4 (View.ld h rowsAll8) (View.ld wh matAll8) (View.ld g rowsAll8) (View.ld wa matAll8)
    (View.ld b1 biasAll8) (View.ld w2 matAll8) (View.ld b2 biasAll8)) (View.ld wd matAll8)⟩]

/-- One store through the whole-buffer rectangle covers the buffer: single precision. -/
theorem fills8_f32 (p : Vec F S4000x128 .f32) (y : S4000x128.Idx) :
    ∃ pc ∈ ([⟨rowsAll8, p⟩] : List (View.Piece (Elt F) S4000x128 .f32)), y ∈ pc.1.set :=
  View.cover_of_tiled [⟨rowsAll8, p⟩] S4000x128.size (by rfl) y

/-- One store through the whole-buffer rectangle covers the buffer: half precision. -/
theorem fills8_bf16 (p : Vec F S4000x128 .bf16) (y : S4000x128.Idx) :
    ∃ pc ∈ ([⟨rowsAll8, p⟩] : List (View.Piece (Elt F) S4000x128 .bf16)), y ∈ pc.1.set :=
  View.cover_of_tiled [⟨rowsAll8, p⟩] S4000x128.size (by rfl) y

/-! ## The body's triple -/

set_option maxHeartbeats 4000000 in
/-- The body on whole staging buffers, the nine inputs' reading `x0 … x8` and the three results' holding anything, runs
    to a state where the inputs' are as they were and each result's holds its `out8_w` of the inputs: the printed body
    and its printed part are their skeletons of memory operations, which are run one after the other; each result
    buffer ends as one write over its earlier content, and that write fills it. -/
theorem runs8 (c : Dev nD) (E : Set ℕ) (i : grid8.Coords) (a0 : Memref sig .tc .vmem S4000x128 .f32) (ha0 : a0.IsWhole) (a1 : Memref sig .tc .vmem S4000x128 .f32) (ha1 : a1.IsWhole) (a2 : Memref sig .tc .vmem S128x128 .f32) (ha2 : a2.IsWhole) (a3 : Memref sig .tc .vmem S128x128 .f32) (ha3 : a3.IsWhole) (a4 : Memref sig .tc .vmem S1x128 .f32) (ha4 : a4.IsWhole) (a5 : Memref sig .tc .vmem S128x128 .f32) (ha5 : a5.IsWhole) (a6 : Memref sig .tc .vmem S1x128 .f32) (ha6 : a6.IsWhole) (a7 : Memref sig .tc .vmem S128x128 .f32) (ha7 : a7.IsWhole) (a8 : Memref sig .tc .vmem S128x128 .f32) (ha8 : a8.IsWhole) (a9 : Memref sig .tc .vmem S4000x128 .f32) (ha9 : a9.IsWhole) (a10 : Memref sig .tc .vmem S4000x128 .bf16) (ha10 : a10.IsWhole) (a11 : Memref sig .tc .vmem S4000x128 .bf16) (ha11 : a11.IsWhole)
    (x0 : Vec F S4000x128 .f32) (x1 : Vec F S4000x128 .f32) (x2 : Vec F S128x128 .f32) (x3 : Vec F S128x128 .f32) (x4 : Vec F S1x128 .f32) (x5 : Vec F S128x128 .f32) (x6 : Vec F S1x128 .f32) (x7 : Vec F S128x128 .f32) (x8 : Vec F S128x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d) ∗ (∃ d, owns (c : Thread nD τ) a10 fullShare d) ∗ (∃ d, owns (c : Thread nD τ) a11 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare (out8_9 x0 x1 x2 x3 x4 x5 x6) ∗ owns (c : Thread nD τ) a10 fullShare (out8_10 x0 x1 x2 x3 x4 x5 x6 x7) ∗ owns (c : Thread nD τ) a11 fullShare (out8_11 x0 x1 x2 x3 x4 x5 x6 x8)) -∗ K ⟨⟩))
      ⊢ wp frame (wpE (defs₀ (F := F)) Variants.none c none) E (cc8__node_update_ab_kernel i a0 ha0 a1 ha1 a2 ha2 a3 ha3 a4 ha4 a5 ha5 a6 ha6 a7 ha7 a8 ha8 a9 ha9 a10 ha10 a11 ha11) K := by
  simp only [cc8__node_update_ab_kernel_eq_skeleton]; unfold cc8__node_update_ab_kernel_skel
  simp only [k8_part1_eq_skeleton]; unfold k8_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (fills8_f32 _)
  isplitl [H10]
  · iexists _; isplitr
    swap; · iexact H10
    ipureintro
    try dsimp only
    exact View.read_writes_eq_canon _ _ _ (fills8_bf16 _)
  iexists _; isplitr
  swap; · iexact H11
  ipureintro
  try dsimp only
  exact View.read_writes_eq_canon _ _ _ (fills8_bf16 _)

/-! ## The pipeline's proof data -/

/-- The proof data of this region's pipeline on core `c`: the arrays as the region finds them; after the body at
    point `t` each input's staging buffer still at its block and each result's at its `out8_w` of the input blocks;
    the invariant that nothing else is touched; full shares; nothing owed. -/
noncomputable def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => out8_9 (iblk8 V c 0 t) (iblk8 V c 1 t) (iblk8 V c 2 t) (iblk8 V c 3 t) (iblk8 V c 4 t) (iblk8 V c 5 t) (iblk8 V c 6 t)
    | ⟨10, _⟩ => out8_10 (iblk8 V c 0 t) (iblk8 V c 1 t) (iblk8 V c 2 t) (iblk8 V c 3 t) (iblk8 V c 4 t) (iblk8 V c 5 t) (iblk8 V c 6 t) (iblk8 V c 7 t)
    | ⟨11, _⟩ => out8_11 (iblk8 V c 0 t) (iblk8 V c 1 t) (iblk8 V c 2 t) (iblk8 V c 3 t) (iblk8 V c 4 t) (iblk8 V c 5 t) (iblk8 V c 6 t) (iblk8 V c 8 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-! What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = iblk8 V c 7 t := by dsimp only [dat8]
theorem after8_8 (c : Dev nD) (t : Fin cfg8.N) : (dat8 V c).after 8 t = iblk8 V c 8 t := by dsimp only [dat8]
theorem after8_9 (c : Dev nD) (t : Fin cfg8.N) : (dat8 V c).after 9 t = out8_9 (iblk8 V c 0 t) (iblk8 V c 1 t) (iblk8 V c 2 t) (iblk8 V c 3 t) (iblk8 V c 4 t) (iblk8 V c 5 t) (iblk8 V c 6 t) := by dsimp only [dat8]
theorem after8_10 (c : Dev nD) (t : Fin cfg8.N) : (dat8 V c).after 10 t = out8_10 (iblk8 V c 0 t) (iblk8 V c 1 t) (iblk8 V c 2 t) (iblk8 V c 3 t) (iblk8 V c 4 t) (iblk8 V c 5 t) (iblk8 V c 6 t) (iblk8 V c 7 t) := by dsimp only [dat8]
theorem after8_11 (c : Dev nD) (t : Fin cfg8.N) : (dat8 V c).after 11 t = out8_11 (iblk8 V c 0 t) (iblk8 V c 1 t) (iblk8 V c 2 t) (iblk8 V c 3 t) (iblk8 V c 4 t) (iblk8 V c 5 t) (iblk8 V c 6 t) (iblk8 V c 8 t) := by dsimp only [dat8]

/-! Each input's current staging buffer holds the window's block at every point, whether the block was fetched at
    that point or is still there from the first point (the seven weight windows' block index never moves, so the
    block of the first point is the block of every point). -/
theorem found8_0 (c : Dev nD) (t : Fin cfg8.N) (d) : (dat8 V c).before 0 t d = iblk8 V c 0 t :=
  ((dat8 V c).before_in_eq_fetched 0 rfl (fun _ => rfl) (fun _ _ _ => rfl)
    (fun t => by rw [after8_0]; unfold Dat.blockOf iblk8; rw [A_eq8]; try rfl) t d).trans
    (by unfold Dat.fetched Dat.blockOf iblk8; rw [A_eq8]; try rfl)
theorem found8_1 (c : Dev nD) (t : Fin cfg8.N) (d) : (dat8 V c).before 1 t d = iblk8 V c 1 t :=
  ((dat8 V c).before_in_eq_fetched 1 rfl (fun _ => rfl) (fun _ _ _ => rfl)
    (fun t => by rw [after8_1]; unfold Dat.blockOf iblk8; rw [A_eq8]; try rfl) t d).trans
    (by unfold Dat.fetched Dat.blockOf iblk8; rw [A_eq8]; try rfl)
theorem found8_2 (c : Dev nD) (t : Fin cfg8.N) (d) : (dat8 V c).before 2 t d = iblk8 V c 2 t :=
  ((dat8 V c).before_in_eq_fetched 2 rfl (fun _ => rfl) (fun _ _ _ => rfl)
    (fun t => by rw [after8_2]; unfold Dat.blockOf iblk8; rw [A_eq8]; try rfl) t d).trans
    (by unfold Dat.fetched Dat.blockOf iblk8; rw [A_eq8]; try rfl)
theorem found8_3 (c : Dev nD) (t : Fin cfg8.N) (d) : (dat8 V c).before 3 t d = iblk8 V c 3 t :=
  ((dat8 V c).before_in_eq_fetched 3 rfl (fun _ => rfl) (fun _ _ _ => rfl)
    (fun t => by rw [after8_3]; unfold Dat.blockOf iblk8; rw [A_eq8]; try rfl) t d).trans
    (by unfold Dat.fetched Dat.blockOf iblk8; rw [A_eq8]; try rfl)
theorem found8_4 (c : Dev nD) (t : Fin cfg8.N) (d) : (dat8 V c).before 4 t d = iblk8 V c 4 t :=
  ((dat8 V c).before_in_eq_fetched 4 rfl (fun _ => rfl) (fun _ _ _ => rfl)
    (fun t => by rw [after8_4]; unfold Dat.blockOf iblk8; rw [A_eq8]; try rfl) t d).trans
    (by unfold Dat.fetched Dat.blockOf iblk8; rw [A_eq8]; try rfl)
theorem found8_5 (c : Dev nD) (t : Fin cfg8.N) (d) : (dat8 V c).before 5 t d = iblk8 V c 5 t :=
  ((dat8 V c).before_in_eq_fetched 5 rfl (fun _ => rfl) (fun _ _ _ => rfl)
    (fun t => by rw [after8_5]; unfold Dat.blockOf iblk8; rw [A_eq8]; try rfl) t d).trans
    (by unfold Dat.fetched Dat.blockOf iblk8; rw [A_eq8]; try rfl)
theorem found8_6 (c : Dev nD) (t : Fin cfg8.N) (d) : (dat8 V c).before 6 t d = iblk8 V c 6 t :=
  ((dat8 V c).before_in_eq_fetched 6 rfl (fun _ => rfl) (fun _ _ _ => rfl)
    (fun t => by rw [after8_6]; unfold Dat.blockOf iblk8; rw [A_eq8]; try rfl) t d).trans
    (by unfold Dat.fetched Dat.blockOf iblk8; rw [A_eq8]; try rfl)
theorem found8_7 (c : Dev nD) (t : Fin cfg8.N) (d) : (dat8 V c).before 7 t d = iblk8 V c 7 t :=
  ((dat8 V c).before_in_eq_fetched 7 rfl (fun _ => rfl) (fun _ _ _ => rfl)
    (fun t => by rw [after8_7]; unfold Dat.blockOf iblk8; rw [A_eq8]; try rfl) t d).trans
    (by unfold Dat.fetched Dat.blockOf iblk8; rw [A_eq8]; try rfl)
theorem found8_8 (c : Dev nD) (t : Fin cfg8.N) (d) : (dat8 V c).before 8 t d = iblk8 V c 8 t :=
  ((dat8 V c).before_in_eq_fetched 8 rfl (fun _ => rfl) (fun _ _ _ => rfl)
    (fun t => by rw [after8_8]; unfold Dat.blockOf iblk8; rw [A_eq8]; try rfl) t d).trans
    (by unfold Dat.fetched Dat.blockOf iblk8; rw [A_eq8]; try rfl)

/-! ## The body obligation -/

/-- What the body is called with at point `t`: the invariant, the debts, and the twelve staging buffers. -/
noncomputable def pre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d))
    ∗ (∃ d, owns (c : Thread nD τ) (st8_8 t) fullShare ((dat8 V c).before 8 t d))
    ∗ (∃ d, owns (c : Thread nD τ) (st8_9 t) fullShare ((dat8 V c).before 9 t d))
    ∗ (∃ d, owns (c : Thread nD τ) (st8_10 t) fullShare ((dat8 V c).before 10 t d))
    ∗ (∃ d, owns (c : Thread nD τ) (st8_11 t) fullShare ((dat8 V c).before 11 t d)))

/-- What it returns. -/
noncomputable def post8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t)
    ∗ owns (c : Thread nD τ) (st8_8 t) fullShare ((dat8 V c).after 8 t)
    ∗ owns (c : Thread nD τ) (st8_9 t) fullShare ((dat8 V c).after 9 t)
    ∗ owns (c : Thread nD τ) (st8_10 t) fullShare ((dat8 V c).after 10 t)
    ∗ owns (c : Thread nD τ) (st8_11 t) fullShare ((dat8 V c).after 11 t))

/-- The body at any point: the input buffers hold their blocks, so the body's triple applies; the invariant and the
    debts pass through untouched. -/
theorem steps8 (c : Dev nD) (t : Fin cfg8.N) :
    pre8 V c t ⊢ wp frame (wpE (defs₀ (F := F)) Variants.none c none) Set.univ (bodyAt8 t) (fun _ => post8 V c t) := by
  unfold pre8 post8 bodyAt8
  simp only [found8_0, found8_1, found8_2, found8_3, found8_4, found8_5, found8_6, found8_7, found8_8]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7, after8_8, after8_9, after8_10, after8_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (runs8 c Set.univ _ _ _ _ _ _ _ _ _ _ _ _ _ _ _ _ _ _ _ _ _ _ _ _ _ (iblk8 V c 0 t) (iblk8 V c 1 t) (iblk8 V c 2 t) (iblk8 V c 3 t) (iblk8 V c 4 t) (iblk8 V c 5 t) (iblk8 V c 6 t) (iblk8 V c 7 t) (iblk8 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation8 (c : Dev nD) : BodyObligation (dat8 (F := F) V c) (defs₀ (F := F)) Variants.none () Set.univ := fun t => by
  rw [bigSep_W8, bigSep_W8]
  exact steps8 V c t

end Cert.KernelIdeal.Hand

end
-- ==== Proof.KI.Reg9.lean ====
/-
  Region 9 of @main, the frame half: the edge-message kernel of a message-passing layer on its grid of 20 points.
  At a parameter V (the TensorCore's buffer contents when the region is entered) this file gives each window's block
  at a point, the contents of the result's staging buffer after the body (its one whole-block store of the payload of
  the seven loaded blocks), the body's triple on whole staging buffers, the pipeline's proof data and the body
  obligation at every point. Generic in the float instance.
-/
import proofs.«152161_j29669634081217_2_alg».proof.Proof.Gen.KernelIdeal.Launch
import proofs.«152161_j29669634081217_2_alg».proof.Proof.Gen.KernelIdeal.Skeleton
import proofs.«152161_j29669634081217_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 8000 rows: the structural look recurses once per coordinate of the long axis
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
noncomputable def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-! An input window's current staging buffer holds its block at every point, fetched there or not (the three edge
    arrays are fetched at every point, the four weight arrays at the first only: where a window is not fetched its
    block index has not moved), for any proof data whose array is V's and whose body leaves the block in place. -/

theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

theorem before9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)

theorem before9_6_of {c : Dev nD} (dat : Dat τ (Elt F) Unit ℕ (UR sig nD τ) ℕ cfg9 c) (hA : dat.A 6 = V c (Pipeline.arrRef spec9 6))
    (hafter : ∀ t, dat.after 6 t = iblk9 V c 6 t) (t : Fin cfg9.N) (d) : dat.before 6 t d = iblk9 V c 6 t :=
  (dat.before_in_eq_fetched 6 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: every load and the one store take a whole staging buffer -/

noncomputable abbrev r9_0 : Rect S8000x128 := Rect.unit (s := S8000x128) ![0, 0] S8000x128.size inb_S8000x128_S8000x128_0_0
noncomputable abbrev r9_1 : Rect S128x128 := Rect.unit (s := S128x128) ![0, 0] S128x128.size inb_S128x128_S128x128_0_0
noncomputable abbrev r9_2 : Rect S1x128 := Rect.unit (s := S1x128) ![0, 0] S1x128.size inb_S1x128_S1x128_0_0

/-! ## What the body leaves in the result window's buffer -/

/-- Window 7's staging buffer after the body, from the seven input windows' blocks (in window order: the edge
    features, the two gathered node terms, the first weight and bias, the second weight and bias): its one store. -/
noncomputable def out9_7 (x0 x1 x2 : Vec F S8000x128 .bf16) (x3 : Vec F S128x128 .f32) (x4 : Vec F S1x128 .f32)
    (x5 : Vec F S128x128 .f32) (x6 : Vec F S1x128 .f32) : Vec F S8000x128 .f32 :=
  View.canon [⟨r9_0, k9_pay1 (View.ld x0 r9_0) (View.ld x3 r9_1) (View.ld x1 r9_0) (View.ld x2 r9_0) (View.ld x4 r9_2)
    (View.ld x5 r9_1) (View.ld x6 r9_2)⟩]

/-- The store takes the whole buffer, so it covers it. -/
theorem cover9_7 (p0 : Vec F S8000x128 .f32) (y : S8000x128.Idx) :
    ∃ pc ∈ ([⟨r9_0, p0⟩] : List (View.Piece (Elt F) S8000x128 .f32)), y ∈ pc.1.set :=
  View.cover_of_tiled [⟨r9_0, p0⟩] S8000x128.size (by rfl) y

/-! ## The body's triple -/

set_option maxHeartbeats 4000000 in
/-- The kernel body on whole staging memrefs, the inputs' at read contents and the result's at anything, runs to the
    continuation holding the inputs' as they were and the result's at out9_7 of the inputs': the printed function is
    its skeleton, eight loads (the last one, of the result buffer, is never used) and one store. -/
theorem sound_kernel9 (c : Dev nD) (E : Set ℕ) (i : grid9.Coords)
    (arg1 : Memref sig .tc .vmem S8000x128 .bf16) (harg1 : arg1.IsWhole) (arg2 : Memref sig .tc .vmem S8000x128 .bf16) (harg2 : arg2.IsWhole)
    (arg3 : Memref sig .tc .vmem S8000x128 .bf16) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S8000x128 .f32) (harg8 : arg8.IsWhole)
    (x0 x1 x2 : Vec F S8000x128 .bf16) (x3 : Vec F S128x128 .f32) (x4 : Vec F S1x128 .f32)
    (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out9_7 x0 x1 x2 x3 x4 x5 x6)) -∗ K ⟨⟩))
      ⊢ wp frame (wpE (defs₀ (F := F)) Variants.none c none) E
          (cc9__edge_message_kernel i arg1 harg1 arg2 harg2 arg3 harg3 arg4 harg4 arg5 harg5 arg6 harg6 arg7 harg7 arg8 harg8) K := by
  simp only [cc9__edge_message_kernel_eq_skeleton]; unfold cc9__edge_message_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover9_7 _)

/-! ## The pipeline's proof data -/

/-- The proof data of pipeline 9 on core c: the arrays as the region finds them; after the body at point t each
    input's buffer at its block and the result's at out9_7 of the input blocks; the invariant is the scoped rest and
    the generator register, untouched; nothing owed; full shares. -/
noncomputable def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => out9_7 (iblk9 V c 0 t) (iblk9 V c 1 t) (iblk9 V c 2 t) (iblk9 V c 3 t) (iblk9 V c 4 t) (iblk9 V c 5 t) (iblk9 V c 6 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = iblk9 V c 6 t := by dsimp only [dat9]
theorem after9_7 (c : Dev nD) (t : Fin cfg9.N) : (dat9 V c).after 7 t =
    out9_7 (iblk9 V c 0 t) (iblk9 V c 1 t) (iblk9 V c 2 t) (iblk9 V c 3 t) (iblk9 V c 4 t) (iblk9 V c 5 t) (iblk9 V c 6 t) := by
  dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d
theorem before9_6 (c : Dev nD) (t : Fin cfg9.N) (d) : (dat9 V c).before 6 t d = iblk9 V c 6 t :=
  before9_6_of V (dat9 V c) (A_eq9 V c 6) (after9_6 V c) t d

/-! ## The body obligation, at a generic point -/

/-- What the body is called with at point t, the windows one by one, -/
noncomputable def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d))
    ∗ (∃ d, owns (c : Thread nD τ) (st9_7 t) fullShare ((dat9 V c).before 7 t d)))

/-- and what it returns. -/
noncomputable def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t)
    ∗ owns (c : Thread nD τ) (st9_7 t) fullShare ((dat9 V c).after 7 t))

set_option maxHeartbeats 1000000 in
/-- The body at any point: the inputs' memrefs hold their blocks, so the triple applies; the invariant and the core's
    debts pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5, before9_6]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6, after9_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel9 c Set.univ _ _ _ _ _ _ _ _ _ _ _ _ _ _ _ _ _ (iblk9 V c 0 t) (iblk9 V c 1 t) (iblk9 V c 2 t) (iblk9 V c 3 t)
    (iblk9 V c 4 t) (iblk9 V c 5 t) (iblk9 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.KI.Reg10.lean ====
/-
  Region 10 of @main, the node-update kernel of the fourth message-passing layer, at an arbitrary content V of the
  TensorCore's buffers when the region is entered, for any float instance.

  The kernel reads nine windows (the node features and the aggregated messages in blocks of 4000 rows, then seven
  weight arrays each fetched whole once) and writes three (the new features, and their two projections for the next
  layer), each result block through one store that fills it.  This file states what each staging buffer holds after
  the body ran at a grid point, proves the body's separation-logic triple by running its memory operations, and
  packages both as the pipeline's body obligation.
-/
import proofs.«152161_j29669634081217_2_alg».proof.Proof.Gen.KernelIdeal.Launch
import proofs.«152161_j29669634081217_2_alg».proof.Proof.Gen.KernelIdeal.Skeleton
import proofs.«152161_j29669634081217_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows show -/

/-- The block of window w at grid point t, cut out of the window's array as the region finds it. -/
noncomputable def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-! ## The three rectangles the body touches: every access is of a whole staging buffer -/

/-- All of a 4000 × 128 buffer (a block of rows, and each result block). -/
noncomputable abbrev rowsAll10 : Rect S4000x128 := Rect.unit (s := S4000x128) ![0, 0] S4000x128.size inb_S4000x128_S4000x128_0_0
/-- All of a 128 × 128 buffer (a weight matrix). -/
noncomputable abbrev matAll10 : Rect S128x128 := Rect.unit (s := S128x128) ![0, 0] S128x128.size inb_S128x128_S128x128_0_0
/-- All of a 1 × 128 buffer (a bias). -/
noncomputable abbrev biasAll10 : Rect S1x128 := Rect.unit (s := S1x128) ![0, 0] S1x128.size inb_S1x128_S1x128_0_0

/-! ## What the body leaves in the three result buffers -/

/-- The new features, in single precision: the residual update of the features block `h` by the messages block
    `g`, through the five weight arrays of the update. -/
noncomputable def out10_9 (h g : Vec F S4000x128 .f32) (wh wa : Vec F S128x128 .f32) (b1 : Vec F S1x128 .f32)
    (w2 : Vec F S128x128 .f32) (b2 : Vec F S1x128 .f32) : Vec F S4000x128 .f32 :=
  View.canon [⟨rowsAll10, k10_pay3 (View.ld h rowsAll10) (View.ld wh matAll10) (View.ld g rowsAll10) (View.ld wa matAll10)
    (View.ld b1 biasAll10) (View.ld w2 matAll10) (View.ld b2 biasAll10)⟩]

/-- The new features' projection by the next layer's source-side matrix `ws`, in half precision. -/
noncomputable def out10_10 (h g : Vec F S4000x128 .f32) (wh wa : Vec F S128x128 .f32) (b1 : Vec F S1x128 .f32)
    (w2 : Vec F S128x128 .f32) (b2 : Vec F S1x128 .f32) (ws : Vec F S128x128 .f32) : Vec F S4000x128 .bf16 :=
  View.canon [⟨rowsAll10, k10_pay1 (k10_pay4 (View.ld h rowsAll10) (View.ld wh matAll10) (View.ld g rowsAll10) (View.ld wa matAll10)
    (View.ld b1 biasAll10) (View.ld w2 matAll10) (View.ld b2 biasAll10)) (k10_pay5 (View.ld ws matAll10))⟩]

/-- The new features' projection by the next layer's destination-side matrix `wd`, in half precision. -/
noncomputable def out10_11 (h g : Vec F S4000x128 .f32) (wh wa : Vec F S128x128 .f32) (b1 : Vec F S1x128 .f32)
    (w2 : Vec F S128x128 .f32) (b2 : Vec F S1x128 .f32) (wd : Vec F S128x128 .f32) : Vec F S4000x128 .bf16 :=
  View.canon [⟨rowsAll10, k10_pay2 (k10_pay4 (View.ld h rowsAll10) (View.ld wh matAll10) (View.ld g rowsAll10) (View.ld wa matAll10)
    (View.ld b1 biasAll10) (View.ld w2 matAll10) (View.ld b2 biasAll10)) (View.ld wd matAll10)⟩]

/-- One store through the whole-buffer rectangle covers the buffer: single precision. -/
theorem fills10_f32 (p : Vec F S4000x128 .f32) (y : S4000x128.Idx) :
    ∃ pc ∈ ([⟨rowsAll10, p⟩] : List (View.Piece (Elt F) S4000x128 .f32)), y ∈ pc.1.set :=
  View.cover_of_tiled [⟨rowsAll10, p⟩] S4000x128.size (by rfl) y

/-- One store through the whole-buffer rectangle covers the buffer: half precision. -/
theorem fills10_bf16 (p : Vec F S4000x128 .bf16) (y : S4000x128.Idx) :
    ∃ pc ∈ ([⟨rowsAll10, p⟩] : List (View.Piece (Elt F) S4000x128 .bf16)), y ∈ pc.1.set :=
  View.cover_of_tiled [⟨rowsAll10, p⟩] S4000x128.size (by rfl) y

/-! ## The body's triple -/

set_option maxHeartbeats 4000000 in
/-- The body on whole staging buffers, the nine inputs' reading `x0 … x8` and the three results' holding anything, runs
    to a state where the inputs' are as they were and each result's holds its `out10_w` of the inputs: the printed body
    and its printed part are their skeletons of memory operations, which are run one after the other; each result
    buffer ends as one write over its earlier content, and that write fills it. -/
theorem runs10 (c : Dev nD) (E : Set ℕ) (i : grid10.Coords) (a0 : Memref sig .tc .vmem S4000x128 .f32) (ha0 : a0.IsWhole) (a1 : Memref sig .tc .vmem S4000x128 .f32) (ha1 : a1.IsWhole) (a2 : Memref sig .tc .vmem S128x128 .f32) (ha2 : a2.IsWhole) (a3 : Memref sig .tc .vmem S128x128 .f32) (ha3 : a3.IsWhole) (a4 : Memref sig .tc .vmem S1x128 .f32) (ha4 : a4.IsWhole) (a5 : Memref sig .tc .vmem S128x128 .f32) (ha5 : a5.IsWhole) (a6 : Memref sig .tc .vmem S1x128 .f32) (ha6 : a6.IsWhole) (a7 : Memref sig .tc .vmem S128x128 .f32) (ha7 : a7.IsWhole) (a8 : Memref sig .tc .vmem S128x128 .f32) (ha8 : a8.IsWhole) (a9 : Memref sig .tc .vmem S4000x128 .f32) (ha9 : a9.IsWhole) (a10 : Memref sig .tc .vmem S4000x128 .bf16) (ha10 : a10.IsWhole) (a11 : Memref sig .tc .vmem S4000x128 .bf16) (ha11 : a11.IsWhole)
    (x0 : Vec F S4000x128 .f32) (x1 : Vec F S4000x128 .f32) (x2 : Vec F S128x128 .f32) (x3 : Vec F S128x128 .f32) (x4 : Vec F S1x128 .f32) (x5 : Vec F S128x128 .f32) (x6 : Vec F S1x128 .f32) (x7 : Vec F S128x128 .f32) (x8 : Vec F S128x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d) ∗ (∃ d, owns (c : Thread nD τ) a10 fullShare d) ∗ (∃ d, owns (c : Thread nD τ) a11 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare (out10_9 x0 x1 x2 x3 x4 x5 x6) ∗ owns (c : Thread nD τ) a10 fullShare (out10_10 x0 x1 x2 x3 x4 x5 x6 x7) ∗ owns (c : Thread nD τ) a11 fullShare (out10_11 x0 x1 x2 x3 x4 x5 x6 x8)) -∗ K ⟨⟩))
      ⊢ wp frame (wpE (defs₀ (F := F)) Variants.none c none) E (cc10__node_update_ab_kernel i a0 ha0 a1 ha1 a2 ha2 a3 ha3 a4 ha4 a5 ha5 a6 ha6 a7 ha7 a8 ha8 a9 ha9 a10 ha10 a11 ha11) K := by
  simp only [cc10__node_update_ab_kernel_eq_skeleton]; unfold cc10__node_update_ab_kernel_skel
  simp only [k10_part1_eq_skeleton]; unfold k10_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (fills10_f32 _)
  isplitl [H10]
  · iexists _; isplitr
    swap; · iexact H10
    ipureintro
    try dsimp only
    exact View.read_writes_eq_canon _ _ _ (fills10_bf16 _)
  iexists _; isplitr
  swap; · iexact H11
  ipureintro
  try dsimp only
  exact View.read_writes_eq_canon _ _ _ (fills10_bf16 _)

/-! ## The pipeline's proof data -/

/-- The proof data of this region's pipeline on core `c`: the arrays as the region finds them; after the body at
    point `t` each input's staging buffer still at its block and each result's at its `out10_w` of the input blocks;
    the invariant that nothing else is touched; full shares; nothing owed. -/
noncomputable def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => iblk10 V c 6 t
    | ⟨7, _⟩ => iblk10 V c 7 t
    | ⟨8, _⟩ => iblk10 V c 8 t
    | ⟨9, _⟩ => out10_9 (iblk10 V c 0 t) (iblk10 V c 1 t) (iblk10 V c 2 t) (iblk10 V c 3 t) (iblk10 V c 4 t) (iblk10 V c 5 t) (iblk10 V c 6 t)
    | ⟨10, _⟩ => out10_10 (iblk10 V c 0 t) (iblk10 V c 1 t) (iblk10 V c 2 t) (iblk10 V c 3 t) (iblk10 V c 4 t) (iblk10 V c 5 t) (iblk10 V c 6 t) (iblk10 V c 7 t)
    | ⟨11, _⟩ => out10_11 (iblk10 V c 0 t) (iblk10 V c 1 t) (iblk10 V c 2 t) (iblk10 V c 3 t) (iblk10 V c 4 t) (iblk10 V c 5 t) (iblk10 V c 6 t) (iblk10 V c 8 t)
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-! What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = iblk10 V c 6 t := by dsimp only [dat10]
theorem after10_7 (c : Dev nD) (t : Fin cfg10.N) : (dat10 V c).after 7 t = iblk10 V c 7 t := by dsimp only [dat10]
theorem after10_8 (c : Dev nD) (t : Fin cfg10.N) : (dat10 V c).after 8 t = iblk10 V c 8 t := by dsimp only [dat10]
theorem after10_9 (c : Dev nD) (t : Fin cfg10.N) : (dat10 V c).after 9 t = out10_9 (iblk10 V c 0 t) (iblk10 V c 1 t) (iblk10 V c 2 t) (iblk10 V c 3 t) (iblk10 V c 4 t) (iblk10 V c 5 t) (iblk10 V c 6 t) := by dsimp only [dat10]
theorem after10_10 (c : Dev nD) (t : Fin cfg10.N) : (dat10 V c).after 10 t = out10_10 (iblk10 V c 0 t) (iblk10 V c 1 t) (iblk10 V c 2 t) (iblk10 V c 3 t) (iblk10 V c 4 t) (iblk10 V c 5 t) (iblk10 V c 6 t) (iblk10 V c 7 t) := by dsimp only [dat10]
theorem after10_11 (c : Dev nD) (t : Fin cfg10.N) : (dat10 V c).after 11 t = out10_11 (iblk10 V c 0 t) (iblk10 V c 1 t) (iblk10 V c 2 t) (iblk10 V c 3 t) (iblk10 V c 4 t) (iblk10 V c 5 t) (iblk10 V c 6 t) (iblk10 V c 8 t) := by dsimp only [dat10]

/-! Each input's current staging buffer holds the window's block at every point, whether the block was fetched at
    that point or is still there from the first point (the seven weight windows' block index never moves, so the
    block of the first point is the block of every point). -/
theorem found10_0 (c : Dev nD) (t : Fin cfg10.N) (d) : (dat10 V c).before 0 t d = iblk10 V c 0 t :=
  ((dat10 V c).before_in_eq_fetched 0 rfl (fun _ => rfl) (fun _ _ _ => rfl)
    (fun t => by rw [after10_0]; unfold Dat.blockOf iblk10; rw [A_eq10]; try rfl) t d).trans
    (by unfold Dat.fetched Dat.blockOf iblk10; rw [A_eq10]; try rfl)
theorem found10_1 (c : Dev nD) (t : Fin cfg10.N) (d) : (dat10 V c).before 1 t d = iblk10 V c 1 t :=
  ((dat10 V c).before_in_eq_fetched 1 rfl (fun _ => rfl) (fun _ _ _ => rfl)
    (fun t => by rw [after10_1]; unfold Dat.blockOf iblk10; rw [A_eq10]; try rfl) t d).trans
    (by unfold Dat.fetched Dat.blockOf iblk10; rw [A_eq10]; try rfl)
theorem found10_2 (c : Dev nD) (t : Fin cfg10.N) (d) : (dat10 V c).before 2 t d = iblk10 V c 2 t :=
  ((dat10 V c).before_in_eq_fetched 2 rfl (fun _ => rfl) (fun _ _ _ => rfl)
    (fun t => by rw [after10_2]; unfold Dat.blockOf iblk10; rw [A_eq10]; try rfl) t d).trans
    (by unfold Dat.fetched Dat.blockOf iblk10; rw [A_eq10]; try rfl)
theorem found10_3 (c : Dev nD) (t : Fin cfg10.N) (d) : (dat10 V c).before 3 t d = iblk10 V c 3 t :=
  ((dat10 V c).before_in_eq_fetched 3 rfl (fun _ => rfl) (fun _ _ _ => rfl)
    (fun t => by rw [after10_3]; unfold Dat.blockOf iblk10; rw [A_eq10]; try rfl) t d).trans
    (by unfold Dat.fetched Dat.blockOf iblk10; rw [A_eq10]; try rfl)
theorem found10_4 (c : Dev nD) (t : Fin cfg10.N) (d) : (dat10 V c).before 4 t d = iblk10 V c 4 t :=
  ((dat10 V c).before_in_eq_fetched 4 rfl (fun _ => rfl) (fun _ _ _ => rfl)
    (fun t => by rw [after10_4]; unfold Dat.blockOf iblk10; rw [A_eq10]; try rfl) t d).trans
    (by unfold Dat.fetched Dat.blockOf iblk10; rw [A_eq10]; try rfl)
theorem found10_5 (c : Dev nD) (t : Fin cfg10.N) (d) : (dat10 V c).before 5 t d = iblk10 V c 5 t :=
  ((dat10 V c).before_in_eq_fetched 5 rfl (fun _ => rfl) (fun _ _ _ => rfl)
    (fun t => by rw [after10_5]; unfold Dat.blockOf iblk10; rw [A_eq10]; try rfl) t d).trans
    (by unfold Dat.fetched Dat.blockOf iblk10; rw [A_eq10]; try rfl)
theorem found10_6 (c : Dev nD) (t : Fin cfg10.N) (d) : (dat10 V c).before 6 t d = iblk10 V c 6 t :=
  ((dat10 V c).before_in_eq_fetched 6 rfl (fun _ => rfl) (fun _ _ _ => rfl)
    (fun t => by rw [after10_6]; unfold Dat.blockOf iblk10; rw [A_eq10]; try rfl) t d).trans
    (by unfold Dat.fetched Dat.blockOf iblk10; rw [A_eq10]; try rfl)
theorem found10_7 (c : Dev nD) (t : Fin cfg10.N) (d) : (dat10 V c).before 7 t d = iblk10 V c 7 t :=
  ((dat10 V c).before_in_eq_fetched 7 rfl (fun _ => rfl) (fun _ _ _ => rfl)
    (fun t => by rw [after10_7]; unfold Dat.blockOf iblk10; rw [A_eq10]; try rfl) t d).trans
    (by unfold Dat.fetched Dat.blockOf iblk10; rw [A_eq10]; try rfl)
theorem found10_8 (c : Dev nD) (t : Fin cfg10.N) (d) : (dat10 V c).before 8 t d = iblk10 V c 8 t :=
  ((dat10 V c).before_in_eq_fetched 8 rfl (fun _ => rfl) (fun _ _ _ => rfl)
    (fun t => by rw [after10_8]; unfold Dat.blockOf iblk10; rw [A_eq10]; try rfl) t d).trans
    (by unfold Dat.fetched Dat.blockOf iblk10; rw [A_eq10]; try rfl)

/-! ## The body obligation -/

/-- What the body is called with at point `t`: the invariant, the debts, and the twelve staging buffers. -/
noncomputable def pre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d))
    ∗ (∃ d, owns (c : Thread nD τ) (st10_7 t) fullShare ((dat10 V c).before 7 t d))
    ∗ (∃ d, owns (c : Thread nD τ) (st10_8 t) fullShare ((dat10 V c).before 8 t d))
    ∗ (∃ d, owns (c : Thread nD τ) (st10_9 t) fullShare ((dat10 V c).before 9 t d))
    ∗ (∃ d, owns (c : Thread nD τ) (st10_10 t) fullShare ((dat10 V c).before 10 t d))
    ∗ (∃ d, owns (c : Thread nD τ) (st10_11 t) fullShare ((dat10 V c).before 11 t d)))

/-- What it returns. -/
noncomputable def post10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t)
    ∗ owns (c : Thread nD τ) (st10_7 t) fullShare ((dat10 V c).after 7 t)
    ∗ owns (c : Thread nD τ) (st10_8 t) fullShare ((dat10 V c).after 8 t)
    ∗ owns (c : Thread nD τ) (st10_9 t) fullShare ((dat10 V c).after 9 t)
    ∗ owns (c : Thread nD τ) (st10_10 t) fullShare ((dat10 V c).after 10 t)
    ∗ owns (c : Thread nD τ) (st10_11 t) fullShare ((dat10 V c).after 11 t))

/-- The body at any point: the input buffers hold their blocks, so the body's triple applies; the invariant and the
    debts pass through untouched. -/
theorem steps10 (c : Dev nD) (t : Fin cfg10.N) :
    pre10 V c t ⊢ wp frame (wpE (defs₀ (F := F)) Variants.none c none) Set.univ (bodyAt10 t) (fun _ => post10 V c t) := by
  unfold pre10 post10 bodyAt10
  simp only [found10_0, found10_1, found10_2, found10_3, found10_4, found10_5, found10_6, found10_7, found10_8]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6, after10_7, after10_8, after10_9, after10_10, after10_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (runs10 c Set.univ _ _ _ _ _ _ _ _ _ _ _ _ _ _ _ _ _ _ _ _ _ _ _ _ _ (iblk10 V c 0 t) (iblk10 V c 1 t) (iblk10 V c 2 t) (iblk10 V c 3 t) (iblk10 V c 4 t) (iblk10 V c 5 t) (iblk10 V c 6 t) (iblk10 V c 7 t) (iblk10 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation10 (c : Dev nD) : BodyObligation (dat10 (F := F) V c) (defs₀ (F := F)) Variants.none () Set.univ := fun t => by
  rw [bigSep_W10, bigSep_W10]
  exact steps10 V c t

end Cert.KernelIdeal.Hand

end
-- ==== Proof.KI.Reg11.lean ====
/-
  Region 11 of @main, the frame half: the edge-message kernel of a message-passing layer on its grid of 20 points.
  At a parameter V (the TensorCore's buffer contents when the region is entered) this file gives each window's block
  at a point, the contents of the result's staging buffer after the body (its one whole-block store of the payload of
  the seven loaded blocks), the body's triple on whole staging buffers, the pipeline's proof data and the body
  obligation at every point. Generic in the float instance.
-/
import proofs.«152161_j29669634081217_2_alg».proof.Proof.Gen.KernelIdeal.Launch
import proofs.«152161_j29669634081217_2_alg».proof.Proof.Gen.KernelIdeal.Skeleton
import proofs.«152161_j29669634081217_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 8000 rows: the structural look recurses once per coordinate of the long axis
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
noncomputable def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-! An input window's current staging buffer holds its block at every point, fetched there or not (the three edge
    arrays are fetched at every point, the four weight arrays at the first only: where a window is not fetched its
    block index has not moved), for any proof data whose array is V's and whose body leaves the block in place. -/

theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

theorem before11_5_of {c : Dev nD} (dat : Dat τ (Elt F) Unit ℕ (UR sig nD τ) ℕ cfg11 c) (hA : dat.A 5 = V c (Pipeline.arrRef spec11 5))
    (hafter : ∀ t, dat.after 5 t = iblk11 V c 5 t) (t : Fin cfg11.N) (d) : dat.before 5 t d = iblk11 V c 5 t :=
  (dat.before_in_eq_fetched 5 rfl (fun _ => rfl) (fun _ _ _ => rfl) (fun t => by rw [hafter]; unfold Dat.blockOf iblk11; rw [hA]; try rfl) t d).trans
    (by unfold Dat.fetched Dat.blockOf iblk11; rw [hA]; try rfl)

theorem before11_6_of {c : Dev nD} (dat : Dat τ (Elt F) Unit ℕ (UR sig nD τ) ℕ cfg11 c) (hA : dat.A 6 = V c (Pipeline.arrRef spec11 6))
    (hafter : ∀ t, dat.after 6 t = iblk11 V c 6 t) (t : Fin cfg11.N) (d) : dat.before 6 t d = iblk11 V c 6 t :=
  (dat.before_in_eq_fetched 6 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses: every load and the one store take a whole staging buffer -/

noncomputable abbrev r11_0 : Rect S8000x128 := Rect.unit (s := S8000x128) ![0, 0] S8000x128.size inb_S8000x128_S8000x128_0_0
noncomputable abbrev r11_1 : Rect S128x128 := Rect.unit (s := S128x128) ![0, 0] S128x128.size inb_S128x128_S128x128_0_0
noncomputable abbrev r11_2 : Rect S1x128 := Rect.unit (s := S1x128) ![0, 0] S1x128.size inb_S1x128_S1x128_0_0

/-! ## What the body leaves in the result window's buffer -/

/-- Window 7's staging buffer after the body, from the seven input windows' blocks (in window order: the edge
    features, the two gathered node terms, the first weight and bias, the second weight and bias): its one store. -/
noncomputable def out11_7 (x0 x1 x2 : Vec F S8000x128 .bf16) (x3 : Vec F S128x128 .f32) (x4 : Vec F S1x128 .f32)
    (x5 : Vec F S128x128 .f32) (x6 : Vec F S1x128 .f32) : Vec F S8000x128 .f32 :=
  View.canon [⟨r11_0, k11_pay1 (View.ld x0 r11_0) (View.ld x3 r11_1) (View.ld x1 r11_0) (View.ld x2 r11_0) (View.ld x4 r11_2)
    (View.ld x5 r11_1) (View.ld x6 r11_2)⟩]

/-- The store takes the whole buffer, so it covers it. -/
theorem cover11_7 (p0 : Vec F S8000x128 .f32) (y : S8000x128.Idx) :
    ∃ pc ∈ ([⟨r11_0, p0⟩] : List (View.Piece (Elt F) S8000x128 .f32)), y ∈ pc.1.set :=
  View.cover_of_tiled [⟨r11_0, p0⟩] S8000x128.size (by rfl) y

/-! ## The body's triple -/

set_option maxHeartbeats 4000000 in
/-- The kernel body on whole staging memrefs, the inputs' at read contents and the result's at anything, runs to the
    continuation holding the inputs' as they were and the result's at out11_7 of the inputs': the printed function is
    its skeleton, eight loads (the last one, of the result buffer, is never used) and one store. -/
theorem sound_kernel11 (c : Dev nD) (E : Set ℕ) (i : grid11.Coords)
    (arg1 : Memref sig .tc .vmem S8000x128 .bf16) (harg1 : arg1.IsWhole) (arg2 : Memref sig .tc .vmem S8000x128 .bf16) (harg2 : arg2.IsWhole)
    (arg3 : Memref sig .tc .vmem S8000x128 .bf16) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S8000x128 .f32) (harg8 : arg8.IsWhole)
    (x0 x1 x2 : Vec F S8000x128 .bf16) (x3 : Vec F S128x128 .f32) (x4 : Vec F S1x128 .f32)
    (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out11_7 x0 x1 x2 x3 x4 x5 x6)) -∗ K ⟨⟩))
      ⊢ wp frame (wpE (defs₀ (F := F)) Variants.none c none) E
          (cc11__edge_message_kernel i arg1 harg1 arg2 harg2 arg3 harg3 arg4 harg4 arg5 harg5 arg6 harg6 arg7 harg7 arg8 harg8) K := by
  simp only [cc11__edge_message_kernel_eq_skeleton]; unfold cc11__edge_message_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover11_7 _)

/-! ## The pipeline's proof data -/

/-- The proof data of pipeline 11 on core c: the arrays as the region finds them; after the body at point t each
    input's buffer at its block and the result's at out11_7 of the input blocks; the invariant is the scoped rest and
    the generator register, untouched; nothing owed; full shares. -/
noncomputable def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => iblk11 V c 6 t
    | ⟨7, _⟩ => out11_7 (iblk11 V c 0 t) (iblk11 V c 1 t) (iblk11 V c 2 t) (iblk11 V c 3 t) (iblk11 V c 4 t) (iblk11 V c 5 t) (iblk11 V c 6 t)
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = iblk11 V c 5 t := by dsimp only [dat11]
theorem after11_6 (c : Dev nD) (t : Fin cfg11.N) : (dat11 V c).after 6 t = iblk11 V c 6 t := by dsimp only [dat11]
theorem after11_7 (c : Dev nD) (t : Fin cfg11.N) : (dat11 V c).after 7 t =
    out11_7 (iblk11 V c 0 t) (iblk11 V c 1 t) (iblk11 V c 2 t) (iblk11 V c 3 t) (iblk11 V c 4 t) (iblk11 V c 5 t) (iblk11 V c 6 t) := by
  dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d
theorem before11_5 (c : Dev nD) (t : Fin cfg11.N) (d) : (dat11 V c).before 5 t d = iblk11 V c 5 t :=
  before11_5_of V (dat11 V c) (A_eq11 V c 5) (after11_5 V c) t d
theorem before11_6 (c : Dev nD) (t : Fin cfg11.N) (d) : (dat11 V c).before 6 t d = iblk11 V c 6 t :=
  before11_6_of V (dat11 V c) (A_eq11 V c 6) (after11_6 V c) t d

/-! ## The body obligation, at a generic point -/

/-- What the body is called with at point t, the windows one by one, -/
noncomputable def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d))
    ∗ (∃ d, owns (c : Thread nD τ) (st11_6 t) fullShare ((dat11 V c).before 6 t d))
    ∗ (∃ d, owns (c : Thread nD τ) (st11_7 t) fullShare ((dat11 V c).before 7 t d)))

/-- and what it returns. -/
noncomputable def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t)
    ∗ owns (c : Thread nD τ) (st11_6 t) fullShare ((dat11 V c).after 6 t)
    ∗ owns (c : Thread nD τ) (st11_7 t) fullShare ((dat11 V c).after 7 t))

set_option maxHeartbeats 1000000 in
/-- The body at any point: the inputs' memrefs hold their blocks, so the triple applies; the invariant and the core's
    debts pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4, before11_5, before11_6]
  rw [show (dat11 V c).Φ t.succ = (dat11 V c).Φ t.castSucc from rfl,
    show (dat11 V c).owesAt () t.succ = (dat11 V c).owesAt () t.castSucc from rfl,
    after11_0, after11_1, after11_2, after11_3, after11_4, after11_5, after11_6, after11_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel11 c Set.univ _ _ _ _ _ _ _ _ _ _ _ _ _ _ _ _ _ (iblk11 V c 0 t) (iblk11 V c 1 t) (iblk11 V c 2 t) (iblk11 V c 3 t)
    (iblk11 V c 4 t) (iblk11 V c 5 t) (iblk11 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Hand

end
-- ==== Proof.KI.Reg12.lean ====
/-
  Region 12 of @main, the node-update kernel of the fifth message-passing layer, at an arbitrary content V of the
  TensorCore's buffers when the region is entered, for any float instance.

  The kernel reads nine windows (the node features and the aggregated messages in blocks of 4000 rows, then seven
  weight arrays each fetched whole once) and writes three (the new features, and their two projections for the next
  layer), each result block through one store that fills it.  This file states what each staging buffer holds after
  the body ran at a grid point, proves the body's separation-logic triple by running its memory operations, and
  packages both as the pipeline's body obligation.
-/
import proofs.«152161_j29669634081217_2_alg».proof.Proof.Gen.KernelIdeal.Launch
import proofs.«152161_j29669634081217_2_alg».proof.Proof.Gen.KernelIdeal.Skeleton
import proofs.«152161_j29669634081217_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows show -/

/-- The block of window w at grid point t, cut out of the window's array as the region finds it. -/
noncomputable def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-! ## The three rectangles the body touches: every access is of a whole staging buffer -/

/-- All of a 4000 × 128 buffer (a block of rows, and each result block). -/
noncomputable abbrev rowsAll12 : Rect S4000x128 := Rect.unit (s := S4000x128) ![0, 0] S4000x128.size inb_S4000x128_S4000x128_0_0
/-- All of a 128 × 128 buffer (a weight matrix). -/
noncomputable abbrev matAll12 : Rect S128x128 := Rect.unit (s := S128x128) ![0, 0] S128x128.size inb_S128x128_S128x128_0_0
/-- All of a 1 × 128 buffer (a bias). -/
noncomputable abbrev biasAll12 : Rect S1x128 := Rect.unit (s := S1x128) ![0, 0] S1x128.size inb_S1x128_S1x128_0_0

/-! ## What the body leaves in the three result buffers -/

/-- The new features, in single precision: the residual update of the features block `h` by the messages block
    `g`, through the five weight arrays of the update. -/
noncomputable def out12_9 (h g : Vec F S4000x128 .f32) (wh wa : Vec F S128x128 .f32) (b1 : Vec F S1x128 .f32)
    (w2 : Vec F S128x128 .f32) (b2 : Vec F S1x128 .f32) : Vec F S4000x128 .f32 :=
  View.canon [⟨rowsAll12, k12_pay3 (View.ld h rowsAll12) (View.ld wh matAll12) (View.ld g rowsAll12) (View.ld wa matAll12)
    (View.ld b1 biasAll12) (View.ld w2 matAll12) (View.ld b2 biasAll12)⟩]

/-- The new features' projection by the next layer's source-side matrix `ws`, in half precision. -/
noncomputable def out12_10 (h g : Vec F S4000x128 .f32) (wh wa : Vec F S128x128 .f32) (b1 : Vec F S1x128 .f32)
    (w2 : Vec F S128x128 .f32) (b2 : Vec F S1x128 .f32) (ws : Vec F S128x128 .f32) : Vec F S4000x128 .bf16 :=
  View.canon [⟨rowsAll12, k12_pay1 (k12_pay4 (View.ld h rowsAll12) (View.ld wh matAll12) (View.ld g rowsAll12) (View.ld wa matAll12)
    (View.ld b1 biasAll12) (View.ld w2 matAll12) (View.ld b2 biasAll12)) (k12_pay5 (View.ld ws matAll12))⟩]

/-- The new features' projection by the next layer's destination-side matrix `wd`, in half precision. -/
noncomputable def out12_11 (h g : Vec F S4000x128 .f32) (wh wa : Vec F S128x128 .f32) (b1 : Vec F S1x128 .f32)
    (w2 : Vec F S128x128 .f32) (b2 : Vec F S1x128 .f32) (wd : Vec F S128x128 .f32) : Vec F S4000x128 .bf16 :=
  View.canon [⟨rowsAll12, k12_pay2 (k12_pay4 (View.ld h rowsAll12) (View.ld wh matAll12) (View.ld g rowsAll12) (View.ld wa matAll12)
    (View.ld b1 biasAll12) (View.ld w2 matAll12) (View.ld b2 biasAll12)) (View.ld wd matAll12)⟩]

/-- One store through the whole-buffer rectangle covers the buffer: single precision. -/
theorem fills12_f32 (p : Vec F S4000x128 .f32) (y : S4000x128.Idx) :
    ∃ pc ∈ ([⟨rowsAll12, p⟩] : List (View.Piece (Elt F) S4000x128 .f32)), y ∈ pc.1.set :=
  View.cover_of_tiled [⟨rowsAll12, p⟩] S4000x128.size (by rfl) y

/-- One store through the whole-buffer rectangle covers the buffer: half precision. -/
theorem fills12_bf16 (p : Vec F S4000x128 .bf16) (y : S4000x128.Idx) :
    ∃ pc ∈ ([⟨rowsAll12, p⟩] : List (View.Piece (Elt F) S4000x128 .bf16)), y ∈ pc.1.set :=
  View.cover_of_tiled [⟨rowsAll12, p⟩] S4000x128.size (by rfl) y

/-! ## The body's triple -/

set_option maxHeartbeats 4000000 in
/-- The body on whole staging buffers, the nine inputs' reading `x0 … x8` and the three results' holding anything, runs
    to a state where the inputs' are as they were and each result's holds its `out12_w` of the inputs: the printed body
    and its printed part are their skeletons of memory operations, which are run one after the other; each result
    buffer ends as one write over its earlier content, and that write fills it. -/
theorem runs12 (c : Dev nD) (E : Set ℕ) (i : grid12.Coords) (a0 : Memref sig .tc .vmem S4000x128 .f32) (ha0 : a0.IsWhole) (a1 : Memref sig .tc .vmem S4000x128 .f32) (ha1 : a1.IsWhole) (a2 : Memref sig .tc .vmem S128x128 .f32) (ha2 : a2.IsWhole) (a3 : Memref sig .tc .vmem S128x128 .f32) (ha3 : a3.IsWhole) (a4 : Memref sig .tc .vmem S1x128 .f32) (ha4 : a4.IsWhole) (a5 : Memref sig .tc .vmem S128x128 .f32) (ha5 : a5.IsWhole) (a6 : Memref sig .tc .vmem S1x128 .f32) (ha6 : a6.IsWhole) (a7 : Memref sig .tc .vmem S128x128 .f32) (ha7 : a7.IsWhole) (a8 : Memref sig .tc .vmem S128x128 .f32) (ha8 : a8.IsWhole) (a9 : Memref sig .tc .vmem S4000x128 .f32) (ha9 : a9.IsWhole) (a10 : Memref sig .tc .vmem S4000x128 .bf16) (ha10 : a10.IsWhole) (a11 : Memref sig .tc .vmem S4000x128 .bf16) (ha11 : a11.IsWhole)
    (x0 : Vec F S4000x128 .f32) (x1 : Vec F S4000x128 .f32) (x2 : Vec F S128x128 .f32) (x3 : Vec F S128x128 .f32) (x4 : Vec F S1x128 .f32) (x5 : Vec F S128x128 .f32) (x6 : Vec F S1x128 .f32) (x7 : Vec F S128x128 .f32) (x8 : Vec F S128x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d) ∗ (∃ d, owns (c : Thread nD τ) a10 fullShare d) ∗ (∃ d, owns (c : Thread nD τ) a11 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare (out12_9 x0 x1 x2 x3 x4 x5 x6) ∗ owns (c : Thread nD τ) a10 fullShare (out12_10 x0 x1 x2 x3 x4 x5 x6 x7) ∗ owns (c : Thread nD τ) a11 fullShare (out12_11 x0 x1 x2 x3 x4 x5 x6 x8)) -∗ K ⟨⟩))
      ⊢ wp frame (wpE (defs₀ (F := F)) Variants.none c none) E (cc12__node_update_ab_kernel i a0 ha0 a1 ha1 a2 ha2 a3 ha3 a4 ha4 a5 ha5 a6 ha6 a7 ha7 a8 ha8 a9 ha9 a10 ha10 a11 ha11) K := by
  simp only [cc12__node_update_ab_kernel_eq_skeleton]; unfold cc12__node_update_ab_kernel_skel
  simp only [k12_part1_eq_skeleton]; unfold k12_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (fills12_f32 _)
  isplitl [H10]
  · iexists _; isplitr
    swap; · iexact H10
    ipureintro
    try dsimp only
    exact View.read_writes_eq_canon _ _ _ (fills12_bf16 _)
  iexists _; isplitr
  swap; · iexact H11
  ipureintro
  try dsimp only
  exact View.read_writes_eq_canon _ _ _ (fills12_bf16 _)

/-! ## The pipeline's proof data -/

/-- The proof data of this region's pipeline on core `c`: the arrays as the region finds them; after the body at
    point `t` each input's staging buffer still at its block and each result's at its `out12_w` of the input blocks;
    the invariant that nothing else is touched; full shares; nothing owed. -/
noncomputable def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => iblk12 V c 6 t
    | ⟨7, _⟩ => iblk12 V c 7 t
    | ⟨8, _⟩ => iblk12 V c 8 t
    | ⟨9, _⟩ => out12_9 (iblk12 V c 0 t) (iblk12 V c 1 t) (iblk12 V c 2 t) (iblk12 V c 3 t) (iblk12 V c 4 t) (iblk12 V c 5 t) (iblk12 V c 6 t)
    | ⟨10, _⟩ => out12_10 (iblk12 V c 0 t) (iblk12 V c 1 t) (iblk12 V c 2 t) (iblk12 V c 3 t) (iblk12 V c 4 t) (iblk12 V c 5 t) (iblk12 V c 6 t) (iblk12 V c 7 t)
    | ⟨11, _⟩ => out12_11 (iblk12 V c 0 t) (iblk12 V c 1 t) (iblk12 V c 2 t) (iblk12 V c 3 t) (iblk12 V c 4 t) (iblk12 V c 5 t) (iblk12 V c 6 t) (iblk12 V c 8 t)
  Φ _ := Pipeline.ΦA spec12 c
  q _ := fullShare
  owed _ := 0

/-- The proof data's arrays are the region-entry contents. -/
theorem A_eq12 (c : Dev nD) (w : Fin cfg12.W) : (dat12 V c).A w = V c (Pipeline.arrRef spec12 w) := by
  dsimp only [dat12]

/-! What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = iblk12 V c 5 t := by dsimp only [dat12]
theorem after12_6 (c : Dev nD) (t : Fin cfg12.N) : (dat12 V c).after 6 t = iblk12 V c 6 t := by dsimp only [dat12]
theorem after12_7 (c : Dev nD) (t : Fin cfg12.N) : (dat12 V c).after 7 t = iblk12 V c 7 t := by dsimp only [dat12]
theorem after12_8 (c : Dev nD) (t : Fin cfg12.N) : (dat12 V c).after 8 t = iblk12 V c 8 t := by dsimp only [dat12]
theorem after12_9 (c : Dev nD) (t : Fin cfg12.N) : (dat12 V c).after 9 t = out12_9 (iblk12 V c 0 t) (iblk12 V c 1 t) (iblk12 V c 2 t) (iblk12 V c 3 t) (iblk12 V c 4 t) (iblk12 V c 5 t) (iblk12 V c 6 t) := by dsimp only [dat12]
theorem after12_10 (c : Dev nD) (t : Fin cfg12.N) : (dat12 V c).after 10 t = out12_10 (iblk12 V c 0 t) (iblk12 V c 1 t) (iblk12 V c 2 t) (iblk12 V c 3 t) (iblk12 V c 4 t) (iblk12 V c 5 t) (iblk12 V c 6 t) (iblk12 V c 7 t) := by dsimp only [dat12]
theorem after12_11 (c : Dev nD) (t : Fin cfg12.N) : (dat12 V c).after 11 t = out12_11 (iblk12 V c 0 t) (iblk12 V c 1 t) (iblk12 V c 2 t) (iblk12 V c 3 t) (iblk12 V c 4 t) (iblk12 V c 5 t) (iblk12 V c 6 t) (iblk12 V c 8 t) := by dsimp only [dat12]

/-! Each input's current staging buffer holds the window's block at every point, whether the block was fetched at
    that point or is still there from the first point (the seven weight windows' block index never moves, so the
    block of the first point is the block of every point). -/
theorem found12_0 (c : Dev nD) (t : Fin cfg12.N) (d) : (dat12 V c).before 0 t d = iblk12 V c 0 t :=
  ((dat12 V c).before_in_eq_fetched 0 rfl (fun _ => rfl) (fun _ _ _ => rfl)
    (fun t => by rw [after12_0]; unfold Dat.blockOf iblk12; rw [A_eq12]; try rfl) t d).trans
    (by unfold Dat.fetched Dat.blockOf iblk12; rw [A_eq12]; try rfl)
theorem found12_1 (c : Dev nD) (t : Fin cfg12.N) (d) : (dat12 V c).before 1 t d = iblk12 V c 1 t :=
  ((dat12 V c).before_in_eq_fetched 1 rfl (fun _ => rfl) (fun _ _ _ => rfl)
    (fun t => by rw [after12_1]; unfold Dat.blockOf iblk12; rw [A_eq12]; try rfl) t d).trans
    (by unfold Dat.fetched Dat.blockOf iblk12; rw [A_eq12]; try rfl)
theorem found12_2 (c : Dev nD) (t : Fin cfg12.N) (d) : (dat12 V c).before 2 t d = iblk12 V c 2 t :=
  ((dat12 V c).before_in_eq_fetched 2 rfl (fun _ => rfl) (fun _ _ _ => rfl)
    (fun t => by rw [after12_2]; unfold Dat.blockOf iblk12; rw [A_eq12]; try rfl) t d).trans
    (by unfold Dat.fetched Dat.blockOf iblk12; rw [A_eq12]; try rfl)
theorem found12_3 (c : Dev nD) (t : Fin cfg12.N) (d) : (dat12 V c).before 3 t d = iblk12 V c 3 t :=
  ((dat12 V c).before_in_eq_fetched 3 rfl (fun _ => rfl) (fun _ _ _ => rfl)
    (fun t => by rw [after12_3]; unfold Dat.blockOf iblk12; rw [A_eq12]; try rfl) t d).trans
    (by unfold Dat.fetched Dat.blockOf iblk12; rw [A_eq12]; try rfl)
theorem found12_4 (c : Dev nD) (t : Fin cfg12.N) (d) : (dat12 V c).before 4 t d = iblk12 V c 4 t :=
  ((dat12 V c).before_in_eq_fetched 4 rfl (fun _ => rfl) (fun _ _ _ => rfl)
    (fun t => by rw [after12_4]; unfold Dat.blockOf iblk12; rw [A_eq12]; try rfl) t d).trans
    (by unfold Dat.fetched Dat.blockOf iblk12; rw [A_eq12]; try rfl)
theorem found12_5 (c : Dev nD) (t : Fin cfg12.N) (d) : (dat12 V c).before 5 t d = iblk12 V c 5 t :=
  ((dat12 V c).before_in_eq_fetched 5 rfl (fun _ => rfl) (fun _ _ _ => rfl)
    (fun t => by rw [after12_5]; unfold Dat.blockOf iblk12; rw [A_eq12]; try rfl) t d).trans
    (by unfold Dat.fetched Dat.blockOf iblk12; rw [A_eq12]; try rfl)
theorem found12_6 (c : Dev nD) (t : Fin cfg12.N) (d) : (dat12 V c).before 6 t d = iblk12 V c 6 t :=
  ((dat12 V c).before_in_eq_fetched 6 rfl (fun _ => rfl) (fun _ _ _ => rfl)
    (fun t => by rw [after12_6]; unfold Dat.blockOf iblk12; rw [A_eq12]; try rfl) t d).trans
    (by unfold Dat.fetched Dat.blockOf iblk12; rw [A_eq12]; try rfl)
theorem found12_7 (c : Dev nD) (t : Fin cfg12.N) (d) : (dat12 V c).before 7 t d = iblk12 V c 7 t :=
  ((dat12 V c).before_in_eq_fetched 7 rfl (fun _ => rfl) (fun _ _ _ => rfl)
    (fun t => by rw [after12_7]; unfold Dat.blockOf iblk12; rw [A_eq12]; try rfl) t d).trans
    (by unfold Dat.fetched Dat.blockOf iblk12; rw [A_eq12]; try rfl)
theorem found12_8 (c : Dev nD) (t : Fin cfg12.N) (d) : (dat12 V c).before 8 t d = iblk12 V c 8 t :=
  ((dat12 V c).before_in_eq_fetched 8 rfl (fun _ => rfl) (fun _ _ _ => rfl)
    (fun t => by rw [after12_8]; unfold Dat.blockOf iblk12; rw [A_eq12]; try rfl) t d).trans
    (by unfold Dat.fetched Dat.blockOf iblk12; rw [A_eq12]; try rfl)

/-! ## The body obligation -/

/-- What the body is called with at point `t`: the invariant, the debts, and the twelve staging buffers. -/
noncomputable def pre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d))
    ∗ (∃ d, owns (c : Thread nD τ) (st12_6 t) fullShare ((dat12 V c).before 6 t d))
    ∗ (∃ d, owns (c : Thread nD τ) (st12_7 t) fullShare ((dat12 V c).before 7 t d))
    ∗ (∃ d, owns (c : Thread nD τ) (st12_8 t) fullShare ((dat12 V c).before 8 t d))
    ∗ (∃ d, owns (c : Thread nD τ) (st12_9 t) fullShare ((dat12 V c).before 9 t d))
    ∗ (∃ d, owns (c : Thread nD τ) (st12_10 t) fullShare ((dat12 V c).before 10 t d))
    ∗ (∃ d, owns (c : Thread nD τ) (st12_11 t) fullShare ((dat12 V c).before 11 t d)))

/-- What it returns. -/
noncomputable def post12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t)
    ∗ owns (c : Thread nD τ) (st12_6 t) fullShare ((dat12 V c).after 6 t)
    ∗ owns (c : Thread nD τ) (st12_7 t) fullShare ((dat12 V c).after 7 t)
    ∗ owns (c : Thread nD τ) (st12_8 t) fullShare ((dat12 V c).after 8 t)
    ∗ owns (c : Thread nD τ) (st12_9 t) fullShare ((dat12 V c).after 9 t)
    ∗ owns (c : Thread nD τ) (st12_10 t) fullShare ((dat12 V c).after 10 t)
    ∗ owns (c : Thread nD τ) (st12_11 t) fullShare ((dat12 V c).after 11 t))

/-- The body at any point: the input buffers hold their blocks, so the body's triple applies; the invariant and the
    debts pass through untouched. -/
theorem steps12 (c : Dev nD) (t : Fin cfg12.N) :
    pre12 V c t ⊢ wp frame (wpE (defs₀ (F := F)) Variants.none c none) Set.univ (bodyAt12 t) (fun _ => post12 V c t) := by
  unfold pre12 post12 bodyAt12
  simp only [found12_0, found12_1, found12_2, found12_3, found12_4, found12_5, found12_6, found12_7, found12_8]
  rw [show (dat12 V c).Φ t.succ = (dat12 V c).Φ t.castSucc from rfl,
    show (dat12 V c).owesAt () t.succ = (dat12 V c).owesAt () t.castSucc from rfl,
    after12_0, after12_1, after12_2, after12_3, after12_4, after12_5, after12_6, after12_7, after12_8, after12_9, after12_10, after12_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (runs12 c Set.univ _ _ _ _ _ _ _ _ _ _ _ _ _ _ _ _ _ _ _ _ _ _ _ _ _ (iblk12 V c 0 t) (iblk12 V c 1 t) (iblk12 V c 2 t) (iblk12 V c 3 t) (iblk12 V c 4 t) (iblk12 V c 5 t) (iblk12 V c 6 t) (iblk12 V c 7 t) (iblk12 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation12 (c : Dev nD) : BodyObligation (dat12 (F := F) V c) (defs₀ (F := F)) Variants.none () Set.univ := fun t => by
  rw [bigSep_W12, bigSep_W12]
  exact steps12 V c t

end Cert.KernelIdeal.Hand

end
-- ==== Proof.KI.Reg13.lean ====
/-
  Region 13 of @main, the frame half: the edge-message kernel of a message-passing layer on its grid of 20 points.
  At a parameter V (the TensorCore's buffer contents when the region is entered) this file gives each window's block
  at a point, the contents of the result's staging buffer after the body (its one whole-block store of the payload of
  the seven loaded blocks), the body's triple on whole staging buffers, the pipeline's proof data and the body
  obligation at every point. Generic in the float instance.
-/
import proofs.«152161_j29669634081217_2_alg».proof.Proof.Gen.KernelIdeal.Launch
import proofs.«152161_j29669634081217_2_alg».proof.Proof.Gen.KernelIdeal.Skeleton
import proofs.«152161_j29669634081217_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 8000 rows: the structural look recurses once per coordinate of the long axis
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
noncomputable def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-! An input window's current staging buffer holds its block at every point, fetched there or not (the three edge
    arrays are fetched at every point, the four weight arrays at the first only: where a window is not fetched its
    block index has not moved), for any proof data whose array is V's and whose body leaves the block in place. -/

theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

theorem before13_3_of {c : Dev nD} (dat : Dat τ (Elt F) Unit ℕ (UR sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)

theorem before13_4_of {c : Dev nD} (dat : Dat τ (Elt F) Unit ℕ (UR sig nD τ) ℕ cfg13 c) (hA : dat.A 4 = V c (Pipeline.arrRef spec13 4))
    (hafter : ∀ t, dat.after 4 t = iblk13 V c 4 t) (t : Fin cfg13.N) (d) : dat.before 4 t d = iblk13 V c 4 t :=
  (dat.before_in_eq_fetched 4 rfl (fun _ => rfl) (fun _ _ _ => rfl) (fun t => by rw [hafter]; unfold Dat.blockOf iblk13; rw [hA]; try rfl) t d).trans
    (by unfold Dat.fetched Dat.blockOf iblk13; rw [hA]; try rfl)

theorem before13_5_of {c : Dev nD} (dat : Dat τ (Elt F) Unit ℕ (UR sig nD τ) ℕ cfg13 c) (hA : dat.A 5 = V c (Pipeline.arrRef spec13 5))
    (hafter : ∀ t, dat.after 5 t = iblk13 V c 5 t) (t : Fin cfg13.N) (d) : dat.before 5 t d = iblk13 V c 5 t :=
  (dat.before_in_eq_fetched 5 rfl (fun _ => rfl) (fun _ _ _ => rfl) (fun t => by rw [hafter]; unfold Dat.blockOf iblk13; rw [hA]; try rfl) t d).trans
    (by unfold Dat.fetched Dat.blockOf iblk13; rw [hA]; try rfl)

theorem before13_6_of {c : Dev nD} (dat : Dat τ (Elt F) Unit ℕ (UR sig nD τ) ℕ cfg13 c) (hA : dat.A 6 = V c (Pipeline.arrRef spec13 6))
    (hafter : ∀ t, dat.after 6 t = iblk13 V c 6 t) (t : Fin cfg13.N) (d) : dat.before 6 t d = iblk13 V c 6 t :=
  (dat.before_in_eq_fetched 6 rfl (fun _ => rfl) (fun _ _ _ => rfl) (fun t => by rw [hafter]; unfold Dat.blockOf iblk13; rw [hA]; try rfl) t d).trans
    (by unfold Dat.fetched Dat.blockOf iblk13; rw [hA]; try rfl)

/-! ## The body's accesses: every load and the one store take a whole staging buffer -/

noncomputable abbrev r13_0 : Rect S8000x128 := Rect.unit (s := S8000x128) ![0, 0] S8000x128.size inb_S8000x128_S8000x128_0_0
noncomputable abbrev r13_1 : Rect S128x128 := Rect.unit (s := S128x128) ![0, 0] S128x128.size inb_S128x128_S128x128_0_0
noncomputable abbrev r13_2 : Rect S1x128 := Rect.unit (s := S1x128) ![0, 0] S1x128.size inb_S1x128_S1x128_0_0

/-! ## What the body leaves in the result window's buffer -/

/-- Window 7's staging buffer after the body, from the seven input windows' blocks (in window order: the edge
    features, the two gathered node terms, the first weight and bias, the second weight and bias): its one store. -/
noncomputable def out13_7 (x0 x1 x2 : Vec F S8000x128 .bf16) (x3 : Vec F S128x128 .f32) (x4 : Vec F S1x128 .f32)
    (x5 : Vec F S128x128 .f32) (x6 : Vec F S1x128 .f32) : Vec F S8000x128 .f32 :=
  View.canon [⟨r13_0, k13_pay1 (View.ld x0 r13_0) (View.ld x3 r13_1) (View.ld x1 r13_0) (View.ld x2 r13_0) (View.ld x4 r13_2)
    (View.ld x5 r13_1) (View.ld x6 r13_2)⟩]

/-- The store takes the whole buffer, so it covers it. -/
theorem cover13_7 (p0 : Vec F S8000x128 .f32) (y : S8000x128.Idx) :
    ∃ pc ∈ ([⟨r13_0, p0⟩] : List (View.Piece (Elt F) S8000x128 .f32)), y ∈ pc.1.set :=
  View.cover_of_tiled [⟨r13_0, p0⟩] S8000x128.size (by rfl) y

/-! ## The body's triple -/

set_option maxHeartbeats 4000000 in
/-- The kernel body on whole staging memrefs, the inputs' at read contents and the result's at anything, runs to the
    continuation holding the inputs' as they were and the result's at out13_7 of the inputs': the printed function is
    its skeleton, eight loads (the last one, of the result buffer, is never used) and one store. -/
theorem sound_kernel13 (c : Dev nD) (E : Set ℕ) (i : grid13.Coords)
    (arg1 : Memref sig .tc .vmem S8000x128 .bf16) (harg1 : arg1.IsWhole) (arg2 : Memref sig .tc .vmem S8000x128 .bf16) (harg2 : arg2.IsWhole)
    (arg3 : Memref sig .tc .vmem S8000x128 .bf16) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S8000x128 .f32) (harg8 : arg8.IsWhole)
    (x0 x1 x2 : Vec F S8000x128 .bf16) (x3 : Vec F S128x128 .f32) (x4 : Vec F S1x128 .f32)
    (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out13_7 x0 x1 x2 x3 x4 x5 x6)) -∗ K ⟨⟩))
      ⊢ wp frame (wpE (defs₀ (F := F)) Variants.none c none) E
          (cc13__edge_message_kernel i arg1 harg1 arg2 harg2 arg3 harg3 arg4 harg4 arg5 harg5 arg6 harg6 arg7 harg7 arg8 harg8) K := by
  simp only [cc13__edge_message_kernel_eq_skeleton]; unfold cc13__edge_message_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover13_7 _)

/-! ## The pipeline's proof data -/

/-- The proof data of pipeline 13 on core c: the arrays as the region finds them; after the body at point t each
    input's buffer at its block and the result's at out13_7 of the input blocks; the invariant is the scoped rest and
    the generator register, untouched; nothing owed; full shares. -/
noncomputable def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => iblk13 V c 5 t
    | ⟨6, _⟩ => iblk13 V c 6 t
    | ⟨7, _⟩ => out13_7 (iblk13 V c 0 t) (iblk13 V c 1 t) (iblk13 V c 2 t) (iblk13 V c 3 t) (iblk13 V c 4 t) (iblk13 V c 5 t) (iblk13 V c 6 t)
  Φ _ := Pipeline.ΦA spec13 c
  q _ := fullShare
  owed _ := 0

/-- The proof data's arrays are the region-entry contents. -/
theorem A_eq13 (c : Dev nD) (w : Fin cfg13.W) : (dat13 V c).A w = V c (Pipeline.arrRef spec13 w) := by
  dsimp only [dat13]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = iblk13 V c 4 t := by dsimp only [dat13]
theorem after13_5 (c : Dev nD) (t : Fin cfg13.N) : (dat13 V c).after 5 t = iblk13 V c 5 t := by dsimp only [dat13]
theorem after13_6 (c : Dev nD) (t : Fin cfg13.N) : (dat13 V c).after 6 t = iblk13 V c 6 t := by dsimp only [dat13]
theorem after13_7 (c : Dev nD) (t : Fin cfg13.N) : (dat13 V c).after 7 t =
    out13_7 (iblk13 V c 0 t) (iblk13 V c 1 t) (iblk13 V c 2 t) (iblk13 V c 3 t) (iblk13 V c 4 t) (iblk13 V c 5 t) (iblk13 V c 6 t) := by
  dsimp only [dat13]

/-- Each input's current staging buffer holds its block at every point, fetched there or not. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d
theorem before13_4 (c : Dev nD) (t : Fin cfg13.N) (d) : (dat13 V c).before 4 t d = iblk13 V c 4 t :=
  before13_4_of V (dat13 V c) (A_eq13 V c 4) (after13_4 V c) t d
theorem before13_5 (c : Dev nD) (t : Fin cfg13.N) (d) : (dat13 V c).before 5 t d = iblk13 V c 5 t :=
  before13_5_of V (dat13 V c) (A_eq13 V c 5) (after13_5 V c) t d
theorem before13_6 (c : Dev nD) (t : Fin cfg13.N) (d) : (dat13 V c).before 6 t d = iblk13 V c 6 t :=
  before13_6_of V (dat13 V c) (A_eq13 V c 6) (after13_6 V c) t d

/-! ## The body obligation, at a generic point -/

/-- What the body is called with at point t, the windows one by one, -/
noncomputable def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d))
    ∗ (∃ d, owns (c : Thread nD τ) (st13_5 t) fullShare ((dat13 V c).before 5 t d))
    ∗ (∃ d, owns (c : Thread nD τ) (st13_6 t) fullShare ((dat13 V c).before 6 t d))
    ∗ (∃ d, owns (c : Thread nD τ) (st13_7 t) fullShare ((dat13 V c).before 7 t d)))

/-- and what it returns. -/
noncomputable def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t)
    ∗ owns (c : Thread nD τ) (st13_5 t) fullShare ((dat13 V c).after 5 t)
    ∗ owns (c : Thread nD τ) (st13_6 t) fullShare ((dat13 V c).after 6 t)
    ∗ owns (c : Thread nD τ) (st13_7 t) fullShare ((dat13 V c).after 7 t))

set_option maxHeartbeats 1000000 in
/-- The body at any point: the inputs' memrefs hold their blocks, so the triple applies; the invariant and the core's
    debts pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3, before13_4, before13_5, before13_6]
  rw [show (dat13 V c).Φ t.succ = (dat13 V c).Φ t.castSucc from rfl,
    show (dat13 V c).owesAt () t.succ = (dat13 V c).owesAt () t.castSucc from rfl,
    after13_0, after13_1, after13_2, after13_3, after13_4, after13_5, after13_6, after13_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel13 c Set.univ _ _ _ _ _ _ _ _ _ _ _ _ _ _ _ _ _ (iblk13 V c 0 t) (iblk13 V c 1 t) (iblk13 V c 2 t) (iblk13 V c 3 t)
    (iblk13 V c 4 t) (iblk13 V c 5 t) (iblk13 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation13 (c : Dev nD) : BodyObligation (dat13 (F := F) V c) (defs₀ (F := F)) Variants.none () Set.univ := fun t => by
  rw [bigSep_W13, bigSep_W13]
  exact sound_body13 V c t

end Cert.KernelIdeal.Hand

end
-- ==== Proof.KI.Reg14.lean ====
/-
  Region 14 of @main, the node-update kernel of the sixth message-passing layer, at an arbitrary content V of the
  TensorCore's buffers when the region is entered, for any float instance.

  The kernel reads nine windows (the node features and the aggregated messages in blocks of 4000 rows, then seven
  weight arrays each fetched whole once) and writes three (the new features, and their two projections for the next
  layer), each result block through one store that fills it.  This file states what each staging buffer holds after
  the body ran at a grid point, proves the body's separation-logic triple by running its memory operations, and
  packages both as the pipeline's body obligation.
-/
import proofs.«152161_j29669634081217_2_alg».proof.Proof.Gen.KernelIdeal.Launch
import proofs.«152161_j29669634081217_2_alg».proof.Proof.Gen.KernelIdeal.Skeleton
import proofs.«152161_j29669634081217_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows show -/

/-- The block of window w at grid point t, cut out of the window's array as the region finds it. -/
noncomputable def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-! ## The three rectangles the body touches: every access is of a whole staging buffer -/

/-- All of a 4000 × 128 buffer (a block of rows, and each result block). -/
noncomputable abbrev rowsAll14 : Rect S4000x128 := Rect.unit (s := S4000x128) ![0, 0] S4000x128.size inb_S4000x128_S4000x128_0_0
/-- All of a 128 × 128 buffer (a weight matrix). -/
noncomputable abbrev matAll14 : Rect S128x128 := Rect.unit (s := S128x128) ![0, 0] S128x128.size inb_S128x128_S128x128_0_0
/-- All of a 1 × 128 buffer (a bias). -/
noncomputable abbrev biasAll14 : Rect S1x128 := Rect.unit (s := S1x128) ![0, 0] S1x128.size inb_S1x128_S1x128_0_0

/-! ## What the body leaves in the three result buffers -/

/-- The new features, in single precision: the residual update of the features block `h` by the messages block
    `g`, through the five weight arrays of the update. -/
noncomputable def out14_9 (h g : Vec F S4000x128 .f32) (wh wa : Vec F S128x128 .f32) (b1 : Vec F S1x128 .f32)
    (w2 : Vec F S128x128 .f32) (b2 : Vec F S1x128 .f32) : Vec F S4000x128 .f32 :=
  View.canon [⟨rowsAll14, k14_pay3 (View.ld h rowsAll14) (View.ld wh matAll14) (View.ld g rowsAll14) (View.ld wa matAll14)
    (View.ld b1 biasAll14) (View.ld w2 matAll14) (View.ld b2 biasAll14)⟩]

/-- The new features' projection by the next layer's source-side matrix `ws`, in half precision. -/
noncomputable def out14_10 (h g : Vec F S4000x128 .f32) (wh wa : Vec F S128x128 .f32) (b1 : Vec F S1x128 .f32)
    (w2 : Vec F S128x128 .f32) (b2 : Vec F S1x128 .f32) (ws : Vec F S128x128 .f32) : Vec F S4000x128 .bf16 :=
  View.canon [⟨rowsAll14, k14_pay1 (k14_pay4 (View.ld h rowsAll14) (View.ld wh matAll14) (View.ld g rowsAll14) (View.ld wa matAll14)
    (View.ld b1 biasAll14) (View.ld w2 matAll14) (View.ld b2 biasAll14)) (k14_pay5 (View.ld ws matAll14))⟩]

/-- The new features' projection by the next layer's destination-side matrix `wd`, in half precision. -/
noncomputable def out14_11 (h g : Vec F S4000x128 .f32) (wh wa : Vec F S128x128 .f32) (b1 : Vec F S1x128 .f32)
    (w2 : Vec F S128x128 .f32) (b2 : Vec F S1x128 .f32) (wd : Vec F S128x128 .f32) : Vec F S4000x128 .bf16 :=
  View.canon [⟨rowsAll14, k14_pay2 (k14_pay4 (View.ld h rowsAll14) (View.ld wh matAll14) (View.ld g rowsAll14) (View.ld wa matAll14)
    (View.ld b1 biasAll14) (View.ld w2 matAll14) (View.ld b2 biasAll14)) (View.ld wd matAll14)⟩]

/-- One store through the whole-buffer rectangle covers the buffer: single precision. -/
theorem fills14_f32 (p : Vec F S4000x128 .f32) (y : S4000x128.Idx) :
    ∃ pc ∈ ([⟨rowsAll14, p⟩] : List (View.Piece (Elt F) S4000x128 .f32)), y ∈ pc.1.set :=
  View.cover_of_tiled [⟨rowsAll14, p⟩] S4000x128.size (by rfl) y

/-- One store through the whole-buffer rectangle covers the buffer: half precision. -/
theorem fills14_bf16 (p : Vec F S4000x128 .bf16) (y : S4000x128.Idx) :
    ∃ pc ∈ ([⟨rowsAll14, p⟩] : List (View.Piece (Elt F) S4000x128 .bf16)), y ∈ pc.1.set :=
  View.cover_of_tiled [⟨rowsAll14, p⟩] S4000x128.size (by rfl) y

/-! ## The body's triple -/

set_option maxHeartbeats 4000000 in
/-- The body on whole staging buffers, the nine inputs' reading `x0 … x8` and the three results' holding anything, runs
    to a state where the inputs' are as they were and each result's holds its `out14_w` of the inputs: the printed body
    and its printed part are their skeletons of memory operations, which are run one after the other; each result
    buffer ends as one write over its earlier content, and that write fills it. -/
theorem runs14 (c : Dev nD) (E : Set ℕ) (i : grid14.Coords) (a0 : Memref sig .tc .vmem S4000x128 .f32) (ha0 : a0.IsWhole) (a1 : Memref sig .tc .vmem S4000x128 .f32) (ha1 : a1.IsWhole) (a2 : Memref sig .tc .vmem S128x128 .f32) (ha2 : a2.IsWhole) (a3 : Memref sig .tc .vmem S128x128 .f32) (ha3 : a3.IsWhole) (a4 : Memref sig .tc .vmem S1x128 .f32) (ha4 : a4.IsWhole) (a5 : Memref sig .tc .vmem S128x128 .f32) (ha5 : a5.IsWhole) (a6 : Memref sig .tc .vmem S1x128 .f32) (ha6 : a6.IsWhole) (a7 : Memref sig .tc .vmem S128x128 .f32) (ha7 : a7.IsWhole) (a8 : Memref sig .tc .vmem S128x128 .f32) (ha8 : a8.IsWhole) (a9 : Memref sig .tc .vmem S4000x128 .f32) (ha9 : a9.IsWhole) (a10 : Memref sig .tc .vmem S4000x128 .bf16) (ha10 : a10.IsWhole) (a11 : Memref sig .tc .vmem S4000x128 .bf16) (ha11 : a11.IsWhole)
    (x0 : Vec F S4000x128 .f32) (x1 : Vec F S4000x128 .f32) (x2 : Vec F S128x128 .f32) (x3 : Vec F S128x128 .f32) (x4 : Vec F S1x128 .f32) (x5 : Vec F S128x128 .f32) (x6 : Vec F S1x128 .f32) (x7 : Vec F S128x128 .f32) (x8 : Vec F S128x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d) ∗ (∃ d, owns (c : Thread nD τ) a10 fullShare d) ∗ (∃ d, owns (c : Thread nD τ) a11 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare (out14_9 x0 x1 x2 x3 x4 x5 x6) ∗ owns (c : Thread nD τ) a10 fullShare (out14_10 x0 x1 x2 x3 x4 x5 x6 x7) ∗ owns (c : Thread nD τ) a11 fullShare (out14_11 x0 x1 x2 x3 x4 x5 x6 x8)) -∗ K ⟨⟩))
      ⊢ wp frame (wpE (defs₀ (F := F)) Variants.none c none) E (cc14__node_update_ab_kernel i a0 ha0 a1 ha1 a2 ha2 a3 ha3 a4 ha4 a5 ha5 a6 ha6 a7 ha7 a8 ha8 a9 ha9 a10 ha10 a11 ha11) K := by
  simp only [cc14__node_update_ab_kernel_eq_skeleton]; unfold cc14__node_update_ab_kernel_skel
  simp only [k14_part1_eq_skeleton]; unfold k14_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (fills14_f32 _)
  isplitl [H10]
  · iexists _; isplitr
    swap; · iexact H10
    ipureintro
    try dsimp only
    exact View.read_writes_eq_canon _ _ _ (fills14_bf16 _)
  iexists _; isplitr
  swap; · iexact H11
  ipureintro
  try dsimp only
  exact View.read_writes_eq_canon _ _ _ (fills14_bf16 _)

/-! ## The pipeline's proof data -/

/-- The proof data of this region's pipeline on core `c`: the arrays as the region finds them; after the body at
    point `t` each input's staging buffer still at its block and each result's at its `out14_w` of the input blocks;
    the invariant that nothing else is touched; full shares; nothing owed. -/
noncomputable def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => iblk14 V c 4 t
    | ⟨5, _⟩ => iblk14 V c 5 t
    | ⟨6, _⟩ => iblk14 V c 6 t
    | ⟨7, _⟩ => iblk14 V c 7 t
    | ⟨8, _⟩ => iblk14 V c 8 t
    | ⟨9, _⟩ => out14_9 (iblk14 V c 0 t) (iblk14 V c 1 t) (iblk14 V c 2 t) (iblk14 V c 3 t) (iblk14 V c 4 t) (iblk14 V c 5 t) (iblk14 V c 6 t)
    | ⟨10, _⟩ => out14_10 (iblk14 V c 0 t) (iblk14 V c 1 t) (iblk14 V c 2 t) (iblk14 V c 3 t) (iblk14 V c 4 t) (iblk14 V c 5 t) (iblk14 V c 6 t) (iblk14 V c 7 t)
    | ⟨11, _⟩ => out14_11 (iblk14 V c 0 t) (iblk14 V c 1 t) (iblk14 V c 2 t) (iblk14 V c 3 t) (iblk14 V c 4 t) (iblk14 V c 5 t) (iblk14 V c 6 t) (iblk14 V c 8 t)
  Φ _ := Pipeline.ΦA spec14 c
  q _ := fullShare
  owed _ := 0

/-- The proof data's arrays are the region-entry contents. -/
theorem A_eq14 (c : Dev nD) (w : Fin cfg14.W) : (dat14 V c).A w = V c (Pipeline.arrRef spec14 w) := by
  dsimp only [dat14]

/-! What the body leaves, window by window. -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = iblk14 V c 4 t := by dsimp only [dat14]
theorem after14_5 (c : Dev nD) (t : Fin cfg14.N) : (dat14 V c).after 5 t = iblk14 V c 5 t := by dsimp only [dat14]
theorem after14_6 (c : Dev nD) (t : Fin cfg14.N) : (dat14 V c).after 6 t = iblk14 V c 6 t := by dsimp only [dat14]
theorem after14_7 (c : Dev nD) (t : Fin cfg14.N) : (dat14 V c).after 7 t = iblk14 V c 7 t := by dsimp only [dat14]
theorem after14_8 (c : Dev nD) (t : Fin cfg14.N) : (dat14 V c).after 8 t = iblk14 V c 8 t := by dsimp only [dat14]
theorem after14_9 (c : Dev nD) (t : Fin cfg14.N) : (dat14 V c).after 9 t = out14_9 (iblk14 V c 0 t) (iblk14 V c 1 t) (iblk14 V c 2 t) (iblk14 V c 3 t) (iblk14 V c 4 t) (iblk14 V c 5 t) (iblk14 V c 6 t) := by dsimp only [dat14]
theorem after14_10 (c : Dev nD) (t : Fin cfg14.N) : (dat14 V c).after 10 t = out14_10 (iblk14 V c 0 t) (iblk14 V c 1 t) (iblk14 V c 2 t) (iblk14 V c 3 t) (iblk14 V c 4 t) (iblk14 V c 5 t) (iblk14 V c 6 t) (iblk14 V c 7 t) := by dsimp only [dat14]
theorem after14_11 (c : Dev nD) (t : Fin cfg14.N) : (dat14 V c).after 11 t = out14_11 (iblk14 V c 0 t) (iblk14 V c 1 t) (iblk14 V c 2 t) (iblk14 V c 3 t) (iblk14 V c 4 t) (iblk14 V c 5 t) (iblk14 V c 6 t) (iblk14 V c 8 t) := by dsimp only [dat14]

/-! Each input's current staging buffer holds the window's block at every point, whether the block was fetched at
    that point or is still there from the first point (the seven weight windows' block index never moves, so the
    block of the first point is the block of every point). -/
theorem found14_0 (c : Dev nD) (t : Fin cfg14.N) (d) : (dat14 V c).before 0 t d = iblk14 V c 0 t :=
  ((dat14 V c).before_in_eq_fetched 0 rfl (fun _ => rfl) (fun _ _ _ => rfl)
    (fun t => by rw [after14_0]; unfold Dat.blockOf iblk14; rw [A_eq14]; try rfl) t d).trans
    (by unfold Dat.fetched Dat.blockOf iblk14; rw [A_eq14]; try rfl)
theorem found14_1 (c : Dev nD) (t : Fin cfg14.N) (d) : (dat14 V c).before 1 t d = iblk14 V c 1 t :=
  ((dat14 V c).before_in_eq_fetched 1 rfl (fun _ => rfl) (fun _ _ _ => rfl)
    (fun t => by rw [after14_1]; unfold Dat.blockOf iblk14; rw [A_eq14]; try rfl) t d).trans
    (by unfold Dat.fetched Dat.blockOf iblk14; rw [A_eq14]; try rfl)
theorem found14_2 (c : Dev nD) (t : Fin cfg14.N) (d) : (dat14 V c).before 2 t d = iblk14 V c 2 t :=
  ((dat14 V c).before_in_eq_fetched 2 rfl (fun _ => rfl) (fun _ _ _ => rfl)
    (fun t => by rw [after14_2]; unfold Dat.blockOf iblk14; rw [A_eq14]; try rfl) t d).trans
    (by unfold Dat.fetched Dat.blockOf iblk14; rw [A_eq14]; try rfl)
theorem found14_3 (c : Dev nD) (t : Fin cfg14.N) (d) : (dat14 V c).before 3 t d = iblk14 V c 3 t :=
  ((dat14 V c).before_in_eq_fetched 3 rfl (fun _ => rfl) (fun _ _ _ => rfl)
    (fun t => by rw [after14_3]; unfold Dat.blockOf iblk14; rw [A_eq14]; try rfl) t d).trans
    (by unfold Dat.fetched Dat.blockOf iblk14; rw [A_eq14]; try rfl)
theorem found14_4 (c : Dev nD) (t : Fin cfg14.N) (d) : (dat14 V c).before 4 t d = iblk14 V c 4 t :=
  ((dat14 V c).before_in_eq_fetched 4 rfl (fun _ => rfl) (fun _ _ _ => rfl)
    (fun t => by rw [after14_4]; unfold Dat.blockOf iblk14; rw [A_eq14]; try rfl) t d).trans
    (by unfold Dat.fetched Dat.blockOf iblk14; rw [A_eq14]; try rfl)
theorem found14_5 (c : Dev nD) (t : Fin cfg14.N) (d) : (dat14 V c).before 5 t d = iblk14 V c 5 t :=
  ((dat14 V c).before_in_eq_fetched 5 rfl (fun _ => rfl) (fun _ _ _ => rfl)
    (fun t => by rw [after14_5]; unfold Dat.blockOf iblk14; rw [A_eq14]; try rfl) t d).trans
    (by unfold Dat.fetched Dat.blockOf iblk14; rw [A_eq14]; try rfl)
theorem found14_6 (c : Dev nD) (t : Fin cfg14.N) (d) : (dat14 V c).before 6 t d = iblk14 V c 6 t :=
  ((dat14 V c).before_in_eq_fetched 6 rfl (fun _ => rfl) (fun _ _ _ => rfl)
    (fun t => by rw [after14_6]; unfold Dat.blockOf iblk14; rw [A_eq14]; try rfl) t d).trans
    (by unfold Dat.fetched Dat.blockOf iblk14; rw [A_eq14]; try rfl)
theorem found14_7 (c : Dev nD) (t : Fin cfg14.N) (d) : (dat14 V c).before 7 t d = iblk14 V c 7 t :=
  ((dat14 V c).before_in_eq_fetched 7 rfl (fun _ => rfl) (fun _ _ _ => rfl)
    (fun t => by rw [after14_7]; unfold Dat.blockOf iblk14; rw [A_eq14]; try rfl) t d).trans
    (by unfold Dat.fetched Dat.blockOf iblk14; rw [A_eq14]; try rfl)
theorem found14_8 (c : Dev nD) (t : Fin cfg14.N) (d) : (dat14 V c).before 8 t d = iblk14 V c 8 t :=
  ((dat14 V c).before_in_eq_fetched 8 rfl (fun _ => rfl) (fun _ _ _ => rfl)
    (fun t => by rw [after14_8]; unfold Dat.blockOf iblk14; rw [A_eq14]; try rfl) t d).trans
    (by unfold Dat.fetched Dat.blockOf iblk14; rw [A_eq14]; try rfl)

/-! ## The body obligation -/

/-- What the body is called with at point `t`: the invariant, the debts, and the twelve staging buffers. -/
noncomputable def pre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d))
    ∗ (∃ d, owns (c : Thread nD τ) (st14_5 t) fullShare ((dat14 V c).before 5 t d))
    ∗ (∃ d, owns (c : Thread nD τ) (st14_6 t) fullShare ((dat14 V c).before 6 t d))
    ∗ (∃ d, owns (c : Thread nD τ) (st14_7 t) fullShare ((dat14 V c).before 7 t d))
    ∗ (∃ d, owns (c : Thread nD τ) (st14_8 t) fullShare ((dat14 V c).before 8 t d))
    ∗ (∃ d, owns (c : Thread nD τ) (st14_9 t) fullShare ((dat14 V c).before 9 t d))
    ∗ (∃ d, owns (c : Thread nD τ) (st14_10 t) fullShare ((dat14 V c).before 10 t d))
    ∗ (∃ d, owns (c : Thread nD τ) (st14_11 t) fullShare ((dat14 V c).before 11 t d)))

/-- What it returns. -/
noncomputable def post14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t)
    ∗ owns (c : Thread nD τ) (st14_5 t) fullShare ((dat14 V c).after 5 t)
    ∗ owns (c : Thread nD τ) (st14_6 t) fullShare ((dat14 V c).after 6 t)
    ∗ owns (c : Thread nD τ) (st14_7 t) fullShare ((dat14 V c).after 7 t)
    ∗ owns (c : Thread nD τ) (st14_8 t) fullShare ((dat14 V c).after 8 t)
    ∗ owns (c : Thread nD τ) (st14_9 t) fullShare ((dat14 V c).after 9 t)
    ∗ owns (c : Thread nD τ) (st14_10 t) fullShare ((dat14 V c).after 10 t)
    ∗ owns (c : Thread nD τ) (st14_11 t) fullShare ((dat14 V c).after 11 t))

/-- The body at any point: the input buffers hold their blocks, so the body's triple applies; the invariant and the
    debts pass through untouched. -/
theorem steps14 (c : Dev nD) (t : Fin cfg14.N) :
    pre14 V c t ⊢ wp frame (wpE (defs₀ (F := F)) Variants.none c none) Set.univ (bodyAt14 t) (fun _ => post14 V c t) := by
  unfold pre14 post14 bodyAt14
  simp only [found14_0, found14_1, found14_2, found14_3, found14_4, found14_5, found14_6, found14_7, found14_8]
  rw [show (dat14 V c).Φ t.succ = (dat14 V c).Φ t.castSucc from rfl,
    show (dat14 V c).owesAt () t.succ = (dat14 V c).owesAt () t.castSucc from rfl,
    after14_0, after14_1, after14_2, after14_3, after14_4, after14_5, after14_6, after14_7, after14_8, after14_9, after14_10, after14_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (runs14 c Set.univ _ _ _ _ _ _ _ _ _ _ _ _ _ _ _ _ _ _ _ _ _ _ _ _ _ (iblk14 V c 0 t) (iblk14 V c 1 t) (iblk14 V c 2 t) (iblk14 V c 3 t) (iblk14 V c 4 t) (iblk14 V c 5 t) (iblk14 V c 6 t) (iblk14 V c 7 t) (iblk14 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation14 (c : Dev nD) : BodyObligation (dat14 (F := F) V c) (defs₀ (F := F)) Variants.none () Set.univ := fun t => by
  rw [bigSep_W14, bigSep_W14]
  exact steps14 V c t

end Cert.KernelIdeal.Hand

end
-- ==== Proof.KI.Reg15.lean ====
/-
  Region 15 of @main, the decoder kernel: the frame half, for any float instance.

  Each grid point hands the body ten whole staging buffers: a block of 4000 feature rows, the matching block of
  the four extra columns, the seven weight and bias arrays (whole, fetched at the first point and kept), and the
  result block. The body reads the nine inputs whole and writes the result block whole with one store, so the
  result buffer after the body is a function of the nine input blocks alone.
-/
import proofs.«152161_j29669634081217_2_alg».proof.Proof.Gen.KernelIdeal.Launch
import proofs.«152161_j29669634081217_2_alg».proof.Proof.Gen.KernelIdeal.Skeleton
import proofs.«152161_j29669634081217_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
noncomputable def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- An input window's current staging buffer holds its block at every point, whether the block was fetched there or
    kept from the point before (the weights and biases are fetched once: their block index never moves), for any
    proof data whose array is the entry contents and whose body leaves the block in place. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)

theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

theorem before15_2_of {c : Dev nD} (dat : Dat τ (Elt F) Unit ℕ (UR sig nD τ) ℕ cfg15 c) (hA : dat.A 2 = V c (Pipeline.arrRef spec15 2))
    (hafter : ∀ t, dat.after 2 t = iblk15 V c 2 t) (t : Fin cfg15.N) (d) : dat.before 2 t d = iblk15 V c 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)

theorem before15_3_of {c : Dev nD} (dat : Dat τ (Elt F) Unit ℕ (UR sig nD τ) ℕ cfg15 c) (hA : dat.A 3 = V c (Pipeline.arrRef spec15 3))
    (hafter : ∀ t, dat.after 3 t = iblk15 V c 3 t) (t : Fin cfg15.N) (d) : dat.before 3 t d = iblk15 V c 3 t :=
  (dat.before_in_eq_fetched 3 rfl (fun _ => rfl) (fun _ _ _ => rfl) (fun t => by rw [hafter]; unfold Dat.blockOf iblk15; rw [hA]; try rfl) t d).trans
    (by unfold Dat.fetched Dat.blockOf iblk15; rw [hA]; try rfl)

theorem before15_4_of {c : Dev nD} (dat : Dat τ (Elt F) Unit ℕ (UR sig nD τ) ℕ cfg15 c) (hA : dat.A 4 = V c (Pipeline.arrRef spec15 4))
    (hafter : ∀ t, dat.after 4 t = iblk15 V c 4 t) (t : Fin cfg15.N) (d) : dat.before 4 t d = iblk15 V c 4 t :=
  (dat.before_in_eq_fetched 4 rfl (fun _ => rfl) (fun _ _ _ => rfl) (fun t => by rw [hafter]; unfold Dat.blockOf iblk15; rw [hA]; try rfl) t d).trans
    (by unfold Dat.fetched Dat.blockOf iblk15; rw [hA]; try rfl)

theorem before15_5_of {c : Dev nD} (dat : Dat τ (Elt F) Unit ℕ (UR sig nD τ) ℕ cfg15 c) (hA : dat.A 5 = V c (Pipeline.arrRef spec15 5))
    (hafter : ∀ t, dat.after 5 t = iblk15 V c 5 t) (t : Fin cfg15.N) (d) : dat.before 5 t d = iblk15 V c 5 t :=
  (dat.before_in_eq_fetched 5 rfl (fun _ => rfl) (fun _ _ _ => rfl) (fun t => by rw [hafter]; unfold Dat.blockOf iblk15; rw [hA]; try rfl) t d).trans
    (by unfold Dat.fetched Dat.blockOf iblk15; rw [hA]; try rfl)

theorem before15_6_of {c : Dev nD} (dat : Dat τ (Elt F) Unit ℕ (UR sig nD τ) ℕ cfg15 c) (hA : dat.A 6 = V c (Pipeline.arrRef spec15 6))
    (hafter : ∀ t, dat.after 6 t = iblk15 V c 6 t) (t : Fin cfg15.N) (d) : dat.before 6 t d = iblk15 V c 6 t :=
  (dat.before_in_eq_fetched 6 rfl (fun _ => rfl) (fun _ _ _ => rfl) (fun t => by rw [hafter]; unfold Dat.blockOf iblk15; rw [hA]; try rfl) t d).trans
    (by unfold Dat.fetched Dat.blockOf iblk15; rw [hA]; try rfl)

theorem before15_7_of {c : Dev nD} (dat : Dat τ (Elt F) Unit ℕ (UR sig nD τ) ℕ cfg15 c) (hA : dat.A 7 = V c (Pipeline.arrRef spec15 7))
    (hafter : ∀ t, dat.after 7 t = iblk15 V c 7 t) (t : Fin cfg15.N) (d) : dat.before 7 t d = iblk15 V c 7 t :=
  (dat.before_in_eq_fetched 7 rfl (fun _ => rfl) (fun _ _ _ => rfl) (fun t => by rw [hafter]; unfold Dat.blockOf iblk15; rw [hA]; try rfl) t d).trans
    (by unfold Dat.fetched Dat.blockOf iblk15; rw [hA]; try rfl)

theorem before15_8_of {c : Dev nD} (dat : Dat τ (Elt F) Unit ℕ (UR sig nD τ) ℕ cfg15 c) (hA : dat.A 8 = V c (Pipeline.arrRef spec15 8))
    (hafter : ∀ t, dat.after 8 t = iblk15 V c 8 t) (t : Fin cfg15.N) (d) : dat.before 8 t d = iblk15 V c 8 t :=
  (dat.before_in_eq_fetched 8 rfl (fun _ => rfl) (fun _ _ _ => rfl) (fun t => by rw [hafter]; unfold Dat.blockOf iblk15; rw [hA]; try rfl) t d).trans
    (by unfold Dat.fetched Dat.blockOf iblk15; rw [hA]; try rfl)

/-! ## The body's accesses: every buffer whole -/

noncomputable abbrev r15_0 : Rect S4000x128 := Rect.unit (s := S4000x128) ![0, 0] S4000x128.size inb_S4000x128_S4000x128_0_0
noncomputable abbrev r15_1 : Rect S4000x4 := Rect.unit (s := S4000x4) ![0, 0] S4000x4.size inb_S4000x4_S4000x4_0_0
noncomputable abbrev r15_2 : Rect S128x128 := Rect.unit (s := S128x128) ![0, 0] S128x128.size inb_S128x128_S128x128_0_0
noncomputable abbrev r15_3 : Rect S2x128 := Rect.unit (s := S2x128) ![0, 0] S2x128.size inb_S2x128_S2x128_0_0
noncomputable abbrev r15_4 : Rect S1x128 := Rect.unit (s := S1x128) ![0, 0] S1x128.size inb_S1x128_S1x128_0_0
noncomputable abbrev r15_5 : Rect S128x64 := Rect.unit (s := S128x64) ![0, 0] S128x64.size inb_S128x64_S128x64_0_0
noncomputable abbrev r15_6 : Rect S1x64 := Rect.unit (s := S1x64) ![0, 0] S1x64.size inb_S1x64_S1x64_0_0
noncomputable abbrev r15_7 : Rect S64x3 := Rect.unit (s := S64x3) ![0, 0] S64x3.size inb_S64x3_S64x3_0_0
noncomputable abbrev r15_8 : Rect S1x3 := Rect.unit (s := S1x3) ![0, 0] S1x3.size inb_S1x3_S1x3_0_0
noncomputable abbrev r15_9 : Rect S4000x3 := Rect.unit (s := S4000x3) ![0, 0] S4000x3.size inb_S4000x3_S4000x3_0_0

/-! ## What the body leaves in the result buffer -/

/-- The result buffer after the body, from the nine input blocks: its one store, of the masked prediction computed
    from the loaded blocks. -/
noncomputable def out15_9 (x0 : Vec F S4000x128 .f32) (x1 : Vec F S4000x4 .f32) (x2 : Vec F S128x128 .f32) (x3 : Vec F S2x128 .f32) (x4 : Vec F S1x128 .f32) (x5 : Vec F S128x64 .f32) (x6 : Vec F S1x64 .f32) (x7 : Vec F S64x3 .f32) (x8 : Vec F S1x3 .f32) : Vec F S4000x3 .f32 :=
  View.canon [⟨r15_9, k15_pay1 (k15_pay3 (View.ld x1 r15_1)) (k15_pay4 (View.ld x1 r15_1))
    (k15_pay5 (View.ld x0 r15_0) (View.ld x1 r15_1) (View.ld x2 r15_2) (View.ld x3 r15_3) (View.ld x4 r15_4) (View.ld x5 r15_5) (View.ld x6 r15_6))
    (k15_pay6 (View.ld x7 r15_7)) (constant S4000x3 .f32 0x00000000#32) (View.ld x8 r15_8)⟩]

/-- The one store is of the whole buffer, so it covers it. -/
theorem cover15_9 (p0 : Vec F S4000x3 .f32) (y : S4000x3.Idx) :
    ∃ pc ∈ ([⟨r15_9, p0⟩] : List (View.Piece (Elt F) S4000x3 .f32)), y ∈ pc.1.set :=
  View.cover_of_tiled [⟨r15_9, p0⟩] S4000x3.size (by rfl) y

/-! ## The body's triple -/

set_option maxHeartbeats 4000000 in
/-- The kernel body on whole staging buffers, the inputs' at given contents and the result's at anything, runs to the
    continuation holding the inputs' as they were and the result's at `out15_9` of the inputs': the printed functions
    are their memory skeletons, which the executor runs through the part call; the result's earlier contents are read
    once and never used. -/
theorem sound_kernel15 (c : Dev nD) (E : Set ℕ) (i : grid15.Coords) (arg1 : Memref sig .tc .vmem S4000x128 .f32) (harg1 : arg1.IsWhole) (arg2 : Memref sig .tc .vmem S4000x4 .f32) (harg2 : arg2.IsWhole) (arg3 : Memref sig .tc .vmem S128x128 .f32) (harg3 : arg3.IsWhole) (arg4 : Memref sig .tc .vmem S2x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S64x3 .f32) (harg8 : arg8.IsWhole) (arg9 : Memref sig .tc .vmem S1x3 .f32) (harg9 : arg9.IsWhole) (arg10 : Memref sig .tc .vmem S4000x3 .f32) (harg10 : arg10.IsWhole)
    (x0 : Vec F S4000x128 .f32) (x1 : Vec F S4000x4 .f32) (x2 : Vec F S128x128 .f32) (x3 : Vec F S2x128 .f32) (x4 : Vec F S1x128 .f32) (x5 : Vec F S128x64 .f32) (x6 : Vec F S1x64 .f32) (x7 : Vec F S64x3 .f32) (x8 : Vec F S1x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out15_9 x0 x1 x2 x3 x4 x5 x6 x7 x8)) -∗ K ⟨⟩))
      ⊢ wp frame (wpE (defs₀ (F := F)) Variants.none c none) E (cc15__decoder_kernel i arg1 harg1 arg2 harg2 arg3 harg3 arg4 harg4 arg5 harg5 arg6 harg6 arg7 harg7 arg8 harg8 arg9 harg9 arg10 harg10) K := by
  simp only [cc15__decoder_kernel_eq_skeleton]; unfold cc15__decoder_kernel_skel
  simp only [k15_part1_eq_skeleton]; unfold k15_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover15_9 _)

/-! ## The pipeline's proof data -/

/-- The proof data of pipeline 15 on core `c`: the arrays as the region finds them; after the body at point `t` each
    input's buffer at its block and the result's at `out15_9` of the input blocks; the invariant the scoped rest and the
    generator register, untouched; nothing owed; full shares. -/
noncomputable def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => iblk15 V c 3 t
    | ⟨4, _⟩ => iblk15 V c 4 t
    | ⟨5, _⟩ => iblk15 V c 5 t
    | ⟨6, _⟩ => iblk15 V c 6 t
    | ⟨7, _⟩ => iblk15 V c 7 t
    | ⟨8, _⟩ => iblk15 V c 8 t
    | ⟨9, _⟩ => out15_9 (iblk15 V c 0 t) (iblk15 V c 1 t) (iblk15 V c 2 t) (iblk15 V c 3 t) (iblk15 V c 4 t) (iblk15 V c 5 t) (iblk15 V c 6 t) (iblk15 V c 7 t) (iblk15 V c 8 t)
  Φ _ := Pipeline.ΦA spec15 c
  q _ := fullShare
  owed _ := 0

/-- The proof data's arrays are the region-entry contents. -/
theorem A_eq15 (c : Dev nD) (w : Fin cfg15.W) : (dat15 V c).A w = V c (Pipeline.arrRef spec15 w) := by
  dsimp only [dat15]

/-- What the body leaves, window by window. -/
theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) : (dat15 V c).after 3 t = iblk15 V c 3 t := by dsimp only [dat15]
theorem after15_4 (c : Dev nD) (t : Fin cfg15.N) : (dat15 V c).after 4 t = iblk15 V c 4 t := by dsimp only [dat15]
theorem after15_5 (c : Dev nD) (t : Fin cfg15.N) : (dat15 V c).after 5 t = iblk15 V c 5 t := by dsimp only [dat15]
theorem after15_6 (c : Dev nD) (t : Fin cfg15.N) : (dat15 V c).after 6 t = iblk15 V c 6 t := by dsimp only [dat15]
theorem after15_7 (c : Dev nD) (t : Fin cfg15.N) : (dat15 V c).after 7 t = iblk15 V c 7 t := by dsimp only [dat15]
theorem after15_8 (c : Dev nD) (t : Fin cfg15.N) : (dat15 V c).after 8 t = iblk15 V c 8 t := by dsimp only [dat15]
theorem after15_9 (c : Dev nD) (t : Fin cfg15.N) : (dat15 V c).after 9 t = out15_9 (iblk15 V c 0 t) (iblk15 V c 1 t) (iblk15 V c 2 t) (iblk15 V c 3 t) (iblk15 V c 4 t) (iblk15 V c 5 t) (iblk15 V c 6 t) (iblk15 V c 7 t) (iblk15 V c 8 t) := by dsimp only [dat15]

/-- Each input's current staging buffer holds its block at every point, fetched there or not. -/
theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d
theorem before15_2 (c : Dev nD) (t : Fin cfg15.N) (d) : (dat15 V c).before 2 t d = iblk15 V c 2 t :=
  before15_2_of V (dat15 V c) (A_eq15 V c 2) (after15_2 V c) t d
theorem before15_3 (c : Dev nD) (t : Fin cfg15.N) (d) : (dat15 V c).before 3 t d = iblk15 V c 3 t :=
  before15_3_of V (dat15 V c) (A_eq15 V c 3) (after15_3 V c) t d
theorem before15_4 (c : Dev nD) (t : Fin cfg15.N) (d) : (dat15 V c).before 4 t d = iblk15 V c 4 t :=
  before15_4_of V (dat15 V c) (A_eq15 V c 4) (after15_4 V c) t d
theorem before15_5 (c : Dev nD) (t : Fin cfg15.N) (d) : (dat15 V c).before 5 t d = iblk15 V c 5 t :=
  before15_5_of V (dat15 V c) (A_eq15 V c 5) (after15_5 V c) t d
theorem before15_6 (c : Dev nD) (t : Fin cfg15.N) (d) : (dat15 V c).before 6 t d = iblk15 V c 6 t :=
  before15_6_of V (dat15 V c) (A_eq15 V c 6) (after15_6 V c) t d
theorem before15_7 (c : Dev nD) (t : Fin cfg15.N) (d) : (dat15 V c).before 7 t d = iblk15 V c 7 t :=
  before15_7_of V (dat15 V c) (A_eq15 V c 7) (after15_7 V c) t d
theorem before15_8 (c : Dev nD) (t : Fin cfg15.N) (d) : (dat15 V c).before 8 t d = iblk15 V c 8 t :=
  before15_8_of V (dat15 V c) (A_eq15 V c 8) (after15_8 V c) t d

/-! ## The body obligation, at a generic point -/

/-- What the body is called with at point `t`, the windows one by one, -/
noncomputable def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d))
    ∗ (∃ d, owns (c : Thread nD τ) (st15_3 t) fullShare ((dat15 V c).before 3 t d))
    ∗ (∃ d, owns (c : Thread nD τ) (st15_4 t) fullShare ((dat15 V c).before 4 t d))
    ∗ (∃ d, owns (c : Thread nD τ) (st15_5 t) fullShare ((dat15 V c).before 5 t d))
    ∗ (∃ d, owns (c : Thread nD τ) (st15_6 t) fullShare ((dat15 V c).before 6 t d))
    ∗ (∃ d, owns (c : Thread nD τ) (st15_7 t) fullShare ((dat15 V c).before 7 t d))
    ∗ (∃ d, owns (c : Thread nD τ) (st15_8 t) fullShare ((dat15 V c).before 8 t d))
    ∗ (∃ d, owns (c : Thread nD τ) (st15_9 t) fullShare ((dat15 V c).before 9 t d)))

/-- and what it returns. -/
noncomputable def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t)
    ∗ owns (c : Thread nD τ) (st15_3 t) fullShare ((dat15 V c).after 3 t)
    ∗ owns (c : Thread nD τ) (st15_4 t) fullShare ((dat15 V c).after 4 t)
    ∗ owns (c : Thread nD τ) (st15_5 t) fullShare ((dat15 V c).after 5 t)
    ∗ owns (c : Thread nD τ) (st15_6 t) fullShare ((dat15 V c).after 6 t)
    ∗ owns (c : Thread nD τ) (st15_7 t) fullShare ((dat15 V c).after 7 t)
    ∗ owns (c : Thread nD τ) (st15_8 t) fullShare ((dat15 V c).after 8 t)
    ∗ owns (c : Thread nD τ) (st15_9 t) fullShare ((dat15 V c).after 9 t))

/-- The body at any point: the inputs' buffers hold their blocks, so `sound_kernel15` applies; the invariant and the
    core's debts pass through unread. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2, before15_3, before15_4, before15_5, before15_6, before15_7, before15_8]
  rw [show (dat15 V c).Φ t.succ = (dat15 V c).Φ t.castSucc from rfl,
    show (dat15 V c).owesAt () t.succ = (dat15 V c).owesAt () t.castSucc from rfl,
    after15_0, after15_1, after15_2, after15_3, after15_4, after15_5, after15_6, after15_7, after15_8, after15_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel15 c Set.univ (grid15.coords t) _ _ _ _ _ _ _ _ _ _ _ _ _ _ _ _ _ _ _ _ (iblk15 V c 0 t) (iblk15 V c 1 t) (iblk15 V c 2 t) (iblk15 V c 3 t) (iblk15 V c 4 t) (iblk15 V c 5 t) (iblk15 V c 6 t) (iblk15 V c 7 t) (iblk15 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation15 (c : Dev nD) : BodyObligation (dat15 (F := F) V c) (defs₀ (F := F)) Variants.none () Set.univ := fun t => by
  rw [bigSep_W15, bigSep_W15]
  exact sound_body15 V c t

end Cert.KernelIdeal.Hand

end
-- ==== Proof.KI.Outs.lean ====
/-
  The contents of the unscoped buffers at every boundary of @main, defined stage by stage, and with them the unknowns of the generated
  valuations; each region's entry and exit contents; the proof data family.
-/
import proofs.«152161_j29669634081217_2_alg».proof.Proof.Gen.KernelIdeal.Launch
import proofs.«152161_j29669634081217_2_alg».proof.Proof.Gen.KernelIdeal.Skeleton
import proofs.«152161_j29669634081217_2_alg».proof.Proof.Gen.KernelIdeal.Points
import proofs.«152161_j29669634081217_2_alg».proof.Proof.Gen.KernelIdeal.Regions
import proofs.«152161_j29669634081217_2_alg».proof.Proof.KI.Reg0
import proofs.«152161_j29669634081217_2_alg».proof.Proof.KI.Reg1
import proofs.«152161_j29669634081217_2_alg».proof.Proof.KI.Reg2
import proofs.«152161_j29669634081217_2_alg».proof.Proof.KI.Reg3
import proofs.«152161_j29669634081217_2_alg».proof.Proof.KI.Reg4
import proofs.«152161_j29669634081217_2_alg».proof.Proof.KI.Reg5
import proofs.«152161_j29669634081217_2_alg».proof.Proof.KI.Reg6
import proofs.«152161_j29669634081217_2_alg».proof.Proof.KI.Reg7
import proofs.«152161_j29669634081217_2_alg».proof.Proof.KI.Reg8
import proofs.«152161_j29669634081217_2_alg».proof.Proof.KI.Reg9
import proofs.«152161_j29669634081217_2_alg».proof.Proof.KI.Reg10
import proofs.«152161_j29669634081217_2_alg».proof.Proof.KI.Reg11
import proofs.«152161_j29669634081217_2_alg».proof.Proof.KI.Reg12
import proofs.«152161_j29669634081217_2_alg».proof.Proof.KI.Reg13
import proofs.«152161_j29669634081217_2_alg».proof.Proof.KI.Reg14
import proofs.«152161_j29669634081217_2_alg».proof.Proof.KI.Reg15
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

universe u v
/-- Updating a function at a point by the value an update at that point has there is that update. -/
theorem upd1_fix {α : Sort u} [DecidableEq α] {β : α → Sort v} (f : ∀ a, β a) (a0 : α) (v0 : β a0) :
    Function.update f a0 (Function.update f a0 v0 a0) = Function.update f a0 v0 := by
  rw [Function.update_self]
/-- The same at two distinct points. -/
theorem upd2_fix {α : Sort u} [DecidableEq α] {β : α → Sort v} (f : ∀ a, β a) {a0 a1 : α} (h01 : a0 ≠ a1) (v0 : β a0) (v1 : β a1) :
    Function.update (Function.update f a0 (Function.update (Function.update f a0 v0) a1 v1 a0)) a1
        (Function.update (Function.update f a0 v0) a1 v1 a1)
      = Function.update (Function.update f a0 v0) a1 v1 := by
  rw [Function.update_self, Function.update_of_ne h01, Function.update_self]
/-- The same at three distinct points. -/
theorem upd3_fix {α : Sort u} [DecidableEq α] {β : α → Sort v} (f : ∀ a, β a) {a0 a1 a2 : α} (h01 : a0 ≠ a1) (h02 : a0 ≠ a2) (h12 : a1 ≠ a2)
    (v0 : β a0) (v1 : β a1) (v2 : β a2) :
    Function.update (Function.update (Function.update f a0 (Function.update (Function.update (Function.update f a0 v0) a1 v1) a2 v2 a0)) a1
        (Function.update (Function.update (Function.update f a0 v0) a1 v1) a2 v2 a1)) a2
        (Function.update (Function.update (Function.update f a0 v0) a1 v1) a2 v2 a2)
      = Function.update (Function.update (Function.update f a0 v0) a1 v1) a2 v2 := by
  rw [Function.update_self, Function.update_of_ne h12, Function.update_self, Function.update_of_ne h02, Function.update_of_ne h01,
    Function.update_self]

/-- A property of each of the 5 indices holds of every index. -/
theorem forall_fin5 {P : Fin 5 → Prop} (h0 : P 0) (h1 : P 1) (h2 : P 2) (h3 : P 3) (h4 : P 4) : ∀ w, P w
  | 0 => h0
  | 1 => h1
  | 2 => h2
  | 3 => h3
  | 4 => h4
  | ⟨_ + 5, h⟩ => absurd h (Nat.not_lt.2 (Nat.le_add_left _ _))
/-- A property of each of the 6 indices holds of every index. -/
theorem forall_fin6 {P : Fin 6 → Prop} (h0 : P 0) (h1 : P 1) (h2 : P 2) (h3 : P 3) (h4 : P 4) (h5 : P 5) : ∀ w, P w
  | 0 => h0
  | 1 => h1
  | 2 => h2
  | 3 => h3
  | 4 => h4
  | 5 => h5
  | ⟨_ + 6, h⟩ => absurd h (Nat.not_lt.2 (Nat.le_add_left _ _))
/-- A property of each of the 8 indices holds of every index. -/
theorem forall_fin8 {P : Fin 8 → Prop} (h0 : P 0) (h1 : P 1) (h2 : P 2) (h3 : P 3) (h4 : P 4) (h5 : P 5) (h6 : P 6) (h7 : P 7) : ∀ w, P w
  | 0 => h0
  | 1 => h1
  | 2 => h2
  | 3 => h3
  | 4 => h4
  | 5 => h5
  | 6 => h6
  | 7 => h7
  | ⟨_ + 8, h⟩ => absurd h (Nat.not_lt.2 (Nat.le_add_left _ _))
/-- A property of each of the 10 indices holds of every index. -/
theorem forall_fin10 {P : Fin 10 → Prop} (h0 : P 0) (h1 : P 1) (h2 : P 2) (h3 : P 3) (h4 : P 4) (h5 : P 5) (h6 : P 6) (h7 : P 7) (h8 : P 8) (h9 : P 9) : ∀ w, P w
  | 0 => h0
  | 1 => h1
  | 2 => h2
  | 3 => h3
  | 4 => h4
  | 5 => h5
  | 6 => h6
  | 7 => h7
  | 8 => h8
  | 9 => h9
  | ⟨_ + 10, h⟩ => absurd h (Nat.not_lt.2 (Nat.le_add_left _ _))
/-- A property of each of the 12 indices holds of every index. -/
theorem forall_fin12 {P : Fin 12 → Prop} (h0 : P 0) (h1 : P 1) (h2 : P 2) (h3 : P 3) (h4 : P 4) (h5 : P 5) (h6 : P 6) (h7 : P 7) (h8 : P 8) (h9 : P 9) (h10 : P 10) (h11 : P 11) : ∀ w, P w
  | 0 => h0
  | 1 => h1
  | 2 => h2
  | 3 => h3
  | 4 => h4
  | 5 => h5
  | 6 => h6
  | 7 => h7
  | 8 => h8
  | 9 => h9
  | 10 => h10
  | 11 => h11
  | ⟨_ + 12, h⟩ => absurd h (Nat.not_lt.2 (Nat.le_add_left _ _))

variable (m : (ℓ : Loc nD τ sig) → Buf (Elt F) ℓ)

/-! ## The buffers' contents at each boundary of @main, stage by stage

W J c is core c's unscoped buffers after item J−1: a host stretch acts on the contents before it; a region leaves each of its
output arrays at what its write-backs fold to from the region's entry contents, and every other buffer as entered. Each stage
is defined from the one before it, so the contents the regions leave are defined outright. -/

/-- After the first host stretch: region 0's entry. -/
noncomputable def W1 (c : Dev nD) : Valuation τ sig (Elt F) := V1 m c
/-- At region 0's exit: its output arrays at what the pipeline leaves, every other buffer as entered. -/
noncomputable def W2 (c : Dev nD) : Valuation τ sig (Elt F) :=
  Function.update (W1 m c) main_v14 ((dat0 (fun c b => W1 m c b) c).arrAt 5 cfg0.N)
/-- After host stretch 1: region 1's entry. -/
noncomputable def W3 (c : Dev nD) : Valuation τ sig (Elt F) := StableHlo.after hostOps1 (W2 m c)
/-- At region 1's exit: its output arrays at what the pipeline leaves, every other buffer as entered. -/
noncomputable def W4 (c : Dev nD) : Valuation τ sig (Elt F) :=
  Function.update (W3 m c) main_v17 ((dat1 (fun c b => W3 m c b) c).arrAt 5 cfg1.N)
/-- After host stretch 2: region 2's entry. -/
noncomputable def W5 (c : Dev nD) : Valuation τ sig (Elt F) := StableHlo.after hostOps2 (W4 m c)
/-- At region 2's exit: its output arrays at what the pipeline leaves, every other buffer as entered. -/
noncomputable def W6 (c : Dev nD) : Valuation τ sig (Elt F) :=
  Function.update (Function.update (W5 m c) main_v22_0 ((dat2 (fun c b => W5 m c b) c).arrAt 3 cfg2.N)) main_v22_1 ((dat2 (fun c b => W5 m c b) c).arrAt 4 cfg2.N)
/-- After host stretch 3: region 3's entry. -/
noncomputable def W7 (c : Dev nD) : Valuation τ sig (Elt F) := StableHlo.after hostOps3 (W6 m c)
/-- At region 3's exit: its output arrays at what the pipeline leaves, every other buffer as entered. -/
noncomputable def W8 (c : Dev nD) : Valuation τ sig (Elt F) :=
  Function.update (W7 m c) main_v47 ((dat3 (fun c b => W7 m c b) c).arrAt 7 cfg3.N)
/-- After host stretch 4: region 4's entry. -/
noncomputable def W9 (c : Dev nD) : Valuation τ sig (Elt F) := StableHlo.after hostOps4 (W8 m c)
/-- At region 4's exit: its output arrays at what the pipeline leaves, every other buffer as entered. -/
noncomputable def W10 (c : Dev nD) : Valuation τ sig (Elt F) :=
  Function.update (Function.update (Function.update (W9 m c) main_v67_0 ((dat4 (fun c b => W9 m c b) c).arrAt 9 cfg4.N)) main_v67_1 ((dat4 (fun c b => W9 m c b) c).arrAt 10 cfg4.N)) main_v67_2 ((dat4 (fun c b => W9 m c b) c).arrAt 11 cfg4.N)
/-- After host stretch 5: region 5's entry. -/
noncomputable def W11 (c : Dev nD) : Valuation τ sig (Elt F) := StableHlo.after hostOps5 (W10 m c)
/-- At region 5's exit: its output arrays at what the pipeline leaves, every other buffer as entered. -/
noncomputable def W12 (c : Dev nD) : Valuation τ sig (Elt F) :=
  Function.update (W11 m c) main_v92 ((dat5 (fun c b => W11 m c b) c).arrAt 7 cfg5.N)
/-- After host stretch 6: region 6's entry. -/
noncomputable def W13 (c : Dev nD) : Valuation τ sig (Elt F) := StableHlo.after hostOps6 (W12 m c)
/-- At region 6's exit: its output arrays at what the pipeline leaves, every other buffer as entered. -/
noncomputable def W14 (c : Dev nD) : Valuation τ sig (Elt F) :=
  Function.update (Function.update (Function.update (W13 m c) main_v112_0 ((dat6 (fun c b => W13 m c b) c).arrAt 9 cfg6.N)) main_v112_1 ((dat6 (fun c b => W13 m c b) c).arrAt 10 cfg6.N)) main_v112_2 ((dat6 (fun c b => W13 m c b) c).arrAt 11 cfg6.N)
/-- After host stretch 7: region 7's entry. -/
noncomputable def W15 (c : Dev nD) : Valuation τ sig (Elt F) := StableHlo.after hostOps7 (W14 m c)
/-- At region 7's exit: its output arrays at what the pipeline leaves, every other buffer as entered. -/
noncomputable def W16 (c : Dev nD) : Valuation τ sig (Elt F) :=
  Function.update (W15 m c) main_v137 ((dat7 (fun c b => W15 m c b) c).arrAt 7 cfg7.N)
/-- After host stretch 8: region 8's entry. -/
noncomputable def W17 (c : Dev nD) : Valuation τ sig (Elt F) := StableHlo.after hostOps8 (W16 m c)
/-- At region 8's exit: its output arrays at what the pipeline leaves, every other buffer as entered. -/
noncomputable def W18 (c : Dev nD) : Valuation τ sig (Elt F) :=
  Function.update (Function.update (Function.update (W17 m c) main_v157_0 ((dat8 (fun c b => W17 m c b) c).arrAt 9 cfg8.N)) main_v157_1 ((dat8 (fun c b => W17 m c b) c).arrAt 10 cfg8.N)) main_v157_2 ((dat8 (fun c b => W17 m c b) c).arrAt 11 cfg8.N)
/-- After host stretch 9: region 9's entry. -/
noncomputable def W19 (c : Dev nD) : Valuation τ sig (Elt F) := StableHlo.after hostOps9 (W18 m c)
/-- At region 9's exit: its output arrays at what the pipeline leaves, every other buffer as entered. -/
noncomputable def W20 (c : Dev nD) : Valuation τ sig (Elt F) :=
  Function.update (W19 m c) main_v182 ((dat9 (fun c b => W19 m c b) c).arrAt 7 cfg9.N)
/-- After host stretch 10: region 10's entry. -/
noncomputable def W21 (c : Dev nD) : Valuation τ sig (Elt F) := StableHlo.after hostOps10 (W20 m c)
/-- At region 10's exit: its output arrays at what the pipeline leaves, every other buffer as entered. -/
noncomputable def W22 (c : Dev nD) : Valuation τ sig (Elt F) :=
  Function.update (Function.update (Function.update (W21 m c) main_v202_0 ((dat10 (fun c b => W21 m c b) c).arrAt 9 cfg10.N)) main_v202_1 ((dat10 (fun c b => W21 m c b) c).arrAt 10 cfg10.N)) main_v202_2 ((dat10 (fun c b => W21 m c b) c).arrAt 11 cfg10.N)
/-- After host stretch 11: region 11's entry. -/
noncomputable def W23 (c : Dev nD) : Valuation τ sig (Elt F) := StableHlo.after hostOps11 (W22 m c)
/-- At region 11's exit: its output arrays at what the pipeline leaves, every other buffer as entered. -/
noncomputable def W24 (c : Dev nD) : Valuation τ sig (Elt F) :=
  Function.update (W23 m c) main_v227 ((dat11 (fun c b => W23 m c b) c).arrAt 7 cfg11.N)
/-- After host stretch 12: region 12's entry. -/
noncomputable def W25 (c : Dev nD) : Valuation τ sig (Elt F) := StableHlo.after hostOps12 (W24 m c)
/-- At region 12's exit: its output arrays at what the pipeline leaves, every other buffer as entered. -/
noncomputable def W26 (c : Dev nD) : Valuation τ sig (Elt F) :=
  Function.update (Function.update (Function.update (W25 m c) main_v247_0 ((dat12 (fun c b => W25 m c b) c).arrAt 9 cfg12.N)) main_v247_1 ((dat12 (fun c b => W25 m c b) c).arrAt 10 cfg12.N)) main_v247_2 ((dat12 (fun c b => W25 m c b) c).arrAt 11 cfg12.N)
/-- After host stretch 13: region 13's entry. -/
noncomputable def W27 (c : Dev nD) : Valuation τ sig (Elt F) := StableHlo.after hostOps13 (W26 m c)
/-- At region 13's exit: its output arrays at what the pipeline leaves, every other buffer as entered. -/
noncomputable def W28 (c : Dev nD) : Valuation τ sig (Elt F) :=
  Function.update (W27 m c) main_v272 ((dat13 (fun c b => W27 m c b) c).arrAt 7 cfg13.N)
/-- After host stretch 14: region 14's entry. -/
noncomputable def W29 (c : Dev nD) : Valuation τ sig (Elt F) := StableHlo.after hostOps14 (W28 m c)
/-- At region 14's exit: its output arrays at what the pipeline leaves, every other buffer as entered. -/
noncomputable def W30 (c : Dev nD) : Valuation τ sig (Elt F) :=
  Function.update (Function.update (Function.update (W29 m c) main_v292_0 ((dat14 (fun c b => W29 m c b) c).arrAt 9 cfg14.N)) main_v292_1 ((dat14 (fun c b => W29 m c b) c).arrAt 10 cfg14.N)) main_v292_2 ((dat14 (fun c b => W29 m c b) c).arrAt 11 cfg14.N)
/-- After host stretch 15: region 15's entry. -/
noncomputable def W31 (c : Dev nD) : Valuation τ sig (Elt F) := StableHlo.after hostOps15 (W30 m c)
/-- At region 15's exit: its output arrays at what the pipeline leaves, every other buffer as entered. -/
noncomputable def W32 (c : Dev nD) : Valuation τ sig (Elt F) :=
  Function.update (W31 m c) main_v299 ((dat15 (fun c b => W31 m c b) c).arrAt 9 cfg15.N)

/-- What the regions leave, as the generated valuations' unknowns: the stage's contents read at the reference. -/
noncomputable def outs : Outs (F := F) := fun J r c => match J with
  | 2 => W2 m c r
  | 4 => W4 m c r
  | 6 => W6 m c r
  | 8 => W8 m c r
  | 10 => W10 m c r
  | 12 => W12 m c r
  | 14 => W14 m c r
  | 16 => W16 m c r
  | 18 => W18 m c r
  | 20 => W20 m c r
  | 22 => W22 m c r
  | 24 => W24 m c r
  | 26 => W26 m c r
  | 28 => W28 m c r
  | 30 => W30 m c r
  | 32 => W32 m c r
  | _ => W1 m c r

/-! ## The generated valuations at these unknowns are the stages -/

theorem VW1 (c : Dev nD) : V1 m c = W1 m c := rfl
theorem VW2 (c : Dev nD) : V2 m (outs m) c = W2 m c := by
  show Function.update (V1 m c) main_v14 (W2 m c main_v14) = W2 m c
  rw [VW1]; unfold W2
  exact upd1_fix _ _ _
theorem VW3 (c : Dev nD) : V3 m (outs m) c = W3 m c := by
  show StableHlo.after hostOps1 (V2 m (outs m) c) = _
  rw [VW2]; rfl
theorem VW4 (c : Dev nD) : V4 m (outs m) c = W4 m c := by
  show Function.update (V3 m (outs m) c) main_v17 (W4 m c main_v17) = W4 m c
  rw [VW3]; unfold W4
  exact upd1_fix _ _ _
theorem VW5 (c : Dev nD) : V5 m (outs m) c = W5 m c := by
  show StableHlo.after hostOps2 (V4 m (outs m) c) = _
  rw [VW4]; rfl
theorem VW6 (c : Dev nD) : V6 m (outs m) c = W6 m c := by
  show Function.update (Function.update (V5 m (outs m) c) main_v22_0 (W6 m c main_v22_0)) main_v22_1 (W6 m c main_v22_1) = W6 m c
  rw [VW5]; unfold W6
  exact upd2_fix _ (StableHlo.devRef_ne_of_ne (by decide) : (Proc.devRef .tc main_v22_0 : DevRef τ sig) ≠ Proc.devRef .tc main_v22_1) _ _
theorem VW7 (c : Dev nD) : V7 m (outs m) c = W7 m c := by
  show StableHlo.after hostOps3 (V6 m (outs m) c) = _
  rw [VW6]; rfl
theorem VW8 (c : Dev nD) : V8 m (outs m) c = W8 m c := by
  show Function.update (V7 m (outs m) c) main_v47 (W8 m c main_v47) = W8 m c
  rw [VW7]; unfold W8
  exact upd1_fix _ _ _
theorem VW9 (c : Dev nD) : V9 m (outs m) c = W9 m c := by
  show StableHlo.after hostOps4 (V8 m (outs m) c) = _
  rw [VW8]; rfl
theorem VW10 (c : Dev nD) : V10 m (outs m) c = W10 m c := by
  show Function.update (Function.update (Function.update (V9 m (outs m) c) main_v67_0 (W10 m c main_v67_0)) main_v67_1 (W10 m c main_v67_1)) main_v67_2 (W10 m c main_v67_2) = W10 m c
  rw [VW9]; unfold W10
  exact upd3_fix _ (StableHlo.devRef_ne_of_ne (by decide) : (Proc.devRef .tc main_v67_0 : DevRef τ sig) ≠ Proc.devRef .tc main_v67_1) (StableHlo.devRef_ne_of_ne (by decide) : (Proc.devRef .tc main_v67_0 : DevRef τ sig) ≠ Proc.devRef .tc main_v67_2) (StableHlo.devRef_ne_of_ne (by decide) : (Proc.devRef .tc main_v67_1 : DevRef τ sig) ≠ Proc.devRef .tc main_v67_2) _ _ _
theorem VW11 (c : Dev nD) : V11 m (outs m) c = W11 m c := by
  show StableHlo.after hostOps5 (V10 m (outs m) c) = _
  rw [VW10]; rfl
theorem VW12 (c : Dev nD) : V12 m (outs m) c = W12 m c := by
  show Function.update (V11 m (outs m) c) main_v92 (W12 m c main_v92) = W12 m c
  rw [VW11]; unfold W12
  exact upd1_fix _ _ _
theorem VW13 (c : Dev nD) : V13 m (outs m) c = W13 m c := by
  show StableHlo.after hostOps6 (V12 m (outs m) c) = _
  rw [VW12]; rfl
theorem VW14 (c : Dev nD) : V14 m (outs m) c = W14 m c := by
  show Function.update (Function.update (Function.update (V13 m (outs m) c) main_v112_0 (W14 m c main_v112_0)) main_v112_1 (W14 m c main_v112_1)) main_v112_2 (W14 m c main_v112_2) = W14 m c
  rw [VW13]; unfold W14
  exact upd3_fix _ (StableHlo.devRef_ne_of_ne (by decide) : (Proc.devRef .tc main_v112_0 : DevRef τ sig) ≠ Proc.devRef .tc main_v112_1) (StableHlo.devRef_ne_of_ne (by decide) : (Proc.devRef .tc main_v112_0 : DevRef τ sig) ≠ Proc.devRef .tc main_v112_2) (StableHlo.devRef_ne_of_ne (by decide) : (Proc.devRef .tc main_v112_1 : DevRef τ sig) ≠ Proc.devRef .tc main_v112_2) _ _ _
theorem VW15 (c : Dev nD) : V15 m (outs m) c = W15 m c := by
  show StableHlo.after hostOps7 (V14 m (outs m) c) = _
  rw [VW14]; rfl
theorem VW16 (c : Dev nD) : V16 m (outs m) c = W16 m c := by
  show Function.update (V15 m (outs m) c) main_v137 (W16 m c main_v137) = W16 m c
  rw [VW15]; unfold W16
  exact upd1_fix _ _ _
theorem VW17 (c : Dev nD) : V17 m (outs m) c = W17 m c := by
  show StableHlo.after hostOps8 (V16 m (outs m) c) = _
  rw [VW16]; rfl
theorem VW18 (c : Dev nD) : V18 m (outs m) c = W18 m c := by
  show Function.update (Function.update (Function.update (V17 m (outs m) c) main_v157_0 (W18 m c main_v157_0)) main_v157_1 (W18 m c main_v157_1)) main_v157_2 (W18 m c main_v157_2) = W18 m c
  rw [VW17]; unfold W18
  exact upd3_fix _ (StableHlo.devRef_ne_of_ne (by decide) : (Proc.devRef .tc main_v157_0 : DevRef τ sig) ≠ Proc.devRef .tc main_v157_1) (StableHlo.devRef_ne_of_ne (by decide) : (Proc.devRef .tc main_v157_0 : DevRef τ sig) ≠ Proc.devRef .tc main_v157_2) (StableHlo.devRef_ne_of_ne (by decide) : (Proc.devRef .tc main_v157_1 : DevRef τ sig) ≠ Proc.devRef .tc main_v157_2) _ _ _
theorem VW19 (c : Dev nD) : V19 m (outs m) c = W19 m c := by
  show StableHlo.after hostOps9 (V18 m (outs m) c) = _
  rw [VW18]; rfl
theorem VW20 (c : Dev nD) : V20 m (outs m) c = W20 m c := by
  show Function.update (V19 m (outs m) c) main_v182 (W20 m c main_v182) = W20 m c
  rw [VW19]; unfold W20
  exact upd1_fix _ _ _
theorem VW21 (c : Dev nD) : V21 m (outs m) c = W21 m c := by
  show StableHlo.after hostOps10 (V20 m (outs m) c) = _
  rw [VW20]; rfl
theorem VW22 (c : Dev nD) : V22 m (outs m) c = W22 m c := by
  show Function.update (Function.update (Function.update (V21 m (outs m) c) main_v202_0 (W22 m c main_v202_0)) main_v202_1 (W22 m c main_v202_1)) main_v202_2 (W22 m c main_v202_2) = W22 m c
  rw [VW21]; unfold W22
  exact upd3_fix _ (StableHlo.devRef_ne_of_ne (by decide) : (Proc.devRef .tc main_v202_0 : DevRef τ sig) ≠ Proc.devRef .tc main_v202_1) (StableHlo.devRef_ne_of_ne (by decide) : (Proc.devRef .tc main_v202_0 : DevRef τ sig) ≠ Proc.devRef .tc main_v202_2) (StableHlo.devRef_ne_of_ne (by decide) : (Proc.devRef .tc main_v202_1 : DevRef τ sig) ≠ Proc.devRef .tc main_v202_2) _ _ _
theorem VW23 (c : Dev nD) : V23 m (outs m) c = W23 m c := by
  show StableHlo.after hostOps11 (V22 m (outs m) c) = _
  rw [VW22]; rfl
theorem VW24 (c : Dev nD) : V24 m (outs m) c = W24 m c := by
  show Function.update (V23 m (outs m) c) main_v227 (W24 m c main_v227) = W24 m c
  rw [VW23]; unfold W24
  exact upd1_fix _ _ _
theorem VW25 (c : Dev nD) : V25 m (outs m) c = W25 m c := by
  show StableHlo.after hostOps12 (V24 m (outs m) c) = _
  rw [VW24]; rfl
theorem VW26 (c : Dev nD) : V26 m (outs m) c = W26 m c := by
  show Function.update (Function.update (Function.update (V25 m (outs m) c) main_v247_0 (W26 m c main_v247_0)) main_v247_1 (W26 m c main_v247_1)) main_v247_2 (W26 m c main_v247_2) = W26 m c
  rw [VW25]; unfold W26
  exact upd3_fix _ (StableHlo.devRef_ne_of_ne (by decide) : (Proc.devRef .tc main_v247_0 : DevRef τ sig) ≠ Proc.devRef .tc main_v247_1) (StableHlo.devRef_ne_of_ne (by decide) : (Proc.devRef .tc main_v247_0 : DevRef τ sig) ≠ Proc.devRef .tc main_v247_2) (StableHlo.devRef_ne_of_ne (by decide) : (Proc.devRef .tc main_v247_1 : DevRef τ sig) ≠ Proc.devRef .tc main_v247_2) _ _ _
theorem VW27 (c : Dev nD) : V27 m (outs m) c = W27 m c := by
  show StableHlo.after hostOps13 (V26 m (outs m) c) = _
  rw [VW26]; rfl
theorem VW28 (c : Dev nD) : V28 m (outs m) c = W28 m c := by
  show Function.update (V27 m (outs m) c) main_v272 (W28 m c main_v272) = W28 m c
  rw [VW27]; unfold W28
  exact upd1_fix _ _ _
theorem VW29 (c : Dev nD) : V29 m (outs m) c = W29 m c := by
  show StableHlo.after hostOps14 (V28 m (outs m) c) = _
  rw [VW28]; rfl
theorem VW30 (c : Dev nD) : V30 m (outs m) c = W30 m c := by
  show Function.update (Function.update (Function.update (V29 m (outs m) c) main_v292_0 (W30 m c main_v292_0)) main_v292_1 (W30 m c main_v292_1)) main_v292_2 (W30 m c main_v292_2) = W30 m c
  rw [VW29]; unfold W30
  exact upd3_fix _ (StableHlo.devRef_ne_of_ne (by decide) : (Proc.devRef .tc main_v292_0 : DevRef τ sig) ≠ Proc.devRef .tc main_v292_1) (StableHlo.devRef_ne_of_ne (by decide) : (Proc.devRef .tc main_v292_0 : DevRef τ sig) ≠ Proc.devRef .tc main_v292_2) (StableHlo.devRef_ne_of_ne (by decide) : (Proc.devRef .tc main_v292_1 : DevRef τ sig) ≠ Proc.devRef .tc main_v292_2) _ _ _
theorem VW31 (c : Dev nD) : V31 m (outs m) c = W31 m c := by
  show StableHlo.after hostOps15 (V30 m (outs m) c) = _
  rw [VW30]; rfl
theorem VW32 (c : Dev nD) : V32 m (outs m) c = W32 m c := by
  show Function.update (V31 m (outs m) c) main_v299 (W32 m c main_v299) = W32 m c
  rw [VW31]; unfold W32
  exact upd1_fix _ _ _

/-! ## Each region's entry and exit contents, and what it leaves in its arrays -/

/-- Region 0's entry contents (the generated valuation before it), -/
noncomputable abbrev En0 (c : Dev nD) : Valuation τ sig (Elt F) := V1 m c
/-- its exit contents (the one after it), -/
noncomputable abbrev Ex0 (c : Dev nD) : Valuation τ sig (Elt F) := V2 m (outs m) c
/-- and both read at the TensorCore's references (what the region's proof data take). -/
noncomputable abbrev en0 : (c : Dev nD) → (b : Ref sig .tc) → Buf (Elt F) ((c : Thread nD τ).loc b) := fun c b => En0 m c b
noncomputable abbrev ex0 : (c : Dev nD) → (b : Ref sig .tc) → Buf (Elt F) ((c : Thread nD τ).loc b) := fun c b => Ex0 m c b
theorem en0_eq : en0 m = fun (c : Dev nD) (b : Ref sig .tc) => W1 m c b := funext fun c => funext fun b => congrFun (VW1 m c) b
/-- Region 0 leaves in main_v14 what its write-backs to output window 5 fold to from the entry contents. -/
theorem Ex0_out5 (c : Dev nD) : Ex0 m c main_v14 = (dat0 (en0 m) c).arrAt 5 cfg0.N := by
  rw [en0_eq]; show V2 m (outs m) c main_v14 = _
  rw [VW2]; unfold W2
  rw [Function.update_self]
/-- Region 1's entry contents (the generated valuation before it), -/
noncomputable abbrev En1 (c : Dev nD) : Valuation τ sig (Elt F) := V3 m (outs m) c
/-- its exit contents (the one after it), -/
noncomputable abbrev Ex1 (c : Dev nD) : Valuation τ sig (Elt F) := V4 m (outs m) c
/-- and both read at the TensorCore's references (what the region's proof data take). -/
noncomputable abbrev en1 : (c : Dev nD) → (b : Ref sig .tc) → Buf (Elt F) ((c : Thread nD τ).loc b) := fun c b => En1 m c b
noncomputable abbrev ex1 : (c : Dev nD) → (b : Ref sig .tc) → Buf (Elt F) ((c : Thread nD τ).loc b) := fun c b => Ex1 m c b
theorem en1_eq : en1 m = fun (c : Dev nD) (b : Ref sig .tc) => W3 m c b := funext fun c => funext fun b => congrFun (VW3 m c) b
/-- Region 1 leaves in main_v17 what its write-backs to output window 5 fold to from the entry contents. -/
theorem Ex1_out5 (c : Dev nD) : Ex1 m c main_v17 = (dat1 (en1 m) c).arrAt 5 cfg1.N := by
  rw [en1_eq]; show V4 m (outs m) c main_v17 = _
  rw [VW4]; unfold W4
  rw [Function.update_self]
/-- Region 2's entry contents (the generated valuation before it), -/
noncomputable abbrev En2 (c : Dev nD) : Valuation τ sig (Elt F) := V5 m (outs m) c
/-- its exit contents (the one after it), -/
noncomputable abbrev Ex2 (c : Dev nD) : Valuation τ sig (Elt F) := V6 m (outs m) c
/-- and both read at the TensorCore's references (what the region's proof data take). -/
noncomputable abbrev en2 : (c : Dev nD) → (b : Ref sig .tc) → Buf (Elt F) ((c : Thread nD τ).loc b) := fun c b => En2 m c b
noncomputable abbrev ex2 : (c : Dev nD) → (b : Ref sig .tc) → Buf (Elt F) ((c : Thread nD τ).loc b) := fun c b => Ex2 m c b
theorem en2_eq : en2 m = fun (c : Dev nD) (b : Ref sig .tc) => W5 m c b := funext fun c => funext fun b => congrFun (VW5 m c) b
/-- Region 2 leaves in main_v22_0 what its write-backs to output window 3 fold to from the entry contents. -/
theorem Ex2_out3 (c : Dev nD) : Ex2 m c main_v22_0 = (dat2 (en2 m) c).arrAt 3 cfg2.N := by
  rw [en2_eq]; show V6 m (outs m) c main_v22_0 = _
  rw [VW6]; unfold W6
  rw [Function.update_of_ne (StableHlo.devRef_ne_of_ne (by decide) : (Proc.devRef .tc main_v22_0 : DevRef τ sig) ≠ Proc.devRef .tc main_v22_1), Function.update_self]
/-- Region 2 leaves in main_v22_1 what its write-backs to output window 4 fold to from the entry contents. -/
theorem Ex2_out4 (c : Dev nD) : Ex2 m c main_v22_1 = (dat2 (en2 m) c).arrAt 4 cfg2.N := by
  rw [en2_eq]; show V6 m (outs m) c main_v22_1 = _
  rw [VW6]; unfold W6
  rw [Function.update_self]
/-- Region 3's entry contents (the generated valuation before it), -/
noncomputable abbrev En3 (c : Dev nD) : Valuation τ sig (Elt F) := V7 m (outs m) c
/-- its exit contents (the one after it), -/
noncomputable abbrev Ex3 (c : Dev nD) : Valuation τ sig (Elt F) := V8 m (outs m) c
/-- and both read at the TensorCore's references (what the region's proof data take). -/
noncomputable abbrev en3 : (c : Dev nD) → (b : Ref sig .tc) → Buf (Elt F) ((c : Thread nD τ).loc b) := fun c b => En3 m c b
noncomputable abbrev ex3 : (c : Dev nD) → (b : Ref sig .tc) → Buf (Elt F) ((c : Thread nD τ).loc b) := fun c b => Ex3 m c b
theorem en3_eq : en3 m = fun (c : Dev nD) (b : Ref sig .tc) => W7 m c b := funext fun c => funext fun b => congrFun (VW7 m c) b
/-- Region 3 leaves in main_v47 what its write-backs to output window 7 fold to from the entry contents. -/
theorem Ex3_out7 (c : Dev nD) : Ex3 m c main_v47 = (dat3 (en3 m) c).arrAt 7 cfg3.N := by
  rw [en3_eq]; show V8 m (outs m) c main_v47 = _
  rw [VW8]; unfold W8
  rw [Function.update_self]
/-- Region 4's entry contents (the generated valuation before it), -/
noncomputable abbrev En4 (c : Dev nD) : Valuation τ sig (Elt F) := V9 m (outs m) c
/-- its exit contents (the one after it), -/
noncomputable abbrev Ex4 (c : Dev nD) : Valuation τ sig (Elt F) := V10 m (outs m) c
/-- and both read at the TensorCore's references (what the region's proof data take). -/
noncomputable abbrev en4 : (c : Dev nD) → (b : Ref sig .tc) → Buf (Elt F) ((c : Thread nD τ).loc b) := fun c b => En4 m c b
noncomputable abbrev ex4 : (c : Dev nD) → (b : Ref sig .tc) → Buf (Elt F) ((c : Thread nD τ).loc b) := fun c b => Ex4 m c b
theorem en4_eq : en4 m = fun (c : Dev nD) (b : Ref sig .tc) => W9 m c b := funext fun c => funext fun b => congrFun (VW9 m c) b
/-- Region 4 leaves in main_v67_0 what its write-backs to output window 9 fold to from the entry contents. -/
theorem Ex4_out9 (c : Dev nD) : Ex4 m c main_v67_0 = (dat4 (en4 m) c).arrAt 9 cfg4.N := by
  rw [en4_eq]; show V10 m (outs m) c main_v67_0 = _
  rw [VW10]; unfold W10
  rw [Function.update_of_ne (StableHlo.devRef_ne_of_ne (by decide) : (Proc.devRef .tc main_v67_0 : DevRef τ sig) ≠ Proc.devRef .tc main_v67_2), Function.update_of_ne (StableHlo.devRef_ne_of_ne (by decide) : (Proc.devRef .tc main_v67_0 : DevRef τ sig) ≠ Proc.devRef .tc main_v67_1), Function.update_self]
/-- Region 4 leaves in main_v67_1 what its write-backs to output window 10 fold to from the entry contents. -/
theorem Ex4_out10 (c : Dev nD) : Ex4 m c main_v67_1 = (dat4 (en4 m) c).arrAt 10 cfg4.N := by
  rw [en4_eq]; show V10 m (outs m) c main_v67_1 = _
  rw [VW10]; unfold W10
  rw [Function.update_of_ne (StableHlo.devRef_ne_of_ne (by decide) : (Proc.devRef .tc main_v67_1 : DevRef τ sig) ≠ Proc.devRef .tc main_v67_2), Function.update_self]
/-- Region 4 leaves in main_v67_2 what its write-backs to output window 11 fold to from the entry contents. -/
theorem Ex4_out11 (c : Dev nD) : Ex4 m c main_v67_2 = (dat4 (en4 m) c).arrAt 11 cfg4.N := by
  rw [en4_eq]; show V10 m (outs m) c main_v67_2 = _
  rw [VW10]; unfold W10
  rw [Function.update_self]
/-- Region 5's entry contents (the generated valuation before it), -/
noncomputable abbrev En5 (c : Dev nD) : Valuation τ sig (Elt F) := V11 m (outs m) c
/-- its exit contents (the one after it), -/
noncomputable abbrev Ex5 (c : Dev nD) : Valuation τ sig (Elt F) := V12 m (outs m) c
/-- and both read at the TensorCore's references (what the region's proof data take). -/
noncomputable abbrev en5 : (c : Dev nD) → (b : Ref sig .tc) → Buf (Elt F) ((c : Thread nD τ).loc b) := fun c b => En5 m c b
noncomputable abbrev ex5 : (c : Dev nD) → (b : Ref sig .tc) → Buf (Elt F) ((c : Thread nD τ).loc b) := fun c b => Ex5 m c b
theorem en5_eq : en5 m = fun (c : Dev nD) (b : Ref sig .tc) => W11 m c b := funext fun c => funext fun b => congrFun (VW11 m c) b
/-- Region 5 leaves in main_v92 what its write-backs to output window 7 fold to from the entry contents. -/
theorem Ex5_out7 (c : Dev nD) : Ex5 m c main_v92 = (dat5 (en5 m) c).arrAt 7 cfg5.N := by
  rw [en5_eq]; show V12 m (outs m) c main_v92 = _
  rw [VW12]; unfold W12
  rw [Function.update_self]
/-- Region 6's entry contents (the generated valuation before it), -/
noncomputable abbrev En6 (c : Dev nD) : Valuation τ sig (Elt F) := V13 m (outs m) c
/-- its exit contents (the one after it), -/
noncomputable abbrev Ex6 (c : Dev nD) : Valuation τ sig (Elt F) := V14 m (outs m) c
/-- and both read at the TensorCore's references (what the region's proof data take). -/
noncomputable abbrev en6 : (c : Dev nD) → (b : Ref sig .tc) → Buf (Elt F) ((c : Thread nD τ).loc b) := fun c b => En6 m c b
noncomputable abbrev ex6 : (c : Dev nD) → (b : Ref sig .tc) → Buf (Elt F) ((c : Thread nD τ).loc b) := fun c b => Ex6 m c b
theorem en6_eq : en6 m = fun (c : Dev nD) (b : Ref sig .tc) => W13 m c b := funext fun c => funext fun b => congrFun (VW13 m c) b
/-- Region 6 leaves in main_v112_0 what its write-backs to output window 9 fold to from the entry contents. -/
theorem Ex6_out9 (c : Dev nD) : Ex6 m c main_v112_0 = (dat6 (en6 m) c).arrAt 9 cfg6.N := by
  rw [en6_eq]; show V14 m (outs m) c main_v112_0 = _
  rw [VW14]; unfold W14
  rw [Function.update_of_ne (StableHlo.devRef_ne_of_ne (by decide) : (Proc.devRef .tc main_v112_0 : DevRef τ sig) ≠ Proc.devRef .tc main_v112_2), Function.update_of_ne (StableHlo.devRef_ne_of_ne (by decide) : (Proc.devRef .tc main_v112_0 : DevRef τ sig) ≠ Proc.devRef .tc main_v112_1), Function.update_self]
/-- Region 6 leaves in main_v112_1 what its write-backs to output window 10 fold to from the entry contents. -/
theorem Ex6_out10 (c : Dev nD) : Ex6 m c main_v112_1 = (dat6 (en6 m) c).arrAt 10 cfg6.N := by
  rw [en6_eq]; show V14 m (outs m) c main_v112_1 = _
  rw [VW14]; unfold W14
  rw [Function.update_of_ne (StableHlo.devRef_ne_of_ne (by decide) : (Proc.devRef .tc main_v112_1 : DevRef τ sig) ≠ Proc.devRef .tc main_v112_2), Function.update_self]
/-- Region 6 leaves in main_v112_2 what its write-backs to output window 11 fold to from the entry contents. -/
theorem Ex6_out11 (c : Dev nD) : Ex6 m c main_v112_2 = (dat6 (en6 m) c).arrAt 11 cfg6.N := by
  rw [en6_eq]; show V14 m (outs m) c main_v112_2 = _
  rw [VW14]; unfold W14
  rw [Function.update_self]
/-- Region 7's entry contents (the generated valuation before it), -/
noncomputable abbrev En7 (c : Dev nD) : Valuation τ sig (Elt F) := V15 m (outs m) c
/-- its exit contents (the one after it), -/
noncomputable abbrev Ex7 (c : Dev nD) : Valuation τ sig (Elt F) := V16 m (outs m) c
/-- and both read at the TensorCore's references (what the region's proof data take). -/
noncomputable abbrev en7 : (c : Dev nD) → (b : Ref sig .tc) → Buf (Elt F) ((c : Thread nD τ).loc b) := fun c b => En7 m c b
noncomputable abbrev ex7 : (c : Dev nD) → (b : Ref sig .tc) → Buf (Elt F) ((c : Thread nD τ).loc b) := fun c b => Ex7 m c b
theorem en7_eq : en7 m = fun (c : Dev nD) (b : Ref sig .tc) => W15 m c b := funext fun c => funext fun b => congrFun (VW15 m c) b
/-- Region 7 leaves in main_v137 what its write-backs to output window 7 fold to from the entry contents. -/
theorem Ex7_out7 (c : Dev nD) : Ex7 m c main_v137 = (dat7 (en7 m) c).arrAt 7 cfg7.N := by
  rw [en7_eq]; show V16 m (outs m) c main_v137 = _
  rw [VW16]; unfold W16
  rw [Function.update_self]
/-- Region 8's entry contents (the generated valuation before it), -/
noncomputable abbrev En8 (c : Dev nD) : Valuation τ sig (Elt F) := V17 m (outs m) c
/-- its exit contents (the one after it), -/
noncomputable abbrev Ex8 (c : Dev nD) : Valuation τ sig (Elt F) := V18 m (outs m) c
/-- and both read at the TensorCore's references (what the region's proof data take). -/
noncomputable abbrev en8 : (c : Dev nD) → (b : Ref sig .tc) → Buf (Elt F) ((c : Thread nD τ).loc b) := fun c b => En8 m c b
noncomputable abbrev ex8 : (c : Dev nD) → (b : Ref sig .tc) → Buf (Elt F) ((c : Thread nD τ).loc b) := fun c b => Ex8 m c b
theorem en8_eq : en8 m = fun (c : Dev nD) (b : Ref sig .tc) => W17 m c b := funext fun c => funext fun b => congrFun (VW17 m c) b
/-- Region 8 leaves in main_v157_0 what its write-backs to output window 9 fold to from the entry contents. -/
theorem Ex8_out9 (c : Dev nD) : Ex8 m c main_v157_0 = (dat8 (en8 m) c).arrAt 9 cfg8.N := by
  rw [en8_eq]; show V18 m (outs m) c main_v157_0 = _
  rw [VW18]; unfold W18
  rw [Function.update_of_ne (StableHlo.devRef_ne_of_ne (by decide) : (Proc.devRef .tc main_v157_0 : DevRef τ sig) ≠ Proc.devRef .tc main_v157_2), Function.update_of_ne (StableHlo.devRef_ne_of_ne (by decide) : (Proc.devRef .tc main_v157_0 : DevRef τ sig) ≠ Proc.devRef .tc main_v157_1), Function.update_self]
/-- Region 8 leaves in main_v157_1 what its write-backs to output window 10 fold to from the entry contents. -/
theorem Ex8_out10 (c : Dev nD) : Ex8 m c main_v157_1 = (dat8 (en8 m) c).arrAt 10 cfg8.N := by
  rw [en8_eq]; show V18 m (outs m) c main_v157_1 = _
  rw [VW18]; unfold W18
  rw [Function.update_of_ne (StableHlo.devRef_ne_of_ne (by decide) : (Proc.devRef .tc main_v157_1 : DevRef τ sig) ≠ Proc.devRef .tc main_v157_2), Function.update_self]
/-- Region 8 leaves in main_v157_2 what its write-backs to output window 11 fold to from the entry contents. -/
theorem Ex8_out11 (c : Dev nD) : Ex8 m c main_v157_2 = (dat8 (en8 m) c).arrAt 11 cfg8.N := by
  rw [en8_eq]; show V18 m (outs m) c main_v157_2 = _
  rw [VW18]; unfold W18
  rw [Function.update_self]
/-- Region 9's entry contents (the generated valuation before it), -/
noncomputable abbrev En9 (c : Dev nD) : Valuation τ sig (Elt F) := V19 m (outs m) c
/-- its exit contents (the one after it), -/
noncomputable abbrev Ex9 (c : Dev nD) : Valuation τ sig (Elt F) := V20 m (outs m) c
/-- and both read at the TensorCore's references (what the region's proof data take). -/
noncomputable abbrev en9 : (c : Dev nD) → (b : Ref sig .tc) → Buf (Elt F) ((c : Thread nD τ).loc b) := fun c b => En9 m c b
noncomputable abbrev ex9 : (c : Dev nD) → (b : Ref sig .tc) → Buf (Elt F) ((c : Thread nD τ).loc b) := fun c b => Ex9 m c b
theorem en9_eq : en9 m = fun (c : Dev nD) (b : Ref sig .tc) => W19 m c b := funext fun c => funext fun b => congrFun (VW19 m c) b
/-- Region 9 leaves in main_v182 what its write-backs to output window 7 fold to from the entry contents. -/
theorem Ex9_out7 (c : Dev nD) : Ex9 m c main_v182 = (dat9 (en9 m) c).arrAt 7 cfg9.N := by
  rw [en9_eq]; show V20 m (outs m) c main_v182 = _
  rw [VW20]; unfold W20
  rw [Function.update_self]
/-- Region 10's entry contents (the generated valuation before it), -/
noncomputable abbrev En10 (c : Dev nD) : Valuation τ sig (Elt F) := V21 m (outs m) c
/-- its exit contents (the one after it), -/
noncomputable abbrev Ex10 (c : Dev nD) : Valuation τ sig (Elt F) := V22 m (outs m) c
/-- and both read at the TensorCore's references (what the region's proof data take). -/
noncomputable abbrev en10 : (c : Dev nD) → (b : Ref sig .tc) → Buf (Elt F) ((c : Thread nD τ).loc b) := fun c b => En10 m c b
noncomputable abbrev ex10 : (c : Dev nD) → (b : Ref sig .tc) → Buf (Elt F) ((c : Thread nD τ).loc b) := fun c b => Ex10 m c b
theorem en10_eq : en10 m = fun (c : Dev nD) (b : Ref sig .tc) => W21 m c b := funext fun c => funext fun b => congrFun (VW21 m c) b
/-- Region 10 leaves in main_v202_0 what its write-backs to output window 9 fold to from the entry contents. -/
theorem Ex10_out9 (c : Dev nD) : Ex10 m c main_v202_0 = (dat10 (en10 m) c).arrAt 9 cfg10.N := by
  rw [en10_eq]; show V22 m (outs m) c main_v202_0 = _
  rw [VW22]; unfold W22
  rw [Function.update_of_ne (StableHlo.devRef_ne_of_ne (by decide) : (Proc.devRef .tc main_v202_0 : DevRef τ sig) ≠ Proc.devRef .tc main_v202_2), Function.update_of_ne (StableHlo.devRef_ne_of_ne (by decide) : (Proc.devRef .tc main_v202_0 : DevRef τ sig) ≠ Proc.devRef .tc main_v202_1), Function.update_self]
/-- Region 10 leaves in main_v202_1 what its write-backs to output window 10 fold to from the entry contents. -/
theorem Ex10_out10 (c : Dev nD) : Ex10 m c main_v202_1 = (dat10 (en10 m) c).arrAt 10 cfg10.N := by
  rw [en10_eq]; show V22 m (outs m) c main_v202_1 = _
  rw [VW22]; unfold W22
  rw [Function.update_of_ne (StableHlo.devRef_ne_of_ne (by decide) : (Proc.devRef .tc main_v202_1 : DevRef τ sig) ≠ Proc.devRef .tc main_v202_2), Function.update_self]
/-- Region 10 leaves in main_v202_2 what its write-backs to output window 11 fold to from the entry contents. -/
theorem Ex10_out11 (c : Dev nD) : Ex10 m c main_v202_2 = (dat10 (en10 m) c).arrAt 11 cfg10.N := by
  rw [en10_eq]; show V22 m (outs m) c main_v202_2 = _
  rw [VW22]; unfold W22
  rw [Function.update_self]
/-- Region 11's entry contents (the generated valuation before it), -/
noncomputable abbrev En11 (c : Dev nD) : Valuation τ sig (Elt F) := V23 m (outs m) c
/-- its exit contents (the one after it), -/
noncomputable abbrev Ex11 (c : Dev nD) : Valuation τ sig (Elt F) := V24 m (outs m) c
/-- and both read at the TensorCore's references (what the region's proof data take). -/
noncomputable abbrev en11 : (c : Dev nD) → (b : Ref sig .tc) → Buf (Elt F) ((c : Thread nD τ).loc b) := fun c b => En11 m c b
noncomputable abbrev ex11 : (c : Dev nD) → (b : Ref sig .tc) → Buf (Elt F) ((c : Thread nD τ).loc b) := fun c b => Ex11 m c b
theorem en11_eq : en11 m = fun (c : Dev nD) (b : Ref sig .tc) => W23 m c b := funext fun c => funext fun b => congrFun (VW23 m c) b
/-- Region 11 leaves in main_v227 what its write-backs to output window 7 fold to from the entry contents. -/
theorem Ex11_out7 (c : Dev nD) : Ex11 m c main_v227 = (dat11 (en11 m) c).arrAt 7 cfg11.N := by
  rw [en11_eq]; show V24 m (outs m) c main_v227 = _
  rw [VW24]; unfold W24
  rw [Function.update_self]
/-- Region 12's entry contents (the generated valuation before it), -/
noncomputable abbrev En12 (c : Dev nD) : Valuation τ sig (Elt F) := V25 m (outs m) c
/-- its exit contents (the one after it), -/
noncomputable abbrev Ex12 (c : Dev nD) : Valuation τ sig (Elt F) := V26 m (outs m) c
/-- and both read at the TensorCore's references (what the region's proof data take). -/
noncomputable abbrev en12 : (c : Dev nD) → (b : Ref sig .tc) → Buf (Elt F) ((c : Thread nD τ).loc b) := fun c b => En12 m c b
noncomputable abbrev ex12 : (c : Dev nD) → (b : Ref sig .tc) → Buf (Elt F) ((c : Thread nD τ).loc b) := fun c b => Ex12 m c b
theorem en12_eq : en12 m = fun (c : Dev nD) (b : Ref sig .tc) => W25 m c b := funext fun c => funext fun b => congrFun (VW25 m c) b
/-- Region 12 leaves in main_v247_0 what its write-backs to output window 9 fold to from the entry contents. -/
theorem Ex12_out9 (c : Dev nD) : Ex12 m c main_v247_0 = (dat12 (en12 m) c).arrAt 9 cfg12.N := by
  rw [en12_eq]; show V26 m (outs m) c main_v247_0 = _
  rw [VW26]; unfold W26
  rw [Function.update_of_ne (StableHlo.devRef_ne_of_ne (by decide) : (Proc.devRef .tc main_v247_0 : DevRef τ sig) ≠ Proc.devRef .tc main_v247_2), Function.update_of_ne (StableHlo.devRef_ne_of_ne (by decide) : (Proc.devRef .tc main_v247_0 : DevRef τ sig) ≠ Proc.devRef .tc main_v247_1), Function.update_self]
/-- Region 12 leaves in main_v247_1 what its write-backs to output window 10 fold to from the entry contents. -/
theorem Ex12_out10 (c : Dev nD) : Ex12 m c main_v247_1 = (dat12 (en12 m) c).arrAt 10 cfg12.N := by
  rw [en12_eq]; show V26 m (outs m) c main_v247_1 = _
  rw [VW26]; unfold W26
  rw [Function.update_of_ne (StableHlo.devRef_ne_of_ne (by decide) : (Proc.devRef .tc main_v247_1 : DevRef τ sig) ≠ Proc.devRef .tc main_v247_2), Function.update_self]
/-- Region 12 leaves in main_v247_2 what its write-backs to output window 11 fold to from the entry contents. -/
theorem Ex12_out11 (c : Dev nD) : Ex12 m c main_v247_2 = (dat12 (en12 m) c).arrAt 11 cfg12.N := by
  rw [en12_eq]; show V26 m (outs m) c main_v247_2 = _
  rw [VW26]; unfold W26
  rw [Function.update_self]
/-- Region 13's entry contents (the generated valuation before it), -/
noncomputable abbrev En13 (c : Dev nD) : Valuation τ sig (Elt F) := V27 m (outs m) c
/-- its exit contents (the one after it), -/
noncomputable abbrev Ex13 (c : Dev nD) : Valuation τ sig (Elt F) := V28 m (outs m) c
/-- and both read at the TensorCore's references (what the region's proof data take). -/
noncomputable abbrev en13 : (c : Dev nD) → (b : Ref sig .tc) → Buf (Elt F) ((c : Thread nD τ).loc b) := fun c b => En13 m c b
noncomputable abbrev ex13 : (c : Dev nD) → (b : Ref sig .tc) → Buf (Elt F) ((c : Thread nD τ).loc b) := fun c b => Ex13 m c b
theorem en13_eq : en13 m = fun (c : Dev nD) (b : Ref sig .tc) => W27 m c b := funext fun c => funext fun b => congrFun (VW27 m c) b
/-- Region 13 leaves in main_v272 what its write-backs to output window 7 fold to from the entry contents. -/
theorem Ex13_out7 (c : Dev nD) : Ex13 m c main_v272 = (dat13 (en13 m) c).arrAt 7 cfg13.N := by
  rw [en13_eq]; show V28 m (outs m) c main_v272 = _
  rw [VW28]; unfold W28
  rw [Function.update_self]
/-- Region 14's entry contents (the generated valuation before it), -/
noncomputable abbrev En14 (c : Dev nD) : Valuation τ sig (Elt F) := V29 m (outs m) c
/-- its exit contents (the one after it), -/
noncomputable abbrev Ex14 (c : Dev nD) : Valuation τ sig (Elt F) := V30 m (outs m) c
/-- and both read at the TensorCore's references (what the region's proof data take). -/
noncomputable abbrev en14 : (c : Dev nD) → (b : Ref sig .tc) → Buf (Elt F) ((c : Thread nD τ).loc b) := fun c b => En14 m c b
noncomputable abbrev ex14 : (c : Dev nD) → (b : Ref sig .tc) → Buf (Elt F) ((c : Thread nD τ).loc b) := fun c b => Ex14 m c b
theorem en14_eq : en14 m = fun (c : Dev nD) (b : Ref sig .tc) => W29 m c b := funext fun c => funext fun b => congrFun (VW29 m c) b
/-- Region 14 leaves in main_v292_0 what its write-backs to output window 9 fold to from the entry contents. -/
theorem Ex14_out9 (c : Dev nD) : Ex14 m c main_v292_0 = (dat14 (en14 m) c).arrAt 9 cfg14.N := by
  rw [en14_eq]; show V30 m (outs m) c main_v292_0 = _
  rw [VW30]; unfold W30
  rw [Function.update_of_ne (StableHlo.devRef_ne_of_ne (by decide) : (Proc.devRef .tc main_v292_0 : DevRef τ sig) ≠ Proc.devRef .tc main_v292_2), Function.update_of_ne (StableHlo.devRef_ne_of_ne (by decide) : (Proc.devRef .tc main_v292_0 : DevRef τ sig) ≠ Proc.devRef .tc main_v292_1), Function.update_self]
/-- Region 14 leaves in main_v292_1 what its write-backs to output window 10 fold to from the entry contents. -/
theorem Ex14_out10 (c : Dev nD) : Ex14 m c main_v292_1 = (dat14 (en14 m) c).arrAt 10 cfg14.N := by
  rw [en14_eq]; show V30 m (outs m) c main_v292_1 = _
  rw [VW30]; unfold W30
  rw [Function.update_of_ne (StableHlo.devRef_ne_of_ne (by decide) : (Proc.devRef .tc main_v292_1 : DevRef τ sig) ≠ Proc.devRef .tc main_v292_2), Function.update_self]
/-- Region 14 leaves in main_v292_2 what its write-backs to output window 11 fold to from the entry contents. -/
theorem Ex14_out11 (c : Dev nD) : Ex14 m c main_v292_2 = (dat14 (en14 m) c).arrAt 11 cfg14.N := by
  rw [en14_eq]; show V30 m (outs m) c main_v292_2 = _
  rw [VW30]; unfold W30
  rw [Function.update_self]
/-- Region 15's entry contents (the generated valuation before it), -/
noncomputable abbrev En15 (c : Dev nD) : Valuation τ sig (Elt F) := V31 m (outs m) c
/-- its exit contents (the one after it), -/
noncomputable abbrev Ex15 (c : Dev nD) : Valuation τ sig (Elt F) := V32 m (outs m) c
/-- and both read at the TensorCore's references (what the region's proof data take). -/
noncomputable abbrev en15 : (c : Dev nD) → (b : Ref sig .tc) → Buf (Elt F) ((c : Thread nD τ).loc b) := fun c b => En15 m c b
noncomputable abbrev ex15 : (c : Dev nD) → (b : Ref sig .tc) → Buf (Elt F) ((c : Thread nD τ).loc b) := fun c b => Ex15 m c b
theorem en15_eq : en15 m = fun (c : Dev nD) (b : Ref sig .tc) => W31 m c b := funext fun c => funext fun b => congrFun (VW31 m c) b
/-- Region 15 leaves in main_v299 what its write-backs to output window 9 fold to from the entry contents. -/
theorem Ex15_out9 (c : Dev nD) : Ex15 m c main_v299 = (dat15 (en15 m) c).arrAt 9 cfg15.N := by
  rw [en15_eq]; show V32 m (outs m) c main_v299 = _
  rw [VW32]; unfold W32
  rw [Function.update_self]
/-! ## The proof data family and what rides beside the buffers -/

/-- Every pipeline's proof data, each at its region's entry contents (a literal match, so that at a numeral it reduces). -/
noncomputable def pdats : (p : Fin 16) → (c : Dev nD) → Dat τ (Elt F) Unit ℕ (UR sig nD τ) ℕ (Pipeline.pin (pcfgs (F := F)) adm p) c
  | ⟨0, _⟩ => fun c => dat0 (en0 m) c
  | ⟨1, _⟩ => fun c => dat1 (en1 m) c
  | ⟨2, _⟩ => fun c => dat2 (en2 m) c
  | ⟨3, _⟩ => fun c => dat3 (en3 m) c
  | ⟨4, _⟩ => fun c => dat4 (en4 m) c
  | ⟨5, _⟩ => fun c => dat5 (en5 m) c
  | ⟨6, _⟩ => fun c => dat6 (en6 m) c
  | ⟨7, _⟩ => fun c => dat7 (en7 m) c
  | ⟨8, _⟩ => fun c => dat8 (en8 m) c
  | ⟨9, _⟩ => fun c => dat9 (en9 m) c
  | ⟨10, _⟩ => fun c => dat10 (en10 m) c
  | ⟨11, _⟩ => fun c => dat11 (en11 m) c
  | ⟨12, _⟩ => fun c => dat12 (en12 m) c
  | ⟨13, _⟩ => fun c => dat13 (en13 m) c
  | ⟨14, _⟩ => fun c => dat14 (en14 m) c
  | ⟨15, _⟩ => fun c => dat15 (en15 m) c
  | ⟨_ + 16, h⟩ => absurd h (Nat.not_lt.2 (Nat.le_add_left _ _))

/-- No core owes another anything: no level is assigned. -/
noncomputable abbrev L : GSem nD τ sig → Finset Unit := fun _ => ∅
noncomputable abbrev lv : GSem nD τ sig → Unit → ℕ := fun _ _ => 0
/-- What rides beside the buffers through every item: the core's generator register at some state and its dues, at nothing. -/
noncomputable abbrev R (c : Dev nD) : sProp 𝕄 := iprop((∃ r, prngReg c r) ∗ ∃ W, owes (c : Thread nD τ) (0 : CellTallies nD τ sig Unit) W)

end Cert.KernelIdeal.Hand

end
-- ==== Proof.KI.Seg0.lean ====
/-
  Region 0 of @main as a segment of the run. First what the region leaves in each of its arrays, read against the generated
  valuations before and after it (an input window's array as entered, the output's at what the write-backs fold to, every
  other buffer untouched); then the segment record: the pipeline's layout facts from the launch, the body obligation at the region's
  entry contents, and the four entailments that take the thread state "every unscoped buffer at the entry contents, the
  generator register at some state, nothing owed" into the pipeline and bring it back at the exit contents.
-/
import proofs.«152161_j29669634081217_2_alg».proof.Proof.KI.Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the region leaves in its arrays -/

theorem hF0_0 (c : Dev nD) : (dat0 (en0 m) c).arrAt (0 : Fin 6) cfg0.N = ex0 m c (Pipeline.arrRef spec0 (0 : Fin 6)) :=
  ((dat0 (en0 m) c).arrAt_in (0 : Fin 6) rfl _).trans ((A_eq0 (en0 m) c (0 : Fin 6)).trans (V2_of m (outs m) c (Pipeline.arrRef spec0 (0 : Fin 6)) (by decide)).symm)
theorem hF0_1 (c : Dev nD) : (dat0 (en0 m) c).arrAt (1 : Fin 6) cfg0.N = ex0 m c (Pipeline.arrRef spec0 (1 : Fin 6)) :=
  ((dat0 (en0 m) c).arrAt_in (1 : Fin 6) rfl _).trans ((A_eq0 (en0 m) c (1 : Fin 6)).trans (V2_of m (outs m) c (Pipeline.arrRef spec0 (1 : Fin 6)) (by decide)).symm)
theorem hF0_2 (c : Dev nD) : (dat0 (en0 m) c).arrAt (2 : Fin 6) cfg0.N = ex0 m c (Pipeline.arrRef spec0 (2 : Fin 6)) :=
  ((dat0 (en0 m) c).arrAt_in (2 : Fin 6) rfl _).trans ((A_eq0 (en0 m) c (2 : Fin 6)).trans (V2_of m (outs m) c (Pipeline.arrRef spec0 (2 : Fin 6)) (by decide)).symm)
theorem hF0_3 (c : Dev nD) : (dat0 (en0 m) c).arrAt (3 : Fin 6) cfg0.N = ex0 m c (Pipeline.arrRef spec0 (3 : Fin 6)) :=
  ((dat0 (en0 m) c).arrAt_in (3 : Fin 6) rfl _).trans ((A_eq0 (en0 m) c (3 : Fin 6)).trans (V2_of m (outs m) c (Pipeline.arrRef spec0 (3 : Fin 6)) (by decide)).symm)
theorem hF0_4 (c : Dev nD) : (dat0 (en0 m) c).arrAt (4 : Fin 6) cfg0.N = ex0 m c (Pipeline.arrRef spec0 (4 : Fin 6)) :=
  ((dat0 (en0 m) c).arrAt_in (4 : Fin 6) rfl _).trans ((A_eq0 (en0 m) c (4 : Fin 6)).trans (V2_of m (outs m) c (Pipeline.arrRef spec0 (4 : Fin 6)) (by decide)).symm)
theorem hF0_5 (c : Dev nD) : (dat0 (en0 m) c).arrAt (5 : Fin 6) cfg0.N = ex0 m c (Pipeline.arrRef spec0 (5 : Fin 6)) := by
  show _ = Ex0 m c main_v14
  exact (Ex0_out5 m c).symm
/-- At region 0's exit each of its arrays holds what the pipeline leaves: an input as entered, an output as above. -/
theorem hF0 (c : Dev nD) : ∀ w : Fin 6, (dat0 (en0 m) c).arrAt w cfg0.N = ex0 m c (Pipeline.arrRef spec0 w) :=
  forall_fin6 (hF0_0 m c) (hF0_1 m c) (hF0_2 m c) (hF0_3 m c) (hF0_4 m c) (hF0_5 m c)
/-- Every buffer that is none of region 0's arrays is at its exit what it was at its entry. -/
theorem hrest0 (c : Dev nD) : ∀ b, b ∉ Finset.univ.image (Pipeline.arrRef spec0) → ex0 m c b = en0 m c b := by
  intro b hb
  refine V2_of m (outs m) c b fun hmem => hb ?_
  rcases List.mem_singleton.mp hmem with rfl
  exact Finset.mem_image.mpr ⟨(5 : Fin 6), Finset.mem_univ _, rfl⟩

/-! ## The region as a segment -/

-- the library's lemmas are stated over the pinned configuration, which meets the printed one only when unification may
-- unfold plain definitions inside a metavariable's type
set_option backward.isDefEq.respectTransparency.types false in
/-- REGION 0 (custom_call 0) over the thread state. Entered from every unscoped buffer at the entry contents beside the
    generator register and the empty dues; left at the exit contents beside the same. At the entry the region's arrays are
    split out of the unscoped buffers and the rest bypasses the pipeline; the register rides in the pipeline's invariant;
    at the exit the arrays, each at what the write-backs fold to, are put back beside the bypassing rest. The kernel has
    no semaphore of its own and owes nothing. -/
noncomputable def reg0 : Pipeline.RegionSeg (pcfgs (F := F)) adm (pdats m) () defs₀ Variants.none L lv (0 : Fin 16) where
  win := launch0.win.to₀
  block_pos := launch0.block_pos
  stage_whole := launch0.stage_whole
  K := PEmpty
  osem k := k.elim
  ho := Pipeline.OwnSemFacts.none _
  hbody c := (body_obligation0 (en0 m) c).loose
  hwaits := Pipeline.hwaits_of_owed_zero _ _ _ _ L lv (0 : Fin 16) fun _ _ => rfl
  pre c := iprop(StableHlo.held (c : Thread nD τ) (Pipeline.ucRefs τ sig) (En0 m c) ∗ R c)
  post c := iprop(StableHlo.held (c : Thread nD τ) (Pipeline.ucRefs τ sig) (Ex0 m c) ∗ R c)
  X c := iprop(∃ r, prngReg c r)
  Y c := iprop(∃ r, prngReg c r)
  Z c := Pipeline.unscopedRest (Ix := Unit) (Name := ℕ) (U := UR sig nD τ) (Lvl := ℕ) spec0 c (en0 m c)
  hentry c := by
    rw [Pipeline.ownSems0_none]
    -- the unscoped buffers at the entry contents: the region's arrays, and the rest
    have hsplit := Pipeline.arrays_of_unscopedBufs (p := (0 : Fin 16)) (pcfgs (F := F)) adm (pdats m) launch0.win launch0.arr_whole c
      ((pdats m (0 : Fin 16) c).share_full fun _ => rfl) (en0 m c) fun w => A_eq0 (en0 m) c w
    rw [Pipeline.unscopedBufs_held] at hsplit
    iintro ⟨⟨Hbufs, Hreg, Hdue⟩, -, -⟩
    ihave Hs := hsplit $$ Hbufs
    icases Hs with ⟨Harr, Hrest⟩
    imodintro
    isplitl [Harr]; · iexact Harr
    -- no prefetched table
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hreg]; · iexact Hreg
    iexact Hrest
  hin c := by
    rw [show (pdats m (0 : Fin 16) c).Φ 0 = Pipeline.ΦA spec0 c from rfl]; unfold Pipeline.ΦA
    iintro ⟨Hreg, -, Hsc⟩
    isplitl [Hsc]; · iexact Hsc
    iexact Hreg
  hout c := by
    rw [Pipeline.ownSems0_none, show (pdats m (0 : Fin 16) c).Φ (Fin.last _) = Pipeline.ΦA spec0 c from rfl]; unfold Pipeline.ΦA
    iintro ⟨Hsc, Hreg⟩
    isplitl [Hreg]; · iexact Hreg
    isplitr; · iempintro
    iexact Hsc
  hexit c := by
    -- the arrays at what the write-backs fold to and the bypassing rest: the unscoped buffers at the exit contents
    have hjoin := Pipeline.unscopedBufs_of_arrays (p := (0 : Fin 16)) (pcfgs (F := F)) adm (Ix := Unit) (Name := ℕ) (U := UR sig nD τ) (Lvl := ℕ)
      launch0.win launch0.arr_whole c (pdats m) ((pdats m (0 : Fin 16) c).share_full fun _ => rfl)
      (en0 m c) (ex0 m c) ((pdats m (0 : Fin 16) c).arrAt · cfg0.N) (hF0 m c) (hrest0 m c)
    rw [Pipeline.unscopedBufs_held] at hjoin
    iintro ⟨Harr, Hdue, Hreg, Hrest⟩
    imodintro
    isplitl [Harr Hrest]
    · iapply hjoin; isplitl [Harr] <;> iassumption
    isplitl [Hreg]; · iexact Hreg
    unfold Pipeline.Dat.owesAt Pipeline.owesWithin
    icases Hdue with ⟨%W, -, Hdue⟩; iexists W; iexact Hdue

end Cert.KernelIdeal.Hand

end
-- ==== Proof.KI.Seg1.lean ====
/-
  Region 1 of @main as a segment of the run. First what the region leaves in each of its arrays, read against the generated
  valuations before and after it (an input window's array as entered, the output's at what the write-backs fold to, every
  other buffer untouched); then the segment record: the pipeline's layout facts from the launch, the body obligation at the region's
  entry contents, and the four entailments that take the thread state "every unscoped buffer at the entry contents, the
  generator register at some state, nothing owed" into the pipeline and bring it back at the exit contents.
-/
import proofs.«152161_j29669634081217_2_alg».proof.Proof.KI.Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the region leaves in its arrays -/

theorem hF1_0 (c : Dev nD) : (dat1 (en1 m) c).arrAt (0 : Fin 6) cfg1.N = ex1 m c (Pipeline.arrRef spec1 (0 : Fin 6)) :=
  ((dat1 (en1 m) c).arrAt_in (0 : Fin 6) rfl _).trans ((A_eq1 (en1 m) c (0 : Fin 6)).trans (V4_of m (outs m) c (Pipeline.arrRef spec1 (0 : Fin 6)) (by decide)).symm)
theorem hF1_1 (c : Dev nD) : (dat1 (en1 m) c).arrAt (1 : Fin 6) cfg1.N = ex1 m c (Pipeline.arrRef spec1 (1 : Fin 6)) :=
  ((dat1 (en1 m) c).arrAt_in (1 : Fin 6) rfl _).trans ((A_eq1 (en1 m) c (1 : Fin 6)).trans (V4_of m (outs m) c (Pipeline.arrRef spec1 (1 : Fin 6)) (by decide)).symm)
theorem hF1_2 (c : Dev nD) : (dat1 (en1 m) c).arrAt (2 : Fin 6) cfg1.N = ex1 m c (Pipeline.arrRef spec1 (2 : Fin 6)) :=
  ((dat1 (en1 m) c).arrAt_in (2 : Fin 6) rfl _).trans ((A_eq1 (en1 m) c (2 : Fin 6)).trans (V4_of m (outs m) c (Pipeline.arrRef spec1 (2 : Fin 6)) (by decide)).symm)
theorem hF1_3 (c : Dev nD) : (dat1 (en1 m) c).arrAt (3 : Fin 6) cfg1.N = ex1 m c (Pipeline.arrRef spec1 (3 : Fin 6)) :=
  ((dat1 (en1 m) c).arrAt_in (3 : Fin 6) rfl _).trans ((A_eq1 (en1 m) c (3 : Fin 6)).trans (V4_of m (outs m) c (Pipeline.arrRef spec1 (3 : Fin 6)) (by decide)).symm)
theorem hF1_4 (c : Dev nD) : (dat1 (en1 m) c).arrAt (4 : Fin 6) cfg1.N = ex1 m c (Pipeline.arrRef spec1 (4 : Fin 6)) :=
  ((dat1 (en1 m) c).arrAt_in (4 : Fin 6) rfl _).trans ((A_eq1 (en1 m) c (4 : Fin 6)).trans (V4_of m (outs m) c (Pipeline.arrRef spec1 (4 : Fin 6)) (by decide)).symm)
theorem hF1_5 (c : Dev nD) : (dat1 (en1 m) c).arrAt (5 : Fin 6) cfg1.N = ex1 m c (Pipeline.arrRef spec1 (5 : Fin 6)) := by
  show _ = Ex1 m c main_v17
  exact (Ex1_out5 m c).symm
/-- At region 1's exit each of its arrays holds what the pipeline leaves: an input as entered, an output as above. -/
theorem hF1 (c : Dev nD) : ∀ w : Fin 6, (dat1 (en1 m) c).arrAt w cfg1.N = ex1 m c (Pipeline.arrRef spec1 w) :=
  forall_fin6 (hF1_0 m c) (hF1_1 m c) (hF1_2 m c) (hF1_3 m c) (hF1_4 m c) (hF1_5 m c)
/-- Every buffer that is none of region 1's arrays is at its exit what it was at its entry. -/
theorem hrest1 (c : Dev nD) : ∀ b, b ∉ Finset.univ.image (Pipeline.arrRef spec1) → ex1 m c b = en1 m c b := by
  intro b hb
  refine V4_of m (outs m) c b fun hmem => hb ?_
  rcases List.mem_singleton.mp hmem with rfl
  exact Finset.mem_image.mpr ⟨(5 : Fin 6), Finset.mem_univ _, rfl⟩

/-! ## The region as a segment -/

-- the library's lemmas are stated over the pinned configuration, which meets the printed one only when unification may
-- unfold plain definitions inside a metavariable's type
set_option backward.isDefEq.respectTransparency.types false in
/-- REGION 1 (custom_call 1) over the thread state. Entered from every unscoped buffer at the entry contents beside the
    generator register and the empty dues; left at the exit contents beside the same. At the entry the region's arrays are
    split out of the unscoped buffers and the rest bypasses the pipeline; the register rides in the pipeline's invariant;
    at the exit the arrays, each at what the write-backs fold to, are put back beside the bypassing rest. The kernel has
    no semaphore of its own and owes nothing. -/
noncomputable def reg1 : Pipeline.RegionSeg (pcfgs (F := F)) adm (pdats m) () defs₀ Variants.none L lv (1 : Fin 16) where
  win := launch1.win.to₀
  block_pos := launch1.block_pos
  stage_whole := launch1.stage_whole
  K := PEmpty
  osem k := k.elim
  ho := Pipeline.OwnSemFacts.none _
  hbody c := (body_obligation1 (en1 m) c).loose
  hwaits := Pipeline.hwaits_of_owed_zero _ _ _ _ L lv (1 : Fin 16) fun _ _ => rfl
  pre c := iprop(StableHlo.held (c : Thread nD τ) (Pipeline.ucRefs τ sig) (En1 m c) ∗ R c)
  post c := iprop(StableHlo.held (c : Thread nD τ) (Pipeline.ucRefs τ sig) (Ex1 m c) ∗ R c)
  X c := iprop(∃ r, prngReg c r)
  Y c := iprop(∃ r, prngReg c r)
  Z c := Pipeline.unscopedRest (Ix := Unit) (Name := ℕ) (U := UR sig nD τ) (Lvl := ℕ) spec1 c (en1 m c)
  hentry c := by
    rw [Pipeline.ownSems0_none]
    -- the unscoped buffers at the entry contents: the region's arrays, and the rest
    have hsplit := Pipeline.arrays_of_unscopedBufs (p := (1 : Fin 16)) (pcfgs (F := F)) adm (pdats m) launch1.win launch1.arr_whole c
      ((pdats m (1 : Fin 16) c).share_full fun _ => rfl) (en1 m c) fun w => A_eq1 (en1 m) c w
    rw [Pipeline.unscopedBufs_held] at hsplit
    iintro ⟨⟨Hbufs, Hreg, Hdue⟩, -, -⟩
    ihave Hs := hsplit $$ Hbufs
    icases Hs with ⟨Harr, Hrest⟩
    imodintro
    isplitl [Harr]; · iexact Harr
    -- no prefetched table
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hreg]; · iexact Hreg
    iexact Hrest
  hin c := by
    rw [show (pdats m (1 : Fin 16) c).Φ 0 = Pipeline.ΦA spec1 c from rfl]; unfold Pipeline.ΦA
    iintro ⟨Hreg, -, Hsc⟩
    isplitl [Hsc]; · iexact Hsc
    iexact Hreg
  hout c := by
    rw [Pipeline.ownSems0_none, show (pdats m (1 : Fin 16) c).Φ (Fin.last _) = Pipeline.ΦA spec1 c from rfl]; unfold Pipeline.ΦA
    iintro ⟨Hsc, Hreg⟩
    isplitl [Hreg]; · iexact Hreg
    isplitr; · iempintro
    iexact Hsc
  hexit c := by
    -- the arrays at what the write-backs fold to and the bypassing rest: the unscoped buffers at the exit contents
    have hjoin := Pipeline.unscopedBufs_of_arrays (p := (1 : Fin 16)) (pcfgs (F := F)) adm (Ix := Unit) (Name := ℕ) (U := UR sig nD τ) (Lvl := ℕ)
      launch1.win launch1.arr_whole c (pdats m) ((pdats m (1 : Fin 16) c).share_full fun _ => rfl)
      (en1 m c) (ex1 m c) ((pdats m (1 : Fin 16) c).arrAt · cfg1.N) (hF1 m c) (hrest1 m c)
    rw [Pipeline.unscopedBufs_held] at hjoin
    iintro ⟨Harr, Hdue, Hreg, Hrest⟩
    imodintro
    isplitl [Harr Hrest]
    · iapply hjoin; isplitl [Harr] <;> iassumption
    isplitl [Hreg]; · iexact Hreg
    unfold Pipeline.Dat.owesAt Pipeline.owesWithin
    icases Hdue with ⟨%W, -, Hdue⟩; iexists W; iexact Hdue

end Cert.KernelIdeal.Hand

end
-- ==== Proof.KI.Seg2.lean ====
/-
  Region 2 of @main as a segment of the run. First what the region leaves in each of its arrays, read against the generated
  valuations before and after it (an input window's array as entered, the output's at what the write-backs fold to, every
  other buffer untouched); then the segment record: the pipeline's layout facts from the launch, the body obligation at the region's
  entry contents, and the four entailments that take the thread state "every unscoped buffer at the entry contents, the
  generator register at some state, nothing owed" into the pipeline and bring it back at the exit contents.
-/
import proofs.«152161_j29669634081217_2_alg».proof.Proof.KI.Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the region leaves in its arrays -/

theorem hF2_0 (c : Dev nD) : (dat2 (en2 m) c).arrAt (0 : Fin 5) cfg2.N = ex2 m c (Pipeline.arrRef spec2 (0 : Fin 5)) :=
  ((dat2 (en2 m) c).arrAt_in (0 : Fin 5) rfl _).trans ((A_eq2 (en2 m) c (0 : Fin 5)).trans (V6_of m (outs m) c (Pipeline.arrRef spec2 (0 : Fin 5)) (by decide)).symm)
theorem hF2_1 (c : Dev nD) : (dat2 (en2 m) c).arrAt (1 : Fin 5) cfg2.N = ex2 m c (Pipeline.arrRef spec2 (1 : Fin 5)) :=
  ((dat2 (en2 m) c).arrAt_in (1 : Fin 5) rfl _).trans ((A_eq2 (en2 m) c (1 : Fin 5)).trans (V6_of m (outs m) c (Pipeline.arrRef spec2 (1 : Fin 5)) (by decide)).symm)
theorem hF2_2 (c : Dev nD) : (dat2 (en2 m) c).arrAt (2 : Fin 5) cfg2.N = ex2 m c (Pipeline.arrRef spec2 (2 : Fin 5)) :=
  ((dat2 (en2 m) c).arrAt_in (2 : Fin 5) rfl _).trans ((A_eq2 (en2 m) c (2 : Fin 5)).trans (V6_of m (outs m) c (Pipeline.arrRef spec2 (2 : Fin 5)) (by decide)).symm)
theorem hF2_3 (c : Dev nD) : (dat2 (en2 m) c).arrAt (3 : Fin 5) cfg2.N = ex2 m c (Pipeline.arrRef spec2 (3 : Fin 5)) := by
  show _ = Ex2 m c main_v22_0
  exact (Ex2_out3 m c).symm
theorem hF2_4 (c : Dev nD) : (dat2 (en2 m) c).arrAt (4 : Fin 5) cfg2.N = ex2 m c (Pipeline.arrRef spec2 (4 : Fin 5)) := by
  show _ = Ex2 m c main_v22_1
  exact (Ex2_out4 m c).symm
/-- At region 2's exit each of its arrays holds what the pipeline leaves: an input as entered, an output as above. -/
theorem hF2 (c : Dev nD) : ∀ w : Fin 5, (dat2 (en2 m) c).arrAt w cfg2.N = ex2 m c (Pipeline.arrRef spec2 w) :=
  forall_fin5 (hF2_0 m c) (hF2_1 m c) (hF2_2 m c) (hF2_3 m c) (hF2_4 m c)
/-- Every buffer that is none of region 2's arrays is at its exit what it was at its entry. -/
theorem hrest2 (c : Dev nD) : ∀ b, b ∉ Finset.univ.image (Pipeline.arrRef spec2) → ex2 m c b = en2 m c b := by
  intro b hb
  refine V6_of m (outs m) c b fun hmem => hb ?_
  rcases List.mem_cons.mp hmem with rfl | hmem
  · exact Finset.mem_image.mpr ⟨(3 : Fin 5), Finset.mem_univ _, rfl⟩
  rcases List.mem_singleton.mp hmem with rfl
  exact Finset.mem_image.mpr ⟨(4 : Fin 5), Finset.mem_univ _, rfl⟩

/-! ## The region as a segment -/

-- the library's lemmas are stated over the pinned configuration, which meets the printed one only when unification may
-- unfold plain definitions inside a metavariable's type
set_option backward.isDefEq.respectTransparency.types false in
/-- REGION 2 (custom_call 2) over the thread state. Entered from every unscoped buffer at the entry contents beside the
    generator register and the empty dues; left at the exit contents beside the same. At the entry the region's arrays are
    split out of the unscoped buffers and the rest bypasses the pipeline; the register rides in the pipeline's invariant;
    at the exit the arrays, each at what the write-backs fold to, are put back beside the bypassing rest. The kernel has
    no semaphore of its own and owes nothing. -/
noncomputable def reg2 : Pipeline.RegionSeg (pcfgs (F := F)) adm (pdats m) () defs₀ Variants.none L lv (2 : Fin 16) where
  win := launch2.win.to₀
  block_pos := launch2.block_pos
  stage_whole := launch2.stage_whole
  K := PEmpty
  osem k := k.elim
  ho := Pipeline.OwnSemFacts.none _
  hbody c := (body_obligation2 (en2 m) c).loose
  hwaits := Pipeline.hwaits_of_owed_zero _ _ _ _ L lv (2 : Fin 16) fun _ _ => rfl
  pre c := iprop(StableHlo.held (c : Thread nD τ) (Pipeline.ucRefs τ sig) (En2 m c) ∗ R c)
  post c := iprop(StableHlo.held (c : Thread nD τ) (Pipeline.ucRefs τ sig) (Ex2 m c) ∗ R c)
  X c := iprop(∃ r, prngReg c r)
  Y c := iprop(∃ r, prngReg c r)
  Z c := Pipeline.unscopedRest (Ix := Unit) (Name := ℕ) (U := UR sig nD τ) (Lvl := ℕ) spec2 c (en2 m c)
  hentry c := by
    rw [Pipeline.ownSems0_none]
    -- the unscoped buffers at the entry contents: the region's arrays, and the rest
    have hsplit := Pipeline.arrays_of_unscopedBufs (p := (2 : Fin 16)) (pcfgs (F := F)) adm (pdats m) launch2.win launch2.arr_whole c
      ((pdats m (2 : Fin 16) c).share_full fun _ => rfl) (en2 m c) fun w => A_eq2 (en2 m) c w
    rw [Pipeline.unscopedBufs_held] at hsplit
    iintro ⟨⟨Hbufs, Hreg, Hdue⟩, -, -⟩
    ihave Hs := hsplit $$ Hbufs
    icases Hs with ⟨Harr, Hrest⟩
    imodintro
    isplitl [Harr]; · iexact Harr
    -- no prefetched table
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hreg]; · iexact Hreg
    iexact Hrest
  hin c := by
    rw [show (pdats m (2 : Fin 16) c).Φ 0 = Pipeline.ΦA spec2 c from rfl]; unfold Pipeline.ΦA
    iintro ⟨Hreg, -, Hsc⟩
    isplitl [Hsc]; · iexact Hsc
    iexact Hreg
  hout c := by
    rw [Pipeline.ownSems0_none, show (pdats m (2 : Fin 16) c).Φ (Fin.last _) = Pipeline.ΦA spec2 c from rfl]; unfold Pipeline.ΦA
    iintro ⟨Hsc, Hreg⟩
    isplitl [Hreg]; · iexact Hreg
    isplitr; · iempintro
    iexact Hsc
  hexit c := by
    -- the arrays at what the write-backs fold to and the bypassing rest: the unscoped buffers at the exit contents
    have hjoin := Pipeline.unscopedBufs_of_arrays (p := (2 : Fin 16)) (pcfgs (F := F)) adm (Ix := Unit) (Name := ℕ) (U := UR sig nD τ) (Lvl := ℕ)
      launch2.win launch2.arr_whole c (pdats m) ((pdats m (2 : Fin 16) c).share_full fun _ => rfl)
      (en2 m c) (ex2 m c) ((pdats m (2 : Fin 16) c).arrAt · cfg2.N) (hF2 m c) (hrest2 m c)
    rw [Pipeline.unscopedBufs_held] at hjoin
    iintro ⟨Harr, Hdue, Hreg, Hrest⟩
    imodintro
    isplitl [Harr Hrest]
    · iapply hjoin; isplitl [Harr] <;> iassumption
    isplitl [Hreg]; · iexact Hreg
    unfold Pipeline.Dat.owesAt Pipeline.owesWithin
    icases Hdue with ⟨%W, -, Hdue⟩; iexists W; iexact Hdue

end Cert.KernelIdeal.Hand

end
-- ==== Proof.KI.Seg3.lean ====
/-
  Region 3 of @main as a segment of the run. First what the region leaves in each of its arrays, read against the generated
  valuations before and after it (an input window's array as entered, the output's at what the write-backs fold to, every
  other buffer untouched); then the segment record: the pipeline's layout facts from the launch, the body obligation at the region's
  entry contents, and the four entailments that take the thread state "every unscoped buffer at the entry contents, the
  generator register at some state, nothing owed" into the pipeline and bring it back at the exit contents.
-/
import proofs.«152161_j29669634081217_2_alg».proof.Proof.KI.Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the region leaves in its arrays -/

theorem hF3_0 (c : Dev nD) : (dat3 (en3 m) c).arrAt (0 : Fin 8) cfg3.N = ex3 m c (Pipeline.arrRef spec3 (0 : Fin 8)) :=
  ((dat3 (en3 m) c).arrAt_in (0 : Fin 8) rfl _).trans ((A_eq3 (en3 m) c (0 : Fin 8)).trans (V8_of m (outs m) c (Pipeline.arrRef spec3 (0 : Fin 8)) (by decide)).symm)
theorem hF3_1 (c : Dev nD) : (dat3 (en3 m) c).arrAt (1 : Fin 8) cfg3.N = ex3 m c (Pipeline.arrRef spec3 (1 : Fin 8)) :=
  ((dat3 (en3 m) c).arrAt_in (1 : Fin 8) rfl _).trans ((A_eq3 (en3 m) c (1 : Fin 8)).trans (V8_of m (outs m) c (Pipeline.arrRef spec3 (1 : Fin 8)) (by decide)).symm)
theorem hF3_2 (c : Dev nD) : (dat3 (en3 m) c).arrAt (2 : Fin 8) cfg3.N = ex3 m c (Pipeline.arrRef spec3 (2 : Fin 8)) :=
  ((dat3 (en3 m) c).arrAt_in (2 : Fin 8) rfl _).trans ((A_eq3 (en3 m) c (2 : Fin 8)).trans (V8_of m (outs m) c (Pipeline.arrRef spec3 (2 : Fin 8)) (by decide)).symm)
theorem hF3_3 (c : Dev nD) : (dat3 (en3 m) c).arrAt (3 : Fin 8) cfg3.N = ex3 m c (Pipeline.arrRef spec3 (3 : Fin 8)) :=
  ((dat3 (en3 m) c).arrAt_in (3 : Fin 8) rfl _).trans ((A_eq3 (en3 m) c (3 : Fin 8)).trans (V8_of m (outs m) c (Pipeline.arrRef spec3 (3 : Fin 8)) (by decide)).symm)
theorem hF3_4 (c : Dev nD) : (dat3 (en3 m) c).arrAt (4 : Fin 8) cfg3.N = ex3 m c (Pipeline.arrRef spec3 (4 : Fin 8)) :=
  ((dat3 (en3 m) c).arrAt_in (4 : Fin 8) rfl _).trans ((A_eq3 (en3 m) c (4 : Fin 8)).trans (V8_of m (outs m) c (Pipeline.arrRef spec3 (4 : Fin 8)) (by decide)).symm)
theorem hF3_5 (c : Dev nD) : (dat3 (en3 m) c).arrAt (5 : Fin 8) cfg3.N = ex3 m c (Pipeline.arrRef spec3 (5 : Fin 8)) :=
  ((dat3 (en3 m) c).arrAt_in (5 : Fin 8) rfl _).trans ((A_eq3 (en3 m) c (5 : Fin 8)).trans (V8_of m (outs m) c (Pipeline.arrRef spec3 (5 : Fin 8)) (by decide)).symm)
theorem hF3_6 (c : Dev nD) : (dat3 (en3 m) c).arrAt (6 : Fin 8) cfg3.N = ex3 m c (Pipeline.arrRef spec3 (6 : Fin 8)) :=
  ((dat3 (en3 m) c).arrAt_in (6 : Fin 8) rfl _).trans ((A_eq3 (en3 m) c (6 : Fin 8)).trans (V8_of m (outs m) c (Pipeline.arrRef spec3 (6 : Fin 8)) (by decide)).symm)
theorem hF3_7 (c : Dev nD) : (dat3 (en3 m) c).arrAt (7 : Fin 8) cfg3.N = ex3 m c (Pipeline.arrRef spec3 (7 : Fin 8)) := by
  show _ = Ex3 m c main_v47
  exact (Ex3_out7 m c).symm
/-- At region 3's exit each of its arrays holds what the pipeline leaves: an input as entered, an output as above. -/
theorem hF3 (c : Dev nD) : ∀ w : Fin 8, (dat3 (en3 m) c).arrAt w cfg3.N = ex3 m c (Pipeline.arrRef spec3 w) :=
  forall_fin8 (hF3_0 m c) (hF3_1 m c) (hF3_2 m c) (hF3_3 m c) (hF3_4 m c) (hF3_5 m c) (hF3_6 m c) (hF3_7 m c)
/-- Every buffer that is none of region 3's arrays is at its exit what it was at its entry. -/
theorem hrest3 (c : Dev nD) : ∀ b, b ∉ Finset.univ.image (Pipeline.arrRef spec3) → ex3 m c b = en3 m c b := by
  intro b hb
  refine V8_of m (outs m) c b fun hmem => hb ?_
  rcases List.mem_singleton.mp hmem with rfl
  exact Finset.mem_image.mpr ⟨(7 : Fin 8), Finset.mem_univ _, rfl⟩

/-! ## The region as a segment -/

-- the library's lemmas are stated over the pinned configuration, which meets the printed one only when unification may
-- unfold plain definitions inside a metavariable's type
set_option backward.isDefEq.respectTransparency.types false in
/-- REGION 3 (custom_call 3) over the thread state. Entered from every unscoped buffer at the entry contents beside the
    generator register and the empty dues; left at the exit contents beside the same. At the entry the region's arrays are
    split out of the unscoped buffers and the rest bypasses the pipeline; the register rides in the pipeline's invariant;
    at the exit the arrays, each at what the write-backs fold to, are put back beside the bypassing rest. The kernel has
    no semaphore of its own and owes nothing. -/
noncomputable def reg3 : Pipeline.RegionSeg (pcfgs (F := F)) adm (pdats m) () defs₀ Variants.none L lv (3 : Fin 16) where
  win := launch3.win.to₀
  block_pos := launch3.block_pos
  stage_whole := launch3.stage_whole
  K := PEmpty
  osem k := k.elim
  ho := Pipeline.OwnSemFacts.none _
  hbody c := (body_obligation3 (en3 m) c).loose
  hwaits := Pipeline.hwaits_of_owed_zero _ _ _ _ L lv (3 : Fin 16) fun _ _ => rfl
  pre c := iprop(StableHlo.held (c : Thread nD τ) (Pipeline.ucRefs τ sig) (En3 m c) ∗ R c)
  post c := iprop(StableHlo.held (c : Thread nD τ) (Pipeline.ucRefs τ sig) (Ex3 m c) ∗ R c)
  X c := iprop(∃ r, prngReg c r)
  Y c := iprop(∃ r, prngReg c r)
  Z c := Pipeline.unscopedRest (Ix := Unit) (Name := ℕ) (U := UR sig nD τ) (Lvl := ℕ) spec3 c (en3 m c)
  hentry c := by
    rw [Pipeline.ownSems0_none]
    -- the unscoped buffers at the entry contents: the region's arrays, and the rest
    have hsplit := Pipeline.arrays_of_unscopedBufs (p := (3 : Fin 16)) (pcfgs (F := F)) adm (pdats m) launch3.win launch3.arr_whole c
      ((pdats m (3 : Fin 16) c).share_full fun _ => rfl) (en3 m c) fun w => A_eq3 (en3 m) c w
    rw [Pipeline.unscopedBufs_held] at hsplit
    iintro ⟨⟨Hbufs, Hreg, Hdue⟩, -, -⟩
    ihave Hs := hsplit $$ Hbufs
    icases Hs with ⟨Harr, Hrest⟩
    imodintro
    isplitl [Harr]; · iexact Harr
    -- no prefetched table
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hreg]; · iexact Hreg
    iexact Hrest
  hin c := by
    rw [show (pdats m (3 : Fin 16) c).Φ 0 = Pipeline.ΦA spec3 c from rfl]; unfold Pipeline.ΦA
    iintro ⟨Hreg, -, Hsc⟩
    isplitl [Hsc]; · iexact Hsc
    iexact Hreg
  hout c := by
    rw [Pipeline.ownSems0_none, show (pdats m (3 : Fin 16) c).Φ (Fin.last _) = Pipeline.ΦA spec3 c from rfl]; unfold Pipeline.ΦA
    iintro ⟨Hsc, Hreg⟩
    isplitl [Hreg]; · iexact Hreg
    isplitr; · iempintro
    iexact Hsc
  hexit c := by
    -- the arrays at what the write-backs fold to and the bypassing rest: the unscoped buffers at the exit contents
    have hjoin := Pipeline.unscopedBufs_of_arrays (p := (3 : Fin 16)) (pcfgs (F := F)) adm (Ix := Unit) (Name := ℕ) (U := UR sig nD τ) (Lvl := ℕ)
      launch3.win launch3.arr_whole c (pdats m) ((pdats m (3 : Fin 16) c).share_full fun _ => rfl)
      (en3 m c) (ex3 m c) ((pdats m (3 : Fin 16) c).arrAt · cfg3.N) (hF3 m c) (hrest3 m c)
    rw [Pipeline.unscopedBufs_held] at hjoin
    iintro ⟨Harr, Hdue, Hreg, Hrest⟩
    imodintro
    isplitl [Harr Hrest]
    · iapply hjoin; isplitl [Harr] <;> iassumption
    isplitl [Hreg]; · iexact Hreg
    unfold Pipeline.Dat.owesAt Pipeline.owesWithin
    icases Hdue with ⟨%W, -, Hdue⟩; iexists W; iexact Hdue

end Cert.KernelIdeal.Hand

end
-- ==== Proof.KI.Seg4.lean ====
/-
  Region 4 of @main as a segment of the run. First what the region leaves in each of its arrays, read against the generated
  valuations before and after it (an input window's array as entered, the output's at what the write-backs fold to, every
  other buffer untouched); then the segment record: the pipeline's layout facts from the launch, the body obligation at the region's
  entry contents, and the four entailments that take the thread state "every unscoped buffer at the entry contents, the
  generator register at some state, nothing owed" into the pipeline and bring it back at the exit contents.
-/
import proofs.«152161_j29669634081217_2_alg».proof.Proof.KI.Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the region leaves in its arrays -/

theorem hF4_0 (c : Dev nD) : (dat4 (en4 m) c).arrAt (0 : Fin 12) cfg4.N = ex4 m c (Pipeline.arrRef spec4 (0 : Fin 12)) :=
  ((dat4 (en4 m) c).arrAt_in (0 : Fin 12) rfl _).trans ((A_eq4 (en4 m) c (0 : Fin 12)).trans (V10_of m (outs m) c (Pipeline.arrRef spec4 (0 : Fin 12)) (by decide)).symm)
theorem hF4_1 (c : Dev nD) : (dat4 (en4 m) c).arrAt (1 : Fin 12) cfg4.N = ex4 m c (Pipeline.arrRef spec4 (1 : Fin 12)) :=
  ((dat4 (en4 m) c).arrAt_in (1 : Fin 12) rfl _).trans ((A_eq4 (en4 m) c (1 : Fin 12)).trans (V10_of m (outs m) c (Pipeline.arrRef spec4 (1 : Fin 12)) (by decide)).symm)
theorem hF4_2 (c : Dev nD) : (dat4 (en4 m) c).arrAt (2 : Fin 12) cfg4.N = ex4 m c (Pipeline.arrRef spec4 (2 : Fin 12)) :=
  ((dat4 (en4 m) c).arrAt_in (2 : Fin 12) rfl _).trans ((A_eq4 (en4 m) c (2 : Fin 12)).trans (V10_of m (outs m) c (Pipeline.arrRef spec4 (2 : Fin 12)) (by decide)).symm)
theorem hF4_3 (c : Dev nD) : (dat4 (en4 m) c).arrAt (3 : Fin 12) cfg4.N = ex4 m c (Pipeline.arrRef spec4 (3 : Fin 12)) :=
  ((dat4 (en4 m) c).arrAt_in (3 : Fin 12) rfl _).trans ((A_eq4 (en4 m) c (3 : Fin 12)).trans (V10_of m (outs m) c (Pipeline.arrRef spec4 (3 : Fin 12)) (by decide)).symm)
theorem hF4_4 (c : Dev nD) : (dat4 (en4 m) c).arrAt (4 : Fin 12) cfg4.N = ex4 m c (Pipeline.arrRef spec4 (4 : Fin 12)) :=
  ((dat4 (en4 m) c).arrAt_in (4 : Fin 12) rfl _).trans ((A_eq4 (en4 m) c (4 : Fin 12)).trans (V10_of m (outs m) c (Pipeline.arrRef spec4 (4 : Fin 12)) (by decide)).symm)
theorem hF4_5 (c : Dev nD) : (dat4 (en4 m) c).arrAt (5 : Fin 12) cfg4.N = ex4 m c (Pipeline.arrRef spec4 (5 : Fin 12)) :=
  ((dat4 (en4 m) c).arrAt_in (5 : Fin 12) rfl _).trans ((A_eq4 (en4 m) c (5 : Fin 12)).trans (V10_of m (outs m) c (Pipeline.arrRef spec4 (5 : Fin 12)) (by decide)).symm)
theorem hF4_6 (c : Dev nD) : (dat4 (en4 m) c).arrAt (6 : Fin 12) cfg4.N = ex4 m c (Pipeline.arrRef spec4 (6 : Fin 12)) :=
  ((dat4 (en4 m) c).arrAt_in (6 : Fin 12) rfl _).trans ((A_eq4 (en4 m) c (6 : Fin 12)).trans (V10_of m (outs m) c (Pipeline.arrRef spec4 (6 : Fin 12)) (by decide)).symm)
theorem hF4_7 (c : Dev nD) : (dat4 (en4 m) c).arrAt (7 : Fin 12) cfg4.N = ex4 m c (Pipeline.arrRef spec4 (7 : Fin 12)) :=
  ((dat4 (en4 m) c).arrAt_in (7 : Fin 12) rfl _).trans ((A_eq4 (en4 m) c (7 : Fin 12)).trans (V10_of m (outs m) c (Pipeline.arrRef spec4 (7 : Fin 12)) (by decide)).symm)
theorem hF4_8 (c : Dev nD) : (dat4 (en4 m) c).arrAt (8 : Fin 12) cfg4.N = ex4 m c (Pipeline.arrRef spec4 (8 : Fin 12)) :=
  ((dat4 (en4 m) c).arrAt_in (8 : Fin 12) rfl _).trans ((A_eq4 (en4 m) c (8 : Fin 12)).trans (V10_of m (outs m) c (Pipeline.arrRef spec4 (8 : Fin 12)) (by decide)).symm)
theorem hF4_9 (c : Dev nD) : (dat4 (en4 m) c).arrAt (9 : Fin 12) cfg4.N = ex4 m c (Pipeline.arrRef spec4 (9 : Fin 12)) := by
  show _ = Ex4 m c main_v67_0
  exact (Ex4_out9 m c).symm
theorem hF4_10 (c : Dev nD) : (dat4 (en4 m) c).arrAt (10 : Fin 12) cfg4.N = ex4 m c (Pipeline.arrRef spec4 (10 : Fin 12)) := by
  show _ = Ex4 m c main_v67_1
  exact (Ex4_out10 m c).symm
theorem hF4_11 (c : Dev nD) : (dat4 (en4 m) c).arrAt (11 : Fin 12) cfg4.N = ex4 m c (Pipeline.arrRef spec4 (11 : Fin 12)) := by
  show _ = Ex4 m c main_v67_2
  exact (Ex4_out11 m c).symm
/-- At region 4's exit each of its arrays holds what the pipeline leaves: an input as entered, an output as above. -/
theorem hF4 (c : Dev nD) : ∀ w : Fin 12, (dat4 (en4 m) c).arrAt w cfg4.N = ex4 m c (Pipeline.arrRef spec4 w) :=
  forall_fin12 (hF4_0 m c) (hF4_1 m c) (hF4_2 m c) (hF4_3 m c) (hF4_4 m c) (hF4_5 m c) (hF4_6 m c) (hF4_7 m c) (hF4_8 m c) (hF4_9 m c) (hF4_10 m c) (hF4_11 m c)
/-- Every buffer that is none of region 4's arrays is at its exit what it was at its entry. -/
theorem hrest4 (c : Dev nD) : ∀ b, b ∉ Finset.univ.image (Pipeline.arrRef spec4) → ex4 m c b = en4 m c b := by
  intro b hb
  refine V10_of m (outs m) c b fun hmem => hb ?_
  rcases List.mem_cons.mp hmem with rfl | hmem
  · exact Finset.mem_image.mpr ⟨(9 : Fin 12), Finset.mem_univ _, rfl⟩
  rcases List.mem_cons.mp hmem with rfl | hmem
  · exact Finset.mem_image.mpr ⟨(10 : Fin 12), Finset.mem_univ _, rfl⟩
  rcases List.mem_singleton.mp hmem with rfl
  exact Finset.mem_image.mpr ⟨(11 : Fin 12), Finset.mem_univ _, rfl⟩

/-! ## The region as a segment -/

-- the library's lemmas are stated over the pinned configuration, which meets the printed one only when unification may
-- unfold plain definitions inside a metavariable's type
set_option backward.isDefEq.respectTransparency.types false in
/-- REGION 4 (custom_call 4) over the thread state. Entered from every unscoped buffer at the entry contents beside the
    generator register and the empty dues; left at the exit contents beside the same. At the entry the region's arrays are
    split out of the unscoped buffers and the rest bypasses the pipeline; the register rides in the pipeline's invariant;
    at the exit the arrays, each at what the write-backs fold to, are put back beside the bypassing rest. The kernel has
    no semaphore of its own and owes nothing. -/
noncomputable def reg4 : Pipeline.RegionSeg (pcfgs (F := F)) adm (pdats m) () defs₀ Variants.none L lv (4 : Fin 16) where
  win := launch4.win.to₀
  block_pos := launch4.block_pos
  stage_whole := launch4.stage_whole
  K := PEmpty
  osem k := k.elim
  ho := Pipeline.OwnSemFacts.none _
  hbody c := (body_obligation4 (en4 m) c).loose
  hwaits := Pipeline.hwaits_of_owed_zero _ _ _ _ L lv (4 : Fin 16) fun _ _ => rfl
  pre c := iprop(StableHlo.held (c : Thread nD τ) (Pipeline.ucRefs τ sig) (En4 m c) ∗ R c)
  post c := iprop(StableHlo.held (c : Thread nD τ) (Pipeline.ucRefs τ sig) (Ex4 m c) ∗ R c)
  X c := iprop(∃ r, prngReg c r)
  Y c := iprop(∃ r, prngReg c r)
  Z c := Pipeline.unscopedRest (Ix := Unit) (Name := ℕ) (U := UR sig nD τ) (Lvl := ℕ) spec4 c (en4 m c)
  hentry c := by
    rw [Pipeline.ownSems0_none]
    -- the unscoped buffers at the entry contents: the region's arrays, and the rest
    have hsplit := Pipeline.arrays_of_unscopedBufs (p := (4 : Fin 16)) (pcfgs (F := F)) adm (pdats m) launch4.win launch4.arr_whole c
      ((pdats m (4 : Fin 16) c).share_full fun _ => rfl) (en4 m c) fun w => A_eq4 (en4 m) c w
    rw [Pipeline.unscopedBufs_held] at hsplit
    iintro ⟨⟨Hbufs, Hreg, Hdue⟩, -, -⟩
    ihave Hs := hsplit $$ Hbufs
    icases Hs with ⟨Harr, Hrest⟩
    imodintro
    isplitl [Harr]; · iexact Harr
    -- no prefetched table
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hreg]; · iexact Hreg
    iexact Hrest
  hin c := by
    rw [show (pdats m (4 : Fin 16) c).Φ 0 = Pipeline.ΦA spec4 c from rfl]; unfold Pipeline.ΦA
    iintro ⟨Hreg, -, Hsc⟩
    isplitl [Hsc]; · iexact Hsc
    iexact Hreg
  hout c := by
    rw [Pipeline.ownSems0_none, show (pdats m (4 : Fin 16) c).Φ (Fin.last _) = Pipeline.ΦA spec4 c from rfl]; unfold Pipeline.ΦA
    iintro ⟨Hsc, Hreg⟩
    isplitl [Hreg]; · iexact Hreg
    isplitr; · iempintro
    iexact Hsc
  hexit c := by
    -- the arrays at what the write-backs fold to and the bypassing rest: the unscoped buffers at the exit contents
    have hjoin := Pipeline.unscopedBufs_of_arrays (p := (4 : Fin 16)) (pcfgs (F := F)) adm (Ix := Unit) (Name := ℕ) (U := UR sig nD τ) (Lvl := ℕ)
      launch4.win launch4.arr_whole c (pdats m) ((pdats m (4 : Fin 16) c).share_full fun _ => rfl)
      (en4 m c) (ex4 m c) ((pdats m (4 : Fin 16) c).arrAt · cfg4.N) (hF4 m c) (hrest4 m c)
    rw [Pipeline.unscopedBufs_held] at hjoin
    iintro ⟨Harr, Hdue, Hreg, Hrest⟩
    imodintro
    isplitl [Harr Hrest]
    · iapply hjoin; isplitl [Harr] <;> iassumption
    isplitl [Hreg]; · iexact Hreg
    unfold Pipeline.Dat.owesAt Pipeline.owesWithin
    icases Hdue with ⟨%W, -, Hdue⟩; iexists W; iexact Hdue

end Cert.KernelIdeal.Hand

end
-- ==== Proof.KI.Seg5.lean ====
/-
  Region 5 of @main as a segment of the run. First what the region leaves in each of its arrays, read against the generated
  valuations before and after it (an input window's array as entered, the output's at what the write-backs fold to, every
  other buffer untouched); then the segment record: the pipeline's layout facts from the launch, the body obligation at the region's
  entry contents, and the four entailments that take the thread state "every unscoped buffer at the entry contents, the
  generator register at some state, nothing owed" into the pipeline and bring it back at the exit contents.
-/
import proofs.«152161_j29669634081217_2_alg».proof.Proof.KI.Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the region leaves in its arrays -/

theorem hF5_0 (c : Dev nD) : (dat5 (en5 m) c).arrAt (0 : Fin 8) cfg5.N = ex5 m c (Pipeline.arrRef spec5 (0 : Fin 8)) :=
  ((dat5 (en5 m) c).arrAt_in (0 : Fin 8) rfl _).trans ((A_eq5 (en5 m) c (0 : Fin 8)).trans (V12_of m (outs m) c (Pipeline.arrRef spec5 (0 : Fin 8)) (by decide)).symm)
theorem hF5_1 (c : Dev nD) : (dat5 (en5 m) c).arrAt (1 : Fin 8) cfg5.N = ex5 m c (Pipeline.arrRef spec5 (1 : Fin 8)) :=
  ((dat5 (en5 m) c).arrAt_in (1 : Fin 8) rfl _).trans ((A_eq5 (en5 m) c (1 : Fin 8)).trans (V12_of m (outs m) c (Pipeline.arrRef spec5 (1 : Fin 8)) (by decide)).symm)
theorem hF5_2 (c : Dev nD) : (dat5 (en5 m) c).arrAt (2 : Fin 8) cfg5.N = ex5 m c (Pipeline.arrRef spec5 (2 : Fin 8)) :=
  ((dat5 (en5 m) c).arrAt_in (2 : Fin 8) rfl _).trans ((A_eq5 (en5 m) c (2 : Fin 8)).trans (V12_of m (outs m) c (Pipeline.arrRef spec5 (2 : Fin 8)) (by decide)).symm)
theorem hF5_3 (c : Dev nD) : (dat5 (en5 m) c).arrAt (3 : Fin 8) cfg5.N = ex5 m c (Pipeline.arrRef spec5 (3 : Fin 8)) :=
  ((dat5 (en5 m) c).arrAt_in (3 : Fin 8) rfl _).trans ((A_eq5 (en5 m) c (3 : Fin 8)).trans (V12_of m (outs m) c (Pipeline.arrRef spec5 (3 : Fin 8)) (by decide)).symm)
theorem hF5_4 (c : Dev nD) : (dat5 (en5 m) c).arrAt (4 : Fin 8) cfg5.N = ex5 m c (Pipeline.arrRef spec5 (4 : Fin 8)) :=
  ((dat5 (en5 m) c).arrAt_in (4 : Fin 8) rfl _).trans ((A_eq5 (en5 m) c (4 : Fin 8)).trans (V12_of m (outs m) c (Pipeline.arrRef spec5 (4 : Fin 8)) (by decide)).symm)
theorem hF5_5 (c : Dev nD) : (dat5 (en5 m) c).arrAt (5 : Fin 8) cfg5.N = ex5 m c (Pipeline.arrRef spec5 (5 : Fin 8)) :=
  ((dat5 (en5 m) c).arrAt_in (5 : Fin 8) rfl _).trans ((A_eq5 (en5 m) c (5 : Fin 8)).trans (V12_of m (outs m) c (Pipeline.arrRef spec5 (5 : Fin 8)) (by decide)).symm)
theorem hF5_6 (c : Dev nD) : (dat5 (en5 m) c).arrAt (6 : Fin 8) cfg5.N = ex5 m c (Pipeline.arrRef spec5 (6 : Fin 8)) :=
  ((dat5 (en5 m) c).arrAt_in (6 : Fin 8) rfl _).trans ((A_eq5 (en5 m) c (6 : Fin 8)).trans (V12_of m (outs m) c (Pipeline.arrRef spec5 (6 : Fin 8)) (by decide)).symm)
theorem hF5_7 (c : Dev nD) : (dat5 (en5 m) c).arrAt (7 : Fin 8) cfg5.N = ex5 m c (Pipeline.arrRef spec5 (7 : Fin 8)) := by
  show _ = Ex5 m c main_v92
  exact (Ex5_out7 m c).symm
/-- At region 5's exit each of its arrays holds what the pipeline leaves: an input as entered, an output as above. -/
theorem hF5 (c : Dev nD) : ∀ w : Fin 8, (dat5 (en5 m) c).arrAt w cfg5.N = ex5 m c (Pipeline.arrRef spec5 w) :=
  forall_fin8 (hF5_0 m c) (hF5_1 m c) (hF5_2 m c) (hF5_3 m c) (hF5_4 m c) (hF5_5 m c) (hF5_6 m c) (hF5_7 m c)
/-- Every buffer that is none of region 5's arrays is at its exit what it was at its entry. -/
theorem hrest5 (c : Dev nD) : ∀ b, b ∉ Finset.univ.image (Pipeline.arrRef spec5) → ex5 m c b = en5 m c b := by
  intro b hb
  refine V12_of m (outs m) c b fun hmem => hb ?_
  rcases List.mem_singleton.mp hmem with rfl
  exact Finset.mem_image.mpr ⟨(7 : Fin 8), Finset.mem_univ _, rfl⟩

/-! ## The region as a segment -/

-- the library's lemmas are stated over the pinned configuration, which meets the printed one only when unification may
-- unfold plain definitions inside a metavariable's type
set_option backward.isDefEq.respectTransparency.types false in
/-- REGION 5 (custom_call 5) over the thread state. Entered from every unscoped buffer at the entry contents beside the
    generator register and the empty dues; left at the exit contents beside the same. At the entry the region's arrays are
    split out of the unscoped buffers and the rest bypasses the pipeline; the register rides in the pipeline's invariant;
    at the exit the arrays, each at what the write-backs fold to, are put back beside the bypassing rest. The kernel has
    no semaphore of its own and owes nothing. -/
noncomputable def reg5 : Pipeline.RegionSeg (pcfgs (F := F)) adm (pdats m) () defs₀ Variants.none L lv (5 : Fin 16) where
  win := launch5.win.to₀
  block_pos := launch5.block_pos
  stage_whole := launch5.stage_whole
  K := PEmpty
  osem k := k.elim
  ho := Pipeline.OwnSemFacts.none _
  hbody c := (body_obligation5 (en5 m) c).loose
  hwaits := Pipeline.hwaits_of_owed_zero _ _ _ _ L lv (5 : Fin 16) fun _ _ => rfl
  pre c := iprop(StableHlo.held (c : Thread nD τ) (Pipeline.ucRefs τ sig) (En5 m c) ∗ R c)
  post c := iprop(StableHlo.held (c : Thread nD τ) (Pipeline.ucRefs τ sig) (Ex5 m c) ∗ R c)
  X c := iprop(∃ r, prngReg c r)
  Y c := iprop(∃ r, prngReg c r)
  Z c := Pipeline.unscopedRest (Ix := Unit) (Name := ℕ) (U := UR sig nD τ) (Lvl := ℕ) spec5 c (en5 m c)
  hentry c := by
    rw [Pipeline.ownSems0_none]
    -- the unscoped buffers at the entry contents: the region's arrays, and the rest
    have hsplit := Pipeline.arrays_of_unscopedBufs (p := (5 : Fin 16)) (pcfgs (F := F)) adm (pdats m) launch5.win launch5.arr_whole c
      ((pdats m (5 : Fin 16) c).share_full fun _ => rfl) (en5 m c) fun w => A_eq5 (en5 m) c w
    rw [Pipeline.unscopedBufs_held] at hsplit
    iintro ⟨⟨Hbufs, Hreg, Hdue⟩, -, -⟩
    ihave Hs := hsplit $$ Hbufs
    icases Hs with ⟨Harr, Hrest⟩
    imodintro
    isplitl [Harr]; · iexact Harr
    -- no prefetched table
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hreg]; · iexact Hreg
    iexact Hrest
  hin c := by
    rw [show (pdats m (5 : Fin 16) c).Φ 0 = Pipeline.ΦA spec5 c from rfl]; unfold Pipeline.ΦA
    iintro ⟨Hreg, -, Hsc⟩
    isplitl [Hsc]; · iexact Hsc
    iexact Hreg
  hout c := by
    rw [Pipeline.ownSems0_none, show (pdats m (5 : Fin 16) c).Φ (Fin.last _) = Pipeline.ΦA spec5 c from rfl]; unfold Pipeline.ΦA
    iintro ⟨Hsc, Hreg⟩
    isplitl [Hreg]; · iexact Hreg
    isplitr; · iempintro
    iexact Hsc
  hexit c := by
    -- the arrays at what the write-backs fold to and the bypassing rest: the unscoped buffers at the exit contents
    have hjoin := Pipeline.unscopedBufs_of_arrays (p := (5 : Fin 16)) (pcfgs (F := F)) adm (Ix := Unit) (Name := ℕ) (U := UR sig nD τ) (Lvl := ℕ)
      launch5.win launch5.arr_whole c (pdats m) ((pdats m (5 : Fin 16) c).share_full fun _ => rfl)
      (en5 m c) (ex5 m c) ((pdats m (5 : Fin 16) c).arrAt · cfg5.N) (hF5 m c) (hrest5 m c)
    rw [Pipeline.unscopedBufs_held] at hjoin
    iintro ⟨Harr, Hdue, Hreg, Hrest⟩
    imodintro
    isplitl [Harr Hrest]
    · iapply hjoin; isplitl [Harr] <;> iassumption
    isplitl [Hreg]; · iexact Hreg
    unfold Pipeline.Dat.owesAt Pipeline.owesWithin
    icases Hdue with ⟨%W, -, Hdue⟩; iexists W; iexact Hdue

end Cert.KernelIdeal.Hand

end
-- ==== Proof.KI.Seg6.lean ====
/-
  Region 6 of @main as a segment of the run. First what the region leaves in each of its arrays, read against the generated
  valuations before and after it (an input window's array as entered, the output's at what the write-backs fold to, every
  other buffer untouched); then the segment record: the pipeline's layout facts from the launch, the body obligation at the region's
  entry contents, and the four entailments that take the thread state "every unscoped buffer at the entry contents, the
  generator register at some state, nothing owed" into the pipeline and bring it back at the exit contents.
-/
import proofs.«152161_j29669634081217_2_alg».proof.Proof.KI.Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the region leaves in its arrays -/

theorem hF6_0 (c : Dev nD) : (dat6 (en6 m) c).arrAt (0 : Fin 12) cfg6.N = ex6 m c (Pipeline.arrRef spec6 (0 : Fin 12)) :=
  ((dat6 (en6 m) c).arrAt_in (0 : Fin 12) rfl _).trans ((A_eq6 (en6 m) c (0 : Fin 12)).trans (V14_of m (outs m) c (Pipeline.arrRef spec6 (0 : Fin 12)) (by decide)).symm)
theorem hF6_1 (c : Dev nD) : (dat6 (en6 m) c).arrAt (1 : Fin 12) cfg6.N = ex6 m c (Pipeline.arrRef spec6 (1 : Fin 12)) :=
  ((dat6 (en6 m) c).arrAt_in (1 : Fin 12) rfl _).trans ((A_eq6 (en6 m) c (1 : Fin 12)).trans (V14_of m (outs m) c (Pipeline.arrRef spec6 (1 : Fin 12)) (by decide)).symm)
theorem hF6_2 (c : Dev nD) : (dat6 (en6 m) c).arrAt (2 : Fin 12) cfg6.N = ex6 m c (Pipeline.arrRef spec6 (2 : Fin 12)) :=
  ((dat6 (en6 m) c).arrAt_in (2 : Fin 12) rfl _).trans ((A_eq6 (en6 m) c (2 : Fin 12)).trans (V14_of m (outs m) c (Pipeline.arrRef spec6 (2 : Fin 12)) (by decide)).symm)
theorem hF6_3 (c : Dev nD) : (dat6 (en6 m) c).arrAt (3 : Fin 12) cfg6.N = ex6 m c (Pipeline.arrRef spec6 (3 : Fin 12)) :=
  ((dat6 (en6 m) c).arrAt_in (3 : Fin 12) rfl _).trans ((A_eq6 (en6 m) c (3 : Fin 12)).trans (V14_of m (outs m) c (Pipeline.arrRef spec6 (3 : Fin 12)) (by decide)).symm)
theorem hF6_4 (c : Dev nD) : (dat6 (en6 m) c).arrAt (4 : Fin 12) cfg6.N = ex6 m c (Pipeline.arrRef spec6 (4 : Fin 12)) :=
  ((dat6 (en6 m) c).arrAt_in (4 : Fin 12) rfl _).trans ((A_eq6 (en6 m) c (4 : Fin 12)).trans (V14_of m (outs m) c (Pipeline.arrRef spec6 (4 : Fin 12)) (by decide)).symm)
theorem hF6_5 (c : Dev nD) : (dat6 (en6 m) c).arrAt (5 : Fin 12) cfg6.N = ex6 m c (Pipeline.arrRef spec6 (5 : Fin 12)) :=
  ((dat6 (en6 m) c).arrAt_in (5 : Fin 12) rfl _).trans ((A_eq6 (en6 m) c (5 : Fin 12)).trans (V14_of m (outs m) c (Pipeline.arrRef spec6 (5 : Fin 12)) (by decide)).symm)
theorem hF6_6 (c : Dev nD) : (dat6 (en6 m) c).arrAt (6 : Fin 12) cfg6.N = ex6 m c (Pipeline.arrRef spec6 (6 : Fin 12)) :=
  ((dat6 (en6 m) c).arrAt_in (6 : Fin 12) rfl _).trans ((A_eq6 (en6 m) c (6 : Fin 12)).trans (V14_of m (outs m) c (Pipeline.arrRef spec6 (6 : Fin 12)) (by decide)).symm)
theorem hF6_7 (c : Dev nD) : (dat6 (en6 m) c).arrAt (7 : Fin 12) cfg6.N = ex6 m c (Pipeline.arrRef spec6 (7 : Fin 12)) :=
  ((dat6 (en6 m) c).arrAt_in (7 : Fin 12) rfl _).trans ((A_eq6 (en6 m) c (7 : Fin 12)).trans (V14_of m (outs m) c (Pipeline.arrRef spec6 (7 : Fin 12)) (by decide)).symm)
theorem hF6_8 (c : Dev nD) : (dat6 (en6 m) c).arrAt (8 : Fin 12) cfg6.N = ex6 m c (Pipeline.arrRef spec6 (8 : Fin 12)) :=
  ((dat6 (en6 m) c).arrAt_in (8 : Fin 12) rfl _).trans ((A_eq6 (en6 m) c (8 : Fin 12)).trans (V14_of m (outs m) c (Pipeline.arrRef spec6 (8 : Fin 12)) (by decide)).symm)
theorem hF6_9 (c : Dev nD) : (dat6 (en6 m) c).arrAt (9 : Fin 12) cfg6.N = ex6 m c (Pipeline.arrRef spec6 (9 : Fin 12)) := by
  show _ = Ex6 m c main_v112_0
  exact (Ex6_out9 m c).symm
theorem hF6_10 (c : Dev nD) : (dat6 (en6 m) c).arrAt (10 : Fin 12) cfg6.N = ex6 m c (Pipeline.arrRef spec6 (10 : Fin 12)) := by
  show _ = Ex6 m c main_v112_1
  exact (Ex6_out10 m c).symm
theorem hF6_11 (c : Dev nD) : (dat6 (en6 m) c).arrAt (11 : Fin 12) cfg6.N = ex6 m c (Pipeline.arrRef spec6 (11 : Fin 12)) := by
  show _ = Ex6 m c main_v112_2
  exact (Ex6_out11 m c).symm
/-- At region 6's exit each of its arrays holds what the pipeline leaves: an input as entered, an output as above. -/
theorem hF6 (c : Dev nD) : ∀ w : Fin 12, (dat6 (en6 m) c).arrAt w cfg6.N = ex6 m c (Pipeline.arrRef spec6 w) :=
  forall_fin12 (hF6_0 m c) (hF6_1 m c) (hF6_2 m c) (hF6_3 m c) (hF6_4 m c) (hF6_5 m c) (hF6_6 m c) (hF6_7 m c) (hF6_8 m c) (hF6_9 m c) (hF6_10 m c) (hF6_11 m c)
/-- Every buffer that is none of region 6's arrays is at its exit what it was at its entry. -/
theorem hrest6 (c : Dev nD) : ∀ b, b ∉ Finset.univ.image (Pipeline.arrRef spec6) → ex6 m c b = en6 m c b := by
  intro b hb
  refine V14_of m (outs m) c b fun hmem => hb ?_
  rcases List.mem_cons.mp hmem with rfl | hmem
  · exact Finset.mem_image.mpr ⟨(9 : Fin 12), Finset.mem_univ _, rfl⟩
  rcases List.mem_cons.mp hmem with rfl | hmem
  · exact Finset.mem_image.mpr ⟨(10 : Fin 12), Finset.mem_univ _, rfl⟩
  rcases List.mem_singleton.mp hmem with rfl
  exact Finset.mem_image.mpr ⟨(11 : Fin 12), Finset.mem_univ _, rfl⟩

/-! ## The region as a segment -/

-- the library's lemmas are stated over the pinned configuration, which meets the printed one only when unification may
-- unfold plain definitions inside a metavariable's type
set_option backward.isDefEq.respectTransparency.types false in
/-- REGION 6 (custom_call 6) over the thread state. Entered from every unscoped buffer at the entry contents beside the
    generator register and the empty dues; left at the exit contents beside the same. At the entry the region's arrays are
    split out of the unscoped buffers and the rest bypasses the pipeline; the register rides in the pipeline's invariant;
    at the exit the arrays, each at what the write-backs fold to, are put back beside the bypassing rest. The kernel has
    no semaphore of its own and owes nothing. -/
noncomputable def reg6 : Pipeline.RegionSeg (pcfgs (F := F)) adm (pdats m) () defs₀ Variants.none L lv (6 : Fin 16) where
  win := launch6.win.to₀
  block_pos := launch6.block_pos
  stage_whole := launch6.stage_whole
  K := PEmpty
  osem k := k.elim
  ho := Pipeline.OwnSemFacts.none _
  hbody c := (body_obligation6 (en6 m) c).loose
  hwaits := Pipeline.hwaits_of_owed_zero _ _ _ _ L lv (6 : Fin 16) fun _ _ => rfl
  pre c := iprop(StableHlo.held (c : Thread nD τ) (Pipeline.ucRefs τ sig) (En6 m c) ∗ R c)
  post c := iprop(StableHlo.held (c : Thread nD τ) (Pipeline.ucRefs τ sig) (Ex6 m c) ∗ R c)
  X c := iprop(∃ r, prngReg c r)
  Y c := iprop(∃ r, prngReg c r)
  Z c := Pipeline.unscopedRest (Ix := Unit) (Name := ℕ) (U := UR sig nD τ) (Lvl := ℕ) spec6 c (en6 m c)
  hentry c := by
    rw [Pipeline.ownSems0_none]
    -- the unscoped buffers at the entry contents: the region's arrays, and the rest
    have hsplit := Pipeline.arrays_of_unscopedBufs (p := (6 : Fin 16)) (pcfgs (F := F)) adm (pdats m) launch6.win launch6.arr_whole c
      ((pdats m (6 : Fin 16) c).share_full fun _ => rfl) (en6 m c) fun w => A_eq6 (en6 m) c w
    rw [Pipeline.unscopedBufs_held] at hsplit
    iintro ⟨⟨Hbufs, Hreg, Hdue⟩, -, -⟩
    ihave Hs := hsplit $$ Hbufs
    icases Hs with ⟨Harr, Hrest⟩
    imodintro
    isplitl [Harr]; · iexact Harr
    -- no prefetched table
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hreg]; · iexact Hreg
    iexact Hrest
  hin c := by
    rw [show (pdats m (6 : Fin 16) c).Φ 0 = Pipeline.ΦA spec6 c from rfl]; unfold Pipeline.ΦA
    iintro ⟨Hreg, -, Hsc⟩
    isplitl [Hsc]; · iexact Hsc
    iexact Hreg
  hout c := by
    rw [Pipeline.ownSems0_none, show (pdats m (6 : Fin 16) c).Φ (Fin.last _) = Pipeline.ΦA spec6 c from rfl]; unfold Pipeline.ΦA
    iintro ⟨Hsc, Hreg⟩
    isplitl [Hreg]; · iexact Hreg
    isplitr; · iempintro
    iexact Hsc
  hexit c := by
    -- the arrays at what the write-backs fold to and the bypassing rest: the unscoped buffers at the exit contents
    have hjoin := Pipeline.unscopedBufs_of_arrays (p := (6 : Fin 16)) (pcfgs (F := F)) adm (Ix := Unit) (Name := ℕ) (U := UR sig nD τ) (Lvl := ℕ)
      launch6.win launch6.arr_whole c (pdats m) ((pdats m (6 : Fin 16) c).share_full fun _ => rfl)
      (en6 m c) (ex6 m c) ((pdats m (6 : Fin 16) c).arrAt · cfg6.N) (hF6 m c) (hrest6 m c)
    rw [Pipeline.unscopedBufs_held] at hjoin
    iintro ⟨Harr, Hdue, Hreg, Hrest⟩
    imodintro
    isplitl [Harr Hrest]
    · iapply hjoin; isplitl [Harr] <;> iassumption
    isplitl [Hreg]; · iexact Hreg
    unfold Pipeline.Dat.owesAt Pipeline.owesWithin
    icases Hdue with ⟨%W, -, Hdue⟩; iexists W; iexact Hdue

end Cert.KernelIdeal.Hand

end
-- ==== Proof.KI.Seg7.lean ====
/-
  Region 7 of @main as a segment of the run. First what the region leaves in each of its arrays, read against the generated
  valuations before and after it (an input window's array as entered, the output's at what the write-backs fold to, every
  other buffer untouched); then the segment record: the pipeline's layout facts from the launch, the body obligation at the region's
  entry contents, and the four entailments that take the thread state "every unscoped buffer at the entry contents, the
  generator register at some state, nothing owed" into the pipeline and bring it back at the exit contents.
-/
import proofs.«152161_j29669634081217_2_alg».proof.Proof.KI.Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the region leaves in its arrays -/

theorem hF7_0 (c : Dev nD) : (dat7 (en7 m) c).arrAt (0 : Fin 8) cfg7.N = ex7 m c (Pipeline.arrRef spec7 (0 : Fin 8)) :=
  ((dat7 (en7 m) c).arrAt_in (0 : Fin 8) rfl _).trans ((A_eq7 (en7 m) c (0 : Fin 8)).trans (V16_of m (outs m) c (Pipeline.arrRef spec7 (0 : Fin 8)) (by decide)).symm)
theorem hF7_1 (c : Dev nD) : (dat7 (en7 m) c).arrAt (1 : Fin 8) cfg7.N = ex7 m c (Pipeline.arrRef spec7 (1 : Fin 8)) :=
  ((dat7 (en7 m) c).arrAt_in (1 : Fin 8) rfl _).trans ((A_eq7 (en7 m) c (1 : Fin 8)).trans (V16_of m (outs m) c (Pipeline.arrRef spec7 (1 : Fin 8)) (by decide)).symm)
theorem hF7_2 (c : Dev nD) : (dat7 (en7 m) c).arrAt (2 : Fin 8) cfg7.N = ex7 m c (Pipeline.arrRef spec7 (2 : Fin 8)) :=
  ((dat7 (en7 m) c).arrAt_in (2 : Fin 8) rfl _).trans ((A_eq7 (en7 m) c (2 : Fin 8)).trans (V16_of m (outs m) c (Pipeline.arrRef spec7 (2 : Fin 8)) (by decide)).symm)
theorem hF7_3 (c : Dev nD) : (dat7 (en7 m) c).arrAt (3 : Fin 8) cfg7.N = ex7 m c (Pipeline.arrRef spec7 (3 : Fin 8)) :=
  ((dat7 (en7 m) c).arrAt_in (3 : Fin 8) rfl _).trans ((A_eq7 (en7 m) c (3 : Fin 8)).trans (V16_of m (outs m) c (Pipeline.arrRef spec7 (3 : Fin 8)) (by decide)).symm)
theorem hF7_4 (c : Dev nD) : (dat7 (en7 m) c).arrAt (4 : Fin 8) cfg7.N = ex7 m c (Pipeline.arrRef spec7 (4 : Fin 8)) :=
  ((dat7 (en7 m) c).arrAt_in (4 : Fin 8) rfl _).trans ((A_eq7 (en7 m) c (4 : Fin 8)).trans (V16_of m (outs m) c (Pipeline.arrRef spec7 (4 : Fin 8)) (by decide)).symm)
theorem hF7_5 (c : Dev nD) : (dat7 (en7 m) c).arrAt (5 : Fin 8) cfg7.N = ex7 m c (Pipeline.arrRef spec7 (5 : Fin 8)) :=
  ((dat7 (en7 m) c).arrAt_in (5 : Fin 8) rfl _).trans ((A_eq7 (en7 m) c (5 : Fin 8)).trans (V16_of m (outs m) c (Pipeline.arrRef spec7 (5 : Fin 8)) (by decide)).symm)
theorem hF7_6 (c : Dev nD) : (dat7 (en7 m) c).arrAt (6 : Fin 8) cfg7.N = ex7 m c (Pipeline.arrRef spec7 (6 : Fin 8)) :=
  ((dat7 (en7 m) c).arrAt_in (6 : Fin 8) rfl _).trans ((A_eq7 (en7 m) c (6 : Fin 8)).trans (V16_of m (outs m) c (Pipeline.arrRef spec7 (6 : Fin 8)) (by decide)).symm)
theorem hF7_7 (c : Dev nD) : (dat7 (en7 m) c).arrAt (7 : Fin 8) cfg7.N = ex7 m c (Pipeline.arrRef spec7 (7 : Fin 8)) := by
  show _ = Ex7 m c main_v137
  exact (Ex7_out7 m c).symm
/-- At region 7's exit each of its arrays holds what the pipeline leaves: an input as entered, an output as above. -/
theorem hF7 (c : Dev nD) : ∀ w : Fin 8, (dat7 (en7 m) c).arrAt w cfg7.N = ex7 m c (Pipeline.arrRef spec7 w) :=
  forall_fin8 (hF7_0 m c) (hF7_1 m c) (hF7_2 m c) (hF7_3 m c) (hF7_4 m c) (hF7_5 m c) (hF7_6 m c) (hF7_7 m c)
/-- Every buffer that is none of region 7's arrays is at its exit what it was at its entry. -/
theorem hrest7 (c : Dev nD) : ∀ b, b ∉ Finset.univ.image (Pipeline.arrRef spec7) → ex7 m c b = en7 m c b := by
  intro b hb
  refine V16_of m (outs m) c b fun hmem => hb ?_
  rcases List.mem_singleton.mp hmem with rfl
  exact Finset.mem_image.mpr ⟨(7 : Fin 8), Finset.mem_univ _, rfl⟩

/-! ## The region as a segment -/

-- the library's lemmas are stated over the pinned configuration, which meets the printed one only when unification may
-- unfold plain definitions inside a metavariable's type
set_option backward.isDefEq.respectTransparency.types false in
/-- REGION 7 (custom_call 7) over the thread state. Entered from every unscoped buffer at the entry contents beside the
    generator register and the empty dues; left at the exit contents beside the same. At the entry the region's arrays are
    split out of the unscoped buffers and the rest bypasses the pipeline; the register rides in the pipeline's invariant;
    at the exit the arrays, each at what the write-backs fold to, are put back beside the bypassing rest. The kernel has
    no semaphore of its own and owes nothing. -/
noncomputable def reg7 : Pipeline.RegionSeg (pcfgs (F := F)) adm (pdats m) () defs₀ Variants.none L lv (7 : Fin 16) where
  win := launch7.win.to₀
  block_pos := launch7.block_pos
  stage_whole := launch7.stage_whole
  K := PEmpty
  osem k := k.elim
  ho := Pipeline.OwnSemFacts.none _
  hbody c := (body_obligation7 (en7 m) c).loose
  hwaits := Pipeline.hwaits_of_owed_zero _ _ _ _ L lv (7 : Fin 16) fun _ _ => rfl
  pre c := iprop(StableHlo.held (c : Thread nD τ) (Pipeline.ucRefs τ sig) (En7 m c) ∗ R c)
  post c := iprop(StableHlo.held (c : Thread nD τ) (Pipeline.ucRefs τ sig) (Ex7 m c) ∗ R c)
  X c := iprop(∃ r, prngReg c r)
  Y c := iprop(∃ r, prngReg c r)
  Z c := Pipeline.unscopedRest (Ix := Unit) (Name := ℕ) (U := UR sig nD τ) (Lvl := ℕ) spec7 c (en7 m c)
  hentry c := by
    rw [Pipeline.ownSems0_none]
    -- the unscoped buffers at the entry contents: the region's arrays, and the rest
    have hsplit := Pipeline.arrays_of_unscopedBufs (p := (7 : Fin 16)) (pcfgs (F := F)) adm (pdats m) launch7.win launch7.arr_whole c
      ((pdats m (7 : Fin 16) c).share_full fun _ => rfl) (en7 m c) fun w => A_eq7 (en7 m) c w
    rw [Pipeline.unscopedBufs_held] at hsplit
    iintro ⟨⟨Hbufs, Hreg, Hdue⟩, -, -⟩
    ihave Hs := hsplit $$ Hbufs
    icases Hs with ⟨Harr, Hrest⟩
    imodintro
    isplitl [Harr]; · iexact Harr
    -- no prefetched table
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hreg]; · iexact Hreg
    iexact Hrest
  hin c := by
    rw [show (pdats m (7 : Fin 16) c).Φ 0 = Pipeline.ΦA spec7 c from rfl]; unfold Pipeline.ΦA
    iintro ⟨Hreg, -, Hsc⟩
    isplitl [Hsc]; · iexact Hsc
    iexact Hreg
  hout c := by
    rw [Pipeline.ownSems0_none, show (pdats m (7 : Fin 16) c).Φ (Fin.last _) = Pipeline.ΦA spec7 c from rfl]; unfold Pipeline.ΦA
    iintro ⟨Hsc, Hreg⟩
    isplitl [Hreg]; · iexact Hreg
    isplitr; · iempintro
    iexact Hsc
  hexit c := by
    -- the arrays at what the write-backs fold to and the bypassing rest: the unscoped buffers at the exit contents
    have hjoin := Pipeline.unscopedBufs_of_arrays (p := (7 : Fin 16)) (pcfgs (F := F)) adm (Ix := Unit) (Name := ℕ) (U := UR sig nD τ) (Lvl := ℕ)
      launch7.win launch7.arr_whole c (pdats m) ((pdats m (7 : Fin 16) c).share_full fun _ => rfl)
      (en7 m c) (ex7 m c) ((pdats m (7 : Fin 16) c).arrAt · cfg7.N) (hF7 m c) (hrest7 m c)
    rw [Pipeline.unscopedBufs_held] at hjoin
    iintro ⟨Harr, Hdue, Hreg, Hrest⟩
    imodintro
    isplitl [Harr Hrest]
    · iapply hjoin; isplitl [Harr] <;> iassumption
    isplitl [Hreg]; · iexact Hreg
    unfold Pipeline.Dat.owesAt Pipeline.owesWithin
    icases Hdue with ⟨%W, -, Hdue⟩; iexists W; iexact Hdue

end Cert.KernelIdeal.Hand

end
-- ==== Proof.KI.Seg8.lean ====
/-
  Region 8 of @main as a segment of the run. First what the region leaves in each of its arrays, read against the generated
  valuations before and after it (an input window's array as entered, the output's at what the write-backs fold to, every
  other buffer untouched); then the segment record: the pipeline's layout facts from the launch, the body obligation at the region's
  entry contents, and the four entailments that take the thread state "every unscoped buffer at the entry contents, the
  generator register at some state, nothing owed" into the pipeline and bring it back at the exit contents.
-/
import proofs.«152161_j29669634081217_2_alg».proof.Proof.KI.Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the region leaves in its arrays -/

theorem hF8_0 (c : Dev nD) : (dat8 (en8 m) c).arrAt (0 : Fin 12) cfg8.N = ex8 m c (Pipeline.arrRef spec8 (0 : Fin 12)) :=
  ((dat8 (en8 m) c).arrAt_in (0 : Fin 12) rfl _).trans ((A_eq8 (en8 m) c (0 : Fin 12)).trans (V18_of m (outs m) c (Pipeline.arrRef spec8 (0 : Fin 12)) (by decide)).symm)
theorem hF8_1 (c : Dev nD) : (dat8 (en8 m) c).arrAt (1 : Fin 12) cfg8.N = ex8 m c (Pipeline.arrRef spec8 (1 : Fin 12)) :=
  ((dat8 (en8 m) c).arrAt_in (1 : Fin 12) rfl _).trans ((A_eq8 (en8 m) c (1 : Fin 12)).trans (V18_of m (outs m) c (Pipeline.arrRef spec8 (1 : Fin 12)) (by decide)).symm)
theorem hF8_2 (c : Dev nD) : (dat8 (en8 m) c).arrAt (2 : Fin 12) cfg8.N = ex8 m c (Pipeline.arrRef spec8 (2 : Fin 12)) :=
  ((dat8 (en8 m) c).arrAt_in (2 : Fin 12) rfl _).trans ((A_eq8 (en8 m) c (2 : Fin 12)).trans (V18_of m (outs m) c (Pipeline.arrRef spec8 (2 : Fin 12)) (by decide)).symm)
theorem hF8_3 (c : Dev nD) : (dat8 (en8 m) c).arrAt (3 : Fin 12) cfg8.N = ex8 m c (Pipeline.arrRef spec8 (3 : Fin 12)) :=
  ((dat8 (en8 m) c).arrAt_in (3 : Fin 12) rfl _).trans ((A_eq8 (en8 m) c (3 : Fin 12)).trans (V18_of m (outs m) c (Pipeline.arrRef spec8 (3 : Fin 12)) (by decide)).symm)
theorem hF8_4 (c : Dev nD) : (dat8 (en8 m) c).arrAt (4 : Fin 12) cfg8.N = ex8 m c (Pipeline.arrRef spec8 (4 : Fin 12)) :=
  ((dat8 (en8 m) c).arrAt_in (4 : Fin 12) rfl _).trans ((A_eq8 (en8 m) c (4 : Fin 12)).trans (V18_of m (outs m) c (Pipeline.arrRef spec8 (4 : Fin 12)) (by decide)).symm)
theorem hF8_5 (c : Dev nD) : (dat8 (en8 m) c).arrAt (5 : Fin 12) cfg8.N = ex8 m c (Pipeline.arrRef spec8 (5 : Fin 12)) :=
  ((dat8 (en8 m) c).arrAt_in (5 : Fin 12) rfl _).trans ((A_eq8 (en8 m) c (5 : Fin 12)).trans (V18_of m (outs m) c (Pipeline.arrRef spec8 (5 : Fin 12)) (by decide)).symm)
theorem hF8_6 (c : Dev nD) : (dat8 (en8 m) c).arrAt (6 : Fin 12) cfg8.N = ex8 m c (Pipeline.arrRef spec8 (6 : Fin 12)) :=
  ((dat8 (en8 m) c).arrAt_in (6 : Fin 12) rfl _).trans ((A_eq8 (en8 m) c (6 : Fin 12)).trans (V18_of m (outs m) c (Pipeline.arrRef spec8 (6 : Fin 12)) (by decide)).symm)
theorem hF8_7 (c : Dev nD) : (dat8 (en8 m) c).arrAt (7 : Fin 12) cfg8.N = ex8 m c (Pipeline.arrRef spec8 (7 : Fin 12)) :=
  ((dat8 (en8 m) c).arrAt_in (7 : Fin 12) rfl _).trans ((A_eq8 (en8 m) c (7 : Fin 12)).trans (V18_of m (outs m) c (Pipeline.arrRef spec8 (7 : Fin 12)) (by decide)).symm)
theorem hF8_8 (c : Dev nD) : (dat8 (en8 m) c).arrAt (8 : Fin 12) cfg8.N = ex8 m c (Pipeline.arrRef spec8 (8 : Fin 12)) :=
  ((dat8 (en8 m) c).arrAt_in (8 : Fin 12) rfl _).trans ((A_eq8 (en8 m) c (8 : Fin 12)).trans (V18_of m (outs m) c (Pipeline.arrRef spec8 (8 : Fin 12)) (by decide)).symm)
theorem hF8_9 (c : Dev nD) : (dat8 (en8 m) c).arrAt (9 : Fin 12) cfg8.N = ex8 m c (Pipeline.arrRef spec8 (9 : Fin 12)) := by
  show _ = Ex8 m c main_v157_0
  exact (Ex8_out9 m c).symm
theorem hF8_10 (c : Dev nD) : (dat8 (en8 m) c).arrAt (10 : Fin 12) cfg8.N = ex8 m c (Pipeline.arrRef spec8 (10 : Fin 12)) := by
  show _ = Ex8 m c main_v157_1
  exact (Ex8_out10 m c).symm
theorem hF8_11 (c : Dev nD) : (dat8 (en8 m) c).arrAt (11 : Fin 12) cfg8.N = ex8 m c (Pipeline.arrRef spec8 (11 : Fin 12)) := by
  show _ = Ex8 m c main_v157_2
  exact (Ex8_out11 m c).symm
/-- At region 8's exit each of its arrays holds what the pipeline leaves: an input as entered, an output as above. -/
theorem hF8 (c : Dev nD) : ∀ w : Fin 12, (dat8 (en8 m) c).arrAt w cfg8.N = ex8 m c (Pipeline.arrRef spec8 w) :=
  forall_fin12 (hF8_0 m c) (hF8_1 m c) (hF8_2 m c) (hF8_3 m c) (hF8_4 m c) (hF8_5 m c) (hF8_6 m c) (hF8_7 m c) (hF8_8 m c) (hF8_9 m c) (hF8_10 m c) (hF8_11 m c)
/-- Every buffer that is none of region 8's arrays is at its exit what it was at its entry. -/
theorem hrest8 (c : Dev nD) : ∀ b, b ∉ Finset.univ.image (Pipeline.arrRef spec8) → ex8 m c b = en8 m c b := by
  intro b hb
  refine V18_of m (outs m) c b fun hmem => hb ?_
  rcases List.mem_cons.mp hmem with rfl | hmem
  · exact Finset.mem_image.mpr ⟨(9 : Fin 12), Finset.mem_univ _, rfl⟩
  rcases List.mem_cons.mp hmem with rfl | hmem
  · exact Finset.mem_image.mpr ⟨(10 : Fin 12), Finset.mem_univ _, rfl⟩
  rcases List.mem_singleton.mp hmem with rfl
  exact Finset.mem_image.mpr ⟨(11 : Fin 12), Finset.mem_univ _, rfl⟩

/-! ## The region as a segment -/

-- the library's lemmas are stated over the pinned configuration, which meets the printed one only when unification may
-- unfold plain definitions inside a metavariable's type
set_option backward.isDefEq.respectTransparency.types false in
/-- REGION 8 (custom_call 8) over the thread state. Entered from every unscoped buffer at the entry contents beside the
    generator register and the empty dues; left at the exit contents beside the same. At the entry the region's arrays are
    split out of the unscoped buffers and the rest bypasses the pipeline; the register rides in the pipeline's invariant;
    at the exit the arrays, each at what the write-backs fold to, are put back beside the bypassing rest. The kernel has
    no semaphore of its own and owes nothing. -/
noncomputable def reg8 : Pipeline.RegionSeg (pcfgs (F := F)) adm (pdats m) () defs₀ Variants.none L lv (8 : Fin 16) where
  win := launch8.win.to₀
  block_pos := launch8.block_pos
  stage_whole := launch8.stage_whole
  K := PEmpty
  osem k := k.elim
  ho := Pipeline.OwnSemFacts.none _
  hbody c := (body_obligation8 (en8 m) c).loose
  hwaits := Pipeline.hwaits_of_owed_zero _ _ _ _ L lv (8 : Fin 16) fun _ _ => rfl
  pre c := iprop(StableHlo.held (c : Thread nD τ) (Pipeline.ucRefs τ sig) (En8 m c) ∗ R c)
  post c := iprop(StableHlo.held (c : Thread nD τ) (Pipeline.ucRefs τ sig) (Ex8 m c) ∗ R c)
  X c := iprop(∃ r, prngReg c r)
  Y c := iprop(∃ r, prngReg c r)
  Z c := Pipeline.unscopedRest (Ix := Unit) (Name := ℕ) (U := UR sig nD τ) (Lvl := ℕ) spec8 c (en8 m c)
  hentry c := by
    rw [Pipeline.ownSems0_none]
    -- the unscoped buffers at the entry contents: the region's arrays, and the rest
    have hsplit := Pipeline.arrays_of_unscopedBufs (p := (8 : Fin 16)) (pcfgs (F := F)) adm (pdats m) launch8.win launch8.arr_whole c
      ((pdats m (8 : Fin 16) c).share_full fun _ => rfl) (en8 m c) fun w => A_eq8 (en8 m) c w
    rw [Pipeline.unscopedBufs_held] at hsplit
    iintro ⟨⟨Hbufs, Hreg, Hdue⟩, -, -⟩
    ihave Hs := hsplit $$ Hbufs
    icases Hs with ⟨Harr, Hrest⟩
    imodintro
    isplitl [Harr]; · iexact Harr
    -- no prefetched table
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hreg]; · iexact Hreg
    iexact Hrest
  hin c := by
    rw [show (pdats m (8 : Fin 16) c).Φ 0 = Pipeline.ΦA spec8 c from rfl]; unfold Pipeline.ΦA
    iintro ⟨Hreg, -, Hsc⟩
    isplitl [Hsc]; · iexact Hsc
    iexact Hreg
  hout c := by
    rw [Pipeline.ownSems0_none, show (pdats m (8 : Fin 16) c).Φ (Fin.last _) = Pipeline.ΦA spec8 c from rfl]; unfold Pipeline.ΦA
    iintro ⟨Hsc, Hreg⟩
    isplitl [Hreg]; · iexact Hreg
    isplitr; · iempintro
    iexact Hsc
  hexit c := by
    -- the arrays at what the write-backs fold to and the bypassing rest: the unscoped buffers at the exit contents
    have hjoin := Pipeline.unscopedBufs_of_arrays (p := (8 : Fin 16)) (pcfgs (F := F)) adm (Ix := Unit) (Name := ℕ) (U := UR sig nD τ) (Lvl := ℕ)
      launch8.win launch8.arr_whole c (pdats m) ((pdats m (8 : Fin 16) c).share_full fun _ => rfl)
      (en8 m c) (ex8 m c) ((pdats m (8 : Fin 16) c).arrAt · cfg8.N) (hF8 m c) (hrest8 m c)
    rw [Pipeline.unscopedBufs_held] at hjoin
    iintro ⟨Harr, Hdue, Hreg, Hrest⟩
    imodintro
    isplitl [Harr Hrest]
    · iapply hjoin; isplitl [Harr] <;> iassumption
    isplitl [Hreg]; · iexact Hreg
    unfold Pipeline.Dat.owesAt Pipeline.owesWithin
    icases Hdue with ⟨%W, -, Hdue⟩; iexists W; iexact Hdue

end Cert.KernelIdeal.Hand

end
-- ==== Proof.KI.Seg9.lean ====
/-
  Region 9 of @main as a segment of the run. First what the region leaves in each of its arrays, read against the generated
  valuations before and after it (an input window's array as entered, the output's at what the write-backs fold to, every
  other buffer untouched); then the segment record: the pipeline's layout facts from the launch, the body obligation at the region's
  entry contents, and the four entailments that take the thread state "every unscoped buffer at the entry contents, the
  generator register at some state, nothing owed" into the pipeline and bring it back at the exit contents.
-/
import proofs.«152161_j29669634081217_2_alg».proof.Proof.KI.Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the region leaves in its arrays -/

theorem hF9_0 (c : Dev nD) : (dat9 (en9 m) c).arrAt (0 : Fin 8) cfg9.N = ex9 m c (Pipeline.arrRef spec9 (0 : Fin 8)) :=
  ((dat9 (en9 m) c).arrAt_in (0 : Fin 8) rfl _).trans ((A_eq9 (en9 m) c (0 : Fin 8)).trans (V20_of m (outs m) c (Pipeline.arrRef spec9 (0 : Fin 8)) (by decide)).symm)
theorem hF9_1 (c : Dev nD) : (dat9 (en9 m) c).arrAt (1 : Fin 8) cfg9.N = ex9 m c (Pipeline.arrRef spec9 (1 : Fin 8)) :=
  ((dat9 (en9 m) c).arrAt_in (1 : Fin 8) rfl _).trans ((A_eq9 (en9 m) c (1 : Fin 8)).trans (V20_of m (outs m) c (Pipeline.arrRef spec9 (1 : Fin 8)) (by decide)).symm)
theorem hF9_2 (c : Dev nD) : (dat9 (en9 m) c).arrAt (2 : Fin 8) cfg9.N = ex9 m c (Pipeline.arrRef spec9 (2 : Fin 8)) :=
  ((dat9 (en9 m) c).arrAt_in (2 : Fin 8) rfl _).trans ((A_eq9 (en9 m) c (2 : Fin 8)).trans (V20_of m (outs m) c (Pipeline.arrRef spec9 (2 : Fin 8)) (by decide)).symm)
theorem hF9_3 (c : Dev nD) : (dat9 (en9 m) c).arrAt (3 : Fin 8) cfg9.N = ex9 m c (Pipeline.arrRef spec9 (3 : Fin 8)) :=
  ((dat9 (en9 m) c).arrAt_in (3 : Fin 8) rfl _).trans ((A_eq9 (en9 m) c (3 : Fin 8)).trans (V20_of m (outs m) c (Pipeline.arrRef spec9 (3 : Fin 8)) (by decide)).symm)
theorem hF9_4 (c : Dev nD) : (dat9 (en9 m) c).arrAt (4 : Fin 8) cfg9.N = ex9 m c (Pipeline.arrRef spec9 (4 : Fin 8)) :=
  ((dat9 (en9 m) c).arrAt_in (4 : Fin 8) rfl _).trans ((A_eq9 (en9 m) c (4 : Fin 8)).trans (V20_of m (outs m) c (Pipeline.arrRef spec9 (4 : Fin 8)) (by decide)).symm)
theorem hF9_5 (c : Dev nD) : (dat9 (en9 m) c).arrAt (5 : Fin 8) cfg9.N = ex9 m c (Pipeline.arrRef spec9 (5 : Fin 8)) :=
  ((dat9 (en9 m) c).arrAt_in (5 : Fin 8) rfl _).trans ((A_eq9 (en9 m) c (5 : Fin 8)).trans (V20_of m (outs m) c (Pipeline.arrRef spec9 (5 : Fin 8)) (by decide)).symm)
theorem hF9_6 (c : Dev nD) : (dat9 (en9 m) c).arrAt (6 : Fin 8) cfg9.N = ex9 m c (Pipeline.arrRef spec9 (6 : Fin 8)) :=
  ((dat9 (en9 m) c).arrAt_in (6 : Fin 8) rfl _).trans ((A_eq9 (en9 m) c (6 : Fin 8)).trans (V20_of m (outs m) c (Pipeline.arrRef spec9 (6 : Fin 8)) (by decide)).symm)
theorem hF9_7 (c : Dev nD) : (dat9 (en9 m) c).arrAt (7 : Fin 8) cfg9.N = ex9 m c (Pipeline.arrRef spec9 (7 : Fin 8)) := by
  show _ = Ex9 m c main_v182
  exact (Ex9_out7 m c).symm
/-- At region 9's exit each of its arrays holds what the pipeline leaves: an input as entered, an output as above. -/
theorem hF9 (c : Dev nD) : ∀ w : Fin 8, (dat9 (en9 m) c).arrAt w cfg9.N = ex9 m c (Pipeline.arrRef spec9 w) :=
  forall_fin8 (hF9_0 m c) (hF9_1 m c) (hF9_2 m c) (hF9_3 m c) (hF9_4 m c) (hF9_5 m c) (hF9_6 m c) (hF9_7 m c)
/-- Every buffer that is none of region 9's arrays is at its exit what it was at its entry. -/
theorem hrest9 (c : Dev nD) : ∀ b, b ∉ Finset.univ.image (Pipeline.arrRef spec9) → ex9 m c b = en9 m c b := by
  intro b hb
  refine V20_of m (outs m) c b fun hmem => hb ?_
  rcases List.mem_singleton.mp hmem with rfl
  exact Finset.mem_image.mpr ⟨(7 : Fin 8), Finset.mem_univ _, rfl⟩

/-! ## The region as a segment -/

-- the library's lemmas are stated over the pinned configuration, which meets the printed one only when unification may
-- unfold plain definitions inside a metavariable's type
set_option backward.isDefEq.respectTransparency.types false in
/-- REGION 9 (custom_call 9) over the thread state. Entered from every unscoped buffer at the entry contents beside the
    generator register and the empty dues; left at the exit contents beside the same. At the entry the region's arrays are
    split out of the unscoped buffers and the rest bypasses the pipeline; the register rides in the pipeline's invariant;
    at the exit the arrays, each at what the write-backs fold to, are put back beside the bypassing rest. The kernel has
    no semaphore of its own and owes nothing. -/
noncomputable def reg9 : Pipeline.RegionSeg (pcfgs (F := F)) adm (pdats m) () defs₀ Variants.none L lv (9 : Fin 16) where
  win := launch9.win.to₀
  block_pos := launch9.block_pos
  stage_whole := launch9.stage_whole
  K := PEmpty
  osem k := k.elim
  ho := Pipeline.OwnSemFacts.none _
  hbody c := (body_obligation9 (en9 m) c).loose
  hwaits := Pipeline.hwaits_of_owed_zero _ _ _ _ L lv (9 : Fin 16) fun _ _ => rfl
  pre c := iprop(StableHlo.held (c : Thread nD τ) (Pipeline.ucRefs τ sig) (En9 m c) ∗ R c)
  post c := iprop(StableHlo.held (c : Thread nD τ) (Pipeline.ucRefs τ sig) (Ex9 m c) ∗ R c)
  X c := iprop(∃ r, prngReg c r)
  Y c := iprop(∃ r, prngReg c r)
  Z c := Pipeline.unscopedRest (Ix := Unit) (Name := ℕ) (U := UR sig nD τ) (Lvl := ℕ) spec9 c (en9 m c)
  hentry c := by
    rw [Pipeline.ownSems0_none]
    -- the unscoped buffers at the entry contents: the region's arrays, and the rest
    have hsplit := Pipeline.arrays_of_unscopedBufs (p := (9 : Fin 16)) (pcfgs (F := F)) adm (pdats m) launch9.win launch9.arr_whole c
      ((pdats m (9 : Fin 16) c).share_full fun _ => rfl) (en9 m c) fun w => A_eq9 (en9 m) c w
    rw [Pipeline.unscopedBufs_held] at hsplit
    iintro ⟨⟨Hbufs, Hreg, Hdue⟩, -, -⟩
    ihave Hs := hsplit $$ Hbufs
    icases Hs with ⟨Harr, Hrest⟩
    imodintro
    isplitl [Harr]; · iexact Harr
    -- no prefetched table
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hreg]; · iexact Hreg
    iexact Hrest
  hin c := by
    rw [show (pdats m (9 : Fin 16) c).Φ 0 = Pipeline.ΦA spec9 c from rfl]; unfold Pipeline.ΦA
    iintro ⟨Hreg, -, Hsc⟩
    isplitl [Hsc]; · iexact Hsc
    iexact Hreg
  hout c := by
    rw [Pipeline.ownSems0_none, show (pdats m (9 : Fin 16) c).Φ (Fin.last _) = Pipeline.ΦA spec9 c from rfl]; unfold Pipeline.ΦA
    iintro ⟨Hsc, Hreg⟩
    isplitl [Hreg]; · iexact Hreg
    isplitr; · iempintro
    iexact Hsc
  hexit c := by
    -- the arrays at what the write-backs fold to and the bypassing rest: the unscoped buffers at the exit contents
    have hjoin := Pipeline.unscopedBufs_of_arrays (p := (9 : Fin 16)) (pcfgs (F := F)) adm (Ix := Unit) (Name := ℕ) (U := UR sig nD τ) (Lvl := ℕ)
      launch9.win launch9.arr_whole c (pdats m) ((pdats m (9 : Fin 16) c).share_full fun _ => rfl)
      (en9 m c) (ex9 m c) ((pdats m (9 : Fin 16) c).arrAt · cfg9.N) (hF9 m c) (hrest9 m c)
    rw [Pipeline.unscopedBufs_held] at hjoin
    iintro ⟨Harr, Hdue, Hreg, Hrest⟩
    imodintro
    isplitl [Harr Hrest]
    · iapply hjoin; isplitl [Harr] <;> iassumption
    isplitl [Hreg]; · iexact Hreg
    unfold Pipeline.Dat.owesAt Pipeline.owesWithin
    icases Hdue with ⟨%W, -, Hdue⟩; iexists W; iexact Hdue

end Cert.KernelIdeal.Hand

end
-- ==== Proof.KI.Seg10.lean ====
/-
  Region 10 of @main as a segment of the run. First what the region leaves in each of its arrays, read against the generated
  valuations before and after it (an input window's array as entered, the output's at what the write-backs fold to, every
  other buffer untouched); then the segment record: the pipeline's layout facts from the launch, the body obligation at the region's
  entry contents, and the four entailments that take the thread state "every unscoped buffer at the entry contents, the
  generator register at some state, nothing owed" into the pipeline and bring it back at the exit contents.
-/
import proofs.«152161_j29669634081217_2_alg».proof.Proof.KI.Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the region leaves in its arrays -/

theorem hF10_0 (c : Dev nD) : (dat10 (en10 m) c).arrAt (0 : Fin 12) cfg10.N = ex10 m c (Pipeline.arrRef spec10 (0 : Fin 12)) :=
  ((dat10 (en10 m) c).arrAt_in (0 : Fin 12) rfl _).trans ((A_eq10 (en10 m) c (0 : Fin 12)).trans (V22_of m (outs m) c (Pipeline.arrRef spec10 (0 : Fin 12)) (by decide)).symm)
theorem hF10_1 (c : Dev nD) : (dat10 (en10 m) c).arrAt (1 : Fin 12) cfg10.N = ex10 m c (Pipeline.arrRef spec10 (1 : Fin 12)) :=
  ((dat10 (en10 m) c).arrAt_in (1 : Fin 12) rfl _).trans ((A_eq10 (en10 m) c (1 : Fin 12)).trans (V22_of m (outs m) c (Pipeline.arrRef spec10 (1 : Fin 12)) (by decide)).symm)
theorem hF10_2 (c : Dev nD) : (dat10 (en10 m) c).arrAt (2 : Fin 12) cfg10.N = ex10 m c (Pipeline.arrRef spec10 (2 : Fin 12)) :=
  ((dat10 (en10 m) c).arrAt_in (2 : Fin 12) rfl _).trans ((A_eq10 (en10 m) c (2 : Fin 12)).trans (V22_of m (outs m) c (Pipeline.arrRef spec10 (2 : Fin 12)) (by decide)).symm)
theorem hF10_3 (c : Dev nD) : (dat10 (en10 m) c).arrAt (3 : Fin 12) cfg10.N = ex10 m c (Pipeline.arrRef spec10 (3 : Fin 12)) :=
  ((dat10 (en10 m) c).arrAt_in (3 : Fin 12) rfl _).trans ((A_eq10 (en10 m) c (3 : Fin 12)).trans (V22_of m (outs m) c (Pipeline.arrRef spec10 (3 : Fin 12)) (by decide)).symm)
theorem hF10_4 (c : Dev nD) : (dat10 (en10 m) c).arrAt (4 : Fin 12) cfg10.N = ex10 m c (Pipeline.arrRef spec10 (4 : Fin 12)) :=
  ((dat10 (en10 m) c).arrAt_in (4 : Fin 12) rfl _).trans ((A_eq10 (en10 m) c (4 : Fin 12)).trans (V22_of m (outs m) c (Pipeline.arrRef spec10 (4 : Fin 12)) (by decide)).symm)
theorem hF10_5 (c : Dev nD) : (dat10 (en10 m) c).arrAt (5 : Fin 12) cfg10.N = ex10 m c (Pipeline.arrRef spec10 (5 : Fin 12)) :=
  ((dat10 (en10 m) c).arrAt_in (5 : Fin 12) rfl _).trans ((A_eq10 (en10 m) c (5 : Fin 12)).trans (V22_of m (outs m) c (Pipeline.arrRef spec10 (5 : Fin 12)) (by decide)).symm)
theorem hF10_6 (c : Dev nD) : (dat10 (en10 m) c).arrAt (6 : Fin 12) cfg10.N = ex10 m c (Pipeline.arrRef spec10 (6 : Fin 12)) :=
  ((dat10 (en10 m) c).arrAt_in (6 : Fin 12) rfl _).trans ((A_eq10 (en10 m) c (6 : Fin 12)).trans (V22_of m (outs m) c (Pipeline.arrRef spec10 (6 : Fin 12)) (by decide)).symm)
theorem hF10_7 (c : Dev nD) : (dat10 (en10 m) c).arrAt (7 : Fin 12) cfg10.N = ex10 m c (Pipeline.arrRef spec10 (7 : Fin 12)) :=
  ((dat10 (en10 m) c).arrAt_in (7 : Fin 12) rfl _).trans ((A_eq10 (en10 m) c (7 : Fin 12)).trans (V22_of m (outs m) c (Pipeline.arrRef spec10 (7 : Fin 12)) (by decide)).symm)
theorem hF10_8 (c : Dev nD) : (dat10 (en10 m) c).arrAt (8 : Fin 12) cfg10.N = ex10 m c (Pipeline.arrRef spec10 (8 : Fin 12)) :=
  ((dat10 (en10 m) c).arrAt_in (8 : Fin 12) rfl _).trans ((A_eq10 (en10 m) c (8 : Fin 12)).trans (V22_of m (outs m) c (Pipeline.arrRef spec10 (8 : Fin 12)) (by decide)).symm)
theorem hF10_9 (c : Dev nD) : (dat10 (en10 m) c).arrAt (9 : Fin 12) cfg10.N = ex10 m c (Pipeline.arrRef spec10 (9 : Fin 12)) := by
  show _ = Ex10 m c main_v202_0
  exact (Ex10_out9 m c).symm
theorem hF10_10 (c : Dev nD) : (dat10 (en10 m) c).arrAt (10 : Fin 12) cfg10.N = ex10 m c (Pipeline.arrRef spec10 (10 : Fin 12)) := by
  show _ = Ex10 m c main_v202_1
  exact (Ex10_out10 m c).symm
theorem hF10_11 (c : Dev nD) : (dat10 (en10 m) c).arrAt (11 : Fin 12) cfg10.N = ex10 m c (Pipeline.arrRef spec10 (11 : Fin 12)) := by
  show _ = Ex10 m c main_v202_2
  exact (Ex10_out11 m c).symm
/-- At region 10's exit each of its arrays holds what the pipeline leaves: an input as entered, an output as above. -/
theorem hF10 (c : Dev nD) : ∀ w : Fin 12, (dat10 (en10 m) c).arrAt w cfg10.N = ex10 m c (Pipeline.arrRef spec10 w) :=
  forall_fin12 (hF10_0 m c) (hF10_1 m c) (hF10_2 m c) (hF10_3 m c) (hF10_4 m c) (hF10_5 m c) (hF10_6 m c) (hF10_7 m c) (hF10_8 m c) (hF10_9 m c) (hF10_10 m c) (hF10_11 m c)
/-- Every buffer that is none of region 10's arrays is at its exit what it was at its entry. -/
theorem hrest10 (c : Dev nD) : ∀ b, b ∉ Finset.univ.image (Pipeline.arrRef spec10) → ex10 m c b = en10 m c b := by
  intro b hb
  refine V22_of m (outs m) c b fun hmem => hb ?_
  rcases List.mem_cons.mp hmem with rfl | hmem
  · exact Finset.mem_image.mpr ⟨(9 : Fin 12), Finset.mem_univ _, rfl⟩
  rcases List.mem_cons.mp hmem with rfl | hmem
  · exact Finset.mem_image.mpr ⟨(10 : Fin 12), Finset.mem_univ _, rfl⟩
  rcases List.mem_singleton.mp hmem with rfl
  exact Finset.mem_image.mpr ⟨(11 : Fin 12), Finset.mem_univ _, rfl⟩

/-! ## The region as a segment -/

-- the library's lemmas are stated over the pinned configuration, which meets the printed one only when unification may
-- unfold plain definitions inside a metavariable's type
set_option backward.isDefEq.respectTransparency.types false in
/-- REGION 10 (custom_call 10) over the thread state. Entered from every unscoped buffer at the entry contents beside the
    generator register and the empty dues; left at the exit contents beside the same. At the entry the region's arrays are
    split out of the unscoped buffers and the rest bypasses the pipeline; the register rides in the pipeline's invariant;
    at the exit the arrays, each at what the write-backs fold to, are put back beside the bypassing rest. The kernel has
    no semaphore of its own and owes nothing. -/
noncomputable def reg10 : Pipeline.RegionSeg (pcfgs (F := F)) adm (pdats m) () defs₀ Variants.none L lv (10 : Fin 16) where
  win := launch10.win.to₀
  block_pos := launch10.block_pos
  stage_whole := launch10.stage_whole
  K := PEmpty
  osem k := k.elim
  ho := Pipeline.OwnSemFacts.none _
  hbody c := (body_obligation10 (en10 m) c).loose
  hwaits := Pipeline.hwaits_of_owed_zero _ _ _ _ L lv (10 : Fin 16) fun _ _ => rfl
  pre c := iprop(StableHlo.held (c : Thread nD τ) (Pipeline.ucRefs τ sig) (En10 m c) ∗ R c)
  post c := iprop(StableHlo.held (c : Thread nD τ) (Pipeline.ucRefs τ sig) (Ex10 m c) ∗ R c)
  X c := iprop(∃ r, prngReg c r)
  Y c := iprop(∃ r, prngReg c r)
  Z c := Pipeline.unscopedRest (Ix := Unit) (Name := ℕ) (U := UR sig nD τ) (Lvl := ℕ) spec10 c (en10 m c)
  hentry c := by
    rw [Pipeline.ownSems0_none]
    -- the unscoped buffers at the entry contents: the region's arrays, and the rest
    have hsplit := Pipeline.arrays_of_unscopedBufs (p := (10 : Fin 16)) (pcfgs (F := F)) adm (pdats m) launch10.win launch10.arr_whole c
      ((pdats m (10 : Fin 16) c).share_full fun _ => rfl) (en10 m c) fun w => A_eq10 (en10 m) c w
    rw [Pipeline.unscopedBufs_held] at hsplit
    iintro ⟨⟨Hbufs, Hreg, Hdue⟩, -, -⟩
    ihave Hs := hsplit $$ Hbufs
    icases Hs with ⟨Harr, Hrest⟩
    imodintro
    isplitl [Harr]; · iexact Harr
    -- no prefetched table
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hreg]; · iexact Hreg
    iexact Hrest
  hin c := by
    rw [show (pdats m (10 : Fin 16) c).Φ 0 = Pipeline.ΦA spec10 c from rfl]; unfold Pipeline.ΦA
    iintro ⟨Hreg, -, Hsc⟩
    isplitl [Hsc]; · iexact Hsc
    iexact Hreg
  hout c := by
    rw [Pipeline.ownSems0_none, show (pdats m (10 : Fin 16) c).Φ (Fin.last _) = Pipeline.ΦA spec10 c from rfl]; unfold Pipeline.ΦA
    iintro ⟨Hsc, Hreg⟩
    isplitl [Hreg]; · iexact Hreg
    isplitr; · iempintro
    iexact Hsc
  hexit c := by
    -- the arrays at what the write-backs fold to and the bypassing rest: the unscoped buffers at the exit contents
    have hjoin := Pipeline.unscopedBufs_of_arrays (p := (10 : Fin 16)) (pcfgs (F := F)) adm (Ix := Unit) (Name := ℕ) (U := UR sig nD τ) (Lvl := ℕ)
      launch10.win launch10.arr_whole c (pdats m) ((pdats m (10 : Fin 16) c).share_full fun _ => rfl)
      (en10 m c) (ex10 m c) ((pdats m (10 : Fin 16) c).arrAt · cfg10.N) (hF10 m c) (hrest10 m c)
    rw [Pipeline.unscopedBufs_held] at hjoin
    iintro ⟨Harr, Hdue, Hreg, Hrest⟩
    imodintro
    isplitl [Harr Hrest]
    · iapply hjoin; isplitl [Harr] <;> iassumption
    isplitl [Hreg]; · iexact Hreg
    unfold Pipeline.Dat.owesAt Pipeline.owesWithin
    icases Hdue with ⟨%W, -, Hdue⟩; iexists W; iexact Hdue

end Cert.KernelIdeal.Hand

end
-- ==== Proof.KI.Seg11.lean ====
/-
  Region 11 of @main as a segment of the run. First what the region leaves in each of its arrays, read against the generated
  valuations before and after it (an input window's array as entered, the output's at what the write-backs fold to, every
  other buffer untouched); then the segment record: the pipeline's layout facts from the launch, the body obligation at the region's
  entry contents, and the four entailments that take the thread state "every unscoped buffer at the entry contents, the
  generator register at some state, nothing owed" into the pipeline and bring it back at the exit contents.
-/
import proofs.«152161_j29669634081217_2_alg».proof.Proof.KI.Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the region leaves in its arrays -/

theorem hF11_0 (c : Dev nD) : (dat11 (en11 m) c).arrAt (0 : Fin 8) cfg11.N = ex11 m c (Pipeline.arrRef spec11 (0 : Fin 8)) :=
  ((dat11 (en11 m) c).arrAt_in (0 : Fin 8) rfl _).trans ((A_eq11 (en11 m) c (0 : Fin 8)).trans (V24_of m (outs m) c (Pipeline.arrRef spec11 (0 : Fin 8)) (by decide)).symm)
theorem hF11_1 (c : Dev nD) : (dat11 (en11 m) c).arrAt (1 : Fin 8) cfg11.N = ex11 m c (Pipeline.arrRef spec11 (1 : Fin 8)) :=
  ((dat11 (en11 m) c).arrAt_in (1 : Fin 8) rfl _).trans ((A_eq11 (en11 m) c (1 : Fin 8)).trans (V24_of m (outs m) c (Pipeline.arrRef spec11 (1 : Fin 8)) (by decide)).symm)
theorem hF11_2 (c : Dev nD) : (dat11 (en11 m) c).arrAt (2 : Fin 8) cfg11.N = ex11 m c (Pipeline.arrRef spec11 (2 : Fin 8)) :=
  ((dat11 (en11 m) c).arrAt_in (2 : Fin 8) rfl _).trans ((A_eq11 (en11 m) c (2 : Fin 8)).trans (V24_of m (outs m) c (Pipeline.arrRef spec11 (2 : Fin 8)) (by decide)).symm)
theorem hF11_3 (c : Dev nD) : (dat11 (en11 m) c).arrAt (3 : Fin 8) cfg11.N = ex11 m c (Pipeline.arrRef spec11 (3 : Fin 8)) :=
  ((dat11 (en11 m) c).arrAt_in (3 : Fin 8) rfl _).trans ((A_eq11 (en11 m) c (3 : Fin 8)).trans (V24_of m (outs m) c (Pipeline.arrRef spec11 (3 : Fin 8)) (by decide)).symm)
theorem hF11_4 (c : Dev nD) : (dat11 (en11 m) c).arrAt (4 : Fin 8) cfg11.N = ex11 m c (Pipeline.arrRef spec11 (4 : Fin 8)) :=
  ((dat11 (en11 m) c).arrAt_in (4 : Fin 8) rfl _).trans ((A_eq11 (en11 m) c (4 : Fin 8)).trans (V24_of m (outs m) c (Pipeline.arrRef spec11 (4 : Fin 8)) (by decide)).symm)
theorem hF11_5 (c : Dev nD) : (dat11 (en11 m) c).arrAt (5 : Fin 8) cfg11.N = ex11 m c (Pipeline.arrRef spec11 (5 : Fin 8)) :=
  ((dat11 (en11 m) c).arrAt_in (5 : Fin 8) rfl _).trans ((A_eq11 (en11 m) c (5 : Fin 8)).trans (V24_of m (outs m) c (Pipeline.arrRef spec11 (5 : Fin 8)) (by decide)).symm)
theorem hF11_6 (c : Dev nD) : (dat11 (en11 m) c).arrAt (6 : Fin 8) cfg11.N = ex11 m c (Pipeline.arrRef spec11 (6 : Fin 8)) :=
  ((dat11 (en11 m) c).arrAt_in (6 : Fin 8) rfl _).trans ((A_eq11 (en11 m) c (6 : Fin 8)).trans (V24_of m (outs m) c (Pipeline.arrRef spec11 (6 : Fin 8)) (by decide)).symm)
theorem hF11_7 (c : Dev nD) : (dat11 (en11 m) c).arrAt (7 : Fin 8) cfg11.N = ex11 m c (Pipeline.arrRef spec11 (7 : Fin 8)) := by
  show _ = Ex11 m c main_v227
  exact (Ex11_out7 m c).symm
/-- At region 11's exit each of its arrays holds what the pipeline leaves: an input as entered, an output as above. -/
theorem hF11 (c : Dev nD) : ∀ w : Fin 8, (dat11 (en11 m) c).arrAt w cfg11.N = ex11 m c (Pipeline.arrRef spec11 w) :=
  forall_fin8 (hF11_0 m c) (hF11_1 m c) (hF11_2 m c) (hF11_3 m c) (hF11_4 m c) (hF11_5 m c) (hF11_6 m c) (hF11_7 m c)
/-- Every buffer that is none of region 11's arrays is at its exit what it was at its entry. -/
theorem hrest11 (c : Dev nD) : ∀ b, b ∉ Finset.univ.image (Pipeline.arrRef spec11) → ex11 m c b = en11 m c b := by
  intro b hb
  refine V24_of m (outs m) c b fun hmem => hb ?_
  rcases List.mem_singleton.mp hmem with rfl
  exact Finset.mem_image.mpr ⟨(7 : Fin 8), Finset.mem_univ _, rfl⟩

/-! ## The region as a segment -/

-- the library's lemmas are stated over the pinned configuration, which meets the printed one only when unification may
-- unfold plain definitions inside a metavariable's type
set_option backward.isDefEq.respectTransparency.types false in
/-- REGION 11 (custom_call 11) over the thread state. Entered from every unscoped buffer at the entry contents beside the
    generator register and the empty dues; left at the exit contents beside the same. At the entry the region's arrays are
    split out of the unscoped buffers and the rest bypasses the pipeline; the register rides in the pipeline's invariant;
    at the exit the arrays, each at what the write-backs fold to, are put back beside the bypassing rest. The kernel has
    no semaphore of its own and owes nothing. -/
noncomputable def reg11 : Pipeline.RegionSeg (pcfgs (F := F)) adm (pdats m) () defs₀ Variants.none L lv (11 : Fin 16) where
  win := launch11.win.to₀
  block_pos := launch11.block_pos
  stage_whole := launch11.stage_whole
  K := PEmpty
  osem k := k.elim
  ho := Pipeline.OwnSemFacts.none _
  hbody c := (body_obligation11 (en11 m) c).loose
  hwaits := Pipeline.hwaits_of_owed_zero _ _ _ _ L lv (11 : Fin 16) fun _ _ => rfl
  pre c := iprop(StableHlo.held (c : Thread nD τ) (Pipeline.ucRefs τ sig) (En11 m c) ∗ R c)
  post c := iprop(StableHlo.held (c : Thread nD τ) (Pipeline.ucRefs τ sig) (Ex11 m c) ∗ R c)
  X c := iprop(∃ r, prngReg c r)
  Y c := iprop(∃ r, prngReg c r)
  Z c := Pipeline.unscopedRest (Ix := Unit) (Name := ℕ) (U := UR sig nD τ) (Lvl := ℕ) spec11 c (en11 m c)
  hentry c := by
    rw [Pipeline.ownSems0_none]
    -- the unscoped buffers at the entry contents: the region's arrays, and the rest
    have hsplit := Pipeline.arrays_of_unscopedBufs (p := (11 : Fin 16)) (pcfgs (F := F)) adm (pdats m) launch11.win launch11.arr_whole c
      ((pdats m (11 : Fin 16) c).share_full fun _ => rfl) (en11 m c) fun w => A_eq11 (en11 m) c w
    rw [Pipeline.unscopedBufs_held] at hsplit
    iintro ⟨⟨Hbufs, Hreg, Hdue⟩, -, -⟩
    ihave Hs := hsplit $$ Hbufs
    icases Hs with ⟨Harr, Hrest⟩
    imodintro
    isplitl [Harr]; · iexact Harr
    -- no prefetched table
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hreg]; · iexact Hreg
    iexact Hrest
  hin c := by
    rw [show (pdats m (11 : Fin 16) c).Φ 0 = Pipeline.ΦA spec11 c from rfl]; unfold Pipeline.ΦA
    iintro ⟨Hreg, -, Hsc⟩
    isplitl [Hsc]; · iexact Hsc
    iexact Hreg
  hout c := by
    rw [Pipeline.ownSems0_none, show (pdats m (11 : Fin 16) c).Φ (Fin.last _) = Pipeline.ΦA spec11 c from rfl]; unfold Pipeline.ΦA
    iintro ⟨Hsc, Hreg⟩
    isplitl [Hreg]; · iexact Hreg
    isplitr; · iempintro
    iexact Hsc
  hexit c := by
    -- the arrays at what the write-backs fold to and the bypassing rest: the unscoped buffers at the exit contents
    have hjoin := Pipeline.unscopedBufs_of_arrays (p := (11 : Fin 16)) (pcfgs (F := F)) adm (Ix := Unit) (Name := ℕ) (U := UR sig nD τ) (Lvl := ℕ)
      launch11.win launch11.arr_whole c (pdats m) ((pdats m (11 : Fin 16) c).share_full fun _ => rfl)
      (en11 m c) (ex11 m c) ((pdats m (11 : Fin 16) c).arrAt · cfg11.N) (hF11 m c) (hrest11 m c)
    rw [Pipeline.unscopedBufs_held] at hjoin
    iintro ⟨Harr, Hdue, Hreg, Hrest⟩
    imodintro
    isplitl [Harr Hrest]
    · iapply hjoin; isplitl [Harr] <;> iassumption
    isplitl [Hreg]; · iexact Hreg
    unfold Pipeline.Dat.owesAt Pipeline.owesWithin
    icases Hdue with ⟨%W, -, Hdue⟩; iexists W; iexact Hdue

end Cert.KernelIdeal.Hand

end
-- ==== Proof.KI.Seg12.lean ====
/-
  Region 12 of @main as a segment of the run. First what the region leaves in each of its arrays, read against the generated
  valuations before and after it (an input window's array as entered, the output's at what the write-backs fold to, every
  other buffer untouched); then the segment record: the pipeline's layout facts from the launch, the body obligation at the region's
  entry contents, and the four entailments that take the thread state "every unscoped buffer at the entry contents, the
  generator register at some state, nothing owed" into the pipeline and bring it back at the exit contents.
-/
import proofs.«152161_j29669634081217_2_alg».proof.Proof.KI.Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the region leaves in its arrays -/

theorem hF12_0 (c : Dev nD) : (dat12 (en12 m) c).arrAt (0 : Fin 12) cfg12.N = ex12 m c (Pipeline.arrRef spec12 (0 : Fin 12)) :=
  ((dat12 (en12 m) c).arrAt_in (0 : Fin 12) rfl _).trans ((A_eq12 (en12 m) c (0 : Fin 12)).trans (V26_of m (outs m) c (Pipeline.arrRef spec12 (0 : Fin 12)) (by decide)).symm)
theorem hF12_1 (c : Dev nD) : (dat12 (en12 m) c).arrAt (1 : Fin 12) cfg12.N = ex12 m c (Pipeline.arrRef spec12 (1 : Fin 12)) :=
  ((dat12 (en12 m) c).arrAt_in (1 : Fin 12) rfl _).trans ((A_eq12 (en12 m) c (1 : Fin 12)).trans (V26_of m (outs m) c (Pipeline.arrRef spec12 (1 : Fin 12)) (by decide)).symm)
theorem hF12_2 (c : Dev nD) : (dat12 (en12 m) c).arrAt (2 : Fin 12) cfg12.N = ex12 m c (Pipeline.arrRef spec12 (2 : Fin 12)) :=
  ((dat12 (en12 m) c).arrAt_in (2 : Fin 12) rfl _).trans ((A_eq12 (en12 m) c (2 : Fin 12)).trans (V26_of m (outs m) c (Pipeline.arrRef spec12 (2 : Fin 12)) (by decide)).symm)
theorem hF12_3 (c : Dev nD) : (dat12 (en12 m) c).arrAt (3 : Fin 12) cfg12.N = ex12 m c (Pipeline.arrRef spec12 (3 : Fin 12)) :=
  ((dat12 (en12 m) c).arrAt_in (3 : Fin 12) rfl _).trans ((A_eq12 (en12 m) c (3 : Fin 12)).trans (V26_of m (outs m) c (Pipeline.arrRef spec12 (3 : Fin 12)) (by decide)).symm)
theorem hF12_4 (c : Dev nD) : (dat12 (en12 m) c).arrAt (4 : Fin 12) cfg12.N = ex12 m c (Pipeline.arrRef spec12 (4 : Fin 12)) :=
  ((dat12 (en12 m) c).arrAt_in (4 : Fin 12) rfl _).trans ((A_eq12 (en12 m) c (4 : Fin 12)).trans (V26_of m (outs m) c (Pipeline.arrRef spec12 (4 : Fin 12)) (by decide)).symm)
theorem hF12_5 (c : Dev nD) : (dat12 (en12 m) c).arrAt (5 : Fin 12) cfg12.N = ex12 m c (Pipeline.arrRef spec12 (5 : Fin 12)) :=
  ((dat12 (en12 m) c).arrAt_in (5 : Fin 12) rfl _).trans ((A_eq12 (en12 m) c (5 : Fin 12)).trans (V26_of m (outs m) c (Pipeline.arrRef spec12 (5 : Fin 12)) (by decide)).symm)
theorem hF12_6 (c : Dev nD) : (dat12 (en12 m) c).arrAt (6 : Fin 12) cfg12.N = ex12 m c (Pipeline.arrRef spec12 (6 : Fin 12)) :=
  ((dat12 (en12 m) c).arrAt_in (6 : Fin 12) rfl _).trans ((A_eq12 (en12 m) c (6 : Fin 12)).trans (V26_of m (outs m) c (Pipeline.arrRef spec12 (6 : Fin 12)) (by decide)).symm)
theorem hF12_7 (c : Dev nD) : (dat12 (en12 m) c).arrAt (7 : Fin 12) cfg12.N = ex12 m c (Pipeline.arrRef spec12 (7 : Fin 12)) :=
  ((dat12 (en12 m) c).arrAt_in (7 : Fin 12) rfl _).trans ((A_eq12 (en12 m) c (7 : Fin 12)).trans (V26_of m (outs m) c (Pipeline.arrRef spec12 (7 : Fin 12)) (by decide)).symm)
theorem hF12_8 (c : Dev nD) : (dat12 (en12 m) c).arrAt (8 : Fin 12) cfg12.N = ex12 m c (Pipeline.arrRef spec12 (8 : Fin 12)) :=
  ((dat12 (en12 m) c).arrAt_in (8 : Fin 12) rfl _).trans ((A_eq12 (en12 m) c (8 : Fin 12)).trans (V26_of m (outs m) c (Pipeline.arrRef spec12 (8 : Fin 12)) (by decide)).symm)
theorem hF12_9 (c : Dev nD) : (dat12 (en12 m) c).arrAt (9 : Fin 12) cfg12.N = ex12 m c (Pipeline.arrRef spec12 (9 : Fin 12)) := by
  show _ = Ex12 m c main_v247_0
  exact (Ex12_out9 m c).symm
theorem hF12_10 (c : Dev nD) : (dat12 (en12 m) c).arrAt (10 : Fin 12) cfg12.N = ex12 m c (Pipeline.arrRef spec12 (10 : Fin 12)) := by
  show _ = Ex12 m c main_v247_1
  exact (Ex12_out10 m c).symm
theorem hF12_11 (c : Dev nD) : (dat12 (en12 m) c).arrAt (11 : Fin 12) cfg12.N = ex12 m c (Pipeline.arrRef spec12 (11 : Fin 12)) := by
  show _ = Ex12 m c main_v247_2
  exact (Ex12_out11 m c).symm
/-- At region 12's exit each of its arrays holds what the pipeline leaves: an input as entered, an output as above. -/
theorem hF12 (c : Dev nD) : ∀ w : Fin 12, (dat12 (en12 m) c).arrAt w cfg12.N = ex12 m c (Pipeline.arrRef spec12 w) :=
  forall_fin12 (hF12_0 m c) (hF12_1 m c) (hF12_2 m c) (hF12_3 m c) (hF12_4 m c) (hF12_5 m c) (hF12_6 m c) (hF12_7 m c) (hF12_8 m c) (hF12_9 m c) (hF12_10 m c) (hF12_11 m c)
/-- Every buffer that is none of region 12's arrays is at its exit what it was at its entry. -/
theorem hrest12 (c : Dev nD) : ∀ b, b ∉ Finset.univ.image (Pipeline.arrRef spec12) → ex12 m c b = en12 m c b := by
  intro b hb
  refine V26_of m (outs m) c b fun hmem => hb ?_
  rcases List.mem_cons.mp hmem with rfl | hmem
  · exact Finset.mem_image.mpr ⟨(9 : Fin 12), Finset.mem_univ _, rfl⟩
  rcases List.mem_cons.mp hmem with rfl | hmem
  · exact Finset.mem_image.mpr ⟨(10 : Fin 12), Finset.mem_univ _, rfl⟩
  rcases List.mem_singleton.mp hmem with rfl
  exact Finset.mem_image.mpr ⟨(11 : Fin 12), Finset.mem_univ _, rfl⟩

/-! ## The region as a segment -/

-- the library's lemmas are stated over the pinned configuration, which meets the printed one only when unification may
-- unfold plain definitions inside a metavariable's type
set_option backward.isDefEq.respectTransparency.types false in
/-- REGION 12 (custom_call 12) over the thread state. Entered from every unscoped buffer at the entry contents beside the
    generator register and the empty dues; left at the exit contents beside the same. At the entry the region's arrays are
    split out of the unscoped buffers and the rest bypasses the pipeline; the register rides in the pipeline's invariant;
    at the exit the arrays, each at what the write-backs fold to, are put back beside the bypassing rest. The kernel has
    no semaphore of its own and owes nothing. -/
noncomputable def reg12 : Pipeline.RegionSeg (pcfgs (F := F)) adm (pdats m) () defs₀ Variants.none L lv (12 : Fin 16) where
  win := launch12.win.to₀
  block_pos := launch12.block_pos
  stage_whole := launch12.stage_whole
  K := PEmpty
  osem k := k.elim
  ho := Pipeline.OwnSemFacts.none _
  hbody c := (body_obligation12 (en12 m) c).loose
  hwaits := Pipeline.hwaits_of_owed_zero _ _ _ _ L lv (12 : Fin 16) fun _ _ => rfl
  pre c := iprop(StableHlo.held (c : Thread nD τ) (Pipeline.ucRefs τ sig) (En12 m c) ∗ R c)
  post c := iprop(StableHlo.held (c : Thread nD τ) (Pipeline.ucRefs τ sig) (Ex12 m c) ∗ R c)
  X c := iprop(∃ r, prngReg c r)
  Y c := iprop(∃ r, prngReg c r)
  Z c := Pipeline.unscopedRest (Ix := Unit) (Name := ℕ) (U := UR sig nD τ) (Lvl := ℕ) spec12 c (en12 m c)
  hentry c := by
    rw [Pipeline.ownSems0_none]
    -- the unscoped buffers at the entry contents: the region's arrays, and the rest
    have hsplit := Pipeline.arrays_of_unscopedBufs (p := (12 : Fin 16)) (pcfgs (F := F)) adm (pdats m) launch12.win launch12.arr_whole c
      ((pdats m (12 : Fin 16) c).share_full fun _ => rfl) (en12 m c) fun w => A_eq12 (en12 m) c w
    rw [Pipeline.unscopedBufs_held] at hsplit
    iintro ⟨⟨Hbufs, Hreg, Hdue⟩, -, -⟩
    ihave Hs := hsplit $$ Hbufs
    icases Hs with ⟨Harr, Hrest⟩
    imodintro
    isplitl [Harr]; · iexact Harr
    -- no prefetched table
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hreg]; · iexact Hreg
    iexact Hrest
  hin c := by
    rw [show (pdats m (12 : Fin 16) c).Φ 0 = Pipeline.ΦA spec12 c from rfl]; unfold Pipeline.ΦA
    iintro ⟨Hreg, -, Hsc⟩
    isplitl [Hsc]; · iexact Hsc
    iexact Hreg
  hout c := by
    rw [Pipeline.ownSems0_none, show (pdats m (12 : Fin 16) c).Φ (Fin.last _) = Pipeline.ΦA spec12 c from rfl]; unfold Pipeline.ΦA
    iintro ⟨Hsc, Hreg⟩
    isplitl [Hreg]; · iexact Hreg
    isplitr; · iempintro
    iexact Hsc
  hexit c := by
    -- the arrays at what the write-backs fold to and the bypassing rest: the unscoped buffers at the exit contents
    have hjoin := Pipeline.unscopedBufs_of_arrays (p := (12 : Fin 16)) (pcfgs (F := F)) adm (Ix := Unit) (Name := ℕ) (U := UR sig nD τ) (Lvl := ℕ)
      launch12.win launch12.arr_whole c (pdats m) ((pdats m (12 : Fin 16) c).share_full fun _ => rfl)
      (en12 m c) (ex12 m c) ((pdats m (12 : Fin 16) c).arrAt · cfg12.N) (hF12 m c) (hrest12 m c)
    rw [Pipeline.unscopedBufs_held] at hjoin
    iintro ⟨Harr, Hdue, Hreg, Hrest⟩
    imodintro
    isplitl [Harr Hrest]
    · iapply hjoin; isplitl [Harr] <;> iassumption
    isplitl [Hreg]; · iexact Hreg
    unfold Pipeline.Dat.owesAt Pipeline.owesWithin
    icases Hdue with ⟨%W, -, Hdue⟩; iexists W; iexact Hdue

end Cert.KernelIdeal.Hand

end
-- ==== Proof.KI.Seg13.lean ====
/-
  Region 13 of @main as a segment of the run. First what the region leaves in each of its arrays, read against the generated
  valuations before and after it (an input window's array as entered, the output's at what the write-backs fold to, every
  other buffer untouched); then the segment record: the pipeline's layout facts from the launch, the body obligation at the region's
  entry contents, and the four entailments that take the thread state "every unscoped buffer at the entry contents, the
  generator register at some state, nothing owed" into the pipeline and bring it back at the exit contents.
-/
import proofs.«152161_j29669634081217_2_alg».proof.Proof.KI.Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the region leaves in its arrays -/

theorem hF13_0 (c : Dev nD) : (dat13 (en13 m) c).arrAt (0 : Fin 8) cfg13.N = ex13 m c (Pipeline.arrRef spec13 (0 : Fin 8)) :=
  ((dat13 (en13 m) c).arrAt_in (0 : Fin 8) rfl _).trans ((A_eq13 (en13 m) c (0 : Fin 8)).trans (V28_of m (outs m) c (Pipeline.arrRef spec13 (0 : Fin 8)) (by decide)).symm)
theorem hF13_1 (c : Dev nD) : (dat13 (en13 m) c).arrAt (1 : Fin 8) cfg13.N = ex13 m c (Pipeline.arrRef spec13 (1 : Fin 8)) :=
  ((dat13 (en13 m) c).arrAt_in (1 : Fin 8) rfl _).trans ((A_eq13 (en13 m) c (1 : Fin 8)).trans (V28_of m (outs m) c (Pipeline.arrRef spec13 (1 : Fin 8)) (by decide)).symm)
theorem hF13_2 (c : Dev nD) : (dat13 (en13 m) c).arrAt (2 : Fin 8) cfg13.N = ex13 m c (Pipeline.arrRef spec13 (2 : Fin 8)) :=
  ((dat13 (en13 m) c).arrAt_in (2 : Fin 8) rfl _).trans ((A_eq13 (en13 m) c (2 : Fin 8)).trans (V28_of m (outs m) c (Pipeline.arrRef spec13 (2 : Fin 8)) (by decide)).symm)
theorem hF13_3 (c : Dev nD) : (dat13 (en13 m) c).arrAt (3 : Fin 8) cfg13.N = ex13 m c (Pipeline.arrRef spec13 (3 : Fin 8)) :=
  ((dat13 (en13 m) c).arrAt_in (3 : Fin 8) rfl _).trans ((A_eq13 (en13 m) c (3 : Fin 8)).trans (V28_of m (outs m) c (Pipeline.arrRef spec13 (3 : Fin 8)) (by decide)).symm)
theorem hF13_4 (c : Dev nD) : (dat13 (en13 m) c).arrAt (4 : Fin 8) cfg13.N = ex13 m c (Pipeline.arrRef spec13 (4 : Fin 8)) :=
  ((dat13 (en13 m) c).arrAt_in (4 : Fin 8) rfl _).trans ((A_eq13 (en13 m) c (4 : Fin 8)).trans (V28_of m (outs m) c (Pipeline.arrRef spec13 (4 : Fin 8)) (by decide)).symm)
theorem hF13_5 (c : Dev nD) : (dat13 (en13 m) c).arrAt (5 : Fin 8) cfg13.N = ex13 m c (Pipeline.arrRef spec13 (5 : Fin 8)) :=
  ((dat13 (en13 m) c).arrAt_in (5 : Fin 8) rfl _).trans ((A_eq13 (en13 m) c (5 : Fin 8)).trans (V28_of m (outs m) c (Pipeline.arrRef spec13 (5 : Fin 8)) (by decide)).symm)
theorem hF13_6 (c : Dev nD) : (dat13 (en13 m) c).arrAt (6 : Fin 8) cfg13.N = ex13 m c (Pipeline.arrRef spec13 (6 : Fin 8)) :=
  ((dat13 (en13 m) c).arrAt_in (6 : Fin 8) rfl _).trans ((A_eq13 (en13 m) c (6 : Fin 8)).trans (V28_of m (outs m) c (Pipeline.arrRef spec13 (6 : Fin 8)) (by decide)).symm)
theorem hF13_7 (c : Dev nD) : (dat13 (en13 m) c).arrAt (7 : Fin 8) cfg13.N = ex13 m c (Pipeline.arrRef spec13 (7 : Fin 8)) := by
  show _ = Ex13 m c main_v272
  exact (Ex13_out7 m c).symm
/-- At region 13's exit each of its arrays holds what the pipeline leaves: an input as entered, an output as above. -/
theorem hF13 (c : Dev nD) : ∀ w : Fin 8, (dat13 (en13 m) c).arrAt w cfg13.N = ex13 m c (Pipeline.arrRef spec13 w) :=
  forall_fin8 (hF13_0 m c) (hF13_1 m c) (hF13_2 m c) (hF13_3 m c) (hF13_4 m c) (hF13_5 m c) (hF13_6 m c) (hF13_7 m c)
/-- Every buffer that is none of region 13's arrays is at its exit what it was at its entry. -/
theorem hrest13 (c : Dev nD) : ∀ b, b ∉ Finset.univ.image (Pipeline.arrRef spec13) → ex13 m c b = en13 m c b := by
  intro b hb
  refine V28_of m (outs m) c b fun hmem => hb ?_
  rcases List.mem_singleton.mp hmem with rfl
  exact Finset.mem_image.mpr ⟨(7 : Fin 8), Finset.mem_univ _, rfl⟩

/-! ## The region as a segment -/

-- the library's lemmas are stated over the pinned configuration, which meets the printed one only when unification may
-- unfold plain definitions inside a metavariable's type
set_option backward.isDefEq.respectTransparency.types false in
/-- REGION 13 (custom_call 13) over the thread state. Entered from every unscoped buffer at the entry contents beside the
    generator register and the empty dues; left at the exit contents beside the same. At the entry the region's arrays are
    split out of the unscoped buffers and the rest bypasses the pipeline; the register rides in the pipeline's invariant;
    at the exit the arrays, each at what the write-backs fold to, are put back beside the bypassing rest. The kernel has
    no semaphore of its own and owes nothing. -/
noncomputable def reg13 : Pipeline.RegionSeg (pcfgs (F := F)) adm (pdats m) () defs₀ Variants.none L lv (13 : Fin 16) where
  win := launch13.win.to₀
  block_pos := launch13.block_pos
  stage_whole := launch13.stage_whole
  K := PEmpty
  osem k := k.elim
  ho := Pipeline.OwnSemFacts.none _
  hbody c := (body_obligation13 (en13 m) c).loose
  hwaits := Pipeline.hwaits_of_owed_zero _ _ _ _ L lv (13 : Fin 16) fun _ _ => rfl
  pre c := iprop(StableHlo.held (c : Thread nD τ) (Pipeline.ucRefs τ sig) (En13 m c) ∗ R c)
  post c := iprop(StableHlo.held (c : Thread nD τ) (Pipeline.ucRefs τ sig) (Ex13 m c) ∗ R c)
  X c := iprop(∃ r, prngReg c r)
  Y c := iprop(∃ r, prngReg c r)
  Z c := Pipeline.unscopedRest (Ix := Unit) (Name := ℕ) (U := UR sig nD τ) (Lvl := ℕ) spec13 c (en13 m c)
  hentry c := by
    rw [Pipeline.ownSems0_none]
    -- the unscoped buffers at the entry contents: the region's arrays, and the rest
    have hsplit := Pipeline.arrays_of_unscopedBufs (p := (13 : Fin 16)) (pcfgs (F := F)) adm (pdats m) launch13.win launch13.arr_whole c
      ((pdats m (13 : Fin 16) c).share_full fun _ => rfl) (en13 m c) fun w => A_eq13 (en13 m) c w
    rw [Pipeline.unscopedBufs_held] at hsplit
    iintro ⟨⟨Hbufs, Hreg, Hdue⟩, -, -⟩
    ihave Hs := hsplit $$ Hbufs
    icases Hs with ⟨Harr, Hrest⟩
    imodintro
    isplitl [Harr]; · iexact Harr
    -- no prefetched table
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hreg]; · iexact Hreg
    iexact Hrest
  hin c := by
    rw [show (pdats m (13 : Fin 16) c).Φ 0 = Pipeline.ΦA spec13 c from rfl]; unfold Pipeline.ΦA
    iintro ⟨Hreg, -, Hsc⟩
    isplitl [Hsc]; · iexact Hsc
    iexact Hreg
  hout c := by
    rw [Pipeline.ownSems0_none, show (pdats m (13 : Fin 16) c).Φ (Fin.last _) = Pipeline.ΦA spec13 c from rfl]; unfold Pipeline.ΦA
    iintro ⟨Hsc, Hreg⟩
    isplitl [Hreg]; · iexact Hreg
    isplitr; · iempintro
    iexact Hsc
  hexit c := by
    -- the arrays at what the write-backs fold to and the bypassing rest: the unscoped buffers at the exit contents
    have hjoin := Pipeline.unscopedBufs_of_arrays (p := (13 : Fin 16)) (pcfgs (F := F)) adm (Ix := Unit) (Name := ℕ) (U := UR sig nD τ) (Lvl := ℕ)
      launch13.win launch13.arr_whole c (pdats m) ((pdats m (13 : Fin 16) c).share_full fun _ => rfl)
      (en13 m c) (ex13 m c) ((pdats m (13 : Fin 16) c).arrAt · cfg13.N) (hF13 m c) (hrest13 m c)
    rw [Pipeline.unscopedBufs_held] at hjoin
    iintro ⟨Harr, Hdue, Hreg, Hrest⟩
    imodintro
    isplitl [Harr Hrest]
    · iapply hjoin; isplitl [Harr] <;> iassumption
    isplitl [Hreg]; · iexact Hreg
    unfold Pipeline.Dat.owesAt Pipeline.owesWithin
    icases Hdue with ⟨%W, -, Hdue⟩; iexists W; iexact Hdue

end Cert.KernelIdeal.Hand

end
-- ==== Proof.KI.Seg14.lean ====
/-
  Region 14 of @main as a segment of the run. First what the region leaves in each of its arrays, read against the generated
  valuations before and after it (an input window's array as entered, the output's at what the write-backs fold to, every
  other buffer untouched); then the segment record: the pipeline's layout facts from the launch, the body obligation at the region's
  entry contents, and the four entailments that take the thread state "every unscoped buffer at the entry contents, the
  generator register at some state, nothing owed" into the pipeline and bring it back at the exit contents.
-/
import proofs.«152161_j29669634081217_2_alg».proof.Proof.KI.Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the region leaves in its arrays -/

theorem hF14_0 (c : Dev nD) : (dat14 (en14 m) c).arrAt (0 : Fin 12) cfg14.N = ex14 m c (Pipeline.arrRef spec14 (0 : Fin 12)) :=
  ((dat14 (en14 m) c).arrAt_in (0 : Fin 12) rfl _).trans ((A_eq14 (en14 m) c (0 : Fin 12)).trans (V30_of m (outs m) c (Pipeline.arrRef spec14 (0 : Fin 12)) (by decide)).symm)
theorem hF14_1 (c : Dev nD) : (dat14 (en14 m) c).arrAt (1 : Fin 12) cfg14.N = ex14 m c (Pipeline.arrRef spec14 (1 : Fin 12)) :=
  ((dat14 (en14 m) c).arrAt_in (1 : Fin 12) rfl _).trans ((A_eq14 (en14 m) c (1 : Fin 12)).trans (V30_of m (outs m) c (Pipeline.arrRef spec14 (1 : Fin 12)) (by decide)).symm)
theorem hF14_2 (c : Dev nD) : (dat14 (en14 m) c).arrAt (2 : Fin 12) cfg14.N = ex14 m c (Pipeline.arrRef spec14 (2 : Fin 12)) :=
  ((dat14 (en14 m) c).arrAt_in (2 : Fin 12) rfl _).trans ((A_eq14 (en14 m) c (2 : Fin 12)).trans (V30_of m (outs m) c (Pipeline.arrRef spec14 (2 : Fin 12)) (by decide)).symm)
theorem hF14_3 (c : Dev nD) : (dat14 (en14 m) c).arrAt (3 : Fin 12) cfg14.N = ex14 m c (Pipeline.arrRef spec14 (3 : Fin 12)) :=
  ((dat14 (en14 m) c).arrAt_in (3 : Fin 12) rfl _).trans ((A_eq14 (en14 m) c (3 : Fin 12)).trans (V30_of m (outs m) c (Pipeline.arrRef spec14 (3 : Fin 12)) (by decide)).symm)
theorem hF14_4 (c : Dev nD) : (dat14 (en14 m) c).arrAt (4 : Fin 12) cfg14.N = ex14 m c (Pipeline.arrRef spec14 (4 : Fin 12)) :=
  ((dat14 (en14 m) c).arrAt_in (4 : Fin 12) rfl _).trans ((A_eq14 (en14 m) c (4 : Fin 12)).trans (V30_of m (outs m) c (Pipeline.arrRef spec14 (4 : Fin 12)) (by decide)).symm)
theorem hF14_5 (c : Dev nD) : (dat14 (en14 m) c).arrAt (5 : Fin 12) cfg14.N = ex14 m c (Pipeline.arrRef spec14 (5 : Fin 12)) :=
  ((dat14 (en14 m) c).arrAt_in (5 : Fin 12) rfl _).trans ((A_eq14 (en14 m) c (5 : Fin 12)).trans (V30_of m (outs m) c (Pipeline.arrRef spec14 (5 : Fin 12)) (by decide)).symm)
theorem hF14_6 (c : Dev nD) : (dat14 (en14 m) c).arrAt (6 : Fin 12) cfg14.N = ex14 m c (Pipeline.arrRef spec14 (6 : Fin 12)) :=
  ((dat14 (en14 m) c).arrAt_in (6 : Fin 12) rfl _).trans ((A_eq14 (en14 m) c (6 : Fin 12)).trans (V30_of m (outs m) c (Pipeline.arrRef spec14 (6 : Fin 12)) (by decide)).symm)
theorem hF14_7 (c : Dev nD) : (dat14 (en14 m) c).arrAt (7 : Fin 12) cfg14.N = ex14 m c (Pipeline.arrRef spec14 (7 : Fin 12)) :=
  ((dat14 (en14 m) c).arrAt_in (7 : Fin 12) rfl _).trans ((A_eq14 (en14 m) c (7 : Fin 12)).trans (V30_of m (outs m) c (Pipeline.arrRef spec14 (7 : Fin 12)) (by decide)).symm)
theorem hF14_8 (c : Dev nD) : (dat14 (en14 m) c).arrAt (8 : Fin 12) cfg14.N = ex14 m c (Pipeline.arrRef spec14 (8 : Fin 12)) :=
  ((dat14 (en14 m) c).arrAt_in (8 : Fin 12) rfl _).trans ((A_eq14 (en14 m) c (8 : Fin 12)).trans (V30_of m (outs m) c (Pipeline.arrRef spec14 (8 : Fin 12)) (by decide)).symm)
theorem hF14_9 (c : Dev nD) : (dat14 (en14 m) c).arrAt (9 : Fin 12) cfg14.N = ex14 m c (Pipeline.arrRef spec14 (9 : Fin 12)) := by
  show _ = Ex14 m c main_v292_0
  exact (Ex14_out9 m c).symm
theorem hF14_10 (c : Dev nD) : (dat14 (en14 m) c).arrAt (10 : Fin 12) cfg14.N = ex14 m c (Pipeline.arrRef spec14 (10 : Fin 12)) := by
  show _ = Ex14 m c main_v292_1
  exact (Ex14_out10 m c).symm
theorem hF14_11 (c : Dev nD) : (dat14 (en14 m) c).arrAt (11 : Fin 12) cfg14.N = ex14 m c (Pipeline.arrRef spec14 (11 : Fin 12)) := by
  show _ = Ex14 m c main_v292_2
  exact (Ex14_out11 m c).symm
/-- At region 14's exit each of its arrays holds what the pipeline leaves: an input as entered, an output as above. -/
theorem hF14 (c : Dev nD) : ∀ w : Fin 12, (dat14 (en14 m) c).arrAt w cfg14.N = ex14 m c (Pipeline.arrRef spec14 w) :=
  forall_fin12 (hF14_0 m c) (hF14_1 m c) (hF14_2 m c) (hF14_3 m c) (hF14_4 m c) (hF14_5 m c) (hF14_6 m c) (hF14_7 m c) (hF14_8 m c) (hF14_9 m c) (hF14_10 m c) (hF14_11 m c)
/-- Every buffer that is none of region 14's arrays is at its exit what it was at its entry. -/
theorem hrest14 (c : Dev nD) : ∀ b, b ∉ Finset.univ.image (Pipeline.arrRef spec14) → ex14 m c b = en14 m c b := by
  intro b hb
  refine V30_of m (outs m) c b fun hmem => hb ?_
  rcases List.mem_cons.mp hmem with rfl | hmem
  · exact Finset.mem_image.mpr ⟨(9 : Fin 12), Finset.mem_univ _, rfl⟩
  rcases List.mem_cons.mp hmem with rfl | hmem
  · exact Finset.mem_image.mpr ⟨(10 : Fin 12), Finset.mem_univ _, rfl⟩
  rcases List.mem_singleton.mp hmem with rfl
  exact Finset.mem_image.mpr ⟨(11 : Fin 12), Finset.mem_univ _, rfl⟩

/-! ## The region as a segment -/

-- the library's lemmas are stated over the pinned configuration, which meets the printed one only when unification may
-- unfold plain definitions inside a metavariable's type
set_option backward.isDefEq.respectTransparency.types false in
/-- REGION 14 (custom_call 14) over the thread state. Entered from every unscoped buffer at the entry contents beside the
    generator register and the empty dues; left at the exit contents beside the same. At the entry the region's arrays are
    split out of the unscoped buffers and the rest bypasses the pipeline; the register rides in the pipeline's invariant;
    at the exit the arrays, each at what the write-backs fold to, are put back beside the bypassing rest. The kernel has
    no semaphore of its own and owes nothing. -/
noncomputable def reg14 : Pipeline.RegionSeg (pcfgs (F := F)) adm (pdats m) () defs₀ Variants.none L lv (14 : Fin 16) where
  win := launch14.win.to₀
  block_pos := launch14.block_pos
  stage_whole := launch14.stage_whole
  K := PEmpty
  osem k := k.elim
  ho := Pipeline.OwnSemFacts.none _
  hbody c := (body_obligation14 (en14 m) c).loose
  hwaits := Pipeline.hwaits_of_owed_zero _ _ _ _ L lv (14 : Fin 16) fun _ _ => rfl
  pre c := iprop(StableHlo.held (c : Thread nD τ) (Pipeline.ucRefs τ sig) (En14 m c) ∗ R c)
  post c := iprop(StableHlo.held (c : Thread nD τ) (Pipeline.ucRefs τ sig) (Ex14 m c) ∗ R c)
  X c := iprop(∃ r, prngReg c r)
  Y c := iprop(∃ r, prngReg c r)
  Z c := Pipeline.unscopedRest (Ix := Unit) (Name := ℕ) (U := UR sig nD τ) (Lvl := ℕ) spec14 c (en14 m c)
  hentry c := by
    rw [Pipeline.ownSems0_none]
    -- the unscoped buffers at the entry contents: the region's arrays, and the rest
    have hsplit := Pipeline.arrays_of_unscopedBufs (p := (14 : Fin 16)) (pcfgs (F := F)) adm (pdats m) launch14.win launch14.arr_whole c
      ((pdats m (14 : Fin 16) c).share_full fun _ => rfl) (en14 m c) fun w => A_eq14 (en14 m) c w
    rw [Pipeline.unscopedBufs_held] at hsplit
    iintro ⟨⟨Hbufs, Hreg, Hdue⟩, -, -⟩
    ihave Hs := hsplit $$ Hbufs
    icases Hs with ⟨Harr, Hrest⟩
    imodintro
    isplitl [Harr]; · iexact Harr
    -- no prefetched table
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hreg]; · iexact Hreg
    iexact Hrest
  hin c := by
    rw [show (pdats m (14 : Fin 16) c).Φ 0 = Pipeline.ΦA spec14 c from rfl]; unfold Pipeline.ΦA
    iintro ⟨Hreg, -, Hsc⟩
    isplitl [Hsc]; · iexact Hsc
    iexact Hreg
  hout c := by
    rw [Pipeline.ownSems0_none, show (pdats m (14 : Fin 16) c).Φ (Fin.last _) = Pipeline.ΦA spec14 c from rfl]; unfold Pipeline.ΦA
    iintro ⟨Hsc, Hreg⟩
    isplitl [Hreg]; · iexact Hreg
    isplitr; · iempintro
    iexact Hsc
  hexit c := by
    -- the arrays at what the write-backs fold to and the bypassing rest: the unscoped buffers at the exit contents
    have hjoin := Pipeline.unscopedBufs_of_arrays (p := (14 : Fin 16)) (pcfgs (F := F)) adm (Ix := Unit) (Name := ℕ) (U := UR sig nD τ) (Lvl := ℕ)
      launch14.win launch14.arr_whole c (pdats m) ((pdats m (14 : Fin 16) c).share_full fun _ => rfl)
      (en14 m c) (ex14 m c) ((pdats m (14 : Fin 16) c).arrAt · cfg14.N) (hF14 m c) (hrest14 m c)
    rw [Pipeline.unscopedBufs_held] at hjoin
    iintro ⟨Harr, Hdue, Hreg, Hrest⟩
    imodintro
    isplitl [Harr Hrest]
    · iapply hjoin; isplitl [Harr] <;> iassumption
    isplitl [Hreg]; · iexact Hreg
    unfold Pipeline.Dat.owesAt Pipeline.owesWithin
    icases Hdue with ⟨%W, -, Hdue⟩; iexists W; iexact Hdue

end Cert.KernelIdeal.Hand

end
-- ==== Proof.KI.Seg15.lean ====
/-
  Region 15 of @main as a segment of the run. First what the region leaves in each of its arrays, read against the generated
  valuations before and after it (an input window's array as entered, the output's at what the write-backs fold to, every
  other buffer untouched); then the segment record: the pipeline's layout facts from the launch, the body obligation at the region's
  entry contents, and the four entailments that take the thread state "every unscoped buffer at the entry contents, the
  generator register at some state, nothing owed" into the pipeline and bring it back at the exit contents.
-/
import proofs.«152161_j29669634081217_2_alg».proof.Proof.KI.Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the region leaves in its arrays -/

theorem hF15_0 (c : Dev nD) : (dat15 (en15 m) c).arrAt (0 : Fin 10) cfg15.N = ex15 m c (Pipeline.arrRef spec15 (0 : Fin 10)) :=
  ((dat15 (en15 m) c).arrAt_in (0 : Fin 10) rfl _).trans ((A_eq15 (en15 m) c (0 : Fin 10)).trans (V32_of m (outs m) c (Pipeline.arrRef spec15 (0 : Fin 10)) (by decide)).symm)
theorem hF15_1 (c : Dev nD) : (dat15 (en15 m) c).arrAt (1 : Fin 10) cfg15.N = ex15 m c (Pipeline.arrRef spec15 (1 : Fin 10)) :=
  ((dat15 (en15 m) c).arrAt_in (1 : Fin 10) rfl _).trans ((A_eq15 (en15 m) c (1 : Fin 10)).trans (V32_of m (outs m) c (Pipeline.arrRef spec15 (1 : Fin 10)) (by decide)).symm)
theorem hF15_2 (c : Dev nD) : (dat15 (en15 m) c).arrAt (2 : Fin 10) cfg15.N = ex15 m c (Pipeline.arrRef spec15 (2 : Fin 10)) :=
  ((dat15 (en15 m) c).arrAt_in (2 : Fin 10) rfl _).trans ((A_eq15 (en15 m) c (2 : Fin 10)).trans (V32_of m (outs m) c (Pipeline.arrRef spec15 (2 : Fin 10)) (by decide)).symm)
theorem hF15_3 (c : Dev nD) : (dat15 (en15 m) c).arrAt (3 : Fin 10) cfg15.N = ex15 m c (Pipeline.arrRef spec15 (3 : Fin 10)) :=
  ((dat15 (en15 m) c).arrAt_in (3 : Fin 10) rfl _).trans ((A_eq15 (en15 m) c (3 : Fin 10)).trans (V32_of m (outs m) c (Pipeline.arrRef spec15 (3 : Fin 10)) (by decide)).symm)
theorem hF15_4 (c : Dev nD) : (dat15 (en15 m) c).arrAt (4 : Fin 10) cfg15.N = ex15 m c (Pipeline.arrRef spec15 (4 : Fin 10)) :=
  ((dat15 (en15 m) c).arrAt_in (4 : Fin 10) rfl _).trans ((A_eq15 (en15 m) c (4 : Fin 10)).trans (V32_of m (outs m) c (Pipeline.arrRef spec15 (4 : Fin 10)) (by decide)).symm)
theorem hF15_5 (c : Dev nD) : (dat15 (en15 m) c).arrAt (5 : Fin 10) cfg15.N = ex15 m c (Pipeline.arrRef spec15 (5 : Fin 10)) :=
  ((dat15 (en15 m) c).arrAt_in (5 : Fin 10) rfl _).trans ((A_eq15 (en15 m) c (5 : Fin 10)).trans (V32_of m (outs m) c (Pipeline.arrRef spec15 (5 : Fin 10)) (by decide)).symm)
theorem hF15_6 (c : Dev nD) : (dat15 (en15 m) c).arrAt (6 : Fin 10) cfg15.N = ex15 m c (Pipeline.arrRef spec15 (6 : Fin 10)) :=
  ((dat15 (en15 m) c).arrAt_in (6 : Fin 10) rfl _).trans ((A_eq15 (en15 m) c (6 : Fin 10)).trans (V32_of m (outs m) c (Pipeline.arrRef spec15 (6 : Fin 10)) (by decide)).symm)
theorem hF15_7 (c : Dev nD) : (dat15 (en15 m) c).arrAt (7 : Fin 10) cfg15.N = ex15 m c (Pipeline.arrRef spec15 (7 : Fin 10)) :=
  ((dat15 (en15 m) c).arrAt_in (7 : Fin 10) rfl _).trans ((A_eq15 (en15 m) c (7 : Fin 10)).trans (V32_of m (outs m) c (Pipeline.arrRef spec15 (7 : Fin 10)) (by decide)).symm)
theorem hF15_8 (c : Dev nD) : (dat15 (en15 m) c).arrAt (8 : Fin 10) cfg15.N = ex15 m c (Pipeline.arrRef spec15 (8 : Fin 10)) :=
  ((dat15 (en15 m) c).arrAt_in (8 : Fin 10) rfl _).trans ((A_eq15 (en15 m) c (8 : Fin 10)).trans (V32_of m (outs m) c (Pipeline.arrRef spec15 (8 : Fin 10)) (by decide)).symm)
theorem hF15_9 (c : Dev nD) : (dat15 (en15 m) c).arrAt (9 : Fin 10) cfg15.N = ex15 m c (Pipeline.arrRef spec15 (9 : Fin 10)) := by
  show _ = Ex15 m c main_v299
  exact (Ex15_out9 m c).symm
/-- At region 15's exit each of its arrays holds what the pipeline leaves: an input as entered, an output as above. -/
theorem hF15 (c : Dev nD) : ∀ w : Fin 10, (dat15 (en15 m) c).arrAt w cfg15.N = ex15 m c (Pipeline.arrRef spec15 w) :=
  forall_fin10 (hF15_0 m c) (hF15_1 m c) (hF15_2 m c) (hF15_3 m c) (hF15_4 m c) (hF15_5 m c) (hF15_6 m c) (hF15_7 m c) (hF15_8 m c) (hF15_9 m c)
/-- Every buffer that is none of region 15's arrays is at its exit what it was at its entry. -/
theorem hrest15 (c : Dev nD) : ∀ b, b ∉ Finset.univ.image (Pipeline.arrRef spec15) → ex15 m c b = en15 m c b := by
  intro b hb
  refine V32_of m (outs m) c b fun hmem => hb ?_
  rcases List.mem_singleton.mp hmem with rfl
  exact Finset.mem_image.mpr ⟨(9 : Fin 10), Finset.mem_univ _, rfl⟩

/-! ## The region as a segment -/

-- the library's lemmas are stated over the pinned configuration, which meets the printed one only when unification may
-- unfold plain definitions inside a metavariable's type
set_option backward.isDefEq.respectTransparency.types false in
/-- REGION 15 (custom_call 15) over the thread state. Entered from every unscoped buffer at the entry contents beside the
    generator register and the empty dues; left at the exit contents beside the same. At the entry the region's arrays are
    split out of the unscoped buffers and the rest bypasses the pipeline; the register rides in the pipeline's invariant;
    at the exit the arrays, each at what the write-backs fold to, are put back beside the bypassing rest. The kernel has
    no semaphore of its own and owes nothing. -/
noncomputable def reg15 : Pipeline.RegionSeg (pcfgs (F := F)) adm (pdats m) () defs₀ Variants.none L lv (15 : Fin 16) where
  win := launch15.win.to₀
  block_pos := launch15.block_pos
  stage_whole := launch15.stage_whole
  K := PEmpty
  osem k := k.elim
  ho := Pipeline.OwnSemFacts.none _
  hbody c := (body_obligation15 (en15 m) c).loose
  hwaits := Pipeline.hwaits_of_owed_zero _ _ _ _ L lv (15 : Fin 16) fun _ _ => rfl
  pre c := iprop(StableHlo.held (c : Thread nD τ) (Pipeline.ucRefs τ sig) (En15 m c) ∗ R c)
  post c := iprop(StableHlo.held (c : Thread nD τ) (Pipeline.ucRefs τ sig) (Ex15 m c) ∗ R c)
  X c := iprop(∃ r, prngReg c r)
  Y c := iprop(∃ r, prngReg c r)
  Z c := Pipeline.unscopedRest (Ix := Unit) (Name := ℕ) (U := UR sig nD τ) (Lvl := ℕ) spec15 c (en15 m c)
  hentry c := by
    rw [Pipeline.ownSems0_none]
    -- the unscoped buffers at the entry contents: the region's arrays, and the rest
    have hsplit := Pipeline.arrays_of_unscopedBufs (p := (15 : Fin 16)) (pcfgs (F := F)) adm (pdats m) launch15.win launch15.arr_whole c
      ((pdats m (15 : Fin 16) c).share_full fun _ => rfl) (en15 m c) fun w => A_eq15 (en15 m) c w
    rw [Pipeline.unscopedBufs_held] at hsplit
    iintro ⟨⟨Hbufs, Hreg, Hdue⟩, -, -⟩
    ihave Hs := hsplit $$ Hbufs
    icases Hs with ⟨Harr, Hrest⟩
    imodintro
    isplitl [Harr]; · iexact Harr
    -- no prefetched table
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hreg]; · iexact Hreg
    iexact Hrest
  hin c := by
    rw [show (pdats m (15 : Fin 16) c).Φ 0 = Pipeline.ΦA spec15 c from rfl]; unfold Pipeline.ΦA
    iintro ⟨Hreg, -, Hsc⟩
    isplitl [Hsc]; · iexact Hsc
    iexact Hreg
  hout c := by
    rw [Pipeline.ownSems0_none, show (pdats m (15 : Fin 16) c).Φ (Fin.last _) = Pipeline.ΦA spec15 c from rfl]; unfold Pipeline.ΦA
    iintro ⟨Hsc, Hreg⟩
    isplitl [Hreg]; · iexact Hreg
    isplitr; · iempintro
    iexact Hsc
  hexit c := by
    -- the arrays at what the write-backs fold to and the bypassing rest: the unscoped buffers at the exit contents
    have hjoin := Pipeline.unscopedBufs_of_arrays (p := (15 : Fin 16)) (pcfgs (F := F)) adm (Ix := Unit) (Name := ℕ) (U := UR sig nD τ) (Lvl := ℕ)
      launch15.win launch15.arr_whole c (pdats m) ((pdats m (15 : Fin 16) c).share_full fun _ => rfl)
      (en15 m c) (ex15 m c) ((pdats m (15 : Fin 16) c).arrAt · cfg15.N) (hF15 m c) (hrest15 m c)
    rw [Pipeline.unscopedBufs_held] at hjoin
    iintro ⟨Harr, Hdue, Hreg, Hrest⟩
    imodintro
    isplitl [Harr Hrest]
    · iapply hjoin; isplitl [Harr] <;> iassumption
    isplitl [Hreg]; · iexact Hreg
    unfold Pipeline.Dat.owesAt Pipeline.owesWithin
    icases Hdue with ⟨%W, -, Hdue⟩; iexists W; iexact Hdue

end Cert.KernelIdeal.Hand

end
-- ==== Proof.KI.Run.lean ====
/-
  The run of @main: the conditional run over the sixteen regions' segment records, at the contents the regions leave. Every
  weakly fair execution from memory m with zero counters terminates; at the end the result buffer holds what the last region
  leaves in it and every argument array holds its launch contents.
-/
import proofs.«152161_j29669634081217_2_alg».proof.Proof.KI.RunCond
import proofs.«152161_j29669634081217_2_alg».proof.Proof.KI.Seg0
import proofs.«152161_j29669634081217_2_alg».proof.Proof.KI.Seg1
import proofs.«152161_j29669634081217_2_alg».proof.Proof.KI.Seg2
import proofs.«152161_j29669634081217_2_alg».proof.Proof.KI.Seg3
import proofs.«152161_j29669634081217_2_alg».proof.Proof.KI.Seg4
import proofs.«152161_j29669634081217_2_alg».proof.Proof.KI.Seg5
import proofs.«152161_j29669634081217_2_alg».proof.Proof.KI.Seg6
import proofs.«152161_j29669634081217_2_alg».proof.Proof.KI.Seg7
import proofs.«152161_j29669634081217_2_alg».proof.Proof.KI.Seg8
import proofs.«152161_j29669634081217_2_alg».proof.Proof.KI.Seg9
import proofs.«152161_j29669634081217_2_alg».proof.Proof.KI.Seg10
import proofs.«152161_j29669634081217_2_alg».proof.Proof.KI.Seg11
import proofs.«152161_j29669634081217_2_alg».proof.Proof.KI.Seg12
import proofs.«152161_j29669634081217_2_alg».proof.Proof.KI.Seg13
import proofs.«152161_j29669634081217_2_alg».proof.Proof.KI.Seg14
import proofs.«152161_j29669634081217_2_alg».proof.Proof.KI.Seg15

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch's side conditions -/

/-- The launch element: the pipeline library's, at every pipeline's staging cells. -/
noncomputable abbrev u₀ : UR sig nD τ := initOf (Pipeline.cells cfgs cellOf_inj) (Pipeline.launchToks cfgs cellOf_inj)

/-- The launch element yields the library's element and no further ghost resource on any core. -/
theorem hu₀ : (ownU u₀ : sProp 𝕄)
    ⊢ |={Set.univ}=> iprop(BI.own ((emb₁ : Emb _ 𝕄) (initOf (Pipeline.cells cfgs cellOf_inj) (Pipeline.launchToks cfgs cellOf_inj)))
        ∗ bigSep Finset.univ fun _ : Dev nD => (BI.emp : sProp 𝕄)) := by
  iintro Hu; imodintro
  isplitl [Hu]
  · iapply (show (ownU u₀ : sProp 𝕄) ⊢ BI.own (emb₁ u₀) from .rfl)
    iexact Hu
  iapply (show (BI.emp : sProp 𝕄) ⊢ bigSep Finset.univ (fun _ : Dev nD => (BI.emp : sProp 𝕄)) from by rw [BI.bigSep_emp_const])
  iempintro

/-- What the launch deals each core beside its buffers makes the state that rides along: the generator register as
    launched, the dues at nothing. -/
theorem hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  refine Pipeline.initEach L lv fun c => ?_
  iintro ⟨⟨-, Hdue, -, Hreg, -⟩, -⟩
  imodintro
  isplitl [Hreg]; · iexists _; iexact Hreg
  iexists ∅; iexact Hdue

/-- The state that rides along ends with nothing owed. -/
theorem hE16 (c : Dev nD) : R (F := F) c ⊢ (iprop(∃ W, owes (c : Thread nD τ) (0 : CellTallies nD τ sig Unit) W) : sProp 𝕄) := by
  iintro ⟨-, Hdue⟩; iexact Hdue

/-! ## The run -/

set_option backward.isDefEq.respectTransparency.types false in
/-- THE RUN: at the end the result buffer holds what region 15 leaves in it, and every argument its launch contents. -/
theorem run_main : θ_run defs (onTc (τ := τ) (main (F := F))) ⟨m, fun _ => 0, ρ⟩ (fun r => ∀ c : Dev nD,
      r.2.mem ((c.tc : Thread nD τ).loc main_v299) = V32 m (outs m) c main_v299
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  run_cond m (EP := emb₁) (ι := ()) (𝒱₀ := Variants.none) (L := L) (lv := lv) (hL := fun _ _ => rfl) (ρ := ρ) (outs := outs m)
    (pdats := pdats m) (O₀ := 0) (G := fun _ => iprop(emp)) (u₀ := u₀) (hu₀ := hu₀) (E := fun _ c => R c) (hE0 := hE0 ρ) (hE16 := hE16)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)
    (R3 := reg3 m) (hpre3 := fun _ => .rfl) (hpost3 := fun _ => .rfl)
    (R4 := reg4 m) (hpre4 := fun _ => .rfl) (hpost4 := fun _ => .rfl)
    (R5 := reg5 m) (hpre5 := fun _ => .rfl) (hpost5 := fun _ => .rfl)
    (R6 := reg6 m) (hpre6 := fun _ => .rfl) (hpost6 := fun _ => .rfl)
    (R7 := reg7 m) (hpre7 := fun _ => .rfl) (hpost7 := fun _ => .rfl)
    (R8 := reg8 m) (hpre8 := fun _ => .rfl) (hpost8 := fun _ => .rfl)
    (R9 := reg9 m) (hpre9 := fun _ => .rfl) (hpost9 := fun _ => .rfl)
    (R10 := reg10 m) (hpre10 := fun _ => .rfl) (hpost10 := fun _ => .rfl)
    (R11 := reg11 m) (hpre11 := fun _ => .rfl) (hpost11 := fun _ => .rfl)
    (R12 := reg12 m) (hpre12 := fun _ => .rfl) (hpost12 := fun _ => .rfl)
    (R13 := reg13 m) (hpre13 := fun _ => .rfl) (hpost13 := fun _ => .rfl)
    (R14 := reg14 m) (hpre14 := fun _ => .rfl) (hpost14 := fun _ => .rfl)
    (R15 := reg15 m) (hpre15 := fun _ => .rfl) (hpost15 := fun _ => .rfl)

set_option backward.isDefEq.respectTransparency.types false in
/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  frame_cond m (EP := emb₁) (ι := ()) (𝒱₀ := Variants.none) (L := L) (lv := lv) (hL := fun _ _ => rfl) (ρ := ρ) (outs := outs m)
    (pdats := pdats m) (O₀ := 0) (G := fun _ => iprop(emp)) (u₀ := u₀) (hu₀ := hu₀) (E := fun _ c => R c) (hE0 := hE0 ρ) (hE16 := hE16)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)
    (R3 := reg3 m) (hpre3 := fun _ => .rfl) (hpost3 := fun _ => .rfl)
    (R4 := reg4 m) (hpre4 := fun _ => .rfl) (hpost4 := fun _ => .rfl)
    (R5 := reg5 m) (hpre5 := fun _ => .rfl) (hpost5 := fun _ => .rfl)
    (R6 := reg6 m) (hpre6 := fun _ => .rfl) (hpost6 := fun _ => .rfl)
    (R7 := reg7 m) (hpre7 := fun _ => .rfl) (hpost7 := fun _ => .rfl)
    (R8 := reg8 m) (hpre8 := fun _ => .rfl) (hpost8 := fun _ => .rfl)
    (R9 := reg9 m) (hpre9 := fun _ => .rfl) (hpost9 := fun _ => .rfl)
    (R10 := reg10 m) (hpre10 := fun _ => .rfl) (hpost10 := fun _ => .rfl)
    (R11 := reg11 m) (hpre11 := fun _ => .rfl) (hpost11 := fun _ => .rfl)
    (R12 := reg12 m) (hpre12 := fun _ => .rfl) (hpost12 := fun _ => .rfl)
    (R13 := reg13 m) (hpre13 := fun _ => .rfl) (hpost13 := fun _ => .rfl)
    (R14 := reg14 m) (hpre14 := fun _ => .rfl) (hpost14 := fun _ => .rfl)
    (R15 := reg15 m) (hpre15 := fun _ => .rfl) (hpost15 := fun _ => .rfl)

end Cert.KernelIdeal.Hand

end
-- ==== Proof.K.Reg0.lean ====
/-
  Region 0 of the kernel program: the node encoder on a grid of 5 points, each handling a block of 4000 nodes.
  At a point the body reads its block of the six node features and the two layers' weights and biases whole, and stores
  the block's 4000 x 128 encoded rows through one rectangle that is the whole staging buffer. Stated here at the
  contents `V` the region is entered with: each window's block as the region finds it, what the body leaves in the
  result's staging buffer as a function of the input blocks, the body's triple, and the pipeline's proof data with its
  body obligation at every point.
-/
import proofs.«152161_j29669634081217_2_alg».proof.Proof.Gen.Kernel.Launch
import proofs.«152161_j29669634081217_2_alg».proof.Proof.Gen.Kernel.Skeleton
import proofs.«152161_j29669634081217_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, fetched there or not: where it is not fetched
    its block index has not moved, and the body leaves the block in place. One statement per input window. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its staging buffer -/

noncomputable abbrev r0_0 : Rect S4000x6 := Rect.unit (s := S4000x6) ![0, 0] S4000x6.size inb_S4000x6_S4000x6_0_0
noncomputable abbrev r0_1 : Rect S6x128 := Rect.unit (s := S6x128) ![0, 0] S6x128.size inb_S6x128_S6x128_0_0
noncomputable abbrev r0_2 : Rect S1x128 := Rect.unit (s := S1x128) ![0, 0] S1x128.size inb_S1x128_S1x128_0_0
noncomputable abbrev r0_3 : Rect S128x128 := Rect.unit (s := S128x128) ![0, 0] S128x128.size inb_S128x128_S128x128_0_0
noncomputable abbrev r0_5 : Rect S4000x128 := Rect.unit (s := S4000x128) ![0, 0] S4000x128.size inb_S4000x128_S4000x128_0_0

/-- The result's staging buffer after the body: its one store, the encoded rows of the block's features. -/
noncomputable def out0_5 (x0 : Vec F S4000x6 .f32) (x1 : Vec F S6x128 .f32) (x2 : Vec F S1x128 .f32) (x3 : Vec F S128x128 .f32) (x4 : Vec F S1x128 .f32) :
    Vec F S4000x128 .f32 :=
  View.canon [⟨r0_5, k0_pay1 (View.ld x0 r0_0) (View.ld x1 r0_1) (View.ld x2 r0_2) (View.ld x3 r0_3) (View.ld x4 r0_2)⟩]

/-- The one store covers the buffer. -/
theorem cover0_5 (p0 : Vec F S4000x128 .f32) (y : S4000x128.Idx) :
    ∃ pc ∈ ([⟨r0_5, p0⟩] : List (View.Piece (Elt F) S4000x128 .f32)), y ∈ pc.1.set :=
  View.cover_of_tiled [⟨r0_5, p0⟩] S4000x128.size (by rfl) y

set_option maxHeartbeats 1000000 in
/-- The body on whole staging memrefs — the inputs' at read contents, the result's at anything — runs to the continuation
    with the inputs' as they were and the result's at `out0_5` of the inputs'. -/
theorem sound_kernel0 (c : Dev nD) (E : Set ℕ) (i : grid0.Coords)
    (arg1 : Memref sig .tc .vmem S4000x6 .f32) (harg1 : arg1.IsWhole) (arg2 : Memref sig .tc .vmem S6x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S4000x128 .f32) (harg6 : arg6.IsWhole)
    (x0 : Vec F S4000x6 .f32) (x1 : Vec F S6x128 .f32) (x2 : Vec F S1x128 .f32) (x3 : Vec F S128x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__node_encoder_kernel i arg1 harg1 arg2 harg2 arg3 harg3 arg4 harg4 arg5 harg5 arg6 harg6) K := by
  simp only [cc0__node_encoder_kernel_eq_skeleton]; unfold cc0__node_encoder_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The arrays as the region finds them; after the body at point `t` each input's buffer at its block and the
    result's at `out0_5` of the input blocks; the invariant passes the scoped rest and the generator register through
    untouched; nothing owed; full shares. -/
noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t =
    out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

noncomputable def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

noncomputable def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/-
  Region 1 of the network's main function: the edge encoder, a two-layer perceptron applied to every edge's
  attribute row. Its pipeline runs over 20 points; at each point it holds one block of 8000 attribute rows, the two
  weight matrices and the two bias rows, and writes back one block of 8000 result rows.

  This file is the frame half, for any float instance: what each window's buffer holds at a point, what the body
  leaves in the result window's buffer as a function of the input blocks, and the body's triple at every point.
-/
import proofs.«152161_j29669634081217_2_alg».proof.Proof.Gen.Kernel.Launch
import proofs.«152161_j29669634081217_2_alg».proof.Proof.Gen.Kernel.Skeleton
import proofs.«152161_j29669634081217_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window w's block at point t, read off its array as the region finds it. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's buffer holds the window's block at every point, whether the block was fetched at that point or
    at an earlier one: the body never writes an input's buffer, and between two fetches the block index stands still.
    This holds for the attribute rows (a new block at every point) and for the weights and biases (one block, fetched
    once) alike. Stated for any proof data whose array is the entry contents and whose body leaves the block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take the whole of their buffer -/

noncomputable abbrev rX1 : Rect S8000x10 := Rect.unit (s := S8000x10) ![0, 0] S8000x10.size inb_S8000x10_S8000x10_0_0
noncomputable abbrev rWa1 : Rect S10x128 := Rect.unit (s := S10x128) ![0, 0] S10x128.size inb_S10x128_S10x128_0_0
noncomputable abbrev rB1 : Rect S1x128 := Rect.unit (s := S1x128) ![0, 0] S1x128.size inb_S1x128_S1x128_0_0
noncomputable abbrev rWb1 : Rect S128x128 := Rect.unit (s := S128x128) ![0, 0] S128x128.size inb_S128x128_S128x128_0_0
noncomputable abbrev rY1 : Rect S8000x128 := Rect.unit (s := S8000x128) ![0, 0] S8000x128.size inb_S8000x128_S8000x128_0_0

/-! ## What the body leaves in the result window's buffer -/

/-- The result buffer after the body, from the five input blocks: the one store's payload laid over the whole buffer. -/
noncomputable def out1_5 (x0 : Vec F S8000x10 .f32) (x1 : Vec F S10x128 .f32) (x2 : Vec F S1x128 .f32) (x3 : Vec F S128x128 .f32)
    (x4 : Vec F S1x128 .f32) : Vec F S8000x128 .bf16 :=
  View.canon [⟨rY1, k1_pay1 (View.ld x0 rX1) (View.ld x1 rWa1) (View.ld x2 rB1) (View.ld x3 rWb1) (View.ld x4 rB1)⟩]

/-- The one store's rectangle is the whole buffer, so it covers every index. -/
theorem cover1_5 (p0 : Vec F S8000x128 .bf16) (y : S8000x128.Idx) :
    ∃ pc ∈ ([⟨rY1, p0⟩] : List (View.Piece (Elt F) S8000x128 .bf16)), y ∈ pc.1.set :=
  View.cover_of_tiled [⟨rY1, p0⟩] S8000x128.size (by rfl) y

/-! ## The body's triple -/

set_option maxHeartbeats 1000000 in
/-- The body on whole staging buffers, the inputs' at contents x0 … x4 and the result's at anything, runs to a state
    that holds the inputs' as they were and the result's at out1_5 of the inputs. The read of the result buffer that
    precedes the store is dead: the store overwrites every index. -/
theorem sound_kernel1 (c : Dev nD) (E : Set ℕ) (i : grid1.Coords)
    (arg1 : Memref sig .tc .vmem S8000x10 .f32) (harg1 : arg1.IsWhole) (arg2 : Memref sig .tc .vmem S10x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S8000x128 .bf16) (harg6 : arg6.IsWhole)
    (x0 : Vec F S8000x10 .f32) (x1 : Vec F S10x128 .f32) (x2 : Vec F S1x128 .f32) (x3 : Vec F S128x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__edge_encoder_kernel i arg1 harg1 arg2 harg2 arg3 harg3 arg4 harg4 arg5 harg5 arg6 harg6) K := by
  simp only [cc1__edge_encoder_kernel_eq_skeleton]; unfold cc1__edge_encoder_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the region's pipeline on core c: the arrays as the region finds them; after the body at point
    t each input's buffer at its block and the result's at out1_5 of the input blocks; the scoped rest and the
    generator register untouched; nothing owed; full shares. -/
noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point t, the windows one by one, -/
noncomputable def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
noncomputable def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/-
  Region 2 of the kernel program: the pipeline that computes, from the node features h, the two projections
  a = h Ws and b = h Wd, in blocks of 4000 rows over a grid of 5 points. The frame half, at any float instance:
  what each window's staging buffer holds when the body is entered, what the body leaves in the two result
  buffers as a function of the three input blocks, and the body obligation of the pipeline's proof data.
-/
import proofs.«152161_j29669634081217_2_alg».proof.Proof.Gen.Kernel.Launch
import proofs.«152161_j29669634081217_2_alg».proof.Proof.Gen.Kernel.Skeleton
import proofs.«152161_j29669634081217_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered
variable (V : (c : Dev nD) → (b : Ref sig .tc) → Buf (Elt F) ((c : Thread nD τ).loc b))

/-! ## The blocks of the five windows -/

/-- The block of window `w` at grid point `t`, read off the window's array as the region finds it. -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The feature window (fetched at every point) holds its block of 4000 rows when the body is entered, for any
    proof data over the entry arrays whose body leaves that block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The first weight window is fetched at the first point only; its block index never moves, so at every point the
    buffer still holds the whole matrix. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The second weight window likewise. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each buffer whole -/

noncomputable abbrev rRows2 : Rect S4000x128 := Rect.unit (s := S4000x128) ![0, 0] S4000x128.size inb_S4000x128_S4000x128_0_0
noncomputable abbrev rMat2 : Rect S128x128 := Rect.unit (s := S128x128) ![0, 0] S128x128.size inb_S128x128_S128x128_0_0

/-! ## What the body leaves in the two result buffers -/

/-- The buffer of the projection a after the body: one store of the whole block, the product of the feature
    block with the first weight matrix. -/
noncomputable def out2_3 (x0 : Vec F S4000x128 .f32) (x1 : Vec F S128x128 .f32) : Vec F S4000x128 .bf16 :=
  View.canon [⟨rRows2, k2_pay2 (View.ld x0 rRows2) (View.ld x1 rMat2)⟩]

/-- The buffer of the projection b after the body: the product with the second weight matrix. -/
noncomputable def out2_4 (x0 : Vec F S4000x128 .f32) (x2 : Vec F S128x128 .f32) : Vec F S4000x128 .bf16 :=
  View.canon [⟨rRows2, k2_pay3 (View.ld x0 rRows2) (View.ld x2 rMat2)⟩]

/-- One whole-block store covers the buffer. -/
theorem cover2 (p0 : Vec F S4000x128 .bf16) (y : S4000x128.Idx) :
    ∃ pc ∈ ([⟨rRows2, p0⟩] : List (View.Piece (Elt F) S4000x128 .bf16)), y ∈ pc.1.set :=
  View.cover_of_tiled [⟨rRows2, p0⟩] S4000x128.size (by rfl) y

/-! ## The body's triple -/

set_option maxHeartbeats 1000000 in
/-- The body on whole staging buffers: the three inputs at contents `x0 x1 x2`, the two results at anything (each is
    read once before its store, a value nothing uses). It returns with the inputs as they were and the results at
    `out2_3 x0 x1` and `out2_4 x0 x2`. -/
theorem sound_kernel2 (c : Dev nD) (E : Set ℕ) (i : grid2.Coords)
    (arg1 : Memref sig .tc .vmem S4000x128 .f32) (harg1 : arg1.IsWhole)
    (arg2 : Memref sig .tc .vmem S128x128 .f32) (harg2 : arg2.IsWhole)
    (arg3 : Memref sig .tc .vmem S128x128 .f32) (harg3 : arg3.IsWhole)
    (arg4 : Memref sig .tc .vmem S4000x128 .bf16) (harg4 : arg4.IsWhole)
    (arg5 : Memref sig .tc .vmem S4000x128 .bf16) (harg5 : arg5.IsWhole)
    (x0 : Vec F S4000x128 .f32) (x1 : Vec F S128x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1) ∗ owns (c : Thread nD τ) arg5 fullShare (out2_4 x0 x2)) -∗ K ⟨⟩))
      ⊢ wp frame (wpE (defs₀ (F := F)) Variants.none c none) E (cc2__ab_kernel i arg1 harg1 arg2 harg2 arg3 harg3 arg4 harg4 arg5 harg5) K := by
  simp only [cc2__ab_kernel_eq_skeleton]; unfold cc2__ab_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover2 _)
  iexists _; isplitr
  swap; · iexact H4
  ipureintro
  exact View.read_writes_eq_canon _ _ _ (cover2 _)

/-! ## The proof data of the pipeline -/

/-- The proof data of region 2 on core `c`: the arrays as the region finds them; after the body at point `t` each input
    buffer at its block and each result buffer at the product of the feature block with its weight matrix; the
    invariant that leaves the rest of the core untouched; full shares, nothing owed. -/
noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t)
    | ⟨4, _⟩ => out2_4 (iblk2 V c 0 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) := by dsimp only [dat2]
theorem after2_4 (c : Dev nD) (t : Fin cfg2.N) : (dat2 V c).after 4 t = out2_4 (iblk2 V c 0 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation at a generic point -/

/-- What the body is entered with at point `t`, window by window, -/
noncomputable def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
noncomputable def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the three input buffers hold their blocks, so the body's triple applies; the invariant
    and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
/-
  Region 3 of @main, the frame half: the edge-message kernel of a message-passing layer on its grid of 20 points.
  At a parameter V (the TensorCore's buffer contents when the region is entered) this file gives each window's block
  at a point, the contents of the result's staging buffer after the body (its one whole-block store of the payload of
  the seven loaded blocks), the body's triple on whole staging buffers, the pipeline's proof data and the body
  obligation at every point. Generic in the float instance.
-/
import proofs.«152161_j29669634081217_2_alg».proof.Proof.Gen.Kernel.Launch
import proofs.«152161_j29669634081217_2_alg».proof.Proof.Gen.Kernel.Skeleton
import proofs.«152161_j29669634081217_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 8000 rows: the structural look recurses once per coordinate of the long axis
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's current staging buffer holds its block at every point, fetched there or not (the three edge
    arrays are fetched at every point, the four weight arrays at the first only: where a window is not fetched its
    block index has not moved), for any proof data whose array is V's and whose body leaves the block in place. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store take a whole staging buffer -/

noncomputable abbrev r3_0 : Rect S8000x128 := Rect.unit (s := S8000x128) ![0, 0] S8000x128.size inb_S8000x128_S8000x128_0_0
noncomputable abbrev r3_1 : Rect S128x128 := Rect.unit (s := S128x128) ![0, 0] S128x128.size inb_S128x128_S128x128_0_0
noncomputable abbrev r3_2 : Rect S1x128 := Rect.unit (s := S1x128) ![0, 0] S1x128.size inb_S1x128_S1x128_0_0

/-! ## What the body leaves in the result window's buffer -/

/-- Window 7's staging buffer after the body, from the seven input windows' blocks (in window order: the edge
    features, the two gathered node terms, the first weight and bias, the second weight and bias): its one store. -/
noncomputable def out3_7 (x0 x1 x2 : Vec F S8000x128 .bf16) (x3 : Vec F S128x128 .f32) (x4 : Vec F S1x128 .f32)
    (x5 : Vec F S128x128 .f32) (x6 : Vec F S1x128 .f32) : Vec F S8000x128 .f32 :=
  View.canon [⟨r3_0, k3_pay1 (View.ld x0 r3_0) (View.ld x3 r3_1) (View.ld x1 r3_0) (View.ld x2 r3_0) (View.ld x4 r3_2)
    (View.ld x5 r3_1) (View.ld x6 r3_2)⟩]

/-- The store takes the whole buffer, so it covers it. -/
theorem cover3_7 (p0 : Vec F S8000x128 .f32) (y : S8000x128.Idx) :
    ∃ pc ∈ ([⟨r3_0, p0⟩] : List (View.Piece (Elt F) S8000x128 .f32)), y ∈ pc.1.set :=
  View.cover_of_tiled [⟨r3_0, p0⟩] S8000x128.size (by rfl) y

/-! ## The body's triple -/

set_option maxHeartbeats 4000000 in
/-- The kernel body on whole staging memrefs, the inputs' at read contents and the result's at anything, runs to the
    continuation holding the inputs' as they were and the result's at out3_7 of the inputs': the printed function is
    its skeleton, eight loads (the last one, of the result buffer, is never used) and one store. -/
theorem sound_kernel3 (c : Dev nD) (E : Set ℕ) (i : grid3.Coords)
    (arg1 : Memref sig .tc .vmem S8000x128 .bf16) (harg1 : arg1.IsWhole) (arg2 : Memref sig .tc .vmem S8000x128 .bf16) (harg2 : arg2.IsWhole)
    (arg3 : Memref sig .tc .vmem S8000x128 .bf16) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S8000x128 .f32) (harg8 : arg8.IsWhole)
    (x0 x1 x2 : Vec F S8000x128 .bf16) (x3 : Vec F S128x128 .f32) (x4 : Vec F S1x128 .f32)
    (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out3_7 x0 x1 x2 x3 x4 x5 x6)) -∗ K ⟨⟩))
      ⊢ wp frame (wpE (defs₀ (F := F)) Variants.none c none) E
          (cc3__edge_message_kernel i arg1 harg1 arg2 harg2 arg3 harg3 arg4 harg4 arg5 harg5 arg6 harg6 arg7 harg7 arg8 harg8) K := by
  simp only [cc3__edge_message_kernel_eq_skeleton]; unfold cc3__edge_message_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-! ## The pipeline's proof data -/

/-- The proof data of pipeline 3 on core c: the arrays as the region finds them; after the body at point t each
    input's buffer at its block and the result's at out3_7 of the input blocks; the invariant is the scoped rest and
    the generator register, untouched; nothing owed; full shares. -/
noncomputable def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t =
    out3_7 (iblk3 V c 0 t) (iblk3 V c 1 t) (iblk3 V c 2 t) (iblk3 V c 3 t) (iblk3 V c 4 t) (iblk3 V c 5 t) (iblk3 V c 6 t) := by
  dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point t, the windows one by one, -/
noncomputable def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
noncomputable def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

set_option maxHeartbeats 1000000 in
/-- The body at any point: the inputs' memrefs hold their blocks, so the triple applies; the invariant and the core's
    debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t)
    (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Reg4.lean ====
/-
  Region 4 of @main, the node-update kernel of the first message-passing layer, at an arbitrary content V of the
  TensorCore's buffers when the region is entered, for any float instance.

  The kernel reads nine windows (the node features and the aggregated messages in blocks of 4000 rows, then seven
  weight arrays each fetched whole once) and writes three (the new features, and their two projections for the next
  layer), each result block through one store that fills it.  This file states what each staging buffer holds after
  the body ran at a grid point, proves the body's separation-logic triple by running its memory operations, and
  packages both as the pipeline's body obligation.
-/
import proofs.«152161_j29669634081217_2_alg».proof.Proof.Gen.Kernel.Launch
import proofs.«152161_j29669634081217_2_alg».proof.Proof.Gen.Kernel.Skeleton
import proofs.«152161_j29669634081217_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows show -/

/-- The block of window w at grid point t, cut out of the window's array as the region finds it. -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The three rectangles the body touches: every access is of a whole staging buffer -/

/-- All of a 4000 × 128 buffer (a block of rows, and each result block). -/
noncomputable abbrev rowsAll4 : Rect S4000x128 := Rect.unit (s := S4000x128) ![0, 0] S4000x128.size inb_S4000x128_S4000x128_0_0
/-- All of a 128 × 128 buffer (a weight matrix). -/
noncomputable abbrev matAll4 : Rect S128x128 := Rect.unit (s := S128x128) ![0, 0] S128x128.size inb_S128x128_S128x128_0_0
/-- All of a 1 × 128 buffer (a bias). -/
noncomputable abbrev biasAll4 : Rect S1x128 := Rect.unit (s := S1x128) ![0, 0] S1x128.size inb_S1x128_S1x128_0_0

/-! ## What the body leaves in the three result buffers -/

/-- The new features, in single precision: the residual update of the features block \`h\` by the messages block
    \`g\`, through the five weight arrays of the update. -/
noncomputable def out4_9 (h g : Vec F S4000x128 .f32) (wh wa : Vec F S128x128 .f32) (b1 : Vec F S1x128 .f32)
    (w2 : Vec F S128x128 .f32) (b2 : Vec F S1x128 .f32) : Vec F S4000x128 .f32 :=
  View.canon [⟨rowsAll4, k4_pay3 (View.ld h rowsAll4) (View.ld wh matAll4) (View.ld g rowsAll4) (View.ld wa matAll4)
    (View.ld b1 biasAll4) (View.ld w2 matAll4) (View.ld b2 biasAll4)⟩]

/-- The new features' projection by the next layer's source-side matrix \`ws\`, in half precision. -/
noncomputable def out4_10 (h g : Vec F S4000x128 .f32) (wh wa : Vec F S128x128 .f32) (b1 : Vec F S1x128 .f32)
    (w2 : Vec F S128x128 .f32) (b2 : Vec F S1x128 .f32) (ws : Vec F S128x128 .f32) : Vec F S4000x128 .bf16 :=
  View.canon [⟨rowsAll4, k4_pay1 (k4_pay4 (View.ld h rowsAll4) (View.ld wh matAll4) (View.ld g rowsAll4) (View.ld wa matAll4)
    (View.ld b1 biasAll4) (View.ld w2 matAll4) (View.ld b2 biasAll4)) (k4_pay5 (View.ld ws matAll4))⟩]

/-- The new features' projection by the next layer's destination-side matrix \`wd\`, in half precision. -/
noncomputable def out4_11 (h g : Vec F S4000x128 .f32) (wh wa : Vec F S128x128 .f32) (b1 : Vec F S1x128 .f32)
    (w2 : Vec F S128x128 .f32) (b2 : Vec F S1x128 .f32) (wd : Vec F S128x128 .f32) : Vec F S4000x128 .bf16 :=
  View.canon [⟨rowsAll4, k4_pay2 (k4_pay4 (View.ld h rowsAll4) (View.ld wh matAll4) (View.ld g rowsAll4) (View.ld wa matAll4)
    (View.ld b1 biasAll4) (View.ld w2 matAll4) (View.ld b2 biasAll4)) (View.ld wd matAll4)⟩]

/-- One store through the whole-buffer rectangle covers the buffer: single precision. -/
theorem fills4_f32 (p : Vec F S4000x128 .f32) (y : S4000x128.Idx) :
    ∃ pc ∈ ([⟨rowsAll4, p⟩] : List (View.Piece (Elt F) S4000x128 .f32)), y ∈ pc.1.set :=
  View.cover_of_tiled [⟨rowsAll4, p⟩] S4000x128.size (by rfl) y

/-- One store through the whole-buffer rectangle covers the buffer: half precision. -/
theorem fills4_bf16 (p : Vec F S4000x128 .bf16) (y : S4000x128.Idx) :
    ∃ pc ∈ ([⟨rowsAll4, p⟩] : List (View.Piece (Elt F) S4000x128 .bf16)), y ∈ pc.1.set :=
  View.cover_of_tiled [⟨rowsAll4, p⟩] S4000x128.size (by rfl) y

/-! ## The body's triple -/

set_option maxHeartbeats 4000000 in
/-- The body on whole staging buffers, the nine inputs' reading \`x0 … x8\` and the three results' holding anything, runs
    to a state where the inputs' are as they were and each result's holds its \`out4_w\` of the inputs: the printed body
    and its printed part are their skeletons of memory operations, which are run one after the other; each result
    buffer ends as one write over its earlier content, and that write fills it. -/
theorem runs4 (c : Dev nD) (E : Set ℕ) (i : grid4.Coords) (a0 : Memref sig .tc .vmem S4000x128 .f32) (ha0 : a0.IsWhole) (a1 : Memref sig .tc .vmem S4000x128 .f32) (ha1 : a1.IsWhole) (a2 : Memref sig .tc .vmem S128x128 .f32) (ha2 : a2.IsWhole) (a3 : Memref sig .tc .vmem S128x128 .f32) (ha3 : a3.IsWhole) (a4 : Memref sig .tc .vmem S1x128 .f32) (ha4 : a4.IsWhole) (a5 : Memref sig .tc .vmem S128x128 .f32) (ha5 : a5.IsWhole) (a6 : Memref sig .tc .vmem S1x128 .f32) (ha6 : a6.IsWhole) (a7 : Memref sig .tc .vmem S128x128 .f32) (ha7 : a7.IsWhole) (a8 : Memref sig .tc .vmem S128x128 .f32) (ha8 : a8.IsWhole) (a9 : Memref sig .tc .vmem S4000x128 .f32) (ha9 : a9.IsWhole) (a10 : Memref sig .tc .vmem S4000x128 .bf16) (ha10 : a10.IsWhole) (a11 : Memref sig .tc .vmem S4000x128 .bf16) (ha11 : a11.IsWhole)
    (x0 : Vec F S4000x128 .f32) (x1 : Vec F S4000x128 .f32) (x2 : Vec F S128x128 .f32) (x3 : Vec F S128x128 .f32) (x4 : Vec F S1x128 .f32) (x5 : Vec F S128x128 .f32) (x6 : Vec F S1x128 .f32) (x7 : Vec F S128x128 .f32) (x8 : Vec F S128x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d) ∗ (∃ d, owns (c : Thread nD τ) a10 fullShare d) ∗ (∃ d, owns (c : Thread nD τ) a11 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare (out4_9 x0 x1 x2 x3 x4 x5 x6) ∗ owns (c : Thread nD τ) a10 fullShare (out4_10 x0 x1 x2 x3 x4 x5 x6 x7) ∗ owns (c : Thread nD τ) a11 fullShare (out4_11 x0 x1 x2 x3 x4 x5 x6 x8)) -∗ K ⟨⟩))
      ⊢ wp frame (wpE (defs₀ (F := F)) Variants.none c none) E (cc4__node_update_ab_kernel i a0 ha0 a1 ha1 a2 ha2 a3 ha3 a4 ha4 a5 ha5 a6 ha6 a7 ha7 a8 ha8 a9 ha9 a10 ha10 a11 ha11) K := by
  simp only [cc4__node_update_ab_kernel_eq_skeleton]; unfold cc4__node_update_ab_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (fills4_f32 _)
  isplitl [H10]
  · iexists _; isplitr
    swap; · iexact H10
    ipureintro
    try dsimp only
    exact View.read_writes_eq_canon _ _ _ (fills4_bf16 _)
  iexists _; isplitr
  swap; · iexact H11
  ipureintro
  try dsimp only
  exact View.read_writes_eq_canon _ _ _ (fills4_bf16 _)

/-! ## The pipeline's proof data -/

/-- The proof data of this region's pipeline on core \`c\`: the arrays as the region finds them; after the body at
    point \`t\` each input's staging buffer still at its block and each result's at its \`out4_w\` of the input blocks;
    the invariant that nothing else is touched; full shares; nothing owed. -/
noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => out4_9 (iblk4 V c 0 t) (iblk4 V c 1 t) (iblk4 V c 2 t) (iblk4 V c 3 t) (iblk4 V c 4 t) (iblk4 V c 5 t) (iblk4 V c 6 t)
    | ⟨10, _⟩ => out4_10 (iblk4 V c 0 t) (iblk4 V c 1 t) (iblk4 V c 2 t) (iblk4 V c 3 t) (iblk4 V c 4 t) (iblk4 V c 5 t) (iblk4 V c 6 t) (iblk4 V c 7 t)
    | ⟨11, _⟩ => out4_11 (iblk4 V c 0 t) (iblk4 V c 1 t) (iblk4 V c 2 t) (iblk4 V c 3 t) (iblk4 V c 4 t) (iblk4 V c 5 t) (iblk4 V c 6 t) (iblk4 V c 8 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-! What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = out4_9 (iblk4 V c 0 t) (iblk4 V c 1 t) (iblk4 V c 2 t) (iblk4 V c 3 t) (iblk4 V c 4 t) (iblk4 V c 5 t) (iblk4 V c 6 t) := by dsimp only [dat4]
theorem after4_10 (c : Dev nD) (t : Fin cfg4.N) : (dat4 V c).after 10 t = out4_10 (iblk4 V c 0 t) (iblk4 V c 1 t) (iblk4 V c 2 t) (iblk4 V c 3 t) (iblk4 V c 4 t) (iblk4 V c 5 t) (iblk4 V c 6 t) (iblk4 V c 7 t) := by dsimp only [dat4]
theorem after4_11 (c : Dev nD) (t : Fin cfg4.N) : (dat4 V c).after 11 t = out4_11 (iblk4 V c 0 t) (iblk4 V c 1 t) (iblk4 V c 2 t) (iblk4 V c 3 t) (iblk4 V c 4 t) (iblk4 V c 5 t) (iblk4 V c 6 t) (iblk4 V c 8 t) := by dsimp only [dat4]

/-! Each input's current staging buffer holds the window's block at every point, whether the block was fetched at
    that point or is still there from the first point (the seven weight windows' block index never moves, so the
    block of the first point is the block of every point). -/
theorem found4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)
theorem found4_1 (c : Dev nD) (t : Fin cfg4.N) (d) : (dat4 V c).before 1 t d = iblk4 V c 1 t :=
  ((dat4 V c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)
theorem found4_2 (c : Dev nD) (t : Fin cfg4.N) (d) : (dat4 V c).before 2 t d = iblk4 V c 2 t :=
  ((dat4 V c).before_in_eq_fetched 2 rfl (fun _ => rfl) (fun _ _ _ => rfl)
    (fun t => by rw [after4_2]; unfold Dat.blockOf iblk4; rw [A_eq4]; try rfl) t d).trans
    (by unfold Dat.fetched Dat.blockOf iblk4; rw [A_eq4]; try rfl)
theorem found4_3 (c : Dev nD) (t : Fin cfg4.N) (d) : (dat4 V c).before 3 t d = iblk4 V c 3 t :=
  ((dat4 V c).before_in_eq_fetched 3 rfl (fun _ => rfl) (fun _ _ _ => rfl)
    (fun t => by rw [after4_3]; unfold Dat.blockOf iblk4; rw [A_eq4]; try rfl) t d).trans
    (by unfold Dat.fetched Dat.blockOf iblk4; rw [A_eq4]; try rfl)
theorem found4_4 (c : Dev nD) (t : Fin cfg4.N) (d) : (dat4 V c).before 4 t d = iblk4 V c 4 t :=
  ((dat4 V c).before_in_eq_fetched 4 rfl (fun _ => rfl) (fun _ _ _ => rfl)
    (fun t => by rw [after4_4]; unfold Dat.blockOf iblk4; rw [A_eq4]; try rfl) t d).trans
    (by unfold Dat.fetched Dat.blockOf iblk4; rw [A_eq4]; try rfl)
theorem found4_5 (c : Dev nD) (t : Fin cfg4.N) (d) : (dat4 V c).before 5 t d = iblk4 V c 5 t :=
  ((dat4 V c).before_in_eq_fetched 5 rfl (fun _ => rfl) (fun _ _ _ => rfl)
    (fun t => by rw [after4_5]; unfold Dat.blockOf iblk4; rw [A_eq4]; try rfl) t d).trans
    (by unfold Dat.fetched Dat.blockOf iblk4; rw [A_eq4]; try rfl)
theorem found4_6 (c : Dev nD) (t : Fin cfg4.N) (d) : (dat4 V c).before 6 t d = iblk4 V c 6 t :=
  ((dat4 V c).before_in_eq_fetched 6 rfl (fun _ => rfl) (fun _ _ _ => rfl)
    (fun t => by rw [after4_6]; unfold Dat.blockOf iblk4; rw [A_eq4]; try rfl) t d).trans
    (by unfold Dat.fetched Dat.blockOf iblk4; rw [A_eq4]; try rfl)
theorem found4_7 (c : Dev nD) (t : Fin cfg4.N) (d) : (dat4 V c).before 7 t d = iblk4 V c 7 t :=
  ((dat4 V c).before_in_eq_fetched 7 rfl (fun _ => rfl) (fun _ _ _ => rfl)
    (fun t => by rw [after4_7]; unfold Dat.blockOf iblk4; rw [A_eq4]; try rfl) t d).trans
    (by unfold Dat.fetched Dat.blockOf iblk4; rw [A_eq4]; try rfl)
theorem found4_8 (c : Dev nD) (t : Fin cfg4.N) (d) : (dat4 V c).before 8 t d = iblk4 V c 8 t :=
  ((dat4 V c).before_in_eq_fetched 8 rfl (fun _ => rfl) (fun _ _ _ => rfl)
    (fun t => by rw [after4_8]; unfold Dat.blockOf iblk4; rw [A_eq4]; try rfl) t d).trans
    (by unfold Dat.fetched Dat.blockOf iblk4; rw [A_eq4]; try rfl)

/-! ## The body obligation -/

/-- What the body is called with at point \`t\`: the invariant, the debts, and the twelve staging buffers. -/
noncomputable def pre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d))
    ∗ (∃ d, owns (c : Thread nD τ) (st4_11 t) fullShare ((dat4 V c).before 11 t d)))

/-- What it returns. -/
noncomputable def post4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t)
    ∗ owns (c : Thread nD τ) (st4_11 t) fullShare ((dat4 V c).after 11 t))

/-- The body at any point: the input buffers hold their blocks, so the body's triple applies; the invariant and the
    debts pass through untouched. -/
theorem steps4 (c : Dev nD) (t : Fin cfg4.N) :
    pre4 V c t ⊢ wp frame (wpE (defs₀ (F := F)) Variants.none c none) Set.univ (bodyAt4 t) (fun _ => post4 V c t) := by
  unfold pre4 post4 bodyAt4
  simp only [found4_0, found4_1, found4_2, found4_3, found4_4, found4_5, found4_6, found4_7, found4_8]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10, after4_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (runs4 c Set.univ _ _ _ _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation4 (c : Dev nD) : BodyObligation (dat4 (F := F) V c) (defs₀ (F := F)) Variants.none () Set.univ := fun t => by
  rw [bigSep_W4, bigSep_W4]
  exact steps4 V c t

end Cert.Kernel.Hand

end
-- ==== Proof.K.Reg5.lean ====
/-
  Region 5 of @main, the frame half: the edge-message kernel of a message-passing layer on its grid of 20 points.
  At a parameter V (the TensorCore's buffer contents when the region is entered) this file gives each window's block
  at a point, the contents of the result's staging buffer after the body (its one whole-block store of the payload of
  the seven loaded blocks), the body's triple on whole staging buffers, the pipeline's proof data and the body
  obligation at every point. Generic in the float instance.
-/
import proofs.«152161_j29669634081217_2_alg».proof.Proof.Gen.Kernel.Launch
import proofs.«152161_j29669634081217_2_alg».proof.Proof.Gen.Kernel.Skeleton
import proofs.«152161_j29669634081217_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 8000 rows: the structural look recurses once per coordinate of the long axis
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! An input window's current staging buffer holds its block at every point, fetched there or not (the three edge
    arrays are fetched at every point, the four weight arrays at the first only: where a window is not fetched its
    block index has not moved), for any proof data whose array is V's and whose body leaves the block in place. -/

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and the one store take a whole staging buffer -/

noncomputable abbrev r5_0 : Rect S8000x128 := Rect.unit (s := S8000x128) ![0, 0] S8000x128.size inb_S8000x128_S8000x128_0_0
noncomputable abbrev r5_1 : Rect S128x128 := Rect.unit (s := S128x128) ![0, 0] S128x128.size inb_S128x128_S128x128_0_0
noncomputable abbrev r5_2 : Rect S1x128 := Rect.unit (s := S1x128) ![0, 0] S1x128.size inb_S1x128_S1x128_0_0

/-! ## What the body leaves in the result window's buffer -/

/-- Window 7's staging buffer after the body, from the seven input windows' blocks (in window order: the edge
    features, the two gathered node terms, the first weight and bias, the second weight and bias): its one store. -/
noncomputable def out5_7 (x0 x1 x2 : Vec F S8000x128 .bf16) (x3 : Vec F S128x128 .f32) (x4 : Vec F S1x128 .f32)
    (x5 : Vec F S128x128 .f32) (x6 : Vec F S1x128 .f32) : Vec F S8000x128 .f32 :=
  View.canon [⟨r5_0, k5_pay1 (View.ld x0 r5_0) (View.ld x3 r5_1) (View.ld x1 r5_0) (View.ld x2 r5_0) (View.ld x4 r5_2)
    (View.ld x5 r5_1) (View.ld x6 r5_2)⟩]

/-- The store takes the whole buffer, so it covers it. -/
theorem cover5_7 (p0 : Vec F S8000x128 .f32) (y : S8000x128.Idx) :
    ∃ pc ∈ ([⟨r5_0, p0⟩] : List (View.Piece (Elt F) S8000x128 .f32)), y ∈ pc.1.set :=
  View.cover_of_tiled [⟨r5_0, p0⟩] S8000x128.size (by rfl) y

/-! ## The body's triple -/

set_option maxHeartbeats 4000000 in
/-- The kernel body on whole staging memrefs, the inputs' at read contents and the result's at anything, runs to the
    continuation holding the inputs' as they were and the result's at out5_7 of the inputs': the printed function is
    its skeleton, eight loads (the last one, of the result buffer, is never used) and one store. -/
theorem sound_kernel5 (c : Dev nD) (E : Set ℕ) (i : grid5.Coords)
    (arg1 : Memref sig .tc .vmem S8000x128 .bf16) (harg1 : arg1.IsWhole) (arg2 : Memref sig .tc .vmem S8000x128 .bf16) (harg2 : arg2.IsWhole)
    (arg3 : Memref sig .tc .vmem S8000x128 .bf16) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S8000x128 .f32) (harg8 : arg8.IsWhole)
    (x0 x1 x2 : Vec F S8000x128 .bf16) (x3 : Vec F S128x128 .f32) (x4 : Vec F S1x128 .f32)
    (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out5_7 x0 x1 x2 x3 x4 x5 x6)) -∗ K ⟨⟩))
      ⊢ wp frame (wpE (defs₀ (F := F)) Variants.none c none) E
          (cc5__edge_message_kernel i arg1 harg1 arg2 harg2 arg3 harg3 arg4 harg4 arg5 harg5 arg6 harg6 arg7 harg7 arg8 harg8) K := by
  simp only [cc5__edge_message_kernel_eq_skeleton]; unfold cc5__edge_message_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover5_7 _)

/-! ## The pipeline's proof data -/

/-- The proof data of pipeline 5 on core c: the arrays as the region finds them; after the body at point t each
    input's buffer at its block and the result's at out5_7 of the input blocks; the invariant is the scoped rest and
    the generator register, untouched; nothing owed; full shares. -/
noncomputable def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t =
    out5_7 (iblk5 V c 0 t) (iblk5 V c 1 t) (iblk5 V c 2 t) (iblk5 V c 3 t) (iblk5 V c 4 t) (iblk5 V c 5 t) (iblk5 V c 6 t) := by
  dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

/-! ## The body obligation, at a generic point -/

/-- What the body is called with at point t, the windows one by one, -/
noncomputable def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

/-- and what it returns. -/
noncomputable def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

set_option maxHeartbeats 1000000 in
/-- The body at any point: the inputs' memrefs hold their blocks, so the triple applies; the invariant and the core's
    debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ _ _ _ _ _ _ _ _ _ _ _ _ _ _ _ _ _ (iblk5 V c 0 t) (iblk5 V c 1 t) (iblk5 V c 2 t) (iblk5 V c 3 t)
    (iblk5 V c 4 t) (iblk5 V c 5 t) (iblk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Reg6.lean ====
/-
  Region 6 of @main, the node-update kernel of the second message-passing layer, at an arbitrary content V of the
  TensorCore's buffers when the region is entered, for any float instance.

  The kernel reads nine windows (the node features and the aggregated messages in blocks of 4000 rows, then seven
  weight arrays each fetched whole once) and writes three (the new features, and their two projections for the next
  layer), each result block through one store that fills it.  This file states what each staging buffer holds after
  the body ran at a grid point, proves the body's separation-logic triple by running its memory operations, and
  packages both as the pipeline's body obligation.
-/
import proofs.«152161_j29669634081217_2_alg».proof.Proof.Gen.Kernel.Launch
import proofs.«152161_j29669634081217_2_alg».proof.Proof.Gen.Kernel.Skeleton
import proofs.«152161_j29669634081217_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows show -/

/-- The block of window w at grid point t, cut out of the window's array as the region finds it. -/
noncomputable def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## The three rectangles the body touches: every access is of a whole staging buffer -/

/-- All of a 4000 × 128 buffer (a block of rows, and each result block). -/
noncomputable abbrev rowsAll6 : Rect S4000x128 := Rect.unit (s := S4000x128) ![0, 0] S4000x128.size inb_S4000x128_S4000x128_0_0
/-- All of a 128 × 128 buffer (a weight matrix). -/
noncomputable abbrev matAll6 : Rect S128x128 := Rect.unit (s := S128x128) ![0, 0] S128x128.size inb_S128x128_S128x128_0_0
/-- All of a 1 × 128 buffer (a bias). -/
noncomputable abbrev biasAll6 : Rect S1x128 := Rect.unit (s := S1x128) ![0, 0] S1x128.size inb_S1x128_S1x128_0_0

/-! ## What the body leaves in the three result buffers -/

/-- The new features, in single precision: the residual update of the features block `h` by the messages block
    `g`, through the five weight arrays of the update. -/
noncomputable def out6_9 (h g : Vec F S4000x128 .f32) (wh wa : Vec F S128x128 .f32) (b1 : Vec F S1x128 .f32)
    (w2 : Vec F S128x128 .f32) (b2 : Vec F S1x128 .f32) : Vec F S4000x128 .f32 :=
  View.canon [⟨rowsAll6, k6_pay3 (View.ld h rowsAll6) (View.ld wh matAll6) (View.ld g rowsAll6) (View.ld wa matAll6)
    (View.ld b1 biasAll6) (View.ld w2 matAll6) (View.ld b2 biasAll6)⟩]

/-- The new features' projection by the next layer's source-side matrix `ws`, in half precision. -/
noncomputable def out6_10 (h g : Vec F S4000x128 .f32) (wh wa : Vec F S128x128 .f32) (b1 : Vec F S1x128 .f32)
    (w2 : Vec F S128x128 .f32) (b2 : Vec F S1x128 .f32) (ws : Vec F S128x128 .f32) : Vec F S4000x128 .bf16 :=
  View.canon [⟨rowsAll6, k6_pay1 (k6_pay4 (View.ld h rowsAll6) (View.ld wh matAll6) (View.ld g rowsAll6) (View.ld wa matAll6)
    (View.ld b1 biasAll6) (View.ld w2 matAll6) (View.ld b2 biasAll6)) (k6_pay5 (View.ld ws matAll6))⟩]

/-- The new features' projection by the next layer's destination-side matrix `wd`, in half precision. -/
noncomputable def out6_11 (h g : Vec F S4000x128 .f32) (wh wa : Vec F S128x128 .f32) (b1 : Vec F S1x128 .f32)
    (w2 : Vec F S128x128 .f32) (b2 : Vec F S1x128 .f32) (wd : Vec F S128x128 .f32) : Vec F S4000x128 .bf16 :=
  View.canon [⟨rowsAll6, k6_pay2 (k6_pay4 (View.ld h rowsAll6) (View.ld wh matAll6) (View.ld g rowsAll6) (View.ld wa matAll6)
    (View.ld b1 biasAll6) (View.ld w2 matAll6) (View.ld b2 biasAll6)) (View.ld wd matAll6)⟩]

/-- One store through the whole-buffer rectangle covers the buffer: single precision. -/
theorem fills6_f32 (p : Vec F S4000x128 .f32) (y : S4000x128.Idx) :
    ∃ pc ∈ ([⟨rowsAll6, p⟩] : List (View.Piece (Elt F) S4000x128 .f32)), y ∈ pc.1.set :=
  View.cover_of_tiled [⟨rowsAll6, p⟩] S4000x128.size (by rfl) y

/-- One store through the whole-buffer rectangle covers the buffer: half precision. -/
theorem fills6_bf16 (p : Vec F S4000x128 .bf16) (y : S4000x128.Idx) :
    ∃ pc ∈ ([⟨rowsAll6, p⟩] : List (View.Piece (Elt F) S4000x128 .bf16)), y ∈ pc.1.set :=
  View.cover_of_tiled [⟨rowsAll6, p⟩] S4000x128.size (by rfl) y

/-! ## The body's triple -/

set_option maxHeartbeats 4000000 in
/-- The body on whole staging buffers, the nine inputs' reading `x0 … x8` and the three results' holding anything, runs
    to a state where the inputs' are as they were and each result's holds its `out6_w` of the inputs: the printed body
    and its printed part are their skeletons of memory operations, which are run one after the other; each result
    buffer ends as one write over its earlier content, and that write fills it. -/
theorem runs6 (c : Dev nD) (E : Set ℕ) (i : grid6.Coords) (a0 : Memref sig .tc .vmem S4000x128 .f32) (ha0 : a0.IsWhole) (a1 : Memref sig .tc .vmem S4000x128 .f32) (ha1 : a1.IsWhole) (a2 : Memref sig .tc .vmem S128x128 .f32) (ha2 : a2.IsWhole) (a3 : Memref sig .tc .vmem S128x128 .f32) (ha3 : a3.IsWhole) (a4 : Memref sig .tc .vmem S1x128 .f32) (ha4 : a4.IsWhole) (a5 : Memref sig .tc .vmem S128x128 .f32) (ha5 : a5.IsWhole) (a6 : Memref sig .tc .vmem S1x128 .f32) (ha6 : a6.IsWhole) (a7 : Memref sig .tc .vmem S128x128 .f32) (ha7 : a7.IsWhole) (a8 : Memref sig .tc .vmem S128x128 .f32) (ha8 : a8.IsWhole) (a9 : Memref sig .tc .vmem S4000x128 .f32) (ha9 : a9.IsWhole) (a10 : Memref sig .tc .vmem S4000x128 .bf16) (ha10 : a10.IsWhole) (a11 : Memref sig .tc .vmem S4000x128 .bf16) (ha11 : a11.IsWhole)
    (x0 : Vec F S4000x128 .f32) (x1 : Vec F S4000x128 .f32) (x2 : Vec F S128x128 .f32) (x3 : Vec F S128x128 .f32) (x4 : Vec F S1x128 .f32) (x5 : Vec F S128x128 .f32) (x6 : Vec F S1x128 .f32) (x7 : Vec F S128x128 .f32) (x8 : Vec F S128x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d) ∗ (∃ d, owns (c : Thread nD τ) a10 fullShare d) ∗ (∃ d, owns (c : Thread nD τ) a11 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare (out6_9 x0 x1 x2 x3 x4 x5 x6) ∗ owns (c : Thread nD τ) a10 fullShare (out6_10 x0 x1 x2 x3 x4 x5 x6 x7) ∗ owns (c : Thread nD τ) a11 fullShare (out6_11 x0 x1 x2 x3 x4 x5 x6 x8)) -∗ K ⟨⟩))
      ⊢ wp frame (wpE (defs₀ (F := F)) Variants.none c none) E (cc6__node_update_ab_kernel i a0 ha0 a1 ha1 a2 ha2 a3 ha3 a4 ha4 a5 ha5 a6 ha6 a7 ha7 a8 ha8 a9 ha9 a10 ha10 a11 ha11) K := by
  simp only [cc6__node_update_ab_kernel_eq_skeleton]; unfold cc6__node_update_ab_kernel_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (fills6_f32 _)
  isplitl [H10]
  · iexists _; isplitr
    swap; · iexact H10
    ipureintro
    try dsimp only
    exact View.read_writes_eq_canon _ _ _ (fills6_bf16 _)
  iexists _; isplitr
  swap; · iexact H11
  ipureintro
  try dsimp only
  exact View.read_writes_eq_canon _ _ _ (fills6_bf16 _)

/-! ## The pipeline's proof data -/

/-- The proof data of this region's pipeline on core `c`: the arrays as the region finds them; after the body at
    point `t` each input's staging buffer still at its block and each result's at its `out6_w` of the input blocks;
    the invariant that nothing else is touched; full shares; nothing owed. -/
noncomputable def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => out6_9 (iblk6 V c 0 t) (iblk6 V c 1 t) (iblk6 V c 2 t) (iblk6 V c 3 t) (iblk6 V c 4 t) (iblk6 V c 5 t) (iblk6 V c 6 t)
    | ⟨10, _⟩ => out6_10 (iblk6 V c 0 t) (iblk6 V c 1 t) (iblk6 V c 2 t) (iblk6 V c 3 t) (iblk6 V c 4 t) (iblk6 V c 5 t) (iblk6 V c 6 t) (iblk6 V c 7 t)
    | ⟨11, _⟩ => out6_11 (iblk6 V c 0 t) (iblk6 V c 1 t) (iblk6 V c 2 t) (iblk6 V c 3 t) (iblk6 V c 4 t) (iblk6 V c 5 t) (iblk6 V c 6 t) (iblk6 V c 8 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-! What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = iblk6 V c 8 t := by dsimp only [dat6]
theorem after6_9 (c : Dev nD) (t : Fin cfg6.N) : (dat6 V c).after 9 t = out6_9 (iblk6 V c 0 t) (iblk6 V c 1 t) (iblk6 V c 2 t) (iblk6 V c 3 t) (iblk6 V c 4 t) (iblk6 V c 5 t) (iblk6 V c 6 t) := by dsimp only [dat6]
theorem after6_10 (c : Dev nD) (t : Fin cfg6.N) : (dat6 V c).after 10 t = out6_10 (iblk6 V c 0 t) (iblk6 V c 1 t) (iblk6 V c 2 t) (iblk6 V c 3 t) (iblk6 V c 4 t) (iblk6 V c 5 t) (iblk6 V c 6 t) (iblk6 V c 7 t) := by dsimp only [dat6]
theorem after6_11 (c : Dev nD) (t : Fin cfg6.N) : (dat6 V c).after 11 t = out6_11 (iblk6 V c 0 t) (iblk6 V c 1 t) (iblk6 V c 2 t) (iblk6 V c 3 t) (iblk6 V c 4 t) (iblk6 V c 5 t) (iblk6 V c 6 t) (iblk6 V c 8 t) := by dsimp only [dat6]

/-! Each input's current staging buffer holds the window's block at every point, whether the block was fetched at
    that point or is still there from the first point (the seven weight windows' block index never moves, so the
    block of the first point is the block of every point). -/
theorem found6_0 (c : Dev nD) (t : Fin cfg6.N) (d) : (dat6 V c).before 0 t d = iblk6 V c 0 t :=
  ((dat6 V c).before_in_eq_fetched 0 rfl (fun _ => rfl) (fun _ _ _ => rfl)
    (fun t => by rw [after6_0]; unfold Dat.blockOf iblk6; rw [A_eq6]; try rfl) t d).trans
    (by unfold Dat.fetched Dat.blockOf iblk6; rw [A_eq6]; try rfl)
theorem found6_1 (c : Dev nD) (t : Fin cfg6.N) (d) : (dat6 V c).before 1 t d = iblk6 V c 1 t :=
  ((dat6 V c).before_in_eq_fetched 1 rfl (fun _ => rfl) (fun _ _ _ => rfl)
    (fun t => by rw [after6_1]; unfold Dat.blockOf iblk6; rw [A_eq6]; try rfl) t d).trans
    (by unfold Dat.fetched Dat.blockOf iblk6; rw [A_eq6]; try rfl)
theorem found6_2 (c : Dev nD) (t : Fin cfg6.N) (d) : (dat6 V c).before 2 t d = iblk6 V c 2 t :=
  ((dat6 V c).before_in_eq_fetched 2 rfl (fun _ => rfl) (fun _ _ _ => rfl)
    (fun t => by rw [after6_2]; unfold Dat.blockOf iblk6; rw [A_eq6]; try rfl) t d).trans
    (by unfold Dat.fetched Dat.blockOf iblk6; rw [A_eq6]; try rfl)
theorem found6_3 (c : Dev nD) (t : Fin cfg6.N) (d) : (dat6 V c).before 3 t d = iblk6 V c 3 t :=
  ((dat6 V c).before_in_eq_fetched 3 rfl (fun _ => rfl) (fun _ _ _ => rfl)
    (fun t => by rw [after6_3]; unfold Dat.blockOf iblk6; rw [A_eq6]; try rfl) t d).trans
    (by unfold Dat.fetched Dat.blockOf iblk6; rw [A_eq6]; try rfl)
theorem found6_4 (c : Dev nD) (t : Fin cfg6.N) (d) : (dat6 V c).before 4 t d = iblk6 V c 4 t :=
  ((dat6 V c).before_in_eq_fetched 4 rfl (fun _ => rfl) (fun _ _ _ => rfl)
    (fun t => by rw [after6_4]; unfold Dat.blockOf iblk6; rw [A_eq6]; try rfl) t d).trans
    (by unfold Dat.fetched Dat.blockOf iblk6; rw [A_eq6]; try rfl)
theorem found6_5 (c : Dev nD) (t : Fin cfg6.N) (d) : (dat6 V c).before 5 t d = iblk6 V c 5 t :=
  ((dat6 V c).before_in_eq_fetched 5 rfl (fun _ => rfl) (fun _ _ _ => rfl)
    (fun t => by rw [after6_5]; unfold Dat.blockOf iblk6; rw [A_eq6]; try rfl) t d).trans
    (by unfold Dat.fetched Dat.blockOf iblk6; rw [A_eq6]; try rfl)
theorem found6_6 (c : Dev nD) (t : Fin cfg6.N) (d) : (dat6 V c).before 6 t d = iblk6 V c 6 t :=
  ((dat6 V c).before_in_eq_fetched 6 rfl (fun _ => rfl) (fun _ _ _ => rfl)
    (fun t => by rw [after6_6]; unfold Dat.blockOf iblk6; rw [A_eq6]; try rfl) t d).trans
    (by unfold Dat.fetched Dat.blockOf iblk6; rw [A_eq6]; try rfl)
theorem found6_7 (c : Dev nD) (t : Fin cfg6.N) (d) : (dat6 V c).before 7 t d = iblk6 V c 7 t :=
  ((dat6 V c).before_in_eq_fetched 7 rfl (fun _ => rfl) (fun _ _ _ => rfl)
    (fun t => by rw [after6_7]; unfold Dat.blockOf iblk6; rw [A_eq6]; try rfl) t d).trans
    (by unfold Dat.fetched Dat.blockOf iblk6; rw [A_eq6]; try rfl)
theorem found6_8 (c : Dev nD) (t : Fin cfg6.N) (d) : (dat6 V c).before 8 t d = iblk6 V c 8 t :=
  ((dat6 V c).before_in_eq_fetched 8 rfl (fun _ => rfl) (fun _ _ _ => rfl)
    (fun t => by rw [after6_8]; unfold Dat.blockOf iblk6; rw [A_eq6]; try rfl) t d).trans
    (by unfold Dat.fetched Dat.blockOf iblk6; rw [A_eq6]; try rfl)

/-! ## The body obligation -/

/-- What the body is called with at point `t`: the invariant, the debts, and the twelve staging buffers. -/
noncomputable def pre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d))
    ∗ (∃ d, owns (c : Thread nD τ) (st6_9 t) fullShare ((dat6 V c).before 9 t d))
    ∗ (∃ d, owns (c : Thread nD τ) (st6_10 t) fullShare ((dat6 V c).before 10 t d))
    ∗ (∃ d, owns (c : Thread nD τ) (st6_11 t) fullShare ((dat6 V c).before 11 t d)))

/-- What it returns. -/
noncomputable def post6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ owns (c : Thread nD τ) (st6_8 t) fullShare ((dat6 V c).after 8 t)
    ∗ owns (c : Thread nD τ) (st6_9 t) fullShare ((dat6 V c).after 9 t)
    ∗ owns (c : Thread nD τ) (st6_10 t) fullShare ((dat6 V c).after 10 t)
    ∗ owns (c : Thread nD τ) (st6_11 t) fullShare ((dat6 V c).after 11 t))

/-- The body at any point: the input buffers hold their blocks, so the body's triple applies; the invariant and the
    debts pass through untouched. -/
theorem steps6 (c : Dev nD) (t : Fin cfg6.N) :
    pre6 V c t ⊢ wp frame (wpE (defs₀ (F := F)) Variants.none c none) Set.univ (bodyAt6 t) (fun _ => post6 V c t) := by
  unfold pre6 post6 bodyAt6
  simp only [found6_0, found6_1, found6_2, found6_3, found6_4, found6_5, found6_6, found6_7, found6_8]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8, after6_9, after6_10, after6_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (runs6 c Set.univ _ _ _ _ _ _ _ _ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) (iblk6 V c 7 t) (iblk6 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation6 (c : Dev nD) : BodyObligation (dat6 (F := F) V c) (defs₀ (F := F)) Variants.none () Set.univ := fun t => by
  rw [bigSep_W6, bigSep_W6]
  exact steps6 V c t

end Cert.Kernel.Hand

end
-- ==== Proof.K.Reg7.lean ====
/-
  Region 7 of @main, the frame half: the edge-message kernel of a message-passing layer on its grid of 20 points.
  At a parameter V (the TensorCore's buffer contents when the region is entered) this file gives each window's block
  at a point, the contents of the result's staging buffer after the body (its one whole-block store of the payload of
  the seven loaded blocks), the body's triple on whole staging buffers, the pipeline's proof data and the body
  obligation at every point. Generic in the float instance.
-/
import proofs.«152161_j29669634081217_2_alg».proof.Proof.Gen.Kernel.Launch
import proofs.«152161_j29669634081217_2_alg».proof.Proof.Gen.Kernel.Skeleton
import proofs.«152161_j29669634081217_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 8000 rows: the structural look recurses once per coordinate of the long axis
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
noncomputable def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! An input window's current staging buffer holds its block at every point, fetched there or not (the three edge
    arrays are fetched at every point, the four weight arrays at the first only: where a window is not fetched its
    block index has not moved), for any proof data whose array is V's and whose body leaves the block in place. -/

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: every load and the one store take a whole staging buffer -/

noncomputable abbrev r7_0 : Rect S8000x128 := Rect.unit (s := S8000x128) ![0, 0] S8000x128.size inb_S8000x128_S8000x128_0_0
noncomputable abbrev r7_1 : Rect S128x128 := Rect.unit (s := S128x128) ![0, 0] S128x128.size inb_S128x128_S128x128_0_0
noncomputable abbrev r7_2 : Rect S1x128 := Rect.unit (s := S1x128) ![0, 0] S1x128.size inb_S1x128_S1x128_0_0

/-! ## What the body leaves in the result window's buffer -/

/-- Window 7's staging buffer after the body, from the seven input windows' blocks (in window order: the edge
    features, the two gathered node terms, the first weight and bias, the second weight and bias): its one store. -/
noncomputable def out7_7 (x0 x1 x2 : Vec F S8000x128 .bf16) (x3 : Vec F S128x128 .f32) (x4 : Vec F S1x128 .f32)
    (x5 : Vec F S128x128 .f32) (x6 : Vec F S1x128 .f32) : Vec F S8000x128 .f32 :=
  View.canon [⟨r7_0, k7_pay1 (View.ld x0 r7_0) (View.ld x3 r7_1) (View.ld x1 r7_0) (View.ld x2 r7_0) (View.ld x4 r7_2)
    (View.ld x5 r7_1) (View.ld x6 r7_2)⟩]

/-- The store takes the whole buffer, so it covers it. -/
theorem cover7_7 (p0 : Vec F S8000x128 .f32) (y : S8000x128.Idx) :
    ∃ pc ∈ ([⟨r7_0, p0⟩] : List (View.Piece (Elt F) S8000x128 .f32)), y ∈ pc.1.set :=
  View.cover_of_tiled [⟨r7_0, p0⟩] S8000x128.size (by rfl) y

/-! ## The body's triple -/

set_option maxHeartbeats 4000000 in
/-- The kernel body on whole staging memrefs, the inputs' at read contents and the result's at anything, runs to the
    continuation holding the inputs' as they were and the result's at out7_7 of the inputs': the printed function is
    its skeleton, eight loads (the last one, of the result buffer, is never used) and one store. -/
theorem sound_kernel7 (c : Dev nD) (E : Set ℕ) (i : grid7.Coords)
    (arg1 : Memref sig .tc .vmem S8000x128 .bf16) (harg1 : arg1.IsWhole) (arg2 : Memref sig .tc .vmem S8000x128 .bf16) (harg2 : arg2.IsWhole)
    (arg3 : Memref sig .tc .vmem S8000x128 .bf16) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S8000x128 .f32) (harg8 : arg8.IsWhole)
    (x0 x1 x2 : Vec F S8000x128 .bf16) (x3 : Vec F S128x128 .f32) (x4 : Vec F S1x128 .f32)
    (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out7_7 x0 x1 x2 x3 x4 x5 x6)) -∗ K ⟨⟩))
      ⊢ wp frame (wpE (defs₀ (F := F)) Variants.none c none) E
          (cc7__edge_message_kernel i arg1 harg1 arg2 harg2 arg3 harg3 arg4 harg4 arg5 harg5 arg6 harg6 arg7 harg7 arg8 harg8) K := by
  simp only [cc7__edge_message_kernel_eq_skeleton]; unfold cc7__edge_message_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7_7 _)

/-! ## The pipeline's proof data -/

/-- The proof data of pipeline 7 on core c: the arrays as the region finds them; after the body at point t each
    input's buffer at its block and the result's at out7_7 of the input blocks; the invariant is the scoped rest and
    the generator register, untouched; nothing owed; full shares. -/
noncomputable def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => out7_7 (iblk7 V c 0 t) (iblk7 V c 1 t) (iblk7 V c 2 t) (iblk7 V c 3 t) (iblk7 V c 4 t) (iblk7 V c 5 t) (iblk7 V c 6 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t =
    out7_7 (iblk7 V c 0 t) (iblk7 V c 1 t) (iblk7 V c 2 t) (iblk7 V c 3 t) (iblk7 V c 4 t) (iblk7 V c 5 t) (iblk7 V c 6 t) := by
  dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d

/-! ## The body obligation, at a generic point -/

/-- What the body is called with at point t, the windows one by one, -/
noncomputable def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d)))

/-- and what it returns. -/
noncomputable def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t))

set_option maxHeartbeats 1000000 in
/-- The body at any point: the inputs' memrefs hold their blocks, so the triple applies; the invariant and the core's
    debts pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel7 c Set.univ _ _ _ _ _ _ _ _ _ _ _ _ _ _ _ _ _ (iblk7 V c 0 t) (iblk7 V c 1 t) (iblk7 V c 2 t) (iblk7 V c 3 t)
    (iblk7 V c 4 t) (iblk7 V c 5 t) (iblk7 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.K.Reg8.lean ====
/-
  Region 8 of @main, the node-update kernel of the third message-passing layer, at an arbitrary content V of the
  TensorCore's buffers when the region is entered, for any float instance.

  The kernel reads nine windows (the node features and the aggregated messages in blocks of 4000 rows, then seven
  weight arrays each fetched whole once) and writes three (the new features, and their two projections for the next
  layer), each result block through one store that fills it.  This file states what each staging buffer holds after
  the body ran at a grid point, proves the body's separation-logic triple by running its memory operations, and
  packages both as the pipeline's body obligation.
-/
import proofs.«152161_j29669634081217_2_alg».proof.Proof.Gen.Kernel.Launch
import proofs.«152161_j29669634081217_2_alg».proof.Proof.Gen.Kernel.Skeleton
import proofs.«152161_j29669634081217_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows show -/

/-- The block of window w at grid point t, cut out of the window's array as the region finds it. -/
noncomputable def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! ## The three rectangles the body touches: every access is of a whole staging buffer -/

/-- All of a 4000 × 128 buffer (a block of rows, and each result block). -/
noncomputable abbrev rowsAll8 : Rect S4000x128 := Rect.unit (s := S4000x128) ![0, 0] S4000x128.size inb_S4000x128_S4000x128_0_0
/-- All of a 128 × 128 buffer (a weight matrix). -/
noncomputable abbrev matAll8 : Rect S128x128 := Rect.unit (s := S128x128) ![0, 0] S128x128.size inb_S128x128_S128x128_0_0
/-- All of a 1 × 128 buffer (a bias). -/
noncomputable abbrev biasAll8 : Rect S1x128 := Rect.unit (s := S1x128) ![0, 0] S1x128.size inb_S1x128_S1x128_0_0

/-! ## What the body leaves in the three result buffers -/

/-- The new features, in single precision: the residual update of the features block `h` by the messages block
    `g`, through the five weight arrays of the update. -/
noncomputable def out8_9 (h g : Vec F S4000x128 .f32) (wh wa : Vec F S128x128 .f32) (b1 : Vec F S1x128 .f32)
    (w2 : Vec F S128x128 .f32) (b2 : Vec F S1x128 .f32) : Vec F S4000x128 .f32 :=
  View.canon [⟨rowsAll8, k8_pay3 (View.ld h rowsAll8) (View.ld wh matAll8) (View.ld g rowsAll8) (View.ld wa matAll8)
    (View.ld b1 biasAll8) (View.ld w2 matAll8) (View.ld b2 biasAll8)⟩]

/-- The new features' projection by the next layer's source-side matrix `ws`, in half precision. -/
noncomputable def out8_10 (h g : Vec F S4000x128 .f32) (wh wa : Vec F S128x128 .f32) (b1 : Vec F S1x128 .f32)
    (w2 : Vec F S128x128 .f32) (b2 : Vec F S1x128 .f32) (ws : Vec F S128x128 .f32) : Vec F S4000x128 .bf16 :=
  View.canon [⟨rowsAll8, k8_pay1 (k8_pay4 (View.ld h rowsAll8) (View.ld wh matAll8) (View.ld g rowsAll8) (View.ld wa matAll8)
    (View.ld b1 biasAll8) (View.ld w2 matAll8) (View.ld b2 biasAll8)) (k8_pay5 (View.ld ws matAll8))⟩]

/-- The new features' projection by the next layer's destination-side matrix `wd`, in half precision. -/
noncomputable def out8_11 (h g : Vec F S4000x128 .f32) (wh wa : Vec F S128x128 .f32) (b1 : Vec F S1x128 .f32)
    (w2 : Vec F S128x128 .f32) (b2 : Vec F S1x128 .f32) (wd : Vec F S128x128 .f32) : Vec F S4000x128 .bf16 :=
  View.canon [⟨rowsAll8, k8_pay2 (k8_pay4 (View.ld h rowsAll8) (View.ld wh matAll8) (View.ld g rowsAll8) (View.ld wa matAll8)
    (View.ld b1 biasAll8) (View.ld w2 matAll8) (View.ld b2 biasAll8)) (View.ld wd matAll8)⟩]

/-- One store through the whole-buffer rectangle covers the buffer: single precision. -/
theorem fills8_f32 (p : Vec F S4000x128 .f32) (y : S4000x128.Idx) :
    ∃ pc ∈ ([⟨rowsAll8, p⟩] : List (View.Piece (Elt F) S4000x128 .f32)), y ∈ pc.1.set :=
  View.cover_of_tiled [⟨rowsAll8, p⟩] S4000x128.size (by rfl) y

/-- One store through the whole-buffer rectangle covers the buffer: half precision. -/
theorem fills8_bf16 (p : Vec F S4000x128 .bf16) (y : S4000x128.Idx) :
    ∃ pc ∈ ([⟨rowsAll8, p⟩] : List (View.Piece (Elt F) S4000x128 .bf16)), y ∈ pc.1.set :=
  View.cover_of_tiled [⟨rowsAll8, p⟩] S4000x128.size (by rfl) y

/-! ## The body's triple -/

set_option maxHeartbeats 4000000 in
/-- The body on whole staging buffers, the nine inputs' reading `x0 … x8` and the three results' holding anything, runs
    to a state where the inputs' are as they were and each result's holds its `out8_w` of the inputs: the printed body
    and its printed part are their skeletons of memory operations, which are run one after the other; each result
    buffer ends as one write over its earlier content, and that write fills it. -/
theorem runs8 (c : Dev nD) (E : Set ℕ) (i : grid8.Coords) (a0 : Memref sig .tc .vmem S4000x128 .f32) (ha0 : a0.IsWhole) (a1 : Memref sig .tc .vmem S4000x128 .f32) (ha1 : a1.IsWhole) (a2 : Memref sig .tc .vmem S128x128 .f32) (ha2 : a2.IsWhole) (a3 : Memref sig .tc .vmem S128x128 .f32) (ha3 : a3.IsWhole) (a4 : Memref sig .tc .vmem S1x128 .f32) (ha4 : a4.IsWhole) (a5 : Memref sig .tc .vmem S128x128 .f32) (ha5 : a5.IsWhole) (a6 : Memref sig .tc .vmem S1x128 .f32) (ha6 : a6.IsWhole) (a7 : Memref sig .tc .vmem S128x128 .f32) (ha7 : a7.IsWhole) (a8 : Memref sig .tc .vmem S128x128 .f32) (ha8 : a8.IsWhole) (a9 : Memref sig .tc .vmem S4000x128 .f32) (ha9 : a9.IsWhole) (a10 : Memref sig .tc .vmem S4000x128 .bf16) (ha10 : a10.IsWhole) (a11 : Memref sig .tc .vmem S4000x128 .bf16) (ha11 : a11.IsWhole)
    (x0 : Vec F S4000x128 .f32) (x1 : Vec F S4000x128 .f32) (x2 : Vec F S128x128 .f32) (x3 : Vec F S128x128 .f32) (x4 : Vec F S1x128 .f32) (x5 : Vec F S128x128 .f32) (x6 : Vec F S1x128 .f32) (x7 : Vec F S128x128 .f32) (x8 : Vec F S128x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d) ∗ (∃ d, owns (c : Thread nD τ) a10 fullShare d) ∗ (∃ d, owns (c : Thread nD τ) a11 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare (out8_9 x0 x1 x2 x3 x4 x5 x6) ∗ owns (c : Thread nD τ) a10 fullShare (out8_10 x0 x1 x2 x3 x4 x5 x6 x7) ∗ owns (c : Thread nD τ) a11 fullShare (out8_11 x0 x1 x2 x3 x4 x5 x6 x8)) -∗ K ⟨⟩))
      ⊢ wp frame (wpE (defs₀ (F := F)) Variants.none c none) E (cc8__node_update_ab_kernel i a0 ha0 a1 ha1 a2 ha2 a3 ha3 a4 ha4 a5 ha5 a6 ha6 a7 ha7 a8 ha8 a9 ha9 a10 ha10 a11 ha11) K := by
  simp only [cc8__node_update_ab_kernel_eq_skeleton]; unfold cc8__node_update_ab_kernel_skel
  simp only [k8_part1_eq_skeleton]; unfold k8_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (fills8_f32 _)
  isplitl [H10]
  · iexists _; isplitr
    swap; · iexact H10
    ipureintro
    try dsimp only
    exact View.read_writes_eq_canon _ _ _ (fills8_bf16 _)
  iexists _; isplitr
  swap; · iexact H11
  ipureintro
  try dsimp only
  exact View.read_writes_eq_canon _ _ _ (fills8_bf16 _)

/-! ## The pipeline's proof data -/

/-- The proof data of this region's pipeline on core `c`: the arrays as the region finds them; after the body at
    point `t` each input's staging buffer still at its block and each result's at its `out8_w` of the input blocks;
    the invariant that nothing else is touched; full shares; nothing owed. -/
noncomputable def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => out8_9 (iblk8 V c 0 t) (iblk8 V c 1 t) (iblk8 V c 2 t) (iblk8 V c 3 t) (iblk8 V c 4 t) (iblk8 V c 5 t) (iblk8 V c 6 t)
    | ⟨10, _⟩ => out8_10 (iblk8 V c 0 t) (iblk8 V c 1 t) (iblk8 V c 2 t) (iblk8 V c 3 t) (iblk8 V c 4 t) (iblk8 V c 5 t) (iblk8 V c 6 t) (iblk8 V c 7 t)
    | ⟨11, _⟩ => out8_11 (iblk8 V c 0 t) (iblk8 V c 1 t) (iblk8 V c 2 t) (iblk8 V c 3 t) (iblk8 V c 4 t) (iblk8 V c 5 t) (iblk8 V c 6 t) (iblk8 V c 8 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-! What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = iblk8 V c 7 t := by dsimp only [dat8]
theorem after8_8 (c : Dev nD) (t : Fin cfg8.N) : (dat8 V c).after 8 t = iblk8 V c 8 t := by dsimp only [dat8]
theorem after8_9 (c : Dev nD) (t : Fin cfg8.N) : (dat8 V c).after 9 t = out8_9 (iblk8 V c 0 t) (iblk8 V c 1 t) (iblk8 V c 2 t) (iblk8 V c 3 t) (iblk8 V c 4 t) (iblk8 V c 5 t) (iblk8 V c 6 t) := by dsimp only [dat8]
theorem after8_10 (c : Dev nD) (t : Fin cfg8.N) : (dat8 V c).after 10 t = out8_10 (iblk8 V c 0 t) (iblk8 V c 1 t) (iblk8 V c 2 t) (iblk8 V c 3 t) (iblk8 V c 4 t) (iblk8 V c 5 t) (iblk8 V c 6 t) (iblk8 V c 7 t) := by dsimp only [dat8]
theorem after8_11 (c : Dev nD) (t : Fin cfg8.N) : (dat8 V c).after 11 t = out8_11 (iblk8 V c 0 t) (iblk8 V c 1 t) (iblk8 V c 2 t) (iblk8 V c 3 t) (iblk8 V c 4 t) (iblk8 V c 5 t) (iblk8 V c 6 t) (iblk8 V c 8 t) := by dsimp only [dat8]

/-! Each input's current staging buffer holds the window's block at every point, whether the block was fetched at
    that point or is still there from the first point (the seven weight windows' block index never moves, so the
    block of the first point is the block of every point). -/
theorem found8_0 (c : Dev nD) (t : Fin cfg8.N) (d) : (dat8 V c).before 0 t d = iblk8 V c 0 t :=
  ((dat8 V c).before_in_eq_fetched 0 rfl (fun _ => rfl) (fun _ _ _ => rfl)
    (fun t => by rw [after8_0]; unfold Dat.blockOf iblk8; rw [A_eq8]; try rfl) t d).trans
    (by unfold Dat.fetched Dat.blockOf iblk8; rw [A_eq8]; try rfl)
theorem found8_1 (c : Dev nD) (t : Fin cfg8.N) (d) : (dat8 V c).before 1 t d = iblk8 V c 1 t :=
  ((dat8 V c).before_in_eq_fetched 1 rfl (fun _ => rfl) (fun _ _ _ => rfl)
    (fun t => by rw [after8_1]; unfold Dat.blockOf iblk8; rw [A_eq8]; try rfl) t d).trans
    (by unfold Dat.fetched Dat.blockOf iblk8; rw [A_eq8]; try rfl)
theorem found8_2 (c : Dev nD) (t : Fin cfg8.N) (d) : (dat8 V c).before 2 t d = iblk8 V c 2 t :=
  ((dat8 V c).before_in_eq_fetched 2 rfl (fun _ => rfl) (fun _ _ _ => rfl)
    (fun t => by rw [after8_2]; unfold Dat.blockOf iblk8; rw [A_eq8]; try rfl) t d).trans
    (by unfold Dat.fetched Dat.blockOf iblk8; rw [A_eq8]; try rfl)
theorem found8_3 (c : Dev nD) (t : Fin cfg8.N) (d) : (dat8 V c).before 3 t d = iblk8 V c 3 t :=
  ((dat8 V c).before_in_eq_fetched 3 rfl (fun _ => rfl) (fun _ _ _ => rfl)
    (fun t => by rw [after8_3]; unfold Dat.blockOf iblk8; rw [A_eq8]; try rfl) t d).trans
    (by unfold Dat.fetched Dat.blockOf iblk8; rw [A_eq8]; try rfl)
theorem found8_4 (c : Dev nD) (t : Fin cfg8.N) (d) : (dat8 V c).before 4 t d = iblk8 V c 4 t :=
  ((dat8 V c).before_in_eq_fetched 4 rfl (fun _ => rfl) (fun _ _ _ => rfl)
    (fun t => by rw [after8_4]; unfold Dat.blockOf iblk8; rw [A_eq8]; try rfl) t d).trans
    (by unfold Dat.fetched Dat.blockOf iblk8; rw [A_eq8]; try rfl)
theorem found8_5 (c : Dev nD) (t : Fin cfg8.N) (d) : (dat8 V c).before 5 t d = iblk8 V c 5 t :=
  ((dat8 V c).before_in_eq_fetched 5 rfl (fun _ => rfl) (fun _ _ _ => rfl)
    (fun t => by rw [after8_5]; unfold Dat.blockOf iblk8; rw [A_eq8]; try rfl) t d).trans
    (by unfold Dat.fetched Dat.blockOf iblk8; rw [A_eq8]; try rfl)
theorem found8_6 (c : Dev nD) (t : Fin cfg8.N) (d) : (dat8 V c).before 6 t d = iblk8 V c 6 t :=
  ((dat8 V c).before_in_eq_fetched 6 rfl (fun _ => rfl) (fun _ _ _ => rfl)
    (fun t => by rw [after8_6]; unfold Dat.blockOf iblk8; rw [A_eq8]; try rfl) t d).trans
    (by unfold Dat.fetched Dat.blockOf iblk8; rw [A_eq8]; try rfl)
theorem found8_7 (c : Dev nD) (t : Fin cfg8.N) (d) : (dat8 V c).before 7 t d = iblk8 V c 7 t :=
  ((dat8 V c).before_in_eq_fetched 7 rfl (fun _ => rfl) (fun _ _ _ => rfl)
    (fun t => by rw [after8_7]; unfold Dat.blockOf iblk8; rw [A_eq8]; try rfl) t d).trans
    (by unfold Dat.fetched Dat.blockOf iblk8; rw [A_eq8]; try rfl)
theorem found8_8 (c : Dev nD) (t : Fin cfg8.N) (d) : (dat8 V c).before 8 t d = iblk8 V c 8 t :=
  ((dat8 V c).before_in_eq_fetched 8 rfl (fun _ => rfl) (fun _ _ _ => rfl)
    (fun t => by rw [after8_8]; unfold Dat.blockOf iblk8; rw [A_eq8]; try rfl) t d).trans
    (by unfold Dat.fetched Dat.blockOf iblk8; rw [A_eq8]; try rfl)

/-! ## The body obligation -/

/-- What the body is called with at point `t`: the invariant, the debts, and the twelve staging buffers. -/
noncomputable def pre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d))
    ∗ (∃ d, owns (c : Thread nD τ) (st8_8 t) fullShare ((dat8 V c).before 8 t d))
    ∗ (∃ d, owns (c : Thread nD τ) (st8_9 t) fullShare ((dat8 V c).before 9 t d))
    ∗ (∃ d, owns (c : Thread nD τ) (st8_10 t) fullShare ((dat8 V c).before 10 t d))
    ∗ (∃ d, owns (c : Thread nD τ) (st8_11 t) fullShare ((dat8 V c).before 11 t d)))

/-- What it returns. -/
noncomputable def post8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t)
    ∗ owns (c : Thread nD τ) (st8_8 t) fullShare ((dat8 V c).after 8 t)
    ∗ owns (c : Thread nD τ) (st8_9 t) fullShare ((dat8 V c).after 9 t)
    ∗ owns (c : Thread nD τ) (st8_10 t) fullShare ((dat8 V c).after 10 t)
    ∗ owns (c : Thread nD τ) (st8_11 t) fullShare ((dat8 V c).after 11 t))

/-- The body at any point: the input buffers hold their blocks, so the body's triple applies; the invariant and the
    debts pass through untouched. -/
theorem steps8 (c : Dev nD) (t : Fin cfg8.N) :
    pre8 V c t ⊢ wp frame (wpE (defs₀ (F := F)) Variants.none c none) Set.univ (bodyAt8 t) (fun _ => post8 V c t) := by
  unfold pre8 post8 bodyAt8
  simp only [found8_0, found8_1, found8_2, found8_3, found8_4, found8_5, found8_6, found8_7, found8_8]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7, after8_8, after8_9, after8_10, after8_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (runs8 c Set.univ _ _ _ _ _ _ _ _ _ _ _ _ _ _ _ _ _ _ _ _ _ _ _ _ _ (iblk8 V c 0 t) (iblk8 V c 1 t) (iblk8 V c 2 t) (iblk8 V c 3 t) (iblk8 V c 4 t) (iblk8 V c 5 t) (iblk8 V c 6 t) (iblk8 V c 7 t) (iblk8 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation8 (c : Dev nD) : BodyObligation (dat8 (F := F) V c) (defs₀ (F := F)) Variants.none () Set.univ := fun t => by
  rw [bigSep_W8, bigSep_W8]
  exact steps8 V c t

end Cert.Kernel.Hand

end
-- ==== Proof.K.Reg9.lean ====
/-
  Region 9 of @main, the frame half: the edge-message kernel of a message-passing layer on its grid of 20 points.
  At a parameter V (the TensorCore's buffer contents when the region is entered) this file gives each window's block
  at a point, the contents of the result's staging buffer after the body (its one whole-block store of the payload of
  the seven loaded blocks), the body's triple on whole staging buffers, the pipeline's proof data and the body
  obligation at every point. Generic in the float instance.
-/
import proofs.«152161_j29669634081217_2_alg».proof.Proof.Gen.Kernel.Launch
import proofs.«152161_j29669634081217_2_alg».proof.Proof.Gen.Kernel.Skeleton
import proofs.«152161_j29669634081217_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 8000 rows: the structural look recurses once per coordinate of the long axis
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
noncomputable def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-! An input window's current staging buffer holds its block at every point, fetched there or not (the three edge
    arrays are fetched at every point, the four weight arrays at the first only: where a window is not fetched its
    block index has not moved), for any proof data whose array is V's and whose body leaves the block in place. -/

theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

theorem before9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)

theorem before9_6_of {c : Dev nD} (dat : Dat τ (Elt F) Unit ℕ (UR sig nD τ) ℕ cfg9 c) (hA : dat.A 6 = V c (Pipeline.arrRef spec9 6))
    (hafter : ∀ t, dat.after 6 t = iblk9 V c 6 t) (t : Fin cfg9.N) (d) : dat.before 6 t d = iblk9 V c 6 t :=
  (dat.before_in_eq_fetched 6 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: every load and the one store take a whole staging buffer -/

noncomputable abbrev r9_0 : Rect S8000x128 := Rect.unit (s := S8000x128) ![0, 0] S8000x128.size inb_S8000x128_S8000x128_0_0
noncomputable abbrev r9_1 : Rect S128x128 := Rect.unit (s := S128x128) ![0, 0] S128x128.size inb_S128x128_S128x128_0_0
noncomputable abbrev r9_2 : Rect S1x128 := Rect.unit (s := S1x128) ![0, 0] S1x128.size inb_S1x128_S1x128_0_0

/-! ## What the body leaves in the result window's buffer -/

/-- Window 7's staging buffer after the body, from the seven input windows' blocks (in window order: the edge
    features, the two gathered node terms, the first weight and bias, the second weight and bias): its one store. -/
noncomputable def out9_7 (x0 x1 x2 : Vec F S8000x128 .bf16) (x3 : Vec F S128x128 .f32) (x4 : Vec F S1x128 .f32)
    (x5 : Vec F S128x128 .f32) (x6 : Vec F S1x128 .f32) : Vec F S8000x128 .f32 :=
  View.canon [⟨r9_0, k9_pay1 (View.ld x0 r9_0) (View.ld x3 r9_1) (View.ld x1 r9_0) (View.ld x2 r9_0) (View.ld x4 r9_2)
    (View.ld x5 r9_1) (View.ld x6 r9_2)⟩]

/-- The store takes the whole buffer, so it covers it. -/
theorem cover9_7 (p0 : Vec F S8000x128 .f32) (y : S8000x128.Idx) :
    ∃ pc ∈ ([⟨r9_0, p0⟩] : List (View.Piece (Elt F) S8000x128 .f32)), y ∈ pc.1.set :=
  View.cover_of_tiled [⟨r9_0, p0⟩] S8000x128.size (by rfl) y

/-! ## The body's triple -/

set_option maxHeartbeats 4000000 in
/-- The kernel body on whole staging memrefs, the inputs' at read contents and the result's at anything, runs to the
    continuation holding the inputs' as they were and the result's at out9_7 of the inputs': the printed function is
    its skeleton, eight loads (the last one, of the result buffer, is never used) and one store. -/
theorem sound_kernel9 (c : Dev nD) (E : Set ℕ) (i : grid9.Coords)
    (arg1 : Memref sig .tc .vmem S8000x128 .bf16) (harg1 : arg1.IsWhole) (arg2 : Memref sig .tc .vmem S8000x128 .bf16) (harg2 : arg2.IsWhole)
    (arg3 : Memref sig .tc .vmem S8000x128 .bf16) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S8000x128 .f32) (harg8 : arg8.IsWhole)
    (x0 x1 x2 : Vec F S8000x128 .bf16) (x3 : Vec F S128x128 .f32) (x4 : Vec F S1x128 .f32)
    (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out9_7 x0 x1 x2 x3 x4 x5 x6)) -∗ K ⟨⟩))
      ⊢ wp frame (wpE (defs₀ (F := F)) Variants.none c none) E
          (cc9__edge_message_kernel i arg1 harg1 arg2 harg2 arg3 harg3 arg4 harg4 arg5 harg5 arg6 harg6 arg7 harg7 arg8 harg8) K := by
  simp only [cc9__edge_message_kernel_eq_skeleton]; unfold cc9__edge_message_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover9_7 _)

/-! ## The pipeline's proof data -/

/-- The proof data of pipeline 9 on core c: the arrays as the region finds them; after the body at point t each
    input's buffer at its block and the result's at out9_7 of the input blocks; the invariant is the scoped rest and
    the generator register, untouched; nothing owed; full shares. -/
noncomputable def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => out9_7 (iblk9 V c 0 t) (iblk9 V c 1 t) (iblk9 V c 2 t) (iblk9 V c 3 t) (iblk9 V c 4 t) (iblk9 V c 5 t) (iblk9 V c 6 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = iblk9 V c 6 t := by dsimp only [dat9]
theorem after9_7 (c : Dev nD) (t : Fin cfg9.N) : (dat9 V c).after 7 t =
    out9_7 (iblk9 V c 0 t) (iblk9 V c 1 t) (iblk9 V c 2 t) (iblk9 V c 3 t) (iblk9 V c 4 t) (iblk9 V c 5 t) (iblk9 V c 6 t) := by
  dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d
theorem before9_6 (c : Dev nD) (t : Fin cfg9.N) (d) : (dat9 V c).before 6 t d = iblk9 V c 6 t :=
  before9_6_of V (dat9 V c) (A_eq9 V c 6) (after9_6 V c) t d

/-! ## The body obligation, at a generic point -/

/-- What the body is called with at point t, the windows one by one, -/
noncomputable def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d))
    ∗ (∃ d, owns (c : Thread nD τ) (st9_7 t) fullShare ((dat9 V c).before 7 t d)))

/-- and what it returns. -/
noncomputable def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t)
    ∗ owns (c : Thread nD τ) (st9_7 t) fullShare ((dat9 V c).after 7 t))

set_option maxHeartbeats 1000000 in
/-- The body at any point: the inputs' memrefs hold their blocks, so the triple applies; the invariant and the core's
    debts pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5, before9_6]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6, after9_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel9 c Set.univ _ _ _ _ _ _ _ _ _ _ _ _ _ _ _ _ _ (iblk9 V c 0 t) (iblk9 V c 1 t) (iblk9 V c 2 t) (iblk9 V c 3 t)
    (iblk9 V c 4 t) (iblk9 V c 5 t) (iblk9 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.K.Reg10.lean ====
/-
  Region 10 of @main, the node-update kernel of the fourth message-passing layer, at an arbitrary content V of the
  TensorCore's buffers when the region is entered, for any float instance.

  The kernel reads nine windows (the node features and the aggregated messages in blocks of 4000 rows, then seven
  weight arrays each fetched whole once) and writes three (the new features, and their two projections for the next
  layer), each result block through one store that fills it.  This file states what each staging buffer holds after
  the body ran at a grid point, proves the body's separation-logic triple by running its memory operations, and
  packages both as the pipeline's body obligation.
-/
import proofs.«152161_j29669634081217_2_alg».proof.Proof.Gen.Kernel.Launch
import proofs.«152161_j29669634081217_2_alg».proof.Proof.Gen.Kernel.Skeleton
import proofs.«152161_j29669634081217_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows show -/

/-- The block of window w at grid point t, cut out of the window's array as the region finds it. -/
noncomputable def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-! ## The three rectangles the body touches: every access is of a whole staging buffer -/

/-- All of a 4000 × 128 buffer (a block of rows, and each result block). -/
noncomputable abbrev rowsAll10 : Rect S4000x128 := Rect.unit (s := S4000x128) ![0, 0] S4000x128.size inb_S4000x128_S4000x128_0_0
/-- All of a 128 × 128 buffer (a weight matrix). -/
noncomputable abbrev matAll10 : Rect S128x128 := Rect.unit (s := S128x128) ![0, 0] S128x128.size inb_S128x128_S128x128_0_0
/-- All of a 1 × 128 buffer (a bias). -/
noncomputable abbrev biasAll10 : Rect S1x128 := Rect.unit (s := S1x128) ![0, 0] S1x128.size inb_S1x128_S1x128_0_0

/-! ## What the body leaves in the three result buffers -/

/-- The new features, in single precision: the residual update of the features block `h` by the messages block
    `g`, through the five weight arrays of the update. -/
noncomputable def out10_9 (h g : Vec F S4000x128 .f32) (wh wa : Vec F S128x128 .f32) (b1 : Vec F S1x128 .f32)
    (w2 : Vec F S128x128 .f32) (b2 : Vec F S1x128 .f32) : Vec F S4000x128 .f32 :=
  View.canon [⟨rowsAll10, k10_pay3 (View.ld h rowsAll10) (View.ld wh matAll10) (View.ld g rowsAll10) (View.ld wa matAll10)
    (View.ld b1 biasAll10) (View.ld w2 matAll10) (View.ld b2 biasAll10)⟩]

/-- The new features' projection by the next layer's source-side matrix `ws`, in half precision. -/
noncomputable def out10_10 (h g : Vec F S4000x128 .f32) (wh wa : Vec F S128x128 .f32) (b1 : Vec F S1x128 .f32)
    (w2 : Vec F S128x128 .f32) (b2 : Vec F S1x128 .f32) (ws : Vec F S128x128 .f32) : Vec F S4000x128 .bf16 :=
  View.canon [⟨rowsAll10, k10_pay1 (k10_pay4 (View.ld h rowsAll10) (View.ld wh matAll10) (View.ld g rowsAll10) (View.ld wa matAll10)
    (View.ld b1 biasAll10) (View.ld w2 matAll10) (View.ld b2 biasAll10)) (k10_pay5 (View.ld ws matAll10))⟩]

/-- The new features' projection by the next layer's destination-side matrix `wd`, in half precision. -/
noncomputable def out10_11 (h g : Vec F S4000x128 .f32) (wh wa : Vec F S128x128 .f32) (b1 : Vec F S1x128 .f32)
    (w2 : Vec F S128x128 .f32) (b2 : Vec F S1x128 .f32) (wd : Vec F S128x128 .f32) : Vec F S4000x128 .bf16 :=
  View.canon [⟨rowsAll10, k10_pay2 (k10_pay4 (View.ld h rowsAll10) (View.ld wh matAll10) (View.ld g rowsAll10) (View.ld wa matAll10)
    (View.ld b1 biasAll10) (View.ld w2 matAll10) (View.ld b2 biasAll10)) (View.ld wd matAll10)⟩]

/-- One store through the whole-buffer rectangle covers the buffer: single precision. -/
theorem fills10_f32 (p : Vec F S4000x128 .f32) (y : S4000x128.Idx) :
    ∃ pc ∈ ([⟨rowsAll10, p⟩] : List (View.Piece (Elt F) S4000x128 .f32)), y ∈ pc.1.set :=
  View.cover_of_tiled [⟨rowsAll10, p⟩] S4000x128.size (by rfl) y

/-- One store through the whole-buffer rectangle covers the buffer: half precision. -/
theorem fills10_bf16 (p : Vec F S4000x128 .bf16) (y : S4000x128.Idx) :
    ∃ pc ∈ ([⟨rowsAll10, p⟩] : List (View.Piece (Elt F) S4000x128 .bf16)), y ∈ pc.1.set :=
  View.cover_of_tiled [⟨rowsAll10, p⟩] S4000x128.size (by rfl) y

/-! ## The body's triple -/

set_option maxHeartbeats 4000000 in
/-- The body on whole staging buffers, the nine inputs' reading `x0 … x8` and the three results' holding anything, runs
    to a state where the inputs' are as they were and each result's holds its `out10_w` of the inputs: the printed body
    and its printed part are their skeletons of memory operations, which are run one after the other; each result
    buffer ends as one write over its earlier content, and that write fills it. -/
theorem runs10 (c : Dev nD) (E : Set ℕ) (i : grid10.Coords) (a0 : Memref sig .tc .vmem S4000x128 .f32) (ha0 : a0.IsWhole) (a1 : Memref sig .tc .vmem S4000x128 .f32) (ha1 : a1.IsWhole) (a2 : Memref sig .tc .vmem S128x128 .f32) (ha2 : a2.IsWhole) (a3 : Memref sig .tc .vmem S128x128 .f32) (ha3 : a3.IsWhole) (a4 : Memref sig .tc .vmem S1x128 .f32) (ha4 : a4.IsWhole) (a5 : Memref sig .tc .vmem S128x128 .f32) (ha5 : a5.IsWhole) (a6 : Memref sig .tc .vmem S1x128 .f32) (ha6 : a6.IsWhole) (a7 : Memref sig .tc .vmem S128x128 .f32) (ha7 : a7.IsWhole) (a8 : Memref sig .tc .vmem S128x128 .f32) (ha8 : a8.IsWhole) (a9 : Memref sig .tc .vmem S4000x128 .f32) (ha9 : a9.IsWhole) (a10 : Memref sig .tc .vmem S4000x128 .bf16) (ha10 : a10.IsWhole) (a11 : Memref sig .tc .vmem S4000x128 .bf16) (ha11 : a11.IsWhole)
    (x0 : Vec F S4000x128 .f32) (x1 : Vec F S4000x128 .f32) (x2 : Vec F S128x128 .f32) (x3 : Vec F S128x128 .f32) (x4 : Vec F S1x128 .f32) (x5 : Vec F S128x128 .f32) (x6 : Vec F S1x128 .f32) (x7 : Vec F S128x128 .f32) (x8 : Vec F S128x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d) ∗ (∃ d, owns (c : Thread nD τ) a10 fullShare d) ∗ (∃ d, owns (c : Thread nD τ) a11 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare (out10_9 x0 x1 x2 x3 x4 x5 x6) ∗ owns (c : Thread nD τ) a10 fullShare (out10_10 x0 x1 x2 x3 x4 x5 x6 x7) ∗ owns (c : Thread nD τ) a11 fullShare (out10_11 x0 x1 x2 x3 x4 x5 x6 x8)) -∗ K ⟨⟩))
      ⊢ wp frame (wpE (defs₀ (F := F)) Variants.none c none) E (cc10__node_update_ab_kernel i a0 ha0 a1 ha1 a2 ha2 a3 ha3 a4 ha4 a5 ha5 a6 ha6 a7 ha7 a8 ha8 a9 ha9 a10 ha10 a11 ha11) K := by
  simp only [cc10__node_update_ab_kernel_eq_skeleton]; unfold cc10__node_update_ab_kernel_skel
  simp only [k10_part1_eq_skeleton]; unfold k10_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (fills10_f32 _)
  isplitl [H10]
  · iexists _; isplitr
    swap; · iexact H10
    ipureintro
    try dsimp only
    exact View.read_writes_eq_canon _ _ _ (fills10_bf16 _)
  iexists _; isplitr
  swap; · iexact H11
  ipureintro
  try dsimp only
  exact View.read_writes_eq_canon _ _ _ (fills10_bf16 _)

/-! ## The pipeline's proof data -/

/-- The proof data of this region's pipeline on core `c`: the arrays as the region finds them; after the body at
    point `t` each input's staging buffer still at its block and each result's at its `out10_w` of the input blocks;
    the invariant that nothing else is touched; full shares; nothing owed. -/
noncomputable def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => iblk10 V c 6 t
    | ⟨7, _⟩ => iblk10 V c 7 t
    | ⟨8, _⟩ => iblk10 V c 8 t
    | ⟨9, _⟩ => out10_9 (iblk10 V c 0 t) (iblk10 V c 1 t) (iblk10 V c 2 t) (iblk10 V c 3 t) (iblk10 V c 4 t) (iblk10 V c 5 t) (iblk10 V c 6 t)
    | ⟨10, _⟩ => out10_10 (iblk10 V c 0 t) (iblk10 V c 1 t) (iblk10 V c 2 t) (iblk10 V c 3 t) (iblk10 V c 4 t) (iblk10 V c 5 t) (iblk10 V c 6 t) (iblk10 V c 7 t)
    | ⟨11, _⟩ => out10_11 (iblk10 V c 0 t) (iblk10 V c 1 t) (iblk10 V c 2 t) (iblk10 V c 3 t) (iblk10 V c 4 t) (iblk10 V c 5 t) (iblk10 V c 6 t) (iblk10 V c 8 t)
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-! What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = iblk10 V c 6 t := by dsimp only [dat10]
theorem after10_7 (c : Dev nD) (t : Fin cfg10.N) : (dat10 V c).after 7 t = iblk10 V c 7 t := by dsimp only [dat10]
theorem after10_8 (c : Dev nD) (t : Fin cfg10.N) : (dat10 V c).after 8 t = iblk10 V c 8 t := by dsimp only [dat10]
theorem after10_9 (c : Dev nD) (t : Fin cfg10.N) : (dat10 V c).after 9 t = out10_9 (iblk10 V c 0 t) (iblk10 V c 1 t) (iblk10 V c 2 t) (iblk10 V c 3 t) (iblk10 V c 4 t) (iblk10 V c 5 t) (iblk10 V c 6 t) := by dsimp only [dat10]
theorem after10_10 (c : Dev nD) (t : Fin cfg10.N) : (dat10 V c).after 10 t = out10_10 (iblk10 V c 0 t) (iblk10 V c 1 t) (iblk10 V c 2 t) (iblk10 V c 3 t) (iblk10 V c 4 t) (iblk10 V c 5 t) (iblk10 V c 6 t) (iblk10 V c 7 t) := by dsimp only [dat10]
theorem after10_11 (c : Dev nD) (t : Fin cfg10.N) : (dat10 V c).after 11 t = out10_11 (iblk10 V c 0 t) (iblk10 V c 1 t) (iblk10 V c 2 t) (iblk10 V c 3 t) (iblk10 V c 4 t) (iblk10 V c 5 t) (iblk10 V c 6 t) (iblk10 V c 8 t) := by dsimp only [dat10]

/-! Each input's current staging buffer holds the window's block at every point, whether the block was fetched at
    that point or is still there from the first point (the seven weight windows' block index never moves, so the
    block of the first point is the block of every point). -/
theorem found10_0 (c : Dev nD) (t : Fin cfg10.N) (d) : (dat10 V c).before 0 t d = iblk10 V c 0 t :=
  ((dat10 V c).before_in_eq_fetched 0 rfl (fun _ => rfl) (fun _ _ _ => rfl)
    (fun t => by rw [after10_0]; unfold Dat.blockOf iblk10; rw [A_eq10]; try rfl) t d).trans
    (by unfold Dat.fetched Dat.blockOf iblk10; rw [A_eq10]; try rfl)
theorem found10_1 (c : Dev nD) (t : Fin cfg10.N) (d) : (dat10 V c).before 1 t d = iblk10 V c 1 t :=
  ((dat10 V c).before_in_eq_fetched 1 rfl (fun _ => rfl) (fun _ _ _ => rfl)
    (fun t => by rw [after10_1]; unfold Dat.blockOf iblk10; rw [A_eq10]; try rfl) t d).trans
    (by unfold Dat.fetched Dat.blockOf iblk10; rw [A_eq10]; try rfl)
theorem found10_2 (c : Dev nD) (t : Fin cfg10.N) (d) : (dat10 V c).before 2 t d = iblk10 V c 2 t :=
  ((dat10 V c).before_in_eq_fetched 2 rfl (fun _ => rfl) (fun _ _ _ => rfl)
    (fun t => by rw [after10_2]; unfold Dat.blockOf iblk10; rw [A_eq10]; try rfl) t d).trans
    (by unfold Dat.fetched Dat.blockOf iblk10; rw [A_eq10]; try rfl)
theorem found10_3 (c : Dev nD) (t : Fin cfg10.N) (d) : (dat10 V c).before 3 t d = iblk10 V c 3 t :=
  ((dat10 V c).before_in_eq_fetched 3 rfl (fun _ => rfl) (fun _ _ _ => rfl)
    (fun t => by rw [after10_3]; unfold Dat.blockOf iblk10; rw [A_eq10]; try rfl) t d).trans
    (by unfold Dat.fetched Dat.blockOf iblk10; rw [A_eq10]; try rfl)
theorem found10_4 (c : Dev nD) (t : Fin cfg10.N) (d) : (dat10 V c).before 4 t d = iblk10 V c 4 t :=
  ((dat10 V c).before_in_eq_fetched 4 rfl (fun _ => rfl) (fun _ _ _ => rfl)
    (fun t => by rw [after10_4]; unfold Dat.blockOf iblk10; rw [A_eq10]; try rfl) t d).trans
    (by unfold Dat.fetched Dat.blockOf iblk10; rw [A_eq10]; try rfl)
theorem found10_5 (c : Dev nD) (t : Fin cfg10.N) (d) : (dat10 V c).before 5 t d = iblk10 V c 5 t :=
  ((dat10 V c).before_in_eq_fetched 5 rfl (fun _ => rfl) (fun _ _ _ => rfl)
    (fun t => by rw [after10_5]; unfold Dat.blockOf iblk10; rw [A_eq10]; try rfl) t d).trans
    (by unfold Dat.fetched Dat.blockOf iblk10; rw [A_eq10]; try rfl)
theorem found10_6 (c : Dev nD) (t : Fin cfg10.N) (d) : (dat10 V c).before 6 t d = iblk10 V c 6 t :=
  ((dat10 V c).before_in_eq_fetched 6 rfl (fun _ => rfl) (fun _ _ _ => rfl)
    (fun t => by rw [after10_6]; unfold Dat.blockOf iblk10; rw [A_eq10]; try rfl) t d).trans
    (by unfold Dat.fetched Dat.blockOf iblk10; rw [A_eq10]; try rfl)
theorem found10_7 (c : Dev nD) (t : Fin cfg10.N) (d) : (dat10 V c).before 7 t d = iblk10 V c 7 t :=
  ((dat10 V c).before_in_eq_fetched 7 rfl (fun _ => rfl) (fun _ _ _ => rfl)
    (fun t => by rw [after10_7]; unfold Dat.blockOf iblk10; rw [A_eq10]; try rfl) t d).trans
    (by unfold Dat.fetched Dat.blockOf iblk10; rw [A_eq10]; try rfl)
theorem found10_8 (c : Dev nD) (t : Fin cfg10.N) (d) : (dat10 V c).before 8 t d = iblk10 V c 8 t :=
  ((dat10 V c).before_in_eq_fetched 8 rfl (fun _ => rfl) (fun _ _ _ => rfl)
    (fun t => by rw [after10_8]; unfold Dat.blockOf iblk10; rw [A_eq10]; try rfl) t d).trans
    (by unfold Dat.fetched Dat.blockOf iblk10; rw [A_eq10]; try rfl)

/-! ## The body obligation -/

/-- What the body is called with at point `t`: the invariant, the debts, and the twelve staging buffers. -/
noncomputable def pre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d))
    ∗ (∃ d, owns (c : Thread nD τ) (st10_7 t) fullShare ((dat10 V c).before 7 t d))
    ∗ (∃ d, owns (c : Thread nD τ) (st10_8 t) fullShare ((dat10 V c).before 8 t d))
    ∗ (∃ d, owns (c : Thread nD τ) (st10_9 t) fullShare ((dat10 V c).before 9 t d))
    ∗ (∃ d, owns (c : Thread nD τ) (st10_10 t) fullShare ((dat10 V c).before 10 t d))
    ∗ (∃ d, owns (c : Thread nD τ) (st10_11 t) fullShare ((dat10 V c).before 11 t d)))

/-- What it returns. -/
noncomputable def post10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t)
    ∗ owns (c : Thread nD τ) (st10_7 t) fullShare ((dat10 V c).after 7 t)
    ∗ owns (c : Thread nD τ) (st10_8 t) fullShare ((dat10 V c).after 8 t)
    ∗ owns (c : Thread nD τ) (st10_9 t) fullShare ((dat10 V c).after 9 t)
    ∗ owns (c : Thread nD τ) (st10_10 t) fullShare ((dat10 V c).after 10 t)
    ∗ owns (c : Thread nD τ) (st10_11 t) fullShare ((dat10 V c).after 11 t))

/-- The body at any point: the input buffers hold their blocks, so the body's triple applies; the invariant and the
    debts pass through untouched. -/
theorem steps10 (c : Dev nD) (t : Fin cfg10.N) :
    pre10 V c t ⊢ wp frame (wpE (defs₀ (F := F)) Variants.none c none) Set.univ (bodyAt10 t) (fun _ => post10 V c t) := by
  unfold pre10 post10 bodyAt10
  simp only [found10_0, found10_1, found10_2, found10_3, found10_4, found10_5, found10_6, found10_7, found10_8]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6, after10_7, after10_8, after10_9, after10_10, after10_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (runs10 c Set.univ _ _ _ _ _ _ _ _ _ _ _ _ _ _ _ _ _ _ _ _ _ _ _ _ _ (iblk10 V c 0 t) (iblk10 V c 1 t) (iblk10 V c 2 t) (iblk10 V c 3 t) (iblk10 V c 4 t) (iblk10 V c 5 t) (iblk10 V c 6 t) (iblk10 V c 7 t) (iblk10 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation10 (c : Dev nD) : BodyObligation (dat10 (F := F) V c) (defs₀ (F := F)) Variants.none () Set.univ := fun t => by
  rw [bigSep_W10, bigSep_W10]
  exact steps10 V c t

end Cert.Kernel.Hand

end
-- ==== Proof.K.Reg11.lean ====
/-
  Region 11 of @main, the frame half: the edge-message kernel of a message-passing layer on its grid of 20 points.
  At a parameter V (the TensorCore's buffer contents when the region is entered) this file gives each window's block
  at a point, the contents of the result's staging buffer after the body (its one whole-block store of the payload of
  the seven loaded blocks), the body's triple on whole staging buffers, the pipeline's proof data and the body
  obligation at every point. Generic in the float instance.
-/
import proofs.«152161_j29669634081217_2_alg».proof.Proof.Gen.Kernel.Launch
import proofs.«152161_j29669634081217_2_alg».proof.Proof.Gen.Kernel.Skeleton
import proofs.«152161_j29669634081217_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 8000 rows: the structural look recurses once per coordinate of the long axis
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
noncomputable def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-! An input window's current staging buffer holds its block at every point, fetched there or not (the three edge
    arrays are fetched at every point, the four weight arrays at the first only: where a window is not fetched its
    block index has not moved), for any proof data whose array is V's and whose body leaves the block in place. -/

theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

theorem before11_5_of {c : Dev nD} (dat : Dat τ (Elt F) Unit ℕ (UR sig nD τ) ℕ cfg11 c) (hA : dat.A 5 = V c (Pipeline.arrRef spec11 5))
    (hafter : ∀ t, dat.after 5 t = iblk11 V c 5 t) (t : Fin cfg11.N) (d) : dat.before 5 t d = iblk11 V c 5 t :=
  (dat.before_in_eq_fetched 5 rfl (fun _ => rfl) (fun _ _ _ => rfl) (fun t => by rw [hafter]; unfold Dat.blockOf iblk11; rw [hA]; try rfl) t d).trans
    (by unfold Dat.fetched Dat.blockOf iblk11; rw [hA]; try rfl)

theorem before11_6_of {c : Dev nD} (dat : Dat τ (Elt F) Unit ℕ (UR sig nD τ) ℕ cfg11 c) (hA : dat.A 6 = V c (Pipeline.arrRef spec11 6))
    (hafter : ∀ t, dat.after 6 t = iblk11 V c 6 t) (t : Fin cfg11.N) (d) : dat.before 6 t d = iblk11 V c 6 t :=
  (dat.before_in_eq_fetched 6 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses: every load and the one store take a whole staging buffer -/

noncomputable abbrev r11_0 : Rect S8000x128 := Rect.unit (s := S8000x128) ![0, 0] S8000x128.size inb_S8000x128_S8000x128_0_0
noncomputable abbrev r11_1 : Rect S128x128 := Rect.unit (s := S128x128) ![0, 0] S128x128.size inb_S128x128_S128x128_0_0
noncomputable abbrev r11_2 : Rect S1x128 := Rect.unit (s := S1x128) ![0, 0] S1x128.size inb_S1x128_S1x128_0_0

/-! ## What the body leaves in the result window's buffer -/

/-- Window 7's staging buffer after the body, from the seven input windows' blocks (in window order: the edge
    features, the two gathered node terms, the first weight and bias, the second weight and bias): its one store. -/
noncomputable def out11_7 (x0 x1 x2 : Vec F S8000x128 .bf16) (x3 : Vec F S128x128 .f32) (x4 : Vec F S1x128 .f32)
    (x5 : Vec F S128x128 .f32) (x6 : Vec F S1x128 .f32) : Vec F S8000x128 .f32 :=
  View.canon [⟨r11_0, k11_pay1 (View.ld x0 r11_0) (View.ld x3 r11_1) (View.ld x1 r11_0) (View.ld x2 r11_0) (View.ld x4 r11_2)
    (View.ld x5 r11_1) (View.ld x6 r11_2)⟩]

/-- The store takes the whole buffer, so it covers it. -/
theorem cover11_7 (p0 : Vec F S8000x128 .f32) (y : S8000x128.Idx) :
    ∃ pc ∈ ([⟨r11_0, p0⟩] : List (View.Piece (Elt F) S8000x128 .f32)), y ∈ pc.1.set :=
  View.cover_of_tiled [⟨r11_0, p0⟩] S8000x128.size (by rfl) y

/-! ## The body's triple -/

set_option maxHeartbeats 4000000 in
/-- The kernel body on whole staging memrefs, the inputs' at read contents and the result's at anything, runs to the
    continuation holding the inputs' as they were and the result's at out11_7 of the inputs': the printed function is
    its skeleton, eight loads (the last one, of the result buffer, is never used) and one store. -/
theorem sound_kernel11 (c : Dev nD) (E : Set ℕ) (i : grid11.Coords)
    (arg1 : Memref sig .tc .vmem S8000x128 .bf16) (harg1 : arg1.IsWhole) (arg2 : Memref sig .tc .vmem S8000x128 .bf16) (harg2 : arg2.IsWhole)
    (arg3 : Memref sig .tc .vmem S8000x128 .bf16) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S8000x128 .f32) (harg8 : arg8.IsWhole)
    (x0 x1 x2 : Vec F S8000x128 .bf16) (x3 : Vec F S128x128 .f32) (x4 : Vec F S1x128 .f32)
    (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out11_7 x0 x1 x2 x3 x4 x5 x6)) -∗ K ⟨⟩))
      ⊢ wp frame (wpE (defs₀ (F := F)) Variants.none c none) E
          (cc11__edge_message_kernel i arg1 harg1 arg2 harg2 arg3 harg3 arg4 harg4 arg5 harg5 arg6 harg6 arg7 harg7 arg8 harg8) K := by
  simp only [cc11__edge_message_kernel_eq_skeleton]; unfold cc11__edge_message_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover11_7 _)

/-! ## The pipeline's proof data -/

/-- The proof data of pipeline 11 on core c: the arrays as the region finds them; after the body at point t each
    input's buffer at its block and the result's at out11_7 of the input blocks; the invariant is the scoped rest and
    the generator register, untouched; nothing owed; full shares. -/
noncomputable def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => iblk11 V c 6 t
    | ⟨7, _⟩ => out11_7 (iblk11 V c 0 t) (iblk11 V c 1 t) (iblk11 V c 2 t) (iblk11 V c 3 t) (iblk11 V c 4 t) (iblk11 V c 5 t) (iblk11 V c 6 t)
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = iblk11 V c 5 t := by dsimp only [dat11]
theorem after11_6 (c : Dev nD) (t : Fin cfg11.N) : (dat11 V c).after 6 t = iblk11 V c 6 t := by dsimp only [dat11]
theorem after11_7 (c : Dev nD) (t : Fin cfg11.N) : (dat11 V c).after 7 t =
    out11_7 (iblk11 V c 0 t) (iblk11 V c 1 t) (iblk11 V c 2 t) (iblk11 V c 3 t) (iblk11 V c 4 t) (iblk11 V c 5 t) (iblk11 V c 6 t) := by
  dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d
theorem before11_5 (c : Dev nD) (t : Fin cfg11.N) (d) : (dat11 V c).before 5 t d = iblk11 V c 5 t :=
  before11_5_of V (dat11 V c) (A_eq11 V c 5) (after11_5 V c) t d
theorem before11_6 (c : Dev nD) (t : Fin cfg11.N) (d) : (dat11 V c).before 6 t d = iblk11 V c 6 t :=
  before11_6_of V (dat11 V c) (A_eq11 V c 6) (after11_6 V c) t d

/-! ## The body obligation, at a generic point -/

/-- What the body is called with at point t, the windows one by one, -/
noncomputable def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d))
    ∗ (∃ d, owns (c : Thread nD τ) (st11_6 t) fullShare ((dat11 V c).before 6 t d))
    ∗ (∃ d, owns (c : Thread nD τ) (st11_7 t) fullShare ((dat11 V c).before 7 t d)))

/-- and what it returns. -/
noncomputable def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t)
    ∗ owns (c : Thread nD τ) (st11_6 t) fullShare ((dat11 V c).after 6 t)
    ∗ owns (c : Thread nD τ) (st11_7 t) fullShare ((dat11 V c).after 7 t))

set_option maxHeartbeats 1000000 in
/-- The body at any point: the inputs' memrefs hold their blocks, so the triple applies; the invariant and the core's
    debts pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4, before11_5, before11_6]
  rw [show (dat11 V c).Φ t.succ = (dat11 V c).Φ t.castSucc from rfl,
    show (dat11 V c).owesAt () t.succ = (dat11 V c).owesAt () t.castSucc from rfl,
    after11_0, after11_1, after11_2, after11_3, after11_4, after11_5, after11_6, after11_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel11 c Set.univ _ _ _ _ _ _ _ _ _ _ _ _ _ _ _ _ _ (iblk11 V c 0 t) (iblk11 V c 1 t) (iblk11 V c 2 t) (iblk11 V c 3 t)
    (iblk11 V c 4 t) (iblk11 V c 5 t) (iblk11 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.Kernel.Hand

end
-- ==== Proof.K.Reg12.lean ====
/-
  Region 12 of @main, the node-update kernel of the fifth message-passing layer, at an arbitrary content V of the
  TensorCore's buffers when the region is entered, for any float instance.

  The kernel reads nine windows (the node features and the aggregated messages in blocks of 4000 rows, then seven
  weight arrays each fetched whole once) and writes three (the new features, and their two projections for the next
  layer), each result block through one store that fills it.  This file states what each staging buffer holds after
  the body ran at a grid point, proves the body's separation-logic triple by running its memory operations, and
  packages both as the pipeline's body obligation.
-/
import proofs.«152161_j29669634081217_2_alg».proof.Proof.Gen.Kernel.Launch
import proofs.«152161_j29669634081217_2_alg».proof.Proof.Gen.Kernel.Skeleton
import proofs.«152161_j29669634081217_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows show -/

/-- The block of window w at grid point t, cut out of the window's array as the region finds it. -/
noncomputable def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-! ## The three rectangles the body touches: every access is of a whole staging buffer -/

/-- All of a 4000 × 128 buffer (a block of rows, and each result block). -/
noncomputable abbrev rowsAll12 : Rect S4000x128 := Rect.unit (s := S4000x128) ![0, 0] S4000x128.size inb_S4000x128_S4000x128_0_0
/-- All of a 128 × 128 buffer (a weight matrix). -/
noncomputable abbrev matAll12 : Rect S128x128 := Rect.unit (s := S128x128) ![0, 0] S128x128.size inb_S128x128_S128x128_0_0
/-- All of a 1 × 128 buffer (a bias). -/
noncomputable abbrev biasAll12 : Rect S1x128 := Rect.unit (s := S1x128) ![0, 0] S1x128.size inb_S1x128_S1x128_0_0

/-! ## What the body leaves in the three result buffers -/

/-- The new features, in single precision: the residual update of the features block `h` by the messages block
    `g`, through the five weight arrays of the update. -/
noncomputable def out12_9 (h g : Vec F S4000x128 .f32) (wh wa : Vec F S128x128 .f32) (b1 : Vec F S1x128 .f32)
    (w2 : Vec F S128x128 .f32) (b2 : Vec F S1x128 .f32) : Vec F S4000x128 .f32 :=
  View.canon [⟨rowsAll12, k12_pay3 (View.ld h rowsAll12) (View.ld wh matAll12) (View.ld g rowsAll12) (View.ld wa matAll12)
    (View.ld b1 biasAll12) (View.ld w2 matAll12) (View.ld b2 biasAll12)⟩]

/-- The new features' projection by the next layer's source-side matrix `ws`, in half precision. -/
noncomputable def out12_10 (h g : Vec F S4000x128 .f32) (wh wa : Vec F S128x128 .f32) (b1 : Vec F S1x128 .f32)
    (w2 : Vec F S128x128 .f32) (b2 : Vec F S1x128 .f32) (ws : Vec F S128x128 .f32) : Vec F S4000x128 .bf16 :=
  View.canon [⟨rowsAll12, k12_pay1 (k12_pay4 (View.ld h rowsAll12) (View.ld wh matAll12) (View.ld g rowsAll12) (View.ld wa matAll12)
    (View.ld b1 biasAll12) (View.ld w2 matAll12) (View.ld b2 biasAll12)) (k12_pay5 (View.ld ws matAll12))⟩]

/-- The new features' projection by the next layer's destination-side matrix `wd`, in half precision. -/
noncomputable def out12_11 (h g : Vec F S4000x128 .f32) (wh wa : Vec F S128x128 .f32) (b1 : Vec F S1x128 .f32)
    (w2 : Vec F S128x128 .f32) (b2 : Vec F S1x128 .f32) (wd : Vec F S128x128 .f32) : Vec F S4000x128 .bf16 :=
  View.canon [⟨rowsAll12, k12_pay2 (k12_pay4 (View.ld h rowsAll12) (View.ld wh matAll12) (View.ld g rowsAll12) (View.ld wa matAll12)
    (View.ld b1 biasAll12) (View.ld w2 matAll12) (View.ld b2 biasAll12)) (View.ld wd matAll12)⟩]

/-- One store through the whole-buffer rectangle covers the buffer: single precision. -/
theorem fills12_f32 (p : Vec F S4000x128 .f32) (y : S4000x128.Idx) :
    ∃ pc ∈ ([⟨rowsAll12, p⟩] : List (View.Piece (Elt F) S4000x128 .f32)), y ∈ pc.1.set :=
  View.cover_of_tiled [⟨rowsAll12, p⟩] S4000x128.size (by rfl) y

/-- One store through the whole-buffer rectangle covers the buffer: half precision. -/
theorem fills12_bf16 (p : Vec F S4000x128 .bf16) (y : S4000x128.Idx) :
    ∃ pc ∈ ([⟨rowsAll12, p⟩] : List (View.Piece (Elt F) S4000x128 .bf16)), y ∈ pc.1.set :=
  View.cover_of_tiled [⟨rowsAll12, p⟩] S4000x128.size (by rfl) y

/-! ## The body's triple -/

set_option maxHeartbeats 4000000 in
/-- The body on whole staging buffers, the nine inputs' reading `x0 … x8` and the three results' holding anything, runs
    to a state where the inputs' are as they were and each result's holds its `out12_w` of the inputs: the printed body
    and its printed part are their skeletons of memory operations, which are run one after the other; each result
    buffer ends as one write over its earlier content, and that write fills it. -/
theorem runs12 (c : Dev nD) (E : Set ℕ) (i : grid12.Coords) (a0 : Memref sig .tc .vmem S4000x128 .f32) (ha0 : a0.IsWhole) (a1 : Memref sig .tc .vmem S4000x128 .f32) (ha1 : a1.IsWhole) (a2 : Memref sig .tc .vmem S128x128 .f32) (ha2 : a2.IsWhole) (a3 : Memref sig .tc .vmem S128x128 .f32) (ha3 : a3.IsWhole) (a4 : Memref sig .tc .vmem S1x128 .f32) (ha4 : a4.IsWhole) (a5 : Memref sig .tc .vmem S128x128 .f32) (ha5 : a5.IsWhole) (a6 : Memref sig .tc .vmem S1x128 .f32) (ha6 : a6.IsWhole) (a7 : Memref sig .tc .vmem S128x128 .f32) (ha7 : a7.IsWhole) (a8 : Memref sig .tc .vmem S128x128 .f32) (ha8 : a8.IsWhole) (a9 : Memref sig .tc .vmem S4000x128 .f32) (ha9 : a9.IsWhole) (a10 : Memref sig .tc .vmem S4000x128 .bf16) (ha10 : a10.IsWhole) (a11 : Memref sig .tc .vmem S4000x128 .bf16) (ha11 : a11.IsWhole)
    (x0 : Vec F S4000x128 .f32) (x1 : Vec F S4000x128 .f32) (x2 : Vec F S128x128 .f32) (x3 : Vec F S128x128 .f32) (x4 : Vec F S1x128 .f32) (x5 : Vec F S128x128 .f32) (x6 : Vec F S1x128 .f32) (x7 : Vec F S128x128 .f32) (x8 : Vec F S128x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d) ∗ (∃ d, owns (c : Thread nD τ) a10 fullShare d) ∗ (∃ d, owns (c : Thread nD τ) a11 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare (out12_9 x0 x1 x2 x3 x4 x5 x6) ∗ owns (c : Thread nD τ) a10 fullShare (out12_10 x0 x1 x2 x3 x4 x5 x6 x7) ∗ owns (c : Thread nD τ) a11 fullShare (out12_11 x0 x1 x2 x3 x4 x5 x6 x8)) -∗ K ⟨⟩))
      ⊢ wp frame (wpE (defs₀ (F := F)) Variants.none c none) E (cc12__node_update_ab_kernel i a0 ha0 a1 ha1 a2 ha2 a3 ha3 a4 ha4 a5 ha5 a6 ha6 a7 ha7 a8 ha8 a9 ha9 a10 ha10 a11 ha11) K := by
  simp only [cc12__node_update_ab_kernel_eq_skeleton]; unfold cc12__node_update_ab_kernel_skel
  simp only [k12_part1_eq_skeleton]; unfold k12_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (fills12_f32 _)
  isplitl [H10]
  · iexists _; isplitr
    swap; · iexact H10
    ipureintro
    try dsimp only
    exact View.read_writes_eq_canon _ _ _ (fills12_bf16 _)
  iexists _; isplitr
  swap; · iexact H11
  ipureintro
  try dsimp only
  exact View.read_writes_eq_canon _ _ _ (fills12_bf16 _)

/-! ## The pipeline's proof data -/

/-- The proof data of this region's pipeline on core `c`: the arrays as the region finds them; after the body at
    point `t` each input's staging buffer still at its block and each result's at its `out12_w` of the input blocks;
    the invariant that nothing else is touched; full shares; nothing owed. -/
noncomputable def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => iblk12 V c 6 t
    | ⟨7, _⟩ => iblk12 V c 7 t
    | ⟨8, _⟩ => iblk12 V c 8 t
    | ⟨9, _⟩ => out12_9 (iblk12 V c 0 t) (iblk12 V c 1 t) (iblk12 V c 2 t) (iblk12 V c 3 t) (iblk12 V c 4 t) (iblk12 V c 5 t) (iblk12 V c 6 t)
    | ⟨10, _⟩ => out12_10 (iblk12 V c 0 t) (iblk12 V c 1 t) (iblk12 V c 2 t) (iblk12 V c 3 t) (iblk12 V c 4 t) (iblk12 V c 5 t) (iblk12 V c 6 t) (iblk12 V c 7 t)
    | ⟨11, _⟩ => out12_11 (iblk12 V c 0 t) (iblk12 V c 1 t) (iblk12 V c 2 t) (iblk12 V c 3 t) (iblk12 V c 4 t) (iblk12 V c 5 t) (iblk12 V c 6 t) (iblk12 V c 8 t)
  Φ _ := Pipeline.ΦA spec12 c
  q _ := fullShare
  owed _ := 0

/-- The proof data's arrays are the region-entry contents. -/
theorem A_eq12 (c : Dev nD) (w : Fin cfg12.W) : (dat12 V c).A w = V c (Pipeline.arrRef spec12 w) := by
  dsimp only [dat12]

/-! What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = iblk12 V c 5 t := by dsimp only [dat12]
theorem after12_6 (c : Dev nD) (t : Fin cfg12.N) : (dat12 V c).after 6 t = iblk12 V c 6 t := by dsimp only [dat12]
theorem after12_7 (c : Dev nD) (t : Fin cfg12.N) : (dat12 V c).after 7 t = iblk12 V c 7 t := by dsimp only [dat12]
theorem after12_8 (c : Dev nD) (t : Fin cfg12.N) : (dat12 V c).after 8 t = iblk12 V c 8 t := by dsimp only [dat12]
theorem after12_9 (c : Dev nD) (t : Fin cfg12.N) : (dat12 V c).after 9 t = out12_9 (iblk12 V c 0 t) (iblk12 V c 1 t) (iblk12 V c 2 t) (iblk12 V c 3 t) (iblk12 V c 4 t) (iblk12 V c 5 t) (iblk12 V c 6 t) := by dsimp only [dat12]
theorem after12_10 (c : Dev nD) (t : Fin cfg12.N) : (dat12 V c).after 10 t = out12_10 (iblk12 V c 0 t) (iblk12 V c 1 t) (iblk12 V c 2 t) (iblk12 V c 3 t) (iblk12 V c 4 t) (iblk12 V c 5 t) (iblk12 V c 6 t) (iblk12 V c 7 t) := by dsimp only [dat12]
theorem after12_11 (c : Dev nD) (t : Fin cfg12.N) : (dat12 V c).after 11 t = out12_11 (iblk12 V c 0 t) (iblk12 V c 1 t) (iblk12 V c 2 t) (iblk12 V c 3 t) (iblk12 V c 4 t) (iblk12 V c 5 t) (iblk12 V c 6 t) (iblk12 V c 8 t) := by dsimp only [dat12]

/-! Each input's current staging buffer holds the window's block at every point, whether the block was fetched at
    that point or is still there from the first point (the seven weight windows' block index never moves, so the
    block of the first point is the block of every point). -/
theorem found12_0 (c : Dev nD) (t : Fin cfg12.N) (d) : (dat12 V c).before 0 t d = iblk12 V c 0 t :=
  ((dat12 V c).before_in_eq_fetched 0 rfl (fun _ => rfl) (fun _ _ _ => rfl)
    (fun t => by rw [after12_0]; unfold Dat.blockOf iblk12; rw [A_eq12]; try rfl) t d).trans
    (by unfold Dat.fetched Dat.blockOf iblk12; rw [A_eq12]; try rfl)
theorem found12_1 (c : Dev nD) (t : Fin cfg12.N) (d) : (dat12 V c).before 1 t d = iblk12 V c 1 t :=
  ((dat12 V c).before_in_eq_fetched 1 rfl (fun _ => rfl) (fun _ _ _ => rfl)
    (fun t => by rw [after12_1]; unfold Dat.blockOf iblk12; rw [A_eq12]; try rfl) t d).trans
    (by unfold Dat.fetched Dat.blockOf iblk12; rw [A_eq12]; try rfl)
theorem found12_2 (c : Dev nD) (t : Fin cfg12.N) (d) : (dat12 V c).before 2 t d = iblk12 V c 2 t :=
  ((dat12 V c).before_in_eq_fetched 2 rfl (fun _ => rfl) (fun _ _ _ => rfl)
    (fun t => by rw [after12_2]; unfold Dat.blockOf iblk12; rw [A_eq12]; try rfl) t d).trans
    (by unfold Dat.fetched Dat.blockOf iblk12; rw [A_eq12]; try rfl)
theorem found12_3 (c : Dev nD) (t : Fin cfg12.N) (d) : (dat12 V c).before 3 t d = iblk12 V c 3 t :=
  ((dat12 V c).before_in_eq_fetched 3 rfl (fun _ => rfl) (fun _ _ _ => rfl)
    (fun t => by rw [after12_3]; unfold Dat.blockOf iblk12; rw [A_eq12]; try rfl) t d).trans
    (by unfold Dat.fetched Dat.blockOf iblk12; rw [A_eq12]; try rfl)
theorem found12_4 (c : Dev nD) (t : Fin cfg12.N) (d) : (dat12 V c).before 4 t d = iblk12 V c 4 t :=
  ((dat12 V c).before_in_eq_fetched 4 rfl (fun _ => rfl) (fun _ _ _ => rfl)
    (fun t => by rw [after12_4]; unfold Dat.blockOf iblk12; rw [A_eq12]; try rfl) t d).trans
    (by unfold Dat.fetched Dat.blockOf iblk12; rw [A_eq12]; try rfl)
theorem found12_5 (c : Dev nD) (t : Fin cfg12.N) (d) : (dat12 V c).before 5 t d = iblk12 V c 5 t :=
  ((dat12 V c).before_in_eq_fetched 5 rfl (fun _ => rfl) (fun _ _ _ => rfl)
    (fun t => by rw [after12_5]; unfold Dat.blockOf iblk12; rw [A_eq12]; try rfl) t d).trans
    (by unfold Dat.fetched Dat.blockOf iblk12; rw [A_eq12]; try rfl)
theorem found12_6 (c : Dev nD) (t : Fin cfg12.N) (d) : (dat12 V c).before 6 t d = iblk12 V c 6 t :=
  ((dat12 V c).before_in_eq_fetched 6 rfl (fun _ => rfl) (fun _ _ _ => rfl)
    (fun t => by rw [after12_6]; unfold Dat.blockOf iblk12; rw [A_eq12]; try rfl) t d).trans
    (by unfold Dat.fetched Dat.blockOf iblk12; rw [A_eq12]; try rfl)
theorem found12_7 (c : Dev nD) (t : Fin cfg12.N) (d) : (dat12 V c).before 7 t d = iblk12 V c 7 t :=
  ((dat12 V c).before_in_eq_fetched 7 rfl (fun _ => rfl) (fun _ _ _ => rfl)
    (fun t => by rw [after12_7]; unfold Dat.blockOf iblk12; rw [A_eq12]; try rfl) t d).trans
    (by unfold Dat.fetched Dat.blockOf iblk12; rw [A_eq12]; try rfl)
theorem found12_8 (c : Dev nD) (t : Fin cfg12.N) (d) : (dat12 V c).before 8 t d = iblk12 V c 8 t :=
  ((dat12 V c).before_in_eq_fetched 8 rfl (fun _ => rfl) (fun _ _ _ => rfl)
    (fun t => by rw [after12_8]; unfold Dat.blockOf iblk12; rw [A_eq12]; try rfl) t d).trans
    (by unfold Dat.fetched Dat.blockOf iblk12; rw [A_eq12]; try rfl)

/-! ## The body obligation -/

/-- What the body is called with at point `t`: the invariant, the debts, and the twelve staging buffers. -/
noncomputable def pre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d))
    ∗ (∃ d, owns (c : Thread nD τ) (st12_6 t) fullShare ((dat12 V c).before 6 t d))
    ∗ (∃ d, owns (c : Thread nD τ) (st12_7 t) fullShare ((dat12 V c).before 7 t d))
    ∗ (∃ d, owns (c : Thread nD τ) (st12_8 t) fullShare ((dat12 V c).before 8 t d))
    ∗ (∃ d, owns (c : Thread nD τ) (st12_9 t) fullShare ((dat12 V c).before 9 t d))
    ∗ (∃ d, owns (c : Thread nD τ) (st12_10 t) fullShare ((dat12 V c).before 10 t d))
    ∗ (∃ d, owns (c : Thread nD τ) (st12_11 t) fullShare ((dat12 V c).before 11 t d)))

/-- What it returns. -/
noncomputable def post12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t)
    ∗ owns (c : Thread nD τ) (st12_6 t) fullShare ((dat12 V c).after 6 t)
    ∗ owns (c : Thread nD τ) (st12_7 t) fullShare ((dat12 V c).after 7 t)
    ∗ owns (c : Thread nD τ) (st12_8 t) fullShare ((dat12 V c).after 8 t)
    ∗ owns (c : Thread nD τ) (st12_9 t) fullShare ((dat12 V c).after 9 t)
    ∗ owns (c : Thread nD τ) (st12_10 t) fullShare ((dat12 V c).after 10 t)
    ∗ owns (c : Thread nD τ) (st12_11 t) fullShare ((dat12 V c).after 11 t))

/-- The body at any point: the input buffers hold their blocks, so the body's triple applies; the invariant and the
    debts pass through untouched. -/
theorem steps12 (c : Dev nD) (t : Fin cfg12.N) :
    pre12 V c t ⊢ wp frame (wpE (defs₀ (F := F)) Variants.none c none) Set.univ (bodyAt12 t) (fun _ => post12 V c t) := by
  unfold pre12 post12 bodyAt12
  simp only [found12_0, found12_1, found12_2, found12_3, found12_4, found12_5, found12_6, found12_7, found12_8]
  rw [show (dat12 V c).Φ t.succ = (dat12 V c).Φ t.castSucc from rfl,
    show (dat12 V c).owesAt () t.succ = (dat12 V c).owesAt () t.castSucc from rfl,
    after12_0, after12_1, after12_2, after12_3, after12_4, after12_5, after12_6, after12_7, after12_8, after12_9, after12_10, after12_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (runs12 c Set.univ _ _ _ _ _ _ _ _ _ _ _ _ _ _ _ _ _ _ _ _ _ _ _ _ _ (iblk12 V c 0 t) (iblk12 V c 1 t) (iblk12 V c 2 t) (iblk12 V c 3 t) (iblk12 V c 4 t) (iblk12 V c 5 t) (iblk12 V c 6 t) (iblk12 V c 7 t) (iblk12 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation12 (c : Dev nD) : BodyObligation (dat12 (F := F) V c) (defs₀ (F := F)) Variants.none () Set.univ := fun t => by
  rw [bigSep_W12, bigSep_W12]
  exact steps12 V c t

end Cert.Kernel.Hand

end
-- ==== Proof.K.Reg13.lean ====
/-
  Region 13 of @main, the frame half: the edge-message kernel of a message-passing layer on its grid of 20 points.
  At a parameter V (the TensorCore's buffer contents when the region is entered) this file gives each window's block
  at a point, the contents of the result's staging buffer after the body (its one whole-block store of the payload of
  the seven loaded blocks), the body's triple on whole staging buffers, the pipeline's proof data and the body
  obligation at every point. Generic in the float instance.
-/
import proofs.«152161_j29669634081217_2_alg».proof.Proof.Gen.Kernel.Launch
import proofs.«152161_j29669634081217_2_alg».proof.Proof.Gen.Kernel.Skeleton
import proofs.«152161_j29669634081217_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 8000 rows: the structural look recurses once per coordinate of the long axis
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
noncomputable def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-! An input window's current staging buffer holds its block at every point, fetched there or not (the three edge
    arrays are fetched at every point, the four weight arrays at the first only: where a window is not fetched its
    block index has not moved), for any proof data whose array is V's and whose body leaves the block in place. -/

theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

theorem before13_3_of {c : Dev nD} (dat : Dat τ (Elt F) Unit ℕ (UR sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)

theorem before13_4_of {c : Dev nD} (dat : Dat τ (Elt F) Unit ℕ (UR sig nD τ) ℕ cfg13 c) (hA : dat.A 4 = V c (Pipeline.arrRef spec13 4))
    (hafter : ∀ t, dat.after 4 t = iblk13 V c 4 t) (t : Fin cfg13.N) (d) : dat.before 4 t d = iblk13 V c 4 t :=
  (dat.before_in_eq_fetched 4 rfl (fun _ => rfl) (fun _ _ _ => rfl) (fun t => by rw [hafter]; unfold Dat.blockOf iblk13; rw [hA]; try rfl) t d).trans
    (by unfold Dat.fetched Dat.blockOf iblk13; rw [hA]; try rfl)

theorem before13_5_of {c : Dev nD} (dat : Dat τ (Elt F) Unit ℕ (UR sig nD τ) ℕ cfg13 c) (hA : dat.A 5 = V c (Pipeline.arrRef spec13 5))
    (hafter : ∀ t, dat.after 5 t = iblk13 V c 5 t) (t : Fin cfg13.N) (d) : dat.before 5 t d = iblk13 V c 5 t :=
  (dat.before_in_eq_fetched 5 rfl (fun _ => rfl) (fun _ _ _ => rfl) (fun t => by rw [hafter]; unfold Dat.blockOf iblk13; rw [hA]; try rfl) t d).trans
    (by unfold Dat.fetched Dat.blockOf iblk13; rw [hA]; try rfl)

theorem before13_6_of {c : Dev nD} (dat : Dat τ (Elt F) Unit ℕ (UR sig nD τ) ℕ cfg13 c) (hA : dat.A 6 = V c (Pipeline.arrRef spec13 6))
    (hafter : ∀ t, dat.after 6 t = iblk13 V c 6 t) (t : Fin cfg13.N) (d) : dat.before 6 t d = iblk13 V c 6 t :=
  (dat.before_in_eq_fetched 6 rfl (fun _ => rfl) (fun _ _ _ => rfl) (fun t => by rw [hafter]; unfold Dat.blockOf iblk13; rw [hA]; try rfl) t d).trans
    (by unfold Dat.fetched Dat.blockOf iblk13; rw [hA]; try rfl)

/-! ## The body's accesses: every load and the one store take a whole staging buffer -/

noncomputable abbrev r13_0 : Rect S8000x128 := Rect.unit (s := S8000x128) ![0, 0] S8000x128.size inb_S8000x128_S8000x128_0_0
noncomputable abbrev r13_1 : Rect S128x128 := Rect.unit (s := S128x128) ![0, 0] S128x128.size inb_S128x128_S128x128_0_0
noncomputable abbrev r13_2 : Rect S1x128 := Rect.unit (s := S1x128) ![0, 0] S1x128.size inb_S1x128_S1x128_0_0

/-! ## What the body leaves in the result window's buffer -/

/-- Window 7's staging buffer after the body, from the seven input windows' blocks (in window order: the edge
    features, the two gathered node terms, the first weight and bias, the second weight and bias): its one store. -/
noncomputable def out13_7 (x0 x1 x2 : Vec F S8000x128 .bf16) (x3 : Vec F S128x128 .f32) (x4 : Vec F S1x128 .f32)
    (x5 : Vec F S128x128 .f32) (x6 : Vec F S1x128 .f32) : Vec F S8000x128 .f32 :=
  View.canon [⟨r13_0, k13_pay1 (View.ld x0 r13_0) (View.ld x3 r13_1) (View.ld x1 r13_0) (View.ld x2 r13_0) (View.ld x4 r13_2)
    (View.ld x5 r13_1) (View.ld x6 r13_2)⟩]

/-- The store takes the whole buffer, so it covers it. -/
theorem cover13_7 (p0 : Vec F S8000x128 .f32) (y : S8000x128.Idx) :
    ∃ pc ∈ ([⟨r13_0, p0⟩] : List (View.Piece (Elt F) S8000x128 .f32)), y ∈ pc.1.set :=
  View.cover_of_tiled [⟨r13_0, p0⟩] S8000x128.size (by rfl) y

/-! ## The body's triple -/

set_option maxHeartbeats 4000000 in
/-- The kernel body on whole staging memrefs, the inputs' at read contents and the result's at anything, runs to the
    continuation holding the inputs' as they were and the result's at out13_7 of the inputs': the printed function is
    its skeleton, eight loads (the last one, of the result buffer, is never used) and one store. -/
theorem sound_kernel13 (c : Dev nD) (E : Set ℕ) (i : grid13.Coords)
    (arg1 : Memref sig .tc .vmem S8000x128 .bf16) (harg1 : arg1.IsWhole) (arg2 : Memref sig .tc .vmem S8000x128 .bf16) (harg2 : arg2.IsWhole)
    (arg3 : Memref sig .tc .vmem S8000x128 .bf16) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S8000x128 .f32) (harg8 : arg8.IsWhole)
    (x0 x1 x2 : Vec F S8000x128 .bf16) (x3 : Vec F S128x128 .f32) (x4 : Vec F S1x128 .f32)
    (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out13_7 x0 x1 x2 x3 x4 x5 x6)) -∗ K ⟨⟩))
      ⊢ wp frame (wpE (defs₀ (F := F)) Variants.none c none) E
          (cc13__edge_message_kernel i arg1 harg1 arg2 harg2 arg3 harg3 arg4 harg4 arg5 harg5 arg6 harg6 arg7 harg7 arg8 harg8) K := by
  simp only [cc13__edge_message_kernel_eq_skeleton]; unfold cc13__edge_message_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover13_7 _)

/-! ## The pipeline's proof data -/

/-- The proof data of pipeline 13 on core c: the arrays as the region finds them; after the body at point t each
    input's buffer at its block and the result's at out13_7 of the input blocks; the invariant is the scoped rest and
    the generator register, untouched; nothing owed; full shares. -/
noncomputable def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => iblk13 V c 5 t
    | ⟨6, _⟩ => iblk13 V c 6 t
    | ⟨7, _⟩ => out13_7 (iblk13 V c 0 t) (iblk13 V c 1 t) (iblk13 V c 2 t) (iblk13 V c 3 t) (iblk13 V c 4 t) (iblk13 V c 5 t) (iblk13 V c 6 t)
  Φ _ := Pipeline.ΦA spec13 c
  q _ := fullShare
  owed _ := 0

/-- The proof data's arrays are the region-entry contents. -/
theorem A_eq13 (c : Dev nD) (w : Fin cfg13.W) : (dat13 V c).A w = V c (Pipeline.arrRef spec13 w) := by
  dsimp only [dat13]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = iblk13 V c 4 t := by dsimp only [dat13]
theorem after13_5 (c : Dev nD) (t : Fin cfg13.N) : (dat13 V c).after 5 t = iblk13 V c 5 t := by dsimp only [dat13]
theorem after13_6 (c : Dev nD) (t : Fin cfg13.N) : (dat13 V c).after 6 t = iblk13 V c 6 t := by dsimp only [dat13]
theorem after13_7 (c : Dev nD) (t : Fin cfg13.N) : (dat13 V c).after 7 t =
    out13_7 (iblk13 V c 0 t) (iblk13 V c 1 t) (iblk13 V c 2 t) (iblk13 V c 3 t) (iblk13 V c 4 t) (iblk13 V c 5 t) (iblk13 V c 6 t) := by
  dsimp only [dat13]

/-- Each input's current staging buffer holds its block at every point, fetched there or not. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d
theorem before13_4 (c : Dev nD) (t : Fin cfg13.N) (d) : (dat13 V c).before 4 t d = iblk13 V c 4 t :=
  before13_4_of V (dat13 V c) (A_eq13 V c 4) (after13_4 V c) t d
theorem before13_5 (c : Dev nD) (t : Fin cfg13.N) (d) : (dat13 V c).before 5 t d = iblk13 V c 5 t :=
  before13_5_of V (dat13 V c) (A_eq13 V c 5) (after13_5 V c) t d
theorem before13_6 (c : Dev nD) (t : Fin cfg13.N) (d) : (dat13 V c).before 6 t d = iblk13 V c 6 t :=
  before13_6_of V (dat13 V c) (A_eq13 V c 6) (after13_6 V c) t d

/-! ## The body obligation, at a generic point -/

/-- What the body is called with at point t, the windows one by one, -/
noncomputable def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d))
    ∗ (∃ d, owns (c : Thread nD τ) (st13_5 t) fullShare ((dat13 V c).before 5 t d))
    ∗ (∃ d, owns (c : Thread nD τ) (st13_6 t) fullShare ((dat13 V c).before 6 t d))
    ∗ (∃ d, owns (c : Thread nD τ) (st13_7 t) fullShare ((dat13 V c).before 7 t d)))

/-- and what it returns. -/
noncomputable def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t)
    ∗ owns (c : Thread nD τ) (st13_5 t) fullShare ((dat13 V c).after 5 t)
    ∗ owns (c : Thread nD τ) (st13_6 t) fullShare ((dat13 V c).after 6 t)
    ∗ owns (c : Thread nD τ) (st13_7 t) fullShare ((dat13 V c).after 7 t))

set_option maxHeartbeats 1000000 in
/-- The body at any point: the inputs' memrefs hold their blocks, so the triple applies; the invariant and the core's
    debts pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3, before13_4, before13_5, before13_6]
  rw [show (dat13 V c).Φ t.succ = (dat13 V c).Φ t.castSucc from rfl,
    show (dat13 V c).owesAt () t.succ = (dat13 V c).owesAt () t.castSucc from rfl,
    after13_0, after13_1, after13_2, after13_3, after13_4, after13_5, after13_6, after13_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel13 c Set.univ _ _ _ _ _ _ _ _ _ _ _ _ _ _ _ _ _ (iblk13 V c 0 t) (iblk13 V c 1 t) (iblk13 V c 2 t) (iblk13 V c 3 t)
    (iblk13 V c 4 t) (iblk13 V c 5 t) (iblk13 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation13 (c : Dev nD) : BodyObligation (dat13 (F := F) V c) (defs₀ (F := F)) Variants.none () Set.univ := fun t => by
  rw [bigSep_W13, bigSep_W13]
  exact sound_body13 V c t

end Cert.Kernel.Hand

end
-- ==== Proof.K.Reg14.lean ====
/-
  Region 14 of @main, the node-update kernel of the sixth message-passing layer, at an arbitrary content V of the
  TensorCore's buffers when the region is entered, for any float instance.

  The kernel reads nine windows (the node features and the aggregated messages in blocks of 4000 rows, then seven
  weight arrays each fetched whole once) and writes three (the new features, and their two projections for the next
  layer), each result block through one store that fills it.  This file states what each staging buffer holds after
  the body ran at a grid point, proves the body's separation-logic triple by running its memory operations, and
  packages both as the pipeline's body obligation.
-/
import proofs.«152161_j29669634081217_2_alg».proof.Proof.Gen.Kernel.Launch
import proofs.«152161_j29669634081217_2_alg».proof.Proof.Gen.Kernel.Skeleton
import proofs.«152161_j29669634081217_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows show -/

/-- The block of window w at grid point t, cut out of the window's array as the region finds it. -/
noncomputable def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-! ## The three rectangles the body touches: every access is of a whole staging buffer -/

/-- All of a 4000 × 128 buffer (a block of rows, and each result block). -/
noncomputable abbrev rowsAll14 : Rect S4000x128 := Rect.unit (s := S4000x128) ![0, 0] S4000x128.size inb_S4000x128_S4000x128_0_0
/-- All of a 128 × 128 buffer (a weight matrix). -/
noncomputable abbrev matAll14 : Rect S128x128 := Rect.unit (s := S128x128) ![0, 0] S128x128.size inb_S128x128_S128x128_0_0
/-- All of a 1 × 128 buffer (a bias). -/
noncomputable abbrev biasAll14 : Rect S1x128 := Rect.unit (s := S1x128) ![0, 0] S1x128.size inb_S1x128_S1x128_0_0

/-! ## What the body leaves in the three result buffers -/

/-- The new features, in single precision: the residual update of the features block `h` by the messages block
    `g`, through the five weight arrays of the update. -/
noncomputable def out14_9 (h g : Vec F S4000x128 .f32) (wh wa : Vec F S128x128 .f32) (b1 : Vec F S1x128 .f32)
    (w2 : Vec F S128x128 .f32) (b2 : Vec F S1x128 .f32) : Vec F S4000x128 .f32 :=
  View.canon [⟨rowsAll14, k14_pay3 (View.ld h rowsAll14) (View.ld wh matAll14) (View.ld g rowsAll14) (View.ld wa matAll14)
    (View.ld b1 biasAll14) (View.ld w2 matAll14) (View.ld b2 biasAll14)⟩]

/-- The new features' projection by the next layer's source-side matrix `ws`, in half precision. -/
noncomputable def out14_10 (h g : Vec F S4000x128 .f32) (wh wa : Vec F S128x128 .f32) (b1 : Vec F S1x128 .f32)
    (w2 : Vec F S128x128 .f32) (b2 : Vec F S1x128 .f32) (ws : Vec F S128x128 .f32) : Vec F S4000x128 .bf16 :=
  View.canon [⟨rowsAll14, k14_pay1 (k14_pay4 (View.ld h rowsAll14) (View.ld wh matAll14) (View.ld g rowsAll14) (View.ld wa matAll14)
    (View.ld b1 biasAll14) (View.ld w2 matAll14) (View.ld b2 biasAll14)) (k14_pay5 (View.ld ws matAll14))⟩]

/-- The new features' projection by the next layer's destination-side matrix `wd`, in half precision. -/
noncomputable def out14_11 (h g : Vec F S4000x128 .f32) (wh wa : Vec F S128x128 .f32) (b1 : Vec F S1x128 .f32)
    (w2 : Vec F S128x128 .f32) (b2 : Vec F S1x128 .f32) (wd : Vec F S128x128 .f32) : Vec F S4000x128 .bf16 :=
  View.canon [⟨rowsAll14, k14_pay2 (k14_pay4 (View.ld h rowsAll14) (View.ld wh matAll14) (View.ld g rowsAll14) (View.ld wa matAll14)
    (View.ld b1 biasAll14) (View.ld w2 matAll14) (View.ld b2 biasAll14)) (View.ld wd matAll14)⟩]

/-- One store through the whole-buffer rectangle covers the buffer: single precision. -/
theorem fills14_f32 (p : Vec F S4000x128 .f32) (y : S4000x128.Idx) :
    ∃ pc ∈ ([⟨rowsAll14, p⟩] : List (View.Piece (Elt F) S4000x128 .f32)), y ∈ pc.1.set :=
  View.cover_of_tiled [⟨rowsAll14, p⟩] S4000x128.size (by rfl) y

/-- One store through the whole-buffer rectangle covers the buffer: half precision. -/
theorem fills14_bf16 (p : Vec F S4000x128 .bf16) (y : S4000x128.Idx) :
    ∃ pc ∈ ([⟨rowsAll14, p⟩] : List (View.Piece (Elt F) S4000x128 .bf16)), y ∈ pc.1.set :=
  View.cover_of_tiled [⟨rowsAll14, p⟩] S4000x128.size (by rfl) y

/-! ## The body's triple -/

set_option maxHeartbeats 4000000 in
/-- The body on whole staging buffers, the nine inputs' reading `x0 … x8` and the three results' holding anything, runs
    to a state where the inputs' are as they were and each result's holds its `out14_w` of the inputs: the printed body
    and its printed part are their skeletons of memory operations, which are run one after the other; each result
    buffer ends as one write over its earlier content, and that write fills it. -/
theorem runs14 (c : Dev nD) (E : Set ℕ) (i : grid14.Coords) (a0 : Memref sig .tc .vmem S4000x128 .f32) (ha0 : a0.IsWhole) (a1 : Memref sig .tc .vmem S4000x128 .f32) (ha1 : a1.IsWhole) (a2 : Memref sig .tc .vmem S128x128 .f32) (ha2 : a2.IsWhole) (a3 : Memref sig .tc .vmem S128x128 .f32) (ha3 : a3.IsWhole) (a4 : Memref sig .tc .vmem S1x128 .f32) (ha4 : a4.IsWhole) (a5 : Memref sig .tc .vmem S128x128 .f32) (ha5 : a5.IsWhole) (a6 : Memref sig .tc .vmem S1x128 .f32) (ha6 : a6.IsWhole) (a7 : Memref sig .tc .vmem S128x128 .f32) (ha7 : a7.IsWhole) (a8 : Memref sig .tc .vmem S128x128 .f32) (ha8 : a8.IsWhole) (a9 : Memref sig .tc .vmem S4000x128 .f32) (ha9 : a9.IsWhole) (a10 : Memref sig .tc .vmem S4000x128 .bf16) (ha10 : a10.IsWhole) (a11 : Memref sig .tc .vmem S4000x128 .bf16) (ha11 : a11.IsWhole)
    (x0 : Vec F S4000x128 .f32) (x1 : Vec F S4000x128 .f32) (x2 : Vec F S128x128 .f32) (x3 : Vec F S128x128 .f32) (x4 : Vec F S1x128 .f32) (x5 : Vec F S128x128 .f32) (x6 : Vec F S1x128 .f32) (x7 : Vec F S128x128 .f32) (x8 : Vec F S128x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d) ∗ (∃ d, owns (c : Thread nD τ) a10 fullShare d) ∗ (∃ d, owns (c : Thread nD τ) a11 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare (out14_9 x0 x1 x2 x3 x4 x5 x6) ∗ owns (c : Thread nD τ) a10 fullShare (out14_10 x0 x1 x2 x3 x4 x5 x6 x7) ∗ owns (c : Thread nD τ) a11 fullShare (out14_11 x0 x1 x2 x3 x4 x5 x6 x8)) -∗ K ⟨⟩))
      ⊢ wp frame (wpE (defs₀ (F := F)) Variants.none c none) E (cc14__node_update_ab_kernel i a0 ha0 a1 ha1 a2 ha2 a3 ha3 a4 ha4 a5 ha5 a6 ha6 a7 ha7 a8 ha8 a9 ha9 a10 ha10 a11 ha11) K := by
  simp only [cc14__node_update_ab_kernel_eq_skeleton]; unfold cc14__node_update_ab_kernel_skel
  simp only [k14_part1_eq_skeleton]; unfold k14_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (fills14_f32 _)
  isplitl [H10]
  · iexists _; isplitr
    swap; · iexact H10
    ipureintro
    try dsimp only
    exact View.read_writes_eq_canon _ _ _ (fills14_bf16 _)
  iexists _; isplitr
  swap; · iexact H11
  ipureintro
  try dsimp only
  exact View.read_writes_eq_canon _ _ _ (fills14_bf16 _)

/-! ## The pipeline's proof data -/

/-- The proof data of this region's pipeline on core `c`: the arrays as the region finds them; after the body at
    point `t` each input's staging buffer still at its block and each result's at its `out14_w` of the input blocks;
    the invariant that nothing else is touched; full shares; nothing owed. -/
noncomputable def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => iblk14 V c 4 t
    | ⟨5, _⟩ => iblk14 V c 5 t
    | ⟨6, _⟩ => iblk14 V c 6 t
    | ⟨7, _⟩ => iblk14 V c 7 t
    | ⟨8, _⟩ => iblk14 V c 8 t
    | ⟨9, _⟩ => out14_9 (iblk14 V c 0 t) (iblk14 V c 1 t) (iblk14 V c 2 t) (iblk14 V c 3 t) (iblk14 V c 4 t) (iblk14 V c 5 t) (iblk14 V c 6 t)
    | ⟨10, _⟩ => out14_10 (iblk14 V c 0 t) (iblk14 V c 1 t) (iblk14 V c 2 t) (iblk14 V c 3 t) (iblk14 V c 4 t) (iblk14 V c 5 t) (iblk14 V c 6 t) (iblk14 V c 7 t)
    | ⟨11, _⟩ => out14_11 (iblk14 V c 0 t) (iblk14 V c 1 t) (iblk14 V c 2 t) (iblk14 V c 3 t) (iblk14 V c 4 t) (iblk14 V c 5 t) (iblk14 V c 6 t) (iblk14 V c 8 t)
  Φ _ := Pipeline.ΦA spec14 c
  q _ := fullShare
  owed _ := 0

/-- The proof data's arrays are the region-entry contents. -/
theorem A_eq14 (c : Dev nD) (w : Fin cfg14.W) : (dat14 V c).A w = V c (Pipeline.arrRef spec14 w) := by
  dsimp only [dat14]

/-! What the body leaves, window by window. -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = iblk14 V c 4 t := by dsimp only [dat14]
theorem after14_5 (c : Dev nD) (t : Fin cfg14.N) : (dat14 V c).after 5 t = iblk14 V c 5 t := by dsimp only [dat14]
theorem after14_6 (c : Dev nD) (t : Fin cfg14.N) : (dat14 V c).after 6 t = iblk14 V c 6 t := by dsimp only [dat14]
theorem after14_7 (c : Dev nD) (t : Fin cfg14.N) : (dat14 V c).after 7 t = iblk14 V c 7 t := by dsimp only [dat14]
theorem after14_8 (c : Dev nD) (t : Fin cfg14.N) : (dat14 V c).after 8 t = iblk14 V c 8 t := by dsimp only [dat14]
theorem after14_9 (c : Dev nD) (t : Fin cfg14.N) : (dat14 V c).after 9 t = out14_9 (iblk14 V c 0 t) (iblk14 V c 1 t) (iblk14 V c 2 t) (iblk14 V c 3 t) (iblk14 V c 4 t) (iblk14 V c 5 t) (iblk14 V c 6 t) := by dsimp only [dat14]
theorem after14_10 (c : Dev nD) (t : Fin cfg14.N) : (dat14 V c).after 10 t = out14_10 (iblk14 V c 0 t) (iblk14 V c 1 t) (iblk14 V c 2 t) (iblk14 V c 3 t) (iblk14 V c 4 t) (iblk14 V c 5 t) (iblk14 V c 6 t) (iblk14 V c 7 t) := by dsimp only [dat14]
theorem after14_11 (c : Dev nD) (t : Fin cfg14.N) : (dat14 V c).after 11 t = out14_11 (iblk14 V c 0 t) (iblk14 V c 1 t) (iblk14 V c 2 t) (iblk14 V c 3 t) (iblk14 V c 4 t) (iblk14 V c 5 t) (iblk14 V c 6 t) (iblk14 V c 8 t) := by dsimp only [dat14]

/-! Each input's current staging buffer holds the window's block at every point, whether the block was fetched at
    that point or is still there from the first point (the seven weight windows' block index never moves, so the
    block of the first point is the block of every point). -/
theorem found14_0 (c : Dev nD) (t : Fin cfg14.N) (d) : (dat14 V c).before 0 t d = iblk14 V c 0 t :=
  ((dat14 V c).before_in_eq_fetched 0 rfl (fun _ => rfl) (fun _ _ _ => rfl)
    (fun t => by rw [after14_0]; unfold Dat.blockOf iblk14; rw [A_eq14]; try rfl) t d).trans
    (by unfold Dat.fetched Dat.blockOf iblk14; rw [A_eq14]; try rfl)
theorem found14_1 (c : Dev nD) (t : Fin cfg14.N) (d) : (dat14 V c).before 1 t d = iblk14 V c 1 t :=
  ((dat14 V c).before_in_eq_fetched 1 rfl (fun _ => rfl) (fun _ _ _ => rfl)
    (fun t => by rw [after14_1]; unfold Dat.blockOf iblk14; rw [A_eq14]; try rfl) t d).trans
    (by unfold Dat.fetched Dat.blockOf iblk14; rw [A_eq14]; try rfl)
theorem found14_2 (c : Dev nD) (t : Fin cfg14.N) (d) : (dat14 V c).before 2 t d = iblk14 V c 2 t :=
  ((dat14 V c).before_in_eq_fetched 2 rfl (fun _ => rfl) (fun _ _ _ => rfl)
    (fun t => by rw [after14_2]; unfold Dat.blockOf iblk14; rw [A_eq14]; try rfl) t d).trans
    (by unfold Dat.fetched Dat.blockOf iblk14; rw [A_eq14]; try rfl)
theorem found14_3 (c : Dev nD) (t : Fin cfg14.N) (d) : (dat14 V c).before 3 t d = iblk14 V c 3 t :=
  ((dat14 V c).before_in_eq_fetched 3 rfl (fun _ => rfl) (fun _ _ _ => rfl)
    (fun t => by rw [after14_3]; unfold Dat.blockOf iblk14; rw [A_eq14]; try rfl) t d).trans
    (by unfold Dat.fetched Dat.blockOf iblk14; rw [A_eq14]; try rfl)
theorem found14_4 (c : Dev nD) (t : Fin cfg14.N) (d) : (dat14 V c).before 4 t d = iblk14 V c 4 t :=
  ((dat14 V c).before_in_eq_fetched 4 rfl (fun _ => rfl) (fun _ _ _ => rfl)
    (fun t => by rw [after14_4]; unfold Dat.blockOf iblk14; rw [A_eq14]; try rfl) t d).trans
    (by unfold Dat.fetched Dat.blockOf iblk14; rw [A_eq14]; try rfl)
theorem found14_5 (c : Dev nD) (t : Fin cfg14.N) (d) : (dat14 V c).before 5 t d = iblk14 V c 5 t :=
  ((dat14 V c).before_in_eq_fetched 5 rfl (fun _ => rfl) (fun _ _ _ => rfl)
    (fun t => by rw [after14_5]; unfold Dat.blockOf iblk14; rw [A_eq14]; try rfl) t d).trans
    (by unfold Dat.fetched Dat.blockOf iblk14; rw [A_eq14]; try rfl)
theorem found14_6 (c : Dev nD) (t : Fin cfg14.N) (d) : (dat14 V c).before 6 t d = iblk14 V c 6 t :=
  ((dat14 V c).before_in_eq_fetched 6 rfl (fun _ => rfl) (fun _ _ _ => rfl)
    (fun t => by rw [after14_6]; unfold Dat.blockOf iblk14; rw [A_eq14]; try rfl) t d).trans
    (by unfold Dat.fetched Dat.blockOf iblk14; rw [A_eq14]; try rfl)
theorem found14_7 (c : Dev nD) (t : Fin cfg14.N) (d) : (dat14 V c).before 7 t d = iblk14 V c 7 t :=
  ((dat14 V c).before_in_eq_fetched 7 rfl (fun _ => rfl) (fun _ _ _ => rfl)
    (fun t => by rw [after14_7]; unfold Dat.blockOf iblk14; rw [A_eq14]; try rfl) t d).trans
    (by unfold Dat.fetched Dat.blockOf iblk14; rw [A_eq14]; try rfl)
theorem found14_8 (c : Dev nD) (t : Fin cfg14.N) (d) : (dat14 V c).before 8 t d = iblk14 V c 8 t :=
  ((dat14 V c).before_in_eq_fetched 8 rfl (fun _ => rfl) (fun _ _ _ => rfl)
    (fun t => by rw [after14_8]; unfold Dat.blockOf iblk14; rw [A_eq14]; try rfl) t d).trans
    (by unfold Dat.fetched Dat.blockOf iblk14; rw [A_eq14]; try rfl)

/-! ## The body obligation -/

/-- What the body is called with at point `t`: the invariant, the debts, and the twelve staging buffers. -/
noncomputable def pre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d))
    ∗ (∃ d, owns (c : Thread nD τ) (st14_5 t) fullShare ((dat14 V c).before 5 t d))
    ∗ (∃ d, owns (c : Thread nD τ) (st14_6 t) fullShare ((dat14 V c).before 6 t d))
    ∗ (∃ d, owns (c : Thread nD τ) (st14_7 t) fullShare ((dat14 V c).before 7 t d))
    ∗ (∃ d, owns (c : Thread nD τ) (st14_8 t) fullShare ((dat14 V c).before 8 t d))
    ∗ (∃ d, owns (c : Thread nD τ) (st14_9 t) fullShare ((dat14 V c).before 9 t d))
    ∗ (∃ d, owns (c : Thread nD τ) (st14_10 t) fullShare ((dat14 V c).before 10 t d))
    ∗ (∃ d, owns (c : Thread nD τ) (st14_11 t) fullShare ((dat14 V c).before 11 t d)))

/-- What it returns. -/
noncomputable def post14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t)
    ∗ owns (c : Thread nD τ) (st14_5 t) fullShare ((dat14 V c).after 5 t)
    ∗ owns (c : Thread nD τ) (st14_6 t) fullShare ((dat14 V c).after 6 t)
    ∗ owns (c : Thread nD τ) (st14_7 t) fullShare ((dat14 V c).after 7 t)
    ∗ owns (c : Thread nD τ) (st14_8 t) fullShare ((dat14 V c).after 8 t)
    ∗ owns (c : Thread nD τ) (st14_9 t) fullShare ((dat14 V c).after 9 t)
    ∗ owns (c : Thread nD τ) (st14_10 t) fullShare ((dat14 V c).after 10 t)
    ∗ owns (c : Thread nD τ) (st14_11 t) fullShare ((dat14 V c).after 11 t))

/-- The body at any point: the input buffers hold their blocks, so the body's triple applies; the invariant and the
    debts pass through untouched. -/
theorem steps14 (c : Dev nD) (t : Fin cfg14.N) :
    pre14 V c t ⊢ wp frame (wpE (defs₀ (F := F)) Variants.none c none) Set.univ (bodyAt14 t) (fun _ => post14 V c t) := by
  unfold pre14 post14 bodyAt14
  simp only [found14_0, found14_1, found14_2, found14_3, found14_4, found14_5, found14_6, found14_7, found14_8]
  rw [show (dat14 V c).Φ t.succ = (dat14 V c).Φ t.castSucc from rfl,
    show (dat14 V c).owesAt () t.succ = (dat14 V c).owesAt () t.castSucc from rfl,
    after14_0, after14_1, after14_2, after14_3, after14_4, after14_5, after14_6, after14_7, after14_8, after14_9, after14_10, after14_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (runs14 c Set.univ _ _ _ _ _ _ _ _ _ _ _ _ _ _ _ _ _ _ _ _ _ _ _ _ _ (iblk14 V c 0 t) (iblk14 V c 1 t) (iblk14 V c 2 t) (iblk14 V c 3 t) (iblk14 V c 4 t) (iblk14 V c 5 t) (iblk14 V c 6 t) (iblk14 V c 7 t) (iblk14 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation14 (c : Dev nD) : BodyObligation (dat14 (F := F) V c) (defs₀ (F := F)) Variants.none () Set.univ := fun t => by
  rw [bigSep_W14, bigSep_W14]
  exact steps14 V c t

end Cert.Kernel.Hand

end
-- ==== Proof.K.Reg15.lean ====
/-
  Region 15 of @main, the decoder kernel: the frame half, for any float instance.

  Each grid point hands the body ten whole staging buffers: a block of 4000 feature rows, the matching block of
  the four extra columns, the seven weight and bias arrays (whole, fetched at the first point and kept), and the
  result block. The body reads the nine inputs whole and writes the result block whole with one store, so the
  result buffer after the body is a function of the nine input blocks alone.
-/
import proofs.«152161_j29669634081217_2_alg».proof.Proof.Gen.Kernel.Launch
import proofs.«152161_j29669634081217_2_alg».proof.Proof.Gen.Kernel.Skeleton
import proofs.«152161_j29669634081217_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
noncomputable def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- An input window's current staging buffer holds its block at every point, whether the block was fetched there or
    kept from the point before (the weights and biases are fetched once: their block index never moves), for any
    proof data whose array is the entry contents and whose body leaves the block in place. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)

theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

theorem before15_2_of {c : Dev nD} (dat : Dat τ (Elt F) Unit ℕ (UR sig nD τ) ℕ cfg15 c) (hA : dat.A 2 = V c (Pipeline.arrRef spec15 2))
    (hafter : ∀ t, dat.after 2 t = iblk15 V c 2 t) (t : Fin cfg15.N) (d) : dat.before 2 t d = iblk15 V c 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)

theorem before15_3_of {c : Dev nD} (dat : Dat τ (Elt F) Unit ℕ (UR sig nD τ) ℕ cfg15 c) (hA : dat.A 3 = V c (Pipeline.arrRef spec15 3))
    (hafter : ∀ t, dat.after 3 t = iblk15 V c 3 t) (t : Fin cfg15.N) (d) : dat.before 3 t d = iblk15 V c 3 t :=
  (dat.before_in_eq_fetched 3 rfl (fun _ => rfl) (fun _ _ _ => rfl) (fun t => by rw [hafter]; unfold Dat.blockOf iblk15; rw [hA]; try rfl) t d).trans
    (by unfold Dat.fetched Dat.blockOf iblk15; rw [hA]; try rfl)

theorem before15_4_of {c : Dev nD} (dat : Dat τ (Elt F) Unit ℕ (UR sig nD τ) ℕ cfg15 c) (hA : dat.A 4 = V c (Pipeline.arrRef spec15 4))
    (hafter : ∀ t, dat.after 4 t = iblk15 V c 4 t) (t : Fin cfg15.N) (d) : dat.before 4 t d = iblk15 V c 4 t :=
  (dat.before_in_eq_fetched 4 rfl (fun _ => rfl) (fun _ _ _ => rfl) (fun t => by rw [hafter]; unfold Dat.blockOf iblk15; rw [hA]; try rfl) t d).trans
    (by unfold Dat.fetched Dat.blockOf iblk15; rw [hA]; try rfl)

theorem before15_5_of {c : Dev nD} (dat : Dat τ (Elt F) Unit ℕ (UR sig nD τ) ℕ cfg15 c) (hA : dat.A 5 = V c (Pipeline.arrRef spec15 5))
    (hafter : ∀ t, dat.after 5 t = iblk15 V c 5 t) (t : Fin cfg15.N) (d) : dat.before 5 t d = iblk15 V c 5 t :=
  (dat.before_in_eq_fetched 5 rfl (fun _ => rfl) (fun _ _ _ => rfl) (fun t => by rw [hafter]; unfold Dat.blockOf iblk15; rw [hA]; try rfl) t d).trans
    (by unfold Dat.fetched Dat.blockOf iblk15; rw [hA]; try rfl)

theorem before15_6_of {c : Dev nD} (dat : Dat τ (Elt F) Unit ℕ (UR sig nD τ) ℕ cfg15 c) (hA : dat.A 6 = V c (Pipeline.arrRef spec15 6))
    (hafter : ∀ t, dat.after 6 t = iblk15 V c 6 t) (t : Fin cfg15.N) (d) : dat.before 6 t d = iblk15 V c 6 t :=
  (dat.before_in_eq_fetched 6 rfl (fun _ => rfl) (fun _ _ _ => rfl) (fun t => by rw [hafter]; unfold Dat.blockOf iblk15; rw [hA]; try rfl) t d).trans
    (by unfold Dat.fetched Dat.blockOf iblk15; rw [hA]; try rfl)

theorem before15_7_of {c : Dev nD} (dat : Dat τ (Elt F) Unit ℕ (UR sig nD τ) ℕ cfg15 c) (hA : dat.A 7 = V c (Pipeline.arrRef spec15 7))
    (hafter : ∀ t, dat.after 7 t = iblk15 V c 7 t) (t : Fin cfg15.N) (d) : dat.before 7 t d = iblk15 V c 7 t :=
  (dat.before_in_eq_fetched 7 rfl (fun _ => rfl) (fun _ _ _ => rfl) (fun t => by rw [hafter]; unfold Dat.blockOf iblk15; rw [hA]; try rfl) t d).trans
    (by unfold Dat.fetched Dat.blockOf iblk15; rw [hA]; try rfl)

theorem before15_8_of {c : Dev nD} (dat : Dat τ (Elt F) Unit ℕ (UR sig nD τ) ℕ cfg15 c) (hA : dat.A 8 = V c (Pipeline.arrRef spec15 8))
    (hafter : ∀ t, dat.after 8 t = iblk15 V c 8 t) (t : Fin cfg15.N) (d) : dat.before 8 t d = iblk15 V c 8 t :=
  (dat.before_in_eq_fetched 8 rfl (fun _ => rfl) (fun _ _ _ => rfl) (fun t => by rw [hafter]; unfold Dat.blockOf iblk15; rw [hA]; try rfl) t d).trans
    (by unfold Dat.fetched Dat.blockOf iblk15; rw [hA]; try rfl)

/-! ## The body's accesses: every buffer whole -/

noncomputable abbrev r15_0 : Rect S4000x128 := Rect.unit (s := S4000x128) ![0, 0] S4000x128.size inb_S4000x128_S4000x128_0_0
noncomputable abbrev r15_1 : Rect S4000x4 := Rect.unit (s := S4000x4) ![0, 0] S4000x4.size inb_S4000x4_S4000x4_0_0
noncomputable abbrev r15_2 : Rect S128x128 := Rect.unit (s := S128x128) ![0, 0] S128x128.size inb_S128x128_S128x128_0_0
noncomputable abbrev r15_3 : Rect S2x128 := Rect.unit (s := S2x128) ![0, 0] S2x128.size inb_S2x128_S2x128_0_0
noncomputable abbrev r15_4 : Rect S1x128 := Rect.unit (s := S1x128) ![0, 0] S1x128.size inb_S1x128_S1x128_0_0
noncomputable abbrev r15_5 : Rect S128x64 := Rect.unit (s := S128x64) ![0, 0] S128x64.size inb_S128x64_S128x64_0_0
noncomputable abbrev r15_6 : Rect S1x64 := Rect.unit (s := S1x64) ![0, 0] S1x64.size inb_S1x64_S1x64_0_0
noncomputable abbrev r15_7 : Rect S64x3 := Rect.unit (s := S64x3) ![0, 0] S64x3.size inb_S64x3_S64x3_0_0
noncomputable abbrev r15_8 : Rect S1x3 := Rect.unit (s := S1x3) ![0, 0] S1x3.size inb_S1x3_S1x3_0_0
noncomputable abbrev r15_9 : Rect S4000x3 := Rect.unit (s := S4000x3) ![0, 0] S4000x3.size inb_S4000x3_S4000x3_0_0

/-! ## What the body leaves in the result buffer -/

/-- The result buffer after the body, from the nine input blocks: its one store, of the masked prediction computed
    from the loaded blocks. -/
noncomputable def out15_9 (x0 : Vec F S4000x128 .f32) (x1 : Vec F S4000x4 .f32) (x2 : Vec F S128x128 .f32) (x3 : Vec F S2x128 .f32) (x4 : Vec F S1x128 .f32) (x5 : Vec F S128x64 .f32) (x6 : Vec F S1x64 .f32) (x7 : Vec F S64x3 .f32) (x8 : Vec F S1x3 .f32) : Vec F S4000x3 .f32 :=
  View.canon [⟨r15_9, k15_pay1 (k15_pay3 (View.ld x1 r15_1)) (k15_pay4 (View.ld x1 r15_1))
    (k15_pay5 (View.ld x0 r15_0) (View.ld x1 r15_1) (View.ld x2 r15_2) (View.ld x3 r15_3) (View.ld x4 r15_4) (View.ld x5 r15_5) (View.ld x6 r15_6))
    (k15_pay6 (View.ld x7 r15_7)) (constant S4000x3 .f32 0x00000000#32) (View.ld x8 r15_8)⟩]

/-- The one store is of the whole buffer, so it covers it. -/
theorem cover15_9 (p0 : Vec F S4000x3 .f32) (y : S4000x3.Idx) :
    ∃ pc ∈ ([⟨r15_9, p0⟩] : List (View.Piece (Elt F) S4000x3 .f32)), y ∈ pc.1.set :=
  View.cover_of_tiled [⟨r15_9, p0⟩] S4000x3.size (by rfl) y

/-! ## The body's triple -/

set_option maxHeartbeats 4000000 in
/-- The kernel body on whole staging buffers, the inputs' at given contents and the result's at anything, runs to the
    continuation holding the inputs' as they were and the result's at `out15_9` of the inputs': the printed functions
    are their memory skeletons, which the executor runs through the part call; the result's earlier contents are read
    once and never used. -/
theorem sound_kernel15 (c : Dev nD) (E : Set ℕ) (i : grid15.Coords) (arg1 : Memref sig .tc .vmem S4000x128 .f32) (harg1 : arg1.IsWhole) (arg2 : Memref sig .tc .vmem S4000x4 .f32) (harg2 : arg2.IsWhole) (arg3 : Memref sig .tc .vmem S128x128 .f32) (harg3 : arg3.IsWhole) (arg4 : Memref sig .tc .vmem S2x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S64x3 .f32) (harg8 : arg8.IsWhole) (arg9 : Memref sig .tc .vmem S1x3 .f32) (harg9 : arg9.IsWhole) (arg10 : Memref sig .tc .vmem S4000x3 .f32) (harg10 : arg10.IsWhole)
    (x0 : Vec F S4000x128 .f32) (x1 : Vec F S4000x4 .f32) (x2 : Vec F S128x128 .f32) (x3 : Vec F S2x128 .f32) (x4 : Vec F S1x128 .f32) (x5 : Vec F S128x64 .f32) (x6 : Vec F S1x64 .f32) (x7 : Vec F S64x3 .f32) (x8 : Vec F S1x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out15_9 x0 x1 x2 x3 x4 x5 x6 x7 x8)) -∗ K ⟨⟩))
      ⊢ wp frame (wpE (defs₀ (F := F)) Variants.none c none) E (cc15__decoder_kernel i arg1 harg1 arg2 harg2 arg3 harg3 arg4 harg4 arg5 harg5 arg6 harg6 arg7 harg7 arg8 harg8 arg9 harg9 arg10 harg10) K := by
  simp only [cc15__decoder_kernel_eq_skeleton]; unfold cc15__decoder_kernel_skel
  simp only [k15_part1_eq_skeleton]; unfold k15_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover15_9 _)

/-! ## The pipeline's proof data -/

/-- The proof data of pipeline 15 on core `c`: the arrays as the region finds them; after the body at point `t` each
    input's buffer at its block and the result's at `out15_9` of the input blocks; the invariant the scoped rest and the
    generator register, untouched; nothing owed; full shares. -/
noncomputable def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => iblk15 V c 3 t
    | ⟨4, _⟩ => iblk15 V c 4 t
    | ⟨5, _⟩ => iblk15 V c 5 t
    | ⟨6, _⟩ => iblk15 V c 6 t
    | ⟨7, _⟩ => iblk15 V c 7 t
    | ⟨8, _⟩ => iblk15 V c 8 t
    | ⟨9, _⟩ => out15_9 (iblk15 V c 0 t) (iblk15 V c 1 t) (iblk15 V c 2 t) (iblk15 V c 3 t) (iblk15 V c 4 t) (iblk15 V c 5 t) (iblk15 V c 6 t) (iblk15 V c 7 t) (iblk15 V c 8 t)
  Φ _ := Pipeline.ΦA spec15 c
  q _ := fullShare
  owed _ := 0

/-- The proof data's arrays are the region-entry contents. -/
theorem A_eq15 (c : Dev nD) (w : Fin cfg15.W) : (dat15 V c).A w = V c (Pipeline.arrRef spec15 w) := by
  dsimp only [dat15]

/-- What the body leaves, window by window. -/
theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) : (dat15 V c).after 3 t = iblk15 V c 3 t := by dsimp only [dat15]
theorem after15_4 (c : Dev nD) (t : Fin cfg15.N) : (dat15 V c).after 4 t = iblk15 V c 4 t := by dsimp only [dat15]
theorem after15_5 (c : Dev nD) (t : Fin cfg15.N) : (dat15 V c).after 5 t = iblk15 V c 5 t := by dsimp only [dat15]
theorem after15_6 (c : Dev nD) (t : Fin cfg15.N) : (dat15 V c).after 6 t = iblk15 V c 6 t := by dsimp only [dat15]
theorem after15_7 (c : Dev nD) (t : Fin cfg15.N) : (dat15 V c).after 7 t = iblk15 V c 7 t := by dsimp only [dat15]
theorem after15_8 (c : Dev nD) (t : Fin cfg15.N) : (dat15 V c).after 8 t = iblk15 V c 8 t := by dsimp only [dat15]
theorem after15_9 (c : Dev nD) (t : Fin cfg15.N) : (dat15 V c).after 9 t = out15_9 (iblk15 V c 0 t) (iblk15 V c 1 t) (iblk15 V c 2 t) (iblk15 V c 3 t) (iblk15 V c 4 t) (iblk15 V c 5 t) (iblk15 V c 6 t) (iblk15 V c 7 t) (iblk15 V c 8 t) := by dsimp only [dat15]

/-- Each input's current staging buffer holds its block at every point, fetched there or not. -/
theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d
theorem before15_2 (c : Dev nD) (t : Fin cfg15.N) (d) : (dat15 V c).before 2 t d = iblk15 V c 2 t :=
  before15_2_of V (dat15 V c) (A_eq15 V c 2) (after15_2 V c) t d
theorem before15_3 (c : Dev nD) (t : Fin cfg15.N) (d) : (dat15 V c).before 3 t d = iblk15 V c 3 t :=
  before15_3_of V (dat15 V c) (A_eq15 V c 3) (after15_3 V c) t d
theorem before15_4 (c : Dev nD) (t : Fin cfg15.N) (d) : (dat15 V c).before 4 t d = iblk15 V c 4 t :=
  before15_4_of V (dat15 V c) (A_eq15 V c 4) (after15_4 V c) t d
theorem before15_5 (c : Dev nD) (t : Fin cfg15.N) (d) : (dat15 V c).before 5 t d = iblk15 V c 5 t :=
  before15_5_of V (dat15 V c) (A_eq15 V c 5) (after15_5 V c) t d
theorem before15_6 (c : Dev nD) (t : Fin cfg15.N) (d) : (dat15 V c).before 6 t d = iblk15 V c 6 t :=
  before15_6_of V (dat15 V c) (A_eq15 V c 6) (after15_6 V c) t d
theorem before15_7 (c : Dev nD) (t : Fin cfg15.N) (d) : (dat15 V c).before 7 t d = iblk15 V c 7 t :=
  before15_7_of V (dat15 V c) (A_eq15 V c 7) (after15_7 V c) t d
theorem before15_8 (c : Dev nD) (t : Fin cfg15.N) (d) : (dat15 V c).before 8 t d = iblk15 V c 8 t :=
  before15_8_of V (dat15 V c) (A_eq15 V c 8) (after15_8 V c) t d

/-! ## The body obligation, at a generic point -/

/-- What the body is called with at point `t`, the windows one by one, -/
noncomputable def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d))
    ∗ (∃ d, owns (c : Thread nD τ) (st15_3 t) fullShare ((dat15 V c).before 3 t d))
    ∗ (∃ d, owns (c : Thread nD τ) (st15_4 t) fullShare ((dat15 V c).before 4 t d))
    ∗ (∃ d, owns (c : Thread nD τ) (st15_5 t) fullShare ((dat15 V c).before 5 t d))
    ∗ (∃ d, owns (c : Thread nD τ) (st15_6 t) fullShare ((dat15 V c).before 6 t d))
    ∗ (∃ d, owns (c : Thread nD τ) (st15_7 t) fullShare ((dat15 V c).before 7 t d))
    ∗ (∃ d, owns (c : Thread nD τ) (st15_8 t) fullShare ((dat15 V c).before 8 t d))
    ∗ (∃ d, owns (c : Thread nD τ) (st15_9 t) fullShare ((dat15 V c).before 9 t d)))

/-- and what it returns. -/
noncomputable def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t)
    ∗ owns (c : Thread nD τ) (st15_3 t) fullShare ((dat15 V c).after 3 t)
    ∗ owns (c : Thread nD τ) (st15_4 t) fullShare ((dat15 V c).after 4 t)
    ∗ owns (c : Thread nD τ) (st15_5 t) fullShare ((dat15 V c).after 5 t)
    ∗ owns (c : Thread nD τ) (st15_6 t) fullShare ((dat15 V c).after 6 t)
    ∗ owns (c : Thread nD τ) (st15_7 t) fullShare ((dat15 V c).after 7 t)
    ∗ owns (c : Thread nD τ) (st15_8 t) fullShare ((dat15 V c).after 8 t)
    ∗ owns (c : Thread nD τ) (st15_9 t) fullShare ((dat15 V c).after 9 t))

/-- The body at any point: the inputs' buffers hold their blocks, so `sound_kernel15` applies; the invariant and the
    core's debts pass through unread. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2, before15_3, before15_4, before15_5, before15_6, before15_7, before15_8]
  rw [show (dat15 V c).Φ t.succ = (dat15 V c).Φ t.castSucc from rfl,
    show (dat15 V c).owesAt () t.succ = (dat15 V c).owesAt () t.castSucc from rfl,
    after15_0, after15_1, after15_2, after15_3, after15_4, after15_5, after15_6, after15_7, after15_8, after15_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel15 c Set.univ (grid15.coords t) _ _ _ _ _ _ _ _ _ _ _ _ _ _ _ _ _ _ _ _ (iblk15 V c 0 t) (iblk15 V c 1 t) (iblk15 V c 2 t) (iblk15 V c 3 t) (iblk15 V c 4 t) (iblk15 V c 5 t) (iblk15 V c 6 t) (iblk15 V c 7 t) (iblk15 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation15 (c : Dev nD) : BodyObligation (dat15 (F := F) V c) (defs₀ (F := F)) Variants.none () Set.univ := fun t => by
  rw [bigSep_W15, bigSep_W15]
  exact sound_body15 V c t

end Cert.Kernel.Hand

end
-- ==== Proof.K.Outs.lean ====
/-
  The contents of the unscoped buffers at every boundary of @main, defined stage by stage, and with them the unknowns of the generated
  valuations; each region's entry and exit contents; the proof data family.
-/
import proofs.«152161_j29669634081217_2_alg».proof.Proof.Gen.Kernel.Launch
import proofs.«152161_j29669634081217_2_alg».proof.Proof.Gen.Kernel.Skeleton
import proofs.«152161_j29669634081217_2_alg».proof.Proof.Gen.Kernel.Points
import proofs.«152161_j29669634081217_2_alg».proof.Proof.Gen.Kernel.Regions
import proofs.«152161_j29669634081217_2_alg».proof.Proof.K.Reg0
import proofs.«152161_j29669634081217_2_alg».proof.Proof.K.Reg1
import proofs.«152161_j29669634081217_2_alg».proof.Proof.K.Reg2
import proofs.«152161_j29669634081217_2_alg».proof.Proof.K.Reg3
import proofs.«152161_j29669634081217_2_alg».proof.Proof.K.Reg4
import proofs.«152161_j29669634081217_2_alg».proof.Proof.K.Reg5
import proofs.«152161_j29669634081217_2_alg».proof.Proof.K.Reg6
import proofs.«152161_j29669634081217_2_alg».proof.Proof.K.Reg7
import proofs.«152161_j29669634081217_2_alg».proof.Proof.K.Reg8
import proofs.«152161_j29669634081217_2_alg».proof.Proof.K.Reg9
import proofs.«152161_j29669634081217_2_alg».proof.Proof.K.Reg10
import proofs.«152161_j29669634081217_2_alg».proof.Proof.K.Reg11
import proofs.«152161_j29669634081217_2_alg».proof.Proof.K.Reg12
import proofs.«152161_j29669634081217_2_alg».proof.Proof.K.Reg13
import proofs.«152161_j29669634081217_2_alg».proof.Proof.K.Reg14
import proofs.«152161_j29669634081217_2_alg».proof.Proof.K.Reg15
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

universe u v
/-- Updating a function at a point by the value an update at that point has there is that update. -/
theorem upd1_fix {α : Sort u} [DecidableEq α] {β : α → Sort v} (f : ∀ a, β a) (a0 : α) (v0 : β a0) :
    Function.update f a0 (Function.update f a0 v0 a0) = Function.update f a0 v0 := by
  rw [Function.update_self]
/-- The same at two distinct points. -/
theorem upd2_fix {α : Sort u} [DecidableEq α] {β : α → Sort v} (f : ∀ a, β a) {a0 a1 : α} (h01 : a0 ≠ a1) (v0 : β a0) (v1 : β a1) :
    Function.update (Function.update f a0 (Function.update (Function.update f a0 v0) a1 v1 a0)) a1
        (Function.update (Function.update f a0 v0) a1 v1 a1)
      = Function.update (Function.update f a0 v0) a1 v1 := by
  rw [Function.update_self, Function.update_of_ne h01, Function.update_self]
/-- The same at three distinct points. -/
theorem upd3_fix {α : Sort u} [DecidableEq α] {β : α → Sort v} (f : ∀ a, β a) {a0 a1 a2 : α} (h01 : a0 ≠ a1) (h02 : a0 ≠ a2) (h12 : a1 ≠ a2)
    (v0 : β a0) (v1 : β a1) (v2 : β a2) :
    Function.update (Function.update (Function.update f a0 (Function.update (Function.update (Function.update f a0 v0) a1 v1) a2 v2 a0)) a1
        (Function.update (Function.update (Function.update f a0 v0) a1 v1) a2 v2 a1)) a2
        (Function.update (Function.update (Function.update f a0 v0) a1 v1) a2 v2 a2)
      = Function.update (Function.update (Function.update f a0 v0) a1 v1) a2 v2 := by
  rw [Function.update_self, Function.update_of_ne h12, Function.update_self, Function.update_of_ne h02, Function.update_of_ne h01,
    Function.update_self]

/-- A property of each of the 5 indices holds of every index. -/
theorem forall_fin5 {P : Fin 5 → Prop} (h0 : P 0) (h1 : P 1) (h2 : P 2) (h3 : P 3) (h4 : P 4) : ∀ w, P w
  | 0 => h0
  | 1 => h1
  | 2 => h2
  | 3 => h3
  | 4 => h4
  | ⟨_ + 5, h⟩ => absurd h (Nat.not_lt.2 (Nat.le_add_left _ _))
/-- A property of each of the 6 indices holds of every index. -/
theorem forall_fin6 {P : Fin 6 → Prop} (h0 : P 0) (h1 : P 1) (h2 : P 2) (h3 : P 3) (h4 : P 4) (h5 : P 5) : ∀ w, P w
  | 0 => h0
  | 1 => h1
  | 2 => h2
  | 3 => h3
  | 4 => h4
  | 5 => h5
  | ⟨_ + 6, h⟩ => absurd h (Nat.not_lt.2 (Nat.le_add_left _ _))
/-- A property of each of the 8 indices holds of every index. -/
theorem forall_fin8 {P : Fin 8 → Prop} (h0 : P 0) (h1 : P 1) (h2 : P 2) (h3 : P 3) (h4 : P 4) (h5 : P 5) (h6 : P 6) (h7 : P 7) : ∀ w, P w
  | 0 => h0
  | 1 => h1
  | 2 => h2
  | 3 => h3
  | 4 => h4
  | 5 => h5
  | 6 => h6
  | 7 => h7
  | ⟨_ + 8, h⟩ => absurd h (Nat.not_lt.2 (Nat.le_add_left _ _))
/-- A property of each of the 10 indices holds of every index. -/
theorem forall_fin10 {P : Fin 10 → Prop} (h0 : P 0) (h1 : P 1) (h2 : P 2) (h3 : P 3) (h4 : P 4) (h5 : P 5) (h6 : P 6) (h7 : P 7) (h8 : P 8) (h9 : P 9) : ∀ w, P w
  | 0 => h0
  | 1 => h1
  | 2 => h2
  | 3 => h3
  | 4 => h4
  | 5 => h5
  | 6 => h6
  | 7 => h7
  | 8 => h8
  | 9 => h9
  | ⟨_ + 10, h⟩ => absurd h (Nat.not_lt.2 (Nat.le_add_left _ _))
/-- A property of each of the 12 indices holds of every index. -/
theorem forall_fin12 {P : Fin 12 → Prop} (h0 : P 0) (h1 : P 1) (h2 : P 2) (h3 : P 3) (h4 : P 4) (h5 : P 5) (h6 : P 6) (h7 : P 7) (h8 : P 8) (h9 : P 9) (h10 : P 10) (h11 : P 11) : ∀ w, P w
  | 0 => h0
  | 1 => h1
  | 2 => h2
  | 3 => h3
  | 4 => h4
  | 5 => h5
  | 6 => h6
  | 7 => h7
  | 8 => h8
  | 9 => h9
  | 10 => h10
  | 11 => h11
  | ⟨_ + 12, h⟩ => absurd h (Nat.not_lt.2 (Nat.le_add_left _ _))

variable (m : (ℓ : Loc nD τ sig) → Buf (Elt F) ℓ)

/-! ## The buffers' contents at each boundary of @main, stage by stage

W J c is core c's unscoped buffers after item J−1: a host stretch acts on the contents before it; a region leaves each of its
output arrays at what its write-backs fold to from the region's entry contents, and every other buffer as entered. Each stage
is defined from the one before it, so the contents the regions leave are defined outright. -/

/-- After the first host stretch: region 0's entry. -/
noncomputable def W1 (c : Dev nD) : Valuation τ sig (Elt F) := V1 m c
/-- At region 0's exit: its output arrays at what the pipeline leaves, every other buffer as entered. -/
noncomputable def W2 (c : Dev nD) : Valuation τ sig (Elt F) :=
  Function.update (W1 m c) main_v14 ((dat0 (fun c b => W1 m c b) c).arrAt 5 cfg0.N)
/-- After host stretch 1: region 1's entry. -/
noncomputable def W3 (c : Dev nD) : Valuation τ sig (Elt F) := StableHlo.after hostOps1 (W2 m c)
/-- At region 1's exit: its output arrays at what the pipeline leaves, every other buffer as entered. -/
noncomputable def W4 (c : Dev nD) : Valuation τ sig (Elt F) :=
  Function.update (W3 m c) main_v17 ((dat1 (fun c b => W3 m c b) c).arrAt 5 cfg1.N)
/-- After host stretch 2: region 2's entry. -/
noncomputable def W5 (c : Dev nD) : Valuation τ sig (Elt F) := StableHlo.after hostOps2 (W4 m c)
/-- At region 2's exit: its output arrays at what the pipeline leaves, every other buffer as entered. -/
noncomputable def W6 (c : Dev nD) : Valuation τ sig (Elt F) :=
  Function.update (Function.update (W5 m c) main_v22_0 ((dat2 (fun c b => W5 m c b) c).arrAt 3 cfg2.N)) main_v22_1 ((dat2 (fun c b => W5 m c b) c).arrAt 4 cfg2.N)
/-- After host stretch 3: region 3's entry. -/
noncomputable def W7 (c : Dev nD) : Valuation τ sig (Elt F) := StableHlo.after hostOps3 (W6 m c)
/-- At region 3's exit: its output arrays at what the pipeline leaves, every other buffer as entered. -/
noncomputable def W8 (c : Dev nD) : Valuation τ sig (Elt F) :=
  Function.update (W7 m c) main_v47 ((dat3 (fun c b => W7 m c b) c).arrAt 7 cfg3.N)
/-- After host stretch 4: region 4's entry. -/
noncomputable def W9 (c : Dev nD) : Valuation τ sig (Elt F) := StableHlo.after hostOps4 (W8 m c)
/-- At region 4's exit: its output arrays at what the pipeline leaves, every other buffer as entered. -/
noncomputable def W10 (c : Dev nD) : Valuation τ sig (Elt F) :=
  Function.update (Function.update (Function.update (W9 m c) main_v67_0 ((dat4 (fun c b => W9 m c b) c).arrAt 9 cfg4.N)) main_v67_1 ((dat4 (fun c b => W9 m c b) c).arrAt 10 cfg4.N)) main_v67_2 ((dat4 (fun c b => W9 m c b) c).arrAt 11 cfg4.N)
/-- After host stretch 5: region 5's entry. -/
noncomputable def W11 (c : Dev nD) : Valuation τ sig (Elt F) := StableHlo.after hostOps5 (W10 m c)
/-- At region 5's exit: its output arrays at what the pipeline leaves, every other buffer as entered. -/
noncomputable def W12 (c : Dev nD) : Valuation τ sig (Elt F) :=
  Function.update (W11 m c) main_v92 ((dat5 (fun c b => W11 m c b) c).arrAt 7 cfg5.N)
/-- After host stretch 6: region 6's entry. -/
noncomputable def W13 (c : Dev nD) : Valuation τ sig (Elt F) := StableHlo.after hostOps6 (W12 m c)
/-- At region 6's exit: its output arrays at what the pipeline leaves, every other buffer as entered. -/
noncomputable def W14 (c : Dev nD) : Valuation τ sig (Elt F) :=
  Function.update (Function.update (Function.update (W13 m c) main_v112_0 ((dat6 (fun c b => W13 m c b) c).arrAt 9 cfg6.N)) main_v112_1 ((dat6 (fun c b => W13 m c b) c).arrAt 10 cfg6.N)) main_v112_2 ((dat6 (fun c b => W13 m c b) c).arrAt 11 cfg6.N)
/-- After host stretch 7: region 7's entry. -/
noncomputable def W15 (c : Dev nD) : Valuation τ sig (Elt F) := StableHlo.after hostOps7 (W14 m c)
/-- At region 7's exit: its output arrays at what the pipeline leaves, every other buffer as entered. -/
noncomputable def W16 (c : Dev nD) : Valuation τ sig (Elt F) :=
  Function.update (W15 m c) main_v137 ((dat7 (fun c b => W15 m c b) c).arrAt 7 cfg7.N)
/-- After host stretch 8: region 8's entry. -/
noncomputable def W17 (c : Dev nD) : Valuation τ sig (Elt F) := StableHlo.after hostOps8 (W16 m c)
/-- At region 8's exit: its output arrays at what the pipeline leaves, every other buffer as entered. -/
noncomputable def W18 (c : Dev nD) : Valuation τ sig (Elt F) :=
  Function.update (Function.update (Function.update (W17 m c) main_v157_0 ((dat8 (fun c b => W17 m c b) c).arrAt 9 cfg8.N)) main_v157_1 ((dat8 (fun c b => W17 m c b) c).arrAt 10 cfg8.N)) main_v157_2 ((dat8 (fun c b => W17 m c b) c).arrAt 11 cfg8.N)
/-- After host stretch 9: region 9's entry. -/
noncomputable def W19 (c : Dev nD) : Valuation τ sig (Elt F) := StableHlo.after hostOps9 (W18 m c)
/-- At region 9's exit: its output arrays at what the pipeline leaves, every other buffer as entered. -/
noncomputable def W20 (c : Dev nD) : Valuation τ sig (Elt F) :=
  Function.update (W19 m c) main_v182 ((dat9 (fun c b => W19 m c b) c).arrAt 7 cfg9.N)
/-- After host stretch 10: region 10's entry. -/
noncomputable def W21 (c : Dev nD) : Valuation τ sig (Elt F) := StableHlo.after hostOps10 (W20 m c)
/-- At region 10's exit: its output arrays at what the pipeline leaves, every other buffer as entered. -/
noncomputable def W22 (c : Dev nD) : Valuation τ sig (Elt F) :=
  Function.update (Function.update (Function.update (W21 m c) main_v202_0 ((dat10 (fun c b => W21 m c b) c).arrAt 9 cfg10.N)) main_v202_1 ((dat10 (fun c b => W21 m c b) c).arrAt 10 cfg10.N)) main_v202_2 ((dat10 (fun c b => W21 m c b) c).arrAt 11 cfg10.N)
/-- After host stretch 11: region 11's entry. -/
noncomputable def W23 (c : Dev nD) : Valuation τ sig (Elt F) := StableHlo.after hostOps11 (W22 m c)
/-- At region 11's exit: its output arrays at what the pipeline leaves, every other buffer as entered. -/
noncomputable def W24 (c : Dev nD) : Valuation τ sig (Elt F) :=
  Function.update (W23 m c) main_v227 ((dat11 (fun c b => W23 m c b) c).arrAt 7 cfg11.N)
/-- After host stretch 12: region 12's entry. -/
noncomputable def W25 (c : Dev nD) : Valuation τ sig (Elt F) := StableHlo.after hostOps12 (W24 m c)
/-- At region 12's exit: its output arrays at what the pipeline leaves, every other buffer as entered. -/
noncomputable def W26 (c : Dev nD) : Valuation τ sig (Elt F) :=
  Function.update (Function.update (Function.update (W25 m c) main_v247_0 ((dat12 (fun c b => W25 m c b) c).arrAt 9 cfg12.N)) main_v247_1 ((dat12 (fun c b => W25 m c b) c).arrAt 10 cfg12.N)) main_v247_2 ((dat12 (fun c b => W25 m c b) c).arrAt 11 cfg12.N)
/-- After host stretch 13: region 13's entry. -/
noncomputable def W27 (c : Dev nD) : Valuation τ sig (Elt F) := StableHlo.after hostOps13 (W26 m c)
/-- At region 13's exit: its output arrays at what the pipeline leaves, every other buffer as entered. -/
noncomputable def W28 (c : Dev nD) : Valuation τ sig (Elt F) :=
  Function.update (W27 m c) main_v272 ((dat13 (fun c b => W27 m c b) c).arrAt 7 cfg13.N)
/-- After host stretch 14: region 14's entry. -/
noncomputable def W29 (c : Dev nD) : Valuation τ sig (Elt F) := StableHlo.after hostOps14 (W28 m c)
/-- At region 14's exit: its output arrays at what the pipeline leaves, every other buffer as entered. -/
noncomputable def W30 (c : Dev nD) : Valuation τ sig (Elt F) :=
  Function.update (Function.update (Function.update (W29 m c) main_v292_0 ((dat14 (fun c b => W29 m c b) c).arrAt 9 cfg14.N)) main_v292_1 ((dat14 (fun c b => W29 m c b) c).arrAt 10 cfg14.N)) main_v292_2 ((dat14 (fun c b => W29 m c b) c).arrAt 11 cfg14.N)
/-- After host stretch 15: region 15's entry. -/
noncomputable def W31 (c : Dev nD) : Valuation τ sig (Elt F) := StableHlo.after hostOps15 (W30 m c)
/-- At region 15's exit: its output arrays at what the pipeline leaves, every other buffer as entered. -/
noncomputable def W32 (c : Dev nD) : Valuation τ sig (Elt F) :=
  Function.update (W31 m c) main_v299 ((dat15 (fun c b => W31 m c b) c).arrAt 9 cfg15.N)

/-- What the regions leave, as the generated valuations' unknowns: the stage's contents read at the reference. -/
noncomputable def outs : Outs (F := F) := fun J r c => match J with
  | 2 => W2 m c r
  | 4 => W4 m c r
  | 6 => W6 m c r
  | 8 => W8 m c r
  | 10 => W10 m c r
  | 12 => W12 m c r
  | 14 => W14 m c r
  | 16 => W16 m c r
  | 18 => W18 m c r
  | 20 => W20 m c r
  | 22 => W22 m c r
  | 24 => W24 m c r
  | 26 => W26 m c r
  | 28 => W28 m c r
  | 30 => W30 m c r
  | 32 => W32 m c r
  | _ => W1 m c r

/-! ## The generated valuations at these unknowns are the stages -/

theorem VW1 (c : Dev nD) : V1 m c = W1 m c := rfl
theorem VW2 (c : Dev nD) : V2 m (outs m) c = W2 m c := by
  show Function.update (V1 m c) main_v14 (W2 m c main_v14) = W2 m c
  rw [VW1]; unfold W2
  exact upd1_fix _ _ _
theorem VW3 (c : Dev nD) : V3 m (outs m) c = W3 m c := by
  show StableHlo.after hostOps1 (V2 m (outs m) c) = _
  rw [VW2]; rfl
theorem VW4 (c : Dev nD) : V4 m (outs m) c = W4 m c := by
  show Function.update (V3 m (outs m) c) main_v17 (W4 m c main_v17) = W4 m c
  rw [VW3]; unfold W4
  exact upd1_fix _ _ _
theorem VW5 (c : Dev nD) : V5 m (outs m) c = W5 m c := by
  show StableHlo.after hostOps2 (V4 m (outs m) c) = _
  rw [VW4]; rfl
theorem VW6 (c : Dev nD) : V6 m (outs m) c = W6 m c := by
  show Function.update (Function.update (V5 m (outs m) c) main_v22_0 (W6 m c main_v22_0)) main_v22_1 (W6 m c main_v22_1) = W6 m c
  rw [VW5]; unfold W6
  exact upd2_fix _ (StableHlo.devRef_ne_of_ne (by decide) : (Proc.devRef .tc main_v22_0 : DevRef τ sig) ≠ Proc.devRef .tc main_v22_1) _ _
theorem VW7 (c : Dev nD) : V7 m (outs m) c = W7 m c := by
  show StableHlo.after hostOps3 (V6 m (outs m) c) = _
  rw [VW6]; rfl
theorem VW8 (c : Dev nD) : V8 m (outs m) c = W8 m c := by
  show Function.update (V7 m (outs m) c) main_v47 (W8 m c main_v47) = W8 m c
  rw [VW7]; unfold W8
  exact upd1_fix _ _ _
theorem VW9 (c : Dev nD) : V9 m (outs m) c = W9 m c := by
  show StableHlo.after hostOps4 (V8 m (outs m) c) = _
  rw [VW8]; rfl
theorem VW10 (c : Dev nD) : V10 m (outs m) c = W10 m c := by
  show Function.update (Function.update (Function.update (V9 m (outs m) c) main_v67_0 (W10 m c main_v67_0)) main_v67_1 (W10 m c main_v67_1)) main_v67_2 (W10 m c main_v67_2) = W10 m c
  rw [VW9]; unfold W10
  exact upd3_fix _ (StableHlo.devRef_ne_of_ne (by decide) : (Proc.devRef .tc main_v67_0 : DevRef τ sig) ≠ Proc.devRef .tc main_v67_1) (StableHlo.devRef_ne_of_ne (by decide) : (Proc.devRef .tc main_v67_0 : DevRef τ sig) ≠ Proc.devRef .tc main_v67_2) (StableHlo.devRef_ne_of_ne (by decide) : (Proc.devRef .tc main_v67_1 : DevRef τ sig) ≠ Proc.devRef .tc main_v67_2) _ _ _
theorem VW11 (c : Dev nD) : V11 m (outs m) c = W11 m c := by
  show StableHlo.after hostOps5 (V10 m (outs m) c) = _
  rw [VW10]; rfl
theorem VW12 (c : Dev nD) : V12 m (outs m) c = W12 m c := by
  show Function.update (V11 m (outs m) c) main_v92 (W12 m c main_v92) = W12 m c
  rw [VW11]; unfold W12
  exact upd1_fix _ _ _
theorem VW13 (c : Dev nD) : V13 m (outs m) c = W13 m c := by
  show StableHlo.after hostOps6 (V12 m (outs m) c) = _
  rw [VW12]; rfl
theorem VW14 (c : Dev nD) : V14 m (outs m) c = W14 m c := by
  show Function.update (Function.update (Function.update (V13 m (outs m) c) main_v112_0 (W14 m c main_v112_0)) main_v112_1 (W14 m c main_v112_1)) main_v112_2 (W14 m c main_v112_2) = W14 m c
  rw [VW13]; unfold W14
  exact upd3_fix _ (StableHlo.devRef_ne_of_ne (by decide) : (Proc.devRef .tc main_v112_0 : DevRef τ sig) ≠ Proc.devRef .tc main_v112_1) (StableHlo.devRef_ne_of_ne (by decide) : (Proc.devRef .tc main_v112_0 : DevRef τ sig) ≠ Proc.devRef .tc main_v112_2) (StableHlo.devRef_ne_of_ne (by decide) : (Proc.devRef .tc main_v112_1 : DevRef τ sig) ≠ Proc.devRef .tc main_v112_2) _ _ _
theorem VW15 (c : Dev nD) : V15 m (outs m) c = W15 m c := by
  show StableHlo.after hostOps7 (V14 m (outs m) c) = _
  rw [VW14]; rfl
theorem VW16 (c : Dev nD) : V16 m (outs m) c = W16 m c := by
  show Function.update (V15 m (outs m) c) main_v137 (W16 m c main_v137) = W16 m c
  rw [VW15]; unfold W16
  exact upd1_fix _ _ _
theorem VW17 (c : Dev nD) : V17 m (outs m) c = W17 m c := by
  show StableHlo.after hostOps8 (V16 m (outs m) c) = _
  rw [VW16]; rfl
theorem VW18 (c : Dev nD) : V18 m (outs m) c = W18 m c := by
  show Function.update (Function.update (Function.update (V17 m (outs m) c) main_v157_0 (W18 m c main_v157_0)) main_v157_1 (W18 m c main_v157_1)) main_v157_2 (W18 m c main_v157_2) = W18 m c
  rw [VW17]; unfold W18
  exact upd3_fix _ (StableHlo.devRef_ne_of_ne (by decide) : (Proc.devRef .tc main_v157_0 : DevRef τ sig) ≠ Proc.devRef .tc main_v157_1) (StableHlo.devRef_ne_of_ne (by decide) : (Proc.devRef .tc main_v157_0 : DevRef τ sig) ≠ Proc.devRef .tc main_v157_2) (StableHlo.devRef_ne_of_ne (by decide) : (Proc.devRef .tc main_v157_1 : DevRef τ sig) ≠ Proc.devRef .tc main_v157_2) _ _ _
theorem VW19 (c : Dev nD) : V19 m (outs m) c = W19 m c := by
  show StableHlo.after hostOps9 (V18 m (outs m) c) = _
  rw [VW18]; rfl
theorem VW20 (c : Dev nD) : V20 m (outs m) c = W20 m c := by
  show Function.update (V19 m (outs m) c) main_v182 (W20 m c main_v182) = W20 m c
  rw [VW19]; unfold W20
  exact upd1_fix _ _ _
theorem VW21 (c : Dev nD) : V21 m (outs m) c = W21 m c := by
  show StableHlo.after hostOps10 (V20 m (outs m) c) = _
  rw [VW20]; rfl
theorem VW22 (c : Dev nD) : V22 m (outs m) c = W22 m c := by
  show Function.update (Function.update (Function.update (V21 m (outs m) c) main_v202_0 (W22 m c main_v202_0)) main_v202_1 (W22 m c main_v202_1)) main_v202_2 (W22 m c main_v202_2) = W22 m c
  rw [VW21]; unfold W22
  exact upd3_fix _ (StableHlo.devRef_ne_of_ne (by decide) : (Proc.devRef .tc main_v202_0 : DevRef τ sig) ≠ Proc.devRef .tc main_v202_1) (StableHlo.devRef_ne_of_ne (by decide) : (Proc.devRef .tc main_v202_0 : DevRef τ sig) ≠ Proc.devRef .tc main_v202_2) (StableHlo.devRef_ne_of_ne (by decide) : (Proc.devRef .tc main_v202_1 : DevRef τ sig) ≠ Proc.devRef .tc main_v202_2) _ _ _
theorem VW23 (c : Dev nD) : V23 m (outs m) c = W23 m c := by
  show StableHlo.after hostOps11 (V22 m (outs m) c) = _
  rw [VW22]; rfl
theorem VW24 (c : Dev nD) : V24 m (outs m) c = W24 m c := by
  show Function.update (V23 m (outs m) c) main_v227 (W24 m c main_v227) = W24 m c
  rw [VW23]; unfold W24
  exact upd1_fix _ _ _
theorem VW25 (c : Dev nD) : V25 m (outs m) c = W25 m c := by
  show StableHlo.after hostOps12 (V24 m (outs m) c) = _
  rw [VW24]; rfl
theorem VW26 (c : Dev nD) : V26 m (outs m) c = W26 m c := by
  show Function.update (Function.update (Function.update (V25 m (outs m) c) main_v247_0 (W26 m c main_v247_0)) main_v247_1 (W26 m c main_v247_1)) main_v247_2 (W26 m c main_v247_2) = W26 m c
  rw [VW25]; unfold W26
  exact upd3_fix _ (StableHlo.devRef_ne_of_ne (by decide) : (Proc.devRef .tc main_v247_0 : DevRef τ sig) ≠ Proc.devRef .tc main_v247_1) (StableHlo.devRef_ne_of_ne (by decide) : (Proc.devRef .tc main_v247_0 : DevRef τ sig) ≠ Proc.devRef .tc main_v247_2) (StableHlo.devRef_ne_of_ne (by decide) : (Proc.devRef .tc main_v247_1 : DevRef τ sig) ≠ Proc.devRef .tc main_v247_2) _ _ _
theorem VW27 (c : Dev nD) : V27 m (outs m) c = W27 m c := by
  show StableHlo.after hostOps13 (V26 m (outs m) c) = _
  rw [VW26]; rfl
theorem VW28 (c : Dev nD) : V28 m (outs m) c = W28 m c := by
  show Function.update (V27 m (outs m) c) main_v272 (W28 m c main_v272) = W28 m c
  rw [VW27]; unfold W28
  exact upd1_fix _ _ _
theorem VW29 (c : Dev nD) : V29 m (outs m) c = W29 m c := by
  show StableHlo.after hostOps14 (V28 m (outs m) c) = _
  rw [VW28]; rfl
theorem VW30 (c : Dev nD) : V30 m (outs m) c = W30 m c := by
  show Function.update (Function.update (Function.update (V29 m (outs m) c) main_v292_0 (W30 m c main_v292_0)) main_v292_1 (W30 m c main_v292_1)) main_v292_2 (W30 m c main_v292_2) = W30 m c
  rw [VW29]; unfold W30
  exact upd3_fix _ (StableHlo.devRef_ne_of_ne (by decide) : (Proc.devRef .tc main_v292_0 : DevRef τ sig) ≠ Proc.devRef .tc main_v292_1) (StableHlo.devRef_ne_of_ne (by decide) : (Proc.devRef .tc main_v292_0 : DevRef τ sig) ≠ Proc.devRef .tc main_v292_2) (StableHlo.devRef_ne_of_ne (by decide) : (Proc.devRef .tc main_v292_1 : DevRef τ sig) ≠ Proc.devRef .tc main_v292_2) _ _ _
theorem VW31 (c : Dev nD) : V31 m (outs m) c = W31 m c := by
  show StableHlo.after hostOps15 (V30 m (outs m) c) = _
  rw [VW30]; rfl
theorem VW32 (c : Dev nD) : V32 m (outs m) c = W32 m c := by
  show Function.update (V31 m (outs m) c) main_v299 (W32 m c main_v299) = W32 m c
  rw [VW31]; unfold W32
  exact upd1_fix _ _ _

/-! ## Each region's entry and exit contents, and what it leaves in its arrays -/

/-- Region 0's entry contents (the generated valuation before it), -/
noncomputable abbrev En0 (c : Dev nD) : Valuation τ sig (Elt F) := V1 m c
/-- its exit contents (the one after it), -/
noncomputable abbrev Ex0 (c : Dev nD) : Valuation τ sig (Elt F) := V2 m (outs m) c
/-- and both read at the TensorCore's references (what the region's proof data take). -/
noncomputable abbrev en0 : (c : Dev nD) → (b : Ref sig .tc) → Buf (Elt F) ((c : Thread nD τ).loc b) := fun c b => En0 m c b
noncomputable abbrev ex0 : (c : Dev nD) → (b : Ref sig .tc) → Buf (Elt F) ((c : Thread nD τ).loc b) := fun c b => Ex0 m c b
theorem en0_eq : en0 m = fun (c : Dev nD) (b : Ref sig .tc) => W1 m c b := funext fun c => funext fun b => congrFun (VW1 m c) b
/-- Region 0 leaves in main_v14 what its write-backs to output window 5 fold to from the entry contents. -/
theorem Ex0_out5 (c : Dev nD) : Ex0 m c main_v14 = (dat0 (en0 m) c).arrAt 5 cfg0.N := by
  rw [en0_eq]; show V2 m (outs m) c main_v14 = _
  rw [VW2]; unfold W2
  rw [Function.update_self]
/-- Region 1's entry contents (the generated valuation before it), -/
noncomputable abbrev En1 (c : Dev nD) : Valuation τ sig (Elt F) := V3 m (outs m) c
/-- its exit contents (the one after it), -/
noncomputable abbrev Ex1 (c : Dev nD) : Valuation τ sig (Elt F) := V4 m (outs m) c
/-- and both read at the TensorCore's references (what the region's proof data take). -/
noncomputable abbrev en1 : (c : Dev nD) → (b : Ref sig .tc) → Buf (Elt F) ((c : Thread nD τ).loc b) := fun c b => En1 m c b
noncomputable abbrev ex1 : (c : Dev nD) → (b : Ref sig .tc) → Buf (Elt F) ((c : Thread nD τ).loc b) := fun c b => Ex1 m c b
theorem en1_eq : en1 m = fun (c : Dev nD) (b : Ref sig .tc) => W3 m c b := funext fun c => funext fun b => congrFun (VW3 m c) b
/-- Region 1 leaves in main_v17 what its write-backs to output window 5 fold to from the entry contents. -/
theorem Ex1_out5 (c : Dev nD) : Ex1 m c main_v17 = (dat1 (en1 m) c).arrAt 5 cfg1.N := by
  rw [en1_eq]; show V4 m (outs m) c main_v17 = _
  rw [VW4]; unfold W4
  rw [Function.update_self]
/-- Region 2's entry contents (the generated valuation before it), -/
noncomputable abbrev En2 (c : Dev nD) : Valuation τ sig (Elt F) := V5 m (outs m) c
/-- its exit contents (the one after it), -/
noncomputable abbrev Ex2 (c : Dev nD) : Valuation τ sig (Elt F) := V6 m (outs m) c
/-- and both read at the TensorCore's references (what the region's proof data take). -/
noncomputable abbrev en2 : (c : Dev nD) → (b : Ref sig .tc) → Buf (Elt F) ((c : Thread nD τ).loc b) := fun c b => En2 m c b
noncomputable abbrev ex2 : (c : Dev nD) → (b : Ref sig .tc) → Buf (Elt F) ((c : Thread nD τ).loc b) := fun c b => Ex2 m c b
theorem en2_eq : en2 m = fun (c : Dev nD) (b : Ref sig .tc) => W5 m c b := funext fun c => funext fun b => congrFun (VW5 m c) b
/-- Region 2 leaves in main_v22_0 what its write-backs to output window 3 fold to from the entry contents. -/
theorem Ex2_out3 (c : Dev nD) : Ex2 m c main_v22_0 = (dat2 (en2 m) c).arrAt 3 cfg2.N := by
  rw [en2_eq]; show V6 m (outs m) c main_v22_0 = _
  rw [VW6]; unfold W6
  rw [Function.update_of_ne (StableHlo.devRef_ne_of_ne (by decide) : (Proc.devRef .tc main_v22_0 : DevRef τ sig) ≠ Proc.devRef .tc main_v22_1), Function.update_self]
/-- Region 2 leaves in main_v22_1 what its write-backs to output window 4 fold to from the entry contents. -/
theorem Ex2_out4 (c : Dev nD) : Ex2 m c main_v22_1 = (dat2 (en2 m) c).arrAt 4 cfg2.N := by
  rw [en2_eq]; show V6 m (outs m) c main_v22_1 = _
  rw [VW6]; unfold W6
  rw [Function.update_self]
/-- Region 3's entry contents (the generated valuation before it), -/
noncomputable abbrev En3 (c : Dev nD) : Valuation τ sig (Elt F) := V7 m (outs m) c
/-- its exit contents (the one after it), -/
noncomputable abbrev Ex3 (c : Dev nD) : Valuation τ sig (Elt F) := V8 m (outs m) c
/-- and both read at the TensorCore's references (what the region's proof data take). -/
noncomputable abbrev en3 : (c : Dev nD) → (b : Ref sig .tc) → Buf (Elt F) ((c : Thread nD τ).loc b) := fun c b => En3 m c b
noncomputable abbrev ex3 : (c : Dev nD) → (b : Ref sig .tc) → Buf (Elt F) ((c : Thread nD τ).loc b) := fun c b => Ex3 m c b
theorem en3_eq : en3 m = fun (c : Dev nD) (b : Ref sig .tc) => W7 m c b := funext fun c => funext fun b => congrFun (VW7 m c) b
/-- Region 3 leaves in main_v47 what its write-backs to output window 7 fold to from the entry contents. -/
theorem Ex3_out7 (c : Dev nD) : Ex3 m c main_v47 = (dat3 (en3 m) c).arrAt 7 cfg3.N := by
  rw [en3_eq]; show V8 m (outs m) c main_v47 = _
  rw [VW8]; unfold W8
  rw [Function.update_self]
/-- Region 4's entry contents (the generated valuation before it), -/
noncomputable abbrev En4 (c : Dev nD) : Valuation τ sig (Elt F) := V9 m (outs m) c
/-- its exit contents (the one after it), -/
noncomputable abbrev Ex4 (c : Dev nD) : Valuation τ sig (Elt F) := V10 m (outs m) c
/-- and both read at the TensorCore's references (what the region's proof data take). -/
noncomputable abbrev en4 : (c : Dev nD) → (b : Ref sig .tc) → Buf (Elt F) ((c : Thread nD τ).loc b) := fun c b => En4 m c b
noncomputable abbrev ex4 : (c : Dev nD) → (b : Ref sig .tc) → Buf (Elt F) ((c : Thread nD τ).loc b) := fun c b => Ex4 m c b
theorem en4_eq : en4 m = fun (c : Dev nD) (b : Ref sig .tc) => W9 m c b := funext fun c => funext fun b => congrFun (VW9 m c) b
/-- Region 4 leaves in main_v67_0 what its write-backs to output window 9 fold to from the entry contents. -/
theorem Ex4_out9 (c : Dev nD) : Ex4 m c main_v67_0 = (dat4 (en4 m) c).arrAt 9 cfg4.N := by
  rw [en4_eq]; show V10 m (outs m) c main_v67_0 = _
  rw [VW10]; unfold W10
  rw [Function.update_of_ne (StableHlo.devRef_ne_of_ne (by decide) : (Proc.devRef .tc main_v67_0 : DevRef τ sig) ≠ Proc.devRef .tc main_v67_2), Function.update_of_ne (StableHlo.devRef_ne_of_ne (by decide) : (Proc.devRef .tc main_v67_0 : DevRef τ sig) ≠ Proc.devRef .tc main_v67_1), Function.update_self]
/-- Region 4 leaves in main_v67_1 what its write-backs to output window 10 fold to from the entry contents. -/
theorem Ex4_out10 (c : Dev nD) : Ex4 m c main_v67_1 = (dat4 (en4 m) c).arrAt 10 cfg4.N := by
  rw [en4_eq]; show V10 m (outs m) c main_v67_1 = _
  rw [VW10]; unfold W10
  rw [Function.update_of_ne (StableHlo.devRef_ne_of_ne (by decide) : (Proc.devRef .tc main_v67_1 : DevRef τ sig) ≠ Proc.devRef .tc main_v67_2), Function.update_self]
/-- Region 4 leaves in main_v67_2 what its write-backs to output window 11 fold to from the entry contents. -/
theorem Ex4_out11 (c : Dev nD) : Ex4 m c main_v67_2 = (dat4 (en4 m) c).arrAt 11 cfg4.N := by
  rw [en4_eq]; show V10 m (outs m) c main_v67_2 = _
  rw [VW10]; unfold W10
  rw [Function.update_self]
/-- Region 5's entry contents (the generated valuation before it), -/
noncomputable abbrev En5 (c : Dev nD) : Valuation τ sig (Elt F) := V11 m (outs m) c
/-- its exit contents (the one after it), -/
noncomputable abbrev Ex5 (c : Dev nD) : Valuation τ sig (Elt F) := V12 m (outs m) c
/-- and both read at the TensorCore's references (what the region's proof data take). -/
noncomputable abbrev en5 : (c : Dev nD) → (b : Ref sig .tc) → Buf (Elt F) ((c : Thread nD τ).loc b) := fun c b => En5 m c b
noncomputable abbrev ex5 : (c : Dev nD) → (b : Ref sig .tc) → Buf (Elt F) ((c : Thread nD τ).loc b) := fun c b => Ex5 m c b
theorem en5_eq : en5 m = fun (c : Dev nD) (b : Ref sig .tc) => W11 m c b := funext fun c => funext fun b => congrFun (VW11 m c) b
/-- Region 5 leaves in main_v92 what its write-backs to output window 7 fold to from the entry contents. -/
theorem Ex5_out7 (c : Dev nD) : Ex5 m c main_v92 = (dat5 (en5 m) c).arrAt 7 cfg5.N := by
  rw [en5_eq]; show V12 m (outs m) c main_v92 = _
  rw [VW12]; unfold W12
  rw [Function.update_self]
/-- Region 6's entry contents (the generated valuation before it), -/
noncomputable abbrev En6 (c : Dev nD) : Valuation τ sig (Elt F) := V13 m (outs m) c
/-- its exit contents (the one after it), -/
noncomputable abbrev Ex6 (c : Dev nD) : Valuation τ sig (Elt F) := V14 m (outs m) c
/-- and both read at the TensorCore's references (what the region's proof data take). -/
noncomputable abbrev en6 : (c : Dev nD) → (b : Ref sig .tc) → Buf (Elt F) ((c : Thread nD τ).loc b) := fun c b => En6 m c b
noncomputable abbrev ex6 : (c : Dev nD) → (b : Ref sig .tc) → Buf (Elt F) ((c : Thread nD τ).loc b) := fun c b => Ex6 m c b
theorem en6_eq : en6 m = fun (c : Dev nD) (b : Ref sig .tc) => W13 m c b := funext fun c => funext fun b => congrFun (VW13 m c) b
/-- Region 6 leaves in main_v112_0 what its write-backs to output window 9 fold to from the entry contents. -/
theorem Ex6_out9 (c : Dev nD) : Ex6 m c main_v112_0 = (dat6 (en6 m) c).arrAt 9 cfg6.N := by
  rw [en6_eq]; show V14 m (outs m) c main_v112_0 = _
  rw [VW14]; unfold W14
  rw [Function.update_of_ne (StableHlo.devRef_ne_of_ne (by decide) : (Proc.devRef .tc main_v112_0 : DevRef τ sig) ≠ Proc.devRef .tc main_v112_2), Function.update_of_ne (StableHlo.devRef_ne_of_ne (by decide) : (Proc.devRef .tc main_v112_0 : DevRef τ sig) ≠ Proc.devRef .tc main_v112_1), Function.update_self]
/-- Region 6 leaves in main_v112_1 what its write-backs to output window 10 fold to from the entry contents. -/
theorem Ex6_out10 (c : Dev nD) : Ex6 m c main_v112_1 = (dat6 (en6 m) c).arrAt 10 cfg6.N := by
  rw [en6_eq]; show V14 m (outs m) c main_v112_1 = _
  rw [VW14]; unfold W14
  rw [Function.update_of_ne (StableHlo.devRef_ne_of_ne (by decide) : (Proc.devRef .tc main_v112_1 : DevRef τ sig) ≠ Proc.devRef .tc main_v112_2), Function.update_self]
/-- Region 6 leaves in main_v112_2 what its write-backs to output window 11 fold to from the entry contents. -/
theorem Ex6_out11 (c : Dev nD) : Ex6 m c main_v112_2 = (dat6 (en6 m) c).arrAt 11 cfg6.N := by
  rw [en6_eq]; show V14 m (outs m) c main_v112_2 = _
  rw [VW14]; unfold W14
  rw [Function.update_self]
/-- Region 7's entry contents (the generated valuation before it), -/
noncomputable abbrev En7 (c : Dev nD) : Valuation τ sig (Elt F) := V15 m (outs m) c
/-- its exit contents (the one after it), -/
noncomputable abbrev Ex7 (c : Dev nD) : Valuation τ sig (Elt F) := V16 m (outs m) c
/-- and both read at the TensorCore's references (what the region's proof data take). -/
noncomputable abbrev en7 : (c : Dev nD) → (b : Ref sig .tc) → Buf (Elt F) ((c : Thread nD τ).loc b) := fun c b => En7 m c b
noncomputable abbrev ex7 : (c : Dev nD) → (b : Ref sig .tc) → Buf (Elt F) ((c : Thread nD τ).loc b) := fun c b => Ex7 m c b
theorem en7_eq : en7 m = fun (c : Dev nD) (b : Ref sig .tc) => W15 m c b := funext fun c => funext fun b => congrFun (VW15 m c) b
/-- Region 7 leaves in main_v137 what its write-backs to output window 7 fold to from the entry contents. -/
theorem Ex7_out7 (c : Dev nD) : Ex7 m c main_v137 = (dat7 (en7 m) c).arrAt 7 cfg7.N := by
  rw [en7_eq]; show V16 m (outs m) c main_v137 = _
  rw [VW16]; unfold W16
  rw [Function.update_self]
/-- Region 8's entry contents (the generated valuation before it), -/
noncomputable abbrev En8 (c : Dev nD) : Valuation τ sig (Elt F) := V17 m (outs m) c
/-- its exit contents (the one after it), -/
noncomputable abbrev Ex8 (c : Dev nD) : Valuation τ sig (Elt F) := V18 m (outs m) c
/-- and both read at the TensorCore's references (what the region's proof data take). -/
noncomputable abbrev en8 : (c : Dev nD) → (b : Ref sig .tc) → Buf (Elt F) ((c : Thread nD τ).loc b) := fun c b => En8 m c b
noncomputable abbrev ex8 : (c : Dev nD) → (b : Ref sig .tc) → Buf (Elt F) ((c : Thread nD τ).loc b) := fun c b => Ex8 m c b
theorem en8_eq : en8 m = fun (c : Dev nD) (b : Ref sig .tc) => W17 m c b := funext fun c => funext fun b => congrFun (VW17 m c) b
/-- Region 8 leaves in main_v157_0 what its write-backs to output window 9 fold to from the entry contents. -/
theorem Ex8_out9 (c : Dev nD) : Ex8 m c main_v157_0 = (dat8 (en8 m) c).arrAt 9 cfg8.N := by
  rw [en8_eq]; show V18 m (outs m) c main_v157_0 = _
  rw [VW18]; unfold W18
  rw [Function.update_of_ne (StableHlo.devRef_ne_of_ne (by decide) : (Proc.devRef .tc main_v157_0 : DevRef τ sig) ≠ Proc.devRef .tc main_v157_2), Function.update_of_ne (StableHlo.devRef_ne_of_ne (by decide) : (Proc.devRef .tc main_v157_0 : DevRef τ sig) ≠ Proc.devRef .tc main_v157_1), Function.update_self]
/-- Region 8 leaves in main_v157_1 what its write-backs to output window 10 fold to from the entry contents. -/
theorem Ex8_out10 (c : Dev nD) : Ex8 m c main_v157_1 = (dat8 (en8 m) c).arrAt 10 cfg8.N := by
  rw [en8_eq]; show V18 m (outs m) c main_v157_1 = _
  rw [VW18]; unfold W18
  rw [Function.update_of_ne (StableHlo.devRef_ne_of_ne (by decide) : (Proc.devRef .tc main_v157_1 : DevRef τ sig) ≠ Proc.devRef .tc main_v157_2), Function.update_self]
/-- Region 8 leaves in main_v157_2 what its write-backs to output window 11 fold to from the entry contents. -/
theorem Ex8_out11 (c : Dev nD) : Ex8 m c main_v157_2 = (dat8 (en8 m) c).arrAt 11 cfg8.N := by
  rw [en8_eq]; show V18 m (outs m) c main_v157_2 = _
  rw [VW18]; unfold W18
  rw [Function.update_self]
/-- Region 9's entry contents (the generated valuation before it), -/
noncomputable abbrev En9 (c : Dev nD) : Valuation τ sig (Elt F) := V19 m (outs m) c
/-- its exit contents (the one after it), -/
noncomputable abbrev Ex9 (c : Dev nD) : Valuation τ sig (Elt F) := V20 m (outs m) c
/-- and both read at the TensorCore's references (what the region's proof data take). -/
noncomputable abbrev en9 : (c : Dev nD) → (b : Ref sig .tc) → Buf (Elt F) ((c : Thread nD τ).loc b) := fun c b => En9 m c b
noncomputable abbrev ex9 : (c : Dev nD) → (b : Ref sig .tc) → Buf (Elt F) ((c : Thread nD τ).loc b) := fun c b => Ex9 m c b
theorem en9_eq : en9 m = fun (c : Dev nD) (b : Ref sig .tc) => W19 m c b := funext fun c => funext fun b => congrFun (VW19 m c) b
/-- Region 9 leaves in main_v182 what its write-backs to output window 7 fold to from the entry contents. -/
theorem Ex9_out7 (c : Dev nD) : Ex9 m c main_v182 = (dat9 (en9 m) c).arrAt 7 cfg9.N := by
  rw [en9_eq]; show V20 m (outs m) c main_v182 = _
  rw [VW20]; unfold W20
  rw [Function.update_self]
/-- Region 10's entry contents (the generated valuation before it), -/
noncomputable abbrev En10 (c : Dev nD) : Valuation τ sig (Elt F) := V21 m (outs m) c
/-- its exit contents (the one after it), -/
noncomputable abbrev Ex10 (c : Dev nD) : Valuation τ sig (Elt F) := V22 m (outs m) c
/-- and both read at the TensorCore's references (what the region's proof data take). -/
noncomputable abbrev en10 : (c : Dev nD) → (b : Ref sig .tc) → Buf (Elt F) ((c : Thread nD τ).loc b) := fun c b => En10 m c b
noncomputable abbrev ex10 : (c : Dev nD) → (b : Ref sig .tc) → Buf (Elt F) ((c : Thread nD τ).loc b) := fun c b => Ex10 m c b
theorem en10_eq : en10 m = fun (c : Dev nD) (b : Ref sig .tc) => W21 m c b := funext fun c => funext fun b => congrFun (VW21 m c) b
/-- Region 10 leaves in main_v202_0 what its write-backs to output window 9 fold to from the entry contents. -/
theorem Ex10_out9 (c : Dev nD) : Ex10 m c main_v202_0 = (dat10 (en10 m) c).arrAt 9 cfg10.N := by
  rw [en10_eq]; show V22 m (outs m) c main_v202_0 = _
  rw [VW22]; unfold W22
  rw [Function.update_of_ne (StableHlo.devRef_ne_of_ne (by decide) : (Proc.devRef .tc main_v202_0 : DevRef τ sig) ≠ Proc.devRef .tc main_v202_2), Function.update_of_ne (StableHlo.devRef_ne_of_ne (by decide) : (Proc.devRef .tc main_v202_0 : DevRef τ sig) ≠ Proc.devRef .tc main_v202_1), Function.update_self]
/-- Region 10 leaves in main_v202_1 what its write-backs to output window 10 fold to from the entry contents. -/
theorem Ex10_out10 (c : Dev nD) : Ex10 m c main_v202_1 = (dat10 (en10 m) c).arrAt 10 cfg10.N := by
  rw [en10_eq]; show V22 m (outs m) c main_v202_1 = _
  rw [VW22]; unfold W22
  rw [Function.update_of_ne (StableHlo.devRef_ne_of_ne (by decide) : (Proc.devRef .tc main_v202_1 : DevRef τ sig) ≠ Proc.devRef .tc main_v202_2), Function.update_self]
/-- Region 10 leaves in main_v202_2 what its write-backs to output window 11 fold to from the entry contents. -/
theorem Ex10_out11 (c : Dev nD) : Ex10 m c main_v202_2 = (dat10 (en10 m) c).arrAt 11 cfg10.N := by
  rw [en10_eq]; show V22 m (outs m) c main_v202_2 = _
  rw [VW22]; unfold W22
  rw [Function.update_self]
/-- Region 11's entry contents (the generated valuation before it), -/
noncomputable abbrev En11 (c : Dev nD) : Valuation τ sig (Elt F) := V23 m (outs m) c
/-- its exit contents (the one after it), -/
noncomputable abbrev Ex11 (c : Dev nD) : Valuation τ sig (Elt F) := V24 m (outs m) c
/-- and both read at the TensorCore's references (what the region's proof data take). -/
noncomputable abbrev en11 : (c : Dev nD) → (b : Ref sig .tc) → Buf (Elt F) ((c : Thread nD τ).loc b) := fun c b => En11 m c b
noncomputable abbrev ex11 : (c : Dev nD) → (b : Ref sig .tc) → Buf (Elt F) ((c : Thread nD τ).loc b) := fun c b => Ex11 m c b
theorem en11_eq : en11 m = fun (c : Dev nD) (b : Ref sig .tc) => W23 m c b := funext fun c => funext fun b => congrFun (VW23 m c) b
/-- Region 11 leaves in main_v227 what its write-backs to output window 7 fold to from the entry contents. -/
theorem Ex11_out7 (c : Dev nD) : Ex11 m c main_v227 = (dat11 (en11 m) c).arrAt 7 cfg11.N := by
  rw [en11_eq]; show V24 m (outs m) c main_v227 = _
  rw [VW24]; unfold W24
  rw [Function.update_self]
/-- Region 12's entry contents (the generated valuation before it), -/
noncomputable abbrev En12 (c : Dev nD) : Valuation τ sig (Elt F) := V25 m (outs m) c
/-- its exit contents (the one after it), -/
noncomputable abbrev Ex12 (c : Dev nD) : Valuation τ sig (Elt F) := V26 m (outs m) c
/-- and both read at the TensorCore's references (what the region's proof data take). -/
noncomputable abbrev en12 : (c : Dev nD) → (b : Ref sig .tc) → Buf (Elt F) ((c : Thread nD τ).loc b) := fun c b => En12 m c b
noncomputable abbrev ex12 : (c : Dev nD) → (b : Ref sig .tc) → Buf (Elt F) ((c : Thread nD τ).loc b) := fun c b => Ex12 m c b
theorem en12_eq : en12 m = fun (c : Dev nD) (b : Ref sig .tc) => W25 m c b := funext fun c => funext fun b => congrFun (VW25 m c) b
/-- Region 12 leaves in main_v247_0 what its write-backs to output window 9 fold to from the entry contents. -/
theorem Ex12_out9 (c : Dev nD) : Ex12 m c main_v247_0 = (dat12 (en12 m) c).arrAt 9 cfg12.N := by
  rw [en12_eq]; show V26 m (outs m) c main_v247_0 = _
  rw [VW26]; unfold W26
  rw [Function.update_of_ne (StableHlo.devRef_ne_of_ne (by decide) : (Proc.devRef .tc main_v247_0 : DevRef τ sig) ≠ Proc.devRef .tc main_v247_2), Function.update_of_ne (StableHlo.devRef_ne_of_ne (by decide) : (Proc.devRef .tc main_v247_0 : DevRef τ sig) ≠ Proc.devRef .tc main_v247_1), Function.update_self]
/-- Region 12 leaves in main_v247_1 what its write-backs to output window 10 fold to from the entry contents. -/
theorem Ex12_out10 (c : Dev nD) : Ex12 m c main_v247_1 = (dat12 (en12 m) c).arrAt 10 cfg12.N := by
  rw [en12_eq]; show V26 m (outs m) c main_v247_1 = _
  rw [VW26]; unfold W26
  rw [Function.update_of_ne (StableHlo.devRef_ne_of_ne (by decide) : (Proc.devRef .tc main_v247_1 : DevRef τ sig) ≠ Proc.devRef .tc main_v247_2), Function.update_self]
/-- Region 12 leaves in main_v247_2 what its write-backs to output window 11 fold to from the entry contents. -/
theorem Ex12_out11 (c : Dev nD) : Ex12 m c main_v247_2 = (dat12 (en12 m) c).arrAt 11 cfg12.N := by
  rw [en12_eq]; show V26 m (outs m) c main_v247_2 = _
  rw [VW26]; unfold W26
  rw [Function.update_self]
/-- Region 13's entry contents (the generated valuation before it), -/
noncomputable abbrev En13 (c : Dev nD) : Valuation τ sig (Elt F) := V27 m (outs m) c
/-- its exit contents (the one after it), -/
noncomputable abbrev Ex13 (c : Dev nD) : Valuation τ sig (Elt F) := V28 m (outs m) c
/-- and both read at the TensorCore's references (what the region's proof data take). -/
noncomputable abbrev en13 : (c : Dev nD) → (b : Ref sig .tc) → Buf (Elt F) ((c : Thread nD τ).loc b) := fun c b => En13 m c b
noncomputable abbrev ex13 : (c : Dev nD) → (b : Ref sig .tc) → Buf (Elt F) ((c : Thread nD τ).loc b) := fun c b => Ex13 m c b
theorem en13_eq : en13 m = fun (c : Dev nD) (b : Ref sig .tc) => W27 m c b := funext fun c => funext fun b => congrFun (VW27 m c) b
/-- Region 13 leaves in main_v272 what its write-backs to output window 7 fold to from the entry contents. -/
theorem Ex13_out7 (c : Dev nD) : Ex13 m c main_v272 = (dat13 (en13 m) c).arrAt 7 cfg13.N := by
  rw [en13_eq]; show V28 m (outs m) c main_v272 = _
  rw [VW28]; unfold W28
  rw [Function.update_self]
/-- Region 14's entry contents (the generated valuation before it), -/
noncomputable abbrev En14 (c : Dev nD) : Valuation τ sig (Elt F) := V29 m (outs m) c
/-- its exit contents (the one after it), -/
noncomputable abbrev Ex14 (c : Dev nD) : Valuation τ sig (Elt F) := V30 m (outs m) c
/-- and both read at the TensorCore's references (what the region's proof data take). -/
noncomputable abbrev en14 : (c : Dev nD) → (b : Ref sig .tc) → Buf (Elt F) ((c : Thread nD τ).loc b) := fun c b => En14 m c b
noncomputable abbrev ex14 : (c : Dev nD) → (b : Ref sig .tc) → Buf (Elt F) ((c : Thread nD τ).loc b) := fun c b => Ex14 m c b
theorem en14_eq : en14 m = fun (c : Dev nD) (b : Ref sig .tc) => W29 m c b := funext fun c => funext fun b => congrFun (VW29 m c) b
/-- Region 14 leaves in main_v292_0 what its write-backs to output window 9 fold to from the entry contents. -/
theorem Ex14_out9 (c : Dev nD) : Ex14 m c main_v292_0 = (dat14 (en14 m) c).arrAt 9 cfg14.N := by
  rw [en14_eq]; show V30 m (outs m) c main_v292_0 = _
  rw [VW30]; unfold W30
  rw [Function.update_of_ne (StableHlo.devRef_ne_of_ne (by decide) : (Proc.devRef .tc main_v292_0 : DevRef τ sig) ≠ Proc.devRef .tc main_v292_2), Function.update_of_ne (StableHlo.devRef_ne_of_ne (by decide) : (Proc.devRef .tc main_v292_0 : DevRef τ sig) ≠ Proc.devRef .tc main_v292_1), Function.update_self]
/-- Region 14 leaves in main_v292_1 what its write-backs to output window 10 fold to from the entry contents. -/
theorem Ex14_out10 (c : Dev nD) : Ex14 m c main_v292_1 = (dat14 (en14 m) c).arrAt 10 cfg14.N := by
  rw [en14_eq]; show V30 m (outs m) c main_v292_1 = _
  rw [VW30]; unfold W30
  rw [Function.update_of_ne (StableHlo.devRef_ne_of_ne (by decide) : (Proc.devRef .tc main_v292_1 : DevRef τ sig) ≠ Proc.devRef .tc main_v292_2), Function.update_self]
/-- Region 14 leaves in main_v292_2 what its write-backs to output window 11 fold to from the entry contents. -/
theorem Ex14_out11 (c : Dev nD) : Ex14 m c main_v292_2 = (dat14 (en14 m) c).arrAt 11 cfg14.N := by
  rw [en14_eq]; show V30 m (outs m) c main_v292_2 = _
  rw [VW30]; unfold W30
  rw [Function.update_self]
/-- Region 15's entry contents (the generated valuation before it), -/
noncomputable abbrev En15 (c : Dev nD) : Valuation τ sig (Elt F) := V31 m (outs m) c
/-- its exit contents (the one after it), -/
noncomputable abbrev Ex15 (c : Dev nD) : Valuation τ sig (Elt F) := V32 m (outs m) c
/-- and both read at the TensorCore's references (what the region's proof data take). -/
noncomputable abbrev en15 : (c : Dev nD) → (b : Ref sig .tc) → Buf (Elt F) ((c : Thread nD τ).loc b) := fun c b => En15 m c b
noncomputable abbrev ex15 : (c : Dev nD) → (b : Ref sig .tc) → Buf (Elt F) ((c : Thread nD τ).loc b) := fun c b => Ex15 m c b
theorem en15_eq : en15 m = fun (c : Dev nD) (b : Ref sig .tc) => W31 m c b := funext fun c => funext fun b => congrFun (VW31 m c) b
/-- Region 15 leaves in main_v299 what its write-backs to output window 9 fold to from the entry contents. -/
theorem Ex15_out9 (c : Dev nD) : Ex15 m c main_v299 = (dat15 (en15 m) c).arrAt 9 cfg15.N := by
  rw [en15_eq]; show V32 m (outs m) c main_v299 = _
  rw [VW32]; unfold W32
  rw [Function.update_self]
/-! ## The proof data family and what rides beside the buffers -/

/-- Every pipeline's proof data, each at its region's entry contents (a literal match, so that at a numeral it reduces). -/
noncomputable def pdats : (p : Fin 16) → (c : Dev nD) → Dat τ (Elt F) Unit ℕ (UR sig nD τ) ℕ (Pipeline.pin (pcfgs (F := F)) adm p) c
  | ⟨0, _⟩ => fun c => dat0 (en0 m) c
  | ⟨1, _⟩ => fun c => dat1 (en1 m) c
  | ⟨2, _⟩ => fun c => dat2 (en2 m) c
  | ⟨3, _⟩ => fun c => dat3 (en3 m) c
  | ⟨4, _⟩ => fun c => dat4 (en4 m) c
  | ⟨5, _⟩ => fun c => dat5 (en5 m) c
  | ⟨6, _⟩ => fun c => dat6 (en6 m) c
  | ⟨7, _⟩ => fun c => dat7 (en7 m) c
  | ⟨8, _⟩ => fun c => dat8 (en8 m) c
  | ⟨9, _⟩ => fun c => dat9 (en9 m) c
  | ⟨10, _⟩ => fun c => dat10 (en10 m) c
  | ⟨11, _⟩ => fun c => dat11 (en11 m) c
  | ⟨12, _⟩ => fun c => dat12 (en12 m) c
  | ⟨13, _⟩ => fun c => dat13 (en13 m) c
  | ⟨14, _⟩ => fun c => dat14 (en14 m) c
  | ⟨15, _⟩ => fun c => dat15 (en15 m) c
  | ⟨_ + 16, h⟩ => absurd h (Nat.not_lt.2 (Nat.le_add_left _ _))

/-- No core owes another anything: no level is assigned. -/
noncomputable abbrev L : GSem nD τ sig → Finset Unit := fun _ => ∅
noncomputable abbrev lv : GSem nD τ sig → Unit → ℕ := fun _ _ => 0
/-- What rides beside the buffers through every item: the core's generator register at some state and its dues, at nothing. -/
noncomputable abbrev R (c : Dev nD) : sProp 𝕄 := iprop((∃ r, prngReg c r) ∗ ∃ W, owes (c : Thread nD τ) (0 : CellTallies nD τ sig Unit) W)

end Cert.Kernel.Hand

end
-- ==== Proof.K.Seg0.lean ====
/-
  Region 0 of @main as a segment of the run. First what the region leaves in each of its arrays, read against the generated
  valuations before and after it (an input window's array as entered, the output's at what the write-backs fold to, every
  other buffer untouched); then the segment record: the pipeline's layout facts from the launch, the body obligation at the region's
  entry contents, and the four entailments that take the thread state "every unscoped buffer at the entry contents, the
  generator register at some state, nothing owed" into the pipeline and bring it back at the exit contents.
-/
import proofs.«152161_j29669634081217_2_alg».proof.Proof.K.Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the region leaves in its arrays -/

theorem hF0_0 (c : Dev nD) : (dat0 (en0 m) c).arrAt (0 : Fin 6) cfg0.N = ex0 m c (Pipeline.arrRef spec0 (0 : Fin 6)) :=
  ((dat0 (en0 m) c).arrAt_in (0 : Fin 6) rfl _).trans ((A_eq0 (en0 m) c (0 : Fin 6)).trans (V2_of m (outs m) c (Pipeline.arrRef spec0 (0 : Fin 6)) (by decide)).symm)
theorem hF0_1 (c : Dev nD) : (dat0 (en0 m) c).arrAt (1 : Fin 6) cfg0.N = ex0 m c (Pipeline.arrRef spec0 (1 : Fin 6)) :=
  ((dat0 (en0 m) c).arrAt_in (1 : Fin 6) rfl _).trans ((A_eq0 (en0 m) c (1 : Fin 6)).trans (V2_of m (outs m) c (Pipeline.arrRef spec0 (1 : Fin 6)) (by decide)).symm)
theorem hF0_2 (c : Dev nD) : (dat0 (en0 m) c).arrAt (2 : Fin 6) cfg0.N = ex0 m c (Pipeline.arrRef spec0 (2 : Fin 6)) :=
  ((dat0 (en0 m) c).arrAt_in (2 : Fin 6) rfl _).trans ((A_eq0 (en0 m) c (2 : Fin 6)).trans (V2_of m (outs m) c (Pipeline.arrRef spec0 (2 : Fin 6)) (by decide)).symm)
theorem hF0_3 (c : Dev nD) : (dat0 (en0 m) c).arrAt (3 : Fin 6) cfg0.N = ex0 m c (Pipeline.arrRef spec0 (3 : Fin 6)) :=
  ((dat0 (en0 m) c).arrAt_in (3 : Fin 6) rfl _).trans ((A_eq0 (en0 m) c (3 : Fin 6)).trans (V2_of m (outs m) c (Pipeline.arrRef spec0 (3 : Fin 6)) (by decide)).symm)
theorem hF0_4 (c : Dev nD) : (dat0 (en0 m) c).arrAt (4 : Fin 6) cfg0.N = ex0 m c (Pipeline.arrRef spec0 (4 : Fin 6)) :=
  ((dat0 (en0 m) c).arrAt_in (4 : Fin 6) rfl _).trans ((A_eq0 (en0 m) c (4 : Fin 6)).trans (V2_of m (outs m) c (Pipeline.arrRef spec0 (4 : Fin 6)) (by decide)).symm)
theorem hF0_5 (c : Dev nD) : (dat0 (en0 m) c).arrAt (5 : Fin 6) cfg0.N = ex0 m c (Pipeline.arrRef spec0 (5 : Fin 6)) := by
  show _ = Ex0 m c main_v14
  exact (Ex0_out5 m c).symm
/-- At region 0's exit each of its arrays holds what the pipeline leaves: an input as entered, an output as above. -/
theorem hF0 (c : Dev nD) : ∀ w : Fin 6, (dat0 (en0 m) c).arrAt w cfg0.N = ex0 m c (Pipeline.arrRef spec0 w) :=
  forall_fin6 (hF0_0 m c) (hF0_1 m c) (hF0_2 m c) (hF0_3 m c) (hF0_4 m c) (hF0_5 m c)
/-- Every buffer that is none of region 0's arrays is at its exit what it was at its entry. -/
theorem hrest0 (c : Dev nD) : ∀ b, b ∉ Finset.univ.image (Pipeline.arrRef spec0) → ex0 m c b = en0 m c b := by
  intro b hb
  refine V2_of m (outs m) c b fun hmem => hb ?_
  rcases List.mem_singleton.mp hmem with rfl
  exact Finset.mem_image.mpr ⟨(5 : Fin 6), Finset.mem_univ _, rfl⟩

/-! ## The region as a segment -/

-- the library's lemmas are stated over the pinned configuration, which meets the printed one only when unification may
-- unfold plain definitions inside a metavariable's type
set_option backward.isDefEq.respectTransparency.types false in
/-- REGION 0 (custom_call 0) over the thread state. Entered from every unscoped buffer at the entry contents beside the
    generator register and the empty dues; left at the exit contents beside the same. At the entry the region's arrays are
    split out of the unscoped buffers and the rest bypasses the pipeline; the register rides in the pipeline's invariant;
    at the exit the arrays, each at what the write-backs fold to, are put back beside the bypassing rest. The kernel has
    no semaphore of its own and owes nothing. -/
noncomputable def reg0 : Pipeline.RegionSeg (pcfgs (F := F)) adm (pdats m) () defs₀ Variants.none L lv (0 : Fin 16) where
  win := launch0.win.to₀
  block_pos := launch0.block_pos
  stage_whole := launch0.stage_whole
  K := PEmpty
  osem k := k.elim
  ho := Pipeline.OwnSemFacts.none _
  hbody c := (body_obligation0 (en0 m) c).loose
  hwaits := Pipeline.hwaits_of_owed_zero _ _ _ _ L lv (0 : Fin 16) fun _ _ => rfl
  pre c := iprop(StableHlo.held (c : Thread nD τ) (Pipeline.ucRefs τ sig) (En0 m c) ∗ R c)
  post c := iprop(StableHlo.held (c : Thread nD τ) (Pipeline.ucRefs τ sig) (Ex0 m c) ∗ R c)
  X c := iprop(∃ r, prngReg c r)
  Y c := iprop(∃ r, prngReg c r)
  Z c := Pipeline.unscopedRest (Ix := Unit) (Name := ℕ) (U := UR sig nD τ) (Lvl := ℕ) spec0 c (en0 m c)
  hentry c := by
    rw [Pipeline.ownSems0_none]
    -- the unscoped buffers at the entry contents: the region's arrays, and the rest
    have hsplit := Pipeline.arrays_of_unscopedBufs (p := (0 : Fin 16)) (pcfgs (F := F)) adm (pdats m) launch0.win launch0.arr_whole c
      ((pdats m (0 : Fin 16) c).share_full fun _ => rfl) (en0 m c) fun w => A_eq0 (en0 m) c w
    rw [Pipeline.unscopedBufs_held] at hsplit
    iintro ⟨⟨Hbufs, Hreg, Hdue⟩, -, -⟩
    ihave Hs := hsplit $$ Hbufs
    icases Hs with ⟨Harr, Hrest⟩
    imodintro
    isplitl [Harr]; · iexact Harr
    -- no prefetched table
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hreg]; · iexact Hreg
    iexact Hrest
  hin c := by
    rw [show (pdats m (0 : Fin 16) c).Φ 0 = Pipeline.ΦA spec0 c from rfl]; unfold Pipeline.ΦA
    iintro ⟨Hreg, -, Hsc⟩
    isplitl [Hsc]; · iexact Hsc
    iexact Hreg
  hout c := by
    rw [Pipeline.ownSems0_none, show (pdats m (0 : Fin 16) c).Φ (Fin.last _) = Pipeline.ΦA spec0 c from rfl]; unfold Pipeline.ΦA
    iintro ⟨Hsc, Hreg⟩
    isplitl [Hreg]; · iexact Hreg
    isplitr; · iempintro
    iexact Hsc
  hexit c := by
    -- the arrays at what the write-backs fold to and the bypassing rest: the unscoped buffers at the exit contents
    have hjoin := Pipeline.unscopedBufs_of_arrays (p := (0 : Fin 16)) (pcfgs (F := F)) adm (Ix := Unit) (Name := ℕ) (U := UR sig nD τ) (Lvl := ℕ)
      launch0.win launch0.arr_whole c (pdats m) ((pdats m (0 : Fin 16) c).share_full fun _ => rfl)
      (en0 m c) (ex0 m c) ((pdats m (0 : Fin 16) c).arrAt · cfg0.N) (hF0 m c) (hrest0 m c)
    rw [Pipeline.unscopedBufs_held] at hjoin
    iintro ⟨Harr, Hdue, Hreg, Hrest⟩
    imodintro
    isplitl [Harr Hrest]
    · iapply hjoin; isplitl [Harr] <;> iassumption
    isplitl [Hreg]; · iexact Hreg
    unfold Pipeline.Dat.owesAt Pipeline.owesWithin
    icases Hdue with ⟨%W, -, Hdue⟩; iexists W; iexact Hdue

end Cert.Kernel.Hand

end
-- ==== Proof.K.Seg1.lean ====
/-
  Region 1 of @main as a segment of the run. First what the region leaves in each of its arrays, read against the generated
  valuations before and after it (an input window's array as entered, the output's at what the write-backs fold to, every
  other buffer untouched); then the segment record: the pipeline's layout facts from the launch, the body obligation at the region's
  entry contents, and the four entailments that take the thread state "every unscoped buffer at the entry contents, the
  generator register at some state, nothing owed" into the pipeline and bring it back at the exit contents.
-/
import proofs.«152161_j29669634081217_2_alg».proof.Proof.K.Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the region leaves in its arrays -/

theorem hF1_0 (c : Dev nD) : (dat1 (en1 m) c).arrAt (0 : Fin 6) cfg1.N = ex1 m c (Pipeline.arrRef spec1 (0 : Fin 6)) :=
  ((dat1 (en1 m) c).arrAt_in (0 : Fin 6) rfl _).trans ((A_eq1 (en1 m) c (0 : Fin 6)).trans (V4_of m (outs m) c (Pipeline.arrRef spec1 (0 : Fin 6)) (by decide)).symm)
theorem hF1_1 (c : Dev nD) : (dat1 (en1 m) c).arrAt (1 : Fin 6) cfg1.N = ex1 m c (Pipeline.arrRef spec1 (1 : Fin 6)) :=
  ((dat1 (en1 m) c).arrAt_in (1 : Fin 6) rfl _).trans ((A_eq1 (en1 m) c (1 : Fin 6)).trans (V4_of m (outs m) c (Pipeline.arrRef spec1 (1 : Fin 6)) (by decide)).symm)
theorem hF1_2 (c : Dev nD) : (dat1 (en1 m) c).arrAt (2 : Fin 6) cfg1.N = ex1 m c (Pipeline.arrRef spec1 (2 : Fin 6)) :=
  ((dat1 (en1 m) c).arrAt_in (2 : Fin 6) rfl _).trans ((A_eq1 (en1 m) c (2 : Fin 6)).trans (V4_of m (outs m) c (Pipeline.arrRef spec1 (2 : Fin 6)) (by decide)).symm)
theorem hF1_3 (c : Dev nD) : (dat1 (en1 m) c).arrAt (3 : Fin 6) cfg1.N = ex1 m c (Pipeline.arrRef spec1 (3 : Fin 6)) :=
  ((dat1 (en1 m) c).arrAt_in (3 : Fin 6) rfl _).trans ((A_eq1 (en1 m) c (3 : Fin 6)).trans (V4_of m (outs m) c (Pipeline.arrRef spec1 (3 : Fin 6)) (by decide)).symm)
theorem hF1_4 (c : Dev nD) : (dat1 (en1 m) c).arrAt (4 : Fin 6) cfg1.N = ex1 m c (Pipeline.arrRef spec1 (4 : Fin 6)) :=
  ((dat1 (en1 m) c).arrAt_in (4 : Fin 6) rfl _).trans ((A_eq1 (en1 m) c (4 : Fin 6)).trans (V4_of m (outs m) c (Pipeline.arrRef spec1 (4 : Fin 6)) (by decide)).symm)
theorem hF1_5 (c : Dev nD) : (dat1 (en1 m) c).arrAt (5 : Fin 6) cfg1.N = ex1 m c (Pipeline.arrRef spec1 (5 : Fin 6)) := by
  show _ = Ex1 m c main_v17
  exact (Ex1_out5 m c).symm
/-- At region 1's exit each of its arrays holds what the pipeline leaves: an input as entered, an output as above. -/
theorem hF1 (c : Dev nD) : ∀ w : Fin 6, (dat1 (en1 m) c).arrAt w cfg1.N = ex1 m c (Pipeline.arrRef spec1 w) :=
  forall_fin6 (hF1_0 m c) (hF1_1 m c) (hF1_2 m c) (hF1_3 m c) (hF1_4 m c) (hF1_5 m c)
/-- Every buffer that is none of region 1's arrays is at its exit what it was at its entry. -/
theorem hrest1 (c : Dev nD) : ∀ b, b ∉ Finset.univ.image (Pipeline.arrRef spec1) → ex1 m c b = en1 m c b := by
  intro b hb
  refine V4_of m (outs m) c b fun hmem => hb ?_
  rcases List.mem_singleton.mp hmem with rfl
  exact Finset.mem_image.mpr ⟨(5 : Fin 6), Finset.mem_univ _, rfl⟩

/-! ## The region as a segment -/

-- the library's lemmas are stated over the pinned configuration, which meets the printed one only when unification may
-- unfold plain definitions inside a metavariable's type
set_option backward.isDefEq.respectTransparency.types false in
/-- REGION 1 (custom_call 1) over the thread state. Entered from every unscoped buffer at the entry contents beside the
    generator register and the empty dues; left at the exit contents beside the same. At the entry the region's arrays are
    split out of the unscoped buffers and the rest bypasses the pipeline; the register rides in the pipeline's invariant;
    at the exit the arrays, each at what the write-backs fold to, are put back beside the bypassing rest. The kernel has
    no semaphore of its own and owes nothing. -/
noncomputable def reg1 : Pipeline.RegionSeg (pcfgs (F := F)) adm (pdats m) () defs₀ Variants.none L lv (1 : Fin 16) where
  win := launch1.win.to₀
  block_pos := launch1.block_pos
  stage_whole := launch1.stage_whole
  K := PEmpty
  osem k := k.elim
  ho := Pipeline.OwnSemFacts.none _
  hbody c := (body_obligation1 (en1 m) c).loose
  hwaits := Pipeline.hwaits_of_owed_zero _ _ _ _ L lv (1 : Fin 16) fun _ _ => rfl
  pre c := iprop(StableHlo.held (c : Thread nD τ) (Pipeline.ucRefs τ sig) (En1 m c) ∗ R c)
  post c := iprop(StableHlo.held (c : Thread nD τ) (Pipeline.ucRefs τ sig) (Ex1 m c) ∗ R c)
  X c := iprop(∃ r, prngReg c r)
  Y c := iprop(∃ r, prngReg c r)
  Z c := Pipeline.unscopedRest (Ix := Unit) (Name := ℕ) (U := UR sig nD τ) (Lvl := ℕ) spec1 c (en1 m c)
  hentry c := by
    rw [Pipeline.ownSems0_none]
    -- the unscoped buffers at the entry contents: the region's arrays, and the rest
    have hsplit := Pipeline.arrays_of_unscopedBufs (p := (1 : Fin 16)) (pcfgs (F := F)) adm (pdats m) launch1.win launch1.arr_whole c
      ((pdats m (1 : Fin 16) c).share_full fun _ => rfl) (en1 m c) fun w => A_eq1 (en1 m) c w
    rw [Pipeline.unscopedBufs_held] at hsplit
    iintro ⟨⟨Hbufs, Hreg, Hdue⟩, -, -⟩
    ihave Hs := hsplit $$ Hbufs
    icases Hs with ⟨Harr, Hrest⟩
    imodintro
    isplitl [Harr]; · iexact Harr
    -- no prefetched table
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hreg]; · iexact Hreg
    iexact Hrest
  hin c := by
    rw [show (pdats m (1 : Fin 16) c).Φ 0 = Pipeline.ΦA spec1 c from rfl]; unfold Pipeline.ΦA
    iintro ⟨Hreg, -, Hsc⟩
    isplitl [Hsc]; · iexact Hsc
    iexact Hreg
  hout c := by
    rw [Pipeline.ownSems0_none, show (pdats m (1 : Fin 16) c).Φ (Fin.last _) = Pipeline.ΦA spec1 c from rfl]; unfold Pipeline.ΦA
    iintro ⟨Hsc, Hreg⟩
    isplitl [Hreg]; · iexact Hreg
    isplitr; · iempintro
    iexact Hsc
  hexit c := by
    -- the arrays at what the write-backs fold to and the bypassing rest: the unscoped buffers at the exit contents
    have hjoin := Pipeline.unscopedBufs_of_arrays (p := (1 : Fin 16)) (pcfgs (F := F)) adm (Ix := Unit) (Name := ℕ) (U := UR sig nD τ) (Lvl := ℕ)
      launch1.win launch1.arr_whole c (pdats m) ((pdats m (1 : Fin 16) c).share_full fun _ => rfl)
      (en1 m c) (ex1 m c) ((pdats m (1 : Fin 16) c).arrAt · cfg1.N) (hF1 m c) (hrest1 m c)
    rw [Pipeline.unscopedBufs_held] at hjoin
    iintro ⟨Harr, Hdue, Hreg, Hrest⟩
    imodintro
    isplitl [Harr Hrest]
    · iapply hjoin; isplitl [Harr] <;> iassumption
    isplitl [Hreg]; · iexact Hreg
    unfold Pipeline.Dat.owesAt Pipeline.owesWithin
    icases Hdue with ⟨%W, -, Hdue⟩; iexists W; iexact Hdue

end Cert.Kernel.Hand

end
-- ==== Proof.K.Seg2.lean ====
/-
  Region 2 of @main as a segment of the run. First what the region leaves in each of its arrays, read against the generated
  valuations before and after it (an input window's array as entered, the output's at what the write-backs fold to, every
  other buffer untouched); then the segment record: the pipeline's layout facts from the launch, the body obligation at the region's
  entry contents, and the four entailments that take the thread state "every unscoped buffer at the entry contents, the
  generator register at some state, nothing owed" into the pipeline and bring it back at the exit contents.
-/
import proofs.«152161_j29669634081217_2_alg».proof.Proof.K.Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the region leaves in its arrays -/

theorem hF2_0 (c : Dev nD) : (dat2 (en2 m) c).arrAt (0 : Fin 5) cfg2.N = ex2 m c (Pipeline.arrRef spec2 (0 : Fin 5)) :=
  ((dat2 (en2 m) c).arrAt_in (0 : Fin 5) rfl _).trans ((A_eq2 (en2 m) c (0 : Fin 5)).trans (V6_of m (outs m) c (Pipeline.arrRef spec2 (0 : Fin 5)) (by decide)).symm)
theorem hF2_1 (c : Dev nD) : (dat2 (en2 m) c).arrAt (1 : Fin 5) cfg2.N = ex2 m c (Pipeline.arrRef spec2 (1 : Fin 5)) :=
  ((dat2 (en2 m) c).arrAt_in (1 : Fin 5) rfl _).trans ((A_eq2 (en2 m) c (1 : Fin 5)).trans (V6_of m (outs m) c (Pipeline.arrRef spec2 (1 : Fin 5)) (by decide)).symm)
theorem hF2_2 (c : Dev nD) : (dat2 (en2 m) c).arrAt (2 : Fin 5) cfg2.N = ex2 m c (Pipeline.arrRef spec2 (2 : Fin 5)) :=
  ((dat2 (en2 m) c).arrAt_in (2 : Fin 5) rfl _).trans ((A_eq2 (en2 m) c (2 : Fin 5)).trans (V6_of m (outs m) c (Pipeline.arrRef spec2 (2 : Fin 5)) (by decide)).symm)
theorem hF2_3 (c : Dev nD) : (dat2 (en2 m) c).arrAt (3 : Fin 5) cfg2.N = ex2 m c (Pipeline.arrRef spec2 (3 : Fin 5)) := by
  show _ = Ex2 m c main_v22_0
  exact (Ex2_out3 m c).symm
theorem hF2_4 (c : Dev nD) : (dat2 (en2 m) c).arrAt (4 : Fin 5) cfg2.N = ex2 m c (Pipeline.arrRef spec2 (4 : Fin 5)) := by
  show _ = Ex2 m c main_v22_1
  exact (Ex2_out4 m c).symm
/-- At region 2's exit each of its arrays holds what the pipeline leaves: an input as entered, an output as above. -/
theorem hF2 (c : Dev nD) : ∀ w : Fin 5, (dat2 (en2 m) c).arrAt w cfg2.N = ex2 m c (Pipeline.arrRef spec2 w) :=
  forall_fin5 (hF2_0 m c) (hF2_1 m c) (hF2_2 m c) (hF2_3 m c) (hF2_4 m c)
/-- Every buffer that is none of region 2's arrays is at its exit what it was at its entry. -/
theorem hrest2 (c : Dev nD) : ∀ b, b ∉ Finset.univ.image (Pipeline.arrRef spec2) → ex2 m c b = en2 m c b := by
  intro b hb
  refine V6_of m (outs m) c b fun hmem => hb ?_
  rcases List.mem_cons.mp hmem with rfl | hmem
  · exact Finset.mem_image.mpr ⟨(3 : Fin 5), Finset.mem_univ _, rfl⟩
  rcases List.mem_singleton.mp hmem with rfl
  exact Finset.mem_image.mpr ⟨(4 : Fin 5), Finset.mem_univ _, rfl⟩

/-! ## The region as a segment -/

-- the library's lemmas are stated over the pinned configuration, which meets the printed one only when unification may
-- unfold plain definitions inside a metavariable's type
set_option backward.isDefEq.respectTransparency.types false in
/-- REGION 2 (custom_call 2) over the thread state. Entered from every unscoped buffer at the entry contents beside the
    generator register and the empty dues; left at the exit contents beside the same. At the entry the region's arrays are
    split out of the unscoped buffers and the rest bypasses the pipeline; the register rides in the pipeline's invariant;
    at the exit the arrays, each at what the write-backs fold to, are put back beside the bypassing rest. The kernel has
    no semaphore of its own and owes nothing. -/
noncomputable def reg2 : Pipeline.RegionSeg (pcfgs (F := F)) adm (pdats m) () defs₀ Variants.none L lv (2 : Fin 16) where
  win := launch2.win.to₀
  block_pos := launch2.block_pos
  stage_whole := launch2.stage_whole
  K := PEmpty
  osem k := k.elim
  ho := Pipeline.OwnSemFacts.none _
  hbody c := (body_obligation2 (en2 m) c).loose
  hwaits := Pipeline.hwaits_of_owed_zero _ _ _ _ L lv (2 : Fin 16) fun _ _ => rfl
  pre c := iprop(StableHlo.held (c : Thread nD τ) (Pipeline.ucRefs τ sig) (En2 m c) ∗ R c)
  post c := iprop(StableHlo.held (c : Thread nD τ) (Pipeline.ucRefs τ sig) (Ex2 m c) ∗ R c)
  X c := iprop(∃ r, prngReg c r)
  Y c := iprop(∃ r, prngReg c r)
  Z c := Pipeline.unscopedRest (Ix := Unit) (Name := ℕ) (U := UR sig nD τ) (Lvl := ℕ) spec2 c (en2 m c)
  hentry c := by
    rw [Pipeline.ownSems0_none]
    -- the unscoped buffers at the entry contents: the region's arrays, and the rest
    have hsplit := Pipeline.arrays_of_unscopedBufs (p := (2 : Fin 16)) (pcfgs (F := F)) adm (pdats m) launch2.win launch2.arr_whole c
      ((pdats m (2 : Fin 16) c).share_full fun _ => rfl) (en2 m c) fun w => A_eq2 (en2 m) c w
    rw [Pipeline.unscopedBufs_held] at hsplit
    iintro ⟨⟨Hbufs, Hreg, Hdue⟩, -, -⟩
    ihave Hs := hsplit $$ Hbufs
    icases Hs with ⟨Harr, Hrest⟩
    imodintro
    isplitl [Harr]; · iexact Harr
    -- no prefetched table
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hreg]; · iexact Hreg
    iexact Hrest
  hin c := by
    rw [show (pdats m (2 : Fin 16) c).Φ 0 = Pipeline.ΦA spec2 c from rfl]; unfold Pipeline.ΦA
    iintro ⟨Hreg, -, Hsc⟩
    isplitl [Hsc]; · iexact Hsc
    iexact Hreg
  hout c := by
    rw [Pipeline.ownSems0_none, show (pdats m (2 : Fin 16) c).Φ (Fin.last _) = Pipeline.ΦA spec2 c from rfl]; unfold Pipeline.ΦA
    iintro ⟨Hsc, Hreg⟩
    isplitl [Hreg]; · iexact Hreg
    isplitr; · iempintro
    iexact Hsc
  hexit c := by
    -- the arrays at what the write-backs fold to and the bypassing rest: the unscoped buffers at the exit contents
    have hjoin := Pipeline.unscopedBufs_of_arrays (p := (2 : Fin 16)) (pcfgs (F := F)) adm (Ix := Unit) (Name := ℕ) (U := UR sig nD τ) (Lvl := ℕ)
      launch2.win launch2.arr_whole c (pdats m) ((pdats m (2 : Fin 16) c).share_full fun _ => rfl)
      (en2 m c) (ex2 m c) ((pdats m (2 : Fin 16) c).arrAt · cfg2.N) (hF2 m c) (hrest2 m c)
    rw [Pipeline.unscopedBufs_held] at hjoin
    iintro ⟨Harr, Hdue, Hreg, Hrest⟩
    imodintro
    isplitl [Harr Hrest]
    · iapply hjoin; isplitl [Harr] <;> iassumption
    isplitl [Hreg]; · iexact Hreg
    unfold Pipeline.Dat.owesAt Pipeline.owesWithin
    icases Hdue with ⟨%W, -, Hdue⟩; iexists W; iexact Hdue

end Cert.Kernel.Hand

end
-- ==== Proof.K.Seg3.lean ====
/-
  Region 3 of @main as a segment of the run. First what the region leaves in each of its arrays, read against the generated
  valuations before and after it (an input window's array as entered, the output's at what the write-backs fold to, every
  other buffer untouched); then the segment record: the pipeline's layout facts from the launch, the body obligation at the region's
  entry contents, and the four entailments that take the thread state "every unscoped buffer at the entry contents, the
  generator register at some state, nothing owed" into the pipeline and bring it back at the exit contents.
-/
import proofs.«152161_j29669634081217_2_alg».proof.Proof.K.Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the region leaves in its arrays -/

theorem hF3_0 (c : Dev nD) : (dat3 (en3 m) c).arrAt (0 : Fin 8) cfg3.N = ex3 m c (Pipeline.arrRef spec3 (0 : Fin 8)) :=
  ((dat3 (en3 m) c).arrAt_in (0 : Fin 8) rfl _).trans ((A_eq3 (en3 m) c (0 : Fin 8)).trans (V8_of m (outs m) c (Pipeline.arrRef spec3 (0 : Fin 8)) (by decide)).symm)
theorem hF3_1 (c : Dev nD) : (dat3 (en3 m) c).arrAt (1 : Fin 8) cfg3.N = ex3 m c (Pipeline.arrRef spec3 (1 : Fin 8)) :=
  ((dat3 (en3 m) c).arrAt_in (1 : Fin 8) rfl _).trans ((A_eq3 (en3 m) c (1 : Fin 8)).trans (V8_of m (outs m) c (Pipeline.arrRef spec3 (1 : Fin 8)) (by decide)).symm)
theorem hF3_2 (c : Dev nD) : (dat3 (en3 m) c).arrAt (2 : Fin 8) cfg3.N = ex3 m c (Pipeline.arrRef spec3 (2 : Fin 8)) :=
  ((dat3 (en3 m) c).arrAt_in (2 : Fin 8) rfl _).trans ((A_eq3 (en3 m) c (2 : Fin 8)).trans (V8_of m (outs m) c (Pipeline.arrRef spec3 (2 : Fin 8)) (by decide)).symm)
theorem hF3_3 (c : Dev nD) : (dat3 (en3 m) c).arrAt (3 : Fin 8) cfg3.N = ex3 m c (Pipeline.arrRef spec3 (3 : Fin 8)) :=
  ((dat3 (en3 m) c).arrAt_in (3 : Fin 8) rfl _).trans ((A_eq3 (en3 m) c (3 : Fin 8)).trans (V8_of m (outs m) c (Pipeline.arrRef spec3 (3 : Fin 8)) (by decide)).symm)
theorem hF3_4 (c : Dev nD) : (dat3 (en3 m) c).arrAt (4 : Fin 8) cfg3.N = ex3 m c (Pipeline.arrRef spec3 (4 : Fin 8)) :=
  ((dat3 (en3 m) c).arrAt_in (4 : Fin 8) rfl _).trans ((A_eq3 (en3 m) c (4 : Fin 8)).trans (V8_of m (outs m) c (Pipeline.arrRef spec3 (4 : Fin 8)) (by decide)).symm)
theorem hF3_5 (c : Dev nD) : (dat3 (en3 m) c).arrAt (5 : Fin 8) cfg3.N = ex3 m c (Pipeline.arrRef spec3 (5 : Fin 8)) :=
  ((dat3 (en3 m) c).arrAt_in (5 : Fin 8) rfl _).trans ((A_eq3 (en3 m) c (5 : Fin 8)).trans (V8_of m (outs m) c (Pipeline.arrRef spec3 (5 : Fin 8)) (by decide)).symm)
theorem hF3_6 (c : Dev nD) : (dat3 (en3 m) c).arrAt (6 : Fin 8) cfg3.N = ex3 m c (Pipeline.arrRef spec3 (6 : Fin 8)) :=
  ((dat3 (en3 m) c).arrAt_in (6 : Fin 8) rfl _).trans ((A_eq3 (en3 m) c (6 : Fin 8)).trans (V8_of m (outs m) c (Pipeline.arrRef spec3 (6 : Fin 8)) (by decide)).symm)
theorem hF3_7 (c : Dev nD) : (dat3 (en3 m) c).arrAt (7 : Fin 8) cfg3.N = ex3 m c (Pipeline.arrRef spec3 (7 : Fin 8)) := by
  show _ = Ex3 m c main_v47
  exact (Ex3_out7 m c).symm
/-- At region 3's exit each of its arrays holds what the pipeline leaves: an input as entered, an output as above. -/
theorem hF3 (c : Dev nD) : ∀ w : Fin 8, (dat3 (en3 m) c).arrAt w cfg3.N = ex3 m c (Pipeline.arrRef spec3 w) :=
  forall_fin8 (hF3_0 m c) (hF3_1 m c) (hF3_2 m c) (hF3_3 m c) (hF3_4 m c) (hF3_5 m c) (hF3_6 m c) (hF3_7 m c)
/-- Every buffer that is none of region 3's arrays is at its exit what it was at its entry. -/
theorem hrest3 (c : Dev nD) : ∀ b, b ∉ Finset.univ.image (Pipeline.arrRef spec3) → ex3 m c b = en3 m c b := by
  intro b hb
  refine V8_of m (outs m) c b fun hmem => hb ?_
  rcases List.mem_singleton.mp hmem with rfl
  exact Finset.mem_image.mpr ⟨(7 : Fin 8), Finset.mem_univ _, rfl⟩

/-! ## The region as a segment -/

-- the library's lemmas are stated over the pinned configuration, which meets the printed one only when unification may
-- unfold plain definitions inside a metavariable's type
set_option backward.isDefEq.respectTransparency.types false in
/-- REGION 3 (custom_call 3) over the thread state. Entered from every unscoped buffer at the entry contents beside the
    generator register and the empty dues; left at the exit contents beside the same. At the entry the region's arrays are
    split out of the unscoped buffers and the rest bypasses the pipeline; the register rides in the pipeline's invariant;
    at the exit the arrays, each at what the write-backs fold to, are put back beside the bypassing rest. The kernel has
    no semaphore of its own and owes nothing. -/
noncomputable def reg3 : Pipeline.RegionSeg (pcfgs (F := F)) adm (pdats m) () defs₀ Variants.none L lv (3 : Fin 16) where
  win := launch3.win.to₀
  block_pos := launch3.block_pos
  stage_whole := launch3.stage_whole
  K := PEmpty
  osem k := k.elim
  ho := Pipeline.OwnSemFacts.none _
  hbody c := (body_obligation3 (en3 m) c).loose
  hwaits := Pipeline.hwaits_of_owed_zero _ _ _ _ L lv (3 : Fin 16) fun _ _ => rfl
  pre c := iprop(StableHlo.held (c : Thread nD τ) (Pipeline.ucRefs τ sig) (En3 m c) ∗ R c)
  post c := iprop(StableHlo.held (c : Thread nD τ) (Pipeline.ucRefs τ sig) (Ex3 m c) ∗ R c)
  X c := iprop(∃ r, prngReg c r)
  Y c := iprop(∃ r, prngReg c r)
  Z c := Pipeline.unscopedRest (Ix := Unit) (Name := ℕ) (U := UR sig nD τ) (Lvl := ℕ) spec3 c (en3 m c)
  hentry c := by
    rw [Pipeline.ownSems0_none]
    -- the unscoped buffers at the entry contents: the region's arrays, and the rest
    have hsplit := Pipeline.arrays_of_unscopedBufs (p := (3 : Fin 16)) (pcfgs (F := F)) adm (pdats m) launch3.win launch3.arr_whole c
      ((pdats m (3 : Fin 16) c).share_full fun _ => rfl) (en3 m c) fun w => A_eq3 (en3 m) c w
    rw [Pipeline.unscopedBufs_held] at hsplit
    iintro ⟨⟨Hbufs, Hreg, Hdue⟩, -, -⟩
    ihave Hs := hsplit $$ Hbufs
    icases Hs with ⟨Harr, Hrest⟩
    imodintro
    isplitl [Harr]; · iexact Harr
    -- no prefetched table
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hreg]; · iexact Hreg
    iexact Hrest
  hin c := by
    rw [show (pdats m (3 : Fin 16) c).Φ 0 = Pipeline.ΦA spec3 c from rfl]; unfold Pipeline.ΦA
    iintro ⟨Hreg, -, Hsc⟩
    isplitl [Hsc]; · iexact Hsc
    iexact Hreg
  hout c := by
    rw [Pipeline.ownSems0_none, show (pdats m (3 : Fin 16) c).Φ (Fin.last _) = Pipeline.ΦA spec3 c from rfl]; unfold Pipeline.ΦA
    iintro ⟨Hsc, Hreg⟩
    isplitl [Hreg]; · iexact Hreg
    isplitr; · iempintro
    iexact Hsc
  hexit c := by
    -- the arrays at what the write-backs fold to and the bypassing rest: the unscoped buffers at the exit contents
    have hjoin := Pipeline.unscopedBufs_of_arrays (p := (3 : Fin 16)) (pcfgs (F := F)) adm (Ix := Unit) (Name := ℕ) (U := UR sig nD τ) (Lvl := ℕ)
      launch3.win launch3.arr_whole c (pdats m) ((pdats m (3 : Fin 16) c).share_full fun _ => rfl)
      (en3 m c) (ex3 m c) ((pdats m (3 : Fin 16) c).arrAt · cfg3.N) (hF3 m c) (hrest3 m c)
    rw [Pipeline.unscopedBufs_held] at hjoin
    iintro ⟨Harr, Hdue, Hreg, Hrest⟩
    imodintro
    isplitl [Harr Hrest]
    · iapply hjoin; isplitl [Harr] <;> iassumption
    isplitl [Hreg]; · iexact Hreg
    unfold Pipeline.Dat.owesAt Pipeline.owesWithin
    icases Hdue with ⟨%W, -, Hdue⟩; iexists W; iexact Hdue

end Cert.Kernel.Hand

end
-- ==== Proof.K.Seg4.lean ====
/-
  Region 4 of @main as a segment of the run. First what the region leaves in each of its arrays, read against the generated
  valuations before and after it (an input window's array as entered, the output's at what the write-backs fold to, every
  other buffer untouched); then the segment record: the pipeline's layout facts from the launch, the body obligation at the region's
  entry contents, and the four entailments that take the thread state "every unscoped buffer at the entry contents, the
  generator register at some state, nothing owed" into the pipeline and bring it back at the exit contents.
-/
import proofs.«152161_j29669634081217_2_alg».proof.Proof.K.Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the region leaves in its arrays -/

theorem hF4_0 (c : Dev nD) : (dat4 (en4 m) c).arrAt (0 : Fin 12) cfg4.N = ex4 m c (Pipeline.arrRef spec4 (0 : Fin 12)) :=
  ((dat4 (en4 m) c).arrAt_in (0 : Fin 12) rfl _).trans ((A_eq4 (en4 m) c (0 : Fin 12)).trans (V10_of m (outs m) c (Pipeline.arrRef spec4 (0 : Fin 12)) (by decide)).symm)
theorem hF4_1 (c : Dev nD) : (dat4 (en4 m) c).arrAt (1 : Fin 12) cfg4.N = ex4 m c (Pipeline.arrRef spec4 (1 : Fin 12)) :=
  ((dat4 (en4 m) c).arrAt_in (1 : Fin 12) rfl _).trans ((A_eq4 (en4 m) c (1 : Fin 12)).trans (V10_of m (outs m) c (Pipeline.arrRef spec4 (1 : Fin 12)) (by decide)).symm)
theorem hF4_2 (c : Dev nD) : (dat4 (en4 m) c).arrAt (2 : Fin 12) cfg4.N = ex4 m c (Pipeline.arrRef spec4 (2 : Fin 12)) :=
  ((dat4 (en4 m) c).arrAt_in (2 : Fin 12) rfl _).trans ((A_eq4 (en4 m) c (2 : Fin 12)).trans (V10_of m (outs m) c (Pipeline.arrRef spec4 (2 : Fin 12)) (by decide)).symm)
theorem hF4_3 (c : Dev nD) : (dat4 (en4 m) c).arrAt (3 : Fin 12) cfg4.N = ex4 m c (Pipeline.arrRef spec4 (3 : Fin 12)) :=
  ((dat4 (en4 m) c).arrAt_in (3 : Fin 12) rfl _).trans ((A_eq4 (en4 m) c (3 : Fin 12)).trans (V10_of m (outs m) c (Pipeline.arrRef spec4 (3 : Fin 12)) (by decide)).symm)
theorem hF4_4 (c : Dev nD) : (dat4 (en4 m) c).arrAt (4 : Fin 12) cfg4.N = ex4 m c (Pipeline.arrRef spec4 (4 : Fin 12)) :=
  ((dat4 (en4 m) c).arrAt_in (4 : Fin 12) rfl _).trans ((A_eq4 (en4 m) c (4 : Fin 12)).trans (V10_of m (outs m) c (Pipeline.arrRef spec4 (4 : Fin 12)) (by decide)).symm)
theorem hF4_5 (c : Dev nD) : (dat4 (en4 m) c).arrAt (5 : Fin 12) cfg4.N = ex4 m c (Pipeline.arrRef spec4 (5 : Fin 12)) :=
  ((dat4 (en4 m) c).arrAt_in (5 : Fin 12) rfl _).trans ((A_eq4 (en4 m) c (5 : Fin 12)).trans (V10_of m (outs m) c (Pipeline.arrRef spec4 (5 : Fin 12)) (by decide)).symm)
theorem hF4_6 (c : Dev nD) : (dat4 (en4 m) c).arrAt (6 : Fin 12) cfg4.N = ex4 m c (Pipeline.arrRef spec4 (6 : Fin 12)) :=
  ((dat4 (en4 m) c).arrAt_in (6 : Fin 12) rfl _).trans ((A_eq4 (en4 m) c (6 : Fin 12)).trans (V10_of m (outs m) c (Pipeline.arrRef spec4 (6 : Fin 12)) (by decide)).symm)
theorem hF4_7 (c : Dev nD) : (dat4 (en4 m) c).arrAt (7 : Fin 12) cfg4.N = ex4 m c (Pipeline.arrRef spec4 (7 : Fin 12)) :=
  ((dat4 (en4 m) c).arrAt_in (7 : Fin 12) rfl _).trans ((A_eq4 (en4 m) c (7 : Fin 12)).trans (V10_of m (outs m) c (Pipeline.arrRef spec4 (7 : Fin 12)) (by decide)).symm)
theorem hF4_8 (c : Dev nD) : (dat4 (en4 m) c).arrAt (8 : Fin 12) cfg4.N = ex4 m c (Pipeline.arrRef spec4 (8 : Fin 12)) :=
  ((dat4 (en4 m) c).arrAt_in (8 : Fin 12) rfl _).trans ((A_eq4 (en4 m) c (8 : Fin 12)).trans (V10_of m (outs m) c (Pipeline.arrRef spec4 (8 : Fin 12)) (by decide)).symm)
theorem hF4_9 (c : Dev nD) : (dat4 (en4 m) c).arrAt (9 : Fin 12) cfg4.N = ex4 m c (Pipeline.arrRef spec4 (9 : Fin 12)) := by
  show _ = Ex4 m c main_v67_0
  exact (Ex4_out9 m c).symm
theorem hF4_10 (c : Dev nD) : (dat4 (en4 m) c).arrAt (10 : Fin 12) cfg4.N = ex4 m c (Pipeline.arrRef spec4 (10 : Fin 12)) := by
  show _ = Ex4 m c main_v67_1
  exact (Ex4_out10 m c).symm
theorem hF4_11 (c : Dev nD) : (dat4 (en4 m) c).arrAt (11 : Fin 12) cfg4.N = ex4 m c (Pipeline.arrRef spec4 (11 : Fin 12)) := by
  show _ = Ex4 m c main_v67_2
  exact (Ex4_out11 m c).symm
/-- At region 4's exit each of its arrays holds what the pipeline leaves: an input as entered, an output as above. -/
theorem hF4 (c : Dev nD) : ∀ w : Fin 12, (dat4 (en4 m) c).arrAt w cfg4.N = ex4 m c (Pipeline.arrRef spec4 w) :=
  forall_fin12 (hF4_0 m c) (hF4_1 m c) (hF4_2 m c) (hF4_3 m c) (hF4_4 m c) (hF4_5 m c) (hF4_6 m c) (hF4_7 m c) (hF4_8 m c) (hF4_9 m c) (hF4_10 m c) (hF4_11 m c)
/-- Every buffer that is none of region 4's arrays is at its exit what it was at its entry. -/
theorem hrest4 (c : Dev nD) : ∀ b, b ∉ Finset.univ.image (Pipeline.arrRef spec4) → ex4 m c b = en4 m c b := by
  intro b hb
  refine V10_of m (outs m) c b fun hmem => hb ?_
  rcases List.mem_cons.mp hmem with rfl | hmem
  · exact Finset.mem_image.mpr ⟨(9 : Fin 12), Finset.mem_univ _, rfl⟩
  rcases List.mem_cons.mp hmem with rfl | hmem
  · exact Finset.mem_image.mpr ⟨(10 : Fin 12), Finset.mem_univ _, rfl⟩
  rcases List.mem_singleton.mp hmem with rfl
  exact Finset.mem_image.mpr ⟨(11 : Fin 12), Finset.mem_univ _, rfl⟩

/-! ## The region as a segment -/

-- the library's lemmas are stated over the pinned configuration, which meets the printed one only when unification may
-- unfold plain definitions inside a metavariable's type
set_option backward.isDefEq.respectTransparency.types false in
/-- REGION 4 (custom_call 4) over the thread state. Entered from every unscoped buffer at the entry contents beside the
    generator register and the empty dues; left at the exit contents beside the same. At the entry the region's arrays are
    split out of the unscoped buffers and the rest bypasses the pipeline; the register rides in the pipeline's invariant;
    at the exit the arrays, each at what the write-backs fold to, are put back beside the bypassing rest. The kernel has
    no semaphore of its own and owes nothing. -/
noncomputable def reg4 : Pipeline.RegionSeg (pcfgs (F := F)) adm (pdats m) () defs₀ Variants.none L lv (4 : Fin 16) where
  win := launch4.win.to₀
  block_pos := launch4.block_pos
  stage_whole := launch4.stage_whole
  K := PEmpty
  osem k := k.elim
  ho := Pipeline.OwnSemFacts.none _
  hbody c := (body_obligation4 (en4 m) c).loose
  hwaits := Pipeline.hwaits_of_owed_zero _ _ _ _ L lv (4 : Fin 16) fun _ _ => rfl
  pre c := iprop(StableHlo.held (c : Thread nD τ) (Pipeline.ucRefs τ sig) (En4 m c) ∗ R c)
  post c := iprop(StableHlo.held (c : Thread nD τ) (Pipeline.ucRefs τ sig) (Ex4 m c) ∗ R c)
  X c := iprop(∃ r, prngReg c r)
  Y c := iprop(∃ r, prngReg c r)
  Z c := Pipeline.unscopedRest (Ix := Unit) (Name := ℕ) (U := UR sig nD τ) (Lvl := ℕ) spec4 c (en4 m c)
  hentry c := by
    rw [Pipeline.ownSems0_none]
    -- the unscoped buffers at the entry contents: the region's arrays, and the rest
    have hsplit := Pipeline.arrays_of_unscopedBufs (p := (4 : Fin 16)) (pcfgs (F := F)) adm (pdats m) launch4.win launch4.arr_whole c
      ((pdats m (4 : Fin 16) c).share_full fun _ => rfl) (en4 m c) fun w => A_eq4 (en4 m) c w
    rw [Pipeline.unscopedBufs_held] at hsplit
    iintro ⟨⟨Hbufs, Hreg, Hdue⟩, -, -⟩
    ihave Hs := hsplit $$ Hbufs
    icases Hs with ⟨Harr, Hrest⟩
    imodintro
    isplitl [Harr]; · iexact Harr
    -- no prefetched table
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hreg]; · iexact Hreg
    iexact Hrest
  hin c := by
    rw [show (pdats m (4 : Fin 16) c).Φ 0 = Pipeline.ΦA spec4 c from rfl]; unfold Pipeline.ΦA
    iintro ⟨Hreg, -, Hsc⟩
    isplitl [Hsc]; · iexact Hsc
    iexact Hreg
  hout c := by
    rw [Pipeline.ownSems0_none, show (pdats m (4 : Fin 16) c).Φ (Fin.last _) = Pipeline.ΦA spec4 c from rfl]; unfold Pipeline.ΦA
    iintro ⟨Hsc, Hreg⟩
    isplitl [Hreg]; · iexact Hreg
    isplitr; · iempintro
    iexact Hsc
  hexit c := by
    -- the arrays at what the write-backs fold to and the bypassing rest: the unscoped buffers at the exit contents
    have hjoin := Pipeline.unscopedBufs_of_arrays (p := (4 : Fin 16)) (pcfgs (F := F)) adm (Ix := Unit) (Name := ℕ) (U := UR sig nD τ) (Lvl := ℕ)
      launch4.win launch4.arr_whole c (pdats m) ((pdats m (4 : Fin 16) c).share_full fun _ => rfl)
      (en4 m c) (ex4 m c) ((pdats m (4 : Fin 16) c).arrAt · cfg4.N) (hF4 m c) (hrest4 m c)
    rw [Pipeline.unscopedBufs_held] at hjoin
    iintro ⟨Harr, Hdue, Hreg, Hrest⟩
    imodintro
    isplitl [Harr Hrest]
    · iapply hjoin; isplitl [Harr] <;> iassumption
    isplitl [Hreg]; · iexact Hreg
    unfold Pipeline.Dat.owesAt Pipeline.owesWithin
    icases Hdue with ⟨%W, -, Hdue⟩; iexists W; iexact Hdue

end Cert.Kernel.Hand

end
-- ==== Proof.K.Seg5.lean ====
/-
  Region 5 of @main as a segment of the run. First what the region leaves in each of its arrays, read against the generated
  valuations before and after it (an input window's array as entered, the output's at what the write-backs fold to, every
  other buffer untouched); then the segment record: the pipeline's layout facts from the launch, the body obligation at the region's
  entry contents, and the four entailments that take the thread state "every unscoped buffer at the entry contents, the
  generator register at some state, nothing owed" into the pipeline and bring it back at the exit contents.
-/
import proofs.«152161_j29669634081217_2_alg».proof.Proof.K.Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the region leaves in its arrays -/

theorem hF5_0 (c : Dev nD) : (dat5 (en5 m) c).arrAt (0 : Fin 8) cfg5.N = ex5 m c (Pipeline.arrRef spec5 (0 : Fin 8)) :=
  ((dat5 (en5 m) c).arrAt_in (0 : Fin 8) rfl _).trans ((A_eq5 (en5 m) c (0 : Fin 8)).trans (V12_of m (outs m) c (Pipeline.arrRef spec5 (0 : Fin 8)) (by decide)).symm)
theorem hF5_1 (c : Dev nD) : (dat5 (en5 m) c).arrAt (1 : Fin 8) cfg5.N = ex5 m c (Pipeline.arrRef spec5 (1 : Fin 8)) :=
  ((dat5 (en5 m) c).arrAt_in (1 : Fin 8) rfl _).trans ((A_eq5 (en5 m) c (1 : Fin 8)).trans (V12_of m (outs m) c (Pipeline.arrRef spec5 (1 : Fin 8)) (by decide)).symm)
theorem hF5_2 (c : Dev nD) : (dat5 (en5 m) c).arrAt (2 : Fin 8) cfg5.N = ex5 m c (Pipeline.arrRef spec5 (2 : Fin 8)) :=
  ((dat5 (en5 m) c).arrAt_in (2 : Fin 8) rfl _).trans ((A_eq5 (en5 m) c (2 : Fin 8)).trans (V12_of m (outs m) c (Pipeline.arrRef spec5 (2 : Fin 8)) (by decide)).symm)
theorem hF5_3 (c : Dev nD) : (dat5 (en5 m) c).arrAt (3 : Fin 8) cfg5.N = ex5 m c (Pipeline.arrRef spec5 (3 : Fin 8)) :=
  ((dat5 (en5 m) c).arrAt_in (3 : Fin 8) rfl _).trans ((A_eq5 (en5 m) c (3 : Fin 8)).trans (V12_of m (outs m) c (Pipeline.arrRef spec5 (3 : Fin 8)) (by decide)).symm)
theorem hF5_4 (c : Dev nD) : (dat5 (en5 m) c).arrAt (4 : Fin 8) cfg5.N = ex5 m c (Pipeline.arrRef spec5 (4 : Fin 8)) :=
  ((dat5 (en5 m) c).arrAt_in (4 : Fin 8) rfl _).trans ((A_eq5 (en5 m) c (4 : Fin 8)).trans (V12_of m (outs m) c (Pipeline.arrRef spec5 (4 : Fin 8)) (by decide)).symm)
theorem hF5_5 (c : Dev nD) : (dat5 (en5 m) c).arrAt (5 : Fin 8) cfg5.N = ex5 m c (Pipeline.arrRef spec5 (5 : Fin 8)) :=
  ((dat5 (en5 m) c).arrAt_in (5 : Fin 8) rfl _).trans ((A_eq5 (en5 m) c (5 : Fin 8)).trans (V12_of m (outs m) c (Pipeline.arrRef spec5 (5 : Fin 8)) (by decide)).symm)
theorem hF5_6 (c : Dev nD) : (dat5 (en5 m) c).arrAt (6 : Fin 8) cfg5.N = ex5 m c (Pipeline.arrRef spec5 (6 : Fin 8)) :=
  ((dat5 (en5 m) c).arrAt_in (6 : Fin 8) rfl _).trans ((A_eq5 (en5 m) c (6 : Fin 8)).trans (V12_of m (outs m) c (Pipeline.arrRef spec5 (6 : Fin 8)) (by decide)).symm)
theorem hF5_7 (c : Dev nD) : (dat5 (en5 m) c).arrAt (7 : Fin 8) cfg5.N = ex5 m c (Pipeline.arrRef spec5 (7 : Fin 8)) := by
  show _ = Ex5 m c main_v92
  exact (Ex5_out7 m c).symm
/-- At region 5's exit each of its arrays holds what the pipeline leaves: an input as entered, an output as above. -/
theorem hF5 (c : Dev nD) : ∀ w : Fin 8, (dat5 (en5 m) c).arrAt w cfg5.N = ex5 m c (Pipeline.arrRef spec5 w) :=
  forall_fin8 (hF5_0 m c) (hF5_1 m c) (hF5_2 m c) (hF5_3 m c) (hF5_4 m c) (hF5_5 m c) (hF5_6 m c) (hF5_7 m c)
/-- Every buffer that is none of region 5's arrays is at its exit what it was at its entry. -/
theorem hrest5 (c : Dev nD) : ∀ b, b ∉ Finset.univ.image (Pipeline.arrRef spec5) → ex5 m c b = en5 m c b := by
  intro b hb
  refine V12_of m (outs m) c b fun hmem => hb ?_
  rcases List.mem_singleton.mp hmem with rfl
  exact Finset.mem_image.mpr ⟨(7 : Fin 8), Finset.mem_univ _, rfl⟩

/-! ## The region as a segment -/

-- the library's lemmas are stated over the pinned configuration, which meets the printed one only when unification may
-- unfold plain definitions inside a metavariable's type
set_option backward.isDefEq.respectTransparency.types false in
/-- REGION 5 (custom_call 5) over the thread state. Entered from every unscoped buffer at the entry contents beside the
    generator register and the empty dues; left at the exit contents beside the same. At the entry the region's arrays are
    split out of the unscoped buffers and the rest bypasses the pipeline; the register rides in the pipeline's invariant;
    at the exit the arrays, each at what the write-backs fold to, are put back beside the bypassing rest. The kernel has
    no semaphore of its own and owes nothing. -/
noncomputable def reg5 : Pipeline.RegionSeg (pcfgs (F := F)) adm (pdats m) () defs₀ Variants.none L lv (5 : Fin 16) where
  win := launch5.win.to₀
  block_pos := launch5.block_pos
  stage_whole := launch5.stage_whole
  K := PEmpty
  osem k := k.elim
  ho := Pipeline.OwnSemFacts.none _
  hbody c := (body_obligation5 (en5 m) c).loose
  hwaits := Pipeline.hwaits_of_owed_zero _ _ _ _ L lv (5 : Fin 16) fun _ _ => rfl
  pre c := iprop(StableHlo.held (c : Thread nD τ) (Pipeline.ucRefs τ sig) (En5 m c) ∗ R c)
  post c := iprop(StableHlo.held (c : Thread nD τ) (Pipeline.ucRefs τ sig) (Ex5 m c) ∗ R c)
  X c := iprop(∃ r, prngReg c r)
  Y c := iprop(∃ r, prngReg c r)
  Z c := Pipeline.unscopedRest (Ix := Unit) (Name := ℕ) (U := UR sig nD τ) (Lvl := ℕ) spec5 c (en5 m c)
  hentry c := by
    rw [Pipeline.ownSems0_none]
    -- the unscoped buffers at the entry contents: the region's arrays, and the rest
    have hsplit := Pipeline.arrays_of_unscopedBufs (p := (5 : Fin 16)) (pcfgs (F := F)) adm (pdats m) launch5.win launch5.arr_whole c
      ((pdats m (5 : Fin 16) c).share_full fun _ => rfl) (en5 m c) fun w => A_eq5 (en5 m) c w
    rw [Pipeline.unscopedBufs_held] at hsplit
    iintro ⟨⟨Hbufs, Hreg, Hdue⟩, -, -⟩
    ihave Hs := hsplit $$ Hbufs
    icases Hs with ⟨Harr, Hrest⟩
    imodintro
    isplitl [Harr]; · iexact Harr
    -- no prefetched table
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hreg]; · iexact Hreg
    iexact Hrest
  hin c := by
    rw [show (pdats m (5 : Fin 16) c).Φ 0 = Pipeline.ΦA spec5 c from rfl]; unfold Pipeline.ΦA
    iintro ⟨Hreg, -, Hsc⟩
    isplitl [Hsc]; · iexact Hsc
    iexact Hreg
  hout c := by
    rw [Pipeline.ownSems0_none, show (pdats m (5 : Fin 16) c).Φ (Fin.last _) = Pipeline.ΦA spec5 c from rfl]; unfold Pipeline.ΦA
    iintro ⟨Hsc, Hreg⟩
    isplitl [Hreg]; · iexact Hreg
    isplitr; · iempintro
    iexact Hsc
  hexit c := by
    -- the arrays at what the write-backs fold to and the bypassing rest: the unscoped buffers at the exit contents
    have hjoin := Pipeline.unscopedBufs_of_arrays (p := (5 : Fin 16)) (pcfgs (F := F)) adm (Ix := Unit) (Name := ℕ) (U := UR sig nD τ) (Lvl := ℕ)
      launch5.win launch5.arr_whole c (pdats m) ((pdats m (5 : Fin 16) c).share_full fun _ => rfl)
      (en5 m c) (ex5 m c) ((pdats m (5 : Fin 16) c).arrAt · cfg5.N) (hF5 m c) (hrest5 m c)
    rw [Pipeline.unscopedBufs_held] at hjoin
    iintro ⟨Harr, Hdue, Hreg, Hrest⟩
    imodintro
    isplitl [Harr Hrest]
    · iapply hjoin; isplitl [Harr] <;> iassumption
    isplitl [Hreg]; · iexact Hreg
    unfold Pipeline.Dat.owesAt Pipeline.owesWithin
    icases Hdue with ⟨%W, -, Hdue⟩; iexists W; iexact Hdue

end Cert.Kernel.Hand

end
-- ==== Proof.K.Seg6.lean ====
/-
  Region 6 of @main as a segment of the run. First what the region leaves in each of its arrays, read against the generated
  valuations before and after it (an input window's array as entered, the output's at what the write-backs fold to, every
  other buffer untouched); then the segment record: the pipeline's layout facts from the launch, the body obligation at the region's
  entry contents, and the four entailments that take the thread state "every unscoped buffer at the entry contents, the
  generator register at some state, nothing owed" into the pipeline and bring it back at the exit contents.
-/
import proofs.«152161_j29669634081217_2_alg».proof.Proof.K.Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the region leaves in its arrays -/

theorem hF6_0 (c : Dev nD) : (dat6 (en6 m) c).arrAt (0 : Fin 12) cfg6.N = ex6 m c (Pipeline.arrRef spec6 (0 : Fin 12)) :=
  ((dat6 (en6 m) c).arrAt_in (0 : Fin 12) rfl _).trans ((A_eq6 (en6 m) c (0 : Fin 12)).trans (V14_of m (outs m) c (Pipeline.arrRef spec6 (0 : Fin 12)) (by decide)).symm)
theorem hF6_1 (c : Dev nD) : (dat6 (en6 m) c).arrAt (1 : Fin 12) cfg6.N = ex6 m c (Pipeline.arrRef spec6 (1 : Fin 12)) :=
  ((dat6 (en6 m) c).arrAt_in (1 : Fin 12) rfl _).trans ((A_eq6 (en6 m) c (1 : Fin 12)).trans (V14_of m (outs m) c (Pipeline.arrRef spec6 (1 : Fin 12)) (by decide)).symm)
theorem hF6_2 (c : Dev nD) : (dat6 (en6 m) c).arrAt (2 : Fin 12) cfg6.N = ex6 m c (Pipeline.arrRef spec6 (2 : Fin 12)) :=
  ((dat6 (en6 m) c).arrAt_in (2 : Fin 12) rfl _).trans ((A_eq6 (en6 m) c (2 : Fin 12)).trans (V14_of m (outs m) c (Pipeline.arrRef spec6 (2 : Fin 12)) (by decide)).symm)
theorem hF6_3 (c : Dev nD) : (dat6 (en6 m) c).arrAt (3 : Fin 12) cfg6.N = ex6 m c (Pipeline.arrRef spec6 (3 : Fin 12)) :=
  ((dat6 (en6 m) c).arrAt_in (3 : Fin 12) rfl _).trans ((A_eq6 (en6 m) c (3 : Fin 12)).trans (V14_of m (outs m) c (Pipeline.arrRef spec6 (3 : Fin 12)) (by decide)).symm)
theorem hF6_4 (c : Dev nD) : (dat6 (en6 m) c).arrAt (4 : Fin 12) cfg6.N = ex6 m c (Pipeline.arrRef spec6 (4 : Fin 12)) :=
  ((dat6 (en6 m) c).arrAt_in (4 : Fin 12) rfl _).trans ((A_eq6 (en6 m) c (4 : Fin 12)).trans (V14_of m (outs m) c (Pipeline.arrRef spec6 (4 : Fin 12)) (by decide)).symm)
theorem hF6_5 (c : Dev nD) : (dat6 (en6 m) c).arrAt (5 : Fin 12) cfg6.N = ex6 m c (Pipeline.arrRef spec6 (5 : Fin 12)) :=
  ((dat6 (en6 m) c).arrAt_in (5 : Fin 12) rfl _).trans ((A_eq6 (en6 m) c (5 : Fin 12)).trans (V14_of m (outs m) c (Pipeline.arrRef spec6 (5 : Fin 12)) (by decide)).symm)
theorem hF6_6 (c : Dev nD) : (dat6 (en6 m) c).arrAt (6 : Fin 12) cfg6.N = ex6 m c (Pipeline.arrRef spec6 (6 : Fin 12)) :=
  ((dat6 (en6 m) c).arrAt_in (6 : Fin 12) rfl _).trans ((A_eq6 (en6 m) c (6 : Fin 12)).trans (V14_of m (outs m) c (Pipeline.arrRef spec6 (6 : Fin 12)) (by decide)).symm)
theorem hF6_7 (c : Dev nD) : (dat6 (en6 m) c).arrAt (7 : Fin 12) cfg6.N = ex6 m c (Pipeline.arrRef spec6 (7 : Fin 12)) :=
  ((dat6 (en6 m) c).arrAt_in (7 : Fin 12) rfl _).trans ((A_eq6 (en6 m) c (7 : Fin 12)).trans (V14_of m (outs m) c (Pipeline.arrRef spec6 (7 : Fin 12)) (by decide)).symm)
theorem hF6_8 (c : Dev nD) : (dat6 (en6 m) c).arrAt (8 : Fin 12) cfg6.N = ex6 m c (Pipeline.arrRef spec6 (8 : Fin 12)) :=
  ((dat6 (en6 m) c).arrAt_in (8 : Fin 12) rfl _).trans ((A_eq6 (en6 m) c (8 : Fin 12)).trans (V14_of m (outs m) c (Pipeline.arrRef spec6 (8 : Fin 12)) (by decide)).symm)
theorem hF6_9 (c : Dev nD) : (dat6 (en6 m) c).arrAt (9 : Fin 12) cfg6.N = ex6 m c (Pipeline.arrRef spec6 (9 : Fin 12)) := by
  show _ = Ex6 m c main_v112_0
  exact (Ex6_out9 m c).symm
theorem hF6_10 (c : Dev nD) : (dat6 (en6 m) c).arrAt (10 : Fin 12) cfg6.N = ex6 m c (Pipeline.arrRef spec6 (10 : Fin 12)) := by
  show _ = Ex6 m c main_v112_1
  exact (Ex6_out10 m c).symm
theorem hF6_11 (c : Dev nD) : (dat6 (en6 m) c).arrAt (11 : Fin 12) cfg6.N = ex6 m c (Pipeline.arrRef spec6 (11 : Fin 12)) := by
  show _ = Ex6 m c main_v112_2
  exact (Ex6_out11 m c).symm
/-- At region 6's exit each of its arrays holds what the pipeline leaves: an input as entered, an output as above. -/
theorem hF6 (c : Dev nD) : ∀ w : Fin 12, (dat6 (en6 m) c).arrAt w cfg6.N = ex6 m c (Pipeline.arrRef spec6 w) :=
  forall_fin12 (hF6_0 m c) (hF6_1 m c) (hF6_2 m c) (hF6_3 m c) (hF6_4 m c) (hF6_5 m c) (hF6_6 m c) (hF6_7 m c) (hF6_8 m c) (hF6_9 m c) (hF6_10 m c) (hF6_11 m c)
/-- Every buffer that is none of region 6's arrays is at its exit what it was at its entry. -/
theorem hrest6 (c : Dev nD) : ∀ b, b ∉ Finset.univ.image (Pipeline.arrRef spec6) → ex6 m c b = en6 m c b := by
  intro b hb
  refine V14_of m (outs m) c b fun hmem => hb ?_
  rcases List.mem_cons.mp hmem with rfl | hmem
  · exact Finset.mem_image.mpr ⟨(9 : Fin 12), Finset.mem_univ _, rfl⟩
  rcases List.mem_cons.mp hmem with rfl | hmem
  · exact Finset.mem_image.mpr ⟨(10 : Fin 12), Finset.mem_univ _, rfl⟩
  rcases List.mem_singleton.mp hmem with rfl
  exact Finset.mem_image.mpr ⟨(11 : Fin 12), Finset.mem_univ _, rfl⟩

/-! ## The region as a segment -/

-- the library's lemmas are stated over the pinned configuration, which meets the printed one only when unification may
-- unfold plain definitions inside a metavariable's type
set_option backward.isDefEq.respectTransparency.types false in
/-- REGION 6 (custom_call 6) over the thread state. Entered from every unscoped buffer at the entry contents beside the
    generator register and the empty dues; left at the exit contents beside the same. At the entry the region's arrays are
    split out of the unscoped buffers and the rest bypasses the pipeline; the register rides in the pipeline's invariant;
    at the exit the arrays, each at what the write-backs fold to, are put back beside the bypassing rest. The kernel has
    no semaphore of its own and owes nothing. -/
noncomputable def reg6 : Pipeline.RegionSeg (pcfgs (F := F)) adm (pdats m) () defs₀ Variants.none L lv (6 : Fin 16) where
  win := launch6.win.to₀
  block_pos := launch6.block_pos
  stage_whole := launch6.stage_whole
  K := PEmpty
  osem k := k.elim
  ho := Pipeline.OwnSemFacts.none _
  hbody c := (body_obligation6 (en6 m) c).loose
  hwaits := Pipeline.hwaits_of_owed_zero _ _ _ _ L lv (6 : Fin 16) fun _ _ => rfl
  pre c := iprop(StableHlo.held (c : Thread nD τ) (Pipeline.ucRefs τ sig) (En6 m c) ∗ R c)
  post c := iprop(StableHlo.held (c : Thread nD τ) (Pipeline.ucRefs τ sig) (Ex6 m c) ∗ R c)
  X c := iprop(∃ r, prngReg c r)
  Y c := iprop(∃ r, prngReg c r)
  Z c := Pipeline.unscopedRest (Ix := Unit) (Name := ℕ) (U := UR sig nD τ) (Lvl := ℕ) spec6 c (en6 m c)
  hentry c := by
    rw [Pipeline.ownSems0_none]
    -- the unscoped buffers at the entry contents: the region's arrays, and the rest
    have hsplit := Pipeline.arrays_of_unscopedBufs (p := (6 : Fin 16)) (pcfgs (F := F)) adm (pdats m) launch6.win launch6.arr_whole c
      ((pdats m (6 : Fin 16) c).share_full fun _ => rfl) (en6 m c) fun w => A_eq6 (en6 m) c w
    rw [Pipeline.unscopedBufs_held] at hsplit
    iintro ⟨⟨Hbufs, Hreg, Hdue⟩, -, -⟩
    ihave Hs := hsplit $$ Hbufs
    icases Hs with ⟨Harr, Hrest⟩
    imodintro
    isplitl [Harr]; · iexact Harr
    -- no prefetched table
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hreg]; · iexact Hreg
    iexact Hrest
  hin c := by
    rw [show (pdats m (6 : Fin 16) c).Φ 0 = Pipeline.ΦA spec6 c from rfl]; unfold Pipeline.ΦA
    iintro ⟨Hreg, -, Hsc⟩
    isplitl [Hsc]; · iexact Hsc
    iexact Hreg
  hout c := by
    rw [Pipeline.ownSems0_none, show (pdats m (6 : Fin 16) c).Φ (Fin.last _) = Pipeline.ΦA spec6 c from rfl]; unfold Pipeline.ΦA
    iintro ⟨Hsc, Hreg⟩
    isplitl [Hreg]; · iexact Hreg
    isplitr; · iempintro
    iexact Hsc
  hexit c := by
    -- the arrays at what the write-backs fold to and the bypassing rest: the unscoped buffers at the exit contents
    have hjoin := Pipeline.unscopedBufs_of_arrays (p := (6 : Fin 16)) (pcfgs (F := F)) adm (Ix := Unit) (Name := ℕ) (U := UR sig nD τ) (Lvl := ℕ)
      launch6.win launch6.arr_whole c (pdats m) ((pdats m (6 : Fin 16) c).share_full fun _ => rfl)
      (en6 m c) (ex6 m c) ((pdats m (6 : Fin 16) c).arrAt · cfg6.N) (hF6 m c) (hrest6 m c)
    rw [Pipeline.unscopedBufs_held] at hjoin
    iintro ⟨Harr, Hdue, Hreg, Hrest⟩
    imodintro
    isplitl [Harr Hrest]
    · iapply hjoin; isplitl [Harr] <;> iassumption
    isplitl [Hreg]; · iexact Hreg
    unfold Pipeline.Dat.owesAt Pipeline.owesWithin
    icases Hdue with ⟨%W, -, Hdue⟩; iexists W; iexact Hdue

end Cert.Kernel.Hand

end
-- ==== Proof.K.Seg7.lean ====
/-
  Region 7 of @main as a segment of the run. First what the region leaves in each of its arrays, read against the generated
  valuations before and after it (an input window's array as entered, the output's at what the write-backs fold to, every
  other buffer untouched); then the segment record: the pipeline's layout facts from the launch, the body obligation at the region's
  entry contents, and the four entailments that take the thread state "every unscoped buffer at the entry contents, the
  generator register at some state, nothing owed" into the pipeline and bring it back at the exit contents.
-/
import proofs.«152161_j29669634081217_2_alg».proof.Proof.K.Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the region leaves in its arrays -/

theorem hF7_0 (c : Dev nD) : (dat7 (en7 m) c).arrAt (0 : Fin 8) cfg7.N = ex7 m c (Pipeline.arrRef spec7 (0 : Fin 8)) :=
  ((dat7 (en7 m) c).arrAt_in (0 : Fin 8) rfl _).trans ((A_eq7 (en7 m) c (0 : Fin 8)).trans (V16_of m (outs m) c (Pipeline.arrRef spec7 (0 : Fin 8)) (by decide)).symm)
theorem hF7_1 (c : Dev nD) : (dat7 (en7 m) c).arrAt (1 : Fin 8) cfg7.N = ex7 m c (Pipeline.arrRef spec7 (1 : Fin 8)) :=
  ((dat7 (en7 m) c).arrAt_in (1 : Fin 8) rfl _).trans ((A_eq7 (en7 m) c (1 : Fin 8)).trans (V16_of m (outs m) c (Pipeline.arrRef spec7 (1 : Fin 8)) (by decide)).symm)
theorem hF7_2 (c : Dev nD) : (dat7 (en7 m) c).arrAt (2 : Fin 8) cfg7.N = ex7 m c (Pipeline.arrRef spec7 (2 : Fin 8)) :=
  ((dat7 (en7 m) c).arrAt_in (2 : Fin 8) rfl _).trans ((A_eq7 (en7 m) c (2 : Fin 8)).trans (V16_of m (outs m) c (Pipeline.arrRef spec7 (2 : Fin 8)) (by decide)).symm)
theorem hF7_3 (c : Dev nD) : (dat7 (en7 m) c).arrAt (3 : Fin 8) cfg7.N = ex7 m c (Pipeline.arrRef spec7 (3 : Fin 8)) :=
  ((dat7 (en7 m) c).arrAt_in (3 : Fin 8) rfl _).trans ((A_eq7 (en7 m) c (3 : Fin 8)).trans (V16_of m (outs m) c (Pipeline.arrRef spec7 (3 : Fin 8)) (by decide)).symm)
theorem hF7_4 (c : Dev nD) : (dat7 (en7 m) c).arrAt (4 : Fin 8) cfg7.N = ex7 m c (Pipeline.arrRef spec7 (4 : Fin 8)) :=
  ((dat7 (en7 m) c).arrAt_in (4 : Fin 8) rfl _).trans ((A_eq7 (en7 m) c (4 : Fin 8)).trans (V16_of m (outs m) c (Pipeline.arrRef spec7 (4 : Fin 8)) (by decide)).symm)
theorem hF7_5 (c : Dev nD) : (dat7 (en7 m) c).arrAt (5 : Fin 8) cfg7.N = ex7 m c (Pipeline.arrRef spec7 (5 : Fin 8)) :=
  ((dat7 (en7 m) c).arrAt_in (5 : Fin 8) rfl _).trans ((A_eq7 (en7 m) c (5 : Fin 8)).trans (V16_of m (outs m) c (Pipeline.arrRef spec7 (5 : Fin 8)) (by decide)).symm)
theorem hF7_6 (c : Dev nD) : (dat7 (en7 m) c).arrAt (6 : Fin 8) cfg7.N = ex7 m c (Pipeline.arrRef spec7 (6 : Fin 8)) :=
  ((dat7 (en7 m) c).arrAt_in (6 : Fin 8) rfl _).trans ((A_eq7 (en7 m) c (6 : Fin 8)).trans (V16_of m (outs m) c (Pipeline.arrRef spec7 (6 : Fin 8)) (by decide)).symm)
theorem hF7_7 (c : Dev nD) : (dat7 (en7 m) c).arrAt (7 : Fin 8) cfg7.N = ex7 m c (Pipeline.arrRef spec7 (7 : Fin 8)) := by
  show _ = Ex7 m c main_v137
  exact (Ex7_out7 m c).symm
/-- At region 7's exit each of its arrays holds what the pipeline leaves: an input as entered, an output as above. -/
theorem hF7 (c : Dev nD) : ∀ w : Fin 8, (dat7 (en7 m) c).arrAt w cfg7.N = ex7 m c (Pipeline.arrRef spec7 w) :=
  forall_fin8 (hF7_0 m c) (hF7_1 m c) (hF7_2 m c) (hF7_3 m c) (hF7_4 m c) (hF7_5 m c) (hF7_6 m c) (hF7_7 m c)
/-- Every buffer that is none of region 7's arrays is at its exit what it was at its entry. -/
theorem hrest7 (c : Dev nD) : ∀ b, b ∉ Finset.univ.image (Pipeline.arrRef spec7) → ex7 m c b = en7 m c b := by
  intro b hb
  refine V16_of m (outs m) c b fun hmem => hb ?_
  rcases List.mem_singleton.mp hmem with rfl
  exact Finset.mem_image.mpr ⟨(7 : Fin 8), Finset.mem_univ _, rfl⟩

/-! ## The region as a segment -/

-- the library's lemmas are stated over the pinned configuration, which meets the printed one only when unification may
-- unfold plain definitions inside a metavariable's type
set_option backward.isDefEq.respectTransparency.types false in
/-- REGION 7 (custom_call 7) over the thread state. Entered from every unscoped buffer at the entry contents beside the
    generator register and the empty dues; left at the exit contents beside the same. At the entry the region's arrays are
    split out of the unscoped buffers and the rest bypasses the pipeline; the register rides in the pipeline's invariant;
    at the exit the arrays, each at what the write-backs fold to, are put back beside the bypassing rest. The kernel has
    no semaphore of its own and owes nothing. -/
noncomputable def reg7 : Pipeline.RegionSeg (pcfgs (F := F)) adm (pdats m) () defs₀ Variants.none L lv (7 : Fin 16) where
  win := launch7.win.to₀
  block_pos := launch7.block_pos
  stage_whole := launch7.stage_whole
  K := PEmpty
  osem k := k.elim
  ho := Pipeline.OwnSemFacts.none _
  hbody c := (body_obligation7 (en7 m) c).loose
  hwaits := Pipeline.hwaits_of_owed_zero _ _ _ _ L lv (7 : Fin 16) fun _ _ => rfl
  pre c := iprop(StableHlo.held (c : Thread nD τ) (Pipeline.ucRefs τ sig) (En7 m c) ∗ R c)
  post c := iprop(StableHlo.held (c : Thread nD τ) (Pipeline.ucRefs τ sig) (Ex7 m c) ∗ R c)
  X c := iprop(∃ r, prngReg c r)
  Y c := iprop(∃ r, prngReg c r)
  Z c := Pipeline.unscopedRest (Ix := Unit) (Name := ℕ) (U := UR sig nD τ) (Lvl := ℕ) spec7 c (en7 m c)
  hentry c := by
    rw [Pipeline.ownSems0_none]
    -- the unscoped buffers at the entry contents: the region's arrays, and the rest
    have hsplit := Pipeline.arrays_of_unscopedBufs (p := (7 : Fin 16)) (pcfgs (F := F)) adm (pdats m) launch7.win launch7.arr_whole c
      ((pdats m (7 : Fin 16) c).share_full fun _ => rfl) (en7 m c) fun w => A_eq7 (en7 m) c w
    rw [Pipeline.unscopedBufs_held] at hsplit
    iintro ⟨⟨Hbufs, Hreg, Hdue⟩, -, -⟩
    ihave Hs := hsplit $$ Hbufs
    icases Hs with ⟨Harr, Hrest⟩
    imodintro
    isplitl [Harr]; · iexact Harr
    -- no prefetched table
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hreg]; · iexact Hreg
    iexact Hrest
  hin c := by
    rw [show (pdats m (7 : Fin 16) c).Φ 0 = Pipeline.ΦA spec7 c from rfl]; unfold Pipeline.ΦA
    iintro ⟨Hreg, -, Hsc⟩
    isplitl [Hsc]; · iexact Hsc
    iexact Hreg
  hout c := by
    rw [Pipeline.ownSems0_none, show (pdats m (7 : Fin 16) c).Φ (Fin.last _) = Pipeline.ΦA spec7 c from rfl]; unfold Pipeline.ΦA
    iintro ⟨Hsc, Hreg⟩
    isplitl [Hreg]; · iexact Hreg
    isplitr; · iempintro
    iexact Hsc
  hexit c := by
    -- the arrays at what the write-backs fold to and the bypassing rest: the unscoped buffers at the exit contents
    have hjoin := Pipeline.unscopedBufs_of_arrays (p := (7 : Fin 16)) (pcfgs (F := F)) adm (Ix := Unit) (Name := ℕ) (U := UR sig nD τ) (Lvl := ℕ)
      launch7.win launch7.arr_whole c (pdats m) ((pdats m (7 : Fin 16) c).share_full fun _ => rfl)
      (en7 m c) (ex7 m c) ((pdats m (7 : Fin 16) c).arrAt · cfg7.N) (hF7 m c) (hrest7 m c)
    rw [Pipeline.unscopedBufs_held] at hjoin
    iintro ⟨Harr, Hdue, Hreg, Hrest⟩
    imodintro
    isplitl [Harr Hrest]
    · iapply hjoin; isplitl [Harr] <;> iassumption
    isplitl [Hreg]; · iexact Hreg
    unfold Pipeline.Dat.owesAt Pipeline.owesWithin
    icases Hdue with ⟨%W, -, Hdue⟩; iexists W; iexact Hdue

end Cert.Kernel.Hand

end
-- ==== Proof.K.Seg8.lean ====
/-
  Region 8 of @main as a segment of the run. First what the region leaves in each of its arrays, read against the generated
  valuations before and after it (an input window's array as entered, the output's at what the write-backs fold to, every
  other buffer untouched); then the segment record: the pipeline's layout facts from the launch, the body obligation at the region's
  entry contents, and the four entailments that take the thread state "every unscoped buffer at the entry contents, the
  generator register at some state, nothing owed" into the pipeline and bring it back at the exit contents.
-/
import proofs.«152161_j29669634081217_2_alg».proof.Proof.K.Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the region leaves in its arrays -/

theorem hF8_0 (c : Dev nD) : (dat8 (en8 m) c).arrAt (0 : Fin 12) cfg8.N = ex8 m c (Pipeline.arrRef spec8 (0 : Fin 12)) :=
  ((dat8 (en8 m) c).arrAt_in (0 : Fin 12) rfl _).trans ((A_eq8 (en8 m) c (0 : Fin 12)).trans (V18_of m (outs m) c (Pipeline.arrRef spec8 (0 : Fin 12)) (by decide)).symm)
theorem hF8_1 (c : Dev nD) : (dat8 (en8 m) c).arrAt (1 : Fin 12) cfg8.N = ex8 m c (Pipeline.arrRef spec8 (1 : Fin 12)) :=
  ((dat8 (en8 m) c).arrAt_in (1 : Fin 12) rfl _).trans ((A_eq8 (en8 m) c (1 : Fin 12)).trans (V18_of m (outs m) c (Pipeline.arrRef spec8 (1 : Fin 12)) (by decide)).symm)
theorem hF8_2 (c : Dev nD) : (dat8 (en8 m) c).arrAt (2 : Fin 12) cfg8.N = ex8 m c (Pipeline.arrRef spec8 (2 : Fin 12)) :=
  ((dat8 (en8 m) c).arrAt_in (2 : Fin 12) rfl _).trans ((A_eq8 (en8 m) c (2 : Fin 12)).trans (V18_of m (outs m) c (Pipeline.arrRef spec8 (2 : Fin 12)) (by decide)).symm)
theorem hF8_3 (c : Dev nD) : (dat8 (en8 m) c).arrAt (3 : Fin 12) cfg8.N = ex8 m c (Pipeline.arrRef spec8 (3 : Fin 12)) :=
  ((dat8 (en8 m) c).arrAt_in (3 : Fin 12) rfl _).trans ((A_eq8 (en8 m) c (3 : Fin 12)).trans (V18_of m (outs m) c (Pipeline.arrRef spec8 (3 : Fin 12)) (by decide)).symm)
theorem hF8_4 (c : Dev nD) : (dat8 (en8 m) c).arrAt (4 : Fin 12) cfg8.N = ex8 m c (Pipeline.arrRef spec8 (4 : Fin 12)) :=
  ((dat8 (en8 m) c).arrAt_in (4 : Fin 12) rfl _).trans ((A_eq8 (en8 m) c (4 : Fin 12)).trans (V18_of m (outs m) c (Pipeline.arrRef spec8 (4 : Fin 12)) (by decide)).symm)
theorem hF8_5 (c : Dev nD) : (dat8 (en8 m) c).arrAt (5 : Fin 12) cfg8.N = ex8 m c (Pipeline.arrRef spec8 (5 : Fin 12)) :=
  ((dat8 (en8 m) c).arrAt_in (5 : Fin 12) rfl _).trans ((A_eq8 (en8 m) c (5 : Fin 12)).trans (V18_of m (outs m) c (Pipeline.arrRef spec8 (5 : Fin 12)) (by decide)).symm)
theorem hF8_6 (c : Dev nD) : (dat8 (en8 m) c).arrAt (6 : Fin 12) cfg8.N = ex8 m c (Pipeline.arrRef spec8 (6 : Fin 12)) :=
  ((dat8 (en8 m) c).arrAt_in (6 : Fin 12) rfl _).trans ((A_eq8 (en8 m) c (6 : Fin 12)).trans (V18_of m (outs m) c (Pipeline.arrRef spec8 (6 : Fin 12)) (by decide)).symm)
theorem hF8_7 (c : Dev nD) : (dat8 (en8 m) c).arrAt (7 : Fin 12) cfg8.N = ex8 m c (Pipeline.arrRef spec8 (7 : Fin 12)) :=
  ((dat8 (en8 m) c).arrAt_in (7 : Fin 12) rfl _).trans ((A_eq8 (en8 m) c (7 : Fin 12)).trans (V18_of m (outs m) c (Pipeline.arrRef spec8 (7 : Fin 12)) (by decide)).symm)
theorem hF8_8 (c : Dev nD) : (dat8 (en8 m) c).arrAt (8 : Fin 12) cfg8.N = ex8 m c (Pipeline.arrRef spec8 (8 : Fin 12)) :=
  ((dat8 (en8 m) c).arrAt_in (8 : Fin 12) rfl _).trans ((A_eq8 (en8 m) c (8 : Fin 12)).trans (V18_of m (outs m) c (Pipeline.arrRef spec8 (8 : Fin 12)) (by decide)).symm)
theorem hF8_9 (c : Dev nD) : (dat8 (en8 m) c).arrAt (9 : Fin 12) cfg8.N = ex8 m c (Pipeline.arrRef spec8 (9 : Fin 12)) := by
  show _ = Ex8 m c main_v157_0
  exact (Ex8_out9 m c).symm
theorem hF8_10 (c : Dev nD) : (dat8 (en8 m) c).arrAt (10 : Fin 12) cfg8.N = ex8 m c (Pipeline.arrRef spec8 (10 : Fin 12)) := by
  show _ = Ex8 m c main_v157_1
  exact (Ex8_out10 m c).symm
theorem hF8_11 (c : Dev nD) : (dat8 (en8 m) c).arrAt (11 : Fin 12) cfg8.N = ex8 m c (Pipeline.arrRef spec8 (11 : Fin 12)) := by
  show _ = Ex8 m c main_v157_2
  exact (Ex8_out11 m c).symm
/-- At region 8's exit each of its arrays holds what the pipeline leaves: an input as entered, an output as above. -/
theorem hF8 (c : Dev nD) : ∀ w : Fin 12, (dat8 (en8 m) c).arrAt w cfg8.N = ex8 m c (Pipeline.arrRef spec8 w) :=
  forall_fin12 (hF8_0 m c) (hF8_1 m c) (hF8_2 m c) (hF8_3 m c) (hF8_4 m c) (hF8_5 m c) (hF8_6 m c) (hF8_7 m c) (hF8_8 m c) (hF8_9 m c) (hF8_10 m c) (hF8_11 m c)
/-- Every buffer that is none of region 8's arrays is at its exit what it was at its entry. -/
theorem hrest8 (c : Dev nD) : ∀ b, b ∉ Finset.univ.image (Pipeline.arrRef spec8) → ex8 m c b = en8 m c b := by
  intro b hb
  refine V18_of m (outs m) c b fun hmem => hb ?_
  rcases List.mem_cons.mp hmem with rfl | hmem
  · exact Finset.mem_image.mpr ⟨(9 : Fin 12), Finset.mem_univ _, rfl⟩
  rcases List.mem_cons.mp hmem with rfl | hmem
  · exact Finset.mem_image.mpr ⟨(10 : Fin 12), Finset.mem_univ _, rfl⟩
  rcases List.mem_singleton.mp hmem with rfl
  exact Finset.mem_image.mpr ⟨(11 : Fin 12), Finset.mem_univ _, rfl⟩

/-! ## The region as a segment -/

-- the library's lemmas are stated over the pinned configuration, which meets the printed one only when unification may
-- unfold plain definitions inside a metavariable's type
set_option backward.isDefEq.respectTransparency.types false in
/-- REGION 8 (custom_call 8) over the thread state. Entered from every unscoped buffer at the entry contents beside the
    generator register and the empty dues; left at the exit contents beside the same. At the entry the region's arrays are
    split out of the unscoped buffers and the rest bypasses the pipeline; the register rides in the pipeline's invariant;
    at the exit the arrays, each at what the write-backs fold to, are put back beside the bypassing rest. The kernel has
    no semaphore of its own and owes nothing. -/
noncomputable def reg8 : Pipeline.RegionSeg (pcfgs (F := F)) adm (pdats m) () defs₀ Variants.none L lv (8 : Fin 16) where
  win := launch8.win.to₀
  block_pos := launch8.block_pos
  stage_whole := launch8.stage_whole
  K := PEmpty
  osem k := k.elim
  ho := Pipeline.OwnSemFacts.none _
  hbody c := (body_obligation8 (en8 m) c).loose
  hwaits := Pipeline.hwaits_of_owed_zero _ _ _ _ L lv (8 : Fin 16) fun _ _ => rfl
  pre c := iprop(StableHlo.held (c : Thread nD τ) (Pipeline.ucRefs τ sig) (En8 m c) ∗ R c)
  post c := iprop(StableHlo.held (c : Thread nD τ) (Pipeline.ucRefs τ sig) (Ex8 m c) ∗ R c)
  X c := iprop(∃ r, prngReg c r)
  Y c := iprop(∃ r, prngReg c r)
  Z c := Pipeline.unscopedRest (Ix := Unit) (Name := ℕ) (U := UR sig nD τ) (Lvl := ℕ) spec8 c (en8 m c)
  hentry c := by
    rw [Pipeline.ownSems0_none]
    -- the unscoped buffers at the entry contents: the region's arrays, and the rest
    have hsplit := Pipeline.arrays_of_unscopedBufs (p := (8 : Fin 16)) (pcfgs (F := F)) adm (pdats m) launch8.win launch8.arr_whole c
      ((pdats m (8 : Fin 16) c).share_full fun _ => rfl) (en8 m c) fun w => A_eq8 (en8 m) c w
    rw [Pipeline.unscopedBufs_held] at hsplit
    iintro ⟨⟨Hbufs, Hreg, Hdue⟩, -, -⟩
    ihave Hs := hsplit $$ Hbufs
    icases Hs with ⟨Harr, Hrest⟩
    imodintro
    isplitl [Harr]; · iexact Harr
    -- no prefetched table
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hreg]; · iexact Hreg
    iexact Hrest
  hin c := by
    rw [show (pdats m (8 : Fin 16) c).Φ 0 = Pipeline.ΦA spec8 c from rfl]; unfold Pipeline.ΦA
    iintro ⟨Hreg, -, Hsc⟩
    isplitl [Hsc]; · iexact Hsc
    iexact Hreg
  hout c := by
    rw [Pipeline.ownSems0_none, show (pdats m (8 : Fin 16) c).Φ (Fin.last _) = Pipeline.ΦA spec8 c from rfl]; unfold Pipeline.ΦA
    iintro ⟨Hsc, Hreg⟩
    isplitl [Hreg]; · iexact Hreg
    isplitr; · iempintro
    iexact Hsc
  hexit c := by
    -- the arrays at what the write-backs fold to and the bypassing rest: the unscoped buffers at the exit contents
    have hjoin := Pipeline.unscopedBufs_of_arrays (p := (8 : Fin 16)) (pcfgs (F := F)) adm (Ix := Unit) (Name := ℕ) (U := UR sig nD τ) (Lvl := ℕ)
      launch8.win launch8.arr_whole c (pdats m) ((pdats m (8 : Fin 16) c).share_full fun _ => rfl)
      (en8 m c) (ex8 m c) ((pdats m (8 : Fin 16) c).arrAt · cfg8.N) (hF8 m c) (hrest8 m c)
    rw [Pipeline.unscopedBufs_held] at hjoin
    iintro ⟨Harr, Hdue, Hreg, Hrest⟩
    imodintro
    isplitl [Harr Hrest]
    · iapply hjoin; isplitl [Harr] <;> iassumption
    isplitl [Hreg]; · iexact Hreg
    unfold Pipeline.Dat.owesAt Pipeline.owesWithin
    icases Hdue with ⟨%W, -, Hdue⟩; iexists W; iexact Hdue

end Cert.Kernel.Hand

end
-- ==== Proof.K.Seg9.lean ====
/-
  Region 9 of @main as a segment of the run. First what the region leaves in each of its arrays, read against the generated
  valuations before and after it (an input window's array as entered, the output's at what the write-backs fold to, every
  other buffer untouched); then the segment record: the pipeline's layout facts from the launch, the body obligation at the region's
  entry contents, and the four entailments that take the thread state "every unscoped buffer at the entry contents, the
  generator register at some state, nothing owed" into the pipeline and bring it back at the exit contents.
-/
import proofs.«152161_j29669634081217_2_alg».proof.Proof.K.Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the region leaves in its arrays -/

theorem hF9_0 (c : Dev nD) : (dat9 (en9 m) c).arrAt (0 : Fin 8) cfg9.N = ex9 m c (Pipeline.arrRef spec9 (0 : Fin 8)) :=
  ((dat9 (en9 m) c).arrAt_in (0 : Fin 8) rfl _).trans ((A_eq9 (en9 m) c (0 : Fin 8)).trans (V20_of m (outs m) c (Pipeline.arrRef spec9 (0 : Fin 8)) (by decide)).symm)
theorem hF9_1 (c : Dev nD) : (dat9 (en9 m) c).arrAt (1 : Fin 8) cfg9.N = ex9 m c (Pipeline.arrRef spec9 (1 : Fin 8)) :=
  ((dat9 (en9 m) c).arrAt_in (1 : Fin 8) rfl _).trans ((A_eq9 (en9 m) c (1 : Fin 8)).trans (V20_of m (outs m) c (Pipeline.arrRef spec9 (1 : Fin 8)) (by decide)).symm)
theorem hF9_2 (c : Dev nD) : (dat9 (en9 m) c).arrAt (2 : Fin 8) cfg9.N = ex9 m c (Pipeline.arrRef spec9 (2 : Fin 8)) :=
  ((dat9 (en9 m) c).arrAt_in (2 : Fin 8) rfl _).trans ((A_eq9 (en9 m) c (2 : Fin 8)).trans (V20_of m (outs m) c (Pipeline.arrRef spec9 (2 : Fin 8)) (by decide)).symm)
theorem hF9_3 (c : Dev nD) : (dat9 (en9 m) c).arrAt (3 : Fin 8) cfg9.N = ex9 m c (Pipeline.arrRef spec9 (3 : Fin 8)) :=
  ((dat9 (en9 m) c).arrAt_in (3 : Fin 8) rfl _).trans ((A_eq9 (en9 m) c (3 : Fin 8)).trans (V20_of m (outs m) c (Pipeline.arrRef spec9 (3 : Fin 8)) (by decide)).symm)
theorem hF9_4 (c : Dev nD) : (dat9 (en9 m) c).arrAt (4 : Fin 8) cfg9.N = ex9 m c (Pipeline.arrRef spec9 (4 : Fin 8)) :=
  ((dat9 (en9 m) c).arrAt_in (4 : Fin 8) rfl _).trans ((A_eq9 (en9 m) c (4 : Fin 8)).trans (V20_of m (outs m) c (Pipeline.arrRef spec9 (4 : Fin 8)) (by decide)).symm)
theorem hF9_5 (c : Dev nD) : (dat9 (en9 m) c).arrAt (5 : Fin 8) cfg9.N = ex9 m c (Pipeline.arrRef spec9 (5 : Fin 8)) :=
  ((dat9 (en9 m) c).arrAt_in (5 : Fin 8) rfl _).trans ((A_eq9 (en9 m) c (5 : Fin 8)).trans (V20_of m (outs m) c (Pipeline.arrRef spec9 (5 : Fin 8)) (by decide)).symm)
theorem hF9_6 (c : Dev nD) : (dat9 (en9 m) c).arrAt (6 : Fin 8) cfg9.N = ex9 m c (Pipeline.arrRef spec9 (6 : Fin 8)) :=
  ((dat9 (en9 m) c).arrAt_in (6 : Fin 8) rfl _).trans ((A_eq9 (en9 m) c (6 : Fin 8)).trans (V20_of m (outs m) c (Pipeline.arrRef spec9 (6 : Fin 8)) (by decide)).symm)
theorem hF9_7 (c : Dev nD) : (dat9 (en9 m) c).arrAt (7 : Fin 8) cfg9.N = ex9 m c (Pipeline.arrRef spec9 (7 : Fin 8)) := by
  show _ = Ex9 m c main_v182
  exact (Ex9_out7 m c).symm
/-- At region 9's exit each of its arrays holds what the pipeline leaves: an input as entered, an output as above. -/
theorem hF9 (c : Dev nD) : ∀ w : Fin 8, (dat9 (en9 m) c).arrAt w cfg9.N = ex9 m c (Pipeline.arrRef spec9 w) :=
  forall_fin8 (hF9_0 m c) (hF9_1 m c) (hF9_2 m c) (hF9_3 m c) (hF9_4 m c) (hF9_5 m c) (hF9_6 m c) (hF9_7 m c)
/-- Every buffer that is none of region 9's arrays is at its exit what it was at its entry. -/
theorem hrest9 (c : Dev nD) : ∀ b, b ∉ Finset.univ.image (Pipeline.arrRef spec9) → ex9 m c b = en9 m c b := by
  intro b hb
  refine V20_of m (outs m) c b fun hmem => hb ?_
  rcases List.mem_singleton.mp hmem with rfl
  exact Finset.mem_image.mpr ⟨(7 : Fin 8), Finset.mem_univ _, rfl⟩

/-! ## The region as a segment -/

-- the library's lemmas are stated over the pinned configuration, which meets the printed one only when unification may
-- unfold plain definitions inside a metavariable's type
set_option backward.isDefEq.respectTransparency.types false in
/-- REGION 9 (custom_call 9) over the thread state. Entered from every unscoped buffer at the entry contents beside the
    generator register and the empty dues; left at the exit contents beside the same. At the entry the region's arrays are
    split out of the unscoped buffers and the rest bypasses the pipeline; the register rides in the pipeline's invariant;
    at the exit the arrays, each at what the write-backs fold to, are put back beside the bypassing rest. The kernel has
    no semaphore of its own and owes nothing. -/
noncomputable def reg9 : Pipeline.RegionSeg (pcfgs (F := F)) adm (pdats m) () defs₀ Variants.none L lv (9 : Fin 16) where
  win := launch9.win.to₀
  block_pos := launch9.block_pos
  stage_whole := launch9.stage_whole
  K := PEmpty
  osem k := k.elim
  ho := Pipeline.OwnSemFacts.none _
  hbody c := (body_obligation9 (en9 m) c).loose
  hwaits := Pipeline.hwaits_of_owed_zero _ _ _ _ L lv (9 : Fin 16) fun _ _ => rfl
  pre c := iprop(StableHlo.held (c : Thread nD τ) (Pipeline.ucRefs τ sig) (En9 m c) ∗ R c)
  post c := iprop(StableHlo.held (c : Thread nD τ) (Pipeline.ucRefs τ sig) (Ex9 m c) ∗ R c)
  X c := iprop(∃ r, prngReg c r)
  Y c := iprop(∃ r, prngReg c r)
  Z c := Pipeline.unscopedRest (Ix := Unit) (Name := ℕ) (U := UR sig nD τ) (Lvl := ℕ) spec9 c (en9 m c)
  hentry c := by
    rw [Pipeline.ownSems0_none]
    -- the unscoped buffers at the entry contents: the region's arrays, and the rest
    have hsplit := Pipeline.arrays_of_unscopedBufs (p := (9 : Fin 16)) (pcfgs (F := F)) adm (pdats m) launch9.win launch9.arr_whole c
      ((pdats m (9 : Fin 16) c).share_full fun _ => rfl) (en9 m c) fun w => A_eq9 (en9 m) c w
    rw [Pipeline.unscopedBufs_held] at hsplit
    iintro ⟨⟨Hbufs, Hreg, Hdue⟩, -, -⟩
    ihave Hs := hsplit $$ Hbufs
    icases Hs with ⟨Harr, Hrest⟩
    imodintro
    isplitl [Harr]; · iexact Harr
    -- no prefetched table
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hreg]; · iexact Hreg
    iexact Hrest
  hin c := by
    rw [show (pdats m (9 : Fin 16) c).Φ 0 = Pipeline.ΦA spec9 c from rfl]; unfold Pipeline.ΦA
    iintro ⟨Hreg, -, Hsc⟩
    isplitl [Hsc]; · iexact Hsc
    iexact Hreg
  hout c := by
    rw [Pipeline.ownSems0_none, show (pdats m (9 : Fin 16) c).Φ (Fin.last _) = Pipeline.ΦA spec9 c from rfl]; unfold Pipeline.ΦA
    iintro ⟨Hsc, Hreg⟩
    isplitl [Hreg]; · iexact Hreg
    isplitr; · iempintro
    iexact Hsc
  hexit c := by
    -- the arrays at what the write-backs fold to and the bypassing rest: the unscoped buffers at the exit contents
    have hjoin := Pipeline.unscopedBufs_of_arrays (p := (9 : Fin 16)) (pcfgs (F := F)) adm (Ix := Unit) (Name := ℕ) (U := UR sig nD τ) (Lvl := ℕ)
      launch9.win launch9.arr_whole c (pdats m) ((pdats m (9 : Fin 16) c).share_full fun _ => rfl)
      (en9 m c) (ex9 m c) ((pdats m (9 : Fin 16) c).arrAt · cfg9.N) (hF9 m c) (hrest9 m c)
    rw [Pipeline.unscopedBufs_held] at hjoin
    iintro ⟨Harr, Hdue, Hreg, Hrest⟩
    imodintro
    isplitl [Harr Hrest]
    · iapply hjoin; isplitl [Harr] <;> iassumption
    isplitl [Hreg]; · iexact Hreg
    unfold Pipeline.Dat.owesAt Pipeline.owesWithin
    icases Hdue with ⟨%W, -, Hdue⟩; iexists W; iexact Hdue

end Cert.Kernel.Hand

end
-- ==== Proof.K.Seg10.lean ====
/-
  Region 10 of @main as a segment of the run. First what the region leaves in each of its arrays, read against the generated
  valuations before and after it (an input window's array as entered, the output's at what the write-backs fold to, every
  other buffer untouched); then the segment record: the pipeline's layout facts from the launch, the body obligation at the region's
  entry contents, and the four entailments that take the thread state "every unscoped buffer at the entry contents, the
  generator register at some state, nothing owed" into the pipeline and bring it back at the exit contents.
-/
import proofs.«152161_j29669634081217_2_alg».proof.Proof.K.Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the region leaves in its arrays -/

theorem hF10_0 (c : Dev nD) : (dat10 (en10 m) c).arrAt (0 : Fin 12) cfg10.N = ex10 m c (Pipeline.arrRef spec10 (0 : Fin 12)) :=
  ((dat10 (en10 m) c).arrAt_in (0 : Fin 12) rfl _).trans ((A_eq10 (en10 m) c (0 : Fin 12)).trans (V22_of m (outs m) c (Pipeline.arrRef spec10 (0 : Fin 12)) (by decide)).symm)
theorem hF10_1 (c : Dev nD) : (dat10 (en10 m) c).arrAt (1 : Fin 12) cfg10.N = ex10 m c (Pipeline.arrRef spec10 (1 : Fin 12)) :=
  ((dat10 (en10 m) c).arrAt_in (1 : Fin 12) rfl _).trans ((A_eq10 (en10 m) c (1 : Fin 12)).trans (V22_of m (outs m) c (Pipeline.arrRef spec10 (1 : Fin 12)) (by decide)).symm)
theorem hF10_2 (c : Dev nD) : (dat10 (en10 m) c).arrAt (2 : Fin 12) cfg10.N = ex10 m c (Pipeline.arrRef spec10 (2 : Fin 12)) :=
  ((dat10 (en10 m) c).arrAt_in (2 : Fin 12) rfl _).trans ((A_eq10 (en10 m) c (2 : Fin 12)).trans (V22_of m (outs m) c (Pipeline.arrRef spec10 (2 : Fin 12)) (by decide)).symm)
theorem hF10_3 (c : Dev nD) : (dat10 (en10 m) c).arrAt (3 : Fin 12) cfg10.N = ex10 m c (Pipeline.arrRef spec10 (3 : Fin 12)) :=
  ((dat10 (en10 m) c).arrAt_in (3 : Fin 12) rfl _).trans ((A_eq10 (en10 m) c (3 : Fin 12)).trans (V22_of m (outs m) c (Pipeline.arrRef spec10 (3 : Fin 12)) (by decide)).symm)
theorem hF10_4 (c : Dev nD) : (dat10 (en10 m) c).arrAt (4 : Fin 12) cfg10.N = ex10 m c (Pipeline.arrRef spec10 (4 : Fin 12)) :=
  ((dat10 (en10 m) c).arrAt_in (4 : Fin 12) rfl _).trans ((A_eq10 (en10 m) c (4 : Fin 12)).trans (V22_of m (outs m) c (Pipeline.arrRef spec10 (4 : Fin 12)) (by decide)).symm)
theorem hF10_5 (c : Dev nD) : (dat10 (en10 m) c).arrAt (5 : Fin 12) cfg10.N = ex10 m c (Pipeline.arrRef spec10 (5 : Fin 12)) :=
  ((dat10 (en10 m) c).arrAt_in (5 : Fin 12) rfl _).trans ((A_eq10 (en10 m) c (5 : Fin 12)).trans (V22_of m (outs m) c (Pipeline.arrRef spec10 (5 : Fin 12)) (by decide)).symm)
theorem hF10_6 (c : Dev nD) : (dat10 (en10 m) c).arrAt (6 : Fin 12) cfg10.N = ex10 m c (Pipeline.arrRef spec10 (6 : Fin 12)) :=
  ((dat10 (en10 m) c).arrAt_in (6 : Fin 12) rfl _).trans ((A_eq10 (en10 m) c (6 : Fin 12)).trans (V22_of m (outs m) c (Pipeline.arrRef spec10 (6 : Fin 12)) (by decide)).symm)
theorem hF10_7 (c : Dev nD) : (dat10 (en10 m) c).arrAt (7 : Fin 12) cfg10.N = ex10 m c (Pipeline.arrRef spec10 (7 : Fin 12)) :=
  ((dat10 (en10 m) c).arrAt_in (7 : Fin 12) rfl _).trans ((A_eq10 (en10 m) c (7 : Fin 12)).trans (V22_of m (outs m) c (Pipeline.arrRef spec10 (7 : Fin 12)) (by decide)).symm)
theorem hF10_8 (c : Dev nD) : (dat10 (en10 m) c).arrAt (8 : Fin 12) cfg10.N = ex10 m c (Pipeline.arrRef spec10 (8 : Fin 12)) :=
  ((dat10 (en10 m) c).arrAt_in (8 : Fin 12) rfl _).trans ((A_eq10 (en10 m) c (8 : Fin 12)).trans (V22_of m (outs m) c (Pipeline.arrRef spec10 (8 : Fin 12)) (by decide)).symm)
theorem hF10_9 (c : Dev nD) : (dat10 (en10 m) c).arrAt (9 : Fin 12) cfg10.N = ex10 m c (Pipeline.arrRef spec10 (9 : Fin 12)) := by
  show _ = Ex10 m c main_v202_0
  exact (Ex10_out9 m c).symm
theorem hF10_10 (c : Dev nD) : (dat10 (en10 m) c).arrAt (10 : Fin 12) cfg10.N = ex10 m c (Pipeline.arrRef spec10 (10 : Fin 12)) := by
  show _ = Ex10 m c main_v202_1
  exact (Ex10_out10 m c).symm
theorem hF10_11 (c : Dev nD) : (dat10 (en10 m) c).arrAt (11 : Fin 12) cfg10.N = ex10 m c (Pipeline.arrRef spec10 (11 : Fin 12)) := by
  show _ = Ex10 m c main_v202_2
  exact (Ex10_out11 m c).symm
/-- At region 10's exit each of its arrays holds what the pipeline leaves: an input as entered, an output as above. -/
theorem hF10 (c : Dev nD) : ∀ w : Fin 12, (dat10 (en10 m) c).arrAt w cfg10.N = ex10 m c (Pipeline.arrRef spec10 w) :=
  forall_fin12 (hF10_0 m c) (hF10_1 m c) (hF10_2 m c) (hF10_3 m c) (hF10_4 m c) (hF10_5 m c) (hF10_6 m c) (hF10_7 m c) (hF10_8 m c) (hF10_9 m c) (hF10_10 m c) (hF10_11 m c)
/-- Every buffer that is none of region 10's arrays is at its exit what it was at its entry. -/
theorem hrest10 (c : Dev nD) : ∀ b, b ∉ Finset.univ.image (Pipeline.arrRef spec10) → ex10 m c b = en10 m c b := by
  intro b hb
  refine V22_of m (outs m) c b fun hmem => hb ?_
  rcases List.mem_cons.mp hmem with rfl | hmem
  · exact Finset.mem_image.mpr ⟨(9 : Fin 12), Finset.mem_univ _, rfl⟩
  rcases List.mem_cons.mp hmem with rfl | hmem
  · exact Finset.mem_image.mpr ⟨(10 : Fin 12), Finset.mem_univ _, rfl⟩
  rcases List.mem_singleton.mp hmem with rfl
  exact Finset.mem_image.mpr ⟨(11 : Fin 12), Finset.mem_univ _, rfl⟩

/-! ## The region as a segment -/

-- the library's lemmas are stated over the pinned configuration, which meets the printed one only when unification may
-- unfold plain definitions inside a metavariable's type
set_option backward.isDefEq.respectTransparency.types false in
/-- REGION 10 (custom_call 10) over the thread state. Entered from every unscoped buffer at the entry contents beside the
    generator register and the empty dues; left at the exit contents beside the same. At the entry the region's arrays are
    split out of the unscoped buffers and the rest bypasses the pipeline; the register rides in the pipeline's invariant;
    at the exit the arrays, each at what the write-backs fold to, are put back beside the bypassing rest. The kernel has
    no semaphore of its own and owes nothing. -/
noncomputable def reg10 : Pipeline.RegionSeg (pcfgs (F := F)) adm (pdats m) () defs₀ Variants.none L lv (10 : Fin 16) where
  win := launch10.win.to₀
  block_pos := launch10.block_pos
  stage_whole := launch10.stage_whole
  K := PEmpty
  osem k := k.elim
  ho := Pipeline.OwnSemFacts.none _
  hbody c := (body_obligation10 (en10 m) c).loose
  hwaits := Pipeline.hwaits_of_owed_zero _ _ _ _ L lv (10 : Fin 16) fun _ _ => rfl
  pre c := iprop(StableHlo.held (c : Thread nD τ) (Pipeline.ucRefs τ sig) (En10 m c) ∗ R c)
  post c := iprop(StableHlo.held (c : Thread nD τ) (Pipeline.ucRefs τ sig) (Ex10 m c) ∗ R c)
  X c := iprop(∃ r, prngReg c r)
  Y c := iprop(∃ r, prngReg c r)
  Z c := Pipeline.unscopedRest (Ix := Unit) (Name := ℕ) (U := UR sig nD τ) (Lvl := ℕ) spec10 c (en10 m c)
  hentry c := by
    rw [Pipeline.ownSems0_none]
    -- the unscoped buffers at the entry contents: the region's arrays, and the rest
    have hsplit := Pipeline.arrays_of_unscopedBufs (p := (10 : Fin 16)) (pcfgs (F := F)) adm (pdats m) launch10.win launch10.arr_whole c
      ((pdats m (10 : Fin 16) c).share_full fun _ => rfl) (en10 m c) fun w => A_eq10 (en10 m) c w
    rw [Pipeline.unscopedBufs_held] at hsplit
    iintro ⟨⟨Hbufs, Hreg, Hdue⟩, -, -⟩
    ihave Hs := hsplit $$ Hbufs
    icases Hs with ⟨Harr, Hrest⟩
    imodintro
    isplitl [Harr]; · iexact Harr
    -- no prefetched table
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hreg]; · iexact Hreg
    iexact Hrest
  hin c := by
    rw [show (pdats m (10 : Fin 16) c).Φ 0 = Pipeline.ΦA spec10 c from rfl]; unfold Pipeline.ΦA
    iintro ⟨Hreg, -, Hsc⟩
    isplitl [Hsc]; · iexact Hsc
    iexact Hreg
  hout c := by
    rw [Pipeline.ownSems0_none, show (pdats m (10 : Fin 16) c).Φ (Fin.last _) = Pipeline.ΦA spec10 c from rfl]; unfold Pipeline.ΦA
    iintro ⟨Hsc, Hreg⟩
    isplitl [Hreg]; · iexact Hreg
    isplitr; · iempintro
    iexact Hsc
  hexit c := by
    -- the arrays at what the write-backs fold to and the bypassing rest: the unscoped buffers at the exit contents
    have hjoin := Pipeline.unscopedBufs_of_arrays (p := (10 : Fin 16)) (pcfgs (F := F)) adm (Ix := Unit) (Name := ℕ) (U := UR sig nD τ) (Lvl := ℕ)
      launch10.win launch10.arr_whole c (pdats m) ((pdats m (10 : Fin 16) c).share_full fun _ => rfl)
      (en10 m c) (ex10 m c) ((pdats m (10 : Fin 16) c).arrAt · cfg10.N) (hF10 m c) (hrest10 m c)
    rw [Pipeline.unscopedBufs_held] at hjoin
    iintro ⟨Harr, Hdue, Hreg, Hrest⟩
    imodintro
    isplitl [Harr Hrest]
    · iapply hjoin; isplitl [Harr] <;> iassumption
    isplitl [Hreg]; · iexact Hreg
    unfold Pipeline.Dat.owesAt Pipeline.owesWithin
    icases Hdue with ⟨%W, -, Hdue⟩; iexists W; iexact Hdue

end Cert.Kernel.Hand

end
-- ==== Proof.K.Seg11.lean ====
/-
  Region 11 of @main as a segment of the run. First what the region leaves in each of its arrays, read against the generated
  valuations before and after it (an input window's array as entered, the output's at what the write-backs fold to, every
  other buffer untouched); then the segment record: the pipeline's layout facts from the launch, the body obligation at the region's
  entry contents, and the four entailments that take the thread state "every unscoped buffer at the entry contents, the
  generator register at some state, nothing owed" into the pipeline and bring it back at the exit contents.
-/
import proofs.«152161_j29669634081217_2_alg».proof.Proof.K.Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the region leaves in its arrays -/

theorem hF11_0 (c : Dev nD) : (dat11 (en11 m) c).arrAt (0 : Fin 8) cfg11.N = ex11 m c (Pipeline.arrRef spec11 (0 : Fin 8)) :=
  ((dat11 (en11 m) c).arrAt_in (0 : Fin 8) rfl _).trans ((A_eq11 (en11 m) c (0 : Fin 8)).trans (V24_of m (outs m) c (Pipeline.arrRef spec11 (0 : Fin 8)) (by decide)).symm)
theorem hF11_1 (c : Dev nD) : (dat11 (en11 m) c).arrAt (1 : Fin 8) cfg11.N = ex11 m c (Pipeline.arrRef spec11 (1 : Fin 8)) :=
  ((dat11 (en11 m) c).arrAt_in (1 : Fin 8) rfl _).trans ((A_eq11 (en11 m) c (1 : Fin 8)).trans (V24_of m (outs m) c (Pipeline.arrRef spec11 (1 : Fin 8)) (by decide)).symm)
theorem hF11_2 (c : Dev nD) : (dat11 (en11 m) c).arrAt (2 : Fin 8) cfg11.N = ex11 m c (Pipeline.arrRef spec11 (2 : Fin 8)) :=
  ((dat11 (en11 m) c).arrAt_in (2 : Fin 8) rfl _).trans ((A_eq11 (en11 m) c (2 : Fin 8)).trans (V24_of m (outs m) c (Pipeline.arrRef spec11 (2 : Fin 8)) (by decide)).symm)
theorem hF11_3 (c : Dev nD) : (dat11 (en11 m) c).arrAt (3 : Fin 8) cfg11.N = ex11 m c (Pipeline.arrRef spec11 (3 : Fin 8)) :=
  ((dat11 (en11 m) c).arrAt_in (3 : Fin 8) rfl _).trans ((A_eq11 (en11 m) c (3 : Fin 8)).trans (V24_of m (outs m) c (Pipeline.arrRef spec11 (3 : Fin 8)) (by decide)).symm)
theorem hF11_4 (c : Dev nD) : (dat11 (en11 m) c).arrAt (4 : Fin 8) cfg11.N = ex11 m c (Pipeline.arrRef spec11 (4 : Fin 8)) :=
  ((dat11 (en11 m) c).arrAt_in (4 : Fin 8) rfl _).trans ((A_eq11 (en11 m) c (4 : Fin 8)).trans (V24_of m (outs m) c (Pipeline.arrRef spec11 (4 : Fin 8)) (by decide)).symm)
theorem hF11_5 (c : Dev nD) : (dat11 (en11 m) c).arrAt (5 : Fin 8) cfg11.N = ex11 m c (Pipeline.arrRef spec11 (5 : Fin 8)) :=
  ((dat11 (en11 m) c).arrAt_in (5 : Fin 8) rfl _).trans ((A_eq11 (en11 m) c (5 : Fin 8)).trans (V24_of m (outs m) c (Pipeline.arrRef spec11 (5 : Fin 8)) (by decide)).symm)
theorem hF11_6 (c : Dev nD) : (dat11 (en11 m) c).arrAt (6 : Fin 8) cfg11.N = ex11 m c (Pipeline.arrRef spec11 (6 : Fin 8)) :=
  ((dat11 (en11 m) c).arrAt_in (6 : Fin 8) rfl _).trans ((A_eq11 (en11 m) c (6 : Fin 8)).trans (V24_of m (outs m) c (Pipeline.arrRef spec11 (6 : Fin 8)) (by decide)).symm)
theorem hF11_7 (c : Dev nD) : (dat11 (en11 m) c).arrAt (7 : Fin 8) cfg11.N = ex11 m c (Pipeline.arrRef spec11 (7 : Fin 8)) := by
  show _ = Ex11 m c main_v227
  exact (Ex11_out7 m c).symm
/-- At region 11's exit each of its arrays holds what the pipeline leaves: an input as entered, an output as above. -/
theorem hF11 (c : Dev nD) : ∀ w : Fin 8, (dat11 (en11 m) c).arrAt w cfg11.N = ex11 m c (Pipeline.arrRef spec11 w) :=
  forall_fin8 (hF11_0 m c) (hF11_1 m c) (hF11_2 m c) (hF11_3 m c) (hF11_4 m c) (hF11_5 m c) (hF11_6 m c) (hF11_7 m c)
/-- Every buffer that is none of region 11's arrays is at its exit what it was at its entry. -/
theorem hrest11 (c : Dev nD) : ∀ b, b ∉ Finset.univ.image (Pipeline.arrRef spec11) → ex11 m c b = en11 m c b := by
  intro b hb
  refine V24_of m (outs m) c b fun hmem => hb ?_
  rcases List.mem_singleton.mp hmem with rfl
  exact Finset.mem_image.mpr ⟨(7 : Fin 8), Finset.mem_univ _, rfl⟩

/-! ## The region as a segment -/

-- the library's lemmas are stated over the pinned configuration, which meets the printed one only when unification may
-- unfold plain definitions inside a metavariable's type
set_option backward.isDefEq.respectTransparency.types false in
/-- REGION 11 (custom_call 11) over the thread state. Entered from every unscoped buffer at the entry contents beside the
    generator register and the empty dues; left at the exit contents beside the same. At the entry the region's arrays are
    split out of the unscoped buffers and the rest bypasses the pipeline; the register rides in the pipeline's invariant;
    at the exit the arrays, each at what the write-backs fold to, are put back beside the bypassing rest. The kernel has
    no semaphore of its own and owes nothing. -/
noncomputable def reg11 : Pipeline.RegionSeg (pcfgs (F := F)) adm (pdats m) () defs₀ Variants.none L lv (11 : Fin 16) where
  win := launch11.win.to₀
  block_pos := launch11.block_pos
  stage_whole := launch11.stage_whole
  K := PEmpty
  osem k := k.elim
  ho := Pipeline.OwnSemFacts.none _
  hbody c := (body_obligation11 (en11 m) c).loose
  hwaits := Pipeline.hwaits_of_owed_zero _ _ _ _ L lv (11 : Fin 16) fun _ _ => rfl
  pre c := iprop(StableHlo.held (c : Thread nD τ) (Pipeline.ucRefs τ sig) (En11 m c) ∗ R c)
  post c := iprop(StableHlo.held (c : Thread nD τ) (Pipeline.ucRefs τ sig) (Ex11 m c) ∗ R c)
  X c := iprop(∃ r, prngReg c r)
  Y c := iprop(∃ r, prngReg c r)
  Z c := Pipeline.unscopedRest (Ix := Unit) (Name := ℕ) (U := UR sig nD τ) (Lvl := ℕ) spec11 c (en11 m c)
  hentry c := by
    rw [Pipeline.ownSems0_none]
    -- the unscoped buffers at the entry contents: the region's arrays, and the rest
    have hsplit := Pipeline.arrays_of_unscopedBufs (p := (11 : Fin 16)) (pcfgs (F := F)) adm (pdats m) launch11.win launch11.arr_whole c
      ((pdats m (11 : Fin 16) c).share_full fun _ => rfl) (en11 m c) fun w => A_eq11 (en11 m) c w
    rw [Pipeline.unscopedBufs_held] at hsplit
    iintro ⟨⟨Hbufs, Hreg, Hdue⟩, -, -⟩
    ihave Hs := hsplit $$ Hbufs
    icases Hs with ⟨Harr, Hrest⟩
    imodintro
    isplitl [Harr]; · iexact Harr
    -- no prefetched table
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hreg]; · iexact Hreg
    iexact Hrest
  hin c := by
    rw [show (pdats m (11 : Fin 16) c).Φ 0 = Pipeline.ΦA spec11 c from rfl]; unfold Pipeline.ΦA
    iintro ⟨Hreg, -, Hsc⟩
    isplitl [Hsc]; · iexact Hsc
    iexact Hreg
  hout c := by
    rw [Pipeline.ownSems0_none, show (pdats m (11 : Fin 16) c).Φ (Fin.last _) = Pipeline.ΦA spec11 c from rfl]; unfold Pipeline.ΦA
    iintro ⟨Hsc, Hreg⟩
    isplitl [Hreg]; · iexact Hreg
    isplitr; · iempintro
    iexact Hsc
  hexit c := by
    -- the arrays at what the write-backs fold to and the bypassing rest: the unscoped buffers at the exit contents
    have hjoin := Pipeline.unscopedBufs_of_arrays (p := (11 : Fin 16)) (pcfgs (F := F)) adm (Ix := Unit) (Name := ℕ) (U := UR sig nD τ) (Lvl := ℕ)
      launch11.win launch11.arr_whole c (pdats m) ((pdats m (11 : Fin 16) c).share_full fun _ => rfl)
      (en11 m c) (ex11 m c) ((pdats m (11 : Fin 16) c).arrAt · cfg11.N) (hF11 m c) (hrest11 m c)
    rw [Pipeline.unscopedBufs_held] at hjoin
    iintro ⟨Harr, Hdue, Hreg, Hrest⟩
    imodintro
    isplitl [Harr Hrest]
    · iapply hjoin; isplitl [Harr] <;> iassumption
    isplitl [Hreg]; · iexact Hreg
    unfold Pipeline.Dat.owesAt Pipeline.owesWithin
    icases Hdue with ⟨%W, -, Hdue⟩; iexists W; iexact Hdue

end Cert.Kernel.Hand

end
-- ==== Proof.K.Seg12.lean ====
/-
  Region 12 of @main as a segment of the run. First what the region leaves in each of its arrays, read against the generated
  valuations before and after it (an input window's array as entered, the output's at what the write-backs fold to, every
  other buffer untouched); then the segment record: the pipeline's layout facts from the launch, the body obligation at the region's
  entry contents, and the four entailments that take the thread state "every unscoped buffer at the entry contents, the
  generator register at some state, nothing owed" into the pipeline and bring it back at the exit contents.
-/
import proofs.«152161_j29669634081217_2_alg».proof.Proof.K.Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the region leaves in its arrays -/

theorem hF12_0 (c : Dev nD) : (dat12 (en12 m) c).arrAt (0 : Fin 12) cfg12.N = ex12 m c (Pipeline.arrRef spec12 (0 : Fin 12)) :=
  ((dat12 (en12 m) c).arrAt_in (0 : Fin 12) rfl _).trans ((A_eq12 (en12 m) c (0 : Fin 12)).trans (V26_of m (outs m) c (Pipeline.arrRef spec12 (0 : Fin 12)) (by decide)).symm)
theorem hF12_1 (c : Dev nD) : (dat12 (en12 m) c).arrAt (1 : Fin 12) cfg12.N = ex12 m c (Pipeline.arrRef spec12 (1 : Fin 12)) :=
  ((dat12 (en12 m) c).arrAt_in (1 : Fin 12) rfl _).trans ((A_eq12 (en12 m) c (1 : Fin 12)).trans (V26_of m (outs m) c (Pipeline.arrRef spec12 (1 : Fin 12)) (by decide)).symm)
theorem hF12_2 (c : Dev nD) : (dat12 (en12 m) c).arrAt (2 : Fin 12) cfg12.N = ex12 m c (Pipeline.arrRef spec12 (2 : Fin 12)) :=
  ((dat12 (en12 m) c).arrAt_in (2 : Fin 12) rfl _).trans ((A_eq12 (en12 m) c (2 : Fin 12)).trans (V26_of m (outs m) c (Pipeline.arrRef spec12 (2 : Fin 12)) (by decide)).symm)
theorem hF12_3 (c : Dev nD) : (dat12 (en12 m) c).arrAt (3 : Fin 12) cfg12.N = ex12 m c (Pipeline.arrRef spec12 (3 : Fin 12)) :=
  ((dat12 (en12 m) c).arrAt_in (3 : Fin 12) rfl _).trans ((A_eq12 (en12 m) c (3 : Fin 12)).trans (V26_of m (outs m) c (Pipeline.arrRef spec12 (3 : Fin 12)) (by decide)).symm)
theorem hF12_4 (c : Dev nD) : (dat12 (en12 m) c).arrAt (4 : Fin 12) cfg12.N = ex12 m c (Pipeline.arrRef spec12 (4 : Fin 12)) :=
  ((dat12 (en12 m) c).arrAt_in (4 : Fin 12) rfl _).trans ((A_eq12 (en12 m) c (4 : Fin 12)).trans (V26_of m (outs m) c (Pipeline.arrRef spec12 (4 : Fin 12)) (by decide)).symm)
theorem hF12_5 (c : Dev nD) : (dat12 (en12 m) c).arrAt (5 : Fin 12) cfg12.N = ex12 m c (Pipeline.arrRef spec12 (5 : Fin 12)) :=
  ((dat12 (en12 m) c).arrAt_in (5 : Fin 12) rfl _).trans ((A_eq12 (en12 m) c (5 : Fin 12)).trans (V26_of m (outs m) c (Pipeline.arrRef spec12 (5 : Fin 12)) (by decide)).symm)
theorem hF12_6 (c : Dev nD) : (dat12 (en12 m) c).arrAt (6 : Fin 12) cfg12.N = ex12 m c (Pipeline.arrRef spec12 (6 : Fin 12)) :=
  ((dat12 (en12 m) c).arrAt_in (6 : Fin 12) rfl _).trans ((A_eq12 (en12 m) c (6 : Fin 12)).trans (V26_of m (outs m) c (Pipeline.arrRef spec12 (6 : Fin 12)) (by decide)).symm)
theorem hF12_7 (c : Dev nD) : (dat12 (en12 m) c).arrAt (7 : Fin 12) cfg12.N = ex12 m c (Pipeline.arrRef spec12 (7 : Fin 12)) :=
  ((dat12 (en12 m) c).arrAt_in (7 : Fin 12) rfl _).trans ((A_eq12 (en12 m) c (7 : Fin 12)).trans (V26_of m (outs m) c (Pipeline.arrRef spec12 (7 : Fin 12)) (by decide)).symm)
theorem hF12_8 (c : Dev nD) : (dat12 (en12 m) c).arrAt (8 : Fin 12) cfg12.N = ex12 m c (Pipeline.arrRef spec12 (8 : Fin 12)) :=
  ((dat12 (en12 m) c).arrAt_in (8 : Fin 12) rfl _).trans ((A_eq12 (en12 m) c (8 : Fin 12)).trans (V26_of m (outs m) c (Pipeline.arrRef spec12 (8 : Fin 12)) (by decide)).symm)
theorem hF12_9 (c : Dev nD) : (dat12 (en12 m) c).arrAt (9 : Fin 12) cfg12.N = ex12 m c (Pipeline.arrRef spec12 (9 : Fin 12)) := by
  show _ = Ex12 m c main_v247_0
  exact (Ex12_out9 m c).symm
theorem hF12_10 (c : Dev nD) : (dat12 (en12 m) c).arrAt (10 : Fin 12) cfg12.N = ex12 m c (Pipeline.arrRef spec12 (10 : Fin 12)) := by
  show _ = Ex12 m c main_v247_1
  exact (Ex12_out10 m c).symm
theorem hF12_11 (c : Dev nD) : (dat12 (en12 m) c).arrAt (11 : Fin 12) cfg12.N = ex12 m c (Pipeline.arrRef spec12 (11 : Fin 12)) := by
  show _ = Ex12 m c main_v247_2
  exact (Ex12_out11 m c).symm
/-- At region 12's exit each of its arrays holds what the pipeline leaves: an input as entered, an output as above. -/
theorem hF12 (c : Dev nD) : ∀ w : Fin 12, (dat12 (en12 m) c).arrAt w cfg12.N = ex12 m c (Pipeline.arrRef spec12 w) :=
  forall_fin12 (hF12_0 m c) (hF12_1 m c) (hF12_2 m c) (hF12_3 m c) (hF12_4 m c) (hF12_5 m c) (hF12_6 m c) (hF12_7 m c) (hF12_8 m c) (hF12_9 m c) (hF12_10 m c) (hF12_11 m c)
/-- Every buffer that is none of region 12's arrays is at its exit what it was at its entry. -/
theorem hrest12 (c : Dev nD) : ∀ b, b ∉ Finset.univ.image (Pipeline.arrRef spec12) → ex12 m c b = en12 m c b := by
  intro b hb
  refine V26_of m (outs m) c b fun hmem => hb ?_
  rcases List.mem_cons.mp hmem with rfl | hmem
  · exact Finset.mem_image.mpr ⟨(9 : Fin 12), Finset.mem_univ _, rfl⟩
  rcases List.mem_cons.mp hmem with rfl | hmem
  · exact Finset.mem_image.mpr ⟨(10 : Fin 12), Finset.mem_univ _, rfl⟩
  rcases List.mem_singleton.mp hmem with rfl
  exact Finset.mem_image.mpr ⟨(11 : Fin 12), Finset.mem_univ _, rfl⟩

/-! ## The region as a segment -/

-- the library's lemmas are stated over the pinned configuration, which meets the printed one only when unification may
-- unfold plain definitions inside a metavariable's type
set_option backward.isDefEq.respectTransparency.types false in
/-- REGION 12 (custom_call 12) over the thread state. Entered from every unscoped buffer at the entry contents beside the
    generator register and the empty dues; left at the exit contents beside the same. At the entry the region's arrays are
    split out of the unscoped buffers and the rest bypasses the pipeline; the register rides in the pipeline's invariant;
    at the exit the arrays, each at what the write-backs fold to, are put back beside the bypassing rest. The kernel has
    no semaphore of its own and owes nothing. -/
noncomputable def reg12 : Pipeline.RegionSeg (pcfgs (F := F)) adm (pdats m) () defs₀ Variants.none L lv (12 : Fin 16) where
  win := launch12.win.to₀
  block_pos := launch12.block_pos
  stage_whole := launch12.stage_whole
  K := PEmpty
  osem k := k.elim
  ho := Pipeline.OwnSemFacts.none _
  hbody c := (body_obligation12 (en12 m) c).loose
  hwaits := Pipeline.hwaits_of_owed_zero _ _ _ _ L lv (12 : Fin 16) fun _ _ => rfl
  pre c := iprop(StableHlo.held (c : Thread nD τ) (Pipeline.ucRefs τ sig) (En12 m c) ∗ R c)
  post c := iprop(StableHlo.held (c : Thread nD τ) (Pipeline.ucRefs τ sig) (Ex12 m c) ∗ R c)
  X c := iprop(∃ r, prngReg c r)
  Y c := iprop(∃ r, prngReg c r)
  Z c := Pipeline.unscopedRest (Ix := Unit) (Name := ℕ) (U := UR sig nD τ) (Lvl := ℕ) spec12 c (en12 m c)
  hentry c := by
    rw [Pipeline.ownSems0_none]
    -- the unscoped buffers at the entry contents: the region's arrays, and the rest
    have hsplit := Pipeline.arrays_of_unscopedBufs (p := (12 : Fin 16)) (pcfgs (F := F)) adm (pdats m) launch12.win launch12.arr_whole c
      ((pdats m (12 : Fin 16) c).share_full fun _ => rfl) (en12 m c) fun w => A_eq12 (en12 m) c w
    rw [Pipeline.unscopedBufs_held] at hsplit
    iintro ⟨⟨Hbufs, Hreg, Hdue⟩, -, -⟩
    ihave Hs := hsplit $$ Hbufs
    icases Hs with ⟨Harr, Hrest⟩
    imodintro
    isplitl [Harr]; · iexact Harr
    -- no prefetched table
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hreg]; · iexact Hreg
    iexact Hrest
  hin c := by
    rw [show (pdats m (12 : Fin 16) c).Φ 0 = Pipeline.ΦA spec12 c from rfl]; unfold Pipeline.ΦA
    iintro ⟨Hreg, -, Hsc⟩
    isplitl [Hsc]; · iexact Hsc
    iexact Hreg
  hout c := by
    rw [Pipeline.ownSems0_none, show (pdats m (12 : Fin 16) c).Φ (Fin.last _) = Pipeline.ΦA spec12 c from rfl]; unfold Pipeline.ΦA
    iintro ⟨Hsc, Hreg⟩
    isplitl [Hreg]; · iexact Hreg
    isplitr; · iempintro
    iexact Hsc
  hexit c := by
    -- the arrays at what the write-backs fold to and the bypassing rest: the unscoped buffers at the exit contents
    have hjoin := Pipeline.unscopedBufs_of_arrays (p := (12 : Fin 16)) (pcfgs (F := F)) adm (Ix := Unit) (Name := ℕ) (U := UR sig nD τ) (Lvl := ℕ)
      launch12.win launch12.arr_whole c (pdats m) ((pdats m (12 : Fin 16) c).share_full fun _ => rfl)
      (en12 m c) (ex12 m c) ((pdats m (12 : Fin 16) c).arrAt · cfg12.N) (hF12 m c) (hrest12 m c)
    rw [Pipeline.unscopedBufs_held] at hjoin
    iintro ⟨Harr, Hdue, Hreg, Hrest⟩
    imodintro
    isplitl [Harr Hrest]
    · iapply hjoin; isplitl [Harr] <;> iassumption
    isplitl [Hreg]; · iexact Hreg
    unfold Pipeline.Dat.owesAt Pipeline.owesWithin
    icases Hdue with ⟨%W, -, Hdue⟩; iexists W; iexact Hdue

end Cert.Kernel.Hand

end
-- ==== Proof.K.Seg13.lean ====
/-
  Region 13 of @main as a segment of the run. First what the region leaves in each of its arrays, read against the generated
  valuations before and after it (an input window's array as entered, the output's at what the write-backs fold to, every
  other buffer untouched); then the segment record: the pipeline's layout facts from the launch, the body obligation at the region's
  entry contents, and the four entailments that take the thread state "every unscoped buffer at the entry contents, the
  generator register at some state, nothing owed" into the pipeline and bring it back at the exit contents.
-/
import proofs.«152161_j29669634081217_2_alg».proof.Proof.K.Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the region leaves in its arrays -/

theorem hF13_0 (c : Dev nD) : (dat13 (en13 m) c).arrAt (0 : Fin 8) cfg13.N = ex13 m c (Pipeline.arrRef spec13 (0 : Fin 8)) :=
  ((dat13 (en13 m) c).arrAt_in (0 : Fin 8) rfl _).trans ((A_eq13 (en13 m) c (0 : Fin 8)).trans (V28_of m (outs m) c (Pipeline.arrRef spec13 (0 : Fin 8)) (by decide)).symm)
theorem hF13_1 (c : Dev nD) : (dat13 (en13 m) c).arrAt (1 : Fin 8) cfg13.N = ex13 m c (Pipeline.arrRef spec13 (1 : Fin 8)) :=
  ((dat13 (en13 m) c).arrAt_in (1 : Fin 8) rfl _).trans ((A_eq13 (en13 m) c (1 : Fin 8)).trans (V28_of m (outs m) c (Pipeline.arrRef spec13 (1 : Fin 8)) (by decide)).symm)
theorem hF13_2 (c : Dev nD) : (dat13 (en13 m) c).arrAt (2 : Fin 8) cfg13.N = ex13 m c (Pipeline.arrRef spec13 (2 : Fin 8)) :=
  ((dat13 (en13 m) c).arrAt_in (2 : Fin 8) rfl _).trans ((A_eq13 (en13 m) c (2 : Fin 8)).trans (V28_of m (outs m) c (Pipeline.arrRef spec13 (2 : Fin 8)) (by decide)).symm)
theorem hF13_3 (c : Dev nD) : (dat13 (en13 m) c).arrAt (3 : Fin 8) cfg13.N = ex13 m c (Pipeline.arrRef spec13 (3 : Fin 8)) :=
  ((dat13 (en13 m) c).arrAt_in (3 : Fin 8) rfl _).trans ((A_eq13 (en13 m) c (3 : Fin 8)).trans (V28_of m (outs m) c (Pipeline.arrRef spec13 (3 : Fin 8)) (by decide)).symm)
theorem hF13_4 (c : Dev nD) : (dat13 (en13 m) c).arrAt (4 : Fin 8) cfg13.N = ex13 m c (Pipeline.arrRef spec13 (4 : Fin 8)) :=
  ((dat13 (en13 m) c).arrAt_in (4 : Fin 8) rfl _).trans ((A_eq13 (en13 m) c (4 : Fin 8)).trans (V28_of m (outs m) c (Pipeline.arrRef spec13 (4 : Fin 8)) (by decide)).symm)
theorem hF13_5 (c : Dev nD) : (dat13 (en13 m) c).arrAt (5 : Fin 8) cfg13.N = ex13 m c (Pipeline.arrRef spec13 (5 : Fin 8)) :=
  ((dat13 (en13 m) c).arrAt_in (5 : Fin 8) rfl _).trans ((A_eq13 (en13 m) c (5 : Fin 8)).trans (V28_of m (outs m) c (Pipeline.arrRef spec13 (5 : Fin 8)) (by decide)).symm)
theorem hF13_6 (c : Dev nD) : (dat13 (en13 m) c).arrAt (6 : Fin 8) cfg13.N = ex13 m c (Pipeline.arrRef spec13 (6 : Fin 8)) :=
  ((dat13 (en13 m) c).arrAt_in (6 : Fin 8) rfl _).trans ((A_eq13 (en13 m) c (6 : Fin 8)).trans (V28_of m (outs m) c (Pipeline.arrRef spec13 (6 : Fin 8)) (by decide)).symm)
theorem hF13_7 (c : Dev nD) : (dat13 (en13 m) c).arrAt (7 : Fin 8) cfg13.N = ex13 m c (Pipeline.arrRef spec13 (7 : Fin 8)) := by
  show _ = Ex13 m c main_v272
  exact (Ex13_out7 m c).symm
/-- At region 13's exit each of its arrays holds what the pipeline leaves: an input as entered, an output as above. -/
theorem hF13 (c : Dev nD) : ∀ w : Fin 8, (dat13 (en13 m) c).arrAt w cfg13.N = ex13 m c (Pipeline.arrRef spec13 w) :=
  forall_fin8 (hF13_0 m c) (hF13_1 m c) (hF13_2 m c) (hF13_3 m c) (hF13_4 m c) (hF13_5 m c) (hF13_6 m c) (hF13_7 m c)
/-- Every buffer that is none of region 13's arrays is at its exit what it was at its entry. -/
theorem hrest13 (c : Dev nD) : ∀ b, b ∉ Finset.univ.image (Pipeline.arrRef spec13) → ex13 m c b = en13 m c b := by
  intro b hb
  refine V28_of m (outs m) c b fun hmem => hb ?_
  rcases List.mem_singleton.mp hmem with rfl
  exact Finset.mem_image.mpr ⟨(7 : Fin 8), Finset.mem_univ _, rfl⟩

/-! ## The region as a segment -/

-- the library's lemmas are stated over the pinned configuration, which meets the printed one only when unification may
-- unfold plain definitions inside a metavariable's type
set_option backward.isDefEq.respectTransparency.types false in
/-- REGION 13 (custom_call 13) over the thread state. Entered from every unscoped buffer at the entry contents beside the
    generator register and the empty dues; left at the exit contents beside the same. At the entry the region's arrays are
    split out of the unscoped buffers and the rest bypasses the pipeline; the register rides in the pipeline's invariant;
    at the exit the arrays, each at what the write-backs fold to, are put back beside the bypassing rest. The kernel has
    no semaphore of its own and owes nothing. -/
noncomputable def reg13 : Pipeline.RegionSeg (pcfgs (F := F)) adm (pdats m) () defs₀ Variants.none L lv (13 : Fin 16) where
  win := launch13.win.to₀
  block_pos := launch13.block_pos
  stage_whole := launch13.stage_whole
  K := PEmpty
  osem k := k.elim
  ho := Pipeline.OwnSemFacts.none _
  hbody c := (body_obligation13 (en13 m) c).loose
  hwaits := Pipeline.hwaits_of_owed_zero _ _ _ _ L lv (13 : Fin 16) fun _ _ => rfl
  pre c := iprop(StableHlo.held (c : Thread nD τ) (Pipeline.ucRefs τ sig) (En13 m c) ∗ R c)
  post c := iprop(StableHlo.held (c : Thread nD τ) (Pipeline.ucRefs τ sig) (Ex13 m c) ∗ R c)
  X c := iprop(∃ r, prngReg c r)
  Y c := iprop(∃ r, prngReg c r)
  Z c := Pipeline.unscopedRest (Ix := Unit) (Name := ℕ) (U := UR sig nD τ) (Lvl := ℕ) spec13 c (en13 m c)
  hentry c := by
    rw [Pipeline.ownSems0_none]
    -- the unscoped buffers at the entry contents: the region's arrays, and the rest
    have hsplit := Pipeline.arrays_of_unscopedBufs (p := (13 : Fin 16)) (pcfgs (F := F)) adm (pdats m) launch13.win launch13.arr_whole c
      ((pdats m (13 : Fin 16) c).share_full fun _ => rfl) (en13 m c) fun w => A_eq13 (en13 m) c w
    rw [Pipeline.unscopedBufs_held] at hsplit
    iintro ⟨⟨Hbufs, Hreg, Hdue⟩, -, -⟩
    ihave Hs := hsplit $$ Hbufs
    icases Hs with ⟨Harr, Hrest⟩
    imodintro
    isplitl [Harr]; · iexact Harr
    -- no prefetched table
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hreg]; · iexact Hreg
    iexact Hrest
  hin c := by
    rw [show (pdats m (13 : Fin 16) c).Φ 0 = Pipeline.ΦA spec13 c from rfl]; unfold Pipeline.ΦA
    iintro ⟨Hreg, -, Hsc⟩
    isplitl [Hsc]; · iexact Hsc
    iexact Hreg
  hout c := by
    rw [Pipeline.ownSems0_none, show (pdats m (13 : Fin 16) c).Φ (Fin.last _) = Pipeline.ΦA spec13 c from rfl]; unfold Pipeline.ΦA
    iintro ⟨Hsc, Hreg⟩
    isplitl [Hreg]; · iexact Hreg
    isplitr; · iempintro
    iexact Hsc
  hexit c := by
    -- the arrays at what the write-backs fold to and the bypassing rest: the unscoped buffers at the exit contents
    have hjoin := Pipeline.unscopedBufs_of_arrays (p := (13 : Fin 16)) (pcfgs (F := F)) adm (Ix := Unit) (Name := ℕ) (U := UR sig nD τ) (Lvl := ℕ)
      launch13.win launch13.arr_whole c (pdats m) ((pdats m (13 : Fin 16) c).share_full fun _ => rfl)
      (en13 m c) (ex13 m c) ((pdats m (13 : Fin 16) c).arrAt · cfg13.N) (hF13 m c) (hrest13 m c)
    rw [Pipeline.unscopedBufs_held] at hjoin
    iintro ⟨Harr, Hdue, Hreg, Hrest⟩
    imodintro
    isplitl [Harr Hrest]
    · iapply hjoin; isplitl [Harr] <;> iassumption
    isplitl [Hreg]; · iexact Hreg
    unfold Pipeline.Dat.owesAt Pipeline.owesWithin
    icases Hdue with ⟨%W, -, Hdue⟩; iexists W; iexact Hdue

end Cert.Kernel.Hand

end
-- ==== Proof.K.Seg14.lean ====
/-
  Region 14 of @main as a segment of the run. First what the region leaves in each of its arrays, read against the generated
  valuations before and after it (an input window's array as entered, the output's at what the write-backs fold to, every
  other buffer untouched); then the segment record: the pipeline's layout facts from the launch, the body obligation at the region's
  entry contents, and the four entailments that take the thread state "every unscoped buffer at the entry contents, the
  generator register at some state, nothing owed" into the pipeline and bring it back at the exit contents.
-/
import proofs.«152161_j29669634081217_2_alg».proof.Proof.K.Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the region leaves in its arrays -/

theorem hF14_0 (c : Dev nD) : (dat14 (en14 m) c).arrAt (0 : Fin 12) cfg14.N = ex14 m c (Pipeline.arrRef spec14 (0 : Fin 12)) :=
  ((dat14 (en14 m) c).arrAt_in (0 : Fin 12) rfl _).trans ((A_eq14 (en14 m) c (0 : Fin 12)).trans (V30_of m (outs m) c (Pipeline.arrRef spec14 (0 : Fin 12)) (by decide)).symm)
theorem hF14_1 (c : Dev nD) : (dat14 (en14 m) c).arrAt (1 : Fin 12) cfg14.N = ex14 m c (Pipeline.arrRef spec14 (1 : Fin 12)) :=
  ((dat14 (en14 m) c).arrAt_in (1 : Fin 12) rfl _).trans ((A_eq14 (en14 m) c (1 : Fin 12)).trans (V30_of m (outs m) c (Pipeline.arrRef spec14 (1 : Fin 12)) (by decide)).symm)
theorem hF14_2 (c : Dev nD) : (dat14 (en14 m) c).arrAt (2 : Fin 12) cfg14.N = ex14 m c (Pipeline.arrRef spec14 (2 : Fin 12)) :=
  ((dat14 (en14 m) c).arrAt_in (2 : Fin 12) rfl _).trans ((A_eq14 (en14 m) c (2 : Fin 12)).trans (V30_of m (outs m) c (Pipeline.arrRef spec14 (2 : Fin 12)) (by decide)).symm)
theorem hF14_3 (c : Dev nD) : (dat14 (en14 m) c).arrAt (3 : Fin 12) cfg14.N = ex14 m c (Pipeline.arrRef spec14 (3 : Fin 12)) :=
  ((dat14 (en14 m) c).arrAt_in (3 : Fin 12) rfl _).trans ((A_eq14 (en14 m) c (3 : Fin 12)).trans (V30_of m (outs m) c (Pipeline.arrRef spec14 (3 : Fin 12)) (by decide)).symm)
theorem hF14_4 (c : Dev nD) : (dat14 (en14 m) c).arrAt (4 : Fin 12) cfg14.N = ex14 m c (Pipeline.arrRef spec14 (4 : Fin 12)) :=
  ((dat14 (en14 m) c).arrAt_in (4 : Fin 12) rfl _).trans ((A_eq14 (en14 m) c (4 : Fin 12)).trans (V30_of m (outs m) c (Pipeline.arrRef spec14 (4 : Fin 12)) (by decide)).symm)
theorem hF14_5 (c : Dev nD) : (dat14 (en14 m) c).arrAt (5 : Fin 12) cfg14.N = ex14 m c (Pipeline.arrRef spec14 (5 : Fin 12)) :=
  ((dat14 (en14 m) c).arrAt_in (5 : Fin 12) rfl _).trans ((A_eq14 (en14 m) c (5 : Fin 12)).trans (V30_of m (outs m) c (Pipeline.arrRef spec14 (5 : Fin 12)) (by decide)).symm)
theorem hF14_6 (c : Dev nD) : (dat14 (en14 m) c).arrAt (6 : Fin 12) cfg14.N = ex14 m c (Pipeline.arrRef spec14 (6 : Fin 12)) :=
  ((dat14 (en14 m) c).arrAt_in (6 : Fin 12) rfl _).trans ((A_eq14 (en14 m) c (6 : Fin 12)).trans (V30_of m (outs m) c (Pipeline.arrRef spec14 (6 : Fin 12)) (by decide)).symm)
theorem hF14_7 (c : Dev nD) : (dat14 (en14 m) c).arrAt (7 : Fin 12) cfg14.N = ex14 m c (Pipeline.arrRef spec14 (7 : Fin 12)) :=
  ((dat14 (en14 m) c).arrAt_in (7 : Fin 12) rfl _).trans ((A_eq14 (en14 m) c (7 : Fin 12)).trans (V30_of m (outs m) c (Pipeline.arrRef spec14 (7 : Fin 12)) (by decide)).symm)
theorem hF14_8 (c : Dev nD) : (dat14 (en14 m) c).arrAt (8 : Fin 12) cfg14.N = ex14 m c (Pipeline.arrRef spec14 (8 : Fin 12)) :=
  ((dat14 (en14 m) c).arrAt_in (8 : Fin 12) rfl _).trans ((A_eq14 (en14 m) c (8 : Fin 12)).trans (V30_of m (outs m) c (Pipeline.arrRef spec14 (8 : Fin 12)) (by decide)).symm)
theorem hF14_9 (c : Dev nD) : (dat14 (en14 m) c).arrAt (9 : Fin 12) cfg14.N = ex14 m c (Pipeline.arrRef spec14 (9 : Fin 12)) := by
  show _ = Ex14 m c main_v292_0
  exact (Ex14_out9 m c).symm
theorem hF14_10 (c : Dev nD) : (dat14 (en14 m) c).arrAt (10 : Fin 12) cfg14.N = ex14 m c (Pipeline.arrRef spec14 (10 : Fin 12)) := by
  show _ = Ex14 m c main_v292_1
  exact (Ex14_out10 m c).symm
theorem hF14_11 (c : Dev nD) : (dat14 (en14 m) c).arrAt (11 : Fin 12) cfg14.N = ex14 m c (Pipeline.arrRef spec14 (11 : Fin 12)) := by
  show _ = Ex14 m c main_v292_2
  exact (Ex14_out11 m c).symm
/-- At region 14's exit each of its arrays holds what the pipeline leaves: an input as entered, an output as above. -/
theorem hF14 (c : Dev nD) : ∀ w : Fin 12, (dat14 (en14 m) c).arrAt w cfg14.N = ex14 m c (Pipeline.arrRef spec14 w) :=
  forall_fin12 (hF14_0 m c) (hF14_1 m c) (hF14_2 m c) (hF14_3 m c) (hF14_4 m c) (hF14_5 m c) (hF14_6 m c) (hF14_7 m c) (hF14_8 m c) (hF14_9 m c) (hF14_10 m c) (hF14_11 m c)
/-- Every buffer that is none of region 14's arrays is at its exit what it was at its entry. -/
theorem hrest14 (c : Dev nD) : ∀ b, b ∉ Finset.univ.image (Pipeline.arrRef spec14) → ex14 m c b = en14 m c b := by
  intro b hb
  refine V30_of m (outs m) c b fun hmem => hb ?_
  rcases List.mem_cons.mp hmem with rfl | hmem
  · exact Finset.mem_image.mpr ⟨(9 : Fin 12), Finset.mem_univ _, rfl⟩
  rcases List.mem_cons.mp hmem with rfl | hmem
  · exact Finset.mem_image.mpr ⟨(10 : Fin 12), Finset.mem_univ _, rfl⟩
  rcases List.mem_singleton.mp hmem with rfl
  exact Finset.mem_image.mpr ⟨(11 : Fin 12), Finset.mem_univ _, rfl⟩

/-! ## The region as a segment -/

-- the library's lemmas are stated over the pinned configuration, which meets the printed one only when unification may
-- unfold plain definitions inside a metavariable's type
set_option backward.isDefEq.respectTransparency.types false in
/-- REGION 14 (custom_call 14) over the thread state. Entered from every unscoped buffer at the entry contents beside the
    generator register and the empty dues; left at the exit contents beside the same. At the entry the region's arrays are
    split out of the unscoped buffers and the rest bypasses the pipeline; the register rides in the pipeline's invariant;
    at the exit the arrays, each at what the write-backs fold to, are put back beside the bypassing rest. The kernel has
    no semaphore of its own and owes nothing. -/
noncomputable def reg14 : Pipeline.RegionSeg (pcfgs (F := F)) adm (pdats m) () defs₀ Variants.none L lv (14 : Fin 16) where
  win := launch14.win.to₀
  block_pos := launch14.block_pos
  stage_whole := launch14.stage_whole
  K := PEmpty
  osem k := k.elim
  ho := Pipeline.OwnSemFacts.none _
  hbody c := (body_obligation14 (en14 m) c).loose
  hwaits := Pipeline.hwaits_of_owed_zero _ _ _ _ L lv (14 : Fin 16) fun _ _ => rfl
  pre c := iprop(StableHlo.held (c : Thread nD τ) (Pipeline.ucRefs τ sig) (En14 m c) ∗ R c)
  post c := iprop(StableHlo.held (c : Thread nD τ) (Pipeline.ucRefs τ sig) (Ex14 m c) ∗ R c)
  X c := iprop(∃ r, prngReg c r)
  Y c := iprop(∃ r, prngReg c r)
  Z c := Pipeline.unscopedRest (Ix := Unit) (Name := ℕ) (U := UR sig nD τ) (Lvl := ℕ) spec14 c (en14 m c)
  hentry c := by
    rw [Pipeline.ownSems0_none]
    -- the unscoped buffers at the entry contents: the region's arrays, and the rest
    have hsplit := Pipeline.arrays_of_unscopedBufs (p := (14 : Fin 16)) (pcfgs (F := F)) adm (pdats m) launch14.win launch14.arr_whole c
      ((pdats m (14 : Fin 16) c).share_full fun _ => rfl) (en14 m c) fun w => A_eq14 (en14 m) c w
    rw [Pipeline.unscopedBufs_held] at hsplit
    iintro ⟨⟨Hbufs, Hreg, Hdue⟩, -, -⟩
    ihave Hs := hsplit $$ Hbufs
    icases Hs with ⟨Harr, Hrest⟩
    imodintro
    isplitl [Harr]; · iexact Harr
    -- no prefetched table
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hreg]; · iexact Hreg
    iexact Hrest
  hin c := by
    rw [show (pdats m (14 : Fin 16) c).Φ 0 = Pipeline.ΦA spec14 c from rfl]; unfold Pipeline.ΦA
    iintro ⟨Hreg, -, Hsc⟩
    isplitl [Hsc]; · iexact Hsc
    iexact Hreg
  hout c := by
    rw [Pipeline.ownSems0_none, show (pdats m (14 : Fin 16) c).Φ (Fin.last _) = Pipeline.ΦA spec14 c from rfl]; unfold Pipeline.ΦA
    iintro ⟨Hsc, Hreg⟩
    isplitl [Hreg]; · iexact Hreg
    isplitr; · iempintro
    iexact Hsc
  hexit c := by
    -- the arrays at what the write-backs fold to and the bypassing rest: the unscoped buffers at the exit contents
    have hjoin := Pipeline.unscopedBufs_of_arrays (p := (14 : Fin 16)) (pcfgs (F := F)) adm (Ix := Unit) (Name := ℕ) (U := UR sig nD τ) (Lvl := ℕ)
      launch14.win launch14.arr_whole c (pdats m) ((pdats m (14 : Fin 16) c).share_full fun _ => rfl)
      (en14 m c) (ex14 m c) ((pdats m (14 : Fin 16) c).arrAt · cfg14.N) (hF14 m c) (hrest14 m c)
    rw [Pipeline.unscopedBufs_held] at hjoin
    iintro ⟨Harr, Hdue, Hreg, Hrest⟩
    imodintro
    isplitl [Harr Hrest]
    · iapply hjoin; isplitl [Harr] <;> iassumption
    isplitl [Hreg]; · iexact Hreg
    unfold Pipeline.Dat.owesAt Pipeline.owesWithin
    icases Hdue with ⟨%W, -, Hdue⟩; iexists W; iexact Hdue

end Cert.Kernel.Hand

end
-- ==== Proof.K.Seg15.lean ====
/-
  Region 15 of @main as a segment of the run. First what the region leaves in each of its arrays, read against the generated
  valuations before and after it (an input window's array as entered, the output's at what the write-backs fold to, every
  other buffer untouched); then the segment record: the pipeline's layout facts from the launch, the body obligation at the region's
  entry contents, and the four entailments that take the thread state "every unscoped buffer at the entry contents, the
  generator register at some state, nothing owed" into the pipeline and bring it back at the exit contents.
-/
import proofs.«152161_j29669634081217_2_alg».proof.Proof.K.Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the region leaves in its arrays -/

theorem hF15_0 (c : Dev nD) : (dat15 (en15 m) c).arrAt (0 : Fin 10) cfg15.N = ex15 m c (Pipeline.arrRef spec15 (0 : Fin 10)) :=
  ((dat15 (en15 m) c).arrAt_in (0 : Fin 10) rfl _).trans ((A_eq15 (en15 m) c (0 : Fin 10)).trans (V32_of m (outs m) c (Pipeline.arrRef spec15 (0 : Fin 10)) (by decide)).symm)
theorem hF15_1 (c : Dev nD) : (dat15 (en15 m) c).arrAt (1 : Fin 10) cfg15.N = ex15 m c (Pipeline.arrRef spec15 (1 : Fin 10)) :=
  ((dat15 (en15 m) c).arrAt_in (1 : Fin 10) rfl _).trans ((A_eq15 (en15 m) c (1 : Fin 10)).trans (V32_of m (outs m) c (Pipeline.arrRef spec15 (1 : Fin 10)) (by decide)).symm)
theorem hF15_2 (c : Dev nD) : (dat15 (en15 m) c).arrAt (2 : Fin 10) cfg15.N = ex15 m c (Pipeline.arrRef spec15 (2 : Fin 10)) :=
  ((dat15 (en15 m) c).arrAt_in (2 : Fin 10) rfl _).trans ((A_eq15 (en15 m) c (2 : Fin 10)).trans (V32_of m (outs m) c (Pipeline.arrRef spec15 (2 : Fin 10)) (by decide)).symm)
theorem hF15_3 (c : Dev nD) : (dat15 (en15 m) c).arrAt (3 : Fin 10) cfg15.N = ex15 m c (Pipeline.arrRef spec15 (3 : Fin 10)) :=
  ((dat15 (en15 m) c).arrAt_in (3 : Fin 10) rfl _).trans ((A_eq15 (en15 m) c (3 : Fin 10)).trans (V32_of m (outs m) c (Pipeline.arrRef spec15 (3 : Fin 10)) (by decide)).symm)
theorem hF15_4 (c : Dev nD) : (dat15 (en15 m) c).arrAt (4 : Fin 10) cfg15.N = ex15 m c (Pipeline.arrRef spec15 (4 : Fin 10)) :=
  ((dat15 (en15 m) c).arrAt_in (4 : Fin 10) rfl _).trans ((A_eq15 (en15 m) c (4 : Fin 10)).trans (V32_of m (outs m) c (Pipeline.arrRef spec15 (4 : Fin 10)) (by decide)).symm)
theorem hF15_5 (c : Dev nD) : (dat15 (en15 m) c).arrAt (5 : Fin 10) cfg15.N = ex15 m c (Pipeline.arrRef spec15 (5 : Fin 10)) :=
  ((dat15 (en15 m) c).arrAt_in (5 : Fin 10) rfl _).trans ((A_eq15 (en15 m) c (5 : Fin 10)).trans (V32_of m (outs m) c (Pipeline.arrRef spec15 (5 : Fin 10)) (by decide)).symm)
theorem hF15_6 (c : Dev nD) : (dat15 (en15 m) c).arrAt (6 : Fin 10) cfg15.N = ex15 m c (Pipeline.arrRef spec15 (6 : Fin 10)) :=
  ((dat15 (en15 m) c).arrAt_in (6 : Fin 10) rfl _).trans ((A_eq15 (en15 m) c (6 : Fin 10)).trans (V32_of m (outs m) c (Pipeline.arrRef spec15 (6 : Fin 10)) (by decide)).symm)
theorem hF15_7 (c : Dev nD) : (dat15 (en15 m) c).arrAt (7 : Fin 10) cfg15.N = ex15 m c (Pipeline.arrRef spec15 (7 : Fin 10)) :=
  ((dat15 (en15 m) c).arrAt_in (7 : Fin 10) rfl _).trans ((A_eq15 (en15 m) c (7 : Fin 10)).trans (V32_of m (outs m) c (Pipeline.arrRef spec15 (7 : Fin 10)) (by decide)).symm)
theorem hF15_8 (c : Dev nD) : (dat15 (en15 m) c).arrAt (8 : Fin 10) cfg15.N = ex15 m c (Pipeline.arrRef spec15 (8 : Fin 10)) :=
  ((dat15 (en15 m) c).arrAt_in (8 : Fin 10) rfl _).trans ((A_eq15 (en15 m) c (8 : Fin 10)).trans (V32_of m (outs m) c (Pipeline.arrRef spec15 (8 : Fin 10)) (by decide)).symm)
theorem hF15_9 (c : Dev nD) : (dat15 (en15 m) c).arrAt (9 : Fin 10) cfg15.N = ex15 m c (Pipeline.arrRef spec15 (9 : Fin 10)) := by
  show _ = Ex15 m c main_v299
  exact (Ex15_out9 m c).symm
/-- At region 15's exit each of its arrays holds what the pipeline leaves: an input as entered, an output as above. -/
theorem hF15 (c : Dev nD) : ∀ w : Fin 10, (dat15 (en15 m) c).arrAt w cfg15.N = ex15 m c (Pipeline.arrRef spec15 w) :=
  forall_fin10 (hF15_0 m c) (hF15_1 m c) (hF15_2 m c) (hF15_3 m c) (hF15_4 m c) (hF15_5 m c) (hF15_6 m c) (hF15_7 m c) (hF15_8 m c) (hF15_9 m c)
/-- Every buffer that is none of region 15's arrays is at its exit what it was at its entry. -/
theorem hrest15 (c : Dev nD) : ∀ b, b ∉ Finset.univ.image (Pipeline.arrRef spec15) → ex15 m c b = en15 m c b := by
  intro b hb
  refine V32_of m (outs m) c b fun hmem => hb ?_
  rcases List.mem_singleton.mp hmem with rfl
  exact Finset.mem_image.mpr ⟨(9 : Fin 10), Finset.mem_univ _, rfl⟩

/-! ## The region as a segment -/

-- the library's lemmas are stated over the pinned configuration, which meets the printed one only when unification may
-- unfold plain definitions inside a metavariable's type
set_option backward.isDefEq.respectTransparency.types false in
/-- REGION 15 (custom_call 15) over the thread state. Entered from every unscoped buffer at the entry contents beside the
    generator register and the empty dues; left at the exit contents beside the same. At the entry the region's arrays are
    split out of the unscoped buffers and the rest bypasses the pipeline; the register rides in the pipeline's invariant;
    at the exit the arrays, each at what the write-backs fold to, are put back beside the bypassing rest. The kernel has
    no semaphore of its own and owes nothing. -/
noncomputable def reg15 : Pipeline.RegionSeg (pcfgs (F := F)) adm (pdats m) () defs₀ Variants.none L lv (15 : Fin 16) where
  win := launch15.win.to₀
  block_pos := launch15.block_pos
  stage_whole := launch15.stage_whole
  K := PEmpty
  osem k := k.elim
  ho := Pipeline.OwnSemFacts.none _
  hbody c := (body_obligation15 (en15 m) c).loose
  hwaits := Pipeline.hwaits_of_owed_zero _ _ _ _ L lv (15 : Fin 16) fun _ _ => rfl
  pre c := iprop(StableHlo.held (c : Thread nD τ) (Pipeline.ucRefs τ sig) (En15 m c) ∗ R c)
  post c := iprop(StableHlo.held (c : Thread nD τ) (Pipeline.ucRefs τ sig) (Ex15 m c) ∗ R c)
  X c := iprop(∃ r, prngReg c r)
  Y c := iprop(∃ r, prngReg c r)
  Z c := Pipeline.unscopedRest (Ix := Unit) (Name := ℕ) (U := UR sig nD τ) (Lvl := ℕ) spec15 c (en15 m c)
  hentry c := by
    rw [Pipeline.ownSems0_none]
    -- the unscoped buffers at the entry contents: the region's arrays, and the rest
    have hsplit := Pipeline.arrays_of_unscopedBufs (p := (15 : Fin 16)) (pcfgs (F := F)) adm (pdats m) launch15.win launch15.arr_whole c
      ((pdats m (15 : Fin 16) c).share_full fun _ => rfl) (en15 m c) fun w => A_eq15 (en15 m) c w
    rw [Pipeline.unscopedBufs_held] at hsplit
    iintro ⟨⟨Hbufs, Hreg, Hdue⟩, -, -⟩
    ihave Hs := hsplit $$ Hbufs
    icases Hs with ⟨Harr, Hrest⟩
    imodintro
    isplitl [Harr]; · iexact Harr
    -- no prefetched table
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hreg]; · iexact Hreg
    iexact Hrest
  hin c := by
    rw [show (pdats m (15 : Fin 16) c).Φ 0 = Pipeline.ΦA spec15 c from rfl]; unfold Pipeline.ΦA
    iintro ⟨Hreg, -, Hsc⟩
    isplitl [Hsc]; · iexact Hsc
    iexact Hreg
  hout c := by
    rw [Pipeline.ownSems0_none, show (pdats m (15 : Fin 16) c).Φ (Fin.last _) = Pipeline.ΦA spec15 c from rfl]; unfold Pipeline.ΦA
    iintro ⟨Hsc, Hreg⟩
    isplitl [Hreg]; · iexact Hreg
    isplitr; · iempintro
    iexact Hsc
  hexit c := by
    -- the arrays at what the write-backs fold to and the bypassing rest: the unscoped buffers at the exit contents
    have hjoin := Pipeline.unscopedBufs_of_arrays (p := (15 : Fin 16)) (pcfgs (F := F)) adm (Ix := Unit) (Name := ℕ) (U := UR sig nD τ) (Lvl := ℕ)
      launch15.win launch15.arr_whole c (pdats m) ((pdats m (15 : Fin 16) c).share_full fun _ => rfl)
      (en15 m c) (ex15 m c) ((pdats m (15 : Fin 16) c).arrAt · cfg15.N) (hF15 m c) (hrest15 m c)
    rw [Pipeline.unscopedBufs_held] at hjoin
    iintro ⟨Harr, Hdue, Hreg, Hrest⟩
    imodintro
    isplitl [Harr Hrest]
    · iapply hjoin; isplitl [Harr] <;> iassumption
    isplitl [Hreg]; · iexact Hreg
    unfold Pipeline.Dat.owesAt Pipeline.owesWithin
    icases Hdue with ⟨%W, -, Hdue⟩; iexists W; iexact Hdue

end Cert.Kernel.Hand

end
-- ==== Proof.K.Run.lean ====
/-
  The run of @main: the conditional run over the sixteen regions' segment records, at the contents the regions leave. Every
  weakly fair execution from memory m with zero counters terminates; at the end the result buffer holds what the last region
  leaves in it and every argument array holds its launch contents.
-/
import proofs.«152161_j29669634081217_2_alg».proof.Proof.K.RunCond
import proofs.«152161_j29669634081217_2_alg».proof.Proof.K.Seg0
import proofs.«152161_j29669634081217_2_alg».proof.Proof.K.Seg1
import proofs.«152161_j29669634081217_2_alg».proof.Proof.K.Seg2
import proofs.«152161_j29669634081217_2_alg».proof.Proof.K.Seg3
import proofs.«152161_j29669634081217_2_alg».proof.Proof.K.Seg4
import proofs.«152161_j29669634081217_2_alg».proof.Proof.K.Seg5
import proofs.«152161_j29669634081217_2_alg».proof.Proof.K.Seg6
import proofs.«152161_j29669634081217_2_alg».proof.Proof.K.Seg7
import proofs.«152161_j29669634081217_2_alg».proof.Proof.K.Seg8
import proofs.«152161_j29669634081217_2_alg».proof.Proof.K.Seg9
import proofs.«152161_j29669634081217_2_alg».proof.Proof.K.Seg10
import proofs.«152161_j29669634081217_2_alg».proof.Proof.K.Seg11
import proofs.«152161_j29669634081217_2_alg».proof.Proof.K.Seg12
import proofs.«152161_j29669634081217_2_alg».proof.Proof.K.Seg13
import proofs.«152161_j29669634081217_2_alg».proof.Proof.K.Seg14
import proofs.«152161_j29669634081217_2_alg».proof.Proof.K.Seg15

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch's side conditions -/

/-- The launch element: the pipeline library's, at every pipeline's staging cells. -/
noncomputable abbrev u₀ : UR sig nD τ := initOf (Pipeline.cells cfgs cellOf_inj) (Pipeline.launchToks cfgs cellOf_inj)

/-- The launch element yields the library's element and no further ghost resource on any core. -/
theorem hu₀ : (ownU u₀ : sProp 𝕄)
    ⊢ |={Set.univ}=> iprop(BI.own ((emb₁ : Emb _ 𝕄) (initOf (Pipeline.cells cfgs cellOf_inj) (Pipeline.launchToks cfgs cellOf_inj)))
        ∗ bigSep Finset.univ fun _ : Dev nD => (BI.emp : sProp 𝕄)) := by
  iintro Hu; imodintro
  isplitl [Hu]
  · iapply (show (ownU u₀ : sProp 𝕄) ⊢ BI.own (emb₁ u₀) from .rfl)
    iexact Hu
  iapply (show (BI.emp : sProp 𝕄) ⊢ bigSep Finset.univ (fun _ : Dev nD => (BI.emp : sProp 𝕄)) from by rw [BI.bigSep_emp_const])
  iempintro

/-- What the launch deals each core beside its buffers makes the state that rides along: the generator register as
    launched, the dues at nothing. -/
theorem hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  refine Pipeline.initEach L lv fun c => ?_
  iintro ⟨⟨-, Hdue, -, Hreg, -⟩, -⟩
  imodintro
  isplitl [Hreg]; · iexists _; iexact Hreg
  iexists ∅; iexact Hdue

/-- The state that rides along ends with nothing owed. -/
theorem hE16 (c : Dev nD) : R (F := F) c ⊢ (iprop(∃ W, owes (c : Thread nD τ) (0 : CellTallies nD τ sig Unit) W) : sProp 𝕄) := by
  iintro ⟨-, Hdue⟩; iexact Hdue

/-! ## The run -/

set_option backward.isDefEq.respectTransparency.types false in
/-- THE RUN: at the end the result buffer holds what region 15 leaves in it, and every argument its launch contents. -/
theorem run_main : θ_run defs (onTc (τ := τ) (main (F := F))) ⟨m, fun _ => 0, ρ⟩ (fun r => ∀ c : Dev nD,
      r.2.mem ((c.tc : Thread nD τ).loc main_v299) = V32 m (outs m) c main_v299
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  run_cond m (EP := emb₁) (ι := ()) (𝒱₀ := Variants.none) (L := L) (lv := lv) (hL := fun _ _ => rfl) (ρ := ρ) (outs := outs m)
    (pdats := pdats m) (O₀ := 0) (G := fun _ => iprop(emp)) (u₀ := u₀) (hu₀ := hu₀) (E := fun _ c => R c) (hE0 := hE0 ρ) (hE16 := hE16)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)
    (R3 := reg3 m) (hpre3 := fun _ => .rfl) (hpost3 := fun _ => .rfl)
    (R4 := reg4 m) (hpre4 := fun _ => .rfl) (hpost4 := fun _ => .rfl)
    (R5 := reg5 m) (hpre5 := fun _ => .rfl) (hpost5 := fun _ => .rfl)
    (R6 := reg6 m) (hpre6 := fun _ => .rfl) (hpost6 := fun _ => .rfl)
    (R7 := reg7 m) (hpre7 := fun _ => .rfl) (hpost7 := fun _ => .rfl)
    (R8 := reg8 m) (hpre8 := fun _ => .rfl) (hpost8 := fun _ => .rfl)
    (R9 := reg9 m) (hpre9 := fun _ => .rfl) (hpost9 := fun _ => .rfl)
    (R10 := reg10 m) (hpre10 := fun _ => .rfl) (hpost10 := fun _ => .rfl)
    (R11 := reg11 m) (hpre11 := fun _ => .rfl) (hpost11 := fun _ => .rfl)
    (R12 := reg12 m) (hpre12 := fun _ => .rfl) (hpost12 := fun _ => .rfl)
    (R13 := reg13 m) (hpre13 := fun _ => .rfl) (hpost13 := fun _ => .rfl)
    (R14 := reg14 m) (hpre14 := fun _ => .rfl) (hpost14 := fun _ => .rfl)
    (R15 := reg15 m) (hpre15 := fun _ => .rfl) (hpost15 := fun _ => .rfl)

set_option backward.isDefEq.respectTransparency.types false in
/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  frame_cond m (EP := emb₁) (ι := ()) (𝒱₀ := Variants.none) (L := L) (lv := lv) (hL := fun _ _ => rfl) (ρ := ρ) (outs := outs m)
    (pdats := pdats m) (O₀ := 0) (G := fun _ => iprop(emp)) (u₀ := u₀) (hu₀ := hu₀) (E := fun _ c => R c) (hE0 := hE0 ρ) (hE16 := hE16)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)
    (R3 := reg3 m) (hpre3 := fun _ => .rfl) (hpost3 := fun _ => .rfl)
    (R4 := reg4 m) (hpre4 := fun _ => .rfl) (hpost4 := fun _ => .rfl)
    (R5 := reg5 m) (hpre5 := fun _ => .rfl) (hpost5 := fun _ => .rfl)
    (R6 := reg6 m) (hpre6 := fun _ => .rfl) (hpost6 := fun _ => .rfl)
    (R7 := reg7 m) (hpre7 := fun _ => .rfl) (hpost7 := fun _ => .rfl)
    (R8 := reg8 m) (hpre8 := fun _ => .rfl) (hpost8 := fun _ => .rfl)
    (R9 := reg9 m) (hpre9 := fun _ => .rfl) (hpost9 := fun _ => .rfl)
    (R10 := reg10 m) (hpre10 := fun _ => .rfl) (hpost10 := fun _ => .rfl)
    (R11 := reg11 m) (hpre11 := fun _ => .rfl) (hpost11 := fun _ => .rfl)
    (R12 := reg12 m) (hpre12 := fun _ => .rfl) (hpost12 := fun _ => .rfl)
    (R13 := reg13 m) (hpre13 := fun _ => .rfl) (hpost13 := fun _ => .rfl)
    (R14 := reg14 m) (hpre14 := fun _ => .rfl) (hpost14 := fun _ => .rfl)
    (R15 := reg15 m) (hpre15 := fun _ => .rfl) (hpost15 := fun _ => .rfl)

end Cert.Kernel.Hand

end
-- ==== Proof.Ref.Ops.lean ====
/- The reference's @main as lists of its host operations, one list per printed window, a call's three
   operations (the zero, its broadcast, the maximum) in the call's place over that call's buffers. -/
import proofs.«152161_j29669634081217_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 64 of 506 (window `main_part0`). -/
noncomputable abbrev ops0 : List (HloOp τ sig (Elt F)) :=
  [ nullary main_c (fun i => lit0 (S2.rowMajor i)),
    unary main_arg5 main_v0 ((extractStridedSlice S1x160000 ![0, 0] · slices_S2x160000_S1x160000_0_0) : (⟨S2x160000, .i32⟩ : BufTy).Contents (Elt F) → (⟨S1x160000, .i32⟩ : BufTy).Contents (Elt F)),
    reshape main_v0 main_v1 rfl shapeCasts_S1x160000_S160000,
    unary main_arg5 main_v2 ((extractStridedSlice S1x160000 ![1, 0] · slices_S2x160000_S1x160000_1_0) : (⟨S2x160000, .i32⟩ : BufTy).Contents (Elt F) → (⟨S1x160000, .i32⟩ : BufTy).Contents (Elt F)),
    reshape main_v2 main_v3 rfl shapeCasts_S1x160000_S160000,
    nullary main_c_0 (constantI S_ 32 0#32),
    unary main_c_0 main_v4 (broadcastInDim S2 ![] bcast_S_S2 : (⟨S_, .i32⟩ : BufTy).Contents (Elt F) → (⟨S2, .i32⟩ : BufTy).Contents (Elt F)),
    binary main_c main_v4 main_v5 (cmpi .slt : (⟨S2, .i32⟩ : BufTy).Contents (Elt F) → (⟨S2, .i32⟩ : BufTy).Contents (Elt F) → (⟨S2, .i1⟩ : BufTy).Contents (Elt F)),
    nullary main_c_1 (constantI S_ 32 3#32),
    unary main_c_1 main_v6 (broadcastInDim S2 ![] bcast_S_S2 : (⟨S_, .i32⟩ : BufTy).Contents (Elt F) → (⟨S2, .i32⟩ : BufTy).Contents (Elt F)),
    binary main_c main_v6 main_v7 (addi : (⟨S2, .i32⟩ : BufTy).Contents (Elt F) → (⟨S2, .i32⟩ : BufTy).Contents (Elt F) → (⟨S2, .i32⟩ : BufTy).Contents (Elt F)),
    ternary main_v5 main_v7 main_c main_v8 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    unary main_v8 main_v9 (broadcastInDim S2x1 ![0] bcast_S2_S2x1_0 : (⟨S2, .i32⟩ : BufTy).Contents (Elt F) → (⟨S2x1, .i32⟩ : BufTy).Contents (Elt F)),
    binary main_arg1 main_v9 main_v10 ((fun x i => Host.gather gather_S20000x3_S2x1_S20000x2_0_1_n_n_1_1_200001 x i) : (⟨S20000x3, .f32⟩ : BufTy).Contents (Elt F) → (⟨S2x1, .i32⟩ : BufTy).Contents (Elt F) → (⟨S20000x2, .f32⟩ : BufTy).Contents (Elt F)),
    unary main_arg0 main_v11 ((extractStridedSlice S20000x6 ![0, 3] · slices_S20000x9_S20000x6_0_3) : (⟨S20000x9, .f32⟩ : BufTy).Contents (Elt F) → (⟨S20000x6, .f32⟩ : BufTy).Contents (Elt F)),
    binary main_v11 main_arg6 main_v12 ((fun l r => Host.dotGeneral dot_S20000x6_S6x128_S20000x128_1_0_0_1_n_n none l r) : (⟨S20000x6, .f32⟩ : BufTy).Contents (Elt F) → (⟨S6x128, .f32⟩ : BufTy).Contents (Elt F) → (⟨S20000x128, .f32⟩ : BufTy).Contents (Elt F)),
    unary main_arg7 main_v13 (broadcastInDim S1x128 ![1] bcast_S128_S1x128_1 : (⟨S128, .f32⟩ : BufTy).Contents (Elt F) → (⟨S1x128, .f32⟩ : BufTy).Contents (Elt F)),
    unary main_v13 main_v14 (broadcastInDim S20000x128 ![0, 1] bcast_S1x128_S20000x128_0_1 : (⟨S1x128, .f32⟩ : BufTy).Contents (Elt F) → (⟨S20000x128, .f32⟩ : BufTy).Contents (Elt F)),
    binary main_v12 main_v14 main_v15 (addf : (⟨S20000x128, .f32⟩ : BufTy).Contents (Elt F) → (⟨S20000x128, .f32⟩ : BufTy).Contents (Elt F) → (⟨S20000x128, .f32⟩ : BufTy).Contents (Elt F)),
    nullary main_call0_cst (constant S_ .f32 0x00000000#32),
    unary main_call0_cst main_call0_v0 (broadcastInDim S20000x128 ![] bcast_S_S20000x128 : (⟨S_, .f32⟩ : BufTy).Contents (Elt F) → (⟨S20000x128, .f32⟩ : BufTy).Contents (Elt F)),
    binary main_v15 main_call0_v0 main_v16 (maximumf : (⟨S20000x128, .f32⟩ : BufTy).Contents (Elt F) → (⟨S20000x128, .f32⟩ : BufTy).Contents (Elt F) → (⟨S20000x128, .f32⟩ : BufTy).Contents (Elt F)),
    binary main_v16 main_arg8 main_v17 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg9 main_v18 (broadcastInDim S1x128 ![1] bcast_S128_S1x128_1 : (⟨S128, .f32⟩ : BufTy).Contents (Elt F) → (⟨S1x128, .f32⟩ : BufTy).Contents (Elt F)),
    unary main_v18 main_v19 (broadcastInDim S20000x128 ![0, 1] bcast_S1x128_S20000x128_0_1 : (⟨S1x128, .f32⟩ : BufTy).Contents (Elt F) → (⟨S20000x128, .f32⟩ : BufTy).Contents (Elt F)),
    binary main_v17 main_v19 main_v20 (addf : (⟨S20000x128, .f32⟩ : BufTy).Contents (Elt F) → (⟨S20000x128, .f32⟩ : BufTy).Contents (Elt F) → (⟨S20000x128, .f32⟩ : BufTy).Contents (Elt F)),
    binary main_arg2 main_arg10 main_v21 ((fun l r => Host.dotGeneral dot_S160000x10_S10x128_S160000x128_1_0_0_1_n_n none l r) : (⟨S160000x10, .f32⟩ : BufTy).Contents (Elt F) → (⟨S10x128, .f32⟩ : BufTy).Contents (Elt F) → (⟨S160000x128, .f32⟩ : BufTy).Contents (Elt F)),
    unary main_arg11 main_v22 (broadcastInDim S1x128 ![1] bcast_S128_S1x128_1 : (⟨S128, .f32⟩ : BufTy).Contents (Elt F) → (⟨S1x128, .f32⟩ : BufTy).Contents (Elt F)),
    unary main_v22 main_v23 (broadcastInDim S160000x128 ![0, 1] bcast_S1x128_S160000x128_0_1 : (⟨S1x128, .f32⟩ : BufTy).Contents (Elt F) → (⟨S160000x128, .f32⟩ : BufTy).Contents (Elt F)),
    binary main_v21 main_v23 main_v24 (addf : (⟨S160000x128, .f32⟩ : BufTy).Contents (Elt F) → (⟨S160000x128, .f32⟩ : BufTy).Contents (Elt F) → (⟨S160000x128, .f32⟩ : BufTy).Contents (Elt F)),
    nullary main_call1_cst (constant S_ .f32 0x00000000#32),
    unary main_call1_cst main_call1_v0 (broadcastInDim S160000x128 ![] bcast_S_S160000x128 : (⟨S_, .f32⟩ : BufTy).Contents (Elt F) → (⟨S160000x128, .f32⟩ : BufTy).Contents (Elt F)),
    binary main_v24 main_call1_v0 main_v25 (maximumf : (⟨S160000x128, .f32⟩ : BufTy).Contents (Elt F) → (⟨S160000x128, .f32⟩ : BufTy).Contents (Elt F) → (⟨S160000x128, .f32⟩ : BufTy).Contents (Elt F)),
    binary main_v25 main_arg12 main_v26 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)),
    unary main_arg13 main_v27 (broadcastInDim S1x128 ![1] bcast_S128_S1x128_1 : (⟨S128, .f32⟩ : BufTy).Contents (Elt F) → (⟨S1x128, .f32⟩ : BufTy).Contents (Elt F)),
    unary main_v27 main_v28 (broadcastInDim S160000x128 ![0, 1] bcast_S1x128_S160000x128_0_1 : (⟨S1x128, .f32⟩ : BufTy).Contents (Elt F) → (⟨S160000x128, .f32⟩ : BufTy).Contents (Elt F)),
    binary main_v26 main_v28 main_v29 (addf : (⟨S160000x128, .f32⟩ : BufTy).Contents (Elt F) → (⟨S160000x128, .f32⟩ : BufTy).Contents (Elt F) → (⟨S160000x128, .f32⟩ : BufTy).Contents (Elt F)),
    unary main_arg14 main_v30 ((extractStridedSlice S1x128x128 ![0, 0, 0] · slices_S6x128x128_S1x128x128_0_0_0) : (⟨S6x128x128, .f32⟩ : BufTy).Contents (Elt F) → (⟨S1x128x128, .f32⟩ : BufTy).Contents (Elt F)),
    reshape main_v30 main_v31 rfl shapeCasts_S1x128x128_S128x128,
    binary main_v20 main_v31 main_v32 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg15 main_v33 ((extractStridedSlice S1x128x128 ![0, 0, 0] · slices_S6x128x128_S1x128x128_0_0_0) : (⟨S6x128x128, .f32⟩ : BufTy).Contents (Elt F) → (⟨S1x128x128, .f32⟩ : BufTy).Contents (Elt F)),
    reshape main_v33 main_v34 rfl shapeCasts_S1x128x128_S128x128,
    binary main_v20 main_v34 main_v35 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    nullary main_c_2 (constantI S_ 32 0#32),
    unary main_c_2 main_v36 (broadcastInDim S160000 ![] bcast_S_S160000 : (⟨S_, .i32⟩ : BufTy).Contents (Elt F) → (⟨S160000, .i32⟩ : BufTy).Contents (Elt F)),
    binary main_v1 main_v36 main_v37 (cmpi .slt : (⟨S160000, .i32⟩ : BufTy).Contents (Elt F) → (⟨S160000, .i32⟩ : BufTy).Contents (Elt F) → (⟨S160000, .i1⟩ : BufTy).Contents (Elt F)),
    nullary main_c_3 (constantI S_ 32 20000#32),
    unary main_c_3 main_v38 (broadcastInDim S160000 ![] bcast_S_S160000 : (⟨S_, .i32⟩ : BufTy).Contents (Elt F) → (⟨S160000, .i32⟩ : BufTy).Contents (Elt F)),
    binary main_v1 main_v38 main_v39 (addi : (⟨S160000, .i32⟩ : BufTy).Contents (Elt F) → (⟨S160000, .i32⟩ : BufTy).Contents (Elt F) → (⟨S160000, .i32⟩ : BufTy).Contents (Elt F)),
    ternary main_v37 main_v39 main_v1 main_v40 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v40 main_v41 (broadcastInDim S160000x1 ![0] bcast_S160000_S160000x1_0 : (⟨S160000, .i32⟩ : BufTy).Contents (Elt F) → (⟨S160000x1, .i32⟩ : BufTy).Contents (Elt F)),
    binary main_v32 main_v41 main_v42 ((fun x i => Host.gather gather_S20000x128_S160000x1_S160000x128_1_0_n_n_0_1_1128 x i) : (⟨S20000x128, .f32⟩ : BufTy).Contents (Elt F) → (⟨S160000x1, .i32⟩ : BufTy).Contents (Elt F) → (⟨S160000x128, .f32⟩ : BufTy).Contents (Elt F)),
    nullary main_c_4 (constantI S_ 32 0#32),
    unary main_c_4 main_v43 (broadcastInDim S160000 ![] bcast_S_S160000 : (⟨S_, .i32⟩ : BufTy).Contents (Elt F) → (⟨S160000, .i32⟩ : BufTy).Contents (Elt F)),
    binary main_v3 main_v43 main_v44 (cmpi .slt : (⟨S160000, .i32⟩ : BufTy).Contents (Elt F) → (⟨S160000, .i32⟩ : BufTy).Contents (Elt F) → (⟨S160000, .i1⟩ : BufTy).Contents (Elt F)),
    nullary main_c_5 (constantI S_ 32 20000#32),
    unary main_c_5 main_v45 (broadcastInDim S160000 ![] bcast_S_S160000 : (⟨S_, .i32⟩ : BufTy).Contents (Elt F) → (⟨S160000, .i32⟩ : BufTy).Contents (Elt F)),
    binary main_v3 main_v45 main_v46 (addi : (⟨S160000, .i32⟩ : BufTy).Contents (Elt F) → (⟨S160000, .i32⟩ : BufTy).Contents (Elt F) → (⟨S160000, .i32⟩ : BufTy).Contents (Elt F)),
    ternary main_v44 main_v46 main_v3 main_v47 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v47 main_v48 (broadcastInDim S160000x1 ![0] bcast_S160000_S160000x1_0 : (⟨S160000, .i32⟩ : BufTy).Contents (Elt F) → (⟨S160000x1, .i32⟩ : BufTy).Contents (Elt F)),
    binary main_v35 main_v48 main_v49 ((fun x i => Host.gather gather_S20000x128_S160000x1_S160000x128_1_0_n_n_0_1_1128 x i) : (⟨S20000x128, .f32⟩ : BufTy).Contents (Elt F) → (⟨S160000x1, .i32⟩ : BufTy).Contents (Elt F) → (⟨S160000x128, .f32⟩ : BufTy).Contents (Elt F)),
    binary main_v42 main_v49 main_v50 (addf : (⟨S160000x128, .f32⟩ : BufTy).Contents (Elt F) → (⟨S160000x128, .f32⟩ : BufTy).Contents (Elt F) → (⟨S160000x128, .f32⟩ : BufTy).Contents (Elt F)),
    unary main_arg16 main_v51 ((extractStridedSlice S1x128x128 ![0, 0, 0] · slices_S6x128x128_S1x128x128_0_0_0) : (⟨S6x128x128, .f32⟩ : BufTy).Contents (Elt F) → (⟨S1x128x128, .f32⟩ : BufTy).Contents (Elt F)),
    reshape main_v51 main_v52 rfl shapeCasts_S1x128x128_S128x128 ]

/-- @main's operations 65 … 128 of 506 (window `main_part1`). -/
noncomputable abbrev ops1 : List (HloOp τ sig (Elt F)) :=
  [ binary main_v29 main_v52 main_v53 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)),
    binary main_v50 main_v53 main_v54 (addf : (⟨S160000x128, .f32⟩ : BufTy).Contents (Elt F) → (⟨S160000x128, .f32⟩ : BufTy).Contents (Elt F) → (⟨S160000x128, .f32⟩ : BufTy).Contents (Elt F)),
    unary main_arg17 main_v55 ((extractStridedSlice S1x128 ![0, 0] · slices_S6x128_S1x128_0_0) : (⟨S6x128, .f32⟩ : BufTy).Contents (Elt F) → (⟨S1x128, .f32⟩ : BufTy).Contents (Elt F)),
    reshape main_v55 main_v56 rfl shapeCasts_S1x128_S128,
    unary main_v56 main_v57 (broadcastInDim S1x128 ![1] bcast_S128_S1x128_1 : (⟨S128, .f32⟩ : BufTy).Contents (Elt F) → (⟨S1x128, .f32⟩ : BufTy).Contents (Elt F)),
    unary main_v57 main_v58 (broadcastInDim S160000x128 ![0, 1] bcast_S1x128_S160000x128_0_1 : (⟨S1x128, .f32⟩ : BufTy).Contents (Elt F) → (⟨S160000x128, .f32⟩ : BufTy).Contents (Elt F)),
    binary main_v54 main_v58 main_v59 (addf : (⟨S160000x128, .f32⟩ : BufTy).Contents (Elt F) → (⟨S160000x128, .f32⟩ : BufTy).Contents (Elt F) → (⟨S160000x128, .f32⟩ : BufTy).Contents (Elt F)),
    nullary main_call2_cst (constant S_ .f32 0x00000000#32),
    unary main_call2_cst main_call2_v0 (broadcastInDim S160000x128 ![] bcast_S_S160000x128 : (⟨S_, .f32⟩ : BufTy).Contents (Elt F) → (⟨S160000x128, .f32⟩ : BufTy).Contents (Elt F)),
    binary main_v59 main_call2_v0 main_v60 (maximumf : (⟨S160000x128, .f32⟩ : BufTy).Contents (Elt F) → (⟨S160000x128, .f32⟩ : BufTy).Contents (Elt F) → (⟨S160000x128, .f32⟩ : BufTy).Contents (Elt F)),
    unary main_arg18 main_v61 ((extractStridedSlice S1x128x128 ![0, 0, 0] · slices_S6x128x128_S1x128x128_0_0_0) : (⟨S6x128x128, .f32⟩ : BufTy).Contents (Elt F) → (⟨S1x128x128, .f32⟩ : BufTy).Contents (Elt F)),
    reshape main_v61 main_v62 rfl shapeCasts_S1x128x128_S128x128,
    binary main_v60 main_v62 main_v63 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)),
    unary main_arg19 main_v64 ((extractStridedSlice S1x128 ![0, 0] · slices_S6x128_S1x128_0_0) : (⟨S6x128, .f32⟩ : BufTy).Contents (Elt F) → (⟨S1x128, .f32⟩ : BufTy).Contents (Elt F)),
    reshape main_v64 main_v65 rfl shapeCasts_S1x128_S128,
    unary main_v65 main_v66 (broadcastInDim S1x128 ![1] bcast_S128_S1x128_1 : (⟨S128, .f32⟩ : BufTy).Contents (Elt F) → (⟨S1x128, .f32⟩ : BufTy).Contents (Elt F)),
    unary main_v66 main_v67 (broadcastInDim S160000x128 ![0, 1] bcast_S1x128_S160000x128_0_1 : (⟨S1x128, .f32⟩ : BufTy).Contents (Elt F) → (⟨S160000x128, .f32⟩ : BufTy).Contents (Elt F)),
    binary main_v63 main_v67 main_v68 (addf : (⟨S160000x128, .f32⟩ : BufTy).Contents (Elt F) → (⟨S160000x128, .f32⟩ : BufTy).Contents (Elt F) → (⟨S160000x128, .f32⟩ : BufTy).Contents (Elt F)),
    nullary main_cst (constant S_ .f32 0x00000000#32),
    unary main_cst main_v69 (broadcastInDim S20000x128 ![] bcast_S_S20000x128 : (⟨S_, .f32⟩ : BufTy).Contents (Elt F) → (⟨S20000x128, .f32⟩ : BufTy).Contents (Elt F)),
    unary main_v3 main_v70 (broadcastInDim S160000x1 ![0] bcast_S160000_S160000x1_0 : (⟨S160000, .i32⟩ : BufTy).Contents (Elt F) → (⟨S160000x1, .i32⟩ : BufTy).Contents (Elt F)),
    ternary main_v69 main_v70 main_v68 main_v71 ((fun x i u => Host.scatterAdd scatter_S20000x128_S160000x1_S160000x128_1_0_0_1 x i u) : (⟨S20000x128, .f32⟩ : BufTy).Contents (Elt F) → (⟨S160000x1, .i32⟩ : BufTy).Contents (Elt F) → (⟨S160000x128, .f32⟩ : BufTy).Contents (Elt F) → (⟨S20000x128, .f32⟩ : BufTy).Contents (Elt F)),
    unary main_arg20 main_v72 ((extractStridedSlice S1x128x128 ![0, 0, 0] · slices_S6x128x128_S1x128x128_0_0_0) : (⟨S6x128x128, .f32⟩ : BufTy).Contents (Elt F) → (⟨S1x128x128, .f32⟩ : BufTy).Contents (Elt F)),
    reshape main_v72 main_v73 rfl shapeCasts_S1x128x128_S128x128,
    binary main_v20 main_v73 main_v74 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg21 main_v75 ((extractStridedSlice S1x128x128 ![0, 0, 0] · slices_S6x128x128_S1x128x128_0_0_0) : (⟨S6x128x128, .f32⟩ : BufTy).Contents (Elt F) → (⟨S1x128x128, .f32⟩ : BufTy).Contents (Elt F)),
    reshape main_v75 main_v76 rfl shapeCasts_S1x128x128_S128x128,
    binary main_v71 main_v76 main_v77 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    binary main_v74 main_v77 main_v78 (addf : (⟨S20000x128, .f32⟩ : BufTy).Contents (Elt F) → (⟨S20000x128, .f32⟩ : BufTy).Contents (Elt F) → (⟨S20000x128, .f32⟩ : BufTy).Contents (Elt F)),
    unary main_arg22 main_v79 ((extractStridedSlice S1x128 ![0, 0] · slices_S6x128_S1x128_0_0) : (⟨S6x128, .f32⟩ : BufTy).Contents (Elt F) → (⟨S1x128, .f32⟩ : BufTy).Contents (Elt F)),
    reshape main_v79 main_v80 rfl shapeCasts_S1x128_S128,
    unary main_v80 main_v81 (broadcastInDim S1x128 ![1] bcast_S128_S1x128_1 : (⟨S128, .f32⟩ : BufTy).Contents (Elt F) → (⟨S1x128, .f32⟩ : BufTy).Contents (Elt F)),
    unary main_v81 main_v82 (broadcastInDim S20000x128 ![0, 1] bcast_S1x128_S20000x128_0_1 : (⟨S1x128, .f32⟩ : BufTy).Contents (Elt F) → (⟨S20000x128, .f32⟩ : BufTy).Contents (Elt F)),
    binary main_v78 main_v82 main_v83 (addf : (⟨S20000x128, .f32⟩ : BufTy).Contents (Elt F) → (⟨S20000x128, .f32⟩ : BufTy).Contents (Elt F) → (⟨S20000x128, .f32⟩ : BufTy).Contents (Elt F)),
    nullary main_call3_cst (constant S_ .f32 0x00000000#32),
    unary main_call3_cst main_call3_v0 (broadcastInDim S20000x128 ![] bcast_S_S20000x128 : (⟨S_, .f32⟩ : BufTy).Contents (Elt F) → (⟨S20000x128, .f32⟩ : BufTy).Contents (Elt F)),
    binary main_v83 main_call3_v0 main_v84 (maximumf : (⟨S20000x128, .f32⟩ : BufTy).Contents (Elt F) → (⟨S20000x128, .f32⟩ : BufTy).Contents (Elt F) → (⟨S20000x128, .f32⟩ : BufTy).Contents (Elt F)),
    unary main_arg23 main_v85 ((extractStridedSlice S1x128x128 ![0, 0, 0] · slices_S6x128x128_S1x128x128_0_0_0) : (⟨S6x128x128, .f32⟩ : BufTy).Contents (Elt F) → (⟨S1x128x128, .f32⟩ : BufTy).Contents (Elt F)),
    reshape main_v85 main_v86 rfl shapeCasts_S1x128x128_S128x128,
    binary main_v84 main_v86 main_v87 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg24 main_v88 ((extractStridedSlice S1x128 ![0, 0] · slices_S6x128_S1x128_0_0) : (⟨S6x128, .f32⟩ : BufTy).Contents (Elt F) → (⟨S1x128, .f32⟩ : BufTy).Contents (Elt F)),
    reshape main_v88 main_v89 rfl shapeCasts_S1x128_S128,
    unary main_v89 main_v90 (broadcastInDim S1x128 ![1] bcast_S128_S1x128_1 : (⟨S128, .f32⟩ : BufTy).Contents (Elt F) → (⟨S1x128, .f32⟩ : BufTy).Contents (Elt F)),
    unary main_v90 main_v91 (broadcastInDim S20000x128 ![0, 1] bcast_S1x128_S20000x128_0_1 : (⟨S1x128, .f32⟩ : BufTy).Contents (Elt F) → (⟨S20000x128, .f32⟩ : BufTy).Contents (Elt F)),
    binary main_v87 main_v91 main_v92 (addf : (⟨S20000x128, .f32⟩ : BufTy).Contents (Elt F) → (⟨S20000x128, .f32⟩ : BufTy).Contents (Elt F) → (⟨S20000x128, .f32⟩ : BufTy).Contents (Elt F)),
    binary main_v20 main_v92 main_v93 (addf : (⟨S20000x128, .f32⟩ : BufTy).Contents (Elt F) → (⟨S20000x128, .f32⟩ : BufTy).Contents (Elt F) → (⟨S20000x128, .f32⟩ : BufTy).Contents (Elt F)),
    unary main_arg14 main_v94 ((extractStridedSlice S1x128x128 ![1, 0, 0] · slices_S6x128x128_S1x128x128_1_0_0) : (⟨S6x128x128, .f32⟩ : BufTy).Contents (Elt F) → (⟨S1x128x128, .f32⟩ : BufTy).Contents (Elt F)),
    reshape main_v94 main_v95 rfl shapeCasts_S1x128x128_S128x128,
    binary main_v93 main_v95 main_v96 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg15 main_v97 ((extractStridedSlice S1x128x128 ![1, 0, 0] · slices_S6x128x128_S1x128x128_1_0_0) : (⟨S6x128x128, .f32⟩ : BufTy).Contents (Elt F) → (⟨S1x128x128, .f32⟩ : BufTy).Contents (Elt F)),
    reshape main_v97 main_v98 rfl shapeCasts_S1x128x128_S128x128,
    binary main_v93 main_v98 main_v99 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    nullary main_c_6 (constantI S_ 32 0#32),
    unary main_c_6 main_v100 (broadcastInDim S160000 ![] bcast_S_S160000 : (⟨S_, .i32⟩ : BufTy).Contents (Elt F) → (⟨S160000, .i32⟩ : BufTy).Contents (Elt F)),
    binary main_v1 main_v100 main_v101 (cmpi .slt : (⟨S160000, .i32⟩ : BufTy).Contents (Elt F) → (⟨S160000, .i32⟩ : BufTy).Contents (Elt F) → (⟨S160000, .i1⟩ : BufTy).Contents (Elt F)),
    nullary main_c_7 (constantI S_ 32 20000#32),
    unary main_c_7 main_v102 (broadcastInDim S160000 ![] bcast_S_S160000 : (⟨S_, .i32⟩ : BufTy).Contents (Elt F) → (⟨S160000, .i32⟩ : BufTy).Contents (Elt F)),
    binary main_v1 main_v102 main_v103 (addi : (⟨S160000, .i32⟩ : BufTy).Contents (Elt F) → (⟨S160000, .i32⟩ : BufTy).Contents (Elt F) → (⟨S160000, .i32⟩ : BufTy).Contents (Elt F)),
    ternary main_v101 main_v103 main_v1 main_v104 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v104 main_v105 (broadcastInDim S160000x1 ![0] bcast_S160000_S160000x1_0 : (⟨S160000, .i32⟩ : BufTy).Contents (Elt F) → (⟨S160000x1, .i32⟩ : BufTy).Contents (Elt F)),
    binary main_v96 main_v105 main_v106 ((fun x i => Host.gather gather_S20000x128_S160000x1_S160000x128_1_0_n_n_0_1_1128 x i) : (⟨S20000x128, .f32⟩ : BufTy).Contents (Elt F) → (⟨S160000x1, .i32⟩ : BufTy).Contents (Elt F) → (⟨S160000x128, .f32⟩ : BufTy).Contents (Elt F)),
    nullary main_c_8 (constantI S_ 32 0#32),
    unary main_c_8 main_v107 (broadcastInDim S160000 ![] bcast_S_S160000 : (⟨S_, .i32⟩ : BufTy).Contents (Elt F) → (⟨S160000, .i32⟩ : BufTy).Contents (Elt F)),
    binary main_v3 main_v107 main_v108 (cmpi .slt : (⟨S160000, .i32⟩ : BufTy).Contents (Elt F) → (⟨S160000, .i32⟩ : BufTy).Contents (Elt F) → (⟨S160000, .i1⟩ : BufTy).Contents (Elt F)) ]

/-- @main's operations 129 … 192 of 506 (window `main_part2`). -/
noncomputable abbrev ops2 : List (HloOp τ sig (Elt F)) :=
  [ nullary main_c_9 (constantI S_ 32 20000#32),
    unary main_c_9 main_v109 (broadcastInDim S160000 ![] bcast_S_S160000 : (⟨S_, .i32⟩ : BufTy).Contents (Elt F) → (⟨S160000, .i32⟩ : BufTy).Contents (Elt F)),
    binary main_v3 main_v109 main_v110 (addi : (⟨S160000, .i32⟩ : BufTy).Contents (Elt F) → (⟨S160000, .i32⟩ : BufTy).Contents (Elt F) → (⟨S160000, .i32⟩ : BufTy).Contents (Elt F)),
    ternary main_v108 main_v110 main_v3 main_v111 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v111 main_v112 (broadcastInDim S160000x1 ![0] bcast_S160000_S160000x1_0 : (⟨S160000, .i32⟩ : BufTy).Contents (Elt F) → (⟨S160000x1, .i32⟩ : BufTy).Contents (Elt F)),
    binary main_v99 main_v112 main_v113 ((fun x i => Host.gather gather_S20000x128_S160000x1_S160000x128_1_0_n_n_0_1_1128 x i) : (⟨S20000x128, .f32⟩ : BufTy).Contents (Elt F) → (⟨S160000x1, .i32⟩ : BufTy).Contents (Elt F) → (⟨S160000x128, .f32⟩ : BufTy).Contents (Elt F)),
    binary main_v106 main_v113 main_v114 (addf : (⟨S160000x128, .f32⟩ : BufTy).Contents (Elt F) → (⟨S160000x128, .f32⟩ : BufTy).Contents (Elt F) → (⟨S160000x128, .f32⟩ : BufTy).Contents (Elt F)),
    unary main_arg16 main_v115 ((extractStridedSlice S1x128x128 ![1, 0, 0] · slices_S6x128x128_S1x128x128_1_0_0) : (⟨S6x128x128, .f32⟩ : BufTy).Contents (Elt F) → (⟨S1x128x128, .f32⟩ : BufTy).Contents (Elt F)),
    reshape main_v115 main_v116 rfl shapeCasts_S1x128x128_S128x128,
    binary main_v29 main_v116 main_v117 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)),
    binary main_v114 main_v117 main_v118 (addf : (⟨S160000x128, .f32⟩ : BufTy).Contents (Elt F) → (⟨S160000x128, .f32⟩ : BufTy).Contents (Elt F) → (⟨S160000x128, .f32⟩ : BufTy).Contents (Elt F)),
    unary main_arg17 main_v119 ((extractStridedSlice S1x128 ![1, 0] · slices_S6x128_S1x128_1_0) : (⟨S6x128, .f32⟩ : BufTy).Contents (Elt F) → (⟨S1x128, .f32⟩ : BufTy).Contents (Elt F)),
    reshape main_v119 main_v120 rfl shapeCasts_S1x128_S128,
    unary main_v120 main_v121 (broadcastInDim S1x128 ![1] bcast_S128_S1x128_1 : (⟨S128, .f32⟩ : BufTy).Contents (Elt F) → (⟨S1x128, .f32⟩ : BufTy).Contents (Elt F)),
    unary main_v121 main_v122 (broadcastInDim S160000x128 ![0, 1] bcast_S1x128_S160000x128_0_1 : (⟨S1x128, .f32⟩ : BufTy).Contents (Elt F) → (⟨S160000x128, .f32⟩ : BufTy).Contents (Elt F)),
    binary main_v118 main_v122 main_v123 (addf : (⟨S160000x128, .f32⟩ : BufTy).Contents (Elt F) → (⟨S160000x128, .f32⟩ : BufTy).Contents (Elt F) → (⟨S160000x128, .f32⟩ : BufTy).Contents (Elt F)),
    nullary main_call4_cst (constant S_ .f32 0x00000000#32),
    unary main_call4_cst main_call4_v0 (broadcastInDim S160000x128 ![] bcast_S_S160000x128 : (⟨S_, .f32⟩ : BufTy).Contents (Elt F) → (⟨S160000x128, .f32⟩ : BufTy).Contents (Elt F)),
    binary main_v123 main_call4_v0 main_v124 (maximumf : (⟨S160000x128, .f32⟩ : BufTy).Contents (Elt F) → (⟨S160000x128, .f32⟩ : BufTy).Contents (Elt F) → (⟨S160000x128, .f32⟩ : BufTy).Contents (Elt F)),
    unary main_arg18 main_v125 ((extractStridedSlice S1x128x128 ![1, 0, 0] · slices_S6x128x128_S1x128x128_1_0_0) : (⟨S6x128x128, .f32⟩ : BufTy).Contents (Elt F) → (⟨S1x128x128, .f32⟩ : BufTy).Contents (Elt F)),
    reshape main_v125 main_v126 rfl shapeCasts_S1x128x128_S128x128,
    binary main_v124 main_v126 main_v127 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)),
    unary main_arg19 main_v128 ((extractStridedSlice S1x128 ![1, 0] · slices_S6x128_S1x128_1_0) : (⟨S6x128, .f32⟩ : BufTy).Contents (Elt F) → (⟨S1x128, .f32⟩ : BufTy).Contents (Elt F)),
    reshape main_v128 main_v129 rfl shapeCasts_S1x128_S128,
    unary main_v129 main_v130 (broadcastInDim S1x128 ![1] bcast_S128_S1x128_1 : (⟨S128, .f32⟩ : BufTy).Contents (Elt F) → (⟨S1x128, .f32⟩ : BufTy).Contents (Elt F)),
    unary main_v130 main_v131 (broadcastInDim S160000x128 ![0, 1] bcast_S1x128_S160000x128_0_1 : (⟨S1x128, .f32⟩ : BufTy).Contents (Elt F) → (⟨S160000x128, .f32⟩ : BufTy).Contents (Elt F)),
    binary main_v127 main_v131 main_v132 (addf : (⟨S160000x128, .f32⟩ : BufTy).Contents (Elt F) → (⟨S160000x128, .f32⟩ : BufTy).Contents (Elt F) → (⟨S160000x128, .f32⟩ : BufTy).Contents (Elt F)),
    nullary main_cst_10 (constant S_ .f32 0x00000000#32),
    unary main_cst_10 main_v133 (broadcastInDim S20000x128 ![] bcast_S_S20000x128 : (⟨S_, .f32⟩ : BufTy).Contents (Elt F) → (⟨S20000x128, .f32⟩ : BufTy).Contents (Elt F)),
    unary main_v3 main_v134 (broadcastInDim S160000x1 ![0] bcast_S160000_S160000x1_0 : (⟨S160000, .i32⟩ : BufTy).Contents (Elt F) → (⟨S160000x1, .i32⟩ : BufTy).Contents (Elt F)),
    ternary main_v133 main_v134 main_v132 main_v135 ((fun x i u => Host.scatterAdd scatter_S20000x128_S160000x1_S160000x128_1_0_0_1 x i u) : (⟨S20000x128, .f32⟩ : BufTy).Contents (Elt F) → (⟨S160000x1, .i32⟩ : BufTy).Contents (Elt F) → (⟨S160000x128, .f32⟩ : BufTy).Contents (Elt F) → (⟨S20000x128, .f32⟩ : BufTy).Contents (Elt F)),
    unary main_arg20 main_v136 ((extractStridedSlice S1x128x128 ![1, 0, 0] · slices_S6x128x128_S1x128x128_1_0_0) : (⟨S6x128x128, .f32⟩ : BufTy).Contents (Elt F) → (⟨S1x128x128, .f32⟩ : BufTy).Contents (Elt F)),
    reshape main_v136 main_v137 rfl shapeCasts_S1x128x128_S128x128,
    binary main_v93 main_v137 main_v138 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg21 main_v139 ((extractStridedSlice S1x128x128 ![1, 0, 0] · slices_S6x128x128_S1x128x128_1_0_0) : (⟨S6x128x128, .f32⟩ : BufTy).Contents (Elt F) → (⟨S1x128x128, .f32⟩ : BufTy).Contents (Elt F)),
    reshape main_v139 main_v140 rfl shapeCasts_S1x128x128_S128x128,
    binary main_v135 main_v140 main_v141 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    binary main_v138 main_v141 main_v142 (addf : (⟨S20000x128, .f32⟩ : BufTy).Contents (Elt F) → (⟨S20000x128, .f32⟩ : BufTy).Contents (Elt F) → (⟨S20000x128, .f32⟩ : BufTy).Contents (Elt F)),
    unary main_arg22 main_v143 ((extractStridedSlice S1x128 ![1, 0] · slices_S6x128_S1x128_1_0) : (⟨S6x128, .f32⟩ : BufTy).Contents (Elt F) → (⟨S1x128, .f32⟩ : BufTy).Contents (Elt F)),
    reshape main_v143 main_v144 rfl shapeCasts_S1x128_S128,
    unary main_v144 main_v145 (broadcastInDim S1x128 ![1] bcast_S128_S1x128_1 : (⟨S128, .f32⟩ : BufTy).Contents (Elt F) → (⟨S1x128, .f32⟩ : BufTy).Contents (Elt F)),
    unary main_v145 main_v146 (broadcastInDim S20000x128 ![0, 1] bcast_S1x128_S20000x128_0_1 : (⟨S1x128, .f32⟩ : BufTy).Contents (Elt F) → (⟨S20000x128, .f32⟩ : BufTy).Contents (Elt F)),
    binary main_v142 main_v146 main_v147 (addf : (⟨S20000x128, .f32⟩ : BufTy).Contents (Elt F) → (⟨S20000x128, .f32⟩ : BufTy).Contents (Elt F) → (⟨S20000x128, .f32⟩ : BufTy).Contents (Elt F)),
    nullary main_call5_cst (constant S_ .f32 0x00000000#32),
    unary main_call5_cst main_call5_v0 (broadcastInDim S20000x128 ![] bcast_S_S20000x128 : (⟨S_, .f32⟩ : BufTy).Contents (Elt F) → (⟨S20000x128, .f32⟩ : BufTy).Contents (Elt F)),
    binary main_v147 main_call5_v0 main_v148 (maximumf : (⟨S20000x128, .f32⟩ : BufTy).Contents (Elt F) → (⟨S20000x128, .f32⟩ : BufTy).Contents (Elt F) → (⟨S20000x128, .f32⟩ : BufTy).Contents (Elt F)),
    unary main_arg23 main_v149 ((extractStridedSlice S1x128x128 ![1, 0, 0] · slices_S6x128x128_S1x128x128_1_0_0) : (⟨S6x128x128, .f32⟩ : BufTy).Contents (Elt F) → (⟨S1x128x128, .f32⟩ : BufTy).Contents (Elt F)),
    reshape main_v149 main_v150 rfl shapeCasts_S1x128x128_S128x128,
    binary main_v148 main_v150 main_v151 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg24 main_v152 ((extractStridedSlice S1x128 ![1, 0] · slices_S6x128_S1x128_1_0) : (⟨S6x128, .f32⟩ : BufTy).Contents (Elt F) → (⟨S1x128, .f32⟩ : BufTy).Contents (Elt F)),
    reshape main_v152 main_v153 rfl shapeCasts_S1x128_S128,
    unary main_v153 main_v154 (broadcastInDim S1x128 ![1] bcast_S128_S1x128_1 : (⟨S128, .f32⟩ : BufTy).Contents (Elt F) → (⟨S1x128, .f32⟩ : BufTy).Contents (Elt F)),
    unary main_v154 main_v155 (broadcastInDim S20000x128 ![0, 1] bcast_S1x128_S20000x128_0_1 : (⟨S1x128, .f32⟩ : BufTy).Contents (Elt F) → (⟨S20000x128, .f32⟩ : BufTy).Contents (Elt F)),
    binary main_v151 main_v155 main_v156 (addf : (⟨S20000x128, .f32⟩ : BufTy).Contents (Elt F) → (⟨S20000x128, .f32⟩ : BufTy).Contents (Elt F) → (⟨S20000x128, .f32⟩ : BufTy).Contents (Elt F)),
    binary main_v93 main_v156 main_v157 (addf : (⟨S20000x128, .f32⟩ : BufTy).Contents (Elt F) → (⟨S20000x128, .f32⟩ : BufTy).Contents (Elt F) → (⟨S20000x128, .f32⟩ : BufTy).Contents (Elt F)),
    unary main_arg14 main_v158 ((extractStridedSlice S1x128x128 ![2, 0, 0] · slices_S6x128x128_S1x128x128_2_0_0) : (⟨S6x128x128, .f32⟩ : BufTy).Contents (Elt F) → (⟨S1x128x128, .f32⟩ : BufTy).Contents (Elt F)),
    reshape main_v158 main_v159 rfl shapeCasts_S1x128x128_S128x128,
    binary main_v157 main_v159 main_v160 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg15 main_v161 ((extractStridedSlice S1x128x128 ![2, 0, 0] · slices_S6x128x128_S1x128x128_2_0_0) : (⟨S6x128x128, .f32⟩ : BufTy).Contents (Elt F) → (⟨S1x128x128, .f32⟩ : BufTy).Contents (Elt F)),
    reshape main_v161 main_v162 rfl shapeCasts_S1x128x128_S128x128,
    binary main_v157 main_v162 main_v163 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    nullary main_c_11 (constantI S_ 32 0#32),
    unary main_c_11 main_v164 (broadcastInDim S160000 ![] bcast_S_S160000 : (⟨S_, .i32⟩ : BufTy).Contents (Elt F) → (⟨S160000, .i32⟩ : BufTy).Contents (Elt F)),
    binary main_v1 main_v164 main_v165 (cmpi .slt : (⟨S160000, .i32⟩ : BufTy).Contents (Elt F) → (⟨S160000, .i32⟩ : BufTy).Contents (Elt F) → (⟨S160000, .i1⟩ : BufTy).Contents (Elt F)) ]

/-- @main's operations 193 … 256 of 506 (window `main_part3`). -/
noncomputable abbrev ops3 : List (HloOp τ sig (Elt F)) :=
  [ nullary main_c_12 (constantI S_ 32 20000#32),
    unary main_c_12 main_v166 (broadcastInDim S160000 ![] bcast_S_S160000 : (⟨S_, .i32⟩ : BufTy).Contents (Elt F) → (⟨S160000, .i32⟩ : BufTy).Contents (Elt F)),
    binary main_v1 main_v166 main_v167 (addi : (⟨S160000, .i32⟩ : BufTy).Contents (Elt F) → (⟨S160000, .i32⟩ : BufTy).Contents (Elt F) → (⟨S160000, .i32⟩ : BufTy).Contents (Elt F)),
    ternary main_v165 main_v167 main_v1 main_v168 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v168 main_v169 (broadcastInDim S160000x1 ![0] bcast_S160000_S160000x1_0 : (⟨S160000, .i32⟩ : BufTy).Contents (Elt F) → (⟨S160000x1, .i32⟩ : BufTy).Contents (Elt F)),
    binary main_v160 main_v169 main_v170 ((fun x i => Host.gather gather_S20000x128_S160000x1_S160000x128_1_0_n_n_0_1_1128 x i) : (⟨S20000x128, .f32⟩ : BufTy).Contents (Elt F) → (⟨S160000x1, .i32⟩ : BufTy).Contents (Elt F) → (⟨S160000x128, .f32⟩ : BufTy).Contents (Elt F)),
    nullary main_c_13 (constantI S_ 32 0#32),
    unary main_c_13 main_v171 (broadcastInDim S160000 ![] bcast_S_S160000 : (⟨S_, .i32⟩ : BufTy).Contents (Elt F) → (⟨S160000, .i32⟩ : BufTy).Contents (Elt F)),
    binary main_v3 main_v171 main_v172 (cmpi .slt : (⟨S160000, .i32⟩ : BufTy).Contents (Elt F) → (⟨S160000, .i32⟩ : BufTy).Contents (Elt F) → (⟨S160000, .i1⟩ : BufTy).Contents (Elt F)),
    nullary main_c_14 (constantI S_ 32 20000#32),
    unary main_c_14 main_v173 (broadcastInDim S160000 ![] bcast_S_S160000 : (⟨S_, .i32⟩ : BufTy).Contents (Elt F) → (⟨S160000, .i32⟩ : BufTy).Contents (Elt F)),
    binary main_v3 main_v173 main_v174 (addi : (⟨S160000, .i32⟩ : BufTy).Contents (Elt F) → (⟨S160000, .i32⟩ : BufTy).Contents (Elt F) → (⟨S160000, .i32⟩ : BufTy).Contents (Elt F)),
    ternary main_v172 main_v174 main_v3 main_v175 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v175 main_v176 (broadcastInDim S160000x1 ![0] bcast_S160000_S160000x1_0 : (⟨S160000, .i32⟩ : BufTy).Contents (Elt F) → (⟨S160000x1, .i32⟩ : BufTy).Contents (Elt F)),
    binary main_v163 main_v176 main_v177 ((fun x i => Host.gather gather_S20000x128_S160000x1_S160000x128_1_0_n_n_0_1_1128 x i) : (⟨S20000x128, .f32⟩ : BufTy).Contents (Elt F) → (⟨S160000x1, .i32⟩ : BufTy).Contents (Elt F) → (⟨S160000x128, .f32⟩ : BufTy).Contents (Elt F)),
    binary main_v170 main_v177 main_v178 (addf : (⟨S160000x128, .f32⟩ : BufTy).Contents (Elt F) → (⟨S160000x128, .f32⟩ : BufTy).Contents (Elt F) → (⟨S160000x128, .f32⟩ : BufTy).Contents (Elt F)),
    unary main_arg16 main_v179 ((extractStridedSlice S1x128x128 ![2, 0, 0] · slices_S6x128x128_S1x128x128_2_0_0) : (⟨S6x128x128, .f32⟩ : BufTy).Contents (Elt F) → (⟨S1x128x128, .f32⟩ : BufTy).Contents (Elt F)),
    reshape main_v179 main_v180 rfl shapeCasts_S1x128x128_S128x128,
    binary main_v29 main_v180 main_v181 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)),
    binary main_v178 main_v181 main_v182 (addf : (⟨S160000x128, .f32⟩ : BufTy).Contents (Elt F) → (⟨S160000x128, .f32⟩ : BufTy).Contents (Elt F) → (⟨S160000x128, .f32⟩ : BufTy).Contents (Elt F)),
    unary main_arg17 main_v183 ((extractStridedSlice S1x128 ![2, 0] · slices_S6x128_S1x128_2_0) : (⟨S6x128, .f32⟩ : BufTy).Contents (Elt F) → (⟨S1x128, .f32⟩ : BufTy).Contents (Elt F)),
    reshape main_v183 main_v184 rfl shapeCasts_S1x128_S128,
    unary main_v184 main_v185 (broadcastInDim S1x128 ![1] bcast_S128_S1x128_1 : (⟨S128, .f32⟩ : BufTy).Contents (Elt F) → (⟨S1x128, .f32⟩ : BufTy).Contents (Elt F)),
    unary main_v185 main_v186 (broadcastInDim S160000x128 ![0, 1] bcast_S1x128_S160000x128_0_1 : (⟨S1x128, .f32⟩ : BufTy).Contents (Elt F) → (⟨S160000x128, .f32⟩ : BufTy).Contents (Elt F)),
    binary main_v182 main_v186 main_v187 (addf : (⟨S160000x128, .f32⟩ : BufTy).Contents (Elt F) → (⟨S160000x128, .f32⟩ : BufTy).Contents (Elt F) → (⟨S160000x128, .f32⟩ : BufTy).Contents (Elt F)),
    nullary main_call6_cst (constant S_ .f32 0x00000000#32),
    unary main_call6_cst main_call6_v0 (broadcastInDim S160000x128 ![] bcast_S_S160000x128 : (⟨S_, .f32⟩ : BufTy).Contents (Elt F) → (⟨S160000x128, .f32⟩ : BufTy).Contents (Elt F)),
    binary main_v187 main_call6_v0 main_v188 (maximumf : (⟨S160000x128, .f32⟩ : BufTy).Contents (Elt F) → (⟨S160000x128, .f32⟩ : BufTy).Contents (Elt F) → (⟨S160000x128, .f32⟩ : BufTy).Contents (Elt F)),
    unary main_arg18 main_v189 ((extractStridedSlice S1x128x128 ![2, 0, 0] · slices_S6x128x128_S1x128x128_2_0_0) : (⟨S6x128x128, .f32⟩ : BufTy).Contents (Elt F) → (⟨S1x128x128, .f32⟩ : BufTy).Contents (Elt F)),
    reshape main_v189 main_v190 rfl shapeCasts_S1x128x128_S128x128,
    binary main_v188 main_v190 main_v191 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)),
    unary main_arg19 main_v192 ((extractStridedSlice S1x128 ![2, 0] · slices_S6x128_S1x128_2_0) : (⟨S6x128, .f32⟩ : BufTy).Contents (Elt F) → (⟨S1x128, .f32⟩ : BufTy).Contents (Elt F)),
    reshape main_v192 main_v193 rfl shapeCasts_S1x128_S128,
    unary main_v193 main_v194 (broadcastInDim S1x128 ![1] bcast_S128_S1x128_1 : (⟨S128, .f32⟩ : BufTy).Contents (Elt F) → (⟨S1x128, .f32⟩ : BufTy).Contents (Elt F)),
    unary main_v194 main_v195 (broadcastInDim S160000x128 ![0, 1] bcast_S1x128_S160000x128_0_1 : (⟨S1x128, .f32⟩ : BufTy).Contents (Elt F) → (⟨S160000x128, .f32⟩ : BufTy).Contents (Elt F)),
    binary main_v191 main_v195 main_v196 (addf : (⟨S160000x128, .f32⟩ : BufTy).Contents (Elt F) → (⟨S160000x128, .f32⟩ : BufTy).Contents (Elt F) → (⟨S160000x128, .f32⟩ : BufTy).Contents (Elt F)),
    nullary main_cst_15 (constant S_ .f32 0x00000000#32),
    unary main_cst_15 main_v197 (broadcastInDim S20000x128 ![] bcast_S_S20000x128 : (⟨S_, .f32⟩ : BufTy).Contents (Elt F) → (⟨S20000x128, .f32⟩ : BufTy).Contents (Elt F)),
    unary main_v3 main_v198 (broadcastInDim S160000x1 ![0] bcast_S160000_S160000x1_0 : (⟨S160000, .i32⟩ : BufTy).Contents (Elt F) → (⟨S160000x1, .i32⟩ : BufTy).Contents (Elt F)),
    ternary main_v197 main_v198 main_v196 main_v199 ((fun x i u => Host.scatterAdd scatter_S20000x128_S160000x1_S160000x128_1_0_0_1 x i u) : (⟨S20000x128, .f32⟩ : BufTy).Contents (Elt F) → (⟨S160000x1, .i32⟩ : BufTy).Contents (Elt F) → (⟨S160000x128, .f32⟩ : BufTy).Contents (Elt F) → (⟨S20000x128, .f32⟩ : BufTy).Contents (Elt F)),
    unary main_arg20 main_v200 ((extractStridedSlice S1x128x128 ![2, 0, 0] · slices_S6x128x128_S1x128x128_2_0_0) : (⟨S6x128x128, .f32⟩ : BufTy).Contents (Elt F) → (⟨S1x128x128, .f32⟩ : BufTy).Contents (Elt F)),
    reshape main_v200 main_v201 rfl shapeCasts_S1x128x128_S128x128,
    binary main_v157 main_v201 main_v202 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg21 main_v203 ((extractStridedSlice S1x128x128 ![2, 0, 0] · slices_S6x128x128_S1x128x128_2_0_0) : (⟨S6x128x128, .f32⟩ : BufTy).Contents (Elt F) → (⟨S1x128x128, .f32⟩ : BufTy).Contents (Elt F)),
    reshape main_v203 main_v204 rfl shapeCasts_S1x128x128_S128x128,
    binary main_v199 main_v204 main_v205 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    binary main_v202 main_v205 main_v206 (addf : (⟨S20000x128, .f32⟩ : BufTy).Contents (Elt F) → (⟨S20000x128, .f32⟩ : BufTy).Contents (Elt F) → (⟨S20000x128, .f32⟩ : BufTy).Contents (Elt F)),
    unary main_arg22 main_v207 ((extractStridedSlice S1x128 ![2, 0] · slices_S6x128_S1x128_2_0) : (⟨S6x128, .f32⟩ : BufTy).Contents (Elt F) → (⟨S1x128, .f32⟩ : BufTy).Contents (Elt F)),
    reshape main_v207 main_v208 rfl shapeCasts_S1x128_S128,
    unary main_v208 main_v209 (broadcastInDim S1x128 ![1] bcast_S128_S1x128_1 : (⟨S128, .f32⟩ : BufTy).Contents (Elt F) → (⟨S1x128, .f32⟩ : BufTy).Contents (Elt F)),
    unary main_v209 main_v210 (broadcastInDim S20000x128 ![0, 1] bcast_S1x128_S20000x128_0_1 : (⟨S1x128, .f32⟩ : BufTy).Contents (Elt F) → (⟨S20000x128, .f32⟩ : BufTy).Contents (Elt F)),
    binary main_v206 main_v210 main_v211 (addf : (⟨S20000x128, .f32⟩ : BufTy).Contents (Elt F) → (⟨S20000x128, .f32⟩ : BufTy).Contents (Elt F) → (⟨S20000x128, .f32⟩ : BufTy).Contents (Elt F)),
    nullary main_call7_cst (constant S_ .f32 0x00000000#32),
    unary main_call7_cst main_call7_v0 (broadcastInDim S20000x128 ![] bcast_S_S20000x128 : (⟨S_, .f32⟩ : BufTy).Contents (Elt F) → (⟨S20000x128, .f32⟩ : BufTy).Contents (Elt F)),
    binary main_v211 main_call7_v0 main_v212 (maximumf : (⟨S20000x128, .f32⟩ : BufTy).Contents (Elt F) → (⟨S20000x128, .f32⟩ : BufTy).Contents (Elt F) → (⟨S20000x128, .f32⟩ : BufTy).Contents (Elt F)),
    unary main_arg23 main_v213 ((extractStridedSlice S1x128x128 ![2, 0, 0] · slices_S6x128x128_S1x128x128_2_0_0) : (⟨S6x128x128, .f32⟩ : BufTy).Contents (Elt F) → (⟨S1x128x128, .f32⟩ : BufTy).Contents (Elt F)),
    reshape main_v213 main_v214 rfl shapeCasts_S1x128x128_S128x128,
    binary main_v212 main_v214 main_v215 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg24 main_v216 ((extractStridedSlice S1x128 ![2, 0] · slices_S6x128_S1x128_2_0) : (⟨S6x128, .f32⟩ : BufTy).Contents (Elt F) → (⟨S1x128, .f32⟩ : BufTy).Contents (Elt F)),
    reshape main_v216 main_v217 rfl shapeCasts_S1x128_S128,
    unary main_v217 main_v218 (broadcastInDim S1x128 ![1] bcast_S128_S1x128_1 : (⟨S128, .f32⟩ : BufTy).Contents (Elt F) → (⟨S1x128, .f32⟩ : BufTy).Contents (Elt F)),
    unary main_v218 main_v219 (broadcastInDim S20000x128 ![0, 1] bcast_S1x128_S20000x128_0_1 : (⟨S1x128, .f32⟩ : BufTy).Contents (Elt F) → (⟨S20000x128, .f32⟩ : BufTy).Contents (Elt F)),
    binary main_v215 main_v219 main_v220 (addf : (⟨S20000x128, .f32⟩ : BufTy).Contents (Elt F) → (⟨S20000x128, .f32⟩ : BufTy).Contents (Elt F) → (⟨S20000x128, .f32⟩ : BufTy).Contents (Elt F)),
    binary main_v157 main_v220 main_v221 (addf : (⟨S20000x128, .f32⟩ : BufTy).Contents (Elt F) → (⟨S20000x128, .f32⟩ : BufTy).Contents (Elt F) → (⟨S20000x128, .f32⟩ : BufTy).Contents (Elt F)) ]

/-- @main's operations 257 … 320 of 506 (window `main_part4`). -/
noncomputable abbrev ops4 : List (HloOp τ sig (Elt F)) :=
  [ unary main_arg14 main_v222 ((extractStridedSlice S1x128x128 ![3, 0, 0] · slices_S6x128x128_S1x128x128_3_0_0) : (⟨S6x128x128, .f32⟩ : BufTy).Contents (Elt F) → (⟨S1x128x128, .f32⟩ : BufTy).Contents (Elt F)),
    reshape main_v222 main_v223 rfl shapeCasts_S1x128x128_S128x128,
    binary main_v221 main_v223 main_v224 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg15 main_v225 ((extractStridedSlice S1x128x128 ![3, 0, 0] · slices_S6x128x128_S1x128x128_3_0_0) : (⟨S6x128x128, .f32⟩ : BufTy).Contents (Elt F) → (⟨S1x128x128, .f32⟩ : BufTy).Contents (Elt F)),
    reshape main_v225 main_v226 rfl shapeCasts_S1x128x128_S128x128,
    binary main_v221 main_v226 main_v227 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    nullary main_c_16 (constantI S_ 32 0#32),
    unary main_c_16 main_v228 (broadcastInDim S160000 ![] bcast_S_S160000 : (⟨S_, .i32⟩ : BufTy).Contents (Elt F) → (⟨S160000, .i32⟩ : BufTy).Contents (Elt F)),
    binary main_v1 main_v228 main_v229 (cmpi .slt : (⟨S160000, .i32⟩ : BufTy).Contents (Elt F) → (⟨S160000, .i32⟩ : BufTy).Contents (Elt F) → (⟨S160000, .i1⟩ : BufTy).Contents (Elt F)),
    nullary main_c_17 (constantI S_ 32 20000#32),
    unary main_c_17 main_v230 (broadcastInDim S160000 ![] bcast_S_S160000 : (⟨S_, .i32⟩ : BufTy).Contents (Elt F) → (⟨S160000, .i32⟩ : BufTy).Contents (Elt F)),
    binary main_v1 main_v230 main_v231 (addi : (⟨S160000, .i32⟩ : BufTy).Contents (Elt F) → (⟨S160000, .i32⟩ : BufTy).Contents (Elt F) → (⟨S160000, .i32⟩ : BufTy).Contents (Elt F)),
    ternary main_v229 main_v231 main_v1 main_v232 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v232 main_v233 (broadcastInDim S160000x1 ![0] bcast_S160000_S160000x1_0 : (⟨S160000, .i32⟩ : BufTy).Contents (Elt F) → (⟨S160000x1, .i32⟩ : BufTy).Contents (Elt F)),
    binary main_v224 main_v233 main_v234 ((fun x i => Host.gather gather_S20000x128_S160000x1_S160000x128_1_0_n_n_0_1_1128 x i) : (⟨S20000x128, .f32⟩ : BufTy).Contents (Elt F) → (⟨S160000x1, .i32⟩ : BufTy).Contents (Elt F) → (⟨S160000x128, .f32⟩ : BufTy).Contents (Elt F)),
    nullary main_c_18 (constantI S_ 32 0#32),
    unary main_c_18 main_v235 (broadcastInDim S160000 ![] bcast_S_S160000 : (⟨S_, .i32⟩ : BufTy).Contents (Elt F) → (⟨S160000, .i32⟩ : BufTy).Contents (Elt F)),
    binary main_v3 main_v235 main_v236 (cmpi .slt : (⟨S160000, .i32⟩ : BufTy).Contents (Elt F) → (⟨S160000, .i32⟩ : BufTy).Contents (Elt F) → (⟨S160000, .i1⟩ : BufTy).Contents (Elt F)),
    nullary main_c_19 (constantI S_ 32 20000#32),
    unary main_c_19 main_v237 (broadcastInDim S160000 ![] bcast_S_S160000 : (⟨S_, .i32⟩ : BufTy).Contents (Elt F) → (⟨S160000, .i32⟩ : BufTy).Contents (Elt F)),
    binary main_v3 main_v237 main_v238 (addi : (⟨S160000, .i32⟩ : BufTy).Contents (Elt F) → (⟨S160000, .i32⟩ : BufTy).Contents (Elt F) → (⟨S160000, .i32⟩ : BufTy).Contents (Elt F)),
    ternary main_v236 main_v238 main_v3 main_v239 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v239 main_v240 (broadcastInDim S160000x1 ![0] bcast_S160000_S160000x1_0 : (⟨S160000, .i32⟩ : BufTy).Contents (Elt F) → (⟨S160000x1, .i32⟩ : BufTy).Contents (Elt F)),
    binary main_v227 main_v240 main_v241 ((fun x i => Host.gather gather_S20000x128_S160000x1_S160000x128_1_0_n_n_0_1_1128 x i) : (⟨S20000x128, .f32⟩ : BufTy).Contents (Elt F) → (⟨S160000x1, .i32⟩ : BufTy).Contents (Elt F) → (⟨S160000x128, .f32⟩ : BufTy).Contents (Elt F)),
    binary main_v234 main_v241 main_v242 (addf : (⟨S160000x128, .f32⟩ : BufTy).Contents (Elt F) → (⟨S160000x128, .f32⟩ : BufTy).Contents (Elt F) → (⟨S160000x128, .f32⟩ : BufTy).Contents (Elt F)),
    unary main_arg16 main_v243 ((extractStridedSlice S1x128x128 ![3, 0, 0] · slices_S6x128x128_S1x128x128_3_0_0) : (⟨S6x128x128, .f32⟩ : BufTy).Contents (Elt F) → (⟨S1x128x128, .f32⟩ : BufTy).Contents (Elt F)),
    reshape main_v243 main_v244 rfl shapeCasts_S1x128x128_S128x128,
    binary main_v29 main_v244 main_v245 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)),
    binary main_v242 main_v245 main_v246 (addf : (⟨S160000x128, .f32⟩ : BufTy).Contents (Elt F) → (⟨S160000x128, .f32⟩ : BufTy).Contents (Elt F) → (⟨S160000x128, .f32⟩ : BufTy).Contents (Elt F)),
    unary main_arg17 main_v247 ((extractStridedSlice S1x128 ![3, 0] · slices_S6x128_S1x128_3_0) : (⟨S6x128, .f32⟩ : BufTy).Contents (Elt F) → (⟨S1x128, .f32⟩ : BufTy).Contents (Elt F)),
    reshape main_v247 main_v248 rfl shapeCasts_S1x128_S128,
    unary main_v248 main_v249 (broadcastInDim S1x128 ![1] bcast_S128_S1x128_1 : (⟨S128, .f32⟩ : BufTy).Contents (Elt F) → (⟨S1x128, .f32⟩ : BufTy).Contents (Elt F)),
    unary main_v249 main_v250 (broadcastInDim S160000x128 ![0, 1] bcast_S1x128_S160000x128_0_1 : (⟨S1x128, .f32⟩ : BufTy).Contents (Elt F) → (⟨S160000x128, .f32⟩ : BufTy).Contents (Elt F)),
    binary main_v246 main_v250 main_v251 (addf : (⟨S160000x128, .f32⟩ : BufTy).Contents (Elt F) → (⟨S160000x128, .f32⟩ : BufTy).Contents (Elt F) → (⟨S160000x128, .f32⟩ : BufTy).Contents (Elt F)),
    nullary main_call8_cst (constant S_ .f32 0x00000000#32),
    unary main_call8_cst main_call8_v0 (broadcastInDim S160000x128 ![] bcast_S_S160000x128 : (⟨S_, .f32⟩ : BufTy).Contents (Elt F) → (⟨S160000x128, .f32⟩ : BufTy).Contents (Elt F)),
    binary main_v251 main_call8_v0 main_v252 (maximumf : (⟨S160000x128, .f32⟩ : BufTy).Contents (Elt F) → (⟨S160000x128, .f32⟩ : BufTy).Contents (Elt F) → (⟨S160000x128, .f32⟩ : BufTy).Contents (Elt F)),
    unary main_arg18 main_v253 ((extractStridedSlice S1x128x128 ![3, 0, 0] · slices_S6x128x128_S1x128x128_3_0_0) : (⟨S6x128x128, .f32⟩ : BufTy).Contents (Elt F) → (⟨S1x128x128, .f32⟩ : BufTy).Contents (Elt F)),
    reshape main_v253 main_v254 rfl shapeCasts_S1x128x128_S128x128,
    binary main_v252 main_v254 main_v255 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)),
    unary main_arg19 main_v256 ((extractStridedSlice S1x128 ![3, 0] · slices_S6x128_S1x128_3_0) : (⟨S6x128, .f32⟩ : BufTy).Contents (Elt F) → (⟨S1x128, .f32⟩ : BufTy).Contents (Elt F)),
    reshape main_v256 main_v257 rfl shapeCasts_S1x128_S128,
    unary main_v257 main_v258 (broadcastInDim S1x128 ![1] bcast_S128_S1x128_1 : (⟨S128, .f32⟩ : BufTy).Contents (Elt F) → (⟨S1x128, .f32⟩ : BufTy).Contents (Elt F)),
    unary main_v258 main_v259 (broadcastInDim S160000x128 ![0, 1] bcast_S1x128_S160000x128_0_1 : (⟨S1x128, .f32⟩ : BufTy).Contents (Elt F) → (⟨S160000x128, .f32⟩ : BufTy).Contents (Elt F)),
    binary main_v255 main_v259 main_v260 (addf : (⟨S160000x128, .f32⟩ : BufTy).Contents (Elt F) → (⟨S160000x128, .f32⟩ : BufTy).Contents (Elt F) → (⟨S160000x128, .f32⟩ : BufTy).Contents (Elt F)),
    nullary main_cst_20 (constant S_ .f32 0x00000000#32),
    unary main_cst_20 main_v261 (broadcastInDim S20000x128 ![] bcast_S_S20000x128 : (⟨S_, .f32⟩ : BufTy).Contents (Elt F) → (⟨S20000x128, .f32⟩ : BufTy).Contents (Elt F)),
    unary main_v3 main_v262 (broadcastInDim S160000x1 ![0] bcast_S160000_S160000x1_0 : (⟨S160000, .i32⟩ : BufTy).Contents (Elt F) → (⟨S160000x1, .i32⟩ : BufTy).Contents (Elt F)),
    ternary main_v261 main_v262 main_v260 main_v263 ((fun x i u => Host.scatterAdd scatter_S20000x128_S160000x1_S160000x128_1_0_0_1 x i u) : (⟨S20000x128, .f32⟩ : BufTy).Contents (Elt F) → (⟨S160000x1, .i32⟩ : BufTy).Contents (Elt F) → (⟨S160000x128, .f32⟩ : BufTy).Contents (Elt F) → (⟨S20000x128, .f32⟩ : BufTy).Contents (Elt F)),
    unary main_arg20 main_v264 ((extractStridedSlice S1x128x128 ![3, 0, 0] · slices_S6x128x128_S1x128x128_3_0_0) : (⟨S6x128x128, .f32⟩ : BufTy).Contents (Elt F) → (⟨S1x128x128, .f32⟩ : BufTy).Contents (Elt F)),
    reshape main_v264 main_v265 rfl shapeCasts_S1x128x128_S128x128,
    binary main_v221 main_v265 main_v266 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg21 main_v267 ((extractStridedSlice S1x128x128 ![3, 0, 0] · slices_S6x128x128_S1x128x128_3_0_0) : (⟨S6x128x128, .f32⟩ : BufTy).Contents (Elt F) → (⟨S1x128x128, .f32⟩ : BufTy).Contents (Elt F)),
    reshape main_v267 main_v268 rfl shapeCasts_S1x128x128_S128x128,
    binary main_v263 main_v268 main_v269 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    binary main_v266 main_v269 main_v270 (addf : (⟨S20000x128, .f32⟩ : BufTy).Contents (Elt F) → (⟨S20000x128, .f32⟩ : BufTy).Contents (Elt F) → (⟨S20000x128, .f32⟩ : BufTy).Contents (Elt F)),
    unary main_arg22 main_v271 ((extractStridedSlice S1x128 ![3, 0] · slices_S6x128_S1x128_3_0) : (⟨S6x128, .f32⟩ : BufTy).Contents (Elt F) → (⟨S1x128, .f32⟩ : BufTy).Contents (Elt F)),
    reshape main_v271 main_v272 rfl shapeCasts_S1x128_S128,
    unary main_v272 main_v273 (broadcastInDim S1x128 ![1] bcast_S128_S1x128_1 : (⟨S128, .f32⟩ : BufTy).Contents (Elt F) → (⟨S1x128, .f32⟩ : BufTy).Contents (Elt F)),
    unary main_v273 main_v274 (broadcastInDim S20000x128 ![0, 1] bcast_S1x128_S20000x128_0_1 : (⟨S1x128, .f32⟩ : BufTy).Contents (Elt F) → (⟨S20000x128, .f32⟩ : BufTy).Contents (Elt F)),
    binary main_v270 main_v274 main_v275 (addf : (⟨S20000x128, .f32⟩ : BufTy).Contents (Elt F) → (⟨S20000x128, .f32⟩ : BufTy).Contents (Elt F) → (⟨S20000x128, .f32⟩ : BufTy).Contents (Elt F)),
    nullary main_call9_cst (constant S_ .f32 0x00000000#32),
    unary main_call9_cst main_call9_v0 (broadcastInDim S20000x128 ![] bcast_S_S20000x128 : (⟨S_, .f32⟩ : BufTy).Contents (Elt F) → (⟨S20000x128, .f32⟩ : BufTy).Contents (Elt F)),
    binary main_v275 main_call9_v0 main_v276 (maximumf : (⟨S20000x128, .f32⟩ : BufTy).Contents (Elt F) → (⟨S20000x128, .f32⟩ : BufTy).Contents (Elt F) → (⟨S20000x128, .f32⟩ : BufTy).Contents (Elt F)) ]

/-- @main's operations 321 … 382 of 506 (window `main_part5`). -/
noncomputable abbrev ops5 : List (HloOp τ sig (Elt F)) :=
  [ unary main_arg23 main_v277 ((extractStridedSlice S1x128x128 ![3, 0, 0] · slices_S6x128x128_S1x128x128_3_0_0) : (⟨S6x128x128, .f32⟩ : BufTy).Contents (Elt F) → (⟨S1x128x128, .f32⟩ : BufTy).Contents (Elt F)),
    reshape main_v277 main_v278 rfl shapeCasts_S1x128x128_S128x128,
    binary main_v276 main_v278 main_v279 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg24 main_v280 ((extractStridedSlice S1x128 ![3, 0] · slices_S6x128_S1x128_3_0) : (⟨S6x128, .f32⟩ : BufTy).Contents (Elt F) → (⟨S1x128, .f32⟩ : BufTy).Contents (Elt F)),
    reshape main_v280 main_v281 rfl shapeCasts_S1x128_S128,
    unary main_v281 main_v282 (broadcastInDim S1x128 ![1] bcast_S128_S1x128_1 : (⟨S128, .f32⟩ : BufTy).Contents (Elt F) → (⟨S1x128, .f32⟩ : BufTy).Contents (Elt F)),
    unary main_v282 main_v283 (broadcastInDim S20000x128 ![0, 1] bcast_S1x128_S20000x128_0_1 : (⟨S1x128, .f32⟩ : BufTy).Contents (Elt F) → (⟨S20000x128, .f32⟩ : BufTy).Contents (Elt F)),
    binary main_v279 main_v283 main_v284 (addf : (⟨S20000x128, .f32⟩ : BufTy).Contents (Elt F) → (⟨S20000x128, .f32⟩ : BufTy).Contents (Elt F) → (⟨S20000x128, .f32⟩ : BufTy).Contents (Elt F)),
    binary main_v221 main_v284 main_v285 (addf : (⟨S20000x128, .f32⟩ : BufTy).Contents (Elt F) → (⟨S20000x128, .f32⟩ : BufTy).Contents (Elt F) → (⟨S20000x128, .f32⟩ : BufTy).Contents (Elt F)),
    unary main_arg14 main_v286 ((extractStridedSlice S1x128x128 ![4, 0, 0] · slices_S6x128x128_S1x128x128_4_0_0) : (⟨S6x128x128, .f32⟩ : BufTy).Contents (Elt F) → (⟨S1x128x128, .f32⟩ : BufTy).Contents (Elt F)),
    reshape main_v286 main_v287 rfl shapeCasts_S1x128x128_S128x128,
    binary main_v285 main_v287 main_v288 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg15 main_v289 ((extractStridedSlice S1x128x128 ![4, 0, 0] · slices_S6x128x128_S1x128x128_4_0_0) : (⟨S6x128x128, .f32⟩ : BufTy).Contents (Elt F) → (⟨S1x128x128, .f32⟩ : BufTy).Contents (Elt F)),
    reshape main_v289 main_v290 rfl shapeCasts_S1x128x128_S128x128,
    binary main_v285 main_v290 main_v291 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    nullary main_c_21 (constantI S_ 32 0#32),
    unary main_c_21 main_v292 (broadcastInDim S160000 ![] bcast_S_S160000 : (⟨S_, .i32⟩ : BufTy).Contents (Elt F) → (⟨S160000, .i32⟩ : BufTy).Contents (Elt F)),
    binary main_v1 main_v292 main_v293 (cmpi .slt : (⟨S160000, .i32⟩ : BufTy).Contents (Elt F) → (⟨S160000, .i32⟩ : BufTy).Contents (Elt F) → (⟨S160000, .i1⟩ : BufTy).Contents (Elt F)),
    nullary main_c_22 (constantI S_ 32 20000#32),
    unary main_c_22 main_v294 (broadcastInDim S160000 ![] bcast_S_S160000 : (⟨S_, .i32⟩ : BufTy).Contents (Elt F) → (⟨S160000, .i32⟩ : BufTy).Contents (Elt F)),
    binary main_v1 main_v294 main_v295 (addi : (⟨S160000, .i32⟩ : BufTy).Contents (Elt F) → (⟨S160000, .i32⟩ : BufTy).Contents (Elt F) → (⟨S160000, .i32⟩ : BufTy).Contents (Elt F)),
    ternary main_v293 main_v295 main_v1 main_v296 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v296 main_v297 (broadcastInDim S160000x1 ![0] bcast_S160000_S160000x1_0 : (⟨S160000, .i32⟩ : BufTy).Contents (Elt F) → (⟨S160000x1, .i32⟩ : BufTy).Contents (Elt F)),
    binary main_v288 main_v297 main_v298 ((fun x i => Host.gather gather_S20000x128_S160000x1_S160000x128_1_0_n_n_0_1_1128 x i) : (⟨S20000x128, .f32⟩ : BufTy).Contents (Elt F) → (⟨S160000x1, .i32⟩ : BufTy).Contents (Elt F) → (⟨S160000x128, .f32⟩ : BufTy).Contents (Elt F)),
    nullary main_c_23 (constantI S_ 32 0#32),
    unary main_c_23 main_v299 (broadcastInDim S160000 ![] bcast_S_S160000 : (⟨S_, .i32⟩ : BufTy).Contents (Elt F) → (⟨S160000, .i32⟩ : BufTy).Contents (Elt F)),
    binary main_v3 main_v299 main_v300 (cmpi .slt : (⟨S160000, .i32⟩ : BufTy).Contents (Elt F) → (⟨S160000, .i32⟩ : BufTy).Contents (Elt F) → (⟨S160000, .i1⟩ : BufTy).Contents (Elt F)),
    nullary main_c_24 (constantI S_ 32 20000#32),
    unary main_c_24 main_v301 (broadcastInDim S160000 ![] bcast_S_S160000 : (⟨S_, .i32⟩ : BufTy).Contents (Elt F) → (⟨S160000, .i32⟩ : BufTy).Contents (Elt F)),
    binary main_v3 main_v301 main_v302 (addi : (⟨S160000, .i32⟩ : BufTy).Contents (Elt F) → (⟨S160000, .i32⟩ : BufTy).Contents (Elt F) → (⟨S160000, .i32⟩ : BufTy).Contents (Elt F)),
    ternary main_v300 main_v302 main_v3 main_v303 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v303 main_v304 (broadcastInDim S160000x1 ![0] bcast_S160000_S160000x1_0 : (⟨S160000, .i32⟩ : BufTy).Contents (Elt F) → (⟨S160000x1, .i32⟩ : BufTy).Contents (Elt F)),
    binary main_v291 main_v304 main_v305 ((fun x i => Host.gather gather_S20000x128_S160000x1_S160000x128_1_0_n_n_0_1_1128 x i) : (⟨S20000x128, .f32⟩ : BufTy).Contents (Elt F) → (⟨S160000x1, .i32⟩ : BufTy).Contents (Elt F) → (⟨S160000x128, .f32⟩ : BufTy).Contents (Elt F)),
    binary main_v298 main_v305 main_v306 (addf : (⟨S160000x128, .f32⟩ : BufTy).Contents (Elt F) → (⟨S160000x128, .f32⟩ : BufTy).Contents (Elt F) → (⟨S160000x128, .f32⟩ : BufTy).Contents (Elt F)),
    unary main_arg16 main_v307 ((extractStridedSlice S1x128x128 ![4, 0, 0] · slices_S6x128x128_S1x128x128_4_0_0) : (⟨S6x128x128, .f32⟩ : BufTy).Contents (Elt F) → (⟨S1x128x128, .f32⟩ : BufTy).Contents (Elt F)),
    reshape main_v307 main_v308 rfl shapeCasts_S1x128x128_S128x128,
    binary main_v29 main_v308 main_v309 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)),
    binary main_v306 main_v309 main_v310 (addf : (⟨S160000x128, .f32⟩ : BufTy).Contents (Elt F) → (⟨S160000x128, .f32⟩ : BufTy).Contents (Elt F) → (⟨S160000x128, .f32⟩ : BufTy).Contents (Elt F)),
    unary main_arg17 main_v311 ((extractStridedSlice S1x128 ![4, 0] · slices_S6x128_S1x128_4_0) : (⟨S6x128, .f32⟩ : BufTy).Contents (Elt F) → (⟨S1x128, .f32⟩ : BufTy).Contents (Elt F)),
    reshape main_v311 main_v312 rfl shapeCasts_S1x128_S128,
    unary main_v312 main_v313 (broadcastInDim S1x128 ![1] bcast_S128_S1x128_1 : (⟨S128, .f32⟩ : BufTy).Contents (Elt F) → (⟨S1x128, .f32⟩ : BufTy).Contents (Elt F)),
    unary main_v313 main_v314 (broadcastInDim S160000x128 ![0, 1] bcast_S1x128_S160000x128_0_1 : (⟨S1x128, .f32⟩ : BufTy).Contents (Elt F) → (⟨S160000x128, .f32⟩ : BufTy).Contents (Elt F)),
    binary main_v310 main_v314 main_v315 (addf : (⟨S160000x128, .f32⟩ : BufTy).Contents (Elt F) → (⟨S160000x128, .f32⟩ : BufTy).Contents (Elt F) → (⟨S160000x128, .f32⟩ : BufTy).Contents (Elt F)),
    nullary main_call10_cst (constant S_ .f32 0x00000000#32),
    unary main_call10_cst main_call10_v0 (broadcastInDim S160000x128 ![] bcast_S_S160000x128 : (⟨S_, .f32⟩ : BufTy).Contents (Elt F) → (⟨S160000x128, .f32⟩ : BufTy).Contents (Elt F)),
    binary main_v315 main_call10_v0 main_v316 (maximumf : (⟨S160000x128, .f32⟩ : BufTy).Contents (Elt F) → (⟨S160000x128, .f32⟩ : BufTy).Contents (Elt F) → (⟨S160000x128, .f32⟩ : BufTy).Contents (Elt F)),
    unary main_arg18 main_v317 ((extractStridedSlice S1x128x128 ![4, 0, 0] · slices_S6x128x128_S1x128x128_4_0_0) : (⟨S6x128x128, .f32⟩ : BufTy).Contents (Elt F) → (⟨S1x128x128, .f32⟩ : BufTy).Contents (Elt F)),
    reshape main_v317 main_v318 rfl shapeCasts_S1x128x128_S128x128,
    binary main_v316 main_v318 main_v319 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)),
    unary main_arg19 main_v320 ((extractStridedSlice S1x128 ![4, 0] · slices_S6x128_S1x128_4_0) : (⟨S6x128, .f32⟩ : BufTy).Contents (Elt F) → (⟨S1x128, .f32⟩ : BufTy).Contents (Elt F)),
    reshape main_v320 main_v321 rfl shapeCasts_S1x128_S128,
    unary main_v321 main_v322 (broadcastInDim S1x128 ![1] bcast_S128_S1x128_1 : (⟨S128, .f32⟩ : BufTy).Contents (Elt F) → (⟨S1x128, .f32⟩ : BufTy).Contents (Elt F)),
    unary main_v322 main_v323 (broadcastInDim S160000x128 ![0, 1] bcast_S1x128_S160000x128_0_1 : (⟨S1x128, .f32⟩ : BufTy).Contents (Elt F) → (⟨S160000x128, .f32⟩ : BufTy).Contents (Elt F)),
    binary main_v319 main_v323 main_v324 (addf : (⟨S160000x128, .f32⟩ : BufTy).Contents (Elt F) → (⟨S160000x128, .f32⟩ : BufTy).Contents (Elt F) → (⟨S160000x128, .f32⟩ : BufTy).Contents (Elt F)),
    nullary main_cst_25 (constant S_ .f32 0x00000000#32),
    unary main_cst_25 main_v325 (broadcastInDim S20000x128 ![] bcast_S_S20000x128 : (⟨S_, .f32⟩ : BufTy).Contents (Elt F) → (⟨S20000x128, .f32⟩ : BufTy).Contents (Elt F)),
    unary main_v3 main_v326 (broadcastInDim S160000x1 ![0] bcast_S160000_S160000x1_0 : (⟨S160000, .i32⟩ : BufTy).Contents (Elt F) → (⟨S160000x1, .i32⟩ : BufTy).Contents (Elt F)),
    ternary main_v325 main_v326 main_v324 main_v327 ((fun x i u => Host.scatterAdd scatter_S20000x128_S160000x1_S160000x128_1_0_0_1 x i u) : (⟨S20000x128, .f32⟩ : BufTy).Contents (Elt F) → (⟨S160000x1, .i32⟩ : BufTy).Contents (Elt F) → (⟨S160000x128, .f32⟩ : BufTy).Contents (Elt F) → (⟨S20000x128, .f32⟩ : BufTy).Contents (Elt F)),
    unary main_arg20 main_v328 ((extractStridedSlice S1x128x128 ![4, 0, 0] · slices_S6x128x128_S1x128x128_4_0_0) : (⟨S6x128x128, .f32⟩ : BufTy).Contents (Elt F) → (⟨S1x128x128, .f32⟩ : BufTy).Contents (Elt F)),
    reshape main_v328 main_v329 rfl shapeCasts_S1x128x128_S128x128,
    binary main_v285 main_v329 main_v330 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg21 main_v331 ((extractStridedSlice S1x128x128 ![4, 0, 0] · slices_S6x128x128_S1x128x128_4_0_0) : (⟨S6x128x128, .f32⟩ : BufTy).Contents (Elt F) → (⟨S1x128x128, .f32⟩ : BufTy).Contents (Elt F)) ]

/-- @main's operations 383 … 446 of 506 (window `main_part6`). -/
noncomputable abbrev ops6 : List (HloOp τ sig (Elt F)) :=
  [ reshape main_v331 main_v332 rfl shapeCasts_S1x128x128_S128x128,
    binary main_v327 main_v332 main_v333 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    binary main_v330 main_v333 main_v334 (addf : (⟨S20000x128, .f32⟩ : BufTy).Contents (Elt F) → (⟨S20000x128, .f32⟩ : BufTy).Contents (Elt F) → (⟨S20000x128, .f32⟩ : BufTy).Contents (Elt F)),
    unary main_arg22 main_v335 ((extractStridedSlice S1x128 ![4, 0] · slices_S6x128_S1x128_4_0) : (⟨S6x128, .f32⟩ : BufTy).Contents (Elt F) → (⟨S1x128, .f32⟩ : BufTy).Contents (Elt F)),
    reshape main_v335 main_v336 rfl shapeCasts_S1x128_S128,
    unary main_v336 main_v337 (broadcastInDim S1x128 ![1] bcast_S128_S1x128_1 : (⟨S128, .f32⟩ : BufTy).Contents (Elt F) → (⟨S1x128, .f32⟩ : BufTy).Contents (Elt F)),
    unary main_v337 main_v338 (broadcastInDim S20000x128 ![0, 1] bcast_S1x128_S20000x128_0_1 : (⟨S1x128, .f32⟩ : BufTy).Contents (Elt F) → (⟨S20000x128, .f32⟩ : BufTy).Contents (Elt F)),
    binary main_v334 main_v338 main_v339 (addf : (⟨S20000x128, .f32⟩ : BufTy).Contents (Elt F) → (⟨S20000x128, .f32⟩ : BufTy).Contents (Elt F) → (⟨S20000x128, .f32⟩ : BufTy).Contents (Elt F)),
    nullary main_call11_cst (constant S_ .f32 0x00000000#32),
    unary main_call11_cst main_call11_v0 (broadcastInDim S20000x128 ![] bcast_S_S20000x128 : (⟨S_, .f32⟩ : BufTy).Contents (Elt F) → (⟨S20000x128, .f32⟩ : BufTy).Contents (Elt F)),
    binary main_v339 main_call11_v0 main_v340 (maximumf : (⟨S20000x128, .f32⟩ : BufTy).Contents (Elt F) → (⟨S20000x128, .f32⟩ : BufTy).Contents (Elt F) → (⟨S20000x128, .f32⟩ : BufTy).Contents (Elt F)),
    unary main_arg23 main_v341 ((extractStridedSlice S1x128x128 ![4, 0, 0] · slices_S6x128x128_S1x128x128_4_0_0) : (⟨S6x128x128, .f32⟩ : BufTy).Contents (Elt F) → (⟨S1x128x128, .f32⟩ : BufTy).Contents (Elt F)),
    reshape main_v341 main_v342 rfl shapeCasts_S1x128x128_S128x128,
    binary main_v340 main_v342 main_v343 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg24 main_v344 ((extractStridedSlice S1x128 ![4, 0] · slices_S6x128_S1x128_4_0) : (⟨S6x128, .f32⟩ : BufTy).Contents (Elt F) → (⟨S1x128, .f32⟩ : BufTy).Contents (Elt F)),
    reshape main_v344 main_v345 rfl shapeCasts_S1x128_S128,
    unary main_v345 main_v346 (broadcastInDim S1x128 ![1] bcast_S128_S1x128_1 : (⟨S128, .f32⟩ : BufTy).Contents (Elt F) → (⟨S1x128, .f32⟩ : BufTy).Contents (Elt F)),
    unary main_v346 main_v347 (broadcastInDim S20000x128 ![0, 1] bcast_S1x128_S20000x128_0_1 : (⟨S1x128, .f32⟩ : BufTy).Contents (Elt F) → (⟨S20000x128, .f32⟩ : BufTy).Contents (Elt F)),
    binary main_v343 main_v347 main_v348 (addf : (⟨S20000x128, .f32⟩ : BufTy).Contents (Elt F) → (⟨S20000x128, .f32⟩ : BufTy).Contents (Elt F) → (⟨S20000x128, .f32⟩ : BufTy).Contents (Elt F)),
    binary main_v285 main_v348 main_v349 (addf : (⟨S20000x128, .f32⟩ : BufTy).Contents (Elt F) → (⟨S20000x128, .f32⟩ : BufTy).Contents (Elt F) → (⟨S20000x128, .f32⟩ : BufTy).Contents (Elt F)),
    unary main_arg14 main_v350 ((extractStridedSlice S1x128x128 ![5, 0, 0] · slices_S6x128x128_S1x128x128_5_0_0) : (⟨S6x128x128, .f32⟩ : BufTy).Contents (Elt F) → (⟨S1x128x128, .f32⟩ : BufTy).Contents (Elt F)),
    reshape main_v350 main_v351 rfl shapeCasts_S1x128x128_S128x128,
    binary main_v349 main_v351 main_v352 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg15 main_v353 ((extractStridedSlice S1x128x128 ![5, 0, 0] · slices_S6x128x128_S1x128x128_5_0_0) : (⟨S6x128x128, .f32⟩ : BufTy).Contents (Elt F) → (⟨S1x128x128, .f32⟩ : BufTy).Contents (Elt F)),
    reshape main_v353 main_v354 rfl shapeCasts_S1x128x128_S128x128,
    binary main_v349 main_v354 main_v355 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    nullary main_c_26 (constantI S_ 32 0#32),
    unary main_c_26 main_v356 (broadcastInDim S160000 ![] bcast_S_S160000 : (⟨S_, .i32⟩ : BufTy).Contents (Elt F) → (⟨S160000, .i32⟩ : BufTy).Contents (Elt F)),
    binary main_v1 main_v356 main_v357 (cmpi .slt : (⟨S160000, .i32⟩ : BufTy).Contents (Elt F) → (⟨S160000, .i32⟩ : BufTy).Contents (Elt F) → (⟨S160000, .i1⟩ : BufTy).Contents (Elt F)),
    nullary main_c_27 (constantI S_ 32 20000#32),
    unary main_c_27 main_v358 (broadcastInDim S160000 ![] bcast_S_S160000 : (⟨S_, .i32⟩ : BufTy).Contents (Elt F) → (⟨S160000, .i32⟩ : BufTy).Contents (Elt F)),
    binary main_v1 main_v358 main_v359 (addi : (⟨S160000, .i32⟩ : BufTy).Contents (Elt F) → (⟨S160000, .i32⟩ : BufTy).Contents (Elt F) → (⟨S160000, .i32⟩ : BufTy).Contents (Elt F)),
    ternary main_v357 main_v359 main_v1 main_v360 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v360 main_v361 (broadcastInDim S160000x1 ![0] bcast_S160000_S160000x1_0 : (⟨S160000, .i32⟩ : BufTy).Contents (Elt F) → (⟨S160000x1, .i32⟩ : BufTy).Contents (Elt F)),
    binary main_v352 main_v361 main_v362 ((fun x i => Host.gather gather_S20000x128_S160000x1_S160000x128_1_0_n_n_0_1_1128 x i) : (⟨S20000x128, .f32⟩ : BufTy).Contents (Elt F) → (⟨S160000x1, .i32⟩ : BufTy).Contents (Elt F) → (⟨S160000x128, .f32⟩ : BufTy).Contents (Elt F)),
    nullary main_c_28 (constantI S_ 32 0#32),
    unary main_c_28 main_v363 (broadcastInDim S160000 ![] bcast_S_S160000 : (⟨S_, .i32⟩ : BufTy).Contents (Elt F) → (⟨S160000, .i32⟩ : BufTy).Contents (Elt F)),
    binary main_v3 main_v363 main_v364 (cmpi .slt : (⟨S160000, .i32⟩ : BufTy).Contents (Elt F) → (⟨S160000, .i32⟩ : BufTy).Contents (Elt F) → (⟨S160000, .i1⟩ : BufTy).Contents (Elt F)),
    nullary main_c_29 (constantI S_ 32 20000#32),
    unary main_c_29 main_v365 (broadcastInDim S160000 ![] bcast_S_S160000 : (⟨S_, .i32⟩ : BufTy).Contents (Elt F) → (⟨S160000, .i32⟩ : BufTy).Contents (Elt F)),
    binary main_v3 main_v365 main_v366 (addi : (⟨S160000, .i32⟩ : BufTy).Contents (Elt F) → (⟨S160000, .i32⟩ : BufTy).Contents (Elt F) → (⟨S160000, .i32⟩ : BufTy).Contents (Elt F)),
    ternary main_v364 main_v366 main_v3 main_v367 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v367 main_v368 (broadcastInDim S160000x1 ![0] bcast_S160000_S160000x1_0 : (⟨S160000, .i32⟩ : BufTy).Contents (Elt F) → (⟨S160000x1, .i32⟩ : BufTy).Contents (Elt F)),
    binary main_v355 main_v368 main_v369 ((fun x i => Host.gather gather_S20000x128_S160000x1_S160000x128_1_0_n_n_0_1_1128 x i) : (⟨S20000x128, .f32⟩ : BufTy).Contents (Elt F) → (⟨S160000x1, .i32⟩ : BufTy).Contents (Elt F) → (⟨S160000x128, .f32⟩ : BufTy).Contents (Elt F)),
    binary main_v362 main_v369 main_v370 (addf : (⟨S160000x128, .f32⟩ : BufTy).Contents (Elt F) → (⟨S160000x128, .f32⟩ : BufTy).Contents (Elt F) → (⟨S160000x128, .f32⟩ : BufTy).Contents (Elt F)),
    unary main_arg16 main_v371 ((extractStridedSlice S1x128x128 ![5, 0, 0] · slices_S6x128x128_S1x128x128_5_0_0) : (⟨S6x128x128, .f32⟩ : BufTy).Contents (Elt F) → (⟨S1x128x128, .f32⟩ : BufTy).Contents (Elt F)),
    reshape main_v371 main_v372 rfl shapeCasts_S1x128x128_S128x128,
    binary main_v29 main_v372 main_v373 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)),
    binary main_v370 main_v373 main_v374 (addf : (⟨S160000x128, .f32⟩ : BufTy).Contents (Elt F) → (⟨S160000x128, .f32⟩ : BufTy).Contents (Elt F) → (⟨S160000x128, .f32⟩ : BufTy).Contents (Elt F)),
    unary main_arg17 main_v375 ((extractStridedSlice S1x128 ![5, 0] · slices_S6x128_S1x128_5_0) : (⟨S6x128, .f32⟩ : BufTy).Contents (Elt F) → (⟨S1x128, .f32⟩ : BufTy).Contents (Elt F)),
    reshape main_v375 main_v376 rfl shapeCasts_S1x128_S128,
    unary main_v376 main_v377 (broadcastInDim S1x128 ![1] bcast_S128_S1x128_1 : (⟨S128, .f32⟩ : BufTy).Contents (Elt F) → (⟨S1x128, .f32⟩ : BufTy).Contents (Elt F)),
    unary main_v377 main_v378 (broadcastInDim S160000x128 ![0, 1] bcast_S1x128_S160000x128_0_1 : (⟨S1x128, .f32⟩ : BufTy).Contents (Elt F) → (⟨S160000x128, .f32⟩ : BufTy).Contents (Elt F)),
    binary main_v374 main_v378 main_v379 (addf : (⟨S160000x128, .f32⟩ : BufTy).Contents (Elt F) → (⟨S160000x128, .f32⟩ : BufTy).Contents (Elt F) → (⟨S160000x128, .f32⟩ : BufTy).Contents (Elt F)),
    nullary main_call12_cst (constant S_ .f32 0x00000000#32),
    unary main_call12_cst main_call12_v0 (broadcastInDim S160000x128 ![] bcast_S_S160000x128 : (⟨S_, .f32⟩ : BufTy).Contents (Elt F) → (⟨S160000x128, .f32⟩ : BufTy).Contents (Elt F)),
    binary main_v379 main_call12_v0 main_v380 (maximumf : (⟨S160000x128, .f32⟩ : BufTy).Contents (Elt F) → (⟨S160000x128, .f32⟩ : BufTy).Contents (Elt F) → (⟨S160000x128, .f32⟩ : BufTy).Contents (Elt F)),
    unary main_arg18 main_v381 ((extractStridedSlice S1x128x128 ![5, 0, 0] · slices_S6x128x128_S1x128x128_5_0_0) : (⟨S6x128x128, .f32⟩ : BufTy).Contents (Elt F) → (⟨S1x128x128, .f32⟩ : BufTy).Contents (Elt F)),
    reshape main_v381 main_v382 rfl shapeCasts_S1x128x128_S128x128,
    binary main_v380 main_v382 main_v383 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)),
    unary main_arg19 main_v384 ((extractStridedSlice S1x128 ![5, 0] · slices_S6x128_S1x128_5_0) : (⟨S6x128, .f32⟩ : BufTy).Contents (Elt F) → (⟨S1x128, .f32⟩ : BufTy).Contents (Elt F)),
    reshape main_v384 main_v385 rfl shapeCasts_S1x128_S128,
    unary main_v385 main_v386 (broadcastInDim S1x128 ![1] bcast_S128_S1x128_1 : (⟨S128, .f32⟩ : BufTy).Contents (Elt F) → (⟨S1x128, .f32⟩ : BufTy).Contents (Elt F)),
    unary main_v386 main_v387 (broadcastInDim S160000x128 ![0, 1] bcast_S1x128_S160000x128_0_1 : (⟨S1x128, .f32⟩ : BufTy).Contents (Elt F) → (⟨S160000x128, .f32⟩ : BufTy).Contents (Elt F)) ]

/-- @main's operations 447 … 506 of 506 (window `main_part7`). -/
noncomputable abbrev ops7 : List (HloOp τ sig (Elt F)) :=
  [ binary main_v383 main_v387 main_v388 (addf : (⟨S160000x128, .f32⟩ : BufTy).Contents (Elt F) → (⟨S160000x128, .f32⟩ : BufTy).Contents (Elt F) → (⟨S160000x128, .f32⟩ : BufTy).Contents (Elt F)),
    nullary main_cst_30 (constant S_ .f32 0x00000000#32),
    unary main_cst_30 main_v389 (broadcastInDim S20000x128 ![] bcast_S_S20000x128 : (⟨S_, .f32⟩ : BufTy).Contents (Elt F) → (⟨S20000x128, .f32⟩ : BufTy).Contents (Elt F)),
    unary main_v3 main_v390 (broadcastInDim S160000x1 ![0] bcast_S160000_S160000x1_0 : (⟨S160000, .i32⟩ : BufTy).Contents (Elt F) → (⟨S160000x1, .i32⟩ : BufTy).Contents (Elt F)),
    ternary main_v389 main_v390 main_v388 main_v391 ((fun x i u => Host.scatterAdd scatter_S20000x128_S160000x1_S160000x128_1_0_0_1 x i u) : (⟨S20000x128, .f32⟩ : BufTy).Contents (Elt F) → (⟨S160000x1, .i32⟩ : BufTy).Contents (Elt F) → (⟨S160000x128, .f32⟩ : BufTy).Contents (Elt F) → (⟨S20000x128, .f32⟩ : BufTy).Contents (Elt F)),
    unary main_arg20 main_v392 ((extractStridedSlice S1x128x128 ![5, 0, 0] · slices_S6x128x128_S1x128x128_5_0_0) : (⟨S6x128x128, .f32⟩ : BufTy).Contents (Elt F) → (⟨S1x128x128, .f32⟩ : BufTy).Contents (Elt F)),
    reshape main_v392 main_v393 rfl shapeCasts_S1x128x128_S128x128,
    binary main_v349 main_v393 main_v394 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg21 main_v395 ((extractStridedSlice S1x128x128 ![5, 0, 0] · slices_S6x128x128_S1x128x128_5_0_0) : (⟨S6x128x128, .f32⟩ : BufTy).Contents (Elt F) → (⟨S1x128x128, .f32⟩ : BufTy).Contents (Elt F)),
    reshape main_v395 main_v396 rfl shapeCasts_S1x128x128_S128x128,
    binary main_v391 main_v396 main_v397 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    binary main_v394 main_v397 main_v398 (addf : (⟨S20000x128, .f32⟩ : BufTy).Contents (Elt F) → (⟨S20000x128, .f32⟩ : BufTy).Contents (Elt F) → (⟨S20000x128, .f32⟩ : BufTy).Contents (Elt F)),
    unary main_arg22 main_v399 ((extractStridedSlice S1x128 ![5, 0] · slices_S6x128_S1x128_5_0) : (⟨S6x128, .f32⟩ : BufTy).Contents (Elt F) → (⟨S1x128, .f32⟩ : BufTy).Contents (Elt F)),
    reshape main_v399 main_v400 rfl shapeCasts_S1x128_S128,
    unary main_v400 main_v401 (broadcastInDim S1x128 ![1] bcast_S128_S1x128_1 : (⟨S128, .f32⟩ : BufTy).Contents (Elt F) → (⟨S1x128, .f32⟩ : BufTy).Contents (Elt F)),
    unary main_v401 main_v402 (broadcastInDim S20000x128 ![0, 1] bcast_S1x128_S20000x128_0_1 : (⟨S1x128, .f32⟩ : BufTy).Contents (Elt F) → (⟨S20000x128, .f32⟩ : BufTy).Contents (Elt F)),
    binary main_v398 main_v402 main_v403 (addf : (⟨S20000x128, .f32⟩ : BufTy).Contents (Elt F) → (⟨S20000x128, .f32⟩ : BufTy).Contents (Elt F) → (⟨S20000x128, .f32⟩ : BufTy).Contents (Elt F)),
    nullary main_call13_cst (constant S_ .f32 0x00000000#32),
    unary main_call13_cst main_call13_v0 (broadcastInDim S20000x128 ![] bcast_S_S20000x128 : (⟨S_, .f32⟩ : BufTy).Contents (Elt F) → (⟨S20000x128, .f32⟩ : BufTy).Contents (Elt F)),
    binary main_v403 main_call13_v0 main_v404 (maximumf : (⟨S20000x128, .f32⟩ : BufTy).Contents (Elt F) → (⟨S20000x128, .f32⟩ : BufTy).Contents (Elt F) → (⟨S20000x128, .f32⟩ : BufTy).Contents (Elt F)),
    unary main_arg23 main_v405 ((extractStridedSlice S1x128x128 ![5, 0, 0] · slices_S6x128x128_S1x128x128_5_0_0) : (⟨S6x128x128, .f32⟩ : BufTy).Contents (Elt F) → (⟨S1x128x128, .f32⟩ : BufTy).Contents (Elt F)),
    reshape main_v405 main_v406 rfl shapeCasts_S1x128x128_S128x128,
    binary main_v404 main_v406 main_v407 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg24 main_v408 ((extractStridedSlice S1x128 ![5, 0] · slices_S6x128_S1x128_5_0) : (⟨S6x128, .f32⟩ : BufTy).Contents (Elt F) → (⟨S1x128, .f32⟩ : BufTy).Contents (Elt F)),
    reshape main_v408 main_v409 rfl shapeCasts_S1x128_S128,
    unary main_v409 main_v410 (broadcastInDim S1x128 ![1] bcast_S128_S1x128_1 : (⟨S128, .f32⟩ : BufTy).Contents (Elt F) → (⟨S1x128, .f32⟩ : BufTy).Contents (Elt F)),
    unary main_v410 main_v411 (broadcastInDim S20000x128 ![0, 1] bcast_S1x128_S20000x128_0_1 : (⟨S1x128, .f32⟩ : BufTy).Contents (Elt F) → (⟨S20000x128, .f32⟩ : BufTy).Contents (Elt F)),
    binary main_v407 main_v411 main_v412 (addf : (⟨S20000x128, .f32⟩ : BufTy).Contents (Elt F) → (⟨S20000x128, .f32⟩ : BufTy).Contents (Elt F) → (⟨S20000x128, .f32⟩ : BufTy).Contents (Elt F)),
    binary main_v349 main_v412 main_v413 (addf : (⟨S20000x128, .f32⟩ : BufTy).Contents (Elt F) → (⟨S20000x128, .f32⟩ : BufTy).Contents (Elt F) → (⟨S20000x128, .f32⟩ : BufTy).Contents (Elt F)),
    binary main_v413 main_v10 main_v414 ((fun a b => concatenate S20000x130 1 [⟨S20000x128, a⟩, ⟨S20000x2, b⟩] concatenates_S20000x128_S20000x2_S20000x130_d1) : (⟨S20000x128, .f32⟩ : BufTy).Contents (Elt F) → (⟨S20000x2, .f32⟩ : BufTy).Contents (Elt F) → (⟨S20000x130, .f32⟩ : BufTy).Contents (Elt F)),
    binary main_v414 main_arg25 main_v415 ((fun l r => Host.dotGeneral dot_S20000x130_S130x128_S20000x128_1_0_0_1_n_n none l r) : (⟨S20000x130, .f32⟩ : BufTy).Contents (Elt F) → (⟨S130x128, .f32⟩ : BufTy).Contents (Elt F) → (⟨S20000x128, .f32⟩ : BufTy).Contents (Elt F)),
    unary main_arg26 main_v416 (broadcastInDim S1x128 ![1] bcast_S128_S1x128_1 : (⟨S128, .f32⟩ : BufTy).Contents (Elt F) → (⟨S1x128, .f32⟩ : BufTy).Contents (Elt F)),
    unary main_v416 main_v417 (broadcastInDim S20000x128 ![0, 1] bcast_S1x128_S20000x128_0_1 : (⟨S1x128, .f32⟩ : BufTy).Contents (Elt F) → (⟨S20000x128, .f32⟩ : BufTy).Contents (Elt F)),
    binary main_v415 main_v417 main_v418 (addf : (⟨S20000x128, .f32⟩ : BufTy).Contents (Elt F) → (⟨S20000x128, .f32⟩ : BufTy).Contents (Elt F) → (⟨S20000x128, .f32⟩ : BufTy).Contents (Elt F)),
    nullary main_call14_cst (constant S_ .f32 0x00000000#32),
    unary main_call14_cst main_call14_v0 (broadcastInDim S20000x128 ![] bcast_S_S20000x128 : (⟨S_, .f32⟩ : BufTy).Contents (Elt F) → (⟨S20000x128, .f32⟩ : BufTy).Contents (Elt F)),
    binary main_v418 main_call14_v0 main_v419 (maximumf : (⟨S20000x128, .f32⟩ : BufTy).Contents (Elt F) → (⟨S20000x128, .f32⟩ : BufTy).Contents (Elt F) → (⟨S20000x128, .f32⟩ : BufTy).Contents (Elt F)),
    binary main_v419 main_arg27 main_v420 ((fun l r => Host.dotGeneral dot_S20000x128_S128x64_S20000x64_1_0_0_1_n_n none l r) : (⟨S20000x128, .f32⟩ : BufTy).Contents (Elt F) → (⟨S128x64, .f32⟩ : BufTy).Contents (Elt F) → (⟨S20000x64, .f32⟩ : BufTy).Contents (Elt F)),
    unary main_arg28 main_v421 (broadcastInDim S1x64 ![1] bcast_S64_S1x64_1 : (⟨S64, .f32⟩ : BufTy).Contents (Elt F) → (⟨S1x64, .f32⟩ : BufTy).Contents (Elt F)),
    unary main_v421 main_v422 (broadcastInDim S20000x64 ![0, 1] bcast_S1x64_S20000x64_0_1 : (⟨S1x64, .f32⟩ : BufTy).Contents (Elt F) → (⟨S20000x64, .f32⟩ : BufTy).Contents (Elt F)),
    binary main_v420 main_v422 main_v423 (addf : (⟨S20000x64, .f32⟩ : BufTy).Contents (Elt F) → (⟨S20000x64, .f32⟩ : BufTy).Contents (Elt F) → (⟨S20000x64, .f32⟩ : BufTy).Contents (Elt F)),
    nullary main_call15_cst (constant S_ .f32 0x00000000#32),
    unary main_call15_cst main_call15_v0 (broadcastInDim S20000x64 ![] bcast_S_S20000x64 : (⟨S_, .f32⟩ : BufTy).Contents (Elt F) → (⟨S20000x64, .f32⟩ : BufTy).Contents (Elt F)),
    binary main_v423 main_call15_v0 main_v424 (maximumf : (⟨S20000x64, .f32⟩ : BufTy).Contents (Elt F) → (⟨S20000x64, .f32⟩ : BufTy).Contents (Elt F) → (⟨S20000x64, .f32⟩ : BufTy).Contents (Elt F)),
    binary main_v424 main_arg29 main_v425 ((fun l r => Host.dotGeneral dot_S20000x64_S64x3_S20000x3_1_0_0_1_n_n none l r) : (⟨S20000x64, .f32⟩ : BufTy).Contents (Elt F) → (⟨S64x3, .f32⟩ : BufTy).Contents (Elt F) → (⟨S20000x3, .f32⟩ : BufTy).Contents (Elt F)),
    unary main_arg30 main_v426 (broadcastInDim S1x3 ![1] bcast_S3_S1x3_1 : (⟨S3, .f32⟩ : BufTy).Contents (Elt F) → (⟨S1x3, .f32⟩ : BufTy).Contents (Elt F)),
    unary main_v426 main_v427 (broadcastInDim S20000x3 ![0, 1] bcast_S1x3_S20000x3_0_1 : (⟨S1x3, .f32⟩ : BufTy).Contents (Elt F) → (⟨S20000x3, .f32⟩ : BufTy).Contents (Elt F)),
    binary main_v425 main_v427 main_v428 (addf : (⟨S20000x3, .f32⟩ : BufTy).Contents (Elt F) → (⟨S20000x3, .f32⟩ : BufTy).Contents (Elt F) → (⟨S20000x3, .f32⟩ : BufTy).Contents (Elt F)),
    nullary main_cst_31 (constant S_ .f32 0x3F800000#32),
    unary main_cst_31 main_v429 (broadcastInDim S20000x1 ![] bcast_S_S20000x1 : (⟨S_, .f32⟩ : BufTy).Contents (Elt F) → (⟨S20000x1, .f32⟩ : BufTy).Contents (Elt F)),
    binary main_v429 main_arg3 main_v430 (subf : (⟨S20000x1, .f32⟩ : BufTy).Contents (Elt F) → (⟨S20000x1, .f32⟩ : BufTy).Contents (Elt F) → (⟨S20000x1, .f32⟩ : BufTy).Contents (Elt F)),
    nullary main_cst_32 (constant S_ .f32 0x3F800000#32),
    unary main_cst_32 main_v431 (broadcastInDim S20000x1 ![] bcast_S_S20000x1 : (⟨S_, .f32⟩ : BufTy).Contents (Elt F) → (⟨S20000x1, .f32⟩ : BufTy).Contents (Elt F)),
    binary main_v431 main_arg4 main_v432 (subf : (⟨S20000x1, .f32⟩ : BufTy).Contents (Elt F) → (⟨S20000x1, .f32⟩ : BufTy).Contents (Elt F) → (⟨S20000x1, .f32⟩ : BufTy).Contents (Elt F)),
    unary main_v428 main_v433 ((extractStridedSlice S20000x2 ![0, 0] · slices_S20000x3_S20000x2_0_0) : (⟨S20000x3, .f32⟩ : BufTy).Contents (Elt F) → (⟨S20000x2, .f32⟩ : BufTy).Contents (Elt F)),
    unary main_v430 main_v434 (broadcastInDim S20000x2 ![0, 1] bcast_S20000x1_S20000x2_0_1 : (⟨S20000x1, .f32⟩ : BufTy).Contents (Elt F) → (⟨S20000x2, .f32⟩ : BufTy).Contents (Elt F)),
    binary main_v433 main_v434 main_v435 (mulf : (⟨S20000x2, .f32⟩ : BufTy).Contents (Elt F) → (⟨S20000x2, .f32⟩ : BufTy).Contents (Elt F) → (⟨S20000x2, .f32⟩ : BufTy).Contents (Elt F)),
    unary main_v428 main_v436 ((extractStridedSlice S20000x1 ![0, 2] · slices_S20000x3_S20000x1_0_2) : (⟨S20000x3, .f32⟩ : BufTy).Contents (Elt F) → (⟨S20000x1, .f32⟩ : BufTy).Contents (Elt F)),
    binary main_v436 main_v432 main_v437 (mulf : (⟨S20000x1, .f32⟩ : BufTy).Contents (Elt F) → (⟨S20000x1, .f32⟩ : BufTy).Contents (Elt F) → (⟨S20000x1, .f32⟩ : BufTy).Contents (Elt F)),
    binary main_v435 main_v437 main_v438 ((fun a b => concatenate S20000x3 1 [⟨S20000x2, a⟩, ⟨S20000x1, b⟩] concatenates_S20000x2_S20000x1_S20000x3_d1) : (⟨S20000x2, .f32⟩ : BufTy).Contents (Elt F) → (⟨S20000x1, .f32⟩ : BufTy).Contents (Elt F) → (⟨S20000x3, .f32⟩ : BufTy).Contents (Elt F)) ]

/-- @main's 506 operations, in order: the windows' lists one after the other. -/
noncomputable abbrev ops : List (HloOp τ sig (Elt F)) :=
  ops0 ++ (ops1 ++ (ops2 ++ (ops3 ++ (ops4 ++ (ops5 ++ (ops6 ++ (ops7)))))))

set_option maxRecDepth 8192 in
/-- Every buffer an operation of window 0 names is a TensorCore buffer. -/
theorem ops0_sub : (ops0 : List (HloOp τ sig (Elt F))).Forall fun op => op.bufs ⊆ tcRefs τ sig :=
  ⟨nullary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., reshape_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub ..⟩

set_option maxRecDepth 8192 in
/-- Every buffer an operation of window 1 names is a TensorCore buffer. -/
theorem ops1_sub : (ops1 : List (HloOp τ sig (Elt F))).Forall fun op => op.bufs ⊆ tcRefs τ sig :=
  ⟨binary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., unary_bufs_sub .., reshape_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub ..⟩

set_option maxRecDepth 8192 in
/-- Every buffer an operation of window 2 names is a TensorCore buffer. -/
theorem ops2_sub : (ops2 : List (HloOp τ sig (Elt F))).Forall fun op => op.bufs ⊆ tcRefs τ sig :=
  ⟨nullary_bufs_sub .., unary_bufs_sub .., binary_bufs_sub .., ternary_bufs_sub .., unary_bufs_sub .., binary_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., unary_bufs_sub .., reshape_bufs_sub .., binary_bufs_sub .., unary_bufs_sub .., reshape_bufs_sub .., binary_bufs_sub .., nullary_bufs_sub .., unary_bufs_sub .., binary_bufs_sub ..⟩

set_option maxRecDepth 8192 in
/-- Every buffer an operation of window 3 names is a TensorCore buffer. -/
theorem ops3_sub : (ops3 : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub ..⟩

set_option maxRecDepth 8192 in
/-- Every buffer an operation of window 4 names is a TensorCore buffer. -/
theorem ops4_sub : (ops4 : List (HloOp τ sig (Elt F))).Forall fun op => op.bufs ⊆ tcRefs τ sig :=
  ⟨unary_bufs_sub .., reshape_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub ..⟩

set_option maxRecDepth 8192 in
/-- Every buffer an operation of window 5 names is a TensorCore buffer. -/
theorem ops5_sub : (ops5 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., binary_bufs_sub .., unary_bufs_sub .., reshape_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., unary_bufs_sub .., ternary_bufs_sub .., unary_bufs_sub .., reshape_bufs_sub .., binary_bufs_sub .., unary_bufs_sub ..⟩

set_option maxRecDepth 8192 in
/-- Every buffer an operation of window 6 names is a TensorCore buffer. -/
theorem ops6_sub : (ops6 : List (HloOp τ sig (Elt F))).Forall fun op => op.bufs ⊆ tcRefs τ sig :=
  ⟨reshape_bufs_sub .., binary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., unary_bufs_sub .., reshape_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub ..⟩

set_option maxRecDepth 8192 in
/-- Every buffer an operation of window 7 names is a TensorCore buffer. -/
theorem ops7_sub : (ops7 : List (HloOp τ sig (Elt F))).Forall fun op => op.bufs ⊆ tcRefs τ sig :=
  ⟨binary_bufs_sub .., nullary_bufs_sub .., unary_bufs_sub .., unary_bufs_sub .., ternary_bufs_sub .., unary_bufs_sub .., reshape_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., unary_bufs_sub .., binary_bufs_sub .., binary_bufs_sub ..⟩

end Cert.ReferenceIdeal.Hand

end
-- ==== Proof.Ref.Run.lean ====
/- The reference's run: @main is the straight line of its operations
   (window by window, a call's body in the call's place), so every weakly fair execution terminates with each
   buffer at the fold of the operations' results over the launch contents. -/
import proofs.«152161_j29669634081217_2_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## @main is the line of its operations

Each window is one chain of `hlo` steps once a callee's definition is unfolded at its call and sequencing is
reassociated; the windows run in order are their lists' concatenation (`seq_append`). -/

set_option maxRecDepth 8192 in
theorem main_part0_eq (c : Dev nD) : main_part0 (F := F) c = seq ops0 := by
  simp only [main_part0, fn_relu.body, fn_relu_0.body, fn_relu_1.body, seq, bind_assoc, pure_bind]
  rfl

set_option maxRecDepth 8192 in
theorem main_part1_eq (c : Dev nD) : main_part1 (F := F) c = seq ops1 := by
  simp only [main_part1, fn_relu.body, fn_relu_0.body, fn_relu_1.body, seq, bind_assoc, pure_bind]
  rfl

set_option maxRecDepth 8192 in
theorem main_part2_eq (c : Dev nD) : main_part2 (F := F) c = seq ops2 := by
  simp only [main_part2, fn_relu.body, fn_relu_0.body, fn_relu_1.body, seq, bind_assoc, pure_bind]
  rfl

set_option maxRecDepth 8192 in
theorem main_part3_eq (c : Dev nD) : main_part3 (F := F) c = seq ops3 := by
  simp only [main_part3, fn_relu.body, fn_relu_0.body, fn_relu_1.body, seq, bind_assoc, pure_bind]
  rfl

set_option maxRecDepth 8192 in
theorem main_part4_eq (c : Dev nD) : main_part4 (F := F) c = seq ops4 := by
  simp only [main_part4, fn_relu.body, fn_relu_0.body, fn_relu_1.body, seq, bind_assoc, pure_bind]
  rfl

set_option maxRecDepth 8192 in
theorem main_part5_eq (c : Dev nD) : main_part5 (F := F) c = seq ops5 := by
  simp only [main_part5, fn_relu.body, fn_relu_0.body, fn_relu_1.body, seq, bind_assoc, pure_bind]
  rfl

set_option maxRecDepth 8192 in
theorem main_part6_eq (c : Dev nD) : main_part6 (F := F) c = seq ops6 := by
  simp only [main_part6, fn_relu.body, fn_relu_0.body, fn_relu_1.body, seq, bind_assoc, pure_bind]
  rfl

set_option maxRecDepth 8192 in
theorem main_part7_eq (c : Dev nD) : main_part7 (F := F) c = seq ops7 := by
  simp only [main_part7, fn_relu.body, fn_relu_0.body, fn_relu_1.body, seq, bind_assoc, pure_bind]
  rfl

theorem main_eq (c : Dev nD) : main (F := F) c = seq ops := by
  simp only [ops, seq_append, ← main_part0_eq c, ← main_part1_eq c, ← main_part2_eq c, ← main_part3_eq c, ← main_part4_eq c, ← main_part5_eq c, ← main_part6_eq c, ← main_part7_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every buffer an operation names is a TensorCore buffer: window by window. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h, List.forall_iff_forall_mem.mp ops5_sub op h, List.forall_iff_forall_mem.mp ops6_sub op h, List.forall_iff_forall_mem.mp ops7_sub op h]

/-! Every operation determines what it writes (none allocates). -/

theorem ops0_fresh : ∀ op ∈ (ops0 : List (HloOp τ sig (Elt F))), op.fresh = ∅ := by
  intro _ h; (repeat (cases h with | head => rfl | tail _ h => ?_)); exact nomatch h

theorem ops1_fresh : ∀ op ∈ (ops1 : List (HloOp τ sig (Elt F))), op.fresh = ∅ := by
  intro _ h; (repeat (cases h with | head => rfl | tail _ h => ?_)); exact nomatch h

theorem ops2_fresh : ∀ op ∈ (ops2 : List (HloOp τ sig (Elt F))), op.fresh = ∅ := by
  intro _ h; (repeat (cases h with | head => rfl | tail _ h => ?_)); exact nomatch h

theorem ops3_fresh : ∀ op ∈ (ops3 : List (HloOp τ sig (Elt F))), op.fresh = ∅ := by
  intro _ h; (repeat (cases h with | head => rfl | tail _ h => ?_)); exact nomatch h

theorem ops4_fresh : ∀ op ∈ (ops4 : List (HloOp τ sig (Elt F))), op.fresh = ∅ := by
  intro _ h; (repeat (cases h with | head => rfl | tail _ h => ?_)); exact nomatch h

theorem ops5_fresh : ∀ op ∈ (ops5 : List (HloOp τ sig (Elt F))), op.fresh = ∅ := by
  intro _ h; (repeat (cases h with | head => rfl | tail _ h => ?_)); exact nomatch h

theorem ops6_fresh : ∀ op ∈ (ops6 : List (HloOp τ sig (Elt F))), op.fresh = ∅ := by
  intro _ h; (repeat (cases h with | head => rfl | tail _ h => ?_)); exact nomatch h

theorem ops7_fresh : ∀ op ∈ (ops7 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := fun op h => by
  simp only [ops, List.mem_append] at h
  rcases h with h | h | h | h | h | h | h | h
  exacts [ops0_fresh op h, ops1_fresh op h, ops2_fresh op h, ops3_fresh op h, ops4_fresh op h, ops5_fresh op h, ops6_fresh op h, ops7_fresh op h]

/-- On every device, for any float values, from any memory with zero counters: every weakly fair execution of
    @main terminates, and every final state has each TensorCore buffer at the fold of the operations' results
    over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.Hand

end
-- ==== Proof.Ref.Writes.lean ====
/- The buffer each operation of the reference's @main writes, in the operations' order, one list per window. -/
import proofs.«152161_j29669634081217_2_alg».proof.Proof.Ref.Ops

namespace Cert.ReferenceIdeal.Hand

open Cert.ReferenceIdeal Idealize.ShloMosaic

/-- What the operations of ops0 write, in order. -/
noncomputable abbrev ops0_W : List (Ref sig .tc) :=
  [ main_c, main_v0, main_v1, main_v2, main_v3, main_c_0, main_v4, main_v5,
    main_c_1, main_v6, main_v7, main_v8, main_v9, main_v10, main_v11, main_v12,
    main_v13, main_v14, main_v15, main_call0_cst, main_call0_v0, main_v16, main_v17, main_v18,
    main_v19, main_v20, main_v21, main_v22, main_v23, main_v24, main_call1_cst, main_call1_v0,
    main_v25, main_v26, main_v27, main_v28, main_v29, main_v30, main_v31, main_v32,
    main_v33, main_v34, main_v35, main_c_2, main_v36, main_v37, main_c_3, main_v38,
    main_v39, main_v40, main_v41, main_v42, main_c_4, main_v43, main_v44, main_c_5,
    main_v45, main_v46, main_v47, main_v48, main_v49, main_v50, main_v51, main_v52 ]

/-- What the operations of ops1 write, in order. -/
noncomputable abbrev ops1_W : List (Ref sig .tc) :=
  [ main_v53, main_v54, main_v55, main_v56, main_v57, main_v58, main_v59, main_call2_cst,
    main_call2_v0, main_v60, main_v61, main_v62, main_v63, main_v64, main_v65, main_v66,
    main_v67, main_v68, main_cst, main_v69, main_v70, main_v71, main_v72, main_v73,
    main_v74, main_v75, main_v76, main_v77, main_v78, main_v79, main_v80, main_v81,
    main_v82, main_v83, main_call3_cst, main_call3_v0, main_v84, main_v85, main_v86, main_v87,
    main_v88, main_v89, main_v90, main_v91, main_v92, main_v93, main_v94, main_v95,
    main_v96, main_v97, main_v98, main_v99, main_c_6, main_v100, main_v101, main_c_7,
    main_v102, main_v103, main_v104, main_v105, main_v106, main_c_8, main_v107, main_v108 ]

/-- What the operations of ops2 write, in order. -/
noncomputable abbrev ops2_W : List (Ref sig .tc) :=
  [ main_c_9, main_v109, main_v110, main_v111, main_v112, main_v113, main_v114, main_v115,
    main_v116, main_v117, main_v118, main_v119, main_v120, main_v121, main_v122, main_v123,
    main_call4_cst, main_call4_v0, main_v124, main_v125, main_v126, main_v127, main_v128, main_v129,
    main_v130, main_v131, main_v132, main_cst_10, main_v133, main_v134, main_v135, main_v136,
    main_v137, main_v138, main_v139, main_v140, main_v141, main_v142, main_v143, main_v144,
    main_v145, main_v146, main_v147, main_call5_cst, main_call5_v0, main_v148, main_v149, main_v150,
    main_v151, main_v152, main_v153, main_v154, main_v155, main_v156, main_v157, main_v158,
    main_v159, main_v160, main_v161, main_v162, main_v163, main_c_11, main_v164, main_v165 ]

/-- What the operations of ops3 write, in order. -/
noncomputable abbrev ops3_W : List (Ref sig .tc) :=
  [ main_c_12, main_v166, main_v167, main_v168, main_v169, main_v170, main_c_13, main_v171,
    main_v172, main_c_14, main_v173, main_v174, main_v175, main_v176, main_v177, main_v178,
    main_v179, main_v180, main_v181, main_v182, main_v183, main_v184, main_v185, main_v186,
    main_v187, main_call6_cst, main_call6_v0, main_v188, main_v189, main_v190, main_v191, main_v192,
    main_v193, main_v194, main_v195, main_v196, main_cst_15, main_v197, main_v198, main_v199,
    main_v200, main_v201, main_v202, main_v203, main_v204, main_v205, main_v206, main_v207,
    main_v208, main_v209, main_v210, main_v211, main_call7_cst, main_call7_v0, main_v212, main_v213,
    main_v214, main_v215, main_v216, main_v217, main_v218, main_v219, main_v220, main_v221 ]

/-- What the operations of ops4 write, in order. -/
noncomputable abbrev ops4_W : List (Ref sig .tc) :=
  [ main_v222, main_v223, main_v224, main_v225, main_v226, main_v227, main_c_16, main_v228,
    main_v229, main_c_17, main_v230, main_v231, main_v232, main_v233, main_v234, main_c_18,
    main_v235, main_v236, main_c_19, main_v237, main_v238, main_v239, main_v240, main_v241,
    main_v242, main_v243, main_v244, main_v245, main_v246, main_v247, main_v248, main_v249,
    main_v250, main_v251, main_call8_cst, main_call8_v0, main_v252, main_v253, main_v254, main_v255,
    main_v256, main_v257, main_v258, main_v259, main_v260, main_cst_20, main_v261, main_v262,
    main_v263, main_v264, main_v265, main_v266, main_v267, main_v268, main_v269, main_v270,
    main_v271, main_v272, main_v273, main_v274, main_v275, main_call9_cst, main_call9_v0, main_v276 ]

/-- What the operations of ops5 write, in order. -/
noncomputable abbrev ops5_W : List (Ref sig .tc) :=
  [ main_v277, main_v278, main_v279, main_v280, main_v281, main_v282, main_v283, main_v284,
    main_v285, main_v286, main_v287, main_v288, main_v289, main_v290, main_v291, main_c_21,
    main_v292, main_v293, main_c_22, main_v294, main_v295, main_v296, main_v297, main_v298,
    main_c_23, main_v299, main_v300, main_c_24, main_v301, main_v302, main_v303, main_v304,
    main_v305, main_v306, main_v307, main_v308, main_v309, main_v310, main_v311, main_v312,
    main_v313, main_v314, main_v315, main_call10_cst, main_call10_v0, main_v316, main_v317, main_v318,
    main_v319, main_v320, main_v321, main_v322, main_v323, main_v324, main_cst_25, main_v325,
    main_v326, main_v327, main_v328, main_v329, main_v330, main_v331 ]

/-- What the operations of ops6 write, in order. -/
noncomputable abbrev ops6_W : List (Ref sig .tc) :=
  [ main_v332, main_v333, main_v334, main_v335, main_v336, main_v337, main_v338, main_v339,
    main_call11_cst, main_call11_v0, main_v340, main_v341, main_v342, main_v343, main_v344, main_v345,
    main_v346, main_v347, main_v348, main_v349, main_v350, main_v351, main_v352, main_v353,
    main_v354, main_v355, main_c_26, main_v356, main_v357, main_c_27, main_v358, main_v359,
    main_v360, main_v361, main_v362, main_c_28, main_v363, main_v364, main_c_29, main_v365,
    main_v366, main_v367, main_v368, main_v369, main_v370, main_v371, main_v372, main_v373,
    main_v374, main_v375, main_v376, main_v377, main_v378, main_v379, main_call12_cst, main_call12_v0,
    main_v380, main_v381, main_v382, main_v383, main_v384, main_v385, main_v386, main_v387 ]

/-- What the operations of ops7 write, in order. -/
noncomputable abbrev ops7_W : List (Ref sig .tc) :=
  [ main_v388, main_cst_30, main_v389, main_v390, main_v391, main_v392, main_v393, main_v394,
    main_v395, main_v396, main_v397, main_v398, main_v399, main_v400, main_v401, main_v402,
    main_v403, main_call13_cst, main_call13_v0, main_v404, main_v405, main_v406, main_v407, main_v408,
    main_v409, main_v410, main_v411, main_v412, main_v413, main_v414, main_v415, main_v416,
    main_v417, main_v418, main_call14_cst, main_call14_v0, main_v419, main_v420, main_v421, main_v422,
    main_v423, main_call15_cst, main_call15_v0, main_v424, main_v425, main_v426, main_v427, main_v428,
    main_cst_31, main_v429, main_v430, main_cst_32, main_v431, main_v432, main_v433, main_v434,
    main_v435, main_v436, main_v437, main_v438 ]

end Cert.ReferenceIdeal.Hand
-- ==== Proof.Ref.Keep.lean ====
/- What the reference's operations write, and what follows for reading its run: each operation writes the one
   buffer tabulated for it, so a buffer keeps its contents through every operation after its own (before it, for
   an argument: through all of them), and the contents of a stage's result after @main are the stage's own
   operations run from the contents after the operations before them. The frame claim is the arguments' case. -/
import proofs.«152161_j29669634081217_2_alg».proof.Proof.Ref.Run
import proofs.«152161_j29669634081217_2_alg».proof.Proof.Ref.Writes
import proofs.«152161_j29669634081217_2_alg».proof.Proof.Gen.Pre_finite_inputs
import proofs.«152161_j29669634081217_2_alg».proof.Defs
import Mathlib.Data.List.Forall2

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Two lines in a row fold one after the other. -/
theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- The buffers @main's operations write, in the operations' order. -/
noncomputable abbrev opsW : List (Ref sig .tc) :=
  ops0_W ++ (ops1_W ++ (ops2_W ++ (ops3_W ++ (ops4_W ++ (ops5_W ++ (ops6_W ++ (ops7_W)))))))

/-- An operation writes exactly the one buffer `r`. -/
noncomputable abbrev WritesOne (op : HloOp τ sig (Elt F)) (r : Ref sig .tc) : Prop := op.writes = {Proc.devRef (τ := τ) .tc r}

/-- Each operation of a literal window writes the buffer tabulated at its place. -/
macro "writes_window" : tactic =>
  `(tactic| (repeat' (first | exact List.Forall₂.nil | apply List.Forall₂.cons)
             all_goals first
               | exact nullary_writes .. | exact unary_writes .. | exact binary_writes ..
               | exact ternary_writes .. | exact reshape_writes ..))

set_option maxRecDepth 8192 in
theorem ops0_writes : List.Forall₂ WritesOne (ops0 : List (HloOp τ sig (Elt F))) ops0_W := by
  writes_window

set_option maxRecDepth 8192 in
theorem ops1_writes : List.Forall₂ WritesOne (ops1 : List (HloOp τ sig (Elt F))) ops1_W := by
  writes_window

set_option maxRecDepth 8192 in
theorem ops2_writes : List.Forall₂ WritesOne (ops2 : List (HloOp τ sig (Elt F))) ops2_W := by
  writes_window

set_option maxRecDepth 8192 in
theorem ops3_writes : List.Forall₂ WritesOne (ops3 : List (HloOp τ sig (Elt F))) ops3_W := by
  writes_window

set_option maxRecDepth 8192 in
theorem ops4_writes : List.Forall₂ WritesOne (ops4 : List (HloOp τ sig (Elt F))) ops4_W := by
  writes_window

set_option maxRecDepth 8192 in
theorem ops5_writes : List.Forall₂ WritesOne (ops5 : List (HloOp τ sig (Elt F))) ops5_W := by
  writes_window

set_option maxRecDepth 8192 in
theorem ops6_writes : List.Forall₂ WritesOne (ops6 : List (HloOp τ sig (Elt F))) ops6_W := by
  writes_window

set_option maxRecDepth 8192 in
theorem ops7_writes : List.Forall₂ WritesOne (ops7 : List (HloOp τ sig (Elt F))) ops7_W := by
  writes_window

theorem ops_writes : List.Forall₂ WritesOne (ops : List (HloOp τ sig (Elt F))) opsW :=
  List.rel_append ops0_writes (List.rel_append ops1_writes (List.rel_append ops2_writes (List.rel_append ops3_writes (List.rel_append ops4_writes (List.rel_append ops5_writes (List.rel_append ops6_writes (ops7_writes)))))))

/-- A buffer outside the table of a line is written by no operation of the line. -/
theorem not_written {l : List (HloOp τ sig (Elt F))} {W : List (Ref sig .tc)} (h : List.Forall₂ WritesOne l W)
    {r : Ref sig .tc} (hr : r ∉ W) : ∀ op ∈ l, Proc.devRef (τ := τ) .tc r ∉ op.writes := by
  induction h with
  | nil => intro _ h; cases h
  | cons hab _ ih =>
    intro op hop
    rcases List.mem_cons.mp hop with rfl | hop
    · rw [hab, Finset.mem_singleton]
      intro he
      exact hr (List.mem_cons.mpr (Or.inl (Proc.devRef_injective _ he)))
    · exact ih (fun h' => hr (List.mem_cons_of_mem _ h')) op hop

/-- A buffer no operation from the `k`-th on writes holds after @main what it held after the first `k`. -/
theorem after_take (k : Nat) (V : Valuation τ sig (Elt F)) (x : Ref sig .tc) (hx : x ∉ opsW.drop k) :
    after (ops.take k) V (Proc.devRef .tc x) = after ops V (Proc.devRef .tc x) := by
  have h := congrArg (fun l => after l V (Proc.devRef .tc x)) (List.take_append_drop k (ops (F := F)))
  simp only [after_app] at h
  exact (after_of_forall_not_mem _ _ (not_written (List.forall₂_drop k ops_writes) hx)).symm.trans h

/-- A buffer no operation writes keeps its launch contents through @main. -/
theorem keep_all (V : Valuation τ sig (Elt F)) (r : Ref sig .tc) (h : r ∉ opsW) :
    after ops V (Proc.devRef .tc r) = V (Proc.devRef .tc r) :=
  after_of_forall_not_mem _ _ (not_written ops_writes h)

/-- A stage's result after @main: when the operations from the `k`-th are the stage's line `seg` and then
    operations that do not write `y`, `y` holds after @main what the stage's line leaves in it, run from the
    contents after the first `k` operations. -/
theorem after_stage (k n : Nat) (seg : List (HloOp τ sig (Elt F)))
    (hl : (ops : List (HloOp τ sig (Elt F))) = ops.take k ++ (seg ++ ops.drop (k + n)))
    (V : Valuation τ sig (Elt F)) (y : Ref sig .tc) (hy : y ∉ opsW.drop (k + n)) :
    after ops V (Proc.devRef .tc y) = after seg (after (ops.take k) V) (Proc.devRef .tc y) := by
  have h := congrArg (fun l => after l V (Proc.devRef .tc y)) hl
  simp only [after_app] at h
  exact h.trans (after_of_forall_not_mem _ _ (not_written (List.forall₂_drop (k + n) ops_writes) hy))

end Cert.ReferenceIdeal.Hand

/-! ## The frame claim -/

namespace Cert.Proof.RefClaims

open Cert.ReferenceIdeal Cert.ReferenceIdeal.Hand Idealize.ShloMosaic Idealize.ShloMosaic.TcCoe Idealize.SL.Sem Idealize.ShloMosaic.StableHlo

/-- The reference's frame: every execution of @main terminates with the 31 arguments unchanged (no operation
    writes one). -/
theorem frame_ri : Cert.frame_ReferenceIdeal := fun m ρ _ =>
  (θ_run Cert.ReferenceIdeal.defs _ _).mono (fun _ h c => by
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
    · exact (h c main_arg0).trans (keep_all _ _ (by decide))
    · exact (h c main_arg1).trans (keep_all _ _ (by decide))
    · exact (h c main_arg2).trans (keep_all _ _ (by decide))
    · exact (h c main_arg3).trans (keep_all _ _ (by decide))
    · exact (h c main_arg4).trans (keep_all _ _ (by decide))
    · exact (h c main_arg5).trans (keep_all _ _ (by decide))
    · exact (h c main_arg6).trans (keep_all _ _ (by decide))
    · exact (h c main_arg7).trans (keep_all _ _ (by decide))
    · exact (h c main_arg8).trans (keep_all _ _ (by decide))
    · exact (h c main_arg9).trans (keep_all _ _ (by decide))
    · exact (h c main_arg10).trans (keep_all _ _ (by decide))
    · exact (h c main_arg11).trans (keep_all _ _ (by decide))
    · exact (h c main_arg12).trans (keep_all _ _ (by decide))
    · exact (h c main_arg13).trans (keep_all _ _ (by decide))
    · exact (h c main_arg14).trans (keep_all _ _ (by decide))
    · exact (h c main_arg15).trans (keep_all _ _ (by decide))
    · exact (h c main_arg16).trans (keep_all _ _ (by decide))
    · exact (h c main_arg17).trans (keep_all _ _ (by decide))
    · exact (h c main_arg18).trans (keep_all _ _ (by decide))
    · exact (h c main_arg19).trans (keep_all _ _ (by decide))
    · exact (h c main_arg20).trans (keep_all _ _ (by decide))
    · exact (h c main_arg21).trans (keep_all _ _ (by decide))
    · exact (h c main_arg22).trans (keep_all _ _ (by decide))
    · exact (h c main_arg23).trans (keep_all _ _ (by decide))
    · exact (h c main_arg24).trans (keep_all _ _ (by decide))
    · exact (h c main_arg25).trans (keep_all _ _ (by decide))
    · exact (h c main_arg26).trans (keep_all _ _ (by decide))
    · exact (h c main_arg27).trans (keep_all _ _ (by decide))
    · exact (h c main_arg28).trans (keep_all _ _ (by decide))
    · exact (h c main_arg29).trans (keep_all _ _ (by decide))
    · exact (h c main_arg30).trans (keep_all _ _ (by decide)))
    (run_all (F := Ideal) m ρ)

end Cert.Proof.RefClaims

end
-- ==== Proof.Ref.Segs.lean ====
/- The reference's operations cut at the stages' ends: the same 506 entries as the windows' lists, in order,
   with the buffer each writes. -/
import proofs.«152161_j29669634081217_2_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 1 … 14 of 506. -/
noncomputable abbrev sg_idx : List (HloOp τ sig (Elt F)) :=
  [ nullary main_c (fun i => lit0 (S2.rowMajor i)),
    unary main_arg5 main_v0 ((extractStridedSlice S1x160000 ![0, 0] · slices_S2x160000_S1x160000_0_0) : (⟨S2x160000, .i32⟩ : BufTy).Contents (Elt F) → (⟨S1x160000, .i32⟩ : BufTy).Contents (Elt F)),
    reshape main_v0 main_v1 rfl shapeCasts_S1x160000_S160000,
    unary main_arg5 main_v2 ((extractStridedSlice S1x160000 ![1, 0] · slices_S2x160000_S1x160000_1_0) : (⟨S2x160000, .i32⟩ : BufTy).Contents (Elt F) → (⟨S1x160000, .i32⟩ : BufTy).Contents (Elt F)),
    reshape main_v2 main_v3 rfl shapeCasts_S1x160000_S160000,
    nullary main_c_0 (constantI S_ 32 0#32),
    unary main_c_0 main_v4 (broadcastInDim S2 ![] bcast_S_S2 : (⟨S_, .i32⟩ : BufTy).Contents (Elt F) → (⟨S2, .i32⟩ : BufTy).Contents (Elt F)),
    binary main_c main_v4 main_v5 (cmpi .slt : (⟨S2, .i32⟩ : BufTy).Contents (Elt F) → (⟨S2, .i32⟩ : BufTy).Contents (Elt F) → (⟨S2, .i1⟩ : BufTy).Contents (Elt F)),
    nullary main_c_1 (constantI S_ 32 3#32),
    unary main_c_1 main_v6 (broadcastInDim S2 ![] bcast_S_S2 : (⟨S_, .i32⟩ : BufTy).Contents (Elt F) → (⟨S2, .i32⟩ : BufTy).Contents (Elt F)),
    binary main_c main_v6 main_v7 (addi : (⟨S2, .i32⟩ : BufTy).Contents (Elt F) → (⟨S2, .i32⟩ : BufTy).Contents (Elt F) → (⟨S2, .i32⟩ : BufTy).Contents (Elt F)),
    ternary main_v5 main_v7 main_c main_v8 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    unary main_v8 main_v9 (broadcastInDim S2x1 ![0] bcast_S2_S2x1_0 : (⟨S2, .i32⟩ : BufTy).Contents (Elt F) → (⟨S2x1, .i32⟩ : BufTy).Contents (Elt F)),
    binary main_arg1 main_v9 main_v10 ((fun x i => Host.gather gather_S20000x3_S2x1_S20000x2_0_1_n_n_1_1_200001 x i) : (⟨S20000x3, .f32⟩ : BufTy).Contents (Elt F) → (⟨S2x1, .i32⟩ : BufTy).Contents (Elt F) → (⟨S20000x2, .f32⟩ : BufTy).Contents (Elt F)) ]
/-- What they write, in order. -/
noncomputable abbrev sw_idx : List (Ref sig .tc) :=
  [main_c, main_v0, main_v1, main_v2, main_v3, main_c_0, main_v4, main_v5, main_c_1, main_v6, main_v7, main_v8, main_v9, main_v10]

/-- Operations 15 … 26 of 506. -/
noncomputable abbrev sg_h0 : List (HloOp τ sig (Elt F)) :=
  [ unary main_arg0 main_v11 ((extractStridedSlice S20000x6 ![0, 3] · slices_S20000x9_S20000x6_0_3) : (⟨S20000x9, .f32⟩ : BufTy).Contents (Elt F) → (⟨S20000x6, .f32⟩ : BufTy).Contents (Elt F)),
    binary main_v11 main_arg6 main_v12 ((fun l r => Host.dotGeneral dot_S20000x6_S6x128_S20000x128_1_0_0_1_n_n none l r) : (⟨S20000x6, .f32⟩ : BufTy).Contents (Elt F) → (⟨S6x128, .f32⟩ : BufTy).Contents (Elt F) → (⟨S20000x128, .f32⟩ : BufTy).Contents (Elt F)),
    unary main_arg7 main_v13 (broadcastInDim S1x128 ![1] bcast_S128_S1x128_1 : (⟨S128, .f32⟩ : BufTy).Contents (Elt F) → (⟨S1x128, .f32⟩ : BufTy).Contents (Elt F)),
    unary main_v13 main_v14 (broadcastInDim S20000x128 ![0, 1] bcast_S1x128_S20000x128_0_1 : (⟨S1x128, .f32⟩ : BufTy).Contents (Elt F) → (⟨S20000x128, .f32⟩ : BufTy).Contents (Elt F)),
    binary main_v12 main_v14 main_v15 (addf : (⟨S20000x128, .f32⟩ : BufTy).Contents (Elt F) → (⟨S20000x128, .f32⟩ : BufTy).Contents (Elt F) → (⟨S20000x128, .f32⟩ : BufTy).Contents (Elt F)),
    nullary main_call0_cst (constant S_ .f32 0x00000000#32),
    unary main_call0_cst main_call0_v0 (broadcastInDim S20000x128 ![] bcast_S_S20000x128 : (⟨S_, .f32⟩ : BufTy).Contents (Elt F) → (⟨S20000x128, .f32⟩ : BufTy).Contents (Elt F)),
    binary main_v15 main_call0_v0 main_v16 (maximumf : (⟨S20000x128, .f32⟩ : BufTy).Contents (Elt F) → (⟨S20000x128, .f32⟩ : BufTy).Contents (Elt F) → (⟨S20000x128, .f32⟩ : BufTy).Contents (Elt F)),
    binary main_v16 main_arg8 main_v17 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg9 main_v18 (broadcastInDim S1x128 ![1] bcast_S128_S1x128_1 : (⟨S128, .f32⟩ : BufTy).Contents (Elt F) → (⟨S1x128, .f32⟩ : BufTy).Contents (Elt F)),
    unary main_v18 main_v19 (broadcastInDim S20000x128 ![0, 1] bcast_S1x128_S20000x128_0_1 : (⟨S1x128, .f32⟩ : BufTy).Contents (Elt F) → (⟨S20000x128, .f32⟩ : BufTy).Contents (Elt F)),
    binary main_v17 main_v19 main_v20 (addf : (⟨S20000x128, .f32⟩ : BufTy).Contents (Elt F) → (⟨S20000x128, .f32⟩ : BufTy).Contents (Elt F) → (⟨S20000x128, .f32⟩ : BufTy).Contents (Elt F)) ]
/-- What they write, in order. -/
noncomputable abbrev sw_h0 : List (Ref sig .tc) :=
  [main_v11, main_v12, main_v13, main_v14, main_v15, main_call0_cst, main_call0_v0, main_v16, main_v17, main_v18, main_v19, main_v20]

/-- Operations 27 … 37 of 506. -/
noncomputable abbrev sg_e0 : List (HloOp τ sig (Elt F)) :=
  [ binary main_arg2 main_arg10 main_v21 ((fun l r => Host.dotGeneral dot_S160000x10_S10x128_S160000x128_1_0_0_1_n_n none l r) : (⟨S160000x10, .f32⟩ : BufTy).Contents (Elt F) → (⟨S10x128, .f32⟩ : BufTy).Contents (Elt F) → (⟨S160000x128, .f32⟩ : BufTy).Contents (Elt F)),
    unary main_arg11 main_v22 (broadcastInDim S1x128 ![1] bcast_S128_S1x128_1 : (⟨S128, .f32⟩ : BufTy).Contents (Elt F) → (⟨S1x128, .f32⟩ : BufTy).Contents (Elt F)),
    unary main_v22 main_v23 (broadcastInDim S160000x128 ![0, 1] bcast_S1x128_S160000x128_0_1 : (⟨S1x128, .f32⟩ : BufTy).Contents (Elt F) → (⟨S160000x128, .f32⟩ : BufTy).Contents (Elt F)),
    binary main_v21 main_v23 main_v24 (addf : (⟨S160000x128, .f32⟩ : BufTy).Contents (Elt F) → (⟨S160000x128, .f32⟩ : BufTy).Contents (Elt F) → (⟨S160000x128, .f32⟩ : BufTy).Contents (Elt F)),
    nullary main_call1_cst (constant S_ .f32 0x00000000#32),
    unary main_call1_cst main_call1_v0 (broadcastInDim S160000x128 ![] bcast_S_S160000x128 : (⟨S_, .f32⟩ : BufTy).Contents (Elt F) → (⟨S160000x128, .f32⟩ : BufTy).Contents (Elt F)),
    binary main_v24 main_call1_v0 main_v25 (maximumf : (⟨S160000x128, .f32⟩ : BufTy).Contents (Elt F) → (⟨S160000x128, .f32⟩ : BufTy).Contents (Elt F) → (⟨S160000x128, .f32⟩ : BufTy).Contents (Elt F)),
    binary main_v25 main_arg12 main_v26 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)),
    unary main_arg13 main_v27 (broadcastInDim S1x128 ![1] bcast_S128_S1x128_1 : (⟨S128, .f32⟩ : BufTy).Contents (Elt F) → (⟨S1x128, .f32⟩ : BufTy).Contents (Elt F)),
    unary main_v27 main_v28 (broadcastInDim S160000x128 ![0, 1] bcast_S1x128_S160000x128_0_1 : (⟨S1x128, .f32⟩ : BufTy).Contents (Elt F) → (⟨S160000x128, .f32⟩ : BufTy).Contents (Elt F)),
    binary main_v26 main_v28 main_v29 (addf : (⟨S160000x128, .f32⟩ : BufTy).Contents (Elt F) → (⟨S160000x128, .f32⟩ : BufTy).Contents (Elt F) → (⟨S160000x128, .f32⟩ : BufTy).Contents (Elt F)) ]
/-- What they write, in order. -/
noncomputable abbrev sw_e0 : List (Ref sig .tc) :=
  [main_v21, main_v22, main_v23, main_v24, main_call1_cst, main_call1_v0, main_v25, main_v26, main_v27, main_v28, main_v29]

/-- Operations 38 … 40 of 506. -/
noncomputable abbrev sg_a0 : List (HloOp τ sig (Elt F)) :=
  [ unary main_arg14 main_v30 ((extractStridedSlice S1x128x128 ![0, 0, 0] · slices_S6x128x128_S1x128x128_0_0_0) : (⟨S6x128x128, .f32⟩ : BufTy).Contents (Elt F) → (⟨S1x128x128, .f32⟩ : BufTy).Contents (Elt F)),
    reshape main_v30 main_v31 rfl shapeCasts_S1x128x128_S128x128,
    binary main_v20 main_v31 main_v32 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)) ]
/-- What they write, in order. -/
noncomputable abbrev sw_a0 : List (Ref sig .tc) :=
  [main_v30, main_v31, main_v32]

/-- Operations 41 … 43 of 506. -/
noncomputable abbrev sg_b0 : List (HloOp τ sig (Elt F)) :=
  [ unary main_arg15 main_v33 ((extractStridedSlice S1x128x128 ![0, 0, 0] · slices_S6x128x128_S1x128x128_0_0_0) : (⟨S6x128x128, .f32⟩ : BufTy).Contents (Elt F) → (⟨S1x128x128, .f32⟩ : BufTy).Contents (Elt F)),
    reshape main_v33 main_v34 rfl shapeCasts_S1x128x128_S128x128,
    binary main_v20 main_v34 main_v35 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)) ]
/-- What they write, in order. -/
noncomputable abbrev sw_b0 : List (Ref sig .tc) :=
  [main_v33, main_v34, main_v35]

/-- Operations 44 … 52 of 506. -/
noncomputable abbrev sg_asrc0 : List (HloOp τ sig (Elt F)) :=
  [ nullary main_c_2 (constantI S_ 32 0#32),
    unary main_c_2 main_v36 (broadcastInDim S160000 ![] bcast_S_S160000 : (⟨S_, .i32⟩ : BufTy).Contents (Elt F) → (⟨S160000, .i32⟩ : BufTy).Contents (Elt F)),
    binary main_v1 main_v36 main_v37 (cmpi .slt : (⟨S160000, .i32⟩ : BufTy).Contents (Elt F) → (⟨S160000, .i32⟩ : BufTy).Contents (Elt F) → (⟨S160000, .i1⟩ : BufTy).Contents (Elt F)),
    nullary main_c_3 (constantI S_ 32 20000#32),
    unary main_c_3 main_v38 (broadcastInDim S160000 ![] bcast_S_S160000 : (⟨S_, .i32⟩ : BufTy).Contents (Elt F) → (⟨S160000, .i32⟩ : BufTy).Contents (Elt F)),
    binary main_v1 main_v38 main_v39 (addi : (⟨S160000, .i32⟩ : BufTy).Contents (Elt F) → (⟨S160000, .i32⟩ : BufTy).Contents (Elt F) → (⟨S160000, .i32⟩ : BufTy).Contents (Elt F)),
    ternary main_v37 main_v39 main_v1 main_v40 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v40 main_v41 (broadcastInDim S160000x1 ![0] bcast_S160000_S160000x1_0 : (⟨S160000, .i32⟩ : BufTy).Contents (Elt F) → (⟨S160000x1, .i32⟩ : BufTy).Contents (Elt F)),
    binary main_v32 main_v41 main_v42 ((fun x i => Host.gather gather_S20000x128_S160000x1_S160000x128_1_0_n_n_0_1_1128 x i) : (⟨S20000x128, .f32⟩ : BufTy).Contents (Elt F) → (⟨S160000x1, .i32⟩ : BufTy).Contents (Elt F) → (⟨S160000x128, .f32⟩ : BufTy).Contents (Elt F)) ]
/-- What they write, in order. -/
noncomputable abbrev sw_asrc0 : List (Ref sig .tc) :=
  [main_c_2, main_v36, main_v37, main_c_3, main_v38, main_v39, main_v40, main_v41, main_v42]

/-- Operations 53 … 61 of 506. -/
noncomputable abbrev sg_bdst0 : List (HloOp τ sig (Elt F)) :=
  [ nullary main_c_4 (constantI S_ 32 0#32),
    unary main_c_4 main_v43 (broadcastInDim S160000 ![] bcast_S_S160000 : (⟨S_, .i32⟩ : BufTy).Contents (Elt F) → (⟨S160000, .i32⟩ : BufTy).Contents (Elt F)),
    binary main_v3 main_v43 main_v44 (cmpi .slt : (⟨S160000, .i32⟩ : BufTy).Contents (Elt F) → (⟨S160000, .i32⟩ : BufTy).Contents (Elt F) → (⟨S160000, .i1⟩ : BufTy).Contents (Elt F)),
    nullary main_c_5 (constantI S_ 32 20000#32),
    unary main_c_5 main_v45 (broadcastInDim S160000 ![] bcast_S_S160000 : (⟨S_, .i32⟩ : BufTy).Contents (Elt F) → (⟨S160000, .i32⟩ : BufTy).Contents (Elt F)),
    binary main_v3 main_v45 main_v46 (addi : (⟨S160000, .i32⟩ : BufTy).Contents (Elt F) → (⟨S160000, .i32⟩ : BufTy).Contents (Elt F) → (⟨S160000, .i32⟩ : BufTy).Contents (Elt F)),
    ternary main_v44 main_v46 main_v3 main_v47 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v47 main_v48 (broadcastInDim S160000x1 ![0] bcast_S160000_S160000x1_0 : (⟨S160000, .i32⟩ : BufTy).Contents (Elt F) → (⟨S160000x1, .i32⟩ : BufTy).Contents (Elt F)),
    binary main_v35 main_v48 main_v49 ((fun x i => Host.gather gather_S20000x128_S160000x1_S160000x128_1_0_n_n_0_1_1128 x i) : (⟨S20000x128, .f32⟩ : BufTy).Contents (Elt F) → (⟨S160000x1, .i32⟩ : BufTy).Contents (Elt F) → (⟨S160000x128, .f32⟩ : BufTy).Contents (Elt F)) ]
/-- What they write, in order. -/
noncomputable abbrev sw_bdst0 : List (Ref sig .tc) :=
  [main_c_4, main_v43, main_v44, main_c_5, main_v45, main_v46, main_v47, main_v48, main_v49]

/-- Operations 62 … 82 of 506. -/
noncomputable abbrev sg_m0 : List (HloOp τ sig (Elt F)) :=
  [ binary main_v42 main_v49 main_v50 (addf : (⟨S160000x128, .f32⟩ : BufTy).Contents (Elt F) → (⟨S160000x128, .f32⟩ : BufTy).Contents (Elt F) → (⟨S160000x128, .f32⟩ : BufTy).Contents (Elt F)),
    unary main_arg16 main_v51 ((extractStridedSlice S1x128x128 ![0, 0, 0] · slices_S6x128x128_S1x128x128_0_0_0) : (⟨S6x128x128, .f32⟩ : BufTy).Contents (Elt F) → (⟨S1x128x128, .f32⟩ : BufTy).Contents (Elt F)),
    reshape main_v51 main_v52 rfl shapeCasts_S1x128x128_S128x128,
    binary main_v29 main_v52 main_v53 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)),
    binary main_v50 main_v53 main_v54 (addf : (⟨S160000x128, .f32⟩ : BufTy).Contents (Elt F) → (⟨S160000x128, .f32⟩ : BufTy).Contents (Elt F) → (⟨S160000x128, .f32⟩ : BufTy).Contents (Elt F)),
    unary main_arg17 main_v55 ((extractStridedSlice S1x128 ![0, 0] · slices_S6x128_S1x128_0_0) : (⟨S6x128, .f32⟩ : BufTy).Contents (Elt F) → (⟨S1x128, .f32⟩ : BufTy).Contents (Elt F)),
    reshape main_v55 main_v56 rfl shapeCasts_S1x128_S128,
    unary main_v56 main_v57 (broadcastInDim S1x128 ![1] bcast_S128_S1x128_1 : (⟨S128, .f32⟩ : BufTy).Contents (Elt F) → (⟨S1x128, .f32⟩ : BufTy).Contents (Elt F)),
    unary main_v57 main_v58 (broadcastInDim S160000x128 ![0, 1] bcast_S1x128_S160000x128_0_1 : (⟨S1x128, .f32⟩ : BufTy).Contents (Elt F) → (⟨S160000x128, .f32⟩ : BufTy).Contents (Elt F)),
    binary main_v54 main_v58 main_v59 (addf : (⟨S160000x128, .f32⟩ : BufTy).Contents (Elt F) → (⟨S160000x128, .f32⟩ : BufTy).Contents (Elt F) → (⟨S160000x128, .f32⟩ : BufTy).Contents (Elt F)),
    nullary main_call2_cst (constant S_ .f32 0x00000000#32),
    unary main_call2_cst main_call2_v0 (broadcastInDim S160000x128 ![] bcast_S_S160000x128 : (⟨S_, .f32⟩ : BufTy).Contents (Elt F) → (⟨S160000x128, .f32⟩ : BufTy).Contents (Elt F)),
    binary main_v59 main_call2_v0 main_v60 (maximumf : (⟨S160000x128, .f32⟩ : BufTy).Contents (Elt F) → (⟨S160000x128, .f32⟩ : BufTy).Contents (Elt F) → (⟨S160000x128, .f32⟩ : BufTy).Contents (Elt F)),
    unary main_arg18 main_v61 ((extractStridedSlice S1x128x128 ![0, 0, 0] · slices_S6x128x128_S1x128x128_0_0_0) : (⟨S6x128x128, .f32⟩ : BufTy).Contents (Elt F) → (⟨S1x128x128, .f32⟩ : BufTy).Contents (Elt F)),
    reshape main_v61 main_v62 rfl shapeCasts_S1x128x128_S128x128,
    binary main_v60 main_v62 main_v63 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)),
    unary main_arg19 main_v64 ((extractStridedSlice S1x128 ![0, 0] · slices_S6x128_S1x128_0_0) : (⟨S6x128, .f32⟩ : BufTy).Contents (Elt F) → (⟨S1x128, .f32⟩ : BufTy).Contents (Elt F)),
    reshape main_v64 main_v65 rfl shapeCasts_S1x128_S128,
    unary main_v65 main_v66 (broadcastInDim S1x128 ![1] bcast_S128_S1x128_1 : (⟨S128, .f32⟩ : BufTy).Contents (Elt F) → (⟨S1x128, .f32⟩ : BufTy).Contents (Elt F)),
    unary main_v66 main_v67 (broadcastInDim S160000x128 ![0, 1] bcast_S1x128_S160000x128_0_1 : (⟨S1x128, .f32⟩ : BufTy).Contents (Elt F) → (⟨S160000x128, .f32⟩ : BufTy).Contents (Elt F)),
    binary main_v63 main_v67 main_v68 (addf : (⟨S160000x128, .f32⟩ : BufTy).Contents (Elt F) → (⟨S160000x128, .f32⟩ : BufTy).Contents (Elt F) → (⟨S160000x128, .f32⟩ : BufTy).Contents (Elt F)) ]
/-- What they write, in order. -/
noncomputable abbrev sw_m0 : List (Ref sig .tc) :=
  [main_v50, main_v51, main_v52, main_v53, main_v54, main_v55, main_v56, main_v57, main_v58, main_v59, main_call2_cst, main_call2_v0, main_v60, main_v61, main_v62, main_v63, main_v64, main_v65, main_v66, main_v67, main_v68]

/-- Operations 83 … 86 of 506. -/
noncomputable abbrev sg_agg0 : List (HloOp τ sig (Elt F)) :=
  [ nullary main_cst (constant S_ .f32 0x00000000#32),
    unary main_cst main_v69 (broadcastInDim S20000x128 ![] bcast_S_S20000x128 : (⟨S_, .f32⟩ : BufTy).Contents (Elt F) → (⟨S20000x128, .f32⟩ : BufTy).Contents (Elt F)),
    unary main_v3 main_v70 (broadcastInDim S160000x1 ![0] bcast_S160000_S160000x1_0 : (⟨S160000, .i32⟩ : BufTy).Contents (Elt F) → (⟨S160000x1, .i32⟩ : BufTy).Contents (Elt F)),
    ternary main_v69 main_v70 main_v68 main_v71 ((fun x i u => Host.scatterAdd scatter_S20000x128_S160000x1_S160000x128_1_0_0_1 x i u) : (⟨S20000x128, .f32⟩ : BufTy).Contents (Elt F) → (⟨S160000x1, .i32⟩ : BufTy).Contents (Elt F) → (⟨S160000x128, .f32⟩ : BufTy).Contents (Elt F) → (⟨S20000x128, .f32⟩ : BufTy).Contents (Elt F)) ]
/-- What they write, in order. -/
noncomputable abbrev sw_agg0 : List (Ref sig .tc) :=
  [main_cst, main_v69, main_v70, main_v71]

/-- Operations 87 … 110 of 506. -/
noncomputable abbrev sg_h1 : List (HloOp τ sig (Elt F)) :=
  [ unary main_arg20 main_v72 ((extractStridedSlice S1x128x128 ![0, 0, 0] · slices_S6x128x128_S1x128x128_0_0_0) : (⟨S6x128x128, .f32⟩ : BufTy).Contents (Elt F) → (⟨S1x128x128, .f32⟩ : BufTy).Contents (Elt F)),
    reshape main_v72 main_v73 rfl shapeCasts_S1x128x128_S128x128,
    binary main_v20 main_v73 main_v74 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg21 main_v75 ((extractStridedSlice S1x128x128 ![0, 0, 0] · slices_S6x128x128_S1x128x128_0_0_0) : (⟨S6x128x128, .f32⟩ : BufTy).Contents (Elt F) → (⟨S1x128x128, .f32⟩ : BufTy).Contents (Elt F)),
    reshape main_v75 main_v76 rfl shapeCasts_S1x128x128_S128x128,
    binary main_v71 main_v76 main_v77 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    binary main_v74 main_v77 main_v78 (addf : (⟨S20000x128, .f32⟩ : BufTy).Contents (Elt F) → (⟨S20000x128, .f32⟩ : BufTy).Contents (Elt F) → (⟨S20000x128, .f32⟩ : BufTy).Contents (Elt F)),
    unary main_arg22 main_v79 ((extractStridedSlice S1x128 ![0, 0] · slices_S6x128_S1x128_0_0) : (⟨S6x128, .f32⟩ : BufTy).Contents (Elt F) → (⟨S1x128, .f32⟩ : BufTy).Contents (Elt F)),
    reshape main_v79 main_v80 rfl shapeCasts_S1x128_S128,
    unary main_v80 main_v81 (broadcastInDim S1x128 ![1] bcast_S128_S1x128_1 : (⟨S128, .f32⟩ : BufTy).Contents (Elt F) → (⟨S1x128, .f32⟩ : BufTy).Contents (Elt F)),
    unary main_v81 main_v82 (broadcastInDim S20000x128 ![0, 1] bcast_S1x128_S20000x128_0_1 : (⟨S1x128, .f32⟩ : BufTy).Contents (Elt F) → (⟨S20000x128, .f32⟩ : BufTy).Contents (Elt F)),
    binary main_v78 main_v82 main_v83 (addf : (⟨S20000x128, .f32⟩ : BufTy).Contents (Elt F) → (⟨S20000x128, .f32⟩ : BufTy).Contents (Elt F) → (⟨S20000x128, .f32⟩ : BufTy).Contents (Elt F)),
    nullary main_call3_cst (constant S_ .f32 0x00000000#32),
    unary main_call3_cst main_call3_v0 (broadcastInDim S20000x128 ![] bcast_S_S20000x128 : (⟨S_, .f32⟩ : BufTy).Contents (Elt F) → (⟨S20000x128, .f32⟩ : BufTy).Contents (Elt F)),
    binary main_v83 main_call3_v0 main_v84 (maximumf : (⟨S20000x128, .f32⟩ : BufTy).Contents (Elt F) → (⟨S20000x128, .f32⟩ : BufTy).Contents (Elt F) → (⟨S20000x128, .f32⟩ : BufTy).Contents (Elt F)),
    unary main_arg23 main_v85 ((extractStridedSlice S1x128x128 ![0, 0, 0] · slices_S6x128x128_S1x128x128_0_0_0) : (⟨S6x128x128, .f32⟩ : BufTy).Contents (Elt F) → (⟨S1x128x128, .f32⟩ : BufTy).Contents (Elt F)),
    reshape main_v85 main_v86 rfl shapeCasts_S1x128x128_S128x128,
    binary main_v84 main_v86 main_v87 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg24 main_v88 ((extractStridedSlice S1x128 ![0, 0] · slices_S6x128_S1x128_0_0) : (⟨S6x128, .f32⟩ : BufTy).Contents (Elt F) → (⟨S1x128, .f32⟩ : BufTy).Contents (Elt F)),
    reshape main_v88 main_v89 rfl shapeCasts_S1x128_S128,
    unary main_v89 main_v90 (broadcastInDim S1x128 ![1] bcast_S128_S1x128_1 : (⟨S128, .f32⟩ : BufTy).Contents (Elt F) → (⟨S1x128, .f32⟩ : BufTy).Contents (Elt F)),
    unary main_v90 main_v91 (broadcastInDim S20000x128 ![0, 1] bcast_S1x128_S20000x128_0_1 : (⟨S1x128, .f32⟩ : BufTy).Contents (Elt F) → (⟨S20000x128, .f32⟩ : BufTy).Contents (Elt F)),
    binary main_v87 main_v91 main_v92 (addf : (⟨S20000x128, .f32⟩ : BufTy).Contents (Elt F) → (⟨S20000x128, .f32⟩ : BufTy).Contents (Elt F) → (⟨S20000x128, .f32⟩ : BufTy).Contents (Elt F)),
    binary main_v20 main_v92 main_v93 (addf : (⟨S20000x128, .f32⟩ : BufTy).Contents (Elt F) → (⟨S20000x128, .f32⟩ : BufTy).Contents (Elt F) → (⟨S20000x128, .f32⟩ : BufTy).Contents (Elt F)) ]
/-- What they write, in order. -/
noncomputable abbrev sw_h1 : List (Ref sig .tc) :=
  [main_v72, main_v73, main_v74, main_v75, main_v76, main_v77, main_v78, main_v79, main_v80, main_v81, main_v82, main_v83, main_call3_cst, main_call3_v0, main_v84, main_v85, main_v86, main_v87, main_v88, main_v89, main_v90, main_v91, main_v92, main_v93]

/-- Operations 111 … 113 of 506. -/
noncomputable abbrev sg_a1 : List (HloOp τ sig (Elt F)) :=
  [ unary main_arg14 main_v94 ((extractStridedSlice S1x128x128 ![1, 0, 0] · slices_S6x128x128_S1x128x128_1_0_0) : (⟨S6x128x128, .f32⟩ : BufTy).Contents (Elt F) → (⟨S1x128x128, .f32⟩ : BufTy).Contents (Elt F)),
    reshape main_v94 main_v95 rfl shapeCasts_S1x128x128_S128x128,
    binary main_v93 main_v95 main_v96 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)) ]
/-- What they write, in order. -/
noncomputable abbrev sw_a1 : List (Ref sig .tc) :=
  [main_v94, main_v95, main_v96]

/-- Operations 114 … 116 of 506. -/
noncomputable abbrev sg_b1 : List (HloOp τ sig (Elt F)) :=
  [ unary main_arg15 main_v97 ((extractStridedSlice S1x128x128 ![1, 0, 0] · slices_S6x128x128_S1x128x128_1_0_0) : (⟨S6x128x128, .f32⟩ : BufTy).Contents (Elt F) → (⟨S1x128x128, .f32⟩ : BufTy).Contents (Elt F)),
    reshape main_v97 main_v98 rfl shapeCasts_S1x128x128_S128x128,
    binary main_v93 main_v98 main_v99 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)) ]
/-- What they write, in order. -/
noncomputable abbrev sw_b1 : List (Ref sig .tc) :=
  [main_v97, main_v98, main_v99]

/-- Operations 117 … 125 of 506. -/
noncomputable abbrev sg_asrc1 : List (HloOp τ sig (Elt F)) :=
  [ nullary main_c_6 (constantI S_ 32 0#32),
    unary main_c_6 main_v100 (broadcastInDim S160000 ![] bcast_S_S160000 : (⟨S_, .i32⟩ : BufTy).Contents (Elt F) → (⟨S160000, .i32⟩ : BufTy).Contents (Elt F)),
    binary main_v1 main_v100 main_v101 (cmpi .slt : (⟨S160000, .i32⟩ : BufTy).Contents (Elt F) → (⟨S160000, .i32⟩ : BufTy).Contents (Elt F) → (⟨S160000, .i1⟩ : BufTy).Contents (Elt F)),
    nullary main_c_7 (constantI S_ 32 20000#32),
    unary main_c_7 main_v102 (broadcastInDim S160000 ![] bcast_S_S160000 : (⟨S_, .i32⟩ : BufTy).Contents (Elt F) → (⟨S160000, .i32⟩ : BufTy).Contents (Elt F)),
    binary main_v1 main_v102 main_v103 (addi : (⟨S160000, .i32⟩ : BufTy).Contents (Elt F) → (⟨S160000, .i32⟩ : BufTy).Contents (Elt F) → (⟨S160000, .i32⟩ : BufTy).Contents (Elt F)),
    ternary main_v101 main_v103 main_v1 main_v104 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v104 main_v105 (broadcastInDim S160000x1 ![0] bcast_S160000_S160000x1_0 : (⟨S160000, .i32⟩ : BufTy).Contents (Elt F) → (⟨S160000x1, .i32⟩ : BufTy).Contents (Elt F)),
    binary main_v96 main_v105 main_v106 ((fun x i => Host.gather gather_S20000x128_S160000x1_S160000x128_1_0_n_n_0_1_1128 x i) : (⟨S20000x128, .f32⟩ : BufTy).Contents (Elt F) → (⟨S160000x1, .i32⟩ : BufTy).Contents (Elt F) → (⟨S160000x128, .f32⟩ : BufTy).Contents (Elt F)) ]
/-- What they write, in order. -/
noncomputable abbrev sw_asrc1 : List (Ref sig .tc) :=
  [main_c_6, main_v100, main_v101, main_c_7, main_v102, main_v103, main_v104, main_v105, main_v106]

/-- Operations 126 … 134 of 506. -/
noncomputable abbrev sg_bdst1 : List (HloOp τ sig (Elt F)) :=
  [ nullary main_c_8 (constantI S_ 32 0#32),
    unary main_c_8 main_v107 (broadcastInDim S160000 ![] bcast_S_S160000 : (⟨S_, .i32⟩ : BufTy).Contents (Elt F) → (⟨S160000, .i32⟩ : BufTy).Contents (Elt F)),
    binary main_v3 main_v107 main_v108 (cmpi .slt : (⟨S160000, .i32⟩ : BufTy).Contents (Elt F) → (⟨S160000, .i32⟩ : BufTy).Contents (Elt F) → (⟨S160000, .i1⟩ : BufTy).Contents (Elt F)),
    nullary main_c_9 (constantI S_ 32 20000#32),
    unary main_c_9 main_v109 (broadcastInDim S160000 ![] bcast_S_S160000 : (⟨S_, .i32⟩ : BufTy).Contents (Elt F) → (⟨S160000, .i32⟩ : BufTy).Contents (Elt F)),
    binary main_v3 main_v109 main_v110 (addi : (⟨S160000, .i32⟩ : BufTy).Contents (Elt F) → (⟨S160000, .i32⟩ : BufTy).Contents (Elt F) → (⟨S160000, .i32⟩ : BufTy).Contents (Elt F)),
    ternary main_v108 main_v110 main_v3 main_v111 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v111 main_v112 (broadcastInDim S160000x1 ![0] bcast_S160000_S160000x1_0 : (⟨S160000, .i32⟩ : BufTy).Contents (Elt F) → (⟨S160000x1, .i32⟩ : BufTy).Contents (Elt F)),
    binary main_v99 main_v112 main_v113 ((fun x i => Host.gather gather_S20000x128_S160000x1_S160000x128_1_0_n_n_0_1_1128 x i) : (⟨S20000x128, .f32⟩ : BufTy).Contents (Elt F) → (⟨S160000x1, .i32⟩ : BufTy).Contents (Elt F) → (⟨S160000x128, .f32⟩ : BufTy).Contents (Elt F)) ]
/-- What they write, in order. -/
noncomputable abbrev sw_bdst1 : List (Ref sig .tc) :=
  [main_c_8, main_v107, main_v108, main_c_9, main_v109, main_v110, main_v111, main_v112, main_v113]

/-- Operations 135 … 155 of 506. -/
noncomputable abbrev sg_m1 : List (HloOp τ sig (Elt F)) :=
  [ binary main_v106 main_v113 main_v114 (addf : (⟨S160000x128, .f32⟩ : BufTy).Contents (Elt F) → (⟨S160000x128, .f32⟩ : BufTy).Contents (Elt F) → (⟨S160000x128, .f32⟩ : BufTy).Contents (Elt F)),
    unary main_arg16 main_v115 ((extractStridedSlice S1x128x128 ![1, 0, 0] · slices_S6x128x128_S1x128x128_1_0_0) : (⟨S6x128x128, .f32⟩ : BufTy).Contents (Elt F) → (⟨S1x128x128, .f32⟩ : BufTy).Contents (Elt F)),
    reshape main_v115 main_v116 rfl shapeCasts_S1x128x128_S128x128,
    binary main_v29 main_v116 main_v117 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)),
    binary main_v114 main_v117 main_v118 (addf : (⟨S160000x128, .f32⟩ : BufTy).Contents (Elt F) → (⟨S160000x128, .f32⟩ : BufTy).Contents (Elt F) → (⟨S160000x128, .f32⟩ : BufTy).Contents (Elt F)),
    unary main_arg17 main_v119 ((extractStridedSlice S1x128 ![1, 0] · slices_S6x128_S1x128_1_0) : (⟨S6x128, .f32⟩ : BufTy).Contents (Elt F) → (⟨S1x128, .f32⟩ : BufTy).Contents (Elt F)),
    reshape main_v119 main_v120 rfl shapeCasts_S1x128_S128,
    unary main_v120 main_v121 (broadcastInDim S1x128 ![1] bcast_S128_S1x128_1 : (⟨S128, .f32⟩ : BufTy).Contents (Elt F) → (⟨S1x128, .f32⟩ : BufTy).Contents (Elt F)),
    unary main_v121 main_v122 (broadcastInDim S160000x128 ![0, 1] bcast_S1x128_S160000x128_0_1 : (⟨S1x128, .f32⟩ : BufTy).Contents (Elt F) → (⟨S160000x128, .f32⟩ : BufTy).Contents (Elt F)),
    binary main_v118 main_v122 main_v123 (addf : (⟨S160000x128, .f32⟩ : BufTy).Contents (Elt F) → (⟨S160000x128, .f32⟩ : BufTy).Contents (Elt F) → (⟨S160000x128, .f32⟩ : BufTy).Contents (Elt F)),
    nullary main_call4_cst (constant S_ .f32 0x00000000#32),
    unary main_call4_cst main_call4_v0 (broadcastInDim S160000x128 ![] bcast_S_S160000x128 : (⟨S_, .f32⟩ : BufTy).Contents (Elt F) → (⟨S160000x128, .f32⟩ : BufTy).Contents (Elt F)),
    binary main_v123 main_call4_v0 main_v124 (maximumf : (⟨S160000x128, .f32⟩ : BufTy).Contents (Elt F) → (⟨S160000x128, .f32⟩ : BufTy).Contents (Elt F) → (⟨S160000x128, .f32⟩ : BufTy).Contents (Elt F)),
    unary main_arg18 main_v125 ((extractStridedSlice S1x128x128 ![1, 0, 0] · slices_S6x128x128_S1x128x128_1_0_0) : (⟨S6x128x128, .f32⟩ : BufTy).Contents (Elt F) → (⟨S1x128x128, .f32⟩ : BufTy).Contents (Elt F)),
    reshape main_v125 main_v126 rfl shapeCasts_S1x128x128_S128x128,
    binary main_v124 main_v126 main_v127 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)),
    unary main_arg19 main_v128 ((extractStridedSlice S1x128 ![1, 0] · slices_S6x128_S1x128_1_0) : (⟨S6x128, .f32⟩ : BufTy).Contents (Elt F) → (⟨S1x128, .f32⟩ : BufTy).Contents (Elt F)),
    reshape main_v128 main_v129 rfl shapeCasts_S1x128_S128,
    unary main_v129 main_v130 (broadcastInDim S1x128 ![1] bcast_S128_S1x128_1 : (⟨S128, .f32⟩ : BufTy).Contents (Elt F) → (⟨S1x128, .f32⟩ : BufTy).Contents (Elt F)),
    unary main_v130 main_v131 (broadcastInDim S160000x128 ![0, 1] bcast_S1x128_S160000x128_0_1 : (⟨S1x128, .f32⟩ : BufTy).Contents (Elt F) → (⟨S160000x128, .f32⟩ : BufTy).Contents (Elt F)),
    binary main_v127 main_v131 main_v132 (addf : (⟨S160000x128, .f32⟩ : BufTy).Contents (Elt F) → (⟨S160000x128, .f32⟩ : BufTy).Contents (Elt F) → (⟨S160000x128, .f32⟩ : BufTy).Contents (Elt F)) ]
/-- What they write, in order. -/
noncomputable abbrev sw_m1 : List (Ref sig .tc) :=
  [main_v114, main_v115, main_v116, main_v117, main_v118, main_v119, main_v120, main_v121, main_v122, main_v123, main_call4_cst, main_call4_v0, main_v124, main_v125, main_v126, main_v127, main_v128, main_v129, main_v130, main_v131, main_v132]

/-- Operations 156 … 159 of 506. -/
noncomputable abbrev sg_agg1 : List (HloOp τ sig (Elt F)) :=
  [ nullary main_cst_10 (constant S_ .f32 0x00000000#32),
    unary main_cst_10 main_v133 (broadcastInDim S20000x128 ![] bcast_S_S20000x128 : (⟨S_, .f32⟩ : BufTy).Contents (Elt F) → (⟨S20000x128, .f32⟩ : BufTy).Contents (Elt F)),
    unary main_v3 main_v134 (broadcastInDim S160000x1 ![0] bcast_S160000_S160000x1_0 : (⟨S160000, .i32⟩ : BufTy).Contents (Elt F) → (⟨S160000x1, .i32⟩ : BufTy).Contents (Elt F)),
    ternary main_v133 main_v134 main_v132 main_v135 ((fun x i u => Host.scatterAdd scatter_S20000x128_S160000x1_S160000x128_1_0_0_1 x i u) : (⟨S20000x128, .f32⟩ : BufTy).Contents (Elt F) → (⟨S160000x1, .i32⟩ : BufTy).Contents (Elt F) → (⟨S160000x128, .f32⟩ : BufTy).Contents (Elt F) → (⟨S20000x128, .f32⟩ : BufTy).Contents (Elt F)) ]
/-- What they write, in order. -/
noncomputable abbrev sw_agg1 : List (Ref sig .tc) :=
  [main_cst_10, main_v133, main_v134, main_v135]

/-- Operations 160 … 183 of 506. -/
noncomputable abbrev sg_h2 : List (HloOp τ sig (Elt F)) :=
  [ unary main_arg20 main_v136 ((extractStridedSlice S1x128x128 ![1, 0, 0] · slices_S6x128x128_S1x128x128_1_0_0) : (⟨S6x128x128, .f32⟩ : BufTy).Contents (Elt F) → (⟨S1x128x128, .f32⟩ : BufTy).Contents (Elt F)),
    reshape main_v136 main_v137 rfl shapeCasts_S1x128x128_S128x128,
    binary main_v93 main_v137 main_v138 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg21 main_v139 ((extractStridedSlice S1x128x128 ![1, 0, 0] · slices_S6x128x128_S1x128x128_1_0_0) : (⟨S6x128x128, .f32⟩ : BufTy).Contents (Elt F) → (⟨S1x128x128, .f32⟩ : BufTy).Contents (Elt F)),
    reshape main_v139 main_v140 rfl shapeCasts_S1x128x128_S128x128,
    binary main_v135 main_v140 main_v141 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    binary main_v138 main_v141 main_v142 (addf : (⟨S20000x128, .f32⟩ : BufTy).Contents (Elt F) → (⟨S20000x128, .f32⟩ : BufTy).Contents (Elt F) → (⟨S20000x128, .f32⟩ : BufTy).Contents (Elt F)),
    unary main_arg22 main_v143 ((extractStridedSlice S1x128 ![1, 0] · slices_S6x128_S1x128_1_0) : (⟨S6x128, .f32⟩ : BufTy).Contents (Elt F) → (⟨S1x128, .f32⟩ : BufTy).Contents (Elt F)),
    reshape main_v143 main_v144 rfl shapeCasts_S1x128_S128,
    unary main_v144 main_v145 (broadcastInDim S1x128 ![1] bcast_S128_S1x128_1 : (⟨S128, .f32⟩ : BufTy).Contents (Elt F) → (⟨S1x128, .f32⟩ : BufTy).Contents (Elt F)),
    unary main_v145 main_v146 (broadcastInDim S20000x128 ![0, 1] bcast_S1x128_S20000x128_0_1 : (⟨S1x128, .f32⟩ : BufTy).Contents (Elt F) → (⟨S20000x128, .f32⟩ : BufTy).Contents (Elt F)),
    binary main_v142 main_v146 main_v147 (addf : (⟨S20000x128, .f32⟩ : BufTy).Contents (Elt F) → (⟨S20000x128, .f32⟩ : BufTy).Contents (Elt F) → (⟨S20000x128, .f32⟩ : BufTy).Contents (Elt F)),
    nullary main_call5_cst (constant S_ .f32 0x00000000#32),
    unary main_call5_cst main_call5_v0 (broadcastInDim S20000x128 ![] bcast_S_S20000x128 : (⟨S_, .f32⟩ : BufTy).Contents (Elt F) → (⟨S20000x128, .f32⟩ : BufTy).Contents (Elt F)),
    binary main_v147 main_call5_v0 main_v148 (maximumf : (⟨S20000x128, .f32⟩ : BufTy).Contents (Elt F) → (⟨S20000x128, .f32⟩ : BufTy).Contents (Elt F) → (⟨S20000x128, .f32⟩ : BufTy).Contents (Elt F)),
    unary main_arg23 main_v149 ((extractStridedSlice S1x128x128 ![1, 0, 0] · slices_S6x128x128_S1x128x128_1_0_0) : (⟨S6x128x128, .f32⟩ : BufTy).Contents (Elt F) → (⟨S1x128x128, .f32⟩ : BufTy).Contents (Elt F)),
    reshape main_v149 main_v150 rfl shapeCasts_S1x128x128_S128x128,
    binary main_v148 main_v150 main_v151 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg24 main_v152 ((extractStridedSlice S1x128 ![1, 0] · slices_S6x128_S1x128_1_0) : (⟨S6x128, .f32⟩ : BufTy).Contents (Elt F) → (⟨S1x128, .f32⟩ : BufTy).Contents (Elt F)),
    reshape main_v152 main_v153 rfl shapeCasts_S1x128_S128,
    unary main_v153 main_v154 (broadcastInDim S1x128 ![1] bcast_S128_S1x128_1 : (⟨S128, .f32⟩ : BufTy).Contents (Elt F) → (⟨S1x128, .f32⟩ : BufTy).Contents (Elt F)),
    unary main_v154 main_v155 (broadcastInDim S20000x128 ![0, 1] bcast_S1x128_S20000x128_0_1 : (⟨S1x128, .f32⟩ : BufTy).Contents (Elt F) → (⟨S20000x128, .f32⟩ : BufTy).Contents (Elt F)),
    binary main_v151 main_v155 main_v156 (addf : (⟨S20000x128, .f32⟩ : BufTy).Contents (Elt F) → (⟨S20000x128, .f32⟩ : BufTy).Contents (Elt F) → (⟨S20000x128, .f32⟩ : BufTy).Contents (Elt F)),
    binary main_v93 main_v156 main_v157 (addf : (⟨S20000x128, .f32⟩ : BufTy).Contents (Elt F) → (⟨S20000x128, .f32⟩ : BufTy).Contents (Elt F) → (⟨S20000x128, .f32⟩ : BufTy).Contents (Elt F)) ]
/-- What they write, in order. -/
noncomputable abbrev sw_h2 : List (Ref sig .tc) :=
  [main_v136, main_v137, main_v138, main_v139, main_v140, main_v141, main_v142, main_v143, main_v144, main_v145, main_v146, main_v147, main_call5_cst, main_call5_v0, main_v148, main_v149, main_v150, main_v151, main_v152, main_v153, main_v154, main_v155, main_v156, main_v157]

/-- Operations 184 … 186 of 506. -/
noncomputable abbrev sg_a2 : List (HloOp τ sig (Elt F)) :=
  [ unary main_arg14 main_v158 ((extractStridedSlice S1x128x128 ![2, 0, 0] · slices_S6x128x128_S1x128x128_2_0_0) : (⟨S6x128x128, .f32⟩ : BufTy).Contents (Elt F) → (⟨S1x128x128, .f32⟩ : BufTy).Contents (Elt F)),
    reshape main_v158 main_v159 rfl shapeCasts_S1x128x128_S128x128,
    binary main_v157 main_v159 main_v160 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)) ]
/-- What they write, in order. -/
noncomputable abbrev sw_a2 : List (Ref sig .tc) :=
  [main_v158, main_v159, main_v160]

/-- Operations 187 … 189 of 506. -/
noncomputable abbrev sg_b2 : List (HloOp τ sig (Elt F)) :=
  [ unary main_arg15 main_v161 ((extractStridedSlice S1x128x128 ![2, 0, 0] · slices_S6x128x128_S1x128x128_2_0_0) : (⟨S6x128x128, .f32⟩ : BufTy).Contents (Elt F) → (⟨S1x128x128, .f32⟩ : BufTy).Contents (Elt F)),
    reshape main_v161 main_v162 rfl shapeCasts_S1x128x128_S128x128,
    binary main_v157 main_v162 main_v163 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)) ]
/-- What they write, in order. -/
noncomputable abbrev sw_b2 : List (Ref sig .tc) :=
  [main_v161, main_v162, main_v163]

/-- Operations 190 … 198 of 506. -/
noncomputable abbrev sg_asrc2 : List (HloOp τ sig (Elt F)) :=
  [ nullary main_c_11 (constantI S_ 32 0#32),
    unary main_c_11 main_v164 (broadcastInDim S160000 ![] bcast_S_S160000 : (⟨S_, .i32⟩ : BufTy).Contents (Elt F) → (⟨S160000, .i32⟩ : BufTy).Contents (Elt F)),
    binary main_v1 main_v164 main_v165 (cmpi .slt : (⟨S160000, .i32⟩ : BufTy).Contents (Elt F) → (⟨S160000, .i32⟩ : BufTy).Contents (Elt F) → (⟨S160000, .i1⟩ : BufTy).Contents (Elt F)),
    nullary main_c_12 (constantI S_ 32 20000#32),
    unary main_c_12 main_v166 (broadcastInDim S160000 ![] bcast_S_S160000 : (⟨S_, .i32⟩ : BufTy).Contents (Elt F) → (⟨S160000, .i32⟩ : BufTy).Contents (Elt F)),
    binary main_v1 main_v166 main_v167 (addi : (⟨S160000, .i32⟩ : BufTy).Contents (Elt F) → (⟨S160000, .i32⟩ : BufTy).Contents (Elt F) → (⟨S160000, .i32⟩ : BufTy).Contents (Elt F)),
    ternary main_v165 main_v167 main_v1 main_v168 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v168 main_v169 (broadcastInDim S160000x1 ![0] bcast_S160000_S160000x1_0 : (⟨S160000, .i32⟩ : BufTy).Contents (Elt F) → (⟨S160000x1, .i32⟩ : BufTy).Contents (Elt F)),
    binary main_v160 main_v169 main_v170 ((fun x i => Host.gather gather_S20000x128_S160000x1_S160000x128_1_0_n_n_0_1_1128 x i) : (⟨S20000x128, .f32⟩ : BufTy).Contents (Elt F) → (⟨S160000x1, .i32⟩ : BufTy).Contents (Elt F) → (⟨S160000x128, .f32⟩ : BufTy).Contents (Elt F)) ]
/-- What they write, in order. -/
noncomputable abbrev sw_asrc2 : List (Ref sig .tc) :=
  [main_c_11, main_v164, main_v165, main_c_12, main_v166, main_v167, main_v168, main_v169, main_v170]

/-- Operations 199 … 207 of 506. -/
noncomputable abbrev sg_bdst2 : List (HloOp τ sig (Elt F)) :=
  [ nullary main_c_13 (constantI S_ 32 0#32),
    unary main_c_13 main_v171 (broadcastInDim S160000 ![] bcast_S_S160000 : (⟨S_, .i32⟩ : BufTy).Contents (Elt F) → (⟨S160000, .i32⟩ : BufTy).Contents (Elt F)),
    binary main_v3 main_v171 main_v172 (cmpi .slt : (⟨S160000, .i32⟩ : BufTy).Contents (Elt F) → (⟨S160000, .i32⟩ : BufTy).Contents (Elt F) → (⟨S160000, .i1⟩ : BufTy).Contents (Elt F)),
    nullary main_c_14 (constantI S_ 32 20000#32),
    unary main_c_14 main_v173 (broadcastInDim S160000 ![] bcast_S_S160000 : (⟨S_, .i32⟩ : BufTy).Contents (Elt F) → (⟨S160000, .i32⟩ : BufTy).Contents (Elt F)),
    binary main_v3 main_v173 main_v174 (addi : (⟨S160000, .i32⟩ : BufTy).Contents (Elt F) → (⟨S160000, .i32⟩ : BufTy).Contents (Elt F) → (⟨S160000, .i32⟩ : BufTy).Contents (Elt F)),
    ternary main_v172 main_v174 main_v3 main_v175 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v175 main_v176 (broadcastInDim S160000x1 ![0] bcast_S160000_S160000x1_0 : (⟨S160000, .i32⟩ : BufTy).Contents (Elt F) → (⟨S160000x1, .i32⟩ : BufTy).Contents (Elt F)),
    binary main_v163 main_v176 main_v177 ((fun x i => Host.gather gather_S20000x128_S160000x1_S160000x128_1_0_n_n_0_1_1128 x i) : (⟨S20000x128, .f32⟩ : BufTy).Contents (Elt F) → (⟨S160000x1, .i32⟩ : BufTy).Contents (Elt F) → (⟨S160000x128, .f32⟩ : BufTy).Contents (Elt F)) ]
/-- What they write, in order. -/
noncomputable abbrev sw_bdst2 : List (Ref sig .tc) :=
  [main_c_13, main_v171, main_v172, main_c_14, main_v173, main_v174, main_v175, main_v176, main_v177]

/-- Operations 208 … 228 of 506. -/
noncomputable abbrev sg_m2 : List (HloOp τ sig (Elt F)) :=
  [ binary main_v170 main_v177 main_v178 (addf : (⟨S160000x128, .f32⟩ : BufTy).Contents (Elt F) → (⟨S160000x128, .f32⟩ : BufTy).Contents (Elt F) → (⟨S160000x128, .f32⟩ : BufTy).Contents (Elt F)),
    unary main_arg16 main_v179 ((extractStridedSlice S1x128x128 ![2, 0, 0] · slices_S6x128x128_S1x128x128_2_0_0) : (⟨S6x128x128, .f32⟩ : BufTy).Contents (Elt F) → (⟨S1x128x128, .f32⟩ : BufTy).Contents (Elt F)),
    reshape main_v179 main_v180 rfl shapeCasts_S1x128x128_S128x128,
    binary main_v29 main_v180 main_v181 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)),
    binary main_v178 main_v181 main_v182 (addf : (⟨S160000x128, .f32⟩ : BufTy).Contents (Elt F) → (⟨S160000x128, .f32⟩ : BufTy).Contents (Elt F) → (⟨S160000x128, .f32⟩ : BufTy).Contents (Elt F)),
    unary main_arg17 main_v183 ((extractStridedSlice S1x128 ![2, 0] · slices_S6x128_S1x128_2_0) : (⟨S6x128, .f32⟩ : BufTy).Contents (Elt F) → (⟨S1x128, .f32⟩ : BufTy).Contents (Elt F)),
    reshape main_v183 main_v184 rfl shapeCasts_S1x128_S128,
    unary main_v184 main_v185 (broadcastInDim S1x128 ![1] bcast_S128_S1x128_1 : (⟨S128, .f32⟩ : BufTy).Contents (Elt F) → (⟨S1x128, .f32⟩ : BufTy).Contents (Elt F)),
    unary main_v185 main_v186 (broadcastInDim S160000x128 ![0, 1] bcast_S1x128_S160000x128_0_1 : (⟨S1x128, .f32⟩ : BufTy).Contents (Elt F) → (⟨S160000x128, .f32⟩ : BufTy).Contents (Elt F)),
    binary main_v182 main_v186 main_v187 (addf : (⟨S160000x128, .f32⟩ : BufTy).Contents (Elt F) → (⟨S160000x128, .f32⟩ : BufTy).Contents (Elt F) → (⟨S160000x128, .f32⟩ : BufTy).Contents (Elt F)),
    nullary main_call6_cst (constant S_ .f32 0x00000000#32),
    unary main_call6_cst main_call6_v0 (broadcastInDim S160000x128 ![] bcast_S_S160000x128 : (⟨S_, .f32⟩ : BufTy).Contents (Elt F) → (⟨S160000x128, .f32⟩ : BufTy).Contents (Elt F)),
    binary main_v187 main_call6_v0 main_v188 (maximumf : (⟨S160000x128, .f32⟩ : BufTy).Contents (Elt F) → (⟨S160000x128, .f32⟩ : BufTy).Contents (Elt F) → (⟨S160000x128, .f32⟩ : BufTy).Contents (Elt F)),
    unary main_arg18 main_v189 ((extractStridedSlice S1x128x128 ![2, 0, 0] · slices_S6x128x128_S1x128x128_2_0_0) : (⟨S6x128x128, .f32⟩ : BufTy).Contents (Elt F) → (⟨S1x128x128, .f32⟩ : BufTy).Contents (Elt F)),
    reshape main_v189 main_v190 rfl shapeCasts_S1x128x128_S128x128,
    binary main_v188 main_v190 main_v191 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)),
    unary main_arg19 main_v192 ((extractStridedSlice S1x128 ![2, 0] · slices_S6x128_S1x128_2_0) : (⟨S6x128, .f32⟩ : BufTy).Contents (Elt F) → (⟨S1x128, .f32⟩ : BufTy).Contents (Elt F)),
    reshape main_v192 main_v193 rfl shapeCasts_S1x128_S128,
    unary main_v193 main_v194 (broadcastInDim S1x128 ![1] bcast_S128_S1x128_1 : (⟨S128, .f32⟩ : BufTy).Contents (Elt F) → (⟨S1x128, .f32⟩ : BufTy).Contents (Elt F)),
    unary main_v194 main_v195 (broadcastInDim S160000x128 ![0, 1] bcast_S1x128_S160000x128_0_1 : (⟨S1x128, .f32⟩ : BufTy).Contents (Elt F) → (⟨S160000x128, .f32⟩ : BufTy).Contents (Elt F)),
    binary main_v191 main_v195 main_v196 (addf : (⟨S160000x128, .f32⟩ : BufTy).Contents (Elt F) → (⟨S160000x128, .f32⟩ : BufTy).Contents (Elt F) → (⟨S160000x128, .f32⟩ : BufTy).Contents (Elt F)) ]
/-- What they write, in order. -/
noncomputable abbrev sw_m2 : List (Ref sig .tc) :=
  [main_v178, main_v179, main_v180, main_v181, main_v182, main_v183, main_v184, main_v185, main_v186, main_v187, main_call6_cst, main_call6_v0, main_v188, main_v189, main_v190, main_v191, main_v192, main_v193, main_v194, main_v195, main_v196]

/-- Operations 229 … 232 of 506. -/
noncomputable abbrev sg_agg2 : List (HloOp τ sig (Elt F)) :=
  [ nullary main_cst_15 (constant S_ .f32 0x00000000#32),
    unary main_cst_15 main_v197 (broadcastInDim S20000x128 ![] bcast_S_S20000x128 : (⟨S_, .f32⟩ : BufTy).Contents (Elt F) → (⟨S20000x128, .f32⟩ : BufTy).Contents (Elt F)),
    unary main_v3 main_v198 (broadcastInDim S160000x1 ![0] bcast_S160000_S160000x1_0 : (⟨S160000, .i32⟩ : BufTy).Contents (Elt F) → (⟨S160000x1, .i32⟩ : BufTy).Contents (Elt F)),
    ternary main_v197 main_v198 main_v196 main_v199 ((fun x i u => Host.scatterAdd scatter_S20000x128_S160000x1_S160000x128_1_0_0_1 x i u) : (⟨S20000x128, .f32⟩ : BufTy).Contents (Elt F) → (⟨S160000x1, .i32⟩ : BufTy).Contents (Elt F) → (⟨S160000x128, .f32⟩ : BufTy).Contents (Elt F) → (⟨S20000x128, .f32⟩ : BufTy).Contents (Elt F)) ]
/-- What they write, in order. -/
noncomputable abbrev sw_agg2 : List (Ref sig .tc) :=
  [main_cst_15, main_v197, main_v198, main_v199]

/-- Operations 233 … 256 of 506. -/
noncomputable abbrev sg_h3 : List (HloOp τ sig (Elt F)) :=
  [ unary main_arg20 main_v200 ((extractStridedSlice S1x128x128 ![2, 0, 0] · slices_S6x128x128_S1x128x128_2_0_0) : (⟨S6x128x128, .f32⟩ : BufTy).Contents (Elt F) → (⟨S1x128x128, .f32⟩ : BufTy).Contents (Elt F)),
    reshape main_v200 main_v201 rfl shapeCasts_S1x128x128_S128x128,
    binary main_v157 main_v201 main_v202 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg21 main_v203 ((extractStridedSlice S1x128x128 ![2, 0, 0] · slices_S6x128x128_S1x128x128_2_0_0) : (⟨S6x128x128, .f32⟩ : BufTy).Contents (Elt F) → (⟨S1x128x128, .f32⟩ : BufTy).Contents (Elt F)),
    reshape main_v203 main_v204 rfl shapeCasts_S1x128x128_S128x128,
    binary main_v199 main_v204 main_v205 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    binary main_v202 main_v205 main_v206 (addf : (⟨S20000x128, .f32⟩ : BufTy).Contents (Elt F) → (⟨S20000x128, .f32⟩ : BufTy).Contents (Elt F) → (⟨S20000x128, .f32⟩ : BufTy).Contents (Elt F)),
    unary main_arg22 main_v207 ((extractStridedSlice S1x128 ![2, 0] · slices_S6x128_S1x128_2_0) : (⟨S6x128, .f32⟩ : BufTy).Contents (Elt F) → (⟨S1x128, .f32⟩ : BufTy).Contents (Elt F)),
    reshape main_v207 main_v208 rfl shapeCasts_S1x128_S128,
    unary main_v208 main_v209 (broadcastInDim S1x128 ![1] bcast_S128_S1x128_1 : (⟨S128, .f32⟩ : BufTy).Contents (Elt F) → (⟨S1x128, .f32⟩ : BufTy).Contents (Elt F)),
    unary main_v209 main_v210 (broadcastInDim S20000x128 ![0, 1] bcast_S1x128_S20000x128_0_1 : (⟨S1x128, .f32⟩ : BufTy).Contents (Elt F) → (⟨S20000x128, .f32⟩ : BufTy).Contents (Elt F)),
    binary main_v206 main_v210 main_v211 (addf : (⟨S20000x128, .f32⟩ : BufTy).Contents (Elt F) → (⟨S20000x128, .f32⟩ : BufTy).Contents (Elt F) → (⟨S20000x128, .f32⟩ : BufTy).Contents (Elt F)),
    nullary main_call7_cst (constant S_ .f32 0x00000000#32),
    unary main_call7_cst main_call7_v0 (broadcastInDim S20000x128 ![] bcast_S_S20000x128 : (⟨S_, .f32⟩ : BufTy).Contents (Elt F) → (⟨S20000x128, .f32⟩ : BufTy).Contents (Elt F)),
    binary main_v211 main_call7_v0 main_v212 (maximumf : (⟨S20000x128, .f32⟩ : BufTy).Contents (Elt F) → (⟨S20000x128, .f32⟩ : BufTy).Contents (Elt F) → (⟨S20000x128, .f32⟩ : BufTy).Contents (Elt F)),
    unary main_arg23 main_v213 ((extractStridedSlice S1x128x128 ![2, 0, 0] · slices_S6x128x128_S1x128x128_2_0_0) : (⟨S6x128x128, .f32⟩ : BufTy).Contents (Elt F) → (⟨S1x128x128, .f32⟩ : BufTy).Contents (Elt F)),
    reshape main_v213 main_v214 rfl shapeCasts_S1x128x128_S128x128,
    binary main_v212 main_v214 main_v215 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg24 main_v216 ((extractStridedSlice S1x128 ![2, 0] · slices_S6x128_S1x128_2_0) : (⟨S6x128, .f32⟩ : BufTy).Contents (Elt F) → (⟨S1x128, .f32⟩ : BufTy).Contents (Elt F)),
    reshape main_v216 main_v217 rfl shapeCasts_S1x128_S128,
    unary main_v217 main_v218 (broadcastInDim S1x128 ![1] bcast_S128_S1x128_1 : (⟨S128, .f32⟩ : BufTy).Contents (Elt F) → (⟨S1x128, .f32⟩ : BufTy).Contents (Elt F)),
    unary main_v218 main_v219 (broadcastInDim S20000x128 ![0, 1] bcast_S1x128_S20000x128_0_1 : (⟨S1x128, .f32⟩ : BufTy).Contents (Elt F) → (⟨S20000x128, .f32⟩ : BufTy).Contents (Elt F)),
    binary main_v215 main_v219 main_v220 (addf : (⟨S20000x128, .f32⟩ : BufTy).Contents (Elt F) → (⟨S20000x128, .f32⟩ : BufTy).Contents (Elt F) → (⟨S20000x128, .f32⟩ : BufTy).Contents (Elt F)),
    binary main_v157 main_v220 main_v221 (addf : (⟨S20000x128, .f32⟩ : BufTy).Contents (Elt F) → (⟨S20000x128, .f32⟩ : BufTy).Contents (Elt F) → (⟨S20000x128, .f32⟩ : BufTy).Contents (Elt F)) ]
/-- What they write, in order. -/
noncomputable abbrev sw_h3 : List (Ref sig .tc) :=
  [main_v200, main_v201, main_v202, main_v203, main_v204, main_v205, main_v206, main_v207, main_v208, main_v209, main_v210, main_v211, main_call7_cst, main_call7_v0, main_v212, main_v213, main_v214, main_v215, main_v216, main_v217, main_v218, main_v219, main_v220, main_v221]

/-- Operations 257 … 259 of 506. -/
noncomputable abbrev sg_a3 : List (HloOp τ sig (Elt F)) :=
  [ unary main_arg14 main_v222 ((extractStridedSlice S1x128x128 ![3, 0, 0] · slices_S6x128x128_S1x128x128_3_0_0) : (⟨S6x128x128, .f32⟩ : BufTy).Contents (Elt F) → (⟨S1x128x128, .f32⟩ : BufTy).Contents (Elt F)),
    reshape main_v222 main_v223 rfl shapeCasts_S1x128x128_S128x128,
    binary main_v221 main_v223 main_v224 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)) ]
/-- What they write, in order. -/
noncomputable abbrev sw_a3 : List (Ref sig .tc) :=
  [main_v222, main_v223, main_v224]

/-- Operations 260 … 262 of 506. -/
noncomputable abbrev sg_b3 : List (HloOp τ sig (Elt F)) :=
  [ unary main_arg15 main_v225 ((extractStridedSlice S1x128x128 ![3, 0, 0] · slices_S6x128x128_S1x128x128_3_0_0) : (⟨S6x128x128, .f32⟩ : BufTy).Contents (Elt F) → (⟨S1x128x128, .f32⟩ : BufTy).Contents (Elt F)),
    reshape main_v225 main_v226 rfl shapeCasts_S1x128x128_S128x128,
    binary main_v221 main_v226 main_v227 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)) ]
/-- What they write, in order. -/
noncomputable abbrev sw_b3 : List (Ref sig .tc) :=
  [main_v225, main_v226, main_v227]

/-- Operations 263 … 271 of 506. -/
noncomputable abbrev sg_asrc3 : List (HloOp τ sig (Elt F)) :=
  [ nullary main_c_16 (constantI S_ 32 0#32),
    unary main_c_16 main_v228 (broadcastInDim S160000 ![] bcast_S_S160000 : (⟨S_, .i32⟩ : BufTy).Contents (Elt F) → (⟨S160000, .i32⟩ : BufTy).Contents (Elt F)),
    binary main_v1 main_v228 main_v229 (cmpi .slt : (⟨S160000, .i32⟩ : BufTy).Contents (Elt F) → (⟨S160000, .i32⟩ : BufTy).Contents (Elt F) → (⟨S160000, .i1⟩ : BufTy).Contents (Elt F)),
    nullary main_c_17 (constantI S_ 32 20000#32),
    unary main_c_17 main_v230 (broadcastInDim S160000 ![] bcast_S_S160000 : (⟨S_, .i32⟩ : BufTy).Contents (Elt F) → (⟨S160000, .i32⟩ : BufTy).Contents (Elt F)),
    binary main_v1 main_v230 main_v231 (addi : (⟨S160000, .i32⟩ : BufTy).Contents (Elt F) → (⟨S160000, .i32⟩ : BufTy).Contents (Elt F) → (⟨S160000, .i32⟩ : BufTy).Contents (Elt F)),
    ternary main_v229 main_v231 main_v1 main_v232 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v232 main_v233 (broadcastInDim S160000x1 ![0] bcast_S160000_S160000x1_0 : (⟨S160000, .i32⟩ : BufTy).Contents (Elt F) → (⟨S160000x1, .i32⟩ : BufTy).Contents (Elt F)),
    binary main_v224 main_v233 main_v234 ((fun x i => Host.gather gather_S20000x128_S160000x1_S160000x128_1_0_n_n_0_1_1128 x i) : (⟨S20000x128, .f32⟩ : BufTy).Contents (Elt F) → (⟨S160000x1, .i32⟩ : BufTy).Contents (Elt F) → (⟨S160000x128, .f32⟩ : BufTy).Contents (Elt F)) ]
/-- What they write, in order. -/
noncomputable abbrev sw_asrc3 : List (Ref sig .tc) :=
  [main_c_16, main_v228, main_v229, main_c_17, main_v230, main_v231, main_v232, main_v233, main_v234]

/-- Operations 272 … 280 of 506. -/
noncomputable abbrev sg_bdst3 : List (HloOp τ sig (Elt F)) :=
  [ nullary main_c_18 (constantI S_ 32 0#32),
    unary main_c_18 main_v235 (broadcastInDim S160000 ![] bcast_S_S160000 : (⟨S_, .i32⟩ : BufTy).Contents (Elt F) → (⟨S160000, .i32⟩ : BufTy).Contents (Elt F)),
    binary main_v3 main_v235 main_v236 (cmpi .slt : (⟨S160000, .i32⟩ : BufTy).Contents (Elt F) → (⟨S160000, .i32⟩ : BufTy).Contents (Elt F) → (⟨S160000, .i1⟩ : BufTy).Contents (Elt F)),
    nullary main_c_19 (constantI S_ 32 20000#32),
    unary main_c_19 main_v237 (broadcastInDim S160000 ![] bcast_S_S160000 : (⟨S_, .i32⟩ : BufTy).Contents (Elt F) → (⟨S160000, .i32⟩ : BufTy).Contents (Elt F)),
    binary main_v3 main_v237 main_v238 (addi : (⟨S160000, .i32⟩ : BufTy).Contents (Elt F) → (⟨S160000, .i32⟩ : BufTy).Contents (Elt F) → (⟨S160000, .i32⟩ : BufTy).Contents (Elt F)),
    ternary main_v236 main_v238 main_v3 main_v239 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v239 main_v240 (broadcastInDim S160000x1 ![0] bcast_S160000_S160000x1_0 : (⟨S160000, .i32⟩ : BufTy).Contents (Elt F) → (⟨S160000x1, .i32⟩ : BufTy).Contents (Elt F)),
    binary main_v227 main_v240 main_v241 ((fun x i => Host.gather gather_S20000x128_S160000x1_S160000x128_1_0_n_n_0_1_1128 x i) : (⟨S20000x128, .f32⟩ : BufTy).Contents (Elt F) → (⟨S160000x1, .i32⟩ : BufTy).Contents (Elt F) → (⟨S160000x128, .f32⟩ : BufTy).Contents (Elt F)) ]
/-- What they write, in order. -/
noncomputable abbrev sw_bdst3 : List (Ref sig .tc) :=
  [main_c_18, main_v235, main_v236, main_c_19, main_v237, main_v238, main_v239, main_v240, main_v241]

/-- Operations 281 … 301 of 506. -/
noncomputable abbrev sg_m3 : List (HloOp τ sig (Elt F)) :=
  [ binary main_v234 main_v241 main_v242 (addf : (⟨S160000x128, .f32⟩ : BufTy).Contents (Elt F) → (⟨S160000x128, .f32⟩ : BufTy).Contents (Elt F) → (⟨S160000x128, .f32⟩ : BufTy).Contents (Elt F)),
    unary main_arg16 main_v243 ((extractStridedSlice S1x128x128 ![3, 0, 0] · slices_S6x128x128_S1x128x128_3_0_0) : (⟨S6x128x128, .f32⟩ : BufTy).Contents (Elt F) → (⟨S1x128x128, .f32⟩ : BufTy).Contents (Elt F)),
    reshape main_v243 main_v244 rfl shapeCasts_S1x128x128_S128x128,
    binary main_v29 main_v244 main_v245 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)),
    binary main_v242 main_v245 main_v246 (addf : (⟨S160000x128, .f32⟩ : BufTy).Contents (Elt F) → (⟨S160000x128, .f32⟩ : BufTy).Contents (Elt F) → (⟨S160000x128, .f32⟩ : BufTy).Contents (Elt F)),
    unary main_arg17 main_v247 ((extractStridedSlice S1x128 ![3, 0] · slices_S6x128_S1x128_3_0) : (⟨S6x128, .f32⟩ : BufTy).Contents (Elt F) → (⟨S1x128, .f32⟩ : BufTy).Contents (Elt F)),
    reshape main_v247 main_v248 rfl shapeCasts_S1x128_S128,
    unary main_v248 main_v249 (broadcastInDim S1x128 ![1] bcast_S128_S1x128_1 : (⟨S128, .f32⟩ : BufTy).Contents (Elt F) → (⟨S1x128, .f32⟩ : BufTy).Contents (Elt F)),
    unary main_v249 main_v250 (broadcastInDim S160000x128 ![0, 1] bcast_S1x128_S160000x128_0_1 : (⟨S1x128, .f32⟩ : BufTy).Contents (Elt F) → (⟨S160000x128, .f32⟩ : BufTy).Contents (Elt F)),
    binary main_v246 main_v250 main_v251 (addf : (⟨S160000x128, .f32⟩ : BufTy).Contents (Elt F) → (⟨S160000x128, .f32⟩ : BufTy).Contents (Elt F) → (⟨S160000x128, .f32⟩ : BufTy).Contents (Elt F)),
    nullary main_call8_cst (constant S_ .f32 0x00000000#32),
    unary main_call8_cst main_call8_v0 (broadcastInDim S160000x128 ![] bcast_S_S160000x128 : (⟨S_, .f32⟩ : BufTy).Contents (Elt F) → (⟨S160000x128, .f32⟩ : BufTy).Contents (Elt F)),
    binary main_v251 main_call8_v0 main_v252 (maximumf : (⟨S160000x128, .f32⟩ : BufTy).Contents (Elt F) → (⟨S160000x128, .f32⟩ : BufTy).Contents (Elt F) → (⟨S160000x128, .f32⟩ : BufTy).Contents (Elt F)),
    unary main_arg18 main_v253 ((extractStridedSlice S1x128x128 ![3, 0, 0] · slices_S6x128x128_S1x128x128_3_0_0) : (⟨S6x128x128, .f32⟩ : BufTy).Contents (Elt F) → (⟨S1x128x128, .f32⟩ : BufTy).Contents (Elt F)),
    reshape main_v253 main_v254 rfl shapeCasts_S1x128x128_S128x128,
    binary main_v252 main_v254 main_v255 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)),
    unary main_arg19 main_v256 ((extractStridedSlice S1x128 ![3, 0] · slices_S6x128_S1x128_3_0) : (⟨S6x128, .f32⟩ : BufTy).Contents (Elt F) → (⟨S1x128, .f32⟩ : BufTy).Contents (Elt F)),
    reshape main_v256 main_v257 rfl shapeCasts_S1x128_S128,
    unary main_v257 main_v258 (broadcastInDim S1x128 ![1] bcast_S128_S1x128_1 : (⟨S128, .f32⟩ : BufTy).Contents (Elt F) → (⟨S1x128, .f32⟩ : BufTy).Contents (Elt F)),
    unary main_v258 main_v259 (broadcastInDim S160000x128 ![0, 1] bcast_S1x128_S160000x128_0_1 : (⟨S1x128, .f32⟩ : BufTy).Contents (Elt F) → (⟨S160000x128, .f32⟩ : BufTy).Contents (Elt F)),
    binary main_v255 main_v259 main_v260 (addf : (⟨S160000x128, .f32⟩ : BufTy).Contents (Elt F) → (⟨S160000x128, .f32⟩ : BufTy).Contents (Elt F) → (⟨S160000x128, .f32⟩ : BufTy).Contents (Elt F)) ]
/-- What they write, in order. -/
noncomputable abbrev sw_m3 : List (Ref sig .tc) :=
  [main_v242, main_v243, main_v244, main_v245, main_v246, main_v247, main_v248, main_v249, main_v250, main_v251, main_call8_cst, main_call8_v0, main_v252, main_v253, main_v254, main_v255, main_v256, main_v257, main_v258, main_v259, main_v260]

/-- Operations 302 … 305 of 506. -/
noncomputable abbrev sg_agg3 : List (HloOp τ sig (Elt F)) :=
  [ nullary main_cst_20 (constant S_ .f32 0x00000000#32),
    unary main_cst_20 main_v261 (broadcastInDim S20000x128 ![] bcast_S_S20000x128 : (⟨S_, .f32⟩ : BufTy).Contents (Elt F) → (⟨S20000x128, .f32⟩ : BufTy).Contents (Elt F)),
    unary main_v3 main_v262 (broadcastInDim S160000x1 ![0] bcast_S160000_S160000x1_0 : (⟨S160000, .i32⟩ : BufTy).Contents (Elt F) → (⟨S160000x1, .i32⟩ : BufTy).Contents (Elt F)),
    ternary main_v261 main_v262 main_v260 main_v263 ((fun x i u => Host.scatterAdd scatter_S20000x128_S160000x1_S160000x128_1_0_0_1 x i u) : (⟨S20000x128, .f32⟩ : BufTy).Contents (Elt F) → (⟨S160000x1, .i32⟩ : BufTy).Contents (Elt F) → (⟨S160000x128, .f32⟩ : BufTy).Contents (Elt F) → (⟨S20000x128, .f32⟩ : BufTy).Contents (Elt F)) ]
/-- What they write, in order. -/
noncomputable abbrev sw_agg3 : List (Ref sig .tc) :=
  [main_cst_20, main_v261, main_v262, main_v263]

/-- Operations 306 … 329 of 506. -/
noncomputable abbrev sg_h4 : List (HloOp τ sig (Elt F)) :=
  [ unary main_arg20 main_v264 ((extractStridedSlice S1x128x128 ![3, 0, 0] · slices_S6x128x128_S1x128x128_3_0_0) : (⟨S6x128x128, .f32⟩ : BufTy).Contents (Elt F) → (⟨S1x128x128, .f32⟩ : BufTy).Contents (Elt F)),
    reshape main_v264 main_v265 rfl shapeCasts_S1x128x128_S128x128,
    binary main_v221 main_v265 main_v266 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg21 main_v267 ((extractStridedSlice S1x128x128 ![3, 0, 0] · slices_S6x128x128_S1x128x128_3_0_0) : (⟨S6x128x128, .f32⟩ : BufTy).Contents (Elt F) → (⟨S1x128x128, .f32⟩ : BufTy).Contents (Elt F)),
    reshape main_v267 main_v268 rfl shapeCasts_S1x128x128_S128x128,
    binary main_v263 main_v268 main_v269 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    binary main_v266 main_v269 main_v270 (addf : (⟨S20000x128, .f32⟩ : BufTy).Contents (Elt F) → (⟨S20000x128, .f32⟩ : BufTy).Contents (Elt F) → (⟨S20000x128, .f32⟩ : BufTy).Contents (Elt F)),
    unary main_arg22 main_v271 ((extractStridedSlice S1x128 ![3, 0] · slices_S6x128_S1x128_3_0) : (⟨S6x128, .f32⟩ : BufTy).Contents (Elt F) → (⟨S1x128, .f32⟩ : BufTy).Contents (Elt F)),
    reshape main_v271 main_v272 rfl shapeCasts_S1x128_S128,
    unary main_v272 main_v273 (broadcastInDim S1x128 ![1] bcast_S128_S1x128_1 : (⟨S128, .f32⟩ : BufTy).Contents (Elt F) → (⟨S1x128, .f32⟩ : BufTy).Contents (Elt F)),
    unary main_v273 main_v274 (broadcastInDim S20000x128 ![0, 1] bcast_S1x128_S20000x128_0_1 : (⟨S1x128, .f32⟩ : BufTy).Contents (Elt F) → (⟨S20000x128, .f32⟩ : BufTy).Contents (Elt F)),
    binary main_v270 main_v274 main_v275 (addf : (⟨S20000x128, .f32⟩ : BufTy).Contents (Elt F) → (⟨S20000x128, .f32⟩ : BufTy).Contents (Elt F) → (⟨S20000x128, .f32⟩ : BufTy).Contents (Elt F)),
    nullary main_call9_cst (constant S_ .f32 0x00000000#32),
    unary main_call9_cst main_call9_v0 (broadcastInDim S20000x128 ![] bcast_S_S20000x128 : (⟨S_, .f32⟩ : BufTy).Contents (Elt F) → (⟨S20000x128, .f32⟩ : BufTy).Contents (Elt F)),
    binary main_v275 main_call9_v0 main_v276 (maximumf : (⟨S20000x128, .f32⟩ : BufTy).Contents (Elt F) → (⟨S20000x128, .f32⟩ : BufTy).Contents (Elt F) → (⟨S20000x128, .f32⟩ : BufTy).Contents (Elt F)),
    unary main_arg23 main_v277 ((extractStridedSlice S1x128x128 ![3, 0, 0] · slices_S6x128x128_S1x128x128_3_0_0) : (⟨S6x128x128, .f32⟩ : BufTy).Contents (Elt F) → (⟨S1x128x128, .f32⟩ : BufTy).Contents (Elt F)),
    reshape main_v277 main_v278 rfl shapeCasts_S1x128x128_S128x128,
    binary main_v276 main_v278 main_v279 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg24 main_v280 ((extractStridedSlice S1x128 ![3, 0] · slices_S6x128_S1x128_3_0) : (⟨S6x128, .f32⟩ : BufTy).Contents (Elt F) → (⟨S1x128, .f32⟩ : BufTy).Contents (Elt F)),
    reshape main_v280 main_v281 rfl shapeCasts_S1x128_S128,
    unary main_v281 main_v282 (broadcastInDim S1x128 ![1] bcast_S128_S1x128_1 : (⟨S128, .f32⟩ : BufTy).Contents (Elt F) → (⟨S1x128, .f32⟩ : BufTy).Contents (Elt F)),
    unary main_v282 main_v283 (broadcastInDim S20000x128 ![0, 1] bcast_S1x128_S20000x128_0_1 : (⟨S1x128, .f32⟩ : BufTy).Contents (Elt F) → (⟨S20000x128, .f32⟩ : BufTy).Contents (Elt F)),
    binary main_v279 main_v283 main_v284 (addf : (⟨S20000x128, .f32⟩ : BufTy).Contents (Elt F) → (⟨S20000x128, .f32⟩ : BufTy).Contents (Elt F) → (⟨S20000x128, .f32⟩ : BufTy).Contents (Elt F)),
    binary main_v221 main_v284 main_v285 (addf : (⟨S20000x128, .f32⟩ : BufTy).Contents (Elt F) → (⟨S20000x128, .f32⟩ : BufTy).Contents (Elt F) → (⟨S20000x128, .f32⟩ : BufTy).Contents (Elt F)) ]
/-- What they write, in order. -/
noncomputable abbrev sw_h4 : List (Ref sig .tc) :=
  [main_v264, main_v265, main_v266, main_v267, main_v268, main_v269, main_v270, main_v271, main_v272, main_v273, main_v274, main_v275, main_call9_cst, main_call9_v0, main_v276, main_v277, main_v278, main_v279, main_v280, main_v281, main_v282, main_v283, main_v284, main_v285]

/-- Operations 330 … 332 of 506. -/
noncomputable abbrev sg_a4 : List (HloOp τ sig (Elt F)) :=
  [ unary main_arg14 main_v286 ((extractStridedSlice S1x128x128 ![4, 0, 0] · slices_S6x128x128_S1x128x128_4_0_0) : (⟨S6x128x128, .f32⟩ : BufTy).Contents (Elt F) → (⟨S1x128x128, .f32⟩ : BufTy).Contents (Elt F)),
    reshape main_v286 main_v287 rfl shapeCasts_S1x128x128_S128x128,
    binary main_v285 main_v287 main_v288 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)) ]
/-- What they write, in order. -/
noncomputable abbrev sw_a4 : List (Ref sig .tc) :=
  [main_v286, main_v287, main_v288]

/-- Operations 333 … 335 of 506. -/
noncomputable abbrev sg_b4 : List (HloOp τ sig (Elt F)) :=
  [ unary main_arg15 main_v289 ((extractStridedSlice S1x128x128 ![4, 0, 0] · slices_S6x128x128_S1x128x128_4_0_0) : (⟨S6x128x128, .f32⟩ : BufTy).Contents (Elt F) → (⟨S1x128x128, .f32⟩ : BufTy).Contents (Elt F)),
    reshape main_v289 main_v290 rfl shapeCasts_S1x128x128_S128x128,
    binary main_v285 main_v290 main_v291 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)) ]
/-- What they write, in order. -/
noncomputable abbrev sw_b4 : List (Ref sig .tc) :=
  [main_v289, main_v290, main_v291]

/-- Operations 336 … 344 of 506. -/
noncomputable abbrev sg_asrc4 : List (HloOp τ sig (Elt F)) :=
  [ nullary main_c_21 (constantI S_ 32 0#32),
    unary main_c_21 main_v292 (broadcastInDim S160000 ![] bcast_S_S160000 : (⟨S_, .i32⟩ : BufTy).Contents (Elt F) → (⟨S160000, .i32⟩ : BufTy).Contents (Elt F)),
    binary main_v1 main_v292 main_v293 (cmpi .slt : (⟨S160000, .i32⟩ : BufTy).Contents (Elt F) → (⟨S160000, .i32⟩ : BufTy).Contents (Elt F) → (⟨S160000, .i1⟩ : BufTy).Contents (Elt F)),
    nullary main_c_22 (constantI S_ 32 20000#32),
    unary main_c_22 main_v294 (broadcastInDim S160000 ![] bcast_S_S160000 : (⟨S_, .i32⟩ : BufTy).Contents (Elt F) → (⟨S160000, .i32⟩ : BufTy).Contents (Elt F)),
    binary main_v1 main_v294 main_v295 (addi : (⟨S160000, .i32⟩ : BufTy).Contents (Elt F) → (⟨S160000, .i32⟩ : BufTy).Contents (Elt F) → (⟨S160000, .i32⟩ : BufTy).Contents (Elt F)),
    ternary main_v293 main_v295 main_v1 main_v296 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v296 main_v297 (broadcastInDim S160000x1 ![0] bcast_S160000_S160000x1_0 : (⟨S160000, .i32⟩ : BufTy).Contents (Elt F) → (⟨S160000x1, .i32⟩ : BufTy).Contents (Elt F)),
    binary main_v288 main_v297 main_v298 ((fun x i => Host.gather gather_S20000x128_S160000x1_S160000x128_1_0_n_n_0_1_1128 x i) : (⟨S20000x128, .f32⟩ : BufTy).Contents (Elt F) → (⟨S160000x1, .i32⟩ : BufTy).Contents (Elt F) → (⟨S160000x128, .f32⟩ : BufTy).Contents (Elt F)) ]
/-- What they write, in order. -/
noncomputable abbrev sw_asrc4 : List (Ref sig .tc) :=
  [main_c_21, main_v292, main_v293, main_c_22, main_v294, main_v295, main_v296, main_v297, main_v298]

/-- Operations 345 … 353 of 506. -/
noncomputable abbrev sg_bdst4 : List (HloOp τ sig (Elt F)) :=
  [ nullary main_c_23 (constantI S_ 32 0#32),
    unary main_c_23 main_v299 (broadcastInDim S160000 ![] bcast_S_S160000 : (⟨S_, .i32⟩ : BufTy).Contents (Elt F) → (⟨S160000, .i32⟩ : BufTy).Contents (Elt F)),
    binary main_v3 main_v299 main_v300 (cmpi .slt : (⟨S160000, .i32⟩ : BufTy).Contents (Elt F) → (⟨S160000, .i32⟩ : BufTy).Contents (Elt F) → (⟨S160000, .i1⟩ : BufTy).Contents (Elt F)),
    nullary main_c_24 (constantI S_ 32 20000#32),
    unary main_c_24 main_v301 (broadcastInDim S160000 ![] bcast_S_S160000 : (⟨S_, .i32⟩ : BufTy).Contents (Elt F) → (⟨S160000, .i32⟩ : BufTy).Contents (Elt F)),
    binary main_v3 main_v301 main_v302 (addi : (⟨S160000, .i32⟩ : BufTy).Contents (Elt F) → (⟨S160000, .i32⟩ : BufTy).Contents (Elt F) → (⟨S160000, .i32⟩ : BufTy).Contents (Elt F)),
    ternary main_v300 main_v302 main_v3 main_v303 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v303 main_v304 (broadcastInDim S160000x1 ![0] bcast_S160000_S160000x1_0 : (⟨S160000, .i32⟩ : BufTy).Contents (Elt F) → (⟨S160000x1, .i32⟩ : BufTy).Contents (Elt F)),
    binary main_v291 main_v304 main_v305 ((fun x i => Host.gather gather_S20000x128_S160000x1_S160000x128_1_0_n_n_0_1_1128 x i) : (⟨S20000x128, .f32⟩ : BufTy).Contents (Elt F) → (⟨S160000x1, .i32⟩ : BufTy).Contents (Elt F) → (⟨S160000x128, .f32⟩ : BufTy).Contents (Elt F)) ]
/-- What they write, in order. -/
noncomputable abbrev sw_bdst4 : List (Ref sig .tc) :=
  [main_c_23, main_v299, main_v300, main_c_24, main_v301, main_v302, main_v303, main_v304, main_v305]

/-- Operations 354 … 374 of 506. -/
noncomputable abbrev sg_m4 : List (HloOp τ sig (Elt F)) :=
  [ binary main_v298 main_v305 main_v306 (addf : (⟨S160000x128, .f32⟩ : BufTy).Contents (Elt F) → (⟨S160000x128, .f32⟩ : BufTy).Contents (Elt F) → (⟨S160000x128, .f32⟩ : BufTy).Contents (Elt F)),
    unary main_arg16 main_v307 ((extractStridedSlice S1x128x128 ![4, 0, 0] · slices_S6x128x128_S1x128x128_4_0_0) : (⟨S6x128x128, .f32⟩ : BufTy).Contents (Elt F) → (⟨S1x128x128, .f32⟩ : BufTy).Contents (Elt F)),
    reshape main_v307 main_v308 rfl shapeCasts_S1x128x128_S128x128,
    binary main_v29 main_v308 main_v309 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)),
    binary main_v306 main_v309 main_v310 (addf : (⟨S160000x128, .f32⟩ : BufTy).Contents (Elt F) → (⟨S160000x128, .f32⟩ : BufTy).Contents (Elt F) → (⟨S160000x128, .f32⟩ : BufTy).Contents (Elt F)),
    unary main_arg17 main_v311 ((extractStridedSlice S1x128 ![4, 0] · slices_S6x128_S1x128_4_0) : (⟨S6x128, .f32⟩ : BufTy).Contents (Elt F) → (⟨S1x128, .f32⟩ : BufTy).Contents (Elt F)),
    reshape main_v311 main_v312 rfl shapeCasts_S1x128_S128,
    unary main_v312 main_v313 (broadcastInDim S1x128 ![1] bcast_S128_S1x128_1 : (⟨S128, .f32⟩ : BufTy).Contents (Elt F) → (⟨S1x128, .f32⟩ : BufTy).Contents (Elt F)),
    unary main_v313 main_v314 (broadcastInDim S160000x128 ![0, 1] bcast_S1x128_S160000x128_0_1 : (⟨S1x128, .f32⟩ : BufTy).Contents (Elt F) → (⟨S160000x128, .f32⟩ : BufTy).Contents (Elt F)),
    binary main_v310 main_v314 main_v315 (addf : (⟨S160000x128, .f32⟩ : BufTy).Contents (Elt F) → (⟨S160000x128, .f32⟩ : BufTy).Contents (Elt F) → (⟨S160000x128, .f32⟩ : BufTy).Contents (Elt F)),
    nullary main_call10_cst (constant S_ .f32 0x00000000#32),
    unary main_call10_cst main_call10_v0 (broadcastInDim S160000x128 ![] bcast_S_S160000x128 : (⟨S_, .f32⟩ : BufTy).Contents (Elt F) → (⟨S160000x128, .f32⟩ : BufTy).Contents (Elt F)),
    binary main_v315 main_call10_v0 main_v316 (maximumf : (⟨S160000x128, .f32⟩ : BufTy).Contents (Elt F) → (⟨S160000x128, .f32⟩ : BufTy).Contents (Elt F) → (⟨S160000x128, .f32⟩ : BufTy).Contents (Elt F)),
    unary main_arg18 main_v317 ((extractStridedSlice S1x128x128 ![4, 0, 0] · slices_S6x128x128_S1x128x128_4_0_0) : (⟨S6x128x128, .f32⟩ : BufTy).Contents (Elt F) → (⟨S1x128x128, .f32⟩ : BufTy).Contents (Elt F)),
    reshape main_v317 main_v318 rfl shapeCasts_S1x128x128_S128x128,
    binary main_v316 main_v318 main_v319 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)),
    unary main_arg19 main_v320 ((extractStridedSlice S1x128 ![4, 0] · slices_S6x128_S1x128_4_0) : (⟨S6x128, .f32⟩ : BufTy).Contents (Elt F) → (⟨S1x128, .f32⟩ : BufTy).Contents (Elt F)),
    reshape main_v320 main_v321 rfl shapeCasts_S1x128_S128,
    unary main_v321 main_v322 (broadcastInDim S1x128 ![1] bcast_S128_S1x128_1 : (⟨S128, .f32⟩ : BufTy).Contents (Elt F) → (⟨S1x128, .f32⟩ : BufTy).Contents (Elt F)),
    unary main_v322 main_v323 (broadcastInDim S160000x128 ![0, 1] bcast_S1x128_S160000x128_0_1 : (⟨S1x128, .f32⟩ : BufTy).Contents (Elt F) → (⟨S160000x128, .f32⟩ : BufTy).Contents (Elt F)),
    binary main_v319 main_v323 main_v324 (addf : (⟨S160000x128, .f32⟩ : BufTy).Contents (Elt F) → (⟨S160000x128, .f32⟩ : BufTy).Contents (Elt F) → (⟨S160000x128, .f32⟩ : BufTy).Contents (Elt F)) ]
/-- What they write, in order. -/
noncomputable abbrev sw_m4 : List (Ref sig .tc) :=
  [main_v306, main_v307, main_v308, main_v309, main_v310, main_v311, main_v312, main_v313, main_v314, main_v315, main_call10_cst, main_call10_v0, main_v316, main_v317, main_v318, main_v319, main_v320, main_v321, main_v322, main_v323, main_v324]

/-- Operations 375 … 378 of 506. -/
noncomputable abbrev sg_agg4 : List (HloOp τ sig (Elt F)) :=
  [ nullary main_cst_25 (constant S_ .f32 0x00000000#32),
    unary main_cst_25 main_v325 (broadcastInDim S20000x128 ![] bcast_S_S20000x128 : (⟨S_, .f32⟩ : BufTy).Contents (Elt F) → (⟨S20000x128, .f32⟩ : BufTy).Contents (Elt F)),
    unary main_v3 main_v326 (broadcastInDim S160000x1 ![0] bcast_S160000_S160000x1_0 : (⟨S160000, .i32⟩ : BufTy).Contents (Elt F) → (⟨S160000x1, .i32⟩ : BufTy).Contents (Elt F)),
    ternary main_v325 main_v326 main_v324 main_v327 ((fun x i u => Host.scatterAdd scatter_S20000x128_S160000x1_S160000x128_1_0_0_1 x i u) : (⟨S20000x128, .f32⟩ : BufTy).Contents (Elt F) → (⟨S160000x1, .i32⟩ : BufTy).Contents (Elt F) → (⟨S160000x128, .f32⟩ : BufTy).Contents (Elt F) → (⟨S20000x128, .f32⟩ : BufTy).Contents (Elt F)) ]
/-- What they write, in order. -/
noncomputable abbrev sw_agg4 : List (Ref sig .tc) :=
  [main_cst_25, main_v325, main_v326, main_v327]

/-- Operations 379 … 402 of 506. -/
noncomputable abbrev sg_h5 : List (HloOp τ sig (Elt F)) :=
  [ unary main_arg20 main_v328 ((extractStridedSlice S1x128x128 ![4, 0, 0] · slices_S6x128x128_S1x128x128_4_0_0) : (⟨S6x128x128, .f32⟩ : BufTy).Contents (Elt F) → (⟨S1x128x128, .f32⟩ : BufTy).Contents (Elt F)),
    reshape main_v328 main_v329 rfl shapeCasts_S1x128x128_S128x128,
    binary main_v285 main_v329 main_v330 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg21 main_v331 ((extractStridedSlice S1x128x128 ![4, 0, 0] · slices_S6x128x128_S1x128x128_4_0_0) : (⟨S6x128x128, .f32⟩ : BufTy).Contents (Elt F) → (⟨S1x128x128, .f32⟩ : BufTy).Contents (Elt F)),
    reshape main_v331 main_v332 rfl shapeCasts_S1x128x128_S128x128,
    binary main_v327 main_v332 main_v333 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    binary main_v330 main_v333 main_v334 (addf : (⟨S20000x128, .f32⟩ : BufTy).Contents (Elt F) → (⟨S20000x128, .f32⟩ : BufTy).Contents (Elt F) → (⟨S20000x128, .f32⟩ : BufTy).Contents (Elt F)),
    unary main_arg22 main_v335 ((extractStridedSlice S1x128 ![4, 0] · slices_S6x128_S1x128_4_0) : (⟨S6x128, .f32⟩ : BufTy).Contents (Elt F) → (⟨S1x128, .f32⟩ : BufTy).Contents (Elt F)),
    reshape main_v335 main_v336 rfl shapeCasts_S1x128_S128,
    unary main_v336 main_v337 (broadcastInDim S1x128 ![1] bcast_S128_S1x128_1 : (⟨S128, .f32⟩ : BufTy).Contents (Elt F) → (⟨S1x128, .f32⟩ : BufTy).Contents (Elt F)),
    unary main_v337 main_v338 (broadcastInDim S20000x128 ![0, 1] bcast_S1x128_S20000x128_0_1 : (⟨S1x128, .f32⟩ : BufTy).Contents (Elt F) → (⟨S20000x128, .f32⟩ : BufTy).Contents (Elt F)),
    binary main_v334 main_v338 main_v339 (addf : (⟨S20000x128, .f32⟩ : BufTy).Contents (Elt F) → (⟨S20000x128, .f32⟩ : BufTy).Contents (Elt F) → (⟨S20000x128, .f32⟩ : BufTy).Contents (Elt F)),
    nullary main_call11_cst (constant S_ .f32 0x00000000#32),
    unary main_call11_cst main_call11_v0 (broadcastInDim S20000x128 ![] bcast_S_S20000x128 : (⟨S_, .f32⟩ : BufTy).Contents (Elt F) → (⟨S20000x128, .f32⟩ : BufTy).Contents (Elt F)),
    binary main_v339 main_call11_v0 main_v340 (maximumf : (⟨S20000x128, .f32⟩ : BufTy).Contents (Elt F) → (⟨S20000x128, .f32⟩ : BufTy).Contents (Elt F) → (⟨S20000x128, .f32⟩ : BufTy).Contents (Elt F)),
    unary main_arg23 main_v341 ((extractStridedSlice S1x128x128 ![4, 0, 0] · slices_S6x128x128_S1x128x128_4_0_0) : (⟨S6x128x128, .f32⟩ : BufTy).Contents (Elt F) → (⟨S1x128x128, .f32⟩ : BufTy).Contents (Elt F)),
    reshape main_v341 main_v342 rfl shapeCasts_S1x128x128_S128x128,
    binary main_v340 main_v342 main_v343 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg24 main_v344 ((extractStridedSlice S1x128 ![4, 0] · slices_S6x128_S1x128_4_0) : (⟨S6x128, .f32⟩ : BufTy).Contents (Elt F) → (⟨S1x128, .f32⟩ : BufTy).Contents (Elt F)),
    reshape main_v344 main_v345 rfl shapeCasts_S1x128_S128,
    unary main_v345 main_v346 (broadcastInDim S1x128 ![1] bcast_S128_S1x128_1 : (⟨S128, .f32⟩ : BufTy).Contents (Elt F) → (⟨S1x128, .f32⟩ : BufTy).Contents (Elt F)),
    unary main_v346 main_v347 (broadcastInDim S20000x128 ![0, 1] bcast_S1x128_S20000x128_0_1 : (⟨S1x128, .f32⟩ : BufTy).Contents (Elt F) → (⟨S20000x128, .f32⟩ : BufTy).Contents (Elt F)),
    binary main_v343 main_v347 main_v348 (addf : (⟨S20000x128, .f32⟩ : BufTy).Contents (Elt F) → (⟨S20000x128, .f32⟩ : BufTy).Contents (Elt F) → (⟨S20000x128, .f32⟩ : BufTy).Contents (Elt F)),
    binary main_v285 main_v348 main_v349 (addf : (⟨S20000x128, .f32⟩ : BufTy).Contents (Elt F) → (⟨S20000x128, .f32⟩ : BufTy).Contents (Elt F) → (⟨S20000x128, .f32⟩ : BufTy).Contents (Elt F)) ]
/-- What they write, in order. -/
noncomputable abbrev sw_h5 : List (Ref sig .tc) :=
  [main_v328, main_v329, main_v330, main_v331, main_v332, main_v333, main_v334, main_v335, main_v336, main_v337, main_v338, main_v339, main_call11_cst, main_call11_v0, main_v340, main_v341, main_v342, main_v343, main_v344, main_v345, main_v346, main_v347, main_v348, main_v349]

/-- Operations 403 … 405 of 506. -/
noncomputable abbrev sg_a5 : List (HloOp τ sig (Elt F)) :=
  [ unary main_arg14 main_v350 ((extractStridedSlice S1x128x128 ![5, 0, 0] · slices_S6x128x128_S1x128x128_5_0_0) : (⟨S6x128x128, .f32⟩ : BufTy).Contents (Elt F) → (⟨S1x128x128, .f32⟩ : BufTy).Contents (Elt F)),
    reshape main_v350 main_v351 rfl shapeCasts_S1x128x128_S128x128,
    binary main_v349 main_v351 main_v352 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)) ]
/-- What they write, in order. -/
noncomputable abbrev sw_a5 : List (Ref sig .tc) :=
  [main_v350, main_v351, main_v352]

/-- Operations 406 … 408 of 506. -/
noncomputable abbrev sg_b5 : List (HloOp τ sig (Elt F)) :=
  [ unary main_arg15 main_v353 ((extractStridedSlice S1x128x128 ![5, 0, 0] · slices_S6x128x128_S1x128x128_5_0_0) : (⟨S6x128x128, .f32⟩ : BufTy).Contents (Elt F) → (⟨S1x128x128, .f32⟩ : BufTy).Contents (Elt F)),
    reshape main_v353 main_v354 rfl shapeCasts_S1x128x128_S128x128,
    binary main_v349 main_v354 main_v355 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)) ]
/-- What they write, in order. -/
noncomputable abbrev sw_b5 : List (Ref sig .tc) :=
  [main_v353, main_v354, main_v355]

/-- Operations 409 … 417 of 506. -/
noncomputable abbrev sg_asrc5 : List (HloOp τ sig (Elt F)) :=
  [ nullary main_c_26 (constantI S_ 32 0#32),
    unary main_c_26 main_v356 (broadcastInDim S160000 ![] bcast_S_S160000 : (⟨S_, .i32⟩ : BufTy).Contents (Elt F) → (⟨S160000, .i32⟩ : BufTy).Contents (Elt F)),
    binary main_v1 main_v356 main_v357 (cmpi .slt : (⟨S160000, .i32⟩ : BufTy).Contents (Elt F) → (⟨S160000, .i32⟩ : BufTy).Contents (Elt F) → (⟨S160000, .i1⟩ : BufTy).Contents (Elt F)),
    nullary main_c_27 (constantI S_ 32 20000#32),
    unary main_c_27 main_v358 (broadcastInDim S160000 ![] bcast_S_S160000 : (⟨S_, .i32⟩ : BufTy).Contents (Elt F) → (⟨S160000, .i32⟩ : BufTy).Contents (Elt F)),
    binary main_v1 main_v358 main_v359 (addi : (⟨S160000, .i32⟩ : BufTy).Contents (Elt F) → (⟨S160000, .i32⟩ : BufTy).Contents (Elt F) → (⟨S160000, .i32⟩ : BufTy).Contents (Elt F)),
    ternary main_v357 main_v359 main_v1 main_v360 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v360 main_v361 (broadcastInDim S160000x1 ![0] bcast_S160000_S160000x1_0 : (⟨S160000, .i32⟩ : BufTy).Contents (Elt F) → (⟨S160000x1, .i32⟩ : BufTy).Contents (Elt F)),
    binary main_v352 main_v361 main_v362 ((fun x i => Host.gather gather_S20000x128_S160000x1_S160000x128_1_0_n_n_0_1_1128 x i) : (⟨S20000x128, .f32⟩ : BufTy).Contents (Elt F) → (⟨S160000x1, .i32⟩ : BufTy).Contents (Elt F) → (⟨S160000x128, .f32⟩ : BufTy).Contents (Elt F)) ]
/-- What they write, in order. -/
noncomputable abbrev sw_asrc5 : List (Ref sig .tc) :=
  [main_c_26, main_v356, main_v357, main_c_27, main_v358, main_v359, main_v360, main_v361, main_v362]

/-- Operations 418 … 426 of 506. -/
noncomputable abbrev sg_bdst5 : List (HloOp τ sig (Elt F)) :=
  [ nullary main_c_28 (constantI S_ 32 0#32),
    unary main_c_28 main_v363 (broadcastInDim S160000 ![] bcast_S_S160000 : (⟨S_, .i32⟩ : BufTy).Contents (Elt F) → (⟨S160000, .i32⟩ : BufTy).Contents (Elt F)),
    binary main_v3 main_v363 main_v364 (cmpi .slt : (⟨S160000, .i32⟩ : BufTy).Contents (Elt F) → (⟨S160000, .i32⟩ : BufTy).Contents (Elt F) → (⟨S160000, .i1⟩ : BufTy).Contents (Elt F)),
    nullary main_c_29 (constantI S_ 32 20000#32),
    unary main_c_29 main_v365 (broadcastInDim S160000 ![] bcast_S_S160000 : (⟨S_, .i32⟩ : BufTy).Contents (Elt F) → (⟨S160000, .i32⟩ : BufTy).Contents (Elt F)),
    binary main_v3 main_v365 main_v366 (addi : (⟨S160000, .i32⟩ : BufTy).Contents (Elt F) → (⟨S160000, .i32⟩ : BufTy).Contents (Elt F) → (⟨S160000, .i32⟩ : BufTy).Contents (Elt F)),
    ternary main_v364 main_v366 main_v3 main_v367 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v367 main_v368 (broadcastInDim S160000x1 ![0] bcast_S160000_S160000x1_0 : (⟨S160000, .i32⟩ : BufTy).Contents (Elt F) → (⟨S160000x1, .i32⟩ : BufTy).Contents (Elt F)),
    binary main_v355 main_v368 main_v369 ((fun x i => Host.gather gather_S20000x128_S160000x1_S160000x128_1_0_n_n_0_1_1128 x i) : (⟨S20000x128, .f32⟩ : BufTy).Contents (Elt F) → (⟨S160000x1, .i32⟩ : BufTy).Contents (Elt F) → (⟨S160000x128, .f32⟩ : BufTy).Contents (Elt F)) ]
/-- What they write, in order. -/
noncomputable abbrev sw_bdst5 : List (Ref sig .tc) :=
  [main_c_28, main_v363, main_v364, main_c_29, main_v365, main_v366, main_v367, main_v368, main_v369]

/-- Operations 427 … 447 of 506. -/
noncomputable abbrev sg_m5 : List (HloOp τ sig (Elt F)) :=
  [ binary main_v362 main_v369 main_v370 (addf : (⟨S160000x128, .f32⟩ : BufTy).Contents (Elt F) → (⟨S160000x128, .f32⟩ : BufTy).Contents (Elt F) → (⟨S160000x128, .f32⟩ : BufTy).Contents (Elt F)),
    unary main_arg16 main_v371 ((extractStridedSlice S1x128x128 ![5, 0, 0] · slices_S6x128x128_S1x128x128_5_0_0) : (⟨S6x128x128, .f32⟩ : BufTy).Contents (Elt F) → (⟨S1x128x128, .f32⟩ : BufTy).Contents (Elt F)),
    reshape main_v371 main_v372 rfl shapeCasts_S1x128x128_S128x128,
    binary main_v29 main_v372 main_v373 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)),
    binary main_v370 main_v373 main_v374 (addf : (⟨S160000x128, .f32⟩ : BufTy).Contents (Elt F) → (⟨S160000x128, .f32⟩ : BufTy).Contents (Elt F) → (⟨S160000x128, .f32⟩ : BufTy).Contents (Elt F)),
    unary main_arg17 main_v375 ((extractStridedSlice S1x128 ![5, 0] · slices_S6x128_S1x128_5_0) : (⟨S6x128, .f32⟩ : BufTy).Contents (Elt F) → (⟨S1x128, .f32⟩ : BufTy).Contents (Elt F)),
    reshape main_v375 main_v376 rfl shapeCasts_S1x128_S128,
    unary main_v376 main_v377 (broadcastInDim S1x128 ![1] bcast_S128_S1x128_1 : (⟨S128, .f32⟩ : BufTy).Contents (Elt F) → (⟨S1x128, .f32⟩ : BufTy).Contents (Elt F)),
    unary main_v377 main_v378 (broadcastInDim S160000x128 ![0, 1] bcast_S1x128_S160000x128_0_1 : (⟨S1x128, .f32⟩ : BufTy).Contents (Elt F) → (⟨S160000x128, .f32⟩ : BufTy).Contents (Elt F)),
    binary main_v374 main_v378 main_v379 (addf : (⟨S160000x128, .f32⟩ : BufTy).Contents (Elt F) → (⟨S160000x128, .f32⟩ : BufTy).Contents (Elt F) → (⟨S160000x128, .f32⟩ : BufTy).Contents (Elt F)),
    nullary main_call12_cst (constant S_ .f32 0x00000000#32),
    unary main_call12_cst main_call12_v0 (broadcastInDim S160000x128 ![] bcast_S_S160000x128 : (⟨S_, .f32⟩ : BufTy).Contents (Elt F) → (⟨S160000x128, .f32⟩ : BufTy).Contents (Elt F)),
    binary main_v379 main_call12_v0 main_v380 (maximumf : (⟨S160000x128, .f32⟩ : BufTy).Contents (Elt F) → (⟨S160000x128, .f32⟩ : BufTy).Contents (Elt F) → (⟨S160000x128, .f32⟩ : BufTy).Contents (Elt F)),
    unary main_arg18 main_v381 ((extractStridedSlice S1x128x128 ![5, 0, 0] · slices_S6x128x128_S1x128x128_5_0_0) : (⟨S6x128x128, .f32⟩ : BufTy).Contents (Elt F) → (⟨S1x128x128, .f32⟩ : BufTy).Contents (Elt F)),
    reshape main_v381 main_v382 rfl shapeCasts_S1x128x128_S128x128,
    binary main_v380 main_v382 main_v383 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)),
    unary main_arg19 main_v384 ((extractStridedSlice S1x128 ![5, 0] · slices_S6x128_S1x128_5_0) : (⟨S6x128, .f32⟩ : BufTy).Contents (Elt F) → (⟨S1x128, .f32⟩ : BufTy).Contents (Elt F)),
    reshape main_v384 main_v385 rfl shapeCasts_S1x128_S128,
    unary main_v385 main_v386 (broadcastInDim S1x128 ![1] bcast_S128_S1x128_1 : (⟨S128, .f32⟩ : BufTy).Contents (Elt F) → (⟨S1x128, .f32⟩ : BufTy).Contents (Elt F)),
    unary main_v386 main_v387 (broadcastInDim S160000x128 ![0, 1] bcast_S1x128_S160000x128_0_1 : (⟨S1x128, .f32⟩ : BufTy).Contents (Elt F) → (⟨S160000x128, .f32⟩ : BufTy).Contents (Elt F)),
    binary main_v383 main_v387 main_v388 (addf : (⟨S160000x128, .f32⟩ : BufTy).Contents (Elt F) → (⟨S160000x128, .f32⟩ : BufTy).Contents (Elt F) → (⟨S160000x128, .f32⟩ : BufTy).Contents (Elt F)) ]
/-- What they write, in order. -/
noncomputable abbrev sw_m5 : List (Ref sig .tc) :=
  [main_v370, main_v371, main_v372, main_v373, main_v374, main_v375, main_v376, main_v377, main_v378, main_v379, main_call12_cst, main_call12_v0, main_v380, main_v381, main_v382, main_v383, main_v384, main_v385, main_v386, main_v387, main_v388]

/-- Operations 448 … 451 of 506. -/
noncomputable abbrev sg_agg5 : List (HloOp τ sig (Elt F)) :=
  [ nullary main_cst_30 (constant S_ .f32 0x00000000#32),
    unary main_cst_30 main_v389 (broadcastInDim S20000x128 ![] bcast_S_S20000x128 : (⟨S_, .f32⟩ : BufTy).Contents (Elt F) → (⟨S20000x128, .f32⟩ : BufTy).Contents (Elt F)),
    unary main_v3 main_v390 (broadcastInDim S160000x1 ![0] bcast_S160000_S160000x1_0 : (⟨S160000, .i32⟩ : BufTy).Contents (Elt F) → (⟨S160000x1, .i32⟩ : BufTy).Contents (Elt F)),
    ternary main_v389 main_v390 main_v388 main_v391 ((fun x i u => Host.scatterAdd scatter_S20000x128_S160000x1_S160000x128_1_0_0_1 x i u) : (⟨S20000x128, .f32⟩ : BufTy).Contents (Elt F) → (⟨S160000x1, .i32⟩ : BufTy).Contents (Elt F) → (⟨S160000x128, .f32⟩ : BufTy).Contents (Elt F) → (⟨S20000x128, .f32⟩ : BufTy).Contents (Elt F)) ]
/-- What they write, in order. -/
noncomputable abbrev sw_agg5 : List (Ref sig .tc) :=
  [main_cst_30, main_v389, main_v390, main_v391]

/-- Operations 452 … 475 of 506. -/
noncomputable abbrev sg_h6 : List (HloOp τ sig (Elt F)) :=
  [ unary main_arg20 main_v392 ((extractStridedSlice S1x128x128 ![5, 0, 0] · slices_S6x128x128_S1x128x128_5_0_0) : (⟨S6x128x128, .f32⟩ : BufTy).Contents (Elt F) → (⟨S1x128x128, .f32⟩ : BufTy).Contents (Elt F)),
    reshape main_v392 main_v393 rfl shapeCasts_S1x128x128_S128x128,
    binary main_v349 main_v393 main_v394 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg21 main_v395 ((extractStridedSlice S1x128x128 ![5, 0, 0] · slices_S6x128x128_S1x128x128_5_0_0) : (⟨S6x128x128, .f32⟩ : BufTy).Contents (Elt F) → (⟨S1x128x128, .f32⟩ : BufTy).Contents (Elt F)),
    reshape main_v395 main_v396 rfl shapeCasts_S1x128x128_S128x128,
    binary main_v391 main_v396 main_v397 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    binary main_v394 main_v397 main_v398 (addf : (⟨S20000x128, .f32⟩ : BufTy).Contents (Elt F) → (⟨S20000x128, .f32⟩ : BufTy).Contents (Elt F) → (⟨S20000x128, .f32⟩ : BufTy).Contents (Elt F)),
    unary main_arg22 main_v399 ((extractStridedSlice S1x128 ![5, 0] · slices_S6x128_S1x128_5_0) : (⟨S6x128, .f32⟩ : BufTy).Contents (Elt F) → (⟨S1x128, .f32⟩ : BufTy).Contents (Elt F)),
    reshape main_v399 main_v400 rfl shapeCasts_S1x128_S128,
    unary main_v400 main_v401 (broadcastInDim S1x128 ![1] bcast_S128_S1x128_1 : (⟨S128, .f32⟩ : BufTy).Contents (Elt F) → (⟨S1x128, .f32⟩ : BufTy).Contents (Elt F)),
    unary main_v401 main_v402 (broadcastInDim S20000x128 ![0, 1] bcast_S1x128_S20000x128_0_1 : (⟨S1x128, .f32⟩ : BufTy).Contents (Elt F) → (⟨S20000x128, .f32⟩ : BufTy).Contents (Elt F)),
    binary main_v398 main_v402 main_v403 (addf : (⟨S20000x128, .f32⟩ : BufTy).Contents (Elt F) → (⟨S20000x128, .f32⟩ : BufTy).Contents (Elt F) → (⟨S20000x128, .f32⟩ : BufTy).Contents (Elt F)),
    nullary main_call13_cst (constant S_ .f32 0x00000000#32),
    unary main_call13_cst main_call13_v0 (broadcastInDim S20000x128 ![] bcast_S_S20000x128 : (⟨S_, .f32⟩ : BufTy).Contents (Elt F) → (⟨S20000x128, .f32⟩ : BufTy).Contents (Elt F)),
    binary main_v403 main_call13_v0 main_v404 (maximumf : (⟨S20000x128, .f32⟩ : BufTy).Contents (Elt F) → (⟨S20000x128, .f32⟩ : BufTy).Contents (Elt F) → (⟨S20000x128, .f32⟩ : BufTy).Contents (Elt F)),
    unary main_arg23 main_v405 ((extractStridedSlice S1x128x128 ![5, 0, 0] · slices_S6x128x128_S1x128x128_5_0_0) : (⟨S6x128x128, .f32⟩ : BufTy).Contents (Elt F) → (⟨S1x128x128, .f32⟩ : BufTy).Contents (Elt F)),
    reshape main_v405 main_v406 rfl shapeCasts_S1x128x128_S128x128,
    binary main_v404 main_v406 main_v407 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg24 main_v408 ((extractStridedSlice S1x128 ![5, 0] · slices_S6x128_S1x128_5_0) : (⟨S6x128, .f32⟩ : BufTy).Contents (Elt F) → (⟨S1x128, .f32⟩ : BufTy).Contents (Elt F)),
    reshape main_v408 main_v409 rfl shapeCasts_S1x128_S128,
    unary main_v409 main_v410 (broadcastInDim S1x128 ![1] bcast_S128_S1x128_1 : (⟨S128, .f32⟩ : BufTy).Contents (Elt F) → (⟨S1x128, .f32⟩ : BufTy).Contents (Elt F)),
    unary main_v410 main_v411 (broadcastInDim S20000x128 ![0, 1] bcast_S1x128_S20000x128_0_1 : (⟨S1x128, .f32⟩ : BufTy).Contents (Elt F) → (⟨S20000x128, .f32⟩ : BufTy).Contents (Elt F)),
    binary main_v407 main_v411 main_v412 (addf : (⟨S20000x128, .f32⟩ : BufTy).Contents (Elt F) → (⟨S20000x128, .f32⟩ : BufTy).Contents (Elt F) → (⟨S20000x128, .f32⟩ : BufTy).Contents (Elt F)),
    binary main_v349 main_v412 main_v413 (addf : (⟨S20000x128, .f32⟩ : BufTy).Contents (Elt F) → (⟨S20000x128, .f32⟩ : BufTy).Contents (Elt F) → (⟨S20000x128, .f32⟩ : BufTy).Contents (Elt F)) ]
/-- What they write, in order. -/
noncomputable abbrev sw_h6 : List (Ref sig .tc) :=
  [main_v392, main_v393, main_v394, main_v395, main_v396, main_v397, main_v398, main_v399, main_v400, main_v401, main_v402, main_v403, main_call13_cst, main_call13_v0, main_v404, main_v405, main_v406, main_v407, main_v408, main_v409, main_v410, main_v411, main_v412, main_v413]

/-- Operations 476 … 506 of 506. -/
noncomputable abbrev sg_dec : List (HloOp τ sig (Elt F)) :=
  [ binary main_v413 main_v10 main_v414 ((fun a b => concatenate S20000x130 1 [⟨S20000x128, a⟩, ⟨S20000x2, b⟩] concatenates_S20000x128_S20000x2_S20000x130_d1) : (⟨S20000x128, .f32⟩ : BufTy).Contents (Elt F) → (⟨S20000x2, .f32⟩ : BufTy).Contents (Elt F) → (⟨S20000x130, .f32⟩ : BufTy).Contents (Elt F)),
    binary main_v414 main_arg25 main_v415 ((fun l r => Host.dotGeneral dot_S20000x130_S130x128_S20000x128_1_0_0_1_n_n none l r) : (⟨S20000x130, .f32⟩ : BufTy).Contents (Elt F) → (⟨S130x128, .f32⟩ : BufTy).Contents (Elt F) → (⟨S20000x128, .f32⟩ : BufTy).Contents (Elt F)),
    unary main_arg26 main_v416 (broadcastInDim S1x128 ![1] bcast_S128_S1x128_1 : (⟨S128, .f32⟩ : BufTy).Contents (Elt F) → (⟨S1x128, .f32⟩ : BufTy).Contents (Elt F)),
    unary main_v416 main_v417 (broadcastInDim S20000x128 ![0, 1] bcast_S1x128_S20000x128_0_1 : (⟨S1x128, .f32⟩ : BufTy).Contents (Elt F) → (⟨S20000x128, .f32⟩ : BufTy).Contents (Elt F)),
    binary main_v415 main_v417 main_v418 (addf : (⟨S20000x128, .f32⟩ : BufTy).Contents (Elt F) → (⟨S20000x128, .f32⟩ : BufTy).Contents (Elt F) → (⟨S20000x128, .f32⟩ : BufTy).Contents (Elt F)),
    nullary main_call14_cst (constant S_ .f32 0x00000000#32),
    unary main_call14_cst main_call14_v0 (broadcastInDim S20000x128 ![] bcast_S_S20000x128 : (⟨S_, .f32⟩ : BufTy).Contents (Elt F) → (⟨S20000x128, .f32⟩ : BufTy).Contents (Elt F)),
    binary main_v418 main_call14_v0 main_v419 (maximumf : (⟨S20000x128, .f32⟩ : BufTy).Contents (Elt F) → (⟨S20000x128, .f32⟩ : BufTy).Contents (Elt F) → (⟨S20000x128, .f32⟩ : BufTy).Contents (Elt F)),
    binary main_v419 main_arg27 main_v420 ((fun l r => Host.dotGeneral dot_S20000x128_S128x64_S20000x64_1_0_0_1_n_n none l r) : (⟨S20000x128, .f32⟩ : BufTy).Contents (Elt F) → (⟨S128x64, .f32⟩ : BufTy).Contents (Elt F) → (⟨S20000x64, .f32⟩ : BufTy).Contents (Elt F)),
    unary main_arg28 main_v421 (broadcastInDim S1x64 ![1] bcast_S64_S1x64_1 : (⟨S64, .f32⟩ : BufTy).Contents (Elt F) → (⟨S1x64, .f32⟩ : BufTy).Contents (Elt F)),
    unary main_v421 main_v422 (broadcastInDim S20000x64 ![0, 1] bcast_S1x64_S20000x64_0_1 : (⟨S1x64, .f32⟩ : BufTy).Contents (Elt F) → (⟨S20000x64, .f32⟩ : BufTy).Contents (Elt F)),
    binary main_v420 main_v422 main_v423 (addf : (⟨S20000x64, .f32⟩ : BufTy).Contents (Elt F) → (⟨S20000x64, .f32⟩ : BufTy).Contents (Elt F) → (⟨S20000x64, .f32⟩ : BufTy).Contents (Elt F)),
    nullary main_call15_cst (constant S_ .f32 0x00000000#32),
    unary main_call15_cst main_call15_v0 (broadcastInDim S20000x64 ![] bcast_S_S20000x64 : (⟨S_, .f32⟩ : BufTy).Contents (Elt F) → (⟨S20000x64, .f32⟩ : BufTy).Contents (Elt F)),
    binary main_v423 main_call15_v0 main_v424 (maximumf : (⟨S20000x64, .f32⟩ : BufTy).Contents (Elt F) → (⟨S20000x64, .f32⟩ : BufTy).Contents (Elt F) → (⟨S20000x64, .f32⟩ : BufTy).Contents (Elt F)),
    binary main_v424 main_arg29 main_v425 ((fun l r => Host.dotGeneral dot_S20000x64_S64x3_S20000x3_1_0_0_1_n_n none l r) : (⟨S20000x64, .f32⟩ : BufTy).Contents (Elt F) → (⟨S64x3, .f32⟩ : BufTy).Contents (Elt F) → (⟨S20000x3, .f32⟩ : BufTy).Contents (Elt F)),
    unary main_arg30 main_v426 (broadcastInDim S1x3 ![1] bcast_S3_S1x3_1 : (⟨S3, .f32⟩ : BufTy).Contents (Elt F) → (⟨S1x3, .f32⟩ : BufTy).Contents (Elt F)),
    unary main_v426 main_v427 (broadcastInDim S20000x3 ![0, 1] bcast_S1x3_S20000x3_0_1 : (⟨S1x3, .f32⟩ : BufTy).Contents (Elt F) → (⟨S20000x3, .f32⟩ : BufTy).Contents (Elt F)),
    binary main_v425 main_v427 main_v428 (addf : (⟨S20000x3, .f32⟩ : BufTy).Contents (Elt F) → (⟨S20000x3, .f32⟩ : BufTy).Contents (Elt F) → (⟨S20000x3, .f32⟩ : BufTy).Contents (Elt F)),
    nullary main_cst_31 (constant S_ .f32 0x3F800000#32),
    unary main_cst_31 main_v429 (broadcastInDim S20000x1 ![] bcast_S_S20000x1 : (⟨S_, .f32⟩ : BufTy).Contents (Elt F) → (⟨S20000x1, .f32⟩ : BufTy).Contents (Elt F)),
    binary main_v429 main_arg3 main_v430 (subf : (⟨S20000x1, .f32⟩ : BufTy).Contents (Elt F) → (⟨S20000x1, .f32⟩ : BufTy).Contents (Elt F) → (⟨S20000x1, .f32⟩ : BufTy).Contents (Elt F)),
    nullary main_cst_32 (constant S_ .f32 0x3F800000#32),
    unary main_cst_32 main_v431 (broadcastInDim S20000x1 ![] bcast_S_S20000x1 : (⟨S_, .f32⟩ : BufTy).Contents (Elt F) → (⟨S20000x1, .f32⟩ : BufTy).Contents (Elt F)),
    binary main_v431 main_arg4 main_v432 (subf : (⟨S20000x1, .f32⟩ : BufTy).Contents (Elt F) → (⟨S20000x1, .f32⟩ : BufTy).Contents (Elt F) → (⟨S20000x1, .f32⟩ : BufTy).Contents (Elt F)),
    unary main_v428 main_v433 ((extractStridedSlice S20000x2 ![0, 0] · slices_S20000x3_S20000x2_0_0) : (⟨S20000x3, .f32⟩ : BufTy).Contents (Elt F) → (⟨S20000x2, .f32⟩ : BufTy).Contents (Elt F)),
    unary main_v430 main_v434 (broadcastInDim S20000x2 ![0, 1] bcast_S20000x1_S20000x2_0_1 : (⟨S20000x1, .f32⟩ : BufTy).Contents (Elt F) → (⟨S20000x2, .f32⟩ : BufTy).Contents (Elt F)),
    binary main_v433 main_v434 main_v435 (mulf : (⟨S20000x2, .f32⟩ : BufTy).Contents (Elt F) → (⟨S20000x2, .f32⟩ : BufTy).Contents (Elt F) → (⟨S20000x2, .f32⟩ : BufTy).Contents (Elt F)),
    unary main_v428 main_v436 ((extractStridedSlice S20000x1 ![0, 2] · slices_S20000x3_S20000x1_0_2) : (⟨S20000x3, .f32⟩ : BufTy).Contents (Elt F) → (⟨S20000x1, .f32⟩ : BufTy).Contents (Elt F)),
    binary main_v436 main_v432 main_v437 (mulf : (⟨S20000x1, .f32⟩ : BufTy).Contents (Elt F) → (⟨S20000x1, .f32⟩ : BufTy).Contents (Elt F) → (⟨S20000x1, .f32⟩ : BufTy).Contents (Elt F)),
    binary main_v435 main_v437 main_v438 ((fun a b => concatenate S20000x3 1 [⟨S20000x2, a⟩, ⟨S20000x1, b⟩] concatenates_S20000x2_S20000x1_S20000x3_d1) : (⟨S20000x2, .f32⟩ : BufTy).Contents (Elt F) → (⟨S20000x1, .f32⟩ : BufTy).Contents (Elt F) → (⟨S20000x3, .f32⟩ : BufTy).Contents (Elt F)) ]
/-- What they write, in order. -/
noncomputable abbrev sw_dec : List (Ref sig .tc) :=
  [main_v414, main_v415, main_v416, main_v417, main_v418, main_call14_cst, main_call14_v0, main_v419, main_v420, main_v421, main_v422, main_v423, main_call15_cst, main_call15_v0, main_v424, main_v425, main_v426, main_v427, main_v428, main_cst_31, main_v429, main_v430, main_cst_32, main_v431, main_v432, main_v433, main_v434, main_v435, main_v436, main_v437, main_v438]

/-- The stages' lists in order. -/
noncomputable abbrev segL : List (List (HloOp τ sig (Elt F))) :=
  [sg_idx, sg_h0, sg_e0, sg_a0, sg_b0, sg_asrc0, sg_bdst0, sg_m0, sg_agg0, sg_h1, sg_a1, sg_b1, sg_asrc1, sg_bdst1, sg_m1, sg_agg1, sg_h2, sg_a2, sg_b2, sg_asrc2, sg_bdst2, sg_m2, sg_agg2, sg_h3, sg_a3, sg_b3, sg_asrc3, sg_bdst3, sg_m3, sg_agg3, sg_h4, sg_a4, sg_b4, sg_asrc4, sg_bdst4, sg_m4, sg_agg4, sg_h5, sg_a5, sg_b5, sg_asrc5, sg_bdst5, sg_m5, sg_agg5, sg_h6, sg_dec]
/-- What each writes. -/
noncomputable abbrev segW : List (List (Ref sig .tc)) :=
  [sw_idx, sw_h0, sw_e0, sw_a0, sw_b0, sw_asrc0, sw_bdst0, sw_m0, sw_agg0, sw_h1, sw_a1, sw_b1, sw_asrc1, sw_bdst1, sw_m1, sw_agg1, sw_h2, sw_a2, sw_b2, sw_asrc2, sw_bdst2, sw_m2, sw_agg2, sw_h3, sw_a3, sw_b3, sw_asrc3, sw_bdst3, sw_m3, sw_agg3, sw_h4, sw_a4, sw_b4, sw_asrc4, sw_bdst4, sw_m4, sw_agg4, sw_h5, sw_a5, sw_b5, sw_asrc5, sw_bdst5, sw_m5, sw_agg5, sw_h6, sw_dec]

end Cert.ReferenceIdeal.Hand

end
-- ==== Proof.Ref.SegRun.lean ====
/- The reference's run read stage by stage: the operations are the stages' lists in a row, each operation writes
   the one buffer tabulated for it, so a stage's result after @main is what the stage's own list leaves in it,
   run from the contents before the stage, and a buffer read by the stage holds then what it holds at the end. -/
import proofs.«152161_j29669634081217_2_alg».proof.Proof.Ref.Segs
import Mathlib.Data.List.Forall2

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Two lines in a row fold one after the other. -/
theorem after_cat (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

set_option maxRecDepth 8192 in
set_option maxHeartbeats 4000000 in
/-- The windows' lists in a row and the stages' lists in a row are the same 506 entries. -/
theorem ops_eq : (ops : List (HloOp τ sig (Elt F))) = segL.flatten := rfl

/-- An operation writes exactly the one buffer `r`. -/
noncomputable abbrev Writes1 (op : HloOp τ sig (Elt F)) (r : Ref sig .tc) : Prop := op.writes = {Proc.devRef (τ := τ) .tc r}

set_option maxRecDepth 8192 in
set_option maxHeartbeats 4000000 in
/-- Each operation writes the buffer tabulated at its place. -/
theorem segL_writes : List.Forall₂ (List.Forall₂ Writes1) (segL : List (List (HloOp τ sig (Elt F)))) segW := by
  repeat' (first | exact List.Forall₂.nil | apply List.Forall₂.cons)
  all_goals first
    | exact nullary_writes .. | exact unary_writes .. | exact binary_writes ..
    | exact ternary_writes .. | exact reshape_writes ..

/-- A buffer outside the table of a line is written by no operation of the line. -/
theorem unwritten {l : List (HloOp τ sig (Elt F))} {W : List (Ref sig .tc)} (h : List.Forall₂ Writes1 l W)
    {r : Ref sig .tc} (hr : r ∉ W) : ∀ op ∈ l, Proc.devRef (τ := τ) .tc r ∉ op.writes := by
  induction h with
  | nil => intro _ h; cases h
  | cons hab _ ih =>
    intro op hop
    rcases List.mem_cons.mp hop with rfl | hop
    · rw [hab, Finset.mem_singleton]
      intro he
      exact hr (List.mem_cons.mpr (Or.inl (Proc.devRef_injective _ he)))
    · exact ih (fun h' => hr (List.mem_cons_of_mem _ h')) op hop

/-- The contents before stage `j`: after the stages before it. -/
noncomputable def before (j : Nat) (V : Valuation τ sig (Elt F)) : Valuation τ sig (Elt F) := after (segL.take j).flatten V

theorem after_split (j : Nat) (V : Valuation τ sig (Elt F)) :
    after ops V = after (segL.drop j).flatten (before j V) := by
  unfold before
  rw [ops_eq, ← after_cat, ← List.flatten_append, List.take_append_drop]

/-- A buffer no stage from the `j`-th on writes holds before stage `j` what it holds after @main. -/
theorem before_eq (j : Nat) (V : Valuation τ sig (Elt F)) (x : Ref sig .tc) (hx : x ∉ (segW.drop j).flatten) :
    before j V (Proc.devRef .tc x) = after ops V (Proc.devRef .tc x) := by
  rw [after_split j V]
  exact (after_of_forall_not_mem _ _ (unwritten (List.rel_flatten (List.forall₂_drop j segL_writes)) hx)).symm

/-- A buffer no operation writes keeps its launch contents. -/
theorem arg_eq (V : Valuation τ sig (Elt F)) (x : Ref sig .tc) (hx : x ∉ segW.flatten) :
    after ops V (Proc.devRef .tc x) = V (Proc.devRef .tc x) := by
  rw [ops_eq]
  exact after_of_forall_not_mem _ _ (unwritten (List.rel_flatten segL_writes) hx)

/-- … and holds them before every stage. -/
theorem before_arg (j : Nat) (V : Valuation τ sig (Elt F)) (x : Ref sig .tc) (hx : x ∉ segW.flatten) :
    before j V (Proc.devRef .tc x) = V (Proc.devRef .tc x) :=
  (before_eq j V x fun h => hx (by
    obtain ⟨l, hl, ha⟩ := List.mem_flatten.mp h
    exact List.mem_flatten.mpr ⟨l, List.mem_of_mem_drop hl, ha⟩)).trans (arg_eq V x hx)

/-- A stage's result after @main is what the stage's list leaves in it, run from the contents before the stage:
    no later stage writes it. -/
theorem stage_eq (j : Nat) (seg : List (HloOp τ sig (Elt F)))
    (hseg : (segL : List (List (HloOp τ sig (Elt F)))).drop j = seg :: segL.drop (j + 1))
    (V : Valuation τ sig (Elt F)) (y : Ref sig .tc) (hy : y ∉ (segW.drop (j + 1)).flatten) :
    after ops V (Proc.devRef .tc y) = after seg (before j V) (Proc.devRef .tc y) := by
  rw [after_split j V, hseg, List.flatten_cons, after_cat]
  exact after_of_forall_not_mem _ _ (unwritten (List.rel_flatten (List.forall₂_drop (j + 1) segL_writes)) hy)

/-! The arguments are in no stage's table. -/

theorem arg0_unw : main_arg0 ∉ segW.flatten := by decide
theorem arg1_unw : main_arg1 ∉ segW.flatten := by decide
theorem arg2_unw : main_arg2 ∉ segW.flatten := by decide
theorem arg3_unw : main_arg3 ∉ segW.flatten := by decide
theorem arg4_unw : main_arg4 ∉ segW.flatten := by decide
theorem arg5_unw : main_arg5 ∉ segW.flatten := by decide
theorem arg6_unw : main_arg6 ∉ segW.flatten := by decide
theorem arg7_unw : main_arg7 ∉ segW.flatten := by decide
theorem arg8_unw : main_arg8 ∉ segW.flatten := by decide
theorem arg9_unw : main_arg9 ∉ segW.flatten := by decide
theorem arg10_unw : main_arg10 ∉ segW.flatten := by decide
theorem arg11_unw : main_arg11 ∉ segW.flatten := by decide
theorem arg12_unw : main_arg12 ∉ segW.flatten := by decide
theorem arg13_unw : main_arg13 ∉ segW.flatten := by decide
theorem arg14_unw : main_arg14 ∉ segW.flatten := by decide
theorem arg15_unw : main_arg15 ∉ segW.flatten := by decide
theorem arg16_unw : main_arg16 ∉ segW.flatten := by decide
theorem arg17_unw : main_arg17 ∉ segW.flatten := by decide
theorem arg18_unw : main_arg18 ∉ segW.flatten := by decide
theorem arg19_unw : main_arg19 ∉ segW.flatten := by decide
theorem arg20_unw : main_arg20 ∉ segW.flatten := by decide
theorem arg21_unw : main_arg21 ∉ segW.flatten := by decide
theorem arg22_unw : main_arg22 ∉ segW.flatten := by decide
theorem arg23_unw : main_arg23 ∉ segW.flatten := by decide
theorem arg24_unw : main_arg24 ∉ segW.flatten := by decide
theorem arg25_unw : main_arg25 ∉ segW.flatten := by decide
theorem arg26_unw : main_arg26 ∉ segW.flatten := by decide
theorem arg27_unw : main_arg27 ∉ segW.flatten := by decide
theorem arg28_unw : main_arg28 ∉ segW.flatten := by decide
theorem arg29_unw : main_arg29 ∉ segW.flatten := by decide
theorem arg30_unw : main_arg30 ∉ segW.flatten := by decide

end Cert.ReferenceIdeal.Hand

end
-- ==== Proof.Spec.lean ====
/-
  The network's arithmetic, one ROW at a time, over the extended reals: every layer of the graph network acts on each
  node's (or edge's) feature row independently, so both programs' results are stated through these row formulas.
  A matrix is a function of its two coordinates, a bias a function of its one coordinate.
-/
import Idealize.ShloMosaic.PureOps.Ideal
import Idealize.ShloMosaic.Lib.ValueIdx

noncomputable section

namespace Cert.Spec

open BigOperators Idealize.ShloMosaic

/-- The rectifier: the larger of a value and zero. -/
noncomputable def relu (v : EReal) : EReal := max v 0

/-- A row times a matrix: entry `j` of `x W`. -/
noncomputable def lin {K N : ℕ} (x : Fin K → EReal) (W : Fin K → Fin N → EReal) (j : Fin N) : EReal := ∑ k, x k * W k j

/-- A row times a matrix plus a bias: entry `j` of `x W + b`. -/
noncomputable def aff {K N : ℕ} (x : Fin K → EReal) (W : Fin K → Fin N → EReal) (b : Fin N → EReal) (j : Fin N) : EReal :=
  lin x W j + b j

/-- A two-layer perceptron on a row: `relu (x W1 + b1) W2 + b2` (both encoders). -/
noncomputable def mlp2 {K H N : ℕ} (x : Fin K → EReal) (W1 : Fin K → Fin H → EReal) (b1 : Fin H → EReal)
    (W2 : Fin H → Fin N → EReal) (b2 : Fin N → EReal) (j : Fin N) : EReal :=
  aff (fun k => relu (aff x W1 b1 k)) W2 b2 j

/-- One edge's message: `relu (((a_src + b_dst) + e We) + be1) W2 + b2`, the sums grouped as both programs group them. -/
noncomputable def msg {H N : ℕ} (e asrc bdst : Fin H → EReal) (We : Fin H → Fin H → EReal) (be1 : Fin H → EReal)
    (W2 : Fin H → Fin N → EReal) (b2 : Fin N → EReal) (j : Fin N) : EReal :=
  aff (fun k => relu (((asrc k + bdst k) + lin e We k) + be1 k)) W2 b2 j

/-- One node's update with its residual: `h + (relu ((h Wnh + agg Wna) + bn1) Wn2 + bn2)`. -/
noncomputable def upd {H : ℕ} (h agg : Fin H → EReal) (Wnh Wna : Fin H → Fin H → EReal) (bn1 : Fin H → EReal)
    (Wn2 : Fin H → Fin H → EReal) (bn2 : Fin H → EReal) (j : Fin H) : EReal :=
  h j + aff (fun k => relu ((lin h Wnh k + lin agg Wna k) + bn1 k)) Wn2 bn2 j

/-- The decoder's three layers on one node, before the boundary mask: the first layer's weight split into the block
    that meets the features `h` and the block that meets the two coordinates `c2`. -/
noncomputable def dec {H H2 N : ℕ} (h : Fin H → EReal) (c2 : Fin 2 → EReal) (W1h : Fin H → Fin H → EReal) (W1c : Fin 2 → Fin H → EReal)
    (b1 : Fin H → EReal) (W2 : Fin H → Fin H2 → EReal) (b2 : Fin H2 → EReal) (W3 : Fin H2 → Fin N → EReal)
    (b3 : Fin N → EReal) (j : Fin N) : EReal :=
  aff (fun k2 => relu (aff (fun k => relu ((lin h W1h k + lin c2 W1c k) + b1 k)) W2 b2 k2)) W3 b3 j

/-- The masked prediction: columns 0 and 1 times `1 - disp`, column 2 times `1 - rot`. -/
noncomputable def masked (pred : Fin 3 → EReal) (disp rot : EReal) (j : Fin 3) : EReal :=
  pred j * (if j.val < 2 then (1 : EReal) - disp else (1 : EReal) - rot)

/-- A rank-2 array as a function of its two coordinates. -/
noncomputable abbrev m2 {a b : ℕ} (A : (⟨2, ![a, b]⟩ : Shape).Idx → EReal) : Fin a → Fin b → EReal := fun i j => A (ValueIdx.ix2 i j)

/-- Row `i` of a rank-2 array. -/
noncomputable abbrev row {a b : ℕ} (A : (⟨2, ![a, b]⟩ : Shape).Idx → EReal) (i : Fin a) : Fin b → EReal := fun j => A (ValueIdx.ix2 i j)

/-- A rank-1 array as a function of its coordinate. -/
noncomputable abbrev v1 {n : ℕ} (b : (⟨1, ![n]⟩ : Shape).Idx → EReal) : Fin n → EReal := fun j => b (ValueIdx.ix1 j)

end Cert.Spec

end
-- ==== Proof.Ref.StageEncN.lean ====
/-
  The reference's node encoder, read at one index of its result.

  In the reference program the encoder of the node features is two affine layers with a rectifier between them:
  a [20000,6] array times a [6,128] matrix, plus a [128] bias laid along every row (broadcast first to one row,
  then down the 20000 rows), the maximum with a broadcast zero, then the same with a [128,128] matrix and a second
  bias. Read at row `p` and column `q` this is the two-layer perceptron of `Cert.Spec` on row `p` of the features.
-/
import proofs.«152161_j29669634081217_2_alg».proof.ReferenceIdeal
import proofs.«152161_j29669634081217_2_alg».proof.Proof.Spec
import Idealize.ShloMosaic.PureOps.Ideal.Laws
import Idealize.ShloMosaic.Lib.ValueIdx
import Idealize.ShloMosaic.Lib.ValueLayout
import Idealize.ShloMosaic.Lib.KernelVsHost

noncomputable section

namespace Cert.ReferenceIdeal.Hand

open BigOperators Idealize.ShloMosaic Idealize.ShloMosaic.ValueIdx
open Cert.ReferenceIdeal Cert.ReferenceIdeal.Facts₀

variable [Facts₀]

/-! ## The three shapes of operation, each read at an index -/

/-- A dot of an [m,k] array with a [k,n] matrix contracting the one shared axis, read at (p, q): the sum over the
    shared coordinate of the products. Stated for any dimension numbers of that form: the contraction index has one
    axis, of extent `k`; the left operand is read at (p, i) and the right one at (i, q). -/
theorem dot_apply {m k n : ℕ} (d : DotDims ⟨2, ![m, k]⟩ ⟨2, ![k, n]⟩ ⟨2, ![m, n]⟩)
    (hl : d.lhsContracting = [1]) (hr : d.rhsContracting = [0]) (hln : d.lhsNonContracting = [0])
    (hrn : d.rhsNonContracting = [1]) (hlb : d.lhsBatch = []) (hrb : d.rhsBatch = [])
    (A : FVec Ideal ⟨2, ![m, k]⟩ .f32) (B : FVec Ideal ⟨2, ![k, n]⟩ .f32) (p : Fin m) (q : Fin n) :
    Host.dotGeneral d none A B (ix2 p q) = ∑ i : Fin k, A (ix2 p i) * B (ix2 i q) := by
  have hrk : d.contr.rank = 1 := by rw [d.rank_contr, hl]; rfl
  have hsz : d.contr.size ⟨0, by omega⟩ = k := by
    have := d.size_contr 0 (by rw [hl]; exact Nat.one_pos)
    simp only [hl] at this
    exact this
  show FloatOps.dotGeneral d none _ A B (ix2 p q) = _
  rw [Ideal.dotGeneral_apply, ← Equiv.sum_comp (contrEquiv1 d k hrk hsz).symm]
  refine Finset.sum_congr rfl fun i _ => ?_
  have e1 : d.lhsIdx (ix2 p q) ((contrEquiv1 d k hrk hsz).symm i) = ix2 p i := by
    funext a; apply Fin.ext
    match a with
    | ⟨0, _⟩ =>
      have key : ∀ (a b : Nat) (ha : a < 2) (hb : b < 2), a = b →
          ((ix2 p q : (⟨2, ![m, n]⟩ : Shape).Idx) ⟨a, ha⟩).val = ((ix2 p q : (⟨2, ![m, n]⟩ : Shape).Idx) ⟨b, hb⟩).val :=
        fun a b ha hb h => by subst h; rfl
      unfold DotDims.lhsIdx
      rw [dif_neg (by rw [hlb]; exact List.not_mem_nil), dif_pos (by rw [hln]; exact List.mem_singleton.mpr rfl)]
      simp only [Fin.val_cast]
      exact key _ 0 _ (by omega) (by simp [hlb, hln])
    | ⟨1, _⟩ =>
      have := d.lhsIdx_val_of_single hl (ix2 p q) ((contrEquiv1 d k hrk hsz).symm i)
      rw [contrEquiv1_symm_val] at this
      exact this
  have e2 : d.rhsIdx (ix2 p q) ((contrEquiv1 d k hrk hsz).symm i) = ix2 i q := by
    funext a; apply Fin.ext
    match a with
    | ⟨0, _⟩ =>
      have := d.rhsIdx_val_of_single hr (ix2 p q) ((contrEquiv1 d k hrk hsz).symm i)
      rw [contrEquiv1_symm_val] at this
      exact this
    | ⟨1, _⟩ =>
      have key : ∀ (a b : Nat) (ha : a < 2) (hb : b < 2), a = b →
          ((ix2 p q : (⟨2, ![m, n]⟩ : Shape).Idx) ⟨a, ha⟩).val = ((ix2 p q : (⟨2, ![m, n]⟩ : Shape).Idx) ⟨b, hb⟩).val :=
        fun a b ha hb h => by subst h; rfl
      unfold DotDims.rhsIdx
      rw [dif_neg (by rw [hrb]; exact List.not_mem_nil), dif_pos (by rw [hrn]; exact List.mem_singleton.mpr rfl)]
      simp only [Fin.val_cast]
      exact key _ 1 _ (by omega) (by simp [hlb, hln, hrn])
  rw [e1, e2]

/-- A bias of `n` entries made a one-row matrix and then laid down `m` rows, read at (p, q): entry `q`. -/
theorem bias_apply {m n : ℕ} (h1 : (⟨1, ![n]⟩ : Shape).BroadcastsInDim ⟨2, ![1, n]⟩ ![1])
    (h2 : (⟨2, ![1, n]⟩ : Shape).BroadcastsInDim ⟨2, ![m, n]⟩ ![0, 1]) (b : FVec Ideal ⟨1, ![n]⟩ .f32) (p : Fin m) (q : Fin n) :
    broadcastInDim ⟨2, ![m, n]⟩ ![0, 1] h2 (broadcastInDim ⟨2, ![1, n]⟩ ![1] h1 b) (ix2 p q) = b (ix1 q) := by
  rw [broadcastInDim_oneRow_apply h2 _ p q]
  refine broadcastInDim_apply ![1] h1 b (ix2 (0 : Fin 1) q) (ix1 q) ?_
  intro a
  match a with
  | ⟨0, _⟩ =>
    show q.val = if n = 1 then 0 else q.val
    split
    · have := q.isLt; omega
    · rfl

/-- The outlined rectifier, the maximum with a broadcast zero constant, read at an index. -/
theorem relu_apply {t : Shape} (h : (⟨0, ![]⟩ : Shape).BroadcastsInDim t ![]) (x : FVec Ideal t .f32) (j : t.Idx) :
    maximumf x (broadcastInDim t ![] h (constant (F := Ideal) ⟨0, ![]⟩ .f32 0x00000000#32)) j = Cert.Spec.relu (x j) := by
  rw [maximumf_apply, broadcastInDim_constant]
  show max (x j) (Ideal.ofBits .f32 0x00000000#32) = _
  rw [Ideal.ofBits_zero_f32]
  rfl

/-! ## The node encoder -/

/-- The reference's operations that encode the node features, composed: over the [20000,6] slice of the features and
    the two layers' weights and biases. -/
noncomputable def encN (X6 : FVec Ideal S20000x6 .f32) (W1 : FVec Ideal S6x128 .f32) (b1 : FVec Ideal S128 .f32)
    (W2 : FVec Ideal S128x128 .f32) (b2 : FVec Ideal S128 .f32) : FVec Ideal S20000x128 .f32 :=
  addf
    (Host.dotGeneral dot_S20000x128_S128x128_S20000x128_1_0_0_1_n_n none
      (maximumf
        (addf (Host.dotGeneral dot_S20000x6_S6x128_S20000x128_1_0_0_1_n_n none X6 W1)
          (broadcastInDim S20000x128 ![0, 1] bcast_S1x128_S20000x128_0_1 (broadcastInDim S1x128 ![1] bcast_S128_S1x128_1 b1)))
        (broadcastInDim S20000x128 ![] bcast_S_S20000x128 (constant (F := Ideal) S_ .f32 0x00000000#32)))
      W2)
    (broadcastInDim S20000x128 ![0, 1] bcast_S1x128_S20000x128_0_1 (broadcastInDim S1x128 ![1] bcast_S128_S1x128_1 b2))

/-- Read at row `p`, column `q`: the two-layer perceptron on row `p` of the features. -/
theorem refEncN (X6 : FVec Ideal S20000x6 .f32) (W1 : FVec Ideal S6x128 .f32) (b1 : FVec Ideal S128 .f32)
    (W2 : FVec Ideal S128x128 .f32) (b2 : FVec Ideal S128 .f32) (p : Fin 20000) (q : Fin 128) :
    encN X6 W1 b1 W2 b2 (ix2 p q)
      = Cert.Spec.mlp2 (Cert.Spec.row X6 p) (Cert.Spec.m2 W1) (Cert.Spec.v1 b1) (Cert.Spec.m2 W2) (Cert.Spec.v1 b2) q := by
  unfold encN
  rw [addf_apply, bias_apply, dot_apply _ rfl rfl rfl rfl rfl rfl]
  unfold Cert.Spec.mlp2 Cert.Spec.aff Cert.Spec.lin
  refine congrArg (· + b2 (ix1 q)) (Finset.sum_congr rfl fun i _ => ?_)
  rw [relu_apply, addf_apply, bias_apply, dot_apply _ rfl rfl rfl rfl rfl rfl]

end Cert.ReferenceIdeal.Hand

end
-- ==== Proof.Ref.StageEncE.lean ====
/-
  The reference's edge encoder read at an index: two products with bias rows broadcast down the rows and a rectifier
  between them, which is the two-layer perceptron of one attribute row.
-/
import proofs.«152161_j29669634081217_2_alg».proof.ReferenceIdeal
import proofs.«152161_j29669634081217_2_alg».proof.Proof.Spec
import Idealize.ShloMosaic.PureOps.Ideal.Laws
import Idealize.ShloMosaic.Lib.ValueIdx
import Idealize.ShloMosaic.Lib.ValueLayout

noncomputable section

namespace Cert.ReferenceIdeal.Hand

open Cert.ReferenceIdeal Idealize.ShloMosaic Idealize.SL.Sem
open Idealize.ShloMosaic.ValueIdx
open scoped BigOperators

variable [Facts₀]
open Facts₀

/-! ## The two products' operand indices, axis by axis, and the products at an index -/

theorem lhsE1_0 (i : S160000x128.Idx) (r : dot_S160000x10_S10x128_S160000x128_1_0_0_1_n_n.contr.Idx) :
    (dot_S160000x10_S10x128_S160000x128_1_0_0_1_n_n.lhsIdx i r 0).val = (i 0).val := by
  unfold DotDims.lhsIdx
  rw [dif_neg (show ¬(0 : Fin S160000x10.rank) ∈ dot_S160000x10_S10x128_S160000x128_1_0_0_1_n_n.lhsBatch from List.not_mem_nil),
    dif_pos (show (0 : Fin S160000x10.rank) ∈ dot_S160000x10_S10x128_S160000x128_1_0_0_1_n_n.lhsNonContracting from List.mem_singleton.mpr rfl)]
  rfl

theorem lhsE1_1 (i : S160000x128.Idx) (r : dot_S160000x10_S10x128_S160000x128_1_0_0_1_n_n.contr.Idx) :
    (dot_S160000x10_S10x128_S160000x128_1_0_0_1_n_n.lhsIdx i r 1).val = (r ⟨0, Nat.one_pos⟩).val :=
  dot_S160000x10_S10x128_S160000x128_1_0_0_1_n_n.lhsIdx_val_of_single rfl i r

theorem rhsE1_0 (i : S160000x128.Idx) (r : dot_S160000x10_S10x128_S160000x128_1_0_0_1_n_n.contr.Idx) :
    (dot_S160000x10_S10x128_S160000x128_1_0_0_1_n_n.rhsIdx i r 0).val = (r ⟨0, Nat.one_pos⟩).val :=
  dot_S160000x10_S10x128_S160000x128_1_0_0_1_n_n.rhsIdx_val_of_single rfl i r

theorem rhsE1_1 (i : S160000x128.Idx) (r : dot_S160000x10_S10x128_S160000x128_1_0_0_1_n_n.contr.Idx) :
    (dot_S160000x10_S10x128_S160000x128_1_0_0_1_n_n.rhsIdx i r 1).val = (i 1).val := by
  unfold DotDims.rhsIdx
  rw [dif_neg (show ¬(1 : Fin S10x128.rank) ∈ dot_S160000x10_S10x128_S160000x128_1_0_0_1_n_n.rhsBatch from List.not_mem_nil),
    dif_pos (show (1 : Fin S10x128.rank) ∈ dot_S160000x10_S10x128_S160000x128_1_0_0_1_n_n.rhsNonContracting from List.mem_singleton.mpr rfl)]
  rfl

theorem dotE1_apply {φ₁ φ₂ : FTy} (x : FVec Ideal S160000x10 φ₁) (w : FVec Ideal S10x128 φ₂) (p : Fin 160000) (q : Fin 128) :
    Host.dotGeneral (F := Ideal) dot_S160000x10_S10x128_S160000x128_1_0_0_1_n_n none x w (ix2 p q) = ∑ k : Fin 10, x (ix2 p k) * w (ix2 k q) := by
  simp only [Host.dotGeneral]
  rw [Ideal.dotGeneral_apply, ← Equiv.sum_comp (contrEquiv1 dot_S160000x10_S10x128_S160000x128_1_0_0_1_n_n 10 rfl rfl).symm]
  refine Finset.sum_congr rfl fun k _ => ?_
  have hk := contrEquiv1_symm_val dot_S160000x10_S10x128_S160000x128_1_0_0_1_n_n 10 rfl rfl k
  have el : dot_S160000x10_S10x128_S160000x128_1_0_0_1_n_n.lhsIdx (ix2 p q) ((contrEquiv1 dot_S160000x10_S10x128_S160000x128_1_0_0_1_n_n 10 rfl rfl).symm k) = ix2 p k :=
    funext fun a => Fin.ext (by
      match a with
      | ⟨0, _⟩ => exact lhsE1_0 _ _
      | ⟨1, _⟩ => exact (lhsE1_1 _ _).trans hk)
  have er : dot_S160000x10_S10x128_S160000x128_1_0_0_1_n_n.rhsIdx (ix2 p q) ((contrEquiv1 dot_S160000x10_S10x128_S160000x128_1_0_0_1_n_n 10 rfl rfl).symm k) = ix2 k q :=
    funext fun a => Fin.ext (by
      match a with
      | ⟨0, _⟩ => exact (rhsE1_0 _ _).trans hk
      | ⟨1, _⟩ => exact rhsE1_1 _ _)
  rw [el, er]

theorem lhsE2_0 (i : S160000x128.Idx) (r : dot_S160000x128_S128x128_S160000x128_1_0_0_1_n_n.contr.Idx) :
    (dot_S160000x128_S128x128_S160000x128_1_0_0_1_n_n.lhsIdx i r 0).val = (i 0).val := by
  unfold DotDims.lhsIdx
  rw [dif_neg (show ¬(0 : Fin S160000x128.rank) ∈ dot_S160000x128_S128x128_S160000x128_1_0_0_1_n_n.lhsBatch from List.not_mem_nil),
    dif_pos (show (0 : Fin S160000x128.rank) ∈ dot_S160000x128_S128x128_S160000x128_1_0_0_1_n_n.lhsNonContracting from List.mem_singleton.mpr rfl)]
  rfl

theorem lhsE2_1 (i : S160000x128.Idx) (r : dot_S160000x128_S128x128_S160000x128_1_0_0_1_n_n.contr.Idx) :
    (dot_S160000x128_S128x128_S160000x128_1_0_0_1_n_n.lhsIdx i r 1).val = (r ⟨0, Nat.one_pos⟩).val :=
  dot_S160000x128_S128x128_S160000x128_1_0_0_1_n_n.lhsIdx_val_of_single rfl i r

theorem rhsE2_0 (i : S160000x128.Idx) (r : dot_S160000x128_S128x128_S160000x128_1_0_0_1_n_n.contr.Idx) :
    (dot_S160000x128_S128x128_S160000x128_1_0_0_1_n_n.rhsIdx i r 0).val = (r ⟨0, Nat.one_pos⟩).val :=
  dot_S160000x128_S128x128_S160000x128_1_0_0_1_n_n.rhsIdx_val_of_single rfl i r

theorem rhsE2_1 (i : S160000x128.Idx) (r : dot_S160000x128_S128x128_S160000x128_1_0_0_1_n_n.contr.Idx) :
    (dot_S160000x128_S128x128_S160000x128_1_0_0_1_n_n.rhsIdx i r 1).val = (i 1).val := by
  unfold DotDims.rhsIdx
  rw [dif_neg (show ¬(1 : Fin S128x128.rank) ∈ dot_S160000x128_S128x128_S160000x128_1_0_0_1_n_n.rhsBatch from List.not_mem_nil),
    dif_pos (show (1 : Fin S128x128.rank) ∈ dot_S160000x128_S128x128_S160000x128_1_0_0_1_n_n.rhsNonContracting from List.mem_singleton.mpr rfl)]
  rfl

theorem dotE2_apply {φ₁ φ₂ : FTy} (x : FVec Ideal S160000x128 φ₁) (w : FVec Ideal S128x128 φ₂) (p : Fin 160000) (q : Fin 128) :
    Host.dotGeneral (F := Ideal) dot_S160000x128_S128x128_S160000x128_1_0_0_1_n_n none x w (ix2 p q) = ∑ k : Fin 128, x (ix2 p k) * w (ix2 k q) := by
  simp only [Host.dotGeneral]
  rw [Ideal.dotGeneral_apply, ← Equiv.sum_comp (contrEquiv1 dot_S160000x128_S128x128_S160000x128_1_0_0_1_n_n 128 rfl rfl).symm]
  refine Finset.sum_congr rfl fun k _ => ?_
  have hk := contrEquiv1_symm_val dot_S160000x128_S128x128_S160000x128_1_0_0_1_n_n 128 rfl rfl k
  have el : dot_S160000x128_S128x128_S160000x128_1_0_0_1_n_n.lhsIdx (ix2 p q) ((contrEquiv1 dot_S160000x128_S128x128_S160000x128_1_0_0_1_n_n 128 rfl rfl).symm k) = ix2 p k :=
    funext fun a => Fin.ext (by
      match a with
      | ⟨0, _⟩ => exact lhsE2_0 _ _
      | ⟨1, _⟩ => exact (lhsE2_1 _ _).trans hk)
  have er : dot_S160000x128_S128x128_S160000x128_1_0_0_1_n_n.rhsIdx (ix2 p q) ((contrEquiv1 dot_S160000x128_S128x128_S160000x128_1_0_0_1_n_n 128 rfl rfl).symm k) = ix2 k q :=
    funext fun a => Fin.ext (by
      match a with
      | ⟨0, _⟩ => exact (rhsE2_0 _ _).trans hk
      | ⟨1, _⟩ => exact rhsE2_1 _ _)
  rw [el, er]

/-! ## The broadcasts at an index -/

/-- A bias of 128 entries made a row and broadcast down 160000 rows reads its entry q in every row. -/
theorem biasE_apply (b : FVec Ideal S128 .f32) (p : Fin 160000) (q : Fin 128) :
    broadcastInDim S160000x128 ![0, 1] bcast_S1x128_S160000x128_0_1 (broadcastInDim S1x128 ![1] bcast_S128_S1x128_1 b) (ix2 p q)
      = b (ix1 q) := by
  rw [broadcastInDim_apply _ _ _ (ix2 p q) (ix2 (0 : Fin 1) q) (fun a => by match a with | ⟨0, _⟩ => rfl | ⟨1, _⟩ => rfl),
    broadcastInDim_apply _ _ _ (ix2 (0 : Fin 1) q) (ix1 q) (fun a => by match a with | ⟨0, _⟩ => rfl)]

/-- The scalar zero broadcast to the whole array reads 0 everywhere. -/
theorem zeroE_apply (j : S160000x128.Idx) :
    broadcastInDim S160000x128 ![] bcast_S_S160000x128 (constant (F := Ideal) S_ .f32 0x00000000#32) j = (0 : EReal) := by
  rw [broadcastInDim_apply _ _ _ j ix0 (fun a => a.elim0), constant_apply, Ideal.ofBits_zero_f32]

/-! ## The stage -/

/-- The reference's edge encoder as one term over its five input arrays: statements %21 to %29 of the main function,
    the outlined rectifier written out. -/
noncomputable abbrev encE (X : FVec Ideal S160000x10 .f32) (Wa : FVec Ideal S10x128 .f32) (ba : FVec Ideal S128 .f32)
    (Wb : FVec Ideal S128x128 .f32) (bb : FVec Ideal S128 .f32) : FVec Ideal S160000x128 .f32 :=
  addf
    (Host.dotGeneral (F := Ideal) dot_S160000x128_S128x128_S160000x128_1_0_0_1_n_n none
      (maximumf
        (addf (Host.dotGeneral (F := Ideal) dot_S160000x10_S10x128_S160000x128_1_0_0_1_n_n none X Wa)
          (broadcastInDim S160000x128 ![0, 1] bcast_S1x128_S160000x128_0_1 (broadcastInDim S1x128 ![1] bcast_S128_S1x128_1 ba)))
        (broadcastInDim S160000x128 ![] bcast_S_S160000x128 (constant (F := Ideal) S_ .f32 0x00000000#32)))
      Wb)
    (broadcastInDim S160000x128 ![0, 1] bcast_S1x128_S160000x128_0_1 (broadcastInDim S1x128 ![1] bcast_S128_S1x128_1 bb))

/-- At row p, column q it is the perceptron of attribute row p. -/
theorem refEncE (X : FVec Ideal S160000x10 .f32) (Wa : FVec Ideal S10x128 .f32) (ba : FVec Ideal S128 .f32)
    (Wb : FVec Ideal S128x128 .f32) (bb : FVec Ideal S128 .f32) (p : Fin 160000) (q : Fin 128) :
    encE X Wa ba Wb bb (ValueIdx.ix2 p q)
      = Cert.Spec.mlp2 (Cert.Spec.row X p) (Cert.Spec.m2 Wa) (Cert.Spec.v1 ba) (Cert.Spec.m2 Wb) (Cert.Spec.v1 bb) q := by
  unfold encE
  rw [addf_apply, dotE2_apply, biasE_apply]
  unfold Cert.Spec.mlp2 Cert.Spec.aff Cert.Spec.lin
  congr 1
  refine Finset.sum_congr rfl fun k _ => ?_
  rw [maximumf_apply, addf_apply, dotE1_apply, biasE_apply, zeroE_apply]
  rfl

end Cert.ReferenceIdeal.Hand

end
-- ==== Proof.Ref.StageMsg.lean ====
/-
  The reference's edge message of one message-passing layer, read at one index of its result.

  In the reference program a layer's messages are: the two node terms gathered along the edges, added; plus the edge
  features times a [128,128] matrix; plus a [128] bias laid along every row; the maximum with a broadcast zero; times
  a second [128,128] matrix; plus a second bias. The gathered arrays and the layer's weights (which the reference
  slices out of the stacked weights and reshapes before use) are variables here. Read at row p and column q this is
  the message formula of the specification on row p of the three edge arrays.
-/
import proofs.«152161_j29669634081217_2_alg».proof.ReferenceIdeal
import proofs.«152161_j29669634081217_2_alg».proof.Proof.Spec
import proofs.«152161_j29669634081217_2_alg».proof.Proof.Ref.StageEncN
import Idealize.ShloMosaic.PureOps.Ideal.Laws
import Idealize.ShloMosaic.Lib.ValueIdx
import Idealize.ShloMosaic.Lib.ValueLayout
import Idealize.ShloMosaic.Lib.KernelVsHost

noncomputable section

namespace Cert.ReferenceIdeal.Hand

open BigOperators Idealize.ShloMosaic Idealize.ShloMosaic.ValueIdx
open Cert.ReferenceIdeal Cert.ReferenceIdeal.Facts₀

variable [Facts₀]

/-- The reference's operations that compute one layer's messages, composed: over the edge features E, the gathered
    node terms Asrc and Bdst, and the layer's two weights and two biases. -/
noncomputable def msgRef (E Asrc Bdst : FVec Ideal S160000x128 .f32) (We : FVec Ideal S128x128 .f32) (be1 : FVec Ideal S128 .f32)
    (W2 : FVec Ideal S128x128 .f32) (b2 : FVec Ideal S128 .f32) : FVec Ideal S160000x128 .f32 :=
  addf
    (Host.dotGeneral dot_S160000x128_S128x128_S160000x128_1_0_0_1_n_n none
      (maximumf
        (addf
          (addf (addf Asrc Bdst) (Host.dotGeneral dot_S160000x128_S128x128_S160000x128_1_0_0_1_n_n none E We))
          (broadcastInDim S160000x128 ![0, 1] bcast_S1x128_S160000x128_0_1 (broadcastInDim S1x128 ![1] bcast_S128_S1x128_1 be1)))
        (broadcastInDim S160000x128 ![] bcast_S_S160000x128 (constant (F := Ideal) S_ .f32 0x00000000#32)))
      W2)
    (broadcastInDim S160000x128 ![0, 1] bcast_S1x128_S160000x128_0_1 (broadcastInDim S1x128 ![1] bcast_S128_S1x128_1 b2))

/-- Read at row p, column q: the message formula on row p of the edge features and of the two gathered terms. -/
theorem refMsg (E Asrc Bdst : FVec Ideal S160000x128 .f32) (We : FVec Ideal S128x128 .f32) (be1 : FVec Ideal S128 .f32)
    (W2 : FVec Ideal S128x128 .f32) (b2 : FVec Ideal S128 .f32) (p : Fin 160000) (q : Fin 128) :
    msgRef E Asrc Bdst We be1 W2 b2 (ix2 p q)
      = Cert.Spec.msg (Cert.Spec.row E p) (Cert.Spec.row Asrc p) (Cert.Spec.row Bdst p) (Cert.Spec.m2 We) (Cert.Spec.v1 be1)
          (Cert.Spec.m2 W2) (Cert.Spec.v1 b2) q := by
  unfold msgRef
  rw [addf_apply, bias_apply, dot_apply _ rfl rfl rfl rfl rfl rfl]
  unfold Cert.Spec.msg Cert.Spec.aff Cert.Spec.lin
  refine congrArg (· + b2 (ix1 q)) (Finset.sum_congr rfl fun i _ => ?_)
  rw [relu_apply, addf_apply, bias_apply, addf_apply, addf_apply, dot_apply _ rfl rfl rfl rfl rfl rfl]

end Cert.ReferenceIdeal.Hand

end
-- ==== Proof.Ref.StageDec.lean ====
/-
  The reference's decoder, read at one index of its result.

  In the reference program the decoder joins each node's 128 features with its two coordinates into a row of 130,
  multiplies by a [130,128] matrix, adds a bias and rectifies; a second layer to 64 columns does the same; a third
  layer to 3 columns has no rectifier. The boundary mask then multiplies columns 0 and 1 by one minus the
  displacement flag and column 2 by one minus the rotation flag, and the two parts are joined again. A sum over the
  130 joined columns is the sum over the 128 feature columns plus the sum over the 2 coordinate columns, so read at
  node `p` and column `q` the result is the masked decoder of `Cert.Spec`, the first layer's matrix split into its
  first 128 rows and its last 2.
-/
import proofs.«152161_j29669634081217_2_alg».proof.ReferenceIdeal
import proofs.«152161_j29669634081217_2_alg».proof.Proof.Spec
import proofs.«152161_j29669634081217_2_alg».proof.Proof.Ref.StageEncN
import Idealize.ShloMosaic.PureOps.Ideal.Laws
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost

noncomputable section

namespace Cert.ReferenceIdeal.Hand

open BigOperators Idealize.ShloMosaic Idealize.ShloMosaic.ValueIdx
open Cert.ReferenceIdeal Cert.ReferenceIdeal.Facts₀

variable [Facts₀]

/-! ## Two arrays joined along their columns, read at an index -/

/-- A column of the first part. -/
theorem catColsLeft {α : Type} {m a b n : ℕ} (x : (⟨2, ![m, a]⟩ : Shape).Idx → α) (y : (⟨2, ![m, b]⟩ : Shape).Idx → α)
    (h : Shape.Concatenates [⟨2, ![m, a]⟩, ⟨2, ![m, b]⟩] ⟨2, ![m, n]⟩ 1) (p : Fin m) (k : Fin n) (k' : Fin a) (hk : k'.val = k.val) :
    concatenate ⟨2, ![m, n]⟩ 1 [⟨⟨2, ![m, a]⟩, x⟩, ⟨⟨2, ![m, b]⟩, y⟩] h (ix2 p k) = x (ix2 p k') :=
  concatenate_pair_apply_left 1 x y h (ix2 p k) rfl (ix2 p k') (fun bx => by
    match bx with
    | ⟨0, _⟩ => rfl
    | ⟨1, _⟩ => exact hk)

/-- A column of the second part: its number there is the joined number less the first part's width. -/
theorem catColsRight {α : Type} {m a b n : ℕ} (x : (⟨2, ![m, a]⟩ : Shape).Idx → α) (y : (⟨2, ![m, b]⟩ : Shape).Idx → α)
    (h : Shape.Concatenates [⟨2, ![m, a]⟩, ⟨2, ![m, b]⟩] ⟨2, ![m, n]⟩ 1) (p : Fin m) (k : Fin n) (k' : Fin b) (hk : k'.val + a = k.val) :
    concatenate ⟨2, ![m, n]⟩ 1 [⟨⟨2, ![m, a]⟩, x⟩, ⟨⟨2, ![m, b]⟩, y⟩] h (ix2 p k) = y (ix2 p k') :=
  concatenate_pair_apply_right 1 x y h (ix2 p k) rfl rfl (ix2 p k') (fun bx hne => by
    match bx with
    | ⟨0, _⟩ => rfl
    | ⟨1, _⟩ => exact absurd (Fin.ext rfl) hne) hk

/-- A one-column array laid along `n` columns, read at (p, k): the column at p. -/
theorem colBcast_apply {α : Type} {m n : ℕ} (h : (⟨2, ![m, 1]⟩ : Shape).BroadcastsInDim ⟨2, ![m, n]⟩ ![0, 1])
    (x : (⟨2, ![m, 1]⟩ : Shape).Idx → α) (p : Fin m) (k : Fin n) :
    broadcastInDim ⟨2, ![m, n]⟩ ![0, 1] h x (ix2 p k) = x (ix2 p (0 : Fin 1)) := by
  refine broadcastInDim_apply ![0, 1] h x (ix2 p k) (ix2 p (0 : Fin 1)) fun ax => ?_
  match ax with
  | ⟨0, _⟩ =>
    show p.val = if m = 1 then 0 else p.val
    split
    · have := p.isLt; omega
    · rfl
  | ⟨1, _⟩ => rfl

/-- The constant one laid over any shape, read at an index. -/
theorem oneBcast_apply {t : Shape} (h : (⟨0, ![]⟩ : Shape).BroadcastsInDim t ![]) (j : t.Idx) :
    broadcastInDim t ![] h (constant (F := Ideal) ⟨0, ![]⟩ .f32 0x3F800000#32) j = (1 : EReal) := by
  rw [broadcastInDim_constant]
  show Ideal.ofBits .f32 0x3F800000#32 = _
  exact Ideal.ofBits_one_f32

/-! ## The decoder before the mask -/

/-- The reference's three decoder layers, composed: over the features, the two coordinates, and the layers' weights
    and biases. -/
noncomputable def predRef (H : FVec Ideal S20000x128 .f32) (C2 : FVec Ideal S20000x2 .f32) (W1 : FVec Ideal S130x128 .f32) (b1 : FVec Ideal S128 .f32)
    (W2 : FVec Ideal S128x64 .f32) (b2 : FVec Ideal S64 .f32) (W3 : FVec Ideal S64x3 .f32) (b3 : FVec Ideal S3 .f32) : FVec Ideal S20000x3 .f32 :=
  addf
    (Host.dotGeneral dot_S20000x64_S64x3_S20000x3_1_0_0_1_n_n none
      (maximumf
        (addf
          (Host.dotGeneral dot_S20000x128_S128x64_S20000x64_1_0_0_1_n_n none
            (maximumf
              (addf
                (Host.dotGeneral dot_S20000x130_S130x128_S20000x128_1_0_0_1_n_n none
                  (concatenate S20000x130 1 [⟨S20000x128, H⟩, ⟨S20000x2, C2⟩] concatenates_S20000x128_S20000x2_S20000x130_d1) W1)
                (broadcastInDim S20000x128 ![0, 1] bcast_S1x128_S20000x128_0_1 (broadcastInDim S1x128 ![1] bcast_S128_S1x128_1 b1)))
              (broadcastInDim S20000x128 ![] bcast_S_S20000x128 (constant (F := Ideal) S_ .f32 0x00000000#32)))
            W2)
          (broadcastInDim S20000x64 ![0, 1] bcast_S1x64_S20000x64_0_1 (broadcastInDim S1x64 ![1] bcast_S64_S1x64_1 b2)))
        (broadcastInDim S20000x64 ![] bcast_S_S20000x64 (constant (F := Ideal) S_ .f32 0x00000000#32)))
      W3)
    (broadcastInDim S20000x3 ![0, 1] bcast_S1x3_S20000x3_0_1 (broadcastInDim S1x3 ![1] bcast_S3_S1x3_1 b3))

/-- The first layer's product over the 130 joined columns is the features' part plus the coordinates' part. -/
theorem joinedSum (H : FVec Ideal S20000x128 .f32) (C2 : FVec Ideal S20000x2 .f32) (W1 : FVec Ideal S130x128 .f32) (p : Fin 20000) (k : Fin 128) :
    ∑ i : Fin 130, concatenate S20000x130 1 [⟨S20000x128, H⟩, ⟨S20000x2, C2⟩] concatenates_S20000x128_S20000x2_S20000x130_d1 (ix2 p i) * W1 (ix2 i k)
      = ∑ a : Fin 128, H (ix2 p a) * W1 (ix2 ⟨a.val, by omega⟩ k) + ∑ b : Fin 2, C2 (ix2 p b) * W1 (ix2 ⟨128 + b.val, by omega⟩ k) := by
  have split := Fin.sum_univ_add (a := 128) (b := 2) (fun i : Fin (128 + 2) =>
    concatenate S20000x130 1 [⟨S20000x128, H⟩, ⟨S20000x2, C2⟩] concatenates_S20000x128_S20000x2_S20000x130_d1 (ix2 p i) * W1 (ix2 i k))
  refine split.trans (congrArg₂ (· + ·) ?_ ?_)
  · refine Finset.sum_congr rfl fun a _ => ?_
    rw [catColsLeft H C2 _ p (Fin.castAdd 2 a) a rfl]
    rfl
  · refine Finset.sum_congr rfl fun b _ => ?_
    rw [catColsRight H C2 _ p (Fin.natAdd 128 b) b (by show b.val + 128 = 128 + b.val; omega)]
    rfl

/-- Read at node `p`, column `j`: the three-layer decoder of `Cert.Spec` on the node's features and coordinates. -/
theorem predRef_apply (H : FVec Ideal S20000x128 .f32) (C2 : FVec Ideal S20000x2 .f32) (W1 : FVec Ideal S130x128 .f32) (b1 : FVec Ideal S128 .f32)
    (W2 : FVec Ideal S128x64 .f32) (b2 : FVec Ideal S64 .f32) (W3 : FVec Ideal S64x3 .f32) (b3 : FVec Ideal S3 .f32) (p : Fin 20000) (j : Fin 3) :
    predRef H C2 W1 b1 W2 b2 W3 b3 (ix2 p j)
      = Cert.Spec.dec (Cert.Spec.row H p) (Cert.Spec.row C2 p) (fun (a : Fin 128) (k : Fin 128) => W1 (ix2 ⟨a.val, by omega⟩ k))
          (fun (b : Fin 2) (k : Fin 128) => W1 (ix2 ⟨128 + b.val, by omega⟩ k)) (Cert.Spec.v1 b1) (Cert.Spec.m2 W2) (Cert.Spec.v1 b2)
          (Cert.Spec.m2 W3) (Cert.Spec.v1 b3) j := by
  unfold predRef
  rw [addf_apply, bias_apply, dot_apply _ rfl rfl rfl rfl rfl rfl]
  unfold Cert.Spec.dec Cert.Spec.aff Cert.Spec.lin
  refine congrArg (· + b3 (ix1 j)) (Finset.sum_congr rfl fun k2 _ => ?_)
  rw [relu_apply, addf_apply, bias_apply, dot_apply _ rfl rfl rfl rfl rfl rfl]
  refine congrArg (fun z => Cert.Spec.relu (z + b2 (ix1 k2)) * W3 (ix2 k2 j)) (Finset.sum_congr rfl fun k _ => ?_)
  rw [relu_apply, addf_apply, bias_apply, dot_apply _ rfl rfl rfl rfl rfl rfl, joinedSum]

/-! ## The masked prediction -/

/-- The reference's decoder tail: the three layers, then columns 0 and 1 times one minus the displacement flag and
    column 2 times one minus the rotation flag, joined. -/
noncomputable def decRef (H : FVec Ideal S20000x128 .f32) (C2 : FVec Ideal S20000x2 .f32) (disp rot : FVec Ideal S20000x1 .f32)
    (W1 : FVec Ideal S130x128 .f32) (b1 : FVec Ideal S128 .f32) (W2 : FVec Ideal S128x64 .f32) (b2 : FVec Ideal S64 .f32)
    (W3 : FVec Ideal S64x3 .f32) (b3 : FVec Ideal S3 .f32) : FVec Ideal S20000x3 .f32 :=
  concatenate S20000x3 1
    [⟨S20000x2, mulf (extractStridedSlice S20000x2 ![0, 0] (predRef H C2 W1 b1 W2 b2 W3 b3) slices_S20000x3_S20000x2_0_0)
        (broadcastInDim S20000x2 ![0, 1] bcast_S20000x1_S20000x2_0_1
          (subf (broadcastInDim S20000x1 ![] bcast_S_S20000x1 (constant (F := Ideal) S_ .f32 0x3F800000#32)) disp))⟩,
     ⟨S20000x1, mulf (extractStridedSlice S20000x1 ![0, 2] (predRef H C2 W1 b1 W2 b2 W3 b3) slices_S20000x3_S20000x1_0_2)
        (subf (broadcastInDim S20000x1 ![] bcast_S_S20000x1 (constant (F := Ideal) S_ .f32 0x3F800000#32)) rot)⟩]
    concatenates_S20000x2_S20000x1_S20000x3_d1

/-- Read at node `p`, column `q`: the masked decoder of `Cert.Spec`. -/
theorem refDec (H : FVec Ideal S20000x128 .f32) (C2 : FVec Ideal S20000x2 .f32) (disp rot : FVec Ideal S20000x1 .f32)
    (W1 : FVec Ideal S130x128 .f32) (b1 : FVec Ideal S128 .f32) (W2 : FVec Ideal S128x64 .f32) (b2 : FVec Ideal S64 .f32)
    (W3 : FVec Ideal S64x3 .f32) (b3 : FVec Ideal S3 .f32) (p : Fin 20000) (q : Fin 3) :
    decRef H C2 disp rot W1 b1 W2 b2 W3 b3 (ix2 p q)
      = Cert.Spec.masked
          (Cert.Spec.dec (Cert.Spec.row H p) (Cert.Spec.row C2 p) (fun (a : Fin 128) (k : Fin 128) => W1 (ix2 ⟨a.val, by omega⟩ k))
            (fun (b : Fin 2) (k : Fin 128) => W1 (ix2 ⟨128 + b.val, by omega⟩ k)) (Cert.Spec.v1 b1) (Cert.Spec.m2 W2) (Cert.Spec.v1 b2)
            (Cert.Spec.m2 W3) (Cert.Spec.v1 b3))
          (disp (ix2 p 0)) (rot (ix2 p 0)) q := by
  unfold decRef Cert.Spec.masked
  by_cases hq : q.val < 2
  · rw [catColsLeft _ _ _ p q ⟨q.val, hq⟩ rfl, mulf_apply, slice2_axis1_apply 0 _ _ p ⟨q.val, hq⟩ q (Nat.zero_add _).symm, predRef_apply,
      colBcast_apply, subf_apply, oneBcast_apply, if_pos hq]
  · have hq2 : q.val = 2 := by have := q.isLt; omega
    rw [catColsRight _ _ _ p q (0 : Fin 1) (by show 0 + 2 = q.val; omega), mulf_apply,
      slice2_axis1_apply 2 _ _ p (0 : Fin 1) q (by show q.val = 2 + 0; omega), predRef_apply, subf_apply, oneBcast_apply, if_neg hq]

end Cert.ReferenceIdeal.Hand

end
-- ==== Proof.Ref.Stages.lean ====
/- The reference's named stages: each intermediate array as the composed term of the printed operations of its
   stage over the earlier stages, down to the 31 argument arrays; read at the ideal values. -/
import proofs.«152161_j29669634081217_2_alg».proof.Proof.Gen.ReferenceIdeal
import proofs.«152161_j29669634081217_2_alg».proof.Proof.Ref.StageEncN
import proofs.«152161_j29669634081217_2_alg».proof.Proof.Ref.StageEncE
import proofs.«152161_j29669634081217_2_alg».proof.Proof.Ref.StageMsg
import proofs.«152161_j29669634081217_2_alg».proof.Proof.Ref.StageDec

noncomputable section

namespace Cert.ReferenceIdeal.Hand

open Cert.ReferenceIdeal Cert.ReferenceIdeal.Gen Idealize.ShloMosaic

/-! ## The pieces -/

/-- Row `r` of the [2,160000] edge index as a vector: the slice, reshaped. -/
noncomputable def idxRow (r : Nat) (hs : S2x160000.Slices ![r, 0] S1x160000) (e : IVec S2x160000 32) : IVec S160000 32 :=
  fun i => shapeCast S160000 (extractStridedSlice S1x160000 ![r, 0] e hs) shapeCasts_S1x160000_S160000 i

/-- The senders' row and the receivers' row. -/
noncomputable def srcRaw (e : IVec S2x160000 32) : IVec S160000 32 := idxRow 0 slices_S2x160000_S1x160000_0_0 e
noncomputable def dstRaw (e : IVec S2x160000 32) : IVec S160000 32 := idxRow 1 slices_S2x160000_S1x160000_1_0 e

/-- An index vector normalised for a gather along 20000 rows (a negative index counts from the end), as the
    [160000,1] array of start indices. -/
noncomputable def normIdx (v : IVec S160000 32) : IVec S160000x1 32 :=
  broadcastInDim S160000x1 ![0] bcast_S160000_S160000x1_0
    (select (cmpi .slt v (broadcastInDim S160000 ![] bcast_S_S160000 (constantI S_ 32 0#32)))
      (addi v (broadcastInDim S160000 ![] bcast_S_S160000 (constantI S_ 32 20000#32))) v)

/-- Rows of a node array gathered along an index vector. -/
noncomputable def gatherRef (a : FVec Ideal S20000x128 .f32) (v : IVec S160000 32) : FVec Ideal S160000x128 .f32 :=
  Host.gather gather_S20000x128_S160000x1_S160000x128_1_0_n_n_0_1_1128 a (normIdx v)

/-- The messages added into the zero node array at their receivers' rows. -/
noncomputable def aggRef (dst : IVec S160000 32) (m : FVec Ideal S160000x128 .f32) : FVec Ideal S20000x128 .f32 :=
  Host.scatterAdd scatter_S20000x128_S160000x1_S160000x128_1_0_0_1
    (broadcastInDim S20000x128 ![] bcast_S_S20000x128 (constant (F := Ideal) S_ .f32 0x00000000#32))
    (broadcastInDim S160000x1 ![0] bcast_S160000_S160000x1_0 dst) m

/-- A node array times a [128,128] matrix. -/
noncomputable def linRef (h : FVec Ideal S20000x128 .f32) (W : FVec Ideal S128x128 .f32) : FVec Ideal S20000x128 .f32 :=
  Host.dotGeneral dot_S20000x128_S128x128_S20000x128_1_0_0_1_n_n none h W

/-- The residual node update: H plus the two-layer perceptron of H and the aggregate. -/
noncomputable def updRef (H A : FVec Ideal S20000x128 .f32) (W1h W1a : FVec Ideal S128x128 .f32) (b1 : FVec Ideal S128 .f32)
    (W2 : FVec Ideal S128x128 .f32) (b2 : FVec Ideal S128 .f32) : FVec Ideal S20000x128 .f32 :=
  addf H
    (addf
      (Host.dotGeneral dot_S20000x128_S128x128_S20000x128_1_0_0_1_n_n none
        (maximumf
          (addf
            (addf (Host.dotGeneral dot_S20000x128_S128x128_S20000x128_1_0_0_1_n_n none H W1h)
              (Host.dotGeneral dot_S20000x128_S128x128_S20000x128_1_0_0_1_n_n none A W1a))
            (broadcastInDim S20000x128 ![0, 1] bcast_S1x128_S20000x128_0_1 (broadcastInDim S1x128 ![1] bcast_S128_S1x128_1 b1)))
          (broadcastInDim S20000x128 ![] bcast_S_S20000x128 (constant (F := Ideal) S_ .f32 0x00000000#32)))
        W2)
      (broadcastInDim S20000x128 ![0, 1] bcast_S1x128_S20000x128_0_1 (broadcastInDim S1x128 ![1] bcast_S128_S1x128_1 b2)))

/-- The constant index table [0, 2]. -/
noncomputable def colTab : IVec S2 32 := fun i => lit0 (S2.rowMajor i)

/-- The two position columns the decoder appends to the node features: columns 0 and 2 of the positions, by the
    printed gather over the constant index table [0, 2]. -/
noncomputable def c2Ref (pos : FVec Ideal S20000x3 .f32) : FVec Ideal S20000x2 .f32 :=
  Host.gather gather_S20000x3_S2x1_S20000x2_0_1_n_n_1_1_200001 pos
    (broadcastInDim S2x1 ![0] bcast_S2_S2x1_0
      (select (cmpi .slt colTab (broadcastInDim S2 ![] bcast_S_S2 (constantI S_ 32 0#32)))
        (addi colTab (broadcastInDim S2 ![] bcast_S_S2 (constantI S_ 32 3#32)))
        colTab))

/-- Layer `l`'s matrix of a stacked [6,128,128] weight: the slice, reshaped. -/
noncomputable def wmat (l : Nat) (hs : S6x128x128.Slices ![l, 0, 0] S1x128x128) (w : FVec Ideal S6x128x128 .f32) : FVec Ideal S128x128 .f32 :=
  fun i => shapeCast S128x128 (extractStridedSlice S1x128x128 ![l, 0, 0] w hs) shapeCasts_S1x128x128_S128x128 i

/-- Layer `l`'s vector of a stacked [6,128] bias: the slice, reshaped. -/
noncomputable def wvec (l : Nat) (hs : S6x128.Slices ![l, 0] S1x128) (b : FVec Ideal S6x128 .f32) : FVec Ideal S128 .f32 :=
  fun i => shapeCast S128 (extractStridedSlice S1x128 ![l, 0] b hs) shapeCasts_S1x128_S128 i

/-- The same by the layer's number (six layers; a number past the last reads the last). -/
noncomputable def wmN (w : FVec Ideal S6x128x128 .f32) : Nat → FVec Ideal S128x128 .f32
  | 0 => wmat 0 slices_S6x128x128_S1x128x128_0_0_0 w
  | 1 => wmat 1 slices_S6x128x128_S1x128x128_1_0_0 w
  | 2 => wmat 2 slices_S6x128x128_S1x128x128_2_0_0 w
  | 3 => wmat 3 slices_S6x128x128_S1x128x128_3_0_0 w
  | 4 => wmat 4 slices_S6x128x128_S1x128x128_4_0_0 w
  | _ => wmat 5 slices_S6x128x128_S1x128x128_5_0_0 w

noncomputable def wvN (b : FVec Ideal S6x128 .f32) : Nat → FVec Ideal S128 .f32
  | 0 => wvec 0 slices_S6x128_S1x128_0_0 b
  | 1 => wvec 1 slices_S6x128_S1x128_1_0 b
  | 2 => wvec 2 slices_S6x128_S1x128_2_0 b
  | 3 => wvec 3 slices_S6x128_S1x128_3_0 b
  | 4 => wvec 4 slices_S6x128_S1x128_4_0 b
  | _ => wvec 5 slices_S6x128_S1x128_5_0 b

/-! ## The stages over the 31 arguments -/

/-- The 31 argument arrays of @main. -/
structure Args where
  a0 : FVec Ideal S20000x9 .f32
  a1 : FVec Ideal S20000x3 .f32
  a2 : FVec Ideal S160000x10 .f32
  a3 : FVec Ideal S20000x1 .f32
  a4 : FVec Ideal S20000x1 .f32
  a5 : IVec S2x160000 32
  a6 : FVec Ideal S6x128 .f32
  a7 : FVec Ideal S128 .f32
  a8 : FVec Ideal S128x128 .f32
  a9 : FVec Ideal S128 .f32
  a10 : FVec Ideal S10x128 .f32
  a11 : FVec Ideal S128 .f32
  a12 : FVec Ideal S128x128 .f32
  a13 : FVec Ideal S128 .f32
  a14 : FVec Ideal S6x128x128 .f32
  a15 : FVec Ideal S6x128x128 .f32
  a16 : FVec Ideal S6x128x128 .f32
  a17 : FVec Ideal S6x128 .f32
  a18 : FVec Ideal S6x128x128 .f32
  a19 : FVec Ideal S6x128 .f32
  a20 : FVec Ideal S6x128x128 .f32
  a21 : FVec Ideal S6x128x128 .f32
  a22 : FVec Ideal S6x128 .f32
  a23 : FVec Ideal S6x128x128 .f32
  a24 : FVec Ideal S6x128 .f32
  a25 : FVec Ideal S130x128 .f32
  a26 : FVec Ideal S128 .f32
  a27 : FVec Ideal S128x64 .f32
  a28 : FVec Ideal S64 .f32
  a29 : FVec Ideal S64x3 .f32
  a30 : FVec Ideal S3 .f32

variable (A : Args)

/-- The senders and the receivers of the edges. -/
noncomputable def srcS : IVec S160000 32 := srcRaw A.a5
noncomputable def dstS : IVec S160000 32 := dstRaw A.a5
/-- The two position columns. -/
noncomputable def c2S : FVec Ideal S20000x2 .f32 := c2Ref A.a1
/-- The encoded nodes (columns 3 to 8 of the node features through the node encoder). -/
noncomputable def h0S : FVec Ideal S20000x128 .f32 :=
  encN (extractStridedSlice S20000x6 ![0, 3] A.a0 slices_S20000x9_S20000x6_0_3) A.a6 A.a7 A.a8 A.a9
/-- The encoded edges. -/
noncomputable def e0S : FVec Ideal S160000x128 .f32 := encE A.a2 A.a10 A.a11 A.a12 A.a13

/-- Layer `l` from node features `h`: the two projections, -/
noncomputable def aOf (l : Nat) (h : FVec Ideal S20000x128 .f32) : FVec Ideal S20000x128 .f32 := linRef h (wmN A.a14 l)
noncomputable def bOf (l : Nat) (h : FVec Ideal S20000x128 .f32) : FVec Ideal S20000x128 .f32 := linRef h (wmN A.a15 l)
/-- gathered at the senders and at the receivers, -/
noncomputable def asrcOf (l : Nat) (h : FVec Ideal S20000x128 .f32) : FVec Ideal S160000x128 .f32 := gatherRef (aOf A l h) (srcS A)
noncomputable def bdstOf (l : Nat) (h : FVec Ideal S20000x128 .f32) : FVec Ideal S160000x128 .f32 := gatherRef (bOf A l h) (dstS A)
/-- the messages, -/
noncomputable def mOf (l : Nat) (h : FVec Ideal S20000x128 .f32) : FVec Ideal S160000x128 .f32 :=
  msgRef (e0S A) (asrcOf A l h) (bdstOf A l h) (wmN A.a16 l) (wvN A.a17 l) (wmN A.a18 l) (wvN A.a19 l)
/-- their sums at the receivers, -/
noncomputable def aggOf (l : Nat) (h : FVec Ideal S20000x128 .f32) : FVec Ideal S20000x128 .f32 := aggRef (dstS A) (mOf A l h)
/-- and the updated node features. -/
noncomputable def stepOf (l : Nat) (h : FVec Ideal S20000x128 .f32) : FVec Ideal S20000x128 .f32 :=
  updRef h (aggOf A l h) (wmN A.a20 l) (wmN A.a21 l) (wvN A.a22 l) (wmN A.a23 l) (wvN A.a24 l)

/-- The node features entering layer `l` (leaving layer `l - 1`). -/
noncomputable def hS : Nat → FVec Ideal S20000x128 .f32
  | 0 => h0S A
  | l + 1 => stepOf A l (hS l)

/-- Layer `l`'s named arrays. -/
noncomputable def aS (l : Nat) := aOf A l (hS A l)
noncomputable def bS (l : Nat) := bOf A l (hS A l)
noncomputable def asrcS (l : Nat) := asrcOf A l (hS A l)
noncomputable def bdstS (l : Nat) := bdstOf A l (hS A l)
noncomputable def mS (l : Nat) := mOf A l (hS A l)
noncomputable def aggS (l : Nat) := aggOf A l (hS A l)

/-- The reference's result: the decoder on the last node features and the two position columns, masked. -/
noncomputable def pred : FVec Ideal S20000x3 .f32 :=
  decRef (hS A 6) (c2S A) A.a3 A.a4 A.a25 A.a26 A.a27 A.a28 A.a29 A.a30

end Cert.ReferenceIdeal.Hand

end
-- ==== Proof.Ref.ResultPre.lean ====
/- The reference's first stages read from its run: the edge index's two rows, the two position columns, the encoded
   nodes and the encoded edges, each its stage's printed operations composed over the arguments. -/
import proofs.«152161_j29669634081217_2_alg».proof.Proof.Ref.SegRun
import proofs.«152161_j29669634081217_2_alg».proof.Proof.Ref.Stages

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxHeartbeats 4000000 in
theorem src_rel (V : Valuation τ sig (Elt Ideal)) :
    after ops V (Proc.devRef .tc main_v1) = srcRaw (V (Proc.devRef .tc main_arg5)) := by
  rw [stage_eq (F := Ideal) 0 sg_idx rfl V main_v1 (by decide),
    ← before_arg 0 V main_arg5 arg5_unw]
  generalize before 0 V = X
  simp only [sg_idx]
  after_results
  rfl

set_option maxHeartbeats 4000000 in
theorem dst_rel (V : Valuation τ sig (Elt Ideal)) :
    after ops V (Proc.devRef .tc main_v3) = dstRaw (V (Proc.devRef .tc main_arg5)) := by
  rw [stage_eq (F := Ideal) 0 sg_idx rfl V main_v3 (by decide),
    ← before_arg 0 V main_arg5 arg5_unw]
  generalize before 0 V = X
  simp only [sg_idx]
  after_results
  rfl

set_option maxHeartbeats 4000000 in
theorem c2_rel (V : Valuation τ sig (Elt Ideal)) :
    after ops V (Proc.devRef .tc main_v10) = c2Ref (V (Proc.devRef .tc main_arg1)) := by
  rw [stage_eq (F := Ideal) 0 sg_idx rfl V main_v10 (by decide),
    ← before_arg 0 V main_arg1 arg1_unw]
  generalize before 0 V = X
  simp only [sg_idx]
  after_results
  rfl

set_option maxHeartbeats 4000000 in
theorem h0_rel (V : Valuation τ sig (Elt Ideal)) :
    after ops V (Proc.devRef .tc main_v20) = encN (extractStridedSlice S20000x6 ![0, 3] (V (Proc.devRef .tc main_arg0)) slices_S20000x9_S20000x6_0_3)
        (V (Proc.devRef .tc main_arg6)) (V (Proc.devRef .tc main_arg7)) (V (Proc.devRef .tc main_arg8)) (V (Proc.devRef .tc main_arg9)) := by
  rw [stage_eq (F := Ideal) 1 sg_h0 rfl V main_v20 (by decide),
    ← before_arg 1 V main_arg0 arg0_unw,
    ← before_arg 1 V main_arg6 arg6_unw,
    ← before_arg 1 V main_arg7 arg7_unw,
    ← before_arg 1 V main_arg8 arg8_unw,
    ← before_arg 1 V main_arg9 arg9_unw]
  generalize before 1 V = X
  simp only [sg_h0]
  after_results
  rfl

set_option maxHeartbeats 4000000 in
theorem e0_rel (V : Valuation τ sig (Elt Ideal)) :
    after ops V (Proc.devRef .tc main_v29) = encE (V (Proc.devRef .tc main_arg2)) (V (Proc.devRef .tc main_arg10)) (V (Proc.devRef .tc main_arg11)) (V (Proc.devRef .tc main_arg12)) (V (Proc.devRef .tc main_arg13)) := by
  rw [stage_eq (F := Ideal) 2 sg_e0 rfl V main_v29 (by decide),
    ← before_arg 2 V main_arg2 arg2_unw,
    ← before_arg 2 V main_arg10 arg10_unw,
    ← before_arg 2 V main_arg11 arg11_unw,
    ← before_arg 2 V main_arg12 arg12_unw,
    ← before_arg 2 V main_arg13 arg13_unw]
  generalize before 2 V = X
  simp only [sg_e0]
  after_results

end Cert.ReferenceIdeal.Hand

end
-- ==== Proof.Ref.ResultL0.lean ====
/- Layer 0 of the reference read stage by stage: each named array after @main is its stage's printed operations
   composed, over the arrays the stage reads as they stand after @main. -/
import proofs.«152161_j29669634081217_2_alg».proof.Proof.Ref.SegRun
import proofs.«152161_j29669634081217_2_alg».proof.Proof.Ref.Stages

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxHeartbeats 4000000 in
theorem a_rel0 (V : Valuation τ sig (Elt Ideal)) :
    after ops V (Proc.devRef .tc main_v32) = linRef (after ops V (Proc.devRef .tc main_v20)) (wmN (V (Proc.devRef .tc main_arg14)) 0) := by
  rw [stage_eq (F := Ideal) 3 sg_a0 rfl V main_v32 (by decide),
    ← before_eq 3 V main_v20 (by decide),
    ← before_arg 3 V main_arg14 arg14_unw]
  generalize before 3 V = X
  simp only [sg_a0]
  after_results
  rfl

set_option maxHeartbeats 4000000 in
theorem b_rel0 (V : Valuation τ sig (Elt Ideal)) :
    after ops V (Proc.devRef .tc main_v35) = linRef (after ops V (Proc.devRef .tc main_v20)) (wmN (V (Proc.devRef .tc main_arg15)) 0) := by
  rw [stage_eq (F := Ideal) 4 sg_b0 rfl V main_v35 (by decide),
    ← before_eq 4 V main_v20 (by decide),
    ← before_arg 4 V main_arg15 arg15_unw]
  generalize before 4 V = X
  simp only [sg_b0]
  after_results
  rfl

set_option maxHeartbeats 4000000 in
theorem asrc_rel0 (V : Valuation τ sig (Elt Ideal)) :
    after ops V (Proc.devRef .tc main_v42) = gatherRef (after ops V (Proc.devRef .tc main_v32)) (after ops V (Proc.devRef .tc main_v1)) := by
  rw [stage_eq (F := Ideal) 5 sg_asrc0 rfl V main_v42 (by decide),
    ← before_eq 5 V main_v32 (by decide),
    ← before_eq 5 V main_v1 (by decide)]
  generalize before 5 V = X
  simp only [sg_asrc0]
  after_results
  rfl

set_option maxHeartbeats 4000000 in
theorem bdst_rel0 (V : Valuation τ sig (Elt Ideal)) :
    after ops V (Proc.devRef .tc main_v49) = gatherRef (after ops V (Proc.devRef .tc main_v35)) (after ops V (Proc.devRef .tc main_v3)) := by
  rw [stage_eq (F := Ideal) 6 sg_bdst0 rfl V main_v49 (by decide),
    ← before_eq 6 V main_v35 (by decide),
    ← before_eq 6 V main_v3 (by decide)]
  generalize before 6 V = X
  simp only [sg_bdst0]
  after_results
  rfl

set_option maxHeartbeats 4000000 in
theorem m_rel0 (V : Valuation τ sig (Elt Ideal)) :
    after ops V (Proc.devRef .tc main_v68) = msgRef (after ops V (Proc.devRef .tc main_v29)) (after ops V (Proc.devRef .tc main_v42)) (after ops V (Proc.devRef .tc main_v49))
        (wmN (V (Proc.devRef .tc main_arg16)) 0) (wvN (V (Proc.devRef .tc main_arg17)) 0) (wmN (V (Proc.devRef .tc main_arg18)) 0) (wvN (V (Proc.devRef .tc main_arg19)) 0) := by
  rw [stage_eq (F := Ideal) 7 sg_m0 rfl V main_v68 (by decide),
    ← before_eq 7 V main_v29 (by decide),
    ← before_eq 7 V main_v42 (by decide),
    ← before_eq 7 V main_v49 (by decide),
    ← before_arg 7 V main_arg16 arg16_unw,
    ← before_arg 7 V main_arg17 arg17_unw,
    ← before_arg 7 V main_arg18 arg18_unw,
    ← before_arg 7 V main_arg19 arg19_unw]
  generalize before 7 V = X
  simp only [sg_m0]
  after_results
  rfl

set_option maxHeartbeats 4000000 in
theorem agg_rel0 (V : Valuation τ sig (Elt Ideal)) :
    after ops V (Proc.devRef .tc main_v71) = aggRef (after ops V (Proc.devRef .tc main_v3)) (after ops V (Proc.devRef .tc main_v68)) := by
  rw [stage_eq (F := Ideal) 8 sg_agg0 rfl V main_v71 (by decide),
    ← before_eq 8 V main_v3 (by decide),
    ← before_eq 8 V main_v68 (by decide)]
  generalize before 8 V = X
  simp only [sg_agg0]
  after_results
  rfl

set_option maxHeartbeats 4000000 in
theorem h_rel0 (V : Valuation τ sig (Elt Ideal)) :
    after ops V (Proc.devRef .tc main_v93) = updRef (after ops V (Proc.devRef .tc main_v20)) (after ops V (Proc.devRef .tc main_v71))
        (wmN (V (Proc.devRef .tc main_arg20)) 0) (wmN (V (Proc.devRef .tc main_arg21)) 0) (wvN (V (Proc.devRef .tc main_arg22)) 0) (wmN (V (Proc.devRef .tc main_arg23)) 0) (wvN (V (Proc.devRef .tc main_arg24)) 0) := by
  rw [stage_eq (F := Ideal) 9 sg_h1 rfl V main_v93 (by decide),
    ← before_eq 9 V main_v20 (by decide),
    ← before_eq 9 V main_v71 (by decide),
    ← before_arg 9 V main_arg20 arg20_unw,
    ← before_arg 9 V main_arg21 arg21_unw,
    ← before_arg 9 V main_arg22 arg22_unw,
    ← before_arg 9 V main_arg23 arg23_unw,
    ← before_arg 9 V main_arg24 arg24_unw]
  generalize before 9 V = X
  simp only [sg_h1]
  after_results
  rfl

end Cert.ReferenceIdeal.Hand

end
-- ==== Proof.Ref.ResultL1.lean ====
/- Layer 1 of the reference read stage by stage: each named array after @main is its stage's printed operations
   composed, over the arrays the stage reads as they stand after @main. -/
import proofs.«152161_j29669634081217_2_alg».proof.Proof.Ref.SegRun
import proofs.«152161_j29669634081217_2_alg».proof.Proof.Ref.Stages

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxHeartbeats 4000000 in
theorem a_rel1 (V : Valuation τ sig (Elt Ideal)) :
    after ops V (Proc.devRef .tc main_v96) = linRef (after ops V (Proc.devRef .tc main_v93)) (wmN (V (Proc.devRef .tc main_arg14)) 1) := by
  rw [stage_eq (F := Ideal) 10 sg_a1 rfl V main_v96 (by decide),
    ← before_eq 10 V main_v93 (by decide),
    ← before_arg 10 V main_arg14 arg14_unw]
  generalize before 10 V = X
  simp only [sg_a1]
  after_results
  rfl

set_option maxHeartbeats 4000000 in
theorem b_rel1 (V : Valuation τ sig (Elt Ideal)) :
    after ops V (Proc.devRef .tc main_v99) = linRef (after ops V (Proc.devRef .tc main_v93)) (wmN (V (Proc.devRef .tc main_arg15)) 1) := by
  rw [stage_eq (F := Ideal) 11 sg_b1 rfl V main_v99 (by decide),
    ← before_eq 11 V main_v93 (by decide),
    ← before_arg 11 V main_arg15 arg15_unw]
  generalize before 11 V = X
  simp only [sg_b1]
  after_results
  rfl

set_option maxHeartbeats 4000000 in
theorem asrc_rel1 (V : Valuation τ sig (Elt Ideal)) :
    after ops V (Proc.devRef .tc main_v106) = gatherRef (after ops V (Proc.devRef .tc main_v96)) (after ops V (Proc.devRef .tc main_v1)) := by
  rw [stage_eq (F := Ideal) 12 sg_asrc1 rfl V main_v106 (by decide),
    ← before_eq 12 V main_v96 (by decide),
    ← before_eq 12 V main_v1 (by decide)]
  generalize before 12 V = X
  simp only [sg_asrc1]
  after_results
  rfl

set_option maxHeartbeats 4000000 in
theorem bdst_rel1 (V : Valuation τ sig (Elt Ideal)) :
    after ops V (Proc.devRef .tc main_v113) = gatherRef (after ops V (Proc.devRef .tc main_v99)) (after ops V (Proc.devRef .tc main_v3)) := by
  rw [stage_eq (F := Ideal) 13 sg_bdst1 rfl V main_v113 (by decide),
    ← before_eq 13 V main_v99 (by decide),
    ← before_eq 13 V main_v3 (by decide)]
  generalize before 13 V = X
  simp only [sg_bdst1]
  after_results
  rfl

set_option maxHeartbeats 4000000 in
theorem m_rel1 (V : Valuation τ sig (Elt Ideal)) :
    after ops V (Proc.devRef .tc main_v132) = msgRef (after ops V (Proc.devRef .tc main_v29)) (after ops V (Proc.devRef .tc main_v106)) (after ops V (Proc.devRef .tc main_v113))
        (wmN (V (Proc.devRef .tc main_arg16)) 1) (wvN (V (Proc.devRef .tc main_arg17)) 1) (wmN (V (Proc.devRef .tc main_arg18)) 1) (wvN (V (Proc.devRef .tc main_arg19)) 1) := by
  rw [stage_eq (F := Ideal) 14 sg_m1 rfl V main_v132 (by decide),
    ← before_eq 14 V main_v29 (by decide),
    ← before_eq 14 V main_v106 (by decide),
    ← before_eq 14 V main_v113 (by decide),
    ← before_arg 14 V main_arg16 arg16_unw,
    ← before_arg 14 V main_arg17 arg17_unw,
    ← before_arg 14 V main_arg18 arg18_unw,
    ← before_arg 14 V main_arg19 arg19_unw]
  generalize before 14 V = X
  simp only [sg_m1]
  after_results
  rfl

set_option maxHeartbeats 4000000 in
theorem agg_rel1 (V : Valuation τ sig (Elt Ideal)) :
    after ops V (Proc.devRef .tc main_v135) = aggRef (after ops V (Proc.devRef .tc main_v3)) (after ops V (Proc.devRef .tc main_v132)) := by
  rw [stage_eq (F := Ideal) 15 sg_agg1 rfl V main_v135 (by decide),
    ← before_eq 15 V main_v3 (by decide),
    ← before_eq 15 V main_v132 (by decide)]
  generalize before 15 V = X
  simp only [sg_agg1]
  after_results
  rfl

set_option maxHeartbeats 4000000 in
theorem h_rel1 (V : Valuation τ sig (Elt Ideal)) :
    after ops V (Proc.devRef .tc main_v157) = updRef (after ops V (Proc.devRef .tc main_v93)) (after ops V (Proc.devRef .tc main_v135))
        (wmN (V (Proc.devRef .tc main_arg20)) 1) (wmN (V (Proc.devRef .tc main_arg21)) 1) (wvN (V (Proc.devRef .tc main_arg22)) 1) (wmN (V (Proc.devRef .tc main_arg23)) 1) (wvN (V (Proc.devRef .tc main_arg24)) 1) := by
  rw [stage_eq (F := Ideal) 16 sg_h2 rfl V main_v157 (by decide),
    ← before_eq 16 V main_v93 (by decide),
    ← before_eq 16 V main_v135 (by decide),
    ← before_arg 16 V main_arg20 arg20_unw,
    ← before_arg 16 V main_arg21 arg21_unw,
    ← before_arg 16 V main_arg22 arg22_unw,
    ← before_arg 16 V main_arg23 arg23_unw,
    ← before_arg 16 V main_arg24 arg24_unw]
  generalize before 16 V = X
  simp only [sg_h2]
  after_results
  rfl

end Cert.ReferenceIdeal.Hand

end
-- ==== Proof.Ref.ResultL2.lean ====
/- Layer 2 of the reference read stage by stage: each named array after @main is its stage's printed operations
   composed, over the arrays the stage reads as they stand after @main. -/
import proofs.«152161_j29669634081217_2_alg».proof.Proof.Ref.SegRun
import proofs.«152161_j29669634081217_2_alg».proof.Proof.Ref.Stages

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxHeartbeats 4000000 in
theorem a_rel2 (V : Valuation τ sig (Elt Ideal)) :
    after ops V (Proc.devRef .tc main_v160) = linRef (after ops V (Proc.devRef .tc main_v157)) (wmN (V (Proc.devRef .tc main_arg14)) 2) := by
  rw [stage_eq (F := Ideal) 17 sg_a2 rfl V main_v160 (by decide),
    ← before_eq 17 V main_v157 (by decide),
    ← before_arg 17 V main_arg14 arg14_unw]
  generalize before 17 V = X
  simp only [sg_a2]
  after_results
  rfl

set_option maxHeartbeats 4000000 in
theorem b_rel2 (V : Valuation τ sig (Elt Ideal)) :
    after ops V (Proc.devRef .tc main_v163) = linRef (after ops V (Proc.devRef .tc main_v157)) (wmN (V (Proc.devRef .tc main_arg15)) 2) := by
  rw [stage_eq (F := Ideal) 18 sg_b2 rfl V main_v163 (by decide),
    ← before_eq 18 V main_v157 (by decide),
    ← before_arg 18 V main_arg15 arg15_unw]
  generalize before 18 V = X
  simp only [sg_b2]
  after_results
  rfl

set_option maxHeartbeats 4000000 in
theorem asrc_rel2 (V : Valuation τ sig (Elt Ideal)) :
    after ops V (Proc.devRef .tc main_v170) = gatherRef (after ops V (Proc.devRef .tc main_v160)) (after ops V (Proc.devRef .tc main_v1)) := by
  rw [stage_eq (F := Ideal) 19 sg_asrc2 rfl V main_v170 (by decide),
    ← before_eq 19 V main_v160 (by decide),
    ← before_eq 19 V main_v1 (by decide)]
  generalize before 19 V = X
  simp only [sg_asrc2]
  after_results
  rfl

set_option maxHeartbeats 4000000 in
theorem bdst_rel2 (V : Valuation τ sig (Elt Ideal)) :
    after ops V (Proc.devRef .tc main_v177) = gatherRef (after ops V (Proc.devRef .tc main_v163)) (after ops V (Proc.devRef .tc main_v3)) := by
  rw [stage_eq (F := Ideal) 20 sg_bdst2 rfl V main_v177 (by decide),
    ← before_eq 20 V main_v163 (by decide),
    ← before_eq 20 V main_v3 (by decide)]
  generalize before 20 V = X
  simp only [sg_bdst2]
  after_results
  rfl

set_option maxHeartbeats 4000000 in
theorem m_rel2 (V : Valuation τ sig (Elt Ideal)) :
    after ops V (Proc.devRef .tc main_v196) = msgRef (after ops V (Proc.devRef .tc main_v29)) (after ops V (Proc.devRef .tc main_v170)) (after ops V (Proc.devRef .tc main_v177))
        (wmN (V (Proc.devRef .tc main_arg16)) 2) (wvN (V (Proc.devRef .tc main_arg17)) 2) (wmN (V (Proc.devRef .tc main_arg18)) 2) (wvN (V (Proc.devRef .tc main_arg19)) 2) := by
  rw [stage_eq (F := Ideal) 21 sg_m2 rfl V main_v196 (by decide),
    ← before_eq 21 V main_v29 (by decide),
    ← before_eq 21 V main_v170 (by decide),
    ← before_eq 21 V main_v177 (by decide),
    ← before_arg 21 V main_arg16 arg16_unw,
    ← before_arg 21 V main_arg17 arg17_unw,
    ← before_arg 21 V main_arg18 arg18_unw,
    ← before_arg 21 V main_arg19 arg19_unw]
  generalize before 21 V = X
  simp only [sg_m2]
  after_results
  rfl

set_option maxHeartbeats 4000000 in
theorem agg_rel2 (V : Valuation τ sig (Elt Ideal)) :
    after ops V (Proc.devRef .tc main_v199) = aggRef (after ops V (Proc.devRef .tc main_v3)) (after ops V (Proc.devRef .tc main_v196)) := by
  rw [stage_eq (F := Ideal) 22 sg_agg2 rfl V main_v199 (by decide),
    ← before_eq 22 V main_v3 (by decide),
    ← before_eq 22 V main_v196 (by decide)]
  generalize before 22 V = X
  simp only [sg_agg2]
  after_results
  rfl

set_option maxHeartbeats 4000000 in
theorem h_rel2 (V : Valuation τ sig (Elt Ideal)) :
    after ops V (Proc.devRef .tc main_v221) = updRef (after ops V (Proc.devRef .tc main_v157)) (after ops V (Proc.devRef .tc main_v199))
        (wmN (V (Proc.devRef .tc main_arg20)) 2) (wmN (V (Proc.devRef .tc main_arg21)) 2) (wvN (V (Proc.devRef .tc main_arg22)) 2) (wmN (V (Proc.devRef .tc main_arg23)) 2) (wvN (V (Proc.devRef .tc main_arg24)) 2) := by
  rw [stage_eq (F := Ideal) 23 sg_h3 rfl V main_v221 (by decide),
    ← before_eq 23 V main_v157 (by decide),
    ← before_eq 23 V main_v199 (by decide),
    ← before_arg 23 V main_arg20 arg20_unw,
    ← before_arg 23 V main_arg21 arg21_unw,
    ← before_arg 23 V main_arg22 arg22_unw,
    ← before_arg 23 V main_arg23 arg23_unw,
    ← before_arg 23 V main_arg24 arg24_unw]
  generalize before 23 V = X
  simp only [sg_h3]
  after_results
  rfl

end Cert.ReferenceIdeal.Hand

end
-- ==== Proof.Ref.ResultL3.lean ====
/- Layer 3 of the reference read stage by stage: each named array after @main is its stage's printed operations
   composed, over the arrays the stage reads as they stand after @main. -/
import proofs.«152161_j29669634081217_2_alg».proof.Proof.Ref.SegRun
import proofs.«152161_j29669634081217_2_alg».proof.Proof.Ref.Stages

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxHeartbeats 4000000 in
theorem a_rel3 (V : Valuation τ sig (Elt Ideal)) :
    after ops V (Proc.devRef .tc main_v224) = linRef (after ops V (Proc.devRef .tc main_v221)) (wmN (V (Proc.devRef .tc main_arg14)) 3) := by
  rw [stage_eq (F := Ideal) 24 sg_a3 rfl V main_v224 (by decide),
    ← before_eq 24 V main_v221 (by decide),
    ← before_arg 24 V main_arg14 arg14_unw]
  generalize before 24 V = X
  simp only [sg_a3]
  after_results
  rfl

set_option maxHeartbeats 4000000 in
theorem b_rel3 (V : Valuation τ sig (Elt Ideal)) :
    after ops V (Proc.devRef .tc main_v227) = linRef (after ops V (Proc.devRef .tc main_v221)) (wmN (V (Proc.devRef .tc main_arg15)) 3) := by
  rw [stage_eq (F := Ideal) 25 sg_b3 rfl V main_v227 (by decide),
    ← before_eq 25 V main_v221 (by decide),
    ← before_arg 25 V main_arg15 arg15_unw]
  generalize before 25 V = X
  simp only [sg_b3]
  after_results
  rfl

set_option maxHeartbeats 4000000 in
theorem asrc_rel3 (V : Valuation τ sig (Elt Ideal)) :
    after ops V (Proc.devRef .tc main_v234) = gatherRef (after ops V (Proc.devRef .tc main_v224)) (after ops V (Proc.devRef .tc main_v1)) := by
  rw [stage_eq (F := Ideal) 26 sg_asrc3 rfl V main_v234 (by decide),
    ← before_eq 26 V main_v224 (by decide),
    ← before_eq 26 V main_v1 (by decide)]
  generalize before 26 V = X
  simp only [sg_asrc3]
  after_results
  rfl

set_option maxHeartbeats 4000000 in
theorem bdst_rel3 (V : Valuation τ sig (Elt Ideal)) :
    after ops V (Proc.devRef .tc main_v241) = gatherRef (after ops V (Proc.devRef .tc main_v227)) (after ops V (Proc.devRef .tc main_v3)) := by
  rw [stage_eq (F := Ideal) 27 sg_bdst3 rfl V main_v241 (by decide),
    ← before_eq 27 V main_v227 (by decide),
    ← before_eq 27 V main_v3 (by decide)]
  generalize before 27 V = X
  simp only [sg_bdst3]
  after_results
  rfl

set_option maxHeartbeats 4000000 in
theorem m_rel3 (V : Valuation τ sig (Elt Ideal)) :
    after ops V (Proc.devRef .tc main_v260) = msgRef (after ops V (Proc.devRef .tc main_v29)) (after ops V (Proc.devRef .tc main_v234)) (after ops V (Proc.devRef .tc main_v241))
        (wmN (V (Proc.devRef .tc main_arg16)) 3) (wvN (V (Proc.devRef .tc main_arg17)) 3) (wmN (V (Proc.devRef .tc main_arg18)) 3) (wvN (V (Proc.devRef .tc main_arg19)) 3) := by
  rw [stage_eq (F := Ideal) 28 sg_m3 rfl V main_v260 (by decide),
    ← before_eq 28 V main_v29 (by decide),
    ← before_eq 28 V main_v234 (by decide),
    ← before_eq 28 V main_v241 (by decide),
    ← before_arg 28 V main_arg16 arg16_unw,
    ← before_arg 28 V main_arg17 arg17_unw,
    ← before_arg 28 V main_arg18 arg18_unw,
    ← before_arg 28 V main_arg19 arg19_unw]
  generalize before 28 V = X
  simp only [sg_m3]
  after_results
  rfl

set_option maxHeartbeats 4000000 in
theorem agg_rel3 (V : Valuation τ sig (Elt Ideal)) :
    after ops V (Proc.devRef .tc main_v263) = aggRef (after ops V (Proc.devRef .tc main_v3)) (after ops V (Proc.devRef .tc main_v260)) := by
  rw [stage_eq (F := Ideal) 29 sg_agg3 rfl V main_v263 (by decide),
    ← before_eq 29 V main_v3 (by decide),
    ← before_eq 29 V main_v260 (by decide)]
  generalize before 29 V = X
  simp only [sg_agg3]
  after_results
  rfl

set_option maxHeartbeats 4000000 in
theorem h_rel3 (V : Valuation τ sig (Elt Ideal)) :
    after ops V (Proc.devRef .tc main_v285) = updRef (after ops V (Proc.devRef .tc main_v221)) (after ops V (Proc.devRef .tc main_v263))
        (wmN (V (Proc.devRef .tc main_arg20)) 3) (wmN (V (Proc.devRef .tc main_arg21)) 3) (wvN (V (Proc.devRef .tc main_arg22)) 3) (wmN (V (Proc.devRef .tc main_arg23)) 3) (wvN (V (Proc.devRef .tc main_arg24)) 3) := by
  rw [stage_eq (F := Ideal) 30 sg_h4 rfl V main_v285 (by decide),
    ← before_eq 30 V main_v221 (by decide),
    ← before_eq 30 V main_v263 (by decide),
    ← before_arg 30 V main_arg20 arg20_unw,
    ← before_arg 30 V main_arg21 arg21_unw,
    ← before_arg 30 V main_arg22 arg22_unw,
    ← before_arg 30 V main_arg23 arg23_unw,
    ← before_arg 30 V main_arg24 arg24_unw]
  generalize before 30 V = X
  simp only [sg_h4]
  after_results
  rfl

end Cert.ReferenceIdeal.Hand

end
-- ==== Proof.Ref.ResultL4.lean ====
/- Layer 4 of the reference read stage by stage: each named array after @main is its stage's printed operations
   composed, over the arrays the stage reads as they stand after @main. -/
import proofs.«152161_j29669634081217_2_alg».proof.Proof.Ref.SegRun
import proofs.«152161_j29669634081217_2_alg».proof.Proof.Ref.Stages

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxHeartbeats 4000000 in
theorem a_rel4 (V : Valuation τ sig (Elt Ideal)) :
    after ops V (Proc.devRef .tc main_v288) = linRef (after ops V (Proc.devRef .tc main_v285)) (wmN (V (Proc.devRef .tc main_arg14)) 4) := by
  rw [stage_eq (F := Ideal) 31 sg_a4 rfl V main_v288 (by decide),
    ← before_eq 31 V main_v285 (by decide),
    ← before_arg 31 V main_arg14 arg14_unw]
  generalize before 31 V = X
  simp only [sg_a4]
  after_results
  rfl

set_option maxHeartbeats 4000000 in
theorem b_rel4 (V : Valuation τ sig (Elt Ideal)) :
    after ops V (Proc.devRef .tc main_v291) = linRef (after ops V (Proc.devRef .tc main_v285)) (wmN (V (Proc.devRef .tc main_arg15)) 4) := by
  rw [stage_eq (F := Ideal) 32 sg_b4 rfl V main_v291 (by decide),
    ← before_eq 32 V main_v285 (by decide),
    ← before_arg 32 V main_arg15 arg15_unw]
  generalize before 32 V = X
  simp only [sg_b4]
  after_results
  rfl

set_option maxHeartbeats 4000000 in
theorem asrc_rel4 (V : Valuation τ sig (Elt Ideal)) :
    after ops V (Proc.devRef .tc main_v298) = gatherRef (after ops V (Proc.devRef .tc main_v288)) (after ops V (Proc.devRef .tc main_v1)) := by
  rw [stage_eq (F := Ideal) 33 sg_asrc4 rfl V main_v298 (by decide),
    ← before_eq 33 V main_v288 (by decide),
    ← before_eq 33 V main_v1 (by decide)]
  generalize before 33 V = X
  simp only [sg_asrc4]
  after_results
  rfl

set_option maxHeartbeats 4000000 in
theorem bdst_rel4 (V : Valuation τ sig (Elt Ideal)) :
    after ops V (Proc.devRef .tc main_v305) = gatherRef (after ops V (Proc.devRef .tc main_v291)) (after ops V (Proc.devRef .tc main_v3)) := by
  rw [stage_eq (F := Ideal) 34 sg_bdst4 rfl V main_v305 (by decide),
    ← before_eq 34 V main_v291 (by decide),
    ← before_eq 34 V main_v3 (by decide)]
  generalize before 34 V = X
  simp only [sg_bdst4]
  after_results
  rfl

set_option maxHeartbeats 4000000 in
theorem m_rel4 (V : Valuation τ sig (Elt Ideal)) :
    after ops V (Proc.devRef .tc main_v324) = msgRef (after ops V (Proc.devRef .tc main_v29)) (after ops V (Proc.devRef .tc main_v298)) (after ops V (Proc.devRef .tc main_v305))
        (wmN (V (Proc.devRef .tc main_arg16)) 4) (wvN (V (Proc.devRef .tc main_arg17)) 4) (wmN (V (Proc.devRef .tc main_arg18)) 4) (wvN (V (Proc.devRef .tc main_arg19)) 4) := by
  rw [stage_eq (F := Ideal) 35 sg_m4 rfl V main_v324 (by decide),
    ← before_eq 35 V main_v29 (by decide),
    ← before_eq 35 V main_v298 (by decide),
    ← before_eq 35 V main_v305 (by decide),
    ← before_arg 35 V main_arg16 arg16_unw,
    ← before_arg 35 V main_arg17 arg17_unw,
    ← before_arg 35 V main_arg18 arg18_unw,
    ← before_arg 35 V main_arg19 arg19_unw]
  generalize before 35 V = X
  simp only [sg_m4]
  after_results
  rfl

set_option maxHeartbeats 4000000 in
theorem agg_rel4 (V : Valuation τ sig (Elt Ideal)) :
    after ops V (Proc.devRef .tc main_v327) = aggRef (after ops V (Proc.devRef .tc main_v3)) (after ops V (Proc.devRef .tc main_v324)) := by
  rw [stage_eq (F := Ideal) 36 sg_agg4 rfl V main_v327 (by decide),
    ← before_eq 36 V main_v3 (by decide),
    ← before_eq 36 V main_v324 (by decide)]
  generalize before 36 V = X
  simp only [sg_agg4]
  after_results
  rfl

set_option maxHeartbeats 4000000 in
theorem h_rel4 (V : Valuation τ sig (Elt Ideal)) :
    after ops V (Proc.devRef .tc main_v349) = updRef (after ops V (Proc.devRef .tc main_v285)) (after ops V (Proc.devRef .tc main_v327))
        (wmN (V (Proc.devRef .tc main_arg20)) 4) (wmN (V (Proc.devRef .tc main_arg21)) 4) (wvN (V (Proc.devRef .tc main_arg22)) 4) (wmN (V (Proc.devRef .tc main_arg23)) 4) (wvN (V (Proc.devRef .tc main_arg24)) 4) := by
  rw [stage_eq (F := Ideal) 37 sg_h5 rfl V main_v349 (by decide),
    ← before_eq 37 V main_v285 (by decide),
    ← before_eq 37 V main_v327 (by decide),
    ← before_arg 37 V main_arg20 arg20_unw,
    ← before_arg 37 V main_arg21 arg21_unw,
    ← before_arg 37 V main_arg22 arg22_unw,
    ← before_arg 37 V main_arg23 arg23_unw,
    ← before_arg 37 V main_arg24 arg24_unw]
  generalize before 37 V = X
  simp only [sg_h5]
  after_results
  rfl

end Cert.ReferenceIdeal.Hand

end
-- ==== Proof.Ref.ResultL5.lean ====
/- Layer 5 of the reference read stage by stage: each named array after @main is its stage's printed operations
   composed, over the arrays the stage reads as they stand after @main. -/
import proofs.«152161_j29669634081217_2_alg».proof.Proof.Ref.SegRun
import proofs.«152161_j29669634081217_2_alg».proof.Proof.Ref.Stages

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxHeartbeats 4000000 in
theorem a_rel5 (V : Valuation τ sig (Elt Ideal)) :
    after ops V (Proc.devRef .tc main_v352) = linRef (after ops V (Proc.devRef .tc main_v349)) (wmN (V (Proc.devRef .tc main_arg14)) 5) := by
  rw [stage_eq (F := Ideal) 38 sg_a5 rfl V main_v352 (by decide),
    ← before_eq 38 V main_v349 (by decide),
    ← before_arg 38 V main_arg14 arg14_unw]
  generalize before 38 V = X
  simp only [sg_a5]
  after_results
  rfl

set_option maxHeartbeats 4000000 in
theorem b_rel5 (V : Valuation τ sig (Elt Ideal)) :
    after ops V (Proc.devRef .tc main_v355) = linRef (after ops V (Proc.devRef .tc main_v349)) (wmN (V (Proc.devRef .tc main_arg15)) 5) := by
  rw [stage_eq (F := Ideal) 39 sg_b5 rfl V main_v355 (by decide),
    ← before_eq 39 V main_v349 (by decide),
    ← before_arg 39 V main_arg15 arg15_unw]
  generalize before 39 V = X
  simp only [sg_b5]
  after_results
  rfl

set_option maxHeartbeats 4000000 in
theorem asrc_rel5 (V : Valuation τ sig (Elt Ideal)) :
    after ops V (Proc.devRef .tc main_v362) = gatherRef (after ops V (Proc.devRef .tc main_v352)) (after ops V (Proc.devRef .tc main_v1)) := by
  rw [stage_eq (F := Ideal) 40 sg_asrc5 rfl V main_v362 (by decide),
    ← before_eq 40 V main_v352 (by decide),
    ← before_eq 40 V main_v1 (by decide)]
  generalize before 40 V = X
  simp only [sg_asrc5]
  after_results
  rfl

set_option maxHeartbeats 4000000 in
theorem bdst_rel5 (V : Valuation τ sig (Elt Ideal)) :
    after ops V (Proc.devRef .tc main_v369) = gatherRef (after ops V (Proc.devRef .tc main_v355)) (after ops V (Proc.devRef .tc main_v3)) := by
  rw [stage_eq (F := Ideal) 41 sg_bdst5 rfl V main_v369 (by decide),
    ← before_eq 41 V main_v355 (by decide),
    ← before_eq 41 V main_v3 (by decide)]
  generalize before 41 V = X
  simp only [sg_bdst5]
  after_results
  rfl

set_option maxHeartbeats 4000000 in
theorem m_rel5 (V : Valuation τ sig (Elt Ideal)) :
    after ops V (Proc.devRef .tc main_v388) = msgRef (after ops V (Proc.devRef .tc main_v29)) (after ops V (Proc.devRef .tc main_v362)) (after ops V (Proc.devRef .tc main_v369))
        (wmN (V (Proc.devRef .tc main_arg16)) 5) (wvN (V (Proc.devRef .tc main_arg17)) 5) (wmN (V (Proc.devRef .tc main_arg18)) 5) (wvN (V (Proc.devRef .tc main_arg19)) 5) := by
  rw [stage_eq (F := Ideal) 42 sg_m5 rfl V main_v388 (by decide),
    ← before_eq 42 V main_v29 (by decide),
    ← before_eq 42 V main_v362 (by decide),
    ← before_eq 42 V main_v369 (by decide),
    ← before_arg 42 V main_arg16 arg16_unw,
    ← before_arg 42 V main_arg17 arg17_unw,
    ← before_arg 42 V main_arg18 arg18_unw,
    ← before_arg 42 V main_arg19 arg19_unw]
  generalize before 42 V = X
  simp only [sg_m5]
  after_results
  rfl

set_option maxHeartbeats 4000000 in
theorem agg_rel5 (V : Valuation τ sig (Elt Ideal)) :
    after ops V (Proc.devRef .tc main_v391) = aggRef (after ops V (Proc.devRef .tc main_v3)) (after ops V (Proc.devRef .tc main_v388)) := by
  rw [stage_eq (F := Ideal) 43 sg_agg5 rfl V main_v391 (by decide),
    ← before_eq 43 V main_v3 (by decide),
    ← before_eq 43 V main_v388 (by decide)]
  generalize before 43 V = X
  simp only [sg_agg5]
  after_results
  rfl

set_option maxHeartbeats 4000000 in
theorem h_rel5 (V : Valuation τ sig (Elt Ideal)) :
    after ops V (Proc.devRef .tc main_v413) = updRef (after ops V (Proc.devRef .tc main_v349)) (after ops V (Proc.devRef .tc main_v391))
        (wmN (V (Proc.devRef .tc main_arg20)) 5) (wmN (V (Proc.devRef .tc main_arg21)) 5) (wvN (V (Proc.devRef .tc main_arg22)) 5) (wmN (V (Proc.devRef .tc main_arg23)) 5) (wvN (V (Proc.devRef .tc main_arg24)) 5) := by
  rw [stage_eq (F := Ideal) 44 sg_h6 rfl V main_v413 (by decide),
    ← before_eq 44 V main_v349 (by decide),
    ← before_eq 44 V main_v391 (by decide),
    ← before_arg 44 V main_arg20 arg20_unw,
    ← before_arg 44 V main_arg21 arg21_unw,
    ← before_arg 44 V main_arg22 arg22_unw,
    ← before_arg 44 V main_arg23 arg23_unw,
    ← before_arg 44 V main_arg24 arg24_unw]
  generalize before 44 V = X
  simp only [sg_h6]
  after_results
  rfl

end Cert.ReferenceIdeal.Hand

end
-- ==== Proof.Ref.ResultDec.lean ====
/- The reference's result buffer read from its run: the decoder's printed operations composed over the last node
   features and the two position columns as they stand after @main, and the decoder's arguments. -/
import proofs.«152161_j29669634081217_2_alg».proof.Proof.Ref.SegRun
import proofs.«152161_j29669634081217_2_alg».proof.Proof.Ref.Stages

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxHeartbeats 4000000 in
theorem pred_rel (V : Valuation τ sig (Elt Ideal)) :
    after ops V (Proc.devRef .tc main_v438) = decRef (after ops V (Proc.devRef .tc main_v413)) (after ops V (Proc.devRef .tc main_v10)) (V (Proc.devRef .tc main_arg3)) (V (Proc.devRef .tc main_arg4))
        (V (Proc.devRef .tc main_arg25)) (V (Proc.devRef .tc main_arg26)) (V (Proc.devRef .tc main_arg27)) (V (Proc.devRef .tc main_arg28)) (V (Proc.devRef .tc main_arg29)) (V (Proc.devRef .tc main_arg30)) := by
  rw [stage_eq (F := Ideal) 45 sg_dec rfl V main_v438 (by decide),
    ← before_eq 45 V main_v413 (by decide),
    ← before_eq 45 V main_v10 (by decide),
    ← before_arg 45 V main_arg3 arg3_unw,
    ← before_arg 45 V main_arg4 arg4_unw,
    ← before_arg 45 V main_arg25 arg25_unw,
    ← before_arg 45 V main_arg26 arg26_unw,
    ← before_arg 45 V main_arg27 arg27_unw,
    ← before_arg 45 V main_arg28 arg28_unw,
    ← before_arg 45 V main_arg29 arg29_unw,
    ← before_arg 45 V main_arg30 arg30_unw]
  generalize before 45 V = X
  simp only [sg_dec]
  after_results
  rfl

end Cert.ReferenceIdeal.Hand

end
-- ==== Proof.Ref.Result.lean ====
/- The reference's result read through its run as the named stages: every named array's buffer after @main holds
   the stage's definition over the 31 arguments read at launch, stage by stage; the result buffer holds `pred`. -/
import proofs.«152161_j29669634081217_2_alg».proof.Proof.Ref.ResultPre
import proofs.«152161_j29669634081217_2_alg».proof.Proof.Ref.ResultL0
import proofs.«152161_j29669634081217_2_alg».proof.Proof.Ref.ResultL1
import proofs.«152161_j29669634081217_2_alg».proof.Proof.Ref.ResultL2
import proofs.«152161_j29669634081217_2_alg».proof.Proof.Ref.ResultL3
import proofs.«152161_j29669634081217_2_alg».proof.Proof.Ref.ResultL4
import proofs.«152161_j29669634081217_2_alg».proof.Proof.Ref.ResultL5
import proofs.«152161_j29669634081217_2_alg».proof.Proof.Ref.ResultDec

noncomputable section

namespace Cert.ReferenceIdeal.Hand

open Cert.ReferenceIdeal Cert.ReferenceIdeal.Gen Idealize.ShloMosaic Idealize.ShloMosaic.TcCoe Idealize.SL.Sem Idealize.ShloMosaic.StableHlo

/-- The 31 argument arrays as a valuation holds them. -/
noncomputable def Args.of (V : Valuation τ sig (Elt Ideal)) : Args :=
  ⟨V (Proc.devRef .tc main_arg0),
   V (Proc.devRef .tc main_arg1),
   V (Proc.devRef .tc main_arg2),
   V (Proc.devRef .tc main_arg3),
   V (Proc.devRef .tc main_arg4),
   V (Proc.devRef .tc main_arg5),
   V (Proc.devRef .tc main_arg6),
   V (Proc.devRef .tc main_arg7),
   V (Proc.devRef .tc main_arg8),
   V (Proc.devRef .tc main_arg9),
   V (Proc.devRef .tc main_arg10),
   V (Proc.devRef .tc main_arg11),
   V (Proc.devRef .tc main_arg12),
   V (Proc.devRef .tc main_arg13),
   V (Proc.devRef .tc main_arg14),
   V (Proc.devRef .tc main_arg15),
   V (Proc.devRef .tc main_arg16),
   V (Proc.devRef .tc main_arg17),
   V (Proc.devRef .tc main_arg18),
   V (Proc.devRef .tc main_arg19),
   V (Proc.devRef .tc main_arg20),
   V (Proc.devRef .tc main_arg21),
   V (Proc.devRef .tc main_arg22),
   V (Proc.devRef .tc main_arg23),
   V (Proc.devRef .tc main_arg24),
   V (Proc.devRef .tc main_arg25),
   V (Proc.devRef .tc main_arg26),
   V (Proc.devRef .tc main_arg27),
   V (Proc.devRef .tc main_arg28),
   V (Proc.devRef .tc main_arg29),
   V (Proc.devRef .tc main_arg30)⟩

variable (V : Valuation τ sig (Elt Ideal))

theorem src_eq : after ops V (Proc.devRef .tc main_v1) = srcS (Args.of V) := src_rel V
theorem dst_eq : after ops V (Proc.devRef .tc main_v3) = dstS (Args.of V) := dst_rel V
theorem c2_eq : after ops V (Proc.devRef .tc main_v10) = c2S (Args.of V) := c2_rel V
theorem h_eq0 : after ops V (Proc.devRef .tc main_v20) = hS (Args.of V) 0 := h0_rel V
theorem e0_eq : after ops V (Proc.devRef .tc main_v29) = e0S (Args.of V) := e0_rel V

/-! Layer 0. -/

theorem a_eq0 : after ops V (Proc.devRef .tc main_v32) = aS (Args.of V) 0 := by
  rw [a_rel0, h_eq0]; rfl
theorem b_eq0 : after ops V (Proc.devRef .tc main_v35) = bS (Args.of V) 0 := by
  rw [b_rel0, h_eq0]; rfl
theorem asrc_eq0 : after ops V (Proc.devRef .tc main_v42) = asrcS (Args.of V) 0 := by
  rw [asrc_rel0, a_eq0, src_eq]; rfl
theorem bdst_eq0 : after ops V (Proc.devRef .tc main_v49) = bdstS (Args.of V) 0 := by
  rw [bdst_rel0, b_eq0, dst_eq]; rfl
theorem m_eq0 : after ops V (Proc.devRef .tc main_v68) = mS (Args.of V) 0 := by
  rw [m_rel0, e0_eq, asrc_eq0, bdst_eq0]; rfl
theorem agg_eq0 : after ops V (Proc.devRef .tc main_v71) = aggS (Args.of V) 0 := by
  rw [agg_rel0, dst_eq, m_eq0]; rfl
theorem h_eq1 : after ops V (Proc.devRef .tc main_v93) = hS (Args.of V) 1 := by
  rw [h_rel0, h_eq0, agg_eq0]; rfl

/-! Layer 1. -/

theorem a_eq1 : after ops V (Proc.devRef .tc main_v96) = aS (Args.of V) 1 := by
  rw [a_rel1, h_eq1]; rfl
theorem b_eq1 : after ops V (Proc.devRef .tc main_v99) = bS (Args.of V) 1 := by
  rw [b_rel1, h_eq1]; rfl
theorem asrc_eq1 : after ops V (Proc.devRef .tc main_v106) = asrcS (Args.of V) 1 := by
  rw [asrc_rel1, a_eq1, src_eq]; rfl
theorem bdst_eq1 : after ops V (Proc.devRef .tc main_v113) = bdstS (Args.of V) 1 := by
  rw [bdst_rel1, b_eq1, dst_eq]; rfl
theorem m_eq1 : after ops V (Proc.devRef .tc main_v132) = mS (Args.of V) 1 := by
  rw [m_rel1, e0_eq, asrc_eq1, bdst_eq1]; rfl
theorem agg_eq1 : after ops V (Proc.devRef .tc main_v135) = aggS (Args.of V) 1 := by
  rw [agg_rel1, dst_eq, m_eq1]; rfl
theorem h_eq2 : after ops V (Proc.devRef .tc main_v157) = hS (Args.of V) 2 := by
  rw [h_rel1, h_eq1, agg_eq1]; rfl

/-! Layer 2. -/

theorem a_eq2 : after ops V (Proc.devRef .tc main_v160) = aS (Args.of V) 2 := by
  rw [a_rel2, h_eq2]; rfl
theorem b_eq2 : after ops V (Proc.devRef .tc main_v163) = bS (Args.of V) 2 := by
  rw [b_rel2, h_eq2]; rfl
theorem asrc_eq2 : after ops V (Proc.devRef .tc main_v170) = asrcS (Args.of V) 2 := by
  rw [asrc_rel2, a_eq2, src_eq]; rfl
theorem bdst_eq2 : after ops V (Proc.devRef .tc main_v177) = bdstS (Args.of V) 2 := by
  rw [bdst_rel2, b_eq2, dst_eq]; rfl
theorem m_eq2 : after ops V (Proc.devRef .tc main_v196) = mS (Args.of V) 2 := by
  rw [m_rel2, e0_eq, asrc_eq2, bdst_eq2]; rfl
theorem agg_eq2 : after ops V (Proc.devRef .tc main_v199) = aggS (Args.of V) 2 := by
  rw [agg_rel2, dst_eq, m_eq2]; rfl
theorem h_eq3 : after ops V (Proc.devRef .tc main_v221) = hS (Args.of V) 3 := by
  rw [h_rel2, h_eq2, agg_eq2]; rfl

/-! Layer 3. -/

theorem a_eq3 : after ops V (Proc.devRef .tc main_v224) = aS (Args.of V) 3 := by
  rw [a_rel3, h_eq3]; rfl
theorem b_eq3 : after ops V (Proc.devRef .tc main_v227) = bS (Args.of V) 3 := by
  rw [b_rel3, h_eq3]; rfl
theorem asrc_eq3 : after ops V (Proc.devRef .tc main_v234) = asrcS (Args.of V) 3 := by
  rw [asrc_rel3, a_eq3, src_eq]; rfl
theorem bdst_eq3 : after ops V (Proc.devRef .tc main_v241) = bdstS (Args.of V) 3 := by
  rw [bdst_rel3, b_eq3, dst_eq]; rfl
theorem m_eq3 : after ops V (Proc.devRef .tc main_v260) = mS (Args.of V) 3 := by
  rw [m_rel3, e0_eq, asrc_eq3, bdst_eq3]; rfl
theorem agg_eq3 : after ops V (Proc.devRef .tc main_v263) = aggS (Args.of V) 3 := by
  rw [agg_rel3, dst_eq, m_eq3]; rfl
theorem h_eq4 : after ops V (Proc.devRef .tc main_v285) = hS (Args.of V) 4 := by
  rw [h_rel3, h_eq3, agg_eq3]; rfl

/-! Layer 4. -/

theorem a_eq4 : after ops V (Proc.devRef .tc main_v288) = aS (Args.of V) 4 := by
  rw [a_rel4, h_eq4]; rfl
theorem b_eq4 : after ops V (Proc.devRef .tc main_v291) = bS (Args.of V) 4 := by
  rw [b_rel4, h_eq4]; rfl
theorem asrc_eq4 : after ops V (Proc.devRef .tc main_v298) = asrcS (Args.of V) 4 := by
  rw [asrc_rel4, a_eq4, src_eq]; rfl
theorem bdst_eq4 : after ops V (Proc.devRef .tc main_v305) = bdstS (Args.of V) 4 := by
  rw [bdst_rel4, b_eq4, dst_eq]; rfl
theorem m_eq4 : after ops V (Proc.devRef .tc main_v324) = mS (Args.of V) 4 := by
  rw [m_rel4, e0_eq, asrc_eq4, bdst_eq4]; rfl
theorem agg_eq4 : after ops V (Proc.devRef .tc main_v327) = aggS (Args.of V) 4 := by
  rw [agg_rel4, dst_eq, m_eq4]; rfl
theorem h_eq5 : after ops V (Proc.devRef .tc main_v349) = hS (Args.of V) 5 := by
  rw [h_rel4, h_eq4, agg_eq4]; rfl

/-! Layer 5. -/

theorem a_eq5 : after ops V (Proc.devRef .tc main_v352) = aS (Args.of V) 5 := by
  rw [a_rel5, h_eq5]; rfl
theorem b_eq5 : after ops V (Proc.devRef .tc main_v355) = bS (Args.of V) 5 := by
  rw [b_rel5, h_eq5]; rfl
theorem asrc_eq5 : after ops V (Proc.devRef .tc main_v362) = asrcS (Args.of V) 5 := by
  rw [asrc_rel5, a_eq5, src_eq]; rfl
theorem bdst_eq5 : after ops V (Proc.devRef .tc main_v369) = bdstS (Args.of V) 5 := by
  rw [bdst_rel5, b_eq5, dst_eq]; rfl
theorem m_eq5 : after ops V (Proc.devRef .tc main_v388) = mS (Args.of V) 5 := by
  rw [m_rel5, e0_eq, asrc_eq5, bdst_eq5]; rfl
theorem agg_eq5 : after ops V (Proc.devRef .tc main_v391) = aggS (Args.of V) 5 := by
  rw [agg_rel5, dst_eq, m_eq5]; rfl
theorem h_eq6 : after ops V (Proc.devRef .tc main_v413) = hS (Args.of V) 6 := by
  rw [h_rel5, h_eq5, agg_eq5]; rfl

/-- The result buffer after @main holds `pred` of the arguments read at launch. -/
theorem result_eq : after ops V (Proc.devRef .tc main_v438) = pred (Args.of V) := by
  rw [pred_rel, h_eq6, c2_eq]; rfl

end Cert.ReferenceIdeal.Hand

end
-- ==== Proof.Ref.RunPred.lean ====
/- The reference's run with its result named: every execution of @main terminates with the result buffer at `pred` of
   the arguments' launch contents and the 31 arguments unchanged. -/
import proofs.«152161_j29669634081217_2_alg».proof.Proof.Ref.Run
import proofs.«152161_j29669634081217_2_alg».proof.Proof.Ref.Result

noncomputable section

namespace Cert.ReferenceIdeal.Hand

open Cert.ReferenceIdeal Cert.ReferenceIdeal.Gen Idealize.ShloMosaic Idealize.ShloMosaic.TcCoe Idealize.SL.Sem Idealize.ShloMosaic.StableHlo

/-- The 31 argument arrays as device `c`'s memory holds them. -/
noncomputable def argsRef (m' : (ℓ : Loc nD τ sig) → Buf (Elt Ideal) ℓ) (c : Dev nD) : Args :=
  ⟨m' ((c.tc : Thread nD τ).loc main_arg0),
   m' ((c.tc : Thread nD τ).loc main_arg1),
   m' ((c.tc : Thread nD τ).loc main_arg2),
   m' ((c.tc : Thread nD τ).loc main_arg3),
   m' ((c.tc : Thread nD τ).loc main_arg4),
   m' ((c.tc : Thread nD τ).loc main_arg5),
   m' ((c.tc : Thread nD τ).loc main_arg6),
   m' ((c.tc : Thread nD τ).loc main_arg7),
   m' ((c.tc : Thread nD τ).loc main_arg8),
   m' ((c.tc : Thread nD τ).loc main_arg9),
   m' ((c.tc : Thread nD τ).loc main_arg10),
   m' ((c.tc : Thread nD τ).loc main_arg11),
   m' ((c.tc : Thread nD τ).loc main_arg12),
   m' ((c.tc : Thread nD τ).loc main_arg13),
   m' ((c.tc : Thread nD τ).loc main_arg14),
   m' ((c.tc : Thread nD τ).loc main_arg15),
   m' ((c.tc : Thread nD τ).loc main_arg16),
   m' ((c.tc : Thread nD τ).loc main_arg17),
   m' ((c.tc : Thread nD τ).loc main_arg18),
   m' ((c.tc : Thread nD τ).loc main_arg19),
   m' ((c.tc : Thread nD τ).loc main_arg20),
   m' ((c.tc : Thread nD τ).loc main_arg21),
   m' ((c.tc : Thread nD τ).loc main_arg22),
   m' ((c.tc : Thread nD τ).loc main_arg23),
   m' ((c.tc : Thread nD τ).loc main_arg24),
   m' ((c.tc : Thread nD τ).loc main_arg25),
   m' ((c.tc : Thread nD τ).loc main_arg26),
   m' ((c.tc : Thread nD τ).loc main_arg27),
   m' ((c.tc : Thread nD τ).loc main_arg28),
   m' ((c.tc : Thread nD τ).loc main_arg29),
   m' ((c.tc : Thread nD τ).loc main_arg30)⟩

theorem run_pred (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v438) = pred (argsRef m' c)
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15)
      ∧ r.2.mem ((c.tc : Thread nD τ).loc main_arg16) = m' ((c.tc : Thread nD τ).loc main_arg16)
      ∧ r.2.mem ((c.tc : Thread nD τ).loc main_arg17) = m' ((c.tc : Thread nD τ).loc main_arg17)
      ∧ r.2.mem ((c.tc : Thread nD τ).loc main_arg18) = m' ((c.tc : Thread nD τ).loc main_arg18)
      ∧ r.2.mem ((c.tc : Thread nD τ).loc main_arg19) = m' ((c.tc : Thread nD τ).loc main_arg19)
      ∧ r.2.mem ((c.tc : Thread nD τ).loc main_arg20) = m' ((c.tc : Thread nD τ).loc main_arg20)
      ∧ r.2.mem ((c.tc : Thread nD τ).loc main_arg21) = m' ((c.tc : Thread nD τ).loc main_arg21)
      ∧ r.2.mem ((c.tc : Thread nD τ).loc main_arg22) = m' ((c.tc : Thread nD τ).loc main_arg22)
      ∧ r.2.mem ((c.tc : Thread nD τ).loc main_arg23) = m' ((c.tc : Thread nD τ).loc main_arg23)
      ∧ r.2.mem ((c.tc : Thread nD τ).loc main_arg24) = m' ((c.tc : Thread nD τ).loc main_arg24)
      ∧ r.2.mem ((c.tc : Thread nD τ).loc main_arg25) = m' ((c.tc : Thread nD τ).loc main_arg25)
      ∧ r.2.mem ((c.tc : Thread nD τ).loc main_arg26) = m' ((c.tc : Thread nD τ).loc main_arg26)
      ∧ r.2.mem ((c.tc : Thread nD τ).loc main_arg27) = m' ((c.tc : Thread nD τ).loc main_arg27)
      ∧ r.2.mem ((c.tc : Thread nD τ).loc main_arg28) = m' ((c.tc : Thread nD τ).loc main_arg28)
      ∧ r.2.mem ((c.tc : Thread nD τ).loc main_arg29) = m' ((c.tc : Thread nD τ).loc main_arg29)
      ∧ r.2.mem ((c.tc : Thread nD τ).loc main_arg30) = m' ((c.tc : Thread nD τ).loc main_arg30)) :=
  (θ_run defs _ _).mono (fun _ h c =>
    ⟨(h c main_v438).trans (result_eq (launchContents m' c)),
     (h c main_arg0).trans (arg_eq _ _ arg0_unw),
     (h c main_arg1).trans (arg_eq _ _ arg1_unw),
     (h c main_arg2).trans (arg_eq _ _ arg2_unw),
     (h c main_arg3).trans (arg_eq _ _ arg3_unw),
     (h c main_arg4).trans (arg_eq _ _ arg4_unw),
     (h c main_arg5).trans (arg_eq _ _ arg5_unw),
     (h c main_arg6).trans (arg_eq _ _ arg6_unw),
     (h c main_arg7).trans (arg_eq _ _ arg7_unw),
     (h c main_arg8).trans (arg_eq _ _ arg8_unw),
     (h c main_arg9).trans (arg_eq _ _ arg9_unw),
     (h c main_arg10).trans (arg_eq _ _ arg10_unw),
     (h c main_arg11).trans (arg_eq _ _ arg11_unw),
     (h c main_arg12).trans (arg_eq _ _ arg12_unw),
     (h c main_arg13).trans (arg_eq _ _ arg13_unw),
     (h c main_arg14).trans (arg_eq _ _ arg14_unw),
     (h c main_arg15).trans (arg_eq _ _ arg15_unw),
     (h c main_arg16).trans (arg_eq _ _ arg16_unw),
     (h c main_arg17).trans (arg_eq _ _ arg17_unw),
     (h c main_arg18).trans (arg_eq _ _ arg18_unw),
     (h c main_arg19).trans (arg_eq _ _ arg19_unw),
     (h c main_arg20).trans (arg_eq _ _ arg20_unw),
     (h c main_arg21).trans (arg_eq _ _ arg21_unw),
     (h c main_arg22).trans (arg_eq _ _ arg22_unw),
     (h c main_arg23).trans (arg_eq _ _ arg23_unw),
     (h c main_arg24).trans (arg_eq _ _ arg24_unw),
     (h c main_arg25).trans (arg_eq _ _ arg25_unw),
     (h c main_arg26).trans (arg_eq _ _ arg26_unw),
     (h c main_arg27).trans (arg_eq _ _ arg27_unw),
     (h c main_arg28).trans (arg_eq _ _ arg28_unw),
     (h c main_arg29).trans (arg_eq _ _ arg29_unw),
     (h c main_arg30).trans (arg_eq _ _ arg30_unw)⟩)
    (run_all (F := Ideal) m' ρ')

end Cert.ReferenceIdeal.Hand

end
-- ==== Proof.KI.ReadsDefs.lean ====
/- What the kernel program's host stretches compute, as pure terms: the named pieces the regions' input windows are
   made of. The edge list read back once (source and destination ends, their gather and scatter indices), the scatter's
   zero accumulator, a layer's slab of a stacked weight, the position columns the decoder reads; and the three values of
   the first host stretch that later stretches read, at the valuation after that stretch. -/
import proofs.«152161_j29669634081217_2_alg».proof.Proof.Gen.KernelIdeal.Regions
import Idealize.ShloMosaic.Lib.StableHlo.Run

-- the references' inequalities are decided past the default depth
set_option maxRecDepth 2864

noncomputable section

namespace Cert.KernelIdeal.Hand

open Idealize.ShloMosaic Idealize.ShloMosaic.TcCoe
open Idealize.SL.Sem
open Idealize.ShloMosaic.StableHlo
open Cert.KernelIdeal.Gen

variable {F : FTy → Type} [FloatOps F]
variable (m : (ℓ : Loc nD τ sig) → Buf (Elt F) ℓ) (outs : Outs (F := F))

/-! ## The edge list read back

The edge list (argument 5) is a `[2, 160000]` table of node numbers: row 0 the source end of each edge, row 1 the
destination end. The host program slices each row, drops the unit axis, and — before every gather — brings negative
indices into range (`i < 0 ? i + 20000 : i`) and appends a unit axis; before every scatter-add it appends the unit axis
only. Every layer prints the same operations on the same two rows, so one term serves the six layers. -/

/-- The source end of every edge: row 0 of the edge list, as a vector of 160000 node numbers. -/
noncomputable def srcRaw (c : Dev nD) : IVec S160000 32 :=
  shapeCast S160000 (extractStridedSlice S1x160000 ![0, 0] (m ((c : Thread nD τ).loc main_arg5)) slices_S2x160000_S1x160000_0_0) shapeCasts_S1x160000_S160000

/-- The destination end of every edge: row 1 of the edge list. -/
noncomputable def dstRaw (c : Dev nD) : IVec S160000 32 :=
  shapeCast S160000 (extractStridedSlice S1x160000 ![1, 0] (m ((c : Thread nD τ).loc main_arg5)) slices_S2x160000_S1x160000_1_0) shapeCasts_S1x160000_S160000

/-- A vector of node numbers made a column of gather indices: a negative number counts from the end
    (`i + 20000` where `i < 0`), then a unit axis is appended. -/
noncomputable def normIdx (x : IVec S160000 32) : IVec S160000x1 32 :=
  broadcastInDim S160000x1 ![0] bcast_S160000_S160000x1_0 (select (cmpi .slt x (broadcastInDim S160000 ![] bcast_S_S160000 (constantI S_ 32 0#32))) (addi x (broadcastInDim S160000 ![] bcast_S_S160000 (constantI S_ 32 20000#32))) x)

/-- The gather indices of the source ends. -/
noncomputable def srcIdx (c : Dev nD) : IVec S160000x1 32 := normIdx (srcRaw m c)
/-- The gather indices of the destination ends. -/
noncomputable def dstIdx (c : Dev nD) : IVec S160000x1 32 := normIdx (dstRaw m c)
/-- The scatter indices: the destination ends as a column, not normalised. -/
noncomputable def dstCol (c : Dev nD) : IVec S160000x1 32 :=
  broadcastInDim S160000x1 ![0] bcast_S160000_S160000x1_0 (dstRaw m c)

/-- The accumulator every scatter-add starts from: `[20000, 128]` zeros. -/
noncomputable def zeroAcc : FVec F S20000x128 .f32 :=
  broadcastInDim S20000x128 ![] bcast_S_S20000x128 (constant S_ .f32 0x00000000#32)

/-! ## The stacked weights read back

The six layers' weight matrices arrive stacked on a leading axis of length 6; layer `l` takes slab `l` and drops the
unit axis. A stacked bias `[6, 128]` gives row `l`, reshaped to a vector and then to a `[1, 128]` row. -/

/-- Slab `l` of a stack of six `128 × 128` matrices. -/
noncomputable def sliceMat (x : FVec F S6x128x128 .f32) (l : Nat) (h : S6x128x128.Slices ![l, 0, 0] S1x128x128) : FVec F S128x128 .f32 :=
  shapeCast S128x128 (extractStridedSlice S1x128x128 ![l, 0, 0] x h) shapeCasts_S1x128x128_S128x128

/-- Row `l` of a stack of six bias vectors, as a `[1, 128]` row (through the vector `[128]`, as printed). -/
noncomputable def sliceRow (x : FVec F S6x128 .f32) (l : Nat) (h : S6x128.Slices ![l, 0] S1x128) : FVec F S1x128 .f32 :=
  shapeCast S1x128 (shapeCast S128 (extractStridedSlice S1x128 ![l, 0] x h) shapeCasts_S1x128_S128) shapeCasts_S128_S1x128

/-! ## The position columns the decoder reads

The decoder's second operand is the concatenation of columns 0 and 2 of the positions (argument 1: a gather with the
literal column numbers `[0, 2]`, normalised as every gather index is) with arguments 3 and 4. -/

/-- The literal column numbers `[0, 2]`, normalised (`i < 0 ? i + 3 : i`) and given a unit axis. -/
noncomputable def colIdx : IVec S2x1 32 :=
  broadcastInDim S2x1 ![0] bcast_S2_S2x1_0 (select (cmpi .slt (fun i => lit0 (S2.rowMajor i)) (broadcastInDim S2 ![] bcast_S_S2 (constantI S_ 32 0#32))) (addi (fun i => lit0 (S2.rowMajor i)) (broadcastInDim S2 ![] bcast_S_S2 (constantI S_ 32 3#32))) (fun i => lit0 (S2.rowMajor i)))

/-- Columns 0 and 2 of the positions. -/
noncomputable def posCols (c : Dev nD) : FVec F S20000x2 .f32 :=
  Host.gather gather_S20000x3_S2x1_S20000x2_0_1_n_n_1_1_200001 (m ((c : Thread nD τ).loc main_arg1)) colIdx

/-! ## The first host stretch's values that later stretches read

Rows 0 and 1 of the edge list (`main_v1`, `main_v3`) are read by every layer's gathers and scatter; the position
columns (`main_v10`) by the decoder's concatenation. After the first stretch they hold the terms above: the stretch's
operations composed, over the launch contents. -/

theorem at1_v1 (c : Dev nD) : V1 m c main_v1 = srcRaw m c := by
  show StableHlo.after hostOps0 (V0 m c) (Proc.devRef .tc main_v1) = _
  after_results <;> rfl
theorem at1_v3 (c : Dev nD) : V1 m c main_v3 = dstRaw m c := by
  show StableHlo.after hostOps0 (V0 m c) (Proc.devRef .tc main_v3) = _
  after_results <;> rfl
theorem at1_v10 (c : Dev nD) : V1 m c main_v10 = posCols m c := by
  show StableHlo.after hostOps0 (V0 m c) (Proc.devRef .tc main_v10) = _
  after_results <;> rfl

end Cert.KernelIdeal.Hand
-- ==== Proof.KI.ReadsCarryA.lean ====
/- What arguments 0 to 19, the regions' results and the first stretch's values hold between @main's items: a buffer no item in between writes keeps what it held
   (the generated `VJ_of`, level by level), so an argument holds its launch contents, a region's result what the region
   left (`outs`), and a value of the first host stretch what that stretch computed (`V1`). `atJ_r` reads `r` at `VJ`. -/
import proofs.«152161_j29669634081217_2_alg».proof.Proof.Gen.KernelIdeal.Regions
import Idealize.ShloMosaic.Lib.StableHlo.Run

-- membership of a reference in a stretch's list of written references is decided past the default depth
set_option maxRecDepth 2864

noncomputable section

namespace Cert.KernelIdeal.Hand

open Idealize.ShloMosaic Idealize.ShloMosaic.TcCoe
open Idealize.SL.Sem
open Idealize.ShloMosaic.StableHlo
open Cert.KernelIdeal.Gen

variable {F : FTy → Type} [FloatOps F]
variable (m : (ℓ : Loc nD τ sig) → Buf (Elt F) ℓ) (outs : Outs (F := F))

/-! `main_arg0` -/
theorem at0_arg0 (c : Dev nD) : V0 m c main_arg0 = m ((c : Thread nD τ).loc main_arg0) := rfl
/-! `main_arg6` -/
theorem at0_arg6 (c : Dev nD) : V0 m c main_arg6 = m ((c : Thread nD τ).loc main_arg6) := rfl
theorem at1_arg6 (c : Dev nD) : V1 m c main_arg6 = m ((c : Thread nD τ).loc main_arg6) :=
  (V1_of m c main_arg6 (by decide)).trans (at0_arg6 m c)
/-! `main_arg7` -/
theorem at0_arg7 (c : Dev nD) : V0 m c main_arg7 = m ((c : Thread nD τ).loc main_arg7) := rfl
/-! `main_arg8` -/
theorem at0_arg8 (c : Dev nD) : V0 m c main_arg8 = m ((c : Thread nD τ).loc main_arg8) := rfl
theorem at1_arg8 (c : Dev nD) : V1 m c main_arg8 = m ((c : Thread nD τ).loc main_arg8) :=
  (V1_of m c main_arg8 (by decide)).trans (at0_arg8 m c)
/-! `main_arg9` -/
theorem at0_arg9 (c : Dev nD) : V0 m c main_arg9 = m ((c : Thread nD τ).loc main_arg9) := rfl
/-! `main_arg2` -/
theorem at0_arg2 (c : Dev nD) : V0 m c main_arg2 = m ((c : Thread nD τ).loc main_arg2) := rfl
theorem at1_arg2 (c : Dev nD) : V1 m c main_arg2 = m ((c : Thread nD τ).loc main_arg2) :=
  (V1_of m c main_arg2 (by decide)).trans (at0_arg2 m c)
theorem at2_arg2 (c : Dev nD) : V2 m outs c main_arg2 = m ((c : Thread nD τ).loc main_arg2) :=
  (V2_of m outs c main_arg2 (by decide)).trans (at1_arg2 m c)
theorem at3_arg2 (c : Dev nD) : V3 m outs c main_arg2 = m ((c : Thread nD τ).loc main_arg2) :=
  (V3_of m outs c main_arg2 (by decide)).trans (at2_arg2 m outs c)
/-! `main_arg10` -/
theorem at0_arg10 (c : Dev nD) : V0 m c main_arg10 = m ((c : Thread nD τ).loc main_arg10) := rfl
theorem at1_arg10 (c : Dev nD) : V1 m c main_arg10 = m ((c : Thread nD τ).loc main_arg10) :=
  (V1_of m c main_arg10 (by decide)).trans (at0_arg10 m c)
theorem at2_arg10 (c : Dev nD) : V2 m outs c main_arg10 = m ((c : Thread nD τ).loc main_arg10) :=
  (V2_of m outs c main_arg10 (by decide)).trans (at1_arg10 m c)
theorem at3_arg10 (c : Dev nD) : V3 m outs c main_arg10 = m ((c : Thread nD τ).loc main_arg10) :=
  (V3_of m outs c main_arg10 (by decide)).trans (at2_arg10 m outs c)
/-! `main_arg11` -/
theorem at0_arg11 (c : Dev nD) : V0 m c main_arg11 = m ((c : Thread nD τ).loc main_arg11) := rfl
theorem at1_arg11 (c : Dev nD) : V1 m c main_arg11 = m ((c : Thread nD τ).loc main_arg11) :=
  (V1_of m c main_arg11 (by decide)).trans (at0_arg11 m c)
theorem at2_arg11 (c : Dev nD) : V2 m outs c main_arg11 = m ((c : Thread nD τ).loc main_arg11) :=
  (V2_of m outs c main_arg11 (by decide)).trans (at1_arg11 m c)
/-! `main_arg12` -/
theorem at0_arg12 (c : Dev nD) : V0 m c main_arg12 = m ((c : Thread nD τ).loc main_arg12) := rfl
theorem at1_arg12 (c : Dev nD) : V1 m c main_arg12 = m ((c : Thread nD τ).loc main_arg12) :=
  (V1_of m c main_arg12 (by decide)).trans (at0_arg12 m c)
theorem at2_arg12 (c : Dev nD) : V2 m outs c main_arg12 = m ((c : Thread nD τ).loc main_arg12) :=
  (V2_of m outs c main_arg12 (by decide)).trans (at1_arg12 m c)
theorem at3_arg12 (c : Dev nD) : V3 m outs c main_arg12 = m ((c : Thread nD τ).loc main_arg12) :=
  (V3_of m outs c main_arg12 (by decide)).trans (at2_arg12 m outs c)
/-! `main_arg13` -/
theorem at0_arg13 (c : Dev nD) : V0 m c main_arg13 = m ((c : Thread nD τ).loc main_arg13) := rfl
theorem at1_arg13 (c : Dev nD) : V1 m c main_arg13 = m ((c : Thread nD τ).loc main_arg13) :=
  (V1_of m c main_arg13 (by decide)).trans (at0_arg13 m c)
theorem at2_arg13 (c : Dev nD) : V2 m outs c main_arg13 = m ((c : Thread nD τ).loc main_arg13) :=
  (V2_of m outs c main_arg13 (by decide)).trans (at1_arg13 m c)
/-! `main_v14` -/
theorem at2_v14 (c : Dev nD) : V2 m outs c main_v14 = outs 2 main_v14 c := by
  simp only [V2, Function.update_self]
theorem at3_v14 (c : Dev nD) : V3 m outs c main_v14 = outs 2 main_v14 c :=
  (V3_of m outs c main_v14 (by decide)).trans (at2_v14 m outs c)
theorem at4_v14 (c : Dev nD) : V4 m outs c main_v14 = outs 2 main_v14 c :=
  (V4_of m outs c main_v14 (by decide)).trans (at3_v14 m outs c)
theorem at5_v14 (c : Dev nD) : V5 m outs c main_v14 = outs 2 main_v14 c :=
  (V5_of m outs c main_v14 (by decide)).trans (at4_v14 m outs c)
theorem at6_v14 (c : Dev nD) : V6 m outs c main_v14 = outs 2 main_v14 c :=
  (V6_of m outs c main_v14 (by decide)).trans (at5_v14 m outs c)
theorem at7_v14 (c : Dev nD) : V7 m outs c main_v14 = outs 2 main_v14 c :=
  (V7_of m outs c main_v14 (by decide)).trans (at6_v14 m outs c)
theorem at8_v14 (c : Dev nD) : V8 m outs c main_v14 = outs 2 main_v14 c :=
  (V8_of m outs c main_v14 (by decide)).trans (at7_v14 m outs c)
theorem at9_v14 (c : Dev nD) : V9 m outs c main_v14 = outs 2 main_v14 c :=
  (V9_of m outs c main_v14 (by decide)).trans (at8_v14 m outs c)
/-! `main_arg14` -/
theorem at0_arg14 (c : Dev nD) : V0 m c main_arg14 = m ((c : Thread nD τ).loc main_arg14) := rfl
theorem at1_arg14 (c : Dev nD) : V1 m c main_arg14 = m ((c : Thread nD τ).loc main_arg14) :=
  (V1_of m c main_arg14 (by decide)).trans (at0_arg14 m c)
theorem at2_arg14 (c : Dev nD) : V2 m outs c main_arg14 = m ((c : Thread nD τ).loc main_arg14) :=
  (V2_of m outs c main_arg14 (by decide)).trans (at1_arg14 m c)
theorem at3_arg14 (c : Dev nD) : V3 m outs c main_arg14 = m ((c : Thread nD τ).loc main_arg14) :=
  (V3_of m outs c main_arg14 (by decide)).trans (at2_arg14 m outs c)
theorem at4_arg14 (c : Dev nD) : V4 m outs c main_arg14 = m ((c : Thread nD τ).loc main_arg14) :=
  (V4_of m outs c main_arg14 (by decide)).trans (at3_arg14 m outs c)
theorem at5_arg14 (c : Dev nD) : V5 m outs c main_arg14 = m ((c : Thread nD τ).loc main_arg14) :=
  (V5_of m outs c main_arg14 (by decide)).trans (at4_arg14 m outs c)
theorem at6_arg14 (c : Dev nD) : V6 m outs c main_arg14 = m ((c : Thread nD τ).loc main_arg14) :=
  (V6_of m outs c main_arg14 (by decide)).trans (at5_arg14 m outs c)
theorem at7_arg14 (c : Dev nD) : V7 m outs c main_arg14 = m ((c : Thread nD τ).loc main_arg14) :=
  (V7_of m outs c main_arg14 (by decide)).trans (at6_arg14 m outs c)
theorem at8_arg14 (c : Dev nD) : V8 m outs c main_arg14 = m ((c : Thread nD τ).loc main_arg14) :=
  (V8_of m outs c main_arg14 (by decide)).trans (at7_arg14 m outs c)
theorem at9_arg14 (c : Dev nD) : V9 m outs c main_arg14 = m ((c : Thread nD τ).loc main_arg14) :=
  (V9_of m outs c main_arg14 (by decide)).trans (at8_arg14 m outs c)
theorem at10_arg14 (c : Dev nD) : V10 m outs c main_arg14 = m ((c : Thread nD τ).loc main_arg14) :=
  (V10_of m outs c main_arg14 (by decide)).trans (at9_arg14 m outs c)
theorem at11_arg14 (c : Dev nD) : V11 m outs c main_arg14 = m ((c : Thread nD τ).loc main_arg14) :=
  (V11_of m outs c main_arg14 (by decide)).trans (at10_arg14 m outs c)
theorem at12_arg14 (c : Dev nD) : V12 m outs c main_arg14 = m ((c : Thread nD τ).loc main_arg14) :=
  (V12_of m outs c main_arg14 (by decide)).trans (at11_arg14 m outs c)
theorem at13_arg14 (c : Dev nD) : V13 m outs c main_arg14 = m ((c : Thread nD τ).loc main_arg14) :=
  (V13_of m outs c main_arg14 (by decide)).trans (at12_arg14 m outs c)
theorem at14_arg14 (c : Dev nD) : V14 m outs c main_arg14 = m ((c : Thread nD τ).loc main_arg14) :=
  (V14_of m outs c main_arg14 (by decide)).trans (at13_arg14 m outs c)
theorem at15_arg14 (c : Dev nD) : V15 m outs c main_arg14 = m ((c : Thread nD τ).loc main_arg14) :=
  (V15_of m outs c main_arg14 (by decide)).trans (at14_arg14 m outs c)
theorem at16_arg14 (c : Dev nD) : V16 m outs c main_arg14 = m ((c : Thread nD τ).loc main_arg14) :=
  (V16_of m outs c main_arg14 (by decide)).trans (at15_arg14 m outs c)
theorem at17_arg14 (c : Dev nD) : V17 m outs c main_arg14 = m ((c : Thread nD τ).loc main_arg14) :=
  (V17_of m outs c main_arg14 (by decide)).trans (at16_arg14 m outs c)
theorem at18_arg14 (c : Dev nD) : V18 m outs c main_arg14 = m ((c : Thread nD τ).loc main_arg14) :=
  (V18_of m outs c main_arg14 (by decide)).trans (at17_arg14 m outs c)
theorem at19_arg14 (c : Dev nD) : V19 m outs c main_arg14 = m ((c : Thread nD τ).loc main_arg14) :=
  (V19_of m outs c main_arg14 (by decide)).trans (at18_arg14 m outs c)
theorem at20_arg14 (c : Dev nD) : V20 m outs c main_arg14 = m ((c : Thread nD τ).loc main_arg14) :=
  (V20_of m outs c main_arg14 (by decide)).trans (at19_arg14 m outs c)
theorem at21_arg14 (c : Dev nD) : V21 m outs c main_arg14 = m ((c : Thread nD τ).loc main_arg14) :=
  (V21_of m outs c main_arg14 (by decide)).trans (at20_arg14 m outs c)
theorem at22_arg14 (c : Dev nD) : V22 m outs c main_arg14 = m ((c : Thread nD τ).loc main_arg14) :=
  (V22_of m outs c main_arg14 (by decide)).trans (at21_arg14 m outs c)
theorem at23_arg14 (c : Dev nD) : V23 m outs c main_arg14 = m ((c : Thread nD τ).loc main_arg14) :=
  (V23_of m outs c main_arg14 (by decide)).trans (at22_arg14 m outs c)
theorem at24_arg14 (c : Dev nD) : V24 m outs c main_arg14 = m ((c : Thread nD τ).loc main_arg14) :=
  (V24_of m outs c main_arg14 (by decide)).trans (at23_arg14 m outs c)
theorem at25_arg14 (c : Dev nD) : V25 m outs c main_arg14 = m ((c : Thread nD τ).loc main_arg14) :=
  (V25_of m outs c main_arg14 (by decide)).trans (at24_arg14 m outs c)
theorem at26_arg14 (c : Dev nD) : V26 m outs c main_arg14 = m ((c : Thread nD τ).loc main_arg14) :=
  (V26_of m outs c main_arg14 (by decide)).trans (at25_arg14 m outs c)
theorem at27_arg14 (c : Dev nD) : V27 m outs c main_arg14 = m ((c : Thread nD τ).loc main_arg14) :=
  (V27_of m outs c main_arg14 (by decide)).trans (at26_arg14 m outs c)
theorem at28_arg14 (c : Dev nD) : V28 m outs c main_arg14 = m ((c : Thread nD τ).loc main_arg14) :=
  (V28_of m outs c main_arg14 (by decide)).trans (at27_arg14 m outs c)
/-! `main_arg15` -/
theorem at0_arg15 (c : Dev nD) : V0 m c main_arg15 = m ((c : Thread nD τ).loc main_arg15) := rfl
theorem at1_arg15 (c : Dev nD) : V1 m c main_arg15 = m ((c : Thread nD τ).loc main_arg15) :=
  (V1_of m c main_arg15 (by decide)).trans (at0_arg15 m c)
theorem at2_arg15 (c : Dev nD) : V2 m outs c main_arg15 = m ((c : Thread nD τ).loc main_arg15) :=
  (V2_of m outs c main_arg15 (by decide)).trans (at1_arg15 m c)
theorem at3_arg15 (c : Dev nD) : V3 m outs c main_arg15 = m ((c : Thread nD τ).loc main_arg15) :=
  (V3_of m outs c main_arg15 (by decide)).trans (at2_arg15 m outs c)
theorem at4_arg15 (c : Dev nD) : V4 m outs c main_arg15 = m ((c : Thread nD τ).loc main_arg15) :=
  (V4_of m outs c main_arg15 (by decide)).trans (at3_arg15 m outs c)
theorem at5_arg15 (c : Dev nD) : V5 m outs c main_arg15 = m ((c : Thread nD τ).loc main_arg15) :=
  (V5_of m outs c main_arg15 (by decide)).trans (at4_arg15 m outs c)
theorem at6_arg15 (c : Dev nD) : V6 m outs c main_arg15 = m ((c : Thread nD τ).loc main_arg15) :=
  (V6_of m outs c main_arg15 (by decide)).trans (at5_arg15 m outs c)
theorem at7_arg15 (c : Dev nD) : V7 m outs c main_arg15 = m ((c : Thread nD τ).loc main_arg15) :=
  (V7_of m outs c main_arg15 (by decide)).trans (at6_arg15 m outs c)
theorem at8_arg15 (c : Dev nD) : V8 m outs c main_arg15 = m ((c : Thread nD τ).loc main_arg15) :=
  (V8_of m outs c main_arg15 (by decide)).trans (at7_arg15 m outs c)
theorem at9_arg15 (c : Dev nD) : V9 m outs c main_arg15 = m ((c : Thread nD τ).loc main_arg15) :=
  (V9_of m outs c main_arg15 (by decide)).trans (at8_arg15 m outs c)
theorem at10_arg15 (c : Dev nD) : V10 m outs c main_arg15 = m ((c : Thread nD τ).loc main_arg15) :=
  (V10_of m outs c main_arg15 (by decide)).trans (at9_arg15 m outs c)
theorem at11_arg15 (c : Dev nD) : V11 m outs c main_arg15 = m ((c : Thread nD τ).loc main_arg15) :=
  (V11_of m outs c main_arg15 (by decide)).trans (at10_arg15 m outs c)
theorem at12_arg15 (c : Dev nD) : V12 m outs c main_arg15 = m ((c : Thread nD τ).loc main_arg15) :=
  (V12_of m outs c main_arg15 (by decide)).trans (at11_arg15 m outs c)
theorem at13_arg15 (c : Dev nD) : V13 m outs c main_arg15 = m ((c : Thread nD τ).loc main_arg15) :=
  (V13_of m outs c main_arg15 (by decide)).trans (at12_arg15 m outs c)
theorem at14_arg15 (c : Dev nD) : V14 m outs c main_arg15 = m ((c : Thread nD τ).loc main_arg15) :=
  (V14_of m outs c main_arg15 (by decide)).trans (at13_arg15 m outs c)
theorem at15_arg15 (c : Dev nD) : V15 m outs c main_arg15 = m ((c : Thread nD τ).loc main_arg15) :=
  (V15_of m outs c main_arg15 (by decide)).trans (at14_arg15 m outs c)
theorem at16_arg15 (c : Dev nD) : V16 m outs c main_arg15 = m ((c : Thread nD τ).loc main_arg15) :=
  (V16_of m outs c main_arg15 (by decide)).trans (at15_arg15 m outs c)
theorem at17_arg15 (c : Dev nD) : V17 m outs c main_arg15 = m ((c : Thread nD τ).loc main_arg15) :=
  (V17_of m outs c main_arg15 (by decide)).trans (at16_arg15 m outs c)
theorem at18_arg15 (c : Dev nD) : V18 m outs c main_arg15 = m ((c : Thread nD τ).loc main_arg15) :=
  (V18_of m outs c main_arg15 (by decide)).trans (at17_arg15 m outs c)
theorem at19_arg15 (c : Dev nD) : V19 m outs c main_arg15 = m ((c : Thread nD τ).loc main_arg15) :=
  (V19_of m outs c main_arg15 (by decide)).trans (at18_arg15 m outs c)
theorem at20_arg15 (c : Dev nD) : V20 m outs c main_arg15 = m ((c : Thread nD τ).loc main_arg15) :=
  (V20_of m outs c main_arg15 (by decide)).trans (at19_arg15 m outs c)
theorem at21_arg15 (c : Dev nD) : V21 m outs c main_arg15 = m ((c : Thread nD τ).loc main_arg15) :=
  (V21_of m outs c main_arg15 (by decide)).trans (at20_arg15 m outs c)
theorem at22_arg15 (c : Dev nD) : V22 m outs c main_arg15 = m ((c : Thread nD τ).loc main_arg15) :=
  (V22_of m outs c main_arg15 (by decide)).trans (at21_arg15 m outs c)
theorem at23_arg15 (c : Dev nD) : V23 m outs c main_arg15 = m ((c : Thread nD τ).loc main_arg15) :=
  (V23_of m outs c main_arg15 (by decide)).trans (at22_arg15 m outs c)
theorem at24_arg15 (c : Dev nD) : V24 m outs c main_arg15 = m ((c : Thread nD τ).loc main_arg15) :=
  (V24_of m outs c main_arg15 (by decide)).trans (at23_arg15 m outs c)
theorem at25_arg15 (c : Dev nD) : V25 m outs c main_arg15 = m ((c : Thread nD τ).loc main_arg15) :=
  (V25_of m outs c main_arg15 (by decide)).trans (at24_arg15 m outs c)
theorem at26_arg15 (c : Dev nD) : V26 m outs c main_arg15 = m ((c : Thread nD τ).loc main_arg15) :=
  (V26_of m outs c main_arg15 (by decide)).trans (at25_arg15 m outs c)
theorem at27_arg15 (c : Dev nD) : V27 m outs c main_arg15 = m ((c : Thread nD τ).loc main_arg15) :=
  (V27_of m outs c main_arg15 (by decide)).trans (at26_arg15 m outs c)
theorem at28_arg15 (c : Dev nD) : V28 m outs c main_arg15 = m ((c : Thread nD τ).loc main_arg15) :=
  (V28_of m outs c main_arg15 (by decide)).trans (at27_arg15 m outs c)
/-! `main_v17` -/
theorem at4_v17 (c : Dev nD) : V4 m outs c main_v17 = outs 4 main_v17 c := by
  simp only [V4, Function.update_self]
theorem at5_v17 (c : Dev nD) : V5 m outs c main_v17 = outs 4 main_v17 c :=
  (V5_of m outs c main_v17 (by decide)).trans (at4_v17 m outs c)
theorem at6_v17 (c : Dev nD) : V6 m outs c main_v17 = outs 4 main_v17 c :=
  (V6_of m outs c main_v17 (by decide)).trans (at5_v17 m outs c)
theorem at7_v17 (c : Dev nD) : V7 m outs c main_v17 = outs 4 main_v17 c :=
  (V7_of m outs c main_v17 (by decide)).trans (at6_v17 m outs c)
theorem at8_v17 (c : Dev nD) : V8 m outs c main_v17 = outs 4 main_v17 c :=
  (V8_of m outs c main_v17 (by decide)).trans (at7_v17 m outs c)
theorem at9_v17 (c : Dev nD) : V9 m outs c main_v17 = outs 4 main_v17 c :=
  (V9_of m outs c main_v17 (by decide)).trans (at8_v17 m outs c)
theorem at10_v17 (c : Dev nD) : V10 m outs c main_v17 = outs 4 main_v17 c :=
  (V10_of m outs c main_v17 (by decide)).trans (at9_v17 m outs c)
theorem at11_v17 (c : Dev nD) : V11 m outs c main_v17 = outs 4 main_v17 c :=
  (V11_of m outs c main_v17 (by decide)).trans (at10_v17 m outs c)
theorem at12_v17 (c : Dev nD) : V12 m outs c main_v17 = outs 4 main_v17 c :=
  (V12_of m outs c main_v17 (by decide)).trans (at11_v17 m outs c)
theorem at13_v17 (c : Dev nD) : V13 m outs c main_v17 = outs 4 main_v17 c :=
  (V13_of m outs c main_v17 (by decide)).trans (at12_v17 m outs c)
theorem at14_v17 (c : Dev nD) : V14 m outs c main_v17 = outs 4 main_v17 c :=
  (V14_of m outs c main_v17 (by decide)).trans (at13_v17 m outs c)
theorem at15_v17 (c : Dev nD) : V15 m outs c main_v17 = outs 4 main_v17 c :=
  (V15_of m outs c main_v17 (by decide)).trans (at14_v17 m outs c)
theorem at16_v17 (c : Dev nD) : V16 m outs c main_v17 = outs 4 main_v17 c :=
  (V16_of m outs c main_v17 (by decide)).trans (at15_v17 m outs c)
theorem at17_v17 (c : Dev nD) : V17 m outs c main_v17 = outs 4 main_v17 c :=
  (V17_of m outs c main_v17 (by decide)).trans (at16_v17 m outs c)
theorem at18_v17 (c : Dev nD) : V18 m outs c main_v17 = outs 4 main_v17 c :=
  (V18_of m outs c main_v17 (by decide)).trans (at17_v17 m outs c)
theorem at19_v17 (c : Dev nD) : V19 m outs c main_v17 = outs 4 main_v17 c :=
  (V19_of m outs c main_v17 (by decide)).trans (at18_v17 m outs c)
theorem at20_v17 (c : Dev nD) : V20 m outs c main_v17 = outs 4 main_v17 c :=
  (V20_of m outs c main_v17 (by decide)).trans (at19_v17 m outs c)
theorem at21_v17 (c : Dev nD) : V21 m outs c main_v17 = outs 4 main_v17 c :=
  (V21_of m outs c main_v17 (by decide)).trans (at20_v17 m outs c)
theorem at22_v17 (c : Dev nD) : V22 m outs c main_v17 = outs 4 main_v17 c :=
  (V22_of m outs c main_v17 (by decide)).trans (at21_v17 m outs c)
theorem at23_v17 (c : Dev nD) : V23 m outs c main_v17 = outs 4 main_v17 c :=
  (V23_of m outs c main_v17 (by decide)).trans (at22_v17 m outs c)
theorem at24_v17 (c : Dev nD) : V24 m outs c main_v17 = outs 4 main_v17 c :=
  (V24_of m outs c main_v17 (by decide)).trans (at23_v17 m outs c)
theorem at25_v17 (c : Dev nD) : V25 m outs c main_v17 = outs 4 main_v17 c :=
  (V25_of m outs c main_v17 (by decide)).trans (at24_v17 m outs c)
theorem at26_v17 (c : Dev nD) : V26 m outs c main_v17 = outs 4 main_v17 c :=
  (V26_of m outs c main_v17 (by decide)).trans (at25_v17 m outs c)
theorem at27_v17 (c : Dev nD) : V27 m outs c main_v17 = outs 4 main_v17 c :=
  (V27_of m outs c main_v17 (by decide)).trans (at26_v17 m outs c)
/-! `main_v22_0` -/
theorem at6_v22_0 (c : Dev nD) : V6 m outs c main_v22_0 = outs 6 main_v22_0 c := by
  simp only [V6, Function.update_of_ne (StableHlo.devRef_ne_of_ne (by decide) : (Proc.devRef .tc main_v22_0 : DevRef τ sig) ≠ Proc.devRef .tc main_v22_1), Function.update_self]
/-! `main_v1` -/
theorem at2_v1 (c : Dev nD) : V2 m outs c main_v1 = V1 m c main_v1 :=
  V2_of m outs c main_v1 (by decide)
theorem at3_v1 (c : Dev nD) : V3 m outs c main_v1 = V1 m c main_v1 :=
  (V3_of m outs c main_v1 (by decide)).trans (at2_v1 m outs c)
theorem at4_v1 (c : Dev nD) : V4 m outs c main_v1 = V1 m c main_v1 :=
  (V4_of m outs c main_v1 (by decide)).trans (at3_v1 m outs c)
theorem at5_v1 (c : Dev nD) : V5 m outs c main_v1 = V1 m c main_v1 :=
  (V5_of m outs c main_v1 (by decide)).trans (at4_v1 m outs c)
theorem at6_v1 (c : Dev nD) : V6 m outs c main_v1 = V1 m c main_v1 :=
  (V6_of m outs c main_v1 (by decide)).trans (at5_v1 m outs c)
theorem at7_v1 (c : Dev nD) : V7 m outs c main_v1 = V1 m c main_v1 :=
  (V7_of m outs c main_v1 (by decide)).trans (at6_v1 m outs c)
theorem at8_v1 (c : Dev nD) : V8 m outs c main_v1 = V1 m c main_v1 :=
  (V8_of m outs c main_v1 (by decide)).trans (at7_v1 m outs c)
theorem at9_v1 (c : Dev nD) : V9 m outs c main_v1 = V1 m c main_v1 :=
  (V9_of m outs c main_v1 (by decide)).trans (at8_v1 m outs c)
theorem at10_v1 (c : Dev nD) : V10 m outs c main_v1 = V1 m c main_v1 :=
  (V10_of m outs c main_v1 (by decide)).trans (at9_v1 m outs c)
theorem at11_v1 (c : Dev nD) : V11 m outs c main_v1 = V1 m c main_v1 :=
  (V11_of m outs c main_v1 (by decide)).trans (at10_v1 m outs c)
theorem at12_v1 (c : Dev nD) : V12 m outs c main_v1 = V1 m c main_v1 :=
  (V12_of m outs c main_v1 (by decide)).trans (at11_v1 m outs c)
theorem at13_v1 (c : Dev nD) : V13 m outs c main_v1 = V1 m c main_v1 :=
  (V13_of m outs c main_v1 (by decide)).trans (at12_v1 m outs c)
theorem at14_v1 (c : Dev nD) : V14 m outs c main_v1 = V1 m c main_v1 :=
  (V14_of m outs c main_v1 (by decide)).trans (at13_v1 m outs c)
theorem at15_v1 (c : Dev nD) : V15 m outs c main_v1 = V1 m c main_v1 :=
  (V15_of m outs c main_v1 (by decide)).trans (at14_v1 m outs c)
theorem at16_v1 (c : Dev nD) : V16 m outs c main_v1 = V1 m c main_v1 :=
  (V16_of m outs c main_v1 (by decide)).trans (at15_v1 m outs c)
theorem at17_v1 (c : Dev nD) : V17 m outs c main_v1 = V1 m c main_v1 :=
  (V17_of m outs c main_v1 (by decide)).trans (at16_v1 m outs c)
theorem at18_v1 (c : Dev nD) : V18 m outs c main_v1 = V1 m c main_v1 :=
  (V18_of m outs c main_v1 (by decide)).trans (at17_v1 m outs c)
theorem at19_v1 (c : Dev nD) : V19 m outs c main_v1 = V1 m c main_v1 :=
  (V19_of m outs c main_v1 (by decide)).trans (at18_v1 m outs c)
theorem at20_v1 (c : Dev nD) : V20 m outs c main_v1 = V1 m c main_v1 :=
  (V20_of m outs c main_v1 (by decide)).trans (at19_v1 m outs c)
theorem at21_v1 (c : Dev nD) : V21 m outs c main_v1 = V1 m c main_v1 :=
  (V21_of m outs c main_v1 (by decide)).trans (at20_v1 m outs c)
theorem at22_v1 (c : Dev nD) : V22 m outs c main_v1 = V1 m c main_v1 :=
  (V22_of m outs c main_v1 (by decide)).trans (at21_v1 m outs c)
theorem at23_v1 (c : Dev nD) : V23 m outs c main_v1 = V1 m c main_v1 :=
  (V23_of m outs c main_v1 (by decide)).trans (at22_v1 m outs c)
theorem at24_v1 (c : Dev nD) : V24 m outs c main_v1 = V1 m c main_v1 :=
  (V24_of m outs c main_v1 (by decide)).trans (at23_v1 m outs c)
theorem at25_v1 (c : Dev nD) : V25 m outs c main_v1 = V1 m c main_v1 :=
  (V25_of m outs c main_v1 (by decide)).trans (at24_v1 m outs c)
theorem at26_v1 (c : Dev nD) : V26 m outs c main_v1 = V1 m c main_v1 :=
  (V26_of m outs c main_v1 (by decide)).trans (at25_v1 m outs c)
/-! `main_v22_1` -/
theorem at6_v22_1 (c : Dev nD) : V6 m outs c main_v22_1 = outs 6 main_v22_1 c := by
  simp only [V6, Function.update_self]
/-! `main_v3` -/
theorem at2_v3 (c : Dev nD) : V2 m outs c main_v3 = V1 m c main_v3 :=
  V2_of m outs c main_v3 (by decide)
theorem at3_v3 (c : Dev nD) : V3 m outs c main_v3 = V1 m c main_v3 :=
  (V3_of m outs c main_v3 (by decide)).trans (at2_v3 m outs c)
theorem at4_v3 (c : Dev nD) : V4 m outs c main_v3 = V1 m c main_v3 :=
  (V4_of m outs c main_v3 (by decide)).trans (at3_v3 m outs c)
theorem at5_v3 (c : Dev nD) : V5 m outs c main_v3 = V1 m c main_v3 :=
  (V5_of m outs c main_v3 (by decide)).trans (at4_v3 m outs c)
theorem at6_v3 (c : Dev nD) : V6 m outs c main_v3 = V1 m c main_v3 :=
  (V6_of m outs c main_v3 (by decide)).trans (at5_v3 m outs c)
theorem at7_v3 (c : Dev nD) : V7 m outs c main_v3 = V1 m c main_v3 :=
  (V7_of m outs c main_v3 (by decide)).trans (at6_v3 m outs c)
theorem at8_v3 (c : Dev nD) : V8 m outs c main_v3 = V1 m c main_v3 :=
  (V8_of m outs c main_v3 (by decide)).trans (at7_v3 m outs c)
theorem at9_v3 (c : Dev nD) : V9 m outs c main_v3 = V1 m c main_v3 :=
  (V9_of m outs c main_v3 (by decide)).trans (at8_v3 m outs c)
theorem at10_v3 (c : Dev nD) : V10 m outs c main_v3 = V1 m c main_v3 :=
  (V10_of m outs c main_v3 (by decide)).trans (at9_v3 m outs c)
theorem at11_v3 (c : Dev nD) : V11 m outs c main_v3 = V1 m c main_v3 :=
  (V11_of m outs c main_v3 (by decide)).trans (at10_v3 m outs c)
theorem at12_v3 (c : Dev nD) : V12 m outs c main_v3 = V1 m c main_v3 :=
  (V12_of m outs c main_v3 (by decide)).trans (at11_v3 m outs c)
theorem at13_v3 (c : Dev nD) : V13 m outs c main_v3 = V1 m c main_v3 :=
  (V13_of m outs c main_v3 (by decide)).trans (at12_v3 m outs c)
theorem at14_v3 (c : Dev nD) : V14 m outs c main_v3 = V1 m c main_v3 :=
  (V14_of m outs c main_v3 (by decide)).trans (at13_v3 m outs c)
theorem at15_v3 (c : Dev nD) : V15 m outs c main_v3 = V1 m c main_v3 :=
  (V15_of m outs c main_v3 (by decide)).trans (at14_v3 m outs c)
theorem at16_v3 (c : Dev nD) : V16 m outs c main_v3 = V1 m c main_v3 :=
  (V16_of m outs c main_v3 (by decide)).trans (at15_v3 m outs c)
theorem at17_v3 (c : Dev nD) : V17 m outs c main_v3 = V1 m c main_v3 :=
  (V17_of m outs c main_v3 (by decide)).trans (at16_v3 m outs c)
theorem at18_v3 (c : Dev nD) : V18 m outs c main_v3 = V1 m c main_v3 :=
  (V18_of m outs c main_v3 (by decide)).trans (at17_v3 m outs c)
theorem at19_v3 (c : Dev nD) : V19 m outs c main_v3 = V1 m c main_v3 :=
  (V19_of m outs c main_v3 (by decide)).trans (at18_v3 m outs c)
theorem at20_v3 (c : Dev nD) : V20 m outs c main_v3 = V1 m c main_v3 :=
  (V20_of m outs c main_v3 (by decide)).trans (at19_v3 m outs c)
theorem at21_v3 (c : Dev nD) : V21 m outs c main_v3 = V1 m c main_v3 :=
  (V21_of m outs c main_v3 (by decide)).trans (at20_v3 m outs c)
theorem at22_v3 (c : Dev nD) : V22 m outs c main_v3 = V1 m c main_v3 :=
  (V22_of m outs c main_v3 (by decide)).trans (at21_v3 m outs c)
theorem at23_v3 (c : Dev nD) : V23 m outs c main_v3 = V1 m c main_v3 :=
  (V23_of m outs c main_v3 (by decide)).trans (at22_v3 m outs c)
theorem at24_v3 (c : Dev nD) : V24 m outs c main_v3 = V1 m c main_v3 :=
  (V24_of m outs c main_v3 (by decide)).trans (at23_v3 m outs c)
theorem at25_v3 (c : Dev nD) : V25 m outs c main_v3 = V1 m c main_v3 :=
  (V25_of m outs c main_v3 (by decide)).trans (at24_v3 m outs c)
theorem at26_v3 (c : Dev nD) : V26 m outs c main_v3 = V1 m c main_v3 :=
  (V26_of m outs c main_v3 (by decide)).trans (at25_v3 m outs c)
theorem at27_v3 (c : Dev nD) : V27 m outs c main_v3 = V1 m c main_v3 :=
  (V27_of m outs c main_v3 (by decide)).trans (at26_v3 m outs c)
theorem at28_v3 (c : Dev nD) : V28 m outs c main_v3 = V1 m c main_v3 :=
  (V28_of m outs c main_v3 (by decide)).trans (at27_v3 m outs c)
/-! `main_arg16` -/
theorem at0_arg16 (c : Dev nD) : V0 m c main_arg16 = m ((c : Thread nD τ).loc main_arg16) := rfl
theorem at1_arg16 (c : Dev nD) : V1 m c main_arg16 = m ((c : Thread nD τ).loc main_arg16) :=
  (V1_of m c main_arg16 (by decide)).trans (at0_arg16 m c)
theorem at2_arg16 (c : Dev nD) : V2 m outs c main_arg16 = m ((c : Thread nD τ).loc main_arg16) :=
  (V2_of m outs c main_arg16 (by decide)).trans (at1_arg16 m c)
theorem at3_arg16 (c : Dev nD) : V3 m outs c main_arg16 = m ((c : Thread nD τ).loc main_arg16) :=
  (V3_of m outs c main_arg16 (by decide)).trans (at2_arg16 m outs c)
theorem at4_arg16 (c : Dev nD) : V4 m outs c main_arg16 = m ((c : Thread nD τ).loc main_arg16) :=
  (V4_of m outs c main_arg16 (by decide)).trans (at3_arg16 m outs c)
theorem at5_arg16 (c : Dev nD) : V5 m outs c main_arg16 = m ((c : Thread nD τ).loc main_arg16) :=
  (V5_of m outs c main_arg16 (by decide)).trans (at4_arg16 m outs c)
theorem at6_arg16 (c : Dev nD) : V6 m outs c main_arg16 = m ((c : Thread nD τ).loc main_arg16) :=
  (V6_of m outs c main_arg16 (by decide)).trans (at5_arg16 m outs c)
theorem at7_arg16 (c : Dev nD) : V7 m outs c main_arg16 = m ((c : Thread nD τ).loc main_arg16) :=
  (V7_of m outs c main_arg16 (by decide)).trans (at6_arg16 m outs c)
theorem at8_arg16 (c : Dev nD) : V8 m outs c main_arg16 = m ((c : Thread nD τ).loc main_arg16) :=
  (V8_of m outs c main_arg16 (by decide)).trans (at7_arg16 m outs c)
theorem at9_arg16 (c : Dev nD) : V9 m outs c main_arg16 = m ((c : Thread nD τ).loc main_arg16) :=
  (V9_of m outs c main_arg16 (by decide)).trans (at8_arg16 m outs c)
theorem at10_arg16 (c : Dev nD) : V10 m outs c main_arg16 = m ((c : Thread nD τ).loc main_arg16) :=
  (V10_of m outs c main_arg16 (by decide)).trans (at9_arg16 m outs c)
theorem at11_arg16 (c : Dev nD) : V11 m outs c main_arg16 = m ((c : Thread nD τ).loc main_arg16) :=
  (V11_of m outs c main_arg16 (by decide)).trans (at10_arg16 m outs c)
theorem at12_arg16 (c : Dev nD) : V12 m outs c main_arg16 = m ((c : Thread nD τ).loc main_arg16) :=
  (V12_of m outs c main_arg16 (by decide)).trans (at11_arg16 m outs c)
theorem at13_arg16 (c : Dev nD) : V13 m outs c main_arg16 = m ((c : Thread nD τ).loc main_arg16) :=
  (V13_of m outs c main_arg16 (by decide)).trans (at12_arg16 m outs c)
theorem at14_arg16 (c : Dev nD) : V14 m outs c main_arg16 = m ((c : Thread nD τ).loc main_arg16) :=
  (V14_of m outs c main_arg16 (by decide)).trans (at13_arg16 m outs c)
theorem at15_arg16 (c : Dev nD) : V15 m outs c main_arg16 = m ((c : Thread nD τ).loc main_arg16) :=
  (V15_of m outs c main_arg16 (by decide)).trans (at14_arg16 m outs c)
theorem at16_arg16 (c : Dev nD) : V16 m outs c main_arg16 = m ((c : Thread nD τ).loc main_arg16) :=
  (V16_of m outs c main_arg16 (by decide)).trans (at15_arg16 m outs c)
theorem at17_arg16 (c : Dev nD) : V17 m outs c main_arg16 = m ((c : Thread nD τ).loc main_arg16) :=
  (V17_of m outs c main_arg16 (by decide)).trans (at16_arg16 m outs c)
theorem at18_arg16 (c : Dev nD) : V18 m outs c main_arg16 = m ((c : Thread nD τ).loc main_arg16) :=
  (V18_of m outs c main_arg16 (by decide)).trans (at17_arg16 m outs c)
theorem at19_arg16 (c : Dev nD) : V19 m outs c main_arg16 = m ((c : Thread nD τ).loc main_arg16) :=
  (V19_of m outs c main_arg16 (by decide)).trans (at18_arg16 m outs c)
theorem at20_arg16 (c : Dev nD) : V20 m outs c main_arg16 = m ((c : Thread nD τ).loc main_arg16) :=
  (V20_of m outs c main_arg16 (by decide)).trans (at19_arg16 m outs c)
theorem at21_arg16 (c : Dev nD) : V21 m outs c main_arg16 = m ((c : Thread nD τ).loc main_arg16) :=
  (V21_of m outs c main_arg16 (by decide)).trans (at20_arg16 m outs c)
theorem at22_arg16 (c : Dev nD) : V22 m outs c main_arg16 = m ((c : Thread nD τ).loc main_arg16) :=
  (V22_of m outs c main_arg16 (by decide)).trans (at21_arg16 m outs c)
theorem at23_arg16 (c : Dev nD) : V23 m outs c main_arg16 = m ((c : Thread nD τ).loc main_arg16) :=
  (V23_of m outs c main_arg16 (by decide)).trans (at22_arg16 m outs c)
theorem at24_arg16 (c : Dev nD) : V24 m outs c main_arg16 = m ((c : Thread nD τ).loc main_arg16) :=
  (V24_of m outs c main_arg16 (by decide)).trans (at23_arg16 m outs c)
theorem at25_arg16 (c : Dev nD) : V25 m outs c main_arg16 = m ((c : Thread nD τ).loc main_arg16) :=
  (V25_of m outs c main_arg16 (by decide)).trans (at24_arg16 m outs c)
theorem at26_arg16 (c : Dev nD) : V26 m outs c main_arg16 = m ((c : Thread nD τ).loc main_arg16) :=
  (V26_of m outs c main_arg16 (by decide)).trans (at25_arg16 m outs c)
/-! `main_arg17` -/
theorem at0_arg17 (c : Dev nD) : V0 m c main_arg17 = m ((c : Thread nD τ).loc main_arg17) := rfl
theorem at1_arg17 (c : Dev nD) : V1 m c main_arg17 = m ((c : Thread nD τ).loc main_arg17) :=
  (V1_of m c main_arg17 (by decide)).trans (at0_arg17 m c)
theorem at2_arg17 (c : Dev nD) : V2 m outs c main_arg17 = m ((c : Thread nD τ).loc main_arg17) :=
  (V2_of m outs c main_arg17 (by decide)).trans (at1_arg17 m c)
theorem at3_arg17 (c : Dev nD) : V3 m outs c main_arg17 = m ((c : Thread nD τ).loc main_arg17) :=
  (V3_of m outs c main_arg17 (by decide)).trans (at2_arg17 m outs c)
theorem at4_arg17 (c : Dev nD) : V4 m outs c main_arg17 = m ((c : Thread nD τ).loc main_arg17) :=
  (V4_of m outs c main_arg17 (by decide)).trans (at3_arg17 m outs c)
theorem at5_arg17 (c : Dev nD) : V5 m outs c main_arg17 = m ((c : Thread nD τ).loc main_arg17) :=
  (V5_of m outs c main_arg17 (by decide)).trans (at4_arg17 m outs c)
theorem at6_arg17 (c : Dev nD) : V6 m outs c main_arg17 = m ((c : Thread nD τ).loc main_arg17) :=
  (V6_of m outs c main_arg17 (by decide)).trans (at5_arg17 m outs c)
theorem at7_arg17 (c : Dev nD) : V7 m outs c main_arg17 = m ((c : Thread nD τ).loc main_arg17) :=
  (V7_of m outs c main_arg17 (by decide)).trans (at6_arg17 m outs c)
theorem at8_arg17 (c : Dev nD) : V8 m outs c main_arg17 = m ((c : Thread nD τ).loc main_arg17) :=
  (V8_of m outs c main_arg17 (by decide)).trans (at7_arg17 m outs c)
theorem at9_arg17 (c : Dev nD) : V9 m outs c main_arg17 = m ((c : Thread nD τ).loc main_arg17) :=
  (V9_of m outs c main_arg17 (by decide)).trans (at8_arg17 m outs c)
theorem at10_arg17 (c : Dev nD) : V10 m outs c main_arg17 = m ((c : Thread nD τ).loc main_arg17) :=
  (V10_of m outs c main_arg17 (by decide)).trans (at9_arg17 m outs c)
theorem at11_arg17 (c : Dev nD) : V11 m outs c main_arg17 = m ((c : Thread nD τ).loc main_arg17) :=
  (V11_of m outs c main_arg17 (by decide)).trans (at10_arg17 m outs c)
theorem at12_arg17 (c : Dev nD) : V12 m outs c main_arg17 = m ((c : Thread nD τ).loc main_arg17) :=
  (V12_of m outs c main_arg17 (by decide)).trans (at11_arg17 m outs c)
theorem at13_arg17 (c : Dev nD) : V13 m outs c main_arg17 = m ((c : Thread nD τ).loc main_arg17) :=
  (V13_of m outs c main_arg17 (by decide)).trans (at12_arg17 m outs c)
theorem at14_arg17 (c : Dev nD) : V14 m outs c main_arg17 = m ((c : Thread nD τ).loc main_arg17) :=
  (V14_of m outs c main_arg17 (by decide)).trans (at13_arg17 m outs c)
theorem at15_arg17 (c : Dev nD) : V15 m outs c main_arg17 = m ((c : Thread nD τ).loc main_arg17) :=
  (V15_of m outs c main_arg17 (by decide)).trans (at14_arg17 m outs c)
theorem at16_arg17 (c : Dev nD) : V16 m outs c main_arg17 = m ((c : Thread nD τ).loc main_arg17) :=
  (V16_of m outs c main_arg17 (by decide)).trans (at15_arg17 m outs c)
theorem at17_arg17 (c : Dev nD) : V17 m outs c main_arg17 = m ((c : Thread nD τ).loc main_arg17) :=
  (V17_of m outs c main_arg17 (by decide)).trans (at16_arg17 m outs c)
theorem at18_arg17 (c : Dev nD) : V18 m outs c main_arg17 = m ((c : Thread nD τ).loc main_arg17) :=
  (V18_of m outs c main_arg17 (by decide)).trans (at17_arg17 m outs c)
theorem at19_arg17 (c : Dev nD) : V19 m outs c main_arg17 = m ((c : Thread nD τ).loc main_arg17) :=
  (V19_of m outs c main_arg17 (by decide)).trans (at18_arg17 m outs c)
theorem at20_arg17 (c : Dev nD) : V20 m outs c main_arg17 = m ((c : Thread nD τ).loc main_arg17) :=
  (V20_of m outs c main_arg17 (by decide)).trans (at19_arg17 m outs c)
theorem at21_arg17 (c : Dev nD) : V21 m outs c main_arg17 = m ((c : Thread nD τ).loc main_arg17) :=
  (V21_of m outs c main_arg17 (by decide)).trans (at20_arg17 m outs c)
theorem at22_arg17 (c : Dev nD) : V22 m outs c main_arg17 = m ((c : Thread nD τ).loc main_arg17) :=
  (V22_of m outs c main_arg17 (by decide)).trans (at21_arg17 m outs c)
theorem at23_arg17 (c : Dev nD) : V23 m outs c main_arg17 = m ((c : Thread nD τ).loc main_arg17) :=
  (V23_of m outs c main_arg17 (by decide)).trans (at22_arg17 m outs c)
theorem at24_arg17 (c : Dev nD) : V24 m outs c main_arg17 = m ((c : Thread nD τ).loc main_arg17) :=
  (V24_of m outs c main_arg17 (by decide)).trans (at23_arg17 m outs c)
theorem at25_arg17 (c : Dev nD) : V25 m outs c main_arg17 = m ((c : Thread nD τ).loc main_arg17) :=
  (V25_of m outs c main_arg17 (by decide)).trans (at24_arg17 m outs c)
theorem at26_arg17 (c : Dev nD) : V26 m outs c main_arg17 = m ((c : Thread nD τ).loc main_arg17) :=
  (V26_of m outs c main_arg17 (by decide)).trans (at25_arg17 m outs c)
/-! `main_arg18` -/
theorem at0_arg18 (c : Dev nD) : V0 m c main_arg18 = m ((c : Thread nD τ).loc main_arg18) := rfl
theorem at1_arg18 (c : Dev nD) : V1 m c main_arg18 = m ((c : Thread nD τ).loc main_arg18) :=
  (V1_of m c main_arg18 (by decide)).trans (at0_arg18 m c)
theorem at2_arg18 (c : Dev nD) : V2 m outs c main_arg18 = m ((c : Thread nD τ).loc main_arg18) :=
  (V2_of m outs c main_arg18 (by decide)).trans (at1_arg18 m c)
theorem at3_arg18 (c : Dev nD) : V3 m outs c main_arg18 = m ((c : Thread nD τ).loc main_arg18) :=
  (V3_of m outs c main_arg18 (by decide)).trans (at2_arg18 m outs c)
theorem at4_arg18 (c : Dev nD) : V4 m outs c main_arg18 = m ((c : Thread nD τ).loc main_arg18) :=
  (V4_of m outs c main_arg18 (by decide)).trans (at3_arg18 m outs c)
theorem at5_arg18 (c : Dev nD) : V5 m outs c main_arg18 = m ((c : Thread nD τ).loc main_arg18) :=
  (V5_of m outs c main_arg18 (by decide)).trans (at4_arg18 m outs c)
theorem at6_arg18 (c : Dev nD) : V6 m outs c main_arg18 = m ((c : Thread nD τ).loc main_arg18) :=
  (V6_of m outs c main_arg18 (by decide)).trans (at5_arg18 m outs c)
theorem at7_arg18 (c : Dev nD) : V7 m outs c main_arg18 = m ((c : Thread nD τ).loc main_arg18) :=
  (V7_of m outs c main_arg18 (by decide)).trans (at6_arg18 m outs c)
theorem at8_arg18 (c : Dev nD) : V8 m outs c main_arg18 = m ((c : Thread nD τ).loc main_arg18) :=
  (V8_of m outs c main_arg18 (by decide)).trans (at7_arg18 m outs c)
theorem at9_arg18 (c : Dev nD) : V9 m outs c main_arg18 = m ((c : Thread nD τ).loc main_arg18) :=
  (V9_of m outs c main_arg18 (by decide)).trans (at8_arg18 m outs c)
theorem at10_arg18 (c : Dev nD) : V10 m outs c main_arg18 = m ((c : Thread nD τ).loc main_arg18) :=
  (V10_of m outs c main_arg18 (by decide)).trans (at9_arg18 m outs c)
theorem at11_arg18 (c : Dev nD) : V11 m outs c main_arg18 = m ((c : Thread nD τ).loc main_arg18) :=
  (V11_of m outs c main_arg18 (by decide)).trans (at10_arg18 m outs c)
theorem at12_arg18 (c : Dev nD) : V12 m outs c main_arg18 = m ((c : Thread nD τ).loc main_arg18) :=
  (V12_of m outs c main_arg18 (by decide)).trans (at11_arg18 m outs c)
theorem at13_arg18 (c : Dev nD) : V13 m outs c main_arg18 = m ((c : Thread nD τ).loc main_arg18) :=
  (V13_of m outs c main_arg18 (by decide)).trans (at12_arg18 m outs c)
theorem at14_arg18 (c : Dev nD) : V14 m outs c main_arg18 = m ((c : Thread nD τ).loc main_arg18) :=
  (V14_of m outs c main_arg18 (by decide)).trans (at13_arg18 m outs c)
theorem at15_arg18 (c : Dev nD) : V15 m outs c main_arg18 = m ((c : Thread nD τ).loc main_arg18) :=
  (V15_of m outs c main_arg18 (by decide)).trans (at14_arg18 m outs c)
theorem at16_arg18 (c : Dev nD) : V16 m outs c main_arg18 = m ((c : Thread nD τ).loc main_arg18) :=
  (V16_of m outs c main_arg18 (by decide)).trans (at15_arg18 m outs c)
theorem at17_arg18 (c : Dev nD) : V17 m outs c main_arg18 = m ((c : Thread nD τ).loc main_arg18) :=
  (V17_of m outs c main_arg18 (by decide)).trans (at16_arg18 m outs c)
theorem at18_arg18 (c : Dev nD) : V18 m outs c main_arg18 = m ((c : Thread nD τ).loc main_arg18) :=
  (V18_of m outs c main_arg18 (by decide)).trans (at17_arg18 m outs c)
theorem at19_arg18 (c : Dev nD) : V19 m outs c main_arg18 = m ((c : Thread nD τ).loc main_arg18) :=
  (V19_of m outs c main_arg18 (by decide)).trans (at18_arg18 m outs c)
theorem at20_arg18 (c : Dev nD) : V20 m outs c main_arg18 = m ((c : Thread nD τ).loc main_arg18) :=
  (V20_of m outs c main_arg18 (by decide)).trans (at19_arg18 m outs c)
theorem at21_arg18 (c : Dev nD) : V21 m outs c main_arg18 = m ((c : Thread nD τ).loc main_arg18) :=
  (V21_of m outs c main_arg18 (by decide)).trans (at20_arg18 m outs c)
theorem at22_arg18 (c : Dev nD) : V22 m outs c main_arg18 = m ((c : Thread nD τ).loc main_arg18) :=
  (V22_of m outs c main_arg18 (by decide)).trans (at21_arg18 m outs c)
theorem at23_arg18 (c : Dev nD) : V23 m outs c main_arg18 = m ((c : Thread nD τ).loc main_arg18) :=
  (V23_of m outs c main_arg18 (by decide)).trans (at22_arg18 m outs c)
theorem at24_arg18 (c : Dev nD) : V24 m outs c main_arg18 = m ((c : Thread nD τ).loc main_arg18) :=
  (V24_of m outs c main_arg18 (by decide)).trans (at23_arg18 m outs c)
theorem at25_arg18 (c : Dev nD) : V25 m outs c main_arg18 = m ((c : Thread nD τ).loc main_arg18) :=
  (V25_of m outs c main_arg18 (by decide)).trans (at24_arg18 m outs c)
theorem at26_arg18 (c : Dev nD) : V26 m outs c main_arg18 = m ((c : Thread nD τ).loc main_arg18) :=
  (V26_of m outs c main_arg18 (by decide)).trans (at25_arg18 m outs c)
/-! `main_arg19` -/
theorem at0_arg19 (c : Dev nD) : V0 m c main_arg19 = m ((c : Thread nD τ).loc main_arg19) := rfl
theorem at1_arg19 (c : Dev nD) : V1 m c main_arg19 = m ((c : Thread nD τ).loc main_arg19) :=
  (V1_of m c main_arg19 (by decide)).trans (at0_arg19 m c)
theorem at2_arg19 (c : Dev nD) : V2 m outs c main_arg19 = m ((c : Thread nD τ).loc main_arg19) :=
  (V2_of m outs c main_arg19 (by decide)).trans (at1_arg19 m c)
theorem at3_arg19 (c : Dev nD) : V3 m outs c main_arg19 = m ((c : Thread nD τ).loc main_arg19) :=
  (V3_of m outs c main_arg19 (by decide)).trans (at2_arg19 m outs c)
theorem at4_arg19 (c : Dev nD) : V4 m outs c main_arg19 = m ((c : Thread nD τ).loc main_arg19) :=
  (V4_of m outs c main_arg19 (by decide)).trans (at3_arg19 m outs c)
theorem at5_arg19 (c : Dev nD) : V5 m outs c main_arg19 = m ((c : Thread nD τ).loc main_arg19) :=
  (V5_of m outs c main_arg19 (by decide)).trans (at4_arg19 m outs c)
theorem at6_arg19 (c : Dev nD) : V6 m outs c main_arg19 = m ((c : Thread nD τ).loc main_arg19) :=
  (V6_of m outs c main_arg19 (by decide)).trans (at5_arg19 m outs c)
theorem at7_arg19 (c : Dev nD) : V7 m outs c main_arg19 = m ((c : Thread nD τ).loc main_arg19) :=
  (V7_of m outs c main_arg19 (by decide)).trans (at6_arg19 m outs c)
theorem at8_arg19 (c : Dev nD) : V8 m outs c main_arg19 = m ((c : Thread nD τ).loc main_arg19) :=
  (V8_of m outs c main_arg19 (by decide)).trans (at7_arg19 m outs c)
theorem at9_arg19 (c : Dev nD) : V9 m outs c main_arg19 = m ((c : Thread nD τ).loc main_arg19) :=
  (V9_of m outs c main_arg19 (by decide)).trans (at8_arg19 m outs c)
theorem at10_arg19 (c : Dev nD) : V10 m outs c main_arg19 = m ((c : Thread nD τ).loc main_arg19) :=
  (V10_of m outs c main_arg19 (by decide)).trans (at9_arg19 m outs c)
theorem at11_arg19 (c : Dev nD) : V11 m outs c main_arg19 = m ((c : Thread nD τ).loc main_arg19) :=
  (V11_of m outs c main_arg19 (by decide)).trans (at10_arg19 m outs c)
theorem at12_arg19 (c : Dev nD) : V12 m outs c main_arg19 = m ((c : Thread nD τ).loc main_arg19) :=
  (V12_of m outs c main_arg19 (by decide)).trans (at11_arg19 m outs c)
theorem at13_arg19 (c : Dev nD) : V13 m outs c main_arg19 = m ((c : Thread nD τ).loc main_arg19) :=
  (V13_of m outs c main_arg19 (by decide)).trans (at12_arg19 m outs c)
theorem at14_arg19 (c : Dev nD) : V14 m outs c main_arg19 = m ((c : Thread nD τ).loc main_arg19) :=
  (V14_of m outs c main_arg19 (by decide)).trans (at13_arg19 m outs c)
theorem at15_arg19 (c : Dev nD) : V15 m outs c main_arg19 = m ((c : Thread nD τ).loc main_arg19) :=
  (V15_of m outs c main_arg19 (by decide)).trans (at14_arg19 m outs c)
theorem at16_arg19 (c : Dev nD) : V16 m outs c main_arg19 = m ((c : Thread nD τ).loc main_arg19) :=
  (V16_of m outs c main_arg19 (by decide)).trans (at15_arg19 m outs c)
theorem at17_arg19 (c : Dev nD) : V17 m outs c main_arg19 = m ((c : Thread nD τ).loc main_arg19) :=
  (V17_of m outs c main_arg19 (by decide)).trans (at16_arg19 m outs c)
theorem at18_arg19 (c : Dev nD) : V18 m outs c main_arg19 = m ((c : Thread nD τ).loc main_arg19) :=
  (V18_of m outs c main_arg19 (by decide)).trans (at17_arg19 m outs c)
theorem at19_arg19 (c : Dev nD) : V19 m outs c main_arg19 = m ((c : Thread nD τ).loc main_arg19) :=
  (V19_of m outs c main_arg19 (by decide)).trans (at18_arg19 m outs c)
theorem at20_arg19 (c : Dev nD) : V20 m outs c main_arg19 = m ((c : Thread nD τ).loc main_arg19) :=
  (V20_of m outs c main_arg19 (by decide)).trans (at19_arg19 m outs c)
theorem at21_arg19 (c : Dev nD) : V21 m outs c main_arg19 = m ((c : Thread nD τ).loc main_arg19) :=
  (V21_of m outs c main_arg19 (by decide)).trans (at20_arg19 m outs c)
theorem at22_arg19 (c : Dev nD) : V22 m outs c main_arg19 = m ((c : Thread nD τ).loc main_arg19) :=
  (V22_of m outs c main_arg19 (by decide)).trans (at21_arg19 m outs c)
theorem at23_arg19 (c : Dev nD) : V23 m outs c main_arg19 = m ((c : Thread nD τ).loc main_arg19) :=
  (V23_of m outs c main_arg19 (by decide)).trans (at22_arg19 m outs c)
theorem at24_arg19 (c : Dev nD) : V24 m outs c main_arg19 = m ((c : Thread nD τ).loc main_arg19) :=
  (V24_of m outs c main_arg19 (by decide)).trans (at23_arg19 m outs c)
theorem at25_arg19 (c : Dev nD) : V25 m outs c main_arg19 = m ((c : Thread nD τ).loc main_arg19) :=
  (V25_of m outs c main_arg19 (by decide)).trans (at24_arg19 m outs c)
theorem at26_arg19 (c : Dev nD) : V26 m outs c main_arg19 = m ((c : Thread nD τ).loc main_arg19) :=
  (V26_of m outs c main_arg19 (by decide)).trans (at25_arg19 m outs c)
/-! `main_v47` -/
theorem at8_v47 (c : Dev nD) : V8 m outs c main_v47 = outs 8 main_v47 c := by
  simp only [V8, Function.update_self]
/-! `main_v67_1` -/
theorem at10_v67_1 (c : Dev nD) : V10 m outs c main_v67_1 = outs 10 main_v67_1 c := by
  simp only [V10, Function.update_of_ne (StableHlo.devRef_ne_of_ne (by decide) : (Proc.devRef .tc main_v67_1 : DevRef τ sig) ≠ Proc.devRef .tc main_v67_2), Function.update_self]
/-! `main_v67_2` -/
theorem at10_v67_2 (c : Dev nD) : V10 m outs c main_v67_2 = outs 10 main_v67_2 c := by
  simp only [V10, Function.update_self]
/-! `main_v67_0` -/
theorem at10_v67_0 (c : Dev nD) : V10 m outs c main_v67_0 = outs 10 main_v67_0 c := by
  simp only [V10, Function.update_of_ne (StableHlo.devRef_ne_of_ne (by decide) : (Proc.devRef .tc main_v67_0 : DevRef τ sig) ≠ Proc.devRef .tc main_v67_1), Function.update_of_ne (StableHlo.devRef_ne_of_ne (by decide) : (Proc.devRef .tc main_v67_0 : DevRef τ sig) ≠ Proc.devRef .tc main_v67_2), Function.update_self]
theorem at11_v67_0 (c : Dev nD) : V11 m outs c main_v67_0 = outs 10 main_v67_0 c :=
  (V11_of m outs c main_v67_0 (by decide)).trans (at10_v67_0 m outs c)
theorem at12_v67_0 (c : Dev nD) : V12 m outs c main_v67_0 = outs 10 main_v67_0 c :=
  (V12_of m outs c main_v67_0 (by decide)).trans (at11_v67_0 m outs c)
theorem at13_v67_0 (c : Dev nD) : V13 m outs c main_v67_0 = outs 10 main_v67_0 c :=
  (V13_of m outs c main_v67_0 (by decide)).trans (at12_v67_0 m outs c)
/-! `main_v92` -/
theorem at12_v92 (c : Dev nD) : V12 m outs c main_v92 = outs 12 main_v92 c := by
  simp only [V12, Function.update_self]
/-! `main_v112_1` -/
theorem at14_v112_1 (c : Dev nD) : V14 m outs c main_v112_1 = outs 14 main_v112_1 c := by
  simp only [V14, Function.update_of_ne (StableHlo.devRef_ne_of_ne (by decide) : (Proc.devRef .tc main_v112_1 : DevRef τ sig) ≠ Proc.devRef .tc main_v112_2), Function.update_self]
/-! `main_v112_2` -/
theorem at14_v112_2 (c : Dev nD) : V14 m outs c main_v112_2 = outs 14 main_v112_2 c := by
  simp only [V14, Function.update_self]
/-! `main_v112_0` -/
theorem at14_v112_0 (c : Dev nD) : V14 m outs c main_v112_0 = outs 14 main_v112_0 c := by
  simp only [V14, Function.update_of_ne (StableHlo.devRef_ne_of_ne (by decide) : (Proc.devRef .tc main_v112_0 : DevRef τ sig) ≠ Proc.devRef .tc main_v112_1), Function.update_of_ne (StableHlo.devRef_ne_of_ne (by decide) : (Proc.devRef .tc main_v112_0 : DevRef τ sig) ≠ Proc.devRef .tc main_v112_2), Function.update_self]
theorem at15_v112_0 (c : Dev nD) : V15 m outs c main_v112_0 = outs 14 main_v112_0 c :=
  (V15_of m outs c main_v112_0 (by decide)).trans (at14_v112_0 m outs c)
theorem at16_v112_0 (c : Dev nD) : V16 m outs c main_v112_0 = outs 14 main_v112_0 c :=
  (V16_of m outs c main_v112_0 (by decide)).trans (at15_v112_0 m outs c)
theorem at17_v112_0 (c : Dev nD) : V17 m outs c main_v112_0 = outs 14 main_v112_0 c :=
  (V17_of m outs c main_v112_0 (by decide)).trans (at16_v112_0 m outs c)
/-! `main_v137` -/
theorem at16_v137 (c : Dev nD) : V16 m outs c main_v137 = outs 16 main_v137 c := by
  simp only [V16, Function.update_self]
/-! `main_v157_1` -/
theorem at18_v157_1 (c : Dev nD) : V18 m outs c main_v157_1 = outs 18 main_v157_1 c := by
  simp only [V18, Function.update_of_ne (StableHlo.devRef_ne_of_ne (by decide) : (Proc.devRef .tc main_v157_1 : DevRef τ sig) ≠ Proc.devRef .tc main_v157_2), Function.update_self]
/-! `main_v157_2` -/
theorem at18_v157_2 (c : Dev nD) : V18 m outs c main_v157_2 = outs 18 main_v157_2 c := by
  simp only [V18, Function.update_self]
/-! `main_v157_0` -/
theorem at18_v157_0 (c : Dev nD) : V18 m outs c main_v157_0 = outs 18 main_v157_0 c := by
  simp only [V18, Function.update_of_ne (StableHlo.devRef_ne_of_ne (by decide) : (Proc.devRef .tc main_v157_0 : DevRef τ sig) ≠ Proc.devRef .tc main_v157_1), Function.update_of_ne (StableHlo.devRef_ne_of_ne (by decide) : (Proc.devRef .tc main_v157_0 : DevRef τ sig) ≠ Proc.devRef .tc main_v157_2), Function.update_self]
theorem at19_v157_0 (c : Dev nD) : V19 m outs c main_v157_0 = outs 18 main_v157_0 c :=
  (V19_of m outs c main_v157_0 (by decide)).trans (at18_v157_0 m outs c)
theorem at20_v157_0 (c : Dev nD) : V20 m outs c main_v157_0 = outs 18 main_v157_0 c :=
  (V20_of m outs c main_v157_0 (by decide)).trans (at19_v157_0 m outs c)
theorem at21_v157_0 (c : Dev nD) : V21 m outs c main_v157_0 = outs 18 main_v157_0 c :=
  (V21_of m outs c main_v157_0 (by decide)).trans (at20_v157_0 m outs c)
/-! `main_v182` -/
theorem at20_v182 (c : Dev nD) : V20 m outs c main_v182 = outs 20 main_v182 c := by
  simp only [V20, Function.update_self]
/-! `main_v202_1` -/
theorem at22_v202_1 (c : Dev nD) : V22 m outs c main_v202_1 = outs 22 main_v202_1 c := by
  simp only [V22, Function.update_of_ne (StableHlo.devRef_ne_of_ne (by decide) : (Proc.devRef .tc main_v202_1 : DevRef τ sig) ≠ Proc.devRef .tc main_v202_2), Function.update_self]
/-! `main_v202_2` -/
theorem at22_v202_2 (c : Dev nD) : V22 m outs c main_v202_2 = outs 22 main_v202_2 c := by
  simp only [V22, Function.update_self]
/-! `main_v202_0` -/
theorem at22_v202_0 (c : Dev nD) : V22 m outs c main_v202_0 = outs 22 main_v202_0 c := by
  simp only [V22, Function.update_of_ne (StableHlo.devRef_ne_of_ne (by decide) : (Proc.devRef .tc main_v202_0 : DevRef τ sig) ≠ Proc.devRef .tc main_v202_1), Function.update_of_ne (StableHlo.devRef_ne_of_ne (by decide) : (Proc.devRef .tc main_v202_0 : DevRef τ sig) ≠ Proc.devRef .tc main_v202_2), Function.update_self]
theorem at23_v202_0 (c : Dev nD) : V23 m outs c main_v202_0 = outs 22 main_v202_0 c :=
  (V23_of m outs c main_v202_0 (by decide)).trans (at22_v202_0 m outs c)
theorem at24_v202_0 (c : Dev nD) : V24 m outs c main_v202_0 = outs 22 main_v202_0 c :=
  (V24_of m outs c main_v202_0 (by decide)).trans (at23_v202_0 m outs c)
theorem at25_v202_0 (c : Dev nD) : V25 m outs c main_v202_0 = outs 22 main_v202_0 c :=
  (V25_of m outs c main_v202_0 (by decide)).trans (at24_v202_0 m outs c)
/-! `main_v227` -/
theorem at24_v227 (c : Dev nD) : V24 m outs c main_v227 = outs 24 main_v227 c := by
  simp only [V24, Function.update_self]
/-! `main_v247_1` -/
theorem at26_v247_1 (c : Dev nD) : V26 m outs c main_v247_1 = outs 26 main_v247_1 c := by
  simp only [V26, Function.update_of_ne (StableHlo.devRef_ne_of_ne (by decide) : (Proc.devRef .tc main_v247_1 : DevRef τ sig) ≠ Proc.devRef .tc main_v247_2), Function.update_self]
/-! `main_v247_2` -/
theorem at26_v247_2 (c : Dev nD) : V26 m outs c main_v247_2 = outs 26 main_v247_2 c := by
  simp only [V26, Function.update_self]
/-! `main_v247_0` -/
theorem at26_v247_0 (c : Dev nD) : V26 m outs c main_v247_0 = outs 26 main_v247_0 c := by
  simp only [V26, Function.update_of_ne (StableHlo.devRef_ne_of_ne (by decide) : (Proc.devRef .tc main_v247_0 : DevRef τ sig) ≠ Proc.devRef .tc main_v247_1), Function.update_of_ne (StableHlo.devRef_ne_of_ne (by decide) : (Proc.devRef .tc main_v247_0 : DevRef τ sig) ≠ Proc.devRef .tc main_v247_2), Function.update_self]
theorem at27_v247_0 (c : Dev nD) : V27 m outs c main_v247_0 = outs 26 main_v247_0 c :=
  (V27_of m outs c main_v247_0 (by decide)).trans (at26_v247_0 m outs c)
theorem at28_v247_0 (c : Dev nD) : V28 m outs c main_v247_0 = outs 26 main_v247_0 c :=
  (V28_of m outs c main_v247_0 (by decide)).trans (at27_v247_0 m outs c)
theorem at29_v247_0 (c : Dev nD) : V29 m outs c main_v247_0 = outs 26 main_v247_0 c :=
  (V29_of m outs c main_v247_0 (by decide)).trans (at28_v247_0 m outs c)
/-! `main_v272` -/
theorem at28_v272 (c : Dev nD) : V28 m outs c main_v272 = outs 28 main_v272 c := by
  simp only [V28, Function.update_self]
/-! `main_v292_0` -/
theorem at30_v292_0 (c : Dev nD) : V30 m outs c main_v292_0 = outs 30 main_v292_0 c := by
  simp only [V30, Function.update_of_ne (StableHlo.devRef_ne_of_ne (by decide) : (Proc.devRef .tc main_v292_0 : DevRef τ sig) ≠ Proc.devRef .tc main_v292_1), Function.update_of_ne (StableHlo.devRef_ne_of_ne (by decide) : (Proc.devRef .tc main_v292_0 : DevRef τ sig) ≠ Proc.devRef .tc main_v292_2), Function.update_self]
theorem at31_v292_0 (c : Dev nD) : V31 m outs c main_v292_0 = outs 30 main_v292_0 c :=
  (V31_of m outs c main_v292_0 (by decide)).trans (at30_v292_0 m outs c)
/-! `main_v10` -/
theorem at2_v10 (c : Dev nD) : V2 m outs c main_v10 = V1 m c main_v10 :=
  V2_of m outs c main_v10 (by decide)
theorem at3_v10 (c : Dev nD) : V3 m outs c main_v10 = V1 m c main_v10 :=
  (V3_of m outs c main_v10 (by decide)).trans (at2_v10 m outs c)
theorem at4_v10 (c : Dev nD) : V4 m outs c main_v10 = V1 m c main_v10 :=
  (V4_of m outs c main_v10 (by decide)).trans (at3_v10 m outs c)
theorem at5_v10 (c : Dev nD) : V5 m outs c main_v10 = V1 m c main_v10 :=
  (V5_of m outs c main_v10 (by decide)).trans (at4_v10 m outs c)
theorem at6_v10 (c : Dev nD) : V6 m outs c main_v10 = V1 m c main_v10 :=
  (V6_of m outs c main_v10 (by decide)).trans (at5_v10 m outs c)
theorem at7_v10 (c : Dev nD) : V7 m outs c main_v10 = V1 m c main_v10 :=
  (V7_of m outs c main_v10 (by decide)).trans (at6_v10 m outs c)
theorem at8_v10 (c : Dev nD) : V8 m outs c main_v10 = V1 m c main_v10 :=
  (V8_of m outs c main_v10 (by decide)).trans (at7_v10 m outs c)
theorem at9_v10 (c : Dev nD) : V9 m outs c main_v10 = V1 m c main_v10 :=
  (V9_of m outs c main_v10 (by decide)).trans (at8_v10 m outs c)
theorem at10_v10 (c : Dev nD) : V10 m outs c main_v10 = V1 m c main_v10 :=
  (V10_of m outs c main_v10 (by decide)).trans (at9_v10 m outs c)
theorem at11_v10 (c : Dev nD) : V11 m outs c main_v10 = V1 m c main_v10 :=
  (V11_of m outs c main_v10 (by decide)).trans (at10_v10 m outs c)
theorem at12_v10 (c : Dev nD) : V12 m outs c main_v10 = V1 m c main_v10 :=
  (V12_of m outs c main_v10 (by decide)).trans (at11_v10 m outs c)
theorem at13_v10 (c : Dev nD) : V13 m outs c main_v10 = V1 m c main_v10 :=
  (V13_of m outs c main_v10 (by decide)).trans (at12_v10 m outs c)
theorem at14_v10 (c : Dev nD) : V14 m outs c main_v10 = V1 m c main_v10 :=
  (V14_of m outs c main_v10 (by decide)).trans (at13_v10 m outs c)
theorem at15_v10 (c : Dev nD) : V15 m outs c main_v10 = V1 m c main_v10 :=
  (V15_of m outs c main_v10 (by decide)).trans (at14_v10 m outs c)
theorem at16_v10 (c : Dev nD) : V16 m outs c main_v10 = V1 m c main_v10 :=
  (V16_of m outs c main_v10 (by decide)).trans (at15_v10 m outs c)
theorem at17_v10 (c : Dev nD) : V17 m outs c main_v10 = V1 m c main_v10 :=
  (V17_of m outs c main_v10 (by decide)).trans (at16_v10 m outs c)
theorem at18_v10 (c : Dev nD) : V18 m outs c main_v10 = V1 m c main_v10 :=
  (V18_of m outs c main_v10 (by decide)).trans (at17_v10 m outs c)
theorem at19_v10 (c : Dev nD) : V19 m outs c main_v10 = V1 m c main_v10 :=
  (V19_of m outs c main_v10 (by decide)).trans (at18_v10 m outs c)
theorem at20_v10 (c : Dev nD) : V20 m outs c main_v10 = V1 m c main_v10 :=
  (V20_of m outs c main_v10 (by decide)).trans (at19_v10 m outs c)
theorem at21_v10 (c : Dev nD) : V21 m outs c main_v10 = V1 m c main_v10 :=
  (V21_of m outs c main_v10 (by decide)).trans (at20_v10 m outs c)
theorem at22_v10 (c : Dev nD) : V22 m outs c main_v10 = V1 m c main_v10 :=
  (V22_of m outs c main_v10 (by decide)).trans (at21_v10 m outs c)
theorem at23_v10 (c : Dev nD) : V23 m outs c main_v10 = V1 m c main_v10 :=
  (V23_of m outs c main_v10 (by decide)).trans (at22_v10 m outs c)
theorem at24_v10 (c : Dev nD) : V24 m outs c main_v10 = V1 m c main_v10 :=
  (V24_of m outs c main_v10 (by decide)).trans (at23_v10 m outs c)
theorem at25_v10 (c : Dev nD) : V25 m outs c main_v10 = V1 m c main_v10 :=
  (V25_of m outs c main_v10 (by decide)).trans (at24_v10 m outs c)
theorem at26_v10 (c : Dev nD) : V26 m outs c main_v10 = V1 m c main_v10 :=
  (V26_of m outs c main_v10 (by decide)).trans (at25_v10 m outs c)
theorem at27_v10 (c : Dev nD) : V27 m outs c main_v10 = V1 m c main_v10 :=
  (V27_of m outs c main_v10 (by decide)).trans (at26_v10 m outs c)
theorem at28_v10 (c : Dev nD) : V28 m outs c main_v10 = V1 m c main_v10 :=
  (V28_of m outs c main_v10 (by decide)).trans (at27_v10 m outs c)
theorem at29_v10 (c : Dev nD) : V29 m outs c main_v10 = V1 m c main_v10 :=
  (V29_of m outs c main_v10 (by decide)).trans (at28_v10 m outs c)
theorem at30_v10 (c : Dev nD) : V30 m outs c main_v10 = V1 m c main_v10 :=
  (V30_of m outs c main_v10 (by decide)).trans (at29_v10 m outs c)
/-! `main_arg3` -/
theorem at0_arg3 (c : Dev nD) : V0 m c main_arg3 = m ((c : Thread nD τ).loc main_arg3) := rfl
theorem at1_arg3 (c : Dev nD) : V1 m c main_arg3 = m ((c : Thread nD τ).loc main_arg3) :=
  (V1_of m c main_arg3 (by decide)).trans (at0_arg3 m c)
theorem at2_arg3 (c : Dev nD) : V2 m outs c main_arg3 = m ((c : Thread nD τ).loc main_arg3) :=
  (V2_of m outs c main_arg3 (by decide)).trans (at1_arg3 m c)
theorem at3_arg3 (c : Dev nD) : V3 m outs c main_arg3 = m ((c : Thread nD τ).loc main_arg3) :=
  (V3_of m outs c main_arg3 (by decide)).trans (at2_arg3 m outs c)
theorem at4_arg3 (c : Dev nD) : V4 m outs c main_arg3 = m ((c : Thread nD τ).loc main_arg3) :=
  (V4_of m outs c main_arg3 (by decide)).trans (at3_arg3 m outs c)
theorem at5_arg3 (c : Dev nD) : V5 m outs c main_arg3 = m ((c : Thread nD τ).loc main_arg3) :=
  (V5_of m outs c main_arg3 (by decide)).trans (at4_arg3 m outs c)
theorem at6_arg3 (c : Dev nD) : V6 m outs c main_arg3 = m ((c : Thread nD τ).loc main_arg3) :=
  (V6_of m outs c main_arg3 (by decide)).trans (at5_arg3 m outs c)
theorem at7_arg3 (c : Dev nD) : V7 m outs c main_arg3 = m ((c : Thread nD τ).loc main_arg3) :=
  (V7_of m outs c main_arg3 (by decide)).trans (at6_arg3 m outs c)
theorem at8_arg3 (c : Dev nD) : V8 m outs c main_arg3 = m ((c : Thread nD τ).loc main_arg3) :=
  (V8_of m outs c main_arg3 (by decide)).trans (at7_arg3 m outs c)
theorem at9_arg3 (c : Dev nD) : V9 m outs c main_arg3 = m ((c : Thread nD τ).loc main_arg3) :=
  (V9_of m outs c main_arg3 (by decide)).trans (at8_arg3 m outs c)
theorem at10_arg3 (c : Dev nD) : V10 m outs c main_arg3 = m ((c : Thread nD τ).loc main_arg3) :=
  (V10_of m outs c main_arg3 (by decide)).trans (at9_arg3 m outs c)
theorem at11_arg3 (c : Dev nD) : V11 m outs c main_arg3 = m ((c : Thread nD τ).loc main_arg3) :=
  (V11_of m outs c main_arg3 (by decide)).trans (at10_arg3 m outs c)
theorem at12_arg3 (c : Dev nD) : V12 m outs c main_arg3 = m ((c : Thread nD τ).loc main_arg3) :=
  (V12_of m outs c main_arg3 (by decide)).trans (at11_arg3 m outs c)
theorem at13_arg3 (c : Dev nD) : V13 m outs c main_arg3 = m ((c : Thread nD τ).loc main_arg3) :=
  (V13_of m outs c main_arg3 (by decide)).trans (at12_arg3 m outs c)
theorem at14_arg3 (c : Dev nD) : V14 m outs c main_arg3 = m ((c : Thread nD τ).loc main_arg3) :=
  (V14_of m outs c main_arg3 (by decide)).trans (at13_arg3 m outs c)
theorem at15_arg3 (c : Dev nD) : V15 m outs c main_arg3 = m ((c : Thread nD τ).loc main_arg3) :=
  (V15_of m outs c main_arg3 (by decide)).trans (at14_arg3 m outs c)
theorem at16_arg3 (c : Dev nD) : V16 m outs c main_arg3 = m ((c : Thread nD τ).loc main_arg3) :=
  (V16_of m outs c main_arg3 (by decide)).trans (at15_arg3 m outs c)
theorem at17_arg3 (c : Dev nD) : V17 m outs c main_arg3 = m ((c : Thread nD τ).loc main_arg3) :=
  (V17_of m outs c main_arg3 (by decide)).trans (at16_arg3 m outs c)
theorem at18_arg3 (c : Dev nD) : V18 m outs c main_arg3 = m ((c : Thread nD τ).loc main_arg3) :=
  (V18_of m outs c main_arg3 (by decide)).trans (at17_arg3 m outs c)
theorem at19_arg3 (c : Dev nD) : V19 m outs c main_arg3 = m ((c : Thread nD τ).loc main_arg3) :=
  (V19_of m outs c main_arg3 (by decide)).trans (at18_arg3 m outs c)
theorem at20_arg3 (c : Dev nD) : V20 m outs c main_arg3 = m ((c : Thread nD τ).loc main_arg3) :=
  (V20_of m outs c main_arg3 (by decide)).trans (at19_arg3 m outs c)
theorem at21_arg3 (c : Dev nD) : V21 m outs c main_arg3 = m ((c : Thread nD τ).loc main_arg3) :=
  (V21_of m outs c main_arg3 (by decide)).trans (at20_arg3 m outs c)
theorem at22_arg3 (c : Dev nD) : V22 m outs c main_arg3 = m ((c : Thread nD τ).loc main_arg3) :=
  (V22_of m outs c main_arg3 (by decide)).trans (at21_arg3 m outs c)
theorem at23_arg3 (c : Dev nD) : V23 m outs c main_arg3 = m ((c : Thread nD τ).loc main_arg3) :=
  (V23_of m outs c main_arg3 (by decide)).trans (at22_arg3 m outs c)
theorem at24_arg3 (c : Dev nD) : V24 m outs c main_arg3 = m ((c : Thread nD τ).loc main_arg3) :=
  (V24_of m outs c main_arg3 (by decide)).trans (at23_arg3 m outs c)
theorem at25_arg3 (c : Dev nD) : V25 m outs c main_arg3 = m ((c : Thread nD τ).loc main_arg3) :=
  (V25_of m outs c main_arg3 (by decide)).trans (at24_arg3 m outs c)
theorem at26_arg3 (c : Dev nD) : V26 m outs c main_arg3 = m ((c : Thread nD τ).loc main_arg3) :=
  (V26_of m outs c main_arg3 (by decide)).trans (at25_arg3 m outs c)
theorem at27_arg3 (c : Dev nD) : V27 m outs c main_arg3 = m ((c : Thread nD τ).loc main_arg3) :=
  (V27_of m outs c main_arg3 (by decide)).trans (at26_arg3 m outs c)
theorem at28_arg3 (c : Dev nD) : V28 m outs c main_arg3 = m ((c : Thread nD τ).loc main_arg3) :=
  (V28_of m outs c main_arg3 (by decide)).trans (at27_arg3 m outs c)
theorem at29_arg3 (c : Dev nD) : V29 m outs c main_arg3 = m ((c : Thread nD τ).loc main_arg3) :=
  (V29_of m outs c main_arg3 (by decide)).trans (at28_arg3 m outs c)
theorem at30_arg3 (c : Dev nD) : V30 m outs c main_arg3 = m ((c : Thread nD τ).loc main_arg3) :=
  (V30_of m outs c main_arg3 (by decide)).trans (at29_arg3 m outs c)
/-! `main_arg4` -/
theorem at0_arg4 (c : Dev nD) : V0 m c main_arg4 = m ((c : Thread nD τ).loc main_arg4) := rfl
theorem at1_arg4 (c : Dev nD) : V1 m c main_arg4 = m ((c : Thread nD τ).loc main_arg4) :=
  (V1_of m c main_arg4 (by decide)).trans (at0_arg4 m c)
theorem at2_arg4 (c : Dev nD) : V2 m outs c main_arg4 = m ((c : Thread nD τ).loc main_arg4) :=
  (V2_of m outs c main_arg4 (by decide)).trans (at1_arg4 m c)
theorem at3_arg4 (c : Dev nD) : V3 m outs c main_arg4 = m ((c : Thread nD τ).loc main_arg4) :=
  (V3_of m outs c main_arg4 (by decide)).trans (at2_arg4 m outs c)
theorem at4_arg4 (c : Dev nD) : V4 m outs c main_arg4 = m ((c : Thread nD τ).loc main_arg4) :=
  (V4_of m outs c main_arg4 (by decide)).trans (at3_arg4 m outs c)
theorem at5_arg4 (c : Dev nD) : V5 m outs c main_arg4 = m ((c : Thread nD τ).loc main_arg4) :=
  (V5_of m outs c main_arg4 (by decide)).trans (at4_arg4 m outs c)
theorem at6_arg4 (c : Dev nD) : V6 m outs c main_arg4 = m ((c : Thread nD τ).loc main_arg4) :=
  (V6_of m outs c main_arg4 (by decide)).trans (at5_arg4 m outs c)
theorem at7_arg4 (c : Dev nD) : V7 m outs c main_arg4 = m ((c : Thread nD τ).loc main_arg4) :=
  (V7_of m outs c main_arg4 (by decide)).trans (at6_arg4 m outs c)
theorem at8_arg4 (c : Dev nD) : V8 m outs c main_arg4 = m ((c : Thread nD τ).loc main_arg4) :=
  (V8_of m outs c main_arg4 (by decide)).trans (at7_arg4 m outs c)
theorem at9_arg4 (c : Dev nD) : V9 m outs c main_arg4 = m ((c : Thread nD τ).loc main_arg4) :=
  (V9_of m outs c main_arg4 (by decide)).trans (at8_arg4 m outs c)
theorem at10_arg4 (c : Dev nD) : V10 m outs c main_arg4 = m ((c : Thread nD τ).loc main_arg4) :=
  (V10_of m outs c main_arg4 (by decide)).trans (at9_arg4 m outs c)
theorem at11_arg4 (c : Dev nD) : V11 m outs c main_arg4 = m ((c : Thread nD τ).loc main_arg4) :=
  (V11_of m outs c main_arg4 (by decide)).trans (at10_arg4 m outs c)
theorem at12_arg4 (c : Dev nD) : V12 m outs c main_arg4 = m ((c : Thread nD τ).loc main_arg4) :=
  (V12_of m outs c main_arg4 (by decide)).trans (at11_arg4 m outs c)
theorem at13_arg4 (c : Dev nD) : V13 m outs c main_arg4 = m ((c : Thread nD τ).loc main_arg4) :=
  (V13_of m outs c main_arg4 (by decide)).trans (at12_arg4 m outs c)
theorem at14_arg4 (c : Dev nD) : V14 m outs c main_arg4 = m ((c : Thread nD τ).loc main_arg4) :=
  (V14_of m outs c main_arg4 (by decide)).trans (at13_arg4 m outs c)
theorem at15_arg4 (c : Dev nD) : V15 m outs c main_arg4 = m ((c : Thread nD τ).loc main_arg4) :=
  (V15_of m outs c main_arg4 (by decide)).trans (at14_arg4 m outs c)
theorem at16_arg4 (c : Dev nD) : V16 m outs c main_arg4 = m ((c : Thread nD τ).loc main_arg4) :=
  (V16_of m outs c main_arg4 (by decide)).trans (at15_arg4 m outs c)
theorem at17_arg4 (c : Dev nD) : V17 m outs c main_arg4 = m ((c : Thread nD τ).loc main_arg4) :=
  (V17_of m outs c main_arg4 (by decide)).trans (at16_arg4 m outs c)
theorem at18_arg4 (c : Dev nD) : V18 m outs c main_arg4 = m ((c : Thread nD τ).loc main_arg4) :=
  (V18_of m outs c main_arg4 (by decide)).trans (at17_arg4 m outs c)
theorem at19_arg4 (c : Dev nD) : V19 m outs c main_arg4 = m ((c : Thread nD τ).loc main_arg4) :=
  (V19_of m outs c main_arg4 (by decide)).trans (at18_arg4 m outs c)
theorem at20_arg4 (c : Dev nD) : V20 m outs c main_arg4 = m ((c : Thread nD τ).loc main_arg4) :=
  (V20_of m outs c main_arg4 (by decide)).trans (at19_arg4 m outs c)
theorem at21_arg4 (c : Dev nD) : V21 m outs c main_arg4 = m ((c : Thread nD τ).loc main_arg4) :=
  (V21_of m outs c main_arg4 (by decide)).trans (at20_arg4 m outs c)
theorem at22_arg4 (c : Dev nD) : V22 m outs c main_arg4 = m ((c : Thread nD τ).loc main_arg4) :=
  (V22_of m outs c main_arg4 (by decide)).trans (at21_arg4 m outs c)
theorem at23_arg4 (c : Dev nD) : V23 m outs c main_arg4 = m ((c : Thread nD τ).loc main_arg4) :=
  (V23_of m outs c main_arg4 (by decide)).trans (at22_arg4 m outs c)
theorem at24_arg4 (c : Dev nD) : V24 m outs c main_arg4 = m ((c : Thread nD τ).loc main_arg4) :=
  (V24_of m outs c main_arg4 (by decide)).trans (at23_arg4 m outs c)
theorem at25_arg4 (c : Dev nD) : V25 m outs c main_arg4 = m ((c : Thread nD τ).loc main_arg4) :=
  (V25_of m outs c main_arg4 (by decide)).trans (at24_arg4 m outs c)
theorem at26_arg4 (c : Dev nD) : V26 m outs c main_arg4 = m ((c : Thread nD τ).loc main_arg4) :=
  (V26_of m outs c main_arg4 (by decide)).trans (at25_arg4 m outs c)
theorem at27_arg4 (c : Dev nD) : V27 m outs c main_arg4 = m ((c : Thread nD τ).loc main_arg4) :=
  (V27_of m outs c main_arg4 (by decide)).trans (at26_arg4 m outs c)
theorem at28_arg4 (c : Dev nD) : V28 m outs c main_arg4 = m ((c : Thread nD τ).loc main_arg4) :=
  (V28_of m outs c main_arg4 (by decide)).trans (at27_arg4 m outs c)
theorem at29_arg4 (c : Dev nD) : V29 m outs c main_arg4 = m ((c : Thread nD τ).loc main_arg4) :=
  (V29_of m outs c main_arg4 (by decide)).trans (at28_arg4 m outs c)
theorem at30_arg4 (c : Dev nD) : V30 m outs c main_arg4 = m ((c : Thread nD τ).loc main_arg4) :=
  (V30_of m outs c main_arg4 (by decide)).trans (at29_arg4 m outs c)

end Cert.KernelIdeal.Hand
-- ==== Proof.KI.ReadsCarryB.lean ====
/- What arguments 20 to 30 hold between @main's items: a buffer no item in between writes keeps what it held
   (the generated `VJ_of`, level by level), so an argument holds its launch contents, a region's result what the region
   left (`outs`), and a value of the first host stretch what that stretch computed (`V1`). `atJ_r` reads `r` at `VJ`. -/
import proofs.«152161_j29669634081217_2_alg».proof.Proof.Gen.KernelIdeal.Regions
import Idealize.ShloMosaic.Lib.StableHlo.Run

-- membership of a reference in a stretch's list of written references is decided past the default depth
set_option maxRecDepth 2864

noncomputable section

namespace Cert.KernelIdeal.Hand

open Idealize.ShloMosaic Idealize.ShloMosaic.TcCoe
open Idealize.SL.Sem
open Idealize.ShloMosaic.StableHlo
open Cert.KernelIdeal.Gen

variable {F : FTy → Type} [FloatOps F]
variable (m : (ℓ : Loc nD τ sig) → Buf (Elt F) ℓ) (outs : Outs (F := F))

/-! `main_arg20` -/
theorem at0_arg20 (c : Dev nD) : V0 m c main_arg20 = m ((c : Thread nD τ).loc main_arg20) := rfl
theorem at1_arg20 (c : Dev nD) : V1 m c main_arg20 = m ((c : Thread nD τ).loc main_arg20) :=
  (V1_of m c main_arg20 (by decide)).trans (at0_arg20 m c)
theorem at2_arg20 (c : Dev nD) : V2 m outs c main_arg20 = m ((c : Thread nD τ).loc main_arg20) :=
  (V2_of m outs c main_arg20 (by decide)).trans (at1_arg20 m c)
theorem at3_arg20 (c : Dev nD) : V3 m outs c main_arg20 = m ((c : Thread nD τ).loc main_arg20) :=
  (V3_of m outs c main_arg20 (by decide)).trans (at2_arg20 m outs c)
theorem at4_arg20 (c : Dev nD) : V4 m outs c main_arg20 = m ((c : Thread nD τ).loc main_arg20) :=
  (V4_of m outs c main_arg20 (by decide)).trans (at3_arg20 m outs c)
theorem at5_arg20 (c : Dev nD) : V5 m outs c main_arg20 = m ((c : Thread nD τ).loc main_arg20) :=
  (V5_of m outs c main_arg20 (by decide)).trans (at4_arg20 m outs c)
theorem at6_arg20 (c : Dev nD) : V6 m outs c main_arg20 = m ((c : Thread nD τ).loc main_arg20) :=
  (V6_of m outs c main_arg20 (by decide)).trans (at5_arg20 m outs c)
theorem at7_arg20 (c : Dev nD) : V7 m outs c main_arg20 = m ((c : Thread nD τ).loc main_arg20) :=
  (V7_of m outs c main_arg20 (by decide)).trans (at6_arg20 m outs c)
theorem at8_arg20 (c : Dev nD) : V8 m outs c main_arg20 = m ((c : Thread nD τ).loc main_arg20) :=
  (V8_of m outs c main_arg20 (by decide)).trans (at7_arg20 m outs c)
theorem at9_arg20 (c : Dev nD) : V9 m outs c main_arg20 = m ((c : Thread nD τ).loc main_arg20) :=
  (V9_of m outs c main_arg20 (by decide)).trans (at8_arg20 m outs c)
theorem at10_arg20 (c : Dev nD) : V10 m outs c main_arg20 = m ((c : Thread nD τ).loc main_arg20) :=
  (V10_of m outs c main_arg20 (by decide)).trans (at9_arg20 m outs c)
theorem at11_arg20 (c : Dev nD) : V11 m outs c main_arg20 = m ((c : Thread nD τ).loc main_arg20) :=
  (V11_of m outs c main_arg20 (by decide)).trans (at10_arg20 m outs c)
theorem at12_arg20 (c : Dev nD) : V12 m outs c main_arg20 = m ((c : Thread nD τ).loc main_arg20) :=
  (V12_of m outs c main_arg20 (by decide)).trans (at11_arg20 m outs c)
theorem at13_arg20 (c : Dev nD) : V13 m outs c main_arg20 = m ((c : Thread nD τ).loc main_arg20) :=
  (V13_of m outs c main_arg20 (by decide)).trans (at12_arg20 m outs c)
theorem at14_arg20 (c : Dev nD) : V14 m outs c main_arg20 = m ((c : Thread nD τ).loc main_arg20) :=
  (V14_of m outs c main_arg20 (by decide)).trans (at13_arg20 m outs c)
theorem at15_arg20 (c : Dev nD) : V15 m outs c main_arg20 = m ((c : Thread nD τ).loc main_arg20) :=
  (V15_of m outs c main_arg20 (by decide)).trans (at14_arg20 m outs c)
theorem at16_arg20 (c : Dev nD) : V16 m outs c main_arg20 = m ((c : Thread nD τ).loc main_arg20) :=
  (V16_of m outs c main_arg20 (by decide)).trans (at15_arg20 m outs c)
theorem at17_arg20 (c : Dev nD) : V17 m outs c main_arg20 = m ((c : Thread nD τ).loc main_arg20) :=
  (V17_of m outs c main_arg20 (by decide)).trans (at16_arg20 m outs c)
theorem at18_arg20 (c : Dev nD) : V18 m outs c main_arg20 = m ((c : Thread nD τ).loc main_arg20) :=
  (V18_of m outs c main_arg20 (by decide)).trans (at17_arg20 m outs c)
theorem at19_arg20 (c : Dev nD) : V19 m outs c main_arg20 = m ((c : Thread nD τ).loc main_arg20) :=
  (V19_of m outs c main_arg20 (by decide)).trans (at18_arg20 m outs c)
theorem at20_arg20 (c : Dev nD) : V20 m outs c main_arg20 = m ((c : Thread nD τ).loc main_arg20) :=
  (V20_of m outs c main_arg20 (by decide)).trans (at19_arg20 m outs c)
theorem at21_arg20 (c : Dev nD) : V21 m outs c main_arg20 = m ((c : Thread nD τ).loc main_arg20) :=
  (V21_of m outs c main_arg20 (by decide)).trans (at20_arg20 m outs c)
theorem at22_arg20 (c : Dev nD) : V22 m outs c main_arg20 = m ((c : Thread nD τ).loc main_arg20) :=
  (V22_of m outs c main_arg20 (by decide)).trans (at21_arg20 m outs c)
theorem at23_arg20 (c : Dev nD) : V23 m outs c main_arg20 = m ((c : Thread nD τ).loc main_arg20) :=
  (V23_of m outs c main_arg20 (by decide)).trans (at22_arg20 m outs c)
theorem at24_arg20 (c : Dev nD) : V24 m outs c main_arg20 = m ((c : Thread nD τ).loc main_arg20) :=
  (V24_of m outs c main_arg20 (by decide)).trans (at23_arg20 m outs c)
theorem at25_arg20 (c : Dev nD) : V25 m outs c main_arg20 = m ((c : Thread nD τ).loc main_arg20) :=
  (V25_of m outs c main_arg20 (by decide)).trans (at24_arg20 m outs c)
theorem at26_arg20 (c : Dev nD) : V26 m outs c main_arg20 = m ((c : Thread nD τ).loc main_arg20) :=
  (V26_of m outs c main_arg20 (by decide)).trans (at25_arg20 m outs c)
theorem at27_arg20 (c : Dev nD) : V27 m outs c main_arg20 = m ((c : Thread nD τ).loc main_arg20) :=
  (V27_of m outs c main_arg20 (by decide)).trans (at26_arg20 m outs c)
theorem at28_arg20 (c : Dev nD) : V28 m outs c main_arg20 = m ((c : Thread nD τ).loc main_arg20) :=
  (V28_of m outs c main_arg20 (by decide)).trans (at27_arg20 m outs c)
/-! `main_arg21` -/
theorem at0_arg21 (c : Dev nD) : V0 m c main_arg21 = m ((c : Thread nD τ).loc main_arg21) := rfl
theorem at1_arg21 (c : Dev nD) : V1 m c main_arg21 = m ((c : Thread nD τ).loc main_arg21) :=
  (V1_of m c main_arg21 (by decide)).trans (at0_arg21 m c)
theorem at2_arg21 (c : Dev nD) : V2 m outs c main_arg21 = m ((c : Thread nD τ).loc main_arg21) :=
  (V2_of m outs c main_arg21 (by decide)).trans (at1_arg21 m c)
theorem at3_arg21 (c : Dev nD) : V3 m outs c main_arg21 = m ((c : Thread nD τ).loc main_arg21) :=
  (V3_of m outs c main_arg21 (by decide)).trans (at2_arg21 m outs c)
theorem at4_arg21 (c : Dev nD) : V4 m outs c main_arg21 = m ((c : Thread nD τ).loc main_arg21) :=
  (V4_of m outs c main_arg21 (by decide)).trans (at3_arg21 m outs c)
theorem at5_arg21 (c : Dev nD) : V5 m outs c main_arg21 = m ((c : Thread nD τ).loc main_arg21) :=
  (V5_of m outs c main_arg21 (by decide)).trans (at4_arg21 m outs c)
theorem at6_arg21 (c : Dev nD) : V6 m outs c main_arg21 = m ((c : Thread nD τ).loc main_arg21) :=
  (V6_of m outs c main_arg21 (by decide)).trans (at5_arg21 m outs c)
theorem at7_arg21 (c : Dev nD) : V7 m outs c main_arg21 = m ((c : Thread nD τ).loc main_arg21) :=
  (V7_of m outs c main_arg21 (by decide)).trans (at6_arg21 m outs c)
theorem at8_arg21 (c : Dev nD) : V8 m outs c main_arg21 = m ((c : Thread nD τ).loc main_arg21) :=
  (V8_of m outs c main_arg21 (by decide)).trans (at7_arg21 m outs c)
theorem at9_arg21 (c : Dev nD) : V9 m outs c main_arg21 = m ((c : Thread nD τ).loc main_arg21) :=
  (V9_of m outs c main_arg21 (by decide)).trans (at8_arg21 m outs c)
theorem at10_arg21 (c : Dev nD) : V10 m outs c main_arg21 = m ((c : Thread nD τ).loc main_arg21) :=
  (V10_of m outs c main_arg21 (by decide)).trans (at9_arg21 m outs c)
theorem at11_arg21 (c : Dev nD) : V11 m outs c main_arg21 = m ((c : Thread nD τ).loc main_arg21) :=
  (V11_of m outs c main_arg21 (by decide)).trans (at10_arg21 m outs c)
theorem at12_arg21 (c : Dev nD) : V12 m outs c main_arg21 = m ((c : Thread nD τ).loc main_arg21) :=
  (V12_of m outs c main_arg21 (by decide)).trans (at11_arg21 m outs c)
theorem at13_arg21 (c : Dev nD) : V13 m outs c main_arg21 = m ((c : Thread nD τ).loc main_arg21) :=
  (V13_of m outs c main_arg21 (by decide)).trans (at12_arg21 m outs c)
theorem at14_arg21 (c : Dev nD) : V14 m outs c main_arg21 = m ((c : Thread nD τ).loc main_arg21) :=
  (V14_of m outs c main_arg21 (by decide)).trans (at13_arg21 m outs c)
theorem at15_arg21 (c : Dev nD) : V15 m outs c main_arg21 = m ((c : Thread nD τ).loc main_arg21) :=
  (V15_of m outs c main_arg21 (by decide)).trans (at14_arg21 m outs c)
theorem at16_arg21 (c : Dev nD) : V16 m outs c main_arg21 = m ((c : Thread nD τ).loc main_arg21) :=
  (V16_of m outs c main_arg21 (by decide)).trans (at15_arg21 m outs c)
theorem at17_arg21 (c : Dev nD) : V17 m outs c main_arg21 = m ((c : Thread nD τ).loc main_arg21) :=
  (V17_of m outs c main_arg21 (by decide)).trans (at16_arg21 m outs c)
theorem at18_arg21 (c : Dev nD) : V18 m outs c main_arg21 = m ((c : Thread nD τ).loc main_arg21) :=
  (V18_of m outs c main_arg21 (by decide)).trans (at17_arg21 m outs c)
theorem at19_arg21 (c : Dev nD) : V19 m outs c main_arg21 = m ((c : Thread nD τ).loc main_arg21) :=
  (V19_of m outs c main_arg21 (by decide)).trans (at18_arg21 m outs c)
theorem at20_arg21 (c : Dev nD) : V20 m outs c main_arg21 = m ((c : Thread nD τ).loc main_arg21) :=
  (V20_of m outs c main_arg21 (by decide)).trans (at19_arg21 m outs c)
theorem at21_arg21 (c : Dev nD) : V21 m outs c main_arg21 = m ((c : Thread nD τ).loc main_arg21) :=
  (V21_of m outs c main_arg21 (by decide)).trans (at20_arg21 m outs c)
theorem at22_arg21 (c : Dev nD) : V22 m outs c main_arg21 = m ((c : Thread nD τ).loc main_arg21) :=
  (V22_of m outs c main_arg21 (by decide)).trans (at21_arg21 m outs c)
theorem at23_arg21 (c : Dev nD) : V23 m outs c main_arg21 = m ((c : Thread nD τ).loc main_arg21) :=
  (V23_of m outs c main_arg21 (by decide)).trans (at22_arg21 m outs c)
theorem at24_arg21 (c : Dev nD) : V24 m outs c main_arg21 = m ((c : Thread nD τ).loc main_arg21) :=
  (V24_of m outs c main_arg21 (by decide)).trans (at23_arg21 m outs c)
theorem at25_arg21 (c : Dev nD) : V25 m outs c main_arg21 = m ((c : Thread nD τ).loc main_arg21) :=
  (V25_of m outs c main_arg21 (by decide)).trans (at24_arg21 m outs c)
theorem at26_arg21 (c : Dev nD) : V26 m outs c main_arg21 = m ((c : Thread nD τ).loc main_arg21) :=
  (V26_of m outs c main_arg21 (by decide)).trans (at25_arg21 m outs c)
theorem at27_arg21 (c : Dev nD) : V27 m outs c main_arg21 = m ((c : Thread nD τ).loc main_arg21) :=
  (V27_of m outs c main_arg21 (by decide)).trans (at26_arg21 m outs c)
theorem at28_arg21 (c : Dev nD) : V28 m outs c main_arg21 = m ((c : Thread nD τ).loc main_arg21) :=
  (V28_of m outs c main_arg21 (by decide)).trans (at27_arg21 m outs c)
/-! `main_arg22` -/
theorem at0_arg22 (c : Dev nD) : V0 m c main_arg22 = m ((c : Thread nD τ).loc main_arg22) := rfl
theorem at1_arg22 (c : Dev nD) : V1 m c main_arg22 = m ((c : Thread nD τ).loc main_arg22) :=
  (V1_of m c main_arg22 (by decide)).trans (at0_arg22 m c)
theorem at2_arg22 (c : Dev nD) : V2 m outs c main_arg22 = m ((c : Thread nD τ).loc main_arg22) :=
  (V2_of m outs c main_arg22 (by decide)).trans (at1_arg22 m c)
theorem at3_arg22 (c : Dev nD) : V3 m outs c main_arg22 = m ((c : Thread nD τ).loc main_arg22) :=
  (V3_of m outs c main_arg22 (by decide)).trans (at2_arg22 m outs c)
theorem at4_arg22 (c : Dev nD) : V4 m outs c main_arg22 = m ((c : Thread nD τ).loc main_arg22) :=
  (V4_of m outs c main_arg22 (by decide)).trans (at3_arg22 m outs c)
theorem at5_arg22 (c : Dev nD) : V5 m outs c main_arg22 = m ((c : Thread nD τ).loc main_arg22) :=
  (V5_of m outs c main_arg22 (by decide)).trans (at4_arg22 m outs c)
theorem at6_arg22 (c : Dev nD) : V6 m outs c main_arg22 = m ((c : Thread nD τ).loc main_arg22) :=
  (V6_of m outs c main_arg22 (by decide)).trans (at5_arg22 m outs c)
theorem at7_arg22 (c : Dev nD) : V7 m outs c main_arg22 = m ((c : Thread nD τ).loc main_arg22) :=
  (V7_of m outs c main_arg22 (by decide)).trans (at6_arg22 m outs c)
theorem at8_arg22 (c : Dev nD) : V8 m outs c main_arg22 = m ((c : Thread nD τ).loc main_arg22) :=
  (V8_of m outs c main_arg22 (by decide)).trans (at7_arg22 m outs c)
theorem at9_arg22 (c : Dev nD) : V9 m outs c main_arg22 = m ((c : Thread nD τ).loc main_arg22) :=
  (V9_of m outs c main_arg22 (by decide)).trans (at8_arg22 m outs c)
theorem at10_arg22 (c : Dev nD) : V10 m outs c main_arg22 = m ((c : Thread nD τ).loc main_arg22) :=
  (V10_of m outs c main_arg22 (by decide)).trans (at9_arg22 m outs c)
theorem at11_arg22 (c : Dev nD) : V11 m outs c main_arg22 = m ((c : Thread nD τ).loc main_arg22) :=
  (V11_of m outs c main_arg22 (by decide)).trans (at10_arg22 m outs c)
theorem at12_arg22 (c : Dev nD) : V12 m outs c main_arg22 = m ((c : Thread nD τ).loc main_arg22) :=
  (V12_of m outs c main_arg22 (by decide)).trans (at11_arg22 m outs c)
theorem at13_arg22 (c : Dev nD) : V13 m outs c main_arg22 = m ((c : Thread nD τ).loc main_arg22) :=
  (V13_of m outs c main_arg22 (by decide)).trans (at12_arg22 m outs c)
theorem at14_arg22 (c : Dev nD) : V14 m outs c main_arg22 = m ((c : Thread nD τ).loc main_arg22) :=
  (V14_of m outs c main_arg22 (by decide)).trans (at13_arg22 m outs c)
theorem at15_arg22 (c : Dev nD) : V15 m outs c main_arg22 = m ((c : Thread nD τ).loc main_arg22) :=
  (V15_of m outs c main_arg22 (by decide)).trans (at14_arg22 m outs c)
theorem at16_arg22 (c : Dev nD) : V16 m outs c main_arg22 = m ((c : Thread nD τ).loc main_arg22) :=
  (V16_of m outs c main_arg22 (by decide)).trans (at15_arg22 m outs c)
theorem at17_arg22 (c : Dev nD) : V17 m outs c main_arg22 = m ((c : Thread nD τ).loc main_arg22) :=
  (V17_of m outs c main_arg22 (by decide)).trans (at16_arg22 m outs c)
theorem at18_arg22 (c : Dev nD) : V18 m outs c main_arg22 = m ((c : Thread nD τ).loc main_arg22) :=
  (V18_of m outs c main_arg22 (by decide)).trans (at17_arg22 m outs c)
theorem at19_arg22 (c : Dev nD) : V19 m outs c main_arg22 = m ((c : Thread nD τ).loc main_arg22) :=
  (V19_of m outs c main_arg22 (by decide)).trans (at18_arg22 m outs c)
theorem at20_arg22 (c : Dev nD) : V20 m outs c main_arg22 = m ((c : Thread nD τ).loc main_arg22) :=
  (V20_of m outs c main_arg22 (by decide)).trans (at19_arg22 m outs c)
theorem at21_arg22 (c : Dev nD) : V21 m outs c main_arg22 = m ((c : Thread nD τ).loc main_arg22) :=
  (V21_of m outs c main_arg22 (by decide)).trans (at20_arg22 m outs c)
theorem at22_arg22 (c : Dev nD) : V22 m outs c main_arg22 = m ((c : Thread nD τ).loc main_arg22) :=
  (V22_of m outs c main_arg22 (by decide)).trans (at21_arg22 m outs c)
theorem at23_arg22 (c : Dev nD) : V23 m outs c main_arg22 = m ((c : Thread nD τ).loc main_arg22) :=
  (V23_of m outs c main_arg22 (by decide)).trans (at22_arg22 m outs c)
theorem at24_arg22 (c : Dev nD) : V24 m outs c main_arg22 = m ((c : Thread nD τ).loc main_arg22) :=
  (V24_of m outs c main_arg22 (by decide)).trans (at23_arg22 m outs c)
theorem at25_arg22 (c : Dev nD) : V25 m outs c main_arg22 = m ((c : Thread nD τ).loc main_arg22) :=
  (V25_of m outs c main_arg22 (by decide)).trans (at24_arg22 m outs c)
theorem at26_arg22 (c : Dev nD) : V26 m outs c main_arg22 = m ((c : Thread nD τ).loc main_arg22) :=
  (V26_of m outs c main_arg22 (by decide)).trans (at25_arg22 m outs c)
theorem at27_arg22 (c : Dev nD) : V27 m outs c main_arg22 = m ((c : Thread nD τ).loc main_arg22) :=
  (V27_of m outs c main_arg22 (by decide)).trans (at26_arg22 m outs c)
theorem at28_arg22 (c : Dev nD) : V28 m outs c main_arg22 = m ((c : Thread nD τ).loc main_arg22) :=
  (V28_of m outs c main_arg22 (by decide)).trans (at27_arg22 m outs c)
/-! `main_arg23` -/
theorem at0_arg23 (c : Dev nD) : V0 m c main_arg23 = m ((c : Thread nD τ).loc main_arg23) := rfl
theorem at1_arg23 (c : Dev nD) : V1 m c main_arg23 = m ((c : Thread nD τ).loc main_arg23) :=
  (V1_of m c main_arg23 (by decide)).trans (at0_arg23 m c)
theorem at2_arg23 (c : Dev nD) : V2 m outs c main_arg23 = m ((c : Thread nD τ).loc main_arg23) :=
  (V2_of m outs c main_arg23 (by decide)).trans (at1_arg23 m c)
theorem at3_arg23 (c : Dev nD) : V3 m outs c main_arg23 = m ((c : Thread nD τ).loc main_arg23) :=
  (V3_of m outs c main_arg23 (by decide)).trans (at2_arg23 m outs c)
theorem at4_arg23 (c : Dev nD) : V4 m outs c main_arg23 = m ((c : Thread nD τ).loc main_arg23) :=
  (V4_of m outs c main_arg23 (by decide)).trans (at3_arg23 m outs c)
theorem at5_arg23 (c : Dev nD) : V5 m outs c main_arg23 = m ((c : Thread nD τ).loc main_arg23) :=
  (V5_of m outs c main_arg23 (by decide)).trans (at4_arg23 m outs c)
theorem at6_arg23 (c : Dev nD) : V6 m outs c main_arg23 = m ((c : Thread nD τ).loc main_arg23) :=
  (V6_of m outs c main_arg23 (by decide)).trans (at5_arg23 m outs c)
theorem at7_arg23 (c : Dev nD) : V7 m outs c main_arg23 = m ((c : Thread nD τ).loc main_arg23) :=
  (V7_of m outs c main_arg23 (by decide)).trans (at6_arg23 m outs c)
theorem at8_arg23 (c : Dev nD) : V8 m outs c main_arg23 = m ((c : Thread nD τ).loc main_arg23) :=
  (V8_of m outs c main_arg23 (by decide)).trans (at7_arg23 m outs c)
theorem at9_arg23 (c : Dev nD) : V9 m outs c main_arg23 = m ((c : Thread nD τ).loc main_arg23) :=
  (V9_of m outs c main_arg23 (by decide)).trans (at8_arg23 m outs c)
theorem at10_arg23 (c : Dev nD) : V10 m outs c main_arg23 = m ((c : Thread nD τ).loc main_arg23) :=
  (V10_of m outs c main_arg23 (by decide)).trans (at9_arg23 m outs c)
theorem at11_arg23 (c : Dev nD) : V11 m outs c main_arg23 = m ((c : Thread nD τ).loc main_arg23) :=
  (V11_of m outs c main_arg23 (by decide)).trans (at10_arg23 m outs c)
theorem at12_arg23 (c : Dev nD) : V12 m outs c main_arg23 = m ((c : Thread nD τ).loc main_arg23) :=
  (V12_of m outs c main_arg23 (by decide)).trans (at11_arg23 m outs c)
theorem at13_arg23 (c : Dev nD) : V13 m outs c main_arg23 = m ((c : Thread nD τ).loc main_arg23) :=
  (V13_of m outs c main_arg23 (by decide)).trans (at12_arg23 m outs c)
theorem at14_arg23 (c : Dev nD) : V14 m outs c main_arg23 = m ((c : Thread nD τ).loc main_arg23) :=
  (V14_of m outs c main_arg23 (by decide)).trans (at13_arg23 m outs c)
theorem at15_arg23 (c : Dev nD) : V15 m outs c main_arg23 = m ((c : Thread nD τ).loc main_arg23) :=
  (V15_of m outs c main_arg23 (by decide)).trans (at14_arg23 m outs c)
theorem at16_arg23 (c : Dev nD) : V16 m outs c main_arg23 = m ((c : Thread nD τ).loc main_arg23) :=
  (V16_of m outs c main_arg23 (by decide)).trans (at15_arg23 m outs c)
theorem at17_arg23 (c : Dev nD) : V17 m outs c main_arg23 = m ((c : Thread nD τ).loc main_arg23) :=
  (V17_of m outs c main_arg23 (by decide)).trans (at16_arg23 m outs c)
theorem at18_arg23 (c : Dev nD) : V18 m outs c main_arg23 = m ((c : Thread nD τ).loc main_arg23) :=
  (V18_of m outs c main_arg23 (by decide)).trans (at17_arg23 m outs c)
theorem at19_arg23 (c : Dev nD) : V19 m outs c main_arg23 = m ((c : Thread nD τ).loc main_arg23) :=
  (V19_of m outs c main_arg23 (by decide)).trans (at18_arg23 m outs c)
theorem at20_arg23 (c : Dev nD) : V20 m outs c main_arg23 = m ((c : Thread nD τ).loc main_arg23) :=
  (V20_of m outs c main_arg23 (by decide)).trans (at19_arg23 m outs c)
theorem at21_arg23 (c : Dev nD) : V21 m outs c main_arg23 = m ((c : Thread nD τ).loc main_arg23) :=
  (V21_of m outs c main_arg23 (by decide)).trans (at20_arg23 m outs c)
theorem at22_arg23 (c : Dev nD) : V22 m outs c main_arg23 = m ((c : Thread nD τ).loc main_arg23) :=
  (V22_of m outs c main_arg23 (by decide)).trans (at21_arg23 m outs c)
theorem at23_arg23 (c : Dev nD) : V23 m outs c main_arg23 = m ((c : Thread nD τ).loc main_arg23) :=
  (V23_of m outs c main_arg23 (by decide)).trans (at22_arg23 m outs c)
theorem at24_arg23 (c : Dev nD) : V24 m outs c main_arg23 = m ((c : Thread nD τ).loc main_arg23) :=
  (V24_of m outs c main_arg23 (by decide)).trans (at23_arg23 m outs c)
theorem at25_arg23 (c : Dev nD) : V25 m outs c main_arg23 = m ((c : Thread nD τ).loc main_arg23) :=
  (V25_of m outs c main_arg23 (by decide)).trans (at24_arg23 m outs c)
theorem at26_arg23 (c : Dev nD) : V26 m outs c main_arg23 = m ((c : Thread nD τ).loc main_arg23) :=
  (V26_of m outs c main_arg23 (by decide)).trans (at25_arg23 m outs c)
theorem at27_arg23 (c : Dev nD) : V27 m outs c main_arg23 = m ((c : Thread nD τ).loc main_arg23) :=
  (V27_of m outs c main_arg23 (by decide)).trans (at26_arg23 m outs c)
theorem at28_arg23 (c : Dev nD) : V28 m outs c main_arg23 = m ((c : Thread nD τ).loc main_arg23) :=
  (V28_of m outs c main_arg23 (by decide)).trans (at27_arg23 m outs c)
/-! `main_arg24` -/
theorem at0_arg24 (c : Dev nD) : V0 m c main_arg24 = m ((c : Thread nD τ).loc main_arg24) := rfl
theorem at1_arg24 (c : Dev nD) : V1 m c main_arg24 = m ((c : Thread nD τ).loc main_arg24) :=
  (V1_of m c main_arg24 (by decide)).trans (at0_arg24 m c)
theorem at2_arg24 (c : Dev nD) : V2 m outs c main_arg24 = m ((c : Thread nD τ).loc main_arg24) :=
  (V2_of m outs c main_arg24 (by decide)).trans (at1_arg24 m c)
theorem at3_arg24 (c : Dev nD) : V3 m outs c main_arg24 = m ((c : Thread nD τ).loc main_arg24) :=
  (V3_of m outs c main_arg24 (by decide)).trans (at2_arg24 m outs c)
theorem at4_arg24 (c : Dev nD) : V4 m outs c main_arg24 = m ((c : Thread nD τ).loc main_arg24) :=
  (V4_of m outs c main_arg24 (by decide)).trans (at3_arg24 m outs c)
theorem at5_arg24 (c : Dev nD) : V5 m outs c main_arg24 = m ((c : Thread nD τ).loc main_arg24) :=
  (V5_of m outs c main_arg24 (by decide)).trans (at4_arg24 m outs c)
theorem at6_arg24 (c : Dev nD) : V6 m outs c main_arg24 = m ((c : Thread nD τ).loc main_arg24) :=
  (V6_of m outs c main_arg24 (by decide)).trans (at5_arg24 m outs c)
theorem at7_arg24 (c : Dev nD) : V7 m outs c main_arg24 = m ((c : Thread nD τ).loc main_arg24) :=
  (V7_of m outs c main_arg24 (by decide)).trans (at6_arg24 m outs c)
theorem at8_arg24 (c : Dev nD) : V8 m outs c main_arg24 = m ((c : Thread nD τ).loc main_arg24) :=
  (V8_of m outs c main_arg24 (by decide)).trans (at7_arg24 m outs c)
theorem at9_arg24 (c : Dev nD) : V9 m outs c main_arg24 = m ((c : Thread nD τ).loc main_arg24) :=
  (V9_of m outs c main_arg24 (by decide)).trans (at8_arg24 m outs c)
theorem at10_arg24 (c : Dev nD) : V10 m outs c main_arg24 = m ((c : Thread nD τ).loc main_arg24) :=
  (V10_of m outs c main_arg24 (by decide)).trans (at9_arg24 m outs c)
theorem at11_arg24 (c : Dev nD) : V11 m outs c main_arg24 = m ((c : Thread nD τ).loc main_arg24) :=
  (V11_of m outs c main_arg24 (by decide)).trans (at10_arg24 m outs c)
theorem at12_arg24 (c : Dev nD) : V12 m outs c main_arg24 = m ((c : Thread nD τ).loc main_arg24) :=
  (V12_of m outs c main_arg24 (by decide)).trans (at11_arg24 m outs c)
theorem at13_arg24 (c : Dev nD) : V13 m outs c main_arg24 = m ((c : Thread nD τ).loc main_arg24) :=
  (V13_of m outs c main_arg24 (by decide)).trans (at12_arg24 m outs c)
theorem at14_arg24 (c : Dev nD) : V14 m outs c main_arg24 = m ((c : Thread nD τ).loc main_arg24) :=
  (V14_of m outs c main_arg24 (by decide)).trans (at13_arg24 m outs c)
theorem at15_arg24 (c : Dev nD) : V15 m outs c main_arg24 = m ((c : Thread nD τ).loc main_arg24) :=
  (V15_of m outs c main_arg24 (by decide)).trans (at14_arg24 m outs c)
theorem at16_arg24 (c : Dev nD) : V16 m outs c main_arg24 = m ((c : Thread nD τ).loc main_arg24) :=
  (V16_of m outs c main_arg24 (by decide)).trans (at15_arg24 m outs c)
theorem at17_arg24 (c : Dev nD) : V17 m outs c main_arg24 = m ((c : Thread nD τ).loc main_arg24) :=
  (V17_of m outs c main_arg24 (by decide)).trans (at16_arg24 m outs c)
theorem at18_arg24 (c : Dev nD) : V18 m outs c main_arg24 = m ((c : Thread nD τ).loc main_arg24) :=
  (V18_of m outs c main_arg24 (by decide)).trans (at17_arg24 m outs c)
theorem at19_arg24 (c : Dev nD) : V19 m outs c main_arg24 = m ((c : Thread nD τ).loc main_arg24) :=
  (V19_of m outs c main_arg24 (by decide)).trans (at18_arg24 m outs c)
theorem at20_arg24 (c : Dev nD) : V20 m outs c main_arg24 = m ((c : Thread nD τ).loc main_arg24) :=
  (V20_of m outs c main_arg24 (by decide)).trans (at19_arg24 m outs c)
theorem at21_arg24 (c : Dev nD) : V21 m outs c main_arg24 = m ((c : Thread nD τ).loc main_arg24) :=
  (V21_of m outs c main_arg24 (by decide)).trans (at20_arg24 m outs c)
theorem at22_arg24 (c : Dev nD) : V22 m outs c main_arg24 = m ((c : Thread nD τ).loc main_arg24) :=
  (V22_of m outs c main_arg24 (by decide)).trans (at21_arg24 m outs c)
theorem at23_arg24 (c : Dev nD) : V23 m outs c main_arg24 = m ((c : Thread nD τ).loc main_arg24) :=
  (V23_of m outs c main_arg24 (by decide)).trans (at22_arg24 m outs c)
theorem at24_arg24 (c : Dev nD) : V24 m outs c main_arg24 = m ((c : Thread nD τ).loc main_arg24) :=
  (V24_of m outs c main_arg24 (by decide)).trans (at23_arg24 m outs c)
theorem at25_arg24 (c : Dev nD) : V25 m outs c main_arg24 = m ((c : Thread nD τ).loc main_arg24) :=
  (V25_of m outs c main_arg24 (by decide)).trans (at24_arg24 m outs c)
theorem at26_arg24 (c : Dev nD) : V26 m outs c main_arg24 = m ((c : Thread nD τ).loc main_arg24) :=
  (V26_of m outs c main_arg24 (by decide)).trans (at25_arg24 m outs c)
theorem at27_arg24 (c : Dev nD) : V27 m outs c main_arg24 = m ((c : Thread nD τ).loc main_arg24) :=
  (V27_of m outs c main_arg24 (by decide)).trans (at26_arg24 m outs c)
theorem at28_arg24 (c : Dev nD) : V28 m outs c main_arg24 = m ((c : Thread nD τ).loc main_arg24) :=
  (V28_of m outs c main_arg24 (by decide)).trans (at27_arg24 m outs c)
/-! `main_arg25` -/
theorem at0_arg25 (c : Dev nD) : V0 m c main_arg25 = m ((c : Thread nD τ).loc main_arg25) := rfl
theorem at1_arg25 (c : Dev nD) : V1 m c main_arg25 = m ((c : Thread nD τ).loc main_arg25) :=
  (V1_of m c main_arg25 (by decide)).trans (at0_arg25 m c)
theorem at2_arg25 (c : Dev nD) : V2 m outs c main_arg25 = m ((c : Thread nD τ).loc main_arg25) :=
  (V2_of m outs c main_arg25 (by decide)).trans (at1_arg25 m c)
theorem at3_arg25 (c : Dev nD) : V3 m outs c main_arg25 = m ((c : Thread nD τ).loc main_arg25) :=
  (V3_of m outs c main_arg25 (by decide)).trans (at2_arg25 m outs c)
theorem at4_arg25 (c : Dev nD) : V4 m outs c main_arg25 = m ((c : Thread nD τ).loc main_arg25) :=
  (V4_of m outs c main_arg25 (by decide)).trans (at3_arg25 m outs c)
theorem at5_arg25 (c : Dev nD) : V5 m outs c main_arg25 = m ((c : Thread nD τ).loc main_arg25) :=
  (V5_of m outs c main_arg25 (by decide)).trans (at4_arg25 m outs c)
theorem at6_arg25 (c : Dev nD) : V6 m outs c main_arg25 = m ((c : Thread nD τ).loc main_arg25) :=
  (V6_of m outs c main_arg25 (by decide)).trans (at5_arg25 m outs c)
theorem at7_arg25 (c : Dev nD) : V7 m outs c main_arg25 = m ((c : Thread nD τ).loc main_arg25) :=
  (V7_of m outs c main_arg25 (by decide)).trans (at6_arg25 m outs c)
theorem at8_arg25 (c : Dev nD) : V8 m outs c main_arg25 = m ((c : Thread nD τ).loc main_arg25) :=
  (V8_of m outs c main_arg25 (by decide)).trans (at7_arg25 m outs c)
theorem at9_arg25 (c : Dev nD) : V9 m outs c main_arg25 = m ((c : Thread nD τ).loc main_arg25) :=
  (V9_of m outs c main_arg25 (by decide)).trans (at8_arg25 m outs c)
theorem at10_arg25 (c : Dev nD) : V10 m outs c main_arg25 = m ((c : Thread nD τ).loc main_arg25) :=
  (V10_of m outs c main_arg25 (by decide)).trans (at9_arg25 m outs c)
theorem at11_arg25 (c : Dev nD) : V11 m outs c main_arg25 = m ((c : Thread nD τ).loc main_arg25) :=
  (V11_of m outs c main_arg25 (by decide)).trans (at10_arg25 m outs c)
theorem at12_arg25 (c : Dev nD) : V12 m outs c main_arg25 = m ((c : Thread nD τ).loc main_arg25) :=
  (V12_of m outs c main_arg25 (by decide)).trans (at11_arg25 m outs c)
theorem at13_arg25 (c : Dev nD) : V13 m outs c main_arg25 = m ((c : Thread nD τ).loc main_arg25) :=
  (V13_of m outs c main_arg25 (by decide)).trans (at12_arg25 m outs c)
theorem at14_arg25 (c : Dev nD) : V14 m outs c main_arg25 = m ((c : Thread nD τ).loc main_arg25) :=
  (V14_of m outs c main_arg25 (by decide)).trans (at13_arg25 m outs c)
theorem at15_arg25 (c : Dev nD) : V15 m outs c main_arg25 = m ((c : Thread nD τ).loc main_arg25) :=
  (V15_of m outs c main_arg25 (by decide)).trans (at14_arg25 m outs c)
theorem at16_arg25 (c : Dev nD) : V16 m outs c main_arg25 = m ((c : Thread nD τ).loc main_arg25) :=
  (V16_of m outs c main_arg25 (by decide)).trans (at15_arg25 m outs c)
theorem at17_arg25 (c : Dev nD) : V17 m outs c main_arg25 = m ((c : Thread nD τ).loc main_arg25) :=
  (V17_of m outs c main_arg25 (by decide)).trans (at16_arg25 m outs c)
theorem at18_arg25 (c : Dev nD) : V18 m outs c main_arg25 = m ((c : Thread nD τ).loc main_arg25) :=
  (V18_of m outs c main_arg25 (by decide)).trans (at17_arg25 m outs c)
theorem at19_arg25 (c : Dev nD) : V19 m outs c main_arg25 = m ((c : Thread nD τ).loc main_arg25) :=
  (V19_of m outs c main_arg25 (by decide)).trans (at18_arg25 m outs c)
theorem at20_arg25 (c : Dev nD) : V20 m outs c main_arg25 = m ((c : Thread nD τ).loc main_arg25) :=
  (V20_of m outs c main_arg25 (by decide)).trans (at19_arg25 m outs c)
theorem at21_arg25 (c : Dev nD) : V21 m outs c main_arg25 = m ((c : Thread nD τ).loc main_arg25) :=
  (V21_of m outs c main_arg25 (by decide)).trans (at20_arg25 m outs c)
theorem at22_arg25 (c : Dev nD) : V22 m outs c main_arg25 = m ((c : Thread nD τ).loc main_arg25) :=
  (V22_of m outs c main_arg25 (by decide)).trans (at21_arg25 m outs c)
theorem at23_arg25 (c : Dev nD) : V23 m outs c main_arg25 = m ((c : Thread nD τ).loc main_arg25) :=
  (V23_of m outs c main_arg25 (by decide)).trans (at22_arg25 m outs c)
theorem at24_arg25 (c : Dev nD) : V24 m outs c main_arg25 = m ((c : Thread nD τ).loc main_arg25) :=
  (V24_of m outs c main_arg25 (by decide)).trans (at23_arg25 m outs c)
theorem at25_arg25 (c : Dev nD) : V25 m outs c main_arg25 = m ((c : Thread nD τ).loc main_arg25) :=
  (V25_of m outs c main_arg25 (by decide)).trans (at24_arg25 m outs c)
theorem at26_arg25 (c : Dev nD) : V26 m outs c main_arg25 = m ((c : Thread nD τ).loc main_arg25) :=
  (V26_of m outs c main_arg25 (by decide)).trans (at25_arg25 m outs c)
theorem at27_arg25 (c : Dev nD) : V27 m outs c main_arg25 = m ((c : Thread nD τ).loc main_arg25) :=
  (V27_of m outs c main_arg25 (by decide)).trans (at26_arg25 m outs c)
theorem at28_arg25 (c : Dev nD) : V28 m outs c main_arg25 = m ((c : Thread nD τ).loc main_arg25) :=
  (V28_of m outs c main_arg25 (by decide)).trans (at27_arg25 m outs c)
theorem at29_arg25 (c : Dev nD) : V29 m outs c main_arg25 = m ((c : Thread nD τ).loc main_arg25) :=
  (V29_of m outs c main_arg25 (by decide)).trans (at28_arg25 m outs c)
theorem at30_arg25 (c : Dev nD) : V30 m outs c main_arg25 = m ((c : Thread nD τ).loc main_arg25) :=
  (V30_of m outs c main_arg25 (by decide)).trans (at29_arg25 m outs c)
/-! `main_arg26` -/
theorem at0_arg26 (c : Dev nD) : V0 m c main_arg26 = m ((c : Thread nD τ).loc main_arg26) := rfl
theorem at1_arg26 (c : Dev nD) : V1 m c main_arg26 = m ((c : Thread nD τ).loc main_arg26) :=
  (V1_of m c main_arg26 (by decide)).trans (at0_arg26 m c)
theorem at2_arg26 (c : Dev nD) : V2 m outs c main_arg26 = m ((c : Thread nD τ).loc main_arg26) :=
  (V2_of m outs c main_arg26 (by decide)).trans (at1_arg26 m c)
theorem at3_arg26 (c : Dev nD) : V3 m outs c main_arg26 = m ((c : Thread nD τ).loc main_arg26) :=
  (V3_of m outs c main_arg26 (by decide)).trans (at2_arg26 m outs c)
theorem at4_arg26 (c : Dev nD) : V4 m outs c main_arg26 = m ((c : Thread nD τ).loc main_arg26) :=
  (V4_of m outs c main_arg26 (by decide)).trans (at3_arg26 m outs c)
theorem at5_arg26 (c : Dev nD) : V5 m outs c main_arg26 = m ((c : Thread nD τ).loc main_arg26) :=
  (V5_of m outs c main_arg26 (by decide)).trans (at4_arg26 m outs c)
theorem at6_arg26 (c : Dev nD) : V6 m outs c main_arg26 = m ((c : Thread nD τ).loc main_arg26) :=
  (V6_of m outs c main_arg26 (by decide)).trans (at5_arg26 m outs c)
theorem at7_arg26 (c : Dev nD) : V7 m outs c main_arg26 = m ((c : Thread nD τ).loc main_arg26) :=
  (V7_of m outs c main_arg26 (by decide)).trans (at6_arg26 m outs c)
theorem at8_arg26 (c : Dev nD) : V8 m outs c main_arg26 = m ((c : Thread nD τ).loc main_arg26) :=
  (V8_of m outs c main_arg26 (by decide)).trans (at7_arg26 m outs c)
theorem at9_arg26 (c : Dev nD) : V9 m outs c main_arg26 = m ((c : Thread nD τ).loc main_arg26) :=
  (V9_of m outs c main_arg26 (by decide)).trans (at8_arg26 m outs c)
theorem at10_arg26 (c : Dev nD) : V10 m outs c main_arg26 = m ((c : Thread nD τ).loc main_arg26) :=
  (V10_of m outs c main_arg26 (by decide)).trans (at9_arg26 m outs c)
theorem at11_arg26 (c : Dev nD) : V11 m outs c main_arg26 = m ((c : Thread nD τ).loc main_arg26) :=
  (V11_of m outs c main_arg26 (by decide)).trans (at10_arg26 m outs c)
theorem at12_arg26 (c : Dev nD) : V12 m outs c main_arg26 = m ((c : Thread nD τ).loc main_arg26) :=
  (V12_of m outs c main_arg26 (by decide)).trans (at11_arg26 m outs c)
theorem at13_arg26 (c : Dev nD) : V13 m outs c main_arg26 = m ((c : Thread nD τ).loc main_arg26) :=
  (V13_of m outs c main_arg26 (by decide)).trans (at12_arg26 m outs c)
theorem at14_arg26 (c : Dev nD) : V14 m outs c main_arg26 = m ((c : Thread nD τ).loc main_arg26) :=
  (V14_of m outs c main_arg26 (by decide)).trans (at13_arg26 m outs c)
theorem at15_arg26 (c : Dev nD) : V15 m outs c main_arg26 = m ((c : Thread nD τ).loc main_arg26) :=
  (V15_of m outs c main_arg26 (by decide)).trans (at14_arg26 m outs c)
theorem at16_arg26 (c : Dev nD) : V16 m outs c main_arg26 = m ((c : Thread nD τ).loc main_arg26) :=
  (V16_of m outs c main_arg26 (by decide)).trans (at15_arg26 m outs c)
theorem at17_arg26 (c : Dev nD) : V17 m outs c main_arg26 = m ((c : Thread nD τ).loc main_arg26) :=
  (V17_of m outs c main_arg26 (by decide)).trans (at16_arg26 m outs c)
theorem at18_arg26 (c : Dev nD) : V18 m outs c main_arg26 = m ((c : Thread nD τ).loc main_arg26) :=
  (V18_of m outs c main_arg26 (by decide)).trans (at17_arg26 m outs c)
theorem at19_arg26 (c : Dev nD) : V19 m outs c main_arg26 = m ((c : Thread nD τ).loc main_arg26) :=
  (V19_of m outs c main_arg26 (by decide)).trans (at18_arg26 m outs c)
theorem at20_arg26 (c : Dev nD) : V20 m outs c main_arg26 = m ((c : Thread nD τ).loc main_arg26) :=
  (V20_of m outs c main_arg26 (by decide)).trans (at19_arg26 m outs c)
theorem at21_arg26 (c : Dev nD) : V21 m outs c main_arg26 = m ((c : Thread nD τ).loc main_arg26) :=
  (V21_of m outs c main_arg26 (by decide)).trans (at20_arg26 m outs c)
theorem at22_arg26 (c : Dev nD) : V22 m outs c main_arg26 = m ((c : Thread nD τ).loc main_arg26) :=
  (V22_of m outs c main_arg26 (by decide)).trans (at21_arg26 m outs c)
theorem at23_arg26 (c : Dev nD) : V23 m outs c main_arg26 = m ((c : Thread nD τ).loc main_arg26) :=
  (V23_of m outs c main_arg26 (by decide)).trans (at22_arg26 m outs c)
theorem at24_arg26 (c : Dev nD) : V24 m outs c main_arg26 = m ((c : Thread nD τ).loc main_arg26) :=
  (V24_of m outs c main_arg26 (by decide)).trans (at23_arg26 m outs c)
theorem at25_arg26 (c : Dev nD) : V25 m outs c main_arg26 = m ((c : Thread nD τ).loc main_arg26) :=
  (V25_of m outs c main_arg26 (by decide)).trans (at24_arg26 m outs c)
theorem at26_arg26 (c : Dev nD) : V26 m outs c main_arg26 = m ((c : Thread nD τ).loc main_arg26) :=
  (V26_of m outs c main_arg26 (by decide)).trans (at25_arg26 m outs c)
theorem at27_arg26 (c : Dev nD) : V27 m outs c main_arg26 = m ((c : Thread nD τ).loc main_arg26) :=
  (V27_of m outs c main_arg26 (by decide)).trans (at26_arg26 m outs c)
theorem at28_arg26 (c : Dev nD) : V28 m outs c main_arg26 = m ((c : Thread nD τ).loc main_arg26) :=
  (V28_of m outs c main_arg26 (by decide)).trans (at27_arg26 m outs c)
theorem at29_arg26 (c : Dev nD) : V29 m outs c main_arg26 = m ((c : Thread nD τ).loc main_arg26) :=
  (V29_of m outs c main_arg26 (by decide)).trans (at28_arg26 m outs c)
theorem at30_arg26 (c : Dev nD) : V30 m outs c main_arg26 = m ((c : Thread nD τ).loc main_arg26) :=
  (V30_of m outs c main_arg26 (by decide)).trans (at29_arg26 m outs c)
/-! `main_arg27` -/
theorem at0_arg27 (c : Dev nD) : V0 m c main_arg27 = m ((c : Thread nD τ).loc main_arg27) := rfl
theorem at1_arg27 (c : Dev nD) : V1 m c main_arg27 = m ((c : Thread nD τ).loc main_arg27) :=
  (V1_of m c main_arg27 (by decide)).trans (at0_arg27 m c)
theorem at2_arg27 (c : Dev nD) : V2 m outs c main_arg27 = m ((c : Thread nD τ).loc main_arg27) :=
  (V2_of m outs c main_arg27 (by decide)).trans (at1_arg27 m c)
theorem at3_arg27 (c : Dev nD) : V3 m outs c main_arg27 = m ((c : Thread nD τ).loc main_arg27) :=
  (V3_of m outs c main_arg27 (by decide)).trans (at2_arg27 m outs c)
theorem at4_arg27 (c : Dev nD) : V4 m outs c main_arg27 = m ((c : Thread nD τ).loc main_arg27) :=
  (V4_of m outs c main_arg27 (by decide)).trans (at3_arg27 m outs c)
theorem at5_arg27 (c : Dev nD) : V5 m outs c main_arg27 = m ((c : Thread nD τ).loc main_arg27) :=
  (V5_of m outs c main_arg27 (by decide)).trans (at4_arg27 m outs c)
theorem at6_arg27 (c : Dev nD) : V6 m outs c main_arg27 = m ((c : Thread nD τ).loc main_arg27) :=
  (V6_of m outs c main_arg27 (by decide)).trans (at5_arg27 m outs c)
theorem at7_arg27 (c : Dev nD) : V7 m outs c main_arg27 = m ((c : Thread nD τ).loc main_arg27) :=
  (V7_of m outs c main_arg27 (by decide)).trans (at6_arg27 m outs c)
theorem at8_arg27 (c : Dev nD) : V8 m outs c main_arg27 = m ((c : Thread nD τ).loc main_arg27) :=
  (V8_of m outs c main_arg27 (by decide)).trans (at7_arg27 m outs c)
theorem at9_arg27 (c : Dev nD) : V9 m outs c main_arg27 = m ((c : Thread nD τ).loc main_arg27) :=
  (V9_of m outs c main_arg27 (by decide)).trans (at8_arg27 m outs c)
theorem at10_arg27 (c : Dev nD) : V10 m outs c main_arg27 = m ((c : Thread nD τ).loc main_arg27) :=
  (V10_of m outs c main_arg27 (by decide)).trans (at9_arg27 m outs c)
theorem at11_arg27 (c : Dev nD) : V11 m outs c main_arg27 = m ((c : Thread nD τ).loc main_arg27) :=
  (V11_of m outs c main_arg27 (by decide)).trans (at10_arg27 m outs c)
theorem at12_arg27 (c : Dev nD) : V12 m outs c main_arg27 = m ((c : Thread nD τ).loc main_arg27) :=
  (V12_of m outs c main_arg27 (by decide)).trans (at11_arg27 m outs c)
theorem at13_arg27 (c : Dev nD) : V13 m outs c main_arg27 = m ((c : Thread nD τ).loc main_arg27) :=
  (V13_of m outs c main_arg27 (by decide)).trans (at12_arg27 m outs c)
theorem at14_arg27 (c : Dev nD) : V14 m outs c main_arg27 = m ((c : Thread nD τ).loc main_arg27) :=
  (V14_of m outs c main_arg27 (by decide)).trans (at13_arg27 m outs c)
theorem at15_arg27 (c : Dev nD) : V15 m outs c main_arg27 = m ((c : Thread nD τ).loc main_arg27) :=
  (V15_of m outs c main_arg27 (by decide)).trans (at14_arg27 m outs c)
theorem at16_arg27 (c : Dev nD) : V16 m outs c main_arg27 = m ((c : Thread nD τ).loc main_arg27) :=
  (V16_of m outs c main_arg27 (by decide)).trans (at15_arg27 m outs c)
theorem at17_arg27 (c : Dev nD) : V17 m outs c main_arg27 = m ((c : Thread nD τ).loc main_arg27) :=
  (V17_of m outs c main_arg27 (by decide)).trans (at16_arg27 m outs c)
theorem at18_arg27 (c : Dev nD) : V18 m outs c main_arg27 = m ((c : Thread nD τ).loc main_arg27) :=
  (V18_of m outs c main_arg27 (by decide)).trans (at17_arg27 m outs c)
theorem at19_arg27 (c : Dev nD) : V19 m outs c main_arg27 = m ((c : Thread nD τ).loc main_arg27) :=
  (V19_of m outs c main_arg27 (by decide)).trans (at18_arg27 m outs c)
theorem at20_arg27 (c : Dev nD) : V20 m outs c main_arg27 = m ((c : Thread nD τ).loc main_arg27) :=
  (V20_of m outs c main_arg27 (by decide)).trans (at19_arg27 m outs c)
theorem at21_arg27 (c : Dev nD) : V21 m outs c main_arg27 = m ((c : Thread nD τ).loc main_arg27) :=
  (V21_of m outs c main_arg27 (by decide)).trans (at20_arg27 m outs c)
theorem at22_arg27 (c : Dev nD) : V22 m outs c main_arg27 = m ((c : Thread nD τ).loc main_arg27) :=
  (V22_of m outs c main_arg27 (by decide)).trans (at21_arg27 m outs c)
theorem at23_arg27 (c : Dev nD) : V23 m outs c main_arg27 = m ((c : Thread nD τ).loc main_arg27) :=
  (V23_of m outs c main_arg27 (by decide)).trans (at22_arg27 m outs c)
theorem at24_arg27 (c : Dev nD) : V24 m outs c main_arg27 = m ((c : Thread nD τ).loc main_arg27) :=
  (V24_of m outs c main_arg27 (by decide)).trans (at23_arg27 m outs c)
theorem at25_arg27 (c : Dev nD) : V25 m outs c main_arg27 = m ((c : Thread nD τ).loc main_arg27) :=
  (V25_of m outs c main_arg27 (by decide)).trans (at24_arg27 m outs c)
theorem at26_arg27 (c : Dev nD) : V26 m outs c main_arg27 = m ((c : Thread nD τ).loc main_arg27) :=
  (V26_of m outs c main_arg27 (by decide)).trans (at25_arg27 m outs c)
theorem at27_arg27 (c : Dev nD) : V27 m outs c main_arg27 = m ((c : Thread nD τ).loc main_arg27) :=
  (V27_of m outs c main_arg27 (by decide)).trans (at26_arg27 m outs c)
theorem at28_arg27 (c : Dev nD) : V28 m outs c main_arg27 = m ((c : Thread nD τ).loc main_arg27) :=
  (V28_of m outs c main_arg27 (by decide)).trans (at27_arg27 m outs c)
theorem at29_arg27 (c : Dev nD) : V29 m outs c main_arg27 = m ((c : Thread nD τ).loc main_arg27) :=
  (V29_of m outs c main_arg27 (by decide)).trans (at28_arg27 m outs c)
theorem at30_arg27 (c : Dev nD) : V30 m outs c main_arg27 = m ((c : Thread nD τ).loc main_arg27) :=
  (V30_of m outs c main_arg27 (by decide)).trans (at29_arg27 m outs c)
theorem at31_arg27 (c : Dev nD) : V31 m outs c main_arg27 = m ((c : Thread nD τ).loc main_arg27) :=
  (V31_of m outs c main_arg27 (by decide)).trans (at30_arg27 m outs c)
/-! `main_arg28` -/
theorem at0_arg28 (c : Dev nD) : V0 m c main_arg28 = m ((c : Thread nD τ).loc main_arg28) := rfl
theorem at1_arg28 (c : Dev nD) : V1 m c main_arg28 = m ((c : Thread nD τ).loc main_arg28) :=
  (V1_of m c main_arg28 (by decide)).trans (at0_arg28 m c)
theorem at2_arg28 (c : Dev nD) : V2 m outs c main_arg28 = m ((c : Thread nD τ).loc main_arg28) :=
  (V2_of m outs c main_arg28 (by decide)).trans (at1_arg28 m c)
theorem at3_arg28 (c : Dev nD) : V3 m outs c main_arg28 = m ((c : Thread nD τ).loc main_arg28) :=
  (V3_of m outs c main_arg28 (by decide)).trans (at2_arg28 m outs c)
theorem at4_arg28 (c : Dev nD) : V4 m outs c main_arg28 = m ((c : Thread nD τ).loc main_arg28) :=
  (V4_of m outs c main_arg28 (by decide)).trans (at3_arg28 m outs c)
theorem at5_arg28 (c : Dev nD) : V5 m outs c main_arg28 = m ((c : Thread nD τ).loc main_arg28) :=
  (V5_of m outs c main_arg28 (by decide)).trans (at4_arg28 m outs c)
theorem at6_arg28 (c : Dev nD) : V6 m outs c main_arg28 = m ((c : Thread nD τ).loc main_arg28) :=
  (V6_of m outs c main_arg28 (by decide)).trans (at5_arg28 m outs c)
theorem at7_arg28 (c : Dev nD) : V7 m outs c main_arg28 = m ((c : Thread nD τ).loc main_arg28) :=
  (V7_of m outs c main_arg28 (by decide)).trans (at6_arg28 m outs c)
theorem at8_arg28 (c : Dev nD) : V8 m outs c main_arg28 = m ((c : Thread nD τ).loc main_arg28) :=
  (V8_of m outs c main_arg28 (by decide)).trans (at7_arg28 m outs c)
theorem at9_arg28 (c : Dev nD) : V9 m outs c main_arg28 = m ((c : Thread nD τ).loc main_arg28) :=
  (V9_of m outs c main_arg28 (by decide)).trans (at8_arg28 m outs c)
theorem at10_arg28 (c : Dev nD) : V10 m outs c main_arg28 = m ((c : Thread nD τ).loc main_arg28) :=
  (V10_of m outs c main_arg28 (by decide)).trans (at9_arg28 m outs c)
theorem at11_arg28 (c : Dev nD) : V11 m outs c main_arg28 = m ((c : Thread nD τ).loc main_arg28) :=
  (V11_of m outs c main_arg28 (by decide)).trans (at10_arg28 m outs c)
theorem at12_arg28 (c : Dev nD) : V12 m outs c main_arg28 = m ((c : Thread nD τ).loc main_arg28) :=
  (V12_of m outs c main_arg28 (by decide)).trans (at11_arg28 m outs c)
theorem at13_arg28 (c : Dev nD) : V13 m outs c main_arg28 = m ((c : Thread nD τ).loc main_arg28) :=
  (V13_of m outs c main_arg28 (by decide)).trans (at12_arg28 m outs c)
theorem at14_arg28 (c : Dev nD) : V14 m outs c main_arg28 = m ((c : Thread nD τ).loc main_arg28) :=
  (V14_of m outs c main_arg28 (by decide)).trans (at13_arg28 m outs c)
theorem at15_arg28 (c : Dev nD) : V15 m outs c main_arg28 = m ((c : Thread nD τ).loc main_arg28) :=
  (V15_of m outs c main_arg28 (by decide)).trans (at14_arg28 m outs c)
theorem at16_arg28 (c : Dev nD) : V16 m outs c main_arg28 = m ((c : Thread nD τ).loc main_arg28) :=
  (V16_of m outs c main_arg28 (by decide)).trans (at15_arg28 m outs c)
theorem at17_arg28 (c : Dev nD) : V17 m outs c main_arg28 = m ((c : Thread nD τ).loc main_arg28) :=
  (V17_of m outs c main_arg28 (by decide)).trans (at16_arg28 m outs c)
theorem at18_arg28 (c : Dev nD) : V18 m outs c main_arg28 = m ((c : Thread nD τ).loc main_arg28) :=
  (V18_of m outs c main_arg28 (by decide)).trans (at17_arg28 m outs c)
theorem at19_arg28 (c : Dev nD) : V19 m outs c main_arg28 = m ((c : Thread nD τ).loc main_arg28) :=
  (V19_of m outs c main_arg28 (by decide)).trans (at18_arg28 m outs c)
theorem at20_arg28 (c : Dev nD) : V20 m outs c main_arg28 = m ((c : Thread nD τ).loc main_arg28) :=
  (V20_of m outs c main_arg28 (by decide)).trans (at19_arg28 m outs c)
theorem at21_arg28 (c : Dev nD) : V21 m outs c main_arg28 = m ((c : Thread nD τ).loc main_arg28) :=
  (V21_of m outs c main_arg28 (by decide)).trans (at20_arg28 m outs c)
theorem at22_arg28 (c : Dev nD) : V22 m outs c main_arg28 = m ((c : Thread nD τ).loc main_arg28) :=
  (V22_of m outs c main_arg28 (by decide)).trans (at21_arg28 m outs c)
theorem at23_arg28 (c : Dev nD) : V23 m outs c main_arg28 = m ((c : Thread nD τ).loc main_arg28) :=
  (V23_of m outs c main_arg28 (by decide)).trans (at22_arg28 m outs c)
theorem at24_arg28 (c : Dev nD) : V24 m outs c main_arg28 = m ((c : Thread nD τ).loc main_arg28) :=
  (V24_of m outs c main_arg28 (by decide)).trans (at23_arg28 m outs c)
theorem at25_arg28 (c : Dev nD) : V25 m outs c main_arg28 = m ((c : Thread nD τ).loc main_arg28) :=
  (V25_of m outs c main_arg28 (by decide)).trans (at24_arg28 m outs c)
theorem at26_arg28 (c : Dev nD) : V26 m outs c main_arg28 = m ((c : Thread nD τ).loc main_arg28) :=
  (V26_of m outs c main_arg28 (by decide)).trans (at25_arg28 m outs c)
theorem at27_arg28 (c : Dev nD) : V27 m outs c main_arg28 = m ((c : Thread nD τ).loc main_arg28) :=
  (V27_of m outs c main_arg28 (by decide)).trans (at26_arg28 m outs c)
theorem at28_arg28 (c : Dev nD) : V28 m outs c main_arg28 = m ((c : Thread nD τ).loc main_arg28) :=
  (V28_of m outs c main_arg28 (by decide)).trans (at27_arg28 m outs c)
theorem at29_arg28 (c : Dev nD) : V29 m outs c main_arg28 = m ((c : Thread nD τ).loc main_arg28) :=
  (V29_of m outs c main_arg28 (by decide)).trans (at28_arg28 m outs c)
theorem at30_arg28 (c : Dev nD) : V30 m outs c main_arg28 = m ((c : Thread nD τ).loc main_arg28) :=
  (V30_of m outs c main_arg28 (by decide)).trans (at29_arg28 m outs c)
/-! `main_arg29` -/
theorem at0_arg29 (c : Dev nD) : V0 m c main_arg29 = m ((c : Thread nD τ).loc main_arg29) := rfl
theorem at1_arg29 (c : Dev nD) : V1 m c main_arg29 = m ((c : Thread nD τ).loc main_arg29) :=
  (V1_of m c main_arg29 (by decide)).trans (at0_arg29 m c)
theorem at2_arg29 (c : Dev nD) : V2 m outs c main_arg29 = m ((c : Thread nD τ).loc main_arg29) :=
  (V2_of m outs c main_arg29 (by decide)).trans (at1_arg29 m c)
theorem at3_arg29 (c : Dev nD) : V3 m outs c main_arg29 = m ((c : Thread nD τ).loc main_arg29) :=
  (V3_of m outs c main_arg29 (by decide)).trans (at2_arg29 m outs c)
theorem at4_arg29 (c : Dev nD) : V4 m outs c main_arg29 = m ((c : Thread nD τ).loc main_arg29) :=
  (V4_of m outs c main_arg29 (by decide)).trans (at3_arg29 m outs c)
theorem at5_arg29 (c : Dev nD) : V5 m outs c main_arg29 = m ((c : Thread nD τ).loc main_arg29) :=
  (V5_of m outs c main_arg29 (by decide)).trans (at4_arg29 m outs c)
theorem at6_arg29 (c : Dev nD) : V6 m outs c main_arg29 = m ((c : Thread nD τ).loc main_arg29) :=
  (V6_of m outs c main_arg29 (by decide)).trans (at5_arg29 m outs c)
theorem at7_arg29 (c : Dev nD) : V7 m outs c main_arg29 = m ((c : Thread nD τ).loc main_arg29) :=
  (V7_of m outs c main_arg29 (by decide)).trans (at6_arg29 m outs c)
theorem at8_arg29 (c : Dev nD) : V8 m outs c main_arg29 = m ((c : Thread nD τ).loc main_arg29) :=
  (V8_of m outs c main_arg29 (by decide)).trans (at7_arg29 m outs c)
theorem at9_arg29 (c : Dev nD) : V9 m outs c main_arg29 = m ((c : Thread nD τ).loc main_arg29) :=
  (V9_of m outs c main_arg29 (by decide)).trans (at8_arg29 m outs c)
theorem at10_arg29 (c : Dev nD) : V10 m outs c main_arg29 = m ((c : Thread nD τ).loc main_arg29) :=
  (V10_of m outs c main_arg29 (by decide)).trans (at9_arg29 m outs c)
theorem at11_arg29 (c : Dev nD) : V11 m outs c main_arg29 = m ((c : Thread nD τ).loc main_arg29) :=
  (V11_of m outs c main_arg29 (by decide)).trans (at10_arg29 m outs c)
theorem at12_arg29 (c : Dev nD) : V12 m outs c main_arg29 = m ((c : Thread nD τ).loc main_arg29) :=
  (V12_of m outs c main_arg29 (by decide)).trans (at11_arg29 m outs c)
theorem at13_arg29 (c : Dev nD) : V13 m outs c main_arg29 = m ((c : Thread nD τ).loc main_arg29) :=
  (V13_of m outs c main_arg29 (by decide)).trans (at12_arg29 m outs c)
theorem at14_arg29 (c : Dev nD) : V14 m outs c main_arg29 = m ((c : Thread nD τ).loc main_arg29) :=
  (V14_of m outs c main_arg29 (by decide)).trans (at13_arg29 m outs c)
theorem at15_arg29 (c : Dev nD) : V15 m outs c main_arg29 = m ((c : Thread nD τ).loc main_arg29) :=
  (V15_of m outs c main_arg29 (by decide)).trans (at14_arg29 m outs c)
theorem at16_arg29 (c : Dev nD) : V16 m outs c main_arg29 = m ((c : Thread nD τ).loc main_arg29) :=
  (V16_of m outs c main_arg29 (by decide)).trans (at15_arg29 m outs c)
theorem at17_arg29 (c : Dev nD) : V17 m outs c main_arg29 = m ((c : Thread nD τ).loc main_arg29) :=
  (V17_of m outs c main_arg29 (by decide)).trans (at16_arg29 m outs c)
theorem at18_arg29 (c : Dev nD) : V18 m outs c main_arg29 = m ((c : Thread nD τ).loc main_arg29) :=
  (V18_of m outs c main_arg29 (by decide)).trans (at17_arg29 m outs c)
theorem at19_arg29 (c : Dev nD) : V19 m outs c main_arg29 = m ((c : Thread nD τ).loc main_arg29) :=
  (V19_of m outs c main_arg29 (by decide)).trans (at18_arg29 m outs c)
theorem at20_arg29 (c : Dev nD) : V20 m outs c main_arg29 = m ((c : Thread nD τ).loc main_arg29) :=
  (V20_of m outs c main_arg29 (by decide)).trans (at19_arg29 m outs c)
theorem at21_arg29 (c : Dev nD) : V21 m outs c main_arg29 = m ((c : Thread nD τ).loc main_arg29) :=
  (V21_of m outs c main_arg29 (by decide)).trans (at20_arg29 m outs c)
theorem at22_arg29 (c : Dev nD) : V22 m outs c main_arg29 = m ((c : Thread nD τ).loc main_arg29) :=
  (V22_of m outs c main_arg29 (by decide)).trans (at21_arg29 m outs c)
theorem at23_arg29 (c : Dev nD) : V23 m outs c main_arg29 = m ((c : Thread nD τ).loc main_arg29) :=
  (V23_of m outs c main_arg29 (by decide)).trans (at22_arg29 m outs c)
theorem at24_arg29 (c : Dev nD) : V24 m outs c main_arg29 = m ((c : Thread nD τ).loc main_arg29) :=
  (V24_of m outs c main_arg29 (by decide)).trans (at23_arg29 m outs c)
theorem at25_arg29 (c : Dev nD) : V25 m outs c main_arg29 = m ((c : Thread nD τ).loc main_arg29) :=
  (V25_of m outs c main_arg29 (by decide)).trans (at24_arg29 m outs c)
theorem at26_arg29 (c : Dev nD) : V26 m outs c main_arg29 = m ((c : Thread nD τ).loc main_arg29) :=
  (V26_of m outs c main_arg29 (by decide)).trans (at25_arg29 m outs c)
theorem at27_arg29 (c : Dev nD) : V27 m outs c main_arg29 = m ((c : Thread nD τ).loc main_arg29) :=
  (V27_of m outs c main_arg29 (by decide)).trans (at26_arg29 m outs c)
theorem at28_arg29 (c : Dev nD) : V28 m outs c main_arg29 = m ((c : Thread nD τ).loc main_arg29) :=
  (V28_of m outs c main_arg29 (by decide)).trans (at27_arg29 m outs c)
theorem at29_arg29 (c : Dev nD) : V29 m outs c main_arg29 = m ((c : Thread nD τ).loc main_arg29) :=
  (V29_of m outs c main_arg29 (by decide)).trans (at28_arg29 m outs c)
theorem at30_arg29 (c : Dev nD) : V30 m outs c main_arg29 = m ((c : Thread nD τ).loc main_arg29) :=
  (V30_of m outs c main_arg29 (by decide)).trans (at29_arg29 m outs c)
theorem at31_arg29 (c : Dev nD) : V31 m outs c main_arg29 = m ((c : Thread nD τ).loc main_arg29) :=
  (V31_of m outs c main_arg29 (by decide)).trans (at30_arg29 m outs c)
/-! `main_arg30` -/
theorem at0_arg30 (c : Dev nD) : V0 m c main_arg30 = m ((c : Thread nD τ).loc main_arg30) := rfl
theorem at1_arg30 (c : Dev nD) : V1 m c main_arg30 = m ((c : Thread nD τ).loc main_arg30) :=
  (V1_of m c main_arg30 (by decide)).trans (at0_arg30 m c)
theorem at2_arg30 (c : Dev nD) : V2 m outs c main_arg30 = m ((c : Thread nD τ).loc main_arg30) :=
  (V2_of m outs c main_arg30 (by decide)).trans (at1_arg30 m c)
theorem at3_arg30 (c : Dev nD) : V3 m outs c main_arg30 = m ((c : Thread nD τ).loc main_arg30) :=
  (V3_of m outs c main_arg30 (by decide)).trans (at2_arg30 m outs c)
theorem at4_arg30 (c : Dev nD) : V4 m outs c main_arg30 = m ((c : Thread nD τ).loc main_arg30) :=
  (V4_of m outs c main_arg30 (by decide)).trans (at3_arg30 m outs c)
theorem at5_arg30 (c : Dev nD) : V5 m outs c main_arg30 = m ((c : Thread nD τ).loc main_arg30) :=
  (V5_of m outs c main_arg30 (by decide)).trans (at4_arg30 m outs c)
theorem at6_arg30 (c : Dev nD) : V6 m outs c main_arg30 = m ((c : Thread nD τ).loc main_arg30) :=
  (V6_of m outs c main_arg30 (by decide)).trans (at5_arg30 m outs c)
theorem at7_arg30 (c : Dev nD) : V7 m outs c main_arg30 = m ((c : Thread nD τ).loc main_arg30) :=
  (V7_of m outs c main_arg30 (by decide)).trans (at6_arg30 m outs c)
theorem at8_arg30 (c : Dev nD) : V8 m outs c main_arg30 = m ((c : Thread nD τ).loc main_arg30) :=
  (V8_of m outs c main_arg30 (by decide)).trans (at7_arg30 m outs c)
theorem at9_arg30 (c : Dev nD) : V9 m outs c main_arg30 = m ((c : Thread nD τ).loc main_arg30) :=
  (V9_of m outs c main_arg30 (by decide)).trans (at8_arg30 m outs c)
theorem at10_arg30 (c : Dev nD) : V10 m outs c main_arg30 = m ((c : Thread nD τ).loc main_arg30) :=
  (V10_of m outs c main_arg30 (by decide)).trans (at9_arg30 m outs c)
theorem at11_arg30 (c : Dev nD) : V11 m outs c main_arg30 = m ((c : Thread nD τ).loc main_arg30) :=
  (V11_of m outs c main_arg30 (by decide)).trans (at10_arg30 m outs c)
theorem at12_arg30 (c : Dev nD) : V12 m outs c main_arg30 = m ((c : Thread nD τ).loc main_arg30) :=
  (V12_of m outs c main_arg30 (by decide)).trans (at11_arg30 m outs c)
theorem at13_arg30 (c : Dev nD) : V13 m outs c main_arg30 = m ((c : Thread nD τ).loc main_arg30) :=
  (V13_of m outs c main_arg30 (by decide)).trans (at12_arg30 m outs c)
theorem at14_arg30 (c : Dev nD) : V14 m outs c main_arg30 = m ((c : Thread nD τ).loc main_arg30) :=
  (V14_of m outs c main_arg30 (by decide)).trans (at13_arg30 m outs c)
theorem at15_arg30 (c : Dev nD) : V15 m outs c main_arg30 = m ((c : Thread nD τ).loc main_arg30) :=
  (V15_of m outs c main_arg30 (by decide)).trans (at14_arg30 m outs c)
theorem at16_arg30 (c : Dev nD) : V16 m outs c main_arg30 = m ((c : Thread nD τ).loc main_arg30) :=
  (V16_of m outs c main_arg30 (by decide)).trans (at15_arg30 m outs c)
theorem at17_arg30 (c : Dev nD) : V17 m outs c main_arg30 = m ((c : Thread nD τ).loc main_arg30) :=
  (V17_of m outs c main_arg30 (by decide)).trans (at16_arg30 m outs c)
theorem at18_arg30 (c : Dev nD) : V18 m outs c main_arg30 = m ((c : Thread nD τ).loc main_arg30) :=
  (V18_of m outs c main_arg30 (by decide)).trans (at17_arg30 m outs c)
theorem at19_arg30 (c : Dev nD) : V19 m outs c main_arg30 = m ((c : Thread nD τ).loc main_arg30) :=
  (V19_of m outs c main_arg30 (by decide)).trans (at18_arg30 m outs c)
theorem at20_arg30 (c : Dev nD) : V20 m outs c main_arg30 = m ((c : Thread nD τ).loc main_arg30) :=
  (V20_of m outs c main_arg30 (by decide)).trans (at19_arg30 m outs c)
theorem at21_arg30 (c : Dev nD) : V21 m outs c main_arg30 = m ((c : Thread nD τ).loc main_arg30) :=
  (V21_of m outs c main_arg30 (by decide)).trans (at20_arg30 m outs c)
theorem at22_arg30 (c : Dev nD) : V22 m outs c main_arg30 = m ((c : Thread nD τ).loc main_arg30) :=
  (V22_of m outs c main_arg30 (by decide)).trans (at21_arg30 m outs c)
theorem at23_arg30 (c : Dev nD) : V23 m outs c main_arg30 = m ((c : Thread nD τ).loc main_arg30) :=
  (V23_of m outs c main_arg30 (by decide)).trans (at22_arg30 m outs c)
theorem at24_arg30 (c : Dev nD) : V24 m outs c main_arg30 = m ((c : Thread nD τ).loc main_arg30) :=
  (V24_of m outs c main_arg30 (by decide)).trans (at23_arg30 m outs c)
theorem at25_arg30 (c : Dev nD) : V25 m outs c main_arg30 = m ((c : Thread nD τ).loc main_arg30) :=
  (V25_of m outs c main_arg30 (by decide)).trans (at24_arg30 m outs c)
theorem at26_arg30 (c : Dev nD) : V26 m outs c main_arg30 = m ((c : Thread nD τ).loc main_arg30) :=
  (V26_of m outs c main_arg30 (by decide)).trans (at25_arg30 m outs c)
theorem at27_arg30 (c : Dev nD) : V27 m outs c main_arg30 = m ((c : Thread nD τ).loc main_arg30) :=
  (V27_of m outs c main_arg30 (by decide)).trans (at26_arg30 m outs c)
theorem at28_arg30 (c : Dev nD) : V28 m outs c main_arg30 = m ((c : Thread nD τ).loc main_arg30) :=
  (V28_of m outs c main_arg30 (by decide)).trans (at27_arg30 m outs c)
theorem at29_arg30 (c : Dev nD) : V29 m outs c main_arg30 = m ((c : Thread nD τ).loc main_arg30) :=
  (V29_of m outs c main_arg30 (by decide)).trans (at28_arg30 m outs c)
theorem at30_arg30 (c : Dev nD) : V30 m outs c main_arg30 = m ((c : Thread nD τ).loc main_arg30) :=
  (V30_of m outs c main_arg30 (by decide)).trans (at29_arg30 m outs c)

end Cert.KernelIdeal.Hand
-- ==== Proof.KI.Reads0.lean ====
/- What the two encoders and the first A/B projection read (regions 0, 1, 2): each input window's array, on entry to
   the region, as a pure term of the launch contents and of what the earlier regions left.

   A window written by the host stretch just before its region is that stretch read back: the stretch's operations
   composed down to the buffers the stretch itself does not write, and those buffers carried from where they were
   written (an argument from the launch, a region's result from the region). A window no stretch writes — an argument,
   an earlier region's result — is carried as it is. -/
import proofs.«152161_j29669634081217_2_alg».proof.Proof.KI.ReadsDefs
import proofs.«152161_j29669634081217_2_alg».proof.Proof.KI.ReadsCarryA
import proofs.«152161_j29669634081217_2_alg».proof.Proof.KI.ReadsCarryB

-- the references' inequalities are decided past the default depth
set_option maxRecDepth 2864

noncomputable section

namespace Cert.KernelIdeal.Hand

open Idealize.ShloMosaic Idealize.ShloMosaic.TcCoe
open Idealize.SL.Sem
open Idealize.ShloMosaic.StableHlo
open Cert.KernelIdeal.Gen

variable {F : FTy → Type} [FloatOps F]
variable (m : (ℓ : Loc nD τ sig) → Buf (Elt F) ℓ) (outs : Outs (F := F))

/-! ## Region 0: the node encoder

Its operands: columns 3 to 8 of the node features, the first weight matrix, its bias as a row, the second weight
matrix, its bias as a row. -/

theorem in0_0 (c : Dev nD) : V1 m c main_v11 = extractStridedSlice S20000x6 ![0, 3] (m ((c : Thread nD τ).loc main_arg0)) slices_S20000x9_S20000x6_0_3 := by
  show StableHlo.after hostOps0 (V0 m c) (Proc.devRef .tc main_v11) = _
  after_results <;> rfl
theorem in0_1 (c : Dev nD) : V1 m c main_arg6 = m ((c : Thread nD τ).loc main_arg6) :=
  at1_arg6 m c
theorem in0_2 (c : Dev nD) : V1 m c main_v12 = shapeCast S1x128 (m ((c : Thread nD τ).loc main_arg7)) shapeCasts_S128_S1x128 := by
  show StableHlo.after hostOps0 (V0 m c) (Proc.devRef .tc main_v12) = _
  after_results <;> rfl
theorem in0_3 (c : Dev nD) : V1 m c main_arg8 = m ((c : Thread nD τ).loc main_arg8) :=
  at1_arg8 m c
theorem in0_4 (c : Dev nD) : V1 m c main_v13 = shapeCast S1x128 (m ((c : Thread nD τ).loc main_arg9)) shapeCasts_S128_S1x128 := by
  show StableHlo.after hostOps0 (V0 m c) (Proc.devRef .tc main_v13) = _
  after_results <;> rfl

/-! ## Region 1: the edge encoder

Its operands: the edge features, the first weight matrix, its bias as a row, the second weight matrix, its bias as a
row. The two biases are reshaped by the stretch between regions 0 and 1, over what region 0 left. -/

theorem in1_0 (c : Dev nD) : V3 m outs c main_arg2 = m ((c : Thread nD τ).loc main_arg2) :=
  at3_arg2 m outs c
theorem in1_1 (c : Dev nD) : V3 m outs c main_arg10 = m ((c : Thread nD τ).loc main_arg10) :=
  at3_arg10 m outs c
theorem in1_2 (c : Dev nD) : V3 m outs c main_v15 = shapeCast S1x128 (m ((c : Thread nD τ).loc main_arg11)) shapeCasts_S128_S1x128 := by
  show StableHlo.after hostOps1 (V2 m outs c) (Proc.devRef .tc main_v15) = _
  after_results <;> rw [at2_arg11 m outs c] <;> rfl
theorem in1_3 (c : Dev nD) : V3 m outs c main_arg12 = m ((c : Thread nD τ).loc main_arg12) :=
  at3_arg12 m outs c
theorem in1_4 (c : Dev nD) : V3 m outs c main_v16 = shapeCast S1x128 (m ((c : Thread nD τ).loc main_arg13)) shapeCasts_S128_S1x128 := by
  show StableHlo.after hostOps1 (V2 m outs c) (Proc.devRef .tc main_v16) = _
  after_results <;> rw [at2_arg13 m outs c] <;> rfl

/-! ## Region 2: the first layer's A/B projection

Its operands: the encoded nodes (what region 0 left) and slab 0 of the two stacked projection weights. -/

theorem in2_0 (c : Dev nD) : V5 m outs c main_v14 = outs 2 main_v14 c :=
  at5_v14 m outs c
theorem in2_1 (c : Dev nD) : V5 m outs c main_v19 = sliceMat (m ((c : Thread nD τ).loc main_arg14)) 0 slices_S6x128x128_S1x128x128_0_0_0 := by
  show StableHlo.after hostOps2 (V4 m outs c) (Proc.devRef .tc main_v19) = _
  after_results <;> rw [at4_arg14 m outs c] <;> rfl
theorem in2_2 (c : Dev nD) : V5 m outs c main_v21 = sliceMat (m ((c : Thread nD τ).loc main_arg15)) 0 slices_S6x128x128_S1x128x128_0_0_0 := by
  show StableHlo.after hostOps2 (V4 m outs c) (Proc.devRef .tc main_v21) = _
  after_results <;> rw [at4_arg15 m outs c] <;> rfl

end Cert.KernelIdeal.Hand
-- ==== Proof.KI.Val0.lean ====
/-
  The node encoder's region, read: what the region leaves in its [20000,128] result array.

  The kernel's one store writes, at row `r` and column `c` of the block, the two-layer perceptron of `Cert.Spec` on
  row `r` of the loaded feature block over the loaded weights and one-row biases: both matrix products accumulate into
  zero, so each is the plain sum of products over the one contracted axis; the changes of format are the identity on
  extended reals; a one-row bias broadcast down the block reads its row-0 entry. Point `t` of the five-point grid
  holds rows `4000 t … 4000 t + 3999` of the features and of the result and the whole of every weight and bias, so
  what it writes back is block `t` of ONE function of the region's input arrays; the five blocks tile the 20000 rows.
-/
import proofs.«152161_j29669634081217_2_alg».proof.Proof.KI.Reg0
import proofs.«152161_j29669634081217_2_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Hand

open BigOperators Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-! ## The payload's three shapes of operation, each read at an index -/

/-- A matrix product of an [m,k] block with a [k,n] matrix accumulated into the zero splat, contracting the one shared
    axis, read at (p, q): the sum over the shared coordinate of the products. The contraction index has one axis, of
    extent `k`; the left operand is read at (p, i) and the right one at (i, q). -/
theorem mm_apply0 {m k n : ℕ} {φ₁ φ₂ : FTy} (d : DotDims ⟨2, ![m, k]⟩ ⟨2, ![k, n]⟩ ⟨2, ![m, n]⟩)
    (hl : d.lhsContracting = [1]) (hr : d.rhsContracting = [0]) (hln : d.lhsNonContracting = [0])
    (hrn : d.rhsNonContracting = [1]) (hlb : d.lhsBatch = []) (hrb : d.rhsBatch = [])
    (A : FVec Ideal ⟨2, ![m, k]⟩ φ₁) (B : FVec Ideal ⟨2, ![k, n]⟩ φ₂) (p : Fin m) (q : Fin n) :
    matmul d none A B (constant ⟨2, ![m, n]⟩ .f32 0x00000000#32) (ix2 p q) = ∑ i : Fin k, A (ix2 p i) * B (ix2 i q) := by
  have hrk : d.contr.rank = 1 := by rw [d.rank_contr, hl]; rfl
  have hsz : d.contr.size ⟨0, by omega⟩ = k := by
    have := d.size_contr 0 (by rw [hl]; exact Nat.one_pos)
    simp only [hl] at this
    exact this
  show FloatOps.matmul d none A B (constant ⟨2, ![m, n]⟩ .f32 0x00000000#32) (ix2 p q) = _
  rw [Ideal.matmul_constant_zero_apply, ← Equiv.sum_comp (contrEquiv1 d k hrk hsz).symm]
  refine Finset.sum_congr rfl fun i _ => ?_
  have e1 : d.lhsIdx (ix2 p q) ((contrEquiv1 d k hrk hsz).symm i) = ix2 p i := by
    funext a; apply Fin.ext
    match a with
    | ⟨0, _⟩ =>
      have key : ∀ (a b : Nat) (ha : a < 2) (hb : b < 2), a = b →
          ((ix2 p q : (⟨2, ![m, n]⟩ : Shape).Idx) ⟨a, ha⟩).val = ((ix2 p q : (⟨2, ![m, n]⟩ : Shape).Idx) ⟨b, hb⟩).val :=
        fun a b ha hb h => by subst h; rfl
      unfold DotDims.lhsIdx
      rw [dif_neg (by rw [hlb]; exact List.not_mem_nil), dif_pos (by rw [hln]; exact List.mem_singleton.mpr rfl)]
      simp only [Fin.val_cast]
      exact key _ 0 _ (by omega) (by simp [hlb, hln])
    | ⟨1, _⟩ =>
      have := d.lhsIdx_val_of_single hl (ix2 p q) ((contrEquiv1 d k hrk hsz).symm i)
      rw [contrEquiv1_symm_val] at this
      exact this
  have e2 : d.rhsIdx (ix2 p q) ((contrEquiv1 d k hrk hsz).symm i) = ix2 i q := by
    funext a; apply Fin.ext
    match a with
    | ⟨0, _⟩ =>
      have := d.rhsIdx_val_of_single hr (ix2 p q) ((contrEquiv1 d k hrk hsz).symm i)
      rw [contrEquiv1_symm_val] at this
      exact this
    | ⟨1, _⟩ =>
      have key : ∀ (a b : Nat) (ha : a < 2) (hb : b < 2), a = b →
          ((ix2 p q : (⟨2, ![m, n]⟩ : Shape).Idx) ⟨a, ha⟩).val = ((ix2 p q : (⟨2, ![m, n]⟩ : Shape).Idx) ⟨b, hb⟩).val :=
        fun a b ha hb h => by subst h; rfl
      unfold DotDims.rhsIdx
      rw [dif_neg (by rw [hrb]; exact List.not_mem_nil), dif_pos (by rw [hrn]; exact List.mem_singleton.mpr rfl)]
      simp only [Fin.val_cast]
      exact key _ 1 _ (by omega) (by simp [hlb, hln, hrn])
  rw [e1, e2]

/-- A one-row bias laid down the `m` rows of a block, read at (p, q): entry (0, q) of the row. -/
theorem biasRow_apply0 {m n : ℕ} (hc : (⟨2, ![1, n]⟩ : Shape).ShapeCasts ⟨2, ![1, n]⟩)
    (hb : (⟨2, ![1, n]⟩ : Shape).Broadcasts ⟨2, ![m, n]⟩) (b : FVec Ideal ⟨2, ![1, n]⟩ .f32) (p : Fin m) (q : Fin n) :
    broadcastTo ⟨2, ![m, n]⟩ (shapeCast ⟨2, ![1, n]⟩ b hc) hb (ix2 p q) = b (ix2 (0 : Fin 1) q) := by
  rw [broadcastTo_apply _ hb (ix2 p q) (ix2 (0 : Fin 1) q) (by
    intro a
    match a with
    | ⟨0, _⟩ => rfl
    | ⟨1, _⟩ =>
      show q.val = if n = 1 then 0 else q.val
      split
      · have := q.isLt; omega
      · rfl)]
  exact shapeCast_apply b hc _ _ rfl

/-- The rectifier, the maximum with the splat of the zero scalar, read at an index. -/
theorem reluSplat_apply0 {t : Shape} (x : FVec Ideal t .f32) (j : t.Idx) :
    maximumf x (broadcast t (Scalar.ofBits (F := Ideal) .f32 0x00000000#32)) j = Cert.Spec.relu (x j) := by
  rw [maximumf_apply, broadcast_apply]
  show max (x j) (Ideal.ofBits .f32 0x00000000#32) = _
  rw [Ideal.ofBits_zero_f32]
  rfl

/-! ## The payload of the node encoder at an index of its block -/

/-- The stored block at row `r`, column `c`: the two-layer perceptron on row `r` of the loaded feature block, over the
    loaded weights and the one-row biases. -/
theorem pay0_apply (x : Vec Ideal S4000x6 .f32) (w1 : Vec Ideal S6x128 .f32) (b1 : Vec Ideal S1x128 .f32)
    (w2 : Vec Ideal S128x128 .f32) (b2 : Vec Ideal S1x128 .f32) (r : Fin 4000) (c : Fin 128) :
    k0_pay1 x w1 b1 w2 b2 (ix2 r c)
      = Cert.Spec.mlp2 (Cert.Spec.row x r) (Cert.Spec.m2 w1) (fun j => b1 (ix2 (0 : Fin 1) j)) (Cert.Spec.m2 w2)
          (fun j => b2 (ix2 (0 : Fin 1) j)) c := by
  unfold k0_pay1
  rw [addf_apply, biasRow_apply0, mm_apply0 _ rfl rfl rfl rfl rfl rfl]
  unfold Cert.Spec.mlp2 Cert.Spec.aff Cert.Spec.lin
  refine congrArg (· + b2 (ix2 (0 : Fin 1) c)) (Finset.sum_congr rfl fun i _ => ?_)
  rw [truncf_apply, truncf_apply, reluSplat_apply0, addf_apply, biasRow_apply0, mm_apply0 _ rfl rfl rfl rfl rfl rfl]
  refine congrArg (fun z => Cert.Spec.relu (z + b1 (ix2 (0 : Fin 1) i)) * w2 (ix2 i c)) (Finset.sum_congr rfl fun l _ => ?_)
  rw [truncf_apply, truncf_apply]
  exact congrArg (· * w1 (ix2 l i)) (shapeCast_apply x _ _ _ rfl)

/-- The same at any index of the block. -/
theorem pay0_apply' (x : Vec Ideal S4000x6 .f32) (w1 : Vec Ideal S6x128 .f32) (b1 : Vec Ideal S1x128 .f32)
    (w2 : Vec Ideal S128x128 .f32) (b2 : Vec Ideal S1x128 .f32) (y : S4000x128.Idx) :
    k0_pay1 x w1 b1 w2 b2 y
      = Cert.Spec.mlp2 (Cert.Spec.row x (y 0)) (Cert.Spec.m2 w1) (fun j => b1 (ix2 (0 : Fin 1) j)) (Cert.Spec.m2 w2)
          (fun j => b2 (ix2 (0 : Fin 1) j)) (y 1) := by
  rw [eq_ix2 y]
  exact pay0_apply x w1 b1 w2 b2 (y 0) (y 1)

/-- The perceptron depends on its row, weights and biases only through their values. -/
theorem mlp2_congr0 {K H N : ℕ} {x x' : Fin K → EReal} {W1 W1' : Fin K → Fin H → EReal} {b1 b1' : Fin H → EReal}
    {W2 W2' : Fin H → Fin N → EReal} {b2 b2' : Fin N → EReal} (hx : x = x') (h1 : W1 = W1') (hb1 : b1 = b1')
    (h2 : W2 = W2') (hb2 : b2 = b2') (j : Fin N) :
    Cert.Spec.mlp2 x W1 b1 W2 b2 j = Cert.Spec.mlp2 x' W1' b1' W2' b2' j := by
  subst hx h1 hb1 h2 hb2; rfl

/-! ## From the blocks to the array -/

theorem hz2_0 : (![0, 0] : Fin 2 → Nat) = fun _ => 0 := funext fun a => by fin_cases a <;> rfl

/-- The index maps over the five points of the grid: the features and the result move down their rows with the point,
    block `t` at point `t`; the weights and biases stay at their one block. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

section Value
variable (V : (c : Dev nD) → (b : Ref sig .tc) → Buf (Elt Ideal) ((c : Thread nD τ).loc b))

/-- The feature block at point `t` is rows `4000 t … 4000 t + 3999` of the feature array. -/
theorem read0_0 (c : Dev nD) (t : Fin cfg0.N) (r : Fin 4000) (l : Fin 6) (R : Fin 20000) (hR : R.val = t.val * 4000 + r.val) :
    iblk0 V c 0 t (ix2 r l) = V c (Pipeline.arrRef spec0 0) (ix2 R l) := by
  obtain ⟨e0, e1, -⟩ := idx0 t
  unfold iblk0
  show V c (Pipeline.arrRef spec0 0) (((cfg0.win 0).blk t).view.emb (ix2 r l)) = _
  refine congrArg _ (funext fun a => Fin.ext ?_)
  match a with
  | ⟨0, _⟩ => show win0_0.index t (0 : Fin 2) * 4000 + 1 * r.val = R.val; omega
  | ⟨1, _⟩ => show win0_0.index t (1 : Fin 2) * 6 + 1 * l.val = l.val; omega

/-- The first layer's weight block is the whole matrix at every point. -/
theorem read0_1 (c : Dev nD) (t : Fin cfg0.N) (a : Fin 6) (b : Fin 128) :
    iblk0 V c 1 t (ix2 a b) = V c (Pipeline.arrRef spec0 1) (ix2 a b) := by
  obtain ⟨-, -, e0, e1, -⟩ := idx0 t
  unfold iblk0
  show V c (Pipeline.arrRef spec0 1) (((cfg0.win 1).blk t).view.emb (ix2 a b)) = _
  refine congrArg _ (funext fun d => Fin.ext ?_)
  match d with
  | ⟨0, _⟩ => show win0_1.index t (0 : Fin 2) * 6 + 1 * a.val = a.val; omega
  | ⟨1, _⟩ => show win0_1.index t (1 : Fin 2) * 128 + 1 * b.val = b.val; omega

/-- The first bias's block is the whole row at every point. -/
theorem read0_2 (c : Dev nD) (t : Fin cfg0.N) (a : Fin 1) (b : Fin 128) :
    iblk0 V c 2 t (ix2 a b) = V c (Pipeline.arrRef spec0 2) (ix2 a b) := by
  obtain ⟨-, -, -, -, e0, e1, -⟩ := idx0 t
  unfold iblk0
  show V c (Pipeline.arrRef spec0 2) (((cfg0.win 2).blk t).view.emb (ix2 a b)) = _
  refine congrArg _ (funext fun d => Fin.ext ?_)
  match d with
  | ⟨0, _⟩ => show win0_2.index t (0 : Fin 2) * 1 + 1 * a.val = a.val; omega
  | ⟨1, _⟩ => show win0_2.index t (1 : Fin 2) * 128 + 1 * b.val = b.val; omega

/-- The second layer's weight block is the whole matrix at every point. -/
theorem read0_3 (c : Dev nD) (t : Fin cfg0.N) (a : Fin 128) (b : Fin 128) :
    iblk0 V c 3 t (ix2 a b) = V c (Pipeline.arrRef spec0 3) (ix2 a b) := by
  obtain ⟨-, -, -, -, -, -, e0, e1, -⟩ := idx0 t
  unfold iblk0
  show V c (Pipeline.arrRef spec0 3) (((cfg0.win 3).blk t).view.emb (ix2 a b)) = _
  refine congrArg _ (funext fun d => Fin.ext ?_)
  match d with
  | ⟨0, _⟩ => show win0_3.index t (0 : Fin 2) * 128 + 1 * a.val = a.val; omega
  | ⟨1, _⟩ => show win0_3.index t (1 : Fin 2) * 128 + 1 * b.val = b.val; omega

/-- The second bias's block is the whole row at every point. -/
theorem read0_4 (c : Dev nD) (t : Fin cfg0.N) (a : Fin 1) (b : Fin 128) :
    iblk0 V c 4 t (ix2 a b) = V c (Pipeline.arrRef spec0 4) (ix2 a b) := by
  obtain ⟨-, -, -, -, -, -, -, -, e0, e1, -⟩ := idx0 t
  unfold iblk0
  show V c (Pipeline.arrRef spec0 4) (((cfg0.win 4).blk t).view.emb (ix2 a b)) = _
  refine congrArg _ (funext fun d => Fin.ext ?_)
  match d with
  | ⟨0, _⟩ => show win0_4.index t (0 : Fin 2) * 1 + 1 * a.val = a.val; omega
  | ⟨1, _⟩ => show win0_4.index t (1 : Fin 2) * 128 + 1 * b.val = b.val; omega

/-- The whole [20000,128] array the region leaves: row by row the perceptron of the feature array's row. -/
noncomputable def G0 (c : Dev nD) : S20000x128.Idx → EReal := fun i =>
  Cert.Spec.mlp2 (Cert.Spec.row (V c (Pipeline.arrRef spec0 0)) (i 0)) (Cert.Spec.m2 (V c (Pipeline.arrRef spec0 1)))
    (fun j => V c (Pipeline.arrRef spec0 2) (ix2 (0 : Fin 1) j)) (Cert.Spec.m2 (V c (Pipeline.arrRef spec0 3)))
    (fun j => V c (Pipeline.arrRef spec0 4) (ix2 (0 : Fin 1) j)) (i 1)

end Value

section Value
variable (V : (c : Dev nD) → (b : Ref sig .tc) → Buf (Elt Ideal) ((c : Thread nD τ).loc b))

/-- WHAT POINT `t` WRITES BACK is block `t` of `G0`: the payload at an index of the block is the perceptron of that row
    of the feature block, which is row `4000 t + r` of the feature array, over the whole weights and biases. -/
theorem flushed0_5_eq (c : Dev nD) (t : Fin cfg0.N) :
    (dat0 (F := Ideal) V c).flushed 5 t = ((cfg0.win 5).blk t).view.read (Elt Ideal) (G0 V c) := by
  show (cfg0.win 5).cut (grid0.coords t) ((dat0 V c).after 5 t) = _
  rw [after0_5]
  unfold out0_5
  rw [View.canon_unit_zero hz2_0]
  simp only [View.ld_unit_zero (S := S4000x6) hz2_0, View.ld_unit_zero (S := S6x128) hz2_0, View.ld_unit_zero (S := S1x128) hz2_0,
    View.ld_unit_zero (S := S128x128) hz2_0]
  funext j
  have hj0 : (j 0).val < 4000 := (j 0).isLt
  have hj1 : (j 1).val < 128 := (j 1).isLt
  have ht : t.val < 5 := t.isLt
  obtain ⟨-, -, -, -, -, -, -, -, -, -, e0, e1⟩ := idx0 t
  have hemb : ((cfg0.win 5).blk t).view.emb j
      = ix2 (⟨t.val * 4000 + (j 0).val, by omega⟩ : Fin 20000) (⟨(j 1).val, hj1⟩ : Fin 128) := by
    funext a; apply Fin.ext
    match a with
    | ⟨0, _⟩ => show win0_5.index t (0 : Fin 2) * 4000 + 1 * (j 0).val = t.val * 4000 + (j 0).val; omega
    | ⟨1, _⟩ => show win0_5.index t (1 : Fin 2) * 128 + 1 * (j 1).val = (j 1).val; omega
  show k0_pay1 (F := Ideal) _ _ _ _ _ ((cfg0.win 5).xinj (grid0.coords t) j) = G0 V c (((cfg0.win 5).blk t).view.emb j)
  rw [hemb, pay0_apply']
  unfold G0
  exact mlp2_congr0 (funext fun l => read0_0 V c t _ l _ rfl) (funext fun a => funext fun b => read0_1 V c t a b)
    (funext fun b => read0_2 V c t 0 b) (funext fun a => funext fun b => read0_3 V c t a b)
    (funext fun b => read0_4 V c t 0 b) _

/-- An index of the result array is in point `t`'s block iff each coordinate is in the block's range on its axis. -/
theorem mem_blk0_5 (t : Fin cfg0.N) (i : S20000x128.Idx) :
    i ∈ ((cfg0.win 5).blk t).view.set ↔ ∀ a : Fin 2, win0_5.index t a * S4000x128.size a ≤ (i a).val
      ∧ (i a).val < win0_5.index t a * S4000x128.size a + S4000x128.size a := by
  show i ∈ ((View.whole main_v14).slice (win0_5.rect t)).set ↔ _
  rw [View.set_slice_whole, Rect.mem_set_unit]
  exact Iff.rfl

/-- Row `r` of the result is written by point `r / 4000`: the five blocks of 4000 rows tile the 20000 rows. -/
theorem covered0_5 (i : S20000x128.Idx) :
    ∃ t : Fin cfg0.N, (cfg0.win 5).flush t = true ∧ i ∈ ((cfg0.win 5).blk t).view.set := by
  have hi0 : (i 0).val < 20000 := (i 0).isLt
  have hi1 : (i 1).val < 128 := (i 1).isLt
  have hlt : (i 0).val / 4000 < cfg0.N := by show _ < 5; omega
  obtain ⟨-, -, -, -, -, -, -, -, -, -, e0, e1⟩ := idx0 ⟨(i 0).val / 4000, hlt⟩
  refine ⟨⟨(i 0).val / 4000, hlt⟩, flush0_5 _, ?_⟩
  rw [mem_blk0_5]
  intro a
  match a with
  | ⟨0, _⟩ =>
    show win0_5.index ⟨(i 0).val / 4000, hlt⟩ (0 : Fin 2) * 4000 ≤ (i 0).val
      ∧ (i 0).val < win0_5.index ⟨(i 0).val / 4000, hlt⟩ (0 : Fin 2) * 4000 + 4000
    rw [e0]; show (i 0).val / 4000 * 4000 ≤ (i 0).val ∧ (i 0).val < (i 0).val / 4000 * 4000 + 4000; omega
  | ⟨1, _⟩ =>
    show win0_5.index ⟨(i 0).val / 4000, hlt⟩ (1 : Fin 2) * 128 ≤ (i 1).val
      ∧ (i 1).val < win0_5.index ⟨(i 0).val / 4000, hlt⟩ (1 : Fin 2) * 128 + 128
    rw [e1]; omega

/-- THE RESULT ARRAY after the region: at row `p`, column `q` the two-layer perceptron of row `p` of the feature array
    over the region's weight and bias arrays (the biases one-row matrices, read at row 0). -/
theorem final0_5 (c : Dev nD) (p : Fin 20000) (q : Fin 128) :
    (dat0 (F := Ideal) V c).arrAt 5 cfg0.N (ix2 p q)
      = Cert.Spec.mlp2 (Cert.Spec.row (V c (Pipeline.arrRef spec0 0)) p) (Cert.Spec.m2 (V c (Pipeline.arrRef spec0 1)))
          (fun j => V c (Pipeline.arrRef spec0 2) (ix2 (0 : Fin 1) j)) (Cert.Spec.m2 (V c (Pipeline.arrRef spec0 3)))
          (fun j => V c (Pipeline.arrRef spec0 4) (ix2 (0 : Fin 1) j)) q := by
  rw [(dat0 (F := Ideal) V c).arrAt_eq_of_cover 5 (G0 V c) (fun t _ => flushed0_5_eq V c t) covered0_5]
  rfl

end Value

end Cert.KernelIdeal.Hand

end
-- ==== Proof.KI.Stage0.lean ====
/-
  The node encoder's region against the reference, array to array.

  The region's result array, read at every index, is the two-layer perceptron of the feature array's row over the
  region's weights and one-row biases; the reference's node encoder, read at the same index, is the same perceptron of
  the same row over its weights and [128] biases. Under the identification of the inputs the two arrays are equal.
-/
import proofs.«152161_j29669634081217_2_alg».proof.Proof.KI.Val0
import proofs.«152161_j29669634081217_2_alg».proof.Proof.Ref.StageEncN

set_option maxRecDepth 16384

noncomputable section

namespace Cert.KernelIdeal.Hand

open BigOperators Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

section Stage
variable (V : (c : Dev nD) → (b : Ref sig .tc) → Buf (Elt Ideal) ((c : Thread nD τ).loc b))

/-- THE REGION AGAINST THE REFERENCE, array to array: when the region's input arrays are the reference's — the feature
    slice and the two weight matrices the same arrays, each bias the reference's [128] vector laid as the one row of a
    [1,128] matrix — the result array the region leaves is the reference's node encoder of them. -/
theorem stage0_5 [Cert.ReferenceIdeal.Facts₀] (c : Dev nD)
    (X6 : FVec Ideal Cert.ReferenceIdeal.S20000x6 .f32) (W1 : FVec Ideal Cert.ReferenceIdeal.S6x128 .f32)
    (b1 : FVec Ideal Cert.ReferenceIdeal.S128 .f32) (W2 : FVec Ideal Cert.ReferenceIdeal.S128x128 .f32)
    (b2 : FVec Ideal Cert.ReferenceIdeal.S128 .f32)
    (h0 : V c (Pipeline.arrRef spec0 0) = X6) (h1 : V c (Pipeline.arrRef spec0 1) = W1)
    (h2 : ∀ j : Fin 128, V c (Pipeline.arrRef spec0 2) (ix2 (0 : Fin 1) j) = b1 (ix1 j))
    (h3 : V c (Pipeline.arrRef spec0 3) = W2)
    (h4 : ∀ j : Fin 128, V c (Pipeline.arrRef spec0 4) (ix2 (0 : Fin 1) j) = b2 (ix1 j)) :
    (dat0 (F := Ideal) V c).arrAt 5 cfg0.N = Cert.ReferenceIdeal.Hand.encN X6 W1 b1 W2 b2 := by
  refine funext fun (i : S20000x128.Idx) => ?_
  obtain ⟨p, q, rfl⟩ : ∃ (p : Fin 20000) (q : Fin 128), i = ix2 p q := ⟨i 0, i 1, eq_ix2 i⟩
  rw [final0_5 V c p q, Cert.ReferenceIdeal.Hand.refEncN]
  exact mlp2_congr0 (by rw [h0]) (by rw [h1]) (funext h2) (by rw [h3]) (funext h4) q

end Stage

end Cert.KernelIdeal.Hand

end
-- ==== Proof.KI.Val1.lean ====
/-
  Region 1, the edge encoder: the value half, over the extended reals. The body's payload at an index is the
  two-layer perceptron of one attribute row; each point writes back its block of ONE whole-array function, the
  perceptron applied row by row; the twenty blocks tile the array, so the array ends holding that function.
-/
import proofs.«152161_j29669634081217_2_alg».proof.Proof.KI.Reg1
import proofs.«152161_j29669634081217_2_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## The two block products' operand indices, axis by axis -/

theorem lhsA1_0 (i : S8000x128.Idx) (q : dot_S8000x10_S10x128_S8000x128_1_0_0_1_n_n.contr.Idx) :
    (dot_S8000x10_S10x128_S8000x128_1_0_0_1_n_n.lhsIdx i q 0).val = (i 0).val := by
  unfold DotDims.lhsIdx
  rw [dif_neg (show ¬(0 : Fin S8000x10.rank) ∈ dot_S8000x10_S10x128_S8000x128_1_0_0_1_n_n.lhsBatch by decide),
    dif_pos (show (0 : Fin S8000x10.rank) ∈ dot_S8000x10_S10x128_S8000x128_1_0_0_1_n_n.lhsNonContracting by decide)]
  rfl

theorem lhsA1_1 (i : S8000x128.Idx) (q : dot_S8000x10_S10x128_S8000x128_1_0_0_1_n_n.contr.Idx) :
    (dot_S8000x10_S10x128_S8000x128_1_0_0_1_n_n.lhsIdx i q 1).val = (q ⟨0, by decide⟩).val :=
  dot_S8000x10_S10x128_S8000x128_1_0_0_1_n_n.lhsIdx_val_of_single rfl i q

theorem rhsA1_0 (i : S8000x128.Idx) (q : dot_S8000x10_S10x128_S8000x128_1_0_0_1_n_n.contr.Idx) :
    (dot_S8000x10_S10x128_S8000x128_1_0_0_1_n_n.rhsIdx i q 0).val = (q ⟨0, by decide⟩).val :=
  dot_S8000x10_S10x128_S8000x128_1_0_0_1_n_n.rhsIdx_val_of_single rfl i q

theorem rhsA1_1 (i : S8000x128.Idx) (q : dot_S8000x10_S10x128_S8000x128_1_0_0_1_n_n.contr.Idx) :
    (dot_S8000x10_S10x128_S8000x128_1_0_0_1_n_n.rhsIdx i q 1).val = (i 1).val := by
  unfold DotDims.rhsIdx
  rw [dif_neg (show ¬(1 : Fin S10x128.rank) ∈ dot_S8000x10_S10x128_S8000x128_1_0_0_1_n_n.rhsBatch by decide),
    dif_pos (show (1 : Fin S10x128.rank) ∈ dot_S8000x10_S10x128_S8000x128_1_0_0_1_n_n.rhsNonContracting by decide)]
  rfl

/-- The first block product at an index: row p of the attributes against column q of the first weight matrix. -/
theorem mmA1_apply {φ₁ φ₂ : FTy} (x : FVec Ideal S8000x10 φ₁) (w : FVec Ideal S10x128 φ₂) (p : Fin 8000) (q : Fin 128) :
    FloatOps.matmul dot_S8000x10_S10x128_S8000x128_1_0_0_1_n_n none x w (constant (F := Ideal) S8000x128 .f32 0x00000000#32) (ix2 p q)
      = ∑ k : Fin 10, x (ix2 p k) * w (ix2 k q) := by
  rw [Ideal.matmul_constant_zero_apply, ← Equiv.sum_comp (contrEquiv1 dot_S8000x10_S10x128_S8000x128_1_0_0_1_n_n 10 rfl rfl).symm]
  refine Finset.sum_congr rfl fun k _ => ?_
  have hk := contrEquiv1_symm_val dot_S8000x10_S10x128_S8000x128_1_0_0_1_n_n 10 rfl rfl k
  have el : dot_S8000x10_S10x128_S8000x128_1_0_0_1_n_n.lhsIdx (ix2 p q) ((contrEquiv1 dot_S8000x10_S10x128_S8000x128_1_0_0_1_n_n 10 rfl rfl).symm k) = ix2 p k :=
    funext fun a => Fin.ext (by
      match a with
      | ⟨0, _⟩ => exact lhsA1_0 _ _
      | ⟨1, _⟩ => exact (lhsA1_1 _ _).trans hk)
  have er : dot_S8000x10_S10x128_S8000x128_1_0_0_1_n_n.rhsIdx (ix2 p q) ((contrEquiv1 dot_S8000x10_S10x128_S8000x128_1_0_0_1_n_n 10 rfl rfl).symm k) = ix2 k q :=
    funext fun a => Fin.ext (by
      match a with
      | ⟨0, _⟩ => exact (rhsA1_0 _ _).trans hk
      | ⟨1, _⟩ => exact rhsA1_1 _ _)
  rw [el, er]

theorem lhsB1_0 (i : S8000x128.Idx) (q : dot_S8000x128_S128x128_S8000x128_1_0_0_1_n_n.contr.Idx) :
    (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide),
    dif_pos (show (0 : Fin S8000x128.rank) ∈ dot_S8000x128_S128x128_S8000x128_1_0_0_1_n_n.lhsNonContracting by decide)]
  rfl

theorem lhsB1_1 (i : S8000x128.Idx) (q : dot_S8000x128_S128x128_S8000x128_1_0_0_1_n_n.contr.Idx) :
    (dot_S8000x128_S128x128_S8000x128_1_0_0_1_n_n.lhsIdx i q 1).val = (q ⟨0, by decide⟩).val :=
  dot_S8000x128_S128x128_S8000x128_1_0_0_1_n_n.lhsIdx_val_of_single rfl i q

theorem rhsB1_0 (i : S8000x128.Idx) (q : dot_S8000x128_S128x128_S8000x128_1_0_0_1_n_n.contr.Idx) :
    (dot_S8000x128_S128x128_S8000x128_1_0_0_1_n_n.rhsIdx i q 0).val = (q ⟨0, by decide⟩).val :=
  dot_S8000x128_S128x128_S8000x128_1_0_0_1_n_n.rhsIdx_val_of_single rfl i q

theorem rhsB1_1 (i : S8000x128.Idx) (q : dot_S8000x128_S128x128_S8000x128_1_0_0_1_n_n.contr.Idx) :
    (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide),
    dif_pos (show (1 : Fin S128x128.rank) ∈ dot_S8000x128_S128x128_S8000x128_1_0_0_1_n_n.rhsNonContracting by decide)]
  rfl

/-- The second block product at an index: row p of the hidden layer against column q of the second weight matrix. -/
theorem mmB1_apply {φ₁ φ₂ : FTy} (x : FVec Ideal S8000x128 φ₁) (w : FVec Ideal S128x128 φ₂) (p : Fin 8000) (q : Fin 128) :
    FloatOps.matmul dot_S8000x128_S128x128_S8000x128_1_0_0_1_n_n none x w (constant (F := Ideal) S8000x128 .f32 0x00000000#32) (ix2 p q)
      = ∑ k : Fin 128, x (ix2 p k) * w (ix2 k q) := by
  rw [Ideal.matmul_constant_zero_apply, ← Equiv.sum_comp (contrEquiv1 dot_S8000x128_S128x128_S8000x128_1_0_0_1_n_n 128 rfl rfl).symm]
  refine Finset.sum_congr rfl fun k _ => ?_
  have hk := contrEquiv1_symm_val dot_S8000x128_S128x128_S8000x128_1_0_0_1_n_n 128 rfl rfl k
  have el : dot_S8000x128_S128x128_S8000x128_1_0_0_1_n_n.lhsIdx (ix2 p q) ((contrEquiv1 dot_S8000x128_S128x128_S8000x128_1_0_0_1_n_n 128 rfl rfl).symm k) = ix2 p k :=
    funext fun a => Fin.ext (by
      match a with
      | ⟨0, _⟩ => exact lhsB1_0 _ _
      | ⟨1, _⟩ => exact (lhsB1_1 _ _).trans hk)
  have er : dot_S8000x128_S128x128_S8000x128_1_0_0_1_n_n.rhsIdx (ix2 p q) ((contrEquiv1 dot_S8000x128_S128x128_S8000x128_1_0_0_1_n_n 128 rfl rfl).symm k) = ix2 k q :=
    funext fun a => Fin.ext (by
      match a with
      | ⟨0, _⟩ => exact (rhsB1_0 _ _).trans hk
      | ⟨1, _⟩ => exact rhsB1_1 _ _)
  rw [el, er]

/-- The body's payload at row p, column q of the block: the two-layer perceptron of row p of the attribute block. -/
theorem pay1_apply (x0 : Vec Ideal S8000x10 .f32) (x1 : Vec Ideal S10x128 .f32) (x2 : Vec Ideal S1x128 .f32)
    (x3 : Vec Ideal S128x128 .f32) (x4 : Vec Ideal S1x128 .f32) (p : Fin 8000) (q : Fin 128) :
    k1_pay1 (F := Ideal) x0 x1 x2 x3 x4 (ix2 p q)
      = Cert.Spec.mlp2 (Cert.Spec.row x0 p) (Cert.Spec.m2 x1) (fun j => x2 (ix2 0 j)) (Cert.Spec.m2 x3) (fun j => x4 (ix2 0 j)) q := by
  unfold k1_pay1
  simp only [matmul]
  rw [truncf_apply, addf_apply, mmB1_apply, broadcastTo_1b_ab_apply, shapeCast_self, shapeCast_self]
  unfold Cert.Spec.mlp2 Cert.Spec.aff Cert.Spec.lin
  congr 1
  refine Finset.sum_congr rfl fun k _ => ?_
  rw [truncf_apply, truncf_apply, maximumf_apply, addf_apply, mmA1_apply, broadcastTo_1b_ab_apply, broadcast_apply]
  show max _ (Ideal.ofBits .f32 0x00000000#32) * _ = _
  rw [Ideal.ofBits_zero_f32]
  rfl

/-! ## From blocks to the array -/

variable (V : (c : Dev nD) → (b : Ref sig .tc) → Buf (Elt Ideal) ((c : Thread nD τ).loc b))

theorem zero_off1 : (![0, 0] : Fin 2 → Nat) = fun _ => 0 := funext fun a => by fin_cases a <;> rfl

/-- The perceptron depends on its arguments only through their values. -/
theorem mlp2_congr1 {K H N : ℕ} {x x' : Fin K → EReal} {Wa Wa' : Fin K → Fin H → EReal} {ba ba' : Fin H → EReal}
    {Wb Wb' : Fin H → Fin N → EReal} {bb bb' : Fin N → EReal} {j j' : Fin N}
    (hx : x = x') (hWa : Wa = Wa') (hba : ba = ba') (hWb : Wb = Wb') (hbb : bb = bb') (hj : j = j') :
    Cert.Spec.mlp2 x Wa ba Wb bb j = Cert.Spec.mlp2 x' Wa' ba' Wb' bb' j' := by
  subst hx hWa hba hWb hbb hj; rfl

/-- The whole result array as one function of the five input arrays: row r is the perceptron of attribute row r. -/
noncomputable abbrev G1 (X : S160000x10.Idx → EReal) (Wa : S10x128.Idx → EReal) (Ba : S1x128.Idx → EReal) (Wb : S128x128.Idx → EReal)
    (Bb : S1x128.Idx → EReal) : S160000x128.Idx → EReal :=
  fun i => Cert.Spec.mlp2 (Cert.Spec.row X (i 0)) (Cert.Spec.m2 Wa) (fun j => Ba (ix2 0 j)) (Cert.Spec.m2 Wb) (fun j => Bb (ix2 0 j)) (i 1)

/-- The index maps, decided over the twenty points: the attribute block and the result block sit at block row t,
    every other block coordinate is 0. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is block t of G1 of the five arrays as the region finds them. -/
theorem flushed1_5_eq (c : Dev nD) (t : Fin cfg1.N) :
    (dat1 (F := Ideal) V c).flushed 5 t = ((cfg1.win 5).blk t).view.read (Elt Ideal)
      (G1 (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 V c).after 5 t) = _
  rw [after1_5]
  unfold out1_5
  rw [View.canon_unit_zero zero_off1]
  simp only [View.ld_unit_zero (S := S8000x10) zero_off1, View.ld_unit_zero (S := S10x128) zero_off1,
    View.ld_unit_zero (S := S1x128) zero_off1, View.ld_unit_zero (S := S128x128) zero_off1]
  obtain ⟨e00, e01, e10, e11, e20, e21, e30, e31, e40, e41, e50, e51⟩ := idx_facts1 t
  funext j
  obtain ⟨p, q, rfl⟩ : ∃ (p : Fin 8000) (q : Fin 128), j = ix2 p q := ⟨j 0, j 1, eq_ix2 j⟩
  refine (pay1_apply (iblk1 V c 0 t) (iblk1 V c 1 t) (iblk1 V c 2 t) (iblk1 V c 3 t) (iblk1 V c 4 t) p q).trans ?_
  show _ = G1 (V c (Pipeline.arrRef spec1 0)) (V c (Pipeline.arrRef spec1 1)) (V c (Pipeline.arrRef spec1 2))
    (V c (Pipeline.arrRef spec1 3)) (V c (Pipeline.arrRef spec1 4)) (((cfg1.win 5).blk t).view.emb (ix2 p q))
  refine mlp2_congr1 ?_ ?_ ?_ ?_ ?_ ?_
  · funext k
    show V c (Pipeline.arrRef spec1 0) (((cfg1.win 0).blk t).view.emb (ix2 p k))
      = V c (Pipeline.arrRef spec1 0) (ix2 (((cfg1.win 5).blk t).view.emb (ix2 p q) 0) k)
    refine congrArg _ (funext fun a => Fin.ext ?_)
    match a with
    | ⟨0, _⟩ => show win1_0.index t (0 : Fin 2) * 8000 + 1 * p.val = win1_5.index t (0 : Fin 2) * 8000 + 1 * p.val; omega
    | ⟨1, _⟩ => show win1_0.index t (1 : Fin 2) * 10 + 1 * k.val = k.val; omega
  · funext k j
    show V c (Pipeline.arrRef spec1 1) (((cfg1.win 1).blk t).view.emb (ix2 k j)) = V c (Pipeline.arrRef spec1 1) (ix2 k j)
    refine congrArg _ (funext fun a => Fin.ext ?_)
    match a with
    | ⟨0, _⟩ => show win1_1.index t (0 : Fin 2) * 10 + 1 * k.val = k.val; omega
    | ⟨1, _⟩ => show win1_1.index t (1 : Fin 2) * 128 + 1 * j.val = j.val; omega
  · funext j
    show V c (Pipeline.arrRef spec1 2) (((cfg1.win 2).blk t).view.emb (ix2 0 j)) = V c (Pipeline.arrRef spec1 2) (ix2 0 j)
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * j.val = j.val; omega
  · funext k j
    show V c (Pipeline.arrRef spec1 3) (((cfg1.win 3).blk t).view.emb (ix2 k j)) = V c (Pipeline.arrRef spec1 3) (ix2 k j)
    refine congrArg _ (funext fun a => Fin.ext ?_)
    match a with
    | ⟨0, _⟩ => show win1_3.index t (0 : Fin 2) * 128 + 1 * k.val = k.val; omega
    | ⟨1, _⟩ => show win1_3.index t (1 : Fin 2) * 128 + 1 * j.val = j.val; omega
  · funext j
    show V c (Pipeline.arrRef spec1 4) (((cfg1.win 4).blk t).view.emb (ix2 0 j)) = V c (Pipeline.arrRef spec1 4) (ix2 0 j)
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * j.val = j.val; omega
  · apply Fin.ext
    show q.val = win1_5.index t (1 : Fin 2) * 128 + 1 * q.val
    omega

/-- An index of the array is in point t's block iff each coordinate is in the block's range on its axis. -/
theorem mem_blk1_5 (t : Fin cfg1.N) (i : S160000x128.Idx) :
    i ∈ ((cfg1.win 5).blk t).view.set ↔ ∀ a : Fin 2, win1_5.index t a * S8000x128.size a ≤ (i a).val
      ∧ (i a).val < win1_5.index t a * S8000x128.size a + S8000x128.size a := by
  show i ∈ ((View.whole main_v17).slice (win1_5.rect t)).set ↔ _
  rw [View.set_slice_whole, Rect.mem_set_unit]
  exact Iff.rfl

/-- Row r of the array lies in the block of point r / 8000: the twenty blocks of 8000 rows tile the 160000 rows. -/
theorem cover1_5_arr (i : S160000x128.Idx) :
    ∃ t : Fin cfg1.N, (cfg1.win 5).flush t = true ∧ i ∈ ((cfg1.win 5).blk t).view.set := by
  have hi0 : (i 0).val < 160000 := (i 0).isLt
  have hi1 : (i 1).val < 128 := (i 1).isLt
  let t : Fin cfg1.N := ⟨(i 0).val / 8000, by show (i 0).val / 8000 < 20; omega⟩
  obtain ⟨e00, e01, e10, e11, e20, e21, e30, e31, e40, e41, e50, e51⟩ := idx_facts1 t
  have ht : t.val = (i 0).val / 8000 := rfl
  refine ⟨t, flush1_5 t, ?_⟩
  rw [mem_blk1_5]
  intro a
  match a with
  | ⟨0, _⟩ => show win1_5.index t (0 : Fin 2) * 8000 ≤ (i 0).val ∧ (i 0).val < win1_5.index t (0 : Fin 2) * 8000 + 8000; omega
  | ⟨1, _⟩ => show win1_5.index t (1 : Fin 2) * 128 ≤ (i 1).val ∧ (i 1).val < win1_5.index t (1 : Fin 2) * 128 + 128; omega

/-- The result array after the region's twenty points: row p is the perceptron of attribute row p. -/
theorem final1_5 (c : Dev nD) (p : Fin 160000) (q : Fin 128) :
    (dat1 (F := Ideal) V c).arrAt 5 cfg1.N (ValueIdx.ix2 p q)
      = Cert.Spec.mlp2 (Cert.Spec.row (V c (Pipeline.arrRef spec1 0)) p) (Cert.Spec.m2 (V c (Pipeline.arrRef spec1 1)))
          (fun j => V c (Pipeline.arrRef spec1 2) (ValueIdx.ix2 0 j)) (Cert.Spec.m2 (V c (Pipeline.arrRef spec1 3)))
          (fun j => V c (Pipeline.arrRef spec1 4) (ValueIdx.ix2 0 j)) q := by
  rw [(dat1 (F := Ideal) V c).arrAt_eq_of_cover 5
    (G1 (V c (Pipeline.arrRef spec1 0)) (V c (Pipeline.arrRef spec1 1)) (V c (Pipeline.arrRef spec1 2))
      (V c (Pipeline.arrRef spec1 3)) (V c (Pipeline.arrRef spec1 4)))
    (fun t _ => flushed1_5_eq V c t) cover1_5_arr]

end Cert.KernelIdeal.Hand

end
-- ==== Proof.KI.Stage1.lean ====
/-
  Region 1, the edge encoder, as an equation of arrays: whatever fills the five input windows' arrays, if it is the
  reference's five inputs (the two bias rows entry by entry, the kernel holding them as one-row matrices), then the
  result array after the region's twenty points is the reference's edge-encoder term of those inputs.
-/
import proofs.«152161_j29669634081217_2_alg».proof.Proof.KI.Val1
import proofs.«152161_j29669634081217_2_alg».proof.Proof.Ref.StageEncE

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- Both sides are the two-layer perceptron of attribute row p at column q: the kernel's by the region's value
    lemma, the reference's by its stage lemma; the inputs agree by hypothesis. -/
theorem stage1_5 [Cert.ReferenceIdeal.Facts₀] (c : Dev nD)
    (X : FVec Ideal S160000x10 .f32) (Wa : FVec Ideal S10x128 .f32) (ba : FVec Ideal S128 .f32)
    (Wb : FVec Ideal S128x128 .f32) (bb : FVec Ideal S128 .f32)
    (h0 : V c (Pipeline.arrRef spec1 0) = X) (h1 : V c (Pipeline.arrRef spec1 1) = Wa)
    (h2 : ∀ j : Fin 128, V c (Pipeline.arrRef spec1 2) (ValueIdx.ix2 0 j) = ba (ValueIdx.ix1 j))
    (h3 : V c (Pipeline.arrRef spec1 3) = Wb)
    (h4 : ∀ j : Fin 128, V c (Pipeline.arrRef spec1 4) (ValueIdx.ix2 0 j) = bb (ValueIdx.ix1 j)) :
    ((dat1 (F := Ideal) V c).arrAt 5 cfg1.N : S160000x128.Idx → EReal) = Cert.ReferenceIdeal.Hand.encE X Wa ba Wb bb := by
  funext i
  obtain ⟨p, q, rfl⟩ : ∃ (p : Fin 160000) (q : Fin 128), i = ix2 p q := ⟨i 0, i 1, eq_ix2 i⟩
  refine (final1_5 V c p q).trans ?_
  refine Eq.trans ?_ (Cert.ReferenceIdeal.Hand.refEncE X Wa ba Wb bb p q).symm
  refine mlp2_congr1 ?_ ?_ ?_ ?_ ?_ rfl
  · rw [h0]
  · rw [h1]
  · funext j; exact h2 j
  · rw [h3]
  · funext j; exact h4 j

end Cert.KernelIdeal.Hand

end
-- ==== Proof.KI.Val2.lean ====
/-
  Region 2 of the kernel program, the value half over the extended reals: after the region, the array of the
  projection a holds, at row p and column q, row p of the node features times the first weight matrix at column q;
  the array of b the same with the second weight matrix. Each grid point writes back one block of 4000 rows of ONE
  function of the whole input arrays, and the five blocks tile the 20000 rows.
-/
import proofs.«152161_j29669634081217_2_alg».proof.Proof.KI.Reg2
import proofs.«152161_j29669634081217_2_alg».proof.Proof.Spec
import Idealize.ShloMosaic.PureOps.Ideal.Laws
import Idealize.ShloMosaic.Lib.Pipeline.Value
import Idealize.ShloMosaic.Lib.ValueIdx
import Idealize.ShloMosaic.Lib.ValueLayout
import Idealize.ShloMosaic.Lib.StackMember

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx BigOperators
open Idealize.ShloMosaic.Pipeline (Dat)

/-! ## The body's payloads at an entry of the block -/

/-- A block product into the zero block, at entry (a, b): the sum over the contracted coordinate c of
    A[a, c] · B[c, b]. Over the extended reals the block product and the host product are the same sum over the
    contraction index set, and the host product of plain dimension numbers is that sum by coordinates. -/
theorem blockProduct2_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) := by
  rw [Ideal.matmul_constant_zero_apply]
  exact (Ideal.dotGeneral_apply _ prec _ A B (ix2 a b)).symm.trans (StackMember.dotGeneral_plain_apply prec A B a b)

/-- The printed dimension numbers of the body's two products are the plain ones: the block's columns against the
    matrix's rows, no batch axis. -/
theorem dotBlock2_eq_plain : dot_S4000x128_S128x128_S4000x128_1_0_0_1_n_n = DotDims.plain 4000 128 128 := rfl

/-- The first payload at (p, q): the changes of format are the identity on extended reals, the casts are to the same
    shape, so what is left is row p of the feature block times the matrix, at column q. -/
theorem pay2_a_apply (x0 : Vec Ideal S4000x128 .f32) (x1 : Vec Ideal S128x128 .f32) (p : Fin 4000) (q : Fin 128) :
    k2_pay2 x0 x1 (ix2 p q) = Cert.Spec.lin (fun k => x0 (ix2 p k)) (fun k j => x1 (ix2 k j)) q := by
  unfold k2_pay2 k2_pay1
  simp only [shapeCast_self, matmul, dotBlock2_eq_plain]
  rw [truncf_apply]
  exact blockProduct2_apply none _ _ p q

/-- The second payload at (p, q): the same with the second matrix. -/
theorem pay2_b_apply (x0 : Vec Ideal S4000x128 .f32) (x2 : Vec Ideal S128x128 .f32) (p : Fin 4000) (q : Fin 128) :
    k2_pay3 x0 x2 (ix2 p q) = Cert.Spec.lin (fun k => x0 (ix2 p k)) (fun k j => x2 (ix2 k j)) q := by
  unfold k2_pay3 k2_pay1
  simp only [shapeCast_self, matmul, dotBlock2_eq_plain]
  rw [truncf_apply]
  exact blockProduct2_apply none _ _ p q

/-! ## The whole-array function each result is a block-by-block copy of -/

/-- Row `i 0` of the features times the matrix, at column `i 1`. -/
noncomputable def linArr2 (H : S20000x128.Idx → EReal) (W : S128x128.Idx → EReal) : S20000x128.Idx → EReal :=
  fun i => Cert.Spec.lin (Cert.Spec.row H (i 0)) (Cert.Spec.m2 W) (i 1)

theorem linArr2_apply (H : S20000x128.Idx → EReal) (W : S128x128.Idx → EReal) (p : Fin 20000) (q : Fin 128) :
    linArr2 H W (ix2 p q) = Cert.Spec.lin (Cert.Spec.row H p) (Cert.Spec.m2 W) q := rfl

/-! ## Where the windows' blocks lie -/

theorem zeroOff2 : (![0, 0] : Fin 2 → Nat) = fun _ => 0 := funext fun a => by fin_cases a <;> rfl

/-- The index maps over the grid of 5 points: the feature window and the two result windows sit at block row `t`,
    column block 0; the two weight windows never move. -/
theorem blockIdx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

variable (V : (c : Dev nD) → (b : Ref sig .tc) → Buf (Elt Ideal) ((c : Thread nD τ).loc b))

/-- One entry of a block of the feature window is the entry of the whole array at row (block row) · 4000 + p. -/
theorem featBlock2_apply (c : Dev nD) (t : Fin cfg2.N) (p : Fin 4000) (k : Fin 128) (r : Fin 20000)
    (hr : r.val = t.val * 4000 + p.val) :
    iblk2 V c 0 t (ix2 p k) = (V c (Pipeline.arrRef spec2 0) : S20000x128.Idx → EReal) (ix2 r k) := by
  obtain ⟨e0, e1, -⟩ := blockIdx2 t
  show (V c (Pipeline.arrRef spec2 0) : S20000x128.Idx → EReal) (((cfg2.win 0).blk t).view.emb (ix2 p k)) = _
  refine congrArg _ ?_
  funext a; apply Fin.ext
  match a with
  | ⟨0, _⟩ => show win2_0.index t (0 : Fin 2) * 4000 + 1 * p.val = r.val; omega
  | ⟨1, _⟩ => show win2_0.index t (1 : Fin 2) * 128 + 1 * k.val = k.val; omega

/-- The first weight window's block is the whole matrix. -/
theorem wBlock2_1_apply (c : Dev nD) (t : Fin cfg2.N) (k : Fin 128) (j : Fin 128) :
    iblk2 V c 1 t (ix2 k j) = (V c (Pipeline.arrRef spec2 1) : S128x128.Idx → EReal) (ix2 k j) := by
  obtain ⟨-, -, e0, e1, -⟩ := blockIdx2 t
  show (V c (Pipeline.arrRef spec2 1) : S128x128.Idx → EReal) (((cfg2.win 1).blk t).view.emb (ix2 k j)) = _
  refine congrArg _ ?_
  funext a; apply Fin.ext
  match a with
  | ⟨0, _⟩ => show win2_1.index t (0 : Fin 2) * 128 + 1 * k.val = k.val; omega
  | ⟨1, _⟩ => show win2_1.index t (1 : Fin 2) * 128 + 1 * j.val = j.val; omega

/-- The second weight window's block likewise. -/
theorem wBlock2_2_apply (c : Dev nD) (t : Fin cfg2.N) (k : Fin 128) (j : Fin 128) :
    iblk2 V c 2 t (ix2 k j) = (V c (Pipeline.arrRef spec2 2) : S128x128.Idx → EReal) (ix2 k j) := by
  obtain ⟨-, -, -, -, e0, e1, -⟩ := blockIdx2 t
  show (V c (Pipeline.arrRef spec2 2) : S128x128.Idx → EReal) (((cfg2.win 2).blk t).view.emb (ix2 k j)) = _
  refine congrArg _ ?_
  funext a; apply Fin.ext
  match a with
  | ⟨0, _⟩ => show win2_2.index t (0 : Fin 2) * 128 + 1 * k.val = k.val; omega
  | ⟨1, _⟩ => show win2_2.index t (1 : Fin 2) * 128 + 1 * j.val = j.val; omega

/-! ## What a point writes back -/

/-- Point `t` writes back to the array of a block `t` of `linArr2` of the features and the first matrix. -/
theorem flushed2_3_eq (c : Dev nD) (t : Fin cfg2.N) :
    (dat2 (F := Ideal) V c).flushed 3 t
      = ((cfg2.win 3).blk t).view.read (Elt Ideal) (linArr2 (V c (Pipeline.arrRef spec2 0)) (V c (Pipeline.arrRef spec2 1))) := by
  show (cfg2.win 3).cut (grid2.coords t) ((dat2 (F := Ideal) V c).after 3 t) = _
  rw [after2_3]
  unfold out2_3
  rw [View.canon_unit_zero zeroOff2]
  simp only [View.ld_unit_zero (S := S4000x128) zeroOff2, View.ld_unit_zero (S := S128x128) zeroOff2]
  funext y
  obtain ⟨p, q, rfl⟩ : ∃ (p : Fin 4000) (q : Fin 128), y = ix2 p q := ⟨y 0, y 1, eq_ix2 y⟩
  obtain ⟨-, -, -, -, -, -, e0, e1, -⟩ := blockIdx2 t
  have ht : t.val < 5 := lt_of_lt_of_eq t.isLt (show cfg2.N = 5 from N_2)
  have hrow : t.val * 4000 + p.val < 20000 := by have := p.isLt; omega
  have hemb : ((cfg2.win 3).blk t).view.emb (ix2 p q) = (ix2 (⟨t.val * 4000 + p.val, hrow⟩ : Fin 20000) q : S20000x128.Idx) := by
    funext a; apply Fin.ext
    match a with
    | ⟨0, _⟩ => show win2_3.index t (0 : Fin 2) * 4000 + 1 * p.val = t.val * 4000 + p.val; omega
    | ⟨1, _⟩ => show win2_3.index t (1 : Fin 2) * 128 + 1 * q.val = q.val; omega
  show k2_pay2 (iblk2 V c 0 t) (iblk2 V c 1 t) (ix2 p q)
    = linArr2 (V c (Pipeline.arrRef spec2 0)) (V c (Pipeline.arrRef spec2 1)) (((cfg2.win 3).blk t).view.emb (ix2 p q))
  rw [hemb, linArr2_apply]
  refine (pay2_a_apply _ _ p q).trans ?_
  unfold Cert.Spec.lin
  refine Finset.sum_congr rfl fun k _ => ?_
  exact congrArg₂ (· * ·) (featBlock2_apply V c t p k ⟨t.val * 4000 + p.val, hrow⟩ rfl) (wBlock2_1_apply V c t k q)

/-- Point `t` writes back to the array of b block `t` of `linArr2` of the features and the second matrix. -/
theorem flushed2_4_eq (c : Dev nD) (t : Fin cfg2.N) :
    (dat2 (F := Ideal) V c).flushed 4 t
      = ((cfg2.win 4).blk t).view.read (Elt Ideal) (linArr2 (V c (Pipeline.arrRef spec2 0)) (V c (Pipeline.arrRef spec2 2))) := by
  show (cfg2.win 4).cut (grid2.coords t) ((dat2 (F := Ideal) V c).after 4 t) = _
  rw [after2_4]
  unfold out2_4
  rw [View.canon_unit_zero zeroOff2]
  simp only [View.ld_unit_zero (S := S4000x128) zeroOff2, View.ld_unit_zero (S := S128x128) zeroOff2]
  funext y
  obtain ⟨p, q, rfl⟩ : ∃ (p : Fin 4000) (q : Fin 128), y = ix2 p q := ⟨y 0, y 1, eq_ix2 y⟩
  obtain ⟨-, -, -, -, -, -, -, -, e0, e1⟩ := blockIdx2 t
  have ht : t.val < 5 := lt_of_lt_of_eq t.isLt (show cfg2.N = 5 from N_2)
  have hrow : t.val * 4000 + p.val < 20000 := by have := p.isLt; omega
  have hemb : ((cfg2.win 4).blk t).view.emb (ix2 p q) = (ix2 (⟨t.val * 4000 + p.val, hrow⟩ : Fin 20000) q : S20000x128.Idx) := by
    funext a; apply Fin.ext
    match a with
    | ⟨0, _⟩ => show win2_4.index t (0 : Fin 2) * 4000 + 1 * p.val = t.val * 4000 + p.val; omega
    | ⟨1, _⟩ => show win2_4.index t (1 : Fin 2) * 128 + 1 * q.val = q.val; omega
  show k2_pay3 (iblk2 V c 0 t) (iblk2 V c 2 t) (ix2 p q)
    = linArr2 (V c (Pipeline.arrRef spec2 0)) (V c (Pipeline.arrRef spec2 2)) (((cfg2.win 4).blk t).view.emb (ix2 p q))
  rw [hemb, linArr2_apply]
  refine (pay2_b_apply _ _ p q).trans ?_
  unfold Cert.Spec.lin
  refine Finset.sum_congr rfl fun k _ => ?_
  exact congrArg₂ (· * ·) (featBlock2_apply V c t p k ⟨t.val * 4000 + p.val, hrow⟩ rfl) (wBlock2_2_apply V c t k q)

/-! ## The five blocks tile the rows -/

/-- An index of a result array is in point `t`'s block iff each coordinate is in the block's range on its axis. -/
theorem mem_blk2_3 (t : Fin cfg2.N) (i : S20000x128.Idx) :
    i ∈ ((cfg2.win 3).blk t).view.set ↔ ∀ a : Fin 2, win2_3.index t a * S4000x128.size a ≤ (i a).val ∧ (i a).val < win2_3.index t a * S4000x128.size a + S4000x128.size a := by
  show i ∈ ((View.whole main_v22_0).slice (win2_3.rect t)).set ↔ _
  rw [View.set_slice_whole, Rect.mem_set_unit]
  exact Iff.rfl

theorem mem_blk2_4 (t : Fin cfg2.N) (i : S20000x128.Idx) :
    i ∈ ((cfg2.win 4).blk t).view.set ↔ ∀ a : Fin 2, win2_4.index t a * S4000x128.size a ≤ (i a).val ∧ (i a).val < win2_4.index t a * S4000x128.size a + S4000x128.size a := by
  show i ∈ ((View.whole main_v22_1).slice (win2_4.rect t)).set ↔ _
  rw [View.set_slice_whole, Rect.mem_set_unit]
  exact Iff.rfl

/-- Row r is written by point r / 4000. -/
theorem cover2_3 (i : S20000x128.Idx) : ∃ t : Fin cfg2.N, (cfg2.win 3).flush t = true ∧ i ∈ ((cfg2.win 3).blk t).view.set := by
  have hi0 : (i 0).val < 20000 := (i 0).isLt
  have hi1 : (i 1).val < 128 := (i 1).isLt
  have hN : cfg2.N = 5 := N_2
  let t : Fin cfg2.N := ⟨(i 0).val / 4000, by rw [hN]; omega⟩
  obtain ⟨-, -, -, -, -, -, e0, e1, -⟩ := blockIdx2 t
  have htv : t.val = (i 0).val / 4000 := rfl
  refine ⟨t, flush2_3 t, ?_⟩
  rw [mem_blk2_3]
  intro a
  match a with
  | ⟨0, _⟩ => show win2_3.index t (0 : Fin 2) * 4000 ≤ (i 0).val ∧ (i 0).val < win2_3.index t (0 : Fin 2) * 4000 + 4000; omega
  | ⟨1, _⟩ => show win2_3.index t (1 : Fin 2) * 128 ≤ (i 1).val ∧ (i 1).val < win2_3.index t (1 : Fin 2) * 128 + 128; omega

theorem cover2_4 (i : S20000x128.Idx) : ∃ t : Fin cfg2.N, (cfg2.win 4).flush t = true ∧ i ∈ ((cfg2.win 4).blk t).view.set := by
  have hi0 : (i 0).val < 20000 := (i 0).isLt
  have hi1 : (i 1).val < 128 := (i 1).isLt
  have hN : cfg2.N = 5 := N_2
  let t : Fin cfg2.N := ⟨(i 0).val / 4000, by rw [hN]; omega⟩
  obtain ⟨-, -, -, -, -, -, -, -, e0, e1⟩ := blockIdx2 t
  have htv : t.val = (i 0).val / 4000 := rfl
  refine ⟨t, flush2_4 t, ?_⟩
  rw [mem_blk2_4]
  intro a
  match a with
  | ⟨0, _⟩ => show win2_4.index t (0 : Fin 2) * 4000 ≤ (i 0).val ∧ (i 0).val < win2_4.index t (0 : Fin 2) * 4000 + 4000; omega
  | ⟨1, _⟩ => show win2_4.index t (1 : Fin 2) * 128 ≤ (i 1).val ∧ (i 1).val < win2_4.index t (1 : Fin 2) * 128 + 128; omega

/-! ## The two result arrays after the region -/

/-- The array of a after the region, at (p, q): row p of the features times the first weight matrix, at column q. -/
theorem final2_3 (c : Dev nD) (p : Fin 20000) (q : Fin 128) :
    (dat2 (F := Ideal) V c).arrAt 3 cfg2.N (ix2 p q)
      = Cert.Spec.lin (Cert.Spec.row (V c (Pipeline.arrRef spec2 0) : S20000x128.Idx → EReal) p)
          (Cert.Spec.m2 (V c (Pipeline.arrRef spec2 1) : S128x128.Idx → EReal)) q := by
  rw [(dat2 (F := Ideal) V c).arrAt_eq_of_cover 3 (linArr2 (V c (Pipeline.arrRef spec2 0)) (V c (Pipeline.arrRef spec2 1)))
    (fun t _ => flushed2_3_eq V c t) cover2_3]
  rfl

/-- The array of b after the region, at (p, q): row p of the features times the second weight matrix, at column q. -/
theorem final2_4 (c : Dev nD) (p : Fin 20000) (q : Fin 128) :
    (dat2 (F := Ideal) V c).arrAt 4 cfg2.N (ix2 p q)
      = Cert.Spec.lin (Cert.Spec.row (V c (Pipeline.arrRef spec2 0) : S20000x128.Idx → EReal) p)
          (Cert.Spec.m2 (V c (Pipeline.arrRef spec2 2) : S128x128.Idx → EReal)) q := by
  rw [(dat2 (F := Ideal) V c).arrAt_eq_of_cover 4 (linArr2 (V c (Pipeline.arrRef spec2 0)) (V c (Pipeline.arrRef spec2 2)))
    (fun t _ => flushed2_4_eq V c t) cover2_4]
  rfl

end Cert.KernelIdeal.Hand

end
-- ==== Proof.Ref.StageAB.lean ====
/-
  The reference's projection stage read at an entry: a host matrix product of a feature array with a 128×128
  weight matrix is, row by row, the row-times-matrix formula of the specification. Stated for node features
  (20000 rows) and for edge features (160000 rows).
-/
import proofs.«152161_j29669634081217_2_alg».proof.ReferenceIdeal
import proofs.«152161_j29669634081217_2_alg».proof.Proof.Gen.ReferenceIdeal
import proofs.«152161_j29669634081217_2_alg».proof.Proof.Spec
import Idealize.ShloMosaic.PureOps.Ideal.Laws
import Idealize.ShloMosaic.Lib.ValueIdx
import Idealize.ShloMosaic.Lib.ValueLayout
import Idealize.ShloMosaic.Lib.StackMember

noncomputable section

namespace Cert.ReferenceIdeal.Hand

open Cert.ReferenceIdeal
open Idealize.ShloMosaic Idealize.ShloMosaic.ValueIdx BigOperators

/-- The printed dimension numbers of the node-side product are those of a plain m×k by k×n product: one contracted
    axis (the left operand's columns against the right operand's rows), no batch axis. -/
theorem dotNode_eq_plain : dot_S20000x128_S128x128_S20000x128_1_0_0_1_n_n = DotDims.plain 20000 128 128 := rfl

/-- The printed dimension numbers of the edge-side product likewise. -/
theorem dotEdge_eq_plain : dot_S160000x128_S128x128_S160000x128_1_0_0_1_n_n = DotDims.plain 160000 128 128 := rfl

/-- Node side: the product of the features H with a weight matrix W, at (p, q), is the sum over k of H[p, k] · W[k, q]:
    row p of H times W at column q. -/
theorem refLin (H : S20000x128.Idx → EReal) (W : S128x128.Idx → EReal) (p : Fin 20000) (q : Fin 128) :
    Host.dotGeneral (F := Ideal) (φ₁ := .f32) (φ₂ := .f32) dot_S20000x128_S128x128_S20000x128_1_0_0_1_n_n none H W (ix2 p q)
      = Cert.Spec.lin (Cert.Spec.row H p) (Cert.Spec.m2 W) q := by
  rw [dotNode_eq_plain]
  exact StackMember.dotGeneral_plain_apply none _ _ p q

/-- Edge side: the same for an array of 160000 rows. -/
theorem refLinE (E : S160000x128.Idx → EReal) (W : S128x128.Idx → EReal) (p : Fin 160000) (q : Fin 128) :
    Host.dotGeneral (F := Ideal) (φ₁ := .f32) (φ₂ := .f32) dot_S160000x128_S128x128_S160000x128_1_0_0_1_n_n none E W (ix2 p q)
      = Cert.Spec.lin (Cert.Spec.row E p) (Cert.Spec.m2 W) q := by
  rw [dotEdge_eq_plain]
  exact StackMember.dotGeneral_plain_apply none _ _ p q

end Cert.ReferenceIdeal.Hand

end
-- ==== Proof.KI.Stage2.lean ====
/-
  Region 2 against the reference, array by array: if the region finds the node features and the two weight matrices
  of the reference in its three input windows, then after the region the array of a is the reference's host product
  of the features with the first matrix, and the array of b the product with the second. Both sides are, entry by
  entry, row p of the features times the matrix at column q.
-/
import proofs.«152161_j29669634081217_2_alg».proof.Proof.KI.Val2
import proofs.«152161_j29669634081217_2_alg».proof.Proof.Ref.StageAB

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The array of a after the region is the reference's product of the features with the first weight matrix. -/
theorem stage2_3 (c : Dev nD) (H : S20000x128.Idx → EReal) (Ws : S128x128.Idx → EReal)
    (h0 : (V c (Pipeline.arrRef spec2 0) : S20000x128.Idx → EReal) = H)
    (h1 : (V c (Pipeline.arrRef spec2 1) : S128x128.Idx → EReal) = Ws) :
    ((dat2 (F := Ideal) V c).arrAt 3 cfg2.N : S20000x128.Idx → EReal)
      = Host.dotGeneral (F := Ideal) (φ₁ := .f32) (φ₂ := .f32)
          Cert.ReferenceIdeal.dot_S20000x128_S128x128_S20000x128_1_0_0_1_n_n none H Ws := by
  subst h0 h1
  funext i
  obtain ⟨p, q, rfl⟩ : ∃ (p : Fin 20000) (q : Fin 128), i = ix2 p q := ⟨i 0, i 1, eq_ix2 i⟩
  exact (final2_3 V c p q).trans (Cert.ReferenceIdeal.Hand.refLin _ _ p q).symm

/-- The array of b after the region is the reference's product of the features with the second weight matrix. -/
theorem stage2_4 (c : Dev nD) (H : S20000x128.Idx → EReal) (Wd : S128x128.Idx → EReal)
    (h0 : (V c (Pipeline.arrRef spec2 0) : S20000x128.Idx → EReal) = H)
    (h2 : (V c (Pipeline.arrRef spec2 2) : S128x128.Idx → EReal) = Wd) :
    ((dat2 (F := Ideal) V c).arrAt 4 cfg2.N : S20000x128.Idx → EReal)
      = Host.dotGeneral (F := Ideal) (φ₁ := .f32) (φ₂ := .f32)
          Cert.ReferenceIdeal.dot_S20000x128_S128x128_S20000x128_1_0_0_1_n_n none H Wd := by
  subst h0 h2
  funext i
  obtain ⟨p, q, rfl⟩ : ∃ (p : Fin 20000) (q : Fin 128), i = ix2 p q := ⟨i 0, i 1, eq_ix2 i⟩
  exact (final2_4 V c p q).trans (Cert.ReferenceIdeal.Hand.refLin _ _ p q).symm

end Cert.KernelIdeal.Hand

end
-- ==== Proof.Align.lean ====
/-
  Where the two programs' host terms meet. Each program states its own copy of the shapes and of the dimension records
  of its gathers and scatter; the copies are the same data, so terms built from one program's records are terms over
  the other's. And a bias of n entries that one program reshapes into a one-row matrix reads, in row 0 at column j,
  its entry j.
-/
import proofs.«152161_j29669634081217_2_alg».proof.KernelIdeal
import proofs.«152161_j29669634081217_2_alg».proof.ReferenceIdeal
import proofs.«152161_j29669634081217_2_alg».proof.Proof.Gen.KernelIdeal
import proofs.«152161_j29669634081217_2_alg».proof.Proof.Gen.ReferenceIdeal
import Idealize.ShloMosaic.Lib.ValueIdx
import Idealize.ShloMosaic.Lib.ValueLayout

noncomputable section

namespace Cert.Align

open Idealize.ShloMosaic Idealize.ShloMosaic.ValueIdx

/-! ## The two programs' dimension records are equal

The fields that are data (which axes are offsets, which are collapsed, the slice sizes) are the same literals in both
programs; the remaining field is a proof, and any two proofs of one statement are equal. -/

/-- The gather of 160000 feature rows out of 20000 by a column of indices. -/
theorem gatherRows_eq :
    Cert.KernelIdeal.gather_S20000x128_S160000x1_S160000x128_1_0_n_n_0_1_1128
      = Cert.ReferenceIdeal.gather_S20000x128_S160000x1_S160000x128_1_0_n_n_0_1_1128 := rfl

/-- The scatter that adds 160000 message rows into 20000 by a column of indices. -/
theorem scatterRows_eq :
    Cert.KernelIdeal.scatter_S20000x128_S160000x1_S160000x128_1_0_0_1
      = Cert.ReferenceIdeal.scatter_S20000x128_S160000x1_S160000x128_1_0_0_1 := rfl

/-- The gather that picks two of the three coordinate columns. -/
theorem gatherCoords_eq :
    Cert.KernelIdeal.gather_S20000x3_S2x1_S20000x2_0_1_n_n_1_1_200001
      = Cert.ReferenceIdeal.gather_S20000x3_S2x1_S20000x2_0_1_n_n_1_1_200001 := rfl

/-! ## A bias made a one-row matrix, read in its row

A reshape keeps the row-major order of the entries; the one-row matrix has its entries in the order of the vector. -/

theorem biasRow128 {α : Type} (b : Cert.KernelIdeal.S128.Idx → α) (h : Cert.KernelIdeal.S128.ShapeCasts Cert.KernelIdeal.S1x128)
    (j : Fin 128) : shapeCast Cert.KernelIdeal.S1x128 b h (ix2 (0 : Fin 1) j) = b (ix1 j) :=
  shapeCast_a_1a_apply b h 0 j

theorem biasRow64 {α : Type} (b : Cert.KernelIdeal.S64.Idx → α) (h : Cert.KernelIdeal.S64.ShapeCasts Cert.KernelIdeal.S1x64)
    (j : Fin 64) : shapeCast Cert.KernelIdeal.S1x64 b h (ix2 (0 : Fin 1) j) = b (ix1 j) :=
  shapeCast_a_1a_apply b h 0 j

theorem biasRow3 {α : Type} (b : Cert.KernelIdeal.S3.Idx → α) (h : Cert.KernelIdeal.S3.ShapeCasts Cert.KernelIdeal.S1x3)
    (j : Fin 3) : shapeCast Cert.KernelIdeal.S1x3 b h (ix2 (0 : Fin 1) j) = b (ix1 j) :=
  shapeCast_a_1a_apply b h 0 j

/-! ## One layer of a stacked weight or bias, cut out and flattened

Both programs cut layer i out of a stack by a slice of one layer's extent and reshape it to drop the leading unit axis.
The two texts are the same operations over the two copies of the shapes, with bounds witnesses that are proofs. Stated
for any offset, so one lemma serves all six layers. -/

/-- Layer of a stacked [6,128,128] weight, as a [128,128] matrix. -/
theorem layerWeight_eq {α : Type} (W : Cert.KernelIdeal.S6x128x128.Idx → α) (off : Fin 3 → Nat)
    (hK : Cert.KernelIdeal.S6x128x128.Slices off Cert.KernelIdeal.S1x128x128)
    (hR : Cert.ReferenceIdeal.S6x128x128.Slices off Cert.ReferenceIdeal.S1x128x128)
    (cK : Cert.KernelIdeal.S1x128x128.ShapeCasts Cert.KernelIdeal.S128x128)
    (cR : Cert.ReferenceIdeal.S1x128x128.ShapeCasts Cert.ReferenceIdeal.S128x128) :
    shapeCast Cert.KernelIdeal.S128x128 (extractStridedSlice Cert.KernelIdeal.S1x128x128 off W hK) cK
      = shapeCast Cert.ReferenceIdeal.S128x128 (extractStridedSlice Cert.ReferenceIdeal.S1x128x128 off W hR) cR := rfl

/-- Layer of a stacked [6,128] bias, as a vector of 128 entries. -/
theorem layerBias_eq {α : Type} (B : Cert.KernelIdeal.S6x128.Idx → α) (off : Fin 2 → Nat)
    (hK : Cert.KernelIdeal.S6x128.Slices off Cert.KernelIdeal.S1x128)
    (hR : Cert.ReferenceIdeal.S6x128.Slices off Cert.ReferenceIdeal.S1x128)
    (cK : Cert.KernelIdeal.S1x128.ShapeCasts Cert.KernelIdeal.S128)
    (cR : Cert.ReferenceIdeal.S1x128.ShapeCasts Cert.ReferenceIdeal.S128) :
    shapeCast Cert.KernelIdeal.S128 (extractStridedSlice Cert.KernelIdeal.S1x128 off B hK) cK
      = shapeCast Cert.ReferenceIdeal.S128 (extractStridedSlice Cert.ReferenceIdeal.S1x128 off B hR) cR := rfl

/-- One program flattens a layer's bias row to a vector and then makes it a one-row matrix again: the round trip
    gives the row back. -/
theorem biasRoundTrip {α : Type} (v : Cert.KernelIdeal.S1x128.Idx → α)
    (c1 : Cert.KernelIdeal.S1x128.ShapeCasts Cert.KernelIdeal.S128) (c2 : Cert.KernelIdeal.S128.ShapeCasts Cert.KernelIdeal.S1x128) :
    shapeCast Cert.KernelIdeal.S1x128 (shapeCast Cert.KernelIdeal.S128 v c1) c2 = v :=
  shapeCast_shapeCast v c1 c2

end Cert.Align

end
-- ==== Proof.Bridge.Args.lean ====
/-
  The kernel program's launch memory, read as the reference's 31 argument arrays: both programs take the same
  arguments, buffer by buffer of the same shape and element type.
-/
import proofs.«152161_j29669634081217_2_alg».proof.KernelIdeal
import proofs.«152161_j29669634081217_2_alg».proof.Proof.Gen.KernelIdeal
import proofs.«152161_j29669634081217_2_alg».proof.Proof.Ref.Stages

noncomputable section

namespace Cert.Bridge

open Idealize.ShloMosaic Idealize.ShloMosaic.TcCoe Idealize.SL.Sem
open Cert.KernelIdeal

/-- Core c's 31 argument buffers at launch, as the reference's argument record. -/
noncomputable def argsOf (m : (ℓ : Loc nD τ sig) → Buf (Elt Ideal) ℓ) (c : Dev nD) : Cert.ReferenceIdeal.Hand.Args where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)
  a8 := m ((c : Thread nD τ).loc main_arg8)
  a9 := m ((c : Thread nD τ).loc main_arg9)
  a10 := m ((c : Thread nD τ).loc main_arg10)
  a11 := m ((c : Thread nD τ).loc main_arg11)
  a12 := m ((c : Thread nD τ).loc main_arg12)
  a13 := m ((c : Thread nD τ).loc main_arg13)
  a14 := m ((c : Thread nD τ).loc main_arg14)
  a15 := m ((c : Thread nD τ).loc main_arg15)
  a16 := m ((c : Thread nD τ).loc main_arg16)
  a17 := m ((c : Thread nD τ).loc main_arg17)
  a18 := m ((c : Thread nD τ).loc main_arg18)
  a19 := m ((c : Thread nD τ).loc main_arg19)
  a20 := m ((c : Thread nD τ).loc main_arg20)
  a21 := m ((c : Thread nD τ).loc main_arg21)
  a22 := m ((c : Thread nD τ).loc main_arg22)
  a23 := m ((c : Thread nD τ).loc main_arg23)
  a24 := m ((c : Thread nD τ).loc main_arg24)
  a25 := m ((c : Thread nD τ).loc main_arg25)
  a26 := m ((c : Thread nD τ).loc main_arg26)
  a27 := m ((c : Thread nD τ).loc main_arg27)
  a28 := m ((c : Thread nD τ).loc main_arg28)
  a29 := m ((c : Thread nD τ).loc main_arg29)
  a30 := m ((c : Thread nD τ).loc main_arg30)

end Cert.Bridge

end
-- ==== Proof.Bridge.Front.lean ====
/-
  The first three regions of the kernel program compute the reference's first named arrays: the encoded nodes, the
  encoded edges, and the two projections of layer 0. Each region's result buffer, at the boundary after the region,
  is the region's array-level result over the contents the region is entered with; those contents are the argument
  arrays (a bias as a one-row matrix, a layer's weight cut out of its stack) or an earlier region's result.
-/
import proofs.«152161_j29669634081217_2_alg».proof.Proof.KI.Outs
import proofs.«152161_j29669634081217_2_alg».proof.Proof.KI.Reads0
import proofs.«152161_j29669634081217_2_alg».proof.Proof.KI.Stage0
import proofs.«152161_j29669634081217_2_alg».proof.Proof.KI.Stage1
import proofs.«152161_j29669634081217_2_alg».proof.Proof.KI.Stage2
import proofs.«152161_j29669634081217_2_alg».proof.Proof.Ref.Stages
import proofs.«152161_j29669634081217_2_alg».proof.Proof.Align
import proofs.«152161_j29669634081217_2_alg».proof.Proof.Bridge.Args

set_option maxRecDepth 16384

noncomputable section

namespace Cert.Bridge

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-! ## The entry contents of regions 1 and 2 through the generated valuations -/

theorem entry1 (c : Dev nD) (r : Ref sig .tc) : W3 m c r = V3 m (outs m) c r := by rw [VW3]
theorem entry2 (c : Dev nD) (r : Ref sig .tc) : W5 m c r = V5 m (outs m) c r := by rw [VW5]

/-! ## What each region leaves in its result buffers -/

theorem left0 (c : Dev nD) : W2 m c main_v14 = (dat0 (F := Ideal) (fun c b => W1 m c b) c).arrAt 5 cfg0.N := by
  unfold W2; exact Function.update_self _ _ _

theorem left1 (c : Dev nD) : W4 m c main_v17 = (dat1 (F := Ideal) (fun c b => W3 m c b) c).arrAt 5 cfg1.N := by
  unfold W4; exact Function.update_self _ _ _

theorem left2a (c : Dev nD) : W6 m c main_v22_0 = (dat2 (F := Ideal) (fun c b => W5 m c b) c).arrAt 3 cfg2.N := by
  unfold W6
  rw [Function.update_of_ne (StableHlo.devRef_ne_of_ne (by decide) : (Proc.devRef .tc main_v22_0 : DevRef τ sig) ≠ Proc.devRef .tc main_v22_1),
    Function.update_self]

theorem left2b (c : Dev nD) : W6 m c main_v22_1 = (dat2 (F := Ideal) (fun c b => W5 m c b) c).arrAt 4 cfg2.N := by
  unfold W6; exact Function.update_self _ _ _

/-! ## The regions' results are the reference's named arrays -/

/-- Region 0 leaves the encoded nodes: its feature window holds columns 3 to 8 of the node features, its weights are
    the arguments, and each bias window holds the bias as the one row of a [1,128] matrix. -/
theorem b0 (c : Dev nD) :
    (W2 m c main_v14 : S20000x128.Idx → EReal) = Cert.ReferenceIdeal.Hand.h0S (argsOf m c) := by
  refine (left0 m c).trans ?_
  exact Cert.KernelIdeal.Hand.stage0_5 (fun c b => W1 m c b) c _
    (argsOf m c).a6 (argsOf m c).a7 (argsOf m c).a8 (argsOf m c).a9
    (in0_0 m c) (in0_1 m c)
    (fun j => (congrFun (in0_2 m c) (ix2 (0 : Fin 1) j)).trans (Cert.Align.biasRow128 _ _ j))
    (in0_3 m c)
    (fun j => (congrFun (in0_4 m c) (ix2 (0 : Fin 1) j)).trans (Cert.Align.biasRow128 _ _ j))

/-- Region 1 leaves the encoded edges. -/
theorem b1 (c : Dev nD) :
    (W4 m c main_v17 : S160000x128.Idx → EReal) = Cert.ReferenceIdeal.Hand.e0S (argsOf m c) := by
  refine (left1 m c).trans ?_
  exact Cert.KernelIdeal.Hand.stage1_5 (fun c b => W3 m c b) c
    (argsOf m c).a2 (argsOf m c).a10 (argsOf m c).a11 (argsOf m c).a12 (argsOf m c).a13
    ((entry1 m c main_arg2).trans (in1_0 m (outs m) c))
    ((entry1 m c main_arg10).trans (in1_1 m (outs m) c))
    (fun j => (congrFun ((entry1 m c main_v15).trans (in1_2 m (outs m) c)) (ix2 (0 : Fin 1) j)).trans (Cert.Align.biasRow128 _ _ j))
    ((entry1 m c main_arg12).trans (in1_3 m (outs m) c))
    (fun j => (congrFun ((entry1 m c main_v16).trans (in1_4 m (outs m) c)) (ix2 (0 : Fin 1) j)).trans (Cert.Align.biasRow128 _ _ j))

/-- Region 2 is entered with the encoded nodes in its feature window (region 0's result, untouched since). -/
theorem feat2 (c : Dev nD) :
    (W5 m c main_v14 : S20000x128.Idx → EReal) = Cert.ReferenceIdeal.Hand.h0S (argsOf m c) :=
  (entry2 m c main_v14).trans ((in2_0 m (outs m) c).trans (b0 m c))

/-- Region 2 leaves, in its first result, layer 0's projection a: the encoded nodes times layer 0 of the first stacked
    weight. -/
theorem b2a (c : Dev nD) :
    (W6 m c main_v22_0 : S20000x128.Idx → EReal) = Cert.ReferenceIdeal.Hand.aS (argsOf m c) 0 := by
  refine (left2a m c).trans ?_
  exact Cert.KernelIdeal.Hand.stage2_3 (fun c b => W5 m c b) c (Cert.ReferenceIdeal.Hand.h0S (argsOf m c))
    (Cert.ReferenceIdeal.Hand.wmN (argsOf m c).a14 0)
    (feat2 m c) ((entry2 m c main_v19).trans (in2_1 m (outs m) c))

/-- and in its second result the projection b: the encoded nodes times layer 0 of the second stacked weight. -/
theorem b2b (c : Dev nD) :
    (W6 m c main_v22_1 : S20000x128.Idx → EReal) = Cert.ReferenceIdeal.Hand.bS (argsOf m c) 0 := by
  refine (left2b m c).trans ?_
  exact Cert.KernelIdeal.Hand.stage2_4 (fun c b => W5 m c b) c (Cert.ReferenceIdeal.Hand.h0S (argsOf m c))
    (Cert.ReferenceIdeal.Hand.wmN (argsOf m c).a15 0)
    (feat2 m c) ((entry2 m c main_v21).trans (in2_2 m (outs m) c))

end Cert.Bridge

end
-- ==== Proof.KI.MsgCommon.lean ====
/-
  The edge-message kernel's block arithmetic at one index, at the ideal values. One block of 8000 edges is computed
  from the three edge blocks and the four weight arrays by two products against 128 x 128 matrices, two biases laid
  along every row, and a rectifier; read at row p and column q this is the message formula of the specification on
  row p of the three edge blocks. The six message-passing layers' kernels share this arithmetic.
-/
import proofs.«152161_j29669634081217_2_alg».proof.Proof.Gen.KernelIdeal
import proofs.«152161_j29669634081217_2_alg».proof.Proof.Spec
import Idealize.ShloMosaic.PureOps.Ideal.Laws
import Idealize.ShloMosaic.Lib.Pipeline.Value
import Idealize.ShloMosaic.Lib.ValueIdx
import Idealize.ShloMosaic.Lib.ValueLayout

set_option synthInstance.maxSize 4096

noncomputable section

namespace Cert.KernelIdeal.Hand

open Cert.KernelIdeal Cert.KernelIdeal.Gen
open Idealize.ShloMosaic Idealize.ShloMosaic.ValueIdx
open scoped BigOperators

/-! ## The block product at an index -/

/-- The left operand's row coordinate is the output's. -/
theorem msgDot_lhs_0 (j : S8000x128.Idx) (k : dot_S8000x128_S128x128_S8000x128_1_0_0_1_n_n.contr.Idx) :
    (dot_S8000x128_S128x128_S8000x128_1_0_0_1_n_n.lhsIdx j k 0).val = (j 0).val := rfl
/-- The left operand's column coordinate is the contraction's. -/
theorem msgDot_lhs_1 (j : S8000x128.Idx) (k : dot_S8000x128_S128x128_S8000x128_1_0_0_1_n_n.contr.Idx) :
    (dot_S8000x128_S128x128_S8000x128_1_0_0_1_n_n.lhsIdx j k 1).val = (k ⟨0, by decide⟩).val := rfl
/-- The right operand's row coordinate is the contraction's. -/
theorem msgDot_rhs_0 (j : S8000x128.Idx) (k : dot_S8000x128_S128x128_S8000x128_1_0_0_1_n_n.contr.Idx) :
    (dot_S8000x128_S128x128_S8000x128_1_0_0_1_n_n.rhsIdx j k 0).val = (k ⟨0, by decide⟩).val := rfl
/-- The right operand's column coordinate is the output's. -/
theorem msgDot_rhs_1 (j : S8000x128.Idx) (k : dot_S8000x128_S128x128_S8000x128_1_0_0_1_n_n.contr.Idx) :
    (dot_S8000x128_S128x128_S8000x128_1_0_0_1_n_n.rhsIdx j k 1).val = (j 1).val := rfl

/-- A block of 8000 rows times a 128 x 128 matrix, accumulated into zero, at (p, q): the sum over the 128 shared
    coordinates of the products of the entries. -/
theorem msgDot_apply {φ₁ φ₂ : FTy} (A : FVec Ideal S8000x128 φ₁) (B : FVec Ideal S128x128 φ₂) (p : Fin 8000) (q : Fin 128) :
    matmul dot_S8000x128_S128x128_S8000x128_1_0_0_1_n_n none A B (constant S8000x128 .f32 0x00000000#32) (ix2 p q)
      = ∑ k : Fin 128, A (ix2 p k) * B (ix2 k q) := by
  show FloatOps.matmul dot_S8000x128_S128x128_S8000x128_1_0_0_1_n_n none A B (constant S8000x128 .f32 0x00000000#32) (ix2 p q) = _
  rw [Ideal.matmul_constant_zero_apply,
    ← Equiv.sum_comp (contrEquiv1 dot_S8000x128_S128x128_S8000x128_1_0_0_1_n_n 128 rfl rfl).symm]
  refine Finset.sum_congr rfl fun c _ => ?_
  have hc := contrEquiv1_symm_val dot_S8000x128_S128x128_S8000x128_1_0_0_1_n_n 128 rfl rfl c
  have hl : dot_S8000x128_S128x128_S8000x128_1_0_0_1_n_n.lhsIdx (ix2 p q)
      ((contrEquiv1 dot_S8000x128_S128x128_S8000x128_1_0_0_1_n_n 128 rfl rfl).symm c) = ix2 p c := by
    funext ax; apply Fin.ext
    match ax with
    | ⟨0, _⟩ => exact msgDot_lhs_0 _ _
    | ⟨1, _⟩ => exact (msgDot_lhs_1 _ _).trans hc
  have hr : dot_S8000x128_S128x128_S8000x128_1_0_0_1_n_n.rhsIdx (ix2 p q)
      ((contrEquiv1 dot_S8000x128_S128x128_S8000x128_1_0_0_1_n_n 128 rfl rfl).symm c) = ix2 c q := by
    funext ax; apply Fin.ext
    match ax with
    | ⟨0, _⟩ => exact (msgDot_rhs_0 _ _).trans hc
    | ⟨1, _⟩ => exact msgDot_rhs_1 _ _
  rw [hl, hr]

/-! ## A bias row laid along every row of the block -/

/-- The one-row bias broadcast down the block's 8000 rows, at (p, q), is the bias at column q. -/
theorem msgBias_apply (b : S1x128.Idx → EReal) (p : Fin 8000) (q : Fin 128) :
    broadcastTo S8000x128 b broadcasts_S1x128_S8000x128 (ix2 p q) = b (ix2 (0 : Fin 1) q) :=
  broadcastTo_apply b broadcasts_S1x128_S8000x128 (ix2 p q) (ix2 (0 : Fin 1) q) (by
    intro a
    match a with
    | ⟨0, _⟩ => rfl
    | ⟨1, _⟩ => rfl)

/-! ## The block's arithmetic -/

/-- What the kernel stores, as a function of its seven loaded blocks (the edge features e, the gathered node terms a
    and b, the first weight and bias, the second weight and bias): ((a + b) + e We) + be1, rectified, times W2, plus b2;
    the operands of each product narrowed to the product unit's format, which is the identity at the ideal values. -/
noncomputable def msgTerm (e a b : Vec Ideal S8000x128 .bf16) (We : Vec Ideal S128x128 .f32) (be1 : Vec Ideal S1x128 .f32)
    (W2 : Vec Ideal S128x128 .f32) (b2 : Vec Ideal S1x128 .f32) : FVec Ideal S8000x128 .f32 :=
  addf
    (matmul dot_S8000x128_S128x128_S8000x128_1_0_0_1_n_n none
      (truncf .bf16
        (maximumf
          (addf
            (addf
              (addf (extf .f32 (shapeCast S8000x128 a shapeCasts_S8000x128_S8000x128 : FVec Ideal S8000x128 .bf16) bitsLt_bf16_f32)
                (extf .f32 (shapeCast S8000x128 b shapeCasts_S8000x128_S8000x128 : FVec Ideal S8000x128 .bf16) bitsLt_bf16_f32))
              (matmul dot_S8000x128_S128x128_S8000x128_1_0_0_1_n_n none (shapeCast S8000x128 e shapeCasts_S8000x128_S8000x128 : FVec Ideal S8000x128 .bf16)
                (truncf .bf16 (shapeCast S128x128 We shapeCasts_S128x128_S128x128 : FVec Ideal S128x128 .f32) bitsLt_bf16_f32)
                (constant S8000x128 .f32 0x00000000#32)))
            (broadcastTo S8000x128 (shapeCast S1x128 be1 shapeCasts_S1x128_S1x128 : FVec Ideal S1x128 .f32) broadcasts_S1x128_S8000x128))
          (broadcast S8000x128 (Scalar.ofBits .f32 0x00000000#32)))
        bitsLt_bf16_f32)
      (truncf .bf16 (shapeCast S128x128 W2 shapeCasts_S128x128_S128x128 : FVec Ideal S128x128 .f32) bitsLt_bf16_f32)
      (constant S8000x128 .f32 0x00000000#32))
    (broadcastTo S8000x128 (shapeCast S1x128 b2 shapeCasts_S1x128_S1x128 : FVec Ideal S1x128 .f32) broadcasts_S1x128_S8000x128)

/-- The block's arithmetic at row p, column q is the specification's message formula on row p of the edge blocks. -/
theorem msgTerm_apply (e a b : Vec Ideal S8000x128 .bf16) (We : Vec Ideal S128x128 .f32) (be1 : Vec Ideal S1x128 .f32)
    (W2 : Vec Ideal S128x128 .f32) (b2 : Vec Ideal S1x128 .f32) (p : Fin 8000) (q : Fin 128) :
    msgTerm e a b We be1 W2 b2 (ix2 p q)
      = Cert.Spec.msg (fun k => e (ix2 p k)) (fun k => a (ix2 p k)) (fun k => b (ix2 p k)) (fun i j => We (ix2 i j))
          (fun j => be1 (ix2 (0 : Fin 1) j)) (fun i j => W2 (ix2 i j)) (fun j => b2 (ix2 (0 : Fin 1) j)) q := by
  unfold msgTerm
  simp only [shapeCast_self]
  rw [addf_apply, msgDot_apply, msgBias_apply]
  unfold Cert.Spec.msg Cert.Spec.aff Cert.Spec.lin Cert.Spec.relu
  congr 1
  refine Finset.sum_congr rfl fun k _ => ?_
  rw [truncf_apply, truncf_apply, maximumf_apply, addf_apply, addf_apply, addf_apply, extf_apply, extf_apply,
    msgDot_apply, msgBias_apply, broadcast_apply]
  simp only [truncf_apply]
  show max _ (Ideal.ofBits .f32 0x00000000#32) * _ = _
  rw [Ideal.ofBits_zero_f32]

end Cert.KernelIdeal.Hand

end
-- ==== Proof.KI.Val3.lean ====
/-
  Region 3 of @main, the value half at the ideal values: after the region's 20 points the result array holds, row by
  row, the specification's message formula of the region's seven input arrays as the region finds them. Point t
  computes rows 8000 t .. 8000 t + 7999 from the same rows of the three edge arrays and the whole weight arrays.
-/
import proofs.«152161_j29669634081217_2_alg».proof.Proof.KI.Reg3
import proofs.«152161_j29669634081217_2_alg».proof.Proof.KI.MsgCommon
import proofs.«152161_j29669634081217_2_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 65536

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

-- the TensorCore's buffer contents when the region is entered, at the ideal values
variable (V : (c : Dev nD) → (b : Ref sig .tc) → Buf (Elt Ideal) ((c : Thread nD τ).loc b))

/-! ## The region's arrays as the region finds them, at their literal shapes -/

/-- The edge features. -/
noncomputable abbrev arr3_0 (c : Dev nD) : S160000x128.Idx → EReal := V c (Pipeline.arrRef spec3 0)
/-- The source nodes' term, gathered along the edges. -/
noncomputable abbrev arr3_1 (c : Dev nD) : S160000x128.Idx → EReal := V c (Pipeline.arrRef spec3 1)
/-- The destination nodes' term, gathered along the edges. -/
noncomputable abbrev arr3_2 (c : Dev nD) : S160000x128.Idx → EReal := V c (Pipeline.arrRef spec3 2)
/-- The first layer's weight on the edge features. -/
noncomputable abbrev arr3_3 (c : Dev nD) : S128x128.Idx → EReal := V c (Pipeline.arrRef spec3 3)
/-- The first layer's bias, as one row. -/
noncomputable abbrev arr3_4 (c : Dev nD) : S1x128.Idx → EReal := V c (Pipeline.arrRef spec3 4)
/-- The second layer's weight. -/
noncomputable abbrev arr3_5 (c : Dev nD) : S128x128.Idx → EReal := V c (Pipeline.arrRef spec3 5)
/-- The second layer's bias, as one row. -/
noncomputable abbrev arr3_6 (c : Dev nD) : S1x128.Idx → EReal := V c (Pipeline.arrRef spec3 6)

/-- The message of edge r, column q: the specification's row formula on row r of the three edge arrays. -/
noncomputable def G3_row (c : Dev nD) (r : Fin 160000) (q : Fin 128) : EReal :=
  Cert.Spec.msg (Cert.Spec.row (arr3_0 V c) r) (Cert.Spec.row (arr3_1 V c) r) (Cert.Spec.row (arr3_2 V c) r)
    (Cert.Spec.m2 (arr3_3 V c)) (fun j => arr3_4 V c (ix2 (0 : Fin 1) j)) (Cert.Spec.m2 (arr3_5 V c))
    (fun j => arr3_6 V c (ix2 (0 : Fin 1) j)) q

/-- The whole result array as one function of the input arrays. -/
noncomputable def G3 (c : Dev nD) : S160000x128.Idx → EReal := fun i => G3_row V c (i 0) (i 1)

/-! ## The payload -/

/-- The body's payload is the message kernels' shared block arithmetic. -/
theorem pay3_eq (v0 : Vec Ideal S8000x128 .bf16) (v2 : Vec Ideal S128x128 .f32) (v6 v9 : Vec Ideal S8000x128 .bf16)
    (v14 : Vec Ideal S1x128 .f32) (v21 : Vec Ideal S128x128 .f32) (v25 : Vec Ideal S1x128 .f32) :
    k3_pay1 v0 v2 v6 v9 v14 v21 v25 = msgTerm v0 v6 v9 v2 v14 v21 v25 := rfl

/-! ## Where point t's blocks sit in their arrays -/

theorem hz3 : (![0, 0] : Fin 2 → Nat) = fun _ => 0 := funext fun a => by fin_cases a <;> rfl

/-- The printed index maps, decided over the 20 points: the three edge windows and the result window take block t of
    the rows at point t, the four weight windows their one block. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- Row p of point t's block is row 8000 t + p of the array. -/
noncomputable def rows3 (t : Fin cfg3.N) (p : Fin 8000) : Fin 160000 :=
  ⟨t.val * 8000 + p.val, by have h : t.val < 20 := Nat.lt_of_lt_of_eq t.isLt N_3; have := p.isLt; omega⟩

theorem emb3_0 (t : Fin cfg3.N) (p : Fin 8000) (k : Fin 128) :
    ((cfg3.win 0).blk t).view.emb (ix2 p k) = ix2 (rows3 t p) k := by
  obtain ⟨a0, a1, b0, b1, c0, c1, d0, d1, e0, e1, f0, f1, g0, g1, h0, h1⟩ := idx3 t
  funext a; apply Fin.ext
  match a with
  | ⟨0, _⟩ => show win3_0.index t (0 : Fin 2) * 8000 + 1 * p.val = t.val * 8000 + p.val; omega
  | ⟨1, _⟩ => show win3_0.index t (1 : Fin 2) * 128 + 1 * k.val = k.val; omega

theorem emb3_1 (t : Fin cfg3.N) (p : Fin 8000) (k : Fin 128) :
    ((cfg3.win 1).blk t).view.emb (ix2 p k) = ix2 (rows3 t p) k := by
  obtain ⟨a0, a1, b0, b1, c0, c1, d0, d1, e0, e1, f0, f1, g0, g1, h0, h1⟩ := idx3 t
  funext a; apply Fin.ext
  match a with
  | ⟨0, _⟩ => show win3_1.index t (0 : Fin 2) * 8000 + 1 * p.val = t.val * 8000 + p.val; omega
  | ⟨1, _⟩ => show win3_1.index t (1 : Fin 2) * 128 + 1 * k.val = k.val; omega

theorem emb3_2 (t : Fin cfg3.N) (p : Fin 8000) (k : Fin 128) :
    ((cfg3.win 2).blk t).view.emb (ix2 p k) = ix2 (rows3 t p) k := by
  obtain ⟨a0, a1, b0, b1, c0, c1, d0, d1, e0, e1, f0, f1, g0, g1, h0, h1⟩ := idx3 t
  funext a; apply Fin.ext
  match a with
  | ⟨0, _⟩ => show win3_2.index t (0 : Fin 2) * 8000 + 1 * p.val = t.val * 8000 + p.val; omega
  | ⟨1, _⟩ => show win3_2.index t (1 : Fin 2) * 128 + 1 * k.val = k.val; omega

theorem emb3_3 (t : Fin cfg3.N) (i : Fin 128) (j : Fin 128) :
    ((cfg3.win 3).blk t).view.emb (ix2 i j) = ix2 i j := by
  obtain ⟨a0, a1, b0, b1, c0, c1, d0, d1, e0, e1, f0, f1, g0, g1, h0, h1⟩ := idx3 t
  funext a; apply Fin.ext
  match a with
  | ⟨0, _⟩ => show win3_3.index t (0 : Fin 2) * 128 + 1 * i.val = i.val; omega
  | ⟨1, _⟩ => show win3_3.index t (1 : Fin 2) * 128 + 1 * j.val = j.val; omega

theorem emb3_4 (t : Fin cfg3.N) (i : Fin 1) (j : Fin 128) :
    ((cfg3.win 4).blk t).view.emb (ix2 i j) = ix2 i j := by
  obtain ⟨a0, a1, b0, b1, c0, c1, d0, d1, e0, e1, f0, f1, g0, g1, h0, h1⟩ := idx3 t
  funext a; apply Fin.ext
  match a with
  | ⟨0, _⟩ => show win3_4.index t (0 : Fin 2) * 1 + 1 * i.val = i.val; omega
  | ⟨1, _⟩ => show win3_4.index t (1 : Fin 2) * 128 + 1 * j.val = j.val; omega

theorem emb3_5 (t : Fin cfg3.N) (i : Fin 128) (j : Fin 128) :
    ((cfg3.win 5).blk t).view.emb (ix2 i j) = ix2 i j := by
  obtain ⟨a0, a1, b0, b1, c0, c1, d0, d1, e0, e1, f0, f1, g0, g1, h0, h1⟩ := idx3 t
  funext a; apply Fin.ext
  match a with
  | ⟨0, _⟩ => show win3_5.index t (0 : Fin 2) * 128 + 1 * i.val = i.val; omega
  | ⟨1, _⟩ => show win3_5.index t (1 : Fin 2) * 128 + 1 * j.val = j.val; omega

theorem emb3_6 (t : Fin cfg3.N) (i : Fin 1) (j : Fin 128) :
    ((cfg3.win 6).blk t).view.emb (ix2 i j) = ix2 i j := by
  obtain ⟨a0, a1, b0, b1, c0, c1, d0, d1, e0, e1, f0, f1, g0, g1, h0, h1⟩ := idx3 t
  funext a; apply Fin.ext
  match a with
  | ⟨0, _⟩ => show win3_6.index t (0 : Fin 2) * 1 + 1 * i.val = i.val; omega
  | ⟨1, _⟩ => show win3_6.index t (1 : Fin 2) * 128 + 1 * j.val = j.val; omega

theorem emb3_7 (t : Fin cfg3.N) (p : Fin 8000) (q : Fin 128) :
    ((cfg3.win 7).blk t).view.emb (ix2 p q) = ix2 (rows3 t p) q := by
  obtain ⟨a0, a1, b0, b1, c0, c1, d0, d1, e0, e1, f0, f1, g0, g1, h0, h1⟩ := idx3 t
  funext a; apply Fin.ext
  match a with
  | ⟨0, _⟩ => show win3_7.index t (0 : Fin 2) * 8000 + 1 * p.val = t.val * 8000 + p.val; omega
  | ⟨1, _⟩ => show win3_7.index t (1 : Fin 2) * 128 + 1 * q.val = q.val; omega

/-! ## Each input block, read at an index, is its array where the block sits -/

theorem iblk3_0_apply (c : Dev nD) (t : Fin cfg3.N) (p : Fin 8000) (k : Fin 128) :
    iblk3 V c 0 t (ix2 p k) = arr3_0 V c (ix2 (rows3 t p) k) := by
  show V c (Pipeline.arrRef spec3 0) (((cfg3.win 0).blk t).view.emb (ix2 p k)) = _
  rw [emb3_0]
theorem iblk3_1_apply (c : Dev nD) (t : Fin cfg3.N) (p : Fin 8000) (k : Fin 128) :
    iblk3 V c 1 t (ix2 p k) = arr3_1 V c (ix2 (rows3 t p) k) := by
  show V c (Pipeline.arrRef spec3 1) (((cfg3.win 1).blk t).view.emb (ix2 p k)) = _
  rw [emb3_1]
theorem iblk3_2_apply (c : Dev nD) (t : Fin cfg3.N) (p : Fin 8000) (k : Fin 128) :
    iblk3 V c 2 t (ix2 p k) = arr3_2 V c (ix2 (rows3 t p) k) := by
  show V c (Pipeline.arrRef spec3 2) (((cfg3.win 2).blk t).view.emb (ix2 p k)) = _
  rw [emb3_2]
theorem iblk3_3_apply (c : Dev nD) (t : Fin cfg3.N) (i j : Fin 128) :
    iblk3 V c 3 t (ix2 i j) = arr3_3 V c (ix2 i j) := by
  show V c (Pipeline.arrRef spec3 3) (((cfg3.win 3).blk t).view.emb (ix2 i j)) = _
  rw [emb3_3]
theorem iblk3_4_apply (c : Dev nD) (t : Fin cfg3.N) (i : Fin 1) (j : Fin 128) :
    iblk3 V c 4 t (ix2 i j) = arr3_4 V c (ix2 i j) := by
  show V c (Pipeline.arrRef spec3 4) (((cfg3.win 4).blk t).view.emb (ix2 i j)) = _
  rw [emb3_4]
theorem iblk3_5_apply (c : Dev nD) (t : Fin cfg3.N) (i j : Fin 128) :
    iblk3 V c 5 t (ix2 i j) = arr3_5 V c (ix2 i j) := by
  show V c (Pipeline.arrRef spec3 5) (((cfg3.win 5).blk t).view.emb (ix2 i j)) = _
  rw [emb3_5]
theorem iblk3_6_apply (c : Dev nD) (t : Fin cfg3.N) (i : Fin 1) (j : Fin 128) :
    iblk3 V c 6 t (ix2 i j) = arr3_6 V c (ix2 i j) := by
  show V c (Pipeline.arrRef spec3 6) (((cfg3.win 6).blk t).view.emb (ix2 i j)) = _
  rw [emb3_6]

/-! ## What a point writes back -/

/-- What point t writes back to the result array is block t of G3: the store's payload at (p, q) is the message
    formula on row p of the edge blocks, which are rows 8000 t + p of the edge arrays. -/
theorem flushed3_7_eq (c : Dev nD) (t : Fin cfg3.N) :
    (dat3 V c).flushed 7 t = ((cfg3.win 7).blk t).view.read (Elt Ideal) (G3 V c) := by
  show (cfg3.win 7).cut (grid3.coords t) ((dat3 V c).after 7 t) = _
  rw [after3_7]
  unfold out3_7
  rw [View.canon_unit_zero hz3]
  simp only [View.ld_unit_zero (S := S8000x128) hz3, View.ld_unit_zero (S := S128x128) hz3, View.ld_unit_zero (S := S1x128) hz3]
  rw [pay3_eq]
  funext j
  obtain ⟨p, q, rfl⟩ : ∃ (p : Fin 8000) (q : Fin 128), j = ix2 p q := ⟨j 0, j 1, eq_ix2 j⟩
  show msgTerm (iblk3 V c 0 t) (iblk3 V c 1 t) (iblk3 V c 2 t) (iblk3 V c 3 t) (iblk3 V c 4 t) (iblk3 V c 5 t) (iblk3 V c 6 t) (ix2 p q)
    = G3 V c (((cfg3.win 7).blk t).view.emb (ix2 p q))
  rw [msgTerm_apply, emb3_7]
  simp only [iblk3_0_apply, iblk3_1_apply, iblk3_2_apply, iblk3_3_apply, iblk3_4_apply, iblk3_5_apply, iblk3_6_apply]
  rfl

/-! ## The result's blocks cover its array -/

/-- An index of the array is in point t's block iff each coordinate is in the block's range on its axis. -/
theorem mem_blk3 (t : Fin cfg3.N) (i : S160000x128.Idx) :
    i ∈ ((cfg3.win 7).blk t).view.set ↔ ∀ a : Fin 2, win3_7.index t a * S8000x128.size a ≤ (i a).val
      ∧ (i a).val < win3_7.index t a * S8000x128.size a + S8000x128.size a := by
  show i ∈ ((View.whole (Pipeline.arrRef spec3 7)).slice (win3_7.rect t)).set ↔ _
  rw [View.set_slice_whole, Rect.mem_set_unit]
  exact Iff.rfl

/-- Row r of the array is in the block of point r / 8000. -/
theorem covered3 (i : S160000x128.Idx) :
    ∃ t : Fin cfg3.N, (cfg3.win 7).flush t = true ∧ i ∈ ((cfg3.win 7).blk t).view.set := by
  have hi0 : (i 0).val < 160000 := (i 0).isLt
  have hi1 : (i 1).val < 128 := (i 1).isLt
  have hN : (i 0).val / 8000 < cfg3.N := by show _ < grid3.N; rw [N_3]; omega
  obtain ⟨a0, a1, b0, b1, c0, c1, d0, d1, e0, e1, f0, f1, g0, g1, h0, h1⟩ := idx3 ⟨(i 0).val / 8000, hN⟩
  have h0' : win3_7.index ⟨(i 0).val / 8000, hN⟩ (0 : Fin 2) = (i 0).val / 8000 := h0
  refine ⟨⟨(i 0).val / 8000, hN⟩, flush3_7 _, ?_⟩
  rw [mem_blk3]
  intro a
  match a with
  | ⟨0, _⟩ =>
    show win3_7.index ⟨(i 0).val / 8000, hN⟩ (0 : Fin 2) * 8000 ≤ (i 0).val
      ∧ (i 0).val < win3_7.index ⟨(i 0).val / 8000, hN⟩ (0 : Fin 2) * 8000 + 8000
    omega
  | ⟨1, _⟩ =>
    show win3_7.index ⟨(i 0).val / 8000, hN⟩ (1 : Fin 2) * 128 ≤ (i 1).val
      ∧ (i 1).val < win3_7.index ⟨(i 0).val / 8000, hN⟩ (1 : Fin 2) * 128 + 128
    omega

/-! ## The result array after the region -/

/-- The array after the region's 20 points is G3 of the region-entry arrays. -/
theorem final3_7_eq (c : Dev nD) : (dat3 (F := Ideal) V c).arrAt 7 cfg3.N = G3 V c :=
  (dat3 V c).arrAt_eq_of_cover 7 (G3 V c) (fun t _ => flushed3_7_eq V c t) covered3

/-- Entry (p, q) of the result array after the region: the message of edge p, column q. -/
theorem final3_7 (c : Dev nD) (p : Fin 160000) (q : Fin 128) :
    (dat3 (F := Ideal) V c).arrAt 7 cfg3.N (ix2 p q)
      = Cert.Spec.msg (Cert.Spec.row (arr3_0 V c) p) (Cert.Spec.row (arr3_1 V c) p) (Cert.Spec.row (arr3_2 V c) p)
          (Cert.Spec.m2 (arr3_3 V c)) (fun j => arr3_4 V c (ix2 (0 : Fin 1) j)) (Cert.Spec.m2 (arr3_5 V c))
          (fun j => arr3_6 V c (ix2 (0 : Fin 1) j)) q := by
  rw [final3_7_eq]
  rfl

end Cert.KernelIdeal.Hand

end
-- ==== Proof.KI.Stage3.lean ====
/-
  Region 3 of @main against the reference's messages of one layer, as arrays: whatever fills the region's seven
  input arrays, if they are the reference's inputs (the three edge arrays and the two weights the same arrays; each
  bias, which the kernel takes as one row and the reference as a vector, entry by entry), then the result array after
  the region is the reference's message array of those inputs.
-/
import proofs.«152161_j29669634081217_2_alg».proof.Proof.KI.Val3
import proofs.«152161_j29669634081217_2_alg».proof.Proof.Ref.StageMsg

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable [Cert.ReferenceIdeal.Facts₀]

-- the TensorCore's buffer contents when the region is entered, at the ideal values
variable (V : (c : Dev nD) → (b : Ref sig .tc) → Buf (Elt Ideal) ((c : Thread nD τ).loc b))

/-- The result array after the region is the reference's message array of the reference-shaped inputs. -/
theorem stage3_7 (c : Dev nD) (E Asrc Bdst : FVec Ideal S160000x128 .f32) (We : FVec Ideal S128x128 .f32)
    (be1 : FVec Ideal S128 .f32) (W2 : FVec Ideal S128x128 .f32) (b2 : FVec Ideal S128 .f32)
    (h0 : arr3_0 V c = E) (h1 : arr3_1 V c = Asrc) (h2 : arr3_2 V c = Bdst) (h3 : arr3_3 V c = We)
    (h4 : ∀ j : Fin 128, arr3_4 V c (ix2 (0 : Fin 1) j) = be1 (ix1 j)) (h5 : arr3_5 V c = W2)
    (h6 : ∀ j : Fin 128, arr3_6 V c (ix2 (0 : Fin 1) j) = b2 (ix1 j)) :
    (dat3 (F := Ideal) V c).arrAt 7 cfg3.N = Cert.ReferenceIdeal.Hand.msgRef E Asrc Bdst We be1 W2 b2 := by
  funext i
  obtain ⟨p, q, rfl⟩ : ∃ (p : Fin 160000) (q : Fin 128), i = ix2 p q := ⟨i 0, i 1, eq_ix2 i⟩
  have e4 : (fun j : Fin 128 => arr3_4 V c (ix2 (0 : Fin 1) j)) = Cert.Spec.v1 be1 := funext h4
  have e6 : (fun j : Fin 128 => arr3_6 V c (ix2 (0 : Fin 1) j)) = Cert.Spec.v1 b2 := funext h6
  refine (final3_7 V c p q).trans ?_
  rw [e4, e6, h0, h1, h2, h3, h5]
  exact (Cert.ReferenceIdeal.Hand.refMsg E Asrc Bdst We be1 W2 b2 p q).symm

end Cert.KernelIdeal.Hand

end
-- ==== Proof.KI.Reads1.lean ====
/- What layer 0's two regions read (region 3, the edge messages; region 4, the node update with the next layer's A/B):
   each input window's array, on entry to the region, as a pure term of the launch contents and of what the earlier
   regions left. The host stretch before each region is read back operation by operation; the buffers it does not
   write itself are carried from where they were written. -/
import proofs.«152161_j29669634081217_2_alg».proof.Proof.KI.ReadsDefs
import proofs.«152161_j29669634081217_2_alg».proof.Proof.KI.ReadsCarryA
import proofs.«152161_j29669634081217_2_alg».proof.Proof.KI.ReadsCarryB

-- the references' inequalities are decided past the default depth
set_option maxRecDepth 2864
-- the stretch before a region is read back one operation at a time: up to 28 rewriting steps per operand of a window
set_option maxHeartbeats 1000000

noncomputable section

namespace Cert.KernelIdeal.Hand

open Idealize.ShloMosaic Idealize.ShloMosaic.TcCoe
open Idealize.SL.Sem
open Idealize.ShloMosaic.StableHlo
open Cert.KernelIdeal.Gen

variable {F : FTy → Type} [FloatOps F]
variable (m : (ℓ : Loc nD τ sig) → Buf (Elt F) ℓ) (outs : Outs (F := F))

/-! ## Region 3: the edge messages of layer 0

Its operands: the encoded edges (what region 1 left); the A projection gathered at the source ends and the B
projection gathered at the destination ends (both over what region 2 left, at the normalised indices); then slab 0 of
the message network's two weights and row 0 of its two biases. -/

theorem in3_0 (c : Dev nD) : V7 m outs c main_v17 = outs 4 main_v17 c :=
  at7_v17 m outs c
theorem in3_1 (c : Dev nD) : V7 m outs c main_v29 = Host.gather gather_S20000x128_S160000x1_S160000x128_1_0_n_n_0_1_1128 (outs 6 main_v22_0 c) (srcIdx m c) := by
  show StableHlo.after hostOps3 (V6 m outs c) (Proc.devRef .tc main_v29) = _
  after_results <;> rw [at6_v22_0 m outs c, at6_v1 m outs c, at1_v1 m c] <;> rfl
theorem in3_2 (c : Dev nD) : V7 m outs c main_v36 = Host.gather gather_S20000x128_S160000x1_S160000x128_1_0_n_n_0_1_1128 (outs 6 main_v22_1 c) (dstIdx m c) := by
  show StableHlo.after hostOps3 (V6 m outs c) (Proc.devRef .tc main_v36) = _
  after_results <;> rw [at6_v22_1 m outs c, at6_v3 m outs c, at1_v3 m c] <;> rfl
theorem in3_3 (c : Dev nD) : V7 m outs c main_v38 = sliceMat (m ((c : Thread nD τ).loc main_arg16)) 0 slices_S6x128x128_S1x128x128_0_0_0 := by
  show StableHlo.after hostOps3 (V6 m outs c) (Proc.devRef .tc main_v38) = _
  after_results <;> rw [at6_arg16 m outs c] <;> rfl
theorem in3_4 (c : Dev nD) : V7 m outs c main_v45 = sliceRow (m ((c : Thread nD τ).loc main_arg17)) 0 slices_S6x128_S1x128_0_0 := by
  show StableHlo.after hostOps3 (V6 m outs c) (Proc.devRef .tc main_v45) = _
  after_results <;> rw [at6_arg17 m outs c] <;> rfl
theorem in3_5 (c : Dev nD) : V7 m outs c main_v42 = sliceMat (m ((c : Thread nD τ).loc main_arg18)) 0 slices_S6x128x128_S1x128x128_0_0_0 := by
  show StableHlo.after hostOps3 (V6 m outs c) (Proc.devRef .tc main_v42) = _
  after_results <;> rw [at6_arg18 m outs c] <;> rfl
theorem in3_6 (c : Dev nD) : V7 m outs c main_v46 = sliceRow (m ((c : Thread nD τ).loc main_arg19)) 0 slices_S6x128_S1x128_0_0 := by
  show StableHlo.after hostOps3 (V6 m outs c) (Proc.devRef .tc main_v46) = _
  after_results <;> rw [at6_arg19 m outs c] <;> rfl

/-! ## Region 4: the node update of layer 0, with layer 1's A/B projection

Its operands: the encoded nodes (what region 0 left); the messages (what region 3 left) summed per destination node
onto zeros; slab 0 of the update network's three weights and row 0 of its two biases; slab 1 of the two projection
weights, for the next layer. -/

theorem in4_0 (c : Dev nD) : V9 m outs c main_v14 = outs 2 main_v14 c :=
  at9_v14 m outs c
theorem in4_1 (c : Dev nD) : V9 m outs c main_v50 = Host.scatterAdd scatter_S20000x128_S160000x1_S160000x128_1_0_0_1 zeroAcc (dstCol m c) (outs 8 main_v47 c) := by
  show StableHlo.after hostOps4 (V8 m outs c) (Proc.devRef .tc main_v50) = _
  after_results <;> rw [at8_v3 m outs c, at1_v3 m c, at8_v47 m outs c] <;> rfl
theorem in4_2 (c : Dev nD) : V9 m outs c main_v52 = sliceMat (m ((c : Thread nD τ).loc main_arg20)) 0 slices_S6x128x128_S1x128x128_0_0_0 := by
  show StableHlo.after hostOps4 (V8 m outs c) (Proc.devRef .tc main_v52) = _
  after_results <;> rw [at8_arg20 m outs c] <;> rfl
theorem in4_3 (c : Dev nD) : V9 m outs c main_v54 = sliceMat (m ((c : Thread nD τ).loc main_arg21)) 0 slices_S6x128x128_S1x128x128_0_0_0 := by
  show StableHlo.after hostOps4 (V8 m outs c) (Proc.devRef .tc main_v54) = _
  after_results <;> rw [at8_arg21 m outs c] <;> rfl
theorem in4_4 (c : Dev nD) : V9 m outs c main_v65 = sliceRow (m ((c : Thread nD τ).loc main_arg22)) 0 slices_S6x128_S1x128_0_0 := by
  show StableHlo.after hostOps4 (V8 m outs c) (Proc.devRef .tc main_v65) = _
  after_results <;> rw [at8_arg22 m outs c] <;> rfl
theorem in4_5 (c : Dev nD) : V9 m outs c main_v58 = sliceMat (m ((c : Thread nD τ).loc main_arg23)) 0 slices_S6x128x128_S1x128x128_0_0_0 := by
  show StableHlo.after hostOps4 (V8 m outs c) (Proc.devRef .tc main_v58) = _
  after_results <;> rw [at8_arg23 m outs c] <;> rfl
theorem in4_6 (c : Dev nD) : V9 m outs c main_v66 = sliceRow (m ((c : Thread nD τ).loc main_arg24)) 0 slices_S6x128_S1x128_0_0 := by
  show StableHlo.after hostOps4 (V8 m outs c) (Proc.devRef .tc main_v66) = _
  after_results <;> rw [at8_arg24 m outs c] <;> rfl
theorem in4_7 (c : Dev nD) : V9 m outs c main_v62 = sliceMat (m ((c : Thread nD τ).loc main_arg14)) 1 slices_S6x128x128_S1x128x128_1_0_0 := by
  show StableHlo.after hostOps4 (V8 m outs c) (Proc.devRef .tc main_v62) = _
  after_results <;> rw [at8_arg14 m outs c] <;> rfl
theorem in4_8 (c : Dev nD) : V9 m outs c main_v64 = sliceMat (m ((c : Thread nD τ).loc main_arg15)) 1 slices_S6x128x128_S1x128x128_1_0_0 := by
  show StableHlo.after hostOps4 (V8 m outs c) (Proc.devRef .tc main_v64) = _
  after_results <;> rw [at8_arg15 m outs c] <;> rfl

end Cert.KernelIdeal.Hand
-- ==== Proof.Bridge.LayerCommon.lean ====
/-
  What every message-passing layer shares when the two programs' host terms are set side by side: the edge list's two
  rows made gather and scatter indices, a gather of node rows along them, the scatter-add of edge rows into the zero
  node array, and one layer's slab of a stacked weight or bias. Each program prints these operations over its own copy
  of the shapes and records; the copies are the same data, so the terms are equal outright.
-/
import proofs.«152161_j29669634081217_2_alg».proof.Proof.KI.ReadsDefs
import proofs.«152161_j29669634081217_2_alg».proof.Proof.Ref.Stages
import proofs.«152161_j29669634081217_2_alg».proof.Proof.Align

noncomputable section

namespace Cert.Bridge

open Idealize.ShloMosaic Idealize.ShloMosaic.TcCoe Idealize.SL.Sem Idealize.ShloMosaic.ValueIdx

variable (m : (ℓ : Loc Cert.KernelIdeal.nD Cert.KernelIdeal.τ Cert.KernelIdeal.sig) → Buf (Elt Ideal) ℓ)
  (c : Dev Cert.KernelIdeal.nD)

/-- The edge list as the launch memory holds it: a [2,160000] table of node numbers. -/
noncomputable abbrev edgeList : IVec Cert.ReferenceIdeal.S2x160000 32 :=
  m ((c : Thread Cert.KernelIdeal.nD Cert.KernelIdeal.τ).loc Cert.KernelIdeal.main_arg5)

/-! ## The index columns -/

theorem srcIdx_eq : Cert.KernelIdeal.Hand.srcIdx m c
    = Cert.ReferenceIdeal.Hand.normIdx (Cert.ReferenceIdeal.Hand.srcRaw (edgeList m c)) := rfl

theorem dstIdx_eq : Cert.KernelIdeal.Hand.dstIdx m c
    = Cert.ReferenceIdeal.Hand.normIdx (Cert.ReferenceIdeal.Hand.dstRaw (edgeList m c)) := rfl

/-! ## Node rows gathered at the edges' ends -/

theorem gatherSrc_eq (a : FVec Ideal Cert.ReferenceIdeal.S20000x128 .f32) :
    Host.gather Cert.KernelIdeal.gather_S20000x128_S160000x1_S160000x128_1_0_n_n_0_1_1128 a (Cert.KernelIdeal.Hand.srcIdx m c)
      = Cert.ReferenceIdeal.Hand.gatherRef a (Cert.ReferenceIdeal.Hand.srcRaw (edgeList m c)) := rfl

theorem gatherDst_eq (a : FVec Ideal Cert.ReferenceIdeal.S20000x128 .f32) :
    Host.gather Cert.KernelIdeal.gather_S20000x128_S160000x1_S160000x128_1_0_n_n_0_1_1128 a (Cert.KernelIdeal.Hand.dstIdx m c)
      = Cert.ReferenceIdeal.Hand.gatherRef a (Cert.ReferenceIdeal.Hand.dstRaw (edgeList m c)) := rfl

/-! ## Edge rows added into the zero node array at their receivers -/

theorem scatter_eq (M : FVec Ideal Cert.ReferenceIdeal.S160000x128 .f32) :
    Host.scatterAdd Cert.KernelIdeal.scatter_S20000x128_S160000x1_S160000x128_1_0_0_1
        (Cert.KernelIdeal.Hand.zeroAcc (F := Ideal)) (Cert.KernelIdeal.Hand.dstCol m c) M
      = Cert.ReferenceIdeal.Hand.aggRef (Cert.ReferenceIdeal.Hand.dstRaw (edgeList m c)) M := rfl

/-! ## One layer of a stacked weight or bias -/

theorem sliceMat_eq (x : FVec Ideal Cert.KernelIdeal.S6x128x128 .f32) (l : Nat)
    (hK : Cert.KernelIdeal.S6x128x128.Slices ![l, 0, 0] Cert.KernelIdeal.S1x128x128)
    (hR : Cert.ReferenceIdeal.S6x128x128.Slices ![l, 0, 0] Cert.ReferenceIdeal.S1x128x128) :
    Cert.KernelIdeal.Hand.sliceMat x l hK = Cert.ReferenceIdeal.Hand.wmat l hR x := rfl

/-- The bias row the kernel takes, read in its row at column j, is entry j of the reference's bias vector. -/
theorem sliceRow_at (x : FVec Ideal Cert.KernelIdeal.S6x128 .f32) (l : Nat)
    (hK : Cert.KernelIdeal.S6x128.Slices ![l, 0] Cert.KernelIdeal.S1x128)
    (hR : Cert.ReferenceIdeal.S6x128.Slices ![l, 0] Cert.ReferenceIdeal.S1x128) (j : Fin 128) :
    Cert.KernelIdeal.Hand.sliceRow x l hK (ix2 (0 : Fin 1) j) = Cert.ReferenceIdeal.Hand.wvec l hR x (ix1 j) := by
  unfold Cert.KernelIdeal.Hand.sliceRow
  rw [Cert.Align.biasRow128]
  rfl

end Cert.Bridge

end
-- ==== Proof.KI.Val4.lean ====
/-
  Region 4 of @main, the node-update kernel of the first message-passing layer, over the extended reals: what the three
  result arrays hold when the region ends, as row formulas of the arrays the region finds.

  The body's arithmetic at an index of a block is the update row formula (the conversions to and from half precision
  are the identity over the extended reals, a product into a zero accumulator is the plain sum).  Each grid point writes
  back block t of one function of the whole input arrays; the five blocks of 4000 rows tile the 20000 rows; so each result
  array ends as that function.
-/
import proofs.«152161_j29669634081217_2_alg».proof.Proof.KI.Reg4
import proofs.«152161_j29669634081217_2_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Hand

open BigOperators
open Cert.KernelIdeal Cert.KernelIdeal.Gen
open Idealize.ShloMosaic Idealize.ShloMosaic.TcCoe
open Idealize.ShloMosaic.Pipeline (Dat Cfg Window)

/-! ## The body's arithmetic over the extended reals, at an index of the block -/

/-- In a [4000,128] by [128,128] product the left operand is read at the output's row -/
theorem upd4Lhs_row (i : S4000x128.Idx) (k : dot_S4000x128_S128x128_S4000x128_1_0_0_1_n_n.contr.Idx) :
    (dot_S4000x128_S128x128_S4000x128_1_0_0_1_n_n.lhsIdx i k 0).val = (i 0).val := by
  unfold DotDims.lhsIdx
  rw [dif_neg (show ¬(0 : Fin S4000x128.rank) ∈ dot_S4000x128_S128x128_S4000x128_1_0_0_1_n_n.lhsBatch from List.not_mem_nil),
    dif_pos (show (0 : Fin S4000x128.rank) ∈ dot_S4000x128_S128x128_S4000x128_1_0_0_1_n_n.lhsNonContracting from List.mem_singleton.mpr rfl)]
  rfl

/-- and at the contraction index along its columns; -/
theorem upd4Lhs_col (i : S4000x128.Idx) (k : dot_S4000x128_S128x128_S4000x128_1_0_0_1_n_n.contr.Idx) :
    (dot_S4000x128_S128x128_S4000x128_1_0_0_1_n_n.lhsIdx i k 1).val = (k ⟨0, Nat.one_pos⟩).val :=
  dot_S4000x128_S128x128_S4000x128_1_0_0_1_n_n.lhsIdx_val_of_single rfl i k

/-- the right operand at the contraction index along its rows -/
theorem upd4Rhs_row (i : S4000x128.Idx) (k : dot_S4000x128_S128x128_S4000x128_1_0_0_1_n_n.contr.Idx) :
    (dot_S4000x128_S128x128_S4000x128_1_0_0_1_n_n.rhsIdx i k 0).val = (k ⟨0, Nat.one_pos⟩).val :=
  dot_S4000x128_S128x128_S4000x128_1_0_0_1_n_n.rhsIdx_val_of_single rfl i k

/-- and at the output's column. -/
theorem upd4Rhs_col (i : S4000x128.Idx) (k : dot_S4000x128_S128x128_S4000x128_1_0_0_1_n_n.contr.Idx) :
    (dot_S4000x128_S128x128_S4000x128_1_0_0_1_n_n.rhsIdx i k 1).val = (i 1).val := by
  unfold DotDims.rhsIdx
  rw [dif_neg (show ¬(1 : Fin S128x128.rank) ∈ dot_S4000x128_S128x128_S4000x128_1_0_0_1_n_n.rhsBatch from List.not_mem_nil),
    dif_pos (show (1 : Fin S128x128.rank) ∈ dot_S4000x128_S128x128_S4000x128_1_0_0_1_n_n.rhsNonContracting from List.mem_singleton.mpr rfl)]
  rfl

/-- The matrix unit's product into a zero accumulator, at row p and column q of the block: row p times the matrix,
    with no rounding over the extended reals. -/
theorem upd4Mm_at {φ₁ φ₂ : FTy} (X : FVec Ideal S4000x128 φ₁) (W : FVec Ideal S128x128 φ₂) (p : Fin 4000) (q : Fin 128) :
    matmul dot_S4000x128_S128x128_S4000x128_1_0_0_1_n_n none X W (constant (F := Ideal) S4000x128 .f32 0x00000000#32) (ValueIdx.ix2 p q)
      = ∑ k : Fin 128, X (ValueIdx.ix2 p k) * W (ValueIdx.ix2 k q) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ValueIdx.ix2 p q) ((ValueIdx.contrEquiv1 dot_S4000x128_S128x128_S4000x128_1_0_0_1_n_n 128 rfl rfl).symm k) = ValueIdx.ix2 p k :=
    funext fun a => Fin.ext (by
      match a with
      | ⟨0, _⟩ => exact upd4Lhs_row _ _
      | ⟨1, _⟩ => exact (upd4Lhs_col _ _).trans hk)
  have er : dot_S4000x128_S128x128_S4000x128_1_0_0_1_n_n.rhsIdx (ValueIdx.ix2 p q) ((ValueIdx.contrEquiv1 dot_S4000x128_S128x128_S4000x128_1_0_0_1_n_n 128 rfl rfl).symm k) = ValueIdx.ix2 k q :=
    funext fun a => Fin.ext (by
      match a with
      | ⟨0, _⟩ => exact (upd4Rhs_row _ _).trans hk
      | ⟨1, _⟩ => exact upd4Rhs_col _ _)
  rw [el, er]

/-- A [1,128] bias broadcast down the block's rows reads its entry q at every row. -/
theorem upd4Bias_at (b : Vec Ideal S1x128 .f32) (p : Fin 4000) (q : Fin 128) :
    broadcastTo S4000x128 b broadcasts_S1x128_S4000x128 (ValueIdx.ix2 p q) = b (ValueIdx.ix2 0 q) :=
  broadcastTo_apply b _ _ (ValueIdx.ix2 0 q) (fun a => by
    match a with
    | ⟨0, _⟩ => rfl
    | ⟨1, _⟩ => rfl)

/-- The stored features: the update row formula of rows p of the two loaded blocks. -/
theorem upd4Pay3_at (h : Vec Ideal S4000x128 .f32) (wh : Vec Ideal S128x128 .f32) (g : Vec Ideal S4000x128 .f32)
    (wa : Vec Ideal S128x128 .f32) (b1 : Vec Ideal S1x128 .f32) (w2 : Vec Ideal S128x128 .f32) (b2 : Vec Ideal S1x128 .f32)
    (p : Fin 4000) (q : Fin 128) :
    k4_pay3 h wh g wa b1 w2 b2 (ValueIdx.ix2 p q)
      = Cert.Spec.upd (Cert.Spec.row h p) (Cert.Spec.row g p) (Cert.Spec.m2 wh) (Cert.Spec.m2 wa)
          (fun j => b1 (ValueIdx.ix2 0 j)) (Cert.Spec.m2 w2) (fun j => b2 (ValueIdx.ix2 0 j)) q := by
  unfold k4_pay3
  simp only [shapeCast_self]
  rw [ValueIdx.addf_apply, ValueIdx.addf_apply, upd4Mm_at, upd4Bias_at]
  simp only [ValueIdx.truncf_apply, ValueIdx.maximumf_apply, ValueIdx.addf_apply, upd4Mm_at, upd4Bias_at,
    ValueIdx.broadcast_apply]
  unfold Cert.Spec.upd Cert.Spec.aff Cert.Spec.lin Cert.Spec.relu
  refine congrArg (fun z => h (ValueIdx.ix2 p q) + (z + b2 (ValueIdx.ix2 0 q))) ?_
  refine Finset.sum_congr rfl fun k _ => ?_
  have hz : FloatOps.ofBits (F := Ideal) FTy.f32 0x00000000#32 = (0 : EReal) := Ideal.ofBits_zero_f32
  rw [upd4Bias_at, hz]

/-- The half-precision copy handed on to the two projections is the same function over the extended reals. -/
theorem upd4Pay4_at (h : Vec Ideal S4000x128 .f32) (wh : Vec Ideal S128x128 .f32) (g : Vec Ideal S4000x128 .f32)
    (wa : Vec Ideal S128x128 .f32) (b1 : Vec Ideal S1x128 .f32) (w2 : Vec Ideal S128x128 .f32) (b2 : Vec Ideal S1x128 .f32)
    (i : S4000x128.Idx) : k4_pay4 h wh g wa b1 w2 b2 i = k4_pay3 h wh g wa b1 w2 b2 i := rfl

/-- The projection by the source-side matrix: the stored features' row times the matrix. -/
theorem upd4Pay1_at (y : FVec Ideal S4000x128 .bf16) (ws : Vec Ideal S128x128 .f32) (p : Fin 4000) (q : Fin 128) :
    k4_pay1 y (k4_pay5 ws) (ValueIdx.ix2 p q) = Cert.Spec.lin (fun k => y (ValueIdx.ix2 p k)) (Cert.Spec.m2 ws) q := by
  unfold k4_pay1 k4_pay5
  simp only [shapeCast_self]
  rw [ValueIdx.truncf_apply, upd4Mm_at]
  rfl

/-- The projection by the destination-side matrix, likewise. -/
theorem upd4Pay2_at (y : FVec Ideal S4000x128 .bf16) (wd : Vec Ideal S128x128 .f32) (p : Fin 4000) (q : Fin 128) :
    k4_pay2 y wd (ValueIdx.ix2 p q) = Cert.Spec.lin (fun k => y (ValueIdx.ix2 p k)) (Cert.Spec.m2 wd) q := by
  unfold k4_pay2
  simp only [shapeCast_self]
  rw [ValueIdx.truncf_apply, upd4Mm_at]
  rfl

/-! ## From blocks to the arrays -/

variable (V : (c : Dev nD) → (b : Ref sig .tc) → Buf (Elt Ideal) ((c : Thread nD τ).loc b))

/-- Every access of the body starts at the origin of its buffer. -/
theorem upd4_origin : (![0, 0] : Fin 2 → Nat) = fun _ => 0 := funext fun a => by fin_cases a <;> rfl

/-- The new features as one function of the whole input arrays: at row r, column j, the update row formula of rows r
    of the features and of the aggregated messages. -/
noncomputable def upd4New (H Agg : S20000x128.Idx → EReal) (Wnh Wna : S128x128.Idx → EReal) (B1 : S1x128.Idx → EReal)
    (Wn2 : S128x128.Idx → EReal) (B2 : S1x128.Idx → EReal) : S20000x128.Idx → EReal := fun i =>
  Cert.Spec.upd (Cert.Spec.row H (i 0)) (Cert.Spec.row Agg (i 0)) (Cert.Spec.m2 Wnh) (Cert.Spec.m2 Wna)
    (fun j => B1 (ValueIdx.ix2 0 j)) (Cert.Spec.m2 Wn2) (fun j => B2 (ValueIdx.ix2 0 j)) (i 1)

/-- A projection of the new features as one function of the whole input arrays. -/
noncomputable def upd4Proj (H Agg : S20000x128.Idx → EReal) (Wnh Wna : S128x128.Idx → EReal) (B1 : S1x128.Idx → EReal)
    (Wn2 : S128x128.Idx → EReal) (B2 : S1x128.Idx → EReal) (W : S128x128.Idx → EReal) : S20000x128.Idx → EReal := fun i =>
  Cert.Spec.lin (Cert.Spec.upd (Cert.Spec.row H (i 0)) (Cert.Spec.row Agg (i 0)) (Cert.Spec.m2 Wnh) (Cert.Spec.m2 Wna)
    (fun j => B1 (ValueIdx.ix2 0 j)) (Cert.Spec.m2 Wn2) (fun j => B2 (ValueIdx.ix2 0 j))) (Cert.Spec.m2 W) (i 1)

/-- The printed index maps, decided over the five grid points: the two row-blocked inputs and the three results are at
    block row t, column block 0; the seven weight arrays are always at block (0, 0). -/
theorem upd4_index : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0)
    ∧ (win4_7.index t (0 : Fin 2) = 0 ∧ win4_7.index t (1 : Fin 2) = 0)
    ∧ (win4_8.index t (0 : Fin 2) = 0 ∧ win4_8.index t (1 : Fin 2) = 0)
    ∧ (win4_9.index t (0 : Fin 2) = t.val ∧ win4_9.index t (1 : Fin 2) = 0)
    ∧ (win4_10.index t (0 : Fin 2) = t.val ∧ win4_10.index t (1 : Fin 2) = 0)
    ∧ (win4_11.index t (0 : Fin 2) = t.val ∧ win4_11.index t (1 : Fin 2) = 0) :=
  (by decide +kernel : ∀ t : Fin grid4.N, _)

/-- The grid has five points. -/
theorem upd4_points (t : Fin cfg4.N) : t.val < 5 := by
  have h : t.val < grid4.N := t.isLt
  rw [N_4] at h
  exact h

/-- The row of the whole array that row p of block t is. -/
noncomputable def upd4Row (t : Fin cfg4.N) (p : Fin 4000) : Fin 20000 :=
  ⟨t.val * 4000 + p.val, by have := upd4_points t; have := p.isLt; omega⟩

/-! The arrays the region finds, at their literal shapes. -/
/-- The node features the region finds. -/
noncomputable abbrev upd4H (c : Dev nD) : S20000x128.Idx → EReal := V c (Pipeline.arrRef spec4 0)
/-- The aggregated messages the region finds. -/
noncomputable abbrev upd4Agg (c : Dev nD) : S20000x128.Idx → EReal := V c (Pipeline.arrRef spec4 1)
/-- The update's matrix on the features. -/
noncomputable abbrev upd4Wnh (c : Dev nD) : S128x128.Idx → EReal := V c (Pipeline.arrRef spec4 2)
/-- The update's matrix on the messages. -/
noncomputable abbrev upd4Wna (c : Dev nD) : S128x128.Idx → EReal := V c (Pipeline.arrRef spec4 3)
/-- The update's first bias, a [1,128] row. -/
noncomputable abbrev upd4B1 (c : Dev nD) : S1x128.Idx → EReal := V c (Pipeline.arrRef spec4 4)
/-- The update's second matrix. -/
noncomputable abbrev upd4Wn2 (c : Dev nD) : S128x128.Idx → EReal := V c (Pipeline.arrRef spec4 5)
/-- The update's second bias, a [1,128] row. -/
noncomputable abbrev upd4B2 (c : Dev nD) : S1x128.Idx → EReal := V c (Pipeline.arrRef spec4 6)
/-- The next layer's source-side matrix. -/
noncomputable abbrev upd4Ws (c : Dev nD) : S128x128.Idx → EReal := V c (Pipeline.arrRef spec4 7)
/-- The next layer's destination-side matrix. -/
noncomputable abbrev upd4Wd (c : Dev nD) : S128x128.Idx → EReal := V c (Pipeline.arrRef spec4 8)

/-! ## Each block read where its rectangle says -/

/-- Row p of window 0's block at point t is row `upd4Row t p` of its array. -/
theorem upd4_blk_0 (c : Dev nD) (t : Fin cfg4.N) (p : Fin 4000) (k : Fin 128) :
    iblk4 V c 0 t (ValueIdx.ix2 p k : S4000x128.Idx) = upd4H V c (ValueIdx.ix2 (upd4Row t p) k) := by
  have e := upd4_index t
  show V c (Pipeline.arrRef spec4 0) (((cfg4.win 0).blk t).view.emb (ValueIdx.ix2 p k : S4000x128.Idx)) = _
  refine congrArg (V c (Pipeline.arrRef spec4 0)) (funext fun a => Fin.ext ?_)
  match a with
  | ⟨0, _⟩ => show win4_0.index t (0 : Fin 2) * 4000 + 1 * p.val = t.val * 4000 + p.val; omega
  | ⟨1, _⟩ => show win4_0.index t (1 : Fin 2) * 128 + 1 * k.val = k.val; omega

/-- Row p of window 1's block at point t is row `upd4Row t p` of its array. -/
theorem upd4_blk_1 (c : Dev nD) (t : Fin cfg4.N) (p : Fin 4000) (k : Fin 128) :
    iblk4 V c 1 t (ValueIdx.ix2 p k : S4000x128.Idx) = upd4Agg V c (ValueIdx.ix2 (upd4Row t p) k) := by
  have e := upd4_index t
  show V c (Pipeline.arrRef spec4 1) (((cfg4.win 1).blk t).view.emb (ValueIdx.ix2 p k : S4000x128.Idx)) = _
  refine congrArg (V c (Pipeline.arrRef spec4 1)) (funext fun a => Fin.ext ?_)
  match a with
  | ⟨0, _⟩ => show win4_1.index t (0 : Fin 2) * 4000 + 1 * p.val = t.val * 4000 + p.val; omega
  | ⟨1, _⟩ => show win4_1.index t (1 : Fin 2) * 128 + 1 * k.val = k.val; omega

/-- Window 2's block at every point is its whole array. -/
theorem upd4_blk_2 (c : Dev nD) (t : Fin cfg4.N) (i : S128x128.Idx) : iblk4 V c 2 t i = upd4Wnh V c i := by
  have e := upd4_index t
  show V c (Pipeline.arrRef spec4 2) (((cfg4.win 2).blk t).view.emb i) = _
  refine congrArg (V c (Pipeline.arrRef spec4 2)) (funext fun a => Fin.ext ?_)
  match a with
  | ⟨0, _⟩ => show win4_2.index t (0 : Fin 2) * 128 + 1 * (i 0).val = (i 0).val; omega
  | ⟨1, _⟩ => show win4_2.index t (1 : Fin 2) * 128 + 1 * (i 1).val = (i 1).val; omega

/-- Window 3's block at every point is its whole array. -/
theorem upd4_blk_3 (c : Dev nD) (t : Fin cfg4.N) (i : S128x128.Idx) : iblk4 V c 3 t i = upd4Wna V c i := by
  have e := upd4_index t
  show V c (Pipeline.arrRef spec4 3) (((cfg4.win 3).blk t).view.emb i) = _
  refine congrArg (V c (Pipeline.arrRef spec4 3)) (funext fun a => Fin.ext ?_)
  match a with
  | ⟨0, _⟩ => show win4_3.index t (0 : Fin 2) * 128 + 1 * (i 0).val = (i 0).val; omega
  | ⟨1, _⟩ => show win4_3.index t (1 : Fin 2) * 128 + 1 * (i 1).val = (i 1).val; omega

/-- Window 4's block at every point is its whole array. -/
theorem upd4_blk_4 (c : Dev nD) (t : Fin cfg4.N) (i : S1x128.Idx) : iblk4 V c 4 t i = upd4B1 V c i := by
  have e := upd4_index t
  show V c (Pipeline.arrRef spec4 4) (((cfg4.win 4).blk t).view.emb i) = _
  refine congrArg (V c (Pipeline.arrRef spec4 4)) (funext fun a => Fin.ext ?_)
  match a with
  | ⟨0, _⟩ => show win4_4.index t (0 : Fin 2) * 1 + 1 * (i 0).val = (i 0).val; omega
  | ⟨1, _⟩ => show win4_4.index t (1 : Fin 2) * 128 + 1 * (i 1).val = (i 1).val; omega

/-- Window 5's block at every point is its whole array. -/
theorem upd4_blk_5 (c : Dev nD) (t : Fin cfg4.N) (i : S128x128.Idx) : iblk4 V c 5 t i = upd4Wn2 V c i := by
  have e := upd4_index t
  show V c (Pipeline.arrRef spec4 5) (((cfg4.win 5).blk t).view.emb i) = _
  refine congrArg (V c (Pipeline.arrRef spec4 5)) (funext fun a => Fin.ext ?_)
  match a with
  | ⟨0, _⟩ => show win4_5.index t (0 : Fin 2) * 128 + 1 * (i 0).val = (i 0).val; omega
  | ⟨1, _⟩ => show win4_5.index t (1 : Fin 2) * 128 + 1 * (i 1).val = (i 1).val; omega

/-- Window 6's block at every point is its whole array. -/
theorem upd4_blk_6 (c : Dev nD) (t : Fin cfg4.N) (i : S1x128.Idx) : iblk4 V c 6 t i = upd4B2 V c i := by
  have e := upd4_index t
  show V c (Pipeline.arrRef spec4 6) (((cfg4.win 6).blk t).view.emb i) = _
  refine congrArg (V c (Pipeline.arrRef spec4 6)) (funext fun a => Fin.ext ?_)
  match a with
  | ⟨0, _⟩ => show win4_6.index t (0 : Fin 2) * 1 + 1 * (i 0).val = (i 0).val; omega
  | ⟨1, _⟩ => show win4_6.index t (1 : Fin 2) * 128 + 1 * (i 1).val = (i 1).val; omega

/-- Window 7's block at every point is its whole array. -/
theorem upd4_blk_7 (c : Dev nD) (t : Fin cfg4.N) (i : S128x128.Idx) : iblk4 V c 7 t i = upd4Ws V c i := by
  have e := upd4_index t
  show V c (Pipeline.arrRef spec4 7) (((cfg4.win 7).blk t).view.emb i) = _
  refine congrArg (V c (Pipeline.arrRef spec4 7)) (funext fun a => Fin.ext ?_)
  match a with
  | ⟨0, _⟩ => show win4_7.index t (0 : Fin 2) * 128 + 1 * (i 0).val = (i 0).val; omega
  | ⟨1, _⟩ => show win4_7.index t (1 : Fin 2) * 128 + 1 * (i 1).val = (i 1).val; omega

/-- Window 8's block at every point is its whole array. -/
theorem upd4_blk_8 (c : Dev nD) (t : Fin cfg4.N) (i : S128x128.Idx) : iblk4 V c 8 t i = upd4Wd V c i := by
  have e := upd4_index t
  show V c (Pipeline.arrRef spec4 8) (((cfg4.win 8).blk t).view.emb i) = _
  refine congrArg (V c (Pipeline.arrRef spec4 8)) (funext fun a => Fin.ext ?_)
  match a with
  | ⟨0, _⟩ => show win4_8.index t (0 : Fin 2) * 128 + 1 * (i 0).val = (i 0).val; omega
  | ⟨1, _⟩ => show win4_8.index t (1 : Fin 2) * 128 + 1 * (i 1).val = (i 1).val; omega

/-- Index (p, q) of result window 9's block at point t is index (`upd4Row t p`, q) of its array. -/
theorem upd4_emb_9 (t : Fin cfg4.N) (p : Fin 4000) (q : Fin 128) :
    ((cfg4.win 9).blk t).view.emb (ValueIdx.ix2 p q : S4000x128.Idx) = (ValueIdx.ix2 (upd4Row t p) q : S20000x128.Idx) := by
  have e := upd4_index t
  refine funext fun a => Fin.ext ?_
  match a with
  | ⟨0, _⟩ => show win4_9.index t (0 : Fin 2) * 4000 + 1 * p.val = t.val * 4000 + p.val; omega
  | ⟨1, _⟩ => show win4_9.index t (1 : Fin 2) * 128 + 1 * q.val = q.val; omega

/-- Index (p, q) of result window 10's block at point t is index (`upd4Row t p`, q) of its array. -/
theorem upd4_emb_10 (t : Fin cfg4.N) (p : Fin 4000) (q : Fin 128) :
    ((cfg4.win 10).blk t).view.emb (ValueIdx.ix2 p q : S4000x128.Idx) = (ValueIdx.ix2 (upd4Row t p) q : S20000x128.Idx) := by
  have e := upd4_index t
  refine funext fun a => Fin.ext ?_
  match a with
  | ⟨0, _⟩ => show win4_10.index t (0 : Fin 2) * 4000 + 1 * p.val = t.val * 4000 + p.val; omega
  | ⟨1, _⟩ => show win4_10.index t (1 : Fin 2) * 128 + 1 * q.val = q.val; omega

/-- Index (p, q) of result window 11's block at point t is index (`upd4Row t p`, q) of its array. -/
theorem upd4_emb_11 (t : Fin cfg4.N) (p : Fin 4000) (q : Fin 128) :
    ((cfg4.win 11).blk t).view.emb (ValueIdx.ix2 p q : S4000x128.Idx) = (ValueIdx.ix2 (upd4Row t p) q : S20000x128.Idx) := by
  have e := upd4_index t
  refine funext fun a => Fin.ext ?_
  match a with
  | ⟨0, _⟩ => show win4_11.index t (0 : Fin 2) * 4000 + 1 * p.val = t.val * 4000 + p.val; omega
  | ⟨1, _⟩ => show win4_11.index t (1 : Fin 2) * 128 + 1 * q.val = q.val; omega

/-- The update row formula of rows p of the blocks at point t is that of rows `upd4Row t p` of the arrays. -/
theorem upd4_rows (c : Dev nD) (t : Fin cfg4.N) (p : Fin 4000) :
    Cert.Spec.upd (Cert.Spec.row (iblk4 V c 0 t) p) (Cert.Spec.row (iblk4 V c 1 t) p) (Cert.Spec.m2 (iblk4 V c 2 t))
        (Cert.Spec.m2 (iblk4 V c 3 t)) (fun j => iblk4 V c 4 t (ValueIdx.ix2 0 j)) (Cert.Spec.m2 (iblk4 V c 5 t))
        (fun j => iblk4 V c 6 t (ValueIdx.ix2 0 j))
      = Cert.Spec.upd (Cert.Spec.row (upd4H V c) (upd4Row t p)) (Cert.Spec.row (upd4Agg V c) (upd4Row t p))
          (Cert.Spec.m2 (upd4Wnh V c)) (Cert.Spec.m2 (upd4Wna V c)) (fun j => upd4B1 V c (ValueIdx.ix2 0 j))
          (Cert.Spec.m2 (upd4Wn2 V c)) (fun j => upd4B2 V c (ValueIdx.ix2 0 j)) := by
  have h0 : Cert.Spec.row (iblk4 V c 0 t) p = Cert.Spec.row (upd4H V c) (upd4Row t p) := funext fun k => upd4_blk_0 V c t p k
  have h1 : Cert.Spec.row (iblk4 V c 1 t) p = Cert.Spec.row (upd4Agg V c) (upd4Row t p) := funext fun k => upd4_blk_1 V c t p k
  have h2 : Cert.Spec.m2 (iblk4 V c 2 t) = Cert.Spec.m2 (upd4Wnh V c) := funext fun a => funext fun b => upd4_blk_2 V c t _
  have h3 : Cert.Spec.m2 (iblk4 V c 3 t) = Cert.Spec.m2 (upd4Wna V c) := funext fun a => funext fun b => upd4_blk_3 V c t _
  have h4 : (fun j : Fin 128 => iblk4 V c 4 t (ValueIdx.ix2 0 j)) = fun j => upd4B1 V c (ValueIdx.ix2 0 j) := funext fun j => upd4_blk_4 V c t _
  have h5 : Cert.Spec.m2 (iblk4 V c 5 t) = Cert.Spec.m2 (upd4Wn2 V c) := funext fun a => funext fun b => upd4_blk_5 V c t _
  have h6 : (fun j : Fin 128 => iblk4 V c 6 t (ValueIdx.ix2 0 j)) = fun j => upd4B2 V c (ValueIdx.ix2 0 j) := funext fun j => upd4_blk_6 V c t _
  rw [h0, h1, h2, h3, h4, h5, h6]

/-! ## What each point writes back -/

/-- Point t writes back, into the new features, block t of `upd4New` of the arrays the region finds. -/
theorem upd4_flushed_9 (c : Dev nD) (t : Fin cfg4.N) :
    (dat4 V c).flushed 9 t = ((cfg4.win 9).blk t).view.read (Elt Ideal) (upd4New (upd4H V c) (upd4Agg V c) (upd4Wnh V c) (upd4Wna V c) (upd4B1 V c) (upd4Wn2 V c) (upd4B2 V c)) := by
  show (cfg4.win 9).cut (grid4.coords t) ((dat4 V c).after 9 t) = _
  rw [after4_9]
  unfold out4_9
  rw [View.canon_unit_zero upd4_origin]
  simp only [View.ld_unit_zero (S := S4000x128) upd4_origin, View.ld_unit_zero (S := S128x128) upd4_origin,
    View.ld_unit_zero (S := S1x128) upd4_origin]
  funext j
  obtain ⟨p, q, rfl⟩ : ∃ (p : Fin 4000) (q : Fin 128), j = ValueIdx.ix2 p q := ⟨j 0, j 1, ValueIdx.eq_ix2 j⟩
  show k4_pay3 (iblk4 V c 0 t) (iblk4 V c 2 t) (iblk4 V c 1 t) (iblk4 V c 3 t) (iblk4 V c 4 t) (iblk4 V c 5 t) (iblk4 V c 6 t) (ValueIdx.ix2 p q)
    = upd4New (upd4H V c) (upd4Agg V c) (upd4Wnh V c) (upd4Wna V c) (upd4B1 V c) (upd4Wn2 V c) (upd4B2 V c) (((cfg4.win 9).blk t).view.emb (ValueIdx.ix2 p q : S4000x128.Idx))
  rw [upd4Pay3_at, upd4_emb_9, upd4_rows]
  rfl

/-- Point t writes back, into the source-side projection, block t of `upd4Proj` by the source-side matrix. -/
theorem upd4_flushed_10 (c : Dev nD) (t : Fin cfg4.N) :
    (dat4 V c).flushed 10 t = ((cfg4.win 10).blk t).view.read (Elt Ideal) (upd4Proj (upd4H V c) (upd4Agg V c) (upd4Wnh V c) (upd4Wna V c) (upd4B1 V c) (upd4Wn2 V c) (upd4B2 V c) (upd4Ws V c)) := by
  show (cfg4.win 10).cut (grid4.coords t) ((dat4 V c).after 10 t) = _
  rw [after4_10]
  unfold out4_10
  rw [View.canon_unit_zero upd4_origin]
  simp only [View.ld_unit_zero (S := S4000x128) upd4_origin, View.ld_unit_zero (S := S128x128) upd4_origin,
    View.ld_unit_zero (S := S1x128) upd4_origin]
  funext j
  obtain ⟨p, q, rfl⟩ : ∃ (p : Fin 4000) (q : Fin 128), j = ValueIdx.ix2 p q := ⟨j 0, j 1, ValueIdx.eq_ix2 j⟩
  show k4_pay1 (k4_pay4 (iblk4 V c 0 t) (iblk4 V c 2 t) (iblk4 V c 1 t) (iblk4 V c 3 t) (iblk4 V c 4 t) (iblk4 V c 5 t) (iblk4 V c 6 t))
      (k4_pay5 (iblk4 V c 7 t)) (ValueIdx.ix2 p q)
    = upd4Proj (upd4H V c) (upd4Agg V c) (upd4Wnh V c) (upd4Wna V c) (upd4B1 V c) (upd4Wn2 V c) (upd4B2 V c) (upd4Ws V c) (((cfg4.win 10).blk t).view.emb (ValueIdx.ix2 p q : S4000x128.Idx))
  rw [upd4Pay1_at, upd4_emb_10]
  have hy : (fun k : Fin 128 => k4_pay4 (iblk4 V c 0 t) (iblk4 V c 2 t) (iblk4 V c 1 t) (iblk4 V c 3 t) (iblk4 V c 4 t) (iblk4 V c 5 t)
      (iblk4 V c 6 t) (ValueIdx.ix2 p k))
      = Cert.Spec.upd (Cert.Spec.row (upd4H V c) (upd4Row t p)) (Cert.Spec.row (upd4Agg V c) (upd4Row t p))
          (Cert.Spec.m2 (upd4Wnh V c)) (Cert.Spec.m2 (upd4Wna V c)) (fun j => upd4B1 V c (ValueIdx.ix2 0 j))
          (Cert.Spec.m2 (upd4Wn2 V c)) (fun j => upd4B2 V c (ValueIdx.ix2 0 j)) :=
    funext fun k => by rw [upd4Pay4_at, upd4Pay3_at, upd4_rows]
  have hw : Cert.Spec.m2 (iblk4 V c 7 t) = Cert.Spec.m2 (upd4Ws V c) := funext fun a => funext fun b => upd4_blk_7 V c t _
  rw [hy, hw]
  rfl

/-- Point t writes back, into the destination-side projection, block t of `upd4Proj` by the destination-side matrix. -/
theorem upd4_flushed_11 (c : Dev nD) (t : Fin cfg4.N) :
    (dat4 V c).flushed 11 t = ((cfg4.win 11).blk t).view.read (Elt Ideal) (upd4Proj (upd4H V c) (upd4Agg V c) (upd4Wnh V c) (upd4Wna V c) (upd4B1 V c) (upd4Wn2 V c) (upd4B2 V c) (upd4Wd V c)) := by
  show (cfg4.win 11).cut (grid4.coords t) ((dat4 V c).after 11 t) = _
  rw [after4_11]
  unfold out4_11
  rw [View.canon_unit_zero upd4_origin]
  simp only [View.ld_unit_zero (S := S4000x128) upd4_origin, View.ld_unit_zero (S := S128x128) upd4_origin,
    View.ld_unit_zero (S := S1x128) upd4_origin]
  funext j
  obtain ⟨p, q, rfl⟩ : ∃ (p : Fin 4000) (q : Fin 128), j = ValueIdx.ix2 p q := ⟨j 0, j 1, ValueIdx.eq_ix2 j⟩
  show k4_pay2 (k4_pay4 (iblk4 V c 0 t) (iblk4 V c 2 t) (iblk4 V c 1 t) (iblk4 V c 3 t) (iblk4 V c 4 t) (iblk4 V c 5 t) (iblk4 V c 6 t))
      (iblk4 V c 8 t) (ValueIdx.ix2 p q)
    = upd4Proj (upd4H V c) (upd4Agg V c) (upd4Wnh V c) (upd4Wna V c) (upd4B1 V c) (upd4Wn2 V c) (upd4B2 V c) (upd4Wd V c) (((cfg4.win 11).blk t).view.emb (ValueIdx.ix2 p q : S4000x128.Idx))
  rw [upd4Pay2_at, upd4_emb_11]
  have hy : (fun k : Fin 128 => k4_pay4 (iblk4 V c 0 t) (iblk4 V c 2 t) (iblk4 V c 1 t) (iblk4 V c 3 t) (iblk4 V c 4 t) (iblk4 V c 5 t)
      (iblk4 V c 6 t) (ValueIdx.ix2 p k))
      = Cert.Spec.upd (Cert.Spec.row (upd4H V c) (upd4Row t p)) (Cert.Spec.row (upd4Agg V c) (upd4Row t p))
          (Cert.Spec.m2 (upd4Wnh V c)) (Cert.Spec.m2 (upd4Wna V c)) (fun j => upd4B1 V c (ValueIdx.ix2 0 j))
          (Cert.Spec.m2 (upd4Wn2 V c)) (fun j => upd4B2 V c (ValueIdx.ix2 0 j)) :=
    funext fun k => by rw [upd4Pay4_at, upd4Pay3_at, upd4_rows]
  have hw : Cert.Spec.m2 (iblk4 V c 8 t) = Cert.Spec.m2 (upd4Wd V c) := funext fun a => funext fun b => upd4_blk_8 V c t _
  rw [hy, hw]
  rfl

/-! ## The blocks tile the rows -/

/-- An index of result array 9 is in point t's block iff each coordinate is in the block's range on its axis. -/
theorem upd4_mem_9 (t : Fin cfg4.N) (i : S20000x128.Idx) :
    i ∈ ((cfg4.win 9).blk t).view.set ↔ ∀ a : Fin 2, win4_9.index t a * S4000x128.size a ≤ (i a).val
      ∧ (i a).val < win4_9.index t a * S4000x128.size a + S4000x128.size a := by
  show i ∈ ((View.whole (Pipeline.arrRef spec4 9)).slice (win4_9.rect t)).set ↔ _
  rw [View.set_slice_whole, Rect.mem_set_unit]
  exact Iff.rfl

/-- Row r of result array 9 is in the block of point r / 4000, and every point writes its block back. -/
theorem upd4_cover_9 (i : S20000x128.Idx) :
    ∃ t : Fin cfg4.N, (cfg4.win 9).flush t = true ∧ i ∈ ((cfg4.win 9).blk t).view.set := by
  have hi0 : (i 0).val < 20000 := (i 0).isLt
  have hi1 : (i 1).val < 128 := (i 1).isLt
  have hN : (i 0).val / 4000 < grid4.N := by rw [N_4]; omega
  refine ⟨⟨(i 0).val / 4000, hN⟩, flush4_9 _, ?_⟩
  rw [upd4_mem_9]
  obtain ⟨-, -, -, -, -, -, -, -, -, e9, e10, e11⟩ := upd4_index ⟨(i 0).val / 4000, hN⟩
  have q0 : win4_9.index ⟨(i 0).val / 4000, hN⟩ (0 : Fin 2) = (i 0).val / 4000 := e9.1
  have q1 : win4_9.index ⟨(i 0).val / 4000, hN⟩ (1 : Fin 2) = 0 := e9.2
  intro a
  match a with
  | ⟨0, _⟩ =>
    show win4_9.index ⟨(i 0).val / 4000, hN⟩ (0 : Fin 2) * 4000 ≤ (i 0).val
      ∧ (i 0).val < win4_9.index ⟨(i 0).val / 4000, hN⟩ (0 : Fin 2) * 4000 + 4000
    omega
  | ⟨1, _⟩ =>
    show win4_9.index ⟨(i 0).val / 4000, hN⟩ (1 : Fin 2) * 128 ≤ (i 1).val
      ∧ (i 1).val < win4_9.index ⟨(i 0).val / 4000, hN⟩ (1 : Fin 2) * 128 + 128
    omega

/-- An index of result array 10 is in point t's block iff each coordinate is in the block's range on its axis. -/
theorem upd4_mem_10 (t : Fin cfg4.N) (i : S20000x128.Idx) :
    i ∈ ((cfg4.win 10).blk t).view.set ↔ ∀ a : Fin 2, win4_10.index t a * S4000x128.size a ≤ (i a).val
      ∧ (i a).val < win4_10.index t a * S4000x128.size a + S4000x128.size a := by
  show i ∈ ((View.whole (Pipeline.arrRef spec4 10)).slice (win4_10.rect t)).set ↔ _
  rw [View.set_slice_whole, Rect.mem_set_unit]
  exact Iff.rfl

/-- Row r of result array 10 is in the block of point r / 4000, and every point writes its block back. -/
theorem upd4_cover_10 (i : S20000x128.Idx) :
    ∃ t : Fin cfg4.N, (cfg4.win 10).flush t = true ∧ i ∈ ((cfg4.win 10).blk t).view.set := by
  have hi0 : (i 0).val < 20000 := (i 0).isLt
  have hi1 : (i 1).val < 128 := (i 1).isLt
  have hN : (i 0).val / 4000 < grid4.N := by rw [N_4]; omega
  refine ⟨⟨(i 0).val / 4000, hN⟩, flush4_10 _, ?_⟩
  rw [upd4_mem_10]
  obtain ⟨-, -, -, -, -, -, -, -, -, e9, e10, e11⟩ := upd4_index ⟨(i 0).val / 4000, hN⟩
  have q0 : win4_10.index ⟨(i 0).val / 4000, hN⟩ (0 : Fin 2) = (i 0).val / 4000 := e10.1
  have q1 : win4_10.index ⟨(i 0).val / 4000, hN⟩ (1 : Fin 2) = 0 := e10.2
  intro a
  match a with
  | ⟨0, _⟩ =>
    show win4_10.index ⟨(i 0).val / 4000, hN⟩ (0 : Fin 2) * 4000 ≤ (i 0).val
      ∧ (i 0).val < win4_10.index ⟨(i 0).val / 4000, hN⟩ (0 : Fin 2) * 4000 + 4000
    omega
  | ⟨1, _⟩ =>
    show win4_10.index ⟨(i 0).val / 4000, hN⟩ (1 : Fin 2) * 128 ≤ (i 1).val
      ∧ (i 1).val < win4_10.index ⟨(i 0).val / 4000, hN⟩ (1 : Fin 2) * 128 + 128
    omega

/-- An index of result array 11 is in point t's block iff each coordinate is in the block's range on its axis. -/
theorem upd4_mem_11 (t : Fin cfg4.N) (i : S20000x128.Idx) :
    i ∈ ((cfg4.win 11).blk t).view.set ↔ ∀ a : Fin 2, win4_11.index t a * S4000x128.size a ≤ (i a).val
      ∧ (i a).val < win4_11.index t a * S4000x128.size a + S4000x128.size a := by
  show i ∈ ((View.whole (Pipeline.arrRef spec4 11)).slice (win4_11.rect t)).set ↔ _
  rw [View.set_slice_whole, Rect.mem_set_unit]
  exact Iff.rfl

/-- Row r of result array 11 is in the block of point r / 4000, and every point writes its block back. -/
theorem upd4_cover_11 (i : S20000x128.Idx) :
    ∃ t : Fin cfg4.N, (cfg4.win 11).flush t = true ∧ i ∈ ((cfg4.win 11).blk t).view.set := by
  have hi0 : (i 0).val < 20000 := (i 0).isLt
  have hi1 : (i 1).val < 128 := (i 1).isLt
  have hN : (i 0).val / 4000 < grid4.N := by rw [N_4]; omega
  refine ⟨⟨(i 0).val / 4000, hN⟩, flush4_11 _, ?_⟩
  rw [upd4_mem_11]
  obtain ⟨-, -, -, -, -, -, -, -, -, e9, e10, e11⟩ := upd4_index ⟨(i 0).val / 4000, hN⟩
  have q0 : win4_11.index ⟨(i 0).val / 4000, hN⟩ (0 : Fin 2) = (i 0).val / 4000 := e11.1
  have q1 : win4_11.index ⟨(i 0).val / 4000, hN⟩ (1 : Fin 2) = 0 := e11.2
  intro a
  match a with
  | ⟨0, _⟩ =>
    show win4_11.index ⟨(i 0).val / 4000, hN⟩ (0 : Fin 2) * 4000 ≤ (i 0).val
      ∧ (i 0).val < win4_11.index ⟨(i 0).val / 4000, hN⟩ (0 : Fin 2) * 4000 + 4000
    omega
  | ⟨1, _⟩ =>
    show win4_11.index ⟨(i 0).val / 4000, hN⟩ (1 : Fin 2) * 128 ≤ (i 1).val
      ∧ (i 1).val < win4_11.index ⟨(i 0).val / 4000, hN⟩ (1 : Fin 2) * 128 + 128
    omega

/-! ## The result arrays when the region ends -/

/-- The new features end as `upd4New` of the arrays the region finds. -/
theorem upd4_array_9 (c : Dev nD) : (dat4 (F := Ideal) V c).arrAt 9 cfg4.N = upd4New (upd4H V c) (upd4Agg V c) (upd4Wnh V c) (upd4Wna V c) (upd4B1 V c) (upd4Wn2 V c) (upd4B2 V c) :=
  (dat4 V c).arrAt_eq_of_cover 9 (upd4New (upd4H V c) (upd4Agg V c) (upd4Wnh V c) (upd4Wna V c) (upd4B1 V c) (upd4Wn2 V c) (upd4B2 V c)) (fun t _ => upd4_flushed_9 V c t) upd4_cover_9

/-- The source-side projection ends as `upd4Proj` by the source-side matrix. -/
theorem upd4_array_10 (c : Dev nD) : (dat4 (F := Ideal) V c).arrAt 10 cfg4.N = upd4Proj (upd4H V c) (upd4Agg V c) (upd4Wnh V c) (upd4Wna V c) (upd4B1 V c) (upd4Wn2 V c) (upd4B2 V c) (upd4Ws V c) :=
  (dat4 V c).arrAt_eq_of_cover 10 (upd4Proj (upd4H V c) (upd4Agg V c) (upd4Wnh V c) (upd4Wna V c) (upd4B1 V c) (upd4Wn2 V c) (upd4B2 V c) (upd4Ws V c)) (fun t _ => upd4_flushed_10 V c t) upd4_cover_10

/-- The destination-side projection ends as `upd4Proj` by the destination-side matrix. -/
theorem upd4_array_11 (c : Dev nD) : (dat4 (F := Ideal) V c).arrAt 11 cfg4.N = upd4Proj (upd4H V c) (upd4Agg V c) (upd4Wnh V c) (upd4Wna V c) (upd4B1 V c) (upd4Wn2 V c) (upd4B2 V c) (upd4Wd V c) :=
  (dat4 V c).arrAt_eq_of_cover 11 (upd4Proj (upd4H V c) (upd4Agg V c) (upd4Wnh V c) (upd4Wna V c) (upd4B1 V c) (upd4Wn2 V c) (upd4B2 V c) (upd4Wd V c)) (fun t _ => upd4_flushed_11 V c t) upd4_cover_11

/-- The new features at row p, column q: the update row formula of rows p of the features and the messages. -/
theorem final4_9 (c : Dev nD) (p : Fin 20000) (q : Fin 128) :
    (dat4 (F := Ideal) V c).arrAt 9 cfg4.N (ValueIdx.ix2 p q : S20000x128.Idx)
      = Cert.Spec.upd (Cert.Spec.row (upd4H V c) p) (Cert.Spec.row (upd4Agg V c) p) (Cert.Spec.m2 (upd4Wnh V c))
        (Cert.Spec.m2 (upd4Wna V c)) (fun j => upd4B1 V c (ValueIdx.ix2 0 j)) (Cert.Spec.m2 (upd4Wn2 V c))
        (fun j => upd4B2 V c (ValueIdx.ix2 0 j)) q := by
  rw [upd4_array_9]; rfl

/-- The source-side projection at row p, column q: the new features' row p times the source-side matrix. -/
theorem final4_10 (c : Dev nD) (p : Fin 20000) (q : Fin 128) :
    (dat4 (F := Ideal) V c).arrAt 10 cfg4.N (ValueIdx.ix2 p q : S20000x128.Idx)
      = Cert.Spec.lin (Cert.Spec.upd (Cert.Spec.row (upd4H V c) p) (Cert.Spec.row (upd4Agg V c) p) (Cert.Spec.m2 (upd4Wnh V c))
        (Cert.Spec.m2 (upd4Wna V c)) (fun j => upd4B1 V c (ValueIdx.ix2 0 j)) (Cert.Spec.m2 (upd4Wn2 V c))
        (fun j => upd4B2 V c (ValueIdx.ix2 0 j))) (Cert.Spec.m2 (upd4Ws V c)) q := by
  rw [upd4_array_10]; rfl

/-- The destination-side projection at row p, column q: the new features' row p times the destination-side matrix. -/
theorem final4_11 (c : Dev nD) (p : Fin 20000) (q : Fin 128) :
    (dat4 (F := Ideal) V c).arrAt 11 cfg4.N (ValueIdx.ix2 p q : S20000x128.Idx)
      = Cert.Spec.lin (Cert.Spec.upd (Cert.Spec.row (upd4H V c) p) (Cert.Spec.row (upd4Agg V c) p) (Cert.Spec.m2 (upd4Wnh V c))
        (Cert.Spec.m2 (upd4Wna V c)) (fun j => upd4B1 V c (ValueIdx.ix2 0 j)) (Cert.Spec.m2 (upd4Wn2 V c))
        (fun j => upd4B2 V c (ValueIdx.ix2 0 j))) (Cert.Spec.m2 (upd4Wd V c)) q := by
  rw [upd4_array_11]; rfl

end Cert.KernelIdeal.Hand

end
-- ==== Proof.Ref.StageUpd.lean ====
/-
  The reference's node update of one message-passing layer, read at an index.

  The reference computes, on whole arrays, h + (relu ((h Wnh + agg Wna) + bn1) Wn2 + bn2): two matrix products summed, a
  bias row broadcast down the rows, the rectifier, a third product with its bias, and the residual sum.  Read at row p
  and column q over the extended reals this is the row formula Cert.Spec.upd of row p of h and of agg.
-/
import proofs.«152161_j29669634081217_2_alg».proof.ReferenceIdeal
import proofs.«152161_j29669634081217_2_alg».proof.Proof.Spec
import Idealize.ShloMosaic.PureOps.Ideal.Laws
import Idealize.ShloMosaic.Lib.ValueIdx
import Idealize.ShloMosaic.Lib.ValueLayout

noncomputable section

namespace Cert.ReferenceIdeal.Hand

open BigOperators
open Idealize.ShloMosaic Cert.ReferenceIdeal Cert.ReferenceIdeal.Facts₀

variable [Facts₀]

/-! ## A [20000,128] by [128,128] product at an index -/

/-- The left operand is read at the output's row: axis 0 of the left operand is its free axis. -/
theorem updLhs_row (i : S20000x128.Idx) (k : dot_S20000x128_S128x128_S20000x128_1_0_0_1_n_n.contr.Idx) :
    (dot_S20000x128_S128x128_S20000x128_1_0_0_1_n_n.lhsIdx i k 0).val = (i 0).val := by
  unfold DotDims.lhsIdx
  rw [dif_neg (show ¬(0 : Fin S20000x128.rank) ∈ dot_S20000x128_S128x128_S20000x128_1_0_0_1_n_n.lhsBatch from List.not_mem_nil),
    dif_pos (show (0 : Fin S20000x128.rank) ∈ dot_S20000x128_S128x128_S20000x128_1_0_0_1_n_n.lhsNonContracting from List.mem_singleton.mpr rfl)]
  rfl

/-- and at the contraction index along its columns. -/
theorem updLhs_col (i : S20000x128.Idx) (k : dot_S20000x128_S128x128_S20000x128_1_0_0_1_n_n.contr.Idx) :
    (dot_S20000x128_S128x128_S20000x128_1_0_0_1_n_n.lhsIdx i k 1).val = (k ⟨0, Nat.one_pos⟩).val :=
  dot_S20000x128_S128x128_S20000x128_1_0_0_1_n_n.lhsIdx_val_of_single rfl i k

/-- The right operand is read at the contraction index along its rows -/
theorem updRhs_row (i : S20000x128.Idx) (k : dot_S20000x128_S128x128_S20000x128_1_0_0_1_n_n.contr.Idx) :
    (dot_S20000x128_S128x128_S20000x128_1_0_0_1_n_n.rhsIdx i k 0).val = (k ⟨0, Nat.one_pos⟩).val :=
  dot_S20000x128_S128x128_S20000x128_1_0_0_1_n_n.rhsIdx_val_of_single rfl i k

/-- and at the output's column. -/
theorem updRhs_col (i : S20000x128.Idx) (k : dot_S20000x128_S128x128_S20000x128_1_0_0_1_n_n.contr.Idx) :
    (dot_S20000x128_S128x128_S20000x128_1_0_0_1_n_n.rhsIdx i k 1).val = (i 1).val := by
  unfold DotDims.rhsIdx
  rw [dif_neg (show ¬(1 : Fin S128x128.rank) ∈ dot_S20000x128_S128x128_S20000x128_1_0_0_1_n_n.rhsBatch from List.not_mem_nil),
    dif_pos (show (1 : Fin S128x128.rank) ∈ dot_S20000x128_S128x128_S20000x128_1_0_0_1_n_n.rhsNonContracting from List.mem_singleton.mpr rfl)]
  rfl

/-- The host's product of a [20000,128] array by a [128,128] matrix, at row p and column q: row p times the matrix. -/
theorem updDot_at (X : S20000x128.Idx → EReal) (W : S128x128.Idx → EReal) (p : Fin 20000) (q : Fin 128) :
    Host.dotGeneral (F := Ideal) (φ₁ := .f32) (φ₂ := .f32) dot_S20000x128_S128x128_S20000x128_1_0_0_1_n_n none X W (ValueIdx.ix2 p q)
      = Cert.Spec.lin (Cert.Spec.row X p) (Cert.Spec.m2 W) q := by
  simp only [Host.dotGeneral]
  rw [Ideal.dotGeneral_apply, ← Equiv.sum_comp (ValueIdx.contrEquiv1 dot_S20000x128_S128x128_S20000x128_1_0_0_1_n_n 128 rfl rfl).symm]
  unfold Cert.Spec.lin
  refine Finset.sum_congr rfl fun k _ => ?_
  have hk := ValueIdx.contrEquiv1_symm_val dot_S20000x128_S128x128_S20000x128_1_0_0_1_n_n 128 rfl rfl k
  have el : dot_S20000x128_S128x128_S20000x128_1_0_0_1_n_n.lhsIdx (ValueIdx.ix2 p q) ((ValueIdx.contrEquiv1 dot_S20000x128_S128x128_S20000x128_1_0_0_1_n_n 128 rfl rfl).symm k) = ValueIdx.ix2 p k :=
    funext fun a => Fin.ext (by
      match a with
      | ⟨0, _⟩ => exact updLhs_row _ _
      | ⟨1, _⟩ => exact (updLhs_col _ _).trans hk)
  have er : dot_S20000x128_S128x128_S20000x128_1_0_0_1_n_n.rhsIdx (ValueIdx.ix2 p q) ((ValueIdx.contrEquiv1 dot_S20000x128_S128x128_S20000x128_1_0_0_1_n_n 128 rfl rfl).symm k) = ValueIdx.ix2 k q :=
    funext fun a => Fin.ext (by
      match a with
      | ⟨0, _⟩ => exact (updRhs_row _ _).trans hk
      | ⟨1, _⟩ => exact updRhs_col _ _)
  rw [el, er]

/-! ## A bias row broadcast down the rows, and the rectifier -/

/-- A [128] bias, made a [1,128] row and broadcast to [20000,128], reads its entry q at every row. -/
theorem updBias_at (b : S128.Idx → EReal) (p : Fin 20000) (q : Fin 128) :
    broadcastInDim S20000x128 ![0, 1] bcast_S1x128_S20000x128_0_1 (broadcastInDim S1x128 ![1] bcast_S128_S1x128_1 b) (ValueIdx.ix2 p q)
      = Cert.Spec.v1 b q := by
  rw [broadcastInDim_apply _ _ _ _ (ValueIdx.ix2 (0 : Fin 1) q) (fun a => by
    match a with
    | ⟨0, _⟩ => rfl
    | ⟨1, _⟩ => rfl)]
  rw [broadcastInDim_apply _ _ _ _ (ValueIdx.ix1 q) (fun a => by
    match a with
    | ⟨0, _⟩ => rfl)]

/-- The outlined rectifier: the larger of the array and a broadcast zero. -/
theorem updRelu_at (X : S20000x128.Idx → EReal) (i : S20000x128.Idx) :
    maximumf (F := Ideal) (φ := .f32) X (broadcastInDim S20000x128 ![] bcast_S_S20000x128 (constant (F := Ideal) S_ .f32 0x00000000#32)) i
      = Cert.Spec.relu (X i) := by
  rw [ValueIdx.maximumf_apply, broadcastInDim_apply _ _ _ _ ValueIdx.ix0 (fun a => a.elim0), ValueIdx.constant_apply,
    Ideal.ofBits_zero_f32]
  rfl

/-! ## The stage -/

/-- The reference's node update at row p, column q is the update row formula of rows p of the features and of the
    aggregated messages. -/
theorem refUpd (H Agg : S20000x128.Idx → EReal) (Wnh Wna : S128x128.Idx → EReal) (b1 : S128.Idx → EReal)
    (Wn2 : S128x128.Idx → EReal) (b2 : S128.Idx → EReal) (p : Fin 20000) (q : Fin 128) :
    addf (F := Ideal) (φ := .f32) H
        (addf (F := Ideal) (φ := .f32)
          (Host.dotGeneral (F := Ideal) (φ₁ := .f32) (φ₂ := .f32) dot_S20000x128_S128x128_S20000x128_1_0_0_1_n_n none
            (maximumf (F := Ideal) (φ := .f32)
              (addf (F := Ideal) (φ := .f32)
                (addf (F := Ideal) (φ := .f32)
                  (Host.dotGeneral (F := Ideal) (φ₁ := .f32) (φ₂ := .f32) dot_S20000x128_S128x128_S20000x128_1_0_0_1_n_n none H Wnh)
                  (Host.dotGeneral (F := Ideal) (φ₁ := .f32) (φ₂ := .f32) dot_S20000x128_S128x128_S20000x128_1_0_0_1_n_n none Agg Wna))
                (broadcastInDim S20000x128 ![0, 1] bcast_S1x128_S20000x128_0_1 (broadcastInDim S1x128 ![1] bcast_S128_S1x128_1 b1)))
              (broadcastInDim S20000x128 ![] bcast_S_S20000x128 (constant (F := Ideal) S_ .f32 0x00000000#32)))
            Wn2)
          (broadcastInDim S20000x128 ![0, 1] bcast_S1x128_S20000x128_0_1 (broadcastInDim S1x128 ![1] bcast_S128_S1x128_1 b2)))
        (ValueIdx.ix2 p q)
      = Cert.Spec.upd (Cert.Spec.row H p) (Cert.Spec.row Agg p) (Cert.Spec.m2 Wnh) (Cert.Spec.m2 Wna) (Cert.Spec.v1 b1)
          (Cert.Spec.m2 Wn2) (Cert.Spec.v1 b2) q := by
  rw [ValueIdx.addf_apply, ValueIdx.addf_apply, updDot_at, updBias_at]
  unfold Cert.Spec.upd Cert.Spec.aff
  refine congrArg (fun z => H (ValueIdx.ix2 p q) + (z + Cert.Spec.v1 b2 q)) ?_
  unfold Cert.Spec.lin
  refine Finset.sum_congr rfl fun k _ => ?_
  refine congrArg (fun z => z * Cert.Spec.m2 Wn2 k q) ?_
  show maximumf (F := Ideal) (φ := .f32) _ _ (ValueIdx.ix2 p k) = _
  rw [updRelu_at, ValueIdx.addf_apply, ValueIdx.addf_apply, updDot_at, updDot_at, updBias_at]
  rfl

end Cert.ReferenceIdeal.Hand

end
-- ==== Proof.Bridge.Upd4.lean ====
/-
  Region 4, the node update of one layer, as equations of arrays: whatever fills the region's nine input arrays, if
  they are the reference's inputs (the features, the aggregated messages and the five weight matrices the same arrays;
  each bias, which the kernel takes as one row and the reference as a vector, entry by entry), then the three result
  arrays after the region are the reference's updated features and their two projections for the next layer.
-/
import proofs.«152161_j29669634081217_2_alg».proof.Proof.KI.Val4
import proofs.«152161_j29669634081217_2_alg».proof.Proof.Ref.StageUpd
import proofs.«152161_j29669634081217_2_alg».proof.Proof.Ref.StageAB
import proofs.«152161_j29669634081217_2_alg».proof.Proof.Ref.Stages

noncomputable section

namespace Cert.Bridge

open Idealize.ShloMosaic Idealize.ShloMosaic.TcCoe Idealize.SL.Sem Idealize.ShloMosaic.ValueIdx
open Idealize.ShloMosaic.Pipeline (Dat)
open Cert.KernelIdeal Cert.KernelIdeal.Gen
open Cert.KernelIdeal.Hand (dat4 final4_9 final4_10 final4_11 upd4H upd4Agg upd4Wnh upd4Wna upd4B1 upd4Wn2 upd4B2 upd4Ws upd4Wd)
open Cert.ReferenceIdeal.Hand (updRef linRef refUpd refLin)

variable (V : (c : Dev nD) → (b : Ref sig .tc) → Buf (Elt Ideal) ((c : Thread nD τ).loc b)) (c : Dev nD)
variable (H Agg : FVec Ideal Cert.ReferenceIdeal.S20000x128 .f32) (Wnh Wna : FVec Ideal Cert.ReferenceIdeal.S128x128 .f32)
  (b1 : FVec Ideal Cert.ReferenceIdeal.S128 .f32) (Wn2 : FVec Ideal Cert.ReferenceIdeal.S128x128 .f32)
  (b2 : FVec Ideal Cert.ReferenceIdeal.S128 .f32)

/-- The updated features: both sides are the update row formula of rows p of the features and of the messages. -/
theorem upd4_new (h0 : upd4H V c = H) (h1 : upd4Agg V c = Agg) (h2 : upd4Wnh V c = Wnh) (h3 : upd4Wna V c = Wna)
    (h4 : ∀ j : Fin 128, upd4B1 V c (ix2 (0 : Fin 1) j) = b1 (ix1 j)) (h5 : upd4Wn2 V c = Wn2)
    (h6 : ∀ j : Fin 128, upd4B2 V c (ix2 (0 : Fin 1) j) = b2 (ix1 j)) :
    ((dat4 (F := Ideal) V c).arrAt 9 cfg4.N : S20000x128.Idx → EReal) = updRef H Agg Wnh Wna b1 Wn2 b2 := by
  funext i
  obtain ⟨p, q, rfl⟩ : ∃ (p : Fin 20000) (q : Fin 128), i = ix2 p q := ⟨i 0, i 1, eq_ix2 i⟩
  have e4 : (fun j : Fin 128 => upd4B1 V c (ix2 (0 : Fin 1) j)) = Cert.Spec.v1 b1 := funext h4
  have e6 : (fun j : Fin 128 => upd4B2 V c (ix2 (0 : Fin 1) j)) = Cert.Spec.v1 b2 := funext h6
  refine (final4_9 V c p q).trans ?_
  rw [e4, e6, h0, h1, h2, h3, h5]
  exact (refUpd H Agg Wnh Wna b1 Wn2 b2 p q).symm

/-- A projection of the updated features by a matrix W, for any array R that reads as that projection at every index:
    row p of the updated features, on both sides the update row formula, times W. -/
theorem upd4_proj_of (R : S20000x128.Idx → EReal) (Wk : S128x128.Idx → EReal) (W : FVec Ideal Cert.ReferenceIdeal.S128x128 .f32)
    (hfin : ∀ (p : Fin 20000) (q : Fin 128), R (ix2 p q : S20000x128.Idx)
      = Cert.Spec.lin (Cert.Spec.upd (Cert.Spec.row (upd4H V c) p) (Cert.Spec.row (upd4Agg V c) p) (Cert.Spec.m2 (upd4Wnh V c))
        (Cert.Spec.m2 (upd4Wna V c)) (fun j => upd4B1 V c (ix2 0 j)) (Cert.Spec.m2 (upd4Wn2 V c))
        (fun j => upd4B2 V c (ix2 0 j))) (Cert.Spec.m2 Wk) q)
    (h0 : upd4H V c = H) (h1 : upd4Agg V c = Agg) (h2 : upd4Wnh V c = Wnh) (h3 : upd4Wna V c = Wna)
    (h4 : ∀ j : Fin 128, upd4B1 V c (ix2 (0 : Fin 1) j) = b1 (ix1 j)) (h5 : upd4Wn2 V c = Wn2)
    (h6 : ∀ j : Fin 128, upd4B2 V c (ix2 (0 : Fin 1) j) = b2 (ix1 j)) (h7 : Wk = W) :
    R = linRef (updRef H Agg Wnh Wna b1 Wn2 b2) W := by
  funext i
  obtain ⟨p, q, rfl⟩ : ∃ (p : Fin 20000) (q : Fin 128), i = ix2 p q := ⟨i 0, i 1, eq_ix2 i⟩
  have e4 : (fun j : Fin 128 => upd4B1 V c (ix2 (0 : Fin 1) j)) = Cert.Spec.v1 b1 := funext h4
  have e6 : (fun j : Fin 128 => upd4B2 V c (ix2 (0 : Fin 1) j)) = Cert.Spec.v1 b2 := funext h6
  refine (hfin p q).trans ?_
  rw [e4, e6, h0, h1, h2, h3, h5, h7]
  refine Eq.trans ?_ (refLin (updRef H Agg Wnh Wna b1 Wn2 b2) W p q).symm
  refine congrArg (fun x => Cert.Spec.lin x (Cert.Spec.m2 W) q) ?_
  funext k
  exact (refUpd H Agg Wnh Wna b1 Wn2 b2 p k).symm

/-- The projection by the source-side matrix of the next layer. -/
theorem upd4_projS (Ws : FVec Ideal Cert.ReferenceIdeal.S128x128 .f32)
    (h0 : upd4H V c = H) (h1 : upd4Agg V c = Agg) (h2 : upd4Wnh V c = Wnh) (h3 : upd4Wna V c = Wna)
    (h4 : ∀ j : Fin 128, upd4B1 V c (ix2 (0 : Fin 1) j) = b1 (ix1 j)) (h5 : upd4Wn2 V c = Wn2)
    (h6 : ∀ j : Fin 128, upd4B2 V c (ix2 (0 : Fin 1) j) = b2 (ix1 j)) (h7 : upd4Ws V c = Ws) :
    ((dat4 (F := Ideal) V c).arrAt 10 cfg4.N : S20000x128.Idx → EReal) = linRef (updRef H Agg Wnh Wna b1 Wn2 b2) Ws :=
  upd4_proj_of V c H Agg Wnh Wna b1 Wn2 b2 ((dat4 (F := Ideal) V c).arrAt 10 cfg4.N) (upd4Ws V c) Ws (final4_10 V c) h0 h1 h2 h3 h4 h5 h6 h7

/-- The projection by the destination-side matrix of the next layer. -/
theorem upd4_projD (Wd : FVec Ideal Cert.ReferenceIdeal.S128x128 .f32)
    (h0 : upd4H V c = H) (h1 : upd4Agg V c = Agg) (h2 : upd4Wnh V c = Wnh) (h3 : upd4Wna V c = Wna)
    (h4 : ∀ j : Fin 128, upd4B1 V c (ix2 (0 : Fin 1) j) = b1 (ix1 j)) (h5 : upd4Wn2 V c = Wn2)
    (h6 : ∀ j : Fin 128, upd4B2 V c (ix2 (0 : Fin 1) j) = b2 (ix1 j)) (h8 : upd4Wd V c = Wd) :
    ((dat4 (F := Ideal) V c).arrAt 11 cfg4.N : S20000x128.Idx → EReal) = linRef (updRef H Agg Wnh Wna b1 Wn2 b2) Wd :=
  upd4_proj_of V c H Agg Wnh Wna b1 Wn2 b2 ((dat4 (F := Ideal) V c).arrAt 11 cfg4.N) (upd4Wd V c) Wd (final4_11 V c) h0 h1 h2 h3 h4 h5 h6 h8

end Cert.Bridge

end
-- ==== Proof.Bridge.Layer0.lean ====
/-
  Layer 0 of the message passing, the kernel program's buffers against the reference's named stages. Region 3 leaves
  the reference's messages of layer 0 in its result buffer, given that the two projections and the encoded edges it
  reads are the reference's. Region 4 then leaves the reference's node features entering layer 1 and their two
  projections, given those messages and the features entering layer 0.
-/
import proofs.«152161_j29669634081217_2_alg».proof.Proof.KI.Stage3
import proofs.«152161_j29669634081217_2_alg».proof.Proof.KI.Reads1
import proofs.«152161_j29669634081217_2_alg».proof.Proof.KI.Outs
import proofs.«152161_j29669634081217_2_alg».proof.Proof.Bridge.Args
import proofs.«152161_j29669634081217_2_alg».proof.Proof.Bridge.LayerCommon
import proofs.«152161_j29669634081217_2_alg».proof.Proof.Bridge.Upd4

-- reading a buffer at a boundary unfolds the table of boundaries, one case per boundary
set_option maxRecDepth 16384

noncomputable section

namespace Cert.Bridge

open Idealize.ShloMosaic Idealize.ShloMosaic.TcCoe Idealize.SL.Sem Idealize.ShloMosaic.ValueIdx
open Cert.KernelIdeal Cert.KernelIdeal.Gen
open Cert.KernelIdeal.Hand (W2 W4 W6 W8 W10 outs VW8 VW10 en3 en4 Ex3_out7 Ex4_out9 Ex4_out10 Ex4_out11 stage3_7
  in3_0 in3_1 in3_2 in3_3 in3_4 in3_5 in3_6 in4_0 in4_1 in4_2 in4_3 in4_4 in4_5 in4_6 in4_7 in4_8
  upd4H upd4Agg upd4Wnh upd4Wna upd4B1 upd4Wn2 upd4B2 upd4Ws upd4Wd)
open Cert.ReferenceIdeal.Hand (Args e0S hS aS bS mS aggS asrcS bdstS wmN wvN)

variable (m : (ℓ : Loc nD τ sig) → Buf (Elt Ideal) ℓ) (c : Dev nD)

/-! ## Region 3: the messages -/

/-- Region 3's result buffer holds the reference's messages of layer 0.
    Its seven inputs, one by one: the encoded edges are the buffer region 1 left; the two gathered projections are
    gathers of the buffers region 2 left, along the edge list's two rows, which is how the reference gathers them; the
    two weight matrices and the two bias rows are layer 0's slabs of the stacked arguments. -/
theorem bm0 (ha : W6 m c main_v22_0 = aS (argsOf m c) 0) (hb : W6 m c main_v22_1 = bS (argsOf m c) 0)
    (he : W4 m c main_v17 = e0S (argsOf m c)) :
    W8 m c main_v47 = mS (argsOf m c) 0 := by
  rw [← VW8]
  refine (Ex3_out7 m c).trans ?_
  refine stage3_7 (en3 m) c (e0S (argsOf m c)) (asrcS (argsOf m c) 0) (bdstS (argsOf m c) 0)
    (wmN (argsOf m c).a16 0) (wvN (argsOf m c).a17 0) (wmN (argsOf m c).a18 0) (wvN (argsOf m c).a19 0)
    ?_ ?_ ?_ ?_ ?_ ?_ ?_
  · exact (in3_0 m (outs m) c).trans he
  · refine (in3_1 m (outs m) c).trans ?_
    rw [show outs m 6 main_v22_0 c = W6 m c main_v22_0 from rfl, ha]
    exact gatherSrc_eq m c _
  · refine (in3_2 m (outs m) c).trans ?_
    rw [show outs m 6 main_v22_1 c = W6 m c main_v22_1 from rfl, hb]
    exact gatherDst_eq m c _
  · exact (in3_3 m (outs m) c).trans (sliceMat_eq _ 0 _ _)
  · exact fun j => (congrFun (in3_4 m (outs m) c) (ix2 (0 : Fin 1) j)).trans (sliceRow_at _ 0 _ _ j)
  · exact (in3_5 m (outs m) c).trans (sliceMat_eq _ 0 _ _)
  · exact fun j => (congrFun (in3_6 m (outs m) c) (ix2 (0 : Fin 1) j)).trans (sliceRow_at _ 0 _ _ j)

/-! ## Region 4: the node update

Its nine inputs: the features entering the layer are the buffer region 0 left; the aggregated messages are the
scatter-add of region 3's result at the receivers, into zeros, which is how the reference aggregates; the rest are
slabs of the stacked arguments, layer 0's for the update and layer 1's for the two projections. -/

theorem l0_H (hh : W2 m c main_v14 = hS (argsOf m c) 0) : upd4H (en4 m) c = hS (argsOf m c) 0 :=
  (in4_0 m (outs m) c).trans hh

theorem l0_Agg (hm : W8 m c main_v47 = mS (argsOf m c) 0) : upd4Agg (en4 m) c = aggS (argsOf m c) 0 := by
  refine (in4_1 m (outs m) c).trans ?_
  rw [show outs m 8 main_v47 c = W8 m c main_v47 from rfl, hm]
  exact scatter_eq m c _

theorem l0_Wnh : upd4Wnh (en4 m) c = wmN (argsOf m c).a20 0 := (in4_2 m (outs m) c).trans (sliceMat_eq _ 0 _ _)
theorem l0_Wna : upd4Wna (en4 m) c = wmN (argsOf m c).a21 0 := (in4_3 m (outs m) c).trans (sliceMat_eq _ 0 _ _)
theorem l0_B1 (j : Fin 128) : upd4B1 (en4 m) c (ix2 (0 : Fin 1) j) = wvN (argsOf m c).a22 0 (ix1 j) :=
  (congrFun (in4_4 m (outs m) c) (ix2 (0 : Fin 1) j)).trans (sliceRow_at _ 0 _ _ j)
theorem l0_Wn2 : upd4Wn2 (en4 m) c = wmN (argsOf m c).a23 0 := (in4_5 m (outs m) c).trans (sliceMat_eq _ 0 _ _)
theorem l0_B2 (j : Fin 128) : upd4B2 (en4 m) c (ix2 (0 : Fin 1) j) = wvN (argsOf m c).a24 0 (ix1 j) :=
  (congrFun (in4_6 m (outs m) c) (ix2 (0 : Fin 1) j)).trans (sliceRow_at _ 0 _ _ j)
theorem l0_Ws : upd4Ws (en4 m) c = wmN (argsOf m c).a14 1 := (in4_7 m (outs m) c).trans (sliceMat_eq _ 1 _ _)
theorem l0_Wd : upd4Wd (en4 m) c = wmN (argsOf m c).a15 1 := (in4_8 m (outs m) c).trans (sliceMat_eq _ 1 _ _)

/-- Region 4's first result buffer holds the reference's node features entering layer 1. -/
theorem bh0 (hm : W8 m c main_v47 = mS (argsOf m c) 0) (hh : W2 m c main_v14 = hS (argsOf m c) 0) :
    W10 m c main_v67_0 = hS (argsOf m c) 1 := by
  rw [← VW10]
  refine (Ex4_out9 m c).trans ?_
  exact upd4_new (en4 m) c (hS (argsOf m c) 0) (aggS (argsOf m c) 0) (wmN (argsOf m c).a20 0) (wmN (argsOf m c).a21 0)
    (wvN (argsOf m c).a22 0) (wmN (argsOf m c).a23 0) (wvN (argsOf m c).a24 0)
    (l0_H m c hh) (l0_Agg m c hm) (l0_Wnh m c) (l0_Wna m c) (l0_B1 m c) (l0_Wn2 m c) (l0_B2 m c)

/-- Its second holds their projection by layer 1's source-side matrix. -/
theorem ba0 (hm : W8 m c main_v47 = mS (argsOf m c) 0) (hh : W2 m c main_v14 = hS (argsOf m c) 0) :
    W10 m c main_v67_1 = aS (argsOf m c) 1 := by
  rw [← VW10]
  refine (Ex4_out10 m c).trans ?_
  exact upd4_projS (en4 m) c (hS (argsOf m c) 0) (aggS (argsOf m c) 0) (wmN (argsOf m c).a20 0) (wmN (argsOf m c).a21 0)
    (wvN (argsOf m c).a22 0) (wmN (argsOf m c).a23 0) (wvN (argsOf m c).a24 0) (wmN (argsOf m c).a14 1)
    (l0_H m c hh) (l0_Agg m c hm) (l0_Wnh m c) (l0_Wna m c) (l0_B1 m c) (l0_Wn2 m c) (l0_B2 m c) (l0_Ws m c)

/-- Its third holds their projection by layer 1's destination-side matrix. -/
theorem bb0 (hm : W8 m c main_v47 = mS (argsOf m c) 0) (hh : W2 m c main_v14 = hS (argsOf m c) 0) :
    W10 m c main_v67_2 = bS (argsOf m c) 1 := by
  rw [← VW10]
  refine (Ex4_out11 m c).trans ?_
  exact upd4_projD (en4 m) c (hS (argsOf m c) 0) (aggS (argsOf m c) 0) (wmN (argsOf m c).a20 0) (wmN (argsOf m c).a21 0)
    (wvN (argsOf m c).a22 0) (wmN (argsOf m c).a23 0) (wvN (argsOf m c).a24 0) (wmN (argsOf m c).a15 1)
    (l0_H m c hh) (l0_Agg m c hm) (l0_Wnh m c) (l0_Wna m c) (l0_B1 m c) (l0_Wn2 m c) (l0_B2 m c) (l0_Wd m c)

end Cert.Bridge

end
-- ==== Proof.KI.Val5.lean ====
/-
  Region 5 of @main, the value half at the ideal values: after the region's 20 points the result array holds, row by
  row, the specification's message formula of the region's seven input arrays as the region finds them. Point t
  computes rows 8000 t .. 8000 t + 7999 from the same rows of the three edge arrays and the whole weight arrays.
-/
import proofs.«152161_j29669634081217_2_alg».proof.Proof.KI.Reg5
import proofs.«152161_j29669634081217_2_alg».proof.Proof.KI.MsgCommon
import proofs.«152161_j29669634081217_2_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 65536

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

-- the TensorCore's buffer contents when the region is entered, at the ideal values
variable (V : (c : Dev nD) → (b : Ref sig .tc) → Buf (Elt Ideal) ((c : Thread nD τ).loc b))

/-! ## The region's arrays as the region finds them, at their literal shapes -/

/-- The edge features. -/
noncomputable abbrev arr5_0 (c : Dev nD) : S160000x128.Idx → EReal := V c (Pipeline.arrRef spec5 0)
/-- The source nodes' term, gathered along the edges. -/
noncomputable abbrev arr5_1 (c : Dev nD) : S160000x128.Idx → EReal := V c (Pipeline.arrRef spec5 1)
/-- The destination nodes' term, gathered along the edges. -/
noncomputable abbrev arr5_2 (c : Dev nD) : S160000x128.Idx → EReal := V c (Pipeline.arrRef spec5 2)
/-- The first layer's weight on the edge features. -/
noncomputable abbrev arr5_3 (c : Dev nD) : S128x128.Idx → EReal := V c (Pipeline.arrRef spec5 3)
/-- The first layer's bias, as one row. -/
noncomputable abbrev arr5_4 (c : Dev nD) : S1x128.Idx → EReal := V c (Pipeline.arrRef spec5 4)
/-- The second layer's weight. -/
noncomputable abbrev arr5_5 (c : Dev nD) : S128x128.Idx → EReal := V c (Pipeline.arrRef spec5 5)
/-- The second layer's bias, as one row. -/
noncomputable abbrev arr5_6 (c : Dev nD) : S1x128.Idx → EReal := V c (Pipeline.arrRef spec5 6)

/-- The message of edge r, column q: the specification's row formula on row r of the three edge arrays. -/
noncomputable def G5_row (c : Dev nD) (r : Fin 160000) (q : Fin 128) : EReal :=
  Cert.Spec.msg (Cert.Spec.row (arr5_0 V c) r) (Cert.Spec.row (arr5_1 V c) r) (Cert.Spec.row (arr5_2 V c) r)
    (Cert.Spec.m2 (arr5_3 V c)) (fun j => arr5_4 V c (ix2 (0 : Fin 1) j)) (Cert.Spec.m2 (arr5_5 V c))
    (fun j => arr5_6 V c (ix2 (0 : Fin 1) j)) q

/-- The whole result array as one function of the input arrays. -/
noncomputable def G5 (c : Dev nD) : S160000x128.Idx → EReal := fun i => G5_row V c (i 0) (i 1)

/-! ## The payload -/

/-- The body's payload is the message kernels' shared block arithmetic. -/
theorem pay5_eq (v0 : Vec Ideal S8000x128 .bf16) (v2 : Vec Ideal S128x128 .f32) (v6 v9 : Vec Ideal S8000x128 .bf16)
    (v14 : Vec Ideal S1x128 .f32) (v21 : Vec Ideal S128x128 .f32) (v25 : Vec Ideal S1x128 .f32) :
    k5_pay1 v0 v2 v6 v9 v14 v21 v25 = msgTerm v0 v6 v9 v2 v14 v21 v25 := rfl

/-! ## Where point t's blocks sit in their arrays -/

theorem hz5 : (![0, 0] : Fin 2 → Nat) = fun _ => 0 := funext fun a => by fin_cases a <;> rfl

/-- The printed index maps, decided over the 20 points: the three edge windows and the result window take block t of
    the rows at point t, the four weight windows their one block. -/
theorem idx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = t.val ∧ win5_7.index t (1 : Fin 2) = 0 :=
  (by decide +kernel : ∀ t : Fin grid5.N, _)

/-- Row p of point t's block is row 8000 t + p of the array. -/
noncomputable def rows5 (t : Fin cfg5.N) (p : Fin 8000) : Fin 160000 :=
  ⟨t.val * 8000 + p.val, by have h : t.val < 20 := Nat.lt_of_lt_of_eq t.isLt N_5; have := p.isLt; omega⟩

theorem emb5_0 (t : Fin cfg5.N) (p : Fin 8000) (k : Fin 128) :
    ((cfg5.win 0).blk t).view.emb (ix2 p k) = ix2 (rows5 t p) k := by
  obtain ⟨a0, a1, b0, b1, c0, c1, d0, d1, e0, e1, f0, f1, g0, g1, h0, h1⟩ := idx5 t
  funext a; apply Fin.ext
  match a with
  | ⟨0, _⟩ => show win5_0.index t (0 : Fin 2) * 8000 + 1 * p.val = t.val * 8000 + p.val; omega
  | ⟨1, _⟩ => show win5_0.index t (1 : Fin 2) * 128 + 1 * k.val = k.val; omega

theorem emb5_1 (t : Fin cfg5.N) (p : Fin 8000) (k : Fin 128) :
    ((cfg5.win 1).blk t).view.emb (ix2 p k) = ix2 (rows5 t p) k := by
  obtain ⟨a0, a1, b0, b1, c0, c1, d0, d1, e0, e1, f0, f1, g0, g1, h0, h1⟩ := idx5 t
  funext a; apply Fin.ext
  match a with
  | ⟨0, _⟩ => show win5_1.index t (0 : Fin 2) * 8000 + 1 * p.val = t.val * 8000 + p.val; omega
  | ⟨1, _⟩ => show win5_1.index t (1 : Fin 2) * 128 + 1 * k.val = k.val; omega

theorem emb5_2 (t : Fin cfg5.N) (p : Fin 8000) (k : Fin 128) :
    ((cfg5.win 2).blk t).view.emb (ix2 p k) = ix2 (rows5 t p) k := by
  obtain ⟨a0, a1, b0, b1, c0, c1, d0, d1, e0, e1, f0, f1, g0, g1, h0, h1⟩ := idx5 t
  funext a; apply Fin.ext
  match a with
  | ⟨0, _⟩ => show win5_2.index t (0 : Fin 2) * 8000 + 1 * p.val = t.val * 8000 + p.val; omega
  | ⟨1, _⟩ => show win5_2.index t (1 : Fin 2) * 128 + 1 * k.val = k.val; omega

theorem emb5_3 (t : Fin cfg5.N) (i : Fin 128) (j : Fin 128) :
    ((cfg5.win 3).blk t).view.emb (ix2 i j) = ix2 i j := by
  obtain ⟨a0, a1, b0, b1, c0, c1, d0, d1, e0, e1, f0, f1, g0, g1, h0, h1⟩ := idx5 t
  funext a; apply Fin.ext
  match a with
  | ⟨0, _⟩ => show win5_3.index t (0 : Fin 2) * 128 + 1 * i.val = i.val; omega
  | ⟨1, _⟩ => show win5_3.index t (1 : Fin 2) * 128 + 1 * j.val = j.val; omega

theorem emb5_4 (t : Fin cfg5.N) (i : Fin 1) (j : Fin 128) :
    ((cfg5.win 4).blk t).view.emb (ix2 i j) = ix2 i j := by
  obtain ⟨a0, a1, b0, b1, c0, c1, d0, d1, e0, e1, f0, f1, g0, g1, h0, h1⟩ := idx5 t
  funext a; apply Fin.ext
  match a with
  | ⟨0, _⟩ => show win5_4.index t (0 : Fin 2) * 1 + 1 * i.val = i.val; omega
  | ⟨1, _⟩ => show win5_4.index t (1 : Fin 2) * 128 + 1 * j.val = j.val; omega

theorem emb5_5 (t : Fin cfg5.N) (i : Fin 128) (j : Fin 128) :
    ((cfg5.win 5).blk t).view.emb (ix2 i j) = ix2 i j := by
  obtain ⟨a0, a1, b0, b1, c0, c1, d0, d1, e0, e1, f0, f1, g0, g1, h0, h1⟩ := idx5 t
  funext a; apply Fin.ext
  match a with
  | ⟨0, _⟩ => show win5_5.index t (0 : Fin 2) * 128 + 1 * i.val = i.val; omega
  | ⟨1, _⟩ => show win5_5.index t (1 : Fin 2) * 128 + 1 * j.val = j.val; omega

theorem emb5_6 (t : Fin cfg5.N) (i : Fin 1) (j : Fin 128) :
    ((cfg5.win 6).blk t).view.emb (ix2 i j) = ix2 i j := by
  obtain ⟨a0, a1, b0, b1, c0, c1, d0, d1, e0, e1, f0, f1, g0, g1, h0, h1⟩ := idx5 t
  funext a; apply Fin.ext
  match a with
  | ⟨0, _⟩ => show win5_6.index t (0 : Fin 2) * 1 + 1 * i.val = i.val; omega
  | ⟨1, _⟩ => show win5_6.index t (1 : Fin 2) * 128 + 1 * j.val = j.val; omega

theorem emb5_7 (t : Fin cfg5.N) (p : Fin 8000) (q : Fin 128) :
    ((cfg5.win 7).blk t).view.emb (ix2 p q) = ix2 (rows5 t p) q := by
  obtain ⟨a0, a1, b0, b1, c0, c1, d0, d1, e0, e1, f0, f1, g0, g1, h0, h1⟩ := idx5 t
  funext a; apply Fin.ext
  match a with
  | ⟨0, _⟩ => show win5_7.index t (0 : Fin 2) * 8000 + 1 * p.val = t.val * 8000 + p.val; omega
  | ⟨1, _⟩ => show win5_7.index t (1 : Fin 2) * 128 + 1 * q.val = q.val; omega

/-! ## Each input block, read at an index, is its array where the block sits -/

theorem iblk5_0_apply (c : Dev nD) (t : Fin cfg5.N) (p : Fin 8000) (k : Fin 128) :
    iblk5 V c 0 t (ix2 p k) = arr5_0 V c (ix2 (rows5 t p) k) := by
  show V c (Pipeline.arrRef spec5 0) (((cfg5.win 0).blk t).view.emb (ix2 p k)) = _
  rw [emb5_0]
theorem iblk5_1_apply (c : Dev nD) (t : Fin cfg5.N) (p : Fin 8000) (k : Fin 128) :
    iblk5 V c 1 t (ix2 p k) = arr5_1 V c (ix2 (rows5 t p) k) := by
  show V c (Pipeline.arrRef spec5 1) (((cfg5.win 1).blk t).view.emb (ix2 p k)) = _
  rw [emb5_1]
theorem iblk5_2_apply (c : Dev nD) (t : Fin cfg5.N) (p : Fin 8000) (k : Fin 128) :
    iblk5 V c 2 t (ix2 p k) = arr5_2 V c (ix2 (rows5 t p) k) := by
  show V c (Pipeline.arrRef spec5 2) (((cfg5.win 2).blk t).view.emb (ix2 p k)) = _
  rw [emb5_2]
theorem iblk5_3_apply (c : Dev nD) (t : Fin cfg5.N) (i j : Fin 128) :
    iblk5 V c 3 t (ix2 i j) = arr5_3 V c (ix2 i j) := by
  show V c (Pipeline.arrRef spec5 3) (((cfg5.win 3).blk t).view.emb (ix2 i j)) = _
  rw [emb5_3]
theorem iblk5_4_apply (c : Dev nD) (t : Fin cfg5.N) (i : Fin 1) (j : Fin 128) :
    iblk5 V c 4 t (ix2 i j) = arr5_4 V c (ix2 i j) := by
  show V c (Pipeline.arrRef spec5 4) (((cfg5.win 4).blk t).view.emb (ix2 i j)) = _
  rw [emb5_4]
theorem iblk5_5_apply (c : Dev nD) (t : Fin cfg5.N) (i j : Fin 128) :
    iblk5 V c 5 t (ix2 i j) = arr5_5 V c (ix2 i j) := by
  show V c (Pipeline.arrRef spec5 5) (((cfg5.win 5).blk t).view.emb (ix2 i j)) = _
  rw [emb5_5]
theorem iblk5_6_apply (c : Dev nD) (t : Fin cfg5.N) (i : Fin 1) (j : Fin 128) :
    iblk5 V c 6 t (ix2 i j) = arr5_6 V c (ix2 i j) := by
  show V c (Pipeline.arrRef spec5 6) (((cfg5.win 6).blk t).view.emb (ix2 i j)) = _
  rw [emb5_6]

/-! ## What a point writes back -/

/-- What point t writes back to the result array is block t of G5: the store's payload at (p, q) is the message
    formula on row p of the edge blocks, which are rows 8000 t + p of the edge arrays. -/
theorem flushed5_7_eq (c : Dev nD) (t : Fin cfg5.N) :
    (dat5 V c).flushed 7 t = ((cfg5.win 7).blk t).view.read (Elt Ideal) (G5 V c) := by
  show (cfg5.win 7).cut (grid5.coords t) ((dat5 V c).after 7 t) = _
  rw [after5_7]
  unfold out5_7
  rw [View.canon_unit_zero hz5]
  simp only [View.ld_unit_zero (S := S8000x128) hz5, View.ld_unit_zero (S := S128x128) hz5, View.ld_unit_zero (S := S1x128) hz5]
  rw [pay5_eq]
  funext j
  obtain ⟨p, q, rfl⟩ : ∃ (p : Fin 8000) (q : Fin 128), j = ix2 p q := ⟨j 0, j 1, eq_ix2 j⟩
  show msgTerm (iblk5 V c 0 t) (iblk5 V c 1 t) (iblk5 V c 2 t) (iblk5 V c 3 t) (iblk5 V c 4 t) (iblk5 V c 5 t) (iblk5 V c 6 t) (ix2 p q)
    = G5 V c (((cfg5.win 7).blk t).view.emb (ix2 p q))
  rw [msgTerm_apply, emb5_7]
  simp only [iblk5_0_apply, iblk5_1_apply, iblk5_2_apply, iblk5_3_apply, iblk5_4_apply, iblk5_5_apply, iblk5_6_apply]
  rfl

/-! ## The result's blocks cover its array -/

/-- An index of the array is in point t's block iff each coordinate is in the block's range on its axis. -/
theorem mem_blk5 (t : Fin cfg5.N) (i : S160000x128.Idx) :
    i ∈ ((cfg5.win 7).blk t).view.set ↔ ∀ a : Fin 2, win5_7.index t a * S8000x128.size a ≤ (i a).val
      ∧ (i a).val < win5_7.index t a * S8000x128.size a + S8000x128.size a := by
  show i ∈ ((View.whole (Pipeline.arrRef spec5 7)).slice (win5_7.rect t)).set ↔ _
  rw [View.set_slice_whole, Rect.mem_set_unit]
  exact Iff.rfl

/-- Row r of the array is in the block of point r / 8000. -/
theorem covered5 (i : S160000x128.Idx) :
    ∃ t : Fin cfg5.N, (cfg5.win 7).flush t = true ∧ i ∈ ((cfg5.win 7).blk t).view.set := by
  have hi0 : (i 0).val < 160000 := (i 0).isLt
  have hi1 : (i 1).val < 128 := (i 1).isLt
  have hN : (i 0).val / 8000 < cfg5.N := by show _ < grid5.N; rw [N_5]; omega
  obtain ⟨a0, a1, b0, b1, c0, c1, d0, d1, e0, e1, f0, f1, g0, g1, h0, h1⟩ := idx5 ⟨(i 0).val / 8000, hN⟩
  have h0' : win5_7.index ⟨(i 0).val / 8000, hN⟩ (0 : Fin 2) = (i 0).val / 8000 := h0
  refine ⟨⟨(i 0).val / 8000, hN⟩, flush5_7 _, ?_⟩
  rw [mem_blk5]
  intro a
  match a with
  | ⟨0, _⟩ =>
    show win5_7.index ⟨(i 0).val / 8000, hN⟩ (0 : Fin 2) * 8000 ≤ (i 0).val
      ∧ (i 0).val < win5_7.index ⟨(i 0).val / 8000, hN⟩ (0 : Fin 2) * 8000 + 8000
    omega
  | ⟨1, _⟩ =>
    show win5_7.index ⟨(i 0).val / 8000, hN⟩ (1 : Fin 2) * 128 ≤ (i 1).val
      ∧ (i 1).val < win5_7.index ⟨(i 0).val / 8000, hN⟩ (1 : Fin 2) * 128 + 128
    omega

/-! ## The result array after the region -/

/-- The array after the region's 20 points is G5 of the region-entry arrays. -/
theorem final5_7_eq (c : Dev nD) : (dat5 (F := Ideal) V c).arrAt 7 cfg5.N = G5 V c :=
  (dat5 V c).arrAt_eq_of_cover 7 (G5 V c) (fun t _ => flushed5_7_eq V c t) covered5

/-- Entry (p, q) of the result array after the region: the message of edge p, column q. -/
theorem final5_7 (c : Dev nD) (p : Fin 160000) (q : Fin 128) :
    (dat5 (F := Ideal) V c).arrAt 7 cfg5.N (ix2 p q)
      = Cert.Spec.msg (Cert.Spec.row (arr5_0 V c) p) (Cert.Spec.row (arr5_1 V c) p) (Cert.Spec.row (arr5_2 V c) p)
          (Cert.Spec.m2 (arr5_3 V c)) (fun j => arr5_4 V c (ix2 (0 : Fin 1) j)) (Cert.Spec.m2 (arr5_5 V c))
          (fun j => arr5_6 V c (ix2 (0 : Fin 1) j)) q := by
  rw [final5_7_eq]
  rfl

end Cert.KernelIdeal.Hand

end
-- ==== Proof.KI.Stage5.lean ====
/-
  Region 5 of @main against the reference's messages of one layer, as arrays: whatever fills the region's seven
  input arrays, if they are the reference's inputs (the three edge arrays and the two weights the same arrays; each
  bias, which the kernel takes as one row and the reference as a vector, entry by entry), then the result array after
  the region is the reference's message array of those inputs.
-/
import proofs.«152161_j29669634081217_2_alg».proof.Proof.KI.Val5
import proofs.«152161_j29669634081217_2_alg».proof.Proof.Ref.StageMsg

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable [Cert.ReferenceIdeal.Facts₀]

-- the TensorCore's buffer contents when the region is entered, at the ideal values
variable (V : (c : Dev nD) → (b : Ref sig .tc) → Buf (Elt Ideal) ((c : Thread nD τ).loc b))

/-- The result array after the region is the reference's message array of the reference-shaped inputs. -/
theorem stage5_7 (c : Dev nD) (E Asrc Bdst : FVec Ideal S160000x128 .f32) (We : FVec Ideal S128x128 .f32)
    (be1 : FVec Ideal S128 .f32) (W2 : FVec Ideal S128x128 .f32) (b2 : FVec Ideal S128 .f32)
    (h0 : arr5_0 V c = E) (h1 : arr5_1 V c = Asrc) (h2 : arr5_2 V c = Bdst) (h3 : arr5_3 V c = We)
    (h4 : ∀ j : Fin 128, arr5_4 V c (ix2 (0 : Fin 1) j) = be1 (ix1 j)) (h5 : arr5_5 V c = W2)
    (h6 : ∀ j : Fin 128, arr5_6 V c (ix2 (0 : Fin 1) j) = b2 (ix1 j)) :
    (dat5 (F := Ideal) V c).arrAt 7 cfg5.N = Cert.ReferenceIdeal.Hand.msgRef E Asrc Bdst We be1 W2 b2 := by
  funext i
  obtain ⟨p, q, rfl⟩ : ∃ (p : Fin 160000) (q : Fin 128), i = ix2 p q := ⟨i 0, i 1, eq_ix2 i⟩
  have e4 : (fun j : Fin 128 => arr5_4 V c (ix2 (0 : Fin 1) j)) = Cert.Spec.v1 be1 := funext h4
  have e6 : (fun j : Fin 128 => arr5_6 V c (ix2 (0 : Fin 1) j)) = Cert.Spec.v1 b2 := funext h6
  refine (final5_7 V c p q).trans ?_
  rw [e4, e6, h0, h1, h2, h3, h5]
  exact (Cert.ReferenceIdeal.Hand.refMsg E Asrc Bdst We be1 W2 b2 p q).symm

end Cert.KernelIdeal.Hand

end
-- ==== Proof.KI.Reads2.lean ====
/- What regions 5 and 6 read: each input window's array, on entry to the region, as a pure term of the launch contents
   and of what the earlier regions left — the host stretch before the region read back operation by operation, its
   operands carried from where they were written. The same road as layer 0 (regions 3 and 4), under this layer's names. -/
import proofs.«152161_j29669634081217_2_alg».proof.Proof.KI.ReadsDefs
import proofs.«152161_j29669634081217_2_alg».proof.Proof.KI.ReadsCarryA
import proofs.«152161_j29669634081217_2_alg».proof.Proof.KI.ReadsCarryB

-- membership of a reference in a stretch's list of written references is decided past the default depth
set_option maxRecDepth 2864
-- the stretch before a region is read back one operation at a time: up to 28 rewriting steps per operand of a window
set_option maxHeartbeats 1000000

noncomputable section

namespace Cert.KernelIdeal.Hand

open Idealize.ShloMosaic Idealize.ShloMosaic.TcCoe
open Idealize.SL.Sem
open Idealize.ShloMosaic.StableHlo
open Cert.KernelIdeal.Gen

variable {F : FTy → Type} [FloatOps F]
variable (m : (ℓ : Loc nD τ sig) → Buf (Elt F) ℓ) (outs : Outs (F := F))

/-! ## Region 5 -/

theorem in5_0 (c : Dev nD) : V11 m outs c main_v17 = outs 4 main_v17 c :=
  at11_v17 m outs c
theorem in5_1 (c : Dev nD) : V11 m outs c main_v74 = Host.gather gather_S20000x128_S160000x1_S160000x128_1_0_n_n_0_1_1128 (outs 10 main_v67_1 c) (srcIdx m c) := by
  show StableHlo.after hostOps5 (V10 m outs c) (Proc.devRef .tc main_v74) = _
  after_results <;> rw [at10_v67_1 m outs c, at10_v1 m outs c, at1_v1 m c] <;> rfl
theorem in5_2 (c : Dev nD) : V11 m outs c main_v81 = Host.gather gather_S20000x128_S160000x1_S160000x128_1_0_n_n_0_1_1128 (outs 10 main_v67_2 c) (dstIdx m c) := by
  show StableHlo.after hostOps5 (V10 m outs c) (Proc.devRef .tc main_v81) = _
  after_results <;> rw [at10_v67_2 m outs c, at10_v3 m outs c, at1_v3 m c] <;> rfl
theorem in5_3 (c : Dev nD) : V11 m outs c main_v83 = sliceMat (m ((c : Thread nD τ).loc main_arg16)) 1 slices_S6x128x128_S1x128x128_1_0_0 := by
  show StableHlo.after hostOps5 (V10 m outs c) (Proc.devRef .tc main_v83) = _
  after_results <;> rw [at10_arg16 m outs c] <;> rfl
theorem in5_4 (c : Dev nD) : V11 m outs c main_v90 = sliceRow (m ((c : Thread nD τ).loc main_arg17)) 1 slices_S6x128_S1x128_1_0 := by
  show StableHlo.after hostOps5 (V10 m outs c) (Proc.devRef .tc main_v90) = _
  after_results <;> rw [at10_arg17 m outs c] <;> rfl
theorem in5_5 (c : Dev nD) : V11 m outs c main_v87 = sliceMat (m ((c : Thread nD τ).loc main_arg18)) 1 slices_S6x128x128_S1x128x128_1_0_0 := by
  show StableHlo.after hostOps5 (V10 m outs c) (Proc.devRef .tc main_v87) = _
  after_results <;> rw [at10_arg18 m outs c] <;> rfl
theorem in5_6 (c : Dev nD) : V11 m outs c main_v91 = sliceRow (m ((c : Thread nD τ).loc main_arg19)) 1 slices_S6x128_S1x128_1_0 := by
  show StableHlo.after hostOps5 (V10 m outs c) (Proc.devRef .tc main_v91) = _
  after_results <;> rw [at10_arg19 m outs c] <;> rfl

/-! ## Region 6 -/

theorem in6_0 (c : Dev nD) : V13 m outs c main_v67_0 = outs 10 main_v67_0 c :=
  at13_v67_0 m outs c
theorem in6_1 (c : Dev nD) : V13 m outs c main_v95 = Host.scatterAdd scatter_S20000x128_S160000x1_S160000x128_1_0_0_1 zeroAcc (dstCol m c) (outs 12 main_v92 c) := by
  show StableHlo.after hostOps6 (V12 m outs c) (Proc.devRef .tc main_v95) = _
  after_results <;> rw [at12_v3 m outs c, at1_v3 m c, at12_v92 m outs c] <;> rfl
theorem in6_2 (c : Dev nD) : V13 m outs c main_v97 = sliceMat (m ((c : Thread nD τ).loc main_arg20)) 1 slices_S6x128x128_S1x128x128_1_0_0 := by
  show StableHlo.after hostOps6 (V12 m outs c) (Proc.devRef .tc main_v97) = _
  after_results <;> rw [at12_arg20 m outs c] <;> rfl
theorem in6_3 (c : Dev nD) : V13 m outs c main_v99 = sliceMat (m ((c : Thread nD τ).loc main_arg21)) 1 slices_S6x128x128_S1x128x128_1_0_0 := by
  show StableHlo.after hostOps6 (V12 m outs c) (Proc.devRef .tc main_v99) = _
  after_results <;> rw [at12_arg21 m outs c] <;> rfl
theorem in6_4 (c : Dev nD) : V13 m outs c main_v110 = sliceRow (m ((c : Thread nD τ).loc main_arg22)) 1 slices_S6x128_S1x128_1_0 := by
  show StableHlo.after hostOps6 (V12 m outs c) (Proc.devRef .tc main_v110) = _
  after_results <;> rw [at12_arg22 m outs c] <;> rfl
theorem in6_5 (c : Dev nD) : V13 m outs c main_v103 = sliceMat (m ((c : Thread nD τ).loc main_arg23)) 1 slices_S6x128x128_S1x128x128_1_0_0 := by
  show StableHlo.after hostOps6 (V12 m outs c) (Proc.devRef .tc main_v103) = _
  after_results <;> rw [at12_arg23 m outs c] <;> rfl
theorem in6_6 (c : Dev nD) : V13 m outs c main_v111 = sliceRow (m ((c : Thread nD τ).loc main_arg24)) 1 slices_S6x128_S1x128_1_0 := by
  show StableHlo.after hostOps6 (V12 m outs c) (Proc.devRef .tc main_v111) = _
  after_results <;> rw [at12_arg24 m outs c] <;> rfl
theorem in6_7 (c : Dev nD) : V13 m outs c main_v107 = sliceMat (m ((c : Thread nD τ).loc main_arg14)) 2 slices_S6x128x128_S1x128x128_2_0_0 := by
  show StableHlo.after hostOps6 (V12 m outs c) (Proc.devRef .tc main_v107) = _
  after_results <;> rw [at12_arg14 m outs c] <;> rfl
theorem in6_8 (c : Dev nD) : V13 m outs c main_v109 = sliceMat (m ((c : Thread nD τ).loc main_arg15)) 2 slices_S6x128x128_S1x128x128_2_0_0 := by
  show StableHlo.after hostOps6 (V12 m outs c) (Proc.devRef .tc main_v109) = _
  after_results <;> rw [at12_arg15 m outs c] <;> rfl

end Cert.KernelIdeal.Hand
-- ==== Proof.KI.Val6.lean ====
/-
  Region 6 of @main, the node-update kernel of the second message-passing layer, over the extended reals: what the three
  result arrays hold when the region ends, as row formulas of the arrays the region finds.

  The body's arithmetic at an index of a block is the update row formula (the conversions to and from half precision
  are the identity over the extended reals, a product into a zero accumulator is the plain sum).  Each grid point writes
  back block t of one function of the whole input arrays; the five blocks of 4000 rows tile the 20000 rows; so each result
  array ends as that function.
-/
import proofs.«152161_j29669634081217_2_alg».proof.Proof.KI.Reg6
import proofs.«152161_j29669634081217_2_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Hand

open BigOperators
open Cert.KernelIdeal Cert.KernelIdeal.Gen
open Idealize.ShloMosaic Idealize.ShloMosaic.TcCoe
open Idealize.ShloMosaic.Pipeline (Dat Cfg Window)

/-! ## The body's arithmetic over the extended reals, at an index of the block -/

/-- In a [4000,128] by [128,128] product the left operand is read at the output's row -/
theorem upd6Lhs_row (i : S4000x128.Idx) (k : dot_S4000x128_S128x128_S4000x128_1_0_0_1_n_n.contr.Idx) :
    (dot_S4000x128_S128x128_S4000x128_1_0_0_1_n_n.lhsIdx i k 0).val = (i 0).val := by
  unfold DotDims.lhsIdx
  rw [dif_neg (show ¬(0 : Fin S4000x128.rank) ∈ dot_S4000x128_S128x128_S4000x128_1_0_0_1_n_n.lhsBatch from List.not_mem_nil),
    dif_pos (show (0 : Fin S4000x128.rank) ∈ dot_S4000x128_S128x128_S4000x128_1_0_0_1_n_n.lhsNonContracting from List.mem_singleton.mpr rfl)]
  rfl

/-- and at the contraction index along its columns; -/
theorem upd6Lhs_col (i : S4000x128.Idx) (k : dot_S4000x128_S128x128_S4000x128_1_0_0_1_n_n.contr.Idx) :
    (dot_S4000x128_S128x128_S4000x128_1_0_0_1_n_n.lhsIdx i k 1).val = (k ⟨0, Nat.one_pos⟩).val :=
  dot_S4000x128_S128x128_S4000x128_1_0_0_1_n_n.lhsIdx_val_of_single rfl i k

/-- the right operand at the contraction index along its rows -/
theorem upd6Rhs_row (i : S4000x128.Idx) (k : dot_S4000x128_S128x128_S4000x128_1_0_0_1_n_n.contr.Idx) :
    (dot_S4000x128_S128x128_S4000x128_1_0_0_1_n_n.rhsIdx i k 0).val = (k ⟨0, Nat.one_pos⟩).val :=
  dot_S4000x128_S128x128_S4000x128_1_0_0_1_n_n.rhsIdx_val_of_single rfl i k

/-- and at the output's column. -/
theorem upd6Rhs_col (i : S4000x128.Idx) (k : dot_S4000x128_S128x128_S4000x128_1_0_0_1_n_n.contr.Idx) :
    (dot_S4000x128_S128x128_S4000x128_1_0_0_1_n_n.rhsIdx i k 1).val = (i 1).val := by
  unfold DotDims.rhsIdx
  rw [dif_neg (show ¬(1 : Fin S128x128.rank) ∈ dot_S4000x128_S128x128_S4000x128_1_0_0_1_n_n.rhsBatch from List.not_mem_nil),
    dif_pos (show (1 : Fin S128x128.rank) ∈ dot_S4000x128_S128x128_S4000x128_1_0_0_1_n_n.rhsNonContracting from List.mem_singleton.mpr rfl)]
  rfl

/-- The matrix unit's product into a zero accumulator, at row p and column q of the block: row p times the matrix,
    with no rounding over the extended reals. -/
theorem upd6Mm_at {φ₁ φ₂ : FTy} (X : FVec Ideal S4000x128 φ₁) (W : FVec Ideal S128x128 φ₂) (p : Fin 4000) (q : Fin 128) :
    matmul dot_S4000x128_S128x128_S4000x128_1_0_0_1_n_n none X W (constant (F := Ideal) S4000x128 .f32 0x00000000#32) (ValueIdx.ix2 p q)
      = ∑ k : Fin 128, X (ValueIdx.ix2 p k) * W (ValueIdx.ix2 k q) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ValueIdx.ix2 p q) ((ValueIdx.contrEquiv1 dot_S4000x128_S128x128_S4000x128_1_0_0_1_n_n 128 rfl rfl).symm k) = ValueIdx.ix2 p k :=
    funext fun a => Fin.ext (by
      match a with
      | ⟨0, _⟩ => exact upd6Lhs_row _ _
      | ⟨1, _⟩ => exact (upd6Lhs_col _ _).trans hk)
  have er : dot_S4000x128_S128x128_S4000x128_1_0_0_1_n_n.rhsIdx (ValueIdx.ix2 p q) ((ValueIdx.contrEquiv1 dot_S4000x128_S128x128_S4000x128_1_0_0_1_n_n 128 rfl rfl).symm k) = ValueIdx.ix2 k q :=
    funext fun a => Fin.ext (by
      match a with
      | ⟨0, _⟩ => exact (upd6Rhs_row _ _).trans hk
      | ⟨1, _⟩ => exact upd6Rhs_col _ _)
  rw [el, er]

/-- A [1,128] bias broadcast down the block's rows reads its entry q at every row. -/
theorem upd6Bias_at (b : Vec Ideal S1x128 .f32) (p : Fin 4000) (q : Fin 128) :
    broadcastTo S4000x128 b broadcasts_S1x128_S4000x128 (ValueIdx.ix2 p q) = b (ValueIdx.ix2 0 q) :=
  broadcastTo_apply b _ _ (ValueIdx.ix2 0 q) (fun a => by
    match a with
    | ⟨0, _⟩ => rfl
    | ⟨1, _⟩ => rfl)

/-- The stored features: the update row formula of rows p of the two loaded blocks. -/
theorem upd6Pay3_at (h : Vec Ideal S4000x128 .f32) (wh : Vec Ideal S128x128 .f32) (g : Vec Ideal S4000x128 .f32)
    (wa : Vec Ideal S128x128 .f32) (b1 : Vec Ideal S1x128 .f32) (w2 : Vec Ideal S128x128 .f32) (b2 : Vec Ideal S1x128 .f32)
    (p : Fin 4000) (q : Fin 128) :
    k6_pay3 h wh g wa b1 w2 b2 (ValueIdx.ix2 p q)
      = Cert.Spec.upd (Cert.Spec.row h p) (Cert.Spec.row g p) (Cert.Spec.m2 wh) (Cert.Spec.m2 wa)
          (fun j => b1 (ValueIdx.ix2 0 j)) (Cert.Spec.m2 w2) (fun j => b2 (ValueIdx.ix2 0 j)) q := by
  unfold k6_pay3
  simp only [shapeCast_self]
  rw [ValueIdx.addf_apply, ValueIdx.addf_apply, upd6Mm_at, upd6Bias_at]
  simp only [ValueIdx.truncf_apply, ValueIdx.maximumf_apply, ValueIdx.addf_apply, upd6Mm_at, upd6Bias_at,
    ValueIdx.broadcast_apply]
  unfold Cert.Spec.upd Cert.Spec.aff Cert.Spec.lin Cert.Spec.relu
  refine congrArg (fun z => h (ValueIdx.ix2 p q) + (z + b2 (ValueIdx.ix2 0 q))) ?_
  refine Finset.sum_congr rfl fun k _ => ?_
  have hz : FloatOps.ofBits (F := Ideal) FTy.f32 0x00000000#32 = (0 : EReal) := Ideal.ofBits_zero_f32
  rw [upd6Bias_at, hz]

/-- The half-precision copy handed on to the two projections is the same function over the extended reals. -/
theorem upd6Pay4_at (h : Vec Ideal S4000x128 .f32) (wh : Vec Ideal S128x128 .f32) (g : Vec Ideal S4000x128 .f32)
    (wa : Vec Ideal S128x128 .f32) (b1 : Vec Ideal S1x128 .f32) (w2 : Vec Ideal S128x128 .f32) (b2 : Vec Ideal S1x128 .f32)
    (i : S4000x128.Idx) : k6_pay4 h wh g wa b1 w2 b2 i = k6_pay3 h wh g wa b1 w2 b2 i := rfl

/-- The projection by the source-side matrix: the stored features' row times the matrix. -/
theorem upd6Pay1_at (y : FVec Ideal S4000x128 .bf16) (ws : Vec Ideal S128x128 .f32) (p : Fin 4000) (q : Fin 128) :
    k6_pay1 y (k6_pay5 ws) (ValueIdx.ix2 p q) = Cert.Spec.lin (fun k => y (ValueIdx.ix2 p k)) (Cert.Spec.m2 ws) q := by
  unfold k6_pay1 k6_pay5
  simp only [shapeCast_self]
  rw [ValueIdx.truncf_apply, upd6Mm_at]
  rfl

/-- The projection by the destination-side matrix, likewise. -/
theorem upd6Pay2_at (y : FVec Ideal S4000x128 .bf16) (wd : Vec Ideal S128x128 .f32) (p : Fin 4000) (q : Fin 128) :
    k6_pay2 y wd (ValueIdx.ix2 p q) = Cert.Spec.lin (fun k => y (ValueIdx.ix2 p k)) (Cert.Spec.m2 wd) q := by
  unfold k6_pay2
  simp only [shapeCast_self]
  rw [ValueIdx.truncf_apply, upd6Mm_at]
  rfl

/-! ## From blocks to the arrays -/

variable (V : (c : Dev nD) → (b : Ref sig .tc) → Buf (Elt Ideal) ((c : Thread nD τ).loc b))

/-- Every access of the body starts at the origin of its buffer. -/
theorem upd6_origin : (![0, 0] : Fin 2 → Nat) = fun _ => 0 := funext fun a => by fin_cases a <;> rfl

/-- The new features as one function of the whole input arrays: at row r, column j, the update row formula of rows r
    of the features and of the aggregated messages. -/
noncomputable def upd6New (H Agg : S20000x128.Idx → EReal) (Wnh Wna : S128x128.Idx → EReal) (B1 : S1x128.Idx → EReal)
    (Wn2 : S128x128.Idx → EReal) (B2 : S1x128.Idx → EReal) : S20000x128.Idx → EReal := fun i =>
  Cert.Spec.upd (Cert.Spec.row H (i 0)) (Cert.Spec.row Agg (i 0)) (Cert.Spec.m2 Wnh) (Cert.Spec.m2 Wna)
    (fun j => B1 (ValueIdx.ix2 0 j)) (Cert.Spec.m2 Wn2) (fun j => B2 (ValueIdx.ix2 0 j)) (i 1)

/-- A projection of the new features as one function of the whole input arrays. -/
noncomputable def upd6Proj (H Agg : S20000x128.Idx → EReal) (Wnh Wna : S128x128.Idx → EReal) (B1 : S1x128.Idx → EReal)
    (Wn2 : S128x128.Idx → EReal) (B2 : S1x128.Idx → EReal) (W : S128x128.Idx → EReal) : S20000x128.Idx → EReal := fun i =>
  Cert.Spec.lin (Cert.Spec.upd (Cert.Spec.row H (i 0)) (Cert.Spec.row Agg (i 0)) (Cert.Spec.m2 Wnh) (Cert.Spec.m2 Wna)
    (fun j => B1 (ValueIdx.ix2 0 j)) (Cert.Spec.m2 Wn2) (fun j => B2 (ValueIdx.ix2 0 j))) (Cert.Spec.m2 W) (i 1)

/-- The printed index maps, decided over the five grid points: the two row-blocked inputs and the three results are at
    block row t, column block 0; the seven weight arrays are always at block (0, 0). -/
theorem upd6_index : ∀ t : Fin cfg6.N,
    (win6_0.index t (0 : Fin 2) = t.val ∧ win6_0.index t (1 : Fin 2) = 0)
    ∧ (win6_1.index t (0 : Fin 2) = t.val ∧ win6_1.index t (1 : Fin 2) = 0)
    ∧ (win6_2.index t (0 : Fin 2) = 0 ∧ win6_2.index t (1 : Fin 2) = 0)
    ∧ (win6_3.index t (0 : Fin 2) = 0 ∧ win6_3.index t (1 : Fin 2) = 0)
    ∧ (win6_4.index t (0 : Fin 2) = 0 ∧ win6_4.index t (1 : Fin 2) = 0)
    ∧ (win6_5.index t (0 : Fin 2) = 0 ∧ win6_5.index t (1 : Fin 2) = 0)
    ∧ (win6_6.index t (0 : Fin 2) = 0 ∧ win6_6.index t (1 : Fin 2) = 0)
    ∧ (win6_7.index t (0 : Fin 2) = 0 ∧ win6_7.index t (1 : Fin 2) = 0)
    ∧ (win6_8.index t (0 : Fin 2) = 0 ∧ win6_8.index t (1 : Fin 2) = 0)
    ∧ (win6_9.index t (0 : Fin 2) = t.val ∧ win6_9.index t (1 : Fin 2) = 0)
    ∧ (win6_10.index t (0 : Fin 2) = t.val ∧ win6_10.index t (1 : Fin 2) = 0)
    ∧ (win6_11.index t (0 : Fin 2) = t.val ∧ win6_11.index t (1 : Fin 2) = 0) :=
  (by decide +kernel : ∀ t : Fin grid6.N, _)

/-- The grid has five points. -/
theorem upd6_points (t : Fin cfg6.N) : t.val < 5 := by
  have h : t.val < grid6.N := t.isLt
  rw [N_6] at h
  exact h

/-- The row of the whole array that row p of block t is. -/
noncomputable def upd6Row (t : Fin cfg6.N) (p : Fin 4000) : Fin 20000 :=
  ⟨t.val * 4000 + p.val, by have := upd6_points t; have := p.isLt; omega⟩

/-! The arrays the region finds, at their literal shapes. -/
/-- The node features the region finds. -/
noncomputable abbrev upd6H (c : Dev nD) : S20000x128.Idx → EReal := V c (Pipeline.arrRef spec6 0)
/-- The aggregated messages the region finds. -/
noncomputable abbrev upd6Agg (c : Dev nD) : S20000x128.Idx → EReal := V c (Pipeline.arrRef spec6 1)
/-- The update's matrix on the features. -/
noncomputable abbrev upd6Wnh (c : Dev nD) : S128x128.Idx → EReal := V c (Pipeline.arrRef spec6 2)
/-- The update's matrix on the messages. -/
noncomputable abbrev upd6Wna (c : Dev nD) : S128x128.Idx → EReal := V c (Pipeline.arrRef spec6 3)
/-- The update's first bias, a [1,128] row. -/
noncomputable abbrev upd6B1 (c : Dev nD) : S1x128.Idx → EReal := V c (Pipeline.arrRef spec6 4)
/-- The update's second matrix. -/
noncomputable abbrev upd6Wn2 (c : Dev nD) : S128x128.Idx → EReal := V c (Pipeline.arrRef spec6 5)
/-- The update's second bias, a [1,128] row. -/
noncomputable abbrev upd6B2 (c : Dev nD) : S1x128.Idx → EReal := V c (Pipeline.arrRef spec6 6)
/-- The next layer's source-side matrix. -/
noncomputable abbrev upd6Ws (c : Dev nD) : S128x128.Idx → EReal := V c (Pipeline.arrRef spec6 7)
/-- The next layer's destination-side matrix. -/
noncomputable abbrev upd6Wd (c : Dev nD) : S128x128.Idx → EReal := V c (Pipeline.arrRef spec6 8)

/-! ## Each block read where its rectangle says -/

/-- Row p of window 0's block at point t is row `upd6Row t p` of its array. -/
theorem upd6_blk_0 (c : Dev nD) (t : Fin cfg6.N) (p : Fin 4000) (k : Fin 128) :
    iblk6 V c 0 t (ValueIdx.ix2 p k : S4000x128.Idx) = upd6H V c (ValueIdx.ix2 (upd6Row t p) k) := by
  have e := upd6_index t
  show V c (Pipeline.arrRef spec6 0) (((cfg6.win 0).blk t).view.emb (ValueIdx.ix2 p k : S4000x128.Idx)) = _
  refine congrArg (V c (Pipeline.arrRef spec6 0)) (funext fun a => Fin.ext ?_)
  match a with
  | ⟨0, _⟩ => show win6_0.index t (0 : Fin 2) * 4000 + 1 * p.val = t.val * 4000 + p.val; omega
  | ⟨1, _⟩ => show win6_0.index t (1 : Fin 2) * 128 + 1 * k.val = k.val; omega

/-- Row p of window 1's block at point t is row `upd6Row t p` of its array. -/
theorem upd6_blk_1 (c : Dev nD) (t : Fin cfg6.N) (p : Fin 4000) (k : Fin 128) :
    iblk6 V c 1 t (ValueIdx.ix2 p k : S4000x128.Idx) = upd6Agg V c (ValueIdx.ix2 (upd6Row t p) k) := by
  have e := upd6_index t
  show V c (Pipeline.arrRef spec6 1) (((cfg6.win 1).blk t).view.emb (ValueIdx.ix2 p k : S4000x128.Idx)) = _
  refine congrArg (V c (Pipeline.arrRef spec6 1)) (funext fun a => Fin.ext ?_)
  match a with
  | ⟨0, _⟩ => show win6_1.index t (0 : Fin 2) * 4000 + 1 * p.val = t.val * 4000 + p.val; omega
  | ⟨1, _⟩ => show win6_1.index t (1 : Fin 2) * 128 + 1 * k.val = k.val; omega

/-- Window 2's block at every point is its whole array. -/
theorem upd6_blk_2 (c : Dev nD) (t : Fin cfg6.N) (i : S128x128.Idx) : iblk6 V c 2 t i = upd6Wnh V c i := by
  have e := upd6_index t
  show V c (Pipeline.arrRef spec6 2) (((cfg6.win 2).blk t).view.emb i) = _
  refine congrArg (V c (Pipeline.arrRef spec6 2)) (funext fun a => Fin.ext ?_)
  match a with
  | ⟨0, _⟩ => show win6_2.index t (0 : Fin 2) * 128 + 1 * (i 0).val = (i 0).val; omega
  | ⟨1, _⟩ => show win6_2.index t (1 : Fin 2) * 128 + 1 * (i 1).val = (i 1).val; omega

/-- Window 3's block at every point is its whole array. -/
theorem upd6_blk_3 (c : Dev nD) (t : Fin cfg6.N) (i : S128x128.Idx) : iblk6 V c 3 t i = upd6Wna V c i := by
  have e := upd6_index t
  show V c (Pipeline.arrRef spec6 3) (((cfg6.win 3).blk t).view.emb i) = _
  refine congrArg (V c (Pipeline.arrRef spec6 3)) (funext fun a => Fin.ext ?_)
  match a with
  | ⟨0, _⟩ => show win6_3.index t (0 : Fin 2) * 128 + 1 * (i 0).val = (i 0).val; omega
  | ⟨1, _⟩ => show win6_3.index t (1 : Fin 2) * 128 + 1 * (i 1).val = (i 1).val; omega

/-- Window 4's block at every point is its whole array. -/
theorem upd6_blk_4 (c : Dev nD) (t : Fin cfg6.N) (i : S1x128.Idx) : iblk6 V c 4 t i = upd6B1 V c i := by
  have e := upd6_index t
  show V c (Pipeline.arrRef spec6 4) (((cfg6.win 4).blk t).view.emb i) = _
  refine congrArg (V c (Pipeline.arrRef spec6 4)) (funext fun a => Fin.ext ?_)
  match a with
  | ⟨0, _⟩ => show win6_4.index t (0 : Fin 2) * 1 + 1 * (i 0).val = (i 0).val; omega
  | ⟨1, _⟩ => show win6_4.index t (1 : Fin 2) * 128 + 1 * (i 1).val = (i 1).val; omega

/-- Window 5's block at every point is its whole array. -/
theorem upd6_blk_5 (c : Dev nD) (t : Fin cfg6.N) (i : S128x128.Idx) : iblk6 V c 5 t i = upd6Wn2 V c i := by
  have e := upd6_index t
  show V c (Pipeline.arrRef spec6 5) (((cfg6.win 5).blk t).view.emb i) = _
  refine congrArg (V c (Pipeline.arrRef spec6 5)) (funext fun a => Fin.ext ?_)
  match a with
  | ⟨0, _⟩ => show win6_5.index t (0 : Fin 2) * 128 + 1 * (i 0).val = (i 0).val; omega
  | ⟨1, _⟩ => show win6_5.index t (1 : Fin 2) * 128 + 1 * (i 1).val = (i 1).val; omega

/-- Window 6's block at every point is its whole array. -/
theorem upd6_blk_6 (c : Dev nD) (t : Fin cfg6.N) (i : S1x128.Idx) : iblk6 V c 6 t i = upd6B2 V c i := by
  have e := upd6_index t
  show V c (Pipeline.arrRef spec6 6) (((cfg6.win 6).blk t).view.emb i) = _
  refine congrArg (V c (Pipeline.arrRef spec6 6)) (funext fun a => Fin.ext ?_)
  match a with
  | ⟨0, _⟩ => show win6_6.index t (0 : Fin 2) * 1 + 1 * (i 0).val = (i 0).val; omega
  | ⟨1, _⟩ => show win6_6.index t (1 : Fin 2) * 128 + 1 * (i 1).val = (i 1).val; omega

/-- Window 7's block at every point is its whole array. -/
theorem upd6_blk_7 (c : Dev nD) (t : Fin cfg6.N) (i : S128x128.Idx) : iblk6 V c 7 t i = upd6Ws V c i := by
  have e := upd6_index t
  show V c (Pipeline.arrRef spec6 7) (((cfg6.win 7).blk t).view.emb i) = _
  refine congrArg (V c (Pipeline.arrRef spec6 7)) (funext fun a => Fin.ext ?_)
  match a with
  | ⟨0, _⟩ => show win6_7.index t (0 : Fin 2) * 128 + 1 * (i 0).val = (i 0).val; omega
  | ⟨1, _⟩ => show win6_7.index t (1 : Fin 2) * 128 + 1 * (i 1).val = (i 1).val; omega

/-- Window 8's block at every point is its whole array. -/
theorem upd6_blk_8 (c : Dev nD) (t : Fin cfg6.N) (i : S128x128.Idx) : iblk6 V c 8 t i = upd6Wd V c i := by
  have e := upd6_index t
  show V c (Pipeline.arrRef spec6 8) (((cfg6.win 8).blk t).view.emb i) = _
  refine congrArg (V c (Pipeline.arrRef spec6 8)) (funext fun a => Fin.ext ?_)
  match a with
  | ⟨0, _⟩ => show win6_8.index t (0 : Fin 2) * 128 + 1 * (i 0).val = (i 0).val; omega
  | ⟨1, _⟩ => show win6_8.index t (1 : Fin 2) * 128 + 1 * (i 1).val = (i 1).val; omega

/-- Index (p, q) of result window 9's block at point t is index (`upd6Row t p`, q) of its array. -/
theorem upd6_emb_9 (t : Fin cfg6.N) (p : Fin 4000) (q : Fin 128) :
    ((cfg6.win 9).blk t).view.emb (ValueIdx.ix2 p q : S4000x128.Idx) = (ValueIdx.ix2 (upd6Row t p) q : S20000x128.Idx) := by
  have e := upd6_index t
  refine funext fun a => Fin.ext ?_
  match a with
  | ⟨0, _⟩ => show win6_9.index t (0 : Fin 2) * 4000 + 1 * p.val = t.val * 4000 + p.val; omega
  | ⟨1, _⟩ => show win6_9.index t (1 : Fin 2) * 128 + 1 * q.val = q.val; omega

/-- Index (p, q) of result window 10's block at point t is index (`upd6Row t p`, q) of its array. -/
theorem upd6_emb_10 (t : Fin cfg6.N) (p : Fin 4000) (q : Fin 128) :
    ((cfg6.win 10).blk t).view.emb (ValueIdx.ix2 p q : S4000x128.Idx) = (ValueIdx.ix2 (upd6Row t p) q : S20000x128.Idx) := by
  have e := upd6_index t
  refine funext fun a => Fin.ext ?_
  match a with
  | ⟨0, _⟩ => show win6_10.index t (0 : Fin 2) * 4000 + 1 * p.val = t.val * 4000 + p.val; omega
  | ⟨1, _⟩ => show win6_10.index t (1 : Fin 2) * 128 + 1 * q.val = q.val; omega

/-- Index (p, q) of result window 11's block at point t is index (`upd6Row t p`, q) of its array. -/
theorem upd6_emb_11 (t : Fin cfg6.N) (p : Fin 4000) (q : Fin 128) :
    ((cfg6.win 11).blk t).view.emb (ValueIdx.ix2 p q : S4000x128.Idx) = (ValueIdx.ix2 (upd6Row t p) q : S20000x128.Idx) := by
  have e := upd6_index t
  refine funext fun a => Fin.ext ?_
  match a with
  | ⟨0, _⟩ => show win6_11.index t (0 : Fin 2) * 4000 + 1 * p.val = t.val * 4000 + p.val; omega
  | ⟨1, _⟩ => show win6_11.index t (1 : Fin 2) * 128 + 1 * q.val = q.val; omega

/-- The update row formula of rows p of the blocks at point t is that of rows `upd6Row t p` of the arrays. -/
theorem upd6_rows (c : Dev nD) (t : Fin cfg6.N) (p : Fin 4000) :
    Cert.Spec.upd (Cert.Spec.row (iblk6 V c 0 t) p) (Cert.Spec.row (iblk6 V c 1 t) p) (Cert.Spec.m2 (iblk6 V c 2 t))
        (Cert.Spec.m2 (iblk6 V c 3 t)) (fun j => iblk6 V c 4 t (ValueIdx.ix2 0 j)) (Cert.Spec.m2 (iblk6 V c 5 t))
        (fun j => iblk6 V c 6 t (ValueIdx.ix2 0 j))
      = Cert.Spec.upd (Cert.Spec.row (upd6H V c) (upd6Row t p)) (Cert.Spec.row (upd6Agg V c) (upd6Row t p))
          (Cert.Spec.m2 (upd6Wnh V c)) (Cert.Spec.m2 (upd6Wna V c)) (fun j => upd6B1 V c (ValueIdx.ix2 0 j))
          (Cert.Spec.m2 (upd6Wn2 V c)) (fun j => upd6B2 V c (ValueIdx.ix2 0 j)) := by
  have h0 : Cert.Spec.row (iblk6 V c 0 t) p = Cert.Spec.row (upd6H V c) (upd6Row t p) := funext fun k => upd6_blk_0 V c t p k
  have h1 : Cert.Spec.row (iblk6 V c 1 t) p = Cert.Spec.row (upd6Agg V c) (upd6Row t p) := funext fun k => upd6_blk_1 V c t p k
  have h2 : Cert.Spec.m2 (iblk6 V c 2 t) = Cert.Spec.m2 (upd6Wnh V c) := funext fun a => funext fun b => upd6_blk_2 V c t _
  have h3 : Cert.Spec.m2 (iblk6 V c 3 t) = Cert.Spec.m2 (upd6Wna V c) := funext fun a => funext fun b => upd6_blk_3 V c t _
  have h4 : (fun j : Fin 128 => iblk6 V c 4 t (ValueIdx.ix2 0 j)) = fun j => upd6B1 V c (ValueIdx.ix2 0 j) := funext fun j => upd6_blk_4 V c t _
  have h5 : Cert.Spec.m2 (iblk6 V c 5 t) = Cert.Spec.m2 (upd6Wn2 V c) := funext fun a => funext fun b => upd6_blk_5 V c t _
  have h6 : (fun j : Fin 128 => iblk6 V c 6 t (ValueIdx.ix2 0 j)) = fun j => upd6B2 V c (ValueIdx.ix2 0 j) := funext fun j => upd6_blk_6 V c t _
  rw [h0, h1, h2, h3, h4, h5, h6]

/-! ## What each point writes back -/

/-- Point t writes back, into the new features, block t of `upd6New` of the arrays the region finds. -/
theorem upd6_flushed_9 (c : Dev nD) (t : Fin cfg6.N) :
    (dat6 V c).flushed 9 t = ((cfg6.win 9).blk t).view.read (Elt Ideal) (upd6New (upd6H V c) (upd6Agg V c) (upd6Wnh V c) (upd6Wna V c) (upd6B1 V c) (upd6Wn2 V c) (upd6B2 V c)) := by
  show (cfg6.win 9).cut (grid6.coords t) ((dat6 V c).after 9 t) = _
  rw [after6_9]
  unfold out6_9
  rw [View.canon_unit_zero upd6_origin]
  simp only [View.ld_unit_zero (S := S4000x128) upd6_origin, View.ld_unit_zero (S := S128x128) upd6_origin,
    View.ld_unit_zero (S := S1x128) upd6_origin]
  funext j
  obtain ⟨p, q, rfl⟩ : ∃ (p : Fin 4000) (q : Fin 128), j = ValueIdx.ix2 p q := ⟨j 0, j 1, ValueIdx.eq_ix2 j⟩
  show k6_pay3 (iblk6 V c 0 t) (iblk6 V c 2 t) (iblk6 V c 1 t) (iblk6 V c 3 t) (iblk6 V c 4 t) (iblk6 V c 5 t) (iblk6 V c 6 t) (ValueIdx.ix2 p q)
    = upd6New (upd6H V c) (upd6Agg V c) (upd6Wnh V c) (upd6Wna V c) (upd6B1 V c) (upd6Wn2 V c) (upd6B2 V c) (((cfg6.win 9).blk t).view.emb (ValueIdx.ix2 p q : S4000x128.Idx))
  rw [upd6Pay3_at, upd6_emb_9, upd6_rows]
  rfl

/-- Point t writes back, into the source-side projection, block t of `upd6Proj` by the source-side matrix. -/
theorem upd6_flushed_10 (c : Dev nD) (t : Fin cfg6.N) :
    (dat6 V c).flushed 10 t = ((cfg6.win 10).blk t).view.read (Elt Ideal) (upd6Proj (upd6H V c) (upd6Agg V c) (upd6Wnh V c) (upd6Wna V c) (upd6B1 V c) (upd6Wn2 V c) (upd6B2 V c) (upd6Ws V c)) := by
  show (cfg6.win 10).cut (grid6.coords t) ((dat6 V c).after 10 t) = _
  rw [after6_10]
  unfold out6_10
  rw [View.canon_unit_zero upd6_origin]
  simp only [View.ld_unit_zero (S := S4000x128) upd6_origin, View.ld_unit_zero (S := S128x128) upd6_origin,
    View.ld_unit_zero (S := S1x128) upd6_origin]
  funext j
  obtain ⟨p, q, rfl⟩ : ∃ (p : Fin 4000) (q : Fin 128), j = ValueIdx.ix2 p q := ⟨j 0, j 1, ValueIdx.eq_ix2 j⟩
  show k6_pay1 (k6_pay4 (iblk6 V c 0 t) (iblk6 V c 2 t) (iblk6 V c 1 t) (iblk6 V c 3 t) (iblk6 V c 4 t) (iblk6 V c 5 t) (iblk6 V c 6 t))
      (k6_pay5 (iblk6 V c 7 t)) (ValueIdx.ix2 p q)
    = upd6Proj (upd6H V c) (upd6Agg V c) (upd6Wnh V c) (upd6Wna V c) (upd6B1 V c) (upd6Wn2 V c) (upd6B2 V c) (upd6Ws V c) (((cfg6.win 10).blk t).view.emb (ValueIdx.ix2 p q : S4000x128.Idx))
  rw [upd6Pay1_at, upd6_emb_10]
  have hy : (fun k : Fin 128 => k6_pay4 (iblk6 V c 0 t) (iblk6 V c 2 t) (iblk6 V c 1 t) (iblk6 V c 3 t) (iblk6 V c 4 t) (iblk6 V c 5 t)
      (iblk6 V c 6 t) (ValueIdx.ix2 p k))
      = Cert.Spec.upd (Cert.Spec.row (upd6H V c) (upd6Row t p)) (Cert.Spec.row (upd6Agg V c) (upd6Row t p))
          (Cert.Spec.m2 (upd6Wnh V c)) (Cert.Spec.m2 (upd6Wna V c)) (fun j => upd6B1 V c (ValueIdx.ix2 0 j))
          (Cert.Spec.m2 (upd6Wn2 V c)) (fun j => upd6B2 V c (ValueIdx.ix2 0 j)) :=
    funext fun k => by rw [upd6Pay4_at, upd6Pay3_at, upd6_rows]
  have hw : Cert.Spec.m2 (iblk6 V c 7 t) = Cert.Spec.m2 (upd6Ws V c) := funext fun a => funext fun b => upd6_blk_7 V c t _
  rw [hy, hw]
  rfl

/-- Point t writes back, into the destination-side projection, block t of `upd6Proj` by the destination-side matrix. -/
theorem upd6_flushed_11 (c : Dev nD) (t : Fin cfg6.N) :
    (dat6 V c).flushed 11 t = ((cfg6.win 11).blk t).view.read (Elt Ideal) (upd6Proj (upd6H V c) (upd6Agg V c) (upd6Wnh V c) (upd6Wna V c) (upd6B1 V c) (upd6Wn2 V c) (upd6B2 V c) (upd6Wd V c)) := by
  show (cfg6.win 11).cut (grid6.coords t) ((dat6 V c).after 11 t) = _
  rw [after6_11]
  unfold out6_11
  rw [View.canon_unit_zero upd6_origin]
  simp only [View.ld_unit_zero (S := S4000x128) upd6_origin, View.ld_unit_zero (S := S128x128) upd6_origin,
    View.ld_unit_zero (S := S1x128) upd6_origin]
  funext j
  obtain ⟨p, q, rfl⟩ : ∃ (p : Fin 4000) (q : Fin 128), j = ValueIdx.ix2 p q := ⟨j 0, j 1, ValueIdx.eq_ix2 j⟩
  show k6_pay2 (k6_pay4 (iblk6 V c 0 t) (iblk6 V c 2 t) (iblk6 V c 1 t) (iblk6 V c 3 t) (iblk6 V c 4 t) (iblk6 V c 5 t) (iblk6 V c 6 t))
      (iblk6 V c 8 t) (ValueIdx.ix2 p q)
    = upd6Proj (upd6H V c) (upd6Agg V c) (upd6Wnh V c) (upd6Wna V c) (upd6B1 V c) (upd6Wn2 V c) (upd6B2 V c) (upd6Wd V c) (((cfg6.win 11).blk t).view.emb (ValueIdx.ix2 p q : S4000x128.Idx))
  rw [upd6Pay2_at, upd6_emb_11]
  have hy : (fun k : Fin 128 => k6_pay4 (iblk6 V c 0 t) (iblk6 V c 2 t) (iblk6 V c 1 t) (iblk6 V c 3 t) (iblk6 V c 4 t) (iblk6 V c 5 t)
      (iblk6 V c 6 t) (ValueIdx.ix2 p k))
      = Cert.Spec.upd (Cert.Spec.row (upd6H V c) (upd6Row t p)) (Cert.Spec.row (upd6Agg V c) (upd6Row t p))
          (Cert.Spec.m2 (upd6Wnh V c)) (Cert.Spec.m2 (upd6Wna V c)) (fun j => upd6B1 V c (ValueIdx.ix2 0 j))
          (Cert.Spec.m2 (upd6Wn2 V c)) (fun j => upd6B2 V c (ValueIdx.ix2 0 j)) :=
    funext fun k => by rw [upd6Pay4_at, upd6Pay3_at, upd6_rows]
  have hw : Cert.Spec.m2 (iblk6 V c 8 t) = Cert.Spec.m2 (upd6Wd V c) := funext fun a => funext fun b => upd6_blk_8 V c t _
  rw [hy, hw]
  rfl

/-! ## The blocks tile the rows -/

/-- An index of result array 9 is in point t's block iff each coordinate is in the block's range on its axis. -/
theorem upd6_mem_9 (t : Fin cfg6.N) (i : S20000x128.Idx) :
    i ∈ ((cfg6.win 9).blk t).view.set ↔ ∀ a : Fin 2, win6_9.index t a * S4000x128.size a ≤ (i a).val
      ∧ (i a).val < win6_9.index t a * S4000x128.size a + S4000x128.size a := by
  show i ∈ ((View.whole (Pipeline.arrRef spec6 9)).slice (win6_9.rect t)).set ↔ _
  rw [View.set_slice_whole, Rect.mem_set_unit]
  exact Iff.rfl

/-- Row r of result array 9 is in the block of point r / 4000, and every point writes its block back. -/
theorem upd6_cover_9 (i : S20000x128.Idx) :
    ∃ t : Fin cfg6.N, (cfg6.win 9).flush t = true ∧ i ∈ ((cfg6.win 9).blk t).view.set := by
  have hi0 : (i 0).val < 20000 := (i 0).isLt
  have hi1 : (i 1).val < 128 := (i 1).isLt
  have hN : (i 0).val / 4000 < grid6.N := by rw [N_6]; omega
  refine ⟨⟨(i 0).val / 4000, hN⟩, flush6_9 _, ?_⟩
  rw [upd6_mem_9]
  obtain ⟨-, -, -, -, -, -, -, -, -, e9, e10, e11⟩ := upd6_index ⟨(i 0).val / 4000, hN⟩
  have q0 : win6_9.index ⟨(i 0).val / 4000, hN⟩ (0 : Fin 2) = (i 0).val / 4000 := e9.1
  have q1 : win6_9.index ⟨(i 0).val / 4000, hN⟩ (1 : Fin 2) = 0 := e9.2
  intro a
  match a with
  | ⟨0, _⟩ =>
    show win6_9.index ⟨(i 0).val / 4000, hN⟩ (0 : Fin 2) * 4000 ≤ (i 0).val
      ∧ (i 0).val < win6_9.index ⟨(i 0).val / 4000, hN⟩ (0 : Fin 2) * 4000 + 4000
    omega
  | ⟨1, _⟩ =>
    show win6_9.index ⟨(i 0).val / 4000, hN⟩ (1 : Fin 2) * 128 ≤ (i 1).val
      ∧ (i 1).val < win6_9.index ⟨(i 0).val / 4000, hN⟩ (1 : Fin 2) * 128 + 128
    omega

/-- An index of result array 10 is in point t's block iff each coordinate is in the block's range on its axis. -/
theorem upd6_mem_10 (t : Fin cfg6.N) (i : S20000x128.Idx) :
    i ∈ ((cfg6.win 10).blk t).view.set ↔ ∀ a : Fin 2, win6_10.index t a * S4000x128.size a ≤ (i a).val
      ∧ (i a).val < win6_10.index t a * S4000x128.size a + S4000x128.size a := by
  show i ∈ ((View.whole (Pipeline.arrRef spec6 10)).slice (win6_10.rect t)).set ↔ _
  rw [View.set_slice_whole, Rect.mem_set_unit]
  exact Iff.rfl

/-- Row r of result array 10 is in the block of point r / 4000, and every point writes its block back. -/
theorem upd6_cover_10 (i : S20000x128.Idx) :
    ∃ t : Fin cfg6.N, (cfg6.win 10).flush t = true ∧ i ∈ ((cfg6.win 10).blk t).view.set := by
  have hi0 : (i 0).val < 20000 := (i 0).isLt
  have hi1 : (i 1).val < 128 := (i 1).isLt
  have hN : (i 0).val / 4000 < grid6.N := by rw [N_6]; omega
  refine ⟨⟨(i 0).val / 4000, hN⟩, flush6_10 _, ?_⟩
  rw [upd6_mem_10]
  obtain ⟨-, -, -, -, -, -, -, -, -, e9, e10, e11⟩ := upd6_index ⟨(i 0).val / 4000, hN⟩
  have q0 : win6_10.index ⟨(i 0).val / 4000, hN⟩ (0 : Fin 2) = (i 0).val / 4000 := e10.1
  have q1 : win6_10.index ⟨(i 0).val / 4000, hN⟩ (1 : Fin 2) = 0 := e10.2
  intro a
  match a with
  | ⟨0, _⟩ =>
    show win6_10.index ⟨(i 0).val / 4000, hN⟩ (0 : Fin 2) * 4000 ≤ (i 0).val
      ∧ (i 0).val < win6_10.index ⟨(i 0).val / 4000, hN⟩ (0 : Fin 2) * 4000 + 4000
    omega
  | ⟨1, _⟩ =>
    show win6_10.index ⟨(i 0).val / 4000, hN⟩ (1 : Fin 2) * 128 ≤ (i 1).val
      ∧ (i 1).val < win6_10.index ⟨(i 0).val / 4000, hN⟩ (1 : Fin 2) * 128 + 128
    omega

/-- An index of result array 11 is in point t's block iff each coordinate is in the block's range on its axis. -/
theorem upd6_mem_11 (t : Fin cfg6.N) (i : S20000x128.Idx) :
    i ∈ ((cfg6.win 11).blk t).view.set ↔ ∀ a : Fin 2, win6_11.index t a * S4000x128.size a ≤ (i a).val
      ∧ (i a).val < win6_11.index t a * S4000x128.size a + S4000x128.size a := by
  show i ∈ ((View.whole (Pipeline.arrRef spec6 11)).slice (win6_11.rect t)).set ↔ _
  rw [View.set_slice_whole, Rect.mem_set_unit]
  exact Iff.rfl

/-- Row r of result array 11 is in the block of point r / 4000, and every point writes its block back. -/
theorem upd6_cover_11 (i : S20000x128.Idx) :
    ∃ t : Fin cfg6.N, (cfg6.win 11).flush t = true ∧ i ∈ ((cfg6.win 11).blk t).view.set := by
  have hi0 : (i 0).val < 20000 := (i 0).isLt
  have hi1 : (i 1).val < 128 := (i 1).isLt
  have hN : (i 0).val / 4000 < grid6.N := by rw [N_6]; omega
  refine ⟨⟨(i 0).val / 4000, hN⟩, flush6_11 _, ?_⟩
  rw [upd6_mem_11]
  obtain ⟨-, -, -, -, -, -, -, -, -, e9, e10, e11⟩ := upd6_index ⟨(i 0).val / 4000, hN⟩
  have q0 : win6_11.index ⟨(i 0).val / 4000, hN⟩ (0 : Fin 2) = (i 0).val / 4000 := e11.1
  have q1 : win6_11.index ⟨(i 0).val / 4000, hN⟩ (1 : Fin 2) = 0 := e11.2
  intro a
  match a with
  | ⟨0, _⟩ =>
    show win6_11.index ⟨(i 0).val / 4000, hN⟩ (0 : Fin 2) * 4000 ≤ (i 0).val
      ∧ (i 0).val < win6_11.index ⟨(i 0).val / 4000, hN⟩ (0 : Fin 2) * 4000 + 4000
    omega
  | ⟨1, _⟩ =>
    show win6_11.index ⟨(i 0).val / 4000, hN⟩ (1 : Fin 2) * 128 ≤ (i 1).val
      ∧ (i 1).val < win6_11.index ⟨(i 0).val / 4000, hN⟩ (1 : Fin 2) * 128 + 128
    omega

/-! ## The result arrays when the region ends -/

/-- The new features end as `upd6New` of the arrays the region finds. -/
theorem upd6_array_9 (c : Dev nD) : (dat6 (F := Ideal) V c).arrAt 9 cfg6.N = upd6New (upd6H V c) (upd6Agg V c) (upd6Wnh V c) (upd6Wna V c) (upd6B1 V c) (upd6Wn2 V c) (upd6B2 V c) :=
  (dat6 V c).arrAt_eq_of_cover 9 (upd6New (upd6H V c) (upd6Agg V c) (upd6Wnh V c) (upd6Wna V c) (upd6B1 V c) (upd6Wn2 V c) (upd6B2 V c)) (fun t _ => upd6_flushed_9 V c t) upd6_cover_9

/-- The source-side projection ends as `upd6Proj` by the source-side matrix. -/
theorem upd6_array_10 (c : Dev nD) : (dat6 (F := Ideal) V c).arrAt 10 cfg6.N = upd6Proj (upd6H V c) (upd6Agg V c) (upd6Wnh V c) (upd6Wna V c) (upd6B1 V c) (upd6Wn2 V c) (upd6B2 V c) (upd6Ws V c) :=
  (dat6 V c).arrAt_eq_of_cover 10 (upd6Proj (upd6H V c) (upd6Agg V c) (upd6Wnh V c) (upd6Wna V c) (upd6B1 V c) (upd6Wn2 V c) (upd6B2 V c) (upd6Ws V c)) (fun t _ => upd6_flushed_10 V c t) upd6_cover_10

/-- The destination-side projection ends as `upd6Proj` by the destination-side matrix. -/
theorem upd6_array_11 (c : Dev nD) : (dat6 (F := Ideal) V c).arrAt 11 cfg6.N = upd6Proj (upd6H V c) (upd6Agg V c) (upd6Wnh V c) (upd6Wna V c) (upd6B1 V c) (upd6Wn2 V c) (upd6B2 V c) (upd6Wd V c) :=
  (dat6 V c).arrAt_eq_of_cover 11 (upd6Proj (upd6H V c) (upd6Agg V c) (upd6Wnh V c) (upd6Wna V c) (upd6B1 V c) (upd6Wn2 V c) (upd6B2 V c) (upd6Wd V c)) (fun t _ => upd6_flushed_11 V c t) upd6_cover_11

/-- The new features at row p, column q: the update row formula of rows p of the features and the messages. -/
theorem final6_9 (c : Dev nD) (p : Fin 20000) (q : Fin 128) :
    (dat6 (F := Ideal) V c).arrAt 9 cfg6.N (ValueIdx.ix2 p q : S20000x128.Idx)
      = Cert.Spec.upd (Cert.Spec.row (upd6H V c) p) (Cert.Spec.row (upd6Agg V c) p) (Cert.Spec.m2 (upd6Wnh V c))
        (Cert.Spec.m2 (upd6Wna V c)) (fun j => upd6B1 V c (ValueIdx.ix2 0 j)) (Cert.Spec.m2 (upd6Wn2 V c))
        (fun j => upd6B2 V c (ValueIdx.ix2 0 j)) q := by
  rw [upd6_array_9]; rfl

/-- The source-side projection at row p, column q: the new features' row p times the source-side matrix. -/
theorem final6_10 (c : Dev nD) (p : Fin 20000) (q : Fin 128) :
    (dat6 (F := Ideal) V c).arrAt 10 cfg6.N (ValueIdx.ix2 p q : S20000x128.Idx)
      = Cert.Spec.lin (Cert.Spec.upd (Cert.Spec.row (upd6H V c) p) (Cert.Spec.row (upd6Agg V c) p) (Cert.Spec.m2 (upd6Wnh V c))
        (Cert.Spec.m2 (upd6Wna V c)) (fun j => upd6B1 V c (ValueIdx.ix2 0 j)) (Cert.Spec.m2 (upd6Wn2 V c))
        (fun j => upd6B2 V c (ValueIdx.ix2 0 j))) (Cert.Spec.m2 (upd6Ws V c)) q := by
  rw [upd6_array_10]; rfl

/-- The destination-side projection at row p, column q: the new features' row p times the destination-side matrix. -/
theorem final6_11 (c : Dev nD) (p : Fin 20000) (q : Fin 128) :
    (dat6 (F := Ideal) V c).arrAt 11 cfg6.N (ValueIdx.ix2 p q : S20000x128.Idx)
      = Cert.Spec.lin (Cert.Spec.upd (Cert.Spec.row (upd6H V c) p) (Cert.Spec.row (upd6Agg V c) p) (Cert.Spec.m2 (upd6Wnh V c))
        (Cert.Spec.m2 (upd6Wna V c)) (fun j => upd6B1 V c (ValueIdx.ix2 0 j)) (Cert.Spec.m2 (upd6Wn2 V c))
        (fun j => upd6B2 V c (ValueIdx.ix2 0 j))) (Cert.Spec.m2 (upd6Wd V c)) q := by
  rw [upd6_array_11]; rfl

end Cert.KernelIdeal.Hand

end
-- ==== Proof.Bridge.Upd6.lean ====
/-
  Region 6, the node update of one layer, as equations of arrays: whatever fills the region's nine input arrays, if
  they are the reference's inputs (the features, the aggregated messages and the five weight matrices the same arrays;
  each bias, which the kernel takes as one row and the reference as a vector, entry by entry), then the three result
  arrays after the region are the reference's updated features and their two projections for the next layer.
-/
import proofs.«152161_j29669634081217_2_alg».proof.Proof.KI.Val6
import proofs.«152161_j29669634081217_2_alg».proof.Proof.Ref.StageUpd
import proofs.«152161_j29669634081217_2_alg».proof.Proof.Ref.StageAB
import proofs.«152161_j29669634081217_2_alg».proof.Proof.Ref.Stages

noncomputable section

namespace Cert.Bridge

open Idealize.ShloMosaic Idealize.ShloMosaic.TcCoe Idealize.SL.Sem Idealize.ShloMosaic.ValueIdx
open Idealize.ShloMosaic.Pipeline (Dat)
open Cert.KernelIdeal Cert.KernelIdeal.Gen
open Cert.KernelIdeal.Hand (dat6 final6_9 final6_10 final6_11 upd6H upd6Agg upd6Wnh upd6Wna upd6B1 upd6Wn2 upd6B2 upd6Ws upd6Wd)
open Cert.ReferenceIdeal.Hand (updRef linRef refUpd refLin)

variable (V : (c : Dev nD) → (b : Ref sig .tc) → Buf (Elt Ideal) ((c : Thread nD τ).loc b)) (c : Dev nD)
variable (H Agg : FVec Ideal Cert.ReferenceIdeal.S20000x128 .f32) (Wnh Wna : FVec Ideal Cert.ReferenceIdeal.S128x128 .f32)
  (b1 : FVec Ideal Cert.ReferenceIdeal.S128 .f32) (Wn2 : FVec Ideal Cert.ReferenceIdeal.S128x128 .f32)
  (b2 : FVec Ideal Cert.ReferenceIdeal.S128 .f32)

/-- The updated features: both sides are the update row formula of rows p of the features and of the messages. -/
theorem upd6_new (h0 : upd6H V c = H) (h1 : upd6Agg V c = Agg) (h2 : upd6Wnh V c = Wnh) (h3 : upd6Wna V c = Wna)
    (h4 : ∀ j : Fin 128, upd6B1 V c (ix2 (0 : Fin 1) j) = b1 (ix1 j)) (h5 : upd6Wn2 V c = Wn2)
    (h6 : ∀ j : Fin 128, upd6B2 V c (ix2 (0 : Fin 1) j) = b2 (ix1 j)) :
    ((dat6 (F := Ideal) V c).arrAt 9 cfg6.N : S20000x128.Idx → EReal) = updRef H Agg Wnh Wna b1 Wn2 b2 := by
  funext i
  obtain ⟨p, q, rfl⟩ : ∃ (p : Fin 20000) (q : Fin 128), i = ix2 p q := ⟨i 0, i 1, eq_ix2 i⟩
  have e4 : (fun j : Fin 128 => upd6B1 V c (ix2 (0 : Fin 1) j)) = Cert.Spec.v1 b1 := funext h4
  have e6 : (fun j : Fin 128 => upd6B2 V c (ix2 (0 : Fin 1) j)) = Cert.Spec.v1 b2 := funext h6
  refine (final6_9 V c p q).trans ?_
  rw [e4, e6, h0, h1, h2, h3, h5]
  exact (refUpd H Agg Wnh Wna b1 Wn2 b2 p q).symm

/-- A projection of the updated features by a matrix W, for any array R that reads as that projection at every index:
    row p of the updated features, on both sides the update row formula, times W. -/
theorem upd6_proj_of (R : S20000x128.Idx → EReal) (Wk : S128x128.Idx → EReal) (W : FVec Ideal Cert.ReferenceIdeal.S128x128 .f32)
    (hfin : ∀ (p : Fin 20000) (q : Fin 128), R (ix2 p q : S20000x128.Idx)
      = Cert.Spec.lin (Cert.Spec.upd (Cert.Spec.row (upd6H V c) p) (Cert.Spec.row (upd6Agg V c) p) (Cert.Spec.m2 (upd6Wnh V c))
        (Cert.Spec.m2 (upd6Wna V c)) (fun j => upd6B1 V c (ix2 0 j)) (Cert.Spec.m2 (upd6Wn2 V c))
        (fun j => upd6B2 V c (ix2 0 j))) (Cert.Spec.m2 Wk) q)
    (h0 : upd6H V c = H) (h1 : upd6Agg V c = Agg) (h2 : upd6Wnh V c = Wnh) (h3 : upd6Wna V c = Wna)
    (h4 : ∀ j : Fin 128, upd6B1 V c (ix2 (0 : Fin 1) j) = b1 (ix1 j)) (h5 : upd6Wn2 V c = Wn2)
    (h6 : ∀ j : Fin 128, upd6B2 V c (ix2 (0 : Fin 1) j) = b2 (ix1 j)) (h7 : Wk = W) :
    R = linRef (updRef H Agg Wnh Wna b1 Wn2 b2) W := by
  funext i
  obtain ⟨p, q, rfl⟩ : ∃ (p : Fin 20000) (q : Fin 128), i = ix2 p q := ⟨i 0, i 1, eq_ix2 i⟩
  have e4 : (fun j : Fin 128 => upd6B1 V c (ix2 (0 : Fin 1) j)) = Cert.Spec.v1 b1 := funext h4
  have e6 : (fun j : Fin 128 => upd6B2 V c (ix2 (0 : Fin 1) j)) = Cert.Spec.v1 b2 := funext h6
  refine (hfin p q).trans ?_
  rw [e4, e6, h0, h1, h2, h3, h5, h7]
  refine Eq.trans ?_ (refLin (updRef H Agg Wnh Wna b1 Wn2 b2) W p q).symm
  refine congrArg (fun x => Cert.Spec.lin x (Cert.Spec.m2 W) q) ?_
  funext k
  exact (refUpd H Agg Wnh Wna b1 Wn2 b2 p k).symm

/-- The projection by the source-side matrix of the next layer. -/
theorem upd6_projS (Ws : FVec Ideal Cert.ReferenceIdeal.S128x128 .f32)
    (h0 : upd6H V c = H) (h1 : upd6Agg V c = Agg) (h2 : upd6Wnh V c = Wnh) (h3 : upd6Wna V c = Wna)
    (h4 : ∀ j : Fin 128, upd6B1 V c (ix2 (0 : Fin 1) j) = b1 (ix1 j)) (h5 : upd6Wn2 V c = Wn2)
    (h6 : ∀ j : Fin 128, upd6B2 V c (ix2 (0 : Fin 1) j) = b2 (ix1 j)) (h7 : upd6Ws V c = Ws) :
    ((dat6 (F := Ideal) V c).arrAt 10 cfg6.N : S20000x128.Idx → EReal) = linRef (updRef H Agg Wnh Wna b1 Wn2 b2) Ws :=
  upd6_proj_of V c H Agg Wnh Wna b1 Wn2 b2 ((dat6 (F := Ideal) V c).arrAt 10 cfg6.N) (upd6Ws V c) Ws (final6_10 V c) h0 h1 h2 h3 h4 h5 h6 h7

/-- The projection by the destination-side matrix of the next layer. -/
theorem upd6_projD (Wd : FVec Ideal Cert.ReferenceIdeal.S128x128 .f32)
    (h0 : upd6H V c = H) (h1 : upd6Agg V c = Agg) (h2 : upd6Wnh V c = Wnh) (h3 : upd6Wna V c = Wna)
    (h4 : ∀ j : Fin 128, upd6B1 V c (ix2 (0 : Fin 1) j) = b1 (ix1 j)) (h5 : upd6Wn2 V c = Wn2)
    (h6 : ∀ j : Fin 128, upd6B2 V c (ix2 (0 : Fin 1) j) = b2 (ix1 j)) (h8 : upd6Wd V c = Wd) :
    ((dat6 (F := Ideal) V c).arrAt 11 cfg6.N : S20000x128.Idx → EReal) = linRef (updRef H Agg Wnh Wna b1 Wn2 b2) Wd :=
  upd6_proj_of V c H Agg Wnh Wna b1 Wn2 b2 ((dat6 (F := Ideal) V c).arrAt 11 cfg6.N) (upd6Wd V c) Wd (final6_11 V c) h0 h1 h2 h3 h4 h5 h6 h8

end Cert.Bridge

end
-- ==== Proof.Bridge.Layer1.lean ====
/-
  Layer 1 of the message passing, the kernel program's buffers against the reference's named stages. Region 5 leaves
  the reference's messages of layer 1 in its result buffer, given that the two projections and the encoded edges it
  reads are the reference's. Region 6 then leaves the reference's node features entering layer 2 and their two
  projections, given those messages and the features entering layer 1.
-/
import proofs.«152161_j29669634081217_2_alg».proof.Proof.KI.Stage5
import proofs.«152161_j29669634081217_2_alg».proof.Proof.KI.Reads2
import proofs.«152161_j29669634081217_2_alg».proof.Proof.KI.Outs
import proofs.«152161_j29669634081217_2_alg».proof.Proof.Bridge.Args
import proofs.«152161_j29669634081217_2_alg».proof.Proof.Bridge.LayerCommon
import proofs.«152161_j29669634081217_2_alg».proof.Proof.Bridge.Upd6

-- reading a buffer at a boundary unfolds the table of boundaries, one case per boundary
set_option maxRecDepth 16384

noncomputable section

namespace Cert.Bridge

open Idealize.ShloMosaic Idealize.ShloMosaic.TcCoe Idealize.SL.Sem Idealize.ShloMosaic.ValueIdx
open Cert.KernelIdeal Cert.KernelIdeal.Gen
open Cert.KernelIdeal.Hand (W10 W4 W12 W14 outs VW12 VW14 en5 en6 Ex5_out7 Ex6_out9 Ex6_out10 Ex6_out11 stage5_7
  in5_0 in5_1 in5_2 in5_3 in5_4 in5_5 in5_6 in6_0 in6_1 in6_2 in6_3 in6_4 in6_5 in6_6 in6_7 in6_8
  upd6H upd6Agg upd6Wnh upd6Wna upd6B1 upd6Wn2 upd6B2 upd6Ws upd6Wd)
open Cert.ReferenceIdeal.Hand (Args e0S hS aS bS mS aggS asrcS bdstS wmN wvN)

variable (m : (ℓ : Loc nD τ sig) → Buf (Elt Ideal) ℓ) (c : Dev nD)

/-! ## Region 5: the messages -/

/-- Region 5's result buffer holds the reference's messages of layer 1.
    Its seven inputs, one by one: the encoded edges are the buffer region 1 left; the two gathered projections are
    gathers of the second and third buffers region 4 left, along the edge list's two rows, which is how the reference gathers them; the
    two weight matrices and the two bias rows are layer 1's slabs of the stacked arguments. -/
theorem bm1 (ha : W10 m c main_v67_1 = aS (argsOf m c) 1) (hb : W10 m c main_v67_2 = bS (argsOf m c) 1)
    (he : W4 m c main_v17 = e0S (argsOf m c)) :
    W12 m c main_v92 = mS (argsOf m c) 1 := by
  rw [← VW12]
  refine (Ex5_out7 m c).trans ?_
  refine stage5_7 (en5 m) c (e0S (argsOf m c)) (asrcS (argsOf m c) 1) (bdstS (argsOf m c) 1)
    (wmN (argsOf m c).a16 1) (wvN (argsOf m c).a17 1) (wmN (argsOf m c).a18 1) (wvN (argsOf m c).a19 1)
    ?_ ?_ ?_ ?_ ?_ ?_ ?_
  · exact (in5_0 m (outs m) c).trans he
  · refine (in5_1 m (outs m) c).trans ?_
    rw [show outs m 10 main_v67_1 c = W10 m c main_v67_1 from rfl, ha]
    exact gatherSrc_eq m c _
  · refine (in5_2 m (outs m) c).trans ?_
    rw [show outs m 10 main_v67_2 c = W10 m c main_v67_2 from rfl, hb]
    exact gatherDst_eq m c _
  · exact (in5_3 m (outs m) c).trans (sliceMat_eq _ 1 _ _)
  · exact fun j => (congrFun (in5_4 m (outs m) c) (ix2 (0 : Fin 1) j)).trans (sliceRow_at _ 1 _ _ j)
  · exact (in5_5 m (outs m) c).trans (sliceMat_eq _ 1 _ _)
  · exact fun j => (congrFun (in5_6 m (outs m) c) (ix2 (0 : Fin 1) j)).trans (sliceRow_at _ 1 _ _ j)

/-! ## Region 6: the node update

Its nine inputs: the features entering the layer are the first buffer region 4 left; the aggregated messages are the
scatter-add of region 5's result at the receivers, into zeros, which is how the reference aggregates; the rest are
slabs of the stacked arguments, layer 1's for the update and layer 2's for the two projections. -/

theorem l1_H (hh : W10 m c main_v67_0 = hS (argsOf m c) 1) : upd6H (en6 m) c = hS (argsOf m c) 1 :=
  (in6_0 m (outs m) c).trans hh

theorem l1_Agg (hm : W12 m c main_v92 = mS (argsOf m c) 1) : upd6Agg (en6 m) c = aggS (argsOf m c) 1 := by
  refine (in6_1 m (outs m) c).trans ?_
  rw [show outs m 12 main_v92 c = W12 m c main_v92 from rfl, hm]
  exact scatter_eq m c _

theorem l1_Wnh : upd6Wnh (en6 m) c = wmN (argsOf m c).a20 1 := (in6_2 m (outs m) c).trans (sliceMat_eq _ 1 _ _)
theorem l1_Wna : upd6Wna (en6 m) c = wmN (argsOf m c).a21 1 := (in6_3 m (outs m) c).trans (sliceMat_eq _ 1 _ _)
theorem l1_B1 (j : Fin 128) : upd6B1 (en6 m) c (ix2 (0 : Fin 1) j) = wvN (argsOf m c).a22 1 (ix1 j) :=
  (congrFun (in6_4 m (outs m) c) (ix2 (0 : Fin 1) j)).trans (sliceRow_at _ 1 _ _ j)
theorem l1_Wn2 : upd6Wn2 (en6 m) c = wmN (argsOf m c).a23 1 := (in6_5 m (outs m) c).trans (sliceMat_eq _ 1 _ _)
theorem l1_B2 (j : Fin 128) : upd6B2 (en6 m) c (ix2 (0 : Fin 1) j) = wvN (argsOf m c).a24 1 (ix1 j) :=
  (congrFun (in6_6 m (outs m) c) (ix2 (0 : Fin 1) j)).trans (sliceRow_at _ 1 _ _ j)
theorem l1_Ws : upd6Ws (en6 m) c = wmN (argsOf m c).a14 2 := (in6_7 m (outs m) c).trans (sliceMat_eq _ 2 _ _)
theorem l1_Wd : upd6Wd (en6 m) c = wmN (argsOf m c).a15 2 := (in6_8 m (outs m) c).trans (sliceMat_eq _ 2 _ _)

/-- Region 6's first result buffer holds the reference's node features entering layer 2. -/
theorem bh1 (hm : W12 m c main_v92 = mS (argsOf m c) 1) (hh : W10 m c main_v67_0 = hS (argsOf m c) 1) :
    W14 m c main_v112_0 = hS (argsOf m c) 2 := by
  rw [← VW14]
  refine (Ex6_out9 m c).trans ?_
  exact upd6_new (en6 m) c (hS (argsOf m c) 1) (aggS (argsOf m c) 1) (wmN (argsOf m c).a20 1) (wmN (argsOf m c).a21 1)
    (wvN (argsOf m c).a22 1) (wmN (argsOf m c).a23 1) (wvN (argsOf m c).a24 1)
    (l1_H m c hh) (l1_Agg m c hm) (l1_Wnh m c) (l1_Wna m c) (l1_B1 m c) (l1_Wn2 m c) (l1_B2 m c)

/-- Its second holds their projection by layer 2's source-side matrix. -/
theorem ba1 (hm : W12 m c main_v92 = mS (argsOf m c) 1) (hh : W10 m c main_v67_0 = hS (argsOf m c) 1) :
    W14 m c main_v112_1 = aS (argsOf m c) 2 := by
  rw [← VW14]
  refine (Ex6_out10 m c).trans ?_
  exact upd6_projS (en6 m) c (hS (argsOf m c) 1) (aggS (argsOf m c) 1) (wmN (argsOf m c).a20 1) (wmN (argsOf m c).a21 1)
    (wvN (argsOf m c).a22 1) (wmN (argsOf m c).a23 1) (wvN (argsOf m c).a24 1) (wmN (argsOf m c).a14 2)
    (l1_H m c hh) (l1_Agg m c hm) (l1_Wnh m c) (l1_Wna m c) (l1_B1 m c) (l1_Wn2 m c) (l1_B2 m c) (l1_Ws m c)

/-- Its third holds their projection by layer 2's destination-side matrix. -/
theorem bb1 (hm : W12 m c main_v92 = mS (argsOf m c) 1) (hh : W10 m c main_v67_0 = hS (argsOf m c) 1) :
    W14 m c main_v112_2 = bS (argsOf m c) 2 := by
  rw [← VW14]
  refine (Ex6_out11 m c).trans ?_
  exact upd6_projD (en6 m) c (hS (argsOf m c) 1) (aggS (argsOf m c) 1) (wmN (argsOf m c).a20 1) (wmN (argsOf m c).a21 1)
    (wvN (argsOf m c).a22 1) (wmN (argsOf m c).a23 1) (wvN (argsOf m c).a24 1) (wmN (argsOf m c).a15 2)
    (l1_H m c hh) (l1_Agg m c hm) (l1_Wnh m c) (l1_Wna m c) (l1_B1 m c) (l1_Wn2 m c) (l1_B2 m c) (l1_Wd m c)

end Cert.Bridge

end
-- ==== Proof.KI.Val7.lean ====
/-
  Region 7 of @main, the value half at the ideal values: after the region's 20 points the result array holds, row by
  row, the specification's message formula of the region's seven input arrays as the region finds them. Point t
  computes rows 8000 t .. 8000 t + 7999 from the same rows of the three edge arrays and the whole weight arrays.
-/
import proofs.«152161_j29669634081217_2_alg».proof.Proof.KI.Reg7
import proofs.«152161_j29669634081217_2_alg».proof.Proof.KI.MsgCommon
import proofs.«152161_j29669634081217_2_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 65536

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

-- the TensorCore's buffer contents when the region is entered, at the ideal values
variable (V : (c : Dev nD) → (b : Ref sig .tc) → Buf (Elt Ideal) ((c : Thread nD τ).loc b))

/-! ## The region's arrays as the region finds them, at their literal shapes -/

/-- The edge features. -/
noncomputable abbrev arr7_0 (c : Dev nD) : S160000x128.Idx → EReal := V c (Pipeline.arrRef spec7 0)
/-- The source nodes' term, gathered along the edges. -/
noncomputable abbrev arr7_1 (c : Dev nD) : S160000x128.Idx → EReal := V c (Pipeline.arrRef spec7 1)
/-- The destination nodes' term, gathered along the edges. -/
noncomputable abbrev arr7_2 (c : Dev nD) : S160000x128.Idx → EReal := V c (Pipeline.arrRef spec7 2)
/-- The first layer's weight on the edge features. -/
noncomputable abbrev arr7_3 (c : Dev nD) : S128x128.Idx → EReal := V c (Pipeline.arrRef spec7 3)
/-- The first layer's bias, as one row. -/
noncomputable abbrev arr7_4 (c : Dev nD) : S1x128.Idx → EReal := V c (Pipeline.arrRef spec7 4)
/-- The second layer's weight. -/
noncomputable abbrev arr7_5 (c : Dev nD) : S128x128.Idx → EReal := V c (Pipeline.arrRef spec7 5)
/-- The second layer's bias, as one row. -/
noncomputable abbrev arr7_6 (c : Dev nD) : S1x128.Idx → EReal := V c (Pipeline.arrRef spec7 6)

/-- The message of edge r, column q: the specification's row formula on row r of the three edge arrays. -/
noncomputable def G7_row (c : Dev nD) (r : Fin 160000) (q : Fin 128) : EReal :=
  Cert.Spec.msg (Cert.Spec.row (arr7_0 V c) r) (Cert.Spec.row (arr7_1 V c) r) (Cert.Spec.row (arr7_2 V c) r)
    (Cert.Spec.m2 (arr7_3 V c)) (fun j => arr7_4 V c (ix2 (0 : Fin 1) j)) (Cert.Spec.m2 (arr7_5 V c))
    (fun j => arr7_6 V c (ix2 (0 : Fin 1) j)) q

/-- The whole result array as one function of the input arrays. -/
noncomputable def G7 (c : Dev nD) : S160000x128.Idx → EReal := fun i => G7_row V c (i 0) (i 1)

/-! ## The payload -/

/-- The body's payload is the message kernels' shared block arithmetic. -/
theorem pay7_eq (v0 : Vec Ideal S8000x128 .bf16) (v2 : Vec Ideal S128x128 .f32) (v6 v9 : Vec Ideal S8000x128 .bf16)
    (v14 : Vec Ideal S1x128 .f32) (v21 : Vec Ideal S128x128 .f32) (v25 : Vec Ideal S1x128 .f32) :
    k7_pay1 v0 v2 v6 v9 v14 v21 v25 = msgTerm v0 v6 v9 v2 v14 v21 v25 := rfl

/-! ## Where point t's blocks sit in their arrays -/

theorem hz7 : (![0, 0] : Fin 2 → Nat) = fun _ => 0 := funext fun a => by fin_cases a <;> rfl

/-- The printed index maps, decided over the 20 points: the three edge windows and the result window take block t of
    the rows at point t, the four weight windows their one block. -/
theorem idx7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0
    ∧ win7_7.index t (0 : Fin 2) = t.val ∧ win7_7.index t (1 : Fin 2) = 0 :=
  (by decide +kernel : ∀ t : Fin grid7.N, _)

/-- Row p of point t's block is row 8000 t + p of the array. -/
noncomputable def rows7 (t : Fin cfg7.N) (p : Fin 8000) : Fin 160000 :=
  ⟨t.val * 8000 + p.val, by have h : t.val < 20 := Nat.lt_of_lt_of_eq t.isLt N_7; have := p.isLt; omega⟩

theorem emb7_0 (t : Fin cfg7.N) (p : Fin 8000) (k : Fin 128) :
    ((cfg7.win 0).blk t).view.emb (ix2 p k) = ix2 (rows7 t p) k := by
  obtain ⟨a0, a1, b0, b1, c0, c1, d0, d1, e0, e1, f0, f1, g0, g1, h0, h1⟩ := idx7 t
  funext a; apply Fin.ext
  match a with
  | ⟨0, _⟩ => show win7_0.index t (0 : Fin 2) * 8000 + 1 * p.val = t.val * 8000 + p.val; omega
  | ⟨1, _⟩ => show win7_0.index t (1 : Fin 2) * 128 + 1 * k.val = k.val; omega

theorem emb7_1 (t : Fin cfg7.N) (p : Fin 8000) (k : Fin 128) :
    ((cfg7.win 1).blk t).view.emb (ix2 p k) = ix2 (rows7 t p) k := by
  obtain ⟨a0, a1, b0, b1, c0, c1, d0, d1, e0, e1, f0, f1, g0, g1, h0, h1⟩ := idx7 t
  funext a; apply Fin.ext
  match a with
  | ⟨0, _⟩ => show win7_1.index t (0 : Fin 2) * 8000 + 1 * p.val = t.val * 8000 + p.val; omega
  | ⟨1, _⟩ => show win7_1.index t (1 : Fin 2) * 128 + 1 * k.val = k.val; omega

theorem emb7_2 (t : Fin cfg7.N) (p : Fin 8000) (k : Fin 128) :
    ((cfg7.win 2).blk t).view.emb (ix2 p k) = ix2 (rows7 t p) k := by
  obtain ⟨a0, a1, b0, b1, c0, c1, d0, d1, e0, e1, f0, f1, g0, g1, h0, h1⟩ := idx7 t
  funext a; apply Fin.ext
  match a with
  | ⟨0, _⟩ => show win7_2.index t (0 : Fin 2) * 8000 + 1 * p.val = t.val * 8000 + p.val; omega
  | ⟨1, _⟩ => show win7_2.index t (1 : Fin 2) * 128 + 1 * k.val = k.val; omega

theorem emb7_3 (t : Fin cfg7.N) (i : Fin 128) (j : Fin 128) :
    ((cfg7.win 3).blk t).view.emb (ix2 i j) = ix2 i j := by
  obtain ⟨a0, a1, b0, b1, c0, c1, d0, d1, e0, e1, f0, f1, g0, g1, h0, h1⟩ := idx7 t
  funext a; apply Fin.ext
  match a with
  | ⟨0, _⟩ => show win7_3.index t (0 : Fin 2) * 128 + 1 * i.val = i.val; omega
  | ⟨1, _⟩ => show win7_3.index t (1 : Fin 2) * 128 + 1 * j.val = j.val; omega

theorem emb7_4 (t : Fin cfg7.N) (i : Fin 1) (j : Fin 128) :
    ((cfg7.win 4).blk t).view.emb (ix2 i j) = ix2 i j := by
  obtain ⟨a0, a1, b0, b1, c0, c1, d0, d1, e0, e1, f0, f1, g0, g1, h0, h1⟩ := idx7 t
  funext a; apply Fin.ext
  match a with
  | ⟨0, _⟩ => show win7_4.index t (0 : Fin 2) * 1 + 1 * i.val = i.val; omega
  | ⟨1, _⟩ => show win7_4.index t (1 : Fin 2) * 128 + 1 * j.val = j.val; omega

theorem emb7_5 (t : Fin cfg7.N) (i : Fin 128) (j : Fin 128) :
    ((cfg7.win 5).blk t).view.emb (ix2 i j) = ix2 i j := by
  obtain ⟨a0, a1, b0, b1, c0, c1, d0, d1, e0, e1, f0, f1, g0, g1, h0, h1⟩ := idx7 t
  funext a; apply Fin.ext
  match a with
  | ⟨0, _⟩ => show win7_5.index t (0 : Fin 2) * 128 + 1 * i.val = i.val; omega
  | ⟨1, _⟩ => show win7_5.index t (1 : Fin 2) * 128 + 1 * j.val = j.val; omega

theorem emb7_6 (t : Fin cfg7.N) (i : Fin 1) (j : Fin 128) :
    ((cfg7.win 6).blk t).view.emb (ix2 i j) = ix2 i j := by
  obtain ⟨a0, a1, b0, b1, c0, c1, d0, d1, e0, e1, f0, f1, g0, g1, h0, h1⟩ := idx7 t
  funext a; apply Fin.ext
  match a with
  | ⟨0, _⟩ => show win7_6.index t (0 : Fin 2) * 1 + 1 * i.val = i.val; omega
  | ⟨1, _⟩ => show win7_6.index t (1 : Fin 2) * 128 + 1 * j.val = j.val; omega

theorem emb7_7 (t : Fin cfg7.N) (p : Fin 8000) (q : Fin 128) :
    ((cfg7.win 7).blk t).view.emb (ix2 p q) = ix2 (rows7 t p) q := by
  obtain ⟨a0, a1, b0, b1, c0, c1, d0, d1, e0, e1, f0, f1, g0, g1, h0, h1⟩ := idx7 t
  funext a; apply Fin.ext
  match a with
  | ⟨0, _⟩ => show win7_7.index t (0 : Fin 2) * 8000 + 1 * p.val = t.val * 8000 + p.val; omega
  | ⟨1, _⟩ => show win7_7.index t (1 : Fin 2) * 128 + 1 * q.val = q.val; omega

/-! ## Each input block, read at an index, is its array where the block sits -/

theorem iblk7_0_apply (c : Dev nD) (t : Fin cfg7.N) (p : Fin 8000) (k : Fin 128) :
    iblk7 V c 0 t (ix2 p k) = arr7_0 V c (ix2 (rows7 t p) k) := by
  show V c (Pipeline.arrRef spec7 0) (((cfg7.win 0).blk t).view.emb (ix2 p k)) = _
  rw [emb7_0]
theorem iblk7_1_apply (c : Dev nD) (t : Fin cfg7.N) (p : Fin 8000) (k : Fin 128) :
    iblk7 V c 1 t (ix2 p k) = arr7_1 V c (ix2 (rows7 t p) k) := by
  show V c (Pipeline.arrRef spec7 1) (((cfg7.win 1).blk t).view.emb (ix2 p k)) = _
  rw [emb7_1]
theorem iblk7_2_apply (c : Dev nD) (t : Fin cfg7.N) (p : Fin 8000) (k : Fin 128) :
    iblk7 V c 2 t (ix2 p k) = arr7_2 V c (ix2 (rows7 t p) k) := by
  show V c (Pipeline.arrRef spec7 2) (((cfg7.win 2).blk t).view.emb (ix2 p k)) = _
  rw [emb7_2]
theorem iblk7_3_apply (c : Dev nD) (t : Fin cfg7.N) (i j : Fin 128) :
    iblk7 V c 3 t (ix2 i j) = arr7_3 V c (ix2 i j) := by
  show V c (Pipeline.arrRef spec7 3) (((cfg7.win 3).blk t).view.emb (ix2 i j)) = _
  rw [emb7_3]
theorem iblk7_4_apply (c : Dev nD) (t : Fin cfg7.N) (i : Fin 1) (j : Fin 128) :
    iblk7 V c 4 t (ix2 i j) = arr7_4 V c (ix2 i j) := by
  show V c (Pipeline.arrRef spec7 4) (((cfg7.win 4).blk t).view.emb (ix2 i j)) = _
  rw [emb7_4]
theorem iblk7_5_apply (c : Dev nD) (t : Fin cfg7.N) (i j : Fin 128) :
    iblk7 V c 5 t (ix2 i j) = arr7_5 V c (ix2 i j) := by
  show V c (Pipeline.arrRef spec7 5) (((cfg7.win 5).blk t).view.emb (ix2 i j)) = _
  rw [emb7_5]
theorem iblk7_6_apply (c : Dev nD) (t : Fin cfg7.N) (i : Fin 1) (j : Fin 128) :
    iblk7 V c 6 t (ix2 i j) = arr7_6 V c (ix2 i j) := by
  show V c (Pipeline.arrRef spec7 6) (((cfg7.win 6).blk t).view.emb (ix2 i j)) = _
  rw [emb7_6]

/-! ## What a point writes back -/

/-- What point t writes back to the result array is block t of G7: the store's payload at (p, q) is the message
    formula on row p of the edge blocks, which are rows 8000 t + p of the edge arrays. -/
theorem flushed7_7_eq (c : Dev nD) (t : Fin cfg7.N) :
    (dat7 V c).flushed 7 t = ((cfg7.win 7).blk t).view.read (Elt Ideal) (G7 V c) := by
  show (cfg7.win 7).cut (grid7.coords t) ((dat7 V c).after 7 t) = _
  rw [after7_7]
  unfold out7_7
  rw [View.canon_unit_zero hz7]
  simp only [View.ld_unit_zero (S := S8000x128) hz7, View.ld_unit_zero (S := S128x128) hz7, View.ld_unit_zero (S := S1x128) hz7]
  rw [pay7_eq]
  funext j
  obtain ⟨p, q, rfl⟩ : ∃ (p : Fin 8000) (q : Fin 128), j = ix2 p q := ⟨j 0, j 1, eq_ix2 j⟩
  show msgTerm (iblk7 V c 0 t) (iblk7 V c 1 t) (iblk7 V c 2 t) (iblk7 V c 3 t) (iblk7 V c 4 t) (iblk7 V c 5 t) (iblk7 V c 6 t) (ix2 p q)
    = G7 V c (((cfg7.win 7).blk t).view.emb (ix2 p q))
  rw [msgTerm_apply, emb7_7]
  simp only [iblk7_0_apply, iblk7_1_apply, iblk7_2_apply, iblk7_3_apply, iblk7_4_apply, iblk7_5_apply, iblk7_6_apply]
  rfl

/-! ## The result's blocks cover its array -/

/-- An index of the array is in point t's block iff each coordinate is in the block's range on its axis. -/
theorem mem_blk7 (t : Fin cfg7.N) (i : S160000x128.Idx) :
    i ∈ ((cfg7.win 7).blk t).view.set ↔ ∀ a : Fin 2, win7_7.index t a * S8000x128.size a ≤ (i a).val
      ∧ (i a).val < win7_7.index t a * S8000x128.size a + S8000x128.size a := by
  show i ∈ ((View.whole (Pipeline.arrRef spec7 7)).slice (win7_7.rect t)).set ↔ _
  rw [View.set_slice_whole, Rect.mem_set_unit]
  exact Iff.rfl

/-- Row r of the array is in the block of point r / 8000. -/
theorem covered7 (i : S160000x128.Idx) :
    ∃ t : Fin cfg7.N, (cfg7.win 7).flush t = true ∧ i ∈ ((cfg7.win 7).blk t).view.set := by
  have hi0 : (i 0).val < 160000 := (i 0).isLt
  have hi1 : (i 1).val < 128 := (i 1).isLt
  have hN : (i 0).val / 8000 < cfg7.N := by show _ < grid7.N; rw [N_7]; omega
  obtain ⟨a0, a1, b0, b1, c0, c1, d0, d1, e0, e1, f0, f1, g0, g1, h0, h1⟩ := idx7 ⟨(i 0).val / 8000, hN⟩
  have h0' : win7_7.index ⟨(i 0).val / 8000, hN⟩ (0 : Fin 2) = (i 0).val / 8000 := h0
  refine ⟨⟨(i 0).val / 8000, hN⟩, flush7_7 _, ?_⟩
  rw [mem_blk7]
  intro a
  match a with
  | ⟨0, _⟩ =>
    show win7_7.index ⟨(i 0).val / 8000, hN⟩ (0 : Fin 2) * 8000 ≤ (i 0).val
      ∧ (i 0).val < win7_7.index ⟨(i 0).val / 8000, hN⟩ (0 : Fin 2) * 8000 + 8000
    omega
  | ⟨1, _⟩ =>
    show win7_7.index ⟨(i 0).val / 8000, hN⟩ (1 : Fin 2) * 128 ≤ (i 1).val
      ∧ (i 1).val < win7_7.index ⟨(i 0).val / 8000, hN⟩ (1 : Fin 2) * 128 + 128
    omega

/-! ## The result array after the region -/

/-- The array after the region's 20 points is G7 of the region-entry arrays. -/
theorem final7_7_eq (c : Dev nD) : (dat7 (F := Ideal) V c).arrAt 7 cfg7.N = G7 V c :=
  (dat7 V c).arrAt_eq_of_cover 7 (G7 V c) (fun t _ => flushed7_7_eq V c t) covered7

/-- Entry (p, q) of the result array after the region: the message of edge p, column q. -/
theorem final7_7 (c : Dev nD) (p : Fin 160000) (q : Fin 128) :
    (dat7 (F := Ideal) V c).arrAt 7 cfg7.N (ix2 p q)
      = Cert.Spec.msg (Cert.Spec.row (arr7_0 V c) p) (Cert.Spec.row (arr7_1 V c) p) (Cert.Spec.row (arr7_2 V c) p)
          (Cert.Spec.m2 (arr7_3 V c)) (fun j => arr7_4 V c (ix2 (0 : Fin 1) j)) (Cert.Spec.m2 (arr7_5 V c))
          (fun j => arr7_6 V c (ix2 (0 : Fin 1) j)) q := by
  rw [final7_7_eq]
  rfl

end Cert.KernelIdeal.Hand

end
-- ==== Proof.KI.Stage7.lean ====
/-
  Region 7 of @main against the reference's messages of one layer, as arrays: whatever fills the region's seven
  input arrays, if they are the reference's inputs (the three edge arrays and the two weights the same arrays; each
  bias, which the kernel takes as one row and the reference as a vector, entry by entry), then the result array after
  the region is the reference's message array of those inputs.
-/
import proofs.«152161_j29669634081217_2_alg».proof.Proof.KI.Val7
import proofs.«152161_j29669634081217_2_alg».proof.Proof.Ref.StageMsg

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable [Cert.ReferenceIdeal.Facts₀]

-- the TensorCore's buffer contents when the region is entered, at the ideal values
variable (V : (c : Dev nD) → (b : Ref sig .tc) → Buf (Elt Ideal) ((c : Thread nD τ).loc b))

/-- The result array after the region is the reference's message array of the reference-shaped inputs. -/
theorem stage7_7 (c : Dev nD) (E Asrc Bdst : FVec Ideal S160000x128 .f32) (We : FVec Ideal S128x128 .f32)
    (be1 : FVec Ideal S128 .f32) (W2 : FVec Ideal S128x128 .f32) (b2 : FVec Ideal S128 .f32)
    (h0 : arr7_0 V c = E) (h1 : arr7_1 V c = Asrc) (h2 : arr7_2 V c = Bdst) (h3 : arr7_3 V c = We)
    (h4 : ∀ j : Fin 128, arr7_4 V c (ix2 (0 : Fin 1) j) = be1 (ix1 j)) (h5 : arr7_5 V c = W2)
    (h6 : ∀ j : Fin 128, arr7_6 V c (ix2 (0 : Fin 1) j) = b2 (ix1 j)) :
    (dat7 (F := Ideal) V c).arrAt 7 cfg7.N = Cert.ReferenceIdeal.Hand.msgRef E Asrc Bdst We be1 W2 b2 := by
  funext i
  obtain ⟨p, q, rfl⟩ : ∃ (p : Fin 160000) (q : Fin 128), i = ix2 p q := ⟨i 0, i 1, eq_ix2 i⟩
  have e4 : (fun j : Fin 128 => arr7_4 V c (ix2 (0 : Fin 1) j)) = Cert.Spec.v1 be1 := funext h4
  have e6 : (fun j : Fin 128 => arr7_6 V c (ix2 (0 : Fin 1) j)) = Cert.Spec.v1 b2 := funext h6
  refine (final7_7 V c p q).trans ?_
  rw [e4, e6, h0, h1, h2, h3, h5]
  exact (Cert.ReferenceIdeal.Hand.refMsg E Asrc Bdst We be1 W2 b2 p q).symm

end Cert.KernelIdeal.Hand

end
-- ==== Proof.KI.Reads3.lean ====
/- What regions 7 and 8 read: each input window's array, on entry to the region, as a pure term of the launch contents
   and of what the earlier regions left — the host stretch before the region read back operation by operation, its
   operands carried from where they were written. The same road as layer 0 (regions 3 and 4), under this layer's names. -/
import proofs.«152161_j29669634081217_2_alg».proof.Proof.KI.ReadsDefs
import proofs.«152161_j29669634081217_2_alg».proof.Proof.KI.ReadsCarryA
import proofs.«152161_j29669634081217_2_alg».proof.Proof.KI.ReadsCarryB

-- membership of a reference in a stretch's list of written references is decided past the default depth
set_option maxRecDepth 2864
-- the stretch before a region is read back one operation at a time: up to 28 rewriting steps per operand of a window
set_option maxHeartbeats 1000000

noncomputable section

namespace Cert.KernelIdeal.Hand

open Idealize.ShloMosaic Idealize.ShloMosaic.TcCoe
open Idealize.SL.Sem
open Idealize.ShloMosaic.StableHlo
open Cert.KernelIdeal.Gen

variable {F : FTy → Type} [FloatOps F]
variable (m : (ℓ : Loc nD τ sig) → Buf (Elt F) ℓ) (outs : Outs (F := F))

/-! ## Region 7 -/

theorem in7_0 (c : Dev nD) : V15 m outs c main_v17 = outs 4 main_v17 c :=
  at15_v17 m outs c
theorem in7_1 (c : Dev nD) : V15 m outs c main_v119 = Host.gather gather_S20000x128_S160000x1_S160000x128_1_0_n_n_0_1_1128 (outs 14 main_v112_1 c) (srcIdx m c) := by
  show StableHlo.after hostOps7 (V14 m outs c) (Proc.devRef .tc main_v119) = _
  after_results <;> rw [at14_v112_1 m outs c, at14_v1 m outs c, at1_v1 m c] <;> rfl
theorem in7_2 (c : Dev nD) : V15 m outs c main_v126 = Host.gather gather_S20000x128_S160000x1_S160000x128_1_0_n_n_0_1_1128 (outs 14 main_v112_2 c) (dstIdx m c) := by
  show StableHlo.after hostOps7 (V14 m outs c) (Proc.devRef .tc main_v126) = _
  after_results <;> rw [at14_v112_2 m outs c, at14_v3 m outs c, at1_v3 m c] <;> rfl
theorem in7_3 (c : Dev nD) : V15 m outs c main_v128 = sliceMat (m ((c : Thread nD τ).loc main_arg16)) 2 slices_S6x128x128_S1x128x128_2_0_0 := by
  show StableHlo.after hostOps7 (V14 m outs c) (Proc.devRef .tc main_v128) = _
  after_results <;> rw [at14_arg16 m outs c] <;> rfl
theorem in7_4 (c : Dev nD) : V15 m outs c main_v135 = sliceRow (m ((c : Thread nD τ).loc main_arg17)) 2 slices_S6x128_S1x128_2_0 := by
  show StableHlo.after hostOps7 (V14 m outs c) (Proc.devRef .tc main_v135) = _
  after_results <;> rw [at14_arg17 m outs c] <;> rfl
theorem in7_5 (c : Dev nD) : V15 m outs c main_v132 = sliceMat (m ((c : Thread nD τ).loc main_arg18)) 2 slices_S6x128x128_S1x128x128_2_0_0 := by
  show StableHlo.after hostOps7 (V14 m outs c) (Proc.devRef .tc main_v132) = _
  after_results <;> rw [at14_arg18 m outs c] <;> rfl
theorem in7_6 (c : Dev nD) : V15 m outs c main_v136 = sliceRow (m ((c : Thread nD τ).loc main_arg19)) 2 slices_S6x128_S1x128_2_0 := by
  show StableHlo.after hostOps7 (V14 m outs c) (Proc.devRef .tc main_v136) = _
  after_results <;> rw [at14_arg19 m outs c] <;> rfl

/-! ## Region 8 -/

theorem in8_0 (c : Dev nD) : V17 m outs c main_v112_0 = outs 14 main_v112_0 c :=
  at17_v112_0 m outs c
theorem in8_1 (c : Dev nD) : V17 m outs c main_v140 = Host.scatterAdd scatter_S20000x128_S160000x1_S160000x128_1_0_0_1 zeroAcc (dstCol m c) (outs 16 main_v137 c) := by
  show StableHlo.after hostOps8 (V16 m outs c) (Proc.devRef .tc main_v140) = _
  after_results <;> rw [at16_v3 m outs c, at1_v3 m c, at16_v137 m outs c] <;> rfl
theorem in8_2 (c : Dev nD) : V17 m outs c main_v142 = sliceMat (m ((c : Thread nD τ).loc main_arg20)) 2 slices_S6x128x128_S1x128x128_2_0_0 := by
  show StableHlo.after hostOps8 (V16 m outs c) (Proc.devRef .tc main_v142) = _
  after_results <;> rw [at16_arg20 m outs c] <;> rfl
theorem in8_3 (c : Dev nD) : V17 m outs c main_v144 = sliceMat (m ((c : Thread nD τ).loc main_arg21)) 2 slices_S6x128x128_S1x128x128_2_0_0 := by
  show StableHlo.after hostOps8 (V16 m outs c) (Proc.devRef .tc main_v144) = _
  after_results <;> rw [at16_arg21 m outs c] <;> rfl
theorem in8_4 (c : Dev nD) : V17 m outs c main_v155 = sliceRow (m ((c : Thread nD τ).loc main_arg22)) 2 slices_S6x128_S1x128_2_0 := by
  show StableHlo.after hostOps8 (V16 m outs c) (Proc.devRef .tc main_v155) = _
  after_results <;> rw [at16_arg22 m outs c] <;> rfl
theorem in8_5 (c : Dev nD) : V17 m outs c main_v148 = sliceMat (m ((c : Thread nD τ).loc main_arg23)) 2 slices_S6x128x128_S1x128x128_2_0_0 := by
  show StableHlo.after hostOps8 (V16 m outs c) (Proc.devRef .tc main_v148) = _
  after_results <;> rw [at16_arg23 m outs c] <;> rfl
theorem in8_6 (c : Dev nD) : V17 m outs c main_v156 = sliceRow (m ((c : Thread nD τ).loc main_arg24)) 2 slices_S6x128_S1x128_2_0 := by
  show StableHlo.after hostOps8 (V16 m outs c) (Proc.devRef .tc main_v156) = _
  after_results <;> rw [at16_arg24 m outs c] <;> rfl
theorem in8_7 (c : Dev nD) : V17 m outs c main_v152 = sliceMat (m ((c : Thread nD τ).loc main_arg14)) 3 slices_S6x128x128_S1x128x128_3_0_0 := by
  show StableHlo.after hostOps8 (V16 m outs c) (Proc.devRef .tc main_v152) = _
  after_results <;> rw [at16_arg14 m outs c] <;> rfl
theorem in8_8 (c : Dev nD) : V17 m outs c main_v154 = sliceMat (m ((c : Thread nD τ).loc main_arg15)) 3 slices_S6x128x128_S1x128x128_3_0_0 := by
  show StableHlo.after hostOps8 (V16 m outs c) (Proc.devRef .tc main_v154) = _
  after_results <;> rw [at16_arg15 m outs c] <;> rfl

end Cert.KernelIdeal.Hand
-- ==== Proof.KI.Val8.lean ====
/-
  Region 8 of @main, the node-update kernel of the third message-passing layer, over the extended reals: what the three
  result arrays hold when the region ends, as row formulas of the arrays the region finds.

  The body's arithmetic at an index of a block is the update row formula (the conversions to and from half precision
  are the identity over the extended reals, a product into a zero accumulator is the plain sum).  Each grid point writes
  back block t of one function of the whole input arrays; the five blocks of 4000 rows tile the 20000 rows; so each result
  array ends as that function.
-/
import proofs.«152161_j29669634081217_2_alg».proof.Proof.KI.Reg8
import proofs.«152161_j29669634081217_2_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Hand

open BigOperators
open Cert.KernelIdeal Cert.KernelIdeal.Gen
open Idealize.ShloMosaic Idealize.ShloMosaic.TcCoe
open Idealize.ShloMosaic.Pipeline (Dat Cfg Window)

/-! ## The body's arithmetic over the extended reals, at an index of the block -/

/-- In a [4000,128] by [128,128] product the left operand is read at the output's row -/
theorem upd8Lhs_row (i : S4000x128.Idx) (k : dot_S4000x128_S128x128_S4000x128_1_0_0_1_n_n.contr.Idx) :
    (dot_S4000x128_S128x128_S4000x128_1_0_0_1_n_n.lhsIdx i k 0).val = (i 0).val := by
  unfold DotDims.lhsIdx
  rw [dif_neg (show ¬(0 : Fin S4000x128.rank) ∈ dot_S4000x128_S128x128_S4000x128_1_0_0_1_n_n.lhsBatch from List.not_mem_nil),
    dif_pos (show (0 : Fin S4000x128.rank) ∈ dot_S4000x128_S128x128_S4000x128_1_0_0_1_n_n.lhsNonContracting from List.mem_singleton.mpr rfl)]
  rfl

/-- and at the contraction index along its columns; -/
theorem upd8Lhs_col (i : S4000x128.Idx) (k : dot_S4000x128_S128x128_S4000x128_1_0_0_1_n_n.contr.Idx) :
    (dot_S4000x128_S128x128_S4000x128_1_0_0_1_n_n.lhsIdx i k 1).val = (k ⟨0, Nat.one_pos⟩).val :=
  dot_S4000x128_S128x128_S4000x128_1_0_0_1_n_n.lhsIdx_val_of_single rfl i k

/-- the right operand at the contraction index along its rows -/
theorem upd8Rhs_row (i : S4000x128.Idx) (k : dot_S4000x128_S128x128_S4000x128_1_0_0_1_n_n.contr.Idx) :
    (dot_S4000x128_S128x128_S4000x128_1_0_0_1_n_n.rhsIdx i k 0).val = (k ⟨0, Nat.one_pos⟩).val :=
  dot_S4000x128_S128x128_S4000x128_1_0_0_1_n_n.rhsIdx_val_of_single rfl i k

/-- and at the output's column. -/
theorem upd8Rhs_col (i : S4000x128.Idx) (k : dot_S4000x128_S128x128_S4000x128_1_0_0_1_n_n.contr.Idx) :
    (dot_S4000x128_S128x128_S4000x128_1_0_0_1_n_n.rhsIdx i k 1).val = (i 1).val := by
  unfold DotDims.rhsIdx
  rw [dif_neg (show ¬(1 : Fin S128x128.rank) ∈ dot_S4000x128_S128x128_S4000x128_1_0_0_1_n_n.rhsBatch from List.not_mem_nil),
    dif_pos (show (1 : Fin S128x128.rank) ∈ dot_S4000x128_S128x128_S4000x128_1_0_0_1_n_n.rhsNonContracting from List.mem_singleton.mpr rfl)]
  rfl

/-- The matrix unit's product into a zero accumulator, at row p and column q of the block: row p times the matrix,
    with no rounding over the extended reals. -/
theorem upd8Mm_at {φ₁ φ₂ : FTy} (X : FVec Ideal S4000x128 φ₁) (W : FVec Ideal S128x128 φ₂) (p : Fin 4000) (q : Fin 128) :
    matmul dot_S4000x128_S128x128_S4000x128_1_0_0_1_n_n none X W (constant (F := Ideal) S4000x128 .f32 0x00000000#32) (ValueIdx.ix2 p q)
      = ∑ k : Fin 128, X (ValueIdx.ix2 p k) * W (ValueIdx.ix2 k q) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ValueIdx.ix2 p q) ((ValueIdx.contrEquiv1 dot_S4000x128_S128x128_S4000x128_1_0_0_1_n_n 128 rfl rfl).symm k) = ValueIdx.ix2 p k :=
    funext fun a => Fin.ext (by
      match a with
      | ⟨0, _⟩ => exact upd8Lhs_row _ _
      | ⟨1, _⟩ => exact (upd8Lhs_col _ _).trans hk)
  have er : dot_S4000x128_S128x128_S4000x128_1_0_0_1_n_n.rhsIdx (ValueIdx.ix2 p q) ((ValueIdx.contrEquiv1 dot_S4000x128_S128x128_S4000x128_1_0_0_1_n_n 128 rfl rfl).symm k) = ValueIdx.ix2 k q :=
    funext fun a => Fin.ext (by
      match a with
      | ⟨0, _⟩ => exact (upd8Rhs_row _ _).trans hk
      | ⟨1, _⟩ => exact upd8Rhs_col _ _)
  rw [el, er]

/-- A [1,128] bias broadcast down the block's rows reads its entry q at every row. -/
theorem upd8Bias_at (b : Vec Ideal S1x128 .f32) (p : Fin 4000) (q : Fin 128) :
    broadcastTo S4000x128 b broadcasts_S1x128_S4000x128 (ValueIdx.ix2 p q) = b (ValueIdx.ix2 0 q) :=
  broadcastTo_apply b _ _ (ValueIdx.ix2 0 q) (fun a => by
    match a with
    | ⟨0, _⟩ => rfl
    | ⟨1, _⟩ => rfl)

/-- The stored features: the update row formula of rows p of the two loaded blocks. -/
theorem upd8Pay3_at (h : Vec Ideal S4000x128 .f32) (wh : Vec Ideal S128x128 .f32) (g : Vec Ideal S4000x128 .f32)
    (wa : Vec Ideal S128x128 .f32) (b1 : Vec Ideal S1x128 .f32) (w2 : Vec Ideal S128x128 .f32) (b2 : Vec Ideal S1x128 .f32)
    (p : Fin 4000) (q : Fin 128) :
    k8_pay3 h wh g wa b1 w2 b2 (ValueIdx.ix2 p q)
      = Cert.Spec.upd (Cert.Spec.row h p) (Cert.Spec.row g p) (Cert.Spec.m2 wh) (Cert.Spec.m2 wa)
          (fun j => b1 (ValueIdx.ix2 0 j)) (Cert.Spec.m2 w2) (fun j => b2 (ValueIdx.ix2 0 j)) q := by
  unfold k8_pay3
  simp only [shapeCast_self]
  rw [ValueIdx.addf_apply, ValueIdx.addf_apply, upd8Mm_at, upd8Bias_at]
  simp only [ValueIdx.truncf_apply, ValueIdx.maximumf_apply, ValueIdx.addf_apply, upd8Mm_at, upd8Bias_at,
    ValueIdx.broadcast_apply]
  unfold Cert.Spec.upd Cert.Spec.aff Cert.Spec.lin Cert.Spec.relu
  refine congrArg (fun z => h (ValueIdx.ix2 p q) + (z + b2 (ValueIdx.ix2 0 q))) ?_
  refine Finset.sum_congr rfl fun k _ => ?_
  have hz : FloatOps.ofBits (F := Ideal) FTy.f32 0x00000000#32 = (0 : EReal) := Ideal.ofBits_zero_f32
  rw [upd8Bias_at, hz]

/-- The half-precision copy handed on to the two projections is the same function over the extended reals. -/
theorem upd8Pay4_at (h : Vec Ideal S4000x128 .f32) (wh : Vec Ideal S128x128 .f32) (g : Vec Ideal S4000x128 .f32)
    (wa : Vec Ideal S128x128 .f32) (b1 : Vec Ideal S1x128 .f32) (w2 : Vec Ideal S128x128 .f32) (b2 : Vec Ideal S1x128 .f32)
    (i : S4000x128.Idx) : k8_pay4 h wh g wa b1 w2 b2 i = k8_pay3 h wh g wa b1 w2 b2 i := rfl

/-- The projection by the source-side matrix: the stored features' row times the matrix. -/
theorem upd8Pay1_at (y : FVec Ideal S4000x128 .bf16) (ws : Vec Ideal S128x128 .f32) (p : Fin 4000) (q : Fin 128) :
    k8_pay1 y (k8_pay5 ws) (ValueIdx.ix2 p q) = Cert.Spec.lin (fun k => y (ValueIdx.ix2 p k)) (Cert.Spec.m2 ws) q := by
  unfold k8_pay1 k8_pay5
  simp only [shapeCast_self]
  rw [ValueIdx.truncf_apply, upd8Mm_at]
  rfl

/-- The projection by the destination-side matrix, likewise. -/
theorem upd8Pay2_at (y : FVec Ideal S4000x128 .bf16) (wd : Vec Ideal S128x128 .f32) (p : Fin 4000) (q : Fin 128) :
    k8_pay2 y wd (ValueIdx.ix2 p q) = Cert.Spec.lin (fun k => y (ValueIdx.ix2 p k)) (Cert.Spec.m2 wd) q := by
  unfold k8_pay2
  simp only [shapeCast_self]
  rw [ValueIdx.truncf_apply, upd8Mm_at]
  rfl

/-! ## From blocks to the arrays -/

variable (V : (c : Dev nD) → (b : Ref sig .tc) → Buf (Elt Ideal) ((c : Thread nD τ).loc b))

/-- Every access of the body starts at the origin of its buffer. -/
theorem upd8_origin : (![0, 0] : Fin 2 → Nat) = fun _ => 0 := funext fun a => by fin_cases a <;> rfl

/-- The new features as one function of the whole input arrays: at row r, column j, the update row formula of rows r
    of the features and of the aggregated messages. -/
noncomputable def upd8New (H Agg : S20000x128.Idx → EReal) (Wnh Wna : S128x128.Idx → EReal) (B1 : S1x128.Idx → EReal)
    (Wn2 : S128x128.Idx → EReal) (B2 : S1x128.Idx → EReal) : S20000x128.Idx → EReal := fun i =>
  Cert.Spec.upd (Cert.Spec.row H (i 0)) (Cert.Spec.row Agg (i 0)) (Cert.Spec.m2 Wnh) (Cert.Spec.m2 Wna)
    (fun j => B1 (ValueIdx.ix2 0 j)) (Cert.Spec.m2 Wn2) (fun j => B2 (ValueIdx.ix2 0 j)) (i 1)

/-- A projection of the new features as one function of the whole input arrays. -/
noncomputable def upd8Proj (H Agg : S20000x128.Idx → EReal) (Wnh Wna : S128x128.Idx → EReal) (B1 : S1x128.Idx → EReal)
    (Wn2 : S128x128.Idx → EReal) (B2 : S1x128.Idx → EReal) (W : S128x128.Idx → EReal) : S20000x128.Idx → EReal := fun i =>
  Cert.Spec.lin (Cert.Spec.upd (Cert.Spec.row H (i 0)) (Cert.Spec.row Agg (i 0)) (Cert.Spec.m2 Wnh) (Cert.Spec.m2 Wna)
    (fun j => B1 (ValueIdx.ix2 0 j)) (Cert.Spec.m2 Wn2) (fun j => B2 (ValueIdx.ix2 0 j))) (Cert.Spec.m2 W) (i 1)

/-- The printed index maps, decided over the five grid points: the two row-blocked inputs and the three results are at
    block row t, column block 0; the seven weight arrays are always at block (0, 0). -/
theorem upd8_index : ∀ t : Fin cfg8.N,
    (win8_0.index t (0 : Fin 2) = t.val ∧ win8_0.index t (1 : Fin 2) = 0)
    ∧ (win8_1.index t (0 : Fin 2) = t.val ∧ win8_1.index t (1 : Fin 2) = 0)
    ∧ (win8_2.index t (0 : Fin 2) = 0 ∧ win8_2.index t (1 : Fin 2) = 0)
    ∧ (win8_3.index t (0 : Fin 2) = 0 ∧ win8_3.index t (1 : Fin 2) = 0)
    ∧ (win8_4.index t (0 : Fin 2) = 0 ∧ win8_4.index t (1 : Fin 2) = 0)
    ∧ (win8_5.index t (0 : Fin 2) = 0 ∧ win8_5.index t (1 : Fin 2) = 0)
    ∧ (win8_6.index t (0 : Fin 2) = 0 ∧ win8_6.index t (1 : Fin 2) = 0)
    ∧ (win8_7.index t (0 : Fin 2) = 0 ∧ win8_7.index t (1 : Fin 2) = 0)
    ∧ (win8_8.index t (0 : Fin 2) = 0 ∧ win8_8.index t (1 : Fin 2) = 0)
    ∧ (win8_9.index t (0 : Fin 2) = t.val ∧ win8_9.index t (1 : Fin 2) = 0)
    ∧ (win8_10.index t (0 : Fin 2) = t.val ∧ win8_10.index t (1 : Fin 2) = 0)
    ∧ (win8_11.index t (0 : Fin 2) = t.val ∧ win8_11.index t (1 : Fin 2) = 0) :=
  (by decide +kernel : ∀ t : Fin grid8.N, _)

/-- The grid has five points. -/
theorem upd8_points (t : Fin cfg8.N) : t.val < 5 := by
  have h : t.val < grid8.N := t.isLt
  rw [N_8] at h
  exact h

/-- The row of the whole array that row p of block t is. -/
noncomputable def upd8Row (t : Fin cfg8.N) (p : Fin 4000) : Fin 20000 :=
  ⟨t.val * 4000 + p.val, by have := upd8_points t; have := p.isLt; omega⟩

/-! The arrays the region finds, at their literal shapes. -/
/-- The node features the region finds. -/
noncomputable abbrev upd8H (c : Dev nD) : S20000x128.Idx → EReal := V c (Pipeline.arrRef spec8 0)
/-- The aggregated messages the region finds. -/
noncomputable abbrev upd8Agg (c : Dev nD) : S20000x128.Idx → EReal := V c (Pipeline.arrRef spec8 1)
/-- The update's matrix on the features. -/
noncomputable abbrev upd8Wnh (c : Dev nD) : S128x128.Idx → EReal := V c (Pipeline.arrRef spec8 2)
/-- The update's matrix on the messages. -/
noncomputable abbrev upd8Wna (c : Dev nD) : S128x128.Idx → EReal := V c (Pipeline.arrRef spec8 3)
/-- The update's first bias, a [1,128] row. -/
noncomputable abbrev upd8B1 (c : Dev nD) : S1x128.Idx → EReal := V c (Pipeline.arrRef spec8 4)
/-- The update's second matrix. -/
noncomputable abbrev upd8Wn2 (c : Dev nD) : S128x128.Idx → EReal := V c (Pipeline.arrRef spec8 5)
/-- The update's second bias, a [1,128] row. -/
noncomputable abbrev upd8B2 (c : Dev nD) : S1x128.Idx → EReal := V c (Pipeline.arrRef spec8 6)
/-- The next layer's source-side matrix. -/
noncomputable abbrev upd8Ws (c : Dev nD) : S128x128.Idx → EReal := V c (Pipeline.arrRef spec8 7)
/-- The next layer's destination-side matrix. -/
noncomputable abbrev upd8Wd (c : Dev nD) : S128x128.Idx → EReal := V c (Pipeline.arrRef spec8 8)

/-! ## Each block read where its rectangle says -/

/-- Row p of window 0's block at point t is row `upd8Row t p` of its array. -/
theorem upd8_blk_0 (c : Dev nD) (t : Fin cfg8.N) (p : Fin 4000) (k : Fin 128) :
    iblk8 V c 0 t (ValueIdx.ix2 p k : S4000x128.Idx) = upd8H V c (ValueIdx.ix2 (upd8Row t p) k) := by
  have e := upd8_index t
  show V c (Pipeline.arrRef spec8 0) (((cfg8.win 0).blk t).view.emb (ValueIdx.ix2 p k : S4000x128.Idx)) = _
  refine congrArg (V c (Pipeline.arrRef spec8 0)) (funext fun a => Fin.ext ?_)
  match a with
  | ⟨0, _⟩ => show win8_0.index t (0 : Fin 2) * 4000 + 1 * p.val = t.val * 4000 + p.val; omega
  | ⟨1, _⟩ => show win8_0.index t (1 : Fin 2) * 128 + 1 * k.val = k.val; omega

/-- Row p of window 1's block at point t is row `upd8Row t p` of its array. -/
theorem upd8_blk_1 (c : Dev nD) (t : Fin cfg8.N) (p : Fin 4000) (k : Fin 128) :
    iblk8 V c 1 t (ValueIdx.ix2 p k : S4000x128.Idx) = upd8Agg V c (ValueIdx.ix2 (upd8Row t p) k) := by
  have e := upd8_index t
  show V c (Pipeline.arrRef spec8 1) (((cfg8.win 1).blk t).view.emb (ValueIdx.ix2 p k : S4000x128.Idx)) = _
  refine congrArg (V c (Pipeline.arrRef spec8 1)) (funext fun a => Fin.ext ?_)
  match a with
  | ⟨0, _⟩ => show win8_1.index t (0 : Fin 2) * 4000 + 1 * p.val = t.val * 4000 + p.val; omega
  | ⟨1, _⟩ => show win8_1.index t (1 : Fin 2) * 128 + 1 * k.val = k.val; omega

/-- Window 2's block at every point is its whole array. -/
theorem upd8_blk_2 (c : Dev nD) (t : Fin cfg8.N) (i : S128x128.Idx) : iblk8 V c 2 t i = upd8Wnh V c i := by
  have e := upd8_index t
  show V c (Pipeline.arrRef spec8 2) (((cfg8.win 2).blk t).view.emb i) = _
  refine congrArg (V c (Pipeline.arrRef spec8 2)) (funext fun a => Fin.ext ?_)
  match a with
  | ⟨0, _⟩ => show win8_2.index t (0 : Fin 2) * 128 + 1 * (i 0).val = (i 0).val; omega
  | ⟨1, _⟩ => show win8_2.index t (1 : Fin 2) * 128 + 1 * (i 1).val = (i 1).val; omega

/-- Window 3's block at every point is its whole array. -/
theorem upd8_blk_3 (c : Dev nD) (t : Fin cfg8.N) (i : S128x128.Idx) : iblk8 V c 3 t i = upd8Wna V c i := by
  have e := upd8_index t
  show V c (Pipeline.arrRef spec8 3) (((cfg8.win 3).blk t).view.emb i) = _
  refine congrArg (V c (Pipeline.arrRef spec8 3)) (funext fun a => Fin.ext ?_)
  match a with
  | ⟨0, _⟩ => show win8_3.index t (0 : Fin 2) * 128 + 1 * (i 0).val = (i 0).val; omega
  | ⟨1, _⟩ => show win8_3.index t (1 : Fin 2) * 128 + 1 * (i 1).val = (i 1).val; omega

/-- Window 4's block at every point is its whole array. -/
theorem upd8_blk_4 (c : Dev nD) (t : Fin cfg8.N) (i : S1x128.Idx) : iblk8 V c 4 t i = upd8B1 V c i := by
  have e := upd8_index t
  show V c (Pipeline.arrRef spec8 4) (((cfg8.win 4).blk t).view.emb i) = _
  refine congrArg (V c (Pipeline.arrRef spec8 4)) (funext fun a => Fin.ext ?_)
  match a with
  | ⟨0, _⟩ => show win8_4.index t (0 : Fin 2) * 1 + 1 * (i 0).val = (i 0).val; omega
  | ⟨1, _⟩ => show win8_4.index t (1 : Fin 2) * 128 + 1 * (i 1).val = (i 1).val; omega

/-- Window 5's block at every point is its whole array. -/
theorem upd8_blk_5 (c : Dev nD) (t : Fin cfg8.N) (i : S128x128.Idx) : iblk8 V c 5 t i = upd8Wn2 V c i := by
  have e := upd8_index t
  show V c (Pipeline.arrRef spec8 5) (((cfg8.win 5).blk t).view.emb i) = _
  refine congrArg (V c (Pipeline.arrRef spec8 5)) (funext fun a => Fin.ext ?_)
  match a with
  | ⟨0, _⟩ => show win8_5.index t (0 : Fin 2) * 128 + 1 * (i 0).val = (i 0).val; omega
  | ⟨1, _⟩ => show win8_5.index t (1 : Fin 2) * 128 + 1 * (i 1).val = (i 1).val; omega

/-- Window 6's block at every point is its whole array. -/
theorem upd8_blk_6 (c : Dev nD) (t : Fin cfg8.N) (i : S1x128.Idx) : iblk8 V c 6 t i = upd8B2 V c i := by
  have e := upd8_index t
  show V c (Pipeline.arrRef spec8 6) (((cfg8.win 6).blk t).view.emb i) = _
  refine congrArg (V c (Pipeline.arrRef spec8 6)) (funext fun a => Fin.ext ?_)
  match a with
  | ⟨0, _⟩ => show win8_6.index t (0 : Fin 2) * 1 + 1 * (i 0).val = (i 0).val; omega
  | ⟨1, _⟩ => show win8_6.index t (1 : Fin 2) * 128 + 1 * (i 1).val = (i 1).val; omega

/-- Window 7's block at every point is its whole array. -/
theorem upd8_blk_7 (c : Dev nD) (t : Fin cfg8.N) (i : S128x128.Idx) : iblk8 V c 7 t i = upd8Ws V c i := by
  have e := upd8_index t
  show V c (Pipeline.arrRef spec8 7) (((cfg8.win 7).blk t).view.emb i) = _
  refine congrArg (V c (Pipeline.arrRef spec8 7)) (funext fun a => Fin.ext ?_)
  match a with
  | ⟨0, _⟩ => show win8_7.index t (0 : Fin 2) * 128 + 1 * (i 0).val = (i 0).val; omega
  | ⟨1, _⟩ => show win8_7.index t (1 : Fin 2) * 128 + 1 * (i 1).val = (i 1).val; omega

/-- Window 8's block at every point is its whole array. -/
theorem upd8_blk_8 (c : Dev nD) (t : Fin cfg8.N) (i : S128x128.Idx) : iblk8 V c 8 t i = upd8Wd V c i := by
  have e := upd8_index t
  show V c (Pipeline.arrRef spec8 8) (((cfg8.win 8).blk t).view.emb i) = _
  refine congrArg (V c (Pipeline.arrRef spec8 8)) (funext fun a => Fin.ext ?_)
  match a with
  | ⟨0, _⟩ => show win8_8.index t (0 : Fin 2) * 128 + 1 * (i 0).val = (i 0).val; omega
  | ⟨1, _⟩ => show win8_8.index t (1 : Fin 2) * 128 + 1 * (i 1).val = (i 1).val; omega

/-- Index (p, q) of result window 9's block at point t is index (`upd8Row t p`, q) of its array. -/
theorem upd8_emb_9 (t : Fin cfg8.N) (p : Fin 4000) (q : Fin 128) :
    ((cfg8.win 9).blk t).view.emb (ValueIdx.ix2 p q : S4000x128.Idx) = (ValueIdx.ix2 (upd8Row t p) q : S20000x128.Idx) := by
  have e := upd8_index t
  refine funext fun a => Fin.ext ?_
  match a with
  | ⟨0, _⟩ => show win8_9.index t (0 : Fin 2) * 4000 + 1 * p.val = t.val * 4000 + p.val; omega
  | ⟨1, _⟩ => show win8_9.index t (1 : Fin 2) * 128 + 1 * q.val = q.val; omega

/-- Index (p, q) of result window 10's block at point t is index (`upd8Row t p`, q) of its array. -/
theorem upd8_emb_10 (t : Fin cfg8.N) (p : Fin 4000) (q : Fin 128) :
    ((cfg8.win 10).blk t).view.emb (ValueIdx.ix2 p q : S4000x128.Idx) = (ValueIdx.ix2 (upd8Row t p) q : S20000x128.Idx) := by
  have e := upd8_index t
  refine funext fun a => Fin.ext ?_
  match a with
  | ⟨0, _⟩ => show win8_10.index t (0 : Fin 2) * 4000 + 1 * p.val = t.val * 4000 + p.val; omega
  | ⟨1, _⟩ => show win8_10.index t (1 : Fin 2) * 128 + 1 * q.val = q.val; omega

/-- Index (p, q) of result window 11's block at point t is index (`upd8Row t p`, q) of its array. -/
theorem upd8_emb_11 (t : Fin cfg8.N) (p : Fin 4000) (q : Fin 128) :
    ((cfg8.win 11).blk t).view.emb (ValueIdx.ix2 p q : S4000x128.Idx) = (ValueIdx.ix2 (upd8Row t p) q : S20000x128.Idx) := by
  have e := upd8_index t
  refine funext fun a => Fin.ext ?_
  match a with
  | ⟨0, _⟩ => show win8_11.index t (0 : Fin 2) * 4000 + 1 * p.val = t.val * 4000 + p.val; omega
  | ⟨1, _⟩ => show win8_11.index t (1 : Fin 2) * 128 + 1 * q.val = q.val; omega

/-- The update row formula of rows p of the blocks at point t is that of rows `upd8Row t p` of the arrays. -/
theorem upd8_rows (c : Dev nD) (t : Fin cfg8.N) (p : Fin 4000) :
    Cert.Spec.upd (Cert.Spec.row (iblk8 V c 0 t) p) (Cert.Spec.row (iblk8 V c 1 t) p) (Cert.Spec.m2 (iblk8 V c 2 t))
        (Cert.Spec.m2 (iblk8 V c 3 t)) (fun j => iblk8 V c 4 t (ValueIdx.ix2 0 j)) (Cert.Spec.m2 (iblk8 V c 5 t))
        (fun j => iblk8 V c 6 t (ValueIdx.ix2 0 j))
      = Cert.Spec.upd (Cert.Spec.row (upd8H V c) (upd8Row t p)) (Cert.Spec.row (upd8Agg V c) (upd8Row t p))
          (Cert.Spec.m2 (upd8Wnh V c)) (Cert.Spec.m2 (upd8Wna V c)) (fun j => upd8B1 V c (ValueIdx.ix2 0 j))
          (Cert.Spec.m2 (upd8Wn2 V c)) (fun j => upd8B2 V c (ValueIdx.ix2 0 j)) := by
  have h0 : Cert.Spec.row (iblk8 V c 0 t) p = Cert.Spec.row (upd8H V c) (upd8Row t p) := funext fun k => upd8_blk_0 V c t p k
  have h1 : Cert.Spec.row (iblk8 V c 1 t) p = Cert.Spec.row (upd8Agg V c) (upd8Row t p) := funext fun k => upd8_blk_1 V c t p k
  have h2 : Cert.Spec.m2 (iblk8 V c 2 t) = Cert.Spec.m2 (upd8Wnh V c) := funext fun a => funext fun b => upd8_blk_2 V c t _
  have h3 : Cert.Spec.m2 (iblk8 V c 3 t) = Cert.Spec.m2 (upd8Wna V c) := funext fun a => funext fun b => upd8_blk_3 V c t _
  have h4 : (fun j : Fin 128 => iblk8 V c 4 t (ValueIdx.ix2 0 j)) = fun j => upd8B1 V c (ValueIdx.ix2 0 j) := funext fun j => upd8_blk_4 V c t _
  have h5 : Cert.Spec.m2 (iblk8 V c 5 t) = Cert.Spec.m2 (upd8Wn2 V c) := funext fun a => funext fun b => upd8_blk_5 V c t _
  have h6 : (fun j : Fin 128 => iblk8 V c 6 t (ValueIdx.ix2 0 j)) = fun j => upd8B2 V c (ValueIdx.ix2 0 j) := funext fun j => upd8_blk_6 V c t _
  rw [h0, h1, h2, h3, h4, h5, h6]

/-! ## What each point writes back -/

/-- Point t writes back, into the new features, block t of `upd8New` of the arrays the region finds. -/
theorem upd8_flushed_9 (c : Dev nD) (t : Fin cfg8.N) :
    (dat8 V c).flushed 9 t = ((cfg8.win 9).blk t).view.read (Elt Ideal) (upd8New (upd8H V c) (upd8Agg V c) (upd8Wnh V c) (upd8Wna V c) (upd8B1 V c) (upd8Wn2 V c) (upd8B2 V c)) := by
  show (cfg8.win 9).cut (grid8.coords t) ((dat8 V c).after 9 t) = _
  rw [after8_9]
  unfold out8_9
  rw [View.canon_unit_zero upd8_origin]
  simp only [View.ld_unit_zero (S := S4000x128) upd8_origin, View.ld_unit_zero (S := S128x128) upd8_origin,
    View.ld_unit_zero (S := S1x128) upd8_origin]
  funext j
  obtain ⟨p, q, rfl⟩ : ∃ (p : Fin 4000) (q : Fin 128), j = ValueIdx.ix2 p q := ⟨j 0, j 1, ValueIdx.eq_ix2 j⟩
  show k8_pay3 (iblk8 V c 0 t) (iblk8 V c 2 t) (iblk8 V c 1 t) (iblk8 V c 3 t) (iblk8 V c 4 t) (iblk8 V c 5 t) (iblk8 V c 6 t) (ValueIdx.ix2 p q)
    = upd8New (upd8H V c) (upd8Agg V c) (upd8Wnh V c) (upd8Wna V c) (upd8B1 V c) (upd8Wn2 V c) (upd8B2 V c) (((cfg8.win 9).blk t).view.emb (ValueIdx.ix2 p q : S4000x128.Idx))
  rw [upd8Pay3_at, upd8_emb_9, upd8_rows]
  rfl

/-- Point t writes back, into the source-side projection, block t of `upd8Proj` by the source-side matrix. -/
theorem upd8_flushed_10 (c : Dev nD) (t : Fin cfg8.N) :
    (dat8 V c).flushed 10 t = ((cfg8.win 10).blk t).view.read (Elt Ideal) (upd8Proj (upd8H V c) (upd8Agg V c) (upd8Wnh V c) (upd8Wna V c) (upd8B1 V c) (upd8Wn2 V c) (upd8B2 V c) (upd8Ws V c)) := by
  show (cfg8.win 10).cut (grid8.coords t) ((dat8 V c).after 10 t) = _
  rw [after8_10]
  unfold out8_10
  rw [View.canon_unit_zero upd8_origin]
  simp only [View.ld_unit_zero (S := S4000x128) upd8_origin, View.ld_unit_zero (S := S128x128) upd8_origin,
    View.ld_unit_zero (S := S1x128) upd8_origin]
  funext j
  obtain ⟨p, q, rfl⟩ : ∃ (p : Fin 4000) (q : Fin 128), j = ValueIdx.ix2 p q := ⟨j 0, j 1, ValueIdx.eq_ix2 j⟩
  show k8_pay1 (k8_pay4 (iblk8 V c 0 t) (iblk8 V c 2 t) (iblk8 V c 1 t) (iblk8 V c 3 t) (iblk8 V c 4 t) (iblk8 V c 5 t) (iblk8 V c 6 t))
      (k8_pay5 (iblk8 V c 7 t)) (ValueIdx.ix2 p q)
    = upd8Proj (upd8H V c) (upd8Agg V c) (upd8Wnh V c) (upd8Wna V c) (upd8B1 V c) (upd8Wn2 V c) (upd8B2 V c) (upd8Ws V c) (((cfg8.win 10).blk t).view.emb (ValueIdx.ix2 p q : S4000x128.Idx))
  rw [upd8Pay1_at, upd8_emb_10]
  have hy : (fun k : Fin 128 => k8_pay4 (iblk8 V c 0 t) (iblk8 V c 2 t) (iblk8 V c 1 t) (iblk8 V c 3 t) (iblk8 V c 4 t) (iblk8 V c 5 t)
      (iblk8 V c 6 t) (ValueIdx.ix2 p k))
      = Cert.Spec.upd (Cert.Spec.row (upd8H V c) (upd8Row t p)) (Cert.Spec.row (upd8Agg V c) (upd8Row t p))
          (Cert.Spec.m2 (upd8Wnh V c)) (Cert.Spec.m2 (upd8Wna V c)) (fun j => upd8B1 V c (ValueIdx.ix2 0 j))
          (Cert.Spec.m2 (upd8Wn2 V c)) (fun j => upd8B2 V c (ValueIdx.ix2 0 j)) :=
    funext fun k => by rw [upd8Pay4_at, upd8Pay3_at, upd8_rows]
  have hw : Cert.Spec.m2 (iblk8 V c 7 t) = Cert.Spec.m2 (upd8Ws V c) := funext fun a => funext fun b => upd8_blk_7 V c t _
  rw [hy, hw]
  rfl

/-- Point t writes back, into the destination-side projection, block t of `upd8Proj` by the destination-side matrix. -/
theorem upd8_flushed_11 (c : Dev nD) (t : Fin cfg8.N) :
    (dat8 V c).flushed 11 t = ((cfg8.win 11).blk t).view.read (Elt Ideal) (upd8Proj (upd8H V c) (upd8Agg V c) (upd8Wnh V c) (upd8Wna V c) (upd8B1 V c) (upd8Wn2 V c) (upd8B2 V c) (upd8Wd V c)) := by
  show (cfg8.win 11).cut (grid8.coords t) ((dat8 V c).after 11 t) = _
  rw [after8_11]
  unfold out8_11
  rw [View.canon_unit_zero upd8_origin]
  simp only [View.ld_unit_zero (S := S4000x128) upd8_origin, View.ld_unit_zero (S := S128x128) upd8_origin,
    View.ld_unit_zero (S := S1x128) upd8_origin]
  funext j
  obtain ⟨p, q, rfl⟩ : ∃ (p : Fin 4000) (q : Fin 128), j = ValueIdx.ix2 p q := ⟨j 0, j 1, ValueIdx.eq_ix2 j⟩
  show k8_pay2 (k8_pay4 (iblk8 V c 0 t) (iblk8 V c 2 t) (iblk8 V c 1 t) (iblk8 V c 3 t) (iblk8 V c 4 t) (iblk8 V c 5 t) (iblk8 V c 6 t))
      (iblk8 V c 8 t) (ValueIdx.ix2 p q)
    = upd8Proj (upd8H V c) (upd8Agg V c) (upd8Wnh V c) (upd8Wna V c) (upd8B1 V c) (upd8Wn2 V c) (upd8B2 V c) (upd8Wd V c) (((cfg8.win 11).blk t).view.emb (ValueIdx.ix2 p q : S4000x128.Idx))
  rw [upd8Pay2_at, upd8_emb_11]
  have hy : (fun k : Fin 128 => k8_pay4 (iblk8 V c 0 t) (iblk8 V c 2 t) (iblk8 V c 1 t) (iblk8 V c 3 t) (iblk8 V c 4 t) (iblk8 V c 5 t)
      (iblk8 V c 6 t) (ValueIdx.ix2 p k))
      = Cert.Spec.upd (Cert.Spec.row (upd8H V c) (upd8Row t p)) (Cert.Spec.row (upd8Agg V c) (upd8Row t p))
          (Cert.Spec.m2 (upd8Wnh V c)) (Cert.Spec.m2 (upd8Wna V c)) (fun j => upd8B1 V c (ValueIdx.ix2 0 j))
          (Cert.Spec.m2 (upd8Wn2 V c)) (fun j => upd8B2 V c (ValueIdx.ix2 0 j)) :=
    funext fun k => by rw [upd8Pay4_at, upd8Pay3_at, upd8_rows]
  have hw : Cert.Spec.m2 (iblk8 V c 8 t) = Cert.Spec.m2 (upd8Wd V c) := funext fun a => funext fun b => upd8_blk_8 V c t _
  rw [hy, hw]
  rfl

/-! ## The blocks tile the rows -/

/-- An index of result array 9 is in point t's block iff each coordinate is in the block's range on its axis. -/
theorem upd8_mem_9 (t : Fin cfg8.N) (i : S20000x128.Idx) :
    i ∈ ((cfg8.win 9).blk t).view.set ↔ ∀ a : Fin 2, win8_9.index t a * S4000x128.size a ≤ (i a).val
      ∧ (i a).val < win8_9.index t a * S4000x128.size a + S4000x128.size a := by
  show i ∈ ((View.whole (Pipeline.arrRef spec8 9)).slice (win8_9.rect t)).set ↔ _
  rw [View.set_slice_whole, Rect.mem_set_unit]
  exact Iff.rfl

/-- Row r of result array 9 is in the block of point r / 4000, and every point writes its block back. -/
theorem upd8_cover_9 (i : S20000x128.Idx) :
    ∃ t : Fin cfg8.N, (cfg8.win 9).flush t = true ∧ i ∈ ((cfg8.win 9).blk t).view.set := by
  have hi0 : (i 0).val < 20000 := (i 0).isLt
  have hi1 : (i 1).val < 128 := (i 1).isLt
  have hN : (i 0).val / 4000 < grid8.N := by rw [N_8]; omega
  refine ⟨⟨(i 0).val / 4000, hN⟩, flush8_9 _, ?_⟩
  rw [upd8_mem_9]
  obtain ⟨-, -, -, -, -, -, -, -, -, e9, e10, e11⟩ := upd8_index ⟨(i 0).val / 4000, hN⟩
  have q0 : win8_9.index ⟨(i 0).val / 4000, hN⟩ (0 : Fin 2) = (i 0).val / 4000 := e9.1
  have q1 : win8_9.index ⟨(i 0).val / 4000, hN⟩ (1 : Fin 2) = 0 := e9.2
  intro a
  match a with
  | ⟨0, _⟩ =>
    show win8_9.index ⟨(i 0).val / 4000, hN⟩ (0 : Fin 2) * 4000 ≤ (i 0).val
      ∧ (i 0).val < win8_9.index ⟨(i 0).val / 4000, hN⟩ (0 : Fin 2) * 4000 + 4000
    omega
  | ⟨1, _⟩ =>
    show win8_9.index ⟨(i 0).val / 4000, hN⟩ (1 : Fin 2) * 128 ≤ (i 1).val
      ∧ (i 1).val < win8_9.index ⟨(i 0).val / 4000, hN⟩ (1 : Fin 2) * 128 + 128
    omega

/-- An index of result array 10 is in point t's block iff each coordinate is in the block's range on its axis. -/
theorem upd8_mem_10 (t : Fin cfg8.N) (i : S20000x128.Idx) :
    i ∈ ((cfg8.win 10).blk t).view.set ↔ ∀ a : Fin 2, win8_10.index t a * S4000x128.size a ≤ (i a).val
      ∧ (i a).val < win8_10.index t a * S4000x128.size a + S4000x128.size a := by
  show i ∈ ((View.whole (Pipeline.arrRef spec8 10)).slice (win8_10.rect t)).set ↔ _
  rw [View.set_slice_whole, Rect.mem_set_unit]
  exact Iff.rfl

/-- Row r of result array 10 is in the block of point r / 4000, and every point writes its block back. -/
theorem upd8_cover_10 (i : S20000x128.Idx) :
    ∃ t : Fin cfg8.N, (cfg8.win 10).flush t = true ∧ i ∈ ((cfg8.win 10).blk t).view.set := by
  have hi0 : (i 0).val < 20000 := (i 0).isLt
  have hi1 : (i 1).val < 128 := (i 1).isLt
  have hN : (i 0).val / 4000 < grid8.N := by rw [N_8]; omega
  refine ⟨⟨(i 0).val / 4000, hN⟩, flush8_10 _, ?_⟩
  rw [upd8_mem_10]
  obtain ⟨-, -, -, -, -, -, -, -, -, e9, e10, e11⟩ := upd8_index ⟨(i 0).val / 4000, hN⟩
  have q0 : win8_10.index ⟨(i 0).val / 4000, hN⟩ (0 : Fin 2) = (i 0).val / 4000 := e10.1
  have q1 : win8_10.index ⟨(i 0).val / 4000, hN⟩ (1 : Fin 2) = 0 := e10.2
  intro a
  match a with
  | ⟨0, _⟩ =>
    show win8_10.index ⟨(i 0).val / 4000, hN⟩ (0 : Fin 2) * 4000 ≤ (i 0).val
      ∧ (i 0).val < win8_10.index ⟨(i 0).val / 4000, hN⟩ (0 : Fin 2) * 4000 + 4000
    omega
  | ⟨1, _⟩ =>
    show win8_10.index ⟨(i 0).val / 4000, hN⟩ (1 : Fin 2) * 128 ≤ (i 1).val
      ∧ (i 1).val < win8_10.index ⟨(i 0).val / 4000, hN⟩ (1 : Fin 2) * 128 + 128
    omega

/-- An index of result array 11 is in point t's block iff each coordinate is in the block's range on its axis. -/
theorem upd8_mem_11 (t : Fin cfg8.N) (i : S20000x128.Idx) :
    i ∈ ((cfg8.win 11).blk t).view.set ↔ ∀ a : Fin 2, win8_11.index t a * S4000x128.size a ≤ (i a).val
      ∧ (i a).val < win8_11.index t a * S4000x128.size a + S4000x128.size a := by
  show i ∈ ((View.whole (Pipeline.arrRef spec8 11)).slice (win8_11.rect t)).set ↔ _
  rw [View.set_slice_whole, Rect.mem_set_unit]
  exact Iff.rfl

/-- Row r of result array 11 is in the block of point r / 4000, and every point writes its block back. -/
theorem upd8_cover_11 (i : S20000x128.Idx) :
    ∃ t : Fin cfg8.N, (cfg8.win 11).flush t = true ∧ i ∈ ((cfg8.win 11).blk t).view.set := by
  have hi0 : (i 0).val < 20000 := (i 0).isLt
  have hi1 : (i 1).val < 128 := (i 1).isLt
  have hN : (i 0).val / 4000 < grid8.N := by rw [N_8]; omega
  refine ⟨⟨(i 0).val / 4000, hN⟩, flush8_11 _, ?_⟩
  rw [upd8_mem_11]
  obtain ⟨-, -, -, -, -, -, -, -, -, e9, e10, e11⟩ := upd8_index ⟨(i 0).val / 4000, hN⟩
  have q0 : win8_11.index ⟨(i 0).val / 4000, hN⟩ (0 : Fin 2) = (i 0).val / 4000 := e11.1
  have q1 : win8_11.index ⟨(i 0).val / 4000, hN⟩ (1 : Fin 2) = 0 := e11.2
  intro a
  match a with
  | ⟨0, _⟩ =>
    show win8_11.index ⟨(i 0).val / 4000, hN⟩ (0 : Fin 2) * 4000 ≤ (i 0).val
      ∧ (i 0).val < win8_11.index ⟨(i 0).val / 4000, hN⟩ (0 : Fin 2) * 4000 + 4000
    omega
  | ⟨1, _⟩ =>
    show win8_11.index ⟨(i 0).val / 4000, hN⟩ (1 : Fin 2) * 128 ≤ (i 1).val
      ∧ (i 1).val < win8_11.index ⟨(i 0).val / 4000, hN⟩ (1 : Fin 2) * 128 + 128
    omega

/-! ## The result arrays when the region ends -/

/-- The new features end as `upd8New` of the arrays the region finds. -/
theorem upd8_array_9 (c : Dev nD) : (dat8 (F := Ideal) V c).arrAt 9 cfg8.N = upd8New (upd8H V c) (upd8Agg V c) (upd8Wnh V c) (upd8Wna V c) (upd8B1 V c) (upd8Wn2 V c) (upd8B2 V c) :=
  (dat8 V c).arrAt_eq_of_cover 9 (upd8New (upd8H V c) (upd8Agg V c) (upd8Wnh V c) (upd8Wna V c) (upd8B1 V c) (upd8Wn2 V c) (upd8B2 V c)) (fun t _ => upd8_flushed_9 V c t) upd8_cover_9

/-- The source-side projection ends as `upd8Proj` by the source-side matrix. -/
theorem upd8_array_10 (c : Dev nD) : (dat8 (F := Ideal) V c).arrAt 10 cfg8.N = upd8Proj (upd8H V c) (upd8Agg V c) (upd8Wnh V c) (upd8Wna V c) (upd8B1 V c) (upd8Wn2 V c) (upd8B2 V c) (upd8Ws V c) :=
  (dat8 V c).arrAt_eq_of_cover 10 (upd8Proj (upd8H V c) (upd8Agg V c) (upd8Wnh V c) (upd8Wna V c) (upd8B1 V c) (upd8Wn2 V c) (upd8B2 V c) (upd8Ws V c)) (fun t _ => upd8_flushed_10 V c t) upd8_cover_10

/-- The destination-side projection ends as `upd8Proj` by the destination-side matrix. -/
theorem upd8_array_11 (c : Dev nD) : (dat8 (F := Ideal) V c).arrAt 11 cfg8.N = upd8Proj (upd8H V c) (upd8Agg V c) (upd8Wnh V c) (upd8Wna V c) (upd8B1 V c) (upd8Wn2 V c) (upd8B2 V c) (upd8Wd V c) :=
  (dat8 V c).arrAt_eq_of_cover 11 (upd8Proj (upd8H V c) (upd8Agg V c) (upd8Wnh V c) (upd8Wna V c) (upd8B1 V c) (upd8Wn2 V c) (upd8B2 V c) (upd8Wd V c)) (fun t _ => upd8_flushed_11 V c t) upd8_cover_11

/-- The new features at row p, column q: the update row formula of rows p of the features and the messages. -/
theorem final8_9 (c : Dev nD) (p : Fin 20000) (q : Fin 128) :
    (dat8 (F := Ideal) V c).arrAt 9 cfg8.N (ValueIdx.ix2 p q : S20000x128.Idx)
      = Cert.Spec.upd (Cert.Spec.row (upd8H V c) p) (Cert.Spec.row (upd8Agg V c) p) (Cert.Spec.m2 (upd8Wnh V c))
        (Cert.Spec.m2 (upd8Wna V c)) (fun j => upd8B1 V c (ValueIdx.ix2 0 j)) (Cert.Spec.m2 (upd8Wn2 V c))
        (fun j => upd8B2 V c (ValueIdx.ix2 0 j)) q := by
  rw [upd8_array_9]; rfl

/-- The source-side projection at row p, column q: the new features' row p times the source-side matrix. -/
theorem final8_10 (c : Dev nD) (p : Fin 20000) (q : Fin 128) :
    (dat8 (F := Ideal) V c).arrAt 10 cfg8.N (ValueIdx.ix2 p q : S20000x128.Idx)
      = Cert.Spec.lin (Cert.Spec.upd (Cert.Spec.row (upd8H V c) p) (Cert.Spec.row (upd8Agg V c) p) (Cert.Spec.m2 (upd8Wnh V c))
        (Cert.Spec.m2 (upd8Wna V c)) (fun j => upd8B1 V c (ValueIdx.ix2 0 j)) (Cert.Spec.m2 (upd8Wn2 V c))
        (fun j => upd8B2 V c (ValueIdx.ix2 0 j))) (Cert.Spec.m2 (upd8Ws V c)) q := by
  rw [upd8_array_10]; rfl

/-- The destination-side projection at row p, column q: the new features' row p times the destination-side matrix. -/
theorem final8_11 (c : Dev nD) (p : Fin 20000) (q : Fin 128) :
    (dat8 (F := Ideal) V c).arrAt 11 cfg8.N (ValueIdx.ix2 p q : S20000x128.Idx)
      = Cert.Spec.lin (Cert.Spec.upd (Cert.Spec.row (upd8H V c) p) (Cert.Spec.row (upd8Agg V c) p) (Cert.Spec.m2 (upd8Wnh V c))
        (Cert.Spec.m2 (upd8Wna V c)) (fun j => upd8B1 V c (ValueIdx.ix2 0 j)) (Cert.Spec.m2 (upd8Wn2 V c))
        (fun j => upd8B2 V c (ValueIdx.ix2 0 j))) (Cert.Spec.m2 (upd8Wd V c)) q := by
  rw [upd8_array_11]; rfl

end Cert.KernelIdeal.Hand

end
-- ==== Proof.Bridge.Upd8.lean ====
/-
  Region 8, the node update of one layer, as equations of arrays: whatever fills the region's nine input arrays, if
  they are the reference's inputs (the features, the aggregated messages and the five weight matrices the same arrays;
  each bias, which the kernel takes as one row and the reference as a vector, entry by entry), then the three result
  arrays after the region are the reference's updated features and their two projections for the next layer.
-/
import proofs.«152161_j29669634081217_2_alg».proof.Proof.KI.Val8
import proofs.«152161_j29669634081217_2_alg».proof.Proof.Ref.StageUpd
import proofs.«152161_j29669634081217_2_alg».proof.Proof.Ref.StageAB
import proofs.«152161_j29669634081217_2_alg».proof.Proof.Ref.Stages

noncomputable section

namespace Cert.Bridge

open Idealize.ShloMosaic Idealize.ShloMosaic.TcCoe Idealize.SL.Sem Idealize.ShloMosaic.ValueIdx
open Idealize.ShloMosaic.Pipeline (Dat)
open Cert.KernelIdeal Cert.KernelIdeal.Gen
open Cert.KernelIdeal.Hand (dat8 final8_9 final8_10 final8_11 upd8H upd8Agg upd8Wnh upd8Wna upd8B1 upd8Wn2 upd8B2 upd8Ws upd8Wd)
open Cert.ReferenceIdeal.Hand (updRef linRef refUpd refLin)

variable (V : (c : Dev nD) → (b : Ref sig .tc) → Buf (Elt Ideal) ((c : Thread nD τ).loc b)) (c : Dev nD)
variable (H Agg : FVec Ideal Cert.ReferenceIdeal.S20000x128 .f32) (Wnh Wna : FVec Ideal Cert.ReferenceIdeal.S128x128 .f32)
  (b1 : FVec Ideal Cert.ReferenceIdeal.S128 .f32) (Wn2 : FVec Ideal Cert.ReferenceIdeal.S128x128 .f32)
  (b2 : FVec Ideal Cert.ReferenceIdeal.S128 .f32)

/-- The updated features: both sides are the update row formula of rows p of the features and of the messages. -/
theorem upd8_new (h0 : upd8H V c = H) (h1 : upd8Agg V c = Agg) (h2 : upd8Wnh V c = Wnh) (h3 : upd8Wna V c = Wna)
    (h4 : ∀ j : Fin 128, upd8B1 V c (ix2 (0 : Fin 1) j) = b1 (ix1 j)) (h5 : upd8Wn2 V c = Wn2)
    (h6 : ∀ j : Fin 128, upd8B2 V c (ix2 (0 : Fin 1) j) = b2 (ix1 j)) :
    ((dat8 (F := Ideal) V c).arrAt 9 cfg8.N : S20000x128.Idx → EReal) = updRef H Agg Wnh Wna b1 Wn2 b2 := by
  funext i
  obtain ⟨p, q, rfl⟩ : ∃ (p : Fin 20000) (q : Fin 128), i = ix2 p q := ⟨i 0, i 1, eq_ix2 i⟩
  have e4 : (fun j : Fin 128 => upd8B1 V c (ix2 (0 : Fin 1) j)) = Cert.Spec.v1 b1 := funext h4
  have e6 : (fun j : Fin 128 => upd8B2 V c (ix2 (0 : Fin 1) j)) = Cert.Spec.v1 b2 := funext h6
  refine (final8_9 V c p q).trans ?_
  rw [e4, e6, h0, h1, h2, h3, h5]
  exact (refUpd H Agg Wnh Wna b1 Wn2 b2 p q).symm

/-- A projection of the updated features by a matrix W, for any array R that reads as that projection at every index:
    row p of the updated features, on both sides the update row formula, times W. -/
theorem upd8_proj_of (R : S20000x128.Idx → EReal) (Wk : S128x128.Idx → EReal) (W : FVec Ideal Cert.ReferenceIdeal.S128x128 .f32)
    (hfin : ∀ (p : Fin 20000) (q : Fin 128), R (ix2 p q : S20000x128.Idx)
      = Cert.Spec.lin (Cert.Spec.upd (Cert.Spec.row (upd8H V c) p) (Cert.Spec.row (upd8Agg V c) p) (Cert.Spec.m2 (upd8Wnh V c))
        (Cert.Spec.m2 (upd8Wna V c)) (fun j => upd8B1 V c (ix2 0 j)) (Cert.Spec.m2 (upd8Wn2 V c))
        (fun j => upd8B2 V c (ix2 0 j))) (Cert.Spec.m2 Wk) q)
    (h0 : upd8H V c = H) (h1 : upd8Agg V c = Agg) (h2 : upd8Wnh V c = Wnh) (h3 : upd8Wna V c = Wna)
    (h4 : ∀ j : Fin 128, upd8B1 V c (ix2 (0 : Fin 1) j) = b1 (ix1 j)) (h5 : upd8Wn2 V c = Wn2)
    (h6 : ∀ j : Fin 128, upd8B2 V c (ix2 (0 : Fin 1) j) = b2 (ix1 j)) (h7 : Wk = W) :
    R = linRef (updRef H Agg Wnh Wna b1 Wn2 b2) W := by
  funext i
  obtain ⟨p, q, rfl⟩ : ∃ (p : Fin 20000) (q : Fin 128), i = ix2 p q := ⟨i 0, i 1, eq_ix2 i⟩
  have e4 : (fun j : Fin 128 => upd8B1 V c (ix2 (0 : Fin 1) j)) = Cert.Spec.v1 b1 := funext h4
  have e6 : (fun j : Fin 128 => upd8B2 V c (ix2 (0 : Fin 1) j)) = Cert.Spec.v1 b2 := funext h6
  refine (hfin p q).trans ?_
  rw [e4, e6, h0, h1, h2, h3, h5, h7]
  refine Eq.trans ?_ (refLin (updRef H Agg Wnh Wna b1 Wn2 b2) W p q).symm
  refine congrArg (fun x => Cert.Spec.lin x (Cert.Spec.m2 W) q) ?_
  funext k
  exact (refUpd H Agg Wnh Wna b1 Wn2 b2 p k).symm

/-- The projection by the source-side matrix of the next layer. -/
theorem upd8_projS (Ws : FVec Ideal Cert.ReferenceIdeal.S128x128 .f32)
    (h0 : upd8H V c = H) (h1 : upd8Agg V c = Agg) (h2 : upd8Wnh V c = Wnh) (h3 : upd8Wna V c = Wna)
    (h4 : ∀ j : Fin 128, upd8B1 V c (ix2 (0 : Fin 1) j) = b1 (ix1 j)) (h5 : upd8Wn2 V c = Wn2)
    (h6 : ∀ j : Fin 128, upd8B2 V c (ix2 (0 : Fin 1) j) = b2 (ix1 j)) (h7 : upd8Ws V c = Ws) :
    ((dat8 (F := Ideal) V c).arrAt 10 cfg8.N : S20000x128.Idx → EReal) = linRef (updRef H Agg Wnh Wna b1 Wn2 b2) Ws :=
  upd8_proj_of V c H Agg Wnh Wna b1 Wn2 b2 ((dat8 (F := Ideal) V c).arrAt 10 cfg8.N) (upd8Ws V c) Ws (final8_10 V c) h0 h1 h2 h3 h4 h5 h6 h7

/-- The projection by the destination-side matrix of the next layer. -/
theorem upd8_projD (Wd : FVec Ideal Cert.ReferenceIdeal.S128x128 .f32)
    (h0 : upd8H V c = H) (h1 : upd8Agg V c = Agg) (h2 : upd8Wnh V c = Wnh) (h3 : upd8Wna V c = Wna)
    (h4 : ∀ j : Fin 128, upd8B1 V c (ix2 (0 : Fin 1) j) = b1 (ix1 j)) (h5 : upd8Wn2 V c = Wn2)
    (h6 : ∀ j : Fin 128, upd8B2 V c (ix2 (0 : Fin 1) j) = b2 (ix1 j)) (h8 : upd8Wd V c = Wd) :
    ((dat8 (F := Ideal) V c).arrAt 11 cfg8.N : S20000x128.Idx → EReal) = linRef (updRef H Agg Wnh Wna b1 Wn2 b2) Wd :=
  upd8_proj_of V c H Agg Wnh Wna b1 Wn2 b2 ((dat8 (F := Ideal) V c).arrAt 11 cfg8.N) (upd8Wd V c) Wd (final8_11 V c) h0 h1 h2 h3 h4 h5 h6 h8

end Cert.Bridge

end
-- ==== Proof.Bridge.Layer2.lean ====
/-
  Layer 2 of the message passing, the kernel program's buffers against the reference's named stages. Region 7 leaves
  the reference's messages of layer 2 in its result buffer, given that the two projections and the encoded edges it
  reads are the reference's. Region 8 then leaves the reference's node features entering layer 3 and their two
  projections, given those messages and the features entering layer 2.
-/
import proofs.«152161_j29669634081217_2_alg».proof.Proof.KI.Stage7
import proofs.«152161_j29669634081217_2_alg».proof.Proof.KI.Reads3
import proofs.«152161_j29669634081217_2_alg».proof.Proof.KI.Outs
import proofs.«152161_j29669634081217_2_alg».proof.Proof.Bridge.Args
import proofs.«152161_j29669634081217_2_alg».proof.Proof.Bridge.LayerCommon
import proofs.«152161_j29669634081217_2_alg».proof.Proof.Bridge.Upd8

-- reading a buffer at a boundary unfolds the table of boundaries, one case per boundary
set_option maxRecDepth 16384

noncomputable section

namespace Cert.Bridge

open Idealize.ShloMosaic Idealize.ShloMosaic.TcCoe Idealize.SL.Sem Idealize.ShloMosaic.ValueIdx
open Cert.KernelIdeal Cert.KernelIdeal.Gen
open Cert.KernelIdeal.Hand (W14 W4 W16 W18 outs VW16 VW18 en7 en8 Ex7_out7 Ex8_out9 Ex8_out10 Ex8_out11 stage7_7
  in7_0 in7_1 in7_2 in7_3 in7_4 in7_5 in7_6 in8_0 in8_1 in8_2 in8_3 in8_4 in8_5 in8_6 in8_7 in8_8
  upd8H upd8Agg upd8Wnh upd8Wna upd8B1 upd8Wn2 upd8B2 upd8Ws upd8Wd)
open Cert.ReferenceIdeal.Hand (Args e0S hS aS bS mS aggS asrcS bdstS wmN wvN)

variable (m : (ℓ : Loc nD τ sig) → Buf (Elt Ideal) ℓ) (c : Dev nD)

/-! ## Region 7: the messages -/

/-- Region 7's result buffer holds the reference's messages of layer 2.
    Its seven inputs, one by one: the encoded edges are the buffer region 1 left; the two gathered projections are
    gathers of the second and third buffers region 6 left, along the edge list's two rows, which is how the reference gathers them; the
    two weight matrices and the two bias rows are layer 2's slabs of the stacked arguments. -/
theorem bm2 (ha : W14 m c main_v112_1 = aS (argsOf m c) 2) (hb : W14 m c main_v112_2 = bS (argsOf m c) 2)
    (he : W4 m c main_v17 = e0S (argsOf m c)) :
    W16 m c main_v137 = mS (argsOf m c) 2 := by
  rw [← VW16]
  refine (Ex7_out7 m c).trans ?_
  refine stage7_7 (en7 m) c (e0S (argsOf m c)) (asrcS (argsOf m c) 2) (bdstS (argsOf m c) 2)
    (wmN (argsOf m c).a16 2) (wvN (argsOf m c).a17 2) (wmN (argsOf m c).a18 2) (wvN (argsOf m c).a19 2)
    ?_ ?_ ?_ ?_ ?_ ?_ ?_
  · exact (in7_0 m (outs m) c).trans he
  · refine (in7_1 m (outs m) c).trans ?_
    rw [show outs m 14 main_v112_1 c = W14 m c main_v112_1 from rfl, ha]
    exact gatherSrc_eq m c _
  · refine (in7_2 m (outs m) c).trans ?_
    rw [show outs m 14 main_v112_2 c = W14 m c main_v112_2 from rfl, hb]
    exact gatherDst_eq m c _
  · exact (in7_3 m (outs m) c).trans (sliceMat_eq _ 2 _ _)
  · exact fun j => (congrFun (in7_4 m (outs m) c) (ix2 (0 : Fin 1) j)).trans (sliceRow_at _ 2 _ _ j)
  · exact (in7_5 m (outs m) c).trans (sliceMat_eq _ 2 _ _)
  · exact fun j => (congrFun (in7_6 m (outs m) c) (ix2 (0 : Fin 1) j)).trans (sliceRow_at _ 2 _ _ j)

/-! ## Region 8: the node update

Its nine inputs: the features entering the layer are the first buffer region 6 left; the aggregated messages are the
scatter-add of region 7's result at the receivers, into zeros, which is how the reference aggregates; the rest are
slabs of the stacked arguments, layer 2's for the update and layer 3's for the two projections. -/

theorem l2_H (hh : W14 m c main_v112_0 = hS (argsOf m c) 2) : upd8H (en8 m) c = hS (argsOf m c) 2 :=
  (in8_0 m (outs m) c).trans hh

theorem l2_Agg (hm : W16 m c main_v137 = mS (argsOf m c) 2) : upd8Agg (en8 m) c = aggS (argsOf m c) 2 := by
  refine (in8_1 m (outs m) c).trans ?_
  rw [show outs m 16 main_v137 c = W16 m c main_v137 from rfl, hm]
  exact scatter_eq m c _

theorem l2_Wnh : upd8Wnh (en8 m) c = wmN (argsOf m c).a20 2 := (in8_2 m (outs m) c).trans (sliceMat_eq _ 2 _ _)
theorem l2_Wna : upd8Wna (en8 m) c = wmN (argsOf m c).a21 2 := (in8_3 m (outs m) c).trans (sliceMat_eq _ 2 _ _)
theorem l2_B1 (j : Fin 128) : upd8B1 (en8 m) c (ix2 (0 : Fin 1) j) = wvN (argsOf m c).a22 2 (ix1 j) :=
  (congrFun (in8_4 m (outs m) c) (ix2 (0 : Fin 1) j)).trans (sliceRow_at _ 2 _ _ j)
theorem l2_Wn2 : upd8Wn2 (en8 m) c = wmN (argsOf m c).a23 2 := (in8_5 m (outs m) c).trans (sliceMat_eq _ 2 _ _)
theorem l2_B2 (j : Fin 128) : upd8B2 (en8 m) c (ix2 (0 : Fin 1) j) = wvN (argsOf m c).a24 2 (ix1 j) :=
  (congrFun (in8_6 m (outs m) c) (ix2 (0 : Fin 1) j)).trans (sliceRow_at _ 2 _ _ j)
theorem l2_Ws : upd8Ws (en8 m) c = wmN (argsOf m c).a14 3 := (in8_7 m (outs m) c).trans (sliceMat_eq _ 3 _ _)
theorem l2_Wd : upd8Wd (en8 m) c = wmN (argsOf m c).a15 3 := (in8_8 m (outs m) c).trans (sliceMat_eq _ 3 _ _)

/-- Region 8's first result buffer holds the reference's node features entering layer 3. -/
theorem bh2 (hm : W16 m c main_v137 = mS (argsOf m c) 2) (hh : W14 m c main_v112_0 = hS (argsOf m c) 2) :
    W18 m c main_v157_0 = hS (argsOf m c) 3 := by
  rw [← VW18]
  refine (Ex8_out9 m c).trans ?_
  exact upd8_new (en8 m) c (hS (argsOf m c) 2) (aggS (argsOf m c) 2) (wmN (argsOf m c).a20 2) (wmN (argsOf m c).a21 2)
    (wvN (argsOf m c).a22 2) (wmN (argsOf m c).a23 2) (wvN (argsOf m c).a24 2)
    (l2_H m c hh) (l2_Agg m c hm) (l2_Wnh m c) (l2_Wna m c) (l2_B1 m c) (l2_Wn2 m c) (l2_B2 m c)

/-- Its second holds their projection by layer 3's source-side matrix. -/
theorem ba2 (hm : W16 m c main_v137 = mS (argsOf m c) 2) (hh : W14 m c main_v112_0 = hS (argsOf m c) 2) :
    W18 m c main_v157_1 = aS (argsOf m c) 3 := by
  rw [← VW18]
  refine (Ex8_out10 m c).trans ?_
  exact upd8_projS (en8 m) c (hS (argsOf m c) 2) (aggS (argsOf m c) 2) (wmN (argsOf m c).a20 2) (wmN (argsOf m c).a21 2)
    (wvN (argsOf m c).a22 2) (wmN (argsOf m c).a23 2) (wvN (argsOf m c).a24 2) (wmN (argsOf m c).a14 3)
    (l2_H m c hh) (l2_Agg m c hm) (l2_Wnh m c) (l2_Wna m c) (l2_B1 m c) (l2_Wn2 m c) (l2_B2 m c) (l2_Ws m c)

/-- Its third holds their projection by layer 3's destination-side matrix. -/
theorem bb2 (hm : W16 m c main_v137 = mS (argsOf m c) 2) (hh : W14 m c main_v112_0 = hS (argsOf m c) 2) :
    W18 m c main_v157_2 = bS (argsOf m c) 3 := by
  rw [← VW18]
  refine (Ex8_out11 m c).trans ?_
  exact upd8_projD (en8 m) c (hS (argsOf m c) 2) (aggS (argsOf m c) 2) (wmN (argsOf m c).a20 2) (wmN (argsOf m c).a21 2)
    (wvN (argsOf m c).a22 2) (wmN (argsOf m c).a23 2) (wvN (argsOf m c).a24 2) (wmN (argsOf m c).a15 3)
    (l2_H m c hh) (l2_Agg m c hm) (l2_Wnh m c) (l2_Wna m c) (l2_B1 m c) (l2_Wn2 m c) (l2_B2 m c) (l2_Wd m c)

end Cert.Bridge

end
-- ==== Proof.KI.Val9.lean ====
/-
  Region 9 of @main, the value half at the ideal values: after the region's 20 points the result array holds, row by
  row, the specification's message formula of the region's seven input arrays as the region finds them. Point t
  computes rows 8000 t .. 8000 t + 7999 from the same rows of the three edge arrays and the whole weight arrays.
-/
import proofs.«152161_j29669634081217_2_alg».proof.Proof.KI.Reg9
import proofs.«152161_j29669634081217_2_alg».proof.Proof.KI.MsgCommon
import proofs.«152161_j29669634081217_2_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 65536

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

-- the TensorCore's buffer contents when the region is entered, at the ideal values
variable (V : (c : Dev nD) → (b : Ref sig .tc) → Buf (Elt Ideal) ((c : Thread nD τ).loc b))

/-! ## The region's arrays as the region finds them, at their literal shapes -/

/-- The edge features. -/
noncomputable abbrev arr9_0 (c : Dev nD) : S160000x128.Idx → EReal := V c (Pipeline.arrRef spec9 0)
/-- The source nodes' term, gathered along the edges. -/
noncomputable abbrev arr9_1 (c : Dev nD) : S160000x128.Idx → EReal := V c (Pipeline.arrRef spec9 1)
/-- The destination nodes' term, gathered along the edges. -/
noncomputable abbrev arr9_2 (c : Dev nD) : S160000x128.Idx → EReal := V c (Pipeline.arrRef spec9 2)
/-- The first layer's weight on the edge features. -/
noncomputable abbrev arr9_3 (c : Dev nD) : S128x128.Idx → EReal := V c (Pipeline.arrRef spec9 3)
/-- The first layer's bias, as one row. -/
noncomputable abbrev arr9_4 (c : Dev nD) : S1x128.Idx → EReal := V c (Pipeline.arrRef spec9 4)
/-- The second layer's weight. -/
noncomputable abbrev arr9_5 (c : Dev nD) : S128x128.Idx → EReal := V c (Pipeline.arrRef spec9 5)
/-- The second layer's bias, as one row. -/
noncomputable abbrev arr9_6 (c : Dev nD) : S1x128.Idx → EReal := V c (Pipeline.arrRef spec9 6)

/-- The message of edge r, column q: the specification's row formula on row r of the three edge arrays. -/
noncomputable def G9_row (c : Dev nD) (r : Fin 160000) (q : Fin 128) : EReal :=
  Cert.Spec.msg (Cert.Spec.row (arr9_0 V c) r) (Cert.Spec.row (arr9_1 V c) r) (Cert.Spec.row (arr9_2 V c) r)
    (Cert.Spec.m2 (arr9_3 V c)) (fun j => arr9_4 V c (ix2 (0 : Fin 1) j)) (Cert.Spec.m2 (arr9_5 V c))
    (fun j => arr9_6 V c (ix2 (0 : Fin 1) j)) q

/-- The whole result array as one function of the input arrays. -/
noncomputable def G9 (c : Dev nD) : S160000x128.Idx → EReal := fun i => G9_row V c (i 0) (i 1)

/-! ## The payload -/

/-- The body's payload is the message kernels' shared block arithmetic. -/
theorem pay9_eq (v0 : Vec Ideal S8000x128 .bf16) (v2 : Vec Ideal S128x128 .f32) (v6 v9 : Vec Ideal S8000x128 .bf16)
    (v14 : Vec Ideal S1x128 .f32) (v21 : Vec Ideal S128x128 .f32) (v25 : Vec Ideal S1x128 .f32) :
    k9_pay1 v0 v2 v6 v9 v14 v21 v25 = msgTerm v0 v6 v9 v2 v14 v21 v25 := rfl

/-! ## Where point t's blocks sit in their arrays -/

theorem hz9 : (![0, 0] : Fin 2 → Nat) = fun _ => 0 := funext fun a => by fin_cases a <;> rfl

/-- The printed index maps, decided over the 20 points: the three edge windows and the result window take block t of
    the rows at point t, the four weight windows their one block. -/
theorem idx9 : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0
    ∧ win9_6.index t (0 : Fin 2) = 0 ∧ win9_6.index t (1 : Fin 2) = 0
    ∧ win9_7.index t (0 : Fin 2) = t.val ∧ win9_7.index t (1 : Fin 2) = 0 :=
  (by decide +kernel : ∀ t : Fin grid9.N, _)

/-- Row p of point t's block is row 8000 t + p of the array. -/
noncomputable def rows9 (t : Fin cfg9.N) (p : Fin 8000) : Fin 160000 :=
  ⟨t.val * 8000 + p.val, by have h : t.val < 20 := Nat.lt_of_lt_of_eq t.isLt N_9; have := p.isLt; omega⟩

theorem emb9_0 (t : Fin cfg9.N) (p : Fin 8000) (k : Fin 128) :
    ((cfg9.win 0).blk t).view.emb (ix2 p k) = ix2 (rows9 t p) k := by
  obtain ⟨a0, a1, b0, b1, c0, c1, d0, d1, e0, e1, f0, f1, g0, g1, h0, h1⟩ := idx9 t
  funext a; apply Fin.ext
  match a with
  | ⟨0, _⟩ => show win9_0.index t (0 : Fin 2) * 8000 + 1 * p.val = t.val * 8000 + p.val; omega
  | ⟨1, _⟩ => show win9_0.index t (1 : Fin 2) * 128 + 1 * k.val = k.val; omega

theorem emb9_1 (t : Fin cfg9.N) (p : Fin 8000) (k : Fin 128) :
    ((cfg9.win 1).blk t).view.emb (ix2 p k) = ix2 (rows9 t p) k := by
  obtain ⟨a0, a1, b0, b1, c0, c1, d0, d1, e0, e1, f0, f1, g0, g1, h0, h1⟩ := idx9 t
  funext a; apply Fin.ext
  match a with
  | ⟨0, _⟩ => show win9_1.index t (0 : Fin 2) * 8000 + 1 * p.val = t.val * 8000 + p.val; omega
  | ⟨1, _⟩ => show win9_1.index t (1 : Fin 2) * 128 + 1 * k.val = k.val; omega

theorem emb9_2 (t : Fin cfg9.N) (p : Fin 8000) (k : Fin 128) :
    ((cfg9.win 2).blk t).view.emb (ix2 p k) = ix2 (rows9 t p) k := by
  obtain ⟨a0, a1, b0, b1, c0, c1, d0, d1, e0, e1, f0, f1, g0, g1, h0, h1⟩ := idx9 t
  funext a; apply Fin.ext
  match a with
  | ⟨0, _⟩ => show win9_2.index t (0 : Fin 2) * 8000 + 1 * p.val = t.val * 8000 + p.val; omega
  | ⟨1, _⟩ => show win9_2.index t (1 : Fin 2) * 128 + 1 * k.val = k.val; omega

theorem emb9_3 (t : Fin cfg9.N) (i : Fin 128) (j : Fin 128) :
    ((cfg9.win 3).blk t).view.emb (ix2 i j) = ix2 i j := by
  obtain ⟨a0, a1, b0, b1, c0, c1, d0, d1, e0, e1, f0, f1, g0, g1, h0, h1⟩ := idx9 t
  funext a; apply Fin.ext
  match a with
  | ⟨0, _⟩ => show win9_3.index t (0 : Fin 2) * 128 + 1 * i.val = i.val; omega
  | ⟨1, _⟩ => show win9_3.index t (1 : Fin 2) * 128 + 1 * j.val = j.val; omega

theorem emb9_4 (t : Fin cfg9.N) (i : Fin 1) (j : Fin 128) :
    ((cfg9.win 4).blk t).view.emb (ix2 i j) = ix2 i j := by
  obtain ⟨a0, a1, b0, b1, c0, c1, d0, d1, e0, e1, f0, f1, g0, g1, h0, h1⟩ := idx9 t
  funext a; apply Fin.ext
  match a with
  | ⟨0, _⟩ => show win9_4.index t (0 : Fin 2) * 1 + 1 * i.val = i.val; omega
  | ⟨1, _⟩ => show win9_4.index t (1 : Fin 2) * 128 + 1 * j.val = j.val; omega

theorem emb9_5 (t : Fin cfg9.N) (i : Fin 128) (j : Fin 128) :
    ((cfg9.win 5).blk t).view.emb (ix2 i j) = ix2 i j := by
  obtain ⟨a0, a1, b0, b1, c0, c1, d0, d1, e0, e1, f0, f1, g0, g1, h0, h1⟩ := idx9 t
  funext a; apply Fin.ext
  match a with
  | ⟨0, _⟩ => show win9_5.index t (0 : Fin 2) * 128 + 1 * i.val = i.val; omega
  | ⟨1, _⟩ => show win9_5.index t (1 : Fin 2) * 128 + 1 * j.val = j.val; omega

theorem emb9_6 (t : Fin cfg9.N) (i : Fin 1) (j : Fin 128) :
    ((cfg9.win 6).blk t).view.emb (ix2 i j) = ix2 i j := by
  obtain ⟨a0, a1, b0, b1, c0, c1, d0, d1, e0, e1, f0, f1, g0, g1, h0, h1⟩ := idx9 t
  funext a; apply Fin.ext
  match a with
  | ⟨0, _⟩ => show win9_6.index t (0 : Fin 2) * 1 + 1 * i.val = i.val; omega
  | ⟨1, _⟩ => show win9_6.index t (1 : Fin 2) * 128 + 1 * j.val = j.val; omega

theorem emb9_7 (t : Fin cfg9.N) (p : Fin 8000) (q : Fin 128) :
    ((cfg9.win 7).blk t).view.emb (ix2 p q) = ix2 (rows9 t p) q := by
  obtain ⟨a0, a1, b0, b1, c0, c1, d0, d1, e0, e1, f0, f1, g0, g1, h0, h1⟩ := idx9 t
  funext a; apply Fin.ext
  match a with
  | ⟨0, _⟩ => show win9_7.index t (0 : Fin 2) * 8000 + 1 * p.val = t.val * 8000 + p.val; omega
  | ⟨1, _⟩ => show win9_7.index t (1 : Fin 2) * 128 + 1 * q.val = q.val; omega

/-! ## Each input block, read at an index, is its array where the block sits -/

theorem iblk9_0_apply (c : Dev nD) (t : Fin cfg9.N) (p : Fin 8000) (k : Fin 128) :
    iblk9 V c 0 t (ix2 p k) = arr9_0 V c (ix2 (rows9 t p) k) := by
  show V c (Pipeline.arrRef spec9 0) (((cfg9.win 0).blk t).view.emb (ix2 p k)) = _
  rw [emb9_0]
theorem iblk9_1_apply (c : Dev nD) (t : Fin cfg9.N) (p : Fin 8000) (k : Fin 128) :
    iblk9 V c 1 t (ix2 p k) = arr9_1 V c (ix2 (rows9 t p) k) := by
  show V c (Pipeline.arrRef spec9 1) (((cfg9.win 1).blk t).view.emb (ix2 p k)) = _
  rw [emb9_1]
theorem iblk9_2_apply (c : Dev nD) (t : Fin cfg9.N) (p : Fin 8000) (k : Fin 128) :
    iblk9 V c 2 t (ix2 p k) = arr9_2 V c (ix2 (rows9 t p) k) := by
  show V c (Pipeline.arrRef spec9 2) (((cfg9.win 2).blk t).view.emb (ix2 p k)) = _
  rw [emb9_2]
theorem iblk9_3_apply (c : Dev nD) (t : Fin cfg9.N) (i j : Fin 128) :
    iblk9 V c 3 t (ix2 i j) = arr9_3 V c (ix2 i j) := by
  show V c (Pipeline.arrRef spec9 3) (((cfg9.win 3).blk t).view.emb (ix2 i j)) = _
  rw [emb9_3]
theorem iblk9_4_apply (c : Dev nD) (t : Fin cfg9.N) (i : Fin 1) (j : Fin 128) :
    iblk9 V c 4 t (ix2 i j) = arr9_4 V c (ix2 i j) := by
  show V c (Pipeline.arrRef spec9 4) (((cfg9.win 4).blk t).view.emb (ix2 i j)) = _
  rw [emb9_4]
theorem iblk9_5_apply (c : Dev nD) (t : Fin cfg9.N) (i j : Fin 128) :
    iblk9 V c 5 t (ix2 i j) = arr9_5 V c (ix2 i j) := by
  show V c (Pipeline.arrRef spec9 5) (((cfg9.win 5).blk t).view.emb (ix2 i j)) = _
  rw [emb9_5]
theorem iblk9_6_apply (c : Dev nD) (t : Fin cfg9.N) (i : Fin 1) (j : Fin 128) :
    iblk9 V c 6 t (ix2 i j) = arr9_6 V c (ix2 i j) := by
  show V c (Pipeline.arrRef spec9 6) (((cfg9.win 6).blk t).view.emb (ix2 i j)) = _
  rw [emb9_6]

/-! ## What a point writes back -/

/-- What point t writes back to the result array is block t of G9: the store's payload at (p, q) is the message
    formula on row p of the edge blocks, which are rows 8000 t + p of the edge arrays. -/
theorem flushed9_7_eq (c : Dev nD) (t : Fin cfg9.N) :
    (dat9 V c).flushed 7 t = ((cfg9.win 7).blk t).view.read (Elt Ideal) (G9 V c) := by
  show (cfg9.win 7).cut (grid9.coords t) ((dat9 V c).after 7 t) = _
  rw [after9_7]
  unfold out9_7
  rw [View.canon_unit_zero hz9]
  simp only [View.ld_unit_zero (S := S8000x128) hz9, View.ld_unit_zero (S := S128x128) hz9, View.ld_unit_zero (S := S1x128) hz9]
  rw [pay9_eq]
  funext j
  obtain ⟨p, q, rfl⟩ : ∃ (p : Fin 8000) (q : Fin 128), j = ix2 p q := ⟨j 0, j 1, eq_ix2 j⟩
  show msgTerm (iblk9 V c 0 t) (iblk9 V c 1 t) (iblk9 V c 2 t) (iblk9 V c 3 t) (iblk9 V c 4 t) (iblk9 V c 5 t) (iblk9 V c 6 t) (ix2 p q)
    = G9 V c (((cfg9.win 7).blk t).view.emb (ix2 p q))
  rw [msgTerm_apply, emb9_7]
  simp only [iblk9_0_apply, iblk9_1_apply, iblk9_2_apply, iblk9_3_apply, iblk9_4_apply, iblk9_5_apply, iblk9_6_apply]
  rfl

/-! ## The result's blocks cover its array -/

/-- An index of the array is in point t's block iff each coordinate is in the block's range on its axis. -/
theorem mem_blk9 (t : Fin cfg9.N) (i : S160000x128.Idx) :
    i ∈ ((cfg9.win 7).blk t).view.set ↔ ∀ a : Fin 2, win9_7.index t a * S8000x128.size a ≤ (i a).val
      ∧ (i a).val < win9_7.index t a * S8000x128.size a + S8000x128.size a := by
  show i ∈ ((View.whole (Pipeline.arrRef spec9 7)).slice (win9_7.rect t)).set ↔ _
  rw [View.set_slice_whole, Rect.mem_set_unit]
  exact Iff.rfl

/-- Row r of the array is in the block of point r / 8000. -/
theorem covered9 (i : S160000x128.Idx) :
    ∃ t : Fin cfg9.N, (cfg9.win 7).flush t = true ∧ i ∈ ((cfg9.win 7).blk t).view.set := by
  have hi0 : (i 0).val < 160000 := (i 0).isLt
  have hi1 : (i 1).val < 128 := (i 1).isLt
  have hN : (i 0).val / 8000 < cfg9.N := by show _ < grid9.N; rw [N_9]; omega
  obtain ⟨a0, a1, b0, b1, c0, c1, d0, d1, e0, e1, f0, f1, g0, g1, h0, h1⟩ := idx9 ⟨(i 0).val / 8000, hN⟩
  have h0' : win9_7.index ⟨(i 0).val / 8000, hN⟩ (0 : Fin 2) = (i 0).val / 8000 := h0
  refine ⟨⟨(i 0).val / 8000, hN⟩, flush9_7 _, ?_⟩
  rw [mem_blk9]
  intro a
  match a with
  | ⟨0, _⟩ =>
    show win9_7.index ⟨(i 0).val / 8000, hN⟩ (0 : Fin 2) * 8000 ≤ (i 0).val
      ∧ (i 0).val < win9_7.index ⟨(i 0).val / 8000, hN⟩ (0 : Fin 2) * 8000 + 8000
    omega
  | ⟨1, _⟩ =>
    show win9_7.index ⟨(i 0).val / 8000, hN⟩ (1 : Fin 2) * 128 ≤ (i 1).val
      ∧ (i 1).val < win9_7.index ⟨(i 0).val / 8000, hN⟩ (1 : Fin 2) * 128 + 128
    omega

/-! ## The result array after the region -/

/-- The array after the region's 20 points is G9 of the region-entry arrays. -/
theorem final9_7_eq (c : Dev nD) : (dat9 (F := Ideal) V c).arrAt 7 cfg9.N = G9 V c :=
  (dat9 V c).arrAt_eq_of_cover 7 (G9 V c) (fun t _ => flushed9_7_eq V c t) covered9

/-- Entry (p, q) of the result array after the region: the message of edge p, column q. -/
theorem final9_7 (c : Dev nD) (p : Fin 160000) (q : Fin 128) :
    (dat9 (F := Ideal) V c).arrAt 7 cfg9.N (ix2 p q)
      = Cert.Spec.msg (Cert.Spec.row (arr9_0 V c) p) (Cert.Spec.row (arr9_1 V c) p) (Cert.Spec.row (arr9_2 V c) p)
          (Cert.Spec.m2 (arr9_3 V c)) (fun j => arr9_4 V c (ix2 (0 : Fin 1) j)) (Cert.Spec.m2 (arr9_5 V c))
          (fun j => arr9_6 V c (ix2 (0 : Fin 1) j)) q := by
  rw [final9_7_eq]
  rfl

end Cert.KernelIdeal.Hand

end
-- ==== Proof.KI.Stage9.lean ====
/-
  Region 9 of @main against the reference's messages of one layer, as arrays: whatever fills the region's seven
  input arrays, if they are the reference's inputs (the three edge arrays and the two weights the same arrays; each
  bias, which the kernel takes as one row and the reference as a vector, entry by entry), then the result array after
  the region is the reference's message array of those inputs.
-/
import proofs.«152161_j29669634081217_2_alg».proof.Proof.KI.Val9
import proofs.«152161_j29669634081217_2_alg».proof.Proof.Ref.StageMsg

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable [Cert.ReferenceIdeal.Facts₀]

-- the TensorCore's buffer contents when the region is entered, at the ideal values
variable (V : (c : Dev nD) → (b : Ref sig .tc) → Buf (Elt Ideal) ((c : Thread nD τ).loc b))

/-- The result array after the region is the reference's message array of the reference-shaped inputs. -/
theorem stage9_7 (c : Dev nD) (E Asrc Bdst : FVec Ideal S160000x128 .f32) (We : FVec Ideal S128x128 .f32)
    (be1 : FVec Ideal S128 .f32) (W2 : FVec Ideal S128x128 .f32) (b2 : FVec Ideal S128 .f32)
    (h0 : arr9_0 V c = E) (h1 : arr9_1 V c = Asrc) (h2 : arr9_2 V c = Bdst) (h3 : arr9_3 V c = We)
    (h4 : ∀ j : Fin 128, arr9_4 V c (ix2 (0 : Fin 1) j) = be1 (ix1 j)) (h5 : arr9_5 V c = W2)
    (h6 : ∀ j : Fin 128, arr9_6 V c (ix2 (0 : Fin 1) j) = b2 (ix1 j)) :
    (dat9 (F := Ideal) V c).arrAt 7 cfg9.N = Cert.ReferenceIdeal.Hand.msgRef E Asrc Bdst We be1 W2 b2 := by
  funext i
  obtain ⟨p, q, rfl⟩ : ∃ (p : Fin 160000) (q : Fin 128), i = ix2 p q := ⟨i 0, i 1, eq_ix2 i⟩
  have e4 : (fun j : Fin 128 => arr9_4 V c (ix2 (0 : Fin 1) j)) = Cert.Spec.v1 be1 := funext h4
  have e6 : (fun j : Fin 128 => arr9_6 V c (ix2 (0 : Fin 1) j)) = Cert.Spec.v1 b2 := funext h6
  refine (final9_7 V c p q).trans ?_
  rw [e4, e6, h0, h1, h2, h3, h5]
  exact (Cert.ReferenceIdeal.Hand.refMsg E Asrc Bdst We be1 W2 b2 p q).symm

end Cert.KernelIdeal.Hand

end
-- ==== Proof.KI.Reads4.lean ====
/- What regions 9 and 10 read: each input window's array, on entry to the region, as a pure term of the launch contents
   and of what the earlier regions left — the host stretch before the region read back operation by operation, its
   operands carried from where they were written. The same road as layer 0 (regions 3 and 4), under this layer's names. -/
import proofs.«152161_j29669634081217_2_alg».proof.Proof.KI.ReadsDefs
import proofs.«152161_j29669634081217_2_alg».proof.Proof.KI.ReadsCarryA
import proofs.«152161_j29669634081217_2_alg».proof.Proof.KI.ReadsCarryB

-- membership of a reference in a stretch's list of written references is decided past the default depth
set_option maxRecDepth 2864
-- the stretch before a region is read back one operation at a time: up to 28 rewriting steps per operand of a window
set_option maxHeartbeats 1000000

noncomputable section

namespace Cert.KernelIdeal.Hand

open Idealize.ShloMosaic Idealize.ShloMosaic.TcCoe
open Idealize.SL.Sem
open Idealize.ShloMosaic.StableHlo
open Cert.KernelIdeal.Gen

variable {F : FTy → Type} [FloatOps F]
variable (m : (ℓ : Loc nD τ sig) → Buf (Elt F) ℓ) (outs : Outs (F := F))

/-! ## Region 9 -/

theorem in9_0 (c : Dev nD) : V19 m outs c main_v17 = outs 4 main_v17 c :=
  at19_v17 m outs c
theorem in9_1 (c : Dev nD) : V19 m outs c main_v164 = Host.gather gather_S20000x128_S160000x1_S160000x128_1_0_n_n_0_1_1128 (outs 18 main_v157_1 c) (srcIdx m c) := by
  show StableHlo.after hostOps9 (V18 m outs c) (Proc.devRef .tc main_v164) = _
  after_results <;> rw [at18_v157_1 m outs c, at18_v1 m outs c, at1_v1 m c] <;> rfl
theorem in9_2 (c : Dev nD) : V19 m outs c main_v171 = Host.gather gather_S20000x128_S160000x1_S160000x128_1_0_n_n_0_1_1128 (outs 18 main_v157_2 c) (dstIdx m c) := by
  show StableHlo.after hostOps9 (V18 m outs c) (Proc.devRef .tc main_v171) = _
  after_results <;> rw [at18_v157_2 m outs c, at18_v3 m outs c, at1_v3 m c] <;> rfl
theorem in9_3 (c : Dev nD) : V19 m outs c main_v173 = sliceMat (m ((c : Thread nD τ).loc main_arg16)) 3 slices_S6x128x128_S1x128x128_3_0_0 := by
  show StableHlo.after hostOps9 (V18 m outs c) (Proc.devRef .tc main_v173) = _
  after_results <;> rw [at18_arg16 m outs c] <;> rfl
theorem in9_4 (c : Dev nD) : V19 m outs c main_v180 = sliceRow (m ((c : Thread nD τ).loc main_arg17)) 3 slices_S6x128_S1x128_3_0 := by
  show StableHlo.after hostOps9 (V18 m outs c) (Proc.devRef .tc main_v180) = _
  after_results <;> rw [at18_arg17 m outs c] <;> rfl
theorem in9_5 (c : Dev nD) : V19 m outs c main_v177 = sliceMat (m ((c : Thread nD τ).loc main_arg18)) 3 slices_S6x128x128_S1x128x128_3_0_0 := by
  show StableHlo.after hostOps9 (V18 m outs c) (Proc.devRef .tc main_v177) = _
  after_results <;> rw [at18_arg18 m outs c] <;> rfl
theorem in9_6 (c : Dev nD) : V19 m outs c main_v181 = sliceRow (m ((c : Thread nD τ).loc main_arg19)) 3 slices_S6x128_S1x128_3_0 := by
  show StableHlo.after hostOps9 (V18 m outs c) (Proc.devRef .tc main_v181) = _
  after_results <;> rw [at18_arg19 m outs c] <;> rfl

/-! ## Region 10 -/

theorem in10_0 (c : Dev nD) : V21 m outs c main_v157_0 = outs 18 main_v157_0 c :=
  at21_v157_0 m outs c
theorem in10_1 (c : Dev nD) : V21 m outs c main_v185 = Host.scatterAdd scatter_S20000x128_S160000x1_S160000x128_1_0_0_1 zeroAcc (dstCol m c) (outs 20 main_v182 c) := by
  show StableHlo.after hostOps10 (V20 m outs c) (Proc.devRef .tc main_v185) = _
  after_results <;> rw [at20_v3 m outs c, at1_v3 m c, at20_v182 m outs c] <;> rfl
theorem in10_2 (c : Dev nD) : V21 m outs c main_v187 = sliceMat (m ((c : Thread nD τ).loc main_arg20)) 3 slices_S6x128x128_S1x128x128_3_0_0 := by
  show StableHlo.after hostOps10 (V20 m outs c) (Proc.devRef .tc main_v187) = _
  after_results <;> rw [at20_arg20 m outs c] <;> rfl
theorem in10_3 (c : Dev nD) : V21 m outs c main_v189 = sliceMat (m ((c : Thread nD τ).loc main_arg21)) 3 slices_S6x128x128_S1x128x128_3_0_0 := by
  show StableHlo.after hostOps10 (V20 m outs c) (Proc.devRef .tc main_v189) = _
  after_results <;> rw [at20_arg21 m outs c] <;> rfl
theorem in10_4 (c : Dev nD) : V21 m outs c main_v200 = sliceRow (m ((c : Thread nD τ).loc main_arg22)) 3 slices_S6x128_S1x128_3_0 := by
  show StableHlo.after hostOps10 (V20 m outs c) (Proc.devRef .tc main_v200) = _
  after_results <;> rw [at20_arg22 m outs c] <;> rfl
theorem in10_5 (c : Dev nD) : V21 m outs c main_v193 = sliceMat (m ((c : Thread nD τ).loc main_arg23)) 3 slices_S6x128x128_S1x128x128_3_0_0 := by
  show StableHlo.after hostOps10 (V20 m outs c) (Proc.devRef .tc main_v193) = _
  after_results <;> rw [at20_arg23 m outs c] <;> rfl
theorem in10_6 (c : Dev nD) : V21 m outs c main_v201 = sliceRow (m ((c : Thread nD τ).loc main_arg24)) 3 slices_S6x128_S1x128_3_0 := by
  show StableHlo.after hostOps10 (V20 m outs c) (Proc.devRef .tc main_v201) = _
  after_results <;> rw [at20_arg24 m outs c] <;> rfl
theorem in10_7 (c : Dev nD) : V21 m outs c main_v197 = sliceMat (m ((c : Thread nD τ).loc main_arg14)) 4 slices_S6x128x128_S1x128x128_4_0_0 := by
  show StableHlo.after hostOps10 (V20 m outs c) (Proc.devRef .tc main_v197) = _
  after_results <;> rw [at20_arg14 m outs c] <;> rfl
theorem in10_8 (c : Dev nD) : V21 m outs c main_v199 = sliceMat (m ((c : Thread nD τ).loc main_arg15)) 4 slices_S6x128x128_S1x128x128_4_0_0 := by
  show StableHlo.after hostOps10 (V20 m outs c) (Proc.devRef .tc main_v199) = _
  after_results <;> rw [at20_arg15 m outs c] <;> rfl

end Cert.KernelIdeal.Hand
-- ==== Proof.KI.Val10.lean ====
/-
  Region 10 of @main, the node-update kernel of the fourth message-passing layer, over the extended reals: what the three
  result arrays hold when the region ends, as row formulas of the arrays the region finds.

  The body's arithmetic at an index of a block is the update row formula (the conversions to and from half precision
  are the identity over the extended reals, a product into a zero accumulator is the plain sum).  Each grid point writes
  back block t of one function of the whole input arrays; the five blocks of 4000 rows tile the 20000 rows; so each result
  array ends as that function.
-/
import proofs.«152161_j29669634081217_2_alg».proof.Proof.KI.Reg10
import proofs.«152161_j29669634081217_2_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Hand

open BigOperators
open Cert.KernelIdeal Cert.KernelIdeal.Gen
open Idealize.ShloMosaic Idealize.ShloMosaic.TcCoe
open Idealize.ShloMosaic.Pipeline (Dat Cfg Window)

/-! ## The body's arithmetic over the extended reals, at an index of the block -/

/-- In a [4000,128] by [128,128] product the left operand is read at the output's row -/
theorem upd10Lhs_row (i : S4000x128.Idx) (k : dot_S4000x128_S128x128_S4000x128_1_0_0_1_n_n.contr.Idx) :
    (dot_S4000x128_S128x128_S4000x128_1_0_0_1_n_n.lhsIdx i k 0).val = (i 0).val := by
  unfold DotDims.lhsIdx
  rw [dif_neg (show ¬(0 : Fin S4000x128.rank) ∈ dot_S4000x128_S128x128_S4000x128_1_0_0_1_n_n.lhsBatch from List.not_mem_nil),
    dif_pos (show (0 : Fin S4000x128.rank) ∈ dot_S4000x128_S128x128_S4000x128_1_0_0_1_n_n.lhsNonContracting from List.mem_singleton.mpr rfl)]
  rfl

/-- and at the contraction index along its columns; -/
theorem upd10Lhs_col (i : S4000x128.Idx) (k : dot_S4000x128_S128x128_S4000x128_1_0_0_1_n_n.contr.Idx) :
    (dot_S4000x128_S128x128_S4000x128_1_0_0_1_n_n.lhsIdx i k 1).val = (k ⟨0, Nat.one_pos⟩).val :=
  dot_S4000x128_S128x128_S4000x128_1_0_0_1_n_n.lhsIdx_val_of_single rfl i k

/-- the right operand at the contraction index along its rows -/
theorem upd10Rhs_row (i : S4000x128.Idx) (k : dot_S4000x128_S128x128_S4000x128_1_0_0_1_n_n.contr.Idx) :
    (dot_S4000x128_S128x128_S4000x128_1_0_0_1_n_n.rhsIdx i k 0).val = (k ⟨0, Nat.one_pos⟩).val :=
  dot_S4000x128_S128x128_S4000x128_1_0_0_1_n_n.rhsIdx_val_of_single rfl i k

/-- and at the output's column. -/
theorem upd10Rhs_col (i : S4000x128.Idx) (k : dot_S4000x128_S128x128_S4000x128_1_0_0_1_n_n.contr.Idx) :
    (dot_S4000x128_S128x128_S4000x128_1_0_0_1_n_n.rhsIdx i k 1).val = (i 1).val := by
  unfold DotDims.rhsIdx
  rw [dif_neg (show ¬(1 : Fin S128x128.rank) ∈ dot_S4000x128_S128x128_S4000x128_1_0_0_1_n_n.rhsBatch from List.not_mem_nil),
    dif_pos (show (1 : Fin S128x128.rank) ∈ dot_S4000x128_S128x128_S4000x128_1_0_0_1_n_n.rhsNonContracting from List.mem_singleton.mpr rfl)]
  rfl

/-- The matrix unit's product into a zero accumulator, at row p and column q of the block: row p times the matrix,
    with no rounding over the extended reals. -/
theorem upd10Mm_at {φ₁ φ₂ : FTy} (X : FVec Ideal S4000x128 φ₁) (W : FVec Ideal S128x128 φ₂) (p : Fin 4000) (q : Fin 128) :
    matmul dot_S4000x128_S128x128_S4000x128_1_0_0_1_n_n none X W (constant (F := Ideal) S4000x128 .f32 0x00000000#32) (ValueIdx.ix2 p q)
      = ∑ k : Fin 128, X (ValueIdx.ix2 p k) * W (ValueIdx.ix2 k q) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ValueIdx.ix2 p q) ((ValueIdx.contrEquiv1 dot_S4000x128_S128x128_S4000x128_1_0_0_1_n_n 128 rfl rfl).symm k) = ValueIdx.ix2 p k :=
    funext fun a => Fin.ext (by
      match a with
      | ⟨0, _⟩ => exact upd10Lhs_row _ _
      | ⟨1, _⟩ => exact (upd10Lhs_col _ _).trans hk)
  have er : dot_S4000x128_S128x128_S4000x128_1_0_0_1_n_n.rhsIdx (ValueIdx.ix2 p q) ((ValueIdx.contrEquiv1 dot_S4000x128_S128x128_S4000x128_1_0_0_1_n_n 128 rfl rfl).symm k) = ValueIdx.ix2 k q :=
    funext fun a => Fin.ext (by
      match a with
      | ⟨0, _⟩ => exact (upd10Rhs_row _ _).trans hk
      | ⟨1, _⟩ => exact upd10Rhs_col _ _)
  rw [el, er]

/-- A [1,128] bias broadcast down the block's rows reads its entry q at every row. -/
theorem upd10Bias_at (b : Vec Ideal S1x128 .f32) (p : Fin 4000) (q : Fin 128) :
    broadcastTo S4000x128 b broadcasts_S1x128_S4000x128 (ValueIdx.ix2 p q) = b (ValueIdx.ix2 0 q) :=
  broadcastTo_apply b _ _ (ValueIdx.ix2 0 q) (fun a => by
    match a with
    | ⟨0, _⟩ => rfl
    | ⟨1, _⟩ => rfl)

/-- The stored features: the update row formula of rows p of the two loaded blocks. -/
theorem upd10Pay3_at (h : Vec Ideal S4000x128 .f32) (wh : Vec Ideal S128x128 .f32) (g : Vec Ideal S4000x128 .f32)
    (wa : Vec Ideal S128x128 .f32) (b1 : Vec Ideal S1x128 .f32) (w2 : Vec Ideal S128x128 .f32) (b2 : Vec Ideal S1x128 .f32)
    (p : Fin 4000) (q : Fin 128) :
    k10_pay3 h wh g wa b1 w2 b2 (ValueIdx.ix2 p q)
      = Cert.Spec.upd (Cert.Spec.row h p) (Cert.Spec.row g p) (Cert.Spec.m2 wh) (Cert.Spec.m2 wa)
          (fun j => b1 (ValueIdx.ix2 0 j)) (Cert.Spec.m2 w2) (fun j => b2 (ValueIdx.ix2 0 j)) q := by
  unfold k10_pay3
  simp only [shapeCast_self]
  rw [ValueIdx.addf_apply, ValueIdx.addf_apply, upd10Mm_at, upd10Bias_at]
  simp only [ValueIdx.truncf_apply, ValueIdx.maximumf_apply, ValueIdx.addf_apply, upd10Mm_at, upd10Bias_at,
    ValueIdx.broadcast_apply]
  unfold Cert.Spec.upd Cert.Spec.aff Cert.Spec.lin Cert.Spec.relu
  refine congrArg (fun z => h (ValueIdx.ix2 p q) + (z + b2 (ValueIdx.ix2 0 q))) ?_
  refine Finset.sum_congr rfl fun k _ => ?_
  have hz : FloatOps.ofBits (F := Ideal) FTy.f32 0x00000000#32 = (0 : EReal) := Ideal.ofBits_zero_f32
  rw [upd10Bias_at, hz]

/-- The half-precision copy handed on to the two projections is the same function over the extended reals. -/
theorem upd10Pay4_at (h : Vec Ideal S4000x128 .f32) (wh : Vec Ideal S128x128 .f32) (g : Vec Ideal S4000x128 .f32)
    (wa : Vec Ideal S128x128 .f32) (b1 : Vec Ideal S1x128 .f32) (w2 : Vec Ideal S128x128 .f32) (b2 : Vec Ideal S1x128 .f32)
    (i : S4000x128.Idx) : k10_pay4 h wh g wa b1 w2 b2 i = k10_pay3 h wh g wa b1 w2 b2 i := rfl

/-- The projection by the source-side matrix: the stored features' row times the matrix. -/
theorem upd10Pay1_at (y : FVec Ideal S4000x128 .bf16) (ws : Vec Ideal S128x128 .f32) (p : Fin 4000) (q : Fin 128) :
    k10_pay1 y (k10_pay5 ws) (ValueIdx.ix2 p q) = Cert.Spec.lin (fun k => y (ValueIdx.ix2 p k)) (Cert.Spec.m2 ws) q := by
  unfold k10_pay1 k10_pay5
  simp only [shapeCast_self]
  rw [ValueIdx.truncf_apply, upd10Mm_at]
  rfl

/-- The projection by the destination-side matrix, likewise. -/
theorem upd10Pay2_at (y : FVec Ideal S4000x128 .bf16) (wd : Vec Ideal S128x128 .f32) (p : Fin 4000) (q : Fin 128) :
    k10_pay2 y wd (ValueIdx.ix2 p q) = Cert.Spec.lin (fun k => y (ValueIdx.ix2 p k)) (Cert.Spec.m2 wd) q := by
  unfold k10_pay2
  simp only [shapeCast_self]
  rw [ValueIdx.truncf_apply, upd10Mm_at]
  rfl

/-! ## From blocks to the arrays -/

variable (V : (c : Dev nD) → (b : Ref sig .tc) → Buf (Elt Ideal) ((c : Thread nD τ).loc b))

/-- Every access of the body starts at the origin of its buffer. -/
theorem upd10_origin : (![0, 0] : Fin 2 → Nat) = fun _ => 0 := funext fun a => by fin_cases a <;> rfl

/-- The new features as one function of the whole input arrays: at row r, column j, the update row formula of rows r
    of the features and of the aggregated messages. -/
noncomputable def upd10New (H Agg : S20000x128.Idx → EReal) (Wnh Wna : S128x128.Idx → EReal) (B1 : S1x128.Idx → EReal)
    (Wn2 : S128x128.Idx → EReal) (B2 : S1x128.Idx → EReal) : S20000x128.Idx → EReal := fun i =>
  Cert.Spec.upd (Cert.Spec.row H (i 0)) (Cert.Spec.row Agg (i 0)) (Cert.Spec.m2 Wnh) (Cert.Spec.m2 Wna)
    (fun j => B1 (ValueIdx.ix2 0 j)) (Cert.Spec.m2 Wn2) (fun j => B2 (ValueIdx.ix2 0 j)) (i 1)

/-- A projection of the new features as one function of the whole input arrays. -/
noncomputable def upd10Proj (H Agg : S20000x128.Idx → EReal) (Wnh Wna : S128x128.Idx → EReal) (B1 : S1x128.Idx → EReal)
    (Wn2 : S128x128.Idx → EReal) (B2 : S1x128.Idx → EReal) (W : S128x128.Idx → EReal) : S20000x128.Idx → EReal := fun i =>
  Cert.Spec.lin (Cert.Spec.upd (Cert.Spec.row H (i 0)) (Cert.Spec.row Agg (i 0)) (Cert.Spec.m2 Wnh) (Cert.Spec.m2 Wna)
    (fun j => B1 (ValueIdx.ix2 0 j)) (Cert.Spec.m2 Wn2) (fun j => B2 (ValueIdx.ix2 0 j))) (Cert.Spec.m2 W) (i 1)

/-- The printed index maps, decided over the five grid points: the two row-blocked inputs and the three results are at
    block row t, column block 0; the seven weight arrays are always at block (0, 0). -/
theorem upd10_index : ∀ t : Fin cfg10.N,
    (win10_0.index t (0 : Fin 2) = t.val ∧ win10_0.index t (1 : Fin 2) = 0)
    ∧ (win10_1.index t (0 : Fin 2) = t.val ∧ win10_1.index t (1 : Fin 2) = 0)
    ∧ (win10_2.index t (0 : Fin 2) = 0 ∧ win10_2.index t (1 : Fin 2) = 0)
    ∧ (win10_3.index t (0 : Fin 2) = 0 ∧ win10_3.index t (1 : Fin 2) = 0)
    ∧ (win10_4.index t (0 : Fin 2) = 0 ∧ win10_4.index t (1 : Fin 2) = 0)
    ∧ (win10_5.index t (0 : Fin 2) = 0 ∧ win10_5.index t (1 : Fin 2) = 0)
    ∧ (win10_6.index t (0 : Fin 2) = 0 ∧ win10_6.index t (1 : Fin 2) = 0)
    ∧ (win10_7.index t (0 : Fin 2) = 0 ∧ win10_7.index t (1 : Fin 2) = 0)
    ∧ (win10_8.index t (0 : Fin 2) = 0 ∧ win10_8.index t (1 : Fin 2) = 0)
    ∧ (win10_9.index t (0 : Fin 2) = t.val ∧ win10_9.index t (1 : Fin 2) = 0)
    ∧ (win10_10.index t (0 : Fin 2) = t.val ∧ win10_10.index t (1 : Fin 2) = 0)
    ∧ (win10_11.index t (0 : Fin 2) = t.val ∧ win10_11.index t (1 : Fin 2) = 0) :=
  (by decide +kernel : ∀ t : Fin grid10.N, _)

/-- The grid has five points. -/
theorem upd10_points (t : Fin cfg10.N) : t.val < 5 := by
  have h : t.val < grid10.N := t.isLt
  rw [N_10] at h
  exact h

/-- The row of the whole array that row p of block t is. -/
noncomputable def upd10Row (t : Fin cfg10.N) (p : Fin 4000) : Fin 20000 :=
  ⟨t.val * 4000 + p.val, by have := upd10_points t; have := p.isLt; omega⟩

/-! The arrays the region finds, at their literal shapes. -/
/-- The node features the region finds. -/
noncomputable abbrev upd10H (c : Dev nD) : S20000x128.Idx → EReal := V c (Pipeline.arrRef spec10 0)
/-- The aggregated messages the region finds. -/
noncomputable abbrev upd10Agg (c : Dev nD) : S20000x128.Idx → EReal := V c (Pipeline.arrRef spec10 1)
/-- The update's matrix on the features. -/
noncomputable abbrev upd10Wnh (c : Dev nD) : S128x128.Idx → EReal := V c (Pipeline.arrRef spec10 2)
/-- The update's matrix on the messages. -/
noncomputable abbrev upd10Wna (c : Dev nD) : S128x128.Idx → EReal := V c (Pipeline.arrRef spec10 3)
/-- The update's first bias, a [1,128] row. -/
noncomputable abbrev upd10B1 (c : Dev nD) : S1x128.Idx → EReal := V c (Pipeline.arrRef spec10 4)
/-- The update's second matrix. -/
noncomputable abbrev upd10Wn2 (c : Dev nD) : S128x128.Idx → EReal := V c (Pipeline.arrRef spec10 5)
/-- The update's second bias, a [1,128] row. -/
noncomputable abbrev upd10B2 (c : Dev nD) : S1x128.Idx → EReal := V c (Pipeline.arrRef spec10 6)
/-- The next layer's source-side matrix. -/
noncomputable abbrev upd10Ws (c : Dev nD) : S128x128.Idx → EReal := V c (Pipeline.arrRef spec10 7)
/-- The next layer's destination-side matrix. -/
noncomputable abbrev upd10Wd (c : Dev nD) : S128x128.Idx → EReal := V c (Pipeline.arrRef spec10 8)

/-! ## Each block read where its rectangle says -/

/-- Row p of window 0's block at point t is row `upd10Row t p` of its array. -/
theorem upd10_blk_0 (c : Dev nD) (t : Fin cfg10.N) (p : Fin 4000) (k : Fin 128) :
    iblk10 V c 0 t (ValueIdx.ix2 p k : S4000x128.Idx) = upd10H V c (ValueIdx.ix2 (upd10Row t p) k) := by
  have e := upd10_index t
  show V c (Pipeline.arrRef spec10 0) (((cfg10.win 0).blk t).view.emb (ValueIdx.ix2 p k : S4000x128.Idx)) = _
  refine congrArg (V c (Pipeline.arrRef spec10 0)) (funext fun a => Fin.ext ?_)
  match a with
  | ⟨0, _⟩ => show win10_0.index t (0 : Fin 2) * 4000 + 1 * p.val = t.val * 4000 + p.val; omega
  | ⟨1, _⟩ => show win10_0.index t (1 : Fin 2) * 128 + 1 * k.val = k.val; omega

/-- Row p of window 1's block at point t is row `upd10Row t p` of its array. -/
theorem upd10_blk_1 (c : Dev nD) (t : Fin cfg10.N) (p : Fin 4000) (k : Fin 128) :
    iblk10 V c 1 t (ValueIdx.ix2 p k : S4000x128.Idx) = upd10Agg V c (ValueIdx.ix2 (upd10Row t p) k) := by
  have e := upd10_index t
  show V c (Pipeline.arrRef spec10 1) (((cfg10.win 1).blk t).view.emb (ValueIdx.ix2 p k : S4000x128.Idx)) = _
  refine congrArg (V c (Pipeline.arrRef spec10 1)) (funext fun a => Fin.ext ?_)
  match a with
  | ⟨0, _⟩ => show win10_1.index t (0 : Fin 2) * 4000 + 1 * p.val = t.val * 4000 + p.val; omega
  | ⟨1, _⟩ => show win10_1.index t (1 : Fin 2) * 128 + 1 * k.val = k.val; omega

/-- Window 2's block at every point is its whole array. -/
theorem upd10_blk_2 (c : Dev nD) (t : Fin cfg10.N) (i : S128x128.Idx) : iblk10 V c 2 t i = upd10Wnh V c i := by
  have e := upd10_index t
  show V c (Pipeline.arrRef spec10 2) (((cfg10.win 2).blk t).view.emb i) = _
  refine congrArg (V c (Pipeline.arrRef spec10 2)) (funext fun a => Fin.ext ?_)
  match a with
  | ⟨0, _⟩ => show win10_2.index t (0 : Fin 2) * 128 + 1 * (i 0).val = (i 0).val; omega
  | ⟨1, _⟩ => show win10_2.index t (1 : Fin 2) * 128 + 1 * (i 1).val = (i 1).val; omega

/-- Window 3's block at every point is its whole array. -/
theorem upd10_blk_3 (c : Dev nD) (t : Fin cfg10.N) (i : S128x128.Idx) : iblk10 V c 3 t i = upd10Wna V c i := by
  have e := upd10_index t
  show V c (Pipeline.arrRef spec10 3) (((cfg10.win 3).blk t).view.emb i) = _
  refine congrArg (V c (Pipeline.arrRef spec10 3)) (funext fun a => Fin.ext ?_)
  match a with
  | ⟨0, _⟩ => show win10_3.index t (0 : Fin 2) * 128 + 1 * (i 0).val = (i 0).val; omega
  | ⟨1, _⟩ => show win10_3.index t (1 : Fin 2) * 128 + 1 * (i 1).val = (i 1).val; omega

/-- Window 4's block at every point is its whole array. -/
theorem upd10_blk_4 (c : Dev nD) (t : Fin cfg10.N) (i : S1x128.Idx) : iblk10 V c 4 t i = upd10B1 V c i := by
  have e := upd10_index t
  show V c (Pipeline.arrRef spec10 4) (((cfg10.win 4).blk t).view.emb i) = _
  refine congrArg (V c (Pipeline.arrRef spec10 4)) (funext fun a => Fin.ext ?_)
  match a with
  | ⟨0, _⟩ => show win10_4.index t (0 : Fin 2) * 1 + 1 * (i 0).val = (i 0).val; omega
  | ⟨1, _⟩ => show win10_4.index t (1 : Fin 2) * 128 + 1 * (i 1).val = (i 1).val; omega

/-- Window 5's block at every point is its whole array. -/
theorem upd10_blk_5 (c : Dev nD) (t : Fin cfg10.N) (i : S128x128.Idx) : iblk10 V c 5 t i = upd10Wn2 V c i := by
  have e := upd10_index t
  show V c (Pipeline.arrRef spec10 5) (((cfg10.win 5).blk t).view.emb i) = _
  refine congrArg (V c (Pipeline.arrRef spec10 5)) (funext fun a => Fin.ext ?_)
  match a with
  | ⟨0, _⟩ => show win10_5.index t (0 : Fin 2) * 128 + 1 * (i 0).val = (i 0).val; omega
  | ⟨1, _⟩ => show win10_5.index t (1 : Fin 2) * 128 + 1 * (i 1).val = (i 1).val; omega

/-- Window 6's block at every point is its whole array. -/
theorem upd10_blk_6 (c : Dev nD) (t : Fin cfg10.N) (i : S1x128.Idx) : iblk10 V c 6 t i = upd10B2 V c i := by
  have e := upd10_index t
  show V c (Pipeline.arrRef spec10 6) (((cfg10.win 6).blk t).view.emb i) = _
  refine congrArg (V c (Pipeline.arrRef spec10 6)) (funext fun a => Fin.ext ?_)
  match a with
  | ⟨0, _⟩ => show win10_6.index t (0 : Fin 2) * 1 + 1 * (i 0).val = (i 0).val; omega
  | ⟨1, _⟩ => show win10_6.index t (1 : Fin 2) * 128 + 1 * (i 1).val = (i 1).val; omega

/-- Window 7's block at every point is its whole array. -/
theorem upd10_blk_7 (c : Dev nD) (t : Fin cfg10.N) (i : S128x128.Idx) : iblk10 V c 7 t i = upd10Ws V c i := by
  have e := upd10_index t
  show V c (Pipeline.arrRef spec10 7) (((cfg10.win 7).blk t).view.emb i) = _
  refine congrArg (V c (Pipeline.arrRef spec10 7)) (funext fun a => Fin.ext ?_)
  match a with
  | ⟨0, _⟩ => show win10_7.index t (0 : Fin 2) * 128 + 1 * (i 0).val = (i 0).val; omega
  | ⟨1, _⟩ => show win10_7.index t (1 : Fin 2) * 128 + 1 * (i 1).val = (i 1).val; omega

/-- Window 8's block at every point is its whole array. -/
theorem upd10_blk_8 (c : Dev nD) (t : Fin cfg10.N) (i : S128x128.Idx) : iblk10 V c 8 t i = upd10Wd V c i := by
  have e := upd10_index t
  show V c (Pipeline.arrRef spec10 8) (((cfg10.win 8).blk t).view.emb i) = _
  refine congrArg (V c (Pipeline.arrRef spec10 8)) (funext fun a => Fin.ext ?_)
  match a with
  | ⟨0, _⟩ => show win10_8.index t (0 : Fin 2) * 128 + 1 * (i 0).val = (i 0).val; omega
  | ⟨1, _⟩ => show win10_8.index t (1 : Fin 2) * 128 + 1 * (i 1).val = (i 1).val; omega

/-- Index (p, q) of result window 9's block at point t is index (`upd10Row t p`, q) of its array. -/
theorem upd10_emb_9 (t : Fin cfg10.N) (p : Fin 4000) (q : Fin 128) :
    ((cfg10.win 9).blk t).view.emb (ValueIdx.ix2 p q : S4000x128.Idx) = (ValueIdx.ix2 (upd10Row t p) q : S20000x128.Idx) := by
  have e := upd10_index t
  refine funext fun a => Fin.ext ?_
  match a with
  | ⟨0, _⟩ => show win10_9.index t (0 : Fin 2) * 4000 + 1 * p.val = t.val * 4000 + p.val; omega
  | ⟨1, _⟩ => show win10_9.index t (1 : Fin 2) * 128 + 1 * q.val = q.val; omega

/-- Index (p, q) of result window 10's block at point t is index (`upd10Row t p`, q) of its array. -/
theorem upd10_emb_10 (t : Fin cfg10.N) (p : Fin 4000) (q : Fin 128) :
    ((cfg10.win 10).blk t).view.emb (ValueIdx.ix2 p q : S4000x128.Idx) = (ValueIdx.ix2 (upd10Row t p) q : S20000x128.Idx) := by
  have e := upd10_index t
  refine funext fun a => Fin.ext ?_
  match a with
  | ⟨0, _⟩ => show win10_10.index t (0 : Fin 2) * 4000 + 1 * p.val = t.val * 4000 + p.val; omega
  | ⟨1, _⟩ => show win10_10.index t (1 : Fin 2) * 128 + 1 * q.val = q.val; omega

/-- Index (p, q) of result window 11's block at point t is index (`upd10Row t p`, q) of its array. -/
theorem upd10_emb_11 (t : Fin cfg10.N) (p : Fin 4000) (q : Fin 128) :
    ((cfg10.win 11).blk t).view.emb (ValueIdx.ix2 p q : S4000x128.Idx) = (ValueIdx.ix2 (upd10Row t p) q : S20000x128.Idx) := by
  have e := upd10_index t
  refine funext fun a => Fin.ext ?_
  match a with
  | ⟨0, _⟩ => show win10_11.index t (0 : Fin 2) * 4000 + 1 * p.val = t.val * 4000 + p.val; omega
  | ⟨1, _⟩ => show win10_11.index t (1 : Fin 2) * 128 + 1 * q.val = q.val; omega

/-- The update row formula of rows p of the blocks at point t is that of rows `upd10Row t p` of the arrays. -/
theorem upd10_rows (c : Dev nD) (t : Fin cfg10.N) (p : Fin 4000) :
    Cert.Spec.upd (Cert.Spec.row (iblk10 V c 0 t) p) (Cert.Spec.row (iblk10 V c 1 t) p) (Cert.Spec.m2 (iblk10 V c 2 t))
        (Cert.Spec.m2 (iblk10 V c 3 t)) (fun j => iblk10 V c 4 t (ValueIdx.ix2 0 j)) (Cert.Spec.m2 (iblk10 V c 5 t))
        (fun j => iblk10 V c 6 t (ValueIdx.ix2 0 j))
      = Cert.Spec.upd (Cert.Spec.row (upd10H V c) (upd10Row t p)) (Cert.Spec.row (upd10Agg V c) (upd10Row t p))
          (Cert.Spec.m2 (upd10Wnh V c)) (Cert.Spec.m2 (upd10Wna V c)) (fun j => upd10B1 V c (ValueIdx.ix2 0 j))
          (Cert.Spec.m2 (upd10Wn2 V c)) (fun j => upd10B2 V c (ValueIdx.ix2 0 j)) := by
  have h0 : Cert.Spec.row (iblk10 V c 0 t) p = Cert.Spec.row (upd10H V c) (upd10Row t p) := funext fun k => upd10_blk_0 V c t p k
  have h1 : Cert.Spec.row (iblk10 V c 1 t) p = Cert.Spec.row (upd10Agg V c) (upd10Row t p) := funext fun k => upd10_blk_1 V c t p k
  have h2 : Cert.Spec.m2 (iblk10 V c 2 t) = Cert.Spec.m2 (upd10Wnh V c) := funext fun a => funext fun b => upd10_blk_2 V c t _
  have h3 : Cert.Spec.m2 (iblk10 V c 3 t) = Cert.Spec.m2 (upd10Wna V c) := funext fun a => funext fun b => upd10_blk_3 V c t _
  have h4 : (fun j : Fin 128 => iblk10 V c 4 t (ValueIdx.ix2 0 j)) = fun j => upd10B1 V c (ValueIdx.ix2 0 j) := funext fun j => upd10_blk_4 V c t _
  have h5 : Cert.Spec.m2 (iblk10 V c 5 t) = Cert.Spec.m2 (upd10Wn2 V c) := funext fun a => funext fun b => upd10_blk_5 V c t _
  have h6 : (fun j : Fin 128 => iblk10 V c 6 t (ValueIdx.ix2 0 j)) = fun j => upd10B2 V c (ValueIdx.ix2 0 j) := funext fun j => upd10_blk_6 V c t _
  rw [h0, h1, h2, h3, h4, h5, h6]

/-! ## What each point writes back -/

/-- Point t writes back, into the new features, block t of `upd10New` of the arrays the region finds. -/
theorem upd10_flushed_9 (c : Dev nD) (t : Fin cfg10.N) :
    (dat10 V c).flushed 9 t = ((cfg10.win 9).blk t).view.read (Elt Ideal) (upd10New (upd10H V c) (upd10Agg V c) (upd10Wnh V c) (upd10Wna V c) (upd10B1 V c) (upd10Wn2 V c) (upd10B2 V c)) := by
  show (cfg10.win 9).cut (grid10.coords t) ((dat10 V c).after 9 t) = _
  rw [after10_9]
  unfold out10_9
  rw [View.canon_unit_zero upd10_origin]
  simp only [View.ld_unit_zero (S := S4000x128) upd10_origin, View.ld_unit_zero (S := S128x128) upd10_origin,
    View.ld_unit_zero (S := S1x128) upd10_origin]
  funext j
  obtain ⟨p, q, rfl⟩ : ∃ (p : Fin 4000) (q : Fin 128), j = ValueIdx.ix2 p q := ⟨j 0, j 1, ValueIdx.eq_ix2 j⟩
  show k10_pay3 (iblk10 V c 0 t) (iblk10 V c 2 t) (iblk10 V c 1 t) (iblk10 V c 3 t) (iblk10 V c 4 t) (iblk10 V c 5 t) (iblk10 V c 6 t) (ValueIdx.ix2 p q)
    = upd10New (upd10H V c) (upd10Agg V c) (upd10Wnh V c) (upd10Wna V c) (upd10B1 V c) (upd10Wn2 V c) (upd10B2 V c) (((cfg10.win 9).blk t).view.emb (ValueIdx.ix2 p q : S4000x128.Idx))
  rw [upd10Pay3_at, upd10_emb_9, upd10_rows]
  rfl

/-- Point t writes back, into the source-side projection, block t of `upd10Proj` by the source-side matrix. -/
theorem upd10_flushed_10 (c : Dev nD) (t : Fin cfg10.N) :
    (dat10 V c).flushed 10 t = ((cfg10.win 10).blk t).view.read (Elt Ideal) (upd10Proj (upd10H V c) (upd10Agg V c) (upd10Wnh V c) (upd10Wna V c) (upd10B1 V c) (upd10Wn2 V c) (upd10B2 V c) (upd10Ws V c)) := by
  show (cfg10.win 10).cut (grid10.coords t) ((dat10 V c).after 10 t) = _
  rw [after10_10]
  unfold out10_10
  rw [View.canon_unit_zero upd10_origin]
  simp only [View.ld_unit_zero (S := S4000x128) upd10_origin, View.ld_unit_zero (S := S128x128) upd10_origin,
    View.ld_unit_zero (S := S1x128) upd10_origin]
  funext j
  obtain ⟨p, q, rfl⟩ : ∃ (p : Fin 4000) (q : Fin 128), j = ValueIdx.ix2 p q := ⟨j 0, j 1, ValueIdx.eq_ix2 j⟩
  show k10_pay1 (k10_pay4 (iblk10 V c 0 t) (iblk10 V c 2 t) (iblk10 V c 1 t) (iblk10 V c 3 t) (iblk10 V c 4 t) (iblk10 V c 5 t) (iblk10 V c 6 t))
      (k10_pay5 (iblk10 V c 7 t)) (ValueIdx.ix2 p q)
    = upd10Proj (upd10H V c) (upd10Agg V c) (upd10Wnh V c) (upd10Wna V c) (upd10B1 V c) (upd10Wn2 V c) (upd10B2 V c) (upd10Ws V c) (((cfg10.win 10).blk t).view.emb (ValueIdx.ix2 p q : S4000x128.Idx))
  rw [upd10Pay1_at, upd10_emb_10]
  have hy : (fun k : Fin 128 => k10_pay4 (iblk10 V c 0 t) (iblk10 V c 2 t) (iblk10 V c 1 t) (iblk10 V c 3 t) (iblk10 V c 4 t) (iblk10 V c 5 t)
      (iblk10 V c 6 t) (ValueIdx.ix2 p k))
      = Cert.Spec.upd (Cert.Spec.row (upd10H V c) (upd10Row t p)) (Cert.Spec.row (upd10Agg V c) (upd10Row t p))
          (Cert.Spec.m2 (upd10Wnh V c)) (Cert.Spec.m2 (upd10Wna V c)) (fun j => upd10B1 V c (ValueIdx.ix2 0 j))
          (Cert.Spec.m2 (upd10Wn2 V c)) (fun j => upd10B2 V c (ValueIdx.ix2 0 j)) :=
    funext fun k => by rw [upd10Pay4_at, upd10Pay3_at, upd10_rows]
  have hw : Cert.Spec.m2 (iblk10 V c 7 t) = Cert.Spec.m2 (upd10Ws V c) := funext fun a => funext fun b => upd10_blk_7 V c t _
  rw [hy, hw]
  rfl

/-- Point t writes back, into the destination-side projection, block t of `upd10Proj` by the destination-side matrix. -/
theorem upd10_flushed_11 (c : Dev nD) (t : Fin cfg10.N) :
    (dat10 V c).flushed 11 t = ((cfg10.win 11).blk t).view.read (Elt Ideal) (upd10Proj (upd10H V c) (upd10Agg V c) (upd10Wnh V c) (upd10Wna V c) (upd10B1 V c) (upd10Wn2 V c) (upd10B2 V c) (upd10Wd V c)) := by
  show (cfg10.win 11).cut (grid10.coords t) ((dat10 V c).after 11 t) = _
  rw [after10_11]
  unfold out10_11
  rw [View.canon_unit_zero upd10_origin]
  simp only [View.ld_unit_zero (S := S4000x128) upd10_origin, View.ld_unit_zero (S := S128x128) upd10_origin,
    View.ld_unit_zero (S := S1x128) upd10_origin]
  funext j
  obtain ⟨p, q, rfl⟩ : ∃ (p : Fin 4000) (q : Fin 128), j = ValueIdx.ix2 p q := ⟨j 0, j 1, ValueIdx.eq_ix2 j⟩
  show k10_pay2 (k10_pay4 (iblk10 V c 0 t) (iblk10 V c 2 t) (iblk10 V c 1 t) (iblk10 V c 3 t) (iblk10 V c 4 t) (iblk10 V c 5 t) (iblk10 V c 6 t))
      (iblk10 V c 8 t) (ValueIdx.ix2 p q)
    = upd10Proj (upd10H V c) (upd10Agg V c) (upd10Wnh V c) (upd10Wna V c) (upd10B1 V c) (upd10Wn2 V c) (upd10B2 V c) (upd10Wd V c) (((cfg10.win 11).blk t).view.emb (ValueIdx.ix2 p q : S4000x128.Idx))
  rw [upd10Pay2_at, upd10_emb_11]
  have hy : (fun k : Fin 128 => k10_pay4 (iblk10 V c 0 t) (iblk10 V c 2 t) (iblk10 V c 1 t) (iblk10 V c 3 t) (iblk10 V c 4 t) (iblk10 V c 5 t)
      (iblk10 V c 6 t) (ValueIdx.ix2 p k))
      = Cert.Spec.upd (Cert.Spec.row (upd10H V c) (upd10Row t p)) (Cert.Spec.row (upd10Agg V c) (upd10Row t p))
          (Cert.Spec.m2 (upd10Wnh V c)) (Cert.Spec.m2 (upd10Wna V c)) (fun j => upd10B1 V c (ValueIdx.ix2 0 j))
          (Cert.Spec.m2 (upd10Wn2 V c)) (fun j => upd10B2 V c (ValueIdx.ix2 0 j)) :=
    funext fun k => by rw [upd10Pay4_at, upd10Pay3_at, upd10_rows]
  have hw : Cert.Spec.m2 (iblk10 V c 8 t) = Cert.Spec.m2 (upd10Wd V c) := funext fun a => funext fun b => upd10_blk_8 V c t _
  rw [hy, hw]
  rfl

/-! ## The blocks tile the rows -/

/-- An index of result array 9 is in point t's block iff each coordinate is in the block's range on its axis. -/
theorem upd10_mem_9 (t : Fin cfg10.N) (i : S20000x128.Idx) :
    i ∈ ((cfg10.win 9).blk t).view.set ↔ ∀ a : Fin 2, win10_9.index t a * S4000x128.size a ≤ (i a).val
      ∧ (i a).val < win10_9.index t a * S4000x128.size a + S4000x128.size a := by
  show i ∈ ((View.whole (Pipeline.arrRef spec10 9)).slice (win10_9.rect t)).set ↔ _
  rw [View.set_slice_whole, Rect.mem_set_unit]
  exact Iff.rfl

/-- Row r of result array 9 is in the block of point r / 4000, and every point writes its block back. -/
theorem upd10_cover_9 (i : S20000x128.Idx) :
    ∃ t : Fin cfg10.N, (cfg10.win 9).flush t = true ∧ i ∈ ((cfg10.win 9).blk t).view.set := by
  have hi0 : (i 0).val < 20000 := (i 0).isLt
  have hi1 : (i 1).val < 128 := (i 1).isLt
  have hN : (i 0).val / 4000 < grid10.N := by rw [N_10]; omega
  refine ⟨⟨(i 0).val / 4000, hN⟩, flush10_9 _, ?_⟩
  rw [upd10_mem_9]
  obtain ⟨-, -, -, -, -, -, -, -, -, e9, e10, e11⟩ := upd10_index ⟨(i 0).val / 4000, hN⟩
  have q0 : win10_9.index ⟨(i 0).val / 4000, hN⟩ (0 : Fin 2) = (i 0).val / 4000 := e9.1
  have q1 : win10_9.index ⟨(i 0).val / 4000, hN⟩ (1 : Fin 2) = 0 := e9.2
  intro a
  match a with
  | ⟨0, _⟩ =>
    show win10_9.index ⟨(i 0).val / 4000, hN⟩ (0 : Fin 2) * 4000 ≤ (i 0).val
      ∧ (i 0).val < win10_9.index ⟨(i 0).val / 4000, hN⟩ (0 : Fin 2) * 4000 + 4000
    omega
  | ⟨1, _⟩ =>
    show win10_9.index ⟨(i 0).val / 4000, hN⟩ (1 : Fin 2) * 128 ≤ (i 1).val
      ∧ (i 1).val < win10_9.index ⟨(i 0).val / 4000, hN⟩ (1 : Fin 2) * 128 + 128
    omega

/-- An index of result array 10 is in point t's block iff each coordinate is in the block's range on its axis. -/
theorem upd10_mem_10 (t : Fin cfg10.N) (i : S20000x128.Idx) :
    i ∈ ((cfg10.win 10).blk t).view.set ↔ ∀ a : Fin 2, win10_10.index t a * S4000x128.size a ≤ (i a).val
      ∧ (i a).val < win10_10.index t a * S4000x128.size a + S4000x128.size a := by
  show i ∈ ((View.whole (Pipeline.arrRef spec10 10)).slice (win10_10.rect t)).set ↔ _
  rw [View.set_slice_whole, Rect.mem_set_unit]
  exact Iff.rfl

/-- Row r of result array 10 is in the block of point r / 4000, and every point writes its block back. -/
theorem upd10_cover_10 (i : S20000x128.Idx) :
    ∃ t : Fin cfg10.N, (cfg10.win 10).flush t = true ∧ i ∈ ((cfg10.win 10).blk t).view.set := by
  have hi0 : (i 0).val < 20000 := (i 0).isLt
  have hi1 : (i 1).val < 128 := (i 1).isLt
  have hN : (i 0).val / 4000 < grid10.N := by rw [N_10]; omega
  refine ⟨⟨(i 0).val / 4000, hN⟩, flush10_10 _, ?_⟩
  rw [upd10_mem_10]
  obtain ⟨-, -, -, -, -, -, -, -, -, e9, e10, e11⟩ := upd10_index ⟨(i 0).val / 4000, hN⟩
  have q0 : win10_10.index ⟨(i 0).val / 4000, hN⟩ (0 : Fin 2) = (i 0).val / 4000 := e10.1
  have q1 : win10_10.index ⟨(i 0).val / 4000, hN⟩ (1 : Fin 2) = 0 := e10.2
  intro a
  match a with
  | ⟨0, _⟩ =>
    show win10_10.index ⟨(i 0).val / 4000, hN⟩ (0 : Fin 2) * 4000 ≤ (i 0).val
      ∧ (i 0).val < win10_10.index ⟨(i 0).val / 4000, hN⟩ (0 : Fin 2) * 4000 + 4000
    omega
  | ⟨1, _⟩ =>
    show win10_10.index ⟨(i 0).val / 4000, hN⟩ (1 : Fin 2) * 128 ≤ (i 1).val
      ∧ (i 1).val < win10_10.index ⟨(i 0).val / 4000, hN⟩ (1 : Fin 2) * 128 + 128
    omega

/-- An index of result array 11 is in point t's block iff each coordinate is in the block's range on its axis. -/
theorem upd10_mem_11 (t : Fin cfg10.N) (i : S20000x128.Idx) :
    i ∈ ((cfg10.win 11).blk t).view.set ↔ ∀ a : Fin 2, win10_11.index t a * S4000x128.size a ≤ (i a).val
      ∧ (i a).val < win10_11.index t a * S4000x128.size a + S4000x128.size a := by
  show i ∈ ((View.whole (Pipeline.arrRef spec10 11)).slice (win10_11.rect t)).set ↔ _
  rw [View.set_slice_whole, Rect.mem_set_unit]
  exact Iff.rfl

/-- Row r of result array 11 is in the block of point r / 4000, and every point writes its block back. -/
theorem upd10_cover_11 (i : S20000x128.Idx) :
    ∃ t : Fin cfg10.N, (cfg10.win 11).flush t = true ∧ i ∈ ((cfg10.win 11).blk t).view.set := by
  have hi0 : (i 0).val < 20000 := (i 0).isLt
  have hi1 : (i 1).val < 128 := (i 1).isLt
  have hN : (i 0).val / 4000 < grid10.N := by rw [N_10]; omega
  refine ⟨⟨(i 0).val / 4000, hN⟩, flush10_11 _, ?_⟩
  rw [upd10_mem_11]
  obtain ⟨-, -, -, -, -, -, -, -, -, e9, e10, e11⟩ := upd10_index ⟨(i 0).val / 4000, hN⟩
  have q0 : win10_11.index ⟨(i 0).val / 4000, hN⟩ (0 : Fin 2) = (i 0).val / 4000 := e11.1
  have q1 : win10_11.index ⟨(i 0).val / 4000, hN⟩ (1 : Fin 2) = 0 := e11.2
  intro a
  match a with
  | ⟨0, _⟩ =>
    show win10_11.index ⟨(i 0).val / 4000, hN⟩ (0 : Fin 2) * 4000 ≤ (i 0).val
      ∧ (i 0).val < win10_11.index ⟨(i 0).val / 4000, hN⟩ (0 : Fin 2) * 4000 + 4000
    omega
  | ⟨1, _⟩ =>
    show win10_11.index ⟨(i 0).val / 4000, hN⟩ (1 : Fin 2) * 128 ≤ (i 1).val
      ∧ (i 1).val < win10_11.index ⟨(i 0).val / 4000, hN⟩ (1 : Fin 2) * 128 + 128
    omega

/-! ## The result arrays when the region ends -/

/-- The new features end as `upd10New` of the arrays the region finds. -/
theorem upd10_array_9 (c : Dev nD) : (dat10 (F := Ideal) V c).arrAt 9 cfg10.N = upd10New (upd10H V c) (upd10Agg V c) (upd10Wnh V c) (upd10Wna V c) (upd10B1 V c) (upd10Wn2 V c) (upd10B2 V c) :=
  (dat10 V c).arrAt_eq_of_cover 9 (upd10New (upd10H V c) (upd10Agg V c) (upd10Wnh V c) (upd10Wna V c) (upd10B1 V c) (upd10Wn2 V c) (upd10B2 V c)) (fun t _ => upd10_flushed_9 V c t) upd10_cover_9

/-- The source-side projection ends as `upd10Proj` by the source-side matrix. -/
theorem upd10_array_10 (c : Dev nD) : (dat10 (F := Ideal) V c).arrAt 10 cfg10.N = upd10Proj (upd10H V c) (upd10Agg V c) (upd10Wnh V c) (upd10Wna V c) (upd10B1 V c) (upd10Wn2 V c) (upd10B2 V c) (upd10Ws V c) :=
  (dat10 V c).arrAt_eq_of_cover 10 (upd10Proj (upd10H V c) (upd10Agg V c) (upd10Wnh V c) (upd10Wna V c) (upd10B1 V c) (upd10Wn2 V c) (upd10B2 V c) (upd10Ws V c)) (fun t _ => upd10_flushed_10 V c t) upd10_cover_10

/-- The destination-side projection ends as `upd10Proj` by the destination-side matrix. -/
theorem upd10_array_11 (c : Dev nD) : (dat10 (F := Ideal) V c).arrAt 11 cfg10.N = upd10Proj (upd10H V c) (upd10Agg V c) (upd10Wnh V c) (upd10Wna V c) (upd10B1 V c) (upd10Wn2 V c) (upd10B2 V c) (upd10Wd V c) :=
  (dat10 V c).arrAt_eq_of_cover 11 (upd10Proj (upd10H V c) (upd10Agg V c) (upd10Wnh V c) (upd10Wna V c) (upd10B1 V c) (upd10Wn2 V c) (upd10B2 V c) (upd10Wd V c)) (fun t _ => upd10_flushed_11 V c t) upd10_cover_11

/-- The new features at row p, column q: the update row formula of rows p of the features and the messages. -/
theorem final10_9 (c : Dev nD) (p : Fin 20000) (q : Fin 128) :
    (dat10 (F := Ideal) V c).arrAt 9 cfg10.N (ValueIdx.ix2 p q : S20000x128.Idx)
      = Cert.Spec.upd (Cert.Spec.row (upd10H V c) p) (Cert.Spec.row (upd10Agg V c) p) (Cert.Spec.m2 (upd10Wnh V c))
        (Cert.Spec.m2 (upd10Wna V c)) (fun j => upd10B1 V c (ValueIdx.ix2 0 j)) (Cert.Spec.m2 (upd10Wn2 V c))
        (fun j => upd10B2 V c (ValueIdx.ix2 0 j)) q := by
  rw [upd10_array_9]; rfl

/-- The source-side projection at row p, column q: the new features' row p times the source-side matrix. -/
theorem final10_10 (c : Dev nD) (p : Fin 20000) (q : Fin 128) :
    (dat10 (F := Ideal) V c).arrAt 10 cfg10.N (ValueIdx.ix2 p q : S20000x128.Idx)
      = Cert.Spec.lin (Cert.Spec.upd (Cert.Spec.row (upd10H V c) p) (Cert.Spec.row (upd10Agg V c) p) (Cert.Spec.m2 (upd10Wnh V c))
        (Cert.Spec.m2 (upd10Wna V c)) (fun j => upd10B1 V c (ValueIdx.ix2 0 j)) (Cert.Spec.m2 (upd10Wn2 V c))
        (fun j => upd10B2 V c (ValueIdx.ix2 0 j))) (Cert.Spec.m2 (upd10Ws V c)) q := by
  rw [upd10_array_10]; rfl

/-- The destination-side projection at row p, column q: the new features' row p times the destination-side matrix. -/
theorem final10_11 (c : Dev nD) (p : Fin 20000) (q : Fin 128) :
    (dat10 (F := Ideal) V c).arrAt 11 cfg10.N (ValueIdx.ix2 p q : S20000x128.Idx)
      = Cert.Spec.lin (Cert.Spec.upd (Cert.Spec.row (upd10H V c) p) (Cert.Spec.row (upd10Agg V c) p) (Cert.Spec.m2 (upd10Wnh V c))
        (Cert.Spec.m2 (upd10Wna V c)) (fun j => upd10B1 V c (ValueIdx.ix2 0 j)) (Cert.Spec.m2 (upd10Wn2 V c))
        (fun j => upd10B2 V c (ValueIdx.ix2 0 j))) (Cert.Spec.m2 (upd10Wd V c)) q := by
  rw [upd10_array_11]; rfl

end Cert.KernelIdeal.Hand

end
-- ==== Proof.Bridge.Upd10.lean ====
/-
  Region 10, the node update of one layer, as equations of arrays: whatever fills the region's nine input arrays, if
  they are the reference's inputs (the features, the aggregated messages and the five weight matrices the same arrays;
  each bias, which the kernel takes as one row and the reference as a vector, entry by entry), then the three result
  arrays after the region are the reference's updated features and their two projections for the next layer.
-/
import proofs.«152161_j29669634081217_2_alg».proof.Proof.KI.Val10
import proofs.«152161_j29669634081217_2_alg».proof.Proof.Ref.StageUpd
import proofs.«152161_j29669634081217_2_alg».proof.Proof.Ref.StageAB
import proofs.«152161_j29669634081217_2_alg».proof.Proof.Ref.Stages

noncomputable section

namespace Cert.Bridge

open Idealize.ShloMosaic Idealize.ShloMosaic.TcCoe Idealize.SL.Sem Idealize.ShloMosaic.ValueIdx
open Idealize.ShloMosaic.Pipeline (Dat)
open Cert.KernelIdeal Cert.KernelIdeal.Gen
open Cert.KernelIdeal.Hand (dat10 final10_9 final10_10 final10_11 upd10H upd10Agg upd10Wnh upd10Wna upd10B1 upd10Wn2 upd10B2 upd10Ws upd10Wd)
open Cert.ReferenceIdeal.Hand (updRef linRef refUpd refLin)

variable (V : (c : Dev nD) → (b : Ref sig .tc) → Buf (Elt Ideal) ((c : Thread nD τ).loc b)) (c : Dev nD)
variable (H Agg : FVec Ideal Cert.ReferenceIdeal.S20000x128 .f32) (Wnh Wna : FVec Ideal Cert.ReferenceIdeal.S128x128 .f32)
  (b1 : FVec Ideal Cert.ReferenceIdeal.S128 .f32) (Wn2 : FVec Ideal Cert.ReferenceIdeal.S128x128 .f32)
  (b2 : FVec Ideal Cert.ReferenceIdeal.S128 .f32)

/-- The updated features: both sides are the update row formula of rows p of the features and of the messages. -/
theorem upd10_new (h0 : upd10H V c = H) (h1 : upd10Agg V c = Agg) (h2 : upd10Wnh V c = Wnh) (h3 : upd10Wna V c = Wna)
    (h4 : ∀ j : Fin 128, upd10B1 V c (ix2 (0 : Fin 1) j) = b1 (ix1 j)) (h5 : upd10Wn2 V c = Wn2)
    (h6 : ∀ j : Fin 128, upd10B2 V c (ix2 (0 : Fin 1) j) = b2 (ix1 j)) :
    ((dat10 (F := Ideal) V c).arrAt 9 cfg10.N : S20000x128.Idx → EReal) = updRef H Agg Wnh Wna b1 Wn2 b2 := by
  funext i
  obtain ⟨p, q, rfl⟩ : ∃ (p : Fin 20000) (q : Fin 128), i = ix2 p q := ⟨i 0, i 1, eq_ix2 i⟩
  have e4 : (fun j : Fin 128 => upd10B1 V c (ix2 (0 : Fin 1) j)) = Cert.Spec.v1 b1 := funext h4
  have e6 : (fun j : Fin 128 => upd10B2 V c (ix2 (0 : Fin 1) j)) = Cert.Spec.v1 b2 := funext h6
  refine (final10_9 V c p q).trans ?_
  rw [e4, e6, h0, h1, h2, h3, h5]
  exact (refUpd H Agg Wnh Wna b1 Wn2 b2 p q).symm

/-- A projection of the updated features by a matrix W, for any array R that reads as that projection at every index:
    row p of the updated features, on both sides the update row formula, times W. -/
theorem upd10_proj_of (R : S20000x128.Idx → EReal) (Wk : S128x128.Idx → EReal) (W : FVec Ideal Cert.ReferenceIdeal.S128x128 .f32)
    (hfin : ∀ (p : Fin 20000) (q : Fin 128), R (ix2 p q : S20000x128.Idx)
      = Cert.Spec.lin (Cert.Spec.upd (Cert.Spec.row (upd10H V c) p) (Cert.Spec.row (upd10Agg V c) p) (Cert.Spec.m2 (upd10Wnh V c))
        (Cert.Spec.m2 (upd10Wna V c)) (fun j => upd10B1 V c (ix2 0 j)) (Cert.Spec.m2 (upd10Wn2 V c))
        (fun j => upd10B2 V c (ix2 0 j))) (Cert.Spec.m2 Wk) q)
    (h0 : upd10H V c = H) (h1 : upd10Agg V c = Agg) (h2 : upd10Wnh V c = Wnh) (h3 : upd10Wna V c = Wna)
    (h4 : ∀ j : Fin 128, upd10B1 V c (ix2 (0 : Fin 1) j) = b1 (ix1 j)) (h5 : upd10Wn2 V c = Wn2)
    (h6 : ∀ j : Fin 128, upd10B2 V c (ix2 (0 : Fin 1) j) = b2 (ix1 j)) (h7 : Wk = W) :
    R = linRef (updRef H Agg Wnh Wna b1 Wn2 b2) W := by
  funext i
  obtain ⟨p, q, rfl⟩ : ∃ (p : Fin 20000) (q : Fin 128), i = ix2 p q := ⟨i 0, i 1, eq_ix2 i⟩
  have e4 : (fun j : Fin 128 => upd10B1 V c (ix2 (0 : Fin 1) j)) = Cert.Spec.v1 b1 := funext h4
  have e6 : (fun j : Fin 128 => upd10B2 V c (ix2 (0 : Fin 1) j)) = Cert.Spec.v1 b2 := funext h6
  refine (hfin p q).trans ?_
  rw [e4, e6, h0, h1, h2, h3, h5, h7]
  refine Eq.trans ?_ (refLin (updRef H Agg Wnh Wna b1 Wn2 b2) W p q).symm
  refine congrArg (fun x => Cert.Spec.lin x (Cert.Spec.m2 W) q) ?_
  funext k
  exact (refUpd H Agg Wnh Wna b1 Wn2 b2 p k).symm

/-- The projection by the source-side matrix of the next layer. -/
theorem upd10_projS (Ws : FVec Ideal Cert.ReferenceIdeal.S128x128 .f32)
    (h0 : upd10H V c = H) (h1 : upd10Agg V c = Agg) (h2 : upd10Wnh V c = Wnh) (h3 : upd10Wna V c = Wna)
    (h4 : ∀ j : Fin 128, upd10B1 V c (ix2 (0 : Fin 1) j) = b1 (ix1 j)) (h5 : upd10Wn2 V c = Wn2)
    (h6 : ∀ j : Fin 128, upd10B2 V c (ix2 (0 : Fin 1) j) = b2 (ix1 j)) (h7 : upd10Ws V c = Ws) :
    ((dat10 (F := Ideal) V c).arrAt 10 cfg10.N : S20000x128.Idx → EReal) = linRef (updRef H Agg Wnh Wna b1 Wn2 b2) Ws :=
  upd10_proj_of V c H Agg Wnh Wna b1 Wn2 b2 ((dat10 (F := Ideal) V c).arrAt 10 cfg10.N) (upd10Ws V c) Ws (final10_10 V c) h0 h1 h2 h3 h4 h5 h6 h7

/-- The projection by the destination-side matrix of the next layer. -/
theorem upd10_projD (Wd : FVec Ideal Cert.ReferenceIdeal.S128x128 .f32)
    (h0 : upd10H V c = H) (h1 : upd10Agg V c = Agg) (h2 : upd10Wnh V c = Wnh) (h3 : upd10Wna V c = Wna)
    (h4 : ∀ j : Fin 128, upd10B1 V c (ix2 (0 : Fin 1) j) = b1 (ix1 j)) (h5 : upd10Wn2 V c = Wn2)
    (h6 : ∀ j : Fin 128, upd10B2 V c (ix2 (0 : Fin 1) j) = b2 (ix1 j)) (h8 : upd10Wd V c = Wd) :
    ((dat10 (F := Ideal) V c).arrAt 11 cfg10.N : S20000x128.Idx → EReal) = linRef (updRef H Agg Wnh Wna b1 Wn2 b2) Wd :=
  upd10_proj_of V c H Agg Wnh Wna b1 Wn2 b2 ((dat10 (F := Ideal) V c).arrAt 11 cfg10.N) (upd10Wd V c) Wd (final10_11 V c) h0 h1 h2 h3 h4 h5 h6 h8

end Cert.Bridge

end
-- ==== Proof.Bridge.Layer3.lean ====
/-
  Layer 3 of the message passing, the kernel program's buffers against the reference's named stages. Region 9 leaves
  the reference's messages of layer 3 in its result buffer, given that the two projections and the encoded edges it
  reads are the reference's. Region 10 then leaves the reference's node features entering layer 4 and their two
  projections, given those messages and the features entering layer 3.
-/
import proofs.«152161_j29669634081217_2_alg».proof.Proof.KI.Stage9
import proofs.«152161_j29669634081217_2_alg».proof.Proof.KI.Reads4
import proofs.«152161_j29669634081217_2_alg».proof.Proof.KI.Outs
import proofs.«152161_j29669634081217_2_alg».proof.Proof.Bridge.Args
import proofs.«152161_j29669634081217_2_alg».proof.Proof.Bridge.LayerCommon
import proofs.«152161_j29669634081217_2_alg».proof.Proof.Bridge.Upd10

-- reading a buffer at a boundary unfolds the table of boundaries, one case per boundary
set_option maxRecDepth 16384

noncomputable section

namespace Cert.Bridge

open Idealize.ShloMosaic Idealize.ShloMosaic.TcCoe Idealize.SL.Sem Idealize.ShloMosaic.ValueIdx
open Cert.KernelIdeal Cert.KernelIdeal.Gen
open Cert.KernelIdeal.Hand (W18 W4 W20 W22 outs VW20 VW22 en9 en10 Ex9_out7 Ex10_out9 Ex10_out10 Ex10_out11 stage9_7
  in9_0 in9_1 in9_2 in9_3 in9_4 in9_5 in9_6 in10_0 in10_1 in10_2 in10_3 in10_4 in10_5 in10_6 in10_7 in10_8
  upd10H upd10Agg upd10Wnh upd10Wna upd10B1 upd10Wn2 upd10B2 upd10Ws upd10Wd)
open Cert.ReferenceIdeal.Hand (Args e0S hS aS bS mS aggS asrcS bdstS wmN wvN)

variable (m : (ℓ : Loc nD τ sig) → Buf (Elt Ideal) ℓ) (c : Dev nD)

/-! ## Region 9: the messages -/

/-- Region 9's result buffer holds the reference's messages of layer 3.
    Its seven inputs, one by one: the encoded edges are the buffer region 1 left; the two gathered projections are
    gathers of the second and third buffers region 8 left, along the edge list's two rows, which is how the reference gathers them; the
    two weight matrices and the two bias rows are layer 3's slabs of the stacked arguments. -/
theorem bm3 (ha : W18 m c main_v157_1 = aS (argsOf m c) 3) (hb : W18 m c main_v157_2 = bS (argsOf m c) 3)
    (he : W4 m c main_v17 = e0S (argsOf m c)) :
    W20 m c main_v182 = mS (argsOf m c) 3 := by
  rw [← VW20]
  refine (Ex9_out7 m c).trans ?_
  refine stage9_7 (en9 m) c (e0S (argsOf m c)) (asrcS (argsOf m c) 3) (bdstS (argsOf m c) 3)
    (wmN (argsOf m c).a16 3) (wvN (argsOf m c).a17 3) (wmN (argsOf m c).a18 3) (wvN (argsOf m c).a19 3)
    ?_ ?_ ?_ ?_ ?_ ?_ ?_
  · exact (in9_0 m (outs m) c).trans he
  · refine (in9_1 m (outs m) c).trans ?_
    rw [show outs m 18 main_v157_1 c = W18 m c main_v157_1 from rfl, ha]
    exact gatherSrc_eq m c _
  · refine (in9_2 m (outs m) c).trans ?_
    rw [show outs m 18 main_v157_2 c = W18 m c main_v157_2 from rfl, hb]
    exact gatherDst_eq m c _
  · exact (in9_3 m (outs m) c).trans (sliceMat_eq _ 3 _ _)
  · exact fun j => (congrFun (in9_4 m (outs m) c) (ix2 (0 : Fin 1) j)).trans (sliceRow_at _ 3 _ _ j)
  · exact (in9_5 m (outs m) c).trans (sliceMat_eq _ 3 _ _)
  · exact fun j => (congrFun (in9_6 m (outs m) c) (ix2 (0 : Fin 1) j)).trans (sliceRow_at _ 3 _ _ j)

/-! ## Region 10: the node update

Its nine inputs: the features entering the layer are the first buffer region 8 left; the aggregated messages are the
scatter-add of region 9's result at the receivers, into zeros, which is how the reference aggregates; the rest are
slabs of the stacked arguments, layer 3's for the update and layer 4's for the two projections. -/

theorem l3_H (hh : W18 m c main_v157_0 = hS (argsOf m c) 3) : upd10H (en10 m) c = hS (argsOf m c) 3 :=
  (in10_0 m (outs m) c).trans hh

theorem l3_Agg (hm : W20 m c main_v182 = mS (argsOf m c) 3) : upd10Agg (en10 m) c = aggS (argsOf m c) 3 := by
  refine (in10_1 m (outs m) c).trans ?_
  rw [show outs m 20 main_v182 c = W20 m c main_v182 from rfl, hm]
  exact scatter_eq m c _

theorem l3_Wnh : upd10Wnh (en10 m) c = wmN (argsOf m c).a20 3 := (in10_2 m (outs m) c).trans (sliceMat_eq _ 3 _ _)
theorem l3_Wna : upd10Wna (en10 m) c = wmN (argsOf m c).a21 3 := (in10_3 m (outs m) c).trans (sliceMat_eq _ 3 _ _)
theorem l3_B1 (j : Fin 128) : upd10B1 (en10 m) c (ix2 (0 : Fin 1) j) = wvN (argsOf m c).a22 3 (ix1 j) :=
  (congrFun (in10_4 m (outs m) c) (ix2 (0 : Fin 1) j)).trans (sliceRow_at _ 3 _ _ j)
theorem l3_Wn2 : upd10Wn2 (en10 m) c = wmN (argsOf m c).a23 3 := (in10_5 m (outs m) c).trans (sliceMat_eq _ 3 _ _)
theorem l3_B2 (j : Fin 128) : upd10B2 (en10 m) c (ix2 (0 : Fin 1) j) = wvN (argsOf m c).a24 3 (ix1 j) :=
  (congrFun (in10_6 m (outs m) c) (ix2 (0 : Fin 1) j)).trans (sliceRow_at _ 3 _ _ j)
theorem l3_Ws : upd10Ws (en10 m) c = wmN (argsOf m c).a14 4 := (in10_7 m (outs m) c).trans (sliceMat_eq _ 4 _ _)
theorem l3_Wd : upd10Wd (en10 m) c = wmN (argsOf m c).a15 4 := (in10_8 m (outs m) c).trans (sliceMat_eq _ 4 _ _)

/-- Region 10's first result buffer holds the reference's node features entering layer 4. -/
theorem bh3 (hm : W20 m c main_v182 = mS (argsOf m c) 3) (hh : W18 m c main_v157_0 = hS (argsOf m c) 3) :
    W22 m c main_v202_0 = hS (argsOf m c) 4 := by
  rw [← VW22]
  refine (Ex10_out9 m c).trans ?_
  exact upd10_new (en10 m) c (hS (argsOf m c) 3) (aggS (argsOf m c) 3) (wmN (argsOf m c).a20 3) (wmN (argsOf m c).a21 3)
    (wvN (argsOf m c).a22 3) (wmN (argsOf m c).a23 3) (wvN (argsOf m c).a24 3)
    (l3_H m c hh) (l3_Agg m c hm) (l3_Wnh m c) (l3_Wna m c) (l3_B1 m c) (l3_Wn2 m c) (l3_B2 m c)

/-- Its second holds their projection by layer 4's source-side matrix. -/
theorem ba3 (hm : W20 m c main_v182 = mS (argsOf m c) 3) (hh : W18 m c main_v157_0 = hS (argsOf m c) 3) :
    W22 m c main_v202_1 = aS (argsOf m c) 4 := by
  rw [← VW22]
  refine (Ex10_out10 m c).trans ?_
  exact upd10_projS (en10 m) c (hS (argsOf m c) 3) (aggS (argsOf m c) 3) (wmN (argsOf m c).a20 3) (wmN (argsOf m c).a21 3)
    (wvN (argsOf m c).a22 3) (wmN (argsOf m c).a23 3) (wvN (argsOf m c).a24 3) (wmN (argsOf m c).a14 4)
    (l3_H m c hh) (l3_Agg m c hm) (l3_Wnh m c) (l3_Wna m c) (l3_B1 m c) (l3_Wn2 m c) (l3_B2 m c) (l3_Ws m c)

/-- Its third holds their projection by layer 4's destination-side matrix. -/
theorem bb3 (hm : W20 m c main_v182 = mS (argsOf m c) 3) (hh : W18 m c main_v157_0 = hS (argsOf m c) 3) :
    W22 m c main_v202_2 = bS (argsOf m c) 4 := by
  rw [← VW22]
  refine (Ex10_out11 m c).trans ?_
  exact upd10_projD (en10 m) c (hS (argsOf m c) 3) (aggS (argsOf m c) 3) (wmN (argsOf m c).a20 3) (wmN (argsOf m c).a21 3)
    (wvN (argsOf m c).a22 3) (wmN (argsOf m c).a23 3) (wvN (argsOf m c).a24 3) (wmN (argsOf m c).a15 4)
    (l3_H m c hh) (l3_Agg m c hm) (l3_Wnh m c) (l3_Wna m c) (l3_B1 m c) (l3_Wn2 m c) (l3_B2 m c) (l3_Wd m c)

end Cert.Bridge

end
-- ==== Proof.KI.Val11.lean ====
/-
  Region 11 of @main, the value half at the ideal values: after the region's 20 points the result array holds, row by
  row, the specification's message formula of the region's seven input arrays as the region finds them. Point t
  computes rows 8000 t .. 8000 t + 7999 from the same rows of the three edge arrays and the whole weight arrays.
-/
import proofs.«152161_j29669634081217_2_alg».proof.Proof.KI.Reg11
import proofs.«152161_j29669634081217_2_alg».proof.Proof.KI.MsgCommon
import proofs.«152161_j29669634081217_2_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 65536

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

-- the TensorCore's buffer contents when the region is entered, at the ideal values
variable (V : (c : Dev nD) → (b : Ref sig .tc) → Buf (Elt Ideal) ((c : Thread nD τ).loc b))

/-! ## The region's arrays as the region finds them, at their literal shapes -/

/-- The edge features. -/
noncomputable abbrev arr11_0 (c : Dev nD) : S160000x128.Idx → EReal := V c (Pipeline.arrRef spec11 0)
/-- The source nodes' term, gathered along the edges. -/
noncomputable abbrev arr11_1 (c : Dev nD) : S160000x128.Idx → EReal := V c (Pipeline.arrRef spec11 1)
/-- The destination nodes' term, gathered along the edges. -/
noncomputable abbrev arr11_2 (c : Dev nD) : S160000x128.Idx → EReal := V c (Pipeline.arrRef spec11 2)
/-- The first layer's weight on the edge features. -/
noncomputable abbrev arr11_3 (c : Dev nD) : S128x128.Idx → EReal := V c (Pipeline.arrRef spec11 3)
/-- The first layer's bias, as one row. -/
noncomputable abbrev arr11_4 (c : Dev nD) : S1x128.Idx → EReal := V c (Pipeline.arrRef spec11 4)
/-- The second layer's weight. -/
noncomputable abbrev arr11_5 (c : Dev nD) : S128x128.Idx → EReal := V c (Pipeline.arrRef spec11 5)
/-- The second layer's bias, as one row. -/
noncomputable abbrev arr11_6 (c : Dev nD) : S1x128.Idx → EReal := V c (Pipeline.arrRef spec11 6)

/-- The message of edge r, column q: the specification's row formula on row r of the three edge arrays. -/
noncomputable def G11_row (c : Dev nD) (r : Fin 160000) (q : Fin 128) : EReal :=
  Cert.Spec.msg (Cert.Spec.row (arr11_0 V c) r) (Cert.Spec.row (arr11_1 V c) r) (Cert.Spec.row (arr11_2 V c) r)
    (Cert.Spec.m2 (arr11_3 V c)) (fun j => arr11_4 V c (ix2 (0 : Fin 1) j)) (Cert.Spec.m2 (arr11_5 V c))
    (fun j => arr11_6 V c (ix2 (0 : Fin 1) j)) q

/-- The whole result array as one function of the input arrays. -/
noncomputable def G11 (c : Dev nD) : S160000x128.Idx → EReal := fun i => G11_row V c (i 0) (i 1)

/-! ## The payload -/

/-- The body's payload is the message kernels' shared block arithmetic. -/
theorem pay11_eq (v0 : Vec Ideal S8000x128 .bf16) (v2 : Vec Ideal S128x128 .f32) (v6 v9 : Vec Ideal S8000x128 .bf16)
    (v14 : Vec Ideal S1x128 .f32) (v21 : Vec Ideal S128x128 .f32) (v25 : Vec Ideal S1x128 .f32) :
    k11_pay1 v0 v2 v6 v9 v14 v21 v25 = msgTerm v0 v6 v9 v2 v14 v21 v25 := rfl

/-! ## Where point t's blocks sit in their arrays -/

theorem hz11 : (![0, 0] : Fin 2 → Nat) = fun _ => 0 := funext fun a => by fin_cases a <;> rfl

/-- The printed index maps, decided over the 20 points: the three edge windows and the result window take block t of
    the rows at point t, the four weight windows their one block. -/
theorem idx11 : ∀ t : Fin cfg11.N,
    win11_0.index t (0 : Fin 2) = t.val ∧ win11_0.index t (1 : Fin 2) = 0
    ∧ win11_1.index t (0 : Fin 2) = t.val ∧ win11_1.index t (1 : Fin 2) = 0
    ∧ win11_2.index t (0 : Fin 2) = t.val ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = 0 ∧ win11_5.index t (1 : Fin 2) = 0
    ∧ win11_6.index t (0 : Fin 2) = 0 ∧ win11_6.index t (1 : Fin 2) = 0
    ∧ win11_7.index t (0 : Fin 2) = t.val ∧ win11_7.index t (1 : Fin 2) = 0 :=
  (by decide +kernel : ∀ t : Fin grid11.N, _)

/-- Row p of point t's block is row 8000 t + p of the array. -/
noncomputable def rows11 (t : Fin cfg11.N) (p : Fin 8000) : Fin 160000 :=
  ⟨t.val * 8000 + p.val, by have h : t.val < 20 := Nat.lt_of_lt_of_eq t.isLt N_11; have := p.isLt; omega⟩

theorem emb11_0 (t : Fin cfg11.N) (p : Fin 8000) (k : Fin 128) :
    ((cfg11.win 0).blk t).view.emb (ix2 p k) = ix2 (rows11 t p) k := by
  obtain ⟨a0, a1, b0, b1, c0, c1, d0, d1, e0, e1, f0, f1, g0, g1, h0, h1⟩ := idx11 t
  funext a; apply Fin.ext
  match a with
  | ⟨0, _⟩ => show win11_0.index t (0 : Fin 2) * 8000 + 1 * p.val = t.val * 8000 + p.val; omega
  | ⟨1, _⟩ => show win11_0.index t (1 : Fin 2) * 128 + 1 * k.val = k.val; omega

theorem emb11_1 (t : Fin cfg11.N) (p : Fin 8000) (k : Fin 128) :
    ((cfg11.win 1).blk t).view.emb (ix2 p k) = ix2 (rows11 t p) k := by
  obtain ⟨a0, a1, b0, b1, c0, c1, d0, d1, e0, e1, f0, f1, g0, g1, h0, h1⟩ := idx11 t
  funext a; apply Fin.ext
  match a with
  | ⟨0, _⟩ => show win11_1.index t (0 : Fin 2) * 8000 + 1 * p.val = t.val * 8000 + p.val; omega
  | ⟨1, _⟩ => show win11_1.index t (1 : Fin 2) * 128 + 1 * k.val = k.val; omega

theorem emb11_2 (t : Fin cfg11.N) (p : Fin 8000) (k : Fin 128) :
    ((cfg11.win 2).blk t).view.emb (ix2 p k) = ix2 (rows11 t p) k := by
  obtain ⟨a0, a1, b0, b1, c0, c1, d0, d1, e0, e1, f0, f1, g0, g1, h0, h1⟩ := idx11 t
  funext a; apply Fin.ext
  match a with
  | ⟨0, _⟩ => show win11_2.index t (0 : Fin 2) * 8000 + 1 * p.val = t.val * 8000 + p.val; omega
  | ⟨1, _⟩ => show win11_2.index t (1 : Fin 2) * 128 + 1 * k.val = k.val; omega

theorem emb11_3 (t : Fin cfg11.N) (i : Fin 128) (j : Fin 128) :
    ((cfg11.win 3).blk t).view.emb (ix2 i j) = ix2 i j := by
  obtain ⟨a0, a1, b0, b1, c0, c1, d0, d1, e0, e1, f0, f1, g0, g1, h0, h1⟩ := idx11 t
  funext a; apply Fin.ext
  match a with
  | ⟨0, _⟩ => show win11_3.index t (0 : Fin 2) * 128 + 1 * i.val = i.val; omega
  | ⟨1, _⟩ => show win11_3.index t (1 : Fin 2) * 128 + 1 * j.val = j.val; omega

theorem emb11_4 (t : Fin cfg11.N) (i : Fin 1) (j : Fin 128) :
    ((cfg11.win 4).blk t).view.emb (ix2 i j) = ix2 i j := by
  obtain ⟨a0, a1, b0, b1, c0, c1, d0, d1, e0, e1, f0, f1, g0, g1, h0, h1⟩ := idx11 t
  funext a; apply Fin.ext
  match a with
  | ⟨0, _⟩ => show win11_4.index t (0 : Fin 2) * 1 + 1 * i.val = i.val; omega
  | ⟨1, _⟩ => show win11_4.index t (1 : Fin 2) * 128 + 1 * j.val = j.val; omega

theorem emb11_5 (t : Fin cfg11.N) (i : Fin 128) (j : Fin 128) :
    ((cfg11.win 5).blk t).view.emb (ix2 i j) = ix2 i j := by
  obtain ⟨a0, a1, b0, b1, c0, c1, d0, d1, e0, e1, f0, f1, g0, g1, h0, h1⟩ := idx11 t
  funext a; apply Fin.ext
  match a with
  | ⟨0, _⟩ => show win11_5.index t (0 : Fin 2) * 128 + 1 * i.val = i.val; omega
  | ⟨1, _⟩ => show win11_5.index t (1 : Fin 2) * 128 + 1 * j.val = j.val; omega

theorem emb11_6 (t : Fin cfg11.N) (i : Fin 1) (j : Fin 128) :
    ((cfg11.win 6).blk t).view.emb (ix2 i j) = ix2 i j := by
  obtain ⟨a0, a1, b0, b1, c0, c1, d0, d1, e0, e1, f0, f1, g0, g1, h0, h1⟩ := idx11 t
  funext a; apply Fin.ext
  match a with
  | ⟨0, _⟩ => show win11_6.index t (0 : Fin 2) * 1 + 1 * i.val = i.val; omega
  | ⟨1, _⟩ => show win11_6.index t (1 : Fin 2) * 128 + 1 * j.val = j.val; omega

theorem emb11_7 (t : Fin cfg11.N) (p : Fin 8000) (q : Fin 128) :
    ((cfg11.win 7).blk t).view.emb (ix2 p q) = ix2 (rows11 t p) q := by
  obtain ⟨a0, a1, b0, b1, c0, c1, d0, d1, e0, e1, f0, f1, g0, g1, h0, h1⟩ := idx11 t
  funext a; apply Fin.ext
  match a with
  | ⟨0, _⟩ => show win11_7.index t (0 : Fin 2) * 8000 + 1 * p.val = t.val * 8000 + p.val; omega
  | ⟨1, _⟩ => show win11_7.index t (1 : Fin 2) * 128 + 1 * q.val = q.val; omega

/-! ## Each input block, read at an index, is its array where the block sits -/

theorem iblk11_0_apply (c : Dev nD) (t : Fin cfg11.N) (p : Fin 8000) (k : Fin 128) :
    iblk11 V c 0 t (ix2 p k) = arr11_0 V c (ix2 (rows11 t p) k) := by
  show V c (Pipeline.arrRef spec11 0) (((cfg11.win 0).blk t).view.emb (ix2 p k)) = _
  rw [emb11_0]
theorem iblk11_1_apply (c : Dev nD) (t : Fin cfg11.N) (p : Fin 8000) (k : Fin 128) :
    iblk11 V c 1 t (ix2 p k) = arr11_1 V c (ix2 (rows11 t p) k) := by
  show V c (Pipeline.arrRef spec11 1) (((cfg11.win 1).blk t).view.emb (ix2 p k)) = _
  rw [emb11_1]
theorem iblk11_2_apply (c : Dev nD) (t : Fin cfg11.N) (p : Fin 8000) (k : Fin 128) :
    iblk11 V c 2 t (ix2 p k) = arr11_2 V c (ix2 (rows11 t p) k) := by
  show V c (Pipeline.arrRef spec11 2) (((cfg11.win 2).blk t).view.emb (ix2 p k)) = _
  rw [emb11_2]
theorem iblk11_3_apply (c : Dev nD) (t : Fin cfg11.N) (i j : Fin 128) :
    iblk11 V c 3 t (ix2 i j) = arr11_3 V c (ix2 i j) := by
  show V c (Pipeline.arrRef spec11 3) (((cfg11.win 3).blk t).view.emb (ix2 i j)) = _
  rw [emb11_3]
theorem iblk11_4_apply (c : Dev nD) (t : Fin cfg11.N) (i : Fin 1) (j : Fin 128) :
    iblk11 V c 4 t (ix2 i j) = arr11_4 V c (ix2 i j) := by
  show V c (Pipeline.arrRef spec11 4) (((cfg11.win 4).blk t).view.emb (ix2 i j)) = _
  rw [emb11_4]
theorem iblk11_5_apply (c : Dev nD) (t : Fin cfg11.N) (i j : Fin 128) :
    iblk11 V c 5 t (ix2 i j) = arr11_5 V c (ix2 i j) := by
  show V c (Pipeline.arrRef spec11 5) (((cfg11.win 5).blk t).view.emb (ix2 i j)) = _
  rw [emb11_5]
theorem iblk11_6_apply (c : Dev nD) (t : Fin cfg11.N) (i : Fin 1) (j : Fin 128) :
    iblk11 V c 6 t (ix2 i j) = arr11_6 V c (ix2 i j) := by
  show V c (Pipeline.arrRef spec11 6) (((cfg11.win 6).blk t).view.emb (ix2 i j)) = _
  rw [emb11_6]

/-! ## What a point writes back -/

/-- What point t writes back to the result array is block t of G11: the store's payload at (p, q) is the message
    formula on row p of the edge blocks, which are rows 8000 t + p of the edge arrays. -/
theorem flushed11_7_eq (c : Dev nD) (t : Fin cfg11.N) :
    (dat11 V c).flushed 7 t = ((cfg11.win 7).blk t).view.read (Elt Ideal) (G11 V c) := by
  show (cfg11.win 7).cut (grid11.coords t) ((dat11 V c).after 7 t) = _
  rw [after11_7]
  unfold out11_7
  rw [View.canon_unit_zero hz11]
  simp only [View.ld_unit_zero (S := S8000x128) hz11, View.ld_unit_zero (S := S128x128) hz11, View.ld_unit_zero (S := S1x128) hz11]
  rw [pay11_eq]
  funext j
  obtain ⟨p, q, rfl⟩ : ∃ (p : Fin 8000) (q : Fin 128), j = ix2 p q := ⟨j 0, j 1, eq_ix2 j⟩
  show msgTerm (iblk11 V c 0 t) (iblk11 V c 1 t) (iblk11 V c 2 t) (iblk11 V c 3 t) (iblk11 V c 4 t) (iblk11 V c 5 t) (iblk11 V c 6 t) (ix2 p q)
    = G11 V c (((cfg11.win 7).blk t).view.emb (ix2 p q))
  rw [msgTerm_apply, emb11_7]
  simp only [iblk11_0_apply, iblk11_1_apply, iblk11_2_apply, iblk11_3_apply, iblk11_4_apply, iblk11_5_apply, iblk11_6_apply]
  rfl

/-! ## The result's blocks cover its array -/

/-- An index of the array is in point t's block iff each coordinate is in the block's range on its axis. -/
theorem mem_blk11 (t : Fin cfg11.N) (i : S160000x128.Idx) :
    i ∈ ((cfg11.win 7).blk t).view.set ↔ ∀ a : Fin 2, win11_7.index t a * S8000x128.size a ≤ (i a).val
      ∧ (i a).val < win11_7.index t a * S8000x128.size a + S8000x128.size a := by
  show i ∈ ((View.whole (Pipeline.arrRef spec11 7)).slice (win11_7.rect t)).set ↔ _
  rw [View.set_slice_whole, Rect.mem_set_unit]
  exact Iff.rfl

/-- Row r of the array is in the block of point r / 8000. -/
theorem covered11 (i : S160000x128.Idx) :
    ∃ t : Fin cfg11.N, (cfg11.win 7).flush t = true ∧ i ∈ ((cfg11.win 7).blk t).view.set := by
  have hi0 : (i 0).val < 160000 := (i 0).isLt
  have hi1 : (i 1).val < 128 := (i 1).isLt
  have hN : (i 0).val / 8000 < cfg11.N := by show _ < grid11.N; rw [N_11]; omega
  obtain ⟨a0, a1, b0, b1, c0, c1, d0, d1, e0, e1, f0, f1, g0, g1, h0, h1⟩ := idx11 ⟨(i 0).val / 8000, hN⟩
  have h0' : win11_7.index ⟨(i 0).val / 8000, hN⟩ (0 : Fin 2) = (i 0).val / 8000 := h0
  refine ⟨⟨(i 0).val / 8000, hN⟩, flush11_7 _, ?_⟩
  rw [mem_blk11]
  intro a
  match a with
  | ⟨0, _⟩ =>
    show win11_7.index ⟨(i 0).val / 8000, hN⟩ (0 : Fin 2) * 8000 ≤ (i 0).val
      ∧ (i 0).val < win11_7.index ⟨(i 0).val / 8000, hN⟩ (0 : Fin 2) * 8000 + 8000
    omega
  | ⟨1, _⟩ =>
    show win11_7.index ⟨(i 0).val / 8000, hN⟩ (1 : Fin 2) * 128 ≤ (i 1).val
      ∧ (i 1).val < win11_7.index ⟨(i 0).val / 8000, hN⟩ (1 : Fin 2) * 128 + 128
    omega

/-! ## The result array after the region -/

/-- The array after the region's 20 points is G11 of the region-entry arrays. -/
theorem final11_7_eq (c : Dev nD) : (dat11 (F := Ideal) V c).arrAt 7 cfg11.N = G11 V c :=
  (dat11 V c).arrAt_eq_of_cover 7 (G11 V c) (fun t _ => flushed11_7_eq V c t) covered11

/-- Entry (p, q) of the result array after the region: the message of edge p, column q. -/
theorem final11_7 (c : Dev nD) (p : Fin 160000) (q : Fin 128) :
    (dat11 (F := Ideal) V c).arrAt 7 cfg11.N (ix2 p q)
      = Cert.Spec.msg (Cert.Spec.row (arr11_0 V c) p) (Cert.Spec.row (arr11_1 V c) p) (Cert.Spec.row (arr11_2 V c) p)
          (Cert.Spec.m2 (arr11_3 V c)) (fun j => arr11_4 V c (ix2 (0 : Fin 1) j)) (Cert.Spec.m2 (arr11_5 V c))
          (fun j => arr11_6 V c (ix2 (0 : Fin 1) j)) q := by
  rw [final11_7_eq]
  rfl

end Cert.KernelIdeal.Hand

end
-- ==== Proof.KI.Stage11.lean ====
/-
  Region 11 of @main against the reference's messages of one layer, as arrays: whatever fills the region's seven
  input arrays, if they are the reference's inputs (the three edge arrays and the two weights the same arrays; each
  bias, which the kernel takes as one row and the reference as a vector, entry by entry), then the result array after
  the region is the reference's message array of those inputs.
-/
import proofs.«152161_j29669634081217_2_alg».proof.Proof.KI.Val11
import proofs.«152161_j29669634081217_2_alg».proof.Proof.Ref.StageMsg

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable [Cert.ReferenceIdeal.Facts₀]

-- the TensorCore's buffer contents when the region is entered, at the ideal values
variable (V : (c : Dev nD) → (b : Ref sig .tc) → Buf (Elt Ideal) ((c : Thread nD τ).loc b))

/-- The result array after the region is the reference's message array of the reference-shaped inputs. -/
theorem stage11_7 (c : Dev nD) (E Asrc Bdst : FVec Ideal S160000x128 .f32) (We : FVec Ideal S128x128 .f32)
    (be1 : FVec Ideal S128 .f32) (W2 : FVec Ideal S128x128 .f32) (b2 : FVec Ideal S128 .f32)
    (h0 : arr11_0 V c = E) (h1 : arr11_1 V c = Asrc) (h2 : arr11_2 V c = Bdst) (h3 : arr11_3 V c = We)
    (h4 : ∀ j : Fin 128, arr11_4 V c (ix2 (0 : Fin 1) j) = be1 (ix1 j)) (h5 : arr11_5 V c = W2)
    (h6 : ∀ j : Fin 128, arr11_6 V c (ix2 (0 : Fin 1) j) = b2 (ix1 j)) :
    (dat11 (F := Ideal) V c).arrAt 7 cfg11.N = Cert.ReferenceIdeal.Hand.msgRef E Asrc Bdst We be1 W2 b2 := by
  funext i
  obtain ⟨p, q, rfl⟩ : ∃ (p : Fin 160000) (q : Fin 128), i = ix2 p q := ⟨i 0, i 1, eq_ix2 i⟩
  have e4 : (fun j : Fin 128 => arr11_4 V c (ix2 (0 : Fin 1) j)) = Cert.Spec.v1 be1 := funext h4
  have e6 : (fun j : Fin 128 => arr11_6 V c (ix2 (0 : Fin 1) j)) = Cert.Spec.v1 b2 := funext h6
  refine (final11_7 V c p q).trans ?_
  rw [e4, e6, h0, h1, h2, h3, h5]
  exact (Cert.ReferenceIdeal.Hand.refMsg E Asrc Bdst We be1 W2 b2 p q).symm

end Cert.KernelIdeal.Hand

end
-- ==== Proof.KI.Reads5.lean ====
/- What regions 11 and 12 read: each input window's array, on entry to the region, as a pure term of the launch contents
   and of what the earlier regions left — the host stretch before the region read back operation by operation, its
   operands carried from where they were written. The same road as layer 0 (regions 3 and 4), under this layer's names. -/
import proofs.«152161_j29669634081217_2_alg».proof.Proof.KI.ReadsDefs
import proofs.«152161_j29669634081217_2_alg».proof.Proof.KI.ReadsCarryA
import proofs.«152161_j29669634081217_2_alg».proof.Proof.KI.ReadsCarryB

-- membership of a reference in a stretch's list of written references is decided past the default depth
set_option maxRecDepth 2864
-- the stretch before a region is read back one operation at a time: up to 28 rewriting steps per operand of a window
set_option maxHeartbeats 1000000

noncomputable section

namespace Cert.KernelIdeal.Hand

open Idealize.ShloMosaic Idealize.ShloMosaic.TcCoe
open Idealize.SL.Sem
open Idealize.ShloMosaic.StableHlo
open Cert.KernelIdeal.Gen

variable {F : FTy → Type} [FloatOps F]
variable (m : (ℓ : Loc nD τ sig) → Buf (Elt F) ℓ) (outs : Outs (F := F))

/-! ## Region 11 -/

theorem in11_0 (c : Dev nD) : V23 m outs c main_v17 = outs 4 main_v17 c :=
  at23_v17 m outs c
theorem in11_1 (c : Dev nD) : V23 m outs c main_v209 = Host.gather gather_S20000x128_S160000x1_S160000x128_1_0_n_n_0_1_1128 (outs 22 main_v202_1 c) (srcIdx m c) := by
  show StableHlo.after hostOps11 (V22 m outs c) (Proc.devRef .tc main_v209) = _
  after_results <;> rw [at22_v202_1 m outs c, at22_v1 m outs c, at1_v1 m c] <;> rfl
theorem in11_2 (c : Dev nD) : V23 m outs c main_v216 = Host.gather gather_S20000x128_S160000x1_S160000x128_1_0_n_n_0_1_1128 (outs 22 main_v202_2 c) (dstIdx m c) := by
  show StableHlo.after hostOps11 (V22 m outs c) (Proc.devRef .tc main_v216) = _
  after_results <;> rw [at22_v202_2 m outs c, at22_v3 m outs c, at1_v3 m c] <;> rfl
theorem in11_3 (c : Dev nD) : V23 m outs c main_v218 = sliceMat (m ((c : Thread nD τ).loc main_arg16)) 4 slices_S6x128x128_S1x128x128_4_0_0 := by
  show StableHlo.after hostOps11 (V22 m outs c) (Proc.devRef .tc main_v218) = _
  after_results <;> rw [at22_arg16 m outs c] <;> rfl
theorem in11_4 (c : Dev nD) : V23 m outs c main_v225 = sliceRow (m ((c : Thread nD τ).loc main_arg17)) 4 slices_S6x128_S1x128_4_0 := by
  show StableHlo.after hostOps11 (V22 m outs c) (Proc.devRef .tc main_v225) = _
  after_results <;> rw [at22_arg17 m outs c] <;> rfl
theorem in11_5 (c : Dev nD) : V23 m outs c main_v222 = sliceMat (m ((c : Thread nD τ).loc main_arg18)) 4 slices_S6x128x128_S1x128x128_4_0_0 := by
  show StableHlo.after hostOps11 (V22 m outs c) (Proc.devRef .tc main_v222) = _
  after_results <;> rw [at22_arg18 m outs c] <;> rfl
theorem in11_6 (c : Dev nD) : V23 m outs c main_v226 = sliceRow (m ((c : Thread nD τ).loc main_arg19)) 4 slices_S6x128_S1x128_4_0 := by
  show StableHlo.after hostOps11 (V22 m outs c) (Proc.devRef .tc main_v226) = _
  after_results <;> rw [at22_arg19 m outs c] <;> rfl

/-! ## Region 12 -/

theorem in12_0 (c : Dev nD) : V25 m outs c main_v202_0 = outs 22 main_v202_0 c :=
  at25_v202_0 m outs c
theorem in12_1 (c : Dev nD) : V25 m outs c main_v230 = Host.scatterAdd scatter_S20000x128_S160000x1_S160000x128_1_0_0_1 zeroAcc (dstCol m c) (outs 24 main_v227 c) := by
  show StableHlo.after hostOps12 (V24 m outs c) (Proc.devRef .tc main_v230) = _
  after_results <;> rw [at24_v3 m outs c, at1_v3 m c, at24_v227 m outs c] <;> rfl
theorem in12_2 (c : Dev nD) : V25 m outs c main_v232 = sliceMat (m ((c : Thread nD τ).loc main_arg20)) 4 slices_S6x128x128_S1x128x128_4_0_0 := by
  show StableHlo.after hostOps12 (V24 m outs c) (Proc.devRef .tc main_v232) = _
  after_results <;> rw [at24_arg20 m outs c] <;> rfl
theorem in12_3 (c : Dev nD) : V25 m outs c main_v234 = sliceMat (m ((c : Thread nD τ).loc main_arg21)) 4 slices_S6x128x128_S1x128x128_4_0_0 := by
  show StableHlo.after hostOps12 (V24 m outs c) (Proc.devRef .tc main_v234) = _
  after_results <;> rw [at24_arg21 m outs c] <;> rfl
theorem in12_4 (c : Dev nD) : V25 m outs c main_v245 = sliceRow (m ((c : Thread nD τ).loc main_arg22)) 4 slices_S6x128_S1x128_4_0 := by
  show StableHlo.after hostOps12 (V24 m outs c) (Proc.devRef .tc main_v245) = _
  after_results <;> rw [at24_arg22 m outs c] <;> rfl
theorem in12_5 (c : Dev nD) : V25 m outs c main_v238 = sliceMat (m ((c : Thread nD τ).loc main_arg23)) 4 slices_S6x128x128_S1x128x128_4_0_0 := by
  show StableHlo.after hostOps12 (V24 m outs c) (Proc.devRef .tc main_v238) = _
  after_results <;> rw [at24_arg23 m outs c] <;> rfl
theorem in12_6 (c : Dev nD) : V25 m outs c main_v246 = sliceRow (m ((c : Thread nD τ).loc main_arg24)) 4 slices_S6x128_S1x128_4_0 := by
  show StableHlo.after hostOps12 (V24 m outs c) (Proc.devRef .tc main_v246) = _
  after_results <;> rw [at24_arg24 m outs c] <;> rfl
theorem in12_7 (c : Dev nD) : V25 m outs c main_v242 = sliceMat (m ((c : Thread nD τ).loc main_arg14)) 5 slices_S6x128x128_S1x128x128_5_0_0 := by
  show StableHlo.after hostOps12 (V24 m outs c) (Proc.devRef .tc main_v242) = _
  after_results <;> rw [at24_arg14 m outs c] <;> rfl
theorem in12_8 (c : Dev nD) : V25 m outs c main_v244 = sliceMat (m ((c : Thread nD τ).loc main_arg15)) 5 slices_S6x128x128_S1x128x128_5_0_0 := by
  show StableHlo.after hostOps12 (V24 m outs c) (Proc.devRef .tc main_v244) = _
  after_results <;> rw [at24_arg15 m outs c] <;> rfl

end Cert.KernelIdeal.Hand
-- ==== Proof.KI.Val12.lean ====
/-
  Region 12 of @main, the node-update kernel of the fifth message-passing layer, over the extended reals: what the three
  result arrays hold when the region ends, as row formulas of the arrays the region finds.

  The body's arithmetic at an index of a block is the update row formula (the conversions to and from half precision
  are the identity over the extended reals, a product into a zero accumulator is the plain sum).  Each grid point writes
  back block t of one function of the whole input arrays; the five blocks of 4000 rows tile the 20000 rows; so each result
  array ends as that function.
-/
import proofs.«152161_j29669634081217_2_alg».proof.Proof.KI.Reg12
import proofs.«152161_j29669634081217_2_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Hand

open BigOperators
open Cert.KernelIdeal Cert.KernelIdeal.Gen
open Idealize.ShloMosaic Idealize.ShloMosaic.TcCoe
open Idealize.ShloMosaic.Pipeline (Dat Cfg Window)

/-! ## The body's arithmetic over the extended reals, at an index of the block -/

/-- In a [4000,128] by [128,128] product the left operand is read at the output's row -/
theorem upd12Lhs_row (i : S4000x128.Idx) (k : dot_S4000x128_S128x128_S4000x128_1_0_0_1_n_n.contr.Idx) :
    (dot_S4000x128_S128x128_S4000x128_1_0_0_1_n_n.lhsIdx i k 0).val = (i 0).val := by
  unfold DotDims.lhsIdx
  rw [dif_neg (show ¬(0 : Fin S4000x128.rank) ∈ dot_S4000x128_S128x128_S4000x128_1_0_0_1_n_n.lhsBatch from List.not_mem_nil),
    dif_pos (show (0 : Fin S4000x128.rank) ∈ dot_S4000x128_S128x128_S4000x128_1_0_0_1_n_n.lhsNonContracting from List.mem_singleton.mpr rfl)]
  rfl

/-- and at the contraction index along its columns; -/
theorem upd12Lhs_col (i : S4000x128.Idx) (k : dot_S4000x128_S128x128_S4000x128_1_0_0_1_n_n.contr.Idx) :
    (dot_S4000x128_S128x128_S4000x128_1_0_0_1_n_n.lhsIdx i k 1).val = (k ⟨0, Nat.one_pos⟩).val :=
  dot_S4000x128_S128x128_S4000x128_1_0_0_1_n_n.lhsIdx_val_of_single rfl i k

/-- the right operand at the contraction index along its rows -/
theorem upd12Rhs_row (i : S4000x128.Idx) (k : dot_S4000x128_S128x128_S4000x128_1_0_0_1_n_n.contr.Idx) :
    (dot_S4000x128_S128x128_S4000x128_1_0_0_1_n_n.rhsIdx i k 0).val = (k ⟨0, Nat.one_pos⟩).val :=
  dot_S4000x128_S128x128_S4000x128_1_0_0_1_n_n.rhsIdx_val_of_single rfl i k

/-- and at the output's column. -/
theorem upd12Rhs_col (i : S4000x128.Idx) (k : dot_S4000x128_S128x128_S4000x128_1_0_0_1_n_n.contr.Idx) :
    (dot_S4000x128_S128x128_S4000x128_1_0_0_1_n_n.rhsIdx i k 1).val = (i 1).val := by
  unfold DotDims.rhsIdx
  rw [dif_neg (show ¬(1 : Fin S128x128.rank) ∈ dot_S4000x128_S128x128_S4000x128_1_0_0_1_n_n.rhsBatch from List.not_mem_nil),
    dif_pos (show (1 : Fin S128x128.rank) ∈ dot_S4000x128_S128x128_S4000x128_1_0_0_1_n_n.rhsNonContracting from List.mem_singleton.mpr rfl)]
  rfl

/-- The matrix unit's product into a zero accumulator, at row p and column q of the block: row p times the matrix,
    with no rounding over the extended reals. -/
theorem upd12Mm_at {φ₁ φ₂ : FTy} (X : FVec Ideal S4000x128 φ₁) (W : FVec Ideal S128x128 φ₂) (p : Fin 4000) (q : Fin 128) :
    matmul dot_S4000x128_S128x128_S4000x128_1_0_0_1_n_n none X W (constant (F := Ideal) S4000x128 .f32 0x00000000#32) (ValueIdx.ix2 p q)
      = ∑ k : Fin 128, X (ValueIdx.ix2 p k) * W (ValueIdx.ix2 k q) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ValueIdx.ix2 p q) ((ValueIdx.contrEquiv1 dot_S4000x128_S128x128_S4000x128_1_0_0_1_n_n 128 rfl rfl).symm k) = ValueIdx.ix2 p k :=
    funext fun a => Fin.ext (by
      match a with
      | ⟨0, _⟩ => exact upd12Lhs_row _ _
      | ⟨1, _⟩ => exact (upd12Lhs_col _ _).trans hk)
  have er : dot_S4000x128_S128x128_S4000x128_1_0_0_1_n_n.rhsIdx (ValueIdx.ix2 p q) ((ValueIdx.contrEquiv1 dot_S4000x128_S128x128_S4000x128_1_0_0_1_n_n 128 rfl rfl).symm k) = ValueIdx.ix2 k q :=
    funext fun a => Fin.ext (by
      match a with
      | ⟨0, _⟩ => exact (upd12Rhs_row _ _).trans hk
      | ⟨1, _⟩ => exact upd12Rhs_col _ _)
  rw [el, er]

/-- A [1,128] bias broadcast down the block's rows reads its entry q at every row. -/
theorem upd12Bias_at (b : Vec Ideal S1x128 .f32) (p : Fin 4000) (q : Fin 128) :
    broadcastTo S4000x128 b broadcasts_S1x128_S4000x128 (ValueIdx.ix2 p q) = b (ValueIdx.ix2 0 q) :=
  broadcastTo_apply b _ _ (ValueIdx.ix2 0 q) (fun a => by
    match a with
    | ⟨0, _⟩ => rfl
    | ⟨1, _⟩ => rfl)

/-- The stored features: the update row formula of rows p of the two loaded blocks. -/
theorem upd12Pay3_at (h : Vec Ideal S4000x128 .f32) (wh : Vec Ideal S128x128 .f32) (g : Vec Ideal S4000x128 .f32)
    (wa : Vec Ideal S128x128 .f32) (b1 : Vec Ideal S1x128 .f32) (w2 : Vec Ideal S128x128 .f32) (b2 : Vec Ideal S1x128 .f32)
    (p : Fin 4000) (q : Fin 128) :
    k12_pay3 h wh g wa b1 w2 b2 (ValueIdx.ix2 p q)
      = Cert.Spec.upd (Cert.Spec.row h p) (Cert.Spec.row g p) (Cert.Spec.m2 wh) (Cert.Spec.m2 wa)
          (fun j => b1 (ValueIdx.ix2 0 j)) (Cert.Spec.m2 w2) (fun j => b2 (ValueIdx.ix2 0 j)) q := by
  unfold k12_pay3
  simp only [shapeCast_self]
  rw [ValueIdx.addf_apply, ValueIdx.addf_apply, upd12Mm_at, upd12Bias_at]
  simp only [ValueIdx.truncf_apply, ValueIdx.maximumf_apply, ValueIdx.addf_apply, upd12Mm_at, upd12Bias_at,
    ValueIdx.broadcast_apply]
  unfold Cert.Spec.upd Cert.Spec.aff Cert.Spec.lin Cert.Spec.relu
  refine congrArg (fun z => h (ValueIdx.ix2 p q) + (z + b2 (ValueIdx.ix2 0 q))) ?_
  refine Finset.sum_congr rfl fun k _ => ?_
  have hz : FloatOps.ofBits (F := Ideal) FTy.f32 0x00000000#32 = (0 : EReal) := Ideal.ofBits_zero_f32
  rw [upd12Bias_at, hz]

/-- The half-precision copy handed on to the two projections is the same function over the extended reals. -/
theorem upd12Pay4_at (h : Vec Ideal S4000x128 .f32) (wh : Vec Ideal S128x128 .f32) (g : Vec Ideal S4000x128 .f32)
    (wa : Vec Ideal S128x128 .f32) (b1 : Vec Ideal S1x128 .f32) (w2 : Vec Ideal S128x128 .f32) (b2 : Vec Ideal S1x128 .f32)
    (i : S4000x128.Idx) : k12_pay4 h wh g wa b1 w2 b2 i = k12_pay3 h wh g wa b1 w2 b2 i := rfl

/-- The projection by the source-side matrix: the stored features' row times the matrix. -/
theorem upd12Pay1_at (y : FVec Ideal S4000x128 .bf16) (ws : Vec Ideal S128x128 .f32) (p : Fin 4000) (q : Fin 128) :
    k12_pay1 y (k12_pay5 ws) (ValueIdx.ix2 p q) = Cert.Spec.lin (fun k => y (ValueIdx.ix2 p k)) (Cert.Spec.m2 ws) q := by
  unfold k12_pay1 k12_pay5
  simp only [shapeCast_self]
  rw [ValueIdx.truncf_apply, upd12Mm_at]
  rfl

/-- The projection by the destination-side matrix, likewise. -/
theorem upd12Pay2_at (y : FVec Ideal S4000x128 .bf16) (wd : Vec Ideal S128x128 .f32) (p : Fin 4000) (q : Fin 128) :
    k12_pay2 y wd (ValueIdx.ix2 p q) = Cert.Spec.lin (fun k => y (ValueIdx.ix2 p k)) (Cert.Spec.m2 wd) q := by
  unfold k12_pay2
  simp only [shapeCast_self]
  rw [ValueIdx.truncf_apply, upd12Mm_at]
  rfl

/-! ## From blocks to the arrays -/

variable (V : (c : Dev nD) → (b : Ref sig .tc) → Buf (Elt Ideal) ((c : Thread nD τ).loc b))

/-- Every access of the body starts at the origin of its buffer. -/
theorem upd12_origin : (![0, 0] : Fin 2 → Nat) = fun _ => 0 := funext fun a => by fin_cases a <;> rfl

/-- The new features as one function of the whole input arrays: at row r, column j, the update row formula of rows r
    of the features and of the aggregated messages. -/
noncomputable def upd12New (H Agg : S20000x128.Idx → EReal) (Wnh Wna : S128x128.Idx → EReal) (B1 : S1x128.Idx → EReal)
    (Wn2 : S128x128.Idx → EReal) (B2 : S1x128.Idx → EReal) : S20000x128.Idx → EReal := fun i =>
  Cert.Spec.upd (Cert.Spec.row H (i 0)) (Cert.Spec.row Agg (i 0)) (Cert.Spec.m2 Wnh) (Cert.Spec.m2 Wna)
    (fun j => B1 (ValueIdx.ix2 0 j)) (Cert.Spec.m2 Wn2) (fun j => B2 (ValueIdx.ix2 0 j)) (i 1)

/-- A projection of the new features as one function of the whole input arrays. -/
noncomputable def upd12Proj (H Agg : S20000x128.Idx → EReal) (Wnh Wna : S128x128.Idx → EReal) (B1 : S1x128.Idx → EReal)
    (Wn2 : S128x128.Idx → EReal) (B2 : S1x128.Idx → EReal) (W : S128x128.Idx → EReal) : S20000x128.Idx → EReal := fun i =>
  Cert.Spec.lin (Cert.Spec.upd (Cert.Spec.row H (i 0)) (Cert.Spec.row Agg (i 0)) (Cert.Spec.m2 Wnh) (Cert.Spec.m2 Wna)
    (fun j => B1 (ValueIdx.ix2 0 j)) (Cert.Spec.m2 Wn2) (fun j => B2 (ValueIdx.ix2 0 j))) (Cert.Spec.m2 W) (i 1)

/-- The printed index maps, decided over the five grid points: the two row-blocked inputs and the three results are at
    block row t, column block 0; the seven weight arrays are always at block (0, 0). -/
theorem upd12_index : ∀ t : Fin cfg12.N,
    (win12_0.index t (0 : Fin 2) = t.val ∧ win12_0.index t (1 : Fin 2) = 0)
    ∧ (win12_1.index t (0 : Fin 2) = t.val ∧ win12_1.index t (1 : Fin 2) = 0)
    ∧ (win12_2.index t (0 : Fin 2) = 0 ∧ win12_2.index t (1 : Fin 2) = 0)
    ∧ (win12_3.index t (0 : Fin 2) = 0 ∧ win12_3.index t (1 : Fin 2) = 0)
    ∧ (win12_4.index t (0 : Fin 2) = 0 ∧ win12_4.index t (1 : Fin 2) = 0)
    ∧ (win12_5.index t (0 : Fin 2) = 0 ∧ win12_5.index t (1 : Fin 2) = 0)
    ∧ (win12_6.index t (0 : Fin 2) = 0 ∧ win12_6.index t (1 : Fin 2) = 0)
    ∧ (win12_7.index t (0 : Fin 2) = 0 ∧ win12_7.index t (1 : Fin 2) = 0)
    ∧ (win12_8.index t (0 : Fin 2) = 0 ∧ win12_8.index t (1 : Fin 2) = 0)
    ∧ (win12_9.index t (0 : Fin 2) = t.val ∧ win12_9.index t (1 : Fin 2) = 0)
    ∧ (win12_10.index t (0 : Fin 2) = t.val ∧ win12_10.index t (1 : Fin 2) = 0)
    ∧ (win12_11.index t (0 : Fin 2) = t.val ∧ win12_11.index t (1 : Fin 2) = 0) :=
  (by decide +kernel : ∀ t : Fin grid12.N, _)

/-- The grid has five points. -/
theorem upd12_points (t : Fin cfg12.N) : t.val < 5 := by
  have h : t.val < grid12.N := t.isLt
  rw [N_12] at h
  exact h

/-- The row of the whole array that row p of block t is. -/
noncomputable def upd12Row (t : Fin cfg12.N) (p : Fin 4000) : Fin 20000 :=
  ⟨t.val * 4000 + p.val, by have := upd12_points t; have := p.isLt; omega⟩

/-! The arrays the region finds, at their literal shapes. -/
/-- The node features the region finds. -/
noncomputable abbrev upd12H (c : Dev nD) : S20000x128.Idx → EReal := V c (Pipeline.arrRef spec12 0)
/-- The aggregated messages the region finds. -/
noncomputable abbrev upd12Agg (c : Dev nD) : S20000x128.Idx → EReal := V c (Pipeline.arrRef spec12 1)
/-- The update's matrix on the features. -/
noncomputable abbrev upd12Wnh (c : Dev nD) : S128x128.Idx → EReal := V c (Pipeline.arrRef spec12 2)
/-- The update's matrix on the messages. -/
noncomputable abbrev upd12Wna (c : Dev nD) : S128x128.Idx → EReal := V c (Pipeline.arrRef spec12 3)
/-- The update's first bias, a [1,128] row. -/
noncomputable abbrev upd12B1 (c : Dev nD) : S1x128.Idx → EReal := V c (Pipeline.arrRef spec12 4)
/-- The update's second matrix. -/
noncomputable abbrev upd12Wn2 (c : Dev nD) : S128x128.Idx → EReal := V c (Pipeline.arrRef spec12 5)
/-- The update's second bias, a [1,128] row. -/
noncomputable abbrev upd12B2 (c : Dev nD) : S1x128.Idx → EReal := V c (Pipeline.arrRef spec12 6)
/-- The next layer's source-side matrix. -/
noncomputable abbrev upd12Ws (c : Dev nD) : S128x128.Idx → EReal := V c (Pipeline.arrRef spec12 7)
/-- The next layer's destination-side matrix. -/
noncomputable abbrev upd12Wd (c : Dev nD) : S128x128.Idx → EReal := V c (Pipeline.arrRef spec12 8)

/-! ## Each block read where its rectangle says -/

/-- Row p of window 0's block at point t is row `upd12Row t p` of its array. -/
theorem upd12_blk_0 (c : Dev nD) (t : Fin cfg12.N) (p : Fin 4000) (k : Fin 128) :
    iblk12 V c 0 t (ValueIdx.ix2 p k : S4000x128.Idx) = upd12H V c (ValueIdx.ix2 (upd12Row t p) k) := by
  have e := upd12_index t
  show V c (Pipeline.arrRef spec12 0) (((cfg12.win 0).blk t).view.emb (ValueIdx.ix2 p k : S4000x128.Idx)) = _
  refine congrArg (V c (Pipeline.arrRef spec12 0)) (funext fun a => Fin.ext ?_)
  match a with
  | ⟨0, _⟩ => show win12_0.index t (0 : Fin 2) * 4000 + 1 * p.val = t.val * 4000 + p.val; omega
  | ⟨1, _⟩ => show win12_0.index t (1 : Fin 2) * 128 + 1 * k.val = k.val; omega

/-- Row p of window 1's block at point t is row `upd12Row t p` of its array. -/
theorem upd12_blk_1 (c : Dev nD) (t : Fin cfg12.N) (p : Fin 4000) (k : Fin 128) :
    iblk12 V c 1 t (ValueIdx.ix2 p k : S4000x128.Idx) = upd12Agg V c (ValueIdx.ix2 (upd12Row t p) k) := by
  have e := upd12_index t
  show V c (Pipeline.arrRef spec12 1) (((cfg12.win 1).blk t).view.emb (ValueIdx.ix2 p k : S4000x128.Idx)) = _
  refine congrArg (V c (Pipeline.arrRef spec12 1)) (funext fun a => Fin.ext ?_)
  match a with
  | ⟨0, _⟩ => show win12_1.index t (0 : Fin 2) * 4000 + 1 * p.val = t.val * 4000 + p.val; omega
  | ⟨1, _⟩ => show win12_1.index t (1 : Fin 2) * 128 + 1 * k.val = k.val; omega

/-- Window 2's block at every point is its whole array. -/
theorem upd12_blk_2 (c : Dev nD) (t : Fin cfg12.N) (i : S128x128.Idx) : iblk12 V c 2 t i = upd12Wnh V c i := by
  have e := upd12_index t
  show V c (Pipeline.arrRef spec12 2) (((cfg12.win 2).blk t).view.emb i) = _
  refine congrArg (V c (Pipeline.arrRef spec12 2)) (funext fun a => Fin.ext ?_)
  match a with
  | ⟨0, _⟩ => show win12_2.index t (0 : Fin 2) * 128 + 1 * (i 0).val = (i 0).val; omega
  | ⟨1, _⟩ => show win12_2.index t (1 : Fin 2) * 128 + 1 * (i 1).val = (i 1).val; omega

/-- Window 3's block at every point is its whole array. -/
theorem upd12_blk_3 (c : Dev nD) (t : Fin cfg12.N) (i : S128x128.Idx) : iblk12 V c 3 t i = upd12Wna V c i := by
  have e := upd12_index t
  show V c (Pipeline.arrRef spec12 3) (((cfg12.win 3).blk t).view.emb i) = _
  refine congrArg (V c (Pipeline.arrRef spec12 3)) (funext fun a => Fin.ext ?_)
  match a with
  | ⟨0, _⟩ => show win12_3.index t (0 : Fin 2) * 128 + 1 * (i 0).val = (i 0).val; omega
  | ⟨1, _⟩ => show win12_3.index t (1 : Fin 2) * 128 + 1 * (i 1).val = (i 1).val; omega

/-- Window 4's block at every point is its whole array. -/
theorem upd12_blk_4 (c : Dev nD) (t : Fin cfg12.N) (i : S1x128.Idx) : iblk12 V c 4 t i = upd12B1 V c i := by
  have e := upd12_index t
  show V c (Pipeline.arrRef spec12 4) (((cfg12.win 4).blk t).view.emb i) = _
  refine congrArg (V c (Pipeline.arrRef spec12 4)) (funext fun a => Fin.ext ?_)
  match a with
  | ⟨0, _⟩ => show win12_4.index t (0 : Fin 2) * 1 + 1 * (i 0).val = (i 0).val; omega
  | ⟨1, _⟩ => show win12_4.index t (1 : Fin 2) * 128 + 1 * (i 1).val = (i 1).val; omega

/-- Window 5's block at every point is its whole array. -/
theorem upd12_blk_5 (c : Dev nD) (t : Fin cfg12.N) (i : S128x128.Idx) : iblk12 V c 5 t i = upd12Wn2 V c i := by
  have e := upd12_index t
  show V c (Pipeline.arrRef spec12 5) (((cfg12.win 5).blk t).view.emb i) = _
  refine congrArg (V c (Pipeline.arrRef spec12 5)) (funext fun a => Fin.ext ?_)
  match a with
  | ⟨0, _⟩ => show win12_5.index t (0 : Fin 2) * 128 + 1 * (i 0).val = (i 0).val; omega
  | ⟨1, _⟩ => show win12_5.index t (1 : Fin 2) * 128 + 1 * (i 1).val = (i 1).val; omega

/-- Window 6's block at every point is its whole array. -/
theorem upd12_blk_6 (c : Dev nD) (t : Fin cfg12.N) (i : S1x128.Idx) : iblk12 V c 6 t i = upd12B2 V c i := by
  have e := upd12_index t
  show V c (Pipeline.arrRef spec12 6) (((cfg12.win 6).blk t).view.emb i) = _
  refine congrArg (V c (Pipeline.arrRef spec12 6)) (funext fun a => Fin.ext ?_)
  match a with
  | ⟨0, _⟩ => show win12_6.index t (0 : Fin 2) * 1 + 1 * (i 0).val = (i 0).val; omega
  | ⟨1, _⟩ => show win12_6.index t (1 : Fin 2) * 128 + 1 * (i 1).val = (i 1).val; omega

/-- Window 7's block at every point is its whole array. -/
theorem upd12_blk_7 (c : Dev nD) (t : Fin cfg12.N) (i : S128x128.Idx) : iblk12 V c 7 t i = upd12Ws V c i := by
  have e := upd12_index t
  show V c (Pipeline.arrRef spec12 7) (((cfg12.win 7).blk t).view.emb i) = _
  refine congrArg (V c (Pipeline.arrRef spec12 7)) (funext fun a => Fin.ext ?_)
  match a with
  | ⟨0, _⟩ => show win12_7.index t (0 : Fin 2) * 128 + 1 * (i 0).val = (i 0).val; omega
  | ⟨1, _⟩ => show win12_7.index t (1 : Fin 2) * 128 + 1 * (i 1).val = (i 1).val; omega

/-- Window 8's block at every point is its whole array. -/
theorem upd12_blk_8 (c : Dev nD) (t : Fin cfg12.N) (i : S128x128.Idx) : iblk12 V c 8 t i = upd12Wd V c i := by
  have e := upd12_index t
  show V c (Pipeline.arrRef spec12 8) (((cfg12.win 8).blk t).view.emb i) = _
  refine congrArg (V c (Pipeline.arrRef spec12 8)) (funext fun a => Fin.ext ?_)
  match a with
  | ⟨0, _⟩ => show win12_8.index t (0 : Fin 2) * 128 + 1 * (i 0).val = (i 0).val; omega
  | ⟨1, _⟩ => show win12_8.index t (1 : Fin 2) * 128 + 1 * (i 1).val = (i 1).val; omega

/-- Index (p, q) of result window 9's block at point t is index (`upd12Row t p`, q) of its array. -/
theorem upd12_emb_9 (t : Fin cfg12.N) (p : Fin 4000) (q : Fin 128) :
    ((cfg12.win 9).blk t).view.emb (ValueIdx.ix2 p q : S4000x128.Idx) = (ValueIdx.ix2 (upd12Row t p) q : S20000x128.Idx) := by
  have e := upd12_index t
  refine funext fun a => Fin.ext ?_
  match a with
  | ⟨0, _⟩ => show win12_9.index t (0 : Fin 2) * 4000 + 1 * p.val = t.val * 4000 + p.val; omega
  | ⟨1, _⟩ => show win12_9.index t (1 : Fin 2) * 128 + 1 * q.val = q.val; omega

/-- Index (p, q) of result window 10's block at point t is index (`upd12Row t p`, q) of its array. -/
theorem upd12_emb_10 (t : Fin cfg12.N) (p : Fin 4000) (q : Fin 128) :
    ((cfg12.win 10).blk t).view.emb (ValueIdx.ix2 p q : S4000x128.Idx) = (ValueIdx.ix2 (upd12Row t p) q : S20000x128.Idx) := by
  have e := upd12_index t
  refine funext fun a => Fin.ext ?_
  match a with
  | ⟨0, _⟩ => show win12_10.index t (0 : Fin 2) * 4000 + 1 * p.val = t.val * 4000 + p.val; omega
  | ⟨1, _⟩ => show win12_10.index t (1 : Fin 2) * 128 + 1 * q.val = q.val; omega

/-- Index (p, q) of result window 11's block at point t is index (`upd12Row t p`, q) of its array. -/
theorem upd12_emb_11 (t : Fin cfg12.N) (p : Fin 4000) (q : Fin 128) :
    ((cfg12.win 11).blk t).view.emb (ValueIdx.ix2 p q : S4000x128.Idx) = (ValueIdx.ix2 (upd12Row t p) q : S20000x128.Idx) := by
  have e := upd12_index t
  refine funext fun a => Fin.ext ?_
  match a with
  | ⟨0, _⟩ => show win12_11.index t (0 : Fin 2) * 4000 + 1 * p.val = t.val * 4000 + p.val; omega
  | ⟨1, _⟩ => show win12_11.index t (1 : Fin 2) * 128 + 1 * q.val = q.val; omega

/-- The update row formula of rows p of the blocks at point t is that of rows `upd12Row t p` of the arrays. -/
theorem upd12_rows (c : Dev nD) (t : Fin cfg12.N) (p : Fin 4000) :
    Cert.Spec.upd (Cert.Spec.row (iblk12 V c 0 t) p) (Cert.Spec.row (iblk12 V c 1 t) p) (Cert.Spec.m2 (iblk12 V c 2 t))
        (Cert.Spec.m2 (iblk12 V c 3 t)) (fun j => iblk12 V c 4 t (ValueIdx.ix2 0 j)) (Cert.Spec.m2 (iblk12 V c 5 t))
        (fun j => iblk12 V c 6 t (ValueIdx.ix2 0 j))
      = Cert.Spec.upd (Cert.Spec.row (upd12H V c) (upd12Row t p)) (Cert.Spec.row (upd12Agg V c) (upd12Row t p))
          (Cert.Spec.m2 (upd12Wnh V c)) (Cert.Spec.m2 (upd12Wna V c)) (fun j => upd12B1 V c (ValueIdx.ix2 0 j))
          (Cert.Spec.m2 (upd12Wn2 V c)) (fun j => upd12B2 V c (ValueIdx.ix2 0 j)) := by
  have h0 : Cert.Spec.row (iblk12 V c 0 t) p = Cert.Spec.row (upd12H V c) (upd12Row t p) := funext fun k => upd12_blk_0 V c t p k
  have h1 : Cert.Spec.row (iblk12 V c 1 t) p = Cert.Spec.row (upd12Agg V c) (upd12Row t p) := funext fun k => upd12_blk_1 V c t p k
  have h2 : Cert.Spec.m2 (iblk12 V c 2 t) = Cert.Spec.m2 (upd12Wnh V c) := funext fun a => funext fun b => upd12_blk_2 V c t _
  have h3 : Cert.Spec.m2 (iblk12 V c 3 t) = Cert.Spec.m2 (upd12Wna V c) := funext fun a => funext fun b => upd12_blk_3 V c t _
  have h4 : (fun j : Fin 128 => iblk12 V c 4 t (ValueIdx.ix2 0 j)) = fun j => upd12B1 V c (ValueIdx.ix2 0 j) := funext fun j => upd12_blk_4 V c t _
  have h5 : Cert.Spec.m2 (iblk12 V c 5 t) = Cert.Spec.m2 (upd12Wn2 V c) := funext fun a => funext fun b => upd12_blk_5 V c t _
  have h6 : (fun j : Fin 128 => iblk12 V c 6 t (ValueIdx.ix2 0 j)) = fun j => upd12B2 V c (ValueIdx.ix2 0 j) := funext fun j => upd12_blk_6 V c t _
  rw [h0, h1, h2, h3, h4, h5, h6]

/-! ## What each point writes back -/

/-- Point t writes back, into the new features, block t of `upd12New` of the arrays the region finds. -/
theorem upd12_flushed_9 (c : Dev nD) (t : Fin cfg12.N) :
    (dat12 V c).flushed 9 t = ((cfg12.win 9).blk t).view.read (Elt Ideal) (upd12New (upd12H V c) (upd12Agg V c) (upd12Wnh V c) (upd12Wna V c) (upd12B1 V c) (upd12Wn2 V c) (upd12B2 V c)) := by
  show (cfg12.win 9).cut (grid12.coords t) ((dat12 V c).after 9 t) = _
  rw [after12_9]
  unfold out12_9
  rw [View.canon_unit_zero upd12_origin]
  simp only [View.ld_unit_zero (S := S4000x128) upd12_origin, View.ld_unit_zero (S := S128x128) upd12_origin,
    View.ld_unit_zero (S := S1x128) upd12_origin]
  funext j
  obtain ⟨p, q, rfl⟩ : ∃ (p : Fin 4000) (q : Fin 128), j = ValueIdx.ix2 p q := ⟨j 0, j 1, ValueIdx.eq_ix2 j⟩
  show k12_pay3 (iblk12 V c 0 t) (iblk12 V c 2 t) (iblk12 V c 1 t) (iblk12 V c 3 t) (iblk12 V c 4 t) (iblk12 V c 5 t) (iblk12 V c 6 t) (ValueIdx.ix2 p q)
    = upd12New (upd12H V c) (upd12Agg V c) (upd12Wnh V c) (upd12Wna V c) (upd12B1 V c) (upd12Wn2 V c) (upd12B2 V c) (((cfg12.win 9).blk t).view.emb (ValueIdx.ix2 p q : S4000x128.Idx))
  rw [upd12Pay3_at, upd12_emb_9, upd12_rows]
  rfl

/-- Point t writes back, into the source-side projection, block t of `upd12Proj` by the source-side matrix. -/
theorem upd12_flushed_10 (c : Dev nD) (t : Fin cfg12.N) :
    (dat12 V c).flushed 10 t = ((cfg12.win 10).blk t).view.read (Elt Ideal) (upd12Proj (upd12H V c) (upd12Agg V c) (upd12Wnh V c) (upd12Wna V c) (upd12B1 V c) (upd12Wn2 V c) (upd12B2 V c) (upd12Ws V c)) := by
  show (cfg12.win 10).cut (grid12.coords t) ((dat12 V c).after 10 t) = _
  rw [after12_10]
  unfold out12_10
  rw [View.canon_unit_zero upd12_origin]
  simp only [View.ld_unit_zero (S := S4000x128) upd12_origin, View.ld_unit_zero (S := S128x128) upd12_origin,
    View.ld_unit_zero (S := S1x128) upd12_origin]
  funext j
  obtain ⟨p, q, rfl⟩ : ∃ (p : Fin 4000) (q : Fin 128), j = ValueIdx.ix2 p q := ⟨j 0, j 1, ValueIdx.eq_ix2 j⟩
  show k12_pay1 (k12_pay4 (iblk12 V c 0 t) (iblk12 V c 2 t) (iblk12 V c 1 t) (iblk12 V c 3 t) (iblk12 V c 4 t) (iblk12 V c 5 t) (iblk12 V c 6 t))
      (k12_pay5 (iblk12 V c 7 t)) (ValueIdx.ix2 p q)
    = upd12Proj (upd12H V c) (upd12Agg V c) (upd12Wnh V c) (upd12Wna V c) (upd12B1 V c) (upd12Wn2 V c) (upd12B2 V c) (upd12Ws V c) (((cfg12.win 10).blk t).view.emb (ValueIdx.ix2 p q : S4000x128.Idx))
  rw [upd12Pay1_at, upd12_emb_10]
  have hy : (fun k : Fin 128 => k12_pay4 (iblk12 V c 0 t) (iblk12 V c 2 t) (iblk12 V c 1 t) (iblk12 V c 3 t) (iblk12 V c 4 t) (iblk12 V c 5 t)
      (iblk12 V c 6 t) (ValueIdx.ix2 p k))
      = Cert.Spec.upd (Cert.Spec.row (upd12H V c) (upd12Row t p)) (Cert.Spec.row (upd12Agg V c) (upd12Row t p))
          (Cert.Spec.m2 (upd12Wnh V c)) (Cert.Spec.m2 (upd12Wna V c)) (fun j => upd12B1 V c (ValueIdx.ix2 0 j))
          (Cert.Spec.m2 (upd12Wn2 V c)) (fun j => upd12B2 V c (ValueIdx.ix2 0 j)) :=
    funext fun k => by rw [upd12Pay4_at, upd12Pay3_at, upd12_rows]
  have hw : Cert.Spec.m2 (iblk12 V c 7 t) = Cert.Spec.m2 (upd12Ws V c) := funext fun a => funext fun b => upd12_blk_7 V c t _
  rw [hy, hw]
  rfl

/-- Point t writes back, into the destination-side projection, block t of `upd12Proj` by the destination-side matrix. -/
theorem upd12_flushed_11 (c : Dev nD) (t : Fin cfg12.N) :
    (dat12 V c).flushed 11 t = ((cfg12.win 11).blk t).view.read (Elt Ideal) (upd12Proj (upd12H V c) (upd12Agg V c) (upd12Wnh V c) (upd12Wna V c) (upd12B1 V c) (upd12Wn2 V c) (upd12B2 V c) (upd12Wd V c)) := by
  show (cfg12.win 11).cut (grid12.coords t) ((dat12 V c).after 11 t) = _
  rw [after12_11]
  unfold out12_11
  rw [View.canon_unit_zero upd12_origin]
  simp only [View.ld_unit_zero (S := S4000x128) upd12_origin, View.ld_unit_zero (S := S128x128) upd12_origin,
    View.ld_unit_zero (S := S1x128) upd12_origin]
  funext j
  obtain ⟨p, q, rfl⟩ : ∃ (p : Fin 4000) (q : Fin 128), j = ValueIdx.ix2 p q := ⟨j 0, j 1, ValueIdx.eq_ix2 j⟩
  show k12_pay2 (k12_pay4 (iblk12 V c 0 t) (iblk12 V c 2 t) (iblk12 V c 1 t) (iblk12 V c 3 t) (iblk12 V c 4 t) (iblk12 V c 5 t) (iblk12 V c 6 t))
      (iblk12 V c 8 t) (ValueIdx.ix2 p q)
    = upd12Proj (upd12H V c) (upd12Agg V c) (upd12Wnh V c) (upd12Wna V c) (upd12B1 V c) (upd12Wn2 V c) (upd12B2 V c) (upd12Wd V c) (((cfg12.win 11).blk t).view.emb (ValueIdx.ix2 p q : S4000x128.Idx))
  rw [upd12Pay2_at, upd12_emb_11]
  have hy : (fun k : Fin 128 => k12_pay4 (iblk12 V c 0 t) (iblk12 V c 2 t) (iblk12 V c 1 t) (iblk12 V c 3 t) (iblk12 V c 4 t) (iblk12 V c 5 t)
      (iblk12 V c 6 t) (ValueIdx.ix2 p k))
      = Cert.Spec.upd (Cert.Spec.row (upd12H V c) (upd12Row t p)) (Cert.Spec.row (upd12Agg V c) (upd12Row t p))
          (Cert.Spec.m2 (upd12Wnh V c)) (Cert.Spec.m2 (upd12Wna V c)) (fun j => upd12B1 V c (ValueIdx.ix2 0 j))
          (Cert.Spec.m2 (upd12Wn2 V c)) (fun j => upd12B2 V c (ValueIdx.ix2 0 j)) :=
    funext fun k => by rw [upd12Pay4_at, upd12Pay3_at, upd12_rows]
  have hw : Cert.Spec.m2 (iblk12 V c 8 t) = Cert.Spec.m2 (upd12Wd V c) := funext fun a => funext fun b => upd12_blk_8 V c t _
  rw [hy, hw]
  rfl

/-! ## The blocks tile the rows -/

/-- An index of result array 9 is in point t's block iff each coordinate is in the block's range on its axis. -/
theorem upd12_mem_9 (t : Fin cfg12.N) (i : S20000x128.Idx) :
    i ∈ ((cfg12.win 9).blk t).view.set ↔ ∀ a : Fin 2, win12_9.index t a * S4000x128.size a ≤ (i a).val
      ∧ (i a).val < win12_9.index t a * S4000x128.size a + S4000x128.size a := by
  show i ∈ ((View.whole (Pipeline.arrRef spec12 9)).slice (win12_9.rect t)).set ↔ _
  rw [View.set_slice_whole, Rect.mem_set_unit]
  exact Iff.rfl

/-- Row r of result array 9 is in the block of point r / 4000, and every point writes its block back. -/
theorem upd12_cover_9 (i : S20000x128.Idx) :
    ∃ t : Fin cfg12.N, (cfg12.win 9).flush t = true ∧ i ∈ ((cfg12.win 9).blk t).view.set := by
  have hi0 : (i 0).val < 20000 := (i 0).isLt
  have hi1 : (i 1).val < 128 := (i 1).isLt
  have hN : (i 0).val / 4000 < grid12.N := by rw [N_12]; omega
  refine ⟨⟨(i 0).val / 4000, hN⟩, flush12_9 _, ?_⟩
  rw [upd12_mem_9]
  obtain ⟨-, -, -, -, -, -, -, -, -, e9, e10, e11⟩ := upd12_index ⟨(i 0).val / 4000, hN⟩
  have q0 : win12_9.index ⟨(i 0).val / 4000, hN⟩ (0 : Fin 2) = (i 0).val / 4000 := e9.1
  have q1 : win12_9.index ⟨(i 0).val / 4000, hN⟩ (1 : Fin 2) = 0 := e9.2
  intro a
  match a with
  | ⟨0, _⟩ =>
    show win12_9.index ⟨(i 0).val / 4000, hN⟩ (0 : Fin 2) * 4000 ≤ (i 0).val
      ∧ (i 0).val < win12_9.index ⟨(i 0).val / 4000, hN⟩ (0 : Fin 2) * 4000 + 4000
    omega
  | ⟨1, _⟩ =>
    show win12_9.index ⟨(i 0).val / 4000, hN⟩ (1 : Fin 2) * 128 ≤ (i 1).val
      ∧ (i 1).val < win12_9.index ⟨(i 0).val / 4000, hN⟩ (1 : Fin 2) * 128 + 128
    omega

/-- An index of result array 10 is in point t's block iff each coordinate is in the block's range on its axis. -/
theorem upd12_mem_10 (t : Fin cfg12.N) (i : S20000x128.Idx) :
    i ∈ ((cfg12.win 10).blk t).view.set ↔ ∀ a : Fin 2, win12_10.index t a * S4000x128.size a ≤ (i a).val
      ∧ (i a).val < win12_10.index t a * S4000x128.size a + S4000x128.size a := by
  show i ∈ ((View.whole (Pipeline.arrRef spec12 10)).slice (win12_10.rect t)).set ↔ _
  rw [View.set_slice_whole, Rect.mem_set_unit]
  exact Iff.rfl

/-- Row r of result array 10 is in the block of point r / 4000, and every point writes its block back. -/
theorem upd12_cover_10 (i : S20000x128.Idx) :
    ∃ t : Fin cfg12.N, (cfg12.win 10).flush t = true ∧ i ∈ ((cfg12.win 10).blk t).view.set := by
  have hi0 : (i 0).val < 20000 := (i 0).isLt
  have hi1 : (i 1).val < 128 := (i 1).isLt
  have hN : (i 0).val / 4000 < grid12.N := by rw [N_12]; omega
  refine ⟨⟨(i 0).val / 4000, hN⟩, flush12_10 _, ?_⟩
  rw [upd12_mem_10]
  obtain ⟨-, -, -, -, -, -, -, -, -, e9, e10, e11⟩ := upd12_index ⟨(i 0).val / 4000, hN⟩
  have q0 : win12_10.index ⟨(i 0).val / 4000, hN⟩ (0 : Fin 2) = (i 0).val / 4000 := e10.1
  have q1 : win12_10.index ⟨(i 0).val / 4000, hN⟩ (1 : Fin 2) = 0 := e10.2
  intro a
  match a with
  | ⟨0, _⟩ =>
    show win12_10.index ⟨(i 0).val / 4000, hN⟩ (0 : Fin 2) * 4000 ≤ (i 0).val
      ∧ (i 0).val < win12_10.index ⟨(i 0).val / 4000, hN⟩ (0 : Fin 2) * 4000 + 4000
    omega
  | ⟨1, _⟩ =>
    show win12_10.index ⟨(i 0).val / 4000, hN⟩ (1 : Fin 2) * 128 ≤ (i 1).val
      ∧ (i 1).val < win12_10.index ⟨(i 0).val / 4000, hN⟩ (1 : Fin 2) * 128 + 128
    omega

/-- An index of result array 11 is in point t's block iff each coordinate is in the block's range on its axis. -/
theorem upd12_mem_11 (t : Fin cfg12.N) (i : S20000x128.Idx) :
    i ∈ ((cfg12.win 11).blk t).view.set ↔ ∀ a : Fin 2, win12_11.index t a * S4000x128.size a ≤ (i a).val
      ∧ (i a).val < win12_11.index t a * S4000x128.size a + S4000x128.size a := by
  show i ∈ ((View.whole (Pipeline.arrRef spec12 11)).slice (win12_11.rect t)).set ↔ _
  rw [View.set_slice_whole, Rect.mem_set_unit]
  exact Iff.rfl

/-- Row r of result array 11 is in the block of point r / 4000, and every point writes its block back. -/
theorem upd12_cover_11 (i : S20000x128.Idx) :
    ∃ t : Fin cfg12.N, (cfg12.win 11).flush t = true ∧ i ∈ ((cfg12.win 11).blk t).view.set := by
  have hi0 : (i 0).val < 20000 := (i 0).isLt
  have hi1 : (i 1).val < 128 := (i 1).isLt
  have hN : (i 0).val / 4000 < grid12.N := by rw [N_12]; omega
  refine ⟨⟨(i 0).val / 4000, hN⟩, flush12_11 _, ?_⟩
  rw [upd12_mem_11]
  obtain ⟨-, -, -, -, -, -, -, -, -, e9, e10, e11⟩ := upd12_index ⟨(i 0).val / 4000, hN⟩
  have q0 : win12_11.index ⟨(i 0).val / 4000, hN⟩ (0 : Fin 2) = (i 0).val / 4000 := e11.1
  have q1 : win12_11.index ⟨(i 0).val / 4000, hN⟩ (1 : Fin 2) = 0 := e11.2
  intro a
  match a with
  | ⟨0, _⟩ =>
    show win12_11.index ⟨(i 0).val / 4000, hN⟩ (0 : Fin 2) * 4000 ≤ (i 0).val
      ∧ (i 0).val < win12_11.index ⟨(i 0).val / 4000, hN⟩ (0 : Fin 2) * 4000 + 4000
    omega
  | ⟨1, _⟩ =>
    show win12_11.index ⟨(i 0).val / 4000, hN⟩ (1 : Fin 2) * 128 ≤ (i 1).val
      ∧ (i 1).val < win12_11.index ⟨(i 0).val / 4000, hN⟩ (1 : Fin 2) * 128 + 128
    omega

/-! ## The result arrays when the region ends -/

/-- The new features end as `upd12New` of the arrays the region finds. -/
theorem upd12_array_9 (c : Dev nD) : (dat12 (F := Ideal) V c).arrAt 9 cfg12.N = upd12New (upd12H V c) (upd12Agg V c) (upd12Wnh V c) (upd12Wna V c) (upd12B1 V c) (upd12Wn2 V c) (upd12B2 V c) :=
  (dat12 V c).arrAt_eq_of_cover 9 (upd12New (upd12H V c) (upd12Agg V c) (upd12Wnh V c) (upd12Wna V c) (upd12B1 V c) (upd12Wn2 V c) (upd12B2 V c)) (fun t _ => upd12_flushed_9 V c t) upd12_cover_9

/-- The source-side projection ends as `upd12Proj` by the source-side matrix. -/
theorem upd12_array_10 (c : Dev nD) : (dat12 (F := Ideal) V c).arrAt 10 cfg12.N = upd12Proj (upd12H V c) (upd12Agg V c) (upd12Wnh V c) (upd12Wna V c) (upd12B1 V c) (upd12Wn2 V c) (upd12B2 V c) (upd12Ws V c) :=
  (dat12 V c).arrAt_eq_of_cover 10 (upd12Proj (upd12H V c) (upd12Agg V c) (upd12Wnh V c) (upd12Wna V c) (upd12B1 V c) (upd12Wn2 V c) (upd12B2 V c) (upd12Ws V c)) (fun t _ => upd12_flushed_10 V c t) upd12_cover_10

/-- The destination-side projection ends as `upd12Proj` by the destination-side matrix. -/
theorem upd12_array_11 (c : Dev nD) : (dat12 (F := Ideal) V c).arrAt 11 cfg12.N = upd12Proj (upd12H V c) (upd12Agg V c) (upd12Wnh V c) (upd12Wna V c) (upd12B1 V c) (upd12Wn2 V c) (upd12B2 V c) (upd12Wd V c) :=
  (dat12 V c).arrAt_eq_of_cover 11 (upd12Proj (upd12H V c) (upd12Agg V c) (upd12Wnh V c) (upd12Wna V c) (upd12B1 V c) (upd12Wn2 V c) (upd12B2 V c) (upd12Wd V c)) (fun t _ => upd12_flushed_11 V c t) upd12_cover_11

/-- The new features at row p, column q: the update row formula of rows p of the features and the messages. -/
theorem final12_9 (c : Dev nD) (p : Fin 20000) (q : Fin 128) :
    (dat12 (F := Ideal) V c).arrAt 9 cfg12.N (ValueIdx.ix2 p q : S20000x128.Idx)
      = Cert.Spec.upd (Cert.Spec.row (upd12H V c) p) (Cert.Spec.row (upd12Agg V c) p) (Cert.Spec.m2 (upd12Wnh V c))
        (Cert.Spec.m2 (upd12Wna V c)) (fun j => upd12B1 V c (ValueIdx.ix2 0 j)) (Cert.Spec.m2 (upd12Wn2 V c))
        (fun j => upd12B2 V c (ValueIdx.ix2 0 j)) q := by
  rw [upd12_array_9]; rfl

/-- The source-side projection at row p, column q: the new features' row p times the source-side matrix. -/
theorem final12_10 (c : Dev nD) (p : Fin 20000) (q : Fin 128) :
    (dat12 (F := Ideal) V c).arrAt 10 cfg12.N (ValueIdx.ix2 p q : S20000x128.Idx)
      = Cert.Spec.lin (Cert.Spec.upd (Cert.Spec.row (upd12H V c) p) (Cert.Spec.row (upd12Agg V c) p) (Cert.Spec.m2 (upd12Wnh V c))
        (Cert.Spec.m2 (upd12Wna V c)) (fun j => upd12B1 V c (ValueIdx.ix2 0 j)) (Cert.Spec.m2 (upd12Wn2 V c))
        (fun j => upd12B2 V c (ValueIdx.ix2 0 j))) (Cert.Spec.m2 (upd12Ws V c)) q := by
  rw [upd12_array_10]; rfl

/-- The destination-side projection at row p, column q: the new features' row p times the destination-side matrix. -/
theorem final12_11 (c : Dev nD) (p : Fin 20000) (q : Fin 128) :
    (dat12 (F := Ideal) V c).arrAt 11 cfg12.N (ValueIdx.ix2 p q : S20000x128.Idx)
      = Cert.Spec.lin (Cert.Spec.upd (Cert.Spec.row (upd12H V c) p) (Cert.Spec.row (upd12Agg V c) p) (Cert.Spec.m2 (upd12Wnh V c))
        (Cert.Spec.m2 (upd12Wna V c)) (fun j => upd12B1 V c (ValueIdx.ix2 0 j)) (Cert.Spec.m2 (upd12Wn2 V c))
        (fun j => upd12B2 V c (ValueIdx.ix2 0 j))) (Cert.Spec.m2 (upd12Wd V c)) q := by
  rw [upd12_array_11]; rfl

end Cert.KernelIdeal.Hand

end
-- ==== Proof.Bridge.Upd12.lean ====
/-
  Region 12, the node update of one layer, as equations of arrays: whatever fills the region's nine input arrays, if
  they are the reference's inputs (the features, the aggregated messages and the five weight matrices the same arrays;
  each bias, which the kernel takes as one row and the reference as a vector, entry by entry), then the three result
  arrays after the region are the reference's updated features and their two projections for the next layer.
-/
import proofs.«152161_j29669634081217_2_alg».proof.Proof.KI.Val12
import proofs.«152161_j29669634081217_2_alg».proof.Proof.Ref.StageUpd
import proofs.«152161_j29669634081217_2_alg».proof.Proof.Ref.StageAB
import proofs.«152161_j29669634081217_2_alg».proof.Proof.Ref.Stages

noncomputable section

namespace Cert.Bridge

open Idealize.ShloMosaic Idealize.ShloMosaic.TcCoe Idealize.SL.Sem Idealize.ShloMosaic.ValueIdx
open Idealize.ShloMosaic.Pipeline (Dat)
open Cert.KernelIdeal Cert.KernelIdeal.Gen
open Cert.KernelIdeal.Hand (dat12 final12_9 final12_10 final12_11 upd12H upd12Agg upd12Wnh upd12Wna upd12B1 upd12Wn2 upd12B2 upd12Ws upd12Wd)
open Cert.ReferenceIdeal.Hand (updRef linRef refUpd refLin)

variable (V : (c : Dev nD) → (b : Ref sig .tc) → Buf (Elt Ideal) ((c : Thread nD τ).loc b)) (c : Dev nD)
variable (H Agg : FVec Ideal Cert.ReferenceIdeal.S20000x128 .f32) (Wnh Wna : FVec Ideal Cert.ReferenceIdeal.S128x128 .f32)
  (b1 : FVec Ideal Cert.ReferenceIdeal.S128 .f32) (Wn2 : FVec Ideal Cert.ReferenceIdeal.S128x128 .f32)
  (b2 : FVec Ideal Cert.ReferenceIdeal.S128 .f32)

/-- The updated features: both sides are the update row formula of rows p of the features and of the messages. -/
theorem upd12_new (h0 : upd12H V c = H) (h1 : upd12Agg V c = Agg) (h2 : upd12Wnh V c = Wnh) (h3 : upd12Wna V c = Wna)
    (h4 : ∀ j : Fin 128, upd12B1 V c (ix2 (0 : Fin 1) j) = b1 (ix1 j)) (h5 : upd12Wn2 V c = Wn2)
    (h6 : ∀ j : Fin 128, upd12B2 V c (ix2 (0 : Fin 1) j) = b2 (ix1 j)) :
    ((dat12 (F := Ideal) V c).arrAt 9 cfg12.N : S20000x128.Idx → EReal) = updRef H Agg Wnh Wna b1 Wn2 b2 := by
  funext i
  obtain ⟨p, q, rfl⟩ : ∃ (p : Fin 20000) (q : Fin 128), i = ix2 p q := ⟨i 0, i 1, eq_ix2 i⟩
  have e4 : (fun j : Fin 128 => upd12B1 V c (ix2 (0 : Fin 1) j)) = Cert.Spec.v1 b1 := funext h4
  have e6 : (fun j : Fin 128 => upd12B2 V c (ix2 (0 : Fin 1) j)) = Cert.Spec.v1 b2 := funext h6
  refine (final12_9 V c p q).trans ?_
  rw [e4, e6, h0, h1, h2, h3, h5]
  exact (refUpd H Agg Wnh Wna b1 Wn2 b2 p q).symm

/-- A projection of the updated features by a matrix W, for any array R that reads as that projection at every index:
    row p of the updated features, on both sides the update row formula, times W. -/
theorem upd12_proj_of (R : S20000x128.Idx → EReal) (Wk : S128x128.Idx → EReal) (W : FVec Ideal Cert.ReferenceIdeal.S128x128 .f32)
    (hfin : ∀ (p : Fin 20000) (q : Fin 128), R (ix2 p q : S20000x128.Idx)
      = Cert.Spec.lin (Cert.Spec.upd (Cert.Spec.row (upd12H V c) p) (Cert.Spec.row (upd12Agg V c) p) (Cert.Spec.m2 (upd12Wnh V c))
        (Cert.Spec.m2 (upd12Wna V c)) (fun j => upd12B1 V c (ix2 0 j)) (Cert.Spec.m2 (upd12Wn2 V c))
        (fun j => upd12B2 V c (ix2 0 j))) (Cert.Spec.m2 Wk) q)
    (h0 : upd12H V c = H) (h1 : upd12Agg V c = Agg) (h2 : upd12Wnh V c = Wnh) (h3 : upd12Wna V c = Wna)
    (h4 : ∀ j : Fin 128, upd12B1 V c (ix2 (0 : Fin 1) j) = b1 (ix1 j)) (h5 : upd12Wn2 V c = Wn2)
    (h6 : ∀ j : Fin 128, upd12B2 V c (ix2 (0 : Fin 1) j) = b2 (ix1 j)) (h7 : Wk = W) :
    R = linRef (updRef H Agg Wnh Wna b1 Wn2 b2) W := by
  funext i
  obtain ⟨p, q, rfl⟩ : ∃ (p : Fin 20000) (q : Fin 128), i = ix2 p q := ⟨i 0, i 1, eq_ix2 i⟩
  have e4 : (fun j : Fin 128 => upd12B1 V c (ix2 (0 : Fin 1) j)) = Cert.Spec.v1 b1 := funext h4
  have e6 : (fun j : Fin 128 => upd12B2 V c (ix2 (0 : Fin 1) j)) = Cert.Spec.v1 b2 := funext h6
  refine (hfin p q).trans ?_
  rw [e4, e6, h0, h1, h2, h3, h5, h7]
  refine Eq.trans ?_ (refLin (updRef H Agg Wnh Wna b1 Wn2 b2) W p q).symm
  refine congrArg (fun x => Cert.Spec.lin x (Cert.Spec.m2 W) q) ?_
  funext k
  exact (refUpd H Agg Wnh Wna b1 Wn2 b2 p k).symm

/-- The projection by the source-side matrix of the next layer. -/
theorem upd12_projS (Ws : FVec Ideal Cert.ReferenceIdeal.S128x128 .f32)
    (h0 : upd12H V c = H) (h1 : upd12Agg V c = Agg) (h2 : upd12Wnh V c = Wnh) (h3 : upd12Wna V c = Wna)
    (h4 : ∀ j : Fin 128, upd12B1 V c (ix2 (0 : Fin 1) j) = b1 (ix1 j)) (h5 : upd12Wn2 V c = Wn2)
    (h6 : ∀ j : Fin 128, upd12B2 V c (ix2 (0 : Fin 1) j) = b2 (ix1 j)) (h7 : upd12Ws V c = Ws) :
    ((dat12 (F := Ideal) V c).arrAt 10 cfg12.N : S20000x128.Idx → EReal) = linRef (updRef H Agg Wnh Wna b1 Wn2 b2) Ws :=
  upd12_proj_of V c H Agg Wnh Wna b1 Wn2 b2 ((dat12 (F := Ideal) V c).arrAt 10 cfg12.N) (upd12Ws V c) Ws (final12_10 V c) h0 h1 h2 h3 h4 h5 h6 h7

/-- The projection by the destination-side matrix of the next layer. -/
theorem upd12_projD (Wd : FVec Ideal Cert.ReferenceIdeal.S128x128 .f32)
    (h0 : upd12H V c = H) (h1 : upd12Agg V c = Agg) (h2 : upd12Wnh V c = Wnh) (h3 : upd12Wna V c = Wna)
    (h4 : ∀ j : Fin 128, upd12B1 V c (ix2 (0 : Fin 1) j) = b1 (ix1 j)) (h5 : upd12Wn2 V c = Wn2)
    (h6 : ∀ j : Fin 128, upd12B2 V c (ix2 (0 : Fin 1) j) = b2 (ix1 j)) (h8 : upd12Wd V c = Wd) :
    ((dat12 (F := Ideal) V c).arrAt 11 cfg12.N : S20000x128.Idx → EReal) = linRef (updRef H Agg Wnh Wna b1 Wn2 b2) Wd :=
  upd12_proj_of V c H Agg Wnh Wna b1 Wn2 b2 ((dat12 (F := Ideal) V c).arrAt 11 cfg12.N) (upd12Wd V c) Wd (final12_11 V c) h0 h1 h2 h3 h4 h5 h6 h8

end Cert.Bridge

end
-- ==== Proof.Bridge.Layer4.lean ====
/-
  Layer 4 of the message passing, the kernel program's buffers against the reference's named stages. Region 11 leaves
  the reference's messages of layer 4 in its result buffer, given that the two projections and the encoded edges it
  reads are the reference's. Region 12 then leaves the reference's node features entering layer 5 and their two
  projections, given those messages and the features entering layer 4.
-/
import proofs.«152161_j29669634081217_2_alg».proof.Proof.KI.Stage11
import proofs.«152161_j29669634081217_2_alg».proof.Proof.KI.Reads5
import proofs.«152161_j29669634081217_2_alg».proof.Proof.KI.Outs
import proofs.«152161_j29669634081217_2_alg».proof.Proof.Bridge.Args
import proofs.«152161_j29669634081217_2_alg».proof.Proof.Bridge.LayerCommon
import proofs.«152161_j29669634081217_2_alg».proof.Proof.Bridge.Upd12

-- reading a buffer at a boundary unfolds the table of boundaries, one case per boundary
set_option maxRecDepth 16384

noncomputable section

namespace Cert.Bridge

open Idealize.ShloMosaic Idealize.ShloMosaic.TcCoe Idealize.SL.Sem Idealize.ShloMosaic.ValueIdx
open Cert.KernelIdeal Cert.KernelIdeal.Gen
open Cert.KernelIdeal.Hand (W22 W4 W24 W26 outs VW24 VW26 en11 en12 Ex11_out7 Ex12_out9 Ex12_out10 Ex12_out11 stage11_7
  in11_0 in11_1 in11_2 in11_3 in11_4 in11_5 in11_6 in12_0 in12_1 in12_2 in12_3 in12_4 in12_5 in12_6 in12_7 in12_8
  upd12H upd12Agg upd12Wnh upd12Wna upd12B1 upd12Wn2 upd12B2 upd12Ws upd12Wd)
open Cert.ReferenceIdeal.Hand (Args e0S hS aS bS mS aggS asrcS bdstS wmN wvN)

variable (m : (ℓ : Loc nD τ sig) → Buf (Elt Ideal) ℓ) (c : Dev nD)

/-! ## Region 11: the messages -/

/-- Region 11's result buffer holds the reference's messages of layer 4.
    Its seven inputs, one by one: the encoded edges are the buffer region 1 left; the two gathered projections are
    gathers of the second and third buffers region 10 left, along the edge list's two rows, which is how the reference gathers them; the
    two weight matrices and the two bias rows are layer 4's slabs of the stacked arguments. -/
theorem bm4 (ha : W22 m c main_v202_1 = aS (argsOf m c) 4) (hb : W22 m c main_v202_2 = bS (argsOf m c) 4)
    (he : W4 m c main_v17 = e0S (argsOf m c)) :
    W24 m c main_v227 = mS (argsOf m c) 4 := by
  rw [← VW24]
  refine (Ex11_out7 m c).trans ?_
  refine stage11_7 (en11 m) c (e0S (argsOf m c)) (asrcS (argsOf m c) 4) (bdstS (argsOf m c) 4)
    (wmN (argsOf m c).a16 4) (wvN (argsOf m c).a17 4) (wmN (argsOf m c).a18 4) (wvN (argsOf m c).a19 4)
    ?_ ?_ ?_ ?_ ?_ ?_ ?_
  · exact (in11_0 m (outs m) c).trans he
  · refine (in11_1 m (outs m) c).trans ?_
    rw [show outs m 22 main_v202_1 c = W22 m c main_v202_1 from rfl, ha]
    exact gatherSrc_eq m c _
  · refine (in11_2 m (outs m) c).trans ?_
    rw [show outs m 22 main_v202_2 c = W22 m c main_v202_2 from rfl, hb]
    exact gatherDst_eq m c _
  · exact (in11_3 m (outs m) c).trans (sliceMat_eq _ 4 _ _)
  · exact fun j => (congrFun (in11_4 m (outs m) c) (ix2 (0 : Fin 1) j)).trans (sliceRow_at _ 4 _ _ j)
  · exact (in11_5 m (outs m) c).trans (sliceMat_eq _ 4 _ _)
  · exact fun j => (congrFun (in11_6 m (outs m) c) (ix2 (0 : Fin 1) j)).trans (sliceRow_at _ 4 _ _ j)

/-! ## Region 12: the node update

Its nine inputs: the features entering the layer are the first buffer region 10 left; the aggregated messages are the
scatter-add of region 11's result at the receivers, into zeros, which is how the reference aggregates; the rest are
slabs of the stacked arguments, layer 4's for the update and layer 5's for the two projections. -/

theorem l4_H (hh : W22 m c main_v202_0 = hS (argsOf m c) 4) : upd12H (en12 m) c = hS (argsOf m c) 4 :=
  (in12_0 m (outs m) c).trans hh

theorem l4_Agg (hm : W24 m c main_v227 = mS (argsOf m c) 4) : upd12Agg (en12 m) c = aggS (argsOf m c) 4 := by
  refine (in12_1 m (outs m) c).trans ?_
  rw [show outs m 24 main_v227 c = W24 m c main_v227 from rfl, hm]
  exact scatter_eq m c _

theorem l4_Wnh : upd12Wnh (en12 m) c = wmN (argsOf m c).a20 4 := (in12_2 m (outs m) c).trans (sliceMat_eq _ 4 _ _)
theorem l4_Wna : upd12Wna (en12 m) c = wmN (argsOf m c).a21 4 := (in12_3 m (outs m) c).trans (sliceMat_eq _ 4 _ _)
theorem l4_B1 (j : Fin 128) : upd12B1 (en12 m) c (ix2 (0 : Fin 1) j) = wvN (argsOf m c).a22 4 (ix1 j) :=
  (congrFun (in12_4 m (outs m) c) (ix2 (0 : Fin 1) j)).trans (sliceRow_at _ 4 _ _ j)
theorem l4_Wn2 : upd12Wn2 (en12 m) c = wmN (argsOf m c).a23 4 := (in12_5 m (outs m) c).trans (sliceMat_eq _ 4 _ _)
theorem l4_B2 (j : Fin 128) : upd12B2 (en12 m) c (ix2 (0 : Fin 1) j) = wvN (argsOf m c).a24 4 (ix1 j) :=
  (congrFun (in12_6 m (outs m) c) (ix2 (0 : Fin 1) j)).trans (sliceRow_at _ 4 _ _ j)
theorem l4_Ws : upd12Ws (en12 m) c = wmN (argsOf m c).a14 5 := (in12_7 m (outs m) c).trans (sliceMat_eq _ 5 _ _)
theorem l4_Wd : upd12Wd (en12 m) c = wmN (argsOf m c).a15 5 := (in12_8 m (outs m) c).trans (sliceMat_eq _ 5 _ _)

/-- Region 12's first result buffer holds the reference's node features entering layer 5. -/
theorem bh4 (hm : W24 m c main_v227 = mS (argsOf m c) 4) (hh : W22 m c main_v202_0 = hS (argsOf m c) 4) :
    W26 m c main_v247_0 = hS (argsOf m c) 5 := by
  rw [← VW26]
  refine (Ex12_out9 m c).trans ?_
  exact upd12_new (en12 m) c (hS (argsOf m c) 4) (aggS (argsOf m c) 4) (wmN (argsOf m c).a20 4) (wmN (argsOf m c).a21 4)
    (wvN (argsOf m c).a22 4) (wmN (argsOf m c).a23 4) (wvN (argsOf m c).a24 4)
    (l4_H m c hh) (l4_Agg m c hm) (l4_Wnh m c) (l4_Wna m c) (l4_B1 m c) (l4_Wn2 m c) (l4_B2 m c)

/-- Its second holds their projection by layer 5's source-side matrix. -/
theorem ba4 (hm : W24 m c main_v227 = mS (argsOf m c) 4) (hh : W22 m c main_v202_0 = hS (argsOf m c) 4) :
    W26 m c main_v247_1 = aS (argsOf m c) 5 := by
  rw [← VW26]
  refine (Ex12_out10 m c).trans ?_
  exact upd12_projS (en12 m) c (hS (argsOf m c) 4) (aggS (argsOf m c) 4) (wmN (argsOf m c).a20 4) (wmN (argsOf m c).a21 4)
    (wvN (argsOf m c).a22 4) (wmN (argsOf m c).a23 4) (wvN (argsOf m c).a24 4) (wmN (argsOf m c).a14 5)
    (l4_H m c hh) (l4_Agg m c hm) (l4_Wnh m c) (l4_Wna m c) (l4_B1 m c) (l4_Wn2 m c) (l4_B2 m c) (l4_Ws m c)

/-- Its third holds their projection by layer 5's destination-side matrix. -/
theorem bb4 (hm : W24 m c main_v227 = mS (argsOf m c) 4) (hh : W22 m c main_v202_0 = hS (argsOf m c) 4) :
    W26 m c main_v247_2 = bS (argsOf m c) 5 := by
  rw [← VW26]
  refine (Ex12_out11 m c).trans ?_
  exact upd12_projD (en12 m) c (hS (argsOf m c) 4) (aggS (argsOf m c) 4) (wmN (argsOf m c).a20 4) (wmN (argsOf m c).a21 4)
    (wvN (argsOf m c).a22 4) (wmN (argsOf m c).a23 4) (wvN (argsOf m c).a24 4) (wmN (argsOf m c).a15 5)
    (l4_H m c hh) (l4_Agg m c hm) (l4_Wnh m c) (l4_Wna m c) (l4_B1 m c) (l4_Wn2 m c) (l4_B2 m c) (l4_Wd m c)

end Cert.Bridge

end
-- ==== Proof.KI.Val13.lean ====
/-
  Region 13 of @main, the value half at the ideal values: after the region's 20 points the result array holds, row by
  row, the specification's message formula of the region's seven input arrays as the region finds them. Point t
  computes rows 8000 t .. 8000 t + 7999 from the same rows of the three edge arrays and the whole weight arrays.
-/
import proofs.«152161_j29669634081217_2_alg».proof.Proof.KI.Reg13
import proofs.«152161_j29669634081217_2_alg».proof.Proof.KI.MsgCommon
import proofs.«152161_j29669634081217_2_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 65536

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

-- the TensorCore's buffer contents when the region is entered, at the ideal values
variable (V : (c : Dev nD) → (b : Ref sig .tc) → Buf (Elt Ideal) ((c : Thread nD τ).loc b))

/-! ## The region's arrays as the region finds them, at their literal shapes -/

/-- The edge features. -/
noncomputable abbrev arr13_0 (c : Dev nD) : S160000x128.Idx → EReal := V c (Pipeline.arrRef spec13 0)
/-- The source nodes' term, gathered along the edges. -/
noncomputable abbrev arr13_1 (c : Dev nD) : S160000x128.Idx → EReal := V c (Pipeline.arrRef spec13 1)
/-- The destination nodes' term, gathered along the edges. -/
noncomputable abbrev arr13_2 (c : Dev nD) : S160000x128.Idx → EReal := V c (Pipeline.arrRef spec13 2)
/-- The first layer's weight on the edge features. -/
noncomputable abbrev arr13_3 (c : Dev nD) : S128x128.Idx → EReal := V c (Pipeline.arrRef spec13 3)
/-- The first layer's bias, as one row. -/
noncomputable abbrev arr13_4 (c : Dev nD) : S1x128.Idx → EReal := V c (Pipeline.arrRef spec13 4)
/-- The second layer's weight. -/
noncomputable abbrev arr13_5 (c : Dev nD) : S128x128.Idx → EReal := V c (Pipeline.arrRef spec13 5)
/-- The second layer's bias, as one row. -/
noncomputable abbrev arr13_6 (c : Dev nD) : S1x128.Idx → EReal := V c (Pipeline.arrRef spec13 6)

/-- The message of edge r, column q: the specification's row formula on row r of the three edge arrays. -/
noncomputable def G13_row (c : Dev nD) (r : Fin 160000) (q : Fin 128) : EReal :=
  Cert.Spec.msg (Cert.Spec.row (arr13_0 V c) r) (Cert.Spec.row (arr13_1 V c) r) (Cert.Spec.row (arr13_2 V c) r)
    (Cert.Spec.m2 (arr13_3 V c)) (fun j => arr13_4 V c (ix2 (0 : Fin 1) j)) (Cert.Spec.m2 (arr13_5 V c))
    (fun j => arr13_6 V c (ix2 (0 : Fin 1) j)) q

/-- The whole result array as one function of the input arrays. -/
noncomputable def G13 (c : Dev nD) : S160000x128.Idx → EReal := fun i => G13_row V c (i 0) (i 1)

/-! ## The payload -/

/-- The body's payload is the message kernels' shared block arithmetic. -/
theorem pay13_eq (v0 : Vec Ideal S8000x128 .bf16) (v2 : Vec Ideal S128x128 .f32) (v6 v9 : Vec Ideal S8000x128 .bf16)
    (v14 : Vec Ideal S1x128 .f32) (v21 : Vec Ideal S128x128 .f32) (v25 : Vec Ideal S1x128 .f32) :
    k13_pay1 v0 v2 v6 v9 v14 v21 v25 = msgTerm v0 v6 v9 v2 v14 v21 v25 := rfl

/-! ## Where point t's blocks sit in their arrays -/

theorem hz13 : (![0, 0] : Fin 2 → Nat) = fun _ => 0 := funext fun a => by fin_cases a <;> rfl

/-- The printed index maps, decided over the 20 points: the three edge windows and the result window take block t of
    the rows at point t, the four weight windows their one block. -/
theorem idx13 : ∀ t : Fin cfg13.N,
    win13_0.index t (0 : Fin 2) = t.val ∧ win13_0.index t (1 : Fin 2) = 0
    ∧ win13_1.index t (0 : Fin 2) = t.val ∧ win13_1.index t (1 : Fin 2) = 0
    ∧ win13_2.index t (0 : Fin 2) = t.val ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0
    ∧ win13_5.index t (0 : Fin 2) = 0 ∧ win13_5.index t (1 : Fin 2) = 0
    ∧ win13_6.index t (0 : Fin 2) = 0 ∧ win13_6.index t (1 : Fin 2) = 0
    ∧ win13_7.index t (0 : Fin 2) = t.val ∧ win13_7.index t (1 : Fin 2) = 0 :=
  (by decide +kernel : ∀ t : Fin grid13.N, _)

/-- Row p of point t's block is row 8000 t + p of the array. -/
noncomputable def rows13 (t : Fin cfg13.N) (p : Fin 8000) : Fin 160000 :=
  ⟨t.val * 8000 + p.val, by have h : t.val < 20 := Nat.lt_of_lt_of_eq t.isLt N_13; have := p.isLt; omega⟩

theorem emb13_0 (t : Fin cfg13.N) (p : Fin 8000) (k : Fin 128) :
    ((cfg13.win 0).blk t).view.emb (ix2 p k) = ix2 (rows13 t p) k := by
  obtain ⟨a0, a1, b0, b1, c0, c1, d0, d1, e0, e1, f0, f1, g0, g1, h0, h1⟩ := idx13 t
  funext a; apply Fin.ext
  match a with
  | ⟨0, _⟩ => show win13_0.index t (0 : Fin 2) * 8000 + 1 * p.val = t.val * 8000 + p.val; omega
  | ⟨1, _⟩ => show win13_0.index t (1 : Fin 2) * 128 + 1 * k.val = k.val; omega

theorem emb13_1 (t : Fin cfg13.N) (p : Fin 8000) (k : Fin 128) :
    ((cfg13.win 1).blk t).view.emb (ix2 p k) = ix2 (rows13 t p) k := by
  obtain ⟨a0, a1, b0, b1, c0, c1, d0, d1, e0, e1, f0, f1, g0, g1, h0, h1⟩ := idx13 t
  funext a; apply Fin.ext
  match a with
  | ⟨0, _⟩ => show win13_1.index t (0 : Fin 2) * 8000 + 1 * p.val = t.val * 8000 + p.val; omega
  | ⟨1, _⟩ => show win13_1.index t (1 : Fin 2) * 128 + 1 * k.val = k.val; omega

theorem emb13_2 (t : Fin cfg13.N) (p : Fin 8000) (k : Fin 128) :
    ((cfg13.win 2).blk t).view.emb (ix2 p k) = ix2 (rows13 t p) k := by
  obtain ⟨a0, a1, b0, b1, c0, c1, d0, d1, e0, e1, f0, f1, g0, g1, h0, h1⟩ := idx13 t
  funext a; apply Fin.ext
  match a with
  | ⟨0, _⟩ => show win13_2.index t (0 : Fin 2) * 8000 + 1 * p.val = t.val * 8000 + p.val; omega
  | ⟨1, _⟩ => show win13_2.index t (1 : Fin 2) * 128 + 1 * k.val = k.val; omega

theorem emb13_3 (t : Fin cfg13.N) (i : Fin 128) (j : Fin 128) :
    ((cfg13.win 3).blk t).view.emb (ix2 i j) = ix2 i j := by
  obtain ⟨a0, a1, b0, b1, c0, c1, d0, d1, e0, e1, f0, f1, g0, g1, h0, h1⟩ := idx13 t
  funext a; apply Fin.ext
  match a with
  | ⟨0, _⟩ => show win13_3.index t (0 : Fin 2) * 128 + 1 * i.val = i.val; omega
  | ⟨1, _⟩ => show win13_3.index t (1 : Fin 2) * 128 + 1 * j.val = j.val; omega

theorem emb13_4 (t : Fin cfg13.N) (i : Fin 1) (j : Fin 128) :
    ((cfg13.win 4).blk t).view.emb (ix2 i j) = ix2 i j := by
  obtain ⟨a0, a1, b0, b1, c0, c1, d0, d1, e0, e1, f0, f1, g0, g1, h0, h1⟩ := idx13 t
  funext a; apply Fin.ext
  match a with
  | ⟨0, _⟩ => show win13_4.index t (0 : Fin 2) * 1 + 1 * i.val = i.val; omega
  | ⟨1, _⟩ => show win13_4.index t (1 : Fin 2) * 128 + 1 * j.val = j.val; omega

theorem emb13_5 (t : Fin cfg13.N) (i : Fin 128) (j : Fin 128) :
    ((cfg13.win 5).blk t).view.emb (ix2 i j) = ix2 i j := by
  obtain ⟨a0, a1, b0, b1, c0, c1, d0, d1, e0, e1, f0, f1, g0, g1, h0, h1⟩ := idx13 t
  funext a; apply Fin.ext
  match a with
  | ⟨0, _⟩ => show win13_5.index t (0 : Fin 2) * 128 + 1 * i.val = i.val; omega
  | ⟨1, _⟩ => show win13_5.index t (1 : Fin 2) * 128 + 1 * j.val = j.val; omega

theorem emb13_6 (t : Fin cfg13.N) (i : Fin 1) (j : Fin 128) :
    ((cfg13.win 6).blk t).view.emb (ix2 i j) = ix2 i j := by
  obtain ⟨a0, a1, b0, b1, c0, c1, d0, d1, e0, e1, f0, f1, g0, g1, h0, h1⟩ := idx13 t
  funext a; apply Fin.ext
  match a with
  | ⟨0, _⟩ => show win13_6.index t (0 : Fin 2) * 1 + 1 * i.val = i.val; omega
  | ⟨1, _⟩ => show win13_6.index t (1 : Fin 2) * 128 + 1 * j.val = j.val; omega

theorem emb13_7 (t : Fin cfg13.N) (p : Fin 8000) (q : Fin 128) :
    ((cfg13.win 7).blk t).view.emb (ix2 p q) = ix2 (rows13 t p) q := by
  obtain ⟨a0, a1, b0, b1, c0, c1, d0, d1, e0, e1, f0, f1, g0, g1, h0, h1⟩ := idx13 t
  funext a; apply Fin.ext
  match a with
  | ⟨0, _⟩ => show win13_7.index t (0 : Fin 2) * 8000 + 1 * p.val = t.val * 8000 + p.val; omega
  | ⟨1, _⟩ => show win13_7.index t (1 : Fin 2) * 128 + 1 * q.val = q.val; omega

/-! ## Each input block, read at an index, is its array where the block sits -/

theorem iblk13_0_apply (c : Dev nD) (t : Fin cfg13.N) (p : Fin 8000) (k : Fin 128) :
    iblk13 V c 0 t (ix2 p k) = arr13_0 V c (ix2 (rows13 t p) k) := by
  show V c (Pipeline.arrRef spec13 0) (((cfg13.win 0).blk t).view.emb (ix2 p k)) = _
  rw [emb13_0]
theorem iblk13_1_apply (c : Dev nD) (t : Fin cfg13.N) (p : Fin 8000) (k : Fin 128) :
    iblk13 V c 1 t (ix2 p k) = arr13_1 V c (ix2 (rows13 t p) k) := by
  show V c (Pipeline.arrRef spec13 1) (((cfg13.win 1).blk t).view.emb (ix2 p k)) = _
  rw [emb13_1]
theorem iblk13_2_apply (c : Dev nD) (t : Fin cfg13.N) (p : Fin 8000) (k : Fin 128) :
    iblk13 V c 2 t (ix2 p k) = arr13_2 V c (ix2 (rows13 t p) k) := by
  show V c (Pipeline.arrRef spec13 2) (((cfg13.win 2).blk t).view.emb (ix2 p k)) = _
  rw [emb13_2]
theorem iblk13_3_apply (c : Dev nD) (t : Fin cfg13.N) (i j : Fin 128) :
    iblk13 V c 3 t (ix2 i j) = arr13_3 V c (ix2 i j) := by
  show V c (Pipeline.arrRef spec13 3) (((cfg13.win 3).blk t).view.emb (ix2 i j)) = _
  rw [emb13_3]
theorem iblk13_4_apply (c : Dev nD) (t : Fin cfg13.N) (i : Fin 1) (j : Fin 128) :
    iblk13 V c 4 t (ix2 i j) = arr13_4 V c (ix2 i j) := by
  show V c (Pipeline.arrRef spec13 4) (((cfg13.win 4).blk t).view.emb (ix2 i j)) = _
  rw [emb13_4]
theorem iblk13_5_apply (c : Dev nD) (t : Fin cfg13.N) (i j : Fin 128) :
    iblk13 V c 5 t (ix2 i j) = arr13_5 V c (ix2 i j) := by
  show V c (Pipeline.arrRef spec13 5) (((cfg13.win 5).blk t).view.emb (ix2 i j)) = _
  rw [emb13_5]
theorem iblk13_6_apply (c : Dev nD) (t : Fin cfg13.N) (i : Fin 1) (j : Fin 128) :
    iblk13 V c 6 t (ix2 i j) = arr13_6 V c (ix2 i j) := by
  show V c (Pipeline.arrRef spec13 6) (((cfg13.win 6).blk t).view.emb (ix2 i j)) = _
  rw [emb13_6]

/-! ## What a point writes back -/

/-- What point t writes back to the result array is block t of G13: the store's payload at (p, q) is the message
    formula on row p of the edge blocks, which are rows 8000 t + p of the edge arrays. -/
theorem flushed13_7_eq (c : Dev nD) (t : Fin cfg13.N) :
    (dat13 V c).flushed 7 t = ((cfg13.win 7).blk t).view.read (Elt Ideal) (G13 V c) := by
  show (cfg13.win 7).cut (grid13.coords t) ((dat13 V c).after 7 t) = _
  rw [after13_7]
  unfold out13_7
  rw [View.canon_unit_zero hz13]
  simp only [View.ld_unit_zero (S := S8000x128) hz13, View.ld_unit_zero (S := S128x128) hz13, View.ld_unit_zero (S := S1x128) hz13]
  rw [pay13_eq]
  funext j
  obtain ⟨p, q, rfl⟩ : ∃ (p : Fin 8000) (q : Fin 128), j = ix2 p q := ⟨j 0, j 1, eq_ix2 j⟩
  show msgTerm (iblk13 V c 0 t) (iblk13 V c 1 t) (iblk13 V c 2 t) (iblk13 V c 3 t) (iblk13 V c 4 t) (iblk13 V c 5 t) (iblk13 V c 6 t) (ix2 p q)
    = G13 V c (((cfg13.win 7).blk t).view.emb (ix2 p q))
  rw [msgTerm_apply, emb13_7]
  simp only [iblk13_0_apply, iblk13_1_apply, iblk13_2_apply, iblk13_3_apply, iblk13_4_apply, iblk13_5_apply, iblk13_6_apply]
  rfl

/-! ## The result's blocks cover its array -/

/-- An index of the array is in point t's block iff each coordinate is in the block's range on its axis. -/
theorem mem_blk13 (t : Fin cfg13.N) (i : S160000x128.Idx) :
    i ∈ ((cfg13.win 7).blk t).view.set ↔ ∀ a : Fin 2, win13_7.index t a * S8000x128.size a ≤ (i a).val
      ∧ (i a).val < win13_7.index t a * S8000x128.size a + S8000x128.size a := by
  show i ∈ ((View.whole (Pipeline.arrRef spec13 7)).slice (win13_7.rect t)).set ↔ _
  rw [View.set_slice_whole, Rect.mem_set_unit]
  exact Iff.rfl

/-- Row r of the array is in the block of point r / 8000. -/
theorem covered13 (i : S160000x128.Idx) :
    ∃ t : Fin cfg13.N, (cfg13.win 7).flush t = true ∧ i ∈ ((cfg13.win 7).blk t).view.set := by
  have hi0 : (i 0).val < 160000 := (i 0).isLt
  have hi1 : (i 1).val < 128 := (i 1).isLt
  have hN : (i 0).val / 8000 < cfg13.N := by show _ < grid13.N; rw [N_13]; omega
  obtain ⟨a0, a1, b0, b1, c0, c1, d0, d1, e0, e1, f0, f1, g0, g1, h0, h1⟩ := idx13 ⟨(i 0).val / 8000, hN⟩
  have h0' : win13_7.index ⟨(i 0).val / 8000, hN⟩ (0 : Fin 2) = (i 0).val / 8000 := h0
  refine ⟨⟨(i 0).val / 8000, hN⟩, flush13_7 _, ?_⟩
  rw [mem_blk13]
  intro a
  match a with
  | ⟨0, _⟩ =>
    show win13_7.index ⟨(i 0).val / 8000, hN⟩ (0 : Fin 2) * 8000 ≤ (i 0).val
      ∧ (i 0).val < win13_7.index ⟨(i 0).val / 8000, hN⟩ (0 : Fin 2) * 8000 + 8000
    omega
  | ⟨1, _⟩ =>
    show win13_7.index ⟨(i 0).val / 8000, hN⟩ (1 : Fin 2) * 128 ≤ (i 1).val
      ∧ (i 1).val < win13_7.index ⟨(i 0).val / 8000, hN⟩ (1 : Fin 2) * 128 + 128
    omega

/-! ## The result array after the region -/

/-- The array after the region's 20 points is G13 of the region-entry arrays. -/
theorem final13_7_eq (c : Dev nD) : (dat13 (F := Ideal) V c).arrAt 7 cfg13.N = G13 V c :=
  (dat13 V c).arrAt_eq_of_cover 7 (G13 V c) (fun t _ => flushed13_7_eq V c t) covered13

/-- Entry (p, q) of the result array after the region: the message of edge p, column q. -/
theorem final13_7 (c : Dev nD) (p : Fin 160000) (q : Fin 128) :
    (dat13 (F := Ideal) V c).arrAt 7 cfg13.N (ix2 p q)
      = Cert.Spec.msg (Cert.Spec.row (arr13_0 V c) p) (Cert.Spec.row (arr13_1 V c) p) (Cert.Spec.row (arr13_2 V c) p)
          (Cert.Spec.m2 (arr13_3 V c)) (fun j => arr13_4 V c (ix2 (0 : Fin 1) j)) (Cert.Spec.m2 (arr13_5 V c))
          (fun j => arr13_6 V c (ix2 (0 : Fin 1) j)) q := by
  rw [final13_7_eq]
  rfl

end Cert.KernelIdeal.Hand

end
-- ==== Proof.KI.Stage13.lean ====
/-
  Region 13 of @main against the reference's messages of one layer, as arrays: whatever fills the region's seven
  input arrays, if they are the reference's inputs (the three edge arrays and the two weights the same arrays; each
  bias, which the kernel takes as one row and the reference as a vector, entry by entry), then the result array after
  the region is the reference's message array of those inputs.
-/
import proofs.«152161_j29669634081217_2_alg».proof.Proof.KI.Val13
import proofs.«152161_j29669634081217_2_alg».proof.Proof.Ref.StageMsg

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable [Cert.ReferenceIdeal.Facts₀]

-- the TensorCore's buffer contents when the region is entered, at the ideal values
variable (V : (c : Dev nD) → (b : Ref sig .tc) → Buf (Elt Ideal) ((c : Thread nD τ).loc b))

/-- The result array after the region is the reference's message array of the reference-shaped inputs. -/
theorem stage13_7 (c : Dev nD) (E Asrc Bdst : FVec Ideal S160000x128 .f32) (We : FVec Ideal S128x128 .f32)
    (be1 : FVec Ideal S128 .f32) (W2 : FVec Ideal S128x128 .f32) (b2 : FVec Ideal S128 .f32)
    (h0 : arr13_0 V c = E) (h1 : arr13_1 V c = Asrc) (h2 : arr13_2 V c = Bdst) (h3 : arr13_3 V c = We)
    (h4 : ∀ j : Fin 128, arr13_4 V c (ix2 (0 : Fin 1) j) = be1 (ix1 j)) (h5 : arr13_5 V c = W2)
    (h6 : ∀ j : Fin 128, arr13_6 V c (ix2 (0 : Fin 1) j) = b2 (ix1 j)) :
    (dat13 (F := Ideal) V c).arrAt 7 cfg13.N = Cert.ReferenceIdeal.Hand.msgRef E Asrc Bdst We be1 W2 b2 := by
  funext i
  obtain ⟨p, q, rfl⟩ : ∃ (p : Fin 160000) (q : Fin 128), i = ix2 p q := ⟨i 0, i 1, eq_ix2 i⟩
  have e4 : (fun j : Fin 128 => arr13_4 V c (ix2 (0 : Fin 1) j)) = Cert.Spec.v1 be1 := funext h4
  have e6 : (fun j : Fin 128 => arr13_6 V c (ix2 (0 : Fin 1) j)) = Cert.Spec.v1 b2 := funext h6
  refine (final13_7 V c p q).trans ?_
  rw [e4, e6, h0, h1, h2, h3, h5]
  exact (Cert.ReferenceIdeal.Hand.refMsg E Asrc Bdst We be1 W2 b2 p q).symm

end Cert.KernelIdeal.Hand

end
-- ==== Proof.KI.Reads6.lean ====
/- What regions 13 and 14 read: each input window's array, on entry to the region, as a pure term of the launch contents
   and of what the earlier regions left — the host stretch before the region read back operation by operation, its
   operands carried from where they were written. The same road as layer 0 (regions 3 and 4), under this layer's names. -/
import proofs.«152161_j29669634081217_2_alg».proof.Proof.KI.ReadsDefs
import proofs.«152161_j29669634081217_2_alg».proof.Proof.KI.ReadsCarryA
import proofs.«152161_j29669634081217_2_alg».proof.Proof.KI.ReadsCarryB

-- membership of a reference in a stretch's list of written references is decided past the default depth
set_option maxRecDepth 2864
-- the stretch before a region is read back one operation at a time: up to 28 rewriting steps per operand of a window
set_option maxHeartbeats 1000000

noncomputable section

namespace Cert.KernelIdeal.Hand

open Idealize.ShloMosaic Idealize.ShloMosaic.TcCoe
open Idealize.SL.Sem
open Idealize.ShloMosaic.StableHlo
open Cert.KernelIdeal.Gen

variable {F : FTy → Type} [FloatOps F]
variable (m : (ℓ : Loc nD τ sig) → Buf (Elt F) ℓ) (outs : Outs (F := F))

/-! ## Region 13 -/

theorem in13_0 (c : Dev nD) : V27 m outs c main_v17 = outs 4 main_v17 c :=
  at27_v17 m outs c
theorem in13_1 (c : Dev nD) : V27 m outs c main_v254 = Host.gather gather_S20000x128_S160000x1_S160000x128_1_0_n_n_0_1_1128 (outs 26 main_v247_1 c) (srcIdx m c) := by
  show StableHlo.after hostOps13 (V26 m outs c) (Proc.devRef .tc main_v254) = _
  after_results <;> rw [at26_v247_1 m outs c, at26_v1 m outs c, at1_v1 m c] <;> rfl
theorem in13_2 (c : Dev nD) : V27 m outs c main_v261 = Host.gather gather_S20000x128_S160000x1_S160000x128_1_0_n_n_0_1_1128 (outs 26 main_v247_2 c) (dstIdx m c) := by
  show StableHlo.after hostOps13 (V26 m outs c) (Proc.devRef .tc main_v261) = _
  after_results <;> rw [at26_v247_2 m outs c, at26_v3 m outs c, at1_v3 m c] <;> rfl
theorem in13_3 (c : Dev nD) : V27 m outs c main_v263 = sliceMat (m ((c : Thread nD τ).loc main_arg16)) 5 slices_S6x128x128_S1x128x128_5_0_0 := by
  show StableHlo.after hostOps13 (V26 m outs c) (Proc.devRef .tc main_v263) = _
  after_results <;> rw [at26_arg16 m outs c] <;> rfl
theorem in13_4 (c : Dev nD) : V27 m outs c main_v270 = sliceRow (m ((c : Thread nD τ).loc main_arg17)) 5 slices_S6x128_S1x128_5_0 := by
  show StableHlo.after hostOps13 (V26 m outs c) (Proc.devRef .tc main_v270) = _
  after_results <;> rw [at26_arg17 m outs c] <;> rfl
theorem in13_5 (c : Dev nD) : V27 m outs c main_v267 = sliceMat (m ((c : Thread nD τ).loc main_arg18)) 5 slices_S6x128x128_S1x128x128_5_0_0 := by
  show StableHlo.after hostOps13 (V26 m outs c) (Proc.devRef .tc main_v267) = _
  after_results <;> rw [at26_arg18 m outs c] <;> rfl
theorem in13_6 (c : Dev nD) : V27 m outs c main_v271 = sliceRow (m ((c : Thread nD τ).loc main_arg19)) 5 slices_S6x128_S1x128_5_0 := by
  show StableHlo.after hostOps13 (V26 m outs c) (Proc.devRef .tc main_v271) = _
  after_results <;> rw [at26_arg19 m outs c] <;> rfl

/-! ## Region 14 -/

theorem in14_0 (c : Dev nD) : V29 m outs c main_v247_0 = outs 26 main_v247_0 c :=
  at29_v247_0 m outs c
theorem in14_1 (c : Dev nD) : V29 m outs c main_v275 = Host.scatterAdd scatter_S20000x128_S160000x1_S160000x128_1_0_0_1 zeroAcc (dstCol m c) (outs 28 main_v272 c) := by
  show StableHlo.after hostOps14 (V28 m outs c) (Proc.devRef .tc main_v275) = _
  after_results <;> rw [at28_v3 m outs c, at1_v3 m c, at28_v272 m outs c] <;> rfl
theorem in14_2 (c : Dev nD) : V29 m outs c main_v277 = sliceMat (m ((c : Thread nD τ).loc main_arg20)) 5 slices_S6x128x128_S1x128x128_5_0_0 := by
  show StableHlo.after hostOps14 (V28 m outs c) (Proc.devRef .tc main_v277) = _
  after_results <;> rw [at28_arg20 m outs c] <;> rfl
theorem in14_3 (c : Dev nD) : V29 m outs c main_v279 = sliceMat (m ((c : Thread nD τ).loc main_arg21)) 5 slices_S6x128x128_S1x128x128_5_0_0 := by
  show StableHlo.after hostOps14 (V28 m outs c) (Proc.devRef .tc main_v279) = _
  after_results <;> rw [at28_arg21 m outs c] <;> rfl
theorem in14_4 (c : Dev nD) : V29 m outs c main_v290 = sliceRow (m ((c : Thread nD τ).loc main_arg22)) 5 slices_S6x128_S1x128_5_0 := by
  show StableHlo.after hostOps14 (V28 m outs c) (Proc.devRef .tc main_v290) = _
  after_results <;> rw [at28_arg22 m outs c] <;> rfl
theorem in14_5 (c : Dev nD) : V29 m outs c main_v283 = sliceMat (m ((c : Thread nD τ).loc main_arg23)) 5 slices_S6x128x128_S1x128x128_5_0_0 := by
  show StableHlo.after hostOps14 (V28 m outs c) (Proc.devRef .tc main_v283) = _
  after_results <;> rw [at28_arg23 m outs c] <;> rfl
theorem in14_6 (c : Dev nD) : V29 m outs c main_v291 = sliceRow (m ((c : Thread nD τ).loc main_arg24)) 5 slices_S6x128_S1x128_5_0 := by
  show StableHlo.after hostOps14 (V28 m outs c) (Proc.devRef .tc main_v291) = _
  after_results <;> rw [at28_arg24 m outs c] <;> rfl
theorem in14_7 (c : Dev nD) : V29 m outs c main_v287 = sliceMat (m ((c : Thread nD τ).loc main_arg14)) 5 slices_S6x128x128_S1x128x128_5_0_0 := by
  show StableHlo.after hostOps14 (V28 m outs c) (Proc.devRef .tc main_v287) = _
  after_results <;> rw [at28_arg14 m outs c] <;> rfl
theorem in14_8 (c : Dev nD) : V29 m outs c main_v289 = sliceMat (m ((c : Thread nD τ).loc main_arg15)) 5 slices_S6x128x128_S1x128x128_5_0_0 := by
  show StableHlo.after hostOps14 (V28 m outs c) (Proc.devRef .tc main_v289) = _
  after_results <;> rw [at28_arg15 m outs c] <;> rfl

end Cert.KernelIdeal.Hand
-- ==== Proof.KI.Val14.lean ====
/-
  Region 14 of @main, the node-update kernel of the sixth message-passing layer, over the extended reals: what the three
  result arrays hold when the region ends, as row formulas of the arrays the region finds.

  The body's arithmetic at an index of a block is the update row formula (the conversions to and from half precision
  are the identity over the extended reals, a product into a zero accumulator is the plain sum).  Each grid point writes
  back block t of one function of the whole input arrays; the five blocks of 4000 rows tile the 20000 rows; so each result
  array ends as that function.
-/
import proofs.«152161_j29669634081217_2_alg».proof.Proof.KI.Reg14
import proofs.«152161_j29669634081217_2_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Hand

open BigOperators
open Cert.KernelIdeal Cert.KernelIdeal.Gen
open Idealize.ShloMosaic Idealize.ShloMosaic.TcCoe
open Idealize.ShloMosaic.Pipeline (Dat Cfg Window)

/-! ## The body's arithmetic over the extended reals, at an index of the block -/

/-- In a [4000,128] by [128,128] product the left operand is read at the output's row -/
theorem upd14Lhs_row (i : S4000x128.Idx) (k : dot_S4000x128_S128x128_S4000x128_1_0_0_1_n_n.contr.Idx) :
    (dot_S4000x128_S128x128_S4000x128_1_0_0_1_n_n.lhsIdx i k 0).val = (i 0).val := by
  unfold DotDims.lhsIdx
  rw [dif_neg (show ¬(0 : Fin S4000x128.rank) ∈ dot_S4000x128_S128x128_S4000x128_1_0_0_1_n_n.lhsBatch from List.not_mem_nil),
    dif_pos (show (0 : Fin S4000x128.rank) ∈ dot_S4000x128_S128x128_S4000x128_1_0_0_1_n_n.lhsNonContracting from List.mem_singleton.mpr rfl)]
  rfl

/-- and at the contraction index along its columns; -/
theorem upd14Lhs_col (i : S4000x128.Idx) (k : dot_S4000x128_S128x128_S4000x128_1_0_0_1_n_n.contr.Idx) :
    (dot_S4000x128_S128x128_S4000x128_1_0_0_1_n_n.lhsIdx i k 1).val = (k ⟨0, Nat.one_pos⟩).val :=
  dot_S4000x128_S128x128_S4000x128_1_0_0_1_n_n.lhsIdx_val_of_single rfl i k

/-- the right operand at the contraction index along its rows -/
theorem upd14Rhs_row (i : S4000x128.Idx) (k : dot_S4000x128_S128x128_S4000x128_1_0_0_1_n_n.contr.Idx) :
    (dot_S4000x128_S128x128_S4000x128_1_0_0_1_n_n.rhsIdx i k 0).val = (k ⟨0, Nat.one_pos⟩).val :=
  dot_S4000x128_S128x128_S4000x128_1_0_0_1_n_n.rhsIdx_val_of_single rfl i k

/-- and at the output's column. -/
theorem upd14Rhs_col (i : S4000x128.Idx) (k : dot_S4000x128_S128x128_S4000x128_1_0_0_1_n_n.contr.Idx) :
    (dot_S4000x128_S128x128_S4000x128_1_0_0_1_n_n.rhsIdx i k 1).val = (i 1).val := by
  unfold DotDims.rhsIdx
  rw [dif_neg (show ¬(1 : Fin S128x128.rank) ∈ dot_S4000x128_S128x128_S4000x128_1_0_0_1_n_n.rhsBatch from List.not_mem_nil),
    dif_pos (show (1 : Fin S128x128.rank) ∈ dot_S4000x128_S128x128_S4000x128_1_0_0_1_n_n.rhsNonContracting from List.mem_singleton.mpr rfl)]
  rfl

/-- The matrix unit's product into a zero accumulator, at row p and column q of the block: row p times the matrix,
    with no rounding over the extended reals. -/
theorem upd14Mm_at {φ₁ φ₂ : FTy} (X : FVec Ideal S4000x128 φ₁) (W : FVec Ideal S128x128 φ₂) (p : Fin 4000) (q : Fin 128) :
    matmul dot_S4000x128_S128x128_S4000x128_1_0_0_1_n_n none X W (constant (F := Ideal) S4000x128 .f32 0x00000000#32) (ValueIdx.ix2 p q)
      = ∑ k : Fin 128, X (ValueIdx.ix2 p k) * W (ValueIdx.ix2 k q) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ValueIdx.ix2 p q) ((ValueIdx.contrEquiv1 dot_S4000x128_S128x128_S4000x128_1_0_0_1_n_n 128 rfl rfl).symm k) = ValueIdx.ix2 p k :=
    funext fun a => Fin.ext (by
      match a with
      | ⟨0, _⟩ => exact upd14Lhs_row _ _
      | ⟨1, _⟩ => exact (upd14Lhs_col _ _).trans hk)
  have er : dot_S4000x128_S128x128_S4000x128_1_0_0_1_n_n.rhsIdx (ValueIdx.ix2 p q) ((ValueIdx.contrEquiv1 dot_S4000x128_S128x128_S4000x128_1_0_0_1_n_n 128 rfl rfl).symm k) = ValueIdx.ix2 k q :=
    funext fun a => Fin.ext (by
      match a with
      | ⟨0, _⟩ => exact (upd14Rhs_row _ _).trans hk
      | ⟨1, _⟩ => exact upd14Rhs_col _ _)
  rw [el, er]

/-- A [1,128] bias broadcast down the block's rows reads its entry q at every row. -/
theorem upd14Bias_at (b : Vec Ideal S1x128 .f32) (p : Fin 4000) (q : Fin 128) :
    broadcastTo S4000x128 b broadcasts_S1x128_S4000x128 (ValueIdx.ix2 p q) = b (ValueIdx.ix2 0 q) :=
  broadcastTo_apply b _ _ (ValueIdx.ix2 0 q) (fun a => by
    match a with
    | ⟨0, _⟩ => rfl
    | ⟨1, _⟩ => rfl)

/-- The stored features: the update row formula of rows p of the two loaded blocks. -/
theorem upd14Pay3_at (h : Vec Ideal S4000x128 .f32) (wh : Vec Ideal S128x128 .f32) (g : Vec Ideal S4000x128 .f32)
    (wa : Vec Ideal S128x128 .f32) (b1 : Vec Ideal S1x128 .f32) (w2 : Vec Ideal S128x128 .f32) (b2 : Vec Ideal S1x128 .f32)
    (p : Fin 4000) (q : Fin 128) :
    k14_pay3 h wh g wa b1 w2 b2 (ValueIdx.ix2 p q)
      = Cert.Spec.upd (Cert.Spec.row h p) (Cert.Spec.row g p) (Cert.Spec.m2 wh) (Cert.Spec.m2 wa)
          (fun j => b1 (ValueIdx.ix2 0 j)) (Cert.Spec.m2 w2) (fun j => b2 (ValueIdx.ix2 0 j)) q := by
  unfold k14_pay3
  simp only [shapeCast_self]
  rw [ValueIdx.addf_apply, ValueIdx.addf_apply, upd14Mm_at, upd14Bias_at]
  simp only [ValueIdx.truncf_apply, ValueIdx.maximumf_apply, ValueIdx.addf_apply, upd14Mm_at, upd14Bias_at,
    ValueIdx.broadcast_apply]
  unfold Cert.Spec.upd Cert.Spec.aff Cert.Spec.lin Cert.Spec.relu
  refine congrArg (fun z => h (ValueIdx.ix2 p q) + (z + b2 (ValueIdx.ix2 0 q))) ?_
  refine Finset.sum_congr rfl fun k _ => ?_
  have hz : FloatOps.ofBits (F := Ideal) FTy.f32 0x00000000#32 = (0 : EReal) := Ideal.ofBits_zero_f32
  rw [upd14Bias_at, hz]

/-- The half-precision copy handed on to the two projections is the same function over the extended reals. -/
theorem upd14Pay4_at (h : Vec Ideal S4000x128 .f32) (wh : Vec Ideal S128x128 .f32) (g : Vec Ideal S4000x128 .f32)
    (wa : Vec Ideal S128x128 .f32) (b1 : Vec Ideal S1x128 .f32) (w2 : Vec Ideal S128x128 .f32) (b2 : Vec Ideal S1x128 .f32)
    (i : S4000x128.Idx) : k14_pay4 h wh g wa b1 w2 b2 i = k14_pay3 h wh g wa b1 w2 b2 i := rfl

/-- The projection by the source-side matrix: the stored features' row times the matrix. -/
theorem upd14Pay1_at (y : FVec Ideal S4000x128 .bf16) (ws : Vec Ideal S128x128 .f32) (p : Fin 4000) (q : Fin 128) :
    k14_pay1 y (k14_pay5 ws) (ValueIdx.ix2 p q) = Cert.Spec.lin (fun k => y (ValueIdx.ix2 p k)) (Cert.Spec.m2 ws) q := by
  unfold k14_pay1 k14_pay5
  simp only [shapeCast_self]
  rw [ValueIdx.truncf_apply, upd14Mm_at]
  rfl

/-- The projection by the destination-side matrix, likewise. -/
theorem upd14Pay2_at (y : FVec Ideal S4000x128 .bf16) (wd : Vec Ideal S128x128 .f32) (p : Fin 4000) (q : Fin 128) :
    k14_pay2 y wd (ValueIdx.ix2 p q) = Cert.Spec.lin (fun k => y (ValueIdx.ix2 p k)) (Cert.Spec.m2 wd) q := by
  unfold k14_pay2
  simp only [shapeCast_self]
  rw [ValueIdx.truncf_apply, upd14Mm_at]
  rfl

/-! ## From blocks to the arrays -/

variable (V : (c : Dev nD) → (b : Ref sig .tc) → Buf (Elt Ideal) ((c : Thread nD τ).loc b))

/-- Every access of the body starts at the origin of its buffer. -/
theorem upd14_origin : (![0, 0] : Fin 2 → Nat) = fun _ => 0 := funext fun a => by fin_cases a <;> rfl

/-- The new features as one function of the whole input arrays: at row r, column j, the update row formula of rows r
    of the features and of the aggregated messages. -/
noncomputable def upd14New (H Agg : S20000x128.Idx → EReal) (Wnh Wna : S128x128.Idx → EReal) (B1 : S1x128.Idx → EReal)
    (Wn2 : S128x128.Idx → EReal) (B2 : S1x128.Idx → EReal) : S20000x128.Idx → EReal := fun i =>
  Cert.Spec.upd (Cert.Spec.row H (i 0)) (Cert.Spec.row Agg (i 0)) (Cert.Spec.m2 Wnh) (Cert.Spec.m2 Wna)
    (fun j => B1 (ValueIdx.ix2 0 j)) (Cert.Spec.m2 Wn2) (fun j => B2 (ValueIdx.ix2 0 j)) (i 1)

/-- A projection of the new features as one function of the whole input arrays. -/
noncomputable def upd14Proj (H Agg : S20000x128.Idx → EReal) (Wnh Wna : S128x128.Idx → EReal) (B1 : S1x128.Idx → EReal)
    (Wn2 : S128x128.Idx → EReal) (B2 : S1x128.Idx → EReal) (W : S128x128.Idx → EReal) : S20000x128.Idx → EReal := fun i =>
  Cert.Spec.lin (Cert.Spec.upd (Cert.Spec.row H (i 0)) (Cert.Spec.row Agg (i 0)) (Cert.Spec.m2 Wnh) (Cert.Spec.m2 Wna)
    (fun j => B1 (ValueIdx.ix2 0 j)) (Cert.Spec.m2 Wn2) (fun j => B2 (ValueIdx.ix2 0 j))) (Cert.Spec.m2 W) (i 1)

/-- The printed index maps, decided over the five grid points: the two row-blocked inputs and the three results are at
    block row t, column block 0; the seven weight arrays are always at block (0, 0). -/
theorem upd14_index : ∀ t : Fin cfg14.N,
    (win14_0.index t (0 : Fin 2) = t.val ∧ win14_0.index t (1 : Fin 2) = 0)
    ∧ (win14_1.index t (0 : Fin 2) = t.val ∧ win14_1.index t (1 : Fin 2) = 0)
    ∧ (win14_2.index t (0 : Fin 2) = 0 ∧ win14_2.index t (1 : Fin 2) = 0)
    ∧ (win14_3.index t (0 : Fin 2) = 0 ∧ win14_3.index t (1 : Fin 2) = 0)
    ∧ (win14_4.index t (0 : Fin 2) = 0 ∧ win14_4.index t (1 : Fin 2) = 0)
    ∧ (win14_5.index t (0 : Fin 2) = 0 ∧ win14_5.index t (1 : Fin 2) = 0)
    ∧ (win14_6.index t (0 : Fin 2) = 0 ∧ win14_6.index t (1 : Fin 2) = 0)
    ∧ (win14_7.index t (0 : Fin 2) = 0 ∧ win14_7.index t (1 : Fin 2) = 0)
    ∧ (win14_8.index t (0 : Fin 2) = 0 ∧ win14_8.index t (1 : Fin 2) = 0)
    ∧ (win14_9.index t (0 : Fin 2) = t.val ∧ win14_9.index t (1 : Fin 2) = 0)
    ∧ (win14_10.index t (0 : Fin 2) = t.val ∧ win14_10.index t (1 : Fin 2) = 0)
    ∧ (win14_11.index t (0 : Fin 2) = t.val ∧ win14_11.index t (1 : Fin 2) = 0) :=
  (by decide +kernel : ∀ t : Fin grid14.N, _)

/-- The grid has five points. -/
theorem upd14_points (t : Fin cfg14.N) : t.val < 5 := by
  have h : t.val < grid14.N := t.isLt
  rw [N_14] at h
  exact h

/-- The row of the whole array that row p of block t is. -/
noncomputable def upd14Row (t : Fin cfg14.N) (p : Fin 4000) : Fin 20000 :=
  ⟨t.val * 4000 + p.val, by have := upd14_points t; have := p.isLt; omega⟩

/-! The arrays the region finds, at their literal shapes. -/
/-- The node features the region finds. -/
noncomputable abbrev upd14H (c : Dev nD) : S20000x128.Idx → EReal := V c (Pipeline.arrRef spec14 0)
/-- The aggregated messages the region finds. -/
noncomputable abbrev upd14Agg (c : Dev nD) : S20000x128.Idx → EReal := V c (Pipeline.arrRef spec14 1)
/-- The update's matrix on the features. -/
noncomputable abbrev upd14Wnh (c : Dev nD) : S128x128.Idx → EReal := V c (Pipeline.arrRef spec14 2)
/-- The update's matrix on the messages. -/
noncomputable abbrev upd14Wna (c : Dev nD) : S128x128.Idx → EReal := V c (Pipeline.arrRef spec14 3)
/-- The update's first bias, a [1,128] row. -/
noncomputable abbrev upd14B1 (c : Dev nD) : S1x128.Idx → EReal := V c (Pipeline.arrRef spec14 4)
/-- The update's second matrix. -/
noncomputable abbrev upd14Wn2 (c : Dev nD) : S128x128.Idx → EReal := V c (Pipeline.arrRef spec14 5)
/-- The update's second bias, a [1,128] row. -/
noncomputable abbrev upd14B2 (c : Dev nD) : S1x128.Idx → EReal := V c (Pipeline.arrRef spec14 6)
/-- The next layer's source-side matrix. -/
noncomputable abbrev upd14Ws (c : Dev nD) : S128x128.Idx → EReal := V c (Pipeline.arrRef spec14 7)
/-- The next layer's destination-side matrix. -/
noncomputable abbrev upd14Wd (c : Dev nD) : S128x128.Idx → EReal := V c (Pipeline.arrRef spec14 8)

/-! ## Each block read where its rectangle says -/

/-- Row p of window 0's block at point t is row `upd14Row t p` of its array. -/
theorem upd14_blk_0 (c : Dev nD) (t : Fin cfg14.N) (p : Fin 4000) (k : Fin 128) :
    iblk14 V c 0 t (ValueIdx.ix2 p k : S4000x128.Idx) = upd14H V c (ValueIdx.ix2 (upd14Row t p) k) := by
  have e := upd14_index t
  show V c (Pipeline.arrRef spec14 0) (((cfg14.win 0).blk t).view.emb (ValueIdx.ix2 p k : S4000x128.Idx)) = _
  refine congrArg (V c (Pipeline.arrRef spec14 0)) (funext fun a => Fin.ext ?_)
  match a with
  | ⟨0, _⟩ => show win14_0.index t (0 : Fin 2) * 4000 + 1 * p.val = t.val * 4000 + p.val; omega
  | ⟨1, _⟩ => show win14_0.index t (1 : Fin 2) * 128 + 1 * k.val = k.val; omega

/-- Row p of window 1's block at point t is row `upd14Row t p` of its array. -/
theorem upd14_blk_1 (c : Dev nD) (t : Fin cfg14.N) (p : Fin 4000) (k : Fin 128) :
    iblk14 V c 1 t (ValueIdx.ix2 p k : S4000x128.Idx) = upd14Agg V c (ValueIdx.ix2 (upd14Row t p) k) := by
  have e := upd14_index t
  show V c (Pipeline.arrRef spec14 1) (((cfg14.win 1).blk t).view.emb (ValueIdx.ix2 p k : S4000x128.Idx)) = _
  refine congrArg (V c (Pipeline.arrRef spec14 1)) (funext fun a => Fin.ext ?_)
  match a with
  | ⟨0, _⟩ => show win14_1.index t (0 : Fin 2) * 4000 + 1 * p.val = t.val * 4000 + p.val; omega
  | ⟨1, _⟩ => show win14_1.index t (1 : Fin 2) * 128 + 1 * k.val = k.val; omega

/-- Window 2's block at every point is its whole array. -/
theorem upd14_blk_2 (c : Dev nD) (t : Fin cfg14.N) (i : S128x128.Idx) : iblk14 V c 2 t i = upd14Wnh V c i := by
  have e := upd14_index t
  show V c (Pipeline.arrRef spec14 2) (((cfg14.win 2).blk t).view.emb i) = _
  refine congrArg (V c (Pipeline.arrRef spec14 2)) (funext fun a => Fin.ext ?_)
  match a with
  | ⟨0, _⟩ => show win14_2.index t (0 : Fin 2) * 128 + 1 * (i 0).val = (i 0).val; omega
  | ⟨1, _⟩ => show win14_2.index t (1 : Fin 2) * 128 + 1 * (i 1).val = (i 1).val; omega

/-- Window 3's block at every point is its whole array. -/
theorem upd14_blk_3 (c : Dev nD) (t : Fin cfg14.N) (i : S128x128.Idx) : iblk14 V c 3 t i = upd14Wna V c i := by
  have e := upd14_index t
  show V c (Pipeline.arrRef spec14 3) (((cfg14.win 3).blk t).view.emb i) = _
  refine congrArg (V c (Pipeline.arrRef spec14 3)) (funext fun a => Fin.ext ?_)
  match a with
  | ⟨0, _⟩ => show win14_3.index t (0 : Fin 2) * 128 + 1 * (i 0).val = (i 0).val; omega
  | ⟨1, _⟩ => show win14_3.index t (1 : Fin 2) * 128 + 1 * (i 1).val = (i 1).val; omega

/-- Window 4's block at every point is its whole array. -/
theorem upd14_blk_4 (c : Dev nD) (t : Fin cfg14.N) (i : S1x128.Idx) : iblk14 V c 4 t i = upd14B1 V c i := by
  have e := upd14_index t
  show V c (Pipeline.arrRef spec14 4) (((cfg14.win 4).blk t).view.emb i) = _
  refine congrArg (V c (Pipeline.arrRef spec14 4)) (funext fun a => Fin.ext ?_)
  match a with
  | ⟨0, _⟩ => show win14_4.index t (0 : Fin 2) * 1 + 1 * (i 0).val = (i 0).val; omega
  | ⟨1, _⟩ => show win14_4.index t (1 : Fin 2) * 128 + 1 * (i 1).val = (i 1).val; omega

/-- Window 5's block at every point is its whole array. -/
theorem upd14_blk_5 (c : Dev nD) (t : Fin cfg14.N) (i : S128x128.Idx) : iblk14 V c 5 t i = upd14Wn2 V c i := by
  have e := upd14_index t
  show V c (Pipeline.arrRef spec14 5) (((cfg14.win 5).blk t).view.emb i) = _
  refine congrArg (V c (Pipeline.arrRef spec14 5)) (funext fun a => Fin.ext ?_)
  match a with
  | ⟨0, _⟩ => show win14_5.index t (0 : Fin 2) * 128 + 1 * (i 0).val = (i 0).val; omega
  | ⟨1, _⟩ => show win14_5.index t (1 : Fin 2) * 128 + 1 * (i 1).val = (i 1).val; omega

/-- Window 6's block at every point is its whole array. -/
theorem upd14_blk_6 (c : Dev nD) (t : Fin cfg14.N) (i : S1x128.Idx) : iblk14 V c 6 t i = upd14B2 V c i := by
  have e := upd14_index t
  show V c (Pipeline.arrRef spec14 6) (((cfg14.win 6).blk t).view.emb i) = _
  refine congrArg (V c (Pipeline.arrRef spec14 6)) (funext fun a => Fin.ext ?_)
  match a with
  | ⟨0, _⟩ => show win14_6.index t (0 : Fin 2) * 1 + 1 * (i 0).val = (i 0).val; omega
  | ⟨1, _⟩ => show win14_6.index t (1 : Fin 2) * 128 + 1 * (i 1).val = (i 1).val; omega

/-- Window 7's block at every point is its whole array. -/
theorem upd14_blk_7 (c : Dev nD) (t : Fin cfg14.N) (i : S128x128.Idx) : iblk14 V c 7 t i = upd14Ws V c i := by
  have e := upd14_index t
  show V c (Pipeline.arrRef spec14 7) (((cfg14.win 7).blk t).view.emb i) = _
  refine congrArg (V c (Pipeline.arrRef spec14 7)) (funext fun a => Fin.ext ?_)
  match a with
  | ⟨0, _⟩ => show win14_7.index t (0 : Fin 2) * 128 + 1 * (i 0).val = (i 0).val; omega
  | ⟨1, _⟩ => show win14_7.index t (1 : Fin 2) * 128 + 1 * (i 1).val = (i 1).val; omega

/-- Window 8's block at every point is its whole array. -/
theorem upd14_blk_8 (c : Dev nD) (t : Fin cfg14.N) (i : S128x128.Idx) : iblk14 V c 8 t i = upd14Wd V c i := by
  have e := upd14_index t
  show V c (Pipeline.arrRef spec14 8) (((cfg14.win 8).blk t).view.emb i) = _
  refine congrArg (V c (Pipeline.arrRef spec14 8)) (funext fun a => Fin.ext ?_)
  match a with
  | ⟨0, _⟩ => show win14_8.index t (0 : Fin 2) * 128 + 1 * (i 0).val = (i 0).val; omega
  | ⟨1, _⟩ => show win14_8.index t (1 : Fin 2) * 128 + 1 * (i 1).val = (i 1).val; omega

/-- Index (p, q) of result window 9's block at point t is index (`upd14Row t p`, q) of its array. -/
theorem upd14_emb_9 (t : Fin cfg14.N) (p : Fin 4000) (q : Fin 128) :
    ((cfg14.win 9).blk t).view.emb (ValueIdx.ix2 p q : S4000x128.Idx) = (ValueIdx.ix2 (upd14Row t p) q : S20000x128.Idx) := by
  have e := upd14_index t
  refine funext fun a => Fin.ext ?_
  match a with
  | ⟨0, _⟩ => show win14_9.index t (0 : Fin 2) * 4000 + 1 * p.val = t.val * 4000 + p.val; omega
  | ⟨1, _⟩ => show win14_9.index t (1 : Fin 2) * 128 + 1 * q.val = q.val; omega

/-- Index (p, q) of result window 10's block at point t is index (`upd14Row t p`, q) of its array. -/
theorem upd14_emb_10 (t : Fin cfg14.N) (p : Fin 4000) (q : Fin 128) :
    ((cfg14.win 10).blk t).view.emb (ValueIdx.ix2 p q : S4000x128.Idx) = (ValueIdx.ix2 (upd14Row t p) q : S20000x128.Idx) := by
  have e := upd14_index t
  refine funext fun a => Fin.ext ?_
  match a with
  | ⟨0, _⟩ => show win14_10.index t (0 : Fin 2) * 4000 + 1 * p.val = t.val * 4000 + p.val; omega
  | ⟨1, _⟩ => show win14_10.index t (1 : Fin 2) * 128 + 1 * q.val = q.val; omega

/-- Index (p, q) of result window 11's block at point t is index (`upd14Row t p`, q) of its array. -/
theorem upd14_emb_11 (t : Fin cfg14.N) (p : Fin 4000) (q : Fin 128) :
    ((cfg14.win 11).blk t).view.emb (ValueIdx.ix2 p q : S4000x128.Idx) = (ValueIdx.ix2 (upd14Row t p) q : S20000x128.Idx) := by
  have e := upd14_index t
  refine funext fun a => Fin.ext ?_
  match a with
  | ⟨0, _⟩ => show win14_11.index t (0 : Fin 2) * 4000 + 1 * p.val = t.val * 4000 + p.val; omega
  | ⟨1, _⟩ => show win14_11.index t (1 : Fin 2) * 128 + 1 * q.val = q.val; omega

/-- The update row formula of rows p of the blocks at point t is that of rows `upd14Row t p` of the arrays. -/
theorem upd14_rows (c : Dev nD) (t : Fin cfg14.N) (p : Fin 4000) :
    Cert.Spec.upd (Cert.Spec.row (iblk14 V c 0 t) p) (Cert.Spec.row (iblk14 V c 1 t) p) (Cert.Spec.m2 (iblk14 V c 2 t))
        (Cert.Spec.m2 (iblk14 V c 3 t)) (fun j => iblk14 V c 4 t (ValueIdx.ix2 0 j)) (Cert.Spec.m2 (iblk14 V c 5 t))
        (fun j => iblk14 V c 6 t (ValueIdx.ix2 0 j))
      = Cert.Spec.upd (Cert.Spec.row (upd14H V c) (upd14Row t p)) (Cert.Spec.row (upd14Agg V c) (upd14Row t p))
          (Cert.Spec.m2 (upd14Wnh V c)) (Cert.Spec.m2 (upd14Wna V c)) (fun j => upd14B1 V c (ValueIdx.ix2 0 j))
          (Cert.Spec.m2 (upd14Wn2 V c)) (fun j => upd14B2 V c (ValueIdx.ix2 0 j)) := by
  have h0 : Cert.Spec.row (iblk14 V c 0 t) p = Cert.Spec.row (upd14H V c) (upd14Row t p) := funext fun k => upd14_blk_0 V c t p k
  have h1 : Cert.Spec.row (iblk14 V c 1 t) p = Cert.Spec.row (upd14Agg V c) (upd14Row t p) := funext fun k => upd14_blk_1 V c t p k
  have h2 : Cert.Spec.m2 (iblk14 V c 2 t) = Cert.Spec.m2 (upd14Wnh V c) := funext fun a => funext fun b => upd14_blk_2 V c t _
  have h3 : Cert.Spec.m2 (iblk14 V c 3 t) = Cert.Spec.m2 (upd14Wna V c) := funext fun a => funext fun b => upd14_blk_3 V c t _
  have h4 : (fun j : Fin 128 => iblk14 V c 4 t (ValueIdx.ix2 0 j)) = fun j => upd14B1 V c (ValueIdx.ix2 0 j) := funext fun j => upd14_blk_4 V c t _
  have h5 : Cert.Spec.m2 (iblk14 V c 5 t) = Cert.Spec.m2 (upd14Wn2 V c) := funext fun a => funext fun b => upd14_blk_5 V c t _
  have h6 : (fun j : Fin 128 => iblk14 V c 6 t (ValueIdx.ix2 0 j)) = fun j => upd14B2 V c (ValueIdx.ix2 0 j) := funext fun j => upd14_blk_6 V c t _
  rw [h0, h1, h2, h3, h4, h5, h6]

/-! ## What each point writes back -/

/-- Point t writes back, into the new features, block t of `upd14New` of the arrays the region finds. -/
theorem upd14_flushed_9 (c : Dev nD) (t : Fin cfg14.N) :
    (dat14 V c).flushed 9 t = ((cfg14.win 9).blk t).view.read (Elt Ideal) (upd14New (upd14H V c) (upd14Agg V c) (upd14Wnh V c) (upd14Wna V c) (upd14B1 V c) (upd14Wn2 V c) (upd14B2 V c)) := by
  show (cfg14.win 9).cut (grid14.coords t) ((dat14 V c).after 9 t) = _
  rw [after14_9]
  unfold out14_9
  rw [View.canon_unit_zero upd14_origin]
  simp only [View.ld_unit_zero (S := S4000x128) upd14_origin, View.ld_unit_zero (S := S128x128) upd14_origin,
    View.ld_unit_zero (S := S1x128) upd14_origin]
  funext j
  obtain ⟨p, q, rfl⟩ : ∃ (p : Fin 4000) (q : Fin 128), j = ValueIdx.ix2 p q := ⟨j 0, j 1, ValueIdx.eq_ix2 j⟩
  show k14_pay3 (iblk14 V c 0 t) (iblk14 V c 2 t) (iblk14 V c 1 t) (iblk14 V c 3 t) (iblk14 V c 4 t) (iblk14 V c 5 t) (iblk14 V c 6 t) (ValueIdx.ix2 p q)
    = upd14New (upd14H V c) (upd14Agg V c) (upd14Wnh V c) (upd14Wna V c) (upd14B1 V c) (upd14Wn2 V c) (upd14B2 V c) (((cfg14.win 9).blk t).view.emb (ValueIdx.ix2 p q : S4000x128.Idx))
  rw [upd14Pay3_at, upd14_emb_9, upd14_rows]
  rfl

/-- Point t writes back, into the source-side projection, block t of `upd14Proj` by the source-side matrix. -/
theorem upd14_flushed_10 (c : Dev nD) (t : Fin cfg14.N) :
    (dat14 V c).flushed 10 t = ((cfg14.win 10).blk t).view.read (Elt Ideal) (upd14Proj (upd14H V c) (upd14Agg V c) (upd14Wnh V c) (upd14Wna V c) (upd14B1 V c) (upd14Wn2 V c) (upd14B2 V c) (upd14Ws V c)) := by
  show (cfg14.win 10).cut (grid14.coords t) ((dat14 V c).after 10 t) = _
  rw [after14_10]
  unfold out14_10
  rw [View.canon_unit_zero upd14_origin]
  simp only [View.ld_unit_zero (S := S4000x128) upd14_origin, View.ld_unit_zero (S := S128x128) upd14_origin,
    View.ld_unit_zero (S := S1x128) upd14_origin]
  funext j
  obtain ⟨p, q, rfl⟩ : ∃ (p : Fin 4000) (q : Fin 128), j = ValueIdx.ix2 p q := ⟨j 0, j 1, ValueIdx.eq_ix2 j⟩
  show k14_pay1 (k14_pay4 (iblk14 V c 0 t) (iblk14 V c 2 t) (iblk14 V c 1 t) (iblk14 V c 3 t) (iblk14 V c 4 t) (iblk14 V c 5 t) (iblk14 V c 6 t))
      (k14_pay5 (iblk14 V c 7 t)) (ValueIdx.ix2 p q)
    = upd14Proj (upd14H V c) (upd14Agg V c) (upd14Wnh V c) (upd14Wna V c) (upd14B1 V c) (upd14Wn2 V c) (upd14B2 V c) (upd14Ws V c) (((cfg14.win 10).blk t).view.emb (ValueIdx.ix2 p q : S4000x128.Idx))
  rw [upd14Pay1_at, upd14_emb_10]
  have hy : (fun k : Fin 128 => k14_pay4 (iblk14 V c 0 t) (iblk14 V c 2 t) (iblk14 V c 1 t) (iblk14 V c 3 t) (iblk14 V c 4 t) (iblk14 V c 5 t)
      (iblk14 V c 6 t) (ValueIdx.ix2 p k))
      = Cert.Spec.upd (Cert.Spec.row (upd14H V c) (upd14Row t p)) (Cert.Spec.row (upd14Agg V c) (upd14Row t p))
          (Cert.Spec.m2 (upd14Wnh V c)) (Cert.Spec.m2 (upd14Wna V c)) (fun j => upd14B1 V c (ValueIdx.ix2 0 j))
          (Cert.Spec.m2 (upd14Wn2 V c)) (fun j => upd14B2 V c (ValueIdx.ix2 0 j)) :=
    funext fun k => by rw [upd14Pay4_at, upd14Pay3_at, upd14_rows]
  have hw : Cert.Spec.m2 (iblk14 V c 7 t) = Cert.Spec.m2 (upd14Ws V c) := funext fun a => funext fun b => upd14_blk_7 V c t _
  rw [hy, hw]
  rfl

/-- Point t writes back, into the destination-side projection, block t of `upd14Proj` by the destination-side matrix. -/
theorem upd14_flushed_11 (c : Dev nD) (t : Fin cfg14.N) :
    (dat14 V c).flushed 11 t = ((cfg14.win 11).blk t).view.read (Elt Ideal) (upd14Proj (upd14H V c) (upd14Agg V c) (upd14Wnh V c) (upd14Wna V c) (upd14B1 V c) (upd14Wn2 V c) (upd14B2 V c) (upd14Wd V c)) := by
  show (cfg14.win 11).cut (grid14.coords t) ((dat14 V c).after 11 t) = _
  rw [after14_11]
  unfold out14_11
  rw [View.canon_unit_zero upd14_origin]
  simp only [View.ld_unit_zero (S := S4000x128) upd14_origin, View.ld_unit_zero (S := S128x128) upd14_origin,
    View.ld_unit_zero (S := S1x128) upd14_origin]
  funext j
  obtain ⟨p, q, rfl⟩ : ∃ (p : Fin 4000) (q : Fin 128), j = ValueIdx.ix2 p q := ⟨j 0, j 1, ValueIdx.eq_ix2 j⟩
  show k14_pay2 (k14_pay4 (iblk14 V c 0 t) (iblk14 V c 2 t) (iblk14 V c 1 t) (iblk14 V c 3 t) (iblk14 V c 4 t) (iblk14 V c 5 t) (iblk14 V c 6 t))
      (iblk14 V c 8 t) (ValueIdx.ix2 p q)
    = upd14Proj (upd14H V c) (upd14Agg V c) (upd14Wnh V c) (upd14Wna V c) (upd14B1 V c) (upd14Wn2 V c) (upd14B2 V c) (upd14Wd V c) (((cfg14.win 11).blk t).view.emb (ValueIdx.ix2 p q : S4000x128.Idx))
  rw [upd14Pay2_at, upd14_emb_11]
  have hy : (fun k : Fin 128 => k14_pay4 (iblk14 V c 0 t) (iblk14 V c 2 t) (iblk14 V c 1 t) (iblk14 V c 3 t) (iblk14 V c 4 t) (iblk14 V c 5 t)
      (iblk14 V c 6 t) (ValueIdx.ix2 p k))
      = Cert.Spec.upd (Cert.Spec.row (upd14H V c) (upd14Row t p)) (Cert.Spec.row (upd14Agg V c) (upd14Row t p))
          (Cert.Spec.m2 (upd14Wnh V c)) (Cert.Spec.m2 (upd14Wna V c)) (fun j => upd14B1 V c (ValueIdx.ix2 0 j))
          (Cert.Spec.m2 (upd14Wn2 V c)) (fun j => upd14B2 V c (ValueIdx.ix2 0 j)) :=
    funext fun k => by rw [upd14Pay4_at, upd14Pay3_at, upd14_rows]
  have hw : Cert.Spec.m2 (iblk14 V c 8 t) = Cert.Spec.m2 (upd14Wd V c) := funext fun a => funext fun b => upd14_blk_8 V c t _
  rw [hy, hw]
  rfl

/-! ## The blocks tile the rows -/

/-- An index of result array 9 is in point t's block iff each coordinate is in the block's range on its axis. -/
theorem upd14_mem_9 (t : Fin cfg14.N) (i : S20000x128.Idx) :
    i ∈ ((cfg14.win 9).blk t).view.set ↔ ∀ a : Fin 2, win14_9.index t a * S4000x128.size a ≤ (i a).val
      ∧ (i a).val < win14_9.index t a * S4000x128.size a + S4000x128.size a := by
  show i ∈ ((View.whole (Pipeline.arrRef spec14 9)).slice (win14_9.rect t)).set ↔ _
  rw [View.set_slice_whole, Rect.mem_set_unit]
  exact Iff.rfl

/-- Row r of result array 9 is in the block of point r / 4000, and every point writes its block back. -/
theorem upd14_cover_9 (i : S20000x128.Idx) :
    ∃ t : Fin cfg14.N, (cfg14.win 9).flush t = true ∧ i ∈ ((cfg14.win 9).blk t).view.set := by
  have hi0 : (i 0).val < 20000 := (i 0).isLt
  have hi1 : (i 1).val < 128 := (i 1).isLt
  have hN : (i 0).val / 4000 < grid14.N := by rw [N_14]; omega
  refine ⟨⟨(i 0).val / 4000, hN⟩, flush14_9 _, ?_⟩
  rw [upd14_mem_9]
  obtain ⟨-, -, -, -, -, -, -, -, -, e9, e10, e11⟩ := upd14_index ⟨(i 0).val / 4000, hN⟩
  have q0 : win14_9.index ⟨(i 0).val / 4000, hN⟩ (0 : Fin 2) = (i 0).val / 4000 := e9.1
  have q1 : win14_9.index ⟨(i 0).val / 4000, hN⟩ (1 : Fin 2) = 0 := e9.2
  intro a
  match a with
  | ⟨0, _⟩ =>
    show win14_9.index ⟨(i 0).val / 4000, hN⟩ (0 : Fin 2) * 4000 ≤ (i 0).val
      ∧ (i 0).val < win14_9.index ⟨(i 0).val / 4000, hN⟩ (0 : Fin 2) * 4000 + 4000
    omega
  | ⟨1, _⟩ =>
    show win14_9.index ⟨(i 0).val / 4000, hN⟩ (1 : Fin 2) * 128 ≤ (i 1).val
      ∧ (i 1).val < win14_9.index ⟨(i 0).val / 4000, hN⟩ (1 : Fin 2) * 128 + 128
    omega

/-- An index of result array 10 is in point t's block iff each coordinate is in the block's range on its axis. -/
theorem upd14_mem_10 (t : Fin cfg14.N) (i : S20000x128.Idx) :
    i ∈ ((cfg14.win 10).blk t).view.set ↔ ∀ a : Fin 2, win14_10.index t a * S4000x128.size a ≤ (i a).val
      ∧ (i a).val < win14_10.index t a * S4000x128.size a + S4000x128.size a := by
  show i ∈ ((View.whole (Pipeline.arrRef spec14 10)).slice (win14_10.rect t)).set ↔ _
  rw [View.set_slice_whole, Rect.mem_set_unit]
  exact Iff.rfl

/-- Row r of result array 10 is in the block of point r / 4000, and every point writes its block back. -/
theorem upd14_cover_10 (i : S20000x128.Idx) :
    ∃ t : Fin cfg14.N, (cfg14.win 10).flush t = true ∧ i ∈ ((cfg14.win 10).blk t).view.set := by
  have hi0 : (i 0).val < 20000 := (i 0).isLt
  have hi1 : (i 1).val < 128 := (i 1).isLt
  have hN : (i 0).val / 4000 < grid14.N := by rw [N_14]; omega
  refine ⟨⟨(i 0).val / 4000, hN⟩, flush14_10 _, ?_⟩
  rw [upd14_mem_10]
  obtain ⟨-, -, -, -, -, -, -, -, -, e9, e10, e11⟩ := upd14_index ⟨(i 0).val / 4000, hN⟩
  have q0 : win14_10.index ⟨(i 0).val / 4000, hN⟩ (0 : Fin 2) = (i 0).val / 4000 := e10.1
  have q1 : win14_10.index ⟨(i 0).val / 4000, hN⟩ (1 : Fin 2) = 0 := e10.2
  intro a
  match a with
  | ⟨0, _⟩ =>
    show win14_10.index ⟨(i 0).val / 4000, hN⟩ (0 : Fin 2) * 4000 ≤ (i 0).val
      ∧ (i 0).val < win14_10.index ⟨(i 0).val / 4000, hN⟩ (0 : Fin 2) * 4000 + 4000
    omega
  | ⟨1, _⟩ =>
    show win14_10.index ⟨(i 0).val / 4000, hN⟩ (1 : Fin 2) * 128 ≤ (i 1).val
      ∧ (i 1).val < win14_10.index ⟨(i 0).val / 4000, hN⟩ (1 : Fin 2) * 128 + 128
    omega

/-- An index of result array 11 is in point t's block iff each coordinate is in the block's range on its axis. -/
theorem upd14_mem_11 (t : Fin cfg14.N) (i : S20000x128.Idx) :
    i ∈ ((cfg14.win 11).blk t).view.set ↔ ∀ a : Fin 2, win14_11.index t a * S4000x128.size a ≤ (i a).val
      ∧ (i a).val < win14_11.index t a * S4000x128.size a + S4000x128.size a := by
  show i ∈ ((View.whole (Pipeline.arrRef spec14 11)).slice (win14_11.rect t)).set ↔ _
  rw [View.set_slice_whole, Rect.mem_set_unit]
  exact Iff.rfl

/-- Row r of result array 11 is in the block of point r / 4000, and every point writes its block back. -/
theorem upd14_cover_11 (i : S20000x128.Idx) :
    ∃ t : Fin cfg14.N, (cfg14.win 11).flush t = true ∧ i ∈ ((cfg14.win 11).blk t).view.set := by
  have hi0 : (i 0).val < 20000 := (i 0).isLt
  have hi1 : (i 1).val < 128 := (i 1).isLt
  have hN : (i 0).val / 4000 < grid14.N := by rw [N_14]; omega
  refine ⟨⟨(i 0).val / 4000, hN⟩, flush14_11 _, ?_⟩
  rw [upd14_mem_11]
  obtain ⟨-, -, -, -, -, -, -, -, -, e9, e10, e11⟩ := upd14_index ⟨(i 0).val / 4000, hN⟩
  have q0 : win14_11.index ⟨(i 0).val / 4000, hN⟩ (0 : Fin 2) = (i 0).val / 4000 := e11.1
  have q1 : win14_11.index ⟨(i 0).val / 4000, hN⟩ (1 : Fin 2) = 0 := e11.2
  intro a
  match a with
  | ⟨0, _⟩ =>
    show win14_11.index ⟨(i 0).val / 4000, hN⟩ (0 : Fin 2) * 4000 ≤ (i 0).val
      ∧ (i 0).val < win14_11.index ⟨(i 0).val / 4000, hN⟩ (0 : Fin 2) * 4000 + 4000
    omega
  | ⟨1, _⟩ =>
    show win14_11.index ⟨(i 0).val / 4000, hN⟩ (1 : Fin 2) * 128 ≤ (i 1).val
      ∧ (i 1).val < win14_11.index ⟨(i 0).val / 4000, hN⟩ (1 : Fin 2) * 128 + 128
    omega

/-! ## The result arrays when the region ends -/

/-- The new features end as `upd14New` of the arrays the region finds. -/
theorem upd14_array_9 (c : Dev nD) : (dat14 (F := Ideal) V c).arrAt 9 cfg14.N = upd14New (upd14H V c) (upd14Agg V c) (upd14Wnh V c) (upd14Wna V c) (upd14B1 V c) (upd14Wn2 V c) (upd14B2 V c) :=
  (dat14 V c).arrAt_eq_of_cover 9 (upd14New (upd14H V c) (upd14Agg V c) (upd14Wnh V c) (upd14Wna V c) (upd14B1 V c) (upd14Wn2 V c) (upd14B2 V c)) (fun t _ => upd14_flushed_9 V c t) upd14_cover_9

/-- The source-side projection ends as `upd14Proj` by the source-side matrix. -/
theorem upd14_array_10 (c : Dev nD) : (dat14 (F := Ideal) V c).arrAt 10 cfg14.N = upd14Proj (upd14H V c) (upd14Agg V c) (upd14Wnh V c) (upd14Wna V c) (upd14B1 V c) (upd14Wn2 V c) (upd14B2 V c) (upd14Ws V c) :=
  (dat14 V c).arrAt_eq_of_cover 10 (upd14Proj (upd14H V c) (upd14Agg V c) (upd14Wnh V c) (upd14Wna V c) (upd14B1 V c) (upd14Wn2 V c) (upd14B2 V c) (upd14Ws V c)) (fun t _ => upd14_flushed_10 V c t) upd14_cover_10

/-- The destination-side projection ends as `upd14Proj` by the destination-side matrix. -/
theorem upd14_array_11 (c : Dev nD) : (dat14 (F := Ideal) V c).arrAt 11 cfg14.N = upd14Proj (upd14H V c) (upd14Agg V c) (upd14Wnh V c) (upd14Wna V c) (upd14B1 V c) (upd14Wn2 V c) (upd14B2 V c) (upd14Wd V c) :=
  (dat14 V c).arrAt_eq_of_cover 11 (upd14Proj (upd14H V c) (upd14Agg V c) (upd14Wnh V c) (upd14Wna V c) (upd14B1 V c) (upd14Wn2 V c) (upd14B2 V c) (upd14Wd V c)) (fun t _ => upd14_flushed_11 V c t) upd14_cover_11

/-- The new features at row p, column q: the update row formula of rows p of the features and the messages. -/
theorem final14_9 (c : Dev nD) (p : Fin 20000) (q : Fin 128) :
    (dat14 (F := Ideal) V c).arrAt 9 cfg14.N (ValueIdx.ix2 p q : S20000x128.Idx)
      = Cert.Spec.upd (Cert.Spec.row (upd14H V c) p) (Cert.Spec.row (upd14Agg V c) p) (Cert.Spec.m2 (upd14Wnh V c))
        (Cert.Spec.m2 (upd14Wna V c)) (fun j => upd14B1 V c (ValueIdx.ix2 0 j)) (Cert.Spec.m2 (upd14Wn2 V c))
        (fun j => upd14B2 V c (ValueIdx.ix2 0 j)) q := by
  rw [upd14_array_9]; rfl

/-- The source-side projection at row p, column q: the new features' row p times the source-side matrix. -/
theorem final14_10 (c : Dev nD) (p : Fin 20000) (q : Fin 128) :
    (dat14 (F := Ideal) V c).arrAt 10 cfg14.N (ValueIdx.ix2 p q : S20000x128.Idx)
      = Cert.Spec.lin (Cert.Spec.upd (Cert.Spec.row (upd14H V c) p) (Cert.Spec.row (upd14Agg V c) p) (Cert.Spec.m2 (upd14Wnh V c))
        (Cert.Spec.m2 (upd14Wna V c)) (fun j => upd14B1 V c (ValueIdx.ix2 0 j)) (Cert.Spec.m2 (upd14Wn2 V c))
        (fun j => upd14B2 V c (ValueIdx.ix2 0 j))) (Cert.Spec.m2 (upd14Ws V c)) q := by
  rw [upd14_array_10]; rfl

/-- The destination-side projection at row p, column q: the new features' row p times the destination-side matrix. -/
theorem final14_11 (c : Dev nD) (p : Fin 20000) (q : Fin 128) :
    (dat14 (F := Ideal) V c).arrAt 11 cfg14.N (ValueIdx.ix2 p q : S20000x128.Idx)
      = Cert.Spec.lin (Cert.Spec.upd (Cert.Spec.row (upd14H V c) p) (Cert.Spec.row (upd14Agg V c) p) (Cert.Spec.m2 (upd14Wnh V c))
        (Cert.Spec.m2 (upd14Wna V c)) (fun j => upd14B1 V c (ValueIdx.ix2 0 j)) (Cert.Spec.m2 (upd14Wn2 V c))
        (fun j => upd14B2 V c (ValueIdx.ix2 0 j))) (Cert.Spec.m2 (upd14Wd V c)) q := by
  rw [upd14_array_11]; rfl

end Cert.KernelIdeal.Hand

end
-- ==== Proof.Bridge.Upd14.lean ====
/-
  Region 14, the node update of one layer, as equations of arrays: whatever fills the region's nine input arrays, if
  they are the reference's inputs (the features, the aggregated messages and the five weight matrices the same arrays;
  each bias, which the kernel takes as one row and the reference as a vector, entry by entry), then the three result
  arrays after the region are the reference's updated features and their two projections for the next layer.
-/
import proofs.«152161_j29669634081217_2_alg».proof.Proof.KI.Val14
import proofs.«152161_j29669634081217_2_alg».proof.Proof.Ref.StageUpd
import proofs.«152161_j29669634081217_2_alg».proof.Proof.Ref.StageAB
import proofs.«152161_j29669634081217_2_alg».proof.Proof.Ref.Stages

noncomputable section

namespace Cert.Bridge

open Idealize.ShloMosaic Idealize.ShloMosaic.TcCoe Idealize.SL.Sem Idealize.ShloMosaic.ValueIdx
open Idealize.ShloMosaic.Pipeline (Dat)
open Cert.KernelIdeal Cert.KernelIdeal.Gen
open Cert.KernelIdeal.Hand (dat14 final14_9 final14_10 final14_11 upd14H upd14Agg upd14Wnh upd14Wna upd14B1 upd14Wn2 upd14B2 upd14Ws upd14Wd)
open Cert.ReferenceIdeal.Hand (updRef linRef refUpd refLin)

variable (V : (c : Dev nD) → (b : Ref sig .tc) → Buf (Elt Ideal) ((c : Thread nD τ).loc b)) (c : Dev nD)
variable (H Agg : FVec Ideal Cert.ReferenceIdeal.S20000x128 .f32) (Wnh Wna : FVec Ideal Cert.ReferenceIdeal.S128x128 .f32)
  (b1 : FVec Ideal Cert.ReferenceIdeal.S128 .f32) (Wn2 : FVec Ideal Cert.ReferenceIdeal.S128x128 .f32)
  (b2 : FVec Ideal Cert.ReferenceIdeal.S128 .f32)

/-- The updated features: both sides are the update row formula of rows p of the features and of the messages. -/
theorem upd14_new (h0 : upd14H V c = H) (h1 : upd14Agg V c = Agg) (h2 : upd14Wnh V c = Wnh) (h3 : upd14Wna V c = Wna)
    (h4 : ∀ j : Fin 128, upd14B1 V c (ix2 (0 : Fin 1) j) = b1 (ix1 j)) (h5 : upd14Wn2 V c = Wn2)
    (h6 : ∀ j : Fin 128, upd14B2 V c (ix2 (0 : Fin 1) j) = b2 (ix1 j)) :
    ((dat14 (F := Ideal) V c).arrAt 9 cfg14.N : S20000x128.Idx → EReal) = updRef H Agg Wnh Wna b1 Wn2 b2 := by
  funext i
  obtain ⟨p, q, rfl⟩ : ∃ (p : Fin 20000) (q : Fin 128), i = ix2 p q := ⟨i 0, i 1, eq_ix2 i⟩
  have e4 : (fun j : Fin 128 => upd14B1 V c (ix2 (0 : Fin 1) j)) = Cert.Spec.v1 b1 := funext h4
  have e6 : (fun j : Fin 128 => upd14B2 V c (ix2 (0 : Fin 1) j)) = Cert.Spec.v1 b2 := funext h6
  refine (final14_9 V c p q).trans ?_
  rw [e4, e6, h0, h1, h2, h3, h5]
  exact (refUpd H Agg Wnh Wna b1 Wn2 b2 p q).symm

/-- A projection of the updated features by a matrix W, for any array R that reads as that projection at every index:
    row p of the updated features, on both sides the update row formula, times W. -/
theorem upd14_proj_of (R : S20000x128.Idx → EReal) (Wk : S128x128.Idx → EReal) (W : FVec Ideal Cert.ReferenceIdeal.S128x128 .f32)
    (hfin : ∀ (p : Fin 20000) (q : Fin 128), R (ix2 p q : S20000x128.Idx)
      = Cert.Spec.lin (Cert.Spec.upd (Cert.Spec.row (upd14H V c) p) (Cert.Spec.row (upd14Agg V c) p) (Cert.Spec.m2 (upd14Wnh V c))
        (Cert.Spec.m2 (upd14Wna V c)) (fun j => upd14B1 V c (ix2 0 j)) (Cert.Spec.m2 (upd14Wn2 V c))
        (fun j => upd14B2 V c (ix2 0 j))) (Cert.Spec.m2 Wk) q)
    (h0 : upd14H V c = H) (h1 : upd14Agg V c = Agg) (h2 : upd14Wnh V c = Wnh) (h3 : upd14Wna V c = Wna)
    (h4 : ∀ j : Fin 128, upd14B1 V c (ix2 (0 : Fin 1) j) = b1 (ix1 j)) (h5 : upd14Wn2 V c = Wn2)
    (h6 : ∀ j : Fin 128, upd14B2 V c (ix2 (0 : Fin 1) j) = b2 (ix1 j)) (h7 : Wk = W) :
    R = linRef (updRef H Agg Wnh Wna b1 Wn2 b2) W := by
  funext i
  obtain ⟨p, q, rfl⟩ : ∃ (p : Fin 20000) (q : Fin 128), i = ix2 p q := ⟨i 0, i 1, eq_ix2 i⟩
  have e4 : (fun j : Fin 128 => upd14B1 V c (ix2 (0 : Fin 1) j)) = Cert.Spec.v1 b1 := funext h4
  have e6 : (fun j : Fin 128 => upd14B2 V c (ix2 (0 : Fin 1) j)) = Cert.Spec.v1 b2 := funext h6
  refine (hfin p q).trans ?_
  rw [e4, e6, h0, h1, h2, h3, h5, h7]
  refine Eq.trans ?_ (refLin (updRef H Agg Wnh Wna b1 Wn2 b2) W p q).symm
  refine congrArg (fun x => Cert.Spec.lin x (Cert.Spec.m2 W) q) ?_
  funext k
  exact (refUpd H Agg Wnh Wna b1 Wn2 b2 p k).symm

/-- The projection by the source-side matrix of the next layer. -/
theorem upd14_projS (Ws : FVec Ideal Cert.ReferenceIdeal.S128x128 .f32)
    (h0 : upd14H V c = H) (h1 : upd14Agg V c = Agg) (h2 : upd14Wnh V c = Wnh) (h3 : upd14Wna V c = Wna)
    (h4 : ∀ j : Fin 128, upd14B1 V c (ix2 (0 : Fin 1) j) = b1 (ix1 j)) (h5 : upd14Wn2 V c = Wn2)
    (h6 : ∀ j : Fin 128, upd14B2 V c (ix2 (0 : Fin 1) j) = b2 (ix1 j)) (h7 : upd14Ws V c = Ws) :
    ((dat14 (F := Ideal) V c).arrAt 10 cfg14.N : S20000x128.Idx → EReal) = linRef (updRef H Agg Wnh Wna b1 Wn2 b2) Ws :=
  upd14_proj_of V c H Agg Wnh Wna b1 Wn2 b2 ((dat14 (F := Ideal) V c).arrAt 10 cfg14.N) (upd14Ws V c) Ws (final14_10 V c) h0 h1 h2 h3 h4 h5 h6 h7

/-- The projection by the destination-side matrix of the next layer. -/
theorem upd14_projD (Wd : FVec Ideal Cert.ReferenceIdeal.S128x128 .f32)
    (h0 : upd14H V c = H) (h1 : upd14Agg V c = Agg) (h2 : upd14Wnh V c = Wnh) (h3 : upd14Wna V c = Wna)
    (h4 : ∀ j : Fin 128, upd14B1 V c (ix2 (0 : Fin 1) j) = b1 (ix1 j)) (h5 : upd14Wn2 V c = Wn2)
    (h6 : ∀ j : Fin 128, upd14B2 V c (ix2 (0 : Fin 1) j) = b2 (ix1 j)) (h8 : upd14Wd V c = Wd) :
    ((dat14 (F := Ideal) V c).arrAt 11 cfg14.N : S20000x128.Idx → EReal) = linRef (updRef H Agg Wnh Wna b1 Wn2 b2) Wd :=
  upd14_proj_of V c H Agg Wnh Wna b1 Wn2 b2 ((dat14 (F := Ideal) V c).arrAt 11 cfg14.N) (upd14Wd V c) Wd (final14_11 V c) h0 h1 h2 h3 h4 h5 h6 h8

end Cert.Bridge

end
-- ==== Proof.Bridge.Layer5.lean ====
/-
  Layer 5 of the message passing, the kernel program's buffers against the reference's named stages. Region 13 leaves
  the reference's messages of layer 5 in its result buffer, given that the two projections and the encoded edges it
  reads are the reference's. Region 14 then leaves the reference's node features entering layer 6, given those messages and the features entering layer 5.
-/
import proofs.«152161_j29669634081217_2_alg».proof.Proof.KI.Stage13
import proofs.«152161_j29669634081217_2_alg».proof.Proof.KI.Reads6
import proofs.«152161_j29669634081217_2_alg».proof.Proof.KI.Outs
import proofs.«152161_j29669634081217_2_alg».proof.Proof.Bridge.Args
import proofs.«152161_j29669634081217_2_alg».proof.Proof.Bridge.LayerCommon
import proofs.«152161_j29669634081217_2_alg».proof.Proof.Bridge.Upd14

-- reading a buffer at a boundary unfolds the table of boundaries, one case per boundary
set_option maxRecDepth 16384

noncomputable section

namespace Cert.Bridge

open Idealize.ShloMosaic Idealize.ShloMosaic.TcCoe Idealize.SL.Sem Idealize.ShloMosaic.ValueIdx
open Cert.KernelIdeal Cert.KernelIdeal.Gen
open Cert.KernelIdeal.Hand (W26 W4 W28 W30 outs VW28 VW30 en13 en14 Ex13_out7 Ex14_out9 stage13_7
  in13_0 in13_1 in13_2 in13_3 in13_4 in13_5 in13_6 in14_0 in14_1 in14_2 in14_3 in14_4 in14_5 in14_6
  upd14H upd14Agg upd14Wnh upd14Wna upd14B1 upd14Wn2 upd14B2)
open Cert.ReferenceIdeal.Hand (Args e0S hS aS bS mS aggS asrcS bdstS wmN wvN)

variable (m : (ℓ : Loc nD τ sig) → Buf (Elt Ideal) ℓ) (c : Dev nD)

/-! ## Region 13: the messages -/

/-- Region 13's result buffer holds the reference's messages of layer 5.
    Its seven inputs, one by one: the encoded edges are the buffer region 1 left; the two gathered projections are
    gathers of the second and third buffers region 12 left, along the edge list's two rows, which is how the reference gathers them; the
    two weight matrices and the two bias rows are layer 5's slabs of the stacked arguments. -/
theorem bm5 (ha : W26 m c main_v247_1 = aS (argsOf m c) 5) (hb : W26 m c main_v247_2 = bS (argsOf m c) 5)
    (he : W4 m c main_v17 = e0S (argsOf m c)) :
    W28 m c main_v272 = mS (argsOf m c) 5 := by
  rw [← VW28]
  refine (Ex13_out7 m c).trans ?_
  refine stage13_7 (en13 m) c (e0S (argsOf m c)) (asrcS (argsOf m c) 5) (bdstS (argsOf m c) 5)
    (wmN (argsOf m c).a16 5) (wvN (argsOf m c).a17 5) (wmN (argsOf m c).a18 5) (wvN (argsOf m c).a19 5)
    ?_ ?_ ?_ ?_ ?_ ?_ ?_
  · exact (in13_0 m (outs m) c).trans he
  · refine (in13_1 m (outs m) c).trans ?_
    rw [show outs m 26 main_v247_1 c = W26 m c main_v247_1 from rfl, ha]
    exact gatherSrc_eq m c _
  · refine (in13_2 m (outs m) c).trans ?_
    rw [show outs m 26 main_v247_2 c = W26 m c main_v247_2 from rfl, hb]
    exact gatherDst_eq m c _
  · exact (in13_3 m (outs m) c).trans (sliceMat_eq _ 5 _ _)
  · exact fun j => (congrFun (in13_4 m (outs m) c) (ix2 (0 : Fin 1) j)).trans (sliceRow_at _ 5 _ _ j)
  · exact (in13_5 m (outs m) c).trans (sliceMat_eq _ 5 _ _)
  · exact fun j => (congrFun (in13_6 m (outs m) c) (ix2 (0 : Fin 1) j)).trans (sliceRow_at _ 5 _ _ j)

/-! ## Region 14: the node update

Its nine inputs: the features entering the layer are the first buffer region 12 left; the aggregated messages are the
scatter-add of region 13's result at the receivers, into zeros, which is how the reference aggregates; the rest are
slabs of the stacked arguments, layer 5's. -/

theorem l5_H (hh : W26 m c main_v247_0 = hS (argsOf m c) 5) : upd14H (en14 m) c = hS (argsOf m c) 5 :=
  (in14_0 m (outs m) c).trans hh

theorem l5_Agg (hm : W28 m c main_v272 = mS (argsOf m c) 5) : upd14Agg (en14 m) c = aggS (argsOf m c) 5 := by
  refine (in14_1 m (outs m) c).trans ?_
  rw [show outs m 28 main_v272 c = W28 m c main_v272 from rfl, hm]
  exact scatter_eq m c _

theorem l5_Wnh : upd14Wnh (en14 m) c = wmN (argsOf m c).a20 5 := (in14_2 m (outs m) c).trans (sliceMat_eq _ 5 _ _)
theorem l5_Wna : upd14Wna (en14 m) c = wmN (argsOf m c).a21 5 := (in14_3 m (outs m) c).trans (sliceMat_eq _ 5 _ _)
theorem l5_B1 (j : Fin 128) : upd14B1 (en14 m) c (ix2 (0 : Fin 1) j) = wvN (argsOf m c).a22 5 (ix1 j) :=
  (congrFun (in14_4 m (outs m) c) (ix2 (0 : Fin 1) j)).trans (sliceRow_at _ 5 _ _ j)
theorem l5_Wn2 : upd14Wn2 (en14 m) c = wmN (argsOf m c).a23 5 := (in14_5 m (outs m) c).trans (sliceMat_eq _ 5 _ _)
theorem l5_B2 (j : Fin 128) : upd14B2 (en14 m) c (ix2 (0 : Fin 1) j) = wvN (argsOf m c).a24 5 (ix1 j) :=
  (congrFun (in14_6 m (outs m) c) (ix2 (0 : Fin 1) j)).trans (sliceRow_at _ 5 _ _ j)

/-- Region 14's first result buffer holds the reference's node features entering layer 6. -/
theorem bh5 (hm : W28 m c main_v272 = mS (argsOf m c) 5) (hh : W26 m c main_v247_0 = hS (argsOf m c) 5) :
    W30 m c main_v292_0 = hS (argsOf m c) 6 := by
  rw [← VW30]
  refine (Ex14_out9 m c).trans ?_
  exact upd14_new (en14 m) c (hS (argsOf m c) 5) (aggS (argsOf m c) 5) (wmN (argsOf m c).a20 5) (wmN (argsOf m c).a21 5)
    (wvN (argsOf m c).a22 5) (wmN (argsOf m c).a23 5) (wvN (argsOf m c).a24 5)
    (l5_H m c hh) (l5_Agg m c hm) (l5_Wnh m c) (l5_Wna m c) (l5_B1 m c) (l5_Wn2 m c) (l5_B2 m c)

end Cert.Bridge

end
-- ==== Proof.KI.Reads7.lean ====
/- What region 15 reads: each input window's array, on entry to the region, as a pure term of the launch contents
   and of what the earlier regions left — the host stretch before the region read back operation by operation, its
   operands carried from where they were written. The same road as layer 0 (regions 3 and 4), under this layer's names. -/
import proofs.«152161_j29669634081217_2_alg».proof.Proof.KI.ReadsDefs
import proofs.«152161_j29669634081217_2_alg».proof.Proof.KI.ReadsCarryA
import proofs.«152161_j29669634081217_2_alg».proof.Proof.KI.ReadsCarryB

-- membership of a reference in a stretch's list of written references is decided past the default depth
set_option maxRecDepth 2864
-- the stretch before a region is read back one operation at a time: up to 28 rewriting steps per operand of a window
set_option maxHeartbeats 1000000

noncomputable section

namespace Cert.KernelIdeal.Hand

open Idealize.ShloMosaic Idealize.ShloMosaic.TcCoe
open Idealize.SL.Sem
open Idealize.ShloMosaic.StableHlo
open Cert.KernelIdeal.Gen

variable {F : FTy → Type} [FloatOps F]
variable (m : (ℓ : Loc nD τ sig) → Buf (Elt F) ℓ) (outs : Outs (F := F))

/-! ## Region 15 -/

theorem in15_0 (c : Dev nD) : V31 m outs c main_v292_0 = outs 30 main_v292_0 c :=
  at31_v292_0 m outs c
theorem in15_1 (c : Dev nD) : V31 m outs c main_v293 = concatenate S20000x4 1 [⟨S20000x2, posCols m c⟩, ⟨S20000x1, m ((c : Thread nD τ).loc main_arg3)⟩, ⟨S20000x1, m ((c : Thread nD τ).loc main_arg4)⟩] concatenates_S20000x2_S20000x1_S20000x1_S20000x4_d1 := by
  show StableHlo.after hostOps15 (V30 m outs c) (Proc.devRef .tc main_v293) = _
  after_results
  -- the family's members read at their literal indices
  show concatenate S20000x4 1 [⟨S20000x2, V30 m outs c main_v10⟩, ⟨S20000x1, V30 m outs c main_arg3⟩, ⟨S20000x1, V30 m outs c main_arg4⟩] concatenates_S20000x2_S20000x1_S20000x1_S20000x4_d1 = _
  rw [at30_v10 m outs c, at1_v10 m c, at30_arg3 m outs c, at30_arg4 m outs c] <;> rfl
theorem in15_2 (c : Dev nD) : V31 m outs c main_v294 = extractStridedSlice S128x128 ![0, 0] (m ((c : Thread nD τ).loc main_arg25)) slices_S130x128_S128x128_0_0 := by
  show StableHlo.after hostOps15 (V30 m outs c) (Proc.devRef .tc main_v294) = _
  after_results <;> rw [at30_arg25 m outs c] <;> rfl
theorem in15_3 (c : Dev nD) : V31 m outs c main_v295 = extractStridedSlice S2x128 ![128, 0] (m ((c : Thread nD τ).loc main_arg25)) slices_S130x128_S2x128_128_0 := by
  show StableHlo.after hostOps15 (V30 m outs c) (Proc.devRef .tc main_v295) = _
  after_results <;> rw [at30_arg25 m outs c] <;> rfl
theorem in15_4 (c : Dev nD) : V31 m outs c main_v296 = shapeCast S1x128 (m ((c : Thread nD τ).loc main_arg26)) shapeCasts_S128_S1x128 := by
  show StableHlo.after hostOps15 (V30 m outs c) (Proc.devRef .tc main_v296) = _
  after_results <;> rw [at30_arg26 m outs c] <;> rfl
theorem in15_5 (c : Dev nD) : V31 m outs c main_arg27 = m ((c : Thread nD τ).loc main_arg27) :=
  at31_arg27 m outs c
theorem in15_6 (c : Dev nD) : V31 m outs c main_v297 = shapeCast S1x64 (m ((c : Thread nD τ).loc main_arg28)) shapeCasts_S64_S1x64 := by
  show StableHlo.after hostOps15 (V30 m outs c) (Proc.devRef .tc main_v297) = _
  after_results <;> rw [at30_arg28 m outs c] <;> rfl
theorem in15_7 (c : Dev nD) : V31 m outs c main_arg29 = m ((c : Thread nD τ).loc main_arg29) :=
  at31_arg29 m outs c
theorem in15_8 (c : Dev nD) : V31 m outs c main_v298 = shapeCast S1x3 (m ((c : Thread nD τ).loc main_arg30)) shapeCasts_S3_S1x3 := by
  show StableHlo.after hostOps15 (V30 m outs c) (Proc.devRef .tc main_v298) = _
  after_results <;> rw [at30_arg30 m outs c] <;> rfl

end Cert.KernelIdeal.Hand
-- ==== Proof.KI.Pay15.lean ====
/-
  Region 15, the decoder kernel: what the body's one store holds at an index of the result block, over the extended
  reals. Every rounding step is the identity there, each block product into the zero splat is the plain sum over
  the contracted coordinate, and the iota mask picks `1 - disp` on columns 0 and 1 and `1 - rot` on column 2: so
  the stored value is the masked three-layer decoder of the node's feature row and its two coordinates.
-/
import proofs.«152161_j29669634081217_2_alg».proof.Proof.Gen.KernelIdeal.Skeleton
import proofs.«152161_j29669634081217_2_alg».proof.Proof.Spec
import Idealize.ShloMosaic.PureOps.Ideal.Laws
import Idealize.ShloMosaic.Lib.Pipeline.Value
import Idealize.ShloMosaic.Lib.ValueIdx
import Idealize.ShloMosaic.Lib.ValueLayout
import Idealize.ShloMosaic.Lib.IdealHost

noncomputable section

namespace Cert.KernelIdeal.Hand

open Cert.KernelIdeal Cert.KernelIdeal.Gen
open Idealize.ShloMosaic Idealize.ShloMosaic.ValueIdx
open scoped BigOperators

/-! ## A rows-by-columns product read at an index -/

/-- The left operand's index of a plain product, at the contraction coordinate `k`, is (row, `k`). -/
theorem plainLhs15 (M K N : ℕ) (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a; apply Fin.ext
  match a with
  | ⟨0, _⟩ => rfl
  | ⟨1, _⟩ => exact hk

/-- The right operand's index is (`k`, column). -/
theorem plainRhs15 (M K N : ℕ) (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a; apply Fin.ext
  match a with
  | ⟨0, _⟩ => exact hk
  | ⟨1, _⟩ => rfl

/-- A plain product accumulated into the zero splat, at (p, q), is the sum over `k` of left (p, k) times right (k, q). -/
theorem matmulPlainZero15 {M K N : ℕ} {φ₁ φ₂ : FTy} (d : DotDims ⟨2, ![M, K]⟩ ⟨2, ![K, N]⟩ ⟨2, ![M, N]⟩) (hd : d = DotDims.plain M K N)
    (lhs : FVec Ideal ⟨2, ![M, K]⟩ φ₁) (rhs : FVec Ideal ⟨2, ![K, N]⟩ φ₂) (p : Fin M) (q : Fin N) :
    matmul d none lhs rhs (constant (F := Ideal) ⟨2, ![M, N]⟩ .f32 0x00000000#32) (ix2 p q) = ∑ k : Fin K, lhs (ix2 p k) * rhs (ix2 k q) := by
  subst hd
  simp only [matmul]
  rw [Ideal.matmul_constant_zero_apply, ← Equiv.sum_comp (contrEquiv1 (DotDims.plain M K N) K rfl rfl).symm]
  refine Finset.sum_congr rfl fun k _ => ?_
  rw [plainLhs15, plainRhs15]
  rfl

/-- A column `[a, 1]` broadcast to `[a, b]` reads, at (p, c), the column at p. -/
theorem broadcastCol15 {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The four products of this kernel -/

theorem mmH15 (l : FVec Ideal S4000x128 .bf16) (r : FVec Ideal S128x128 .bf16) (p : Fin 4000) (q : Fin 128) :
    matmul dot_S4000x128_S128x128_S4000x128_1_0_0_1_n_n none l r (constant (F := Ideal) S4000x128 .f32 0x00000000#32) (ix2 p q)
      = ∑ k : Fin 128, l (ix2 p k) * r (ix2 k q) := matmulPlainZero15 _ rfl l r p q

theorem mmC15 (l : FVec Ideal S4000x2 .bf16) (r : FVec Ideal S2x128 .bf16) (p : Fin 4000) (q : Fin 128) :
    matmul dot_S4000x2_S2x128_S4000x128_1_0_0_1_n_n none l r (constant (F := Ideal) S4000x128 .f32 0x00000000#32) (ix2 p q)
      = ∑ k : Fin 2, l (ix2 p k) * r (ix2 k q) := matmulPlainZero15 _ rfl l r p q

theorem mmM15 (l : FVec Ideal S4000x128 .bf16) (r : FVec Ideal S128x64 .bf16) (p : Fin 4000) (q : Fin 64) :
    matmul dot_S4000x128_S128x64_S4000x64_1_0_0_1_n_n none l r (constant (F := Ideal) S4000x64 .f32 0x00000000#32) (ix2 p q)
      = ∑ k : Fin 128, l (ix2 p k) * r (ix2 k q) := matmulPlainZero15 _ rfl l r p q

theorem mmO15 (l : FVec Ideal S4000x64 .bf16) (r : FVec Ideal S64x3 .bf16) (p : Fin 4000) (q : Fin 3) :
    matmul dot_S4000x64_S64x3_S4000x3_1_0_0_1_n_n none l r (constant (F := Ideal) S4000x3 .f32 0x00000000#32) (ix2 p q)
      = ∑ k : Fin 64, l (ix2 p k) * r (ix2 k q) := matmulPlainZero15 _ rfl l r p q

/-! ## The slices of the extra columns -/

/-- The two coordinate columns. -/
theorem sliceCoords15 {α : Type} (x : S4000x4.Idx → α) :
    extractStridedSlice S4000x2 ![0, 0] x slices_S4000x4_o0_0_S4000x2
      = fun i => x (ix2 (i 0) ⟨(i 1).val, by have := idx2_lt1 i; omega⟩) := by
  funext i
  obtain ⟨p, k, rfl⟩ : ∃ (p : Fin 4000) (k : Fin 2), i = ix2 p k := ⟨i 0, i 1, eq_ix2 i⟩
  exact slice2_axis1_apply 0 x _ p k ⟨k.val, by omega⟩ (Nat.zero_add _).symm

/-- The displacement-constraint column. -/
theorem sliceDisp15 {α : Type} (x : S4000x4.Idx → α) :
    extractStridedSlice S4000x1 ![0, 2] x slices_S4000x4_o0_2_S4000x1 = fun i => x (ix2 (i 0) 2) := by
  funext i
  obtain ⟨p, z, rfl⟩ : ∃ (p : Fin 4000) (z : Fin 1), i = ix2 p z := ⟨i 0, i 1, eq_ix2 i⟩
  exact slice2_axis1_apply 2 x _ p z 2 (by have := z.isLt; show (2 : ℕ) = 2 + z.val; omega)

/-- The rotation-constraint column. -/
theorem sliceRot15 {α : Type} (x : S4000x4.Idx → α) :
    extractStridedSlice S4000x1 ![0, 3] x slices_S4000x4_o0_3_S4000x1 = fun i => x (ix2 (i 0) 3) := by
  funext i
  obtain ⟨p, z, rfl⟩ : ∃ (p : Fin 4000) (z : Fin 1), i = ix2 p z := ⟨i 0, i 1, eq_ix2 i⟩
  exact slice2_axis1_apply 3 x _ p z 3 (by have := z.isLt; show (3 : ℕ) = 3 + z.val; omega)

/-! ## The mask -/

/-- The column iota compared with 2: set on columns 0 and 1, clear on column 2. -/
theorem maskBit15 (p : Fin 4000) (q : Fin 3) :
    cmpi .slt (iota .tc S4000x3 32 [1] iota_S4000x3_d1_w32) (broadcast S4000x3 2#32) (ix2 p q) = if q.val < 2 then 1#1 else 0#1 := by
  show IntOp.cmpi .slt (iota .tc S4000x3 32 [1] iota_S4000x3_d1_w32 (ix2 p q)) 2#32 = _
  rw [iota_single_apply]
  show IntOp.cmpi .slt (BitVec.ofNat 32 q.val) 2#32 = _
  match q with
  | ⟨0, _⟩ => rfl
  | ⟨1, _⟩ => rfl
  | ⟨2, _⟩ => rfl

/-! ## The stored value -/

theorem pay15_apply (x0 : Vec Ideal S4000x128 .f32) (x1 : Vec Ideal S4000x4 .f32) (x2 : Vec Ideal S128x128 .f32) (x3 : Vec Ideal S2x128 .f32)
    (x4 : Vec Ideal S1x128 .f32) (x5 : Vec Ideal S128x64 .f32) (x6 : Vec Ideal S1x64 .f32) (x7 : Vec Ideal S64x3 .f32) (x8 : Vec Ideal S1x3 .f32)
    (p : Fin 4000) (q : Fin 3) :
    k15_pay1 (k15_pay3 x1) (k15_pay4 x1) (k15_pay5 x0 x1 x2 x3 x4 x5 x6) (k15_pay6 x7) (constant (F := Ideal) S4000x3 .f32 0x00000000#32) x8 (ix2 p q)
      = Cert.Spec.masked (Cert.Spec.dec (Cert.Spec.row x0 p) (fun k : Fin 2 => x1 (ix2 p ⟨k.val, by omega⟩)) (Cert.Spec.m2 x2) (Cert.Spec.m2 x3)
          (fun j => x4 (ix2 0 j)) (Cert.Spec.m2 x5) (fun j => x6 (ix2 0 j)) (Cert.Spec.m2 x7) (fun j => x8 (ix2 0 j)))
        (x1 (ix2 p 2)) (x1 (ix2 p 3)) q := by
  unfold k15_pay1 k15_pay3 k15_pay4 k15_pay5 k15_pay6 k15_pay2
  simp only [mulf_apply, addf_apply, subf_apply, maximumf_apply, truncf_apply, select_apply, broadcast_apply, shapeCast_self,
    mmH15, mmC15, mmM15, mmO15, broadcastTo_1b_ab_apply, broadcastCol15, sliceCoords15, sliceDisp15, sliceRot15,
    Ideal.ofBits_def, Ideal.ofBits_zero_f32, Ideal.ofBits_one_f32]
  rw [maskBit15]
  unfold Cert.Spec.masked Cert.Spec.dec Cert.Spec.aff Cert.Spec.lin Cert.Spec.relu
  by_cases hq : q.val < 2
  · rw [if_pos hq, if_pos hq, select_one]
  · rw [if_neg hq, if_neg hq, select_zero]

/-- The same at any index of the block. -/
theorem pay15_at (x0 : Vec Ideal S4000x128 .f32) (x1 : Vec Ideal S4000x4 .f32) (x2 : Vec Ideal S128x128 .f32) (x3 : Vec Ideal S2x128 .f32)
    (x4 : Vec Ideal S1x128 .f32) (x5 : Vec Ideal S128x64 .f32) (x6 : Vec Ideal S1x64 .f32) (x7 : Vec Ideal S64x3 .f32) (x8 : Vec Ideal S1x3 .f32)
    (j : S4000x3.Idx) :
    k15_pay1 (k15_pay3 x1) (k15_pay4 x1) (k15_pay5 x0 x1 x2 x3 x4 x5 x6) (k15_pay6 x7) (constant (F := Ideal) S4000x3 .f32 0x00000000#32) x8 j
      = Cert.Spec.masked (Cert.Spec.dec (Cert.Spec.row x0 (j 0)) (fun k : Fin 2 => x1 (ix2 (j 0) ⟨k.val, by omega⟩)) (Cert.Spec.m2 x2) (Cert.Spec.m2 x3)
          (fun j => x4 (ix2 0 j)) (Cert.Spec.m2 x5) (fun j => x6 (ix2 0 j)) (Cert.Spec.m2 x7) (fun j => x8 (ix2 0 j)))
        (x1 (ix2 (j 0) 2)) (x1 (ix2 (j 0) 3)) (j 1) := by
  obtain ⟨p, q, rfl⟩ : ∃ (p : Fin 4000) (q : Fin 3), j = ix2 p q := ⟨j 0, j 1, eq_ix2 j⟩
  exact pay15_apply x0 x1 x2 x3 x4 x5 x6 x7 x8 p q

/-! ## The whole result array as one function of the whole input arrays -/

/-- The decoder's result at node `i 0`, column `i 1`: the masked three-layer decoder of the node's feature row and its
    first two extra columns, masked by its last two. -/
noncomputable def G15 (H : S20000x128.Idx → EReal) (X : S20000x4.Idx → EReal) (W1h : S128x128.Idx → EReal) (W1c : S2x128.Idx → EReal)
    (B1 : S1x128.Idx → EReal) (W2 : S128x64.Idx → EReal) (B2 : S1x64.Idx → EReal) (W3 : S64x3.Idx → EReal) (B3 : S1x3.Idx → EReal) :
    S20000x3.Idx → EReal := fun i =>
  Cert.Spec.masked (Cert.Spec.dec (Cert.Spec.row H (i 0)) (fun k : Fin 2 => X (ix2 (i 0) ⟨k.val, by omega⟩)) (Cert.Spec.m2 W1h) (Cert.Spec.m2 W1c)
      (fun j => B1 (ix2 0 j)) (Cert.Spec.m2 W2) (fun j => B2 (ix2 0 j)) (Cert.Spec.m2 W3) (fun j => B3 (ix2 0 j)))
    (X (ix2 (i 0) 2)) (X (ix2 (i 0) 3)) (i 1)

/-- What the body stores at index `j` of its block is `G15` of the whole arrays at index `i`, as soon as the loaded blocks
    are the arrays' rows at `i 0` (the weights and biases whole) and `j`, `i` name the same column. -/
theorem store15_at (x0 : Vec Ideal S4000x128 .f32) (x1 : Vec Ideal S4000x4 .f32) (x2 : Vec Ideal S128x128 .f32) (x3 : Vec Ideal S2x128 .f32)
    (x4 : Vec Ideal S1x128 .f32) (x5 : Vec Ideal S128x64 .f32) (x6 : Vec Ideal S1x64 .f32) (x7 : Vec Ideal S64x3 .f32) (x8 : Vec Ideal S1x3 .f32)
    (H : S20000x128.Idx → EReal) (X : S20000x4.Idx → EReal) (W1h : S128x128.Idx → EReal) (W1c : S2x128.Idx → EReal)
    (B1 : S1x128.Idx → EReal) (W2 : S128x64.Idx → EReal) (B2 : S1x64.Idx → EReal) (W3 : S64x3.Idx → EReal) (B3 : S1x3.Idx → EReal)
    (j : S4000x3.Idx) (i : S20000x3.Idx)
    (h0 : ∀ a : Fin 128, x0 (ix2 (j 0) a) = H (ix2 (i 0) a)) (h1 : ∀ k : Fin 4, x1 (ix2 (j 0) k) = X (ix2 (i 0) k))
    (h2 : x2 = W1h) (h3 : x3 = W1c) (h4 : x4 = B1) (h5 : x5 = W2) (h6 : x6 = B2) (h7 : x7 = W3) (h8 : x8 = B3) (hq : j 1 = i 1) :
    k15_pay1 (k15_pay3 x1) (k15_pay4 x1) (k15_pay5 x0 x1 x2 x3 x4 x5 x6) (k15_pay6 x7) (constant (F := Ideal) S4000x3 .f32 0x00000000#32) x8 j
      = G15 H X W1h W1c B1 W2 B2 W3 B3 i := by
  rw [pay15_at]
  subst h2 h3 h4 h5 h6 h7 h8
  unfold G15
  have e0 : Cert.Spec.row x0 (j 0) = Cert.Spec.row H (i 0) := funext h0
  have e1 : (fun k : Fin 2 => x1 (ix2 (j 0) ⟨k.val, by omega⟩)) = fun k : Fin 2 => X (ix2 (i 0) ⟨k.val, by omega⟩) := funext fun k => h1 _
  rw [e0, e1, h1 2, h1 3, hq]

end Cert.KernelIdeal.Hand

end
-- ==== Proof.KI.Val15.lean ====
/-
  Region 15, the decoder kernel: the value half over the extended reals. Grid point `t` writes back rows
  `4000 t … 4000 t + 3999` of the result; what it writes is the masked decoder of the same rows of the feature and
  extra arrays (the weights and biases are whole at every point), so after the five points the result array is the
  masked decoder of every node.
-/
import proofs.«152161_j29669634081217_2_alg».proof.Proof.KI.Reg15
import proofs.«152161_j29669634081217_2_alg».proof.Proof.KI.Pay15
import proofs.«152161_j29669634081217_2_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Window 0's array as the region finds it, at its literal type. -/
noncomputable abbrev H15 (c : Dev nD) : S20000x128.Idx → EReal := V c (Pipeline.arrRef spec15 0)
/-- Window 1's array as the region finds it, at its literal type. -/
noncomputable abbrev X15 (c : Dev nD) : S20000x4.Idx → EReal := V c (Pipeline.arrRef spec15 1)
/-- Window 2's array as the region finds it, at its literal type. -/
noncomputable abbrev W1h15 (c : Dev nD) : S128x128.Idx → EReal := V c (Pipeline.arrRef spec15 2)
/-- Window 3's array as the region finds it, at its literal type. -/
noncomputable abbrev W1c15 (c : Dev nD) : S2x128.Idx → EReal := V c (Pipeline.arrRef spec15 3)
/-- Window 4's array as the region finds it, at its literal type. -/
noncomputable abbrev B1_15 (c : Dev nD) : S1x128.Idx → EReal := V c (Pipeline.arrRef spec15 4)
/-- Window 5's array as the region finds it, at its literal type. -/
noncomputable abbrev W2_15 (c : Dev nD) : S128x64.Idx → EReal := V c (Pipeline.arrRef spec15 5)
/-- Window 6's array as the region finds it, at its literal type. -/
noncomputable abbrev B2_15 (c : Dev nD) : S1x64.Idx → EReal := V c (Pipeline.arrRef spec15 6)
/-- Window 7's array as the region finds it, at its literal type. -/
noncomputable abbrev W3_15 (c : Dev nD) : S64x3.Idx → EReal := V c (Pipeline.arrRef spec15 7)
/-- Window 8's array as the region finds it, at its literal type. -/
noncomputable abbrev B3_15 (c : Dev nD) : S1x3.Idx → EReal := V c (Pipeline.arrRef spec15 8)

/-- The whole-buffer rectangle's offsets are zero on both axes. -/
theorem hz15 : (![0, 0] : Fin 2 → Nat) = fun _ => 0 := funext fun a => by fin_cases a <;> rfl

/-- The result buffer after the body is the stored value itself: the one store covers it, every load is whole. -/
theorem out15_9_eq (x0 : Vec Ideal S4000x128 .f32) (x1 : Vec Ideal S4000x4 .f32) (x2 : Vec Ideal S128x128 .f32) (x3 : Vec Ideal S2x128 .f32)
    (x4 : Vec Ideal S1x128 .f32) (x5 : Vec Ideal S128x64 .f32) (x6 : Vec Ideal S1x64 .f32) (x7 : Vec Ideal S64x3 .f32) (x8 : Vec Ideal S1x3 .f32) :
    out15_9 x0 x1 x2 x3 x4 x5 x6 x7 x8
      = k15_pay1 (k15_pay3 x1) (k15_pay4 x1) (k15_pay5 x0 x1 x2 x3 x4 x5 x6) (k15_pay6 x7) (constant (F := Ideal) S4000x3 .f32 0x00000000#32) x8 := by
  unfold out15_9
  rw [View.canon_unit_zero hz15]
  simp only [View.ld_unit_zero (S := S4000x128) hz15, View.ld_unit_zero (S := S4000x4) hz15, View.ld_unit_zero (S := S128x128) hz15, View.ld_unit_zero (S := S2x128) hz15, View.ld_unit_zero (S := S1x128) hz15, View.ld_unit_zero (S := S128x64) hz15, View.ld_unit_zero (S := S1x64) hz15, View.ld_unit_zero (S := S64x3) hz15, View.ld_unit_zero (S := S1x3) hz15]

/-- The printed index maps, decided over the five grid points: the feature and extra blocks move with the result block
    along the rows and sit at column block 0; every weight and bias block is block (0, 0); the result's row block is
    the point's number. -/
theorem idx15 : ∀ t : Fin cfg15.N,
    win15_0.index t (0 : Fin 2) = win15_9.index t (0 : Fin 2) ∧ win15_0.index t (1 : Fin 2) = 0
    ∧ win15_1.index t (0 : Fin 2) = win15_9.index t (0 : Fin 2) ∧ win15_1.index t (1 : Fin 2) = 0
    ∧ win15_2.index t (0 : Fin 2) = 0 ∧ win15_2.index t (1 : Fin 2) = 0
    ∧ win15_3.index t (0 : Fin 2) = 0 ∧ win15_3.index t (1 : Fin 2) = 0
    ∧ win15_4.index t (0 : Fin 2) = 0 ∧ win15_4.index t (1 : Fin 2) = 0
    ∧ win15_5.index t (0 : Fin 2) = 0 ∧ win15_5.index t (1 : Fin 2) = 0
    ∧ win15_6.index t (0 : Fin 2) = 0 ∧ win15_6.index t (1 : Fin 2) = 0
    ∧ win15_7.index t (0 : Fin 2) = 0 ∧ win15_7.index t (1 : Fin 2) = 0
    ∧ win15_8.index t (0 : Fin 2) = 0 ∧ win15_8.index t (1 : Fin 2) = 0
    ∧ win15_9.index t (1 : Fin 2) = 0 ∧ win15_9.index t (0 : Fin 2) ≤ 4 :=
  (by decide +kernel : ∀ t : Fin grid15.N, _)

/-- Every row block of the result is some point's. -/
theorem onto15 : ∀ q0 : Fin 5, ∃ t : Fin cfg15.N, win15_9.index t = ![q0.val, 0] :=
  (by decide +kernel : ∀ q0 : Fin 5, ∃ t : Fin grid15.N, win15_9.index t = ![q0.val, 0])

/-- Window 2's block at any point is its whole array. -/
theorem whole15_2 (c : Dev nD) (t : Fin cfg15.N) : (iblk15 V c 2 t : S128x128.Idx → EReal) = (V c (Pipeline.arrRef spec15 2)) := by
  obtain ⟨_, _, _, _, e0, e1, _, _, _, _, _, _, _, _, _, _, _, _, _, _⟩ := idx15 t
  funext y
  show (V c (Pipeline.arrRef spec15 2)) (((cfg15.win 2).blk t).view.emb y) = (V c (Pipeline.arrRef spec15 2)) y
  refine congrArg _ (funext fun ax => Fin.ext ?_)
  match ax with
  | ⟨0, _⟩ => show win15_2.index t (0 : Fin 2) * 128 + 1 * (y 0).val = (y 0).val; omega
  | ⟨1, _⟩ => show win15_2.index t (1 : Fin 2) * 128 + 1 * (y 1).val = (y 1).val; omega

/-- Window 3's block at any point is its whole array. -/
theorem whole15_3 (c : Dev nD) (t : Fin cfg15.N) : (iblk15 V c 3 t : S2x128.Idx → EReal) = (V c (Pipeline.arrRef spec15 3)) := by
  obtain ⟨_, _, _, _, _, _, e0, e1, _, _, _, _, _, _, _, _, _, _, _, _⟩ := idx15 t
  funext y
  show (V c (Pipeline.arrRef spec15 3)) (((cfg15.win 3).blk t).view.emb y) = (V c (Pipeline.arrRef spec15 3)) y
  refine congrArg _ (funext fun ax => Fin.ext ?_)
  match ax with
  | ⟨0, _⟩ => show win15_3.index t (0 : Fin 2) * 2 + 1 * (y 0).val = (y 0).val; omega
  | ⟨1, _⟩ => show win15_3.index t (1 : Fin 2) * 128 + 1 * (y 1).val = (y 1).val; omega

/-- Window 4's block at any point is its whole array. -/
theorem whole15_4 (c : Dev nD) (t : Fin cfg15.N) : (iblk15 V c 4 t : S1x128.Idx → EReal) = (V c (Pipeline.arrRef spec15 4)) := by
  obtain ⟨_, _, _, _, _, _, _, _, e0, e1, _, _, _, _, _, _, _, _, _, _⟩ := idx15 t
  funext y
  show (V c (Pipeline.arrRef spec15 4)) (((cfg15.win 4).blk t).view.emb y) = (V c (Pipeline.arrRef spec15 4)) y
  refine congrArg _ (funext fun ax => Fin.ext ?_)
  match ax with
  | ⟨0, _⟩ => show win15_4.index t (0 : Fin 2) * 1 + 1 * (y 0).val = (y 0).val; omega
  | ⟨1, _⟩ => show win15_4.index t (1 : Fin 2) * 128 + 1 * (y 1).val = (y 1).val; omega

/-- Window 5's block at any point is its whole array. -/
theorem whole15_5 (c : Dev nD) (t : Fin cfg15.N) : (iblk15 V c 5 t : S128x64.Idx → EReal) = (V c (Pipeline.arrRef spec15 5)) := by
  obtain ⟨_, _, _, _, _, _, _, _, _, _, e0, e1, _, _, _, _, _, _, _, _⟩ := idx15 t
  funext y
  show (V c (Pipeline.arrRef spec15 5)) (((cfg15.win 5).blk t).view.emb y) = (V c (Pipeline.arrRef spec15 5)) y
  refine congrArg _ (funext fun ax => Fin.ext ?_)
  match ax with
  | ⟨0, _⟩ => show win15_5.index t (0 : Fin 2) * 128 + 1 * (y 0).val = (y 0).val; omega
  | ⟨1, _⟩ => show win15_5.index t (1 : Fin 2) * 64 + 1 * (y 1).val = (y 1).val; omega

/-- Window 6's block at any point is its whole array. -/
theorem whole15_6 (c : Dev nD) (t : Fin cfg15.N) : (iblk15 V c 6 t : S1x64.Idx → EReal) = (V c (Pipeline.arrRef spec15 6)) := by
  obtain ⟨_, _, _, _, _, _, _, _, _, _, _, _, e0, e1, _, _, _, _, _, _⟩ := idx15 t
  funext y
  show (V c (Pipeline.arrRef spec15 6)) (((cfg15.win 6).blk t).view.emb y) = (V c (Pipeline.arrRef spec15 6)) y
  refine congrArg _ (funext fun ax => Fin.ext ?_)
  match ax with
  | ⟨0, _⟩ => show win15_6.index t (0 : Fin 2) * 1 + 1 * (y 0).val = (y 0).val; omega
  | ⟨1, _⟩ => show win15_6.index t (1 : Fin 2) * 64 + 1 * (y 1).val = (y 1).val; omega

/-- Window 7's block at any point is its whole array. -/
theorem whole15_7 (c : Dev nD) (t : Fin cfg15.N) : (iblk15 V c 7 t : S64x3.Idx → EReal) = (V c (Pipeline.arrRef spec15 7)) := by
  obtain ⟨_, _, _, _, _, _, _, _, _, _, _, _, _, _, e0, e1, _, _, _, _⟩ := idx15 t
  funext y
  show (V c (Pipeline.arrRef spec15 7)) (((cfg15.win 7).blk t).view.emb y) = (V c (Pipeline.arrRef spec15 7)) y
  refine congrArg _ (funext fun ax => Fin.ext ?_)
  match ax with
  | ⟨0, _⟩ => show win15_7.index t (0 : Fin 2) * 64 + 1 * (y 0).val = (y 0).val; omega
  | ⟨1, _⟩ => show win15_7.index t (1 : Fin 2) * 3 + 1 * (y 1).val = (y 1).val; omega

/-- Window 8's block at any point is its whole array. -/
theorem whole15_8 (c : Dev nD) (t : Fin cfg15.N) : (iblk15 V c 8 t : S1x3.Idx → EReal) = (V c (Pipeline.arrRef spec15 8)) := by
  obtain ⟨_, _, _, _, _, _, _, _, _, _, _, _, _, _, _, _, e0, e1, _, _⟩ := idx15 t
  funext y
  show (V c (Pipeline.arrRef spec15 8)) (((cfg15.win 8).blk t).view.emb y) = (V c (Pipeline.arrRef spec15 8)) y
  refine congrArg _ (funext fun ax => Fin.ext ?_)
  match ax with
  | ⟨0, _⟩ => show win15_8.index t (0 : Fin 2) * 1 + 1 * (y 0).val = (y 0).val; omega
  | ⟨1, _⟩ => show win15_8.index t (1 : Fin 2) * 3 + 1 * (y 1).val = (y 1).val; omega

/-- What a point writes back, for any contents `f` of the result buffer: if `f` at each index of the block is `G` at the
    array index the block's rectangle gives it, the write-back is the block's read of `G`. -/
theorem flushRead15 (t : Fin cfg15.N) (f : Vec Ideal S4000x3 .f32) (G : S20000x3.Idx → EReal)
    (h : ∀ j : S4000x3.Idx, f j = G (((cfg15.win 9).blk t).view.emb j)) :
    (cfg15.win 9).cut (grid15.coords t) f = ((cfg15.win 9).blk t).view.read (Elt Ideal) G := by
  funext j
  exact h j

set_option maxHeartbeats 1600000 in
/-- WHAT POINT `t` WRITES BACK is block `t` of `G15` of the arrays as the region finds them. -/
theorem flushed15_9_eq (c : Dev nD) (t : Fin cfg15.N) :
    (dat15 V c).flushed 9 t = ((cfg15.win 9).blk t).view.read (Elt Ideal)
      (G15 (V c (Pipeline.arrRef spec15 0)) (V c (Pipeline.arrRef spec15 1)) (V c (Pipeline.arrRef spec15 2)) (V c (Pipeline.arrRef spec15 3)) (V c (Pipeline.arrRef spec15 4)) (V c (Pipeline.arrRef spec15 5)) (V c (Pipeline.arrRef spec15 6)) (V c (Pipeline.arrRef spec15 7)) (V c (Pipeline.arrRef spec15 8))) := by
  show (cfg15.win 9).cut (grid15.coords t) ((dat15 V c).after 9 t) = _
  rw [after15_9]
  refine flushRead15 t _ _ (fun j => ?_)
  rw [out15_9_eq]
  obtain ⟨a0, a1, b0, b1, _, _, _, _, _, _, _, _, _, _, _, _, _, _, r1, _⟩ := idx15 t
  refine store15_at (iblk15 V c 0 t) (iblk15 V c 1 t) (iblk15 V c 2 t) (iblk15 V c 3 t) (iblk15 V c 4 t) (iblk15 V c 5 t) (iblk15 V c 6 t) (iblk15 V c 7 t) (iblk15 V c 8 t)
    (V c (Pipeline.arrRef spec15 0)) (V c (Pipeline.arrRef spec15 1)) (V c (Pipeline.arrRef spec15 2)) (V c (Pipeline.arrRef spec15 3)) (V c (Pipeline.arrRef spec15 4)) (V c (Pipeline.arrRef spec15 5)) (V c (Pipeline.arrRef spec15 6)) (V c (Pipeline.arrRef spec15 7)) (V c (Pipeline.arrRef spec15 8)) j (((cfg15.win 9).blk t).view.emb j) ?_ ?_
    (whole15_2 V c t) (whole15_3 V c t) (whole15_4 V c t) (whole15_5 V c t) (whole15_6 V c t) (whole15_7 V c t) (whole15_8 V c t) ?_
  · intro a
    show (V c (Pipeline.arrRef spec15 0)) (((cfg15.win 0).blk t).view.emb (ix2 (j 0) a)) = (V c (Pipeline.arrRef spec15 0)) (ix2 ((((cfg15.win 9).blk t).view.emb j) 0) a)
    refine congrArg _ (funext fun ax => Fin.ext ?_)
    match ax with
    | ⟨0, _⟩ => show win15_0.index t (0 : Fin 2) * 4000 + 1 * (j 0).val = win15_9.index t (0 : Fin 2) * 4000 + 1 * (j 0).val; omega
    | ⟨1, _⟩ => show win15_0.index t (1 : Fin 2) * 128 + 1 * a.val = a.val; omega
  · intro k
    show (V c (Pipeline.arrRef spec15 1)) (((cfg15.win 1).blk t).view.emb (ix2 (j 0) k)) = (V c (Pipeline.arrRef spec15 1)) (ix2 ((((cfg15.win 9).blk t).view.emb j) 0) k)
    refine congrArg _ (funext fun ax => Fin.ext ?_)
    match ax with
    | ⟨0, _⟩ => show win15_1.index t (0 : Fin 2) * 4000 + 1 * (j 0).val = win15_9.index t (0 : Fin 2) * 4000 + 1 * (j 0).val; omega
    | ⟨1, _⟩ => show win15_1.index t (1 : Fin 2) * 4 + 1 * k.val = k.val; omega
  · apply Fin.ext
    show (j 1).val = win15_9.index t (1 : Fin 2) * 3 + 1 * (j 1).val
    omega

/-- An index of the result array is in point `t`'s block iff each coordinate is in the block's range on its axis. -/
theorem mem_blk15 (t : Fin cfg15.N) (i : S20000x3.Idx) :
    i ∈ ((cfg15.win 9).blk t).view.set ↔ ∀ a : Fin 2, win15_9.index t a * S4000x3.size a ≤ (i a).val ∧ (i a).val < win15_9.index t a * S4000x3.size a + S4000x3.size a := by
  show i ∈ ((View.whole main_v299).slice (win15_9.rect t)).set ↔ _
  rw [View.set_slice_whole, Rect.mem_set_unit]
  exact Iff.rfl

/-- Row `r` of the result is covered by point `r / 4000`. -/
theorem covered15 (i : S20000x3.Idx) : ∃ t : Fin cfg15.N, (cfg15.win 9).flush t = true ∧ i ∈ ((cfg15.win 9).blk t).view.set := by
  have hi0 : (i 0).val < 20000 := idx2_lt0 i
  have hi1 : (i 1).val < 3 := idx2_lt1 i
  obtain ⟨t, ht⟩ := onto15 ⟨(i 0).val / 4000, by omega⟩
  have q0 : win15_9.index t (0 : Fin 2) = (i 0).val / 4000 := congrFun ht 0
  have q1 : win15_9.index t (1 : Fin 2) = 0 := congrFun ht 1
  refine ⟨t, flush15_9 t, ?_⟩
  rw [mem_blk15]
  intro a
  match a with
  | ⟨0, _⟩ => show win15_9.index t (0 : Fin 2) * 4000 ≤ (i 0).val ∧ (i 0).val < win15_9.index t (0 : Fin 2) * 4000 + 4000; omega
  | ⟨1, _⟩ => show win15_9.index t (1 : Fin 2) * 3 ≤ (i 1).val ∧ (i 1).val < win15_9.index t (1 : Fin 2) * 3 + 3; omega

/-- THE RESULT ARRAY after the region: `G15` of the arrays as the region finds them. -/
theorem final15_9_G (c : Dev nD) :
    (dat15 (F := Ideal) V c).arrAt 9 cfg15.N = G15 (V c (Pipeline.arrRef spec15 0)) (V c (Pipeline.arrRef spec15 1)) (V c (Pipeline.arrRef spec15 2)) (V c (Pipeline.arrRef spec15 3)) (V c (Pipeline.arrRef spec15 4)) (V c (Pipeline.arrRef spec15 5)) (V c (Pipeline.arrRef spec15 6)) (V c (Pipeline.arrRef spec15 7)) (V c (Pipeline.arrRef spec15 8)) :=
  (dat15 V c).arrAt_eq_of_cover 9 _ (fun t _ => flushed15_9_eq V c t) covered15

/-- The same at a node `p` and a column `q`, through the row formulas. -/
theorem final15_9 (c : Dev nD) (p : Fin 20000) (q : Fin 3) :
    (dat15 (F := Ideal) V c).arrAt 9 cfg15.N (ValueIdx.ix2 p q)
      = Cert.Spec.masked (Cert.Spec.dec (Cert.Spec.row (H15 V c) p) (fun k : Fin 2 => X15 V c (ValueIdx.ix2 p ⟨k.val, by omega⟩))
          (Cert.Spec.m2 (W1h15 V c)) (Cert.Spec.m2 (W1c15 V c)) (fun j => B1_15 V c (ValueIdx.ix2 0 j)) (Cert.Spec.m2 (W2_15 V c))
          (fun j => B2_15 V c (ValueIdx.ix2 0 j)) (Cert.Spec.m2 (W3_15 V c)) (fun j => B3_15 V c (ValueIdx.ix2 0 j)))
        (X15 V c (ValueIdx.ix2 p 2)) (X15 V c (ValueIdx.ix2 p 3)) q := by
  rw [final15_9_G]
  rfl

end Cert.KernelIdeal.Hand

end
-- ==== Proof.KI.Stage15.lean ====
/-
  Region 15, the decoder: the kernel's result array is the reference's decoder tail, array against array.

  The kernel reads the node features, an extra array whose four columns are the two coordinates and the two boundary
  flags, the first layer's weight as two row blocks (the 128 rows that meet the features, the 2 rows that meet the
  coordinates), and each bias as a one-row matrix. The reference reads the coordinates and the flags as separate
  arrays, the first layer's weight whole, and each bias as a vector. Under the equations that say these are the same
  numbers, every entry of the kernel's result is the same masked decoder of `Cert.Spec` as the reference's entry.
-/
import proofs.«152161_j29669634081217_2_alg».proof.Proof.KI.Val15
import proofs.«152161_j29669634081217_2_alg».proof.Proof.Ref.StageDec

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable [Cert.ReferenceIdeal.Facts₀]
variable (V : (c : Dev nD) → (b : Ref sig .tc) → Buf (Elt Ideal) ((c : Thread nD τ).loc b))

/-- The result array of region 15 is the reference's decoder tail of the reference-shaped inputs. -/
theorem stage15_9 (c : Dev nD)
    (H : FVec Ideal Cert.ReferenceIdeal.S20000x128 .f32) (C2 : FVec Ideal Cert.ReferenceIdeal.S20000x2 .f32)
    (disp rot : FVec Ideal Cert.ReferenceIdeal.S20000x1 .f32)
    (W1 : FVec Ideal Cert.ReferenceIdeal.S130x128 .f32) (b1 : FVec Ideal Cert.ReferenceIdeal.S128 .f32)
    (W2 : FVec Ideal Cert.ReferenceIdeal.S128x64 .f32) (b2 : FVec Ideal Cert.ReferenceIdeal.S64 .f32)
    (W3 : FVec Ideal Cert.ReferenceIdeal.S64x3 .f32) (b3 : FVec Ideal Cert.ReferenceIdeal.S3 .f32)
    (hH : H15 V c = H)
    (hE0 : ∀ (p : Fin 20000) (k : Fin 2), X15 V c (ix2 p ⟨k.val, by omega⟩) = C2 (ix2 p k))
    (hE2 : ∀ p : Fin 20000, X15 V c (ix2 p 2) = disp (ix2 p 0))
    (hE3 : ∀ p : Fin 20000, X15 V c (ix2 p 3) = rot (ix2 p 0))
    (hW1h : ∀ (a : Fin 128) (k : Fin 128), W1h15 V c (ix2 a k) = W1 (ix2 ⟨a.val, by omega⟩ k))
    (hW1c : ∀ (b : Fin 2) (k : Fin 128), W1c15 V c (ix2 b k) = W1 (ix2 ⟨128 + b.val, by omega⟩ k))
    (hB1 : ∀ j : Fin 128, B1_15 V c (ix2 0 j) = b1 (ix1 j))
    (hW2 : W2_15 V c = W2)
    (hB2 : ∀ j : Fin 64, B2_15 V c (ix2 0 j) = b2 (ix1 j))
    (hW3 : W3_15 V c = W3)
    (hB3 : ∀ j : Fin 3, B3_15 V c (ix2 0 j) = b3 (ix1 j)) :
    ((dat15 (F := Ideal) V c).arrAt 9 cfg15.N : Cert.ReferenceIdeal.S20000x3.Idx → EReal)
      = Cert.ReferenceIdeal.Hand.decRef H C2 disp rot W1 b1 W2 b2 W3 b3 := by
  funext i
  obtain ⟨p, q, rfl⟩ : ∃ (p : Fin 20000) (q : Fin 3), i = ix2 p q := ⟨i 0, i 1, eq_ix2 i⟩
  refine (final15_9 V c p q).trans ?_
  rw [Cert.ReferenceIdeal.Hand.refDec]
  have e0 : Cert.Spec.row (H15 V c) p = Cert.Spec.row H p := by rw [hH]
  have e1 : (fun k : Fin 2 => X15 V c (ix2 p ⟨k.val, by omega⟩)) = Cert.Spec.row C2 p := funext fun k => hE0 p k
  have e2 : Cert.Spec.m2 (W1h15 V c) = fun (a : Fin 128) (k : Fin 128) => W1 (ix2 ⟨a.val, by omega⟩ k) :=
    funext fun a => funext fun k => hW1h a k
  have e3 : Cert.Spec.m2 (W1c15 V c) = fun (b : Fin 2) (k : Fin 128) => W1 (ix2 ⟨128 + b.val, by omega⟩ k) :=
    funext fun b => funext fun k => hW1c b k
  have e4 : (fun j : Fin 128 => B1_15 V c (ix2 0 j)) = Cert.Spec.v1 b1 := funext hB1
  have e5 : Cert.Spec.m2 (W2_15 V c) = Cert.Spec.m2 W2 := by rw [hW2]
  have e6 : (fun j : Fin 64 => B2_15 V c (ix2 0 j)) = Cert.Spec.v1 b2 := funext hB2
  have e7 : Cert.Spec.m2 (W3_15 V c) = Cert.Spec.m2 W3 := by rw [hW3]
  have e8 : (fun j : Fin 3 => B3_15 V c (ix2 0 j)) = Cert.Spec.v1 b3 := funext hB3
  rw [e0, e1, e2, e3, e4, e5, e6, e7, e8, hE2 p, hE3 p]

end Cert.KernelIdeal.Hand

end
-- ==== Proof.Bridge.Dec.lean ====
/-
  The last region of the kernel program computes the reference's result. The decoder's region reads the final node
  features, one array whose four columns are the two picked position columns and the two boundary flags, the first
  layer's weight as its first 128 rows and its last 2 rows, and each bias as a one-row matrix; the reference reads the
  same numbers as separate arrays, the weight whole and the biases as vectors. Given that the node features entering
  the region are the reference's, the region's result buffer is the reference's masked prediction.
-/
import proofs.«152161_j29669634081217_2_alg».proof.Proof.KI.Outs
import proofs.«152161_j29669634081217_2_alg».proof.Proof.KI.Reads7
import proofs.«152161_j29669634081217_2_alg».proof.Proof.KI.Stage15
import proofs.«152161_j29669634081217_2_alg».proof.Proof.Ref.Stages
import proofs.«152161_j29669634081217_2_alg».proof.Proof.Align
import proofs.«152161_j29669634081217_2_alg».proof.Proof.Bridge.Args
import Idealize.ShloMosaic.Lib.Pipeline.Value

set_option maxRecDepth 16384

noncomputable section

namespace Cert.Bridge

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

/-! ## Three arrays joined along the columns, read at a column

A [20000,2] array, then two [20000,1] arrays, joined into [20000,4]: columns 0 and 1 are the first array's, column 2
is the second array's only column, column 3 the third's. -/

theorem joined4_left {α : Type} (x : S20000x2.Idx → α) (y z : S20000x1.Idx → α)
    (h : Shape.Concatenates [S20000x2, S20000x1, S20000x1] S20000x4 1)
    (p : Fin 20000) (k : Fin 2) :
    concatenate S20000x4 1 [⟨S20000x2, x⟩, ⟨S20000x1, y⟩, ⟨S20000x1, z⟩] h (ix2 p ⟨k.val, by omega⟩) = x (ix2 p k) :=
  concatenate_apply_piece (t := S20000x4) 1 [⟨S20000x2, x⟩, ⟨S20000x1, y⟩, ⟨S20000x1, z⟩] h _ 0 (show (0 : ℕ) < 3 by decide) S20000x2 x rfl rfl 0 rfl (ix2 p k)
    (fun b hb => by
      match b with
      | ⟨0, _⟩ => rfl
      | ⟨1, _⟩ => exact absurd rfl hb)
    (Nat.zero_add _)

theorem joined4_col2 {α : Type} (x : S20000x2.Idx → α) (y z : S20000x1.Idx → α)
    (h : Shape.Concatenates [S20000x2, S20000x1, S20000x1] S20000x4 1)
    (p : Fin 20000) :
    concatenate S20000x4 1 [⟨S20000x2, x⟩, ⟨S20000x1, y⟩, ⟨S20000x1, z⟩] h (ix2 p 2) = y (ix2 p 0) :=
  concatenate_apply_piece (t := S20000x4) 1 [⟨S20000x2, x⟩, ⟨S20000x1, y⟩, ⟨S20000x1, z⟩] h _ 1 (show (1 : ℕ) < 3 by decide) S20000x1 y rfl rfl 2 rfl (ix2 p 0)
    (fun b hb => by
      match b with
      | ⟨0, _⟩ => rfl
      | ⟨1, _⟩ => exact absurd rfl hb)
    rfl

theorem joined4_col3 {α : Type} (x : S20000x2.Idx → α) (y z : S20000x1.Idx → α)
    (h : Shape.Concatenates [S20000x2, S20000x1, S20000x1] S20000x4 1)
    (p : Fin 20000) :
    concatenate S20000x4 1 [⟨S20000x2, x⟩, ⟨S20000x1, y⟩, ⟨S20000x1, z⟩] h (ix2 p 3) = z (ix2 p 0) :=
  concatenate_apply_piece (t := S20000x4) 1 [⟨S20000x2, x⟩, ⟨S20000x1, y⟩, ⟨S20000x1, z⟩] h _ 2 (show (2 : ℕ) < 3 by decide) S20000x1 z rfl rfl 3 rfl (ix2 p 0)
    (fun b hb => by
      match b with
      | ⟨0, _⟩ => rfl
      | ⟨1, _⟩ => exact absurd rfl hb)
    rfl

/-! ## The two row blocks of the first layer's [130,128] weight -/

theorem topRows_apply {α : Type} (W : S130x128.Idx → α) (h : S130x128.Slices ![0, 0] S128x128) (a k : Fin 128) :
    extractStridedSlice S128x128 ![0, 0] W h (ix2 a k) = W (ix2 ⟨a.val, by omega⟩ k) :=
  extractStridedSlice_apply ![0, 0] W h (ix2 a k) (ix2 ⟨a.val, by omega⟩ k) (fun ax => by
    match ax with
    | ⟨0, _⟩ => exact (Nat.zero_add _).symm
    | ⟨1, _⟩ => exact (Nat.zero_add _).symm)

theorem lastRows_apply {α : Type} (W : S130x128.Idx → α) (h : S130x128.Slices ![128, 0] S2x128) (b : Fin 2) (k : Fin 128) :
    extractStridedSlice S2x128 ![128, 0] W h (ix2 b k) = W (ix2 ⟨128 + b.val, by omega⟩ k) :=
  extractStridedSlice_apply ![128, 0] W h (ix2 b k) (ix2 ⟨128 + b.val, by omega⟩ k) (fun ax => by
    match ax with
    | ⟨0, _⟩ => rfl
    | ⟨1, _⟩ => exact (Nat.zero_add _).symm)

variable (m : (ℓ : Loc nD τ sig) → Buf (Elt Ideal) ℓ)

/-- The two position columns the kernel program's host picks are the reference's: the same gather, over the same
    literal column numbers, of the same argument. -/
theorem cols_eq (c : Dev nD) : posCols m c = Cert.ReferenceIdeal.Hand.c2S (argsOf m c) := rfl

/-- The entry contents of region 15 through the generated valuation. -/
theorem entry15 (c : Dev nD) (r : Ref sig .tc) : W31 m c r = V31 m (outs m) c r := by rw [VW31]

/-- What region 15 leaves in its result buffer. -/
theorem left15 (c : Dev nD) : W32 m c main_v299 = (dat15 (F := Ideal) (fun c b => W31 m c b) c).arrAt 9 cfg15.N := by
  unfold W32; exact Function.update_self _ _ _

/-- The four-column array region 15 reads. -/
theorem extra15 (c : Dev nD) :
    W31 m c main_v293 = concatenate S20000x4 1 [⟨S20000x2, posCols m c⟩, ⟨S20000x1, m ((c : Thread nD τ).loc main_arg3)⟩, ⟨S20000x1, m ((c : Thread nD τ).loc main_arg4)⟩] concatenates_S20000x2_S20000x1_S20000x1_S20000x4_d1 :=
  (entry15 m c main_v293).trans (in15_1 m (outs m) c)

/-- Region 15 leaves the reference's prediction, given that the node features it is entered with are the reference's
    features after the sixth layer. -/
theorem b15 (c : Dev nD)
    (hh : (W30 m c main_v292_0 : S20000x128.Idx → EReal) = Cert.ReferenceIdeal.Hand.hS (argsOf m c) 6) :
    (W32 m c main_v299 : S20000x3.Idx → EReal) = Cert.ReferenceIdeal.Hand.pred (argsOf m c) := by
  refine (left15 m c).trans ?_
  exact Cert.KernelIdeal.Hand.stage15_9 (fun c b => W31 m c b) c
    (Cert.ReferenceIdeal.Hand.hS (argsOf m c) 6) (Cert.ReferenceIdeal.Hand.c2S (argsOf m c))
    (argsOf m c).a3 (argsOf m c).a4 (argsOf m c).a25 (argsOf m c).a26 (argsOf m c).a27 (argsOf m c).a28
    (argsOf m c).a29 (argsOf m c).a30
    ((entry15 m c main_v292_0).trans ((in15_0 m (outs m) c).trans hh))
    (fun p k => (congrFun (extra15 m c) _).trans ((joined4_left _ _ _ _ p k).trans (congrFun (cols_eq m c) _)))
    (fun p => (congrFun (extra15 m c) _).trans (joined4_col2 _ _ _ _ p))
    (fun p => (congrFun (extra15 m c) _).trans (joined4_col3 _ _ _ _ p))
    (fun a k => (congrFun ((entry15 m c main_v294).trans (in15_2 m (outs m) c)) _).trans (topRows_apply _ _ a k))
    (fun b k => (congrFun ((entry15 m c main_v295).trans (in15_3 m (outs m) c)) _).trans (lastRows_apply _ _ b k))
    (fun j => (congrFun ((entry15 m c main_v296).trans (in15_4 m (outs m) c)) (ix2 (0 : Fin 1) j)).trans (Cert.Align.biasRow128 _ _ j))
    ((entry15 m c main_arg27).trans (in15_5 m (outs m) c))
    (fun j => (congrFun ((entry15 m c main_v297).trans (in15_6 m (outs m) c)) (ix2 (0 : Fin 1) j)).trans (Cert.Align.biasRow64 _ _ j))
    ((entry15 m c main_arg29).trans (in15_7 m (outs m) c))
    (fun j => (congrFun ((entry15 m c main_v298).trans (in15_8 m (outs m) c)) (ix2 (0 : Fin 1) j)).trans (Cert.Align.biasRow3 _ _ j))

end Cert.Bridge

end
-- ==== Proof.Bridge.Chain.lean ====
/-
  The chain: the kernel program's result is the reference's prediction of the same arguments.

  Both programs compute the same network. The node and edge features are each encoded by a two-layer perceptron,
  row by row. Six message-passing layers follow; in layer `l` the node features `h` are projected twice
  (`a = h Ws`, `b = h Wd`), each edge gathers `a` at its sender and `b` at its receiver and passes them with its
  own encoded features through a perceptron to a message, the messages are added up at their receivers, and a
  perceptron of a node's features and its sum, added to the features, gives the next `h`. A three-layer decoder of
  `h` and two coordinates gives the prediction, masked at the boundary.

  The kernel program runs each of these stages as one region over blocks of rows, the reference as whole-array
  operations; between regions the kernel program's host operations (the gathers, the scatter-add, the slices of the
  stacked weights) are the reference's own functions of equal arrays. Stage by stage the buffer a region leaves is
  the reference's named array of the same 31 arguments: the front (`b0`, `b1`, `b2a`, `b2b`), then per layer the
  messages (`bm`), the new features (`bh`) and the next projections (`ba`, `bb`), last the decoder (`b15`). Each
  step asks only for the equations the steps before it proved, so the chain is their composition.
-/
import proofs.«152161_j29669634081217_2_alg».proof.Proof.Bridge.Front
import proofs.«152161_j29669634081217_2_alg».proof.Proof.Bridge.Layer0
import proofs.«152161_j29669634081217_2_alg».proof.Proof.Bridge.Layer1
import proofs.«152161_j29669634081217_2_alg».proof.Proof.Bridge.Layer2
import proofs.«152161_j29669634081217_2_alg».proof.Proof.Bridge.Layer3
import proofs.«152161_j29669634081217_2_alg».proof.Proof.Bridge.Layer4
import proofs.«152161_j29669634081217_2_alg».proof.Proof.Bridge.Layer5
import proofs.«152161_j29669634081217_2_alg».proof.Proof.Bridge.Dec
import proofs.«152161_j29669634081217_2_alg».proof.Proof.KI.Outs

noncomputable section

namespace Cert.Bridge

open Idealize.ShloMosaic Idealize.ShloMosaic.TcCoe Idealize.SL.Sem
open Cert.KernelIdeal Cert.KernelIdeal.Gen Cert.KernelIdeal.Hand

variable (m : (ℓ : Loc nD τ sig) → Buf (Elt Ideal) ℓ)

/-- THE RESULT: what the kernel program leaves in its result buffer — the last boundary's contents of `main_v299` —
    is the reference's prediction of the launch memory's 31 arguments. -/
theorem result (c : Dev nD) :
    Cert.KernelIdeal.Gen.V32 m (Cert.KernelIdeal.Hand.outs m) c Cert.KernelIdeal.main_v299
      = Cert.ReferenceIdeal.Hand.pred (argsOf m c) := by
  -- the front: the two encoders, then layer 0's projections of the encoded nodes
  have h0 : W2 m c main_v14 = Cert.ReferenceIdeal.Hand.hS (argsOf m c) 0 := b0 m c
  have he := b1 m c
  have a0 := b2a m c
  have d0 := b2b m c
  -- layer 0: the messages from the projections and the encoded edges; then the new features and the next layer's projections
  have m0 := bm0 m c a0 d0 he
  have h1 := bh0 m c m0 h0
  have a1 := ba0 m c m0 h0
  have d1 := bb0 m c m0 h0
  -- layer 1: the messages from the projections and the encoded edges; then the new features and the next layer's projections
  have m1 := bm1 m c a1 d1 he
  have h2 := bh1 m c m1 h1
  have a2 := ba1 m c m1 h1
  have d2 := bb1 m c m1 h1
  -- layer 2: the messages from the projections and the encoded edges; then the new features and the next layer's projections
  have m2 := bm2 m c a2 d2 he
  have h3 := bh2 m c m2 h2
  have a3 := ba2 m c m2 h2
  have d3 := bb2 m c m2 h2
  -- layer 3: the messages from the projections and the encoded edges; then the new features and the next layer's projections
  have m3 := bm3 m c a3 d3 he
  have h4 := bh3 m c m3 h3
  have a4 := ba3 m c m3 h3
  have d4 := bb3 m c m3 h3
  -- layer 4: the messages from the projections and the encoded edges; then the new features and the next layer's projections
  have m4 := bm4 m c a4 d4 he
  have h5 := bh4 m c m4 h4
  have a5 := ba4 m c m4 h4
  have d5 := bb4 m c m4 h4
  -- layer 5: the messages from the projections and the encoded edges; then the new features
  have m5 := bm5 m c a5 d5 he
  have h6 := bh5 m c m5 h5
  -- the decoder on the features after the sixth layer
  rw [VW32]
  exact b15 m c h6

end Cert.Bridge

end
-- ==== Proof.lean ====
/-
  The proof of `Cert.Claim` for the graph network: the three frames, and the agreement of the kernel program with
  the reference at the ideal values.

  THE NETWORK. A graph of 20000 nodes and 160000 directed edges. Every stage acts on each node's or each edge's feature
  row by itself. A two-layer perceptron `relu (x W1 + b1) W2 + b2` encodes six of a node's input features to 128, and
  another one an edge's ten features to 128. Then six layers: with `h` the node features, `a = h Ws` and `b = h Wd`
  are taken at an edge's sender and receiver, the edge's message is `relu (((a_src + b_dst) + e We) + be1) W2 + b2`
  of its encoded features `e`, the messages are summed at their receivers into `agg`, and
  `h + (relu ((h Wnh + agg Wna) + bn1) Wn2 + bn2)` is the next `h`. A three-layer perceptron of the last `h` and two
  position coordinates gives three numbers per node, multiplied by one minus the node's boundary masks.

  WHY THE TWO PROGRAMS AGREE. The kernel program cuts every stage into blocks of rows (4000 nodes or 8000 edges) and
  runs one kernel per stage over the grid of blocks; the reference applies each stage to the whole array. At the ideal
  instance a float is an extended real, every change of format is the identity, and a matrix product, in a kernel or
  on the host, is the plain sum of products over the one contracted axis, whether or not it accumulates into a zero
  block first. So an entry of a stored block is the same row formula of the same row of the inputs as the reference's
  entry: the same finite sums over the same index sets, term for term, with the additions grouped as both programs
  group them. A block's row `r` at grid point `t` is row `t · (block rows) + r` of the array, a weight or bias window is
  the whole of its array at every point, and the blocks tile the rows, so each region leaves in its result array
  exactly the reference's array for that stage. The gathers at the edge lists, the scatter-add of the messages and the
  slices of the stacked weights are host operations in both programs: the same functions applied to arrays already
  shown equal. The row formulas are compared as written (nothing is cancelled, nothing is reassociated), so the
  equations hold for all extended reals, infinities included: the agreement below never uses its hypothesis that the
  inputs are finite.

  THE FRAMES. Each program terminates on every weakly fair execution with its 31 arguments unchanged: in the kernel
  programs each region's kernel, at every grid point, loads whole blocks and stores each result block whole through one
  store, and the host stretches between regions write no argument; the reference writes no argument.
-/
import proofs.«152161_j29669634081217_2_alg».proof.Defs
import proofs.«152161_j29669634081217_2_alg».proof.Proof.Gen.Kernel
import proofs.«152161_j29669634081217_2_alg».proof.Proof.Gen.KernelIdeal
import proofs.«152161_j29669634081217_2_alg».proof.Proof.Gen.ReferenceIdeal
import proofs.«152161_j29669634081217_2_alg».proof.Proof.Gen.Pre_finite_inputs
import proofs.«152161_j29669634081217_2_alg».proof.Proof.KI.Run
import proofs.«152161_j29669634081217_2_alg».proof.Proof.K.Run
import proofs.«152161_j29669634081217_2_alg».proof.Proof.Ref.Keep
import proofs.«152161_j29669634081217_2_alg».proof.Proof.Ref.RunPred
import proofs.«152161_j29669634081217_2_alg».proof.Proof.Bridge.Chain
import Idealize.ShloMosaic.Adequacy
import Idealize.ShloMosaic.Init

noncomputable section

namespace Cert.Proof

open Idealize.ShloMosaic Idealize.ShloMosaic.TcCoe Idealize.SL.Sem

/-- The word-level kernel program's frame. -/
theorem frame_K : Cert.frame_Kernel := fun m ρ _ => Cert.Kernel.Hand.frame m ρ

/-- The kernel program's frame at the ideal instance. -/
theorem frame_KI : Cert.frame_KernelIdeal := fun m ρ _ => Cert.KernelIdeal.Hand.frame m ρ

/-- The reference's frame. -/
theorem frame_ri : Cert.frame_ReferenceIdeal := Cert.Proof.RefClaims.frame_ri

/-- Memories that agree on the 31 arguments give the two programs the same argument record. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) :
    Cert.ReferenceIdeal.Hand.argsRef m' c = Cert.Bridge.argsOf m c := by
  obtain ⟨h0, h1, h2, h3, h4, h5, h6, h7, h8, h9, h10, h11, h12, h13, h14, h15, h16, h17, h18, h19, h20, h21, h22, h23, h24, h25, h26, h27, h28, h29, h30⟩ := hagree
  unfold Cert.ReferenceIdeal.Hand.argsRef
  rw [h0, h1, h2, h3, h4, h5, h6, h7, h8, h9, h10, h11, h12, h13, h14, h15, h16, h17, h18, h19, h20, h21, h22, h23, h24, h25, h26, h27, h28, h29, h30]
  rfl

/-- At the ideal instance both programs run, the kernel program's result buffer ends at the last boundary's contents
    and the reference's at its prediction of its arguments; the arguments agree, and the chain of stages
    (`Cert.Bridge.result`) says the two arrays are one. -/
theorem algebraic : Cert.algebraic_KernelIdeal_ReferenceIdeal := by
  intro m ρ m' ρ' _ hagree
  refine ⟨fun c => Cert.KernelIdeal.Gen.V32 m (Cert.KernelIdeal.Hand.outs m) c Cert.KernelIdeal.main_v299,
    Cert.KernelIdeal.Hand.run_main m ρ, ?_⟩
  refine (θ_run Cert.ReferenceIdeal.defs _ _).mono (fun r h c => ⟨(h c).1.trans ?_, (h c).2⟩)
    (Cert.ReferenceIdeal.Hand.run_pred m' ρ')
  rw [args_eq m m' c (hagree c)]
  exact (Cert.Bridge.result m c).symm

theorem claim : Cert.Claim :=
  ⟨Cert.Kernel.Gen.facts, Cert.KernelIdeal.Gen.facts, Cert.ReferenceIdeal.Gen.facts, Cert.Pre_finite_inputs.Gen.facts,
    frame_K, frame_KI, frame_ri, trivial, algebraic⟩

end Cert.Proof

end
